-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v219)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v219) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v427) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4 : Shape := ⟨2, ![16, 4]⟩
abbrev S50000x6 : Shape := ⟨2, ![50000, 6]⟩
abbrev S400000x2 : Shape := ⟨2, ![400000, 2]⟩
abbrev S400000 : Shape := ⟨1, ![400000]⟩
abbrev S50000 : Shape := ⟨1, ![50000]⟩
abbrev S6x64 : Shape := ⟨2, ![6, 64]⟩
abbrev S64 : Shape := ⟨1, ![64]⟩
abbrev S2x64 : Shape := ⟨2, ![2, 64]⟩
abbrev S3x64x64 : Shape := ⟨3, ![3, 64, 64]⟩
abbrev S3x64 : Shape := ⟨2, ![3, 64]⟩
abbrev S68x256 : Shape := ⟨2, ![68, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S16x4 : S_.BroadcastsInDim S16x4 (![] : Fin 0 → Fin S16x4.rank)
  reducesTo_S16x4_S_d0_1 : S16x4.ReducesTo [0, 1] S_
  h_S_ : 0 < S_.numel
  bcast_S_S50000x6 : S_.BroadcastsInDim S50000x6 (![] : Fin 0 → Fin S50000x6.rank)
  reducesTo_S50000x6_S_d0_1 : S50000x6.ReducesTo [0, 1] S_
  bcast_S_S400000x2 : S_.BroadcastsInDim S400000x2 (![] : Fin 0 → Fin S400000x2.rank)
  reducesTo_S400000x2_S_d0_1 : S400000x2.ReducesTo [0, 1] S_
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S68x256 : S_.BroadcastsInDim S68x256 (![] : Fin 0 → Fin S68x256.rank)
  reducesTo_S68x256_S_d0_1 : S68x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_
  bcast_S_S400000 : S_.BroadcastsInDim S400000 (![] : Fin 0 → Fin S400000.rank)
  reducesTo_S400000_S_d0 : S400000.ReducesTo [0] S_

variable [Facts]

def fn_part8 {F : FTy → Type} [FloatOps F] (main_arg3 : IVec S400000 32) (main_arg4 : IVec S400000 32) (main_v133 : IVec S_ 1) (main_v135 : IVec S400000 1) (main_c_53 : IVec S_ 32) : IVec S_ 1 :=
  let main_v136 : IVec S400000 32 := broadcastInDim S400000 ![] bcast_S_S400000 main_c_53
  let main_v137 : IVec S400000 1 := cmpi .slt main_arg3 main_v136
  let main_v138 : IVec S400000 1 := andi main_v135 main_v137
  let main_c_54 : IVec S_ 1 := constantI S_ 1 1#1
  let main_v139 : IVec S_ 1 := (fun x v => Host.reduce IntOp.andi x v reducesTo_S400000_S_d0 h_S_) main_v138 main_c_54
  let main_v140 : IVec S_ 1 := andi main_v133 main_v139
  let main_c_55 : IVec S_ 32 := constantI S_ 32 0#32
  let main_v141 : IVec S400000 32 := broadcastInDim S400000 ![] bcast_S_S400000 main_c_55
  let main_v142 : IVec S400000 1 := cmpi .sge main_arg4 main_v141
  let main_c_56 : IVec S_ 32 := constantI S_ 32 50000#32
  let main_v143 : IVec S400000 32 := broadcastInDim S400000 ![] bcast_S_S400000 main_c_56
  let main_v144 : IVec S400000 1 := cmpi .slt main_arg4 main_v143
  let main_v145 : IVec S400000 1 := andi main_v142 main_v144
  let main_c_57 : IVec S_ 1 := constantI S_ 1 1#1
  let main_v146 : IVec S_ 1 := (fun x v => Host.reduce IntOp.andi x v reducesTo_S400000_S_d0 h_S_) main_v145 main_c_57
  let main_v147 : IVec S_ 1 := andi main_v140 main_v146
  main_v147

def fn_part7 {F : FTy → Type} [FloatOps F] (main_arg3 : IVec S400000 32) (main_arg4 : IVec S400000 32) (main_arg28 : FVec F S256x2 .f32) (main_arg29 : FVec F S2 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S256x2 .f32 := Host.absf main_arg28
  let main_cst_48 : FVec F S_ .f32 := constant S_ .f32 0x7F800000#32
  let main_v125 : FVec F S256x2 .f32 := broadcastInDim S256x2 ![] bcast_S_S256x2 main_cst_48
  let main_v126 : IVec S256x2 1 := cmpf .olt main_v124 main_v125
  let main_c_49 : IVec S_ 1 := constantI S_ 1 1#1
  let main_v127 : IVec S_ 1 := (fun x v => Host.reduce IntOp.andi x v reducesTo_S256x2_S_d0_1 h_S_) main_v126 main_c_49
  let main_v128 : IVec S_ 1 := andi main_v123 main_v127
  let main_v129 : FVec F S2 .f32 := Host.absf main_arg29
  let main_cst_50 : FVec F S_ .f32 := constant S_ .f32 0x7F800000#32
  let main_v130 : FVec F S2 .f32 := broadcastInDim S2 ![] bcast_S_S2 main_cst_50
  let main_v131 : IVec S2 1 := cmpf .olt main_v129 main_v130
  let main_c_51 : IVec S_ 1 := constantI S_ 1 1#1
  let main_v132 : IVec S_ 1 := (fun x v => Host.reduce IntOp.andi x v reducesTo_S2_S_d0 h_S_) main_v131 main_c_51
  let main_v133 : IVec S_ 1 := andi main_v128 main_v132
  let main_c_52 : IVec S_ 32 := constantI S_ 32 0#32
  let main_v134 : IVec S400000 32 := broadcastInDim S400000 ![] bcast_S_S400000 main_c_52
  let main_v135 : IVec S400000 1 := cmpi .sge main_arg3 main_v134
  let main_c_53 : IVec S_ 32 := constantI S_ 32 50000#32
  fn_part8 (F := F) main_arg3 main_arg4 main_v133 main_v135 main_c_53

def fn_part6 {F : FTy → Type} [FloatOps F] (main_arg3 : IVec S400000 32) (main_arg4 : IVec S400000 32) (main_arg24 : FVec F S68x256 .f32) (main_arg25 : FVec F S256 .f32) (main_arg26 : FVec F S256x256 .f32) (main_arg27 : FVec F S256 .f32) (main_arg28 : FVec F S256x2 .f32) (main_arg29 : FVec F S2 .f32) (main_v98 : IVec S_ 1) (main_v101 : IVec S3x64 1) (main_c_39 : IVec S_ 1) : IVec S_ 1 :=
  let main_v102 : IVec S_ 1 := (fun x v => Host.reduce IntOp.andi x v reducesTo_S3x64_S_d0_1 h_S_) main_v101 main_c_39
  let main_v103 : IVec S_ 1 := andi main_v98 main_v102
  let main_v104 : FVec F S68x256 .f32 := Host.absf main_arg24
  let main_cst_40 : FVec F S_ .f32 := constant S_ .f32 0x7F800000#32
  let main_v105 : FVec F S68x256 .f32 := broadcastInDim S68x256 ![] bcast_S_S68x256 main_cst_40
  let main_v106 : IVec S68x256 1 := cmpf .olt main_v104 main_v105
  let main_c_41 : IVec S_ 1 := constantI S_ 1 1#1
  let main_v107 : IVec S_ 1 := (fun x v => Host.reduce IntOp.andi x v reducesTo_S68x256_S_d0_1 h_S_) main_v106 main_c_41
  let main_v108 : IVec S_ 1 := andi main_v103 main_v107
  let main_v109 : FVec F S256 .f32 := Host.absf main_arg25
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256x256 .f32 := Host.absf main_arg26
  let main_cst_44 : FVec F S_ .f32 := constant S_ .f32 0x7F800000#32
  let main_v115 : FVec F S256x256 .f32 := broadcastInDim S256x256 ![] bcast_S_S256x256 main_cst_44
  let main_v116 : IVec S256x256 1 := cmpf .olt main_v114 main_v115
  let main_c_45 : IVec S_ 1 := constantI S_ 1 1#1
  let main_v117 : IVec S_ 1 := (fun x v => Host.reduce IntOp.andi x v reducesTo_S256x256_S_d0_1 h_S_) main_v116 main_c_45
  let main_v118 : IVec S_ 1 := andi main_v113 main_v117
  let main_v119 : FVec F S256 .f32 := Host.absf main_arg27
  fn_part7 (F := F) main_arg3 main_arg4 main_arg28 main_arg29 main_v118 main_v119

def fn_part5 {F : FTy → Type} [FloatOps F] (main_arg3 : IVec S400000 32) (main_arg4 : IVec S400000 32) (main_arg21 : FVec F S3x64 .f32) (main_arg22 : FVec F S3x64 .f32) (main_arg23 : FVec F S3x64 .f32) (main_arg24 : FVec F S68x256 .f32) (main_arg25 : FVec F S256 .f32) (main_arg26 : FVec F S256x256 .f32) (main_arg27 : FVec F S256 .f32) (main_arg28 : FVec F S256x2 .f32) (main_arg29 : FVec F S2 .f32) (main_v83 : IVec S_ 1) (main_v84 : FVec F S3x64 .f32) (main_cst_32 : FVec F S_ .f32) : IVec S_ 1 :=
  let main_v85 : FVec F S3x64 .f32 := broadcastInDim S3x64 ![] bcast_S_S3x64 main_cst_32
  let main_v86 : IVec S3x64 1 := cmpf .olt main_v84 main_v85
  let main_c_33 : IVec S_ 1 := constantI S_ 1 1#1
  let main_v87 : IVec S_ 1 := (fun x v => Host.reduce IntOp.andi x v reducesTo_S3x64_S_d0_1 h_S_) main_v86 main_c_33
  let main_v88 : IVec S_ 1 := andi main_v83 main_v87
  let main_v89 : FVec F S3x64 .f32 := Host.absf main_arg21
  let main_cst_34 : FVec F S_ .f32 := constant S_ .f32 0x7F800000#32
  let main_v90 : FVec F S3x64 .f32 := broadcastInDim S3x64 ![] bcast_S_S3x64 main_cst_34
  let main_v91 : IVec S3x64 1 := cmpf .olt main_v89 main_v90
  let main_c_35 : IVec S_ 1 := constantI S_ 1 1#1
  let main_v92 : IVec S_ 1 := (fun x v => Host.reduce IntOp.andi x v reducesTo_S3x64_S_d0_1 h_S_) main_v91 main_c_35
  let main_v93 : IVec S_ 1 := andi main_v88 main_v92
  let main_v94 : FVec F S3x64 .f32 := Host.absf main_arg22
  let main_cst_36 : FVec F S_ .f32 := constant S_ .f32 0x7F800000#32
  let main_v95 : FVec F S3x64 .f32 := broadcastInDim S3x64 ![] bcast_S_S3x64 main_cst_36
  let main_v96 : IVec S3x64 1 := cmpf .olt main_v94 main_v95
  let main_c_37 : IVec S_ 1 := constantI S_ 1 1#1
  let main_v97 : IVec S_ 1 := (fun x v => Host.reduce IntOp.andi x v reducesTo_S3x64_S_d0_1 h_S_) main_v96 main_c_37
  let main_v98 : IVec S_ 1 := andi main_v93 main_v97
  let main_v99 : FVec F S3x64 .f32 := Host.absf main_arg23
  let main_cst_38 : FVec F S_ .f32 := constant S_ .f32 0x7F800000#32
  let main_v100 : FVec F S3x64 .f32 := broadcastInDim S3x64 ![] bcast_S_S3x64 main_cst_38
  let main_v101 : IVec S3x64 1 := cmpf .olt main_v99 main_v100
  let main_c_39 : IVec S_ 1 := constantI S_ 1 1#1
  fn_part6 (F := F) main_arg3 main_arg4 main_arg24 main_arg25 main_arg26 main_arg27 main_arg28 main_arg29 main_v98 main_v101 main_c_39

def fn_part4 {F : FTy → Type} [FloatOps F] (main_arg3 : IVec S400000 32) (main_arg4 : IVec S400000 32) (main_arg17 : FVec F S3x64 .f32) (main_arg18 : FVec F S3x64x64 .f32) (main_arg19 : FVec F S3x64 .f32) (main_arg20 : FVec F S3x64 .f32) (main_arg21 : FVec F S3x64 .f32) (main_arg22 : FVec F S3x64 .f32) (main_arg23 : FVec F S3x64 .f32) (main_arg24 : FVec F S68x256 .f32) (main_arg25 : FVec F S256 .f32) (main_arg26 : FVec F S256x256 .f32) (main_arg27 : FVec F S256 .f32) (main_arg28 : FVec F S256x2 .f32) (main_arg29 : FVec F S2 .f32) (main_v63 : IVec S_ 1) (main_v67 : IVec S_ 1) : IVec S_ 1 :=
  let main_v68 : IVec S_ 1 := andi main_v63 main_v67
  let main_v69 : FVec F S3x64 .f32 := Host.absf main_arg17
  let main_cst_26 : FVec F S_ .f32 := constant S_ .f32 0x7F800000#32
  let main_v70 : FVec F S3x64 .f32 := broadcastInDim S3x64 ![] bcast_S_S3x64 main_cst_26
  let main_v71 : IVec S3x64 1 := cmpf .olt main_v69 main_v70
  let main_c_27 : IVec S_ 1 := constantI S_ 1 1#1
  let main_v72 : IVec S_ 1 := (fun x v => Host.reduce IntOp.andi x v reducesTo_S3x64_S_d0_1 h_S_) main_v71 main_c_27
  let main_v73 : IVec S_ 1 := andi main_v68 main_v72
  let main_v74 : FVec F S3x64x64 .f32 := Host.absf main_arg18
  let main_cst_28 : FVec F S_ .f32 := constant S_ .f32 0x7F800000#32
  let main_v75 : FVec F S3x64x64 .f32 := broadcastInDim S3x64x64 ![] bcast_S_S3x64x64 main_cst_28
  let main_v76 : IVec S3x64x64 1 := cmpf .olt main_v74 main_v75
  let main_c_29 : IVec S_ 1 := constantI S_ 1 1#1
  let main_v77 : IVec S_ 1 := (fun x v => Host.reduce IntOp.andi x v reducesTo_S3x64x64_S_d0_1_2 h_S_) main_v76 main_c_29
  let main_v78 : IVec S_ 1 := andi main_v73 main_v77
  let main_v79 : FVec F S3x64 .f32 := Host.absf main_arg19
  let main_cst_30 : FVec F S_ .f32 := constant S_ .f32 0x7F800000#32
  let main_v80 : FVec F S3x64 .f32 := broadcastInDim S3x64 ![] bcast_S_S3x64 main_cst_30
  let main_v81 : IVec S3x64 1 := cmpf .olt main_v79 main_v80
  let main_c_31 : IVec S_ 1 := constantI S_ 1 1#1
  let main_v82 : IVec S_ 1 := (fun x v => Host.reduce IntOp.andi x v reducesTo_S3x64_S_d0_1 h_S_) main_v81 main_c_31
  let main_v83 : IVec S_ 1 := andi main_v78 main_v82
  let main_v84 : FVec F S3x64 .f32 := Host.absf main_arg20
  let main_cst_32 : FVec F S_ .f32 := constant S_ .f32 0x7F800000#32
  fn_part5 (F := F) main_arg3 main_arg4 main_arg21 main_arg22 main_arg23 main_arg24 main_arg25 main_arg26 main_arg27 main_arg28 main_arg29 main_v83 main_v84 main_cst_32

def fn_part3 {F : FTy → Type} [FloatOps F] (main_arg3 : IVec S400000 32) (main_arg4 : IVec S400000 32) (main_arg14 : FVec F S3x64x64 .f32) (main_arg15 : FVec F S3x64 .f32) (main_arg16 : FVec F S3x64x64 .f32) (main_arg17 : FVec F S3x64 .f32) (main_arg18 : FVec F S3x64x64 .f32) (main_arg19 : FVec F S3x64 .f32) (main_arg20 : FVec F S3x64 .f32) (main_arg21 : FVec F S3x64 .f32) (main_arg22 : FVec F S3x64 .f32) (main_arg23 : FVec F S3x64 .f32) (main_arg24 : FVec F S68x256 .f32) (main_arg25 : FVec F S256 .f32) (main_arg26 : FVec F S256x256 .f32) (main_arg27 : FVec F S256 .f32) (main_arg28 : FVec F S256x2 .f32) (main_arg29 : FVec F S2 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64x64 .f32 := Host.absf main_arg14
  let main_cst_20 : FVec F S_ .f32 := constant S_ .f32 0x7F800000#32
  let main_v55 : FVec F S3x64x64 .f32 := broadcastInDim S3x64x64 ![] bcast_S_S3x64x64 main_cst_20
  let main_v56 : IVec S3x64x64 1 := cmpf .olt main_v54 main_v55
  let main_c_21 : IVec S_ 1 := constantI S_ 1 1#1
  let main_v57 : IVec S_ 1 := (fun x v => Host.reduce IntOp.andi x v reducesTo_S3x64x64_S_d0_1_2 h_S_) main_v56 main_c_21
  let main_v58 : IVec S_ 1 := andi main_v53 main_v57
  let main_v59 : FVec F S3x64 .f32 := Host.absf main_arg15
  let main_cst_22 : FVec F S_ .f32 := constant S_ .f32 0x7F800000#32
  let main_v60 : FVec F S3x64 .f32 := broadcastInDim S3x64 ![] bcast_S_S3x64 main_cst_22
  let main_v61 : IVec S3x64 1 := cmpf .olt main_v59 main_v60
  let main_c_23 : IVec S_ 1 := constantI S_ 1 1#1
  let main_v62 : IVec S_ 1 := (fun x v => Host.reduce IntOp.andi x v reducesTo_S3x64_S_d0_1 h_S_) main_v61 main_c_23
  let main_v63 : IVec S_ 1 := andi main_v58 main_v62
  let main_v64 : FVec F S3x64x64 .f32 := Host.absf main_arg16
  let main_cst_24 : FVec F S_ .f32 := constant S_ .f32 0x7F800000#32
  let main_v65 : FVec F S3x64x64 .f32 := broadcastInDim S3x64x64 ![] bcast_S_S3x64x64 main_cst_24
  let main_v66 : IVec S3x64x64 1 := cmpf .olt main_v64 main_v65
  let main_c_25 : IVec S_ 1 := constantI S_ 1 1#1
  let main_v67 : IVec S_ 1 := (fun x v => Host.reduce IntOp.andi x v reducesTo_S3x64x64_S_d0_1_2 h_S_) main_v66 main_c_25
  fn_part4 (F := F) main_arg3 main_arg4 main_arg17 main_arg18 main_arg19 main_arg20 main_arg21 main_arg22 main_arg23 main_arg24 main_arg25 main_arg26 main_arg27 main_arg28 main_arg29 main_v63 main_v67

def fn_part2 {F : FTy → Type} [FloatOps F] (main_arg3 : IVec S400000 32) (main_arg4 : IVec S400000 32) (main_arg10 : FVec F S3x64x64 .f32) (main_arg11 : FVec F S3x64 .f32) (main_arg12 : FVec F S3x64x64 .f32) (main_arg13 : FVec F S3x64 .f32) (main_arg14 : FVec F S3x64x64 .f32) (main_arg15 : FVec F S3x64 .f32) (main_arg16 : FVec F S3x64x64 .f32) (main_arg17 : FVec F S3x64 .f32) (main_arg18 : FVec F S3x64x64 .f32) (main_arg19 : FVec F S3x64 .f32) (main_arg20 : FVec F S3x64 .f32) (main_arg21 : FVec F S3x64 .f32) (main_arg22 : FVec F S3x64 .f32) (main_arg23 : FVec F S3x64 .f32) (main_arg24 : FVec F S68x256 .f32) (main_arg25 : FVec F S256 .f32) (main_arg26 : FVec F S256x256 .f32) (main_arg27 : FVec F S256 .f32) (main_arg28 : FVec F S256x2 .f32) (main_arg29 : FVec F S2 .f32) (main_v33 : IVec S_ 1) : IVec S_ 1 :=
  let main_v34 : FVec F S3x64x64 .f32 := Host.absf main_arg10
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg11
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64x64 .f32 := Host.absf main_arg12
  let main_cst_16 : FVec F S_ .f32 := constant S_ .f32 0x7F800000#32
  let main_v45 : FVec F S3x64x64 .f32 := broadcastInDim S3x64x64 ![] bcast_S_S3x64x64 main_cst_16
  let main_v46 : IVec S3x64x64 1 := cmpf .olt main_v44 main_v45
  let main_c_17 : IVec S_ 1 := constantI S_ 1 1#1
  let main_v47 : IVec S_ 1 := (fun x v => Host.reduce IntOp.andi x v reducesTo_S3x64x64_S_d0_1_2 h_S_) main_v46 main_c_17
  let main_v48 : IVec S_ 1 := andi main_v43 main_v47
  let main_v49 : FVec F S3x64 .f32 := Host.absf main_arg13
  let main_cst_18 : FVec F S_ .f32 := constant S_ .f32 0x7F800000#32
  let main_v50 : FVec F S3x64 .f32 := broadcastInDim S3x64 ![] bcast_S_S3x64 main_cst_18
  fn_part3 (F := F) main_arg3 main_arg4 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg3 : IVec S400000 32) (main_arg4 : IVec S400000 32) (main_arg7 : FVec F S64 .f32) (main_arg8 : FVec F S2x64 .f32) (main_arg9 : FVec F S64 .f32) (main_arg10 : FVec F S3x64x64 .f32) (main_arg11 : FVec F S3x64 .f32) (main_arg12 : FVec F S3x64x64 .f32) (main_arg13 : FVec F S3x64 .f32) (main_arg14 : FVec F S3x64x64 .f32) (main_arg15 : FVec F S3x64 .f32) (main_arg16 : FVec F S3x64x64 .f32) (main_arg17 : FVec F S3x64 .f32) (main_arg18 : FVec F S3x64x64 .f32) (main_arg19 : FVec F S3x64 .f32) (main_arg20 : FVec F S3x64 .f32) (main_arg21 : FVec F S3x64 .f32) (main_arg22 : FVec F S3x64 .f32) (main_arg23 : FVec F S3x64 .f32) (main_arg24 : FVec F S68x256 .f32) (main_arg25 : FVec F S256 .f32) (main_arg26 : FVec F S256x256 .f32) (main_arg27 : FVec F S256 .f32) (main_arg28 : FVec F S256x2 .f32) (main_arg29 : FVec F S2 .f32) (main_v13 : IVec S_ 1) (main_v16 : IVec S6x64 1) : IVec S_ 1 :=
  let main_c_5 : IVec S_ 1 := constantI S_ 1 1#1
  let main_v17 : IVec S_ 1 := (fun x v => Host.reduce IntOp.andi x v reducesTo_S6x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2x64 .f32 := Host.absf main_arg8
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg3 main_arg4 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S16x4 .f32) (main_arg1 : FVec F S50000x6 .f32) (main_arg2 : FVec F S400000x2 .f32) (main_arg3 : IVec S400000 32) (main_arg4 : IVec S400000 32) (main_arg5 : IVec S50000 32) (main_arg6 : FVec F S6x64 .f32) (main_arg7 : FVec F S64 .f32) (main_arg8 : FVec F S2x64 .f32) (main_arg9 : FVec F S64 .f32) (main_arg10 : FVec F S3x64x64 .f32) (main_arg11 : FVec F S3x64 .f32) (main_arg12 : FVec F S3x64x64 .f32) (main_arg13 : FVec F S3x64 .f32) (main_arg14 : FVec F S3x64x64 .f32) (main_arg15 : FVec F S3x64 .f32) (main_arg16 : FVec F S3x64x64 .f32) (main_arg17 : FVec F S3x64 .f32) (main_arg18 : FVec F S3x64x64 .f32) (main_arg19 : FVec F S3x64 .f32) (main_arg20 : FVec F S3x64 .f32) (main_arg21 : FVec F S3x64 .f32) (main_arg22 : FVec F S3x64 .f32) (main_arg23 : FVec F S3x64 .f32) (main_arg24 : FVec F S68x256 .f32) (main_arg25 : FVec F S256 .f32) (main_arg26 : FVec F S256x256 .f32) (main_arg27 : FVec F S256 .f32) (main_arg28 : FVec F S256x2 .f32) (main_arg29 : FVec F S2 .f32) : IVec S_ 1 :=
  let main_v0 : FVec F S16x4 .f32 := Host.absf main_arg0
  let main_cst : FVec F S_ .f32 := constant S_ .f32 0x7F800000#32
  let main_v1 : FVec F S16x4 .f32 := broadcastInDim S16x4 ![] bcast_S_S16x4 main_cst
  let main_v2 : IVec S16x4 1 := cmpf .olt main_v0 main_v1
  let main_c : IVec S_ 1 := constantI S_ 1 1#1
  let main_v3 : IVec S_ 1 := (fun x v => Host.reduce IntOp.andi x v reducesTo_S16x4_S_d0_1 h_S_) main_v2 main_c
  let main_v4 : FVec F S50000x6 .f32 := Host.absf main_arg1
  let main_cst_0 : FVec F S_ .f32 := constant S_ .f32 0x7F800000#32
  let main_v5 : FVec F S50000x6 .f32 := broadcastInDim S50000x6 ![] bcast_S_S50000x6 main_cst_0
  let main_v6 : IVec S50000x6 1 := cmpf .olt main_v4 main_v5
  let main_c_1 : IVec S_ 1 := constantI S_ 1 1#1
  let main_v7 : IVec S_ 1 := (fun x v => Host.reduce IntOp.andi x v reducesTo_S50000x6_S_d0_1 h_S_) main_v6 main_c_1
  let main_v8 : IVec S_ 1 := andi main_v3 main_v7
  let main_v9 : FVec F S400000x2 .f32 := Host.absf main_arg2
  let main_cst_2 : FVec F S_ .f32 := constant S_ .f32 0x7F800000#32
  let main_v10 : FVec F S400000x2 .f32 := broadcastInDim S400000x2 ![] bcast_S_S400000x2 main_cst_2
  let main_v11 : IVec S400000x2 1 := cmpf .olt main_v9 main_v10
  let main_c_3 : IVec S_ 1 := constantI S_ 1 1#1
  let main_v12 : IVec S_ 1 := (fun x v => Host.reduce IntOp.andi x v reducesTo_S400000x2_S_d0_1 h_S_) main_v11 main_c_3
  let main_v13 : IVec S_ 1 := andi main_v8 main_v12
  let main_v14 : FVec F S6x64 .f32 := Host.absf main_arg6
  let main_cst_4 : FVec F S_ .f32 := constant S_ .f32 0x7F800000#32
  let main_v15 : FVec F S6x64 .f32 := broadcastInDim S6x64 ![] bcast_S_S6x64 main_cst_4
  let main_v16 : IVec S6x64 1 := cmpf .olt main_v14 main_v15
  fn_part1 (F := F) main_arg3 main_arg4 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S16x4 : Shape := ⟨2, ![16, 4]⟩
abbrev S50000x6 : Shape := ⟨2, ![50000, 6]⟩
abbrev S400000x2 : Shape := ⟨2, ![400000, 2]⟩
abbrev S400000 : Shape := ⟨1, ![400000]⟩
abbrev S50000 : Shape := ⟨1, ![50000]⟩
abbrev S6x64 : Shape := ⟨2, ![6, 64]⟩
abbrev S64 : Shape := ⟨1, ![64]⟩
abbrev S2x64 : Shape := ⟨2, ![2, 64]⟩
abbrev S3x64x64 : Shape := ⟨3, ![3, 64, 64]⟩
abbrev S3x64 : Shape := ⟨2, ![3, 64]⟩
abbrev S68x256 : Shape := ⟨2, ![68, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x64 : Shape := ⟨2, ![1, 64]⟩
abbrev S50000x64 : Shape := ⟨2, ![50000, 64]⟩
abbrev S5000x6 : Shape := ⟨2, ![5000, 6]⟩
abbrev S5000x64 : Shape := ⟨2, ![5000, 64]⟩
abbrev S400000x64 : Shape := ⟨2, ![400000, 64]⟩
abbrev S4000x2 : Shape := ⟨2, ![4000, 2]⟩
abbrev S4000x64 : Shape := ⟨2, ![4000, 64]⟩
abbrev S1x64x64 : Shape := ⟨3, ![1, 64, 64]⟩
abbrev S64x64 : Shape := ⟨2, ![64, 64]⟩
abbrev S64x256 : Shape := ⟨2, ![64, 256]⟩
abbrev S1x256 : Shape := ⟨2, ![1, 256]⟩
abbrev S50000x256 : Shape := ⟨2, ![50000, 256]⟩
abbrev S5000x256 : Shape := ⟨2, ![5000, 256]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S16 : Shape := ⟨1, ![16]⟩
abbrev S50000x1 : Shape := ⟨2, ![50000, 1]⟩
abbrev S16x64 : Shape := ⟨2, ![16, 64]⟩
abbrev S16x1 : Shape := ⟨2, ![16, 1]⟩
abbrev S16x68 : Shape := ⟨2, ![16, 68]⟩
abbrev S1x2 : Shape := ⟨2, ![1, 2]⟩
abbrev S16x2 : Shape := ⟨2, ![16, 2]⟩
abbrev S16x256 : Shape := ⟨2, ![16, 256]⟩

abbrev nBuf : Space → Nat
  | .hbm => 607
  | .vmem => 182
  | .smem => 0
  | _ => 0

abbrev hbmTy0_0 (i : Nat) : BufTy := match i % 128 with
  | 0 => ⟨S16x4, .f32⟩
  | 1 => ⟨S50000x6, .f32⟩
  | 2 => ⟨S400000x2, .f32⟩
  | 3 => ⟨S400000, .i32⟩
  | 4 => ⟨S400000, .i32⟩
  | 5 => ⟨S50000, .i32⟩
  | 6 => ⟨S6x64, .f32⟩
  | 7 => ⟨S64, .f32⟩
  | 8 => ⟨S2x64, .f32⟩
  | 9 => ⟨S64, .f32⟩
  | 10 => ⟨S3x64x64, .f32⟩
  | 11 => ⟨S3x64, .f32⟩
  | 12 => ⟨S3x64x64, .f32⟩
  | 13 => ⟨S3x64, .f32⟩
  | 14 => ⟨S3x64x64, .f32⟩
  | 15 => ⟨S3x64, .f32⟩
  | 16 => ⟨S3x64x64, .f32⟩
  | 17 => ⟨S3x64, .f32⟩
  | 18 => ⟨S3x64x64, .f32⟩
  | 19 => ⟨S3x64, .f32⟩
  | 20 => ⟨S3x64, .f32⟩
  | 21 => ⟨S3x64, .f32⟩
  | 22 => ⟨S3x64, .f32⟩
  | 23 => ⟨S3x64, .f32⟩
  | 24 => ⟨S68x256, .f32⟩
  | 25 => ⟨S256, .f32⟩
  | 26 => ⟨S256x256, .f32⟩
  | 27 => ⟨S256, .f32⟩
  | 28 => ⟨S256x2, .f32⟩
  | 29 => ⟨S2, .f32⟩
  | 30 => ⟨S1x64, .f32⟩
  | 31 => ⟨S50000x64, .f32⟩
  | 32 => ⟨S1x64, .f32⟩
  | 33 => ⟨S400000x64, .f32⟩
  | 34 => ⟨S1x64x64, .f32⟩
  | 35 => ⟨S64x64, .f32⟩
  | 36 => ⟨S1x64x64, .f32⟩
  | 37 => ⟨S64x64, .f32⟩
  | 38 => ⟨S1x64x64, .f32⟩
  | 39 => ⟨S64x64, .f32⟩
  | 40 => ⟨S1x64x64, .f32⟩
  | 41 => ⟨S64x64, .f32⟩
  | 42 => ⟨S64x256, .f32⟩
  | 43 => ⟨S1x64, .f32⟩
  | 44 => ⟨S64, .f32⟩
  | 45 => ⟨S1x64, .f32⟩
  | 46 => ⟨S64, .f32⟩
  | 47 => ⟨S1x64, .f32⟩
  | 48 => ⟨S64, .f32⟩
  | 49 => ⟨S1x64, .f32⟩
  | 50 => ⟨S64, .f32⟩
  | 51 => ⟨S256, .f32⟩
  | 52 => ⟨S1x256, .f32⟩
  | 53 => ⟨S50000x256, .f32⟩
  | 54 => ⟨S50000x64, .f32⟩
  | 55 => ⟨S50000x64, .f32⟩
  | 56 => ⟨S50000x64, .f32⟩
  | 57 => ⟨S50000x64, .f32⟩
  | 58 => ⟨S1x64x64, .f32⟩
  | 59 => ⟨S64x64, .f32⟩
  | 60 => ⟨S1x64, .f32⟩
  | 61 => ⟨S64, .f32⟩
  | 62 => ⟨S1x64, .f32⟩
  | 63 => ⟨S400000x64, .f32⟩
  | 64 => ⟨S_, .i32⟩
  | 65 => ⟨S400000, .i32⟩
  | 66 => ⟨S400000, .i1⟩
  | 67 => ⟨S_, .i32⟩
  | 68 => ⟨S400000, .i32⟩
  | 69 => ⟨S400000, .i32⟩
  | 70 => ⟨S400000, .i32⟩
  | 71 => ⟨S400000x1, .i32⟩
  | 72 => ⟨S1, .i32⟩
  | 73 => ⟨S_, .i32⟩
  | 74 => ⟨S400000x1, .i32⟩
  | 75 => ⟨S400000x1, .i1⟩
  | 76 => ⟨S1x1, .i32⟩
  | 77 => ⟨S400000x1, .i32⟩
  | 78 => ⟨S400000x1, .i1⟩
  | 79 => ⟨S400000x1, .i1⟩
  | 80 => ⟨S_, .i1⟩
  | 81 => ⟨S400000, .i1⟩
  | 82 => ⟨S400000x64, .f32⟩
  | 83 => ⟨S400000x64, .i1⟩
  | 84 => ⟨S_, .f32⟩
  | 85 => ⟨S400000x64, .f32⟩
  | 86 => ⟨S400000x64, .f32⟩
  | 87 => ⟨S_, .i32⟩
  | 88 => ⟨S400000, .i32⟩
  | 89 => ⟨S400000, .i1⟩
  | 90 => ⟨S_, .i32⟩
  | 91 => ⟨S400000, .i32⟩
  | 92 => ⟨S400000, .i32⟩
  | 93 => ⟨S400000, .i32⟩
  | 94 => ⟨S400000x1, .i32⟩
  | 95 => ⟨S1, .i32⟩
  | 96 => ⟨S_, .i32⟩
  | 97 => ⟨S400000x1, .i32⟩
  | 98 => ⟨S400000x1, .i1⟩
  | 99 => ⟨S1x1, .i32⟩
  | 100 => ⟨S400000x1, .i32⟩
  | 101 => ⟨S400000x1, .i1⟩
  | 102 => ⟨S400000x1, .i1⟩
  | 103 => ⟨S_, .i1⟩
  | 104 => ⟨S400000, .i1⟩
  | 105 => ⟨S400000x64, .f32⟩
  | 106 => ⟨S400000x64, .i1⟩
  | 107 => ⟨S_, .f32⟩
  | 108 => ⟨S400000x64, .f32⟩
  | 109 => ⟨S400000x64, .f32⟩
  | 110 => ⟨S_, .i32⟩
  | 111 => ⟨S400000, .i32⟩
  | 112 => ⟨S400000, .i1⟩
  | 113 => ⟨S_, .i32⟩
  | 114 => ⟨S400000, .i32⟩
  | 115 => ⟨S400000, .i32⟩
  | 116 => ⟨S400000, .i32⟩
  | 117 => ⟨S400000x1, .i32⟩
  | 118 => ⟨S1, .i32⟩
  | 119 => ⟨S_, .i32⟩
  | 120 => ⟨S400000x1, .i32⟩
  | 121 => ⟨S400000x1, .i1⟩
  | 122 => ⟨S1x1, .i32⟩
  | 123 => ⟨S400000x1, .i32⟩
  | 124 => ⟨S400000x1, .i1⟩
  | 125 => ⟨S400000x1, .i1⟩
  | 126 => ⟨S_, .i1⟩
  | 127 => ⟨S400000, .i1⟩
  | _ => ⟨S16x4, .f32⟩

abbrev hbmTy0_1 (i : Nat) : BufTy := match i % 128 with
  | 0 => ⟨S400000x64, .f32⟩
  | 1 => ⟨S400000x64, .i1⟩
  | 2 => ⟨S_, .f32⟩
  | 3 => ⟨S400000x64, .f32⟩
  | 4 => ⟨S400000x64, .f32⟩
  | 5 => ⟨S400000x64, .f32⟩
  | 6 => ⟨S400000x64, .f32⟩
  | 7 => ⟨S400000x64, .f32⟩
  | 8 => ⟨S_, .f32⟩
  | 9 => ⟨S50000x64, .f32⟩
  | 10 => ⟨S400000x1, .i32⟩
  | 11 => ⟨S50000x64, .f32⟩
  | 12 => ⟨S_, .f32⟩
  | 13 => ⟨S50000x64, .f32⟩
  | 14 => ⟨S400000x1, .i32⟩
  | 15 => ⟨S50000x64, .f32⟩
  | 16 => ⟨S50000x64, .f32⟩
  | 17 => ⟨S_, .f32⟩
  | 18 => ⟨S64, .f32⟩
  | 19 => ⟨S_, .f32⟩
  | 20 => ⟨S64, .f32⟩
  | 21 => ⟨S64, .f32⟩
  | 22 => ⟨S_, .i32⟩
  | 23 => ⟨S_, .f32⟩
  | 24 => ⟨S64, .f32⟩
  | 25 => ⟨S1x64, .f32⟩
  | 26 => ⟨S_, .f32⟩
  | 27 => ⟨S1x64, .f32⟩
  | 28 => ⟨S1x64, .f32⟩
  | 29 => ⟨S50000x64, .f32⟩
  | 30 => ⟨S50000x64, .f32⟩
  | 31 => ⟨S50000x64, .f32⟩
  | 32 => ⟨S_, .f32⟩
  | 33 => ⟨S_, .f32⟩
  | 34 => ⟨S_, .f32⟩
  | 35 => ⟨S_, .f32⟩
  | 36 => ⟨S64, .f32⟩
  | 37 => ⟨S64, .f32⟩
  | 38 => ⟨S64, .f32⟩
  | 39 => ⟨S_, .f32⟩
  | 40 => ⟨S_, .i1⟩
  | 41 => ⟨S_, .f32⟩
  | 42 => ⟨S_, .f32⟩
  | 43 => ⟨S64, .f32⟩
  | 44 => ⟨S64, .f32⟩
  | 45 => ⟨S1x64, .f32⟩
  | 46 => ⟨S64, .f32⟩
  | 47 => ⟨S1x64, .f32⟩
  | 48 => ⟨S64, .f32⟩
  | 49 => ⟨S1x64, .f32⟩
  | 50 => ⟨S1x64, .f32⟩
  | 51 => ⟨S1x64, .f32⟩
  | 52 => ⟨S1x64, .f32⟩
  | 53 => ⟨S50000x64, .f32⟩
  | 54 => ⟨S_, .f32⟩
  | 55 => ⟨S64, .f32⟩
  | 56 => ⟨S_, .f32⟩
  | 57 => ⟨S64, .f32⟩
  | 58 => ⟨S64, .f32⟩
  | 59 => ⟨S_, .i32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S400000x64, .f32⟩
  | 67 => ⟨S400000x64, .f32⟩
  | 68 => ⟨S400000x64, .f32⟩
  | 69 => ⟨S_, .f32⟩
  | 70 => ⟨S_, .f32⟩
  | 71 => ⟨S_, .f32⟩
  | 72 => ⟨S_, .f32⟩
  | 73 => ⟨S64, .f32⟩
  | 74 => ⟨S64, .f32⟩
  | 75 => ⟨S64, .f32⟩
  | 76 => ⟨S_, .f32⟩
  | 77 => ⟨S_, .i1⟩
  | 78 => ⟨S_, .f32⟩
  | 79 => ⟨S_, .f32⟩
  | 80 => ⟨S64, .f32⟩
  | 81 => ⟨S64, .f32⟩
  | 82 => ⟨S1x64, .f32⟩
  | 83 => ⟨S64, .f32⟩
  | 84 => ⟨S1x64, .f32⟩
  | 85 => ⟨S64, .f32⟩
  | 86 => ⟨S1x64, .f32⟩
  | 87 => ⟨S1x64, .f32⟩
  | 88 => ⟨S1x64, .f32⟩
  | 89 => ⟨S1x64, .f32⟩
  | 90 => ⟨S400000x64, .f32⟩
  | 91 => ⟨S1x64x64, .f32⟩
  | 92 => ⟨S64x64, .f32⟩
  | 93 => ⟨S1x64x64, .f32⟩
  | 94 => ⟨S64x64, .f32⟩
  | 95 => ⟨S1x64x64, .f32⟩
  | 96 => ⟨S64x64, .f32⟩
  | 97 => ⟨S1x64x64, .f32⟩
  | 98 => ⟨S64x64, .f32⟩
  | 99 => ⟨S64x256, .f32⟩
  | 100 => ⟨S1x64, .f32⟩
  | 101 => ⟨S64, .f32⟩
  | 102 => ⟨S1x64, .f32⟩
  | 103 => ⟨S64, .f32⟩
  | 104 => ⟨S1x64, .f32⟩
  | 105 => ⟨S64, .f32⟩
  | 106 => ⟨S1x64, .f32⟩
  | 107 => ⟨S64, .f32⟩
  | 108 => ⟨S256, .f32⟩
  | 109 => ⟨S1x256, .f32⟩
  | 110 => ⟨S50000x256, .f32⟩
  | 111 => ⟨S50000x64, .f32⟩
  | 112 => ⟨S50000x64, .f32⟩
  | 113 => ⟨S50000x64, .f32⟩
  | 114 => ⟨S50000x64, .f32⟩
  | 115 => ⟨S1x64x64, .f32⟩
  | 116 => ⟨S64x64, .f32⟩
  | 117 => ⟨S1x64, .f32⟩
  | 118 => ⟨S64, .f32⟩
  | 119 => ⟨S1x64, .f32⟩
  | 120 => ⟨S400000x64, .f32⟩
  | 121 => ⟨S_, .i32⟩
  | 122 => ⟨S400000, .i32⟩
  | 123 => ⟨S400000, .i1⟩
  | 124 => ⟨S_, .i32⟩
  | 125 => ⟨S400000, .i32⟩
  | 126 => ⟨S400000, .i32⟩
  | 127 => ⟨S400000, .i32⟩
  | _ => ⟨S16x4, .f32⟩

abbrev hbmTy0_2 (i : Nat) : BufTy := match i % 128 with
  | 0 => ⟨S400000x1, .i32⟩
  | 1 => ⟨S1, .i32⟩
  | 2 => ⟨S_, .i32⟩
  | 3 => ⟨S400000x1, .i32⟩
  | 4 => ⟨S400000x1, .i1⟩
  | 5 => ⟨S1x1, .i32⟩
  | 6 => ⟨S400000x1, .i32⟩
  | 7 => ⟨S400000x1, .i1⟩
  | 8 => ⟨S400000x1, .i1⟩
  | 9 => ⟨S_, .i1⟩
  | 10 => ⟨S400000, .i1⟩
  | 11 => ⟨S400000x64, .f32⟩
  | 12 => ⟨S400000x64, .i1⟩
  | 13 => ⟨S_, .f32⟩
  | 14 => ⟨S400000x64, .f32⟩
  | 15 => ⟨S400000x64, .f32⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S1, .i32⟩
  | 25 => ⟨S_, .i32⟩
  | 26 => ⟨S400000x1, .i32⟩
  | 27 => ⟨S400000x1, .i1⟩
  | 28 => ⟨S1x1, .i32⟩
  | 29 => ⟨S400000x1, .i32⟩
  | 30 => ⟨S400000x1, .i1⟩
  | 31 => ⟨S400000x1, .i1⟩
  | 32 => ⟨S_, .i1⟩
  | 33 => ⟨S400000, .i1⟩
  | 34 => ⟨S400000x64, .f32⟩
  | 35 => ⟨S400000x64, .i1⟩
  | 36 => ⟨S_, .f32⟩
  | 37 => ⟨S400000x64, .f32⟩
  | 38 => ⟨S400000x64, .f32⟩
  | 39 => ⟨S_, .i32⟩
  | 40 => ⟨S400000, .i32⟩
  | 41 => ⟨S400000, .i1⟩
  | 42 => ⟨S_, .i32⟩
  | 43 => ⟨S400000, .i32⟩
  | 44 => ⟨S400000, .i32⟩
  | 45 => ⟨S400000, .i32⟩
  | 46 => ⟨S400000x1, .i32⟩
  | 47 => ⟨S1, .i32⟩
  | 48 => ⟨S_, .i32⟩
  | 49 => ⟨S400000x1, .i32⟩
  | 50 => ⟨S400000x1, .i1⟩
  | 51 => ⟨S1x1, .i32⟩
  | 52 => ⟨S400000x1, .i32⟩
  | 53 => ⟨S400000x1, .i1⟩
  | 54 => ⟨S400000x1, .i1⟩
  | 55 => ⟨S_, .i1⟩
  | 56 => ⟨S400000, .i1⟩
  | 57 => ⟨S400000x64, .f32⟩
  | 58 => ⟨S400000x64, .i1⟩
  | 59 => ⟨S_, .f32⟩
  | 60 => ⟨S400000x64, .f32⟩
  | 61 => ⟨S400000x64, .f32⟩
  | 62 => ⟨S400000x64, .f32⟩
  | 63 => ⟨S400000x64, .f32⟩
  | 64 => ⟨S400000x64, .f32⟩
  | 65 => ⟨S_, .f32⟩
  | 66 => ⟨S50000x64, .f32⟩
  | 67 => ⟨S400000x1, .i32⟩
  | 68 => ⟨S50000x64, .f32⟩
  | 69 => ⟨S_, .f32⟩
  | 70 => ⟨S50000x64, .f32⟩
  | 71 => ⟨S400000x1, .i32⟩
  | 72 => ⟨S50000x64, .f32⟩
  | 73 => ⟨S50000x64, .f32⟩
  | 74 => ⟨S_, .f32⟩
  | 75 => ⟨S64, .f32⟩
  | 76 => ⟨S_, .f32⟩
  | 77 => ⟨S64, .f32⟩
  | 78 => ⟨S64, .f32⟩
  | 79 => ⟨S_, .i32⟩
  | 80 => ⟨S_, .f32⟩
  | 81 => ⟨S64, .f32⟩
  | 82 => ⟨S1x64, .f32⟩
  | 83 => ⟨S_, .f32⟩
  | 84 => ⟨S1x64, .f32⟩
  | 85 => ⟨S1x64, .f32⟩
  | 86 => ⟨S50000x64, .f32⟩
  | 87 => ⟨S50000x64, .f32⟩
  | 88 => ⟨S50000x64, .f32⟩
  | 89 => ⟨S_, .f32⟩
  | 90 => ⟨S_, .f32⟩
  | 91 => ⟨S_, .f32⟩
  | 92 => ⟨S_, .f32⟩
  | 93 => ⟨S64, .f32⟩
  | 94 => ⟨S64, .f32⟩
  | 95 => ⟨S64, .f32⟩
  | 96 => ⟨S_, .f32⟩
  | 97 => ⟨S_, .i1⟩
  | 98 => ⟨S_, .f32⟩
  | 99 => ⟨S_, .f32⟩
  | 100 => ⟨S64, .f32⟩
  | 101 => ⟨S64, .f32⟩
  | 102 => ⟨S1x64, .f32⟩
  | 103 => ⟨S64, .f32⟩
  | 104 => ⟨S1x64, .f32⟩
  | 105 => ⟨S64, .f32⟩
  | 106 => ⟨S1x64, .f32⟩
  | 107 => ⟨S1x64, .f32⟩
  | 108 => ⟨S1x64, .f32⟩
  | 109 => ⟨S1x64, .f32⟩
  | 110 => ⟨S50000x64, .f32⟩
  | 111 => ⟨S_, .f32⟩
  | 112 => ⟨S64, .f32⟩
  | 113 => ⟨S_, .f32⟩
  | 114 => ⟨S64, .f32⟩
  | 115 => ⟨S64, .f32⟩
  | 116 => ⟨S_, .i32⟩
  | 117 => ⟨S_, .f32⟩
  | 118 => ⟨S64, .f32⟩
  | 119 => ⟨S1x64, .f32⟩
  | 120 => ⟨S_, .f32⟩
  | 121 => ⟨S1x64, .f32⟩
  | 122 => ⟨S1x64, .f32⟩
  | 123 => ⟨S400000x64, .f32⟩
  | 124 => ⟨S400000x64, .f32⟩
  | 125 => ⟨S400000x64, .f32⟩
  | 126 => ⟨S_, .f32⟩
  | 127 => ⟨S_, .f32⟩
  | _ => ⟨S16x4, .f32⟩

abbrev hbmTy0_3 (i : Nat) : BufTy := match i % 128 with
  | 0 => ⟨S_, .f32⟩
  | 1 => ⟨S_, .f32⟩
  | 2 => ⟨S64, .f32⟩
  | 3 => ⟨S64, .f32⟩
  | 4 => ⟨S64, .f32⟩
  | 5 => ⟨S_, .f32⟩
  | 6 => ⟨S_, .i1⟩
  | 7 => ⟨S_, .f32⟩
  | 8 => ⟨S_, .f32⟩
  | 9 => ⟨S64, .f32⟩
  | 10 => ⟨S64, .f32⟩
  | 11 => ⟨S1x64, .f32⟩
  | 12 => ⟨S64, .f32⟩
  | 13 => ⟨S1x64, .f32⟩
  | 14 => ⟨S64, .f32⟩
  | 15 => ⟨S1x64, .f32⟩
  | 16 => ⟨S1x64, .f32⟩
  | 17 => ⟨S1x64, .f32⟩
  | 18 => ⟨S1x64, .f32⟩
  | 19 => ⟨S400000x64, .f32⟩
  | 20 => ⟨S1x64x64, .f32⟩
  | 21 => ⟨S64x64, .f32⟩
  | 22 => ⟨S1x64x64, .f32⟩
  | 23 => ⟨S64x64, .f32⟩
  | 24 => ⟨S1x64x64, .f32⟩
  | 25 => ⟨S64x64, .f32⟩
  | 26 => ⟨S1x64x64, .f32⟩
  | 27 => ⟨S64x64, .f32⟩
  | 28 => ⟨S64x256, .f32⟩
  | 29 => ⟨S1x64, .f32⟩
  | 30 => ⟨S64, .f32⟩
  | 31 => ⟨S1x64, .f32⟩
  | 32 => ⟨S64, .f32⟩
  | 33 => ⟨S1x64, .f32⟩
  | 34 => ⟨S64, .f32⟩
  | 35 => ⟨S1x64, .f32⟩
  | 36 => ⟨S64, .f32⟩
  | 37 => ⟨S256, .f32⟩
  | 38 => ⟨S1x256, .f32⟩
  | 39 => ⟨S50000x256, .f32⟩
  | 40 => ⟨S50000x64, .f32⟩
  | 41 => ⟨S50000x64, .f32⟩
  | 42 => ⟨S50000x64, .f32⟩
  | 43 => ⟨S50000x64, .f32⟩
  | 44 => ⟨S1x64x64, .f32⟩
  | 45 => ⟨S64x64, .f32⟩
  | 46 => ⟨S1x64, .f32⟩
  | 47 => ⟨S64, .f32⟩
  | 48 => ⟨S1x64, .f32⟩
  | 49 => ⟨S400000x64, .f32⟩
  | 50 => ⟨S_, .i32⟩
  | 51 => ⟨S400000, .i32⟩
  | 52 => ⟨S400000, .i1⟩
  | 53 => ⟨S_, .i32⟩
  | 54 => ⟨S400000, .i32⟩
  | 55 => ⟨S400000, .i32⟩
  | 56 => ⟨S400000, .i32⟩
  | 57 => ⟨S400000x1, .i32⟩
  | 58 => ⟨S1, .i32⟩
  | 59 => ⟨S_, .i32⟩
  | 60 => ⟨S400000x1, .i32⟩
  | 61 => ⟨S400000x1, .i1⟩
  | 62 => ⟨S1x1, .i32⟩
  | 63 => ⟨S400000x1, .i32⟩
  | 64 => ⟨S400000x1, .i1⟩
  | 65 => ⟨S400000x1, .i1⟩
  | 66 => ⟨S_, .i1⟩
  | 67 => ⟨S400000, .i1⟩
  | 68 => ⟨S400000x64, .f32⟩
  | 69 => ⟨S400000x64, .i1⟩
  | 70 => ⟨S_, .f32⟩
  | 71 => ⟨S400000x64, .f32⟩
  | 72 => ⟨S400000x64, .f32⟩
  | 73 => ⟨S_, .i32⟩
  | 74 => ⟨S400000, .i32⟩
  | 75 => ⟨S400000, .i1⟩
  | 76 => ⟨S_, .i32⟩
  | 77 => ⟨S400000, .i32⟩
  | 78 => ⟨S400000, .i32⟩
  | 79 => ⟨S400000, .i32⟩
  | 80 => ⟨S400000x1, .i32⟩
  | 81 => ⟨S1, .i32⟩
  | 82 => ⟨S_, .i32⟩
  | 83 => ⟨S400000x1, .i32⟩
  | 84 => ⟨S400000x1, .i1⟩
  | 85 => ⟨S1x1, .i32⟩
  | 86 => ⟨S400000x1, .i32⟩
  | 87 => ⟨S400000x1, .i1⟩
  | 88 => ⟨S400000x1, .i1⟩
  | 89 => ⟨S_, .i1⟩
  | 90 => ⟨S400000, .i1⟩
  | 91 => ⟨S400000x64, .f32⟩
  | 92 => ⟨S400000x64, .i1⟩
  | 93 => ⟨S_, .f32⟩
  | 94 => ⟨S400000x64, .f32⟩
  | 95 => ⟨S400000x64, .f32⟩
  | 96 => ⟨S_, .i32⟩
  | 97 => ⟨S400000, .i32⟩
  | 98 => ⟨S400000, .i1⟩
  | 99 => ⟨S_, .i32⟩
  | 100 => ⟨S400000, .i32⟩
  | 101 => ⟨S400000, .i32⟩
  | 102 => ⟨S400000, .i32⟩
  | 103 => ⟨S400000x1, .i32⟩
  | 104 => ⟨S1, .i32⟩
  | 105 => ⟨S_, .i32⟩
  | 106 => ⟨S400000x1, .i32⟩
  | 107 => ⟨S400000x1, .i1⟩
  | 108 => ⟨S1x1, .i32⟩
  | 109 => ⟨S400000x1, .i32⟩
  | 110 => ⟨S400000x1, .i1⟩
  | 111 => ⟨S400000x1, .i1⟩
  | 112 => ⟨S_, .i1⟩
  | 113 => ⟨S400000, .i1⟩
  | 114 => ⟨S400000x64, .f32⟩
  | 115 => ⟨S400000x64, .i1⟩
  | 116 => ⟨S_, .f32⟩
  | 117 => ⟨S400000x64, .f32⟩
  | 118 => ⟨S400000x64, .f32⟩
  | 119 => ⟨S400000x64, .f32⟩
  | 120 => ⟨S400000x64, .f32⟩
  | 121 => ⟨S400000x64, .f32⟩
  | 122 => ⟨S_, .f32⟩
  | 123 => ⟨S50000x64, .f32⟩
  | 124 => ⟨S400000x1, .i32⟩
  | 125 => ⟨S50000x64, .f32⟩
  | 126 => ⟨S_, .f32⟩
  | 127 => ⟨S50000x64, .f32⟩
  | _ => ⟨S16x4, .f32⟩

abbrev hbmTy0_4 (i : Nat) : BufTy := match i % 128 with
  | 0 => ⟨S400000x1, .i32⟩
  | 1 => ⟨S50000x64, .f32⟩
  | 2 => ⟨S50000x64, .f32⟩
  | 3 => ⟨S_, .f32⟩
  | 4 => ⟨S64, .f32⟩
  | 5 => ⟨S_, .f32⟩
  | 6 => ⟨S64, .f32⟩
  | 7 => ⟨S64, .f32⟩
  | 8 => ⟨S_, .i32⟩
  | 9 => ⟨S_, .f32⟩
  | 10 => ⟨S64, .f32⟩
  | 11 => ⟨S1x64, .f32⟩
  | 12 => ⟨S_, .f32⟩
  | 13 => ⟨S1x64, .f32⟩
  | 14 => ⟨S1x64, .f32⟩
  | 15 => ⟨S50000x64, .f32⟩
  | 16 => ⟨S50000x64, .f32⟩
  | 17 => ⟨S50000x64, .f32⟩
  | 18 => ⟨S_, .f32⟩
  | 19 => ⟨S_, .f32⟩
  | 20 => ⟨S_, .f32⟩
  | 21 => ⟨S_, .f32⟩
  | 22 => ⟨S64, .f32⟩
  | 23 => ⟨S64, .f32⟩
  | 24 => ⟨S64, .f32⟩
  | 25 => ⟨S_, .f32⟩
  | 26 => ⟨S_, .i1⟩
  | 27 => ⟨S_, .f32⟩
  | 28 => ⟨S_, .f32⟩
  | 29 => ⟨S64, .f32⟩
  | 30 => ⟨S64, .f32⟩
  | 31 => ⟨S1x64, .f32⟩
  | 32 => ⟨S64, .f32⟩
  | 33 => ⟨S1x64, .f32⟩
  | 34 => ⟨S64, .f32⟩
  | 35 => ⟨S1x64, .f32⟩
  | 36 => ⟨S1x64, .f32⟩
  | 37 => ⟨S1x64, .f32⟩
  | 38 => ⟨S1x64, .f32⟩
  | 39 => ⟨S50000x64, .f32⟩
  | 40 => ⟨S_, .f32⟩
  | 41 => ⟨S64, .f32⟩
  | 42 => ⟨S_, .f32⟩
  | 43 => ⟨S64, .f32⟩
  | 44 => ⟨S64, .f32⟩
  | 45 => ⟨S_, .i32⟩
  | 46 => ⟨S_, .f32⟩
  | 47 => ⟨S64, .f32⟩
  | 48 => ⟨S1x64, .f32⟩
  | 49 => ⟨S_, .f32⟩
  | 50 => ⟨S1x64, .f32⟩
  | 51 => ⟨S1x64, .f32⟩
  | 52 => ⟨S400000x64, .f32⟩
  | 53 => ⟨S400000x64, .f32⟩
  | 54 => ⟨S400000x64, .f32⟩
  | 55 => ⟨S_, .f32⟩
  | 56 => ⟨S_, .f32⟩
  | 57 => ⟨S_, .f32⟩
  | 58 => ⟨S_, .f32⟩
  | 59 => ⟨S64, .f32⟩
  | 60 => ⟨S64, .f32⟩
  | 61 => ⟨S64, .f32⟩
  | 62 => ⟨S_, .f32⟩
  | 63 => ⟨S_, .i1⟩
  | 64 => ⟨S_, .f32⟩
  | 65 => ⟨S_, .f32⟩
  | 66 => ⟨S64, .f32⟩
  | 67 => ⟨S64, .f32⟩
  | 68 => ⟨S1x64, .f32⟩
  | 69 => ⟨S64, .f32⟩
  | 70 => ⟨S1x64, .f32⟩
  | 71 => ⟨S64, .f32⟩
  | 72 => ⟨S1x64, .f32⟩
  | 73 => ⟨S1x64, .f32⟩
  | 74 => ⟨S1x64, .f32⟩
  | 75 => ⟨S1x64, .f32⟩
  | 76 => ⟨S400000x64, .f32⟩
  | 77 => ⟨S_, .f32⟩
  | 78 => ⟨S50000, .f32⟩
  | 79 => ⟨S_, .f32⟩
  | 80 => ⟨S16, .f32⟩
  | 81 => ⟨S50000x1, .i32⟩
  | 82 => ⟨S16, .f32⟩
  | 83 => ⟨S_, .f32⟩
  | 84 => ⟨S16x64, .f32⟩
  | 85 => ⟨S50000x1, .i32⟩
  | 86 => ⟨S16x64, .f32⟩
  | 87 => ⟨S16x1, .f32⟩
  | 88 => ⟨S16x64, .f32⟩
  | 89 => ⟨S16x64, .f32⟩
  | 90 => ⟨S16x68, .f32⟩
  | 91 => ⟨S1x256, .f32⟩
  | 92 => ⟨S1x256, .f32⟩
  | 93 => ⟨S1x2, .f32⟩
  | 94 => ⟨S16x2, .f32⟩
  | _ => ⟨S16x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x4, .f32⟩

abbrev vmemTy0_0 (i : Nat) : BufTy := match i % 128 with
  | 0 => ⟨S5000x6, .f32⟩
  | 1 => ⟨S5000x6, .f32⟩
  | 2 => ⟨S6x64, .f32⟩
  | 3 => ⟨S1x64, .f32⟩
  | 4 => ⟨S5000x64, .f32⟩
  | 5 => ⟨S5000x64, .f32⟩
  | 6 => ⟨S4000x2, .f32⟩
  | 7 => ⟨S4000x2, .f32⟩
  | 8 => ⟨S2x64, .f32⟩
  | 9 => ⟨S1x64, .f32⟩
  | 10 => ⟨S4000x64, .f32⟩
  | 11 => ⟨S4000x64, .f32⟩
  | 12 => ⟨S5000x64, .f32⟩
  | 13 => ⟨S5000x64, .f32⟩
  | 14 => ⟨S64x256, .f32⟩
  | 15 => ⟨S1x256, .f32⟩
  | 16 => ⟨S5000x256, .f32⟩
  | 17 => ⟨S5000x256, .f32⟩
  | 18 => ⟨S4000x64, .f32⟩
  | 19 => ⟨S4000x64, .f32⟩
  | 20 => ⟨S64x64, .f32⟩
  | 21 => ⟨S1x64, .f32⟩
  | 22 => ⟨S4000x64, .f32⟩
  | 23 => ⟨S4000x64, .f32⟩
  | 24 => ⟨S4000x64, .f32⟩
  | 25 => ⟨S4000x64, .f32⟩
  | 26 => ⟨S4000x64, .f32⟩
  | 27 => ⟨S4000x64, .f32⟩
  | 28 => ⟨S4000x64, .f32⟩
  | 29 => ⟨S4000x64, .f32⟩
  | 30 => ⟨S4000x64, .f32⟩
  | 31 => ⟨S4000x64, .f32⟩
  | 32 => ⟨S4000x64, .f32⟩
  | 33 => ⟨S4000x64, .f32⟩
  | 34 => ⟨S4000x64, .f32⟩
  | 35 => ⟨S4000x64, .f32⟩
  | 36 => ⟨S4000x64, .f32⟩
  | 37 => ⟨S4000x64, .f32⟩
  | 38 => ⟨S5000x64, .f32⟩
  | 39 => ⟨S5000x64, .f32⟩
  | 40 => ⟨S5000x64, .f32⟩
  | 41 => ⟨S5000x64, .f32⟩
  | 42 => ⟨S5000x64, .f32⟩
  | 43 => ⟨S5000x64, .f32⟩
  | 44 => ⟨S5000x64, .f32⟩
  | 45 => ⟨S5000x64, .f32⟩
  | 46 => ⟨S5000x64, .f32⟩
  | 47 => ⟨S5000x64, .f32⟩
  | 48 => ⟨S5000x64, .f32⟩
  | 49 => ⟨S5000x64, .f32⟩
  | 50 => ⟨S1x64, .f32⟩
  | 51 => ⟨S1x64, .f32⟩
  | 52 => ⟨S1x64, .f32⟩
  | 53 => ⟨S1x64, .f32⟩
  | 54 => ⟨S5000x64, .f32⟩
  | 55 => ⟨S5000x64, .f32⟩
  | 56 => ⟨S4000x64, .f32⟩
  | 57 => ⟨S4000x64, .f32⟩
  | 58 => ⟨S4000x64, .f32⟩
  | 59 => ⟨S4000x64, .f32⟩
  | 60 => ⟨S1x64, .f32⟩
  | 61 => ⟨S1x64, .f32⟩
  | 62 => ⟨S1x64, .f32⟩
  | 63 => ⟨S1x64, .f32⟩
  | 64 => ⟨S4000x64, .f32⟩
  | 65 => ⟨S4000x64, .f32⟩
  | 66 => ⟨S5000x64, .f32⟩
  | 67 => ⟨S5000x64, .f32⟩
  | 68 => ⟨S64x256, .f32⟩
  | 69 => ⟨S1x256, .f32⟩
  | 70 => ⟨S5000x256, .f32⟩
  | 71 => ⟨S5000x256, .f32⟩
  | 72 => ⟨S4000x64, .f32⟩
  | 73 => ⟨S4000x64, .f32⟩
  | 74 => ⟨S64x64, .f32⟩
  | 75 => ⟨S1x64, .f32⟩
  | 76 => ⟨S4000x64, .f32⟩
  | 77 => ⟨S4000x64, .f32⟩
  | 78 => ⟨S4000x64, .f32⟩
  | 79 => ⟨S4000x64, .f32⟩
  | 80 => ⟨S4000x64, .f32⟩
  | 81 => ⟨S4000x64, .f32⟩
  | 82 => ⟨S4000x64, .f32⟩
  | 83 => ⟨S4000x64, .f32⟩
  | 84 => ⟨S4000x64, .f32⟩
  | 85 => ⟨S4000x64, .f32⟩
  | 86 => ⟨S4000x64, .f32⟩
  | 87 => ⟨S4000x64, .f32⟩
  | 88 => ⟨S4000x64, .f32⟩
  | 89 => ⟨S4000x64, .f32⟩
  | 90 => ⟨S4000x64, .f32⟩
  | 91 => ⟨S4000x64, .f32⟩
  | 92 => ⟨S5000x64, .f32⟩
  | 93 => ⟨S5000x64, .f32⟩
  | 94 => ⟨S5000x64, .f32⟩
  | 95 => ⟨S5000x64, .f32⟩
  | 96 => ⟨S5000x64, .f32⟩
  | 97 => ⟨S5000x64, .f32⟩
  | 98 => ⟨S5000x64, .f32⟩
  | 99 => ⟨S5000x64, .f32⟩
  | 100 => ⟨S5000x64, .f32⟩
  | 101 => ⟨S5000x64, .f32⟩
  | 102 => ⟨S5000x64, .f32⟩
  | 103 => ⟨S5000x64, .f32⟩
  | 104 => ⟨S1x64, .f32⟩
  | 105 => ⟨S1x64, .f32⟩
  | 106 => ⟨S1x64, .f32⟩
  | 107 => ⟨S1x64, .f32⟩
  | 108 => ⟨S5000x64, .f32⟩
  | 109 => ⟨S5000x64, .f32⟩
  | 110 => ⟨S4000x64, .f32⟩
  | 111 => ⟨S4000x64, .f32⟩
  | 112 => ⟨S4000x64, .f32⟩
  | 113 => ⟨S4000x64, .f32⟩
  | 114 => ⟨S1x64, .f32⟩
  | 115 => ⟨S1x64, .f32⟩
  | 116 => ⟨S1x64, .f32⟩
  | 117 => ⟨S1x64, .f32⟩
  | 118 => ⟨S4000x64, .f32⟩
  | 119 => ⟨S4000x64, .f32⟩
  | 120 => ⟨S5000x64, .f32⟩
  | 121 => ⟨S5000x64, .f32⟩
  | 122 => ⟨S64x256, .f32⟩
  | 123 => ⟨S1x256, .f32⟩
  | 124 => ⟨S5000x256, .f32⟩
  | 125 => ⟨S5000x256, .f32⟩
  | 126 => ⟨S4000x64, .f32⟩
  | 127 => ⟨S4000x64, .f32⟩
  | _ => ⟨S16x4, .f32⟩

abbrev vmemTy0_1 (i : Nat) : BufTy := match i % 128 with
  | 0 => ⟨S64x64, .f32⟩
  | 1 => ⟨S1x64, .f32⟩
  | 2 => ⟨S4000x64, .f32⟩
  | 3 => ⟨S4000x64, .f32⟩
  | 4 => ⟨S4000x64, .f32⟩
  | 5 => ⟨S4000x64, .f32⟩
  | 6 => ⟨S4000x64, .f32⟩
  | 7 => ⟨S4000x64, .f32⟩
  | 8 => ⟨S4000x64, .f32⟩
  | 9 => ⟨S4000x64, .f32⟩
  | 10 => ⟨S4000x64, .f32⟩
  | 11 => ⟨S4000x64, .f32⟩
  | 12 => ⟨S4000x64, .f32⟩
  | 13 => ⟨S4000x64, .f32⟩
  | 14 => ⟨S4000x64, .f32⟩
  | 15 => ⟨S4000x64, .f32⟩
  | 16 => ⟨S4000x64, .f32⟩
  | 17 => ⟨S4000x64, .f32⟩
  | 18 => ⟨S5000x64, .f32⟩
  | 19 => ⟨S5000x64, .f32⟩
  | 20 => ⟨S5000x64, .f32⟩
  | 21 => ⟨S5000x64, .f32⟩
  | 22 => ⟨S5000x64, .f32⟩
  | 23 => ⟨S5000x64, .f32⟩
  | 24 => ⟨S5000x64, .f32⟩
  | 25 => ⟨S5000x64, .f32⟩
  | 26 => ⟨S5000x64, .f32⟩
  | 27 => ⟨S5000x64, .f32⟩
  | 28 => ⟨S5000x64, .f32⟩
  | 29 => ⟨S5000x64, .f32⟩
  | 30 => ⟨S1x64, .f32⟩
  | 31 => ⟨S1x64, .f32⟩
  | 32 => ⟨S1x64, .f32⟩
  | 33 => ⟨S1x64, .f32⟩
  | 34 => ⟨S5000x64, .f32⟩
  | 35 => ⟨S5000x64, .f32⟩
  | 36 => ⟨S4000x64, .f32⟩
  | 37 => ⟨S4000x64, .f32⟩
  | 38 => ⟨S4000x64, .f32⟩
  | 39 => ⟨S4000x64, .f32⟩
  | 40 => ⟨S1x64, .f32⟩
  | 41 => ⟨S1x64, .f32⟩
  | 42 => ⟨S1x64, .f32⟩
  | 43 => ⟨S1x64, .f32⟩
  | 44 => ⟨S4000x64, .f32⟩
  | 45 => ⟨S4000x64, .f32⟩
  | 46 => ⟨S16x68, .f32⟩
  | 47 => ⟨S68x256, .f32⟩
  | 48 => ⟨S1x256, .f32⟩
  | 49 => ⟨S256x256, .f32⟩
  | 50 => ⟨S1x256, .f32⟩
  | 51 => ⟨S256x2, .f32⟩
  | 52 => ⟨S1x2, .f32⟩
  | 53 => ⟨S16x2, .f32⟩
  | _ => ⟨S16x4, .f32⟩

abbrev vmemTy (i : Nat) : BufTy := match i / 128 with
  | 0 => vmemTy0_0 i
  | 1 => vmemTy0_1 i
  | _ => ⟨S16x4, .f32⟩

abbrev bufTy : (tb : Table) → Fin (tcTables nBuf tb) → BufTy
  | .hbm, ⟨i, _⟩ => hbmTy i
  | .local _ .vmem, ⟨i, _⟩ => vmemTy i
  | _, _ => ⟨S16x4, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 182 → Bool
  | ⟨i, _⟩ => dmaSemScopedAt i

abbrev sig : RefSig :=
  ofTc nBuf bufTy 0 182 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_call0_c : Ref sig .tc := ⟨.hbm, 64, rfl⟩
abbrev main_call0_v0 : Ref sig .tc := ⟨.hbm, 65, rfl⟩
abbrev main_call0_v1 : Ref sig .tc := ⟨.hbm, 66, rfl⟩
abbrev main_call0_c_0 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_c_1 : Ref sig .tc := ⟨.hbm, 72, rfl⟩
abbrev main_call0_c_2 : Ref sig .tc := ⟨.hbm, 73, rfl⟩
abbrev main_call0_v6 : Ref sig .tc := ⟨.hbm, 74, rfl⟩
abbrev main_call0_v7 : Ref sig .tc := ⟨.hbm, 75, rfl⟩
abbrev main_call0_v8 : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_c_3 : Ref sig .tc := ⟨.hbm, 80, rfl⟩
abbrev main_call0_v12 : Ref sig .tc := ⟨.hbm, 81, rfl⟩
abbrev main_call0_v13 : Ref sig .tc := ⟨.hbm, 82, rfl⟩
abbrev main_call0_v14 : Ref sig .tc := ⟨.hbm, 83, rfl⟩
abbrev main_call0_cst : Ref sig .tc := ⟨.hbm, 84, rfl⟩
abbrev main_call0_v15 : Ref sig .tc := ⟨.hbm, 85, rfl⟩
abbrev main_v34 : Ref sig .tc := ⟨.hbm, 86, rfl⟩
abbrev main_call1_c : Ref sig .tc := ⟨.hbm, 87, rfl⟩
abbrev main_call1_v0 : Ref sig .tc := ⟨.hbm, 88, rfl⟩
abbrev main_call1_v1 : Ref sig .tc := ⟨.hbm, 89, rfl⟩
abbrev main_call1_c_0 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_c_1 : Ref sig .tc := ⟨.hbm, 95, rfl⟩
abbrev main_call1_c_2 : Ref sig .tc := ⟨.hbm, 96, rfl⟩
abbrev main_call1_v6 : Ref sig .tc := ⟨.hbm, 97, rfl⟩
abbrev main_call1_v7 : Ref sig .tc := ⟨.hbm, 98, rfl⟩
abbrev main_call1_v8 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_c_3 : Ref sig .tc := ⟨.hbm, 103, rfl⟩
abbrev main_call1_v12 : Ref sig .tc := ⟨.hbm, 104, rfl⟩
abbrev main_call1_v13 : Ref sig .tc := ⟨.hbm, 105, rfl⟩
abbrev main_call1_v14 : Ref sig .tc := ⟨.hbm, 106, rfl⟩
abbrev main_call1_cst : Ref sig .tc := ⟨.hbm, 107, rfl⟩
abbrev main_call1_v15 : Ref sig .tc := ⟨.hbm, 108, rfl⟩
abbrev main_v35 : Ref sig .tc := ⟨.hbm, 109, rfl⟩
abbrev main_call2_c : Ref sig .tc := ⟨.hbm, 110, rfl⟩
abbrev main_call2_v0 : Ref sig .tc := ⟨.hbm, 111, rfl⟩
abbrev main_call2_v1 : Ref sig .tc := ⟨.hbm, 112, rfl⟩
abbrev main_call2_c_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_c_1 : Ref sig .tc := ⟨.hbm, 118, rfl⟩
abbrev main_call2_c_2 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_c_3 : Ref sig .tc := ⟨.hbm, 126, rfl⟩
abbrev main_call2_v12 : Ref sig .tc := ⟨.hbm, 127, rfl⟩
abbrev main_call2_v13 : Ref sig .tc := ⟨.hbm, 128, rfl⟩
abbrev main_call2_v14 : Ref sig .tc := ⟨.hbm, 129, rfl⟩
abbrev main_call2_cst : Ref sig .tc := ⟨.hbm, 130, rfl⟩
abbrev main_call2_v15 : Ref sig .tc := ⟨.hbm, 131, rfl⟩
abbrev main_v36 : Ref sig .tc := ⟨.hbm, 132, rfl⟩
abbrev main_v37_0 : Ref sig .tc := ⟨.hbm, 133, rfl⟩
abbrev main_v37_1 : Ref sig .tc := ⟨.hbm, 134, rfl⟩
abbrev main_v37_2 : Ref sig .tc := ⟨.hbm, 135, rfl⟩
abbrev main_cst : Ref sig .tc := ⟨.hbm, 136, rfl⟩
abbrev main_v38 : Ref sig .tc := ⟨.hbm, 137, rfl⟩
abbrev main_v39 : Ref sig .tc := ⟨.hbm, 138, rfl⟩
abbrev main_v40 : Ref sig .tc := ⟨.hbm, 139, rfl⟩
abbrev main_cst_0 : Ref sig .tc := ⟨.hbm, 140, rfl⟩
abbrev main_v41 : Ref sig .tc := ⟨.hbm, 141, rfl⟩
abbrev main_v42 : Ref sig .tc := ⟨.hbm, 142, rfl⟩
abbrev main_v43 : Ref sig .tc := ⟨.hbm, 143, rfl⟩
abbrev main_v44 : Ref sig .tc := ⟨.hbm, 144, rfl⟩
abbrev main_cst_1 : Ref sig .tc := ⟨.hbm, 145, rfl⟩
abbrev main_v45 : Ref sig .tc := ⟨.hbm, 146, rfl⟩
abbrev main_cst_2 : Ref sig .tc := ⟨.hbm, 147, rfl⟩
abbrev main_v46 : Ref sig .tc := ⟨.hbm, 148, rfl⟩
abbrev main_v47 : Ref sig .tc := ⟨.hbm, 149, rfl⟩
abbrev main_c : Ref sig .tc := ⟨.hbm, 150, rfl⟩
abbrev main_call3_cst : Ref sig .tc := ⟨.hbm, 151, rfl⟩
abbrev main_call3_v0 : Ref sig .tc := ⟨.hbm, 152, rfl⟩
abbrev main_call3_v1 : Ref sig .tc := ⟨.hbm, 153, rfl⟩
abbrev main_call3_cst_0 : Ref sig .tc := ⟨.hbm, 154, rfl⟩
abbrev main_call3_v2 : Ref sig .tc := ⟨.hbm, 155, rfl⟩
abbrev main_call3_v3 : Ref sig .tc := ⟨.hbm, 156, rfl⟩
abbrev main_call3_v4 : Ref sig .tc := ⟨.hbm, 157, rfl⟩
abbrev main_call3_v5 : Ref sig .tc := ⟨.hbm, 158, rfl⟩
abbrev main_call3_v6 : Ref sig .tc := ⟨.hbm, 159, rfl⟩
abbrev main_call3_v7 : Ref sig .tc := ⟨.hbm, 160, rfl⟩
abbrev main_call3_cst_1 : Ref sig .tc := ⟨.hbm, 161, rfl⟩
abbrev main_call3_v8 : Ref sig .tc := ⟨.hbm, 162, rfl⟩
abbrev main_call3_cst_2 : Ref sig .tc := ⟨.hbm, 163, rfl⟩
abbrev main_call3_v9 : Ref sig .tc := ⟨.hbm, 164, rfl⟩
abbrev main_call3_v10 : Ref sig .tc := ⟨.hbm, 165, rfl⟩
abbrev main_call3_v11 : Ref sig .tc := ⟨.hbm, 166, rfl⟩
abbrev main_call3_cst_3 : Ref sig .tc := ⟨.hbm, 167, rfl⟩
abbrev main_call3_v12 : Ref sig .tc := ⟨.hbm, 168, rfl⟩
abbrev main_call3_cst_4 : Ref sig .tc := ⟨.hbm, 169, rfl⟩
abbrev main_call3_call0_v0 : Ref sig .tc := ⟨.hbm, 170, rfl⟩
abbrev main_call3_call0_v1 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩
abbrev main_cst_3 : Ref sig .tc := ⟨.hbm, 182, rfl⟩
abbrev main_v58 : Ref sig .tc := ⟨.hbm, 183, rfl⟩
abbrev main_cst_4 : Ref sig .tc := ⟨.hbm, 184, rfl⟩
abbrev main_v59 : Ref sig .tc := ⟨.hbm, 185, rfl⟩
abbrev main_v60 : Ref sig .tc := ⟨.hbm, 186, rfl⟩
abbrev main_c_5 : Ref sig .tc := ⟨.hbm, 187, rfl⟩
abbrev main_call4_cst : Ref sig .tc := ⟨.hbm, 188, rfl⟩
abbrev main_call4_v0 : Ref sig .tc := ⟨.hbm, 189, rfl⟩
abbrev main_call4_v1 : Ref sig .tc := ⟨.hbm, 190, rfl⟩
abbrev main_call4_cst_0 : Ref sig .tc := ⟨.hbm, 191, rfl⟩
abbrev main_call4_v2 : Ref sig .tc := ⟨.hbm, 192, rfl⟩
abbrev main_call4_v3 : Ref sig .tc := ⟨.hbm, 193, rfl⟩
abbrev main_call4_v4 : Ref sig .tc := ⟨.hbm, 194, rfl⟩
abbrev main_call4_v5 : Ref sig .tc := ⟨.hbm, 195, rfl⟩
abbrev main_call4_v6 : Ref sig .tc := ⟨.hbm, 196, rfl⟩
abbrev main_call4_v7 : Ref sig .tc := ⟨.hbm, 197, rfl⟩
abbrev main_call4_cst_1 : Ref sig .tc := ⟨.hbm, 198, rfl⟩
abbrev main_call4_v8 : Ref sig .tc := ⟨.hbm, 199, rfl⟩
abbrev main_call4_cst_2 : Ref sig .tc := ⟨.hbm, 200, rfl⟩
abbrev main_call4_v9 : Ref sig .tc := ⟨.hbm, 201, rfl⟩
abbrev main_call4_v10 : Ref sig .tc := ⟨.hbm, 202, rfl⟩
abbrev main_call4_v11 : Ref sig .tc := ⟨.hbm, 203, rfl⟩
abbrev main_call4_cst_3 : Ref sig .tc := ⟨.hbm, 204, rfl⟩
abbrev main_call4_v12 : Ref sig .tc := ⟨.hbm, 205, rfl⟩
abbrev main_call4_cst_4 : Ref sig .tc := ⟨.hbm, 206, rfl⟩
abbrev main_call4_call0_v0 : Ref sig .tc := ⟨.hbm, 207, rfl⟩
abbrev main_call4_call0_v1 : Ref sig .tc := ⟨.hbm, 208, rfl⟩
abbrev main_v61 : Ref sig .tc := ⟨.hbm, 209, rfl⟩
abbrev main_v62 : Ref sig .tc := ⟨.hbm, 210, rfl⟩
abbrev main_v63 : Ref sig .tc := ⟨.hbm, 211, rfl⟩
abbrev main_v64 : Ref sig .tc := ⟨.hbm, 212, rfl⟩
abbrev main_v65 : Ref sig .tc := ⟨.hbm, 213, rfl⟩
abbrev main_v66 : Ref sig .tc := ⟨.hbm, 214, rfl⟩
abbrev main_v67 : Ref sig .tc := ⟨.hbm, 215, rfl⟩
abbrev main_v68 : Ref sig .tc := ⟨.hbm, 216, rfl⟩
abbrev main_v69 : Ref sig .tc := ⟨.hbm, 217, rfl⟩
abbrev main_v70 : Ref sig .tc := ⟨.hbm, 218, rfl⟩
abbrev main_v71 : Ref sig .tc := ⟨.hbm, 219, rfl⟩
abbrev main_v72 : Ref sig .tc := ⟨.hbm, 220, rfl⟩
abbrev main_v73 : Ref sig .tc := ⟨.hbm, 221, rfl⟩
abbrev main_v74 : Ref sig .tc := ⟨.hbm, 222, rfl⟩
abbrev main_v75 : Ref sig .tc := ⟨.hbm, 223, rfl⟩
abbrev main_v76 : Ref sig .tc := ⟨.hbm, 224, rfl⟩
abbrev main_v77 : Ref sig .tc := ⟨.hbm, 225, rfl⟩
abbrev main_v78 : Ref sig .tc := ⟨.hbm, 226, rfl⟩
abbrev main_v79 : Ref sig .tc := ⟨.hbm, 227, rfl⟩
abbrev main_v80 : Ref sig .tc := ⟨.hbm, 228, rfl⟩
abbrev main_v81 : Ref sig .tc := ⟨.hbm, 229, rfl⟩
abbrev main_v82 : Ref sig .tc := ⟨.hbm, 230, rfl⟩
abbrev main_v83 : Ref sig .tc := ⟨.hbm, 231, rfl⟩
abbrev main_v84 : Ref sig .tc := ⟨.hbm, 232, rfl⟩
abbrev main_v85 : Ref sig .tc := ⟨.hbm, 233, rfl⟩
abbrev main_v86 : Ref sig .tc := ⟨.hbm, 234, rfl⟩
abbrev main_v87 : Ref sig .tc := ⟨.hbm, 235, rfl⟩
abbrev main_v88 : Ref sig .tc := ⟨.hbm, 236, rfl⟩
abbrev main_v89 : Ref sig .tc := ⟨.hbm, 237, rfl⟩
abbrev main_v90 : Ref sig .tc := ⟨.hbm, 238, rfl⟩
abbrev main_v91 : Ref sig .tc := ⟨.hbm, 239, rfl⟩
abbrev main_v92 : Ref sig .tc := ⟨.hbm, 240, rfl⟩
abbrev main_v93 : Ref sig .tc := ⟨.hbm, 241, rfl⟩
abbrev main_v94 : Ref sig .tc := ⟨.hbm, 242, rfl⟩
abbrev main_v95 : Ref sig .tc := ⟨.hbm, 243, rfl⟩
abbrev main_v96 : Ref sig .tc := ⟨.hbm, 244, rfl⟩
abbrev main_v97 : Ref sig .tc := ⟨.hbm, 245, rfl⟩
abbrev main_v98 : Ref sig .tc := ⟨.hbm, 246, rfl⟩
abbrev main_v99 : Ref sig .tc := ⟨.hbm, 247, rfl⟩
abbrev main_v100 : Ref sig .tc := ⟨.hbm, 248, rfl⟩
abbrev main_call5_c : Ref sig .tc := ⟨.hbm, 249, rfl⟩
abbrev main_call5_v0 : Ref sig .tc := ⟨.hbm, 250, rfl⟩
abbrev main_call5_v1 : Ref sig .tc := ⟨.hbm, 251, rfl⟩
abbrev main_call5_c_0 : Ref sig .tc := ⟨.hbm, 252, rfl⟩
abbrev main_call5_v2 : Ref sig .tc := ⟨.hbm, 253, rfl⟩
abbrev main_call5_v3 : Ref sig .tc := ⟨.hbm, 254, rfl⟩
abbrev main_call5_v4 : Ref sig .tc := ⟨.hbm, 255, rfl⟩
abbrev main_call5_v5 : Ref sig .tc := ⟨.hbm, 256, rfl⟩
abbrev main_call5_c_1 : Ref sig .tc := ⟨.hbm, 257, rfl⟩
abbrev main_call5_c_2 : Ref sig .tc := ⟨.hbm, 258, rfl⟩
abbrev main_call5_v6 : Ref sig .tc := ⟨.hbm, 259, rfl⟩
abbrev main_call5_v7 : Ref sig .tc := ⟨.hbm, 260, rfl⟩
abbrev main_call5_v8 : Ref sig .tc := ⟨.hbm, 261, rfl⟩
abbrev main_call5_v9 : Ref sig .tc := ⟨.hbm, 262, rfl⟩
abbrev main_call5_v10 : Ref sig .tc := ⟨.hbm, 263, rfl⟩
abbrev main_call5_v11 : Ref sig .tc := ⟨.hbm, 264, rfl⟩
abbrev main_call5_c_3 : Ref sig .tc := ⟨.hbm, 265, rfl⟩
abbrev main_call5_v12 : Ref sig .tc := ⟨.hbm, 266, rfl⟩
abbrev main_call5_v13 : Ref sig .tc := ⟨.hbm, 267, rfl⟩
abbrev main_call5_v14 : Ref sig .tc := ⟨.hbm, 268, rfl⟩
abbrev main_call5_cst : Ref sig .tc := ⟨.hbm, 269, rfl⟩
abbrev main_call5_v15 : Ref sig .tc := ⟨.hbm, 270, rfl⟩
abbrev main_v101 : Ref sig .tc := ⟨.hbm, 271, rfl⟩
abbrev main_call6_c : Ref sig .tc := ⟨.hbm, 272, rfl⟩
abbrev main_call6_v0 : Ref sig .tc := ⟨.hbm, 273, rfl⟩
abbrev main_call6_v1 : Ref sig .tc := ⟨.hbm, 274, rfl⟩
abbrev main_call6_c_0 : Ref sig .tc := ⟨.hbm, 275, rfl⟩
abbrev main_call6_v2 : Ref sig .tc := ⟨.hbm, 276, rfl⟩
abbrev main_call6_v3 : Ref sig .tc := ⟨.hbm, 277, rfl⟩
abbrev main_call6_v4 : Ref sig .tc := ⟨.hbm, 278, rfl⟩
abbrev main_call6_v5 : Ref sig .tc := ⟨.hbm, 279, rfl⟩
abbrev main_call6_c_1 : Ref sig .tc := ⟨.hbm, 280, rfl⟩
abbrev main_call6_c_2 : Ref sig .tc := ⟨.hbm, 281, rfl⟩
abbrev main_call6_v6 : Ref sig .tc := ⟨.hbm, 282, rfl⟩
abbrev main_call6_v7 : Ref sig .tc := ⟨.hbm, 283, rfl⟩
abbrev main_call6_v8 : Ref sig .tc := ⟨.hbm, 284, rfl⟩
abbrev main_call6_v9 : Ref sig .tc := ⟨.hbm, 285, rfl⟩
abbrev main_call6_v10 : Ref sig .tc := ⟨.hbm, 286, rfl⟩
abbrev main_call6_v11 : Ref sig .tc := ⟨.hbm, 287, rfl⟩
abbrev main_call6_c_3 : Ref sig .tc := ⟨.hbm, 288, rfl⟩
abbrev main_call6_v12 : Ref sig .tc := ⟨.hbm, 289, rfl⟩
abbrev main_call6_v13 : Ref sig .tc := ⟨.hbm, 290, rfl⟩
abbrev main_call6_v14 : Ref sig .tc := ⟨.hbm, 291, rfl⟩
abbrev main_call6_cst : Ref sig .tc := ⟨.hbm, 292, rfl⟩
abbrev main_call6_v15 : Ref sig .tc := ⟨.hbm, 293, rfl⟩
abbrev main_v102 : Ref sig .tc := ⟨.hbm, 294, rfl⟩
abbrev main_call7_c : Ref sig .tc := ⟨.hbm, 295, rfl⟩
abbrev main_call7_v0 : Ref sig .tc := ⟨.hbm, 296, rfl⟩
abbrev main_call7_v1 : Ref sig .tc := ⟨.hbm, 297, rfl⟩
abbrev main_call7_c_0 : Ref sig .tc := ⟨.hbm, 298, rfl⟩
abbrev main_call7_v2 : Ref sig .tc := ⟨.hbm, 299, rfl⟩
abbrev main_call7_v3 : Ref sig .tc := ⟨.hbm, 300, rfl⟩
abbrev main_call7_v4 : Ref sig .tc := ⟨.hbm, 301, rfl⟩
abbrev main_call7_v5 : Ref sig .tc := ⟨.hbm, 302, rfl⟩
abbrev main_call7_c_1 : Ref sig .tc := ⟨.hbm, 303, rfl⟩
abbrev main_call7_c_2 : Ref sig .tc := ⟨.hbm, 304, rfl⟩
abbrev main_call7_v6 : Ref sig .tc := ⟨.hbm, 305, rfl⟩
abbrev main_call7_v7 : Ref sig .tc := ⟨.hbm, 306, rfl⟩
abbrev main_call7_v8 : Ref sig .tc := ⟨.hbm, 307, rfl⟩
abbrev main_call7_v9 : Ref sig .tc := ⟨.hbm, 308, rfl⟩
abbrev main_call7_v10 : Ref sig .tc := ⟨.hbm, 309, rfl⟩
abbrev main_call7_v11 : Ref sig .tc := ⟨.hbm, 310, rfl⟩
abbrev main_call7_c_3 : Ref sig .tc := ⟨.hbm, 311, rfl⟩
abbrev main_call7_v12 : Ref sig .tc := ⟨.hbm, 312, rfl⟩
abbrev main_call7_v13 : Ref sig .tc := ⟨.hbm, 313, rfl⟩
abbrev main_call7_v14 : Ref sig .tc := ⟨.hbm, 314, rfl⟩
abbrev main_call7_cst : Ref sig .tc := ⟨.hbm, 315, rfl⟩
abbrev main_call7_v15 : Ref sig .tc := ⟨.hbm, 316, rfl⟩
abbrev main_v103 : Ref sig .tc := ⟨.hbm, 317, rfl⟩
abbrev main_v104_0 : Ref sig .tc := ⟨.hbm, 318, rfl⟩
abbrev main_v104_1 : Ref sig .tc := ⟨.hbm, 319, rfl⟩
abbrev main_v104_2 : Ref sig .tc := ⟨.hbm, 320, rfl⟩
abbrev main_cst_6 : Ref sig .tc := ⟨.hbm, 321, rfl⟩
abbrev main_v105 : Ref sig .tc := ⟨.hbm, 322, rfl⟩
abbrev main_v106 : Ref sig .tc := ⟨.hbm, 323, rfl⟩
abbrev main_v107 : Ref sig .tc := ⟨.hbm, 324, rfl⟩
abbrev main_cst_7 : Ref sig .tc := ⟨.hbm, 325, rfl⟩
abbrev main_v108 : Ref sig .tc := ⟨.hbm, 326, rfl⟩
abbrev main_v109 : Ref sig .tc := ⟨.hbm, 327, rfl⟩
abbrev main_v110 : Ref sig .tc := ⟨.hbm, 328, rfl⟩
abbrev main_v111 : Ref sig .tc := ⟨.hbm, 329, rfl⟩
abbrev main_cst_8 : Ref sig .tc := ⟨.hbm, 330, rfl⟩
abbrev main_v112 : Ref sig .tc := ⟨.hbm, 331, rfl⟩
abbrev main_cst_9 : Ref sig .tc := ⟨.hbm, 332, rfl⟩
abbrev main_v113 : Ref sig .tc := ⟨.hbm, 333, rfl⟩
abbrev main_v114 : Ref sig .tc := ⟨.hbm, 334, rfl⟩
abbrev main_c_10 : Ref sig .tc := ⟨.hbm, 335, rfl⟩
abbrev main_call8_cst : Ref sig .tc := ⟨.hbm, 336, rfl⟩
abbrev main_call8_v0 : Ref sig .tc := ⟨.hbm, 337, rfl⟩
abbrev main_call8_v1 : Ref sig .tc := ⟨.hbm, 338, rfl⟩
abbrev main_call8_cst_0 : Ref sig .tc := ⟨.hbm, 339, rfl⟩
abbrev main_call8_v2 : Ref sig .tc := ⟨.hbm, 340, rfl⟩
abbrev main_call8_v3 : Ref sig .tc := ⟨.hbm, 341, rfl⟩
abbrev main_call8_v4 : Ref sig .tc := ⟨.hbm, 342, rfl⟩
abbrev main_call8_v5 : Ref sig .tc := ⟨.hbm, 343, rfl⟩
abbrev main_call8_v6 : Ref sig .tc := ⟨.hbm, 344, rfl⟩
abbrev main_call8_v7 : Ref sig .tc := ⟨.hbm, 345, rfl⟩
abbrev main_call8_cst_1 : Ref sig .tc := ⟨.hbm, 346, rfl⟩
abbrev main_call8_v8 : Ref sig .tc := ⟨.hbm, 347, rfl⟩
abbrev main_call8_cst_2 : Ref sig .tc := ⟨.hbm, 348, rfl⟩
abbrev main_call8_v9 : Ref sig .tc := ⟨.hbm, 349, rfl⟩
abbrev main_call8_v10 : Ref sig .tc := ⟨.hbm, 350, rfl⟩
abbrev main_call8_v11 : Ref sig .tc := ⟨.hbm, 351, rfl⟩
abbrev main_call8_cst_3 : Ref sig .tc := ⟨.hbm, 352, rfl⟩
abbrev main_call8_v12 : Ref sig .tc := ⟨.hbm, 353, rfl⟩
abbrev main_call8_cst_4 : Ref sig .tc := ⟨.hbm, 354, rfl⟩
abbrev main_call8_call0_v0 : Ref sig .tc := ⟨.hbm, 355, rfl⟩
abbrev main_call8_call0_v1 : Ref sig .tc := ⟨.hbm, 356, rfl⟩
abbrev main_v115 : Ref sig .tc := ⟨.hbm, 357, rfl⟩
abbrev main_v116 : Ref sig .tc := ⟨.hbm, 358, rfl⟩
abbrev main_v117 : Ref sig .tc := ⟨.hbm, 359, rfl⟩
abbrev main_v118 : Ref sig .tc := ⟨.hbm, 360, rfl⟩
abbrev main_v119 : Ref sig .tc := ⟨.hbm, 361, rfl⟩
abbrev main_v120 : Ref sig .tc := ⟨.hbm, 362, rfl⟩
abbrev main_v121 : Ref sig .tc := ⟨.hbm, 363, rfl⟩
abbrev main_v122 : Ref sig .tc := ⟨.hbm, 364, rfl⟩
abbrev main_v123 : Ref sig .tc := ⟨.hbm, 365, rfl⟩
abbrev main_v124 : Ref sig .tc := ⟨.hbm, 366, rfl⟩
abbrev main_cst_11 : Ref sig .tc := ⟨.hbm, 367, rfl⟩
abbrev main_v125 : Ref sig .tc := ⟨.hbm, 368, rfl⟩
abbrev main_cst_12 : Ref sig .tc := ⟨.hbm, 369, rfl⟩
abbrev main_v126 : Ref sig .tc := ⟨.hbm, 370, rfl⟩
abbrev main_v127 : Ref sig .tc := ⟨.hbm, 371, rfl⟩
abbrev main_c_13 : Ref sig .tc := ⟨.hbm, 372, rfl⟩
abbrev main_call9_cst : Ref sig .tc := ⟨.hbm, 373, rfl⟩
abbrev main_call9_v0 : Ref sig .tc := ⟨.hbm, 374, rfl⟩
abbrev main_call9_v1 : Ref sig .tc := ⟨.hbm, 375, rfl⟩
abbrev main_call9_cst_0 : Ref sig .tc := ⟨.hbm, 376, rfl⟩
abbrev main_call9_v2 : Ref sig .tc := ⟨.hbm, 377, rfl⟩
abbrev main_call9_v3 : Ref sig .tc := ⟨.hbm, 378, rfl⟩
abbrev main_call9_v4 : Ref sig .tc := ⟨.hbm, 379, rfl⟩
abbrev main_call9_v5 : Ref sig .tc := ⟨.hbm, 380, rfl⟩
abbrev main_call9_v6 : Ref sig .tc := ⟨.hbm, 381, rfl⟩
abbrev main_call9_v7 : Ref sig .tc := ⟨.hbm, 382, rfl⟩
abbrev main_call9_cst_1 : Ref sig .tc := ⟨.hbm, 383, rfl⟩
abbrev main_call9_v8 : Ref sig .tc := ⟨.hbm, 384, rfl⟩
abbrev main_call9_cst_2 : Ref sig .tc := ⟨.hbm, 385, rfl⟩
abbrev main_call9_v9 : Ref sig .tc := ⟨.hbm, 386, rfl⟩
abbrev main_call9_v10 : Ref sig .tc := ⟨.hbm, 387, rfl⟩
abbrev main_call9_v11 : Ref sig .tc := ⟨.hbm, 388, rfl⟩
abbrev main_call9_cst_3 : Ref sig .tc := ⟨.hbm, 389, rfl⟩
abbrev main_call9_v12 : Ref sig .tc := ⟨.hbm, 390, rfl⟩
abbrev main_call9_cst_4 : Ref sig .tc := ⟨.hbm, 391, rfl⟩
abbrev main_call9_call0_v0 : Ref sig .tc := ⟨.hbm, 392, rfl⟩
abbrev main_call9_call0_v1 : Ref sig .tc := ⟨.hbm, 393, rfl⟩
abbrev main_v128 : Ref sig .tc := ⟨.hbm, 394, rfl⟩
abbrev main_v129 : Ref sig .tc := ⟨.hbm, 395, rfl⟩
abbrev main_v130 : Ref sig .tc := ⟨.hbm, 396, rfl⟩
abbrev main_v131 : Ref sig .tc := ⟨.hbm, 397, rfl⟩
abbrev main_v132 : Ref sig .tc := ⟨.hbm, 398, rfl⟩
abbrev main_v133 : Ref sig .tc := ⟨.hbm, 399, rfl⟩
abbrev main_v134 : Ref sig .tc := ⟨.hbm, 400, rfl⟩
abbrev main_v135 : Ref sig .tc := ⟨.hbm, 401, rfl⟩
abbrev main_v136 : Ref sig .tc := ⟨.hbm, 402, rfl⟩
abbrev main_v137 : Ref sig .tc := ⟨.hbm, 403, rfl⟩
abbrev main_v138 : Ref sig .tc := ⟨.hbm, 404, rfl⟩
abbrev main_v139 : Ref sig .tc := ⟨.hbm, 405, rfl⟩
abbrev main_v140 : Ref sig .tc := ⟨.hbm, 406, rfl⟩
abbrev main_v141 : Ref sig .tc := ⟨.hbm, 407, rfl⟩
abbrev main_v142 : Ref sig .tc := ⟨.hbm, 408, rfl⟩
abbrev main_v143 : Ref sig .tc := ⟨.hbm, 409, rfl⟩
abbrev main_v144 : Ref sig .tc := ⟨.hbm, 410, rfl⟩
abbrev main_v145 : Ref sig .tc := ⟨.hbm, 411, rfl⟩
abbrev main_v146 : Ref sig .tc := ⟨.hbm, 412, rfl⟩
abbrev main_v147 : Ref sig .tc := ⟨.hbm, 413, rfl⟩
abbrev main_v148 : Ref sig .tc := ⟨.hbm, 414, rfl⟩
abbrev main_v149 : Ref sig .tc := ⟨.hbm, 415, rfl⟩
abbrev main_v150 : Ref sig .tc := ⟨.hbm, 416, rfl⟩
abbrev main_v151 : Ref sig .tc := ⟨.hbm, 417, rfl⟩
abbrev main_v152 : Ref sig .tc := ⟨.hbm, 418, rfl⟩
abbrev main_v153 : Ref sig .tc := ⟨.hbm, 419, rfl⟩
abbrev main_v154 : Ref sig .tc := ⟨.hbm, 420, rfl⟩
abbrev main_v155 : Ref sig .tc := ⟨.hbm, 421, rfl⟩
abbrev main_v156 : Ref sig .tc := ⟨.hbm, 422, rfl⟩
abbrev main_v157 : Ref sig .tc := ⟨.hbm, 423, rfl⟩
abbrev main_v158 : Ref sig .tc := ⟨.hbm, 424, rfl⟩
abbrev main_v159 : Ref sig .tc := ⟨.hbm, 425, rfl⟩
abbrev main_v160 : Ref sig .tc := ⟨.hbm, 426, rfl⟩
abbrev main_v161 : Ref sig .tc := ⟨.hbm, 427, rfl⟩
abbrev main_v162 : Ref sig .tc := ⟨.hbm, 428, rfl⟩
abbrev main_v163 : Ref sig .tc := ⟨.hbm, 429, rfl⟩
abbrev main_v164 : Ref sig .tc := ⟨.hbm, 430, rfl⟩
abbrev main_v165 : Ref sig .tc := ⟨.hbm, 431, rfl⟩
abbrev main_v166 : Ref sig .tc := ⟨.hbm, 432, rfl⟩
abbrev main_v167 : Ref sig .tc := ⟨.hbm, 433, rfl⟩
abbrev main_call10_c : Ref sig .tc := ⟨.hbm, 434, rfl⟩
abbrev main_call10_v0 : Ref sig .tc := ⟨.hbm, 435, rfl⟩
abbrev main_call10_v1 : Ref sig .tc := ⟨.hbm, 436, rfl⟩
abbrev main_call10_c_0 : Ref sig .tc := ⟨.hbm, 437, rfl⟩
abbrev main_call10_v2 : Ref sig .tc := ⟨.hbm, 438, rfl⟩
abbrev main_call10_v3 : Ref sig .tc := ⟨.hbm, 439, rfl⟩
abbrev main_call10_v4 : Ref sig .tc := ⟨.hbm, 440, rfl⟩
abbrev main_call10_v5 : Ref sig .tc := ⟨.hbm, 441, rfl⟩
abbrev main_call10_c_1 : Ref sig .tc := ⟨.hbm, 442, rfl⟩
abbrev main_call10_c_2 : Ref sig .tc := ⟨.hbm, 443, rfl⟩
abbrev main_call10_v6 : Ref sig .tc := ⟨.hbm, 444, rfl⟩
abbrev main_call10_v7 : Ref sig .tc := ⟨.hbm, 445, rfl⟩
abbrev main_call10_v8 : Ref sig .tc := ⟨.hbm, 446, rfl⟩
abbrev main_call10_v9 : Ref sig .tc := ⟨.hbm, 447, rfl⟩
abbrev main_call10_v10 : Ref sig .tc := ⟨.hbm, 448, rfl⟩
abbrev main_call10_v11 : Ref sig .tc := ⟨.hbm, 449, rfl⟩
abbrev main_call10_c_3 : Ref sig .tc := ⟨.hbm, 450, rfl⟩
abbrev main_call10_v12 : Ref sig .tc := ⟨.hbm, 451, rfl⟩
abbrev main_call10_v13 : Ref sig .tc := ⟨.hbm, 452, rfl⟩
abbrev main_call10_v14 : Ref sig .tc := ⟨.hbm, 453, rfl⟩
abbrev main_call10_cst : Ref sig .tc := ⟨.hbm, 454, rfl⟩
abbrev main_call10_v15 : Ref sig .tc := ⟨.hbm, 455, rfl⟩
abbrev main_v168 : Ref sig .tc := ⟨.hbm, 456, rfl⟩
abbrev main_call11_c : Ref sig .tc := ⟨.hbm, 457, rfl⟩
abbrev main_call11_v0 : Ref sig .tc := ⟨.hbm, 458, rfl⟩
abbrev main_call11_v1 : Ref sig .tc := ⟨.hbm, 459, rfl⟩
abbrev main_call11_c_0 : Ref sig .tc := ⟨.hbm, 460, rfl⟩
abbrev main_call11_v2 : Ref sig .tc := ⟨.hbm, 461, rfl⟩
abbrev main_call11_v3 : Ref sig .tc := ⟨.hbm, 462, rfl⟩
abbrev main_call11_v4 : Ref sig .tc := ⟨.hbm, 463, rfl⟩
abbrev main_call11_v5 : Ref sig .tc := ⟨.hbm, 464, rfl⟩
abbrev main_call11_c_1 : Ref sig .tc := ⟨.hbm, 465, rfl⟩
abbrev main_call11_c_2 : Ref sig .tc := ⟨.hbm, 466, rfl⟩
abbrev main_call11_v6 : Ref sig .tc := ⟨.hbm, 467, rfl⟩
abbrev main_call11_v7 : Ref sig .tc := ⟨.hbm, 468, rfl⟩
abbrev main_call11_v8 : Ref sig .tc := ⟨.hbm, 469, rfl⟩
abbrev main_call11_v9 : Ref sig .tc := ⟨.hbm, 470, rfl⟩
abbrev main_call11_v10 : Ref sig .tc := ⟨.hbm, 471, rfl⟩
abbrev main_call11_v11 : Ref sig .tc := ⟨.hbm, 472, rfl⟩
abbrev main_call11_c_3 : Ref sig .tc := ⟨.hbm, 473, rfl⟩
abbrev main_call11_v12 : Ref sig .tc := ⟨.hbm, 474, rfl⟩
abbrev main_call11_v13 : Ref sig .tc := ⟨.hbm, 475, rfl⟩
abbrev main_call11_v14 : Ref sig .tc := ⟨.hbm, 476, rfl⟩
abbrev main_call11_cst : Ref sig .tc := ⟨.hbm, 477, rfl⟩
abbrev main_call11_v15 : Ref sig .tc := ⟨.hbm, 478, rfl⟩
abbrev main_v169 : Ref sig .tc := ⟨.hbm, 479, rfl⟩
abbrev main_call12_c : Ref sig .tc := ⟨.hbm, 480, rfl⟩
abbrev main_call12_v0 : Ref sig .tc := ⟨.hbm, 481, rfl⟩
abbrev main_call12_v1 : Ref sig .tc := ⟨.hbm, 482, rfl⟩
abbrev main_call12_c_0 : Ref sig .tc := ⟨.hbm, 483, rfl⟩
abbrev main_call12_v2 : Ref sig .tc := ⟨.hbm, 484, rfl⟩
abbrev main_call12_v3 : Ref sig .tc := ⟨.hbm, 485, rfl⟩
abbrev main_call12_v4 : Ref sig .tc := ⟨.hbm, 486, rfl⟩
abbrev main_call12_v5 : Ref sig .tc := ⟨.hbm, 487, rfl⟩
abbrev main_call12_c_1 : Ref sig .tc := ⟨.hbm, 488, rfl⟩
abbrev main_call12_c_2 : Ref sig .tc := ⟨.hbm, 489, rfl⟩
abbrev main_call12_v6 : Ref sig .tc := ⟨.hbm, 490, rfl⟩
abbrev main_call12_v7 : Ref sig .tc := ⟨.hbm, 491, rfl⟩
abbrev main_call12_v8 : Ref sig .tc := ⟨.hbm, 492, rfl⟩
abbrev main_call12_v9 : Ref sig .tc := ⟨.hbm, 493, rfl⟩
abbrev main_call12_v10 : Ref sig .tc := ⟨.hbm, 494, rfl⟩
abbrev main_call12_v11 : Ref sig .tc := ⟨.hbm, 495, rfl⟩
abbrev main_call12_c_3 : Ref sig .tc := ⟨.hbm, 496, rfl⟩
abbrev main_call12_v12 : Ref sig .tc := ⟨.hbm, 497, rfl⟩
abbrev main_call12_v13 : Ref sig .tc := ⟨.hbm, 498, rfl⟩
abbrev main_call12_v14 : Ref sig .tc := ⟨.hbm, 499, rfl⟩
abbrev main_call12_cst : Ref sig .tc := ⟨.hbm, 500, rfl⟩
abbrev main_call12_v15 : Ref sig .tc := ⟨.hbm, 501, rfl⟩
abbrev main_v170 : Ref sig .tc := ⟨.hbm, 502, rfl⟩
abbrev main_v171_0 : Ref sig .tc := ⟨.hbm, 503, rfl⟩
abbrev main_v171_1 : Ref sig .tc := ⟨.hbm, 504, rfl⟩
abbrev main_v171_2 : Ref sig .tc := ⟨.hbm, 505, rfl⟩
abbrev main_cst_14 : Ref sig .tc := ⟨.hbm, 506, rfl⟩
abbrev main_v172 : Ref sig .tc := ⟨.hbm, 507, rfl⟩
abbrev main_v173 : Ref sig .tc := ⟨.hbm, 508, rfl⟩
abbrev main_v174 : Ref sig .tc := ⟨.hbm, 509, rfl⟩
abbrev main_cst_15 : Ref sig .tc := ⟨.hbm, 510, rfl⟩
abbrev main_v175 : Ref sig .tc := ⟨.hbm, 511, rfl⟩
abbrev main_v176 : Ref sig .tc := ⟨.hbm, 512, rfl⟩
abbrev main_v177 : Ref sig .tc := ⟨.hbm, 513, rfl⟩
abbrev main_v178 : Ref sig .tc := ⟨.hbm, 514, rfl⟩
abbrev main_cst_16 : Ref sig .tc := ⟨.hbm, 515, rfl⟩
abbrev main_v179 : Ref sig .tc := ⟨.hbm, 516, rfl⟩
abbrev main_cst_17 : Ref sig .tc := ⟨.hbm, 517, rfl⟩
abbrev main_v180 : Ref sig .tc := ⟨.hbm, 518, rfl⟩
abbrev main_v181 : Ref sig .tc := ⟨.hbm, 519, rfl⟩
abbrev main_c_18 : Ref sig .tc := ⟨.hbm, 520, rfl⟩
abbrev main_call13_cst : Ref sig .tc := ⟨.hbm, 521, rfl⟩
abbrev main_call13_v0 : Ref sig .tc := ⟨.hbm, 522, rfl⟩
abbrev main_call13_v1 : Ref sig .tc := ⟨.hbm, 523, rfl⟩
abbrev main_call13_cst_0 : Ref sig .tc := ⟨.hbm, 524, rfl⟩
abbrev main_call13_v2 : Ref sig .tc := ⟨.hbm, 525, rfl⟩
abbrev main_call13_v3 : Ref sig .tc := ⟨.hbm, 526, rfl⟩
abbrev main_call13_v4 : Ref sig .tc := ⟨.hbm, 527, rfl⟩
abbrev main_call13_v5 : Ref sig .tc := ⟨.hbm, 528, rfl⟩
abbrev main_call13_v6 : Ref sig .tc := ⟨.hbm, 529, rfl⟩
abbrev main_call13_v7 : Ref sig .tc := ⟨.hbm, 530, rfl⟩
abbrev main_call13_cst_1 : Ref sig .tc := ⟨.hbm, 531, rfl⟩
abbrev main_call13_v8 : Ref sig .tc := ⟨.hbm, 532, rfl⟩
abbrev main_call13_cst_2 : Ref sig .tc := ⟨.hbm, 533, rfl⟩
abbrev main_call13_v9 : Ref sig .tc := ⟨.hbm, 534, rfl⟩
abbrev main_call13_v10 : Ref sig .tc := ⟨.hbm, 535, rfl⟩
abbrev main_call13_v11 : Ref sig .tc := ⟨.hbm, 536, rfl⟩
abbrev main_call13_cst_3 : Ref sig .tc := ⟨.hbm, 537, rfl⟩
abbrev main_call13_v12 : Ref sig .tc := ⟨.hbm, 538, rfl⟩
abbrev main_call13_cst_4 : Ref sig .tc := ⟨.hbm, 539, rfl⟩
abbrev main_call13_call0_v0 : Ref sig .tc := ⟨.hbm, 540, rfl⟩
abbrev main_call13_call0_v1 : Ref sig .tc := ⟨.hbm, 541, rfl⟩
abbrev main_v182 : Ref sig .tc := ⟨.hbm, 542, rfl⟩
abbrev main_v183 : Ref sig .tc := ⟨.hbm, 543, rfl⟩
abbrev main_v184 : Ref sig .tc := ⟨.hbm, 544, rfl⟩
abbrev main_v185 : Ref sig .tc := ⟨.hbm, 545, rfl⟩
abbrev main_v186 : Ref sig .tc := ⟨.hbm, 546, rfl⟩
abbrev main_v187 : Ref sig .tc := ⟨.hbm, 547, rfl⟩
abbrev main_v188 : Ref sig .tc := ⟨.hbm, 548, rfl⟩
abbrev main_v189 : Ref sig .tc := ⟨.hbm, 549, rfl⟩
abbrev main_v190 : Ref sig .tc := ⟨.hbm, 550, rfl⟩
abbrev main_v191 : Ref sig .tc := ⟨.hbm, 551, rfl⟩
abbrev main_cst_19 : Ref sig .tc := ⟨.hbm, 552, rfl⟩
abbrev main_v192 : Ref sig .tc := ⟨.hbm, 553, rfl⟩
abbrev main_cst_20 : Ref sig .tc := ⟨.hbm, 554, rfl⟩
abbrev main_v193 : Ref sig .tc := ⟨.hbm, 555, rfl⟩
abbrev main_v194 : Ref sig .tc := ⟨.hbm, 556, rfl⟩
abbrev main_c_21 : Ref sig .tc := ⟨.hbm, 557, rfl⟩
abbrev main_call14_cst : Ref sig .tc := ⟨.hbm, 558, rfl⟩
abbrev main_call14_v0 : Ref sig .tc := ⟨.hbm, 559, rfl⟩
abbrev main_call14_v1 : Ref sig .tc := ⟨.hbm, 560, rfl⟩
abbrev main_call14_cst_0 : Ref sig .tc := ⟨.hbm, 561, rfl⟩
abbrev main_call14_v2 : Ref sig .tc := ⟨.hbm, 562, rfl⟩
abbrev main_call14_v3 : Ref sig .tc := ⟨.hbm, 563, rfl⟩
abbrev main_call14_v4 : Ref sig .tc := ⟨.hbm, 564, rfl⟩
abbrev main_call14_v5 : Ref sig .tc := ⟨.hbm, 565, rfl⟩
abbrev main_call14_v6 : Ref sig .tc := ⟨.hbm, 566, rfl⟩
abbrev main_call14_v7 : Ref sig .tc := ⟨.hbm, 567, rfl⟩
abbrev main_call14_cst_1 : Ref sig .tc := ⟨.hbm, 568, rfl⟩
abbrev main_call14_v8 : Ref sig .tc := ⟨.hbm, 569, rfl⟩
abbrev main_call14_cst_2 : Ref sig .tc := ⟨.hbm, 570, rfl⟩
abbrev main_call14_v9 : Ref sig .tc := ⟨.hbm, 571, rfl⟩
abbrev main_call14_v10 : Ref sig .tc := ⟨.hbm, 572, rfl⟩
abbrev main_call14_v11 : Ref sig .tc := ⟨.hbm, 573, rfl⟩
abbrev main_call14_cst_3 : Ref sig .tc := ⟨.hbm, 574, rfl⟩
abbrev main_call14_v12 : Ref sig .tc := ⟨.hbm, 575, rfl⟩
abbrev main_call14_cst_4 : Ref sig .tc := ⟨.hbm, 576, rfl⟩
abbrev main_call14_call0_v0 : Ref sig .tc := ⟨.hbm, 577, rfl⟩
abbrev main_call14_call0_v1 : Ref sig .tc := ⟨.hbm, 578, rfl⟩
abbrev main_v195 : Ref sig .tc := ⟨.hbm, 579, rfl⟩
abbrev main_v196 : Ref sig .tc := ⟨.hbm, 580, rfl⟩
abbrev main_v197 : Ref sig .tc := ⟨.hbm, 581, rfl⟩
abbrev main_v198 : Ref sig .tc := ⟨.hbm, 582, rfl⟩
abbrev main_v199 : Ref sig .tc := ⟨.hbm, 583, rfl⟩
abbrev main_v200 : Ref sig .tc := ⟨.hbm, 584, rfl⟩
abbrev main_v201 : Ref sig .tc := ⟨.hbm, 585, rfl⟩
abbrev main_v202 : Ref sig .tc := ⟨.hbm, 586, rfl⟩
abbrev main_v203 : Ref sig .tc := ⟨.hbm, 587, rfl⟩
abbrev main_v204 : Ref sig .tc := ⟨.hbm, 588, rfl⟩
abbrev main_cst_22 : Ref sig .tc := ⟨.hbm, 589, rfl⟩
abbrev main_v205 : Ref sig .tc := ⟨.hbm, 590, rfl⟩
abbrev main_cst_23 : Ref sig .tc := ⟨.hbm, 591, rfl⟩
abbrev main_v206 : Ref sig .tc := ⟨.hbm, 592, rfl⟩
abbrev main_v207 : Ref sig .tc := ⟨.hbm, 593, rfl⟩
abbrev main_v208 : Ref sig .tc := ⟨.hbm, 594, rfl⟩
abbrev main_cst_24 : Ref sig .tc := ⟨.hbm, 595, rfl⟩
abbrev main_v209 : Ref sig .tc := ⟨.hbm, 596, rfl⟩
abbrev main_v210 : Ref sig .tc := ⟨.hbm, 597, rfl⟩
abbrev main_v211 : Ref sig .tc := ⟨.hbm, 598, rfl⟩
abbrev main_v212 : Ref sig .tc := ⟨.hbm, 599, rfl⟩
abbrev main_v213 : Ref sig .tc := ⟨.hbm, 600, rfl⟩
abbrev main_v214 : Ref sig .tc := ⟨.hbm, 601, rfl⟩
abbrev main_v215 : Ref sig .tc := ⟨.hbm, 602, rfl⟩
abbrev main_v216 : Ref sig .tc := ⟨.hbm, 603, rfl⟩
abbrev main_v217 : Ref sig .tc := ⟨.hbm, 604, rfl⟩
abbrev main_v218 : Ref sig .tc := ⟨.hbm, 605, rfl⟩
abbrev main_v219 : Ref sig .tc := ⟨.hbm, 606, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg4_1 : Ref sig .tc := ⟨.vmem, 33, rfl⟩
abbrev cc4_stg5_0 : Ref sig .tc := ⟨.vmem, 34, rfl⟩
abbrev cc4_stg5_1 : Ref sig .tc := ⟨.vmem, 35, rfl⟩
abbrev cc4_stg6_0 : Ref sig .tc := ⟨.vmem, 36, rfl⟩
abbrev cc4_stg6_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg3_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg5_0 : Ref sig .tc := ⟨.vmem, 53, rfl⟩
abbrev cc6_stg6_0 : Ref sig .tc := ⟨.vmem, 54, rfl⟩
abbrev cc6_stg6_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg5_0 : Ref sig .tc := ⟨.vmem, 63, rfl⟩
abbrev cc7_stg6_0 : Ref sig .tc := ⟨.vmem, 64, rfl⟩
abbrev cc7_stg6_1 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg2_0 : Ref sig .tc := ⟨.vmem, 69, rfl⟩
abbrev cc8_stg3_0 : Ref sig .tc := ⟨.vmem, 70, rfl⟩
abbrev cc8_stg3_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg3_1 : Ref sig .tc := ⟨.vmem, 77, rfl⟩
abbrev cc10_stg0_0 : Ref sig .tc := ⟨.vmem, 78, rfl⟩
abbrev cc10_stg0_1 : Ref sig .tc := ⟨.vmem, 79, rfl⟩
abbrev cc10_stg1_0 : Ref sig .tc := ⟨.vmem, 80, rfl⟩
abbrev cc10_stg1_1 : Ref sig .tc := ⟨.vmem, 81, rfl⟩
abbrev cc10_stg2_0 : Ref sig .tc := ⟨.vmem, 82, rfl⟩
abbrev cc10_stg2_1 : Ref sig .tc := ⟨.vmem, 83, rfl⟩
abbrev cc10_stg3_0 : Ref sig .tc := ⟨.vmem, 84, rfl⟩
abbrev cc10_stg3_1 : Ref sig .tc := ⟨.vmem, 85, rfl⟩
abbrev cc10_stg4_0 : Ref sig .tc := ⟨.vmem, 86, rfl⟩
abbrev cc10_stg4_1 : Ref sig .tc := ⟨.vmem, 87, rfl⟩
abbrev cc10_stg5_0 : Ref sig .tc := ⟨.vmem, 88, rfl⟩
abbrev cc10_stg5_1 : Ref sig .tc := ⟨.vmem, 89, rfl⟩
abbrev cc10_stg6_0 : Ref sig .tc := ⟨.vmem, 90, rfl⟩
abbrev cc10_stg6_1 : Ref sig .tc := ⟨.vmem, 91, rfl⟩
abbrev cc11_stg0_0 : Ref sig .tc := ⟨.vmem, 92, rfl⟩
abbrev cc11_stg0_1 : Ref sig .tc := ⟨.vmem, 93, rfl⟩
abbrev cc11_stg1_0 : Ref sig .tc := ⟨.vmem, 94, rfl⟩
abbrev cc11_stg1_1 : Ref sig .tc := ⟨.vmem, 95, rfl⟩
abbrev cc11_stg2_0 : Ref sig .tc := ⟨.vmem, 96, rfl⟩
abbrev cc11_stg2_1 : Ref sig .tc := ⟨.vmem, 97, rfl⟩
abbrev cc11_stg3_0 : Ref sig .tc := ⟨.vmem, 98, rfl⟩
abbrev cc11_stg3_1 : Ref sig .tc := ⟨.vmem, 99, rfl⟩
abbrev cc12_stg0_0 : Ref sig .tc := ⟨.vmem, 100, rfl⟩
abbrev cc12_stg0_1 : Ref sig .tc := ⟨.vmem, 101, rfl⟩
abbrev cc12_stg1_0 : Ref sig .tc := ⟨.vmem, 102, rfl⟩
abbrev cc12_stg1_1 : Ref sig .tc := ⟨.vmem, 103, rfl⟩
abbrev cc12_stg2_0 : Ref sig .tc := ⟨.vmem, 104, rfl⟩
abbrev cc12_stg3_0 : Ref sig .tc := ⟨.vmem, 105, rfl⟩
abbrev cc12_stg4_0 : Ref sig .tc := ⟨.vmem, 106, rfl⟩
abbrev cc12_stg5_0 : Ref sig .tc := ⟨.vmem, 107, rfl⟩
abbrev cc12_stg6_0 : Ref sig .tc := ⟨.vmem, 108, rfl⟩
abbrev cc12_stg6_1 : Ref sig .tc := ⟨.vmem, 109, rfl⟩
abbrev cc13_stg0_0 : Ref sig .tc := ⟨.vmem, 110, rfl⟩
abbrev cc13_stg0_1 : Ref sig .tc := ⟨.vmem, 111, rfl⟩
abbrev cc13_stg1_0 : Ref sig .tc := ⟨.vmem, 112, rfl⟩
abbrev cc13_stg1_1 : Ref sig .tc := ⟨.vmem, 113, rfl⟩
abbrev cc13_stg2_0 : Ref sig .tc := ⟨.vmem, 114, rfl⟩
abbrev cc13_stg3_0 : Ref sig .tc := ⟨.vmem, 115, rfl⟩
abbrev cc13_stg4_0 : Ref sig .tc := ⟨.vmem, 116, rfl⟩
abbrev cc13_stg5_0 : Ref sig .tc := ⟨.vmem, 117, rfl⟩
abbrev cc13_stg6_0 : Ref sig .tc := ⟨.vmem, 118, rfl⟩
abbrev cc13_stg6_1 : Ref sig .tc := ⟨.vmem, 119, rfl⟩
abbrev cc14_stg0_0 : Ref sig .tc := ⟨.vmem, 120, rfl⟩
abbrev cc14_stg0_1 : Ref sig .tc := ⟨.vmem, 121, rfl⟩
abbrev cc14_stg1_0 : Ref sig .tc := ⟨.vmem, 122, rfl⟩
abbrev cc14_stg2_0 : Ref sig .tc := ⟨.vmem, 123, rfl⟩
abbrev cc14_stg3_0 : Ref sig .tc := ⟨.vmem, 124, rfl⟩
abbrev cc14_stg3_1 : Ref sig .tc := ⟨.vmem, 125, rfl⟩
abbrev cc15_stg0_0 : Ref sig .tc := ⟨.vmem, 126, rfl⟩
abbrev cc15_stg0_1 : Ref sig .tc := ⟨.vmem, 127, rfl⟩
abbrev cc15_stg1_0 : Ref sig .tc := ⟨.vmem, 128, rfl⟩
abbrev cc15_stg2_0 : Ref sig .tc := ⟨.vmem, 129, rfl⟩
abbrev cc15_stg3_0 : Ref sig .tc := ⟨.vmem, 130, rfl⟩
abbrev cc15_stg3_1 : Ref sig .tc := ⟨.vmem, 131, rfl⟩
abbrev cc16_stg0_0 : Ref sig .tc := ⟨.vmem, 132, rfl⟩
abbrev cc16_stg0_1 : Ref sig .tc := ⟨.vmem, 133, rfl⟩
abbrev cc16_stg1_0 : Ref sig .tc := ⟨.vmem, 134, rfl⟩
abbrev cc16_stg1_1 : Ref sig .tc := ⟨.vmem, 135, rfl⟩
abbrev cc16_stg2_0 : Ref sig .tc := ⟨.vmem, 136, rfl⟩
abbrev cc16_stg2_1 : Ref sig .tc := ⟨.vmem, 137, rfl⟩
abbrev cc16_stg3_0 : Ref sig .tc := ⟨.vmem, 138, rfl⟩
abbrev cc16_stg3_1 : Ref sig .tc := ⟨.vmem, 139, rfl⟩
abbrev cc16_stg4_0 : Ref sig .tc := ⟨.vmem, 140, rfl⟩
abbrev cc16_stg4_1 : Ref sig .tc := ⟨.vmem, 141, rfl⟩
abbrev cc16_stg5_0 : Ref sig .tc := ⟨.vmem, 142, rfl⟩
abbrev cc16_stg5_1 : Ref sig .tc := ⟨.vmem, 143, rfl⟩
abbrev cc16_stg6_0 : Ref sig .tc := ⟨.vmem, 144, rfl⟩
abbrev cc16_stg6_1 : Ref sig .tc := ⟨.vmem, 145, rfl⟩
abbrev cc17_stg0_0 : Ref sig .tc := ⟨.vmem, 146, rfl⟩
abbrev cc17_stg0_1 : Ref sig .tc := ⟨.vmem, 147, rfl⟩
abbrev cc17_stg1_0 : Ref sig .tc := ⟨.vmem, 148, rfl⟩
abbrev cc17_stg1_1 : Ref sig .tc := ⟨.vmem, 149, rfl⟩
abbrev cc17_stg2_0 : Ref sig .tc := ⟨.vmem, 150, rfl⟩
abbrev cc17_stg2_1 : Ref sig .tc := ⟨.vmem, 151, rfl⟩
abbrev cc17_stg3_0 : Ref sig .tc := ⟨.vmem, 152, rfl⟩
abbrev cc17_stg3_1 : Ref sig .tc := ⟨.vmem, 153, rfl⟩
abbrev cc18_stg0_0 : Ref sig .tc := ⟨.vmem, 154, rfl⟩
abbrev cc18_stg0_1 : Ref sig .tc := ⟨.vmem, 155, rfl⟩
abbrev cc18_stg1_0 : Ref sig .tc := ⟨.vmem, 156, rfl⟩
abbrev cc18_stg1_1 : Ref sig .tc := ⟨.vmem, 157, rfl⟩
abbrev cc18_stg2_0 : Ref sig .tc := ⟨.vmem, 158, rfl⟩
abbrev cc18_stg3_0 : Ref sig .tc := ⟨.vmem, 159, rfl⟩
abbrev cc18_stg4_0 : Ref sig .tc := ⟨.vmem, 160, rfl⟩
abbrev cc18_stg5_0 : Ref sig .tc := ⟨.vmem, 161, rfl⟩
abbrev cc18_stg6_0 : Ref sig .tc := ⟨.vmem, 162, rfl⟩
abbrev cc18_stg6_1 : Ref sig .tc := ⟨.vmem, 163, rfl⟩
abbrev cc19_stg0_0 : Ref sig .tc := ⟨.vmem, 164, rfl⟩
abbrev cc19_stg0_1 : Ref sig .tc := ⟨.vmem, 165, rfl⟩
abbrev cc19_stg1_0 : Ref sig .tc := ⟨.vmem, 166, rfl⟩
abbrev cc19_stg1_1 : Ref sig .tc := ⟨.vmem, 167, rfl⟩
abbrev cc19_stg2_0 : Ref sig .tc := ⟨.vmem, 168, rfl⟩
abbrev cc19_stg3_0 : Ref sig .tc := ⟨.vmem, 169, rfl⟩
abbrev cc19_stg4_0 : Ref sig .tc := ⟨.vmem, 170, rfl⟩
abbrev cc19_stg5_0 : Ref sig .tc := ⟨.vmem, 171, rfl⟩
abbrev cc19_stg6_0 : Ref sig .tc := ⟨.vmem, 172, rfl⟩
abbrev cc19_stg6_1 : Ref sig .tc := ⟨.vmem, 173, rfl⟩
abbrev cc20_stg0_0 : Ref sig .tc := ⟨.vmem, 174, rfl⟩
abbrev cc20_stg1_0 : Ref sig .tc := ⟨.vmem, 175, rfl⟩
abbrev cc20_stg2_0 : Ref sig .tc := ⟨.vmem, 176, rfl⟩
abbrev cc20_stg3_0 : Ref sig .tc := ⟨.vmem, 177, rfl⟩
abbrev cc20_stg4_0 : Ref sig .tc := ⟨.vmem, 178, rfl⟩
abbrev cc20_stg5_0 : Ref sig .tc := ⟨.vmem, 179, rfl⟩
abbrev cc20_stg6_0 : Ref sig .tc := ⟨.vmem, 180, rfl⟩
abbrev cc20_stg7_0 : Ref sig .tc := ⟨.vmem, 181, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc4_sem4_0 : DmaSem sig := 32
abbrev cc4_sem4_1 : DmaSem sig := 33
abbrev cc4_sem5_0 : DmaSem sig := 34
abbrev cc4_sem5_1 : DmaSem sig := 35
abbrev cc4_sem6_0 : DmaSem sig := 36
abbrev cc4_sem6_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem3_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem3_0 : DmaSem sig := 51
abbrev cc6_sem4_0 : DmaSem sig := 52
abbrev cc6_sem5_0 : DmaSem sig := 53
abbrev cc6_sem6_0 : DmaSem sig := 54
abbrev cc6_sem6_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem3_0 : DmaSem sig := 61
abbrev cc7_sem4_0 : DmaSem sig := 62
abbrev cc7_sem5_0 : DmaSem sig := 63
abbrev cc7_sem6_0 : DmaSem sig := 64
abbrev cc7_sem6_1 : DmaSem sig := 65
abbrev cc8_sem0_0 : DmaSem sig := 66
abbrev cc8_sem0_1 : DmaSem sig := 67
abbrev cc8_sem1_0 : DmaSem sig := 68
abbrev cc8_sem2_0 : DmaSem sig := 69
abbrev cc8_sem3_0 : DmaSem sig := 70
abbrev cc8_sem3_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem3_0 : DmaSem sig := 76
abbrev cc9_sem3_1 : DmaSem sig := 77
abbrev cc10_sem0_0 : DmaSem sig := 78
abbrev cc10_sem0_1 : DmaSem sig := 79
abbrev cc10_sem1_0 : DmaSem sig := 80
abbrev cc10_sem1_1 : DmaSem sig := 81
abbrev cc10_sem2_0 : DmaSem sig := 82
abbrev cc10_sem2_1 : DmaSem sig := 83
abbrev cc10_sem3_0 : DmaSem sig := 84
abbrev cc10_sem3_1 : DmaSem sig := 85
abbrev cc10_sem4_0 : DmaSem sig := 86
abbrev cc10_sem4_1 : DmaSem sig := 87
abbrev cc10_sem5_0 : DmaSem sig := 88
abbrev cc10_sem5_1 : DmaSem sig := 89
abbrev cc10_sem6_0 : DmaSem sig := 90
abbrev cc10_sem6_1 : DmaSem sig := 91
abbrev cc11_sem0_0 : DmaSem sig := 92
abbrev cc11_sem0_1 : DmaSem sig := 93
abbrev cc11_sem1_0 : DmaSem sig := 94
abbrev cc11_sem1_1 : DmaSem sig := 95
abbrev cc11_sem2_0 : DmaSem sig := 96
abbrev cc11_sem2_1 : DmaSem sig := 97
abbrev cc11_sem3_0 : DmaSem sig := 98
abbrev cc11_sem3_1 : DmaSem sig := 99
abbrev cc12_sem0_0 : DmaSem sig := 100
abbrev cc12_sem0_1 : DmaSem sig := 101
abbrev cc12_sem1_0 : DmaSem sig := 102
abbrev cc12_sem1_1 : DmaSem sig := 103
abbrev cc12_sem2_0 : DmaSem sig := 104
abbrev cc12_sem3_0 : DmaSem sig := 105
abbrev cc12_sem4_0 : DmaSem sig := 106
abbrev cc12_sem5_0 : DmaSem sig := 107
abbrev cc12_sem6_0 : DmaSem sig := 108
abbrev cc12_sem6_1 : DmaSem sig := 109
abbrev cc13_sem0_0 : DmaSem sig := 110
abbrev cc13_sem0_1 : DmaSem sig := 111
abbrev cc13_sem1_0 : DmaSem sig := 112
abbrev cc13_sem1_1 : DmaSem sig := 113
abbrev cc13_sem2_0 : DmaSem sig := 114
abbrev cc13_sem3_0 : DmaSem sig := 115
abbrev cc13_sem4_0 : DmaSem sig := 116
abbrev cc13_sem5_0 : DmaSem sig := 117
abbrev cc13_sem6_0 : DmaSem sig := 118
abbrev cc13_sem6_1 : DmaSem sig := 119
abbrev cc14_sem0_0 : DmaSem sig := 120
abbrev cc14_sem0_1 : DmaSem sig := 121
abbrev cc14_sem1_0 : DmaSem sig := 122
abbrev cc14_sem2_0 : DmaSem sig := 123
abbrev cc14_sem3_0 : DmaSem sig := 124
abbrev cc14_sem3_1 : DmaSem sig := 125
abbrev cc15_sem0_0 : DmaSem sig := 126
abbrev cc15_sem0_1 : DmaSem sig := 127
abbrev cc15_sem1_0 : DmaSem sig := 128
abbrev cc15_sem2_0 : DmaSem sig := 129
abbrev cc15_sem3_0 : DmaSem sig := 130
abbrev cc15_sem3_1 : DmaSem sig := 131
abbrev cc16_sem0_0 : DmaSem sig := 132
abbrev cc16_sem0_1 : DmaSem sig := 133
abbrev cc16_sem1_0 : DmaSem sig := 134
abbrev cc16_sem1_1 : DmaSem sig := 135
abbrev cc16_sem2_0 : DmaSem sig := 136
abbrev cc16_sem2_1 : DmaSem sig := 137
abbrev cc16_sem3_0 : DmaSem sig := 138
abbrev cc16_sem3_1 : DmaSem sig := 139
abbrev cc16_sem4_0 : DmaSem sig := 140
abbrev cc16_sem4_1 : DmaSem sig := 141
abbrev cc16_sem5_0 : DmaSem sig := 142
abbrev cc16_sem5_1 : DmaSem sig := 143
abbrev cc16_sem6_0 : DmaSem sig := 144
abbrev cc16_sem6_1 : DmaSem sig := 145
abbrev cc17_sem0_0 : DmaSem sig := 146
abbrev cc17_sem0_1 : DmaSem sig := 147
abbrev cc17_sem1_0 : DmaSem sig := 148
abbrev cc17_sem1_1 : DmaSem sig := 149
abbrev cc17_sem2_0 : DmaSem sig := 150
abbrev cc17_sem2_1 : DmaSem sig := 151
abbrev cc17_sem3_0 : DmaSem sig := 152
abbrev cc17_sem3_1 : DmaSem sig := 153
abbrev cc18_sem0_0 : DmaSem sig := 154
abbrev cc18_sem0_1 : DmaSem sig := 155
abbrev cc18_sem1_0 : DmaSem sig := 156
abbrev cc18_sem1_1 : DmaSem sig := 157
abbrev cc18_sem2_0 : DmaSem sig := 158
abbrev cc18_sem3_0 : DmaSem sig := 159
abbrev cc18_sem4_0 : DmaSem sig := 160
abbrev cc18_sem5_0 : DmaSem sig := 161
abbrev cc18_sem6_0 : DmaSem sig := 162
abbrev cc18_sem6_1 : DmaSem sig := 163
abbrev cc19_sem0_0 : DmaSem sig := 164
abbrev cc19_sem0_1 : DmaSem sig := 165
abbrev cc19_sem1_0 : DmaSem sig := 166
abbrev cc19_sem1_1 : DmaSem sig := 167
abbrev cc19_sem2_0 : DmaSem sig := 168
abbrev cc19_sem3_0 : DmaSem sig := 169
abbrev cc19_sem4_0 : DmaSem sig := 170
abbrev cc19_sem5_0 : DmaSem sig := 171
abbrev cc19_sem6_0 : DmaSem sig := 172
abbrev cc19_sem6_1 : DmaSem sig := 173
abbrev cc20_sem0_0 : DmaSem sig := 174
abbrev cc20_sem1_0 : DmaSem sig := 175
abbrev cc20_sem2_0 : DmaSem sig := 176
abbrev cc20_sem3_0 : DmaSem sig := 177
abbrev cc20_sem4_0 : DmaSem sig := 178
abbrev cc20_sem5_0 : DmaSem sig := 179
abbrev cc20_sem6_0 : DmaSem sig := 180
abbrev cc20_sem7_0 : DmaSem sig := 181

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S4000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S4000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S4000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x256 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![100], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S4000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![100], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S4000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S4000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S4000x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S4000x64 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 2 → Memref sig .tc .vmem S4000x64 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 2 → Memref sig .tc .vmem S4000x64 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S5000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S5000x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x64 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 2 → Memref sig .tc .vmem S5000x64 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev grid13 : Pipeline.Grid := ⟨1, ![100], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S4000x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x64 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x64 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x64 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 2 → Memref sig .tc .vmem S4000x64 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S64x256 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x256 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S5000x256 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![100], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S4000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S64x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x64 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S4000x64 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![100], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_4 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_6 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S4000x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S4000x64 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S4000x64 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 2 → Memref sig .tc .vmem S4000x64 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev stage16_4 : Fin 2 → Memref sig .tc .vmem S4000x64 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]

abbrev stage16_5 : Fin 2 → Memref sig .tc .vmem S4000x64 .f32 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true]

abbrev stage16_6 : Fin 2 → Memref sig .tc .vmem S4000x64 .f32 := fun | 0 => Memref.whole cc16_stg6_0 | 1 => Memref.whole cc16_stg6_1 | ⟨_ + 2, h⟩ => absurd h (Nat.not_lt.2 (Nat.le_add_left _ _))
abbrev sem16_6 : Fin 2 → DmaSem sig := fun | 0 => cc16_sem6_0 | 1 => cc16_sem6_1 | ⟨_ + 2, h⟩ => absurd h (Nat.not_lt.2 (Nat.le_add_left _ _))
abbrev reads16_6 : Fin grid16.rank → Bool := ![true]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S5000x64 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S5000x64 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 2 → Memref sig .tc .vmem S5000x64 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev stage17_3 : Fin 2 → Memref sig .tc .vmem S5000x64 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev grid18 : Pipeline.Grid := ⟨1, ![10], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_6 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S5000x64 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S5000x64 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 1 → Memref sig .tc .vmem S1x64 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S1x64 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x64 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 1 → Memref sig .tc .vmem S1x64 .f32 := fun | 0 => Memref.whole cc18_stg5_0 | ⟨_ + 1, h⟩ => absurd h (Nat.not_lt.2 (Nat.le_add_left _ _))
abbrev sem18_5 : Fin 1 → DmaSem sig := fun | 0 => cc18_sem5_0 | ⟨_ + 1, h⟩ => absurd h (Nat.not_lt.2 (Nat.le_add_left _ _))
abbrev reads18_5 : Fin grid18.rank → Bool := ![false]

abbrev stage18_6 : Fin 2 → Memref sig .tc .vmem S5000x64 .f32 := fun | 0 => Memref.whole cc18_stg6_0 | 1 => Memref.whole cc18_stg6_1 | ⟨_ + 2, h⟩ => absurd h (Nat.not_lt.2 (Nat.le_add_left _ _))
abbrev sem18_6 : Fin 2 → DmaSem sig := fun | 0 => cc18_sem6_0 | 1 => cc18_sem6_1 | ⟨_ + 2, h⟩ => absurd h (Nat.not_lt.2 (Nat.le_add_left _ _))
abbrev reads18_6 : Fin grid18.rank → Bool := ![true]

abbrev grid19 : Pipeline.Grid := ⟨1, ![100], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_5 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_6 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S4000x64 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S4000x64 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 1 → Memref sig .tc .vmem S1x64 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S1x64 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S1x64 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 1 → Memref sig .tc .vmem S1x64 .f32 := fun | 0 => Memref.whole cc19_stg5_0 | ⟨_ + 1, h⟩ => absurd h (Nat.not_lt.2 (Nat.le_add_left _ _))
abbrev sem19_5 : Fin 1 → DmaSem sig := fun | 0 => cc19_sem5_0 | ⟨_ + 1, h⟩ => absurd h (Nat.not_lt.2 (Nat.le_add_left _ _))
abbrev reads19_5 : Fin grid19.rank → Bool := ![false]

abbrev stage19_6 : Fin 2 → Memref sig .tc .vmem S4000x64 .f32 := fun | 0 => Memref.whole cc19_stg6_0 | 1 => Memref.whole cc19_stg6_1 | ⟨_ + 2, h⟩ => absurd h (Nat.not_lt.2 (Nat.le_add_left _ _))
abbrev sem19_6 : Fin 2 → DmaSem sig := fun | 0 => cc19_sem6_0 | 1 => cc19_sem6_1 | ⟨_ + 2, h⟩ => absurd h (Nat.not_lt.2 (Nat.le_add_left _ _))
abbrev reads19_6 : Fin grid19.rank → Bool := ![true]

abbrev grid20 : Pipeline.Grid := ⟨1, ![1], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_4 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_5 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_6 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_7 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage20_0 : Fin 1 → Memref sig .tc .vmem S16x68 .f32 := fun | 0 => Memref.whole cc20_stg0_0 | ⟨_ + 1, h⟩ => absurd h (Nat.not_lt.2 (Nat.le_add_left _ _))
abbrev sem20_0 : Fin 1 → DmaSem sig := fun | 0 => cc20_sem0_0 | ⟨_ + 1, h⟩ => absurd h (Nat.not_lt.2 (Nat.le_add_left _ _))
abbrev reads20_0 : Fin grid20.rank → Bool := ![false]

abbrev stage20_1 : Fin 1 → Memref sig .tc .vmem S68x256 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 1 → Memref sig .tc .vmem S1x256 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 1 → Memref sig .tc .vmem S256x256 .f32 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))
abbrev reads20_3 : Fin grid20.rank → Bool := ![false]

abbrev stage20_4 : Fin 1 → Memref sig .tc .vmem S1x256 .f32 := fun | 0 => Memref.whole cc20_stg4_0 | ⟨_ + 1, h⟩ => absurd h (Nat.not_lt.2 (Nat.le_add_left _ _))
abbrev sem20_4 : Fin 1 → DmaSem sig := fun | 0 => cc20_sem4_0 | ⟨_ + 1, h⟩ => absurd h (Nat.not_lt.2 (Nat.le_add_left _ _))
abbrev reads20_4 : Fin grid20.rank → Bool := ![false]

abbrev stage20_5 : Fin 1 → Memref sig .tc .vmem S256x2 .f32 := fun | 0 => Memref.whole cc20_stg5_0 | ⟨_ + 1, h⟩ => absurd h (Nat.not_lt.2 (Nat.le_add_left _ _))
abbrev sem20_5 : Fin 1 → DmaSem sig := fun | 0 => cc20_sem5_0 | ⟨_ + 1, h⟩ => absurd h (Nat.not_lt.2 (Nat.le_add_left _ _))
abbrev reads20_5 : Fin grid20.rank → Bool := ![false]

abbrev stage20_6 : Fin 1 → Memref sig .tc .vmem S1x2 .f32 := fun | 0 => Memref.whole cc20_stg6_0 | ⟨_ + 1, h⟩ => absurd h (Nat.not_lt.2 (Nat.le_add_left _ _))
abbrev sem20_6 : Fin 1 → DmaSem sig := fun | 0 => cc20_sem6_0 | ⟨_ + 1, h⟩ => absurd h (Nat.not_lt.2 (Nat.le_add_left _ _))
abbrev reads20_6 : Fin grid20.rank → Bool := ![false]

abbrev stage20_7 : Fin 1 → Memref sig .tc .vmem S16x2 .f32 := fun | 0 => Memref.whole cc20_stg7_0 | ⟨_ + 1, h⟩ => absurd h (Nat.not_lt.2 (Nat.le_add_left _ _))
abbrev sem20_7 : Fin 1 → DmaSem sig := fun | 0 => cc20_sem7_0 | ⟨_ + 1, h⟩ => absurd h (Nat.not_lt.2 (Nat.le_add_left _ _))
abbrev reads20_7 : Fin grid20.rank → Bool := ![false]

class Facts₀ : Prop where
  shapeCasts_S64_S1x64 : S64.ShapeCasts S1x64
  inb_S5000x6_S5000x6_0_0 : ∀ a, (![0, 0] : Fin 2 → Nat) a + S5000x6.size a ≤ S5000x6.size a
  h_S5000x6 : 0 < S5000x6.numel
  bitsLt_bf16_f32 : FTy.bits .bf16 < FTy.bits .f32
  inb_S6x64_S6x64_0_0 : ∀ a, (![0, 0] : Fin 2 → Nat) a + S6x64.size a ≤ S6x64.size a
  h_S6x64 : 0 < S6x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S4000x2_S4000x2_0_0 : ∀ a, (![0, 0] : Fin 2 → Nat) a + S4000x2.size a ≤ S4000x2.size a
  h_S4000x2 : 0 < S4000x2.numel
  inb_S2x64_S2x64_0_0 : ∀ a, (![0, 0] : Fin 2 → Nat) a + S2x64.size a ≤ S2x64.size a
  h_S2x64 : 0 < S2x64.numel
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  slices_S3x64x64_S1x64x64_0_0_0 : S3x64x64.Slices ![0, 0, 0] S1x64x64
  shapeCasts_S1x64x64_S64x64 : S1x64x64.ShapeCasts S64x64
  concatenates_S64x64_S64x64_S64x64_S64x64_S64x256_d1 : Shape.Concatenates [S64x64, S64x64, S64x64, S64x64] S64x256 1
  slices_S3x64_S1x64_0_0 : S3x64.Slices ![0, 0] S1x64
  shapeCasts_S1x64_S64 : S1x64.ShapeCasts S64
  concatenates_S64_S64_S64_S64_S256_d0 : Shape.Concatenates [S64, S64, S64, S64] S256 0
  shapeCasts_S256_S1x256 : S256.ShapeCasts S1x256
  shapeCasts_S5000x64_S5000x64 : S5000x64.ShapeCasts S5000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  slices_S50000x256_S50000x64_0_0 : S50000x256.Slices ![0, 0] S50000x64
  slices_S50000x256_S50000x64_0_64 : S50000x256.Slices ![0, 64] S50000x64
  slices_S50000x256_S50000x64_0_128 : S50000x256.Slices ![0, 128] S50000x64
  slices_S50000x256_S50000x64_0_192 : S50000x256.Slices ![0, 192] S50000x64
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x64_0 : S400000.BroadcastsInDim S400000x64 (![0] : Fin 1 → Fin S400000x64.rank)
  bcast_S_S400000x64 : S_.BroadcastsInDim S400000x64 (![] : Fin 0 → Fin S400000x64.rank)
  bcast_S_S50000x64 : S_.BroadcastsInDim S50000x64 (![] : Fin 0 → Fin S50000x64.rank)
  reducesTo_S50000x64_S64_d0 : S50000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  reducesTo_S400000x64_S64_d0 : S400000x64.ReducesTo [0] S64
  bcast_S1x64_S400000x64_0_1 : S1x64.BroadcastsInDim S400000x64 (![0, 1] : Fin 2 → Fin S400000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S50000 : S_.BroadcastsInDim S50000 (![] : Fin 0 → Fin S50000.rank)
  bcast_S_S16 : S_.BroadcastsInDim S16 (![] : Fin 0 → Fin S16.rank)
  bcast_S50000_S50000x1_0 : S50000.BroadcastsInDim S50000x1 (![0] : Fin 1 → Fin S50000x1.rank)
  bcast_S_S16x64 : S_.BroadcastsInDim S16x64 (![] : Fin 0 → Fin S16x64.rank)
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  concatenates_S16x64_S16x4_S16x68_d1 : Shape.Concatenates [S16x64, S16x4] S16x68 1
  shapeCasts_S2_S1x2 : S2.ShapeCasts S1x2
  inb_S16x68_S16x68_0_0 : ∀ a, (![0, 0] : Fin 2 → Nat) a + S16x68.size a ≤ S16x68.size a
  h_S16x68 : 0 < S16x68.numel
  shapeCasts_S16x68_S16x68 : S16x68.ShapeCasts S16x68
  inb_S68x256_S68x256_0_0 : ∀ a, (![0, 0] : Fin 2 → Nat) a + S68x256.size a ≤ S68x256.size a
  h_S68x256 : 0 < S68x256.numel
  broadcasts_S1x256_S16x256 : S1x256.Broadcasts S16x256
  inb_S256x256_S256x256_0_0 : ∀ a, (![0, 0] : Fin 2 → Nat) a + S256x256.size a ≤ S256x256.size a
  h_S256x256 : 0 < S256x256.numel
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S16x2 : S1x2.Broadcasts S16x2
  inb_S16x2_S16x2_0_0 : ∀ a, (![0, 0] : Fin 2 → Nat) a + S16x2.size a ≤ S16x2.size a
  h_S16x2 : 0 < S16x2.numel
  dot_S5000x6_S6x64_S5000x64_1_0_0_1_n_n_wf : DotDims.WF S5000x6 S6x64 S5000x64 [1] [0] [0] [1] [] []
  dot_S4000x2_S2x64_S4000x64_1_0_0_1_n_n_wf : DotDims.WF S4000x2 S2x64 S4000x64 [1] [0] [0] [1] [] []
  dot_S5000x64_S64x256_S5000x256_1_0_0_1_n_n_wf : DotDims.WF S5000x64 S64x256 S5000x256 [1] [0] [0] [1] [] []
  dot_S4000x64_S64x64_S4000x64_1_0_0_1_n_n_wf : DotDims.WF S4000x64 S64x64 S4000x64 [1] [0] [0] [1] [] []
  gather_S50000x64_S400000x1_S400000x64_1_0_n_n_0_1_164_wf : GatherDims.WF S50000x64 S400000x1 S400000x64 [1] [0] [] [0] [] 1 ![1, 64]
  scatter_S50000x64_S400000x1_S400000x64_1_0_0_1_wf : ScatterDims.WF S50000x64 S400000x1 S400000x64 [1] [0] [0] 1
  scatter_S16_S50000x1_S50000_n_0_0_1_wf : ScatterDims.WF S16 S50000x1 S50000 [] [0] [0] 1
  scatter_S16x64_S50000x1_S50000x64_1_0_0_1_wf : ScatterDims.WF S16x64 S50000x1 S50000x64 [1] [0] [0] 1
  dot_S16x68_S68x256_S16x256_1_0_0_1_n_n_wf : DotDims.WF S16x68 S68x256 S16x256 [1] [0] [0] [1] [] []
  dot_S16x256_S256x256_S16x256_1_0_0_1_n_n_wf : DotDims.WF S16x256 S256x256 S16x256 [1] [0] [0] [1] [] []
  dot_S16x256_S256x2_S16x2_1_0_0_1_n_n_wf : DotDims.WF S16x256 S256x2 S16x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x6.size a ≤ S50000x6.size a
  hwx0_0 : ∀ i : grid0.Coords, EltTy.bits .f32 = 32 ∨ (Rect.block (s := S50000x6) S5000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x64.size a ≤ S6x64.size a
  hwx0_1 : ∀ i : grid0.Coords, EltTy.bits .f32 = 32 ∨ (Rect.block (s := S6x64) S6x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x2.size a ≤ S400000x2.size a
  hwx1_0 : ∀ i : grid1.Coords, EltTy.bits .f32 = 32 ∨ (Rect.block (s := S400000x2) S4000x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x64.size a ≤ S2x64.size a
  hwx1_1 : ∀ i : grid1.Coords, EltTy.bits .f32 = 32 ∨ (Rect.block (s := S2x64) S2x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S400000x64.size a
  hwx1_3 : ∀ i : grid1.Coords, EltTy.bits .f32 = 32 ∨ (Rect.block (s := S400000x64) S4000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x256.size a ≤ S64x256.size a
  hwx2_1 : ∀ i : grid2.Coords, EltTy.bits .f32 = 32 ∨ (Rect.block (s := S64x256) S64x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S50000x256.size a
  hwx2_3 : ∀ i : grid2.Coords, EltTy.bits .f32 = 32 ∨ (Rect.block (s := S50000x256) S5000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S400000x64.size a
  hwx3_0 : ∀ i : grid3.Coords, EltTy.bits .f32 = 32 ∨ (Rect.block (s := S400000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x64.size a ≤ S400000x64.size a
  hwx3_3 : ∀ i : grid3.Coords, EltTy.bits .f32 = 32 ∨ (Rect.block (s := S400000x64) S4000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S400000x64.size a
  hwx4_0 : ∀ i : grid4.Coords, EltTy.bits .f32 = 32 ∨ (Rect.block (s := S400000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x64.size a ≤ S400000x64.size a
  hwx4_1 : ∀ i : grid4.Coords, EltTy.bits .f32 = 32 ∨ (Rect.block (s := S400000x64) S4000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S400000x64.size a
  hwx4_2 : ∀ i : grid4.Coords, EltTy.bits .f32 = 32 ∨ (Rect.block (s := S400000x64) S4000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x64.size a ≤ S400000x64.size a
  hwx4_3 : ∀ i : grid4.Coords, EltTy.bits .f32 = 32 ∨ (Rect.block (s := S400000x64) S4000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x64.size a ≤ S400000x64.size a
  hwx4_4 : ∀ i : grid4.Coords, EltTy.bits .f32 = 32 ∨ (Rect.block (s := S400000x64) S4000x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x64.size a ≤ S400000x64.size a
  hwx4_5 : ∀ i : grid4.Coords, EltTy.bits .f32 = 32 ∨ (Rect.block (s := S400000x64) S4000x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x64.size a ≤ S400000x64.size a
  hwx4_6 : ∀ i : grid4.Coords, EltTy.bits .f32 = 32 ∨ (Rect.block (s := S400000x64) S4000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x64.size a ≤ S50000x64.size a
  hwx6_6 : ∀ i : grid6.Coords, EltTy.bits .f32 = 32 ∨ (Rect.block (s := S50000x64) S5000x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x64.size a ≤ S400000x64.size a
  hwx7_0 : ∀ i : grid7.Coords, EltTy.bits .f32 = 32 ∨ (Rect.block (s := S400000x64) S4000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x64.size a ≤ S400000x64.size a
  hwx7_1 : ∀ i : grid7.Coords, EltTy.bits .f32 = 32 ∨ (Rect.block (s := S400000x64) S4000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S4000x64.size a ≤ S400000x64.size a
  hwx7_6 : ∀ i : grid7.Coords, EltTy.bits .f32 = 32 ∨ (Rect.block (s := S400000x64) S4000x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x256.size a ≤ S64x256.size a
  hwx8_1 : ∀ i : grid8.Coords, EltTy.bits .f32 = 32 ∨ (Rect.block (s := S64x256) S64x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x256.size a ≤ S50000x256.size a
  hwx8_3 : ∀ i : grid8.Coords, EltTy.bits .f32 = 32 ∨ (Rect.block (s := S50000x256) S5000x256.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x64.size a ≤ S400000x64.size a
  hwx9_0 : ∀ i : grid9.Coords, EltTy.bits .f32 = 32 ∨ (Rect.block (s := S400000x64) S4000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S4000x64.size a ≤ S400000x64.size a
  hwx9_3 : ∀ i : grid9.Coords, EltTy.bits .f32 = 32 ∨ (Rect.block (s := S400000x64) S4000x64.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x64.size a ≤ S400000x64.size a
  hwx10_0 : ∀ i : grid10.Coords, EltTy.bits .f32 = 32 ∨ (Rect.block (s := S400000x64) S4000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S4000x64.size a ≤ S400000x64.size a
  hwx10_1 : ∀ i : grid10.Coords, EltTy.bits .f32 = 32 ∨ (Rect.block (s := S400000x64) S4000x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S4000x64.size a ≤ S400000x64.size a
  hwx10_2 : ∀ i : grid10.Coords, EltTy.bits .f32 = 32 ∨ (Rect.block (s := S400000x64) S4000x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S4000x64.size a ≤ S400000x64.size a
  hwx10_3 : ∀ i : grid10.Coords, EltTy.bits .f32 = 32 ∨ (Rect.block (s := S400000x64) S4000x64.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S4000x64.size a ≤ S400000x64.size a
  hwx10_4 : ∀ i : grid10.Coords, EltTy.bits .f32 = 32 ∨ (Rect.block (s := S400000x64) S4000x64.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S4000x64.size a ≤ S400000x64.size a
  hwx10_5 : ∀ i : grid10.Coords, EltTy.bits .f32 = 32 ∨ (Rect.block (s := S400000x64) S4000x64.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S4000x64.size a ≤ S400000x64.size a
  hwx10_6 : ∀ i : grid10.Coords, EltTy.bits .f32 = 32 ∨ (Rect.block (s := S400000x64) S4000x64.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S50000x64.size a
  hwx11_0 : ∀ i : grid11.Coords, EltTy.bits .f32 = 32 ∨ (Rect.block (s := S50000x64) S5000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x64.size a ≤ S50000x64.size a
  hwx11_1 : ∀ i : grid11.Coords, EltTy.bits .f32 = 32 ∨ (Rect.block (s := S50000x64) S5000x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x64.size a ≤ S50000x64.size a
  hwx11_2 : ∀ i : grid11.Coords, EltTy.bits .f32 = 32 ∨ (Rect.block (s := S50000x64) S5000x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x64.size a ≤ S50000x64.size a
  hwx11_3 : ∀ i : grid11.Coords, EltTy.bits .f32 = 32 ∨ (Rect.block (s := S50000x64) S5000x64.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S50000x64.size a
  hwx12_0 : ∀ i : grid12.Coords, EltTy.bits .f32 = 32 ∨ (Rect.block (s := S50000x64) S5000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x64.size a ≤ S50000x64.size a
  hwx12_1 : ∀ i : grid12.Coords, EltTy.bits .f32 = 32 ∨ (Rect.block (s := S50000x64) S5000x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x64.size a ≤ S1x64.size a
  hwx12_3 : ∀ i : grid12.Coords, EltTy.bits .f32 = 32 ∨ (Rect.block (s := S1x64) S1x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x64.size a ≤ S1x64.size a
  hwx12_4 : ∀ i : grid12.Coords, EltTy.bits .f32 = 32 ∨ (Rect.block (s := S1x64) S1x64.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x64.size a ≤ S1x64.size a
  hwx12_5 : ∀ i : grid12.Coords, EltTy.bits .f32 = 32 ∨ (Rect.block (s := S1x64) S1x64.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S5000x64.size a ≤ S50000x64.size a
  hwx12_6 : ∀ i : grid12.Coords, EltTy.bits .f32 = 32 ∨ (Rect.block (s := S50000x64) S5000x64.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4000x64.size a ≤ S400000x64.size a
  hwx13_0 : ∀ i : grid13.Coords, EltTy.bits .f32 = 32 ∨ (Rect.block (s := S400000x64) S4000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S4000x64.size a ≤ S400000x64.size a
  hwx13_1 : ∀ i : grid13.Coords, EltTy.bits .f32 = 32 ∨ (Rect.block (s := S400000x64) S4000x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x64.size a ≤ S1x64.size a
  hwx13_2 : ∀ i : grid13.Coords, EltTy.bits .f32 = 32 ∨ (Rect.block (s := S1x64) S1x64.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x64.size a ≤ S1x64.size a
  hwx13_3 : ∀ i : grid13.Coords, EltTy.bits .f32 = 32 ∨ (Rect.block (s := S1x64) S1x64.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x64.size a ≤ S1x64.size a
  hwx13_4 : ∀ i : grid13.Coords, EltTy.bits .f32 = 32 ∨ (Rect.block (s := S1x64) S1x64.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x64.size a ≤ S1x64.size a
  hwx13_5 : ∀ i : grid13.Coords, EltTy.bits .f32 = 32 ∨ (Rect.block (s := S1x64) S1x64.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S4000x64.size a ≤ S400000x64.size a
  hwx13_6 : ∀ i : grid13.Coords, EltTy.bits .f32 = 32 ∨ (Rect.block (s := S400000x64) S4000x64.size (cc13_transform_6 i) (hinb13_6 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x64.size a ≤ S50000x64.size a
  hwx14_0 : ∀ i : grid14.Coords, EltTy.bits .f32 = 32 ∨ (Rect.block (s := S50000x64) S5000x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S64x256.size a ≤ S64x256.size a
  hwx14_1 : ∀ i : grid14.Coords, EltTy.bits .f32 = 32 ∨ (Rect.block (s := S64x256) S64x256.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x256.size a ≤ S1x256.size a
  hwx14_2 : ∀ i : grid14.Coords, EltTy.bits .f32 = 32 ∨ (Rect.block (s := S1x256) S1x256.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S5000x256.size a ≤ S50000x256.size a
  hwx14_3 : ∀ i : grid14.Coords, EltTy.bits .f32 = 32 ∨ (Rect.block (s := S50000x256) S5000x256.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S4000x64.size a ≤ S400000x64.size a
  hwx15_0 : ∀ i : grid15.Coords, EltTy.bits .f32 = 32 ∨ (Rect.block (s := S400000x64) S4000x64.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S64x64.size a ≤ S64x64.size a
  hwx15_1 : ∀ i : grid15.Coords, EltTy.bits .f32 = 32 ∨ (Rect.block (s := S64x64) S64x64.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x64.size a ≤ S1x64.size a
  hwx15_2 : ∀ i : grid15.Coords, EltTy.bits .f32 = 32 ∨ (Rect.block (s := S1x64) S1x64.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S4000x64.size a ≤ S400000x64.size a
  hwx15_3 : ∀ i : grid15.Coords, EltTy.bits .f32 = 32 ∨ (Rect.block (s := S400000x64) S4000x64.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S4000x64.size a ≤ S400000x64.size a
  hwx16_0 : ∀ i : grid16.Coords, EltTy.bits .f32 = 32 ∨ (Rect.block (s := S400000x64) S4000x64.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S4000x64.size a ≤ S400000x64.size a
  hwx16_1 : ∀ i : grid16.Coords, EltTy.bits .f32 = 32 ∨ (Rect.block (s := S400000x64) S4000x64.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S4000x64.size a ≤ S400000x64.size a
  hwx16_2 : ∀ i : grid16.Coords, EltTy.bits .f32 = 32 ∨ (Rect.block (s := S400000x64) S4000x64.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S4000x64.size a ≤ S400000x64.size a
  hwx16_3 : ∀ i : grid16.Coords, EltTy.bits .f32 = 32 ∨ (Rect.block (s := S400000x64) S4000x64.size (cc16_transform_3 i) (hinb16_3 i)).WholeWords (EltTy.packing .f32)
  hstage16_4 : ∀ j, (stage16_4 j).IsWhole
  nbuf16_4 : grid16.bufCount reads16_4 false = 2
  hreads16_4 : ∀ i i' : grid16.Coords, (∀ a, reads16_4 a = true → i a = i' a) → cc16_transform_4 i = cc16_transform_4 i'
  hinb16_4 : ∀ (i : grid16.Coords) a, (cc16_transform_4 i a + 1) * S4000x64.size a ≤ S400000x64.size a
  hwx16_4 : ∀ i : grid16.Coords, EltTy.bits .f32 = 32 ∨ (Rect.block (s := S400000x64) S4000x64.size (cc16_transform_4 i) (hinb16_4 i)).WholeWords (EltTy.packing .f32)
  hstage16_5 : ∀ j, (stage16_5 j).IsWhole
  nbuf16_5 : grid16.bufCount reads16_5 false = 2
  hreads16_5 : ∀ i i' : grid16.Coords, (∀ a, reads16_5 a = true → i a = i' a) → cc16_transform_5 i = cc16_transform_5 i'
  hinb16_5 : ∀ (i : grid16.Coords) a, (cc16_transform_5 i a + 1) * S4000x64.size a ≤ S400000x64.size a
  hwx16_5 : ∀ i : grid16.Coords, EltTy.bits .f32 = 32 ∨ (Rect.block (s := S400000x64) S4000x64.size (cc16_transform_5 i) (hinb16_5 i)).WholeWords (EltTy.packing .f32)
  hstage16_6 : ∀ j, (stage16_6 j).IsWhole
  nbuf16_6 : grid16.bufCount reads16_6 false = 2
  hreads16_6 : ∀ i i' : grid16.Coords, (∀ a, reads16_6 a = true → i a = i' a) → cc16_transform_6 i = cc16_transform_6 i'
  hinb16_6 : ∀ (i : grid16.Coords) a, (cc16_transform_6 i a + 1) * S4000x64.size a ≤ S400000x64.size a
  hwx16_6 : ∀ i : grid16.Coords, EltTy.bits .f32 = 32 ∨ (Rect.block (s := S400000x64) S4000x64.size (cc16_transform_6 i) (hinb16_6 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x64.size a ≤ S50000x64.size a
  hwx17_0 : ∀ i : grid17.Coords, EltTy.bits .f32 = 32 ∨ (Rect.block (s := S50000x64) S5000x64.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S5000x64.size a ≤ S50000x64.size a
  hwx17_1 : ∀ i : grid17.Coords, EltTy.bits .f32 = 32 ∨ (Rect.block (s := S50000x64) S5000x64.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S5000x64.size a ≤ S50000x64.size a
  hwx17_2 : ∀ i : grid17.Coords, EltTy.bits .f32 = 32 ∨ (Rect.block (s := S50000x64) S5000x64.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S5000x64.size a ≤ S50000x64.size a
  hwx17_3 : ∀ i : grid17.Coords, EltTy.bits .f32 = 32 ∨ (Rect.block (s := S50000x64) S5000x64.size (cc17_transform_3 i) (hinb17_3 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S5000x64.size a ≤ S50000x64.size a
  hwx18_0 : ∀ i : grid18.Coords, EltTy.bits .f32 = 32 ∨ (Rect.block (s := S50000x64) S5000x64.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S5000x64.size a ≤ S50000x64.size a
  hwx18_1 : ∀ i : grid18.Coords, EltTy.bits .f32 = 32 ∨ (Rect.block (s := S50000x64) S5000x64.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x64.size a ≤ S1x64.size a
  hwx18_2 : ∀ i : grid18.Coords, EltTy.bits .f32 = 32 ∨ (Rect.block (s := S1x64) S1x64.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S1x64.size a ≤ S1x64.size a
  hwx18_3 : ∀ i : grid18.Coords, EltTy.bits .f32 = 32 ∨ (Rect.block (s := S1x64) S1x64.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S1x64.size a ≤ S1x64.size a
  hwx18_4 : ∀ i : grid18.Coords, EltTy.bits .f32 = 32 ∨ (Rect.block (s := S1x64) S1x64.size (cc18_transform_4 i) (hinb18_4 i)).WholeWords (EltTy.packing .f32)
  hstage18_5 : ∀ j, (stage18_5 j).IsWhole
  nbuf18_5 : grid18.bufCount reads18_5 true = 1
  hreads18_5 : ∀ i i' : grid18.Coords, (∀ a, reads18_5 a = true → i a = i' a) → cc18_transform_5 i = cc18_transform_5 i'
  hinb18_5 : ∀ (i : grid18.Coords) a, (cc18_transform_5 i a + 1) * S1x64.size a ≤ S1x64.size a
  hwx18_5 : ∀ i : grid18.Coords, EltTy.bits .f32 = 32 ∨ (Rect.block (s := S1x64) S1x64.size (cc18_transform_5 i) (hinb18_5 i)).WholeWords (EltTy.packing .f32)
  hstage18_6 : ∀ j, (stage18_6 j).IsWhole
  nbuf18_6 : grid18.bufCount reads18_6 false = 2
  hreads18_6 : ∀ i i' : grid18.Coords, (∀ a, reads18_6 a = true → i a = i' a) → cc18_transform_6 i = cc18_transform_6 i'
  hinb18_6 : ∀ (i : grid18.Coords) a, (cc18_transform_6 i a + 1) * S5000x64.size a ≤ S50000x64.size a
  hwx18_6 : ∀ i : grid18.Coords, EltTy.bits .f32 = 32 ∨ (Rect.block (s := S50000x64) S5000x64.size (cc18_transform_6 i) (hinb18_6 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S4000x64.size a ≤ S400000x64.size a
  hwx19_0 : ∀ i : grid19.Coords, EltTy.bits .f32 = 32 ∨ (Rect.block (s := S400000x64) S4000x64.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S4000x64.size a ≤ S400000x64.size a
  hwx19_1 : ∀ i : grid19.Coords, EltTy.bits .f32 = 32 ∨ (Rect.block (s := S400000x64) S4000x64.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x64.size a ≤ S1x64.size a
  hwx19_2 : ∀ i : grid19.Coords, EltTy.bits .f32 = 32 ∨ (Rect.block (s := S1x64) S1x64.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S1x64.size a ≤ S1x64.size a
  hwx19_3 : ∀ i : grid19.Coords, EltTy.bits .f32 = 32 ∨ (Rect.block (s := S1x64) S1x64.size (cc19_transform_3 i) (hinb19_3 i)).WholeWords (EltTy.packing .f32)
  hstage19_4 : ∀ j, (stage19_4 j).IsWhole
  nbuf19_4 : grid19.bufCount reads19_4 true = 1
  hreads19_4 : ∀ i i' : grid19.Coords, (∀ a, reads19_4 a = true → i a = i' a) → cc19_transform_4 i = cc19_transform_4 i'
  hinb19_4 : ∀ (i : grid19.Coords) a, (cc19_transform_4 i a + 1) * S1x64.size a ≤ S1x64.size a
  hwx19_4 : ∀ i : grid19.Coords, EltTy.bits .f32 = 32 ∨ (Rect.block (s := S1x64) S1x64.size (cc19_transform_4 i) (hinb19_4 i)).WholeWords (EltTy.packing .f32)
  hstage19_5 : ∀ j, (stage19_5 j).IsWhole
  nbuf19_5 : grid19.bufCount reads19_5 true = 1
  hreads19_5 : ∀ i i' : grid19.Coords, (∀ a, reads19_5 a = true → i a = i' a) → cc19_transform_5 i = cc19_transform_5 i'
  hinb19_5 : ∀ (i : grid19.Coords) a, (cc19_transform_5 i a + 1) * S1x64.size a ≤ S1x64.size a
  hwx19_5 : ∀ i : grid19.Coords, EltTy.bits .f32 = 32 ∨ (Rect.block (s := S1x64) S1x64.size (cc19_transform_5 i) (hinb19_5 i)).WholeWords (EltTy.packing .f32)
  hstage19_6 : ∀ j, (stage19_6 j).IsWhole
  nbuf19_6 : grid19.bufCount reads19_6 false = 2
  hreads19_6 : ∀ i i' : grid19.Coords, (∀ a, reads19_6 a = true → i a = i' a) → cc19_transform_6 i = cc19_transform_6 i'
  hinb19_6 : ∀ (i : grid19.Coords) a, (cc19_transform_6 i a + 1) * S4000x64.size a ≤ S400000x64.size a
  hwx19_6 : ∀ i : grid19.Coords, EltTy.bits .f32 = 32 ∨ (Rect.block (s := S400000x64) S4000x64.size (cc19_transform_6 i) (hinb19_6 i)).WholeWords (EltTy.packing .f32)
  hrank20 : 0 < grid20.rank
  hstage20_0 : ∀ j, (stage20_0 j).IsWhole
  nbuf20_0 : grid20.bufCount reads20_0 true = 1
  hreads20_0 : ∀ i i' : grid20.Coords, (∀ a, reads20_0 a = true → i a = i' a) → cc20_transform_0 i = cc20_transform_0 i'
  hinb20_0 : ∀ (i : grid20.Coords) a, (cc20_transform_0 i a + 1) * S16x68.size a ≤ S16x68.size a
  hwx20_0 : ∀ i : grid20.Coords, EltTy.bits .f32 = 32 ∨ (Rect.block (s := S16x68) S16x68.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S68x256.size a ≤ S68x256.size a
  hwx20_1 : ∀ i : grid20.Coords, EltTy.bits .f32 = 32 ∨ (Rect.block (s := S68x256) S68x256.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x256.size a ≤ S1x256.size a
  hwx20_2 : ∀ i : grid20.Coords, EltTy.bits .f32 = 32 ∨ (Rect.block (s := S1x256) S1x256.size (cc20_transform_2 i) (hinb20_2 i)).WholeWords (EltTy.packing .f32)
  hstage20_3 : ∀ j, (stage20_3 j).IsWhole
  nbuf20_3 : grid20.bufCount reads20_3 true = 1
  hreads20_3 : ∀ i i' : grid20.Coords, (∀ a, reads20_3 a = true → i a = i' a) → cc20_transform_3 i = cc20_transform_3 i'
  hinb20_3 : ∀ (i : grid20.Coords) a, (cc20_transform_3 i a + 1) * S256x256.size a ≤ S256x256.size a
  hwx20_3 : ∀ i : grid20.Coords, EltTy.bits .f32 = 32 ∨ (Rect.block (s := S256x256) S256x256.size (cc20_transform_3 i) (hinb20_3 i)).WholeWords (EltTy.packing .f32)
  hstage20_4 : ∀ j, (stage20_4 j).IsWhole
  nbuf20_4 : grid20.bufCount reads20_4 true = 1
  hreads20_4 : ∀ i i' : grid20.Coords, (∀ a, reads20_4 a = true → i a = i' a) → cc20_transform_4 i = cc20_transform_4 i'
  hinb20_4 : ∀ (i : grid20.Coords) a, (cc20_transform_4 i a + 1) * S1x256.size a ≤ S1x256.size a
  hwx20_4 : ∀ i : grid20.Coords, EltTy.bits .f32 = 32 ∨ (Rect.block (s := S1x256) S1x256.size (cc20_transform_4 i) (hinb20_4 i)).WholeWords (EltTy.packing .f32)
  hstage20_5 : ∀ j, (stage20_5 j).IsWhole
  nbuf20_5 : grid20.bufCount reads20_5 true = 1
  hreads20_5 : ∀ i i' : grid20.Coords, (∀ a, reads20_5 a = true → i a = i' a) → cc20_transform_5 i = cc20_transform_5 i'
  hinb20_5 : ∀ (i : grid20.Coords) a, (cc20_transform_5 i a + 1) * S256x2.size a ≤ S256x2.size a
  hwx20_5 : ∀ i : grid20.Coords, EltTy.bits .f32 = 32 ∨ (Rect.block (s := S256x2) S256x2.size (cc20_transform_5 i) (hinb20_5 i)).WholeWords (EltTy.packing .f32)
  hstage20_6 : ∀ j, (stage20_6 j).IsWhole
  nbuf20_6 : grid20.bufCount reads20_6 true = 1
  hreads20_6 : ∀ i i' : grid20.Coords, (∀ a, reads20_6 a = true → i a = i' a) → cc20_transform_6 i = cc20_transform_6 i'
  hinb20_6 : ∀ (i : grid20.Coords) a, (cc20_transform_6 i a + 1) * S1x2.size a ≤ S1x2.size a
  hwx20_6 : ∀ i : grid20.Coords, EltTy.bits .f32 = 32 ∨ (Rect.block (s := S1x2) S1x2.size (cc20_transform_6 i) (hinb20_6 i)).WholeWords (EltTy.packing .f32)
  hstage20_7 : ∀ j, (stage20_7 j).IsWhole
  nbuf20_7 : grid20.bufCount reads20_7 true = 1
  hreads20_7 : ∀ i i' : grid20.Coords, (∀ a, reads20_7 a = true → i a = i' a) → cc20_transform_7 i = cc20_transform_7 i'
  hinb20_7 : ∀ (i : grid20.Coords) a, (cc20_transform_7 i a + 1) * S16x2.size a ≤ S16x2.size a
  hwx20_7 : ∀ i : grid20.Coords, EltTy.bits .f32 = 32 ∨ (Rect.block (s := S16x2) S16x2.size (cc20_transform_7 i) (hinb20_7 i)).WholeWords (EltTy.packing .f32)

variable [Facts₀]

def dot_S5000x6_S6x64_S5000x64_1_0_0_1_n_n : DotDims S5000x6 S6x64 S5000x64 where
  lhsContracting := [1]
  rhsContracting := [0]
  lhsNonContracting := [0]
  rhsNonContracting := [1]
  lhsBatch := []
  rhsBatch := []
  wf := dot_S5000x6_S6x64_S5000x64_1_0_0_1_n_n_wf
def dot_S4000x2_S2x64_S4000x64_1_0_0_1_n_n : DotDims S4000x2 S2x64 S4000x64 where
  lhsContracting := [1]
  rhsContracting := [0]
  lhsNonContracting := [0]
  rhsNonContracting := [1]
  lhsBatch := []
  rhsBatch := []
  wf := dot_S4000x2_S2x64_S4000x64_1_0_0_1_n_n_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def scatter_S16_S50000x1_S50000_n_0_0_1 : ScatterDims S16 S50000x1 S50000 where
  updateWindowDims := []
  insertedWindowDims := [0]
  scatterDimsToOperandDims := [0]
  indexVectorDim := 1
  wf := scatter_S16_S50000x1_S50000_n_0_0_1_wf
def scatter_S16x64_S50000x1_S50000x64_1_0_0_1 : ScatterDims S16x64 S50000x1 S50000x64 where
  updateWindowDims := [1]
  insertedWindowDims := [0]
  scatterDimsToOperandDims := [0]
  indexVectorDim := 1
  wf := scatter_S16x64_S50000x1_S50000x64_1_0_0_1_wf
def dot_S16x68_S68x256_S16x256_1_0_0_1_n_n : DotDims S16x68 S68x256 S16x256 where
  lhsContracting := [1]
  rhsContracting := [0]
  lhsNonContracting := [0]
  rhsNonContracting := [1]
  lhsBatch := []
  rhsBatch := []
  wf := dot_S16x68_S68x256_S16x256_1_0_0_1_n_n_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S16x256_S256x2_S16x2_1_0_0_1_n_n : DotDims S16x256 S256x2 S16x2 where
  lhsContracting := [1]
  rhsContracting := [0]
  lhsNonContracting := [0]
  rhsNonContracting := [1]
  lhsBatch := []
  rhsBatch := []
  wf := dot_S16x256_S256x2_S16x2_1_0_0_1_n_n_wf

abbrev win0_0 : Pipeline.Window sig grid0 :=
  Pipeline.Window.ofSpec (Memref.whole main_arg1) S5000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S6x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S4000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S2x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S64x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S5000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v3) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v32) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S4000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v34) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35) S4000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v33) S4000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v36) S4000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v37_0) S4000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v37_1) S4000x64.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v37_2) S4000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v24) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v40) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v43) S5000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v44) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v44) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v1) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v53) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v54) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v55) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v56) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v57) S5000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v37_0) S4000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v3) S4000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v66) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v67) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v68) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v69) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v70) S4000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v57) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v79) S64x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v89) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v90) S5000x256.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v70) S4000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v96) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v99) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v100) S4000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v101) S4000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v102) S4000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v100) S4000x64.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v103) S4000x64.size cc10_transform_3 reads10_3 false false 2 stage10_3 sem10_3
    hrank10 hreads10_3 hinb10_3 nbuf10_3 (Memref.isWhole_whole _) hwx10_3 hstage10_3

abbrev win10_4 : Pipeline.Window sig grid10 :=
  Pipeline.Window.ofSpec (Memref.whole main_v104_0) S4000x64.size cc10_transform_4 reads10_4 true false 2 stage10_4 sem10_4
    hrank10 hreads10_4 hinb10_4 nbuf10_4 (Memref.isWhole_whole _) hwx10_4 hstage10_4

abbrev win10_5 : Pipeline.Window sig grid10 :=
  Pipeline.Window.ofSpec (Memref.whole main_v104_1) S4000x64.size cc10_transform_5 reads10_5 true false 2 stage10_5 sem10_5
    hrank10 hreads10_5 hinb10_5 nbuf10_5 (Memref.isWhole_whole _) hwx10_5 hstage10_5

abbrev win10_6 : Pipeline.Window sig grid10 :=
  Pipeline.Window.ofSpec (Memref.whole main_v104_2) S4000x64.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v91) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v107) S5000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v110) S5000x64.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v111) S5000x64.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v111) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v57) S5000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v120) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v121) S1x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v122) S1x64.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v123) S1x64.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v124) S5000x64.size cc12_transform_6 reads12_6 true false 2 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v104_0) S4000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v70) S4000x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v133) S1x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v134) S1x64.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v135) S1x64.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v136) S1x64.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v137) S4000x64.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v124) S5000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v146) S64x256.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v156) S1x256.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v157) S5000x256.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v137) S4000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v163) S64x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v166) S1x64.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v167) S4000x64.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v168) S4000x64.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v169) S4000x64.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v167) S4000x64.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_v170) S4000x64.size cc16_transform_3 reads16_3 false false 2 stage16_3 sem16_3
    hrank16 hreads16_3 hinb16_3 nbuf16_3 (Memref.isWhole_whole _) hwx16_3 hstage16_3

abbrev win16_4 : Pipeline.Window sig grid16 :=
  Pipeline.Window.ofSpec (Memref.whole main_v171_0) S4000x64.size cc16_transform_4 reads16_4 true false 2 stage16_4 sem16_4
    hrank16 hreads16_4 hinb16_4 nbuf16_4 (Memref.isWhole_whole _) hwx16_4 hstage16_4

abbrev win16_5 : Pipeline.Window sig grid16 :=
  Pipeline.Window.ofSpec (Memref.whole main_v171_1) S4000x64.size cc16_transform_5 reads16_5 true false 2 stage16_5 sem16_5
    hrank16 hreads16_5 hinb16_5 nbuf16_5 (Memref.isWhole_whole _) hwx16_5 hstage16_5

abbrev win16_6 : Pipeline.Window sig grid16 :=
  Pipeline.Window.ofSpec (Memref.whole main_v171_2) S4000x64.size cc16_transform_6 reads16_6 true false 2 stage16_6 sem16_6
    hrank16 hreads16_6 hinb16_6 nbuf16_6 (Memref.isWhole_whole _) hwx16_6 hstage16_6

abbrev win16 : Fin 7 → Pipeline.Window sig grid16 := fun | 0 => win16_0 | 1 => win16_1 | 2 => win16_2 | 3 => win16_3 | 4 => win16_4 | 5 => win16_5 | 6 => win16_6 | ⟨_ + 7, h⟩ => absurd h (Nat.not_lt.2 (Nat.le_add_left _ _))
abbrev spec16 : Fin 7 → Pipeline.WinSpec sig grid16.rank := fun w => (win16 w).toWinSpec

abbrev win17_0 : Pipeline.Window sig grid17 :=
  Pipeline.Window.ofSpec (Memref.whole main_v158) S5000x64.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v174) S5000x64.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v177) S5000x64.size cc17_transform_2 reads17_2 false false 2 stage17_2 sem17_2
    hrank17 hreads17_2 hinb17_2 nbuf17_2 (Memref.isWhole_whole _) hwx17_2 hstage17_2

abbrev win17_3 : Pipeline.Window sig grid17 :=
  Pipeline.Window.ofSpec (Memref.whole main_v178) S5000x64.size cc17_transform_3 reads17_3 true false 2 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev win18_0 : Pipeline.Window sig grid18 :=
  Pipeline.Window.ofSpec (Memref.whole main_v178) S5000x64.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v124) S5000x64.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v187) S1x64.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v188) S1x64.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v189) S1x64.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v190) S1x64.size cc18_transform_5 reads18_5 false true 1 stage18_5 sem18_5
    hrank18 hreads18_5 hinb18_5 nbuf18_5 (Memref.isWhole_whole _) hwx18_5 hstage18_5

abbrev win18_6 : Pipeline.Window sig grid18 :=
  Pipeline.Window.ofSpec (Memref.whole main_v191) S5000x64.size cc18_transform_6 reads18_6 true false 2 stage18_6 sem18_6
    hrank18 hreads18_6 hinb18_6 nbuf18_6 (Memref.isWhole_whole _) hwx18_6 hstage18_6

abbrev win18 : Fin 7 → Pipeline.Window sig grid18 := fun | 0 => win18_0 | 1 => win18_1 | 2 => win18_2 | 3 => win18_3 | 4 => win18_4 | 5 => win18_5 | 6 => win18_6 | ⟨_ + 7, h⟩ => absurd h (Nat.not_lt.2 (Nat.le_add_left _ _))
abbrev spec18 : Fin 7 → Pipeline.WinSpec sig grid18.rank := fun w => (win18 w).toWinSpec

abbrev win19_0 : Pipeline.Window sig grid19 :=
  Pipeline.Window.ofSpec (Memref.whole main_v171_0) S4000x64.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v137) S4000x64.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v200) S1x64.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v201) S1x64.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v202) S1x64.size cc19_transform_4 reads19_4 false true 1 stage19_4 sem19_4
    hrank19 hreads19_4 hinb19_4 nbuf19_4 (Memref.isWhole_whole _) hwx19_4 hstage19_4

abbrev win19_5 : Pipeline.Window sig grid19 :=
  Pipeline.Window.ofSpec (Memref.whole main_v203) S1x64.size cc19_transform_5 reads19_5 false true 1 stage19_5 sem19_5
    hrank19 hreads19_5 hinb19_5 nbuf19_5 (Memref.isWhole_whole _) hwx19_5 hstage19_5

abbrev win19_6 : Pipeline.Window sig grid19 :=
  Pipeline.Window.ofSpec (Memref.whole main_v204) S4000x64.size cc19_transform_6 reads19_6 true false 2 stage19_6 sem19_6
    hrank19 hreads19_6 hinb19_6 nbuf19_6 (Memref.isWhole_whole _) hwx19_6 hstage19_6

abbrev win19 : Fin 7 → Pipeline.Window sig grid19 := fun | 0 => win19_0 | 1 => win19_1 | 2 => win19_2 | 3 => win19_3 | 4 => win19_4 | 5 => win19_5 | 6 => win19_6 | ⟨_ + 7, h⟩ => absurd h (Nat.not_lt.2 (Nat.le_add_left _ _))
abbrev spec19 : Fin 7 → Pipeline.WinSpec sig grid19.rank := fun w => (win19 w).toWinSpec

abbrev win20_0 : Pipeline.Window sig grid20 :=
  Pipeline.Window.ofSpec (Memref.whole main_v215) S16x68.size cc20_transform_0 reads20_0 false true 1 stage20_0 sem20_0
    hrank20 hreads20_0 hinb20_0 nbuf20_0 (Memref.isWhole_whole _) hwx20_0 hstage20_0

abbrev win20_1 : Pipeline.Window sig grid20 :=
  Pipeline.Window.ofSpec (Memref.whole main_arg24) S68x256.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v216) S1x256.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_arg26) S256x256.size cc20_transform_3 reads20_3 false true 1 stage20_3 sem20_3
    hrank20 hreads20_3 hinb20_3 nbuf20_3 (Memref.isWhole_whole _) hwx20_3 hstage20_3

abbrev win20_4 : Pipeline.Window sig grid20 :=
  Pipeline.Window.ofSpec (Memref.whole main_v217) S1x256.size cc20_transform_4 reads20_4 false true 1 stage20_4 sem20_4
    hrank20 hreads20_4 hinb20_4 nbuf20_4 (Memref.isWhole_whole _) hwx20_4 hstage20_4

abbrev win20_5 : Pipeline.Window sig grid20 :=
  Pipeline.Window.ofSpec (Memref.whole main_arg28) S256x2.size cc20_transform_5 reads20_5 false true 1 stage20_5 sem20_5
    hrank20 hreads20_5 hinb20_5 nbuf20_5 (Memref.isWhole_whole _) hwx20_5 hstage20_5

abbrev win20_6 : Pipeline.Window sig grid20 :=
  Pipeline.Window.ofSpec (Memref.whole main_v218) S1x2.size cc20_transform_6 reads20_6 false true 1 stage20_6 sem20_6
    hrank20 hreads20_6 hinb20_6 nbuf20_6 (Memref.isWhole_whole _) hwx20_6 hstage20_6

abbrev win20_7 : Pipeline.Window sig grid20 :=
  Pipeline.Window.ofSpec (Memref.whole main_v219) S16x2.size cc20_transform_7 reads20_7 true true 1 stage20_7 sem20_7
    hrank20 hreads20_7 hinb20_7 nbuf20_7 (Memref.isWhole_whole _) hwx20_7 hstage20_7

abbrev win20 : Fin 8 → Pipeline.Window sig grid20 := fun | 0 => win20_0 | 1 => win20_1 | 2 => win20_2 | 3 => win20_3 | 4 => win20_4 | 5 => win20_5 | 6 => win20_6 | 7 => win20_7 | ⟨_ + 8, h⟩ => absurd h (Nat.not_lt.2 (Nat.le_add_left _ _))
abbrev spec20 : Fin 8 → Pipeline.WinSpec sig grid20.rank := fun w => (win20 w).toWinSpec

class Facts : Prop extends Facts₀ where

variable [Facts]
-- ==== ReferenceIdeal.lean ====
abbrev S16x4 : Shape := ⟨2, ![16, 4]⟩
abbrev S50000x6 : Shape := ⟨2, ![50000, 6]⟩
abbrev S400000x2 : Shape := ⟨2, ![400000, 2]⟩
abbrev S400000 : Shape := ⟨1, ![400000]⟩
abbrev S50000 : Shape := ⟨1, ![50000]⟩
abbrev S6x64 : Shape := ⟨2, ![6, 64]⟩
abbrev S64 : Shape := ⟨1, ![64]⟩
abbrev S2x64 : Shape := ⟨2, ![2, 64]⟩
abbrev S3x64x64 : Shape := ⟨3, ![3, 64, 64]⟩
abbrev S3x64 : Shape := ⟨2, ![3, 64]⟩
abbrev S68x256 : Shape := ⟨2, ![68, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩
abbrev S50000x64 : Shape := ⟨2, ![50000, 64]⟩
abbrev S1x64 : Shape := ⟨2, ![1, 64]⟩
abbrev S400000x64 : Shape := ⟨2, ![400000, 64]⟩
abbrev S1x64x64 : Shape := ⟨3, ![1, 64, 64]⟩
abbrev S64x64 : Shape := ⟨2, ![64, 64]⟩
abbrev S400000x1 : Shape := ⟨2, ![400000, 1]⟩
abbrev S16 : Shape := ⟨1, ![16]⟩
abbrev S50000x1 : Shape := ⟨2, ![50000, 1]⟩
abbrev S16x64 : Shape := ⟨2, ![16, 64]⟩
abbrev S16x1 : Shape := ⟨2, ![16, 1]⟩
abbrev S16x68 : Shape := ⟨2, ![16, 68]⟩
abbrev S16x256 : Shape := ⟨2, ![16, 256]⟩
abbrev S1x256 : Shape := ⟨2, ![1, 256]⟩
abbrev S16x2 : Shape := ⟨2, ![16, 2]⟩
abbrev S1x2 : Shape := ⟨2, ![1, 2]⟩

abbrev nBuf : Space → Nat
  | .hbm => 662
  | .vmem => 0
  | .smem => 0
  | _ => 0

abbrev hbmTy0_0 (i : Nat) : BufTy := match i % 128 with
  | 0 => ⟨S16x4, .f32⟩
  | 1 => ⟨S50000x6, .f32⟩
  | 2 => ⟨S400000x2, .f32⟩
  | 3 => ⟨S400000, .i32⟩
  | 4 => ⟨S400000, .i32⟩
  | 5 => ⟨S50000, .i32⟩
  | 6 => ⟨S6x64, .f32⟩
  | 7 => ⟨S64, .f32⟩
  | 8 => ⟨S2x64, .f32⟩
  | 9 => ⟨S64, .f32⟩
  | 10 => ⟨S3x64x64, .f32⟩
  | 11 => ⟨S3x64, .f32⟩
  | 12 => ⟨S3x64x64, .f32⟩
  | 13 => ⟨S3x64, .f32⟩
  | 14 => ⟨S3x64x64, .f32⟩
  | 15 => ⟨S3x64, .f32⟩
  | 16 => ⟨S3x64x64, .f32⟩
  | 17 => ⟨S3x64, .f32⟩
  | 18 => ⟨S3x64x64, .f32⟩
  | 19 => ⟨S3x64, .f32⟩
  | 20 => ⟨S3x64, .f32⟩
  | 21 => ⟨S3x64, .f32⟩
  | 22 => ⟨S3x64, .f32⟩
  | 23 => ⟨S3x64, .f32⟩
  | 24 => ⟨S68x256, .f32⟩
  | 25 => ⟨S256, .f32⟩
  | 26 => ⟨S256x256, .f32⟩
  | 27 => ⟨S256, .f32⟩
  | 28 => ⟨S256x2, .f32⟩
  | 29 => ⟨S2, .f32⟩
  | 30 => ⟨S_, .f32⟩
  | 31 => ⟨S400000x2, .f32⟩
  | 32 => ⟨S400000x2, .f32⟩
  | 33 => ⟨S50000x64, .f32⟩
  | 34 => ⟨S1x64, .f32⟩
  | 35 => ⟨S50000x64, .f32⟩
  | 36 => ⟨S50000x64, .f32⟩
  | 37 => ⟨S400000x64, .f32⟩
  | 38 => ⟨S1x64, .f32⟩
  | 39 => ⟨S400000x64, .f32⟩
  | 40 => ⟨S400000x64, .f32⟩
  | 41 => ⟨S1x64x64, .f32⟩
  | 42 => ⟨S64x64, .f32⟩
  | 43 => ⟨S50000x64, .f32⟩
  | 44 => ⟨S1x64, .f32⟩
  | 45 => ⟨S64, .f32⟩
  | 46 => ⟨S1x64, .f32⟩
  | 47 => ⟨S50000x64, .f32⟩
  | 48 => ⟨S50000x64, .f32⟩
  | 49 => ⟨S1x64x64, .f32⟩
  | 50 => ⟨S64x64, .f32⟩
  | 51 => ⟨S50000x64, .f32⟩
  | 52 => ⟨S1x64, .f32⟩
  | 53 => ⟨S64, .f32⟩
  | 54 => ⟨S1x64, .f32⟩
  | 55 => ⟨S50000x64, .f32⟩
  | 56 => ⟨S50000x64, .f32⟩
  | 57 => ⟨S1x64x64, .f32⟩
  | 58 => ⟨S64x64, .f32⟩
  | 59 => ⟨S50000x64, .f32⟩
  | 60 => ⟨S1x64, .f32⟩
  | 61 => ⟨S64, .f32⟩
  | 62 => ⟨S1x64, .f32⟩
  | 63 => ⟨S50000x64, .f32⟩
  | 64 => ⟨S50000x64, .f32⟩
  | 65 => ⟨S1x64x64, .f32⟩
  | 66 => ⟨S64x64, .f32⟩
  | 67 => ⟨S50000x64, .f32⟩
  | 68 => ⟨S1x64, .f32⟩
  | 69 => ⟨S64, .f32⟩
  | 70 => ⟨S1x64, .f32⟩
  | 71 => ⟨S50000x64, .f32⟩
  | 72 => ⟨S50000x64, .f32⟩
  | 73 => ⟨S1x64x64, .f32⟩
  | 74 => ⟨S64x64, .f32⟩
  | 75 => ⟨S400000x64, .f32⟩
  | 76 => ⟨S1x64, .f32⟩
  | 77 => ⟨S64, .f32⟩
  | 78 => ⟨S1x64, .f32⟩
  | 79 => ⟨S400000x64, .f32⟩
  | 80 => ⟨S400000x64, .f32⟩
  | 81 => ⟨S_, .i32⟩
  | 82 => ⟨S400000, .i32⟩
  | 83 => ⟨S400000, .i1⟩
  | 84 => ⟨S_, .i32⟩
  | 85 => ⟨S400000, .i32⟩
  | 86 => ⟨S400000, .i32⟩
  | 87 => ⟨S400000, .i32⟩
  | 88 => ⟨S400000x1, .i32⟩
  | 89 => ⟨S400000x64, .f32⟩
  | 90 => ⟨S_, .i32⟩
  | 91 => ⟨S400000, .i32⟩
  | 92 => ⟨S400000, .i1⟩
  | 93 => ⟨S_, .i32⟩
  | 94 => ⟨S400000, .i32⟩
  | 95 => ⟨S400000, .i32⟩
  | 96 => ⟨S400000, .i32⟩
  | 97 => ⟨S400000x1, .i32⟩
  | 98 => ⟨S400000x64, .f32⟩
  | 99 => ⟨S400000x64, .f32⟩
  | 100 => ⟨S400000x64, .f32⟩
  | 101 => ⟨S400000x64, .f32⟩
  | 102 => ⟨S400000x64, .f32⟩
  | 103 => ⟨S_, .f32⟩
  | 104 => ⟨S400000x64, .f32⟩
  | 105 => ⟨S400000x64, .f32⟩
  | 106 => ⟨S_, .f32⟩
  | 107 => ⟨S400000x64, .f32⟩
  | 108 => ⟨S400000x64, .f32⟩
  | 109 => ⟨S_, .i32⟩
  | 110 => ⟨S400000, .i32⟩
  | 111 => ⟨S400000, .i1⟩
  | 112 => ⟨S_, .i32⟩
  | 113 => ⟨S400000, .i32⟩
  | 114 => ⟨S400000, .i32⟩
  | 115 => ⟨S400000, .i32⟩
  | 116 => ⟨S400000x1, .i32⟩
  | 117 => ⟨S400000x64, .f32⟩
  | 118 => ⟨S400000x64, .f32⟩
  | 119 => ⟨S_, .f32⟩
  | 120 => ⟨S50000x64, .f32⟩
  | 121 => ⟨S400000x1, .i32⟩
  | 122 => ⟨S50000x64, .f32⟩
  | 123 => ⟨S_, .f32⟩
  | 124 => ⟨S50000x64, .f32⟩
  | 125 => ⟨S400000x1, .i32⟩
  | 126 => ⟨S50000x64, .f32⟩
  | 127 => ⟨S_, .f32⟩
  | _ => ⟨S16x4, .f32⟩

abbrev hbmTy0_1 (i : Nat) : BufTy := match i % 128 with
  | 0 => ⟨S50000x64, .f32⟩
  | 1 => ⟨S50000x64, .f32⟩
  | 2 => ⟨S50000x64, .f32⟩
  | 3 => ⟨S50000x64, .f32⟩
  | 4 => ⟨S1x64, .f32⟩
  | 5 => ⟨S64, .f32⟩
  | 6 => ⟨S1x64, .f32⟩
  | 7 => ⟨S64, .f32⟩
  | 8 => ⟨S_, .f32⟩
  | 9 => ⟨S64, .f32⟩
  | 10 => ⟨S_, .f32⟩
  | 11 => ⟨S64, .f32⟩
  | 12 => ⟨S64, .f32⟩
  | 13 => ⟨S_, .i32⟩
  | 14 => ⟨S_, .f32⟩
  | 15 => ⟨S64, .f32⟩
  | 16 => ⟨S1x64, .f32⟩
  | 17 => ⟨S_, .f32⟩
  | 18 => ⟨S1x64, .f32⟩
  | 19 => ⟨S1x64, .f32⟩
  | 20 => ⟨S50000x64, .f32⟩
  | 21 => ⟨S50000x64, .f32⟩
  | 22 => ⟨S50000x64, .f32⟩
  | 23 => ⟨S_, .f32⟩
  | 24 => ⟨S_, .f32⟩
  | 25 => ⟨S_, .f32⟩
  | 26 => ⟨S_, .f32⟩
  | 27 => ⟨S64, .f32⟩
  | 28 => ⟨S64, .f32⟩
  | 29 => ⟨S64, .f32⟩
  | 30 => ⟨S_, .f32⟩
  | 31 => ⟨S_, .i1⟩
  | 32 => ⟨S_, .f32⟩
  | 33 => ⟨S_, .f32⟩
  | 34 => ⟨S64, .f32⟩
  | 35 => ⟨S64, .f32⟩
  | 36 => ⟨S1x64, .f32⟩
  | 37 => ⟨S50000x64, .f32⟩
  | 38 => ⟨S50000x64, .f32⟩
  | 39 => ⟨S_, .f32⟩
  | 40 => ⟨S64, .f32⟩
  | 41 => ⟨S64, .f32⟩
  | 42 => ⟨S64, .f32⟩
  | 43 => ⟨S1x64, .f32⟩
  | 44 => ⟨S50000x64, .f32⟩
  | 45 => ⟨S50000x64, .f32⟩
  | 46 => ⟨S1x64, .f32⟩
  | 47 => ⟨S50000x64, .f32⟩
  | 48 => ⟨S50000x64, .f32⟩
  | 49 => ⟨S1x64, .f32⟩
  | 50 => ⟨S50000x64, .f32⟩
  | 51 => ⟨S50000x64, .f32⟩
  | 52 => ⟨S_, .f32⟩
  | 53 => ⟨S50000x64, .f32⟩
  | 54 => ⟨S50000x64, .f32⟩
  | 55 => ⟨S50000x64, .f32⟩
  | 56 => ⟨S1x64, .f32⟩
  | 57 => ⟨S64, .f32⟩
  | 58 => ⟨S1x64, .f32⟩
  | 59 => ⟨S64, .f32⟩
  | 60 => ⟨S_, .f32⟩
  | 61 => ⟨S64, .f32⟩
  | 62 => ⟨S_, .f32⟩
  | 63 => ⟨S64, .f32⟩
  | 64 => ⟨S64, .f32⟩
  | 65 => ⟨S_, .i32⟩
  | 66 => ⟨S_, .f32⟩
  | 67 => ⟨S64, .f32⟩
  | 68 => ⟨S1x64, .f32⟩
  | 69 => ⟨S_, .f32⟩
  | 70 => ⟨S1x64, .f32⟩
  | 71 => ⟨S1x64, .f32⟩
  | 72 => ⟨S400000x64, .f32⟩
  | 73 => ⟨S400000x64, .f32⟩
  | 74 => ⟨S400000x64, .f32⟩
  | 75 => ⟨S_, .f32⟩
  | 76 => ⟨S_, .f32⟩
  | 77 => ⟨S_, .f32⟩
  | 78 => ⟨S_, .f32⟩
  | 79 => ⟨S64, .f32⟩
  | 80 => ⟨S64, .f32⟩
  | 81 => ⟨S64, .f32⟩
  | 82 => ⟨S_, .f32⟩
  | 83 => ⟨S_, .i1⟩
  | 84 => ⟨S_, .f32⟩
  | 85 => ⟨S_, .f32⟩
  | 86 => ⟨S64, .f32⟩
  | 87 => ⟨S64, .f32⟩
  | 88 => ⟨S1x64, .f32⟩
  | 89 => ⟨S400000x64, .f32⟩
  | 90 => ⟨S400000x64, .f32⟩
  | 91 => ⟨S_, .f32⟩
  | 92 => ⟨S64, .f32⟩
  | 93 => ⟨S64, .f32⟩
  | 94 => ⟨S64, .f32⟩
  | 95 => ⟨S1x64, .f32⟩
  | 96 => ⟨S400000x64, .f32⟩
  | 97 => ⟨S400000x64, .f32⟩
  | 98 => ⟨S1x64, .f32⟩
  | 99 => ⟨S400000x64, .f32⟩
  | 100 => ⟨S400000x64, .f32⟩
  | 101 => ⟨S1x64, .f32⟩
  | 102 => ⟨S400000x64, .f32⟩
  | 103 => ⟨S400000x64, .f32⟩
  | 104 => ⟨S_, .f32⟩
  | 105 => ⟨S400000x64, .f32⟩
  | 106 => ⟨S400000x64, .f32⟩
  | 107 => ⟨S400000x64, .f32⟩
  | 108 => ⟨S1x64x64, .f32⟩
  | 109 => ⟨S64x64, .f32⟩
  | 110 => ⟨S50000x64, .f32⟩
  | 111 => ⟨S1x64, .f32⟩
  | 112 => ⟨S64, .f32⟩
  | 113 => ⟨S1x64, .f32⟩
  | 114 => ⟨S50000x64, .f32⟩
  | 115 => ⟨S50000x64, .f32⟩
  | 116 => ⟨S1x64x64, .f32⟩
  | 117 => ⟨S64x64, .f32⟩
  | 118 => ⟨S50000x64, .f32⟩
  | 119 => ⟨S1x64, .f32⟩
  | 120 => ⟨S64, .f32⟩
  | 121 => ⟨S1x64, .f32⟩
  | 122 => ⟨S50000x64, .f32⟩
  | 123 => ⟨S50000x64, .f32⟩
  | 124 => ⟨S1x64x64, .f32⟩
  | 125 => ⟨S64x64, .f32⟩
  | 126 => ⟨S50000x64, .f32⟩
  | 127 => ⟨S1x64, .f32⟩
  | _ => ⟨S16x4, .f32⟩

abbrev hbmTy0_2 (i : Nat) : BufTy := match i % 128 with
  | 0 => ⟨S64, .f32⟩
  | 1 => ⟨S1x64, .f32⟩
  | 2 => ⟨S50000x64, .f32⟩
  | 3 => ⟨S50000x64, .f32⟩
  | 4 => ⟨S1x64x64, .f32⟩
  | 5 => ⟨S64x64, .f32⟩
  | 6 => ⟨S50000x64, .f32⟩
  | 7 => ⟨S1x64, .f32⟩
  | 8 => ⟨S64, .f32⟩
  | 9 => ⟨S1x64, .f32⟩
  | 10 => ⟨S50000x64, .f32⟩
  | 11 => ⟨S50000x64, .f32⟩
  | 12 => ⟨S1x64x64, .f32⟩
  | 13 => ⟨S64x64, .f32⟩
  | 14 => ⟨S400000x64, .f32⟩
  | 15 => ⟨S1x64, .f32⟩
  | 16 => ⟨S64, .f32⟩
  | 17 => ⟨S1x64, .f32⟩
  | 18 => ⟨S400000x64, .f32⟩
  | 19 => ⟨S400000x64, .f32⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S400000x64, .f32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x64, .f32⟩
  | 38 => ⟨S400000x64, .f32⟩
  | 39 => ⟨S400000x64, .f32⟩
  | 40 => ⟨S400000x64, .f32⟩
  | 41 => ⟨S400000x64, .f32⟩
  | 42 => ⟨S_, .f32⟩
  | 43 => ⟨S400000x64, .f32⟩
  | 44 => ⟨S400000x64, .f32⟩
  | 45 => ⟨S_, .f32⟩
  | 46 => ⟨S400000x64, .f32⟩
  | 47 => ⟨S400000x64, .f32⟩
  | 48 => ⟨S_, .i32⟩
  | 49 => ⟨S400000, .i32⟩
  | 50 => ⟨S400000, .i1⟩
  | 51 => ⟨S_, .i32⟩
  | 52 => ⟨S400000, .i32⟩
  | 53 => ⟨S400000, .i32⟩
  | 54 => ⟨S400000, .i32⟩
  | 55 => ⟨S400000x1, .i32⟩
  | 56 => ⟨S400000x64, .f32⟩
  | 57 => ⟨S400000x64, .f32⟩
  | 58 => ⟨S_, .f32⟩
  | 59 => ⟨S50000x64, .f32⟩
  | 60 => ⟨S400000x1, .i32⟩
  | 61 => ⟨S50000x64, .f32⟩
  | 62 => ⟨S_, .f32⟩
  | 63 => ⟨S50000x64, .f32⟩
  | 64 => ⟨S400000x1, .i32⟩
  | 65 => ⟨S50000x64, .f32⟩
  | 66 => ⟨S_, .f32⟩
  | 67 => ⟨S50000x64, .f32⟩
  | 68 => ⟨S50000x64, .f32⟩
  | 69 => ⟨S50000x64, .f32⟩
  | 70 => ⟨S50000x64, .f32⟩
  | 71 => ⟨S1x64, .f32⟩
  | 72 => ⟨S64, .f32⟩
  | 73 => ⟨S1x64, .f32⟩
  | 74 => ⟨S64, .f32⟩
  | 75 => ⟨S_, .f32⟩
  | 76 => ⟨S64, .f32⟩
  | 77 => ⟨S_, .f32⟩
  | 78 => ⟨S64, .f32⟩
  | 79 => ⟨S64, .f32⟩
  | 80 => ⟨S_, .i32⟩
  | 81 => ⟨S_, .f32⟩
  | 82 => ⟨S64, .f32⟩
  | 83 => ⟨S1x64, .f32⟩
  | 84 => ⟨S_, .f32⟩
  | 85 => ⟨S1x64, .f32⟩
  | 86 => ⟨S1x64, .f32⟩
  | 87 => ⟨S50000x64, .f32⟩
  | 88 => ⟨S50000x64, .f32⟩
  | 89 => ⟨S50000x64, .f32⟩
  | 90 => ⟨S_, .f32⟩
  | 91 => ⟨S_, .f32⟩
  | 92 => ⟨S_, .f32⟩
  | 93 => ⟨S_, .f32⟩
  | 94 => ⟨S64, .f32⟩
  | 95 => ⟨S64, .f32⟩
  | 96 => ⟨S64, .f32⟩
  | 97 => ⟨S_, .f32⟩
  | 98 => ⟨S_, .i1⟩
  | 99 => ⟨S_, .f32⟩
  | 100 => ⟨S_, .f32⟩
  | 101 => ⟨S64, .f32⟩
  | 102 => ⟨S64, .f32⟩
  | 103 => ⟨S1x64, .f32⟩
  | 104 => ⟨S50000x64, .f32⟩
  | 105 => ⟨S50000x64, .f32⟩
  | 106 => ⟨S_, .f32⟩
  | 107 => ⟨S64, .f32⟩
  | 108 => ⟨S64, .f32⟩
  | 109 => ⟨S64, .f32⟩
  | 110 => ⟨S1x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S1x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S50000x64, .f32⟩
  | 123 => ⟨S1x64, .f32⟩
  | 124 => ⟨S64, .f32⟩
  | 125 => ⟨S1x64, .f32⟩
  | 126 => ⟨S64, .f32⟩
  | 127 => ⟨S_, .f32⟩
  | _ => ⟨S16x4, .f32⟩

abbrev hbmTy0_3 (i : Nat) : BufTy := match i % 128 with
  | 0 => ⟨S64, .f32⟩
  | 1 => ⟨S_, .f32⟩
  | 2 => ⟨S64, .f32⟩
  | 3 => ⟨S64, .f32⟩
  | 4 => ⟨S_, .i32⟩
  | 5 => ⟨S_, .f32⟩
  | 6 => ⟨S64, .f32⟩
  | 7 => ⟨S1x64, .f32⟩
  | 8 => ⟨S_, .f32⟩
  | 9 => ⟨S1x64, .f32⟩
  | 10 => ⟨S1x64, .f32⟩
  | 11 => ⟨S400000x64, .f32⟩
  | 12 => ⟨S400000x64, .f32⟩
  | 13 => ⟨S400000x64, .f32⟩
  | 14 => ⟨S_, .f32⟩
  | 15 => ⟨S_, .f32⟩
  | 16 => ⟨S_, .f32⟩
  | 17 => ⟨S_, .f32⟩
  | 18 => ⟨S64, .f32⟩
  | 19 => ⟨S64, .f32⟩
  | 20 => ⟨S64, .f32⟩
  | 21 => ⟨S_, .f32⟩
  | 22 => ⟨S_, .i1⟩
  | 23 => ⟨S_, .f32⟩
  | 24 => ⟨S_, .f32⟩
  | 25 => ⟨S64, .f32⟩
  | 26 => ⟨S64, .f32⟩
  | 27 => ⟨S1x64, .f32⟩
  | 28 => ⟨S400000x64, .f32⟩
  | 29 => ⟨S400000x64, .f32⟩
  | 30 => ⟨S_, .f32⟩
  | 31 => ⟨S64, .f32⟩
  | 32 => ⟨S64, .f32⟩
  | 33 => ⟨S64, .f32⟩
  | 34 => ⟨S1x64, .f32⟩
  | 35 => ⟨S400000x64, .f32⟩
  | 36 => ⟨S400000x64, .f32⟩
  | 37 => ⟨S1x64, .f32⟩
  | 38 => ⟨S400000x64, .f32⟩
  | 39 => ⟨S400000x64, .f32⟩
  | 40 => ⟨S1x64, .f32⟩
  | 41 => ⟨S400000x64, .f32⟩
  | 42 => ⟨S400000x64, .f32⟩
  | 43 => ⟨S_, .f32⟩
  | 44 => ⟨S400000x64, .f32⟩
  | 45 => ⟨S400000x64, .f32⟩
  | 46 => ⟨S400000x64, .f32⟩
  | 47 => ⟨S1x64x64, .f32⟩
  | 48 => ⟨S64x64, .f32⟩
  | 49 => ⟨S50000x64, .f32⟩
  | 50 => ⟨S1x64, .f32⟩
  | 51 => ⟨S64, .f32⟩
  | 52 => ⟨S1x64, .f32⟩
  | 53 => ⟨S50000x64, .f32⟩
  | 54 => ⟨S50000x64, .f32⟩
  | 55 => ⟨S1x64x64, .f32⟩
  | 56 => ⟨S64x64, .f32⟩
  | 57 => ⟨S50000x64, .f32⟩
  | 58 => ⟨S1x64, .f32⟩
  | 59 => ⟨S64, .f32⟩
  | 60 => ⟨S1x64, .f32⟩
  | 61 => ⟨S50000x64, .f32⟩
  | 62 => ⟨S50000x64, .f32⟩
  | 63 => ⟨S1x64x64, .f32⟩
  | 64 => ⟨S64x64, .f32⟩
  | 65 => ⟨S50000x64, .f32⟩
  | 66 => ⟨S1x64, .f32⟩
  | 67 => ⟨S64, .f32⟩
  | 68 => ⟨S1x64, .f32⟩
  | 69 => ⟨S50000x64, .f32⟩
  | 70 => ⟨S50000x64, .f32⟩
  | 71 => ⟨S1x64x64, .f32⟩
  | 72 => ⟨S64x64, .f32⟩
  | 73 => ⟨S50000x64, .f32⟩
  | 74 => ⟨S1x64, .f32⟩
  | 75 => ⟨S64, .f32⟩
  | 76 => ⟨S1x64, .f32⟩
  | 77 => ⟨S50000x64, .f32⟩
  | 78 => ⟨S50000x64, .f32⟩
  | 79 => ⟨S1x64x64, .f32⟩
  | 80 => ⟨S64x64, .f32⟩
  | 81 => ⟨S400000x64, .f32⟩
  | 82 => ⟨S1x64, .f32⟩
  | 83 => ⟨S64, .f32⟩
  | 84 => ⟨S1x64, .f32⟩
  | 85 => ⟨S400000x64, .f32⟩
  | 86 => ⟨S400000x64, .f32⟩
  | 87 => ⟨S_, .i32⟩
  | 88 => ⟨S400000, .i32⟩
  | 89 => ⟨S400000, .i1⟩
  | 90 => ⟨S_, .i32⟩
  | 91 => ⟨S400000, .i32⟩
  | 92 => ⟨S400000, .i32⟩
  | 93 => ⟨S400000, .i32⟩
  | 94 => ⟨S400000x1, .i32⟩
  | 95 => ⟨S400000x64, .f32⟩
  | 96 => ⟨S_, .i32⟩
  | 97 => ⟨S400000, .i32⟩
  | 98 => ⟨S400000, .i1⟩
  | 99 => ⟨S_, .i32⟩
  | 100 => ⟨S400000, .i32⟩
  | 101 => ⟨S400000, .i32⟩
  | 102 => ⟨S400000, .i32⟩
  | 103 => ⟨S400000x1, .i32⟩
  | 104 => ⟨S400000x64, .f32⟩
  | 105 => ⟨S400000x64, .f32⟩
  | 106 => ⟨S400000x64, .f32⟩
  | 107 => ⟨S400000x64, .f32⟩
  | 108 => ⟨S400000x64, .f32⟩
  | 109 => ⟨S_, .f32⟩
  | 110 => ⟨S400000x64, .f32⟩
  | 111 => ⟨S400000x64, .f32⟩
  | 112 => ⟨S_, .f32⟩
  | 113 => ⟨S400000x64, .f32⟩
  | 114 => ⟨S400000x64, .f32⟩
  | 115 => ⟨S_, .i32⟩
  | 116 => ⟨S400000, .i32⟩
  | 117 => ⟨S400000, .i1⟩
  | 118 => ⟨S_, .i32⟩
  | 119 => ⟨S400000, .i32⟩
  | 120 => ⟨S400000, .i32⟩
  | 121 => ⟨S400000, .i32⟩
  | 122 => ⟨S400000x1, .i32⟩
  | 123 => ⟨S400000x64, .f32⟩
  | 124 => ⟨S400000x64, .f32⟩
  | 125 => ⟨S_, .f32⟩
  | 126 => ⟨S50000x64, .f32⟩
  | 127 => ⟨S400000x1, .i32⟩
  | _ => ⟨S16x4, .f32⟩

abbrev hbmTy0_4 (i : Nat) : BufTy := match i % 128 with
  | 0 => ⟨S50000x64, .f32⟩
  | 1 => ⟨S_, .f32⟩
  | 2 => ⟨S50000x64, .f32⟩
  | 3 => ⟨S400000x1, .i32⟩
  | 4 => ⟨S50000x64, .f32⟩
  | 5 => ⟨S_, .f32⟩
  | 6 => ⟨S50000x64, .f32⟩
  | 7 => ⟨S50000x64, .f32⟩
  | 8 => ⟨S50000x64, .f32⟩
  | 9 => ⟨S50000x64, .f32⟩
  | 10 => ⟨S1x64, .f32⟩
  | 11 => ⟨S64, .f32⟩
  | 12 => ⟨S1x64, .f32⟩
  | 13 => ⟨S64, .f32⟩
  | 14 => ⟨S_, .f32⟩
  | 15 => ⟨S64, .f32⟩
  | 16 => ⟨S_, .f32⟩
  | 17 => ⟨S64, .f32⟩
  | 18 => ⟨S64, .f32⟩
  | 19 => ⟨S_, .i32⟩
  | 20 => ⟨S_, .f32⟩
  | 21 => ⟨S64, .f32⟩
  | 22 => ⟨S1x64, .f32⟩
  | 23 => ⟨S_, .f32⟩
  | 24 => ⟨S1x64, .f32⟩
  | 25 => ⟨S1x64, .f32⟩
  | 26 => ⟨S50000x64, .f32⟩
  | 27 => ⟨S50000x64, .f32⟩
  | 28 => ⟨S50000x64, .f32⟩
  | 29 => ⟨S_, .f32⟩
  | 30 => ⟨S_, .f32⟩
  | 31 => ⟨S_, .f32⟩
  | 32 => ⟨S_, .f32⟩
  | 33 => ⟨S64, .f32⟩
  | 34 => ⟨S64, .f32⟩
  | 35 => ⟨S64, .f32⟩
  | 36 => ⟨S_, .f32⟩
  | 37 => ⟨S_, .i1⟩
  | 38 => ⟨S_, .f32⟩
  | 39 => ⟨S_, .f32⟩
  | 40 => ⟨S64, .f32⟩
  | 41 => ⟨S64, .f32⟩
  | 42 => ⟨S1x64, .f32⟩
  | 43 => ⟨S50000x64, .f32⟩
  | 44 => ⟨S50000x64, .f32⟩
  | 45 => ⟨S_, .f32⟩
  | 46 => ⟨S64, .f32⟩
  | 47 => ⟨S64, .f32⟩
  | 48 => ⟨S64, .f32⟩
  | 49 => ⟨S1x64, .f32⟩
  | 50 => ⟨S50000x64, .f32⟩
  | 51 => ⟨S50000x64, .f32⟩
  | 52 => ⟨S1x64, .f32⟩
  | 53 => ⟨S50000x64, .f32⟩
  | 54 => ⟨S50000x64, .f32⟩
  | 55 => ⟨S1x64, .f32⟩
  | 56 => ⟨S50000x64, .f32⟩
  | 57 => ⟨S50000x64, .f32⟩
  | 58 => ⟨S_, .f32⟩
  | 59 => ⟨S50000x64, .f32⟩
  | 60 => ⟨S50000x64, .f32⟩
  | 61 => ⟨S50000x64, .f32⟩
  | 62 => ⟨S1x64, .f32⟩
  | 63 => ⟨S64, .f32⟩
  | 64 => ⟨S1x64, .f32⟩
  | 65 => ⟨S64, .f32⟩
  | 66 => ⟨S_, .f32⟩
  | 67 => ⟨S64, .f32⟩
  | 68 => ⟨S_, .f32⟩
  | 69 => ⟨S64, .f32⟩
  | 70 => ⟨S64, .f32⟩
  | 71 => ⟨S_, .i32⟩
  | 72 => ⟨S_, .f32⟩
  | 73 => ⟨S64, .f32⟩
  | 74 => ⟨S1x64, .f32⟩
  | 75 => ⟨S_, .f32⟩
  | 76 => ⟨S1x64, .f32⟩
  | 77 => ⟨S1x64, .f32⟩
  | 78 => ⟨S400000x64, .f32⟩
  | 79 => ⟨S400000x64, .f32⟩
  | 80 => ⟨S400000x64, .f32⟩
  | 81 => ⟨S_, .f32⟩
  | 82 => ⟨S_, .f32⟩
  | 83 => ⟨S_, .f32⟩
  | 84 => ⟨S_, .f32⟩
  | 85 => ⟨S64, .f32⟩
  | 86 => ⟨S64, .f32⟩
  | 87 => ⟨S64, .f32⟩
  | 88 => ⟨S_, .f32⟩
  | 89 => ⟨S_, .i1⟩
  | 90 => ⟨S_, .f32⟩
  | 91 => ⟨S_, .f32⟩
  | 92 => ⟨S64, .f32⟩
  | 93 => ⟨S64, .f32⟩
  | 94 => ⟨S1x64, .f32⟩
  | 95 => ⟨S400000x64, .f32⟩
  | 96 => ⟨S400000x64, .f32⟩
  | 97 => ⟨S_, .f32⟩
  | 98 => ⟨S64, .f32⟩
  | 99 => ⟨S64, .f32⟩
  | 100 => ⟨S64, .f32⟩
  | 101 => ⟨S1x64, .f32⟩
  | 102 => ⟨S400000x64, .f32⟩
  | 103 => ⟨S400000x64, .f32⟩
  | 104 => ⟨S1x64, .f32⟩
  | 105 => ⟨S400000x64, .f32⟩
  | 106 => ⟨S400000x64, .f32⟩
  | 107 => ⟨S1x64, .f32⟩
  | 108 => ⟨S400000x64, .f32⟩
  | 109 => ⟨S400000x64, .f32⟩
  | 110 => ⟨S_, .f32⟩
  | 111 => ⟨S400000x64, .f32⟩
  | 112 => ⟨S400000x64, .f32⟩
  | 113 => ⟨S400000x64, .f32⟩
  | 114 => ⟨S_, .f32⟩
  | 115 => ⟨S50000, .f32⟩
  | 116 => ⟨S_, .f32⟩
  | 117 => ⟨S16, .f32⟩
  | 118 => ⟨S50000x1, .i32⟩
  | 119 => ⟨S16, .f32⟩
  | 120 => ⟨S_, .f32⟩
  | 121 => ⟨S16x64, .f32⟩
  | 122 => ⟨S50000x1, .i32⟩
  | 123 => ⟨S16x64, .f32⟩
  | 124 => ⟨S16x1, .f32⟩
  | 125 => ⟨S16x64, .f32⟩
  | 126 => ⟨S16x64, .f32⟩
  | 127 => ⟨S16x68, .f32⟩
  | _ => ⟨S16x4, .f32⟩

abbrev hbmTy0_5 (i : Nat) : BufTy := match i % 128 with
  | 0 => ⟨S16x256, .f32⟩
  | 1 => ⟨S1x256, .f32⟩
  | 2 => ⟨S16x256, .f32⟩
  | 3 => ⟨S16x256, .f32⟩
  | 4 => ⟨S_, .f32⟩
  | 5 => ⟨S16x256, .f32⟩
  | 6 => ⟨S16x256, .f32⟩
  | 7 => ⟨S16x256, .f32⟩
  | 8 => ⟨S1x256, .f32⟩
  | 9 => ⟨S16x256, .f32⟩
  | 10 => ⟨S16x256, .f32⟩
  | 11 => ⟨S_, .f32⟩
  | 12 => ⟨S16x256, .f32⟩
  | 13 => ⟨S16x256, .f32⟩
  | 14 => ⟨S16x2, .f32⟩
  | 15 => ⟨S1x2, .f32⟩
  | 16 => ⟨S16x2, .f32⟩
  | 17 => ⟨S16x2, .f32⟩
  | 18 => ⟨S16x2, .f32⟩
  | 19 => ⟨S_, .f32⟩
  | 20 => ⟨S16x2, .f32⟩
  | 21 => ⟨S16x2, .f32⟩
  | _ => ⟨S16x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x4, .f32⟩

abbrev bufTy : (tb : Table) → Fin (tcTables nBuf tb) → BufTy
  | .hbm, ⟨i, _⟩ => hbmTy i
  | _, _ => ⟨S16x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_cst : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c : Ref sig .tc := ⟨.hbm, 81, rfl⟩
abbrev main_v50 : Ref sig .tc := ⟨.hbm, 82, rfl⟩
abbrev main_v51 : Ref sig .tc := ⟨.hbm, 83, rfl⟩
abbrev main_c_0 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_1 : Ref sig .tc := ⟨.hbm, 90, rfl⟩
abbrev main_v57 : Ref sig .tc := ⟨.hbm, 91, rfl⟩
abbrev main_v58 : Ref sig .tc := ⟨.hbm, 92, rfl⟩
abbrev main_c_2 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_3 : Ref sig .tc := ⟨.hbm, 103, rfl⟩
abbrev main_v68 : Ref sig .tc := ⟨.hbm, 104, rfl⟩
abbrev main_v69 : Ref sig .tc := ⟨.hbm, 105, rfl⟩
abbrev main_cst_4 : Ref sig .tc := ⟨.hbm, 106, rfl⟩
abbrev main_v70 : Ref sig .tc := ⟨.hbm, 107, rfl⟩
abbrev main_v71 : Ref sig .tc := ⟨.hbm, 108, rfl⟩
abbrev main_c_5 : Ref sig .tc := ⟨.hbm, 109, rfl⟩
abbrev main_v72 : Ref sig .tc := ⟨.hbm, 110, rfl⟩
abbrev main_v73 : Ref sig .tc := ⟨.hbm, 111, rfl⟩
abbrev main_c_6 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_7 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_8 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_9 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_10 : Ref sig .tc := ⟨.hbm, 136, rfl⟩
abbrev main_v94 : Ref sig .tc := ⟨.hbm, 137, rfl⟩
abbrev main_cst_11 : Ref sig .tc := ⟨.hbm, 138, rfl⟩
abbrev main_v95 : Ref sig .tc := ⟨.hbm, 139, rfl⟩
abbrev main_v96 : Ref sig .tc := ⟨.hbm, 140, rfl⟩
abbrev main_c_12 : Ref sig .tc := ⟨.hbm, 141, rfl⟩
abbrev main_call0_cst : Ref sig .tc := ⟨.hbm, 142, rfl⟩
abbrev main_call0_v0 : Ref sig .tc := ⟨.hbm, 143, rfl⟩
abbrev main_call0_v1 : Ref sig .tc := ⟨.hbm, 144, rfl⟩
abbrev main_call0_cst_0 : Ref sig .tc := ⟨.hbm, 145, rfl⟩
abbrev main_call0_v2 : Ref sig .tc := ⟨.hbm, 146, rfl⟩
abbrev main_call0_v3 : Ref sig .tc := ⟨.hbm, 147, rfl⟩
abbrev main_call0_v4 : Ref sig .tc := ⟨.hbm, 148, rfl⟩
abbrev main_call0_v5 : Ref sig .tc := ⟨.hbm, 149, rfl⟩
abbrev main_call0_v6 : Ref sig .tc := ⟨.hbm, 150, rfl⟩
abbrev main_call0_v7 : Ref sig .tc := ⟨.hbm, 151, rfl⟩
abbrev main_call0_cst_1 : Ref sig .tc := ⟨.hbm, 152, rfl⟩
abbrev main_call0_v8 : Ref sig .tc := ⟨.hbm, 153, rfl⟩
abbrev main_call0_cst_2 : Ref sig .tc := ⟨.hbm, 154, rfl⟩
abbrev main_call0_v9 : Ref sig .tc := ⟨.hbm, 155, rfl⟩
abbrev main_call0_v10 : Ref sig .tc := ⟨.hbm, 156, rfl⟩
abbrev main_call0_v11 : Ref sig .tc := ⟨.hbm, 157, rfl⟩
abbrev main_call0_cst_3 : Ref sig .tc := ⟨.hbm, 158, rfl⟩
abbrev main_call0_v12 : Ref sig .tc := ⟨.hbm, 159, rfl⟩
abbrev main_call0_cst_4 : Ref sig .tc := ⟨.hbm, 160, rfl⟩
abbrev main_call0_call0_v0 : Ref sig .tc := ⟨.hbm, 161, rfl⟩
abbrev main_call0_call0_v1 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_13 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_call1_cst : Ref sig .tc := ⟨.hbm, 180, rfl⟩
abbrev main_call1_v0 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_cst_14 : Ref sig .tc := ⟨.hbm, 188, rfl⟩
abbrev main_v119 : Ref sig .tc := ⟨.hbm, 189, rfl⟩
abbrev main_cst_15 : Ref sig .tc := ⟨.hbm, 190, rfl⟩
abbrev main_v120 : Ref sig .tc := ⟨.hbm, 191, rfl⟩
abbrev main_v121 : Ref sig .tc := ⟨.hbm, 192, rfl⟩
abbrev main_c_16 : Ref sig .tc := ⟨.hbm, 193, rfl⟩
abbrev main_call2_cst : Ref sig .tc := ⟨.hbm, 194, rfl⟩
abbrev main_call2_v0 : Ref sig .tc := ⟨.hbm, 195, rfl⟩
abbrev main_call2_v1 : Ref sig .tc := ⟨.hbm, 196, rfl⟩
abbrev main_call2_cst_0 : Ref sig .tc := ⟨.hbm, 197, rfl⟩
abbrev main_call2_v2 : Ref sig .tc := ⟨.hbm, 198, rfl⟩
abbrev main_call2_v3 : Ref sig .tc := ⟨.hbm, 199, rfl⟩
abbrev main_call2_v4 : Ref sig .tc := ⟨.hbm, 200, rfl⟩
abbrev main_call2_v5 : Ref sig .tc := ⟨.hbm, 201, rfl⟩
abbrev main_call2_v6 : Ref sig .tc := ⟨.hbm, 202, rfl⟩
abbrev main_call2_v7 : Ref sig .tc := ⟨.hbm, 203, rfl⟩
abbrev main_call2_cst_1 : Ref sig .tc := ⟨.hbm, 204, rfl⟩
abbrev main_call2_v8 : Ref sig .tc := ⟨.hbm, 205, rfl⟩
abbrev main_call2_cst_2 : Ref sig .tc := ⟨.hbm, 206, rfl⟩
abbrev main_call2_v9 : Ref sig .tc := ⟨.hbm, 207, rfl⟩
abbrev main_call2_v10 : Ref sig .tc := ⟨.hbm, 208, rfl⟩
abbrev main_call2_v11 : Ref sig .tc := ⟨.hbm, 209, rfl⟩
abbrev main_call2_cst_3 : Ref sig .tc := ⟨.hbm, 210, rfl⟩
abbrev main_call2_v12 : Ref sig .tc := ⟨.hbm, 211, rfl⟩
abbrev main_call2_cst_4 : Ref sig .tc := ⟨.hbm, 212, rfl⟩
abbrev main_call2_call0_v0 : Ref sig .tc := ⟨.hbm, 213, rfl⟩
abbrev main_call2_call0_v1 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_cst_17 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_call3_cst : Ref sig .tc := ⟨.hbm, 232, rfl⟩
abbrev main_call3_v0 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_c_18 : Ref sig .tc := ⟨.hbm, 276, rfl⟩
abbrev main_v180 : Ref sig .tc := ⟨.hbm, 277, rfl⟩
abbrev main_v181 : Ref sig .tc := ⟨.hbm, 278, rfl⟩
abbrev main_c_19 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_v185 : Ref sig .tc := ⟨.hbm, 283, rfl⟩
abbrev main_v186 : Ref sig .tc := ⟨.hbm, 284, rfl⟩
abbrev main_c_20 : Ref sig .tc := ⟨.hbm, 285, rfl⟩
abbrev main_v187 : Ref sig .tc := ⟨.hbm, 286, rfl⟩
abbrev main_v188 : Ref sig .tc := ⟨.hbm, 287, rfl⟩
abbrev main_c_21 : Ref sig .tc := ⟨.hbm, 288, rfl⟩
abbrev main_v189 : Ref sig .tc := ⟨.hbm, 289, rfl⟩
abbrev main_v190 : Ref sig .tc := ⟨.hbm, 290, rfl⟩
abbrev main_v191 : Ref sig .tc := ⟨.hbm, 291, rfl⟩
abbrev main_v192 : Ref sig .tc := ⟨.hbm, 292, rfl⟩
abbrev main_v193 : Ref sig .tc := ⟨.hbm, 293, rfl⟩
abbrev main_v194 : Ref sig .tc := ⟨.hbm, 294, rfl⟩
abbrev main_v195 : Ref sig .tc := ⟨.hbm, 295, rfl⟩
abbrev main_v196 : Ref sig .tc := ⟨.hbm, 296, rfl⟩
abbrev main_v197 : Ref sig .tc := ⟨.hbm, 297, rfl⟩
abbrev main_cst_22 : Ref sig .tc := ⟨.hbm, 298, rfl⟩
abbrev main_v198 : Ref sig .tc := ⟨.hbm, 299, rfl⟩
abbrev main_v199 : Ref sig .tc := ⟨.hbm, 300, rfl⟩
abbrev main_cst_23 : Ref sig .tc := ⟨.hbm, 301, rfl⟩
abbrev main_v200 : Ref sig .tc := ⟨.hbm, 302, rfl⟩
abbrev main_v201 : Ref sig .tc := ⟨.hbm, 303, rfl⟩
abbrev main_c_24 : Ref sig .tc := ⟨.hbm, 304, rfl⟩
abbrev main_v202 : Ref sig .tc := ⟨.hbm, 305, rfl⟩
abbrev main_v203 : Ref sig .tc := ⟨.hbm, 306, rfl⟩
abbrev main_c_25 : Ref sig .tc := ⟨.hbm, 307, rfl⟩
abbrev main_v204 : Ref sig .tc := ⟨.hbm, 308, rfl⟩
abbrev main_v205 : Ref sig .tc := ⟨.hbm, 309, rfl⟩
abbrev main_v206 : Ref sig .tc := ⟨.hbm, 310, rfl⟩
abbrev main_v207 : Ref sig .tc := ⟨.hbm, 311, rfl⟩
abbrev main_v208 : Ref sig .tc := ⟨.hbm, 312, rfl⟩
abbrev main_v209 : Ref sig .tc := ⟨.hbm, 313, rfl⟩
abbrev main_cst_26 : Ref sig .tc := ⟨.hbm, 314, rfl⟩
abbrev main_v210 : Ref sig .tc := ⟨.hbm, 315, rfl⟩
abbrev main_v211 : Ref sig .tc := ⟨.hbm, 316, rfl⟩
abbrev main_v212 : Ref sig .tc := ⟨.hbm, 317, rfl⟩
abbrev main_cst_27 : Ref sig .tc := ⟨.hbm, 318, rfl⟩
abbrev main_v213 : Ref sig .tc := ⟨.hbm, 319, rfl⟩
abbrev main_v214 : Ref sig .tc := ⟨.hbm, 320, rfl⟩
abbrev main_v215 : Ref sig .tc := ⟨.hbm, 321, rfl⟩
abbrev main_cst_28 : Ref sig .tc := ⟨.hbm, 322, rfl⟩
abbrev main_v216 : Ref sig .tc := ⟨.hbm, 323, rfl⟩
abbrev main_v217 : Ref sig .tc := ⟨.hbm, 324, rfl⟩
abbrev main_v218 : Ref sig .tc := ⟨.hbm, 325, rfl⟩
abbrev main_v219 : Ref sig .tc := ⟨.hbm, 326, rfl⟩
abbrev main_v220 : Ref sig .tc := ⟨.hbm, 327, rfl⟩
abbrev main_v221 : Ref sig .tc := ⟨.hbm, 328, rfl⟩
abbrev main_v222 : Ref sig .tc := ⟨.hbm, 329, rfl⟩
abbrev main_v223 : Ref sig .tc := ⟨.hbm, 330, rfl⟩
abbrev main_cst_29 : Ref sig .tc := ⟨.hbm, 331, rfl⟩
abbrev main_v224 : Ref sig .tc := ⟨.hbm, 332, rfl⟩
abbrev main_cst_30 : Ref sig .tc := ⟨.hbm, 333, rfl⟩
abbrev main_v225 : Ref sig .tc := ⟨.hbm, 334, rfl⟩
abbrev main_v226 : Ref sig .tc := ⟨.hbm, 335, rfl⟩
abbrev main_c_31 : Ref sig .tc := ⟨.hbm, 336, rfl⟩
abbrev main_call4_cst : Ref sig .tc := ⟨.hbm, 337, rfl⟩
abbrev main_call4_v0 : Ref sig .tc := ⟨.hbm, 338, rfl⟩
abbrev main_call4_v1 : Ref sig .tc := ⟨.hbm, 339, rfl⟩
abbrev main_call4_cst_0 : Ref sig .tc := ⟨.hbm, 340, rfl⟩
abbrev main_call4_v2 : Ref sig .tc := ⟨.hbm, 341, rfl⟩
abbrev main_call4_v3 : Ref sig .tc := ⟨.hbm, 342, rfl⟩
abbrev main_call4_v4 : Ref sig .tc := ⟨.hbm, 343, rfl⟩
abbrev main_call4_v5 : Ref sig .tc := ⟨.hbm, 344, rfl⟩
abbrev main_call4_v6 : Ref sig .tc := ⟨.hbm, 345, rfl⟩
abbrev main_call4_v7 : Ref sig .tc := ⟨.hbm, 346, rfl⟩
abbrev main_call4_cst_1 : Ref sig .tc := ⟨.hbm, 347, rfl⟩
abbrev main_call4_v8 : Ref sig .tc := ⟨.hbm, 348, rfl⟩
abbrev main_call4_cst_2 : Ref sig .tc := ⟨.hbm, 349, rfl⟩
abbrev main_call4_v9 : Ref sig .tc := ⟨.hbm, 350, rfl⟩
abbrev main_call4_v10 : Ref sig .tc := ⟨.hbm, 351, rfl⟩
abbrev main_call4_v11 : Ref sig .tc := ⟨.hbm, 352, rfl⟩
abbrev main_call4_cst_3 : Ref sig .tc := ⟨.hbm, 353, rfl⟩
abbrev main_call4_v12 : Ref sig .tc := ⟨.hbm, 354, rfl⟩
abbrev main_call4_cst_4 : Ref sig .tc := ⟨.hbm, 355, rfl⟩
abbrev main_call4_call0_v0 : Ref sig .tc := ⟨.hbm, 356, rfl⟩
abbrev main_call4_call0_v1 : Ref sig .tc := ⟨.hbm, 357, rfl⟩
abbrev main_v227 : Ref sig .tc := ⟨.hbm, 358, rfl⟩
abbrev main_v228 : Ref sig .tc := ⟨.hbm, 359, rfl⟩
abbrev main_v229 : Ref sig .tc := ⟨.hbm, 360, rfl⟩
abbrev main_v230 : Ref sig .tc := ⟨.hbm, 361, rfl⟩
abbrev main_cst_32 : Ref sig .tc := ⟨.hbm, 362, rfl⟩
abbrev main_v231 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_v235 : Ref sig .tc := ⟨.hbm, 367, rfl⟩
abbrev main_v236 : Ref sig .tc := ⟨.hbm, 368, rfl⟩
abbrev main_v237 : Ref sig .tc := ⟨.hbm, 369, rfl⟩
abbrev main_v238 : Ref sig .tc := ⟨.hbm, 370, rfl⟩
abbrev main_v239 : Ref sig .tc := ⟨.hbm, 371, rfl⟩
abbrev main_v240 : Ref sig .tc := ⟨.hbm, 372, rfl⟩
abbrev main_v241 : Ref sig .tc := ⟨.hbm, 373, rfl⟩
abbrev main_v242 : Ref sig .tc := ⟨.hbm, 374, rfl⟩
abbrev main_call5_cst : Ref sig .tc := ⟨.hbm, 375, rfl⟩
abbrev main_call5_v0 : Ref sig .tc := ⟨.hbm, 376, rfl⟩
abbrev main_v243 : Ref sig .tc := ⟨.hbm, 377, rfl⟩
abbrev main_v244 : Ref sig .tc := ⟨.hbm, 378, rfl⟩
abbrev main_v245 : Ref sig .tc := ⟨.hbm, 379, rfl⟩
abbrev main_v246 : Ref sig .tc := ⟨.hbm, 380, rfl⟩
abbrev main_v247 : Ref sig .tc := ⟨.hbm, 381, rfl⟩
abbrev main_v248 : Ref sig .tc := ⟨.hbm, 382, rfl⟩
abbrev main_cst_33 : Ref sig .tc := ⟨.hbm, 383, rfl⟩
abbrev main_v249 : Ref sig .tc := ⟨.hbm, 384, rfl⟩
abbrev main_cst_34 : Ref sig .tc := ⟨.hbm, 385, rfl⟩
abbrev main_v250 : Ref sig .tc := ⟨.hbm, 386, rfl⟩
abbrev main_v251 : Ref sig .tc := ⟨.hbm, 387, rfl⟩
abbrev main_c_35 : Ref sig .tc := ⟨.hbm, 388, rfl⟩
abbrev main_call6_cst : Ref sig .tc := ⟨.hbm, 389, rfl⟩
abbrev main_call6_v0 : Ref sig .tc := ⟨.hbm, 390, rfl⟩
abbrev main_call6_v1 : Ref sig .tc := ⟨.hbm, 391, rfl⟩
abbrev main_call6_cst_0 : Ref sig .tc := ⟨.hbm, 392, rfl⟩
abbrev main_call6_v2 : Ref sig .tc := ⟨.hbm, 393, rfl⟩
abbrev main_call6_v3 : Ref sig .tc := ⟨.hbm, 394, rfl⟩
abbrev main_call6_v4 : Ref sig .tc := ⟨.hbm, 395, rfl⟩
abbrev main_call6_v5 : Ref sig .tc := ⟨.hbm, 396, rfl⟩
abbrev main_call6_v6 : Ref sig .tc := ⟨.hbm, 397, rfl⟩
abbrev main_call6_v7 : Ref sig .tc := ⟨.hbm, 398, rfl⟩
abbrev main_call6_cst_1 : Ref sig .tc := ⟨.hbm, 399, rfl⟩
abbrev main_call6_v8 : Ref sig .tc := ⟨.hbm, 400, rfl⟩
abbrev main_call6_cst_2 : Ref sig .tc := ⟨.hbm, 401, rfl⟩
abbrev main_call6_v9 : Ref sig .tc := ⟨.hbm, 402, rfl⟩
abbrev main_call6_v10 : Ref sig .tc := ⟨.hbm, 403, rfl⟩
abbrev main_call6_v11 : Ref sig .tc := ⟨.hbm, 404, rfl⟩
abbrev main_call6_cst_3 : Ref sig .tc := ⟨.hbm, 405, rfl⟩
abbrev main_call6_v12 : Ref sig .tc := ⟨.hbm, 406, rfl⟩
abbrev main_call6_cst_4 : Ref sig .tc := ⟨.hbm, 407, rfl⟩
abbrev main_call6_call0_v0 : Ref sig .tc := ⟨.hbm, 408, rfl⟩
abbrev main_call6_call0_v1 : Ref sig .tc := ⟨.hbm, 409, rfl⟩
abbrev main_v252 : Ref sig .tc := ⟨.hbm, 410, rfl⟩
abbrev main_v253 : Ref sig .tc := ⟨.hbm, 411, rfl⟩
abbrev main_v254 : Ref sig .tc := ⟨.hbm, 412, rfl⟩
abbrev main_v255 : Ref sig .tc := ⟨.hbm, 413, rfl⟩
abbrev main_cst_36 : Ref sig .tc := ⟨.hbm, 414, rfl⟩
abbrev main_v256 : Ref sig .tc := ⟨.hbm, 415, rfl⟩
abbrev main_v257 : Ref sig .tc := ⟨.hbm, 416, rfl⟩
abbrev main_v258 : Ref sig .tc := ⟨.hbm, 417, rfl⟩
abbrev main_v259 : Ref sig .tc := ⟨.hbm, 418, rfl⟩
abbrev main_v260 : Ref sig .tc := ⟨.hbm, 419, rfl⟩
abbrev main_v261 : Ref sig .tc := ⟨.hbm, 420, rfl⟩
abbrev main_v262 : Ref sig .tc := ⟨.hbm, 421, rfl⟩
abbrev main_v263 : Ref sig .tc := ⟨.hbm, 422, rfl⟩
abbrev main_v264 : Ref sig .tc := ⟨.hbm, 423, rfl⟩
abbrev main_v265 : Ref sig .tc := ⟨.hbm, 424, rfl⟩
abbrev main_v266 : Ref sig .tc := ⟨.hbm, 425, rfl⟩
abbrev main_v267 : Ref sig .tc := ⟨.hbm, 426, rfl⟩
abbrev main_call7_cst : Ref sig .tc := ⟨.hbm, 427, rfl⟩
abbrev main_call7_v0 : Ref sig .tc := ⟨.hbm, 428, rfl⟩
abbrev main_v268 : Ref sig .tc := ⟨.hbm, 429, rfl⟩
abbrev main_v269 : Ref sig .tc := ⟨.hbm, 430, rfl⟩
abbrev main_v270 : Ref sig .tc := ⟨.hbm, 431, rfl⟩
abbrev main_v271 : Ref sig .tc := ⟨.hbm, 432, rfl⟩
abbrev main_v272 : Ref sig .tc := ⟨.hbm, 433, rfl⟩
abbrev main_v273 : Ref sig .tc := ⟨.hbm, 434, rfl⟩
abbrev main_v274 : Ref sig .tc := ⟨.hbm, 435, rfl⟩
abbrev main_v275 : Ref sig .tc := ⟨.hbm, 436, rfl⟩
abbrev main_v276 : Ref sig .tc := ⟨.hbm, 437, rfl⟩
abbrev main_v277 : Ref sig .tc := ⟨.hbm, 438, rfl⟩
abbrev main_v278 : Ref sig .tc := ⟨.hbm, 439, rfl⟩
abbrev main_v279 : Ref sig .tc := ⟨.hbm, 440, rfl⟩
abbrev main_v280 : Ref sig .tc := ⟨.hbm, 441, rfl⟩
abbrev main_v281 : Ref sig .tc := ⟨.hbm, 442, rfl⟩
abbrev main_v282 : Ref sig .tc := ⟨.hbm, 443, rfl⟩
abbrev main_v283 : Ref sig .tc := ⟨.hbm, 444, rfl⟩
abbrev main_v284 : Ref sig .tc := ⟨.hbm, 445, rfl⟩
abbrev main_v285 : Ref sig .tc := ⟨.hbm, 446, rfl⟩
abbrev main_v286 : Ref sig .tc := ⟨.hbm, 447, rfl⟩
abbrev main_v287 : Ref sig .tc := ⟨.hbm, 448, rfl⟩
abbrev main_v288 : Ref sig .tc := ⟨.hbm, 449, rfl⟩
abbrev main_v289 : Ref sig .tc := ⟨.hbm, 450, rfl⟩
abbrev main_v290 : Ref sig .tc := ⟨.hbm, 451, rfl⟩
abbrev main_v291 : Ref sig .tc := ⟨.hbm, 452, rfl⟩
abbrev main_v292 : Ref sig .tc := ⟨.hbm, 453, rfl⟩
abbrev main_v293 : Ref sig .tc := ⟨.hbm, 454, rfl⟩
abbrev main_v294 : Ref sig .tc := ⟨.hbm, 455, rfl⟩
abbrev main_v295 : Ref sig .tc := ⟨.hbm, 456, rfl⟩
abbrev main_v296 : Ref sig .tc := ⟨.hbm, 457, rfl⟩
abbrev main_v297 : Ref sig .tc := ⟨.hbm, 458, rfl⟩
abbrev main_v298 : Ref sig .tc := ⟨.hbm, 459, rfl⟩
abbrev main_v299 : Ref sig .tc := ⟨.hbm, 460, rfl⟩
abbrev main_v300 : Ref sig .tc := ⟨.hbm, 461, rfl⟩
abbrev main_v301 : Ref sig .tc := ⟨.hbm, 462, rfl⟩
abbrev main_v302 : Ref sig .tc := ⟨.hbm, 463, rfl⟩
abbrev main_v303 : Ref sig .tc := ⟨.hbm, 464, rfl⟩
abbrev main_v304 : Ref sig .tc := ⟨.hbm, 465, rfl⟩
abbrev main_v305 : Ref sig .tc := ⟨.hbm, 466, rfl⟩
abbrev main_v306 : Ref sig .tc := ⟨.hbm, 467, rfl⟩
abbrev main_v307 : Ref sig .tc := ⟨.hbm, 468, rfl⟩
abbrev main_v308 : Ref sig .tc := ⟨.hbm, 469, rfl⟩
abbrev main_v309 : Ref sig .tc := ⟨.hbm, 470, rfl⟩
abbrev main_c_37 : Ref sig .tc := ⟨.hbm, 471, rfl⟩
abbrev main_v310 : Ref sig .tc := ⟨.hbm, 472, rfl⟩
abbrev main_v311 : Ref sig .tc := ⟨.hbm, 473, rfl⟩
abbrev main_c_38 : Ref sig .tc := ⟨.hbm, 474, rfl⟩
abbrev main_v312 : Ref sig .tc := ⟨.hbm, 475, rfl⟩
abbrev main_v313 : Ref sig .tc := ⟨.hbm, 476, rfl⟩
abbrev main_v314 : Ref sig .tc := ⟨.hbm, 477, rfl⟩
abbrev main_v315 : Ref sig .tc := ⟨.hbm, 478, rfl⟩
abbrev main_v316 : Ref sig .tc := ⟨.hbm, 479, rfl⟩
abbrev main_c_39 : Ref sig .tc := ⟨.hbm, 480, rfl⟩
abbrev main_v317 : Ref sig .tc := ⟨.hbm, 481, rfl⟩
abbrev main_v318 : Ref sig .tc := ⟨.hbm, 482, rfl⟩
abbrev main_c_40 : Ref sig .tc := ⟨.hbm, 483, rfl⟩
abbrev main_v319 : Ref sig .tc := ⟨.hbm, 484, rfl⟩
abbrev main_v320 : Ref sig .tc := ⟨.hbm, 485, rfl⟩
abbrev main_v321 : Ref sig .tc := ⟨.hbm, 486, rfl⟩
abbrev main_v322 : Ref sig .tc := ⟨.hbm, 487, rfl⟩
abbrev main_v323 : Ref sig .tc := ⟨.hbm, 488, rfl⟩
abbrev main_v324 : Ref sig .tc := ⟨.hbm, 489, rfl⟩
abbrev main_v325 : Ref sig .tc := ⟨.hbm, 490, rfl⟩
abbrev main_v326 : Ref sig .tc := ⟨.hbm, 491, rfl⟩
abbrev main_v327 : Ref sig .tc := ⟨.hbm, 492, rfl⟩
abbrev main_cst_41 : Ref sig .tc := ⟨.hbm, 493, rfl⟩
abbrev main_v328 : Ref sig .tc := ⟨.hbm, 494, rfl⟩
abbrev main_v329 : Ref sig .tc := ⟨.hbm, 495, rfl⟩
abbrev main_cst_42 : Ref sig .tc := ⟨.hbm, 496, rfl⟩
abbrev main_v330 : Ref sig .tc := ⟨.hbm, 497, rfl⟩
abbrev main_v331 : Ref sig .tc := ⟨.hbm, 498, rfl⟩
abbrev main_c_43 : Ref sig .tc := ⟨.hbm, 499, rfl⟩
abbrev main_v332 : Ref sig .tc := ⟨.hbm, 500, rfl⟩
abbrev main_v333 : Ref sig .tc := ⟨.hbm, 501, rfl⟩
abbrev main_c_44 : Ref sig .tc := ⟨.hbm, 502, rfl⟩
abbrev main_v334 : Ref sig .tc := ⟨.hbm, 503, rfl⟩
abbrev main_v335 : Ref sig .tc := ⟨.hbm, 504, rfl⟩
abbrev main_v336 : Ref sig .tc := ⟨.hbm, 505, rfl⟩
abbrev main_v337 : Ref sig .tc := ⟨.hbm, 506, rfl⟩
abbrev main_v338 : Ref sig .tc := ⟨.hbm, 507, rfl⟩
abbrev main_v339 : Ref sig .tc := ⟨.hbm, 508, rfl⟩
abbrev main_cst_45 : Ref sig .tc := ⟨.hbm, 509, rfl⟩
abbrev main_v340 : Ref sig .tc := ⟨.hbm, 510, rfl⟩
abbrev main_v341 : Ref sig .tc := ⟨.hbm, 511, rfl⟩
abbrev main_v342 : Ref sig .tc := ⟨.hbm, 512, rfl⟩
abbrev main_cst_46 : Ref sig .tc := ⟨.hbm, 513, rfl⟩
abbrev main_v343 : Ref sig .tc := ⟨.hbm, 514, rfl⟩
abbrev main_v344 : Ref sig .tc := ⟨.hbm, 515, rfl⟩
abbrev main_v345 : Ref sig .tc := ⟨.hbm, 516, rfl⟩
abbrev main_cst_47 : Ref sig .tc := ⟨.hbm, 517, rfl⟩
abbrev main_v346 : Ref sig .tc := ⟨.hbm, 518, rfl⟩
abbrev main_v347 : Ref sig .tc := ⟨.hbm, 519, rfl⟩
abbrev main_v348 : Ref sig .tc := ⟨.hbm, 520, rfl⟩
abbrev main_v349 : Ref sig .tc := ⟨.hbm, 521, rfl⟩
abbrev main_v350 : Ref sig .tc := ⟨.hbm, 522, rfl⟩
abbrev main_v351 : Ref sig .tc := ⟨.hbm, 523, rfl⟩
abbrev main_v352 : Ref sig .tc := ⟨.hbm, 524, rfl⟩
abbrev main_v353 : Ref sig .tc := ⟨.hbm, 525, rfl⟩
abbrev main_cst_48 : Ref sig .tc := ⟨.hbm, 526, rfl⟩
abbrev main_v354 : Ref sig .tc := ⟨.hbm, 527, rfl⟩
abbrev main_cst_49 : Ref sig .tc := ⟨.hbm, 528, rfl⟩
abbrev main_v355 : Ref sig .tc := ⟨.hbm, 529, rfl⟩
abbrev main_v356 : Ref sig .tc := ⟨.hbm, 530, rfl⟩
abbrev main_c_50 : Ref sig .tc := ⟨.hbm, 531, rfl⟩
abbrev main_call8_cst : Ref sig .tc := ⟨.hbm, 532, rfl⟩
abbrev main_call8_v0 : Ref sig .tc := ⟨.hbm, 533, rfl⟩
abbrev main_call8_v1 : Ref sig .tc := ⟨.hbm, 534, rfl⟩
abbrev main_call8_cst_0 : Ref sig .tc := ⟨.hbm, 535, rfl⟩
abbrev main_call8_v2 : Ref sig .tc := ⟨.hbm, 536, rfl⟩
abbrev main_call8_v3 : Ref sig .tc := ⟨.hbm, 537, rfl⟩
abbrev main_call8_v4 : Ref sig .tc := ⟨.hbm, 538, rfl⟩
abbrev main_call8_v5 : Ref sig .tc := ⟨.hbm, 539, rfl⟩
abbrev main_call8_v6 : Ref sig .tc := ⟨.hbm, 540, rfl⟩
abbrev main_call8_v7 : Ref sig .tc := ⟨.hbm, 541, rfl⟩
abbrev main_call8_cst_1 : Ref sig .tc := ⟨.hbm, 542, rfl⟩
abbrev main_call8_v8 : Ref sig .tc := ⟨.hbm, 543, rfl⟩
abbrev main_call8_cst_2 : Ref sig .tc := ⟨.hbm, 544, rfl⟩
abbrev main_call8_v9 : Ref sig .tc := ⟨.hbm, 545, rfl⟩
abbrev main_call8_v10 : Ref sig .tc := ⟨.hbm, 546, rfl⟩
abbrev main_call8_v11 : Ref sig .tc := ⟨.hbm, 547, rfl⟩
abbrev main_call8_cst_3 : Ref sig .tc := ⟨.hbm, 548, rfl⟩
abbrev main_call8_v12 : Ref sig .tc := ⟨.hbm, 549, rfl⟩
abbrev main_call8_cst_4 : Ref sig .tc := ⟨.hbm, 550, rfl⟩
abbrev main_call8_call0_v0 : Ref sig .tc := ⟨.hbm, 551, rfl⟩
abbrev main_call8_call0_v1 : Ref sig .tc := ⟨.hbm, 552, rfl⟩
abbrev main_v357 : Ref sig .tc := ⟨.hbm, 553, rfl⟩
abbrev main_v358 : Ref sig .tc := ⟨.hbm, 554, rfl⟩
abbrev main_v359 : Ref sig .tc := ⟨.hbm, 555, rfl⟩
abbrev main_v360 : Ref sig .tc := ⟨.hbm, 556, rfl⟩
abbrev main_cst_51 : Ref sig .tc := ⟨.hbm, 557, rfl⟩
abbrev main_v361 : Ref sig .tc := ⟨.hbm, 558, rfl⟩
abbrev main_v362 : Ref sig .tc := ⟨.hbm, 559, rfl⟩
abbrev main_v363 : Ref sig .tc := ⟨.hbm, 560, rfl⟩
abbrev main_v364 : Ref sig .tc := ⟨.hbm, 561, rfl⟩
abbrev main_v365 : Ref sig .tc := ⟨.hbm, 562, rfl⟩
abbrev main_v366 : Ref sig .tc := ⟨.hbm, 563, rfl⟩
abbrev main_v367 : Ref sig .tc := ⟨.hbm, 564, rfl⟩
abbrev main_v368 : Ref sig .tc := ⟨.hbm, 565, rfl⟩
abbrev main_v369 : Ref sig .tc := ⟨.hbm, 566, rfl⟩
abbrev main_v370 : Ref sig .tc := ⟨.hbm, 567, rfl⟩
abbrev main_v371 : Ref sig .tc := ⟨.hbm, 568, rfl⟩
abbrev main_v372 : Ref sig .tc := ⟨.hbm, 569, rfl⟩
abbrev main_call9_cst : Ref sig .tc := ⟨.hbm, 570, rfl⟩
abbrev main_call9_v0 : Ref sig .tc := ⟨.hbm, 571, rfl⟩
abbrev main_v373 : Ref sig .tc := ⟨.hbm, 572, rfl⟩
abbrev main_v374 : Ref sig .tc := ⟨.hbm, 573, rfl⟩
abbrev main_v375 : Ref sig .tc := ⟨.hbm, 574, rfl⟩
abbrev main_v376 : Ref sig .tc := ⟨.hbm, 575, rfl⟩
abbrev main_v377 : Ref sig .tc := ⟨.hbm, 576, rfl⟩
abbrev main_v378 : Ref sig .tc := ⟨.hbm, 577, rfl⟩
abbrev main_cst_52 : Ref sig .tc := ⟨.hbm, 578, rfl⟩
abbrev main_v379 : Ref sig .tc := ⟨.hbm, 579, rfl⟩
abbrev main_cst_53 : Ref sig .tc := ⟨.hbm, 580, rfl⟩
abbrev main_v380 : Ref sig .tc := ⟨.hbm, 581, rfl⟩
abbrev main_v381 : Ref sig .tc := ⟨.hbm, 582, rfl⟩
abbrev main_c_54 : Ref sig .tc := ⟨.hbm, 583, rfl⟩
abbrev main_call10_cst : Ref sig .tc := ⟨.hbm, 584, rfl⟩
abbrev main_call10_v0 : Ref sig .tc := ⟨.hbm, 585, rfl⟩
abbrev main_call10_v1 : Ref sig .tc := ⟨.hbm, 586, rfl⟩
abbrev main_call10_cst_0 : Ref sig .tc := ⟨.hbm, 587, rfl⟩
abbrev main_call10_v2 : Ref sig .tc := ⟨.hbm, 588, rfl⟩
abbrev main_call10_v3 : Ref sig .tc := ⟨.hbm, 589, rfl⟩
abbrev main_call10_v4 : Ref sig .tc := ⟨.hbm, 590, rfl⟩
abbrev main_call10_v5 : Ref sig .tc := ⟨.hbm, 591, rfl⟩
abbrev main_call10_v6 : Ref sig .tc := ⟨.hbm, 592, rfl⟩
abbrev main_call10_v7 : Ref sig .tc := ⟨.hbm, 593, rfl⟩
abbrev main_call10_cst_1 : Ref sig .tc := ⟨.hbm, 594, rfl⟩
abbrev main_call10_v8 : Ref sig .tc := ⟨.hbm, 595, rfl⟩
abbrev main_call10_cst_2 : Ref sig .tc := ⟨.hbm, 596, rfl⟩
abbrev main_call10_v9 : Ref sig .tc := ⟨.hbm, 597, rfl⟩
abbrev main_call10_v10 : Ref sig .tc := ⟨.hbm, 598, rfl⟩
abbrev main_call10_v11 : Ref sig .tc := ⟨.hbm, 599, rfl⟩
abbrev main_call10_cst_3 : Ref sig .tc := ⟨.hbm, 600, rfl⟩
abbrev main_call10_v12 : Ref sig .tc := ⟨.hbm, 601, rfl⟩
abbrev main_call10_cst_4 : Ref sig .tc := ⟨.hbm, 602, rfl⟩
abbrev main_call10_call0_v0 : Ref sig .tc := ⟨.hbm, 603, rfl⟩
abbrev main_call10_call0_v1 : Ref sig .tc := ⟨.hbm, 604, rfl⟩
abbrev main_v382 : Ref sig .tc := ⟨.hbm, 605, rfl⟩
abbrev main_v383 : Ref sig .tc := ⟨.hbm, 606, rfl⟩
abbrev main_v384 : Ref sig .tc := ⟨.hbm, 607, rfl⟩
abbrev main_v385 : Ref sig .tc := ⟨.hbm, 608, rfl⟩
abbrev main_cst_55 : Ref sig .tc := ⟨.hbm, 609, rfl⟩
abbrev main_v386 : Ref sig .tc := ⟨.hbm, 610, rfl⟩
abbrev main_v387 : Ref sig .tc := ⟨.hbm, 611, rfl⟩
abbrev main_v388 : Ref sig .tc := ⟨.hbm, 612, rfl⟩
abbrev main_v389 : Ref sig .tc := ⟨.hbm, 613, rfl⟩
abbrev main_v390 : Ref sig .tc := ⟨.hbm, 614, rfl⟩
abbrev main_v391 : Ref sig .tc := ⟨.hbm, 615, rfl⟩
abbrev main_v392 : Ref sig .tc := ⟨.hbm, 616, rfl⟩
abbrev main_v393 : Ref sig .tc := ⟨.hbm, 617, rfl⟩
abbrev main_v394 : Ref sig .tc := ⟨.hbm, 618, rfl⟩
abbrev main_v395 : Ref sig .tc := ⟨.hbm, 619, rfl⟩
abbrev main_v396 : Ref sig .tc := ⟨.hbm, 620, rfl⟩
abbrev main_v397 : Ref sig .tc := ⟨.hbm, 621, rfl⟩
abbrev main_call11_cst : Ref sig .tc := ⟨.hbm, 622, rfl⟩
abbrev main_call11_v0 : Ref sig .tc := ⟨.hbm, 623, rfl⟩
abbrev main_v398 : Ref sig .tc := ⟨.hbm, 624, rfl⟩
abbrev main_v399 : Ref sig .tc := ⟨.hbm, 625, rfl⟩
abbrev main_cst_56 : Ref sig .tc := ⟨.hbm, 626, rfl⟩
abbrev main_v400 : Ref sig .tc := ⟨.hbm, 627, rfl⟩
abbrev main_cst_57 : Ref sig .tc := ⟨.hbm, 628, rfl⟩
abbrev main_v401 : Ref sig .tc := ⟨.hbm, 629, rfl⟩
abbrev main_v402 : Ref sig .tc := ⟨.hbm, 630, rfl⟩
abbrev main_v403 : Ref sig .tc := ⟨.hbm, 631, rfl⟩
abbrev main_cst_58 : Ref sig .tc := ⟨.hbm, 632, rfl⟩
abbrev main_v404 : Ref sig .tc := ⟨.hbm, 633, rfl⟩
abbrev main_v405 : Ref sig .tc := ⟨.hbm, 634, rfl⟩
abbrev main_v406 : Ref sig .tc := ⟨.hbm, 635, rfl⟩
abbrev main_v407 : Ref sig .tc := ⟨.hbm, 636, rfl⟩
abbrev main_v408 : Ref sig .tc := ⟨.hbm, 637, rfl⟩
abbrev main_v409 : Ref sig .tc := ⟨.hbm, 638, rfl⟩
abbrev main_v410 : Ref sig .tc := ⟨.hbm, 639, rfl⟩
abbrev main_v411 : Ref sig .tc := ⟨.hbm, 640, rfl⟩
abbrev main_v412 : Ref sig .tc := ⟨.hbm, 641, rfl⟩
abbrev main_v413 : Ref sig .tc := ⟨.hbm, 642, rfl⟩
abbrev main_v414 : Ref sig .tc := ⟨.hbm, 643, rfl⟩
abbrev main_call12_cst : Ref sig .tc := ⟨.hbm, 644, rfl⟩
abbrev main_call12_v0 : Ref sig .tc := ⟨.hbm, 645, rfl⟩
abbrev main_v415 : Ref sig .tc := ⟨.hbm, 646, rfl⟩
abbrev main_v416 : Ref sig .tc := ⟨.hbm, 647, rfl⟩
abbrev main_v417 : Ref sig .tc := ⟨.hbm, 648, rfl⟩
abbrev main_v418 : Ref sig .tc := ⟨.hbm, 649, rfl⟩
abbrev main_v419 : Ref sig .tc := ⟨.hbm, 650, rfl⟩
abbrev main_call13_cst : Ref sig .tc := ⟨.hbm, 651, rfl⟩
abbrev main_call13_v0 : Ref sig .tc := ⟨.hbm, 652, rfl⟩
abbrev main_v420 : Ref sig .tc := ⟨.hbm, 653, rfl⟩
abbrev main_v421 : Ref sig .tc := ⟨.hbm, 654, rfl⟩
abbrev main_v422 : Ref sig .tc := ⟨.hbm, 655, rfl⟩
abbrev main_v423 : Ref sig .tc := ⟨.hbm, 656, rfl⟩
abbrev main_v424 : Ref sig .tc := ⟨.hbm, 657, rfl⟩
abbrev main_v425 : Ref sig .tc := ⟨.hbm, 658, rfl⟩
abbrev main_cst_59 : Ref sig .tc := ⟨.hbm, 659, rfl⟩
abbrev main_v426 : Ref sig .tc := ⟨.hbm, 660, rfl⟩
abbrev main_v427 : Ref sig .tc := ⟨.hbm, 661, rfl⟩

abbrev nD : Nat := 1
abbrev τ : Topo := Topo.v7x

variable {F : FTy → Type} [FloatOps F]

class Facts₀ : Prop where
  bcast_S_S400000x2 : S_.BroadcastsInDim S400000x2 (![] : Fin 0 → Fin S400000x2.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S400000x64_0_1 : S1x64.BroadcastsInDim S400000x64 (![0, 1] : Fin 2 → Fin S400000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S400000 : S_.BroadcastsInDim S400000 (![] : Fin 0 → Fin S400000.rank)
  bcast_S400000_S400000x1_0 : S400000.BroadcastsInDim S400000x1 (![0] : Fin 1 → Fin S400000x1.rank)
  bcast_S_S400000x64 : S_.BroadcastsInDim S400000x64 (![] : Fin 0 → Fin S400000x64.rank)
  bcast_S_S50000x64 : S_.BroadcastsInDim S50000x64 (![] : Fin 0 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  reducesTo_S400000x64_S64_d0 : S400000x64.ReducesTo [0] S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S50000 : S_.BroadcastsInDim S50000 (![] : Fin 0 → Fin S50000.rank)
  bcast_S_S16 : S_.BroadcastsInDim S16 (![] : Fin 0 → Fin S16.rank)
  bcast_S50000_S50000x1_0 : S50000.BroadcastsInDim S50000x1 (![0] : Fin 1 → Fin S50000x1.rank)
  bcast_S_S16x64 : S_.BroadcastsInDim S16x64 (![] : Fin 0 → Fin S16x64.rank)
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  concatenates_S16x64_S16x4_S16x68_d1 : Shape.Concatenates [S16x64, S16x4] S16x68 1
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  bcast_S2_S1x2_1 : S2.BroadcastsInDim S1x2 (![1] : Fin 1 → Fin S1x2.rank)
  bcast_S1x2_S16x2_0_1 : S1x2.BroadcastsInDim S16x2 (![0, 1] : Fin 2 → Fin S16x2.rank)
  bcast_S_S16x2 : S_.BroadcastsInDim S16x2 (![] : Fin 0 → Fin S16x2.rank)
  dot_S50000x6_S6x64_S50000x64_1_0_0_1_n_n_wf : DotDims.WF S50000x6 S6x64 S50000x64 [1] [0] [0] [1] [] []
  dot_S400000x2_S2x64_S400000x64_1_0_0_1_n_n_wf : DotDims.WF S400000x2 S2x64 S400000x64 [1] [0] [0] [1] [] []
  dot_S50000x64_S64x64_S50000x64_1_0_0_1_n_n_wf : DotDims.WF S50000x64 S64x64 S50000x64 [1] [0] [0] [1] [] []
  dot_S400000x64_S64x64_S400000x64_1_0_0_1_n_n_wf : DotDims.WF S400000x64 S64x64 S400000x64 [1] [0] [0] [1] [] []
  gather_S50000x64_S400000x1_S400000x64_1_0_n_n_0_1_164_wf : GatherDims.WF S50000x64 S400000x1 S400000x64 [1] [0] [] [0] [] 1 ![1, 64]
  scatter_S50000x64_S400000x1_S400000x64_1_0_0_1_wf : ScatterDims.WF S50000x64 S400000x1 S400000x64 [1] [0] [0] 1
  scatter_S16_S50000x1_S50000_n_0_0_1_wf : ScatterDims.WF S16 S50000x1 S50000 [] [0] [0] 1
  scatter_S16x64_S50000x1_S50000x64_1_0_0_1_wf : ScatterDims.WF S16x64 S50000x1 S50000x64 [1] [0] [0] 1
  dot_S16x68_S68x256_S16x256_1_0_0_1_n_n_wf : DotDims.WF S16x68 S68x256 S16x256 [1] [0] [0] [1] [] []
  dot_S16x256_S256x256_S16x256_1_0_0_1_n_n_wf : DotDims.WF S16x256 S256x256 S16x256 [1] [0] [0] [1] [] []
  dot_S16x256_S256x2_S16x2_1_0_0_1_n_n_wf : DotDims.WF S16x256 S256x2 S16x2 [1] [0] [0] [1] [] []

variable [Facts₀]

def dot_S50000x6_S6x64_S50000x64_1_0_0_1_n_n : DotDims S50000x6 S6x64 S50000x64 where
  lhsContracting := [1]
  rhsContracting := [0]
  lhsNonContracting := [0]
  rhsNonContracting := [1]
  lhsBatch := []
  rhsBatch := []
  wf := dot_S50000x6_S6x64_S50000x64_1_0_0_1_n_n_wf
def dot_S400000x2_S2x64_S400000x64_1_0_0_1_n_n : DotDims S400000x2 S2x64 S400000x64 where
  lhsContracting := [1]
  rhsContracting := [0]
  lhsNonContracting := [0]
  rhsNonContracting := [1]
  lhsBatch := []
  rhsBatch := []
  wf := dot_S400000x2_S2x64_S400000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S400000x64_S64x64_S400000x64_1_0_0_1_n_n : DotDims S400000x64 S64x64 S400000x64 where
  lhsContracting := [1]
  rhsContracting := [0]
  lhsNonContracting := [0]
  rhsNonContracting := [1]
  lhsBatch := []
  rhsBatch := []
  wf := dot_S400000x64_S64x64_S400000x64_1_0_0_1_n_n_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def scatter_S16_S50000x1_S50000_n_0_0_1 : ScatterDims S16 S50000x1 S50000 where
  updateWindowDims := []
  insertedWindowDims := [0]
  scatterDimsToOperandDims := [0]
  indexVectorDim := 1
  wf := scatter_S16_S50000x1_S50000_n_0_0_1_wf
def scatter_S16x64_S50000x1_S50000x64_1_0_0_1 : ScatterDims S16x64 S50000x1 S50000x64 where
  updateWindowDims := [1]
  insertedWindowDims := [0]
  scatterDimsToOperandDims := [0]
  indexVectorDim := 1
  wf := scatter_S16x64_S50000x1_S50000x64_1_0_0_1_wf
def dot_S16x68_S68x256_S16x256_1_0_0_1_n_n : DotDims S16x68 S68x256 S16x256 where
  lhsContracting := [1]
  rhsContracting := [0]
  lhsNonContracting := [0]
  rhsNonContracting := [1]
  lhsBatch := []
  rhsBatch := []
  wf := dot_S16x68_S68x256_S16x256_1_0_0_1_n_n_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S16x256_S256x2_S16x2_1_0_0_1_n_n : DotDims S16x256 S256x2 S16x2 where
  lhsContracting := [1]
  rhsContracting := [0]
  lhsNonContracting := [0]
  rhsNonContracting := [1]
  lhsBatch := []
  rhsBatch := []
  wf := dot_S16x256_S256x2_S16x2_1_0_0_1_n_n_wf

class Facts : Prop extends Facts₀ where

variable [Facts]
-- ==== Proof.K.Reg0.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 0 (cc0__linear_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in output window 3's buffer: its one store, over the input blocks. -/
def out0_3 (x0 : Vec F S5000x6 .f32) (x1 : Vec F S6x64 .f32) (x2 : Vec F S1x64 .f32) : Vec F S5000x64 .f32 :=
  View.canon [⟨Rect.unit (s := S5000x64) ![0, 0] S5000x64.size inb_S5000x64_S5000x64_0_0, k0_pay1 (View.ld x0 (Rect.unit (s := S5000x6) ![0, 0] S5000x6.size inb_S5000x6_S5000x6_0_0)) (View.ld x1 (Rect.unit (s := S6x64) ![0, 0] S6x64.size inb_S6x64_S6x64_0_0)) (View.ld x2 (Rect.unit (s := S1x64) ![0, 0] S1x64.size inb_S1x64_S1x64_0_0))⟩]

theorem cover0_3 (p0 : Vec F S5000x64 .f32) (y : S5000x64.Idx) :
    ∃ pc ∈ ([⟨Rect.unit (s := S5000x64) ![0, 0] S5000x64.size inb_S5000x64_S5000x64_0_0, p0⟩] : List (View.Piece (Elt F) S5000x64 .f32)), y ∈ pc.1.set :=
  View.cover_of_tiled [⟨Rect.unit (s := S5000x64) ![0, 0] S5000x64.size inb_S5000x64_S5000x64_0_0, p0⟩] S5000x64.size (by rfl) y

set_option maxHeartbeats 4000000 in
/-- The body on whole staging memrefs, the inputs' at read contents and the outputs' at anything, runs to the
    continuation holding the inputs' as they were and each output's at its function of the inputs'. -/
theorem sound_kernel0 (c : Dev nD) (E : Set ℕ) (i : grid0.Coords) (arg0 : Memref sig .tc .vmem S5000x6 .f32) (harg0 : arg0.IsWhole) (arg1 : Memref sig .tc .vmem S6x64 .f32) (harg1 : arg1.IsWhole) (arg2 : Memref sig .tc .vmem S1x64 .f32) (harg2 : arg2.IsWhole) (arg3 : Memref sig .tc .vmem S5000x64 .f32) (harg3 : arg3.IsWhole)
    (x0 : Vec F S5000x6 .f32) (x1 : Vec F S6x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this region on core c: the arrays as the region finds them; after the body at point t each
    input's buffer at its block and each output's at its function of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 1 (cc1__edge_embed_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in output window 3's buffer: its one store, over the input blocks. -/
def out1_3 (x0 : Vec F S4000x2 .f32) (x1 : Vec F S2x64 .f32) (x2 : Vec F S1x64 .f32) : Vec F S4000x64 .f32 :=
  View.canon [⟨Rect.unit (s := S4000x64) ![0, 0] S4000x64.size inb_S4000x64_S4000x64_0_0, k1_pay1 (View.ld x0 (Rect.unit (s := S4000x2) ![0, 0] S4000x2.size inb_S4000x2_S4000x2_0_0)) (View.ld x1 (Rect.unit (s := S2x64) ![0, 0] S2x64.size inb_S2x64_S2x64_0_0)) (View.ld x2 (Rect.unit (s := S1x64) ![0, 0] S1x64.size inb_S1x64_S1x64_0_0))⟩]

theorem cover1_3 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

set_option maxHeartbeats 4000000 in
/-- The body on whole staging memrefs, the inputs' at read contents and the outputs' at anything, runs to the
    continuation holding the inputs' as they were and each output's at its function of the inputs'. -/
theorem sound_kernel1 (c : Dev nD) (E : Set ℕ) (i : grid1.Coords) (arg0 : Memref sig .tc .vmem S4000x2 .f32) (harg0 : arg0.IsWhole) (arg1 : Memref sig .tc .vmem S2x64 .f32) (harg1 : arg1.IsWhole) (arg2 : Memref sig .tc .vmem S1x64 .f32) (harg2 : arg2.IsWhole) (arg3 : Memref sig .tc .vmem S4000x64 .f32) (harg3 : arg3.IsWhole)
    (x0 : Vec F S4000x2 .f32) (x1 : Vec F S2x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__edge_embed_kernel i arg0 harg0 arg1 harg1 arg2 harg2 arg3 harg3) K := by
  simp only [cc1__edge_embed_kernel_eq_skeleton]; unfold cc1__edge_embed_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this region on core c: the arrays as the region finds them; after the body at point t each
    input's buffer at its block and each output's at its function of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 2 (cc2__linear_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in output window 3's buffer: its one store, over the input blocks. -/
def out2_3 (x0 : Vec F S5000x64 .f32) (x1 : Vec F S64x256 .f32) (x2 : Vec F S1x256 .f32) : Vec F S5000x256 .f32 :=
  View.canon [⟨Rect.unit (s := S5000x256) ![0, 0] S5000x256.size inb_S5000x256_S5000x256_0_0, k2_pay1 (View.ld x0 (Rect.unit (s := S5000x64) ![0, 0] S5000x64.size inb_S5000x64_S5000x64_0_0)) (View.ld x1 (Rect.unit (s := S64x256) ![0, 0] S64x256.size inb_S64x256_S64x256_0_0)) (View.ld x2 (Rect.unit (s := S1x256) ![0, 0] S1x256.size inb_S1x256_S1x256_0_0))⟩]

theorem cover2_3 (p0 : Vec F S5000x256 .f32) (y : S5000x256.Idx) :
    ∃ pc ∈ ([⟨Rect.unit (s := S5000x256) ![0, 0] S5000x256.size inb_S5000x256_S5000x256_0_0, p0⟩] : List (View.Piece (Elt F) S5000x256 .f32)), y ∈ pc.1.set :=
  View.cover_of_tiled [⟨Rect.unit (s := S5000x256) ![0, 0] S5000x256.size inb_S5000x256_S5000x256_0_0, p0⟩] S5000x256.size (by rfl) y

set_option maxHeartbeats 4000000 in
/-- The body on whole staging memrefs, the inputs' at read contents and the outputs' at anything, runs to the
    continuation holding the inputs' as they were and each output's at its function of the inputs'. -/
theorem sound_kernel2 (c : Dev nD) (E : Set ℕ) (i : grid2.Coords) (arg0 : Memref sig .tc .vmem S5000x64 .f32) (harg0 : arg0.IsWhole) (arg1 : Memref sig .tc .vmem S64x256 .f32) (harg1 : arg1.IsWhole) (arg2 : Memref sig .tc .vmem S1x256 .f32) (harg2 : arg2.IsWhole) (arg3 : Memref sig .tc .vmem S5000x256 .f32) (harg3 : arg3.IsWhole)
    (x0 : Vec F S5000x64 .f32) (x1 : Vec F S64x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__linear_kernel i arg0 harg0 arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this region on core c: the arrays as the region finds them; after the body at point t each
    input's buffer at its block and each output's at its function of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 3 (cc3__linear_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- What the body leaves in output window 3's buffer: its one store, over the input blocks. -/
def out3_3 (x0 : Vec F S4000x64 .f32) (x1 : Vec F S64x64 .f32) (x2 : Vec F S1x64 .f32) : Vec F S4000x64 .f32 :=
  View.canon [⟨Rect.unit (s := S4000x64) ![0, 0] S4000x64.size inb_S4000x64_S4000x64_0_0, k3_pay1 (View.ld x0 (Rect.unit (s := S4000x64) ![0, 0] S4000x64.size inb_S4000x64_S4000x64_0_0)) (View.ld x1 (Rect.unit (s := S64x64) ![0, 0] S64x64.size inb_S64x64_S64x64_0_0)) (View.ld x2 (Rect.unit (s := S1x64) ![0, 0] S1x64.size inb_S1x64_S1x64_0_0))⟩]

theorem cover3_3 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

set_option maxHeartbeats 4000000 in
/-- The body on whole staging memrefs, the inputs' at read contents and the outputs' at anything, runs to the
    continuation holding the inputs' as they were and each output's at its function of the inputs'. -/
theorem sound_kernel3 (c : Dev nD) (E : Set ℕ) (i : grid3.Coords) (arg0 : Memref sig .tc .vmem S4000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S4000x64 .f32) (harg3 : arg3.IsWhole)
    (x0 : Vec F S4000x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3__linear_kernel i arg0 harg0 arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of this region on core c: the arrays as the region finds them; after the body at point t each
    input's buffer at its block and each output's at its function of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 4 (cc4__edge_combine_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- What the body leaves in output window 4's buffer: its one store, over the input blocks. -/
def out4_4 (x0 : Vec F S4000x64 .f32) (x1 : Vec F S4000x64 .f32) (x2 : Vec F S4000x64 .f32) (x3 : Vec F S4000x64 .f32) : Vec F S4000x64 .f32 :=
  View.canon [⟨Rect.unit (s := S4000x64) ![0, 0] S4000x64.size inb_S4000x64_S4000x64_0_0, k4_pay1 (View.ld x0 (Rect.unit (s := S4000x64) ![0, 0] S4000x64.size inb_S4000x64_S4000x64_0_0)) (View.ld x1 (Rect.unit (s := S4000x64) ![0, 0] S4000x64.size inb_S4000x64_S4000x64_0_0)) (View.ld x2 (Rect.unit (s := S4000x64) ![0, 0] S4000x64.size inb_S4000x64_S4000x64_0_0))⟩]

theorem cover4_4 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

/-- What the body leaves in output window 5's buffer: its one store, over the input blocks. -/
def out4_5 (x0 : Vec F S4000x64 .f32) (x1 : Vec F S4000x64 .f32) (x2 : Vec F S4000x64 .f32) (x3 : Vec F S4000x64 .f32) : Vec F S4000x64 .f32 :=
  View.canon [⟨Rect.unit (s := S4000x64) ![0, 0] S4000x64.size inb_S4000x64_S4000x64_0_0, k4_pay2 (View.ld x0 (Rect.unit (s := S4000x64) ![0, 0] S4000x64.size inb_S4000x64_S4000x64_0_0)) (View.ld x1 (Rect.unit (s := S4000x64) ![0, 0] S4000x64.size inb_S4000x64_S4000x64_0_0)) (View.ld x2 (Rect.unit (s := S4000x64) ![0, 0] S4000x64.size inb_S4000x64_S4000x64_0_0))⟩]

theorem cover4_5 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

/-- What the body leaves in output window 6's buffer: its one store, over the input blocks. -/
def out4_6 (x0 : Vec F S4000x64 .f32) (x1 : Vec F S4000x64 .f32) (x2 : Vec F S4000x64 .f32) (x3 : Vec F S4000x64 .f32) : Vec F S4000x64 .f32 :=
  View.canon [⟨Rect.unit (s := S4000x64) ![0, 0] S4000x64.size inb_S4000x64_S4000x64_0_0, k4_pay3 (View.ld x0 (Rect.unit (s := S4000x64) ![0, 0] S4000x64.size inb_S4000x64_S4000x64_0_0)) (View.ld x1 (Rect.unit (s := S4000x64) ![0, 0] S4000x64.size inb_S4000x64_S4000x64_0_0)) (View.ld x2 (Rect.unit (s := S4000x64) ![0, 0] S4000x64.size inb_S4000x64_S4000x64_0_0)) (View.ld x3 (Rect.unit (s := S4000x64) ![0, 0] S4000x64.size inb_S4000x64_S4000x64_0_0))⟩]

theorem cover4_6 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

set_option maxHeartbeats 4000000 in
/-- The body on whole staging memrefs, the inputs' at read contents and the outputs' at anything, runs to the
    continuation holding the inputs' as they were and each output's at its function of the inputs'. -/
theorem sound_kernel4 (c : Dev nD) (E : Set ℕ) (i : grid4.Coords) (arg0 : Memref sig .tc .vmem S4000x64 .f32) (harg0 : arg0.IsWhole) (arg1 : Memref sig .tc .vmem S4000x64 .f32) (harg1 : arg1.IsWhole) (arg2 : Memref sig .tc .vmem S4000x64 .f32) (harg2 : arg2.IsWhole) (arg3 : Memref sig .tc .vmem S4000x64 .f32) (harg3 : arg3.IsWhole) (arg4 : Memref sig .tc .vmem S4000x64 .f32) (harg4 : arg4.IsWhole) (arg5 : Memref sig .tc .vmem S4000x64 .f32) (harg5 : arg5.IsWhole) (arg6 : Memref sig .tc .vmem S4000x64 .f32) (harg6 : arg6.IsWhole)
    (x0 : Vec F S4000x64 .f32) (x1 : Vec F S4000x64 .f32) (x2 : Vec F S4000x64 .f32) (x3 : Vec F S4000x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out4_4 x0 x1 x2 x3) ∗ owns (c : Thread nD τ) arg5 fullShare (out4_5 x0 x1 x2 x3) ∗ owns (c : Thread nD τ) arg6 fullShare (out4_6 x0 x1 x2 x3)) -∗ K ⟨⟩))
      ⊢ wp frame (wpE (defs₀ (F := F)) Variants.none c none) E (cc4__edge_combine_kernel i arg0 harg0 arg1 harg1 arg2 harg2 arg3 harg3 arg4 harg4 arg5 harg5 arg6 harg6) K := by
  simp only [cc4__edge_combine_kernel_eq_skeleton]; unfold cc4__edge_combine_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4_4 _)
  isplitl [H5]
  · iexists _; isplitr
    swap; · iexact H5
    ipureintro
    exact View.read_writes_eq_canon _ _ _ (cover4_5 _)
  iexists _; isplitr
  swap; · iexact H6
  ipureintro
  exact View.read_writes_eq_canon _ _ _ (cover4_6 _)

/-- The proof data of this region on core c: the arrays as the region finds them; after the body at point t each
    input's buffer at its block and each output's at its function of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
    | ⟨5, _⟩ => out4_5 (iblk4 V c 0 t) (iblk4 V c 1 t) (iblk4 V c 2 t) (iblk4 V c 3 t)
    | ⟨6, _⟩ => out4_6 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]
theorem after4_5 (c : Dev nD) (t : Fin cfg4.N) : (dat4 V c).after 5 t = out4_5 (iblk4 V c 0 t) (iblk4 V c 1 t) (iblk4 V c 2 t) (iblk4 V c 3 t) := by dsimp only [dat4]
theorem after4_6 (c : Dev nD) (t : Fin cfg4.N) : (dat4 V c).after 6 t = out4_6 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 5 (cc5__node_update_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- What the body leaves in output window 3's buffer: its one store, over the input blocks. -/
def out5_3 (x0 : Vec F S5000x64 .f32) (x1 : Vec F S5000x64 .f32) (x2 : Vec F S5000x64 .f32) : Vec F S5000x64 .f32 :=
  View.canon [⟨Rect.unit (s := S5000x64) ![0, 0] S5000x64.size inb_S5000x64_S5000x64_0_0, k5_pay1 (View.ld x2 (Rect.unit (s := S5000x64) ![0, 0] S5000x64.size inb_S5000x64_S5000x64_0_0)) (View.ld x0 (Rect.unit (s := S5000x64) ![0, 0] S5000x64.size inb_S5000x64_S5000x64_0_0)) (View.ld x1 (Rect.unit (s := S5000x64) ![0, 0] S5000x64.size inb_S5000x64_S5000x64_0_0))⟩]

theorem cover5_3 (p0 : Vec F S5000x64 .f32) (y : S5000x64.Idx) :
    ∃ pc ∈ ([⟨Rect.unit (s := S5000x64) ![0, 0] S5000x64.size inb_S5000x64_S5000x64_0_0, p0⟩] : List (View.Piece (Elt F) S5000x64 .f32)), y ∈ pc.1.set :=
  View.cover_of_tiled [⟨Rect.unit (s := S5000x64) ![0, 0] S5000x64.size inb_S5000x64_S5000x64_0_0, p0⟩] S5000x64.size (by rfl) y

set_option maxHeartbeats 4000000 in
/-- The body on whole staging memrefs, the inputs' at read contents and the outputs' at anything, runs to the
    continuation holding the inputs' as they were and each output's at its function of the inputs'. -/
theorem sound_kernel5 (c : Dev nD) (E : Set ℕ) (i : grid5.Coords) (arg0 : Memref sig .tc .vmem S5000x64 .f32) (harg0 : arg0.IsWhole) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole)
    (x0 : Vec F S5000x64 .f32) (x1 : Vec F S5000x64 .f32) (x2 : Vec F S5000x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5_3 x0 x1 x2)) -∗ K ⟨⟩))
      ⊢ wp frame (wpE (defs₀ (F := F)) Variants.none c none) E (cc5__node_update_kernel i arg0 harg0 arg1 harg1 arg2 harg2 arg3 harg3) K := by
  simp only [cc5__node_update_kernel_eq_skeleton]; unfold cc5__node_update_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of this region on core c: the arrays as the region finds them; after the body at point t each
    input's buffer at its block and each output's at its function of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 6 (cc6__bn_relu_residual_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point, fetched there or not. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds its block at every point, fetched there or not. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's staging buffer holds its block at every point, fetched there or not. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- What the body leaves in output window 6's buffer: its one store, over the input blocks. -/
def out6_6 (x0 : Vec F S5000x64 .f32) (x1 : Vec F S5000x64 .f32) (x2 : Vec F S1x64 .f32) (x3 : Vec F S1x64 .f32) (x4 : Vec F S1x64 .f32) (x5 : Vec F S1x64 .f32) : Vec F S5000x64 .f32 :=
  View.canon [⟨Rect.unit (s := S5000x64) ![0, 0] S5000x64.size inb_S5000x64_S5000x64_0_0, k6_pay1 (View.ld x3 (Rect.unit (s := S1x64) ![0, 0] S1x64.size inb_S1x64_S1x64_0_0)) (View.ld x0 (Rect.unit (s := S5000x64) ![0, 0] S5000x64.size inb_S5000x64_S5000x64_0_0)) (View.ld x2 (Rect.unit (s := S1x64) ![0, 0] S1x64.size inb_S1x64_S1x64_0_0)) (View.ld x4 (Rect.unit (s := S1x64) ![0, 0] S1x64.size inb_S1x64_S1x64_0_0)) (View.ld x5 (Rect.unit (s := S1x64) ![0, 0] S1x64.size inb_S1x64_S1x64_0_0)) (View.ld x1 (Rect.unit (s := S5000x64) ![0, 0] S5000x64.size inb_S5000x64_S5000x64_0_0))⟩]

theorem cover6_6 (p0 : Vec F S5000x64 .f32) (y : S5000x64.Idx) :
    ∃ pc ∈ ([⟨Rect.unit (s := S5000x64) ![0, 0] S5000x64.size inb_S5000x64_S5000x64_0_0, p0⟩] : List (View.Piece (Elt F) S5000x64 .f32)), y ∈ pc.1.set :=
  View.cover_of_tiled [⟨Rect.unit (s := S5000x64) ![0, 0] S5000x64.size inb_S5000x64_S5000x64_0_0, p0⟩] S5000x64.size (by rfl) y

set_option maxHeartbeats 4000000 in
/-- The body on whole staging memrefs, the inputs' at read contents and the outputs' at anything, runs to the
    continuation holding the inputs' as they were and each output's at its function of the inputs'. -/
theorem sound_kernel6 (c : Dev nD) (E : Set ℕ) (i : grid6.Coords) (arg0 : Memref sig .tc .vmem S5000x64 .f32) (harg0 : arg0.IsWhole) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S1x64 .f32) (x3 : Vec F S1x64 .f32) (x4 : Vec F S1x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out6_6 x0 x1 x2 x3 x4 x5)) -∗ K ⟨⟩))
      ⊢ wp frame (wpE (defs₀ (F := F)) Variants.none c none) E (cc6__bn_relu_residual_kernel i arg0 harg0 arg1 harg1 arg2 harg2 arg3 harg3 arg4 harg4 arg5 harg5 arg6 harg6) K := by
  simp only [cc6__bn_relu_residual_kernel_eq_skeleton]; unfold cc6__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-- The proof data of this region on core c: the arrays as the region finds them; after the body at point t each
    input's buffer at its block and each output's at its function of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Reg7.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 7 (cc7__bn_relu_residual_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's staging buffer holds its block at every point, fetched there or not. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- What the body leaves in output window 6's buffer: its one store, over the input blocks. -/
def out7_6 (x0 : Vec F S4000x64 .f32) (x1 : Vec F S4000x64 .f32) (x2 : Vec F S1x64 .f32) (x3 : Vec F S1x64 .f32) (x4 : Vec F S1x64 .f32) (x5 : Vec F S1x64 .f32) : Vec F S4000x64 .f32 :=
  View.canon [⟨Rect.unit (s := S4000x64) ![0, 0] S4000x64.size inb_S4000x64_S4000x64_0_0, k7_pay1 (View.ld x3 (Rect.unit (s := S1x64) ![0, 0] S1x64.size inb_S1x64_S1x64_0_0)) (View.ld x0 (Rect.unit (s := S4000x64) ![0, 0] S4000x64.size inb_S4000x64_S4000x64_0_0)) (View.ld x2 (Rect.unit (s := S1x64) ![0, 0] S1x64.size inb_S1x64_S1x64_0_0)) (View.ld x4 (Rect.unit (s := S1x64) ![0, 0] S1x64.size inb_S1x64_S1x64_0_0)) (View.ld x5 (Rect.unit (s := S1x64) ![0, 0] S1x64.size inb_S1x64_S1x64_0_0)) (View.ld x1 (Rect.unit (s := S4000x64) ![0, 0] S4000x64.size inb_S4000x64_S4000x64_0_0))⟩]

theorem cover7_6 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

set_option maxHeartbeats 4000000 in
/-- The body on whole staging memrefs, the inputs' at read contents and the outputs' at anything, runs to the
    continuation holding the inputs' as they were and each output's at its function of the inputs'. -/
theorem sound_kernel7 (c : Dev nD) (E : Set ℕ) (i : grid7.Coords) (arg0 : Memref sig .tc .vmem S4000x64 .f32) (harg0 : arg0.IsWhole) (arg1 : Memref sig .tc .vmem S4000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S4000x64 .f32) (harg6 : arg6.IsWhole)
    (x0 : Vec F S4000x64 .f32) (x1 : Vec F S4000x64 .f32) (x2 : Vec F S1x64 .f32) (x3 : Vec F S1x64 .f32) (x4 : Vec F S1x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out7_6 x0 x1 x2 x3 x4 x5)) -∗ K ⟨⟩))
      ⊢ wp frame (wpE (defs₀ (F := F)) Variants.none c none) E (cc7__bn_relu_residual_kernel i arg0 harg0 arg1 harg1 arg2 harg2 arg3 harg3 arg4 harg4 arg5 harg5 arg6 harg6) K := by
  simp only [cc7__bn_relu_residual_kernel_eq_skeleton]; unfold cc7__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-- The proof data of this region on core c: the arrays as the region finds them; after the body at point t each
    input's buffer at its block and each output's at its function of the input blocks; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Reg8.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 8 (cc8__linear_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every point, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every point, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- What the body leaves in output window 3's buffer: its one store, over the input blocks. -/
def out8_3 (x0 : Vec F S5000x64 .f32) (x1 : Vec F S64x256 .f32) (x2 : Vec F S1x256 .f32) : Vec F S5000x256 .f32 :=
  View.canon [⟨Rect.unit (s := S5000x256) ![0, 0] S5000x256.size inb_S5000x256_S5000x256_0_0, k8_pay1 (View.ld x0 (Rect.unit (s := S5000x64) ![0, 0] S5000x64.size inb_S5000x64_S5000x64_0_0)) (View.ld x1 (Rect.unit (s := S64x256) ![0, 0] S64x256.size inb_S64x256_S64x256_0_0)) (View.ld x2 (Rect.unit (s := S1x256) ![0, 0] S1x256.size inb_S1x256_S1x256_0_0))⟩]

theorem cover8_3 (p0 : Vec F S5000x256 .f32) (y : S5000x256.Idx) :
    ∃ pc ∈ ([⟨Rect.unit (s := S5000x256) ![0, 0] S5000x256.size inb_S5000x256_S5000x256_0_0, p0⟩] : List (View.Piece (Elt F) S5000x256 .f32)), y ∈ pc.1.set :=
  View.cover_of_tiled [⟨Rect.unit (s := S5000x256) ![0, 0] S5000x256.size inb_S5000x256_S5000x256_0_0, p0⟩] S5000x256.size (by rfl) y

set_option maxHeartbeats 4000000 in
/-- The body on whole staging memrefs, the inputs' at read contents and the outputs' at anything, runs to the
    continuation holding the inputs' as they were and each output's at its function of the inputs'. -/
theorem sound_kernel8 (c : Dev nD) (E : Set ℕ) (i : grid8.Coords) (arg0 : Memref sig .tc .vmem S5000x64 .f32) (harg0 : arg0.IsWhole) (arg1 : Memref sig .tc .vmem S64x256 .f32) (harg1 : arg1.IsWhole) (arg2 : Memref sig .tc .vmem S1x256 .f32) (harg2 : arg2.IsWhole) (arg3 : Memref sig .tc .vmem S5000x256 .f32) (harg3 : arg3.IsWhole)
    (x0 : Vec F S5000x64 .f32) (x1 : Vec F S64x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out8_3 x0 x1 x2)) -∗ K ⟨⟩))
      ⊢ wp frame (wpE (defs₀ (F := F)) Variants.none c none) E (cc8__linear_kernel i arg0 harg0 arg1 harg1 arg2 harg2 arg3 harg3) K := by
  simp only [cc8__linear_kernel_eq_skeleton]; unfold cc8__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-- The proof data of this region on core c: the arrays as the region finds them; after the body at point t each
    input's buffer at its block and each output's at its function of the input blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Reg9.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 9 (cc9__linear_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every point, fetched there or not. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds its block at every point, fetched there or not. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer holds its block at every point, fetched there or not. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- What the body leaves in output window 3's buffer: its one store, over the input blocks. -/
def out9_3 (x0 : Vec F S4000x64 .f32) (x1 : Vec F S64x64 .f32) (x2 : Vec F S1x64 .f32) : Vec F S4000x64 .f32 :=
  View.canon [⟨Rect.unit (s := S4000x64) ![0, 0] S4000x64.size inb_S4000x64_S4000x64_0_0, k9_pay1 (View.ld x0 (Rect.unit (s := S4000x64) ![0, 0] S4000x64.size inb_S4000x64_S4000x64_0_0)) (View.ld x1 (Rect.unit (s := S64x64) ![0, 0] S64x64.size inb_S64x64_S64x64_0_0)) (View.ld x2 (Rect.unit (s := S1x64) ![0, 0] S1x64.size inb_S1x64_S1x64_0_0))⟩]

theorem cover9_3 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

set_option maxHeartbeats 4000000 in
/-- The body on whole staging memrefs, the inputs' at read contents and the outputs' at anything, runs to the
    continuation holding the inputs' as they were and each output's at its function of the inputs'. -/
theorem sound_kernel9 (c : Dev nD) (E : Set ℕ) (i : grid9.Coords) (arg0 : Memref sig .tc .vmem S4000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S4000x64 .f32) (harg3 : arg3.IsWhole)
    (x0 : Vec F S4000x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out9_3 x0 x1 x2)) -∗ K ⟨⟩))
      ⊢ wp frame (wpE (defs₀ (F := F)) Variants.none c none) E (cc9__linear_kernel i arg0 harg0 arg1 harg1 arg2 harg2 arg3 harg3) K := by
  simp only [cc9__linear_kernel_eq_skeleton]; unfold cc9__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-- The proof data of this region on core c: the arrays as the region finds them; after the body at point t each
    input's buffer at its block and each output's at its function of the input blocks; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.Reg10.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 10 (cc10__edge_combine_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's staging buffer holds its block at every point, fetched there or not. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's staging buffer holds its block at every point, fetched there or not. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's staging buffer holds its block at every point, fetched there or not. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's staging buffer holds its block at every point, fetched there or not. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- What the body leaves in output window 4's buffer: its one store, over the input blocks. -/
def out10_4 (x0 : Vec F S4000x64 .f32) (x1 : Vec F S4000x64 .f32) (x2 : Vec F S4000x64 .f32) (x3 : Vec F S4000x64 .f32) : Vec F S4000x64 .f32 :=
  View.canon [⟨Rect.unit (s := S4000x64) ![0, 0] S4000x64.size inb_S4000x64_S4000x64_0_0, k10_pay1 (View.ld x0 (Rect.unit (s := S4000x64) ![0, 0] S4000x64.size inb_S4000x64_S4000x64_0_0)) (View.ld x1 (Rect.unit (s := S4000x64) ![0, 0] S4000x64.size inb_S4000x64_S4000x64_0_0)) (View.ld x2 (Rect.unit (s := S4000x64) ![0, 0] S4000x64.size inb_S4000x64_S4000x64_0_0))⟩]

theorem cover10_4 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

/-- What the body leaves in output window 5's buffer: its one store, over the input blocks. -/
def out10_5 (x0 : Vec F S4000x64 .f32) (x1 : Vec F S4000x64 .f32) (x2 : Vec F S4000x64 .f32) (x3 : Vec F S4000x64 .f32) : Vec F S4000x64 .f32 :=
  View.canon [⟨Rect.unit (s := S4000x64) ![0, 0] S4000x64.size inb_S4000x64_S4000x64_0_0, k10_pay2 (View.ld x0 (Rect.unit (s := S4000x64) ![0, 0] S4000x64.size inb_S4000x64_S4000x64_0_0)) (View.ld x1 (Rect.unit (s := S4000x64) ![0, 0] S4000x64.size inb_S4000x64_S4000x64_0_0)) (View.ld x2 (Rect.unit (s := S4000x64) ![0, 0] S4000x64.size inb_S4000x64_S4000x64_0_0))⟩]

theorem cover10_5 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

/-- What the body leaves in output window 6's buffer: its one store, over the input blocks. -/
def out10_6 (x0 : Vec F S4000x64 .f32) (x1 : Vec F S4000x64 .f32) (x2 : Vec F S4000x64 .f32) (x3 : Vec F S4000x64 .f32) : Vec F S4000x64 .f32 :=
  View.canon [⟨Rect.unit (s := S4000x64) ![0, 0] S4000x64.size inb_S4000x64_S4000x64_0_0, k10_pay3 (View.ld x0 (Rect.unit (s := S4000x64) ![0, 0] S4000x64.size inb_S4000x64_S4000x64_0_0)) (View.ld x1 (Rect.unit (s := S4000x64) ![0, 0] S4000x64.size inb_S4000x64_S4000x64_0_0)) (View.ld x2 (Rect.unit (s := S4000x64) ![0, 0] S4000x64.size inb_S4000x64_S4000x64_0_0)) (View.ld x3 (Rect.unit (s := S4000x64) ![0, 0] S4000x64.size inb_S4000x64_S4000x64_0_0))⟩]

theorem cover10_6 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

set_option maxHeartbeats 4000000 in
/-- The body on whole staging memrefs, the inputs' at read contents and the outputs' at anything, runs to the
    continuation holding the inputs' as they were and each output's at its function of the inputs'. -/
theorem sound_kernel10 (c : Dev nD) (E : Set ℕ) (i : grid10.Coords) (arg0 : Memref sig .tc .vmem S4000x64 .f32) (harg0 : arg0.IsWhole) (arg1 : Memref sig .tc .vmem S4000x64 .f32) (harg1 : arg1.IsWhole) (arg2 : Memref sig .tc .vmem S4000x64 .f32) (harg2 : arg2.IsWhole) (arg3 : Memref sig .tc .vmem S4000x64 .f32) (harg3 : arg3.IsWhole) (arg4 : Memref sig .tc .vmem S4000x64 .f32) (harg4 : arg4.IsWhole) (arg5 : Memref sig .tc .vmem S4000x64 .f32) (harg5 : arg5.IsWhole) (arg6 : Memref sig .tc .vmem S4000x64 .f32) (harg6 : arg6.IsWhole)
    (x0 : Vec F S4000x64 .f32) (x1 : Vec F S4000x64 .f32) (x2 : Vec F S4000x64 .f32) (x3 : Vec F S4000x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out10_4 x0 x1 x2 x3) ∗ owns (c : Thread nD τ) arg5 fullShare (out10_5 x0 x1 x2 x3) ∗ owns (c : Thread nD τ) arg6 fullShare (out10_6 x0 x1 x2 x3)) -∗ K ⟨⟩))
      ⊢ wp frame (wpE (defs₀ (F := F)) Variants.none c none) E (cc10__edge_combine_kernel i arg0 harg0 arg1 harg1 arg2 harg2 arg3 harg3 arg4 harg4 arg5 harg5 arg6 harg6) K := by
  simp only [cc10__edge_combine_kernel_eq_skeleton]; unfold cc10__edge_combine_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover10_4 _)
  isplitl [H5]
  · iexists _; isplitr
    swap; · iexact H5
    ipureintro
    exact View.read_writes_eq_canon _ _ _ (cover10_5 _)
  iexists _; isplitr
  swap; · iexact H6
  ipureintro
  exact View.read_writes_eq_canon _ _ _ (cover10_6 _)

/-- The proof data of this region on core c: the arrays as the region finds them; after the body at point t each
    input's buffer at its block and each output's at its function of the input blocks; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => out10_4 (iblk10 V c 0 t) (iblk10 V c 1 t) (iblk10 V c 2 t) (iblk10 V c 3 t)
    | ⟨5, _⟩ => out10_5 (iblk10 V c 0 t) (iblk10 V c 1 t) (iblk10 V c 2 t) (iblk10 V c 3 t)
    | ⟨6, _⟩ => out10_6 (iblk10 V c 0 t) (iblk10 V c 1 t) (iblk10 V c 2 t) (iblk10 V c 3 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = out10_4 (iblk10 V c 0 t) (iblk10 V c 1 t) (iblk10 V c 2 t) (iblk10 V c 3 t) := by dsimp only [dat10]
theorem after10_5 (c : Dev nD) (t : Fin cfg10.N) : (dat10 V c).after 5 t = out10_5 (iblk10 V c 0 t) (iblk10 V c 1 t) (iblk10 V c 2 t) (iblk10 V c 3 t) := by dsimp only [dat10]
theorem after10_6 (c : Dev nD) (t : Fin cfg10.N) : (dat10 V c).after 6 t = out10_6 (iblk10 V c 0 t) (iblk10 V c 1 t) (iblk10 V c 2 t) (iblk10 V c 3 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel10 c Set.univ _ _ _ _ _ _ _ _ _ _ _ _ _ _ _ (iblk10 V c 0 t) (iblk10 V c 1 t) (iblk10 V c 2 t) (iblk10 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.Reg11.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 11 (cc11__node_update_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's staging buffer holds its block at every point, fetched there or not. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's staging buffer holds its block at every point, fetched there or not. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's staging buffer holds its block at every point, fetched there or not. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- What the body leaves in output window 3's buffer: its one store, over the input blocks. -/
def out11_3 (x0 : Vec F S5000x64 .f32) (x1 : Vec F S5000x64 .f32) (x2 : Vec F S5000x64 .f32) : Vec F S5000x64 .f32 :=
  View.canon [⟨Rect.unit (s := S5000x64) ![0, 0] S5000x64.size inb_S5000x64_S5000x64_0_0, k11_pay1 (View.ld x2 (Rect.unit (s := S5000x64) ![0, 0] S5000x64.size inb_S5000x64_S5000x64_0_0)) (View.ld x0 (Rect.unit (s := S5000x64) ![0, 0] S5000x64.size inb_S5000x64_S5000x64_0_0)) (View.ld x1 (Rect.unit (s := S5000x64) ![0, 0] S5000x64.size inb_S5000x64_S5000x64_0_0))⟩]

theorem cover11_3 (p0 : Vec F S5000x64 .f32) (y : S5000x64.Idx) :
    ∃ pc ∈ ([⟨Rect.unit (s := S5000x64) ![0, 0] S5000x64.size inb_S5000x64_S5000x64_0_0, p0⟩] : List (View.Piece (Elt F) S5000x64 .f32)), y ∈ pc.1.set :=
  View.cover_of_tiled [⟨Rect.unit (s := S5000x64) ![0, 0] S5000x64.size inb_S5000x64_S5000x64_0_0, p0⟩] S5000x64.size (by rfl) y

set_option maxHeartbeats 4000000 in
/-- The body on whole staging memrefs, the inputs' at read contents and the outputs' at anything, runs to the
    continuation holding the inputs' as they were and each output's at its function of the inputs'. -/
theorem sound_kernel11 (c : Dev nD) (E : Set ℕ) (i : grid11.Coords) (arg0 : Memref sig .tc .vmem S5000x64 .f32) (harg0 : arg0.IsWhole) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole)
    (x0 : Vec F S5000x64 .f32) (x1 : Vec F S5000x64 .f32) (x2 : Vec F S5000x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out11_3 x0 x1 x2)) -∗ K ⟨⟩))
      ⊢ wp frame (wpE (defs₀ (F := F)) Variants.none c none) E (cc11__node_update_kernel i arg0 harg0 arg1 harg1 arg2 harg2 arg3 harg3) K := by
  simp only [cc11__node_update_kernel_eq_skeleton]; unfold cc11__node_update_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-- The proof data of this region on core c: the arrays as the region finds them; after the body at point t each
    input's buffer at its block and each output's at its function of the input blocks; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) (iblk11 V c 2 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.K.Reg12.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 12 (cc12__bn_relu_residual_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's staging buffer holds its block at every point, fetched there or not. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's staging buffer holds its block at every point, fetched there or not. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's staging buffer holds its block at every point, fetched there or not. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's staging buffer holds its block at every point, fetched there or not. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4's staging buffer holds its block at every point, fetched there or not. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-- Input window 5's staging buffer holds its block at every point, fetched there or not. -/
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)

/-- What the body leaves in output window 6's buffer: its one store, over the input blocks. -/
def out12_6 (x0 : Vec F S5000x64 .f32) (x1 : Vec F S5000x64 .f32) (x2 : Vec F S1x64 .f32) (x3 : Vec F S1x64 .f32) (x4 : Vec F S1x64 .f32) (x5 : Vec F S1x64 .f32) : Vec F S5000x64 .f32 :=
  View.canon [⟨Rect.unit (s := S5000x64) ![0, 0] S5000x64.size inb_S5000x64_S5000x64_0_0, k12_pay1 (View.ld x3 (Rect.unit (s := S1x64) ![0, 0] S1x64.size inb_S1x64_S1x64_0_0)) (View.ld x0 (Rect.unit (s := S5000x64) ![0, 0] S5000x64.size inb_S5000x64_S5000x64_0_0)) (View.ld x2 (Rect.unit (s := S1x64) ![0, 0] S1x64.size inb_S1x64_S1x64_0_0)) (View.ld x4 (Rect.unit (s := S1x64) ![0, 0] S1x64.size inb_S1x64_S1x64_0_0)) (View.ld x5 (Rect.unit (s := S1x64) ![0, 0] S1x64.size inb_S1x64_S1x64_0_0)) (View.ld x1 (Rect.unit (s := S5000x64) ![0, 0] S5000x64.size inb_S5000x64_S5000x64_0_0))⟩]

theorem cover12_6 (p0 : Vec F S5000x64 .f32) (y : S5000x64.Idx) :
    ∃ pc ∈ ([⟨Rect.unit (s := S5000x64) ![0, 0] S5000x64.size inb_S5000x64_S5000x64_0_0, p0⟩] : List (View.Piece (Elt F) S5000x64 .f32)), y ∈ pc.1.set :=
  View.cover_of_tiled [⟨Rect.unit (s := S5000x64) ![0, 0] S5000x64.size inb_S5000x64_S5000x64_0_0, p0⟩] S5000x64.size (by rfl) y

set_option maxHeartbeats 4000000 in
/-- The body on whole staging memrefs, the inputs' at read contents and the outputs' at anything, runs to the
    continuation holding the inputs' as they were and each output's at its function of the inputs'. -/
theorem sound_kernel12 (c : Dev nD) (E : Set ℕ) (i : grid12.Coords) (arg0 : Memref sig .tc .vmem S5000x64 .f32) (harg0 : arg0.IsWhole) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S1x64 .f32) (x3 : Vec F S1x64 .f32) (x4 : Vec F S1x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out12_6 x0 x1 x2 x3 x4 x5)) -∗ K ⟨⟩))
      ⊢ wp frame (wpE (defs₀ (F := F)) Variants.none c none) E (cc12__bn_relu_residual_kernel i arg0 harg0 arg1 harg1 arg2 harg2 arg3 harg3 arg4 harg4 arg5 harg5 arg6 harg6) K := by
  simp only [cc12__bn_relu_residual_kernel_eq_skeleton]; unfold cc12__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover12_6 _)

/-- The proof data of this region on core c: the arrays as the region finds them; after the body at point t each
    input's buffer at its block and each output's at its function of the input blocks; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => out12_6 (iblk12 V c 0 t) (iblk12 V c 1 t) (iblk12 V c 2 t) (iblk12 V c 3 t) (iblk12 V c 4 t) (iblk12 V c 5 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = out12_6 (iblk12 V c 0 t) (iblk12 V c 1 t) (iblk12 V c 2 t) (iblk12 V c 3 t) (iblk12 V c 4 t) (iblk12 V c 5 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d)))

def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel12 c Set.univ _ _ _ _ _ _ _ _ _ _ _ _ _ _ _ (iblk12 V c 0 t) (iblk12 V c 1 t) (iblk12 V c 2 t) (iblk12 V c 3 t) (iblk12 V c 4 t) (iblk12 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.K.Reg13.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 13 (cc13__bn_relu_residual_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's staging buffer holds its block at every point, fetched there or not. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's staging buffer holds its block at every point, fetched there or not. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's staging buffer holds its block at every point, fetched there or not. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's staging buffer holds its block at every point, fetched there or not. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4's staging buffer holds its block at every point, fetched there or not. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Input window 5's staging buffer holds its block at every point, fetched there or not. -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-- What the body leaves in output window 6's buffer: its one store, over the input blocks. -/
def out13_6 (x0 : Vec F S4000x64 .f32) (x1 : Vec F S4000x64 .f32) (x2 : Vec F S1x64 .f32) (x3 : Vec F S1x64 .f32) (x4 : Vec F S1x64 .f32) (x5 : Vec F S1x64 .f32) : Vec F S4000x64 .f32 :=
  View.canon [⟨Rect.unit (s := S4000x64) ![0, 0] S4000x64.size inb_S4000x64_S4000x64_0_0, k13_pay1 (View.ld x3 (Rect.unit (s := S1x64) ![0, 0] S1x64.size inb_S1x64_S1x64_0_0)) (View.ld x0 (Rect.unit (s := S4000x64) ![0, 0] S4000x64.size inb_S4000x64_S4000x64_0_0)) (View.ld x2 (Rect.unit (s := S1x64) ![0, 0] S1x64.size inb_S1x64_S1x64_0_0)) (View.ld x4 (Rect.unit (s := S1x64) ![0, 0] S1x64.size inb_S1x64_S1x64_0_0)) (View.ld x5 (Rect.unit (s := S1x64) ![0, 0] S1x64.size inb_S1x64_S1x64_0_0)) (View.ld x1 (Rect.unit (s := S4000x64) ![0, 0] S4000x64.size inb_S4000x64_S4000x64_0_0))⟩]

theorem cover13_6 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

set_option maxHeartbeats 4000000 in
/-- The body on whole staging memrefs, the inputs' at read contents and the outputs' at anything, runs to the
    continuation holding the inputs' as they were and each output's at its function of the inputs'. -/
theorem sound_kernel13 (c : Dev nD) (E : Set ℕ) (i : grid13.Coords) (arg0 : Memref sig .tc .vmem S4000x64 .f32) (harg0 : arg0.IsWhole) (arg1 : Memref sig .tc .vmem S4000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S4000x64 .f32) (harg6 : arg6.IsWhole)
    (x0 : Vec F S4000x64 .f32) (x1 : Vec F S4000x64 .f32) (x2 : Vec F S1x64 .f32) (x3 : Vec F S1x64 .f32) (x4 : Vec F S1x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out13_6 x0 x1 x2 x3 x4 x5)) -∗ K ⟨⟩))
      ⊢ wp frame (wpE (defs₀ (F := F)) Variants.none c none) E (cc13__bn_relu_residual_kernel i arg0 harg0 arg1 harg1 arg2 harg2 arg3 harg3 arg4 harg4 arg5 harg5 arg6 harg6) K := by
  simp only [cc13__bn_relu_residual_kernel_eq_skeleton]; unfold cc13__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover13_6 _)

/-- The proof data of this region on core c: the arrays as the region finds them; after the body at point t each
    input's buffer at its block and each output's at its function of the input blocks; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => out13_6 (iblk13 V c 0 t) (iblk13 V c 1 t) (iblk13 V c 2 t) (iblk13 V c 3 t) (iblk13 V c 4 t) (iblk13 V c 5 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = out13_6 (iblk13 V c 0 t) (iblk13 V c 1 t) (iblk13 V c 2 t) (iblk13 V c 3 t) (iblk13 V c 4 t) (iblk13 V c 5 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d)))

def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel13 c Set.univ _ _ _ _ _ _ _ _ _ _ _ _ _ _ _ (iblk13 V c 0 t) (iblk13 V c 1 t) (iblk13 V c 2 t) (iblk13 V c 3 t) (iblk13 V c 4 t) (iblk13 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation13 (c : Dev nD) : BodyObligation (dat13 (F := F) V c) (defs₀ (F := F)) Variants.none () Set.univ := fun t => by
  rw [bigSep_W13, bigSep_W13]
  exact sound_body13 V c t

end Cert.Kernel.Hand

end
-- ==== Proof.K.Reg14.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 14 (cc14__linear_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's staging buffer holds its block at every point, fetched there or not. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's staging buffer holds its block at every point, fetched there or not. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's staging buffer holds its block at every point, fetched there or not. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- What the body leaves in output window 3's buffer: its one store, over the input blocks. -/
def out14_3 (x0 : Vec F S5000x64 .f32) (x1 : Vec F S64x256 .f32) (x2 : Vec F S1x256 .f32) : Vec F S5000x256 .f32 :=
  View.canon [⟨Rect.unit (s := S5000x256) ![0, 0] S5000x256.size inb_S5000x256_S5000x256_0_0, k14_pay1 (View.ld x0 (Rect.unit (s := S5000x64) ![0, 0] S5000x64.size inb_S5000x64_S5000x64_0_0)) (View.ld x1 (Rect.unit (s := S64x256) ![0, 0] S64x256.size inb_S64x256_S64x256_0_0)) (View.ld x2 (Rect.unit (s := S1x256) ![0, 0] S1x256.size inb_S1x256_S1x256_0_0))⟩]

theorem cover14_3 (p0 : Vec F S5000x256 .f32) (y : S5000x256.Idx) :
    ∃ pc ∈ ([⟨Rect.unit (s := S5000x256) ![0, 0] S5000x256.size inb_S5000x256_S5000x256_0_0, p0⟩] : List (View.Piece (Elt F) S5000x256 .f32)), y ∈ pc.1.set :=
  View.cover_of_tiled [⟨Rect.unit (s := S5000x256) ![0, 0] S5000x256.size inb_S5000x256_S5000x256_0_0, p0⟩] S5000x256.size (by rfl) y

set_option maxHeartbeats 4000000 in
/-- The body on whole staging memrefs, the inputs' at read contents and the outputs' at anything, runs to the
    continuation holding the inputs' as they were and each output's at its function of the inputs'. -/
theorem sound_kernel14 (c : Dev nD) (E : Set ℕ) (i : grid14.Coords) (arg0 : Memref sig .tc .vmem S5000x64 .f32) (harg0 : arg0.IsWhole) (arg1 : Memref sig .tc .vmem S64x256 .f32) (harg1 : arg1.IsWhole) (arg2 : Memref sig .tc .vmem S1x256 .f32) (harg2 : arg2.IsWhole) (arg3 : Memref sig .tc .vmem S5000x256 .f32) (harg3 : arg3.IsWhole)
    (x0 : Vec F S5000x64 .f32) (x1 : Vec F S64x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out14_3 x0 x1 x2)) -∗ K ⟨⟩))
      ⊢ wp frame (wpE (defs₀ (F := F)) Variants.none c none) E (cc14__linear_kernel i arg0 harg0 arg1 harg1 arg2 harg2 arg3 harg3) K := by
  simp only [cc14__linear_kernel_eq_skeleton]; unfold cc14__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover14_3 _)

/-- The proof data of this region on core c: the arrays as the region finds them; after the body at point t each
    input's buffer at its block and each output's at its function of the input blocks; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 (iblk14 V c 0 t) (iblk14 V c 1 t) (iblk14 V c 2 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = out14_3 (iblk14 V c 0 t) (iblk14 V c 1 t) (iblk14 V c 2 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d)))

def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t))

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2, after14_3]
  iintro ⟨HΦ, Ho, ⟨%d0, H0⟩, ⟨%d1, H1⟩, ⟨%d2, H2⟩, ⟨%d3, H3⟩⟩
  iapply (sound_kernel14 c Set.univ _ _ _ _ _ _ _ _ _ (iblk14 V c 0 t) (iblk14 V c 1 t) (iblk14 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation14 (c : Dev nD) : BodyObligation (dat14 (F := F) V c) (defs₀ (F := F)) Variants.none () Set.univ := fun t => by
  rw [bigSep_W14, bigSep_W14]
  exact sound_body14 V c t

end Cert.Kernel.Hand

end
-- ==== Proof.K.Reg15.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 15 (cc15__linear_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0's staging buffer holds its block at every point, fetched there or not. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- Input window 1's staging buffer holds its block at every point, fetched there or not. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-- Input window 2's staging buffer holds its block at every point, fetched there or not. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-- What the body leaves in output window 3's buffer: its one store, over the input blocks. -/
def out15_3 (x0 : Vec F S4000x64 .f32) (x1 : Vec F S64x64 .f32) (x2 : Vec F S1x64 .f32) : Vec F S4000x64 .f32 :=
  View.canon [⟨Rect.unit (s := S4000x64) ![0, 0] S4000x64.size inb_S4000x64_S4000x64_0_0, k15_pay1 (View.ld x0 (Rect.unit (s := S4000x64) ![0, 0] S4000x64.size inb_S4000x64_S4000x64_0_0)) (View.ld x1 (Rect.unit (s := S64x64) ![0, 0] S64x64.size inb_S64x64_S64x64_0_0)) (View.ld x2 (Rect.unit (s := S1x64) ![0, 0] S1x64.size inb_S1x64_S1x64_0_0))⟩]

theorem cover15_3 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

set_option maxHeartbeats 4000000 in
/-- The body on whole staging memrefs, the inputs' at read contents and the outputs' at anything, runs to the
    continuation holding the inputs' as they were and each output's at its function of the inputs'. -/
theorem sound_kernel15 (c : Dev nD) (E : Set ℕ) (i : grid15.Coords) (arg0 : Memref sig .tc .vmem S4000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S4000x64 .f32) (harg3 : arg3.IsWhole)
    (x0 : Vec F S4000x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out15_3 x0 x1 x2)) -∗ K ⟨⟩))
      ⊢ wp frame (wpE (defs₀ (F := F)) Variants.none c none) E (cc15__linear_kernel i arg0 harg0 arg1 harg1 arg2 harg2 arg3 harg3) K := by
  simp only [cc15__linear_kernel_eq_skeleton]; unfold cc15__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover15_3 _)

/-- The proof data of this region on core c: the arrays as the region finds them; after the body at point t each
    input's buffer at its block and each output's at its function of the input blocks; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15_3 (iblk15 V c 0 t) (iblk15 V c 1 t) (iblk15 V c 2 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = out15_3 (iblk15 V c 0 t) (iblk15 V c 1 t) (iblk15 V c 2 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d)))

def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t))

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  iintro ⟨HΦ, Ho, ⟨%d0, H0⟩, ⟨%d1, H1⟩, ⟨%d2, H2⟩, ⟨%d3, H3⟩⟩
  iapply (sound_kernel15 c Set.univ _ _ _ _ _ _ _ _ _ (iblk15 V c 0 t) (iblk15 V c 1 t) (iblk15 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation15 (c : Dev nD) : BodyObligation (dat15 (F := F) V c) (defs₀ (F := F)) Variants.none () Set.univ := fun t => by
  rw [bigSep_W15, bigSep_W15]
  exact sound_body15 V c t

end Cert.Kernel.Hand

end
-- ==== Proof.K.Reg16.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 16 (cc16__edge_combine_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's staging buffer holds its block at every point, fetched there or not. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-- Input window 1's staging buffer holds its block at every point, fetched there or not. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- Input window 2's staging buffer holds its block at every point, fetched there or not. -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

/-- Input window 3's staging buffer holds its block at every point, fetched there or not. -/
theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)

/-- What the body leaves in output window 4's buffer: its one store, over the input blocks. -/
def out16_4 (x0 : Vec F S4000x64 .f32) (x1 : Vec F S4000x64 .f32) (x2 : Vec F S4000x64 .f32) (x3 : Vec F S4000x64 .f32) : Vec F S4000x64 .f32 :=
  View.canon [⟨Rect.unit (s := S4000x64) ![0, 0] S4000x64.size inb_S4000x64_S4000x64_0_0, k16_pay1 (View.ld x0 (Rect.unit (s := S4000x64) ![0, 0] S4000x64.size inb_S4000x64_S4000x64_0_0)) (View.ld x1 (Rect.unit (s := S4000x64) ![0, 0] S4000x64.size inb_S4000x64_S4000x64_0_0)) (View.ld x2 (Rect.unit (s := S4000x64) ![0, 0] S4000x64.size inb_S4000x64_S4000x64_0_0))⟩]

theorem cover16_4 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

/-- What the body leaves in output window 5's buffer: its one store, over the input blocks. -/
def out16_5 (x0 : Vec F S4000x64 .f32) (x1 : Vec F S4000x64 .f32) (x2 : Vec F S4000x64 .f32) (x3 : Vec F S4000x64 .f32) : Vec F S4000x64 .f32 :=
  View.canon [⟨Rect.unit (s := S4000x64) ![0, 0] S4000x64.size inb_S4000x64_S4000x64_0_0, k16_pay2 (View.ld x0 (Rect.unit (s := S4000x64) ![0, 0] S4000x64.size inb_S4000x64_S4000x64_0_0)) (View.ld x1 (Rect.unit (s := S4000x64) ![0, 0] S4000x64.size inb_S4000x64_S4000x64_0_0)) (View.ld x2 (Rect.unit (s := S4000x64) ![0, 0] S4000x64.size inb_S4000x64_S4000x64_0_0))⟩]

theorem cover16_5 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

/-- What the body leaves in output window 6's buffer: its one store, over the input blocks. -/
def out16_6 (x0 : Vec F S4000x64 .f32) (x1 : Vec F S4000x64 .f32) (x2 : Vec F S4000x64 .f32) (x3 : Vec F S4000x64 .f32) : Vec F S4000x64 .f32 :=
  View.canon [⟨Rect.unit (s := S4000x64) ![0, 0] S4000x64.size inb_S4000x64_S4000x64_0_0, k16_pay3 (View.ld x0 (Rect.unit (s := S4000x64) ![0, 0] S4000x64.size inb_S4000x64_S4000x64_0_0)) (View.ld x1 (Rect.unit (s := S4000x64) ![0, 0] S4000x64.size inb_S4000x64_S4000x64_0_0)) (View.ld x2 (Rect.unit (s := S4000x64) ![0, 0] S4000x64.size inb_S4000x64_S4000x64_0_0)) (View.ld x3 (Rect.unit (s := S4000x64) ![0, 0] S4000x64.size inb_S4000x64_S4000x64_0_0))⟩]

theorem cover16_6 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

set_option maxHeartbeats 4000000 in
/-- The body on whole staging memrefs, the inputs' at read contents and the outputs' at anything, runs to the
    continuation holding the inputs' as they were and each output's at its function of the inputs'. -/
theorem sound_kernel16 (c : Dev nD) (E : Set ℕ) (i : grid16.Coords) (arg0 : Memref sig .tc .vmem S4000x64 .f32) (harg0 : arg0.IsWhole) (arg1 : Memref sig .tc .vmem S4000x64 .f32) (harg1 : arg1.IsWhole) (arg2 : Memref sig .tc .vmem S4000x64 .f32) (harg2 : arg2.IsWhole) (arg3 : Memref sig .tc .vmem S4000x64 .f32) (harg3 : arg3.IsWhole) (arg4 : Memref sig .tc .vmem S4000x64 .f32) (harg4 : arg4.IsWhole) (arg5 : Memref sig .tc .vmem S4000x64 .f32) (harg5 : arg5.IsWhole) (arg6 : Memref sig .tc .vmem S4000x64 .f32) (harg6 : arg6.IsWhole)
    (x0 : Vec F S4000x64 .f32) (x1 : Vec F S4000x64 .f32) (x2 : Vec F S4000x64 .f32) (x3 : Vec F S4000x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out16_4 x0 x1 x2 x3) ∗ owns (c : Thread nD τ) arg5 fullShare (out16_5 x0 x1 x2 x3) ∗ owns (c : Thread nD τ) arg6 fullShare (out16_6 x0 x1 x2 x3)) -∗ K ⟨⟩))
      ⊢ wp frame (wpE (defs₀ (F := F)) Variants.none c none) E (cc16__edge_combine_kernel i arg0 harg0 arg1 harg1 arg2 harg2 arg3 harg3 arg4 harg4 arg5 harg5 arg6 harg6) K := by
  simp only [cc16__edge_combine_kernel_eq_skeleton]; unfold cc16__edge_combine_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover16_4 _)
  isplitl [H5]
  · iexists _; isplitr
    swap; · iexact H5
    ipureintro
    exact View.read_writes_eq_canon _ _ _ (cover16_5 _)
  iexists _; isplitr
  swap; · iexact H6
  ipureintro
  exact View.read_writes_eq_canon _ _ _ (cover16_6 _)

/-- The proof data of this region on core c: the arrays as the region finds them; after the body at point t each
    input's buffer at its block and each output's at its function of the input blocks; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => out16_4 (iblk16 V c 0 t) (iblk16 V c 1 t) (iblk16 V c 2 t) (iblk16 V c 3 t)
    | ⟨5, _⟩ => out16_5 (iblk16 V c 0 t) (iblk16 V c 1 t) (iblk16 V c 2 t) (iblk16 V c 3 t)
    | ⟨6, _⟩ => out16_6 (iblk16 V c 0 t) (iblk16 V c 1 t) (iblk16 V c 2 t) (iblk16 V c 3 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = out16_4 (iblk16 V c 0 t) (iblk16 V c 1 t) (iblk16 V c 2 t) (iblk16 V c 3 t) := by dsimp only [dat16]
theorem after16_5 (c : Dev nD) (t : Fin cfg16.N) : (dat16 V c).after 5 t = out16_5 (iblk16 V c 0 t) (iblk16 V c 1 t) (iblk16 V c 2 t) (iblk16 V c 3 t) := by dsimp only [dat16]
theorem after16_6 (c : Dev nD) (t : Fin cfg16.N) : (dat16 V c).after 6 t = out16_6 (iblk16 V c 0 t) (iblk16 V c 1 t) (iblk16 V c 2 t) (iblk16 V c 3 t) := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d

def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d))
    ∗ (∃ d, owns (c : Thread nD τ) (st16_6 t) fullShare ((dat16 V c).before 6 t d)))

def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t)
    ∗ owns (c : Thread nD τ) (st16_6 t) fullShare ((dat16 V c).after 6 t))

theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3]
  rw [show (dat16 V c).Φ t.succ = (dat16 V c).Φ t.castSucc from rfl,
    show (dat16 V c).owesAt () t.succ = (dat16 V c).owesAt () t.castSucc from rfl,
    after16_0, after16_1, after16_2, after16_3, after16_4, after16_5, after16_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel16 c Set.univ _ _ _ _ _ _ _ _ _ _ _ _ _ _ _ (iblk16 V c 0 t) (iblk16 V c 1 t) (iblk16 V c 2 t) (iblk16 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation16 (c : Dev nD) : BodyObligation (dat16 (F := F) V c) (defs₀ (F := F)) Variants.none () Set.univ := fun t => by
  rw [bigSep_W16, bigSep_W16]
  exact sound_body16 V c t

end Cert.Kernel.Hand

end
-- ==== Proof.K.Reg17.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 17 (cc17__node_update_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- Input window 0's staging buffer holds its block at every point, fetched there or not. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- Input window 1's staging buffer holds its block at every point, fetched there or not. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-- Input window 2's staging buffer holds its block at every point, fetched there or not. -/
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

/-- What the body leaves in output window 3's buffer: its one store, over the input blocks. -/
def out17_3 (x0 : Vec F S5000x64 .f32) (x1 : Vec F S5000x64 .f32) (x2 : Vec F S5000x64 .f32) : Vec F S5000x64 .f32 :=
  View.canon [⟨Rect.unit (s := S5000x64) ![0, 0] S5000x64.size inb_S5000x64_S5000x64_0_0, k17_pay1 (View.ld x2 (Rect.unit (s := S5000x64) ![0, 0] S5000x64.size inb_S5000x64_S5000x64_0_0)) (View.ld x0 (Rect.unit (s := S5000x64) ![0, 0] S5000x64.size inb_S5000x64_S5000x64_0_0)) (View.ld x1 (Rect.unit (s := S5000x64) ![0, 0] S5000x64.size inb_S5000x64_S5000x64_0_0))⟩]

theorem cover17_3 (p0 : Vec F S5000x64 .f32) (y : S5000x64.Idx) :
    ∃ pc ∈ ([⟨Rect.unit (s := S5000x64) ![0, 0] S5000x64.size inb_S5000x64_S5000x64_0_0, p0⟩] : List (View.Piece (Elt F) S5000x64 .f32)), y ∈ pc.1.set :=
  View.cover_of_tiled [⟨Rect.unit (s := S5000x64) ![0, 0] S5000x64.size inb_S5000x64_S5000x64_0_0, p0⟩] S5000x64.size (by rfl) y

set_option maxHeartbeats 4000000 in
/-- The body on whole staging memrefs, the inputs' at read contents and the outputs' at anything, runs to the
    continuation holding the inputs' as they were and each output's at its function of the inputs'. -/
theorem sound_kernel17 (c : Dev nD) (E : Set ℕ) (i : grid17.Coords) (arg0 : Memref sig .tc .vmem S5000x64 .f32) (harg0 : arg0.IsWhole) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole)
    (x0 : Vec F S5000x64 .f32) (x1 : Vec F S5000x64 .f32) (x2 : Vec F S5000x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out17_3 x0 x1 x2)) -∗ K ⟨⟩))
      ⊢ wp frame (wpE (defs₀ (F := F)) Variants.none c none) E (cc17__node_update_kernel i arg0 harg0 arg1 harg1 arg2 harg2 arg3 harg3) K := by
  simp only [cc17__node_update_kernel_eq_skeleton]; unfold cc17__node_update_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover17_3 _)

/-- The proof data of this region on core c: the arrays as the region finds them; after the body at point t each
    input's buffer at its block and each output's at its function of the input blocks; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17_3 (iblk17 V c 0 t) (iblk17 V c 1 t) (iblk17 V c 2 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = out17_3 (iblk17 V c 0 t) (iblk17 V c 1 t) (iblk17 V c 2 t) := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d

def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d)))

def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t))

theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2]
  rw [show (dat17 V c).Φ t.succ = (dat17 V c).Φ t.castSucc from rfl,
    show (dat17 V c).owesAt () t.succ = (dat17 V c).owesAt () t.castSucc from rfl,
    after17_0, after17_1, after17_2, after17_3]
  iintro ⟨HΦ, Ho, ⟨%d0, H0⟩, ⟨%d1, H1⟩, ⟨%d2, H2⟩, ⟨%d3, H3⟩⟩
  iapply (sound_kernel17 c Set.univ _ _ _ _ _ _ _ _ _ (iblk17 V c 0 t) (iblk17 V c 1 t) (iblk17 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation17 (c : Dev nD) : BodyObligation (dat17 (F := F) V c) (defs₀ (F := F)) Variants.none () Set.univ := fun t => by
  rw [bigSep_W17, bigSep_W17]
  exact sound_body17 V c t

end Cert.Kernel.Hand

end
-- ==== Proof.K.Reg18.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 18 (cc18__bn_relu_residual_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- Input window 0's staging buffer holds its block at every point, fetched there or not. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

/-- Input window 1's staging buffer holds its block at every point, fetched there or not. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-- Input window 2's staging buffer holds its block at every point, fetched there or not. -/
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

/-- Input window 3's staging buffer holds its block at every point, fetched there or not. -/
theorem before18_3_of {c : Dev nD} (dat : Dat τ (Elt F) Unit ℕ (UR sig nD τ) ℕ cfg18 c) (hA : dat.A 3 = V c (Pipeline.arrRef spec18 3))
    (hafter : ∀ t, dat.after 3 t = iblk18 V c 3 t) (t : Fin cfg18.N) (d) : dat.before 3 t d = iblk18 V c 3 t :=
  (dat.before_in_eq_fetched 3 rfl (fun _ => rfl) (fun _ _ _ => rfl) (fun t => by rw [hafter]; unfold Dat.blockOf iblk18; rw [hA]; try rfl) t d).trans
    (by unfold Dat.fetched Dat.blockOf iblk18; rw [hA]; try rfl)

/-- Input window 4's staging buffer holds its block at every point, fetched there or not. -/
theorem before18_4_of {c : Dev nD} (dat : Dat τ (Elt F) Unit ℕ (UR sig nD τ) ℕ cfg18 c) (hA : dat.A 4 = V c (Pipeline.arrRef spec18 4))
    (hafter : ∀ t, dat.after 4 t = iblk18 V c 4 t) (t : Fin cfg18.N) (d) : dat.before 4 t d = iblk18 V c 4 t :=
  (dat.before_in_eq_fetched 4 rfl (fun _ => rfl) (fun _ _ _ => rfl) (fun t => by rw [hafter]; unfold Dat.blockOf iblk18; rw [hA]; try rfl) t d).trans
    (by unfold Dat.fetched Dat.blockOf iblk18; rw [hA]; try rfl)

/-- Input window 5's staging buffer holds its block at every point, fetched there or not. -/
theorem before18_5_of {c : Dev nD} (dat : Dat τ (Elt F) Unit ℕ (UR sig nD τ) ℕ cfg18 c) (hA : dat.A 5 = V c (Pipeline.arrRef spec18 5))
    (hafter : ∀ t, dat.after 5 t = iblk18 V c 5 t) (t : Fin cfg18.N) (d) : dat.before 5 t d = iblk18 V c 5 t :=
  (dat.before_in_eq_fetched 5 rfl (fun _ => rfl) (fun _ _ _ => rfl) (fun t => by rw [hafter]; unfold Dat.blockOf iblk18; rw [hA]; try rfl) t d).trans
    (by unfold Dat.fetched Dat.blockOf iblk18; rw [hA]; try rfl)

/-- What the body leaves in output window 6's buffer: its one store, over the input blocks. -/
def out18_6 (x0 : Vec F S5000x64 .f32) (x1 : Vec F S5000x64 .f32) (x2 : Vec F S1x64 .f32) (x3 : Vec F S1x64 .f32) (x4 : Vec F S1x64 .f32) (x5 : Vec F S1x64 .f32) : Vec F S5000x64 .f32 :=
  View.canon [⟨Rect.unit (s := S5000x64) ![0, 0] S5000x64.size inb_S5000x64_S5000x64_0_0, k18_pay1 (View.ld x3 (Rect.unit (s := S1x64) ![0, 0] S1x64.size inb_S1x64_S1x64_0_0)) (View.ld x0 (Rect.unit (s := S5000x64) ![0, 0] S5000x64.size inb_S5000x64_S5000x64_0_0)) (View.ld x2 (Rect.unit (s := S1x64) ![0, 0] S1x64.size inb_S1x64_S1x64_0_0)) (View.ld x4 (Rect.unit (s := S1x64) ![0, 0] S1x64.size inb_S1x64_S1x64_0_0)) (View.ld x5 (Rect.unit (s := S1x64) ![0, 0] S1x64.size inb_S1x64_S1x64_0_0)) (View.ld x1 (Rect.unit (s := S5000x64) ![0, 0] S5000x64.size inb_S5000x64_S5000x64_0_0))⟩]

theorem cover18_6 (p0 : Vec F S5000x64 .f32) (y : S5000x64.Idx) :
    ∃ pc ∈ ([⟨Rect.unit (s := S5000x64) ![0, 0] S5000x64.size inb_S5000x64_S5000x64_0_0, p0⟩] : List (View.Piece (Elt F) S5000x64 .f32)), y ∈ pc.1.set :=
  View.cover_of_tiled [⟨Rect.unit (s := S5000x64) ![0, 0] S5000x64.size inb_S5000x64_S5000x64_0_0, p0⟩] S5000x64.size (by rfl) y

set_option maxHeartbeats 4000000 in
/-- The body on whole staging memrefs, the inputs' at read contents and the outputs' at anything, runs to the
    continuation holding the inputs' as they were and each output's at its function of the inputs'. -/
theorem sound_kernel18 (c : Dev nD) (E : Set ℕ) (i : grid18.Coords) (arg0 : Memref sig .tc .vmem S5000x64 .f32) (harg0 : arg0.IsWhole) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S1x64 .f32) (x3 : Vec F S1x64 .f32) (x4 : Vec F S1x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out18_6 x0 x1 x2 x3 x4 x5)) -∗ K ⟨⟩))
      ⊢ wp frame (wpE (defs₀ (F := F)) Variants.none c none) E (cc18__bn_relu_residual_kernel i arg0 harg0 arg1 harg1 arg2 harg2 arg3 harg3 arg4 harg4 arg5 harg5 arg6 harg6) K := by
  simp only [cc18__bn_relu_residual_kernel_eq_skeleton]; unfold cc18__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover18_6 _)

/-- The proof data of this region on core c: the arrays as the region finds them; after the body at point t each
    input's buffer at its block and each output's at its function of the input blocks; nothing owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => iblk18 V c 3 t
    | ⟨4, _⟩ => iblk18 V c 4 t
    | ⟨5, _⟩ => iblk18 V c 5 t
    | ⟨6, _⟩ => out18_6 (iblk18 V c 0 t) (iblk18 V c 1 t) (iblk18 V c 2 t) (iblk18 V c 3 t) (iblk18 V c 4 t) (iblk18 V c 5 t)
  Φ _ := Pipeline.ΦA spec18 c
  q _ := fullShare
  owed _ := 0

theorem A_eq18 (c : Dev nD) (w : Fin cfg18.W) : (dat18 V c).A w = V c (Pipeline.arrRef spec18 w) := by
  dsimp only [dat18]

theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = iblk18 V c 3 t := by dsimp only [dat18]
theorem after18_4 (c : Dev nD) (t : Fin cfg18.N) : (dat18 V c).after 4 t = iblk18 V c 4 t := by dsimp only [dat18]
theorem after18_5 (c : Dev nD) (t : Fin cfg18.N) : (dat18 V c).after 5 t = iblk18 V c 5 t := by dsimp only [dat18]
theorem after18_6 (c : Dev nD) (t : Fin cfg18.N) : (dat18 V c).after 6 t = out18_6 (iblk18 V c 0 t) (iblk18 V c 1 t) (iblk18 V c 2 t) (iblk18 V c 3 t) (iblk18 V c 4 t) (iblk18 V c 5 t) := by dsimp only [dat18]

theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d
theorem before18_3 (c : Dev nD) (t : Fin cfg18.N) (d) : (dat18 V c).before 3 t d = iblk18 V c 3 t :=
  before18_3_of V (dat18 V c) (A_eq18 V c 3) (after18_3 V c) t d
theorem before18_4 (c : Dev nD) (t : Fin cfg18.N) (d) : (dat18 V c).before 4 t d = iblk18 V c 4 t :=
  before18_4_of V (dat18 V c) (A_eq18 V c 4) (after18_4 V c) t d
theorem before18_5 (c : Dev nD) (t : Fin cfg18.N) (d) : (dat18 V c).before 5 t d = iblk18 V c 5 t :=
  before18_5_of V (dat18 V c) (A_eq18 V c 5) (after18_5 V c) t d

def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d))
    ∗ (∃ d, owns (c : Thread nD τ) (st18_4 t) fullShare ((dat18 V c).before 4 t d))
    ∗ (∃ d, owns (c : Thread nD τ) (st18_5 t) fullShare ((dat18 V c).before 5 t d))
    ∗ (∃ d, owns (c : Thread nD τ) (st18_6 t) fullShare ((dat18 V c).before 6 t d)))

def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t)
    ∗ owns (c : Thread nD τ) (st18_4 t) fullShare ((dat18 V c).after 4 t)
    ∗ owns (c : Thread nD τ) (st18_5 t) fullShare ((dat18 V c).after 5 t)
    ∗ owns (c : Thread nD τ) (st18_6 t) fullShare ((dat18 V c).after 6 t))

theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2, before18_3, before18_4, before18_5]
  rw [show (dat18 V c).Φ t.succ = (dat18 V c).Φ t.castSucc from rfl,
    show (dat18 V c).owesAt () t.succ = (dat18 V c).owesAt () t.castSucc from rfl,
    after18_0, after18_1, after18_2, after18_3, after18_4, after18_5, after18_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel18 c Set.univ _ _ _ _ _ _ _ _ _ _ _ _ _ _ _ (iblk18 V c 0 t) (iblk18 V c 1 t) (iblk18 V c 2 t) (iblk18 V c 3 t) (iblk18 V c 4 t) (iblk18 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation18 (c : Dev nD) : BodyObligation (dat18 (F := F) V c) (defs₀ (F := F)) Variants.none () Set.univ := fun t => by
  rw [bigSep_W18, bigSep_W18]
  exact sound_body18 V c t

end Cert.Kernel.Hand

end
-- ==== Proof.K.Reg19.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 19 (cc19__bn_relu_residual_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- Input window 0's staging buffer holds its block at every point, fetched there or not. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

/-- Input window 1's staging buffer holds its block at every point, fetched there or not. -/
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

/-- Input window 2's staging buffer holds its block at every point, fetched there or not. -/
theorem before19_2_of {c : Dev nD} (dat : Dat τ (Elt F) Unit ℕ (UR sig nD τ) ℕ cfg19 c) (hA : dat.A 2 = V c (Pipeline.arrRef spec19 2))
    (hafter : ∀ t, dat.after 2 t = iblk19 V c 2 t) (t : Fin cfg19.N) (d) : dat.before 2 t d = iblk19 V c 2 t :=
  (dat.before_in_eq_fetched 2 rfl (fun _ => rfl) (fun _ _ _ => rfl) (fun t => by rw [hafter]; unfold Dat.blockOf iblk19; rw [hA]; try rfl) t d).trans
    (by unfold Dat.fetched Dat.blockOf iblk19; rw [hA]; try rfl)

/-- Input window 3's staging buffer holds its block at every point, fetched there or not. -/
theorem before19_3_of {c : Dev nD} (dat : Dat τ (Elt F) Unit ℕ (UR sig nD τ) ℕ cfg19 c) (hA : dat.A 3 = V c (Pipeline.arrRef spec19 3))
    (hafter : ∀ t, dat.after 3 t = iblk19 V c 3 t) (t : Fin cfg19.N) (d) : dat.before 3 t d = iblk19 V c 3 t :=
  (dat.before_in_eq_fetched 3 rfl (fun _ => rfl) (fun _ _ _ => rfl) (fun t => by rw [hafter]; unfold Dat.blockOf iblk19; rw [hA]; try rfl) t d).trans
    (by unfold Dat.fetched Dat.blockOf iblk19; rw [hA]; try rfl)

/-- Input window 4's staging buffer holds its block at every point, fetched there or not. -/
theorem before19_4_of {c : Dev nD} (dat : Dat τ (Elt F) Unit ℕ (UR sig nD τ) ℕ cfg19 c) (hA : dat.A 4 = V c (Pipeline.arrRef spec19 4))
    (hafter : ∀ t, dat.after 4 t = iblk19 V c 4 t) (t : Fin cfg19.N) (d) : dat.before 4 t d = iblk19 V c 4 t :=
  (dat.before_in_eq_fetched 4 rfl (fun _ => rfl) (fun _ _ _ => rfl) (fun t => by rw [hafter]; unfold Dat.blockOf iblk19; rw [hA]; try rfl) t d).trans
    (by unfold Dat.fetched Dat.blockOf iblk19; rw [hA]; try rfl)

/-- Input window 5's staging buffer holds its block at every point, fetched there or not. -/
theorem before19_5_of {c : Dev nD} (dat : Dat τ (Elt F) Unit ℕ (UR sig nD τ) ℕ cfg19 c) (hA : dat.A 5 = V c (Pipeline.arrRef spec19 5))
    (hafter : ∀ t, dat.after 5 t = iblk19 V c 5 t) (t : Fin cfg19.N) (d) : dat.before 5 t d = iblk19 V c 5 t :=
  (dat.before_in_eq_fetched 5 rfl (fun _ => rfl) (fun _ _ _ => rfl) (fun t => by rw [hafter]; unfold Dat.blockOf iblk19; rw [hA]; try rfl) t d).trans
    (by unfold Dat.fetched Dat.blockOf iblk19; rw [hA]; try rfl)

/-- What the body leaves in output window 6's buffer: its one store, over the input blocks. -/
def out19_6 (x0 : Vec F S4000x64 .f32) (x1 : Vec F S4000x64 .f32) (x2 : Vec F S1x64 .f32) (x3 : Vec F S1x64 .f32) (x4 : Vec F S1x64 .f32) (x5 : Vec F S1x64 .f32) : Vec F S4000x64 .f32 :=
  View.canon [⟨Rect.unit (s := S4000x64) ![0, 0] S4000x64.size inb_S4000x64_S4000x64_0_0, k19_pay1 (View.ld x3 (Rect.unit (s := S1x64) ![0, 0] S1x64.size inb_S1x64_S1x64_0_0)) (View.ld x0 (Rect.unit (s := S4000x64) ![0, 0] S4000x64.size inb_S4000x64_S4000x64_0_0)) (View.ld x2 (Rect.unit (s := S1x64) ![0, 0] S1x64.size inb_S1x64_S1x64_0_0)) (View.ld x4 (Rect.unit (s := S1x64) ![0, 0] S1x64.size inb_S1x64_S1x64_0_0)) (View.ld x5 (Rect.unit (s := S1x64) ![0, 0] S1x64.size inb_S1x64_S1x64_0_0)) (View.ld x1 (Rect.unit (s := S4000x64) ![0, 0] S4000x64.size inb_S4000x64_S4000x64_0_0))⟩]

theorem cover19_6 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

set_option maxHeartbeats 4000000 in
/-- The body on whole staging memrefs, the inputs' at read contents and the outputs' at anything, runs to the
    continuation holding the inputs' as they were and each output's at its function of the inputs'. -/
theorem sound_kernel19 (c : Dev nD) (E : Set ℕ) (i : grid19.Coords) (arg0 : Memref sig .tc .vmem S4000x64 .f32) (harg0 : arg0.IsWhole) (arg1 : Memref sig .tc .vmem S4000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S4000x64 .f32) (harg6 : arg6.IsWhole)
    (x0 : Vec F S4000x64 .f32) (x1 : Vec F S4000x64 .f32) (x2 : Vec F S1x64 .f32) (x3 : Vec F S1x64 .f32) (x4 : Vec F S1x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out19_6 x0 x1 x2 x3 x4 x5)) -∗ K ⟨⟩))
      ⊢ wp frame (wpE (defs₀ (F := F)) Variants.none c none) E (cc19__bn_relu_residual_kernel i arg0 harg0 arg1 harg1 arg2 harg2 arg3 harg3 arg4 harg4 arg5 harg5 arg6 harg6) K := by
  simp only [cc19__bn_relu_residual_kernel_eq_skeleton]; unfold cc19__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover19_6 _)

/-- The proof data of this region on core c: the arrays as the region finds them; after the body at point t each
    input's buffer at its block and each output's at its function of the input blocks; nothing owed; full shares. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => iblk19 V c 3 t
    | ⟨4, _⟩ => iblk19 V c 4 t
    | ⟨5, _⟩ => iblk19 V c 5 t
    | ⟨6, _⟩ => out19_6 (iblk19 V c 0 t) (iblk19 V c 1 t) (iblk19 V c 2 t) (iblk19 V c 3 t) (iblk19 V c 4 t) (iblk19 V c 5 t)
  Φ _ := Pipeline.ΦA spec19 c
  q _ := fullShare
  owed _ := 0

theorem A_eq19 (c : Dev nD) (w : Fin cfg19.W) : (dat19 V c).A w = V c (Pipeline.arrRef spec19 w) := by
  dsimp only [dat19]

theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = iblk19 V c 2 t := by dsimp only [dat19]
theorem after19_3 (c : Dev nD) (t : Fin cfg19.N) : (dat19 V c).after 3 t = iblk19 V c 3 t := by dsimp only [dat19]
theorem after19_4 (c : Dev nD) (t : Fin cfg19.N) : (dat19 V c).after 4 t = iblk19 V c 4 t := by dsimp only [dat19]
theorem after19_5 (c : Dev nD) (t : Fin cfg19.N) : (dat19 V c).after 5 t = iblk19 V c 5 t := by dsimp only [dat19]
theorem after19_6 (c : Dev nD) (t : Fin cfg19.N) : (dat19 V c).after 6 t = out19_6 (iblk19 V c 0 t) (iblk19 V c 1 t) (iblk19 V c 2 t) (iblk19 V c 3 t) (iblk19 V c 4 t) (iblk19 V c 5 t) := by dsimp only [dat19]

theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d
theorem before19_2 (c : Dev nD) (t : Fin cfg19.N) (d) : (dat19 V c).before 2 t d = iblk19 V c 2 t :=
  before19_2_of V (dat19 V c) (A_eq19 V c 2) (after19_2 V c) t d
theorem before19_3 (c : Dev nD) (t : Fin cfg19.N) (d) : (dat19 V c).before 3 t d = iblk19 V c 3 t :=
  before19_3_of V (dat19 V c) (A_eq19 V c 3) (after19_3 V c) t d
theorem before19_4 (c : Dev nD) (t : Fin cfg19.N) (d) : (dat19 V c).before 4 t d = iblk19 V c 4 t :=
  before19_4_of V (dat19 V c) (A_eq19 V c 4) (after19_4 V c) t d
theorem before19_5 (c : Dev nD) (t : Fin cfg19.N) (d) : (dat19 V c).before 5 t d = iblk19 V c 5 t :=
  before19_5_of V (dat19 V c) (A_eq19 V c 5) (after19_5 V c) t d

def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d))
    ∗ (∃ d, owns (c : Thread nD τ) (st19_3 t) fullShare ((dat19 V c).before 3 t d))
    ∗ (∃ d, owns (c : Thread nD τ) (st19_4 t) fullShare ((dat19 V c).before 4 t d))
    ∗ (∃ d, owns (c : Thread nD τ) (st19_5 t) fullShare ((dat19 V c).before 5 t d))
    ∗ (∃ d, owns (c : Thread nD τ) (st19_6 t) fullShare ((dat19 V c).before 6 t d)))

def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t)
    ∗ owns (c : Thread nD τ) (st19_3 t) fullShare ((dat19 V c).after 3 t)
    ∗ owns (c : Thread nD τ) (st19_4 t) fullShare ((dat19 V c).after 4 t)
    ∗ owns (c : Thread nD τ) (st19_5 t) fullShare ((dat19 V c).after 5 t)
    ∗ owns (c : Thread nD τ) (st19_6 t) fullShare ((dat19 V c).after 6 t))

theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1, before19_2, before19_3, before19_4, before19_5]
  rw [show (dat19 V c).Φ t.succ = (dat19 V c).Φ t.castSucc from rfl,
    show (dat19 V c).owesAt () t.succ = (dat19 V c).owesAt () t.castSucc from rfl,
    after19_0, after19_1, after19_2, after19_3, after19_4, after19_5, after19_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel19 c Set.univ _ _ _ _ _ _ _ _ _ _ _ _ _ _ _ (iblk19 V c 0 t) (iblk19 V c 1 t) (iblk19 V c 2 t) (iblk19 V c 3 t) (iblk19 V c 4 t) (iblk19 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation19 (c : Dev nD) : BodyObligation (dat19 (F := F) V c) (defs₀ (F := F)) Variants.none () Set.univ := fun t => by
  rw [bigSep_W19, bigSep_W19]
  exact sound_body19 V c t

end Cert.Kernel.Hand

end
-- ==== Proof.K.Reg20.lean ====
import proofs.«431450_j74423193305350_1_alg».proof.Proof.Gen.Kernel.Launch
import proofs.«431450_j74423193305350_1_alg».proof.Proof.Gen.Kernel.Skeleton
import proofs.«431450_j74423193305350_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 20 (cc20__mlp_kernel) at the contents V its arrays hold when it is entered: what each output window's
    buffer holds after the body as a function of the input windows' blocks, the body's triple, the proof data
    (arrays at V, each input left as found, each output at that function) and the body obligation at every point. -/
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- Input window 0's staging buffer holds its block at every point, fetched there or not. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

/-- Input window 1's staging buffer holds its block at every point, fetched there or not. -/
theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

/-- Input window 2's staging buffer holds its block at every point, fetched there or not. -/
theorem before20_2_of {c : Dev nD} (dat : Dat τ (Elt F) Unit ℕ (UR sig nD τ) ℕ cfg20 c) (hA : dat.A 2 = V c (Pipeline.arrRef spec20 2))
    (hafter : ∀ t, dat.after 2 t = iblk20 V c 2 t) (t : Fin cfg20.N) (d) : dat.before 2 t d = iblk20 V c 2 t :=
  (dat.before_in_eq_fetched 2 rfl (fun _ => rfl) (fun _ _ _ => rfl) (fun t => by rw [hafter]; unfold Dat.blockOf iblk20; rw [hA]; try rfl) t d).trans
    (by unfold Dat.fetched Dat.blockOf iblk20; rw [hA]; try rfl)

/-- Input window 3's staging buffer holds its block at every point, fetched there or not. -/
theorem before20_3_of {c : Dev nD} (dat : Dat τ (Elt F) Unit ℕ (UR sig nD τ) ℕ cfg20 c) (hA : dat.A 3 = V c (Pipeline.arrRef spec20 3))
    (hafter : ∀ t, dat.after 3 t = iblk20 V c 3 t) (t : Fin cfg20.N) (d) : dat.before 3 t d = iblk20 V c 3 t :=
  (dat.before_in_eq_fetched 3 rfl (fun _ => rfl) (fun _ _ _ => rfl) (fun t => by rw [hafter]; unfold Dat.blockOf iblk20; rw [hA]; try rfl) t d).trans
    (by unfold Dat.fetched Dat.blockOf iblk20; rw [hA]; try rfl)

/-- Input window 4's staging buffer holds its block at every point, fetched there or not. -/
theorem before20_4_of {c : Dev nD} (dat : Dat τ (Elt F) Unit ℕ (UR sig nD τ) ℕ cfg20 c) (hA : dat.A 4 = V c (Pipeline.arrRef spec20 4))
    (hafter : ∀ t, dat.after 4 t = iblk20 V c 4 t) (t : Fin cfg20.N) (d) : dat.before 4 t d = iblk20 V c 4 t :=
  (dat.before_in_eq_fetched 4 rfl (fun _ => rfl) (fun _ _ _ => rfl) (fun t => by rw [hafter]; unfold Dat.blockOf iblk20; rw [hA]; try rfl) t d).trans
    (by unfold Dat.fetched Dat.blockOf iblk20; rw [hA]; try rfl)

/-- Input window 5's staging buffer holds its block at every point, fetched there or not. -/
theorem before20_5_of {c : Dev nD} (dat : Dat τ (Elt F) Unit ℕ (UR sig nD τ) ℕ cfg20 c) (hA : dat.A 5 = V c (Pipeline.arrRef spec20 5))
    (hafter : ∀ t, dat.after 5 t = iblk20 V c 5 t) (t : Fin cfg20.N) (d) : dat.before 5 t d = iblk20 V c 5 t :=
  (dat.before_in_eq_fetched 5 rfl (fun _ => rfl) (fun _ _ _ => rfl) (fun t => by rw [hafter]; unfold Dat.blockOf iblk20; rw [hA]; try rfl) t d).trans
    (by unfold Dat.fetched Dat.blockOf iblk20; rw [hA]; try rfl)

/-- Input window 6's staging buffer holds its block at every point, fetched there or not. -/
theorem before20_6_of {c : Dev nD} (dat : Dat τ (Elt F) Unit ℕ (UR sig nD τ) ℕ cfg20 c) (hA : dat.A 6 = V c (Pipeline.arrRef spec20 6))
    (hafter : ∀ t, dat.after 6 t = iblk20 V c 6 t) (t : Fin cfg20.N) (d) : dat.before 6 t d = iblk20 V c 6 t :=
  (dat.before_in_eq_fetched 6 rfl (fun _ => rfl) (fun _ _ _ => rfl) (fun t => by rw [hafter]; unfold Dat.blockOf iblk20; rw [hA]; try rfl) t d).trans
    (by unfold Dat.fetched Dat.blockOf iblk20; rw [hA]; try rfl)

/-- What the body leaves in output window 7's buffer: its one store, over the input blocks. -/
def out20_7 (x0 : Vec F S16x68 .f32) (x1 : Vec F S68x256 .f32) (x2 : Vec F S1x256 .f32) (x3 : Vec F S256x256 .f32) (x4 : Vec F S1x256 .f32) (x5 : Vec F S256x2 .f32) (x6 : Vec F S1x2 .f32) : Vec F S16x2 .f32 :=
  View.canon [⟨Rect.unit (s := S16x2) ![0, 0] S16x2.size inb_S16x2_S16x2_0_0, k20_pay1 (View.ld x0 (Rect.unit (s := S16x68) ![0, 0] S16x68.size inb_S16x68_S16x68_0_0)) (View.ld x1 (Rect.unit (s := S68x256) ![0, 0] S68x256.size inb_S68x256_S68x256_0_0)) (View.ld x2 (Rect.unit (s := S1x256) ![0, 0] S1x256.size inb_S1x256_S1x256_0_0)) (View.ld x3 (Rect.unit (s := S256x256) ![0, 0] S256x256.size inb_S256x256_S256x256_0_0)) (View.ld x4 (Rect.unit (s := S1x256) ![0, 0] S1x256.size inb_S1x256_S1x256_0_0)) (View.ld x5 (Rect.unit (s := S256x2) ![0, 0] S256x2.size inb_S256x2_S256x2_0_0)) (View.ld x6 (Rect.unit (s := S1x2) ![0, 0] S1x2.size inb_S1x2_S1x2_0_0))⟩]

theorem cover20_7 (p0 : Vec F S16x2 .f32) (y : S16x2.Idx) :
    ∃ pc ∈ ([⟨Rect.unit (s := S16x2) ![0, 0] S16x2.size inb_S16x2_S16x2_0_0, p0⟩] : List (View.Piece (Elt F) S16x2 .f32)), y ∈ pc.1.set :=
  View.cover_of_tiled [⟨Rect.unit (s := S16x2) ![0, 0] S16x2.size inb_S16x2_S16x2_0_0, p0⟩] S16x2.size (by rfl) y

set_option maxHeartbeats 4000000 in
/-- The body on whole staging memrefs, the inputs' at read contents and the outputs' at anything, runs to the
    continuation holding the inputs' as they were and each output's at its function of the inputs'. -/
theorem sound_kernel20 (c : Dev nD) (E : Set ℕ) (i : grid20.Coords) (arg0 : Memref sig .tc .vmem S16x68 .f32) (harg0 : arg0.IsWhole) (arg1 : Memref sig .tc .vmem S68x256 .f32) (harg1 : arg1.IsWhole) (arg2 : Memref sig .tc .vmem S1x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x2 .f32) (harg5 : arg5.IsWhole) (arg6 : Memref sig .tc .vmem S1x2 .f32) (harg6 : arg6.IsWhole) (arg7 : Memref sig .tc .vmem S16x2 .f32) (harg7 : arg7.IsWhole)
    (x0 : Vec F S16x68 .f32) (x1 : Vec F S68x256 .f32) (x2 : Vec F S1x256 .f32) (x3 : Vec F S256x256 .f32) (x4 : Vec F S1x256 .f32) (x5 : Vec F S256x2 .f32) (x6 : Vec F S1x2 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out20_7 x0 x1 x2 x3 x4 x5 x6)) -∗ K ⟨⟩))
      ⊢ wp frame (wpE (defs₀ (F := F)) Variants.none c none) E (cc20__mlp_kernel i arg0 harg0 arg1 harg1 arg2 harg2 arg3 harg3 arg4 harg4 arg5 harg5 arg6 harg6 arg7 harg7) K := by
  simp only [cc20__mlp_kernel_eq_skeleton]; unfold cc20__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover20_7 _)

/-- The proof data of this region on core c: the arrays as the region finds them; after the body at point t each
    input's buffer at its block and each output's at its function of the input blocks; nothing owed; full shares. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => iblk20 V c 2 t
    | ⟨3, _⟩ => iblk20 V c 3 t
    | ⟨4, _⟩ => iblk20 V c 4 t
    | ⟨5, _⟩ => iblk20 V c 5 t
    | ⟨6, _⟩ => iblk20 V c 6 t
    | ⟨7, _⟩ => out20_7 (iblk20 V c 0 t) (iblk20 V c 1 t) (iblk20 V c 2 t) (iblk20 V c 3 t) (iblk20 V c 4 t) (iblk20 V c 5 t) (iblk20 V c 6 t)
  Φ _ := Pipeline.ΦA spec20 c
  q _ := fullShare
  owed _ := 0

theorem A_eq20 (c : Dev nD) (w : Fin cfg20.W) : (dat20 V c).A w = V c (Pipeline.arrRef spec20 w) := by
  dsimp only [dat20]

theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = iblk20 V c 2 t := by dsimp only [dat20]
theorem after20_3 (c : Dev nD) (t : Fin cfg20.N) : (dat20 V c).after 3 t = iblk20 V c 3 t := by dsimp only [dat20]
theorem after20_4 (c : Dev nD) (t : Fin cfg20.N) : (dat20 V c).after 4 t = iblk20 V c 4 t := by dsimp only [dat20]
theorem after20_5 (c : Dev nD) (t : Fin cfg20.N) : (dat20 V c).after 5 t = iblk20 V c 5 t := by dsimp only [dat20]
theorem after20_6 (c : Dev nD) (t : Fin cfg20.N) : (dat20 V c).after 6 t = iblk20 V c 6 t := by dsimp only [dat20]
theorem after20_7 (c : Dev nD) (t : Fin cfg20.N) : (dat20 V c).after 7 t = out20_7 (iblk20 V c 0 t) (iblk20 V c 1 t) (iblk20 V c 2 t) (iblk20 V c 3 t) (iblk20 V c 4 t) (iblk20 V c 5 t) (iblk20 V c 6 t) := by dsimp only [dat20]

theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d
theorem before20_2 (c : Dev nD) (t : Fin cfg20.N) (d) : (dat20 V c).before 2 t d = iblk20 V c 2 t :=
  before20_2_of V (dat20 V c) (A_eq20 V c 2) (after20_2 V c) t d
theorem before20_3 (c : Dev nD) (t : Fin cfg20.N) (d) : (dat20 V c).before 3 t d = iblk20 V c 3 t :=
  before20_3_of V (dat20 V c) (A_eq20 V c 3) (after20_3 V c) t d
theorem before20_4 (c : Dev nD) (t : Fin cfg20.N) (d) : (dat20 V c).before 4 t d = iblk20 V c 4 t :=
  before20_4_of V (dat20 V c) (A_eq20 V c 4) (after20_4 V c) t d
theorem before20_5 (c : Dev nD) (t : Fin cfg20.N) (d) : (dat20 V c).before 5 t d = iblk20 V c 5 t :=
  before20_5_of V (dat20 V c) (A_eq20 V c 5) (after20_5 V c) t d
theorem before20_6 (c : Dev nD) (t : Fin cfg20.N) (d) : (dat20 V c).before 6 t d = iblk20 V c 6 t :=
  before20_6_of V (dat20 V c) (A_eq20 V c 6) (after20_6 V c) t d

def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d))
    ∗ (∃ d, owns (c : Thread nD τ) (st20_3 t) fullShare ((dat20 V c).before 3 t d))
    ∗ (∃ d, owns (c : Thread nD τ) (st20_4 t) fullShare ((dat20 V c).before 4 t d))
    ∗ (∃ d, owns (c : Thread nD τ) (st20_5 t) fullShare ((dat20 V c).before 5 t d))
    ∗ (∃ d, owns (c : Thread nD τ) (st20_6 t) fullShare ((dat20 V c).before 6 t d))
    ∗ (∃ d, owns (c : Thread nD τ) (st20_7 t) fullShare ((dat20 V c).before 7 t d)))

def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t)
    ∗ owns (c : Thread nD τ) (st20_3 t) fullShare ((dat20 V c).after 3 t)
    ∗ owns (c : Thread nD τ) (st20_4 t) fullShare ((dat20 V c).after 4 t)
    ∗ owns (c : Thread nD τ) (st20_5 t) fullShare ((dat20 V c).after 5 t)
    ∗ owns (c : Thread nD τ) (st20_6 t) fullShare ((dat20 V c).after 6 t)
    ∗ owns (c : Thread nD τ) (st20_7 t) fullShare ((dat20 V c).after 7 t))

theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1, before20_2, before20_3, before20_4, before20_5, before20_6]
  rw [show (dat20 V c).Φ t.succ = (dat20 V c).Φ t.castSucc from rfl,
    show (dat20 V c).owesAt () t.succ = (dat20 V c).owesAt () t.castSucc from rfl,
    after20_0, after20_1, after20_2, after20_3, after20_4, after20_5, after20_6, after20_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel20 c Set.univ _ _ _ _ _ _ _ _ _ _ _ _ _ _ _ _ _ (iblk20 V c 0 t) (iblk20 V c 1 t) (iblk20 V c 2 t) (iblk20 V c 3 t) (iblk20 V c 4 t) (iblk20 V c 5 t) (iblk20 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation20 (c : Dev nD) : BodyObligation (dat20 (F := F) V c) (defs₀ (F := F)) Variants.none () Set.univ := fun t => by
  rw [bigSep_W20, bigSep_W20]
  exact sound_body20 V c t

end Cert.Kernel.Hand

end
-- ==== Proof.K.Fold.lean ====
import proofs.«431450_j74423193305350_1_alg».proof.Proof.K.RegionsP
import proofs.«431450_j74423193305350_1_alg».proof.Proof.K.Reg0
import proofs.«431450_j74423193305350_1_alg».proof.Proof.K.Reg1
import proofs.«431450_j74423193305350_1_alg».proof.Proof.K.Reg2
import proofs.«431450_j74423193305350_1_alg».proof.Proof.K.Reg3
import proofs.«431450_j74423193305350_1_alg».proof.Proof.K.Reg4
import proofs.«431450_j74423193305350_1_alg».proof.Proof.K.Reg5
import proofs.«431450_j74423193305350_1_alg».proof.Proof.K.Reg6
import proofs.«431450_j74423193305350_1_alg».proof.Proof.K.Reg7
import proofs.«431450_j74423193305350_1_alg».proof.Proof.K.Reg8
import proofs.«431450_j74423193305350_1_alg».proof.Proof.K.Reg9
import proofs.«431450_j74423193305350_1_alg».proof.Proof.K.Reg10
import proofs.«431450_j74423193305350_1_alg».proof.Proof.K.Reg11
import proofs.«431450_j74423193305350_1_alg».proof.Proof.K.Reg12
import proofs.«431450_j74423193305350_1_alg».proof.Proof.K.Reg13
import proofs.«431450_j74423193305350_1_alg».proof.Proof.K.Reg14
import proofs.«431450_j74423193305350_1_alg».proof.Proof.K.Reg15
import proofs.«431450_j74423193305350_1_alg».proof.Proof.K.Reg16
import proofs.«431450_j74423193305350_1_alg».proof.Proof.K.Reg17
import proofs.«431450_j74423193305350_1_alg».proof.Proof.K.Reg18
import proofs.«431450_j74423193305350_1_alg».proof.Proof.K.Reg19
import proofs.«431450_j74423193305350_1_alg».proof.Proof.K.Reg20

/-! The run of @main: the contents of every unscoped buffer at each item boundary (a host stretch applies its
    operations; a region replaces each of its output arrays by what its write-backs leave), each region as a segment
    entered from one boundary's contents and left at the next, and the launch: every weakly fair execution ends with
    every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 (c : Dev nD) : Valuation τ sig (Elt F) := fun b => m (c, b)
abbrev T0 : (c : Dev nD) → (b : Ref sig .tc) → Buf (Elt F) ((c : Thread nD τ).loc b) := fun c b => W0 m c b
/-- After the host stretch hostOps0. -/
def W1 (c : Dev nD) : Valuation τ sig (Elt F) := StableHlo.after hostOps0 (W0 m c)
abbrev T1 : (c : Dev nD) → (b : Ref sig .tc) → Buf (Elt F) ((c : Thread nD τ).loc b) := fun c b => W1 m c b
/-- After region 0: each of its output arrays at what its write-backs leave, every other buffer as entered. -/
def W2 (c : Dev nD) : Valuation τ sig (Elt F) := Function.update (W1 m c) (Proc.devRef .tc (Pipeline.arrRef spec0 3)) ((dat0 (T1 m) c).arrAt 3 cfg0.N)
abbrev T2 : (c : Dev nD) → (b : Ref sig .tc) → Buf (Elt F) ((c : Thread nD τ).loc b) := fun c b => W2 m c b
/-- After the host stretch hostOps1. -/
def W3 (c : Dev nD) : Valuation τ sig (Elt F) := StableHlo.after hostOps1 (W2 m c)
abbrev T3 : (c : Dev nD) → (b : Ref sig .tc) → Buf (Elt F) ((c : Thread nD τ).loc b) := fun c b => W3 m c b
/-- After region 1: each of its output arrays at what its write-backs leave, every other buffer as entered. -/
def W4 (c : Dev nD) : Valuation τ sig (Elt F) := Function.update (W3 m c) (Proc.devRef .tc (Pipeline.arrRef spec1 3)) ((dat1 (T3 m) c).arrAt 3 cfg1.N)
abbrev T4 : (c : Dev nD) → (b : Ref sig .tc) → Buf (Elt F) ((c : Thread nD τ).loc b) := fun c b => W4 m c b
/-- After the host stretch hostOps2. -/
def W5 (c : Dev nD) : Valuation τ sig (Elt F) := StableHlo.after hostOps2 (W4 m c)
abbrev T5 : (c : Dev nD) → (b : Ref sig .tc) → Buf (Elt F) ((c : Thread nD τ).loc b) := fun c b => W5 m c b
/-- After region 2: each of its output arrays at what its write-backs leave, every other buffer as entered. -/
def W6 (c : Dev nD) : Valuation τ sig (Elt F) := Function.update (W5 m c) (Proc.devRef .tc (Pipeline.arrRef spec2 3)) ((dat2 (T5 m) c).arrAt 3 cfg2.N)
abbrev T6 : (c : Dev nD) → (b : Ref sig .tc) → Buf (Elt F) ((c : Thread nD τ).loc b) := fun c b => W6 m c b
/-- After the host stretch hostOps3. -/
def W7 (c : Dev nD) : Valuation τ sig (Elt F) := StableHlo.after hostOps3 (W6 m c)
abbrev T7 : (c : Dev nD) → (b : Ref sig .tc) → Buf (Elt F) ((c : Thread nD τ).loc b) := fun c b => W7 m c b
/-- After region 3: each of its output arrays at what its write-backs leave, every other buffer as entered. -/
def W8 (c : Dev nD) : Valuation τ sig (Elt F) := Function.update (W7 m c) (Proc.devRef .tc (Pipeline.arrRef spec3 3)) ((dat3 (T7 m) c).arrAt 3 cfg3.N)
abbrev T8 : (c : Dev nD) → (b : Ref sig .tc) → Buf (Elt F) ((c : Thread nD τ).loc b) := fun c b => W8 m c b
/-- After the host stretch hostOps4. -/
def W9 (c : Dev nD) : Valuation τ sig (Elt F) := StableHlo.after hostOps4 (W8 m c)
abbrev T9 : (c : Dev nD) → (b : Ref sig .tc) → Buf (Elt F) ((c : Thread nD τ).loc b) := fun c b => W9 m c b
/-- After the host stretch hostOps4_1. -/
def W10 (c : Dev nD) : Valuation τ sig (Elt F) := StableHlo.after hostOps4_1 (W9 m c)
abbrev T10 : (c : Dev nD) → (b : Ref sig .tc) → Buf (Elt F) ((c : Thread nD τ).loc b) := fun c b => W10 m c b
/-- After the host stretch hostOps4_2. -/
def W11 (c : Dev nD) : Valuation τ sig (Elt F) := StableHlo.after hostOps4_2 (W10 m c)
abbrev T11 : (c : Dev nD) → (b : Ref sig .tc) → Buf (Elt F) ((c : Thread nD τ).loc b) := fun c b => W11 m c b
/-- After region 4: each of its output arrays at what its write-backs leave, every other buffer as entered. -/
def W12 (c : Dev nD) : Valuation τ sig (Elt F) := Function.update (Function.update (Function.update (W11 m c) (Proc.devRef .tc (Pipeline.arrRef spec4 4)) ((dat4 (T11 m) c).arrAt 4 cfg4.N)) (Proc.devRef .tc (Pipeline.arrRef spec4 5)) ((dat4 (T11 m) c).arrAt 5 cfg4.N)) (Proc.devRef .tc (Pipeline.arrRef spec4 6)) ((dat4 (T11 m) c).arrAt 6 cfg4.N)
abbrev T12 : (c : Dev nD) → (b : Ref sig .tc) → Buf (Elt F) ((c : Thread nD τ).loc b) := fun c b => W12 m c b
/-- After the host stretch hostOps5. -/
def W13 (c : Dev nD) : Valuation τ sig (Elt F) := StableHlo.after hostOps5 (W12 m c)
abbrev T13 : (c : Dev nD) → (b : Ref sig .tc) → Buf (Elt F) ((c : Thread nD τ).loc b) := fun c b => W13 m c b
/-- After region 5: each of its output arrays at what its write-backs leave, every other buffer as entered. -/
def W14 (c : Dev nD) : Valuation τ sig (Elt F) := Function.update (W13 m c) (Proc.devRef .tc (Pipeline.arrRef spec5 3)) ((dat5 (T13 m) c).arrAt 3 cfg5.N)
abbrev T14 : (c : Dev nD) → (b : Ref sig .tc) → Buf (Elt F) ((c : Thread nD τ).loc b) := fun c b => W14 m c b
/-- After the host stretch hostOps6. -/
def W15 (c : Dev nD) : Valuation τ sig (Elt F) := StableHlo.after hostOps6 (W14 m c)
abbrev T15 : (c : Dev nD) → (b : Ref sig .tc) → Buf (Elt F) ((c : Thread nD τ).loc b) := fun c b => W15 m c b
/-- After the host stretch hostOps6_1. -/
def W16 (c : Dev nD) : Valuation τ sig (Elt F) := StableHlo.after hostOps6_1 (W15 m c)
abbrev T16 : (c : Dev nD) → (b : Ref sig .tc) → Buf (Elt F) ((c : Thread nD τ).loc b) := fun c b => W16 m c b
/-- After the host stretch hostOps6_2. -/
def W17 (c : Dev nD) : Valuation τ sig (Elt F) := StableHlo.after hostOps6_2 (W16 m c)
abbrev T17 : (c : Dev nD) → (b : Ref sig .tc) → Buf (Elt F) ((c : Thread nD τ).loc b) := fun c b => W17 m c b
/-- After region 6: each of its output arrays at what its write-backs leave, every other buffer as entered. -/
def W18 (c : Dev nD) : Valuation τ sig (Elt F) := Function.update (W17 m c) (Proc.devRef .tc (Pipeline.arrRef spec6 6)) ((dat6 (T17 m) c).arrAt 6 cfg6.N)
abbrev T18 : (c : Dev nD) → (b : Ref sig .tc) → Buf (Elt F) ((c : Thread nD τ).loc b) := fun c b => W18 m c b
/-- After the host stretch hostOps7. -/
def W19 (c : Dev nD) : Valuation τ sig (Elt F) := StableHlo.after hostOps7 (W18 m c)
abbrev T19 : (c : Dev nD) → (b : Ref sig .tc) → Buf (Elt F) ((c : Thread nD τ).loc b) := fun c b => W19 m c b
/-- After the host stretch hostOps7_1. -/
def W20 (c : Dev nD) : Valuation τ sig (Elt F) := StableHlo.after hostOps7_1 (W19 m c)
abbrev T20 : (c : Dev nD) → (b : Ref sig .tc) → Buf (Elt F) ((c : Thread nD τ).loc b) := fun c b => W20 m c b
/-- After the host stretch hostOps7_2. -/
def W21 (c : Dev nD) : Valuation τ sig (Elt F) := StableHlo.after hostOps7_2 (W20 m c)
abbrev T21 : (c : Dev nD) → (b : Ref sig .tc) → Buf (Elt F) ((c : Thread nD τ).loc b) := fun c b => W21 m c b
/-- After region 7: each of its output arrays at what its write-backs leave, every other buffer as entered. -/
def W22 (c : Dev nD) : Valuation τ sig (Elt F) := Function.update (W21 m c) (Proc.devRef .tc (Pipeline.arrRef spec7 6)) ((dat7 (T21 m) c).arrAt 6 cfg7.N)
abbrev T22 : (c : Dev nD) → (b : Ref sig .tc) → Buf (Elt F) ((c : Thread nD τ).loc b) := fun c b => W22 m c b
/-- After the host stretch hostOps8. -/
def W23 (c : Dev nD) : Valuation τ sig (Elt F) := StableHlo.after hostOps8 (W22 m c)
abbrev T23 : (c : Dev nD) → (b : Ref sig .tc) → Buf (Elt F) ((c : Thread nD τ).loc b) := fun c b => W23 m c b
/-- After region 8: each of its output arrays at what its write-backs leave, every other buffer as entered. -/
def W24 (c : Dev nD) : Valuation τ sig (Elt F) := Function.update (W23 m c) (Proc.devRef .tc (Pipeline.arrRef spec8 3)) ((dat8 (T23 m) c).arrAt 3 cfg8.N)
abbrev T24 : (c : Dev nD) → (b : Ref sig .tc) → Buf (Elt F) ((c : Thread nD τ).loc b) := fun c b => W24 m c b
/-- After the host stretch hostOps9. -/
def W25 (c : Dev nD) : Valuation τ sig (Elt F) := StableHlo.after hostOps9 (W24 m c)
abbrev T25 : (c : Dev nD) → (b : Ref sig .tc) → Buf (Elt F) ((c : Thread nD τ).loc b) := fun c b => W25 m c b
/-- After region 9: each of its output arrays at what its write-backs leave, every other buffer as entered. -/
def W26 (c : Dev nD) : Valuation τ sig (Elt F) := Function.update (W25 m c) (Proc.devRef .tc (Pipeline.arrRef spec9 3)) ((dat9 (T25 m) c).arrAt 3 cfg9.N)
abbrev T26 : (c : Dev nD) → (b : Ref sig .tc) → Buf (Elt F) ((c : Thread nD τ).loc b) := fun c b => W26 m c b
/-- After the host stretch hostOps10. -/
def W27 (c : Dev nD) : Valuation τ sig (Elt F) := StableHlo.after hostOps10 (W26 m c)
abbrev T27 : (c : Dev nD) → (b : Ref sig .tc) → Buf (Elt F) ((c : Thread nD τ).loc b) := fun c b => W27 m c b
/-- After the host stretch hostOps10_1. -/
def W28 (c : Dev nD) : Valuation τ sig (Elt F) := StableHlo.after hostOps10_1 (W27 m c)
abbrev T28 : (c : Dev nD) → (b : Ref sig .tc) → Buf (Elt F) ((c : Thread nD τ).loc b) := fun c b => W28 m c b
/-- After the host stretch hostOps10_2. -/
def W29 (c : Dev nD) : Valuation τ sig (Elt F) := StableHlo.after hostOps10_2 (W28 m c)
abbrev T29 : (c : Dev nD) → (b : Ref sig .tc) → Buf (Elt F) ((c : Thread nD τ).loc b) := fun c b => W29 m c b
/-- After region 10: each of its output arrays at what its write-backs leave, every other buffer as entered. -/
def W30 (c : Dev nD) : Valuation τ sig (Elt F) := Function.update (Function.update (Function.update (W29 m c) (Proc.devRef .tc (Pipeline.arrRef spec10 4)) ((dat10 (T29 m) c).arrAt 4 cfg10.N)) (Proc.devRef .tc (Pipeline.arrRef spec10 5)) ((dat10 (T29 m) c).arrAt 5 cfg10.N)) (Proc.devRef .tc (Pipeline.arrRef spec10 6)) ((dat10 (T29 m) c).arrAt 6 cfg10.N)
abbrev T30 : (c : Dev nD) → (b : Ref sig .tc) → Buf (Elt F) ((c : Thread nD τ).loc b) := fun c b => W30 m c b
/-- After the host stretch hostOps11. -/
def W31 (c : Dev nD) : Valuation τ sig (Elt F) := StableHlo.after hostOps11 (W30 m c)
abbrev T31 : (c : Dev nD) → (b : Ref sig .tc) → Buf (Elt F) ((c : Thread nD τ).loc b) := fun c b => W31 m c b
/-- After region 11: each of its output arrays at what its write-backs leave, every other buffer as entered. -/
def W32 (c : Dev nD) : Valuation τ sig (Elt F) := Function.update (W31 m c) (Proc.devRef .tc (Pipeline.arrRef spec11 3)) ((dat11 (T31 m) c).arrAt 3 cfg11.N)
abbrev T32 : (c : Dev nD) → (b : Ref sig .tc) → Buf (Elt F) ((c : Thread nD τ).loc b) := fun c b => W32 m c b
/-- After the host stretch hostOps12. -/
def W33 (c : Dev nD) : Valuation τ sig (Elt F) := StableHlo.after hostOps12 (W32 m c)
abbrev T33 : (c : Dev nD) → (b : Ref sig .tc) → Buf (Elt F) ((c : Thread nD τ).loc b) := fun c b => W33 m c b
/-- After the host stretch hostOps12_1. -/
def W34 (c : Dev nD) : Valuation τ sig (Elt F) := StableHlo.after hostOps12_1 (W33 m c)
abbrev T34 : (c : Dev nD) → (b : Ref sig .tc) → Buf (Elt F) ((c : Thread nD τ).loc b) := fun c b => W34 m c b
/-- After the host stretch hostOps12_2. -/
def W35 (c : Dev nD) : Valuation τ sig (Elt F) := StableHlo.after hostOps12_2 (W34 m c)
abbrev T35 : (c : Dev nD) → (b : Ref sig .tc) → Buf (Elt F) ((c : Thread nD τ).loc b) := fun c b => W35 m c b
/-- After region 12: each of its output arrays at what its write-backs leave, every other buffer as entered. -/
def W36 (c : Dev nD) : Valuation τ sig (Elt F) := Function.update (W35 m c) (Proc.devRef .tc (Pipeline.arrRef spec12 6)) ((dat12 (T35 m) c).arrAt 6 cfg12.N)
abbrev T36 : (c : Dev nD) → (b : Ref sig .tc) → Buf (Elt F) ((c : Thread nD τ).loc b) := fun c b => W36 m c b
/-- After the host stretch hostOps13. -/
def W37 (c : Dev nD) : Valuation τ sig (Elt F) := StableHlo.after hostOps13 (W36 m c)
abbrev T37 : (c : Dev nD) → (b : Ref sig .tc) → Buf (Elt F) ((c : Thread nD τ).loc b) := fun c b => W37 m c b
/-- After the host stretch hostOps13_1. -/
def W38 (c : Dev nD) : Valuation τ sig (Elt F) := StableHlo.after hostOps13_1 (W37 m c)
abbrev T38 : (c : Dev nD) → (b : Ref sig .tc) → Buf (Elt F) ((c : Thread nD τ).loc b) := fun c b => W38 m c b
/-- After the host stretch hostOps13_2. -/
def W39 (c : Dev nD) : Valuation τ sig (Elt F) := StableHlo.after hostOps13_2 (W38 m c)
abbrev T39 : (c : Dev nD) → (b : Ref sig .tc) → Buf (Elt F) ((c : Thread nD τ).loc b) := fun c b => W39 m c b
/-- After region 13: each of its output arrays at what its write-backs leave, every other buffer as entered. -/
def W40 (c : Dev nD) : Valuation τ sig (Elt F) := Function.update (W39 m c) (Proc.devRef .tc (Pipeline.arrRef spec13 6)) ((dat13 (T39 m) c).arrAt 6 cfg13.N)
abbrev T40 : (c : Dev nD) → (b : Ref sig .tc) → Buf (Elt F) ((c : Thread nD τ).loc b) := fun c b => W40 m c b
/-- After the host stretch hostOps14. -/
def W41 (c : Dev nD) : Valuation τ sig (Elt F) := StableHlo.after hostOps14 (W40 m c)
abbrev T41 : (c : Dev nD) → (b : Ref sig .tc) → Buf (Elt F) ((c : Thread nD τ).loc b) := fun c b => W41 m c b
/-- After region 14: each of its output arrays at what its write-backs leave, every other buffer as entered. -/
def W42 (c : Dev nD) : Valuation τ sig (Elt F) := Function.update (W41 m c) (Proc.devRef .tc (Pipeline.arrRef spec14 3)) ((dat14 (T41 m) c).arrAt 3 cfg14.N)
abbrev T42 : (c : Dev nD) → (b : Ref sig .tc) → Buf (Elt F) ((c : Thread nD τ).loc b) := fun c b => W42 m c b
/-- After the host stretch hostOps15. -/
def W43 (c : Dev nD) : Valuation τ sig (Elt F) := StableHlo.after hostOps15 (W42 m c)
abbrev T43 : (c : Dev nD) → (b : Ref sig .tc) → Buf (Elt F) ((c : Thread nD τ).loc b) := fun c b => W43 m c b
/-- After region 15: each of its output arrays at what its write-backs leave, every other buffer as entered. -/
def W44 (c : Dev nD) : Valuation τ sig (Elt F) := Function.update (W43 m c) (Proc.devRef .tc (Pipeline.arrRef spec15 3)) ((dat15 (T43 m) c).arrAt 3 cfg15.N)
abbrev T44 : (c : Dev nD) → (b : Ref sig .tc) → Buf (Elt F) ((c : Thread nD τ).loc b) := fun c b => W44 m c b
/-- After the host stretch hostOps16. -/
def W45 (c : Dev nD) : Valuation τ sig (Elt F) := StableHlo.after hostOps16 (W44 m c)
abbrev T45 : (c : Dev nD) → (b : Ref sig .tc) → Buf (Elt F) ((c : Thread nD τ).loc b) := fun c b => W45 m c b
/-- After the host stretch hostOps16_1. -/
def W46 (c : Dev nD) : Valuation τ sig (Elt F) := StableHlo.after hostOps16_1 (W45 m c)
abbrev T46 : (c : Dev nD) → (b : Ref sig .tc) → Buf (Elt F) ((c : Thread nD τ).loc b) := fun c b => W46 m c b
/-- After the host stretch hostOps16_2. -/
def W47 (c : Dev nD) : Valuation τ sig (Elt F) := StableHlo.after hostOps16_2 (W46 m c)
abbrev T47 : (c : Dev nD) → (b : Ref sig .tc) → Buf (Elt F) ((c : Thread nD τ).loc b) := fun c b => W47 m c b
/-- After region 16: each of its output arrays at what its write-backs leave, every other buffer as entered. -/
def W48 (c : Dev nD) : Valuation τ sig (Elt F) := Function.update (Function.update (Function.update (W47 m c) (Proc.devRef .tc (Pipeline.arrRef spec16 4)) ((dat16 (T47 m) c).arrAt 4 cfg16.N)) (Proc.devRef .tc (Pipeline.arrRef spec16 5)) ((dat16 (T47 m) c).arrAt 5 cfg16.N)) (Proc.devRef .tc (Pipeline.arrRef spec16 6)) ((dat16 (T47 m) c).arrAt 6 cfg16.N)
abbrev T48 : (c : Dev nD) → (b : Ref sig .tc) → Buf (Elt F) ((c : Thread nD τ).loc b) := fun c b => W48 m c b
/-- After the host stretch hostOps17. -/
def W49 (c : Dev nD) : Valuation τ sig (Elt F) := StableHlo.after hostOps17 (W48 m c)
abbrev T49 : (c : Dev nD) → (b : Ref sig .tc) → Buf (Elt F) ((c : Thread nD τ).loc b) := fun c b => W49 m c b
/-- After region 17: each of its output arrays at what its write-backs leave, every other buffer as entered. -/
def W50 (c : Dev nD) : Valuation τ sig (Elt F) := Function.update (W49 m c) (Proc.devRef .tc (Pipeline.arrRef spec17 3)) ((dat17 (T49 m) c).arrAt 3 cfg17.N)
abbrev T50 : (c : Dev nD) → (b : Ref sig .tc) → Buf (Elt F) ((c : Thread nD τ).loc b) := fun c b => W50 m c b
/-- After the host stretch hostOps18. -/
def W51 (c : Dev nD) : Valuation τ sig (Elt F) := StableHlo.after hostOps18 (W50 m c)
abbrev T51 : (c : Dev nD) → (b : Ref sig .tc) → Buf (Elt F) ((c : Thread nD τ).loc b) := fun c b => W51 m c b
/-- After the host stretch hostOps18_1. -/
def W52 (c : Dev nD) : Valuation τ sig (Elt F) := StableHlo.after hostOps18_1 (W51 m c)
abbrev T52 : (c : Dev nD) → (b : Ref sig .tc) → Buf (Elt F) ((c : Thread nD τ).loc b) := fun c b => W52 m c b
/-- After the host stretch hostOps18_2. -/
def W53 (c : Dev nD) : Valuation τ sig (Elt F) := StableHlo.after hostOps18_2 (W52 m c)
abbrev T53 : (c : Dev nD) → (b : Ref sig .tc) → Buf (Elt F) ((c : Thread nD τ).loc b) := fun c b => W53 m c b
/-- After region 18: each of its output arrays at what its write-backs leave, every other buffer as entered. -/
def W54 (c : Dev nD) : Valuation τ sig (Elt F) := Function.update (W53 m c) (Proc.devRef .tc (Pipeline.arrRef spec18 6)) ((dat18 (T53 m) c).arrAt 6 cfg18.N)
abbrev T54 : (c : Dev nD) → (b : Ref sig .tc) → Buf (Elt F) ((c : Thread nD τ).loc b) := fun c b => W54 m c b
/-- After the host stretch hostOps19. -/
def W55 (c : Dev nD) : Valuation τ sig (Elt F) := StableHlo.after hostOps19 (W54 m c)
abbrev T55 : (c : Dev nD) → (b : Ref sig .tc) → Buf (Elt F) ((c : Thread nD τ).loc b) := fun c b => W55 m c b
/-- After the host stretch hostOps19_1. -/
def W56 (c : Dev nD) : Valuation τ sig (Elt F) := StableHlo.after hostOps19_1 (W55 m c)
abbrev T56 : (c : Dev nD) → (b : Ref sig .tc) → Buf (Elt F) ((c : Thread nD τ).loc b) := fun c b => W56 m c b
/-- After the host stretch hostOps19_2. -/
def W57 (c : Dev nD) : Valuation τ sig (Elt F) := StableHlo.after hostOps19_2 (W56 m c)
abbrev T57 : (c : Dev nD) → (b : Ref sig .tc) → Buf (Elt F) ((c : Thread nD τ).loc b) := fun c b => W57 m c b
/-- After region 19: each of its output arrays at what its write-backs leave, every other buffer as entered. -/
def W58 (c : Dev nD) : Valuation τ sig (Elt F) := Function.update (W57 m c) (Proc.devRef .tc (Pipeline.arrRef spec19 6)) ((dat19 (T57 m) c).arrAt 6 cfg19.N)
abbrev T58 : (c : Dev nD) → (b : Ref sig .tc) → Buf (Elt F) ((c : Thread nD τ).loc b) := fun c b => W58 m c b
/-- After the host stretch hostOps20. -/
def W59 (c : Dev nD) : Valuation τ sig (Elt F) := StableHlo.after hostOps20 (W58 m c)
abbrev T59 : (c : Dev nD) → (b : Ref sig .tc) → Buf (Elt F) ((c : Thread nD τ).loc b) := fun c b => W59 m c b
/-- After region 20: each of its output arrays at what its write-backs leave, every other buffer as entered. -/
def W60 (c : Dev nD) : Valuation τ sig (Elt F) := Function.update (W59 m c) (Proc.devRef .tc (Pipeline.arrRef spec20 7)) ((dat20 (T59 m) c).arrAt 7 cfg20.N)
abbrev T60 : (c : Dev nD) → (b : Ref sig .tc) → Buf (Elt F) ((c : Thread nD τ).loc b) := fun c b => W60 m c b

/-- The boundaries' contents as one family. -/
def Wn : ℕ → Dev nD → Valuation τ sig (Elt F)
  | 0 => W0 m
  | 1 => W1 m
  | 2 => W2 m
  | 3 => W3 m
  | 4 => W4 m
  | 5 => W5 m
  | 6 => W6 m
  | 7 => W7 m
  | 8 => W8 m
  | 9 => W9 m
  | 10 => W10 m
  | 11 => W11 m
  | 12 => W12 m
  | 13 => W13 m
  | 14 => W14 m
  | 15 => W15 m
  | 16 => W16 m
  | 17 => W17 m
  | 18 => W18 m
  | 19 => W19 m
  | 20 => W20 m
  | 21 => W21 m
  | 22 => W22 m
  | 23 => W23 m
  | 24 => W24 m
  | 25 => W25 m
  | 26 => W26 m
  | 27 => W27 m
  | 28 => W28 m
  | 29 => W29 m
  | 30 => W30 m
  | 31 => W31 m
  | 32 => W32 m
  | 33 => W33 m
  | 34 => W34 m
  | 35 => W35 m
  | 36 => W36 m
  | 37 => W37 m
  | 38 => W38 m
  | 39 => W39 m
  | 40 => W40 m
  | 41 => W41 m
  | 42 => W42 m
  | 43 => W43 m
  | 44 => W44 m
  | 45 => W45 m
  | 46 => W46 m
  | 47 => W47 m
  | 48 => W48 m
  | 49 => W49 m
  | 50 => W50 m
  | 51 => W51 m
  | 52 => W52 m
  | 53 => W53 m
  | 54 => W54 m
  | 55 => W55 m
  | 56 => W56 m
  | 57 => W57 m
  | 58 => W58 m
  | 59 => W59 m
  | _ => W60 m
/-- What the regions leave, read off the boundaries' contents. -/
def outs : Outs (F := F) := fun j r c => Wn m j c r

theorem V0_eq (c : Dev nD) : V0 m c = W0 m c := rfl
theorem V1_eq (c : Dev nD) : V1 m c = W1 m c := by
  show StableHlo.after hostOps0 (V0 m c) = StableHlo.after hostOps0 (W0 m c)
  rw [V0_eq]
theorem V2_eq (c : Dev nD) : V2 m (outs m) c = W2 m c := by
  show Function.update (V1 m c) main_v1 (W2 m c main_v1) = W2 m c
  rw [V1_eq]
  funext b
  unfold W2
  simp only [Function.update_apply]
  repeat' split
  all_goals first | rfl | (subst_vars; simp only [Function.update_apply]; repeat' split) <;> first | rfl | (exfalso; revert ‹_›; decide) | skip
theorem V3_eq (c : Dev nD) : V3 m (outs m) c = W3 m c := by
  show StableHlo.after hostOps1 (V2 m (outs m) c) = StableHlo.after hostOps1 (W2 m c)
  rw [V2_eq]
theorem V4_eq (c : Dev nD) : V4 m (outs m) c = W4 m c := by
  show Function.update (V3 m (outs m) c) main_v3 (W4 m c main_v3) = W4 m c
  rw [V3_eq]
  funext b
  unfold W4
  simp only [Function.update_apply]
  repeat' split
  all_goals first | rfl | (subst_vars; simp only [Function.update_apply]; repeat' split) <;> first | rfl | (exfalso; revert ‹_›; decide) | skip
theorem V5_eq (c : Dev nD) : V5 m (outs m) c = W5 m c := by
  show StableHlo.after hostOps2 (V4 m (outs m) c) = StableHlo.after hostOps2 (W4 m c)
  rw [V4_eq]
theorem V6_eq (c : Dev nD) : V6 m (outs m) c = W6 m c := by
  show Function.update (V5 m (outs m) c) main_v23 (W6 m c main_v23) = W6 m c
  rw [V5_eq]
  funext b
  unfold W6
  simp only [Function.update_apply]
  repeat' split
  all_goals first | rfl | (subst_vars; simp only [Function.update_apply]; repeat' split) <;> first | rfl | (exfalso; revert ‹_›; decide) | skip
theorem V7_eq (c : Dev nD) : V7 m (outs m) c = W7 m c := by
  show StableHlo.after hostOps3 (V6 m (outs m) c) = StableHlo.after hostOps3 (W6 m c)
  rw [V6_eq]
theorem V8_eq (c : Dev nD) : V8 m (outs m) c = W8 m c := by
  show Function.update (V7 m (outs m) c) main_v33 (W8 m c main_v33) = W8 m c
  rw [V7_eq]
  funext b
  unfold W8
  simp only [Function.update_apply]
  repeat' split
  all_goals first | rfl | (subst_vars; simp only [Function.update_apply]; repeat' split) <;> first | rfl | (exfalso; revert ‹_›; decide) | skip
theorem V9_eq (c : Dev nD) : V9 m (outs m) c = W9 m c := by
  show StableHlo.after hostOps4 (V8 m (outs m) c) = StableHlo.after hostOps4 (W8 m c)
  rw [V8_eq]
theorem V10_eq (c : Dev nD) : V10 m (outs m) c = W10 m c := by
  show StableHlo.after hostOps4_1 (V9 m (outs m) c) = StableHlo.after hostOps4_1 (W9 m c)
  rw [V9_eq]
theorem V11_eq (c : Dev nD) : V11 m (outs m) c = W11 m c := by
  show StableHlo.after hostOps4_2 (V10 m (outs m) c) = StableHlo.after hostOps4_2 (W10 m c)
  rw [V10_eq]
theorem V12_eq (c : Dev nD) : V12 m (outs m) c = W12 m c := by
  show Function.update (Function.update (Function.update (V11 m (outs m) c) main_v37_0 (W12 m c main_v37_0)) main_v37_1 (W12 m c main_v37_1)) main_v37_2 (W12 m c main_v37_2) = W12 m c
  rw [V11_eq]
  funext b
  unfold W12
  simp only [Function.update_apply]
  repeat' split
  all_goals first | rfl | (subst_vars; simp only [Function.update_apply]; repeat' split) <;> first | rfl | (exfalso; revert ‹_›; decide) | skip
theorem V13_eq (c : Dev nD) : V13 m (outs m) c = W13 m c := by
  show StableHlo.after hostOps5 (V12 m (outs m) c) = StableHlo.after hostOps5 (W12 m c)
  rw [V12_eq]
theorem V14_eq (c : Dev nD) : V14 m (outs m) c = W14 m c := by
  show Function.update (V13 m (outs m) c) main_v44 (W14 m c main_v44) = W14 m c
  rw [V13_eq]
  funext b
  unfold W14
  simp only [Function.update_apply]
  repeat' split
  all_goals first | rfl | (subst_vars; simp only [Function.update_apply]; repeat' split) <;> first | rfl | (exfalso; revert ‹_›; decide) | skip
theorem V15_eq (c : Dev nD) : V15 m (outs m) c = W15 m c := by
  show StableHlo.after hostOps6 (V14 m (outs m) c) = StableHlo.after hostOps6 (W14 m c)
  rw [V14_eq]
theorem V16_eq (c : Dev nD) : V16 m (outs m) c = W16 m c := by
  show StableHlo.after hostOps6_1 (V15 m (outs m) c) = StableHlo.after hostOps6_1 (W15 m c)
  rw [V15_eq]
theorem V17_eq (c : Dev nD) : V17 m (outs m) c = W17 m c := by
  show StableHlo.after hostOps6_2 (V16 m (outs m) c) = StableHlo.after hostOps6_2 (W16 m c)
  rw [V16_eq]
theorem V18_eq (c : Dev nD) : V18 m (outs m) c = W18 m c := by
  show Function.update (V17 m (outs m) c) main_v57 (W18 m c main_v57) = W18 m c
  rw [V17_eq]
  funext b
  unfold W18
  simp only [Function.update_apply]
  repeat' split
  all_goals first | rfl | (subst_vars; simp only [Function.update_apply]; repeat' split) <;> first | rfl | (exfalso; revert ‹_›; decide) | skip
theorem V19_eq (c : Dev nD) : V19 m (outs m) c = W19 m c := by
  show StableHlo.after hostOps7 (V18 m (outs m) c) = StableHlo.after hostOps7 (W18 m c)
  rw [V18_eq]
theorem V20_eq (c : Dev nD) : V20 m (outs m) c = W20 m c := by
  show StableHlo.after hostOps7_1 (V19 m (outs m) c) = StableHlo.after hostOps7_1 (W19 m c)
  rw [V19_eq]
theorem V21_eq (c : Dev nD) : V21 m (outs m) c = W21 m c := by
  show StableHlo.after hostOps7_2 (V20 m (outs m) c) = StableHlo.after hostOps7_2 (W20 m c)
  rw [V20_eq]
theorem V22_eq (c : Dev nD) : V22 m (outs m) c = W22 m c := by
  show Function.update (V21 m (outs m) c) main_v70 (W22 m c main_v70) = W22 m c
  rw [V21_eq]
  funext b
  unfold W22
  simp only [Function.update_apply]
  repeat' split
  all_goals first | rfl | (subst_vars; simp only [Function.update_apply]; repeat' split) <;> first | rfl | (exfalso; revert ‹_›; decide) | skip
theorem V23_eq (c : Dev nD) : V23 m (outs m) c = W23 m c := by
  show StableHlo.after hostOps8 (V22 m (outs m) c) = StableHlo.after hostOps8 (W22 m c)
  rw [V22_eq]
theorem V24_eq (c : Dev nD) : V24 m (outs m) c = W24 m c := by
  show Function.update (V23 m (outs m) c) main_v90 (W24 m c main_v90) = W24 m c
  rw [V23_eq]
  funext b
  unfold W24
  simp only [Function.update_apply]
  repeat' split
  all_goals first | rfl | (subst_vars; simp only [Function.update_apply]; repeat' split) <;> first | rfl | (exfalso; revert ‹_›; decide) | skip
theorem V25_eq (c : Dev nD) : V25 m (outs m) c = W25 m c := by
  show StableHlo.after hostOps9 (V24 m (outs m) c) = StableHlo.after hostOps9 (W24 m c)
  rw [V24_eq]
theorem V26_eq (c : Dev nD) : V26 m (outs m) c = W26 m c := by
  show Function.update (V25 m (outs m) c) main_v100 (W26 m c main_v100) = W26 m c
  rw [V25_eq]
  funext b
  unfold W26
  simp only [Function.update_apply]
  repeat' split
  all_goals first | rfl | (subst_vars; simp only [Function.update_apply]; repeat' split) <;> first | rfl | (exfalso; revert ‹_›; decide) | skip
theorem V27_eq (c : Dev nD) : V27 m (outs m) c = W27 m c := by
  show StableHlo.after hostOps10 (V26 m (outs m) c) = StableHlo.after hostOps10 (W26 m c)
  rw [V26_eq]
theorem V28_eq (c : Dev nD) : V28 m (outs m) c = W28 m c := by
  show StableHlo.after hostOps10_1 (V27 m (outs m) c) = StableHlo.after hostOps10_1 (W27 m c)
  rw [V27_eq]
theorem V29_eq (c : Dev nD) : V29 m (outs m) c = W29 m c := by
  show StableHlo.after hostOps10_2 (V28 m (outs m) c) = StableHlo.after hostOps10_2 (W28 m c)
  rw [V28_eq]
theorem V30_eq (c : Dev nD) : V30 m (outs m) c = W30 m c := by
  show Function.update (Function.update (Function.update (V29 m (outs m) c) main_v104_0 (W30 m c main_v104_0)) main_v104_1 (W30 m c main_v104_1)) main_v104_2 (W30 m c main_v104_2) = W30 m c
  rw [V29_eq]
  funext b
  unfold W30
  simp only [Function.update_apply]
  repeat' split
  all_goals first | rfl | (subst_vars; simp only [Function.update_apply]; repeat' split) <;> first | rfl | (exfalso; revert ‹_›; decide) | skip
theorem V31_eq (c : Dev nD) : V31 m (outs m) c = W31 m c := by
  show StableHlo.after hostOps11 (V30 m (outs m) c) = StableHlo.after hostOps11 (W30 m c)
  rw [V30_eq]
theorem V32_eq (c : Dev nD) : V32 m (outs m) c = W32 m c := by
  show Function.update (V31 m (outs m) c) main_v111 (W32 m c main_v111) = W32 m c
  rw [V31_eq]
  funext b
  unfold W32
  simp only [Function.update_apply]
  repeat' split
  all_goals first | rfl | (subst_vars; simp only [Function.update_apply]; repeat' split) <;> first | rfl | (exfalso; revert ‹_›; decide) | skip
theorem V33_eq (c : Dev nD) : V33 m (outs m) c = W33 m c := by
  show StableHlo.after hostOps12 (V32 m (outs m) c) = StableHlo.after hostOps12 (W32 m c)
  rw [V32_eq]
theorem V34_eq (c : Dev nD) : V34 m (outs m) c = W34 m c := by
  show StableHlo.after hostOps12_1 (V33 m (outs m) c) = StableHlo.after hostOps12_1 (W33 m c)
  rw [V33_eq]
theorem V35_eq (c : Dev nD) : V35 m (outs m) c = W35 m c := by
  show StableHlo.after hostOps12_2 (V34 m (outs m) c) = StableHlo.after hostOps12_2 (W34 m c)
  rw [V34_eq]
theorem V36_eq (c : Dev nD) : V36 m (outs m) c = W36 m c := by
  show Function.update (V35 m (outs m) c) main_v124 (W36 m c main_v124) = W36 m c
  rw [V35_eq]
  funext b
  unfold W36
  simp only [Function.update_apply]
  repeat' split
  all_goals first | rfl | (subst_vars; simp only [Function.update_apply]; repeat' split) <;> first | rfl | (exfalso; revert ‹_›; decide) | skip
theorem V37_eq (c : Dev nD) : V37 m (outs m) c = W37 m c := by
  show StableHlo.after hostOps13 (V36 m (outs m) c) = StableHlo.after hostOps13 (W36 m c)
  rw [V36_eq]
theorem V38_eq (c : Dev nD) : V38 m (outs m) c = W38 m c := by
  show StableHlo.after hostOps13_1 (V37 m (outs m) c) = StableHlo.after hostOps13_1 (W37 m c)
  rw [V37_eq]
theorem V39_eq (c : Dev nD) : V39 m (outs m) c = W39 m c := by
  show StableHlo.after hostOps13_2 (V38 m (outs m) c) = StableHlo.after hostOps13_2 (W38 m c)
  rw [V38_eq]
theorem V40_eq (c : Dev nD) : V40 m (outs m) c = W40 m c := by
  show Function.update (V39 m (outs m) c) main_v137 (W40 m c main_v137) = W40 m c
  rw [V39_eq]
  funext b
  unfold W40
  simp only [Function.update_apply]
  repeat' split
  all_goals first | rfl | (subst_vars; simp only [Function.update_apply]; repeat' split) <;> first | rfl | (exfalso; revert ‹_›; decide) | skip
theorem V41_eq (c : Dev nD) : V41 m (outs m) c = W41 m c := by
  show StableHlo.after hostOps14 (V40 m (outs m) c) = StableHlo.after hostOps14 (W40 m c)
  rw [V40_eq]
theorem V42_eq (c : Dev nD) : V42 m (outs m) c = W42 m c := by
  show Function.update (V41 m (outs m) c) main_v157 (W42 m c main_v157) = W42 m c
  rw [V41_eq]
  funext b
  unfold W42
  simp only [Function.update_apply]
  repeat' split
  all_goals first | rfl | (subst_vars; simp only [Function.update_apply]; repeat' split) <;> first | rfl | (exfalso; revert ‹_›; decide) | skip
theorem V43_eq (c : Dev nD) : V43 m (outs m) c = W43 m c := by
  show StableHlo.after hostOps15 (V42 m (outs m) c) = StableHlo.after hostOps15 (W42 m c)
  rw [V42_eq]
theorem V44_eq (c : Dev nD) : V44 m (outs m) c = W44 m c := by
  show Function.update (V43 m (outs m) c) main_v167 (W44 m c main_v167) = W44 m c
  rw [V43_eq]
  funext b
  unfold W44
  simp only [Function.update_apply]
  repeat' split
  all_goals first | rfl | (subst_vars; simp only [Function.update_apply]; repeat' split) <;> first | rfl | (exfalso; revert ‹_›; decide) | skip
theorem V45_eq (c : Dev nD) : V45 m (outs m) c = W45 m c := by
  show StableHlo.after hostOps16 (V44 m (outs m) c) = StableHlo.after hostOps16 (W44 m c)
  rw [V44_eq]
theorem V46_eq (c : Dev nD) : V46 m (outs m) c = W46 m c := by
  show StableHlo.after hostOps16_1 (V45 m (outs m) c) = StableHlo.after hostOps16_1 (W45 m c)
  rw [V45_eq]
theorem V47_eq (c : Dev nD) : V47 m (outs m) c = W47 m c := by
  show StableHlo.after hostOps16_2 (V46 m (outs m) c) = StableHlo.after hostOps16_2 (W46 m c)
  rw [V46_eq]
theorem V48_eq (c : Dev nD) : V48 m (outs m) c = W48 m c := by
  show Function.update (Function.update (Function.update (V47 m (outs m) c) main_v171_0 (W48 m c main_v171_0)) main_v171_1 (W48 m c main_v171_1)) main_v171_2 (W48 m c main_v171_2) = W48 m c
  rw [V47_eq]
  funext b
  unfold W48
  simp only [Function.update_apply]
  repeat' split
  all_goals first | rfl | (subst_vars; simp only [Function.update_apply]; repeat' split) <;> first | rfl | (exfalso; revert ‹_›; decide) | skip
theorem V49_eq (c : Dev nD) : V49 m (outs m) c = W49 m c := by
  show StableHlo.after hostOps17 (V48 m (outs m) c) = StableHlo.after hostOps17 (W48 m c)
  rw [V48_eq]
theorem V50_eq (c : Dev nD) : V50 m (outs m) c = W50 m c := by
  show Function.update (V49 m (outs m) c) main_v178 (W50 m c main_v178) = W50 m c
  rw [V49_eq]
  funext b
  unfold W50
  simp only [Function.update_apply]
  repeat' split
  all_goals first | rfl | (subst_vars; simp only [Function.update_apply]; repeat' split) <;> first | rfl | (exfalso; revert ‹_›; decide) | skip
theorem V51_eq (c : Dev nD) : V51 m (outs m) c = W51 m c := by
  show StableHlo.after hostOps18 (V50 m (outs m) c) = StableHlo.after hostOps18 (W50 m c)
  rw [V50_eq]
theorem V52_eq (c : Dev nD) : V52 m (outs m) c = W52 m c := by
  show StableHlo.after hostOps18_1 (V51 m (outs m) c) = StableHlo.after hostOps18_1 (W51 m c)
  rw [V51_eq]
theorem V53_eq (c : Dev nD) : V53 m (outs m) c = W53 m c := by
  show StableHlo.after hostOps18_2 (V52 m (outs m) c) = StableHlo.after hostOps18_2 (W52 m c)
  rw [V52_eq]
theorem V54_eq (c : Dev nD) : V54 m (outs m) c = W54 m c := by
  show Function.update (V53 m (outs m) c) main_v191 (W54 m c main_v191) = W54 m c
  rw [V53_eq]
  funext b
  unfold W54
  simp only [Function.update_apply]
  repeat' split
  all_goals first | rfl | (subst_vars; simp only [Function.update_apply]; repeat' split) <;> first | rfl | (exfalso; revert ‹_›; decide) | skip
theorem V55_eq (c : Dev nD) : V55 m (outs m) c = W55 m c := by
  show StableHlo.after hostOps19 (V54 m (outs m) c) = StableHlo.after hostOps19 (W54 m c)
  rw [V54_eq]
theorem V56_eq (c : Dev nD) : V56 m (outs m) c = W56 m c := by
  show StableHlo.after hostOps19_1 (V55 m (outs m) c) = StableHlo.after hostOps19_1 (W55 m c)
  rw [V55_eq]
theorem V57_eq (c : Dev nD) : V57 m (outs m) c = W57 m c := by
  show StableHlo.after hostOps19_2 (V56 m (outs m) c) = StableHlo.after hostOps19_2 (W56 m c)
  rw [V56_eq]
theorem V58_eq (c : Dev nD) : V58 m (outs m) c = W58 m c := by
  show Function.update (V57 m (outs m) c) main_v204 (W58 m c main_v204) = W58 m c
  rw [V57_eq]
  funext b
  unfold W58
  simp only [Function.update_apply]
  repeat' split
  all_goals first | rfl | (subst_vars; simp only [Function.update_apply]; repeat' split) <;> first | rfl | (exfalso; revert ‹_›; decide) | skip
theorem V59_eq (c : Dev nD) : V59 m (outs m) c = W59 m c := by
  show StableHlo.after hostOps20 (V58 m (outs m) c) = StableHlo.after hostOps20 (W58 m c)
  rw [V58_eq]
theorem V60_eq (c : Dev nD) : V60 m (outs m) c = W60 m c := by
  show Function.update (V59 m (outs m) c) main_v219 (W60 m c main_v219) = W60 m c
  rw [V59_eq]
  funext b
  unfold W60
  simp only [Function.update_apply]
  repeat' split
  all_goals first | rfl | (subst_vars; simp only [Function.update_apply]; repeat' split) <;> first | rfl | (exfalso; revert ‹_›; decide) | skip

/-! An item changes only the buffers it writes: every other buffer is carried over. -/
theorem W1_of (c : Dev nD) (r : Ref sig .tc) (h : r ∉ hostOps0_W) : W1 m c r = W0 m c r :=
  (congrFun (V1_eq m c).symm _).trans ((V1_of m c r h).trans (congrFun (V0_eq m c) _))
theorem W2_of (c : Dev nD) (r : Ref sig .tc) (h : r ∉ ([main_v1] : List (Ref sig .tc))) : W2 m c r = W1 m c r :=
  (congrFun (V2_eq m c).symm _).trans ((V2_of m (outs m) c r h).trans (congrFun (V1_eq m c) _))
theorem W3_of (c : Dev nD) (r : Ref sig .tc) (h : r ∉ hostOps1_W) : W3 m c r = W2 m c r :=
  (congrFun (V3_eq m c).symm _).trans ((V3_of m (outs m) c r h).trans (congrFun (V2_eq m c) _))
theorem W4_of (c : Dev nD) (r : Ref sig .tc) (h : r ∉ ([main_v3] : List (Ref sig .tc))) : W4 m c r = W3 m c r :=
  (congrFun (V4_eq m c).symm _).trans ((V4_of m (outs m) c r h).trans (congrFun (V3_eq m c) _))
theorem W5_of (c : Dev nD) (r : Ref sig .tc) (h : r ∉ hostOps2_W) : W5 m c r = W4 m c r :=
  (congrFun (V5_eq m c).symm _).trans ((V5_of m (outs m) c r h).trans (congrFun (V4_eq m c) _))
theorem W6_of (c : Dev nD) (r : Ref sig .tc) (h : r ∉ ([main_v23] : List (Ref sig .tc))) : W6 m c r = W5 m c r :=
  (congrFun (V6_eq m c).symm _).trans ((V6_of m (outs m) c r h).trans (congrFun (V5_eq m c) _))
theorem W7_of (c : Dev nD) (r : Ref sig .tc) (h : r ∉ hostOps3_W) : W7 m c r = W6 m c r :=
  (congrFun (V7_eq m c).symm _).trans ((V7_of m (outs m) c r h).trans (congrFun (V6_eq m c) _))
theorem W8_of (c : Dev nD) (r : Ref sig .tc) (h : r ∉ ([main_v33] : List (Ref sig .tc))) : W8 m c r = W7 m c r :=
  (congrFun (V8_eq m c).symm _).trans ((V8_of m (outs m) c r h).trans (congrFun (V7_eq m c) _))
theorem W9_of (c : Dev nD) (r : Ref sig .tc) (h : r ∉ hostOps4_W) : W9 m c r = W8 m c r :=
  (congrFun (V9_eq m c).symm _).trans ((V9_of m (outs m) c r h).trans (congrFun (V8_eq m c) _))
theorem W10_of (c : Dev nD) (r : Ref sig .tc) (h : r ∉ hostOps4_1_W) : W10 m c r = W9 m c r :=
  (congrFun (V10_eq m c).symm _).trans ((V10_of m (outs m) c r h).trans (congrFun (V9_eq m c) _))
theorem W11_of (c : Dev nD) (r : Ref sig .tc) (h : r ∉ hostOps4_2_W) : W11 m c r = W10 m c r :=
  (congrFun (V11_eq m c).symm _).trans ((V11_of m (outs m) c r h).trans (congrFun (V10_eq m c) _))
theorem W12_of (c : Dev nD) (r : Ref sig .tc) (h : r ∉ ([main_v37_0, main_v37_1, main_v37_2] : List (Ref sig .tc))) : W12 m c r = W11 m c r :=
  (congrFun (V12_eq m c).symm _).trans ((V12_of m (outs m) c r h).trans (congrFun (V11_eq m c) _))
theorem W13_of (c : Dev nD) (r : Ref sig .tc) (h : r ∉ hostOps5_W) : W13 m c r = W12 m c r :=
  (congrFun (V13_eq m c).symm _).trans ((V13_of m (outs m) c r h).trans (congrFun (V12_eq m c) _))
theorem W14_of (c : Dev nD) (r : Ref sig .tc) (h : r ∉ ([main_v44] : List (Ref sig .tc))) : W14 m c r = W13 m c r :=
  (congrFun (V14_eq m c).symm _).trans ((V14_of m (outs m) c r h).trans (congrFun (V13_eq m c) _))
theorem W15_of (c : Dev nD) (r : Ref sig .tc) (h : r ∉ hostOps6_W) : W15 m c r = W14 m c r :=
  (congrFun (V15_eq m c).symm _).trans ((V15_of m (outs m) c r h).trans (congrFun (V14_eq m c) _))
theorem W16_of (c : Dev nD) (r : Ref sig .tc) (h : r ∉ hostOps6_1_W) : W16 m c r = W15 m c r :=
  (congrFun (V16_eq m c).symm _).trans ((V16_of m (outs m) c r h).trans (congrFun (V15_eq m c) _))
theorem W17_of (c : Dev nD) (r : Ref sig .tc) (h : r ∉ hostOps6_2_W) : W17 m c r = W16 m c r :=
  (congrFun (V17_eq m c).symm _).trans ((V17_of m (outs m) c r h).trans (congrFun (V16_eq m c) _))
theorem W18_of (c : Dev nD) (r : Ref sig .tc) (h : r ∉ ([main_v57] : List (Ref sig .tc))) : W18 m c r = W17 m c r :=
  (congrFun (V18_eq m c).symm _).trans ((V18_of m (outs m) c r h).trans (congrFun (V17_eq m c) _))
theorem W19_of (c : Dev nD) (r : Ref sig .tc) (h : r ∉ hostOps7_W) : W19 m c r = W18 m c r :=
  (congrFun (V19_eq m c).symm _).trans ((V19_of m (outs m) c r h).trans (congrFun (V18_eq m c) _))
theorem W20_of (c : Dev nD) (r : Ref sig .tc) (h : r ∉ hostOps7_1_W) : W20 m c r = W19 m c r :=
  (congrFun (V20_eq m c).symm _).trans ((V20_of m (outs m) c r h).trans (congrFun (V19_eq m c) _))
theorem W21_of (c : Dev nD) (r : Ref sig .tc) (h : r ∉ hostOps7_2_W) : W21 m c r = W20 m c r :=
  (congrFun (V21_eq m c).symm _).trans ((V21_of m (outs m) c r h).trans (congrFun (V20_eq m c) _))
theorem W22_of (c : Dev nD) (r : Ref sig .tc) (h : r ∉ ([main_v70] : List (Ref sig .tc))) : W22 m c r = W21 m c r :=
  (congrFun (V22_eq m c).symm _).trans ((V22_of m (outs m) c r h).trans (congrFun (V21_eq m c) _))
theorem W23_of (c : Dev nD) (r : Ref sig .tc) (h : r ∉ hostOps8_W) : W23 m c r = W22 m c r :=
  (congrFun (V23_eq m c).symm _).trans ((V23_of m (outs m) c r h).trans (congrFun (V22_eq m c) _))
theorem W24_of (c : Dev nD) (r : Ref sig .tc) (h : r ∉ ([main_v90] : List (Ref sig .tc))) : W24 m c r = W23 m c r :=
  (congrFun (V24_eq m c).symm _).trans ((V24_of m (outs m) c r h).trans (congrFun (V23_eq m c) _))
theorem W25_of (c : Dev nD) (r : Ref sig .tc) (h : r ∉ hostOps9_W) : W25 m c r = W24 m c r :=
  (congrFun (V25_eq m c).symm _).trans ((V25_of m (outs m) c r h).trans (congrFun (V24_eq m c) _))
theorem W26_of (c : Dev nD) (r : Ref sig .tc) (h : r ∉ ([main_v100] : List (Ref sig .tc))) : W26 m c r = W25 m c r :=
  (congrFun (V26_eq m c).symm _).trans ((V26_of m (outs m) c r h).trans (congrFun (V25_eq m c) _))
theorem W27_of (c : Dev nD) (r : Ref sig .tc) (h : r ∉ hostOps10_W) : W27 m c r = W26 m c r :=
  (congrFun (V27_eq m c).symm _).trans ((V27_of m (outs m) c r h).trans (congrFun (V26_eq m c) _))
theorem W28_of (c : Dev nD) (r : Ref sig .tc) (h : r ∉ hostOps10_1_W) : W28 m c r = W27 m c r :=
  (congrFun (V28_eq m c).symm _).trans ((V28_of m (outs m) c r h).trans (congrFun (V27_eq m c) _))
theorem W29_of (c : Dev nD) (r : Ref sig .tc) (h : r ∉ hostOps10_2_W) : W29 m c r = W28 m c r :=
  (congrFun (V29_eq m c).symm _).trans ((V29_of m (outs m) c r h).trans (congrFun (V28_eq m c) _))
theorem W30_of (c : Dev nD) (r : Ref sig .tc) (h : r ∉ ([main_v104_0, main_v104_1, main_v104_2] : List (Ref sig .tc))) : W30 m c r = W29 m c r :=
  (congrFun (V30_eq m c).symm _).trans ((V30_of m (outs m) c r h).trans (congrFun (V29_eq m c) _))
theorem W31_of (c : Dev nD) (r : Ref sig .tc) (h : r ∉ hostOps11_W) : W31 m c r = W30 m c r :=
  (congrFun (V31_eq m c).symm _).trans ((V31_of m (outs m) c r h).trans (congrFun (V30_eq m c) _))
theorem W32_of (c : Dev nD) (r : Ref sig .tc) (h : r ∉ ([main_v111] : List (Ref sig .tc))) : W32 m c r = W31 m c r :=
  (congrFun (V32_eq m c).symm _).trans ((V32_of m (outs m) c r h).trans (congrFun (V31_eq m c) _))
theorem W33_of (c : Dev nD) (r : Ref sig .tc) (h : r ∉ hostOps12_W) : W33 m c r = W32 m c r :=
  (congrFun (V33_eq m c).symm _).trans ((V33_of m (outs m) c r h).trans (congrFun (V32_eq m c) _))
theorem W34_of (c : Dev nD) (r : Ref sig .tc) (h : r ∉ hostOps12_1_W) : W34 m c r = W33 m c r :=
  (congrFun (V34_eq m c).symm _).trans ((V34_of m (outs m) c r h).trans (congrFun (V33_eq m c) _))
theorem W35_of (c : Dev nD) (r : Ref sig .tc) (h : r ∉ hostOps12_2_W) : W35 m c r = W34 m c r :=
  (congrFun (V35_eq m c).symm _).trans ((V35_of m (outs m) c r h).trans (congrFun (V34_eq m c) _))
theorem W36_of (c : Dev nD) (r : Ref sig .tc) (h : r ∉ ([main_v124] : List (Ref sig .tc))) : W36 m c r = W35 m c r :=
  (congrFun (V36_eq m c).symm _).trans ((V36_of m (outs m) c r h).trans (congrFun (V35_eq m c) _))
theorem W37_of (c : Dev nD) (r : Ref sig .tc) (h : r ∉ hostOps13_W) : W37 m c r = W36 m c r :=
  (congrFun (V37_eq m c).symm _).trans ((V37_of m (outs m) c r h).trans (congrFun (V36_eq m c) _))
theorem W38_of (c : Dev nD) (r : Ref sig .tc) (h : r ∉ hostOps13_1_W) : W38 m c r = W37 m c r :=
  (congrFun (V38_eq m c).symm _).trans ((V38_of m (outs m) c r h).trans (congrFun (V37_eq m c) _))
theorem W39_of (c : Dev nD) (r : Ref sig .tc) (h : r ∉ hostOps13_2_W) : W39 m c r = W38 m c r :=
  (congrFun (V39_eq m c).symm _).trans ((V39_of m (outs m) c r h).trans (congrFun (V38_eq m c) _))
theorem W40_of (c : Dev nD) (r : Ref sig .tc) (h : r ∉ ([main_v137] : List (Ref sig .tc))) : W40 m c r = W39 m c r :=
  (congrFun (V40_eq m c).symm _).trans ((V40_of m (outs m) c r h).trans (congrFun (V39_eq m c) _))
theorem W41_of (c : Dev nD) (r : Ref sig .tc) (h : r ∉ hostOps14_W) : W41 m c r = W40 m c r :=
  (congrFun (V41_eq m c).symm _).trans ((V41_of m (outs m) c r h).trans (congrFun (V40_eq m c) _))
theorem W42_of (c : Dev nD) (r : Ref sig .tc) (h : r ∉ ([main_v157] : List (Ref sig .tc))) : W42 m c r = W41 m c r :=
  (congrFun (V42_eq m c).symm _).trans ((V42_of m (outs m) c r h).trans (congrFun (V41_eq m c) _))
theorem W43_of (c : Dev nD) (r : Ref sig .tc) (h : r ∉ hostOps15_W) : W43 m c r = W42 m c r :=
  (congrFun (V43_eq m c).symm _).trans ((V43_of m (outs m) c r h).trans (congrFun (V42_eq m c) _))
theorem W44_of (c : Dev nD) (r : Ref sig .tc) (h : r ∉ ([main_v167] : List (Ref sig .tc))) : W44 m c r = W43 m c r :=
  (congrFun (V44_eq m c).symm _).trans ((V44_of m (outs m) c r h).trans (congrFun (V43_eq m c) _))
theorem W45_of (c : Dev nD) (r : Ref sig .tc) (h : r ∉ hostOps16_W) : W45 m c r = W44 m c r :=
  (congrFun (V45_eq m c).symm _).trans ((V45_of m (outs m) c r h).trans (congrFun (V44_eq m c) _))
theorem W46_of (c : Dev nD) (r : Ref sig .tc) (h : r ∉ hostOps16_1_W) : W46 m c r = W45 m c r :=
  (congrFun (V46_eq m c).symm _).trans ((V46_of m (outs m) c r h).trans (congrFun (V45_eq m c) _))
theorem W47_of (c : Dev nD) (r : Ref sig .tc) (h : r ∉ hostOps16_2_W) : W47 m c r = W46 m c r :=
  (congrFun (V47_eq m c).symm _).trans ((V47_of m (outs m) c r h).trans (congrFun (V46_eq m c) _))
theorem W48_of (c : Dev nD) (r : Ref sig .tc) (h : r ∉ ([main_v171_0, main_v171_1, main_v171_2] : List (Ref sig .tc))) : W48 m c r = W47 m c r :=
  (congrFun (V48_eq m c).symm _).trans ((V48_of m (outs m) c r h).trans (congrFun (V47_eq m c) _))
theorem W49_of (c : Dev nD) (r : Ref sig .tc) (h : r ∉ hostOps17_W) : W49 m c r = W48 m c r :=
  (congrFun (V49_eq m c).symm _).trans ((V49_of m (outs m) c r h).trans (congrFun (V48_eq m c) _))
theorem W50_of (c : Dev nD) (r : Ref sig .tc) (h : r ∉ ([main_v178] : List (Ref sig .tc))) : W50 m c r = W49 m c r :=
  (congrFun (V50_eq m c).symm _).trans ((V50_of m (outs m) c r h).trans (congrFun (V49_eq m c) _))
theorem W51_of (c : Dev nD) (r : Ref sig .tc) (h : r ∉ hostOps18_W) : W51 m c r = W50 m c r :=
  (congrFun (V51_eq m c).symm _).trans ((V51_of m (outs m) c r h).trans (congrFun (V50_eq m c) _))
theorem W52_of (c : Dev nD) (r : Ref sig .tc) (h : r ∉ hostOps18_1_W) : W52 m c r = W51 m c r :=
  (congrFun (V52_eq m c).symm _).trans ((V52_of m (outs m) c r h).trans (congrFun (V51_eq m c) _))
theorem W53_of (c : Dev nD) (r : Ref sig .tc) (h : r ∉ hostOps18_2_W) : W53 m c r = W52 m c r :=
  (congrFun (V53_eq m c).symm _).trans ((V53_of m (outs m) c r h).trans (congrFun (V52_eq m c) _))
theorem W54_of (c : Dev nD) (r : Ref sig .tc) (h : r ∉ ([main_v191] : List (Ref sig .tc))) : W54 m c r = W53 m c r :=
  (congrFun (V54_eq m c).symm _).trans ((V54_of m (outs m) c r h).trans (congrFun (V53_eq m c) _))
theorem W55_of (c : Dev nD) (r : Ref sig .tc) (h : r ∉ hostOps19_W) : W55 m c r = W54 m c r :=
  (congrFun (V55_eq m c).symm _).trans ((V55_of m (outs m) c r h).trans (congrFun (V54_eq m c) _))
theorem W56_of (c : Dev nD) (r : Ref sig .tc) (h : r ∉ hostOps19_1_W) : W56 m c r = W55 m c r :=
  (congrFun (V56_eq m c).symm _).trans ((V56_of m (outs m) c r h).trans (congrFun (V55_eq m c) _))
theorem W57_of (c : Dev nD) (r : Ref sig .tc) (h : r ∉ hostOps19_2_W) : W57 m c r = W56 m c r :=
  (congrFun (V57_eq m c).symm _).trans ((V57_of m (outs m) c r h).trans (congrFun (V56_eq m c) _))
theorem W58_of (c : Dev nD) (r : Ref sig .tc) (h : r ∉ ([main_v204] : List (Ref sig .tc))) : W58 m c r = W57 m c r :=
  (congrFun (V58_eq m c).symm _).trans ((V58_of m (outs m) c r h).trans (congrFun (V57_eq m c) _))
theorem W59_of (c : Dev nD) (r : Ref sig .tc) (h : r ∉ hostOps20_W) : W59 m c r = W58 m c r :=
  (congrFun (V59_eq m c).symm _).trans ((V59_of m (outs m) c r h).trans (congrFun (V58_eq m c) _))
theorem W60_of (c : Dev nD) (r : Ref sig .tc) (h : r ∉ ([main_v219] : List (Ref sig .tc))) : W60 m c r = W59 m c r :=
  (congrFun (V60_eq m c).symm _).trans ((V60_of m (outs m) c r h).trans (congrFun (V59_eq m c) _))

/-- Every region's proof data, each at the contents its region is entered with. -/
def pdats : (p : Fin 21) → (c : Dev nD) → Dat τ (Elt F) Unit ℕ (UR sig nD τ) ℕ (cfgs p) c
  | ⟨0, _⟩ => fun c => dat0 (T1 m) c
  | ⟨1, _⟩ => fun c => dat1 (T3 m) c
  | ⟨2, _⟩ => fun c => dat2 (T5 m) c
  | ⟨3, _⟩ => fun c => dat3 (T7 m) c
  | ⟨4, _⟩ => fun c => dat4 (T11 m) c
  | ⟨5, _⟩ => fun c => dat5 (T13 m) c
  | ⟨6, _⟩ => fun c => dat6 (T17 m) c
  | ⟨7, _⟩ => fun c => dat7 (T21 m) c
  | ⟨8, _⟩ => fun c => dat8 (T23 m) c
  | ⟨9, _⟩ => fun c => dat9 (T25 m) c
  | ⟨10, _⟩ => fun c => dat10 (T29 m) c
  | ⟨11, _⟩ => fun c => dat11 (T31 m) c
  | ⟨12, _⟩ => fun c => dat12 (T35 m) c
  | ⟨13, _⟩ => fun c => dat13 (T39 m) c
  | ⟨14, _⟩ => fun c => dat14 (T41 m) c
  | ⟨15, _⟩ => fun c => dat15 (T43 m) c
  | ⟨16, _⟩ => fun c => dat16 (T47 m) c
  | ⟨17, _⟩ => fun c => dat17 (T49 m) c
  | ⟨18, _⟩ => fun c => dat18 (T53 m) c
  | ⟨19, _⟩ => fun c => dat19 (T57 m) c
  | ⟨20, _⟩ => fun c => dat20 (T59 m) c
  | ⟨_ + 21, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

end Cert.Kernel.Hand

end
-- ==== Proof.K.Seg0.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 0's exit each of its arrays holds what its write-backs leave: an input its contents at entry, an output the new contents. -/
theorem hF0 (c : Dev nD) (w : Fin cfg0.W) : (dat0 (T1 m) c).arrAt w cfg0.N = T2 m c (Pipeline.arrRef spec0 w) := by
  match w with
  | ⟨0, _⟩ =>
    refine ((dat0 (T1 m) c).arrAt_in 0 rfl _).trans ((A_eq0 (T1 m) c 0).trans ?_)
    show W1 m c (Proc.devRef .tc (Pipeline.arrRef spec0 0)) = W2 m c (Proc.devRef .tc (Pipeline.arrRef spec0 0))
    unfold W2
    rw [Function.update_of_ne (StableHlo.devRef_ne_of_ne (by decide : Pipeline.arrRef spec0 0 ≠ Pipeline.arrRef spec0 3))]
  | ⟨1, _⟩ =>
    refine ((dat0 (T1 m) c).arrAt_in 1 rfl _).trans ((A_eq0 (T1 m) c 1).trans ?_)
    show W1 m c (Proc.devRef .tc (Pipeline.arrRef spec0 1)) = W2 m c (Proc.devRef .tc (Pipeline.arrRef spec0 1))
    unfold W2
    rw [Function.update_of_ne (StableHlo.devRef_ne_of_ne (by decide : Pipeline.arrRef spec0 1 ≠ Pipeline.arrRef spec0 3))]
  | ⟨2, _⟩ =>
    refine ((dat0 (T1 m) c).arrAt_in 2 rfl _).trans ((A_eq0 (T1 m) c 2).trans ?_)
    show W1 m c (Proc.devRef .tc (Pipeline.arrRef spec0 2)) = W2 m c (Proc.devRef .tc (Pipeline.arrRef spec0 2))
    unfold W2
    rw [Function.update_of_ne (StableHlo.devRef_ne_of_ne (by decide : Pipeline.arrRef spec0 2 ≠ Pipeline.arrRef spec0 3))]
  | ⟨3, _⟩ =>
    show (dat0 (T1 m) c).arrAt 3 cfg0.N = W2 m c (Proc.devRef .tc (Pipeline.arrRef spec0 3))
    unfold W2
    rw [Function.update_self]
theorem hrest0 (c : Dev nD) : ∀ b, b ∉ Finset.univ.image (Pipeline.arrRef spec0) → T2 m c b = T1 m c b := fun b hb => by
  show W2 m c (Proc.devRef .tc b) = W1 m c (Proc.devRef .tc b)
  unfold W2
  exact Function.update_of_ne (StableHlo.devRef_ne_of_ne fun e => hb (Finset.mem_image.mpr ⟨3, Finset.mem_univ _, e.symm⟩)) _ _

set_option backward.isDefEq.respectTransparency.types false in
/-- Region 0 over the thread state: entered with every unscoped buffer at boundary 1's contents, left at boundary 2's. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg1.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 1's exit each of its arrays holds what its write-backs leave: an input its contents at entry, an output the new contents. -/
theorem hF1 (c : Dev nD) (w : Fin cfg1.W) : (dat1 (T3 m) c).arrAt w cfg1.N = T4 m c (Pipeline.arrRef spec1 w) := by
  match w with
  | ⟨0, _⟩ =>
    refine ((dat1 (T3 m) c).arrAt_in 0 rfl _).trans ((A_eq1 (T3 m) c 0).trans ?_)
    show W3 m c (Proc.devRef .tc (Pipeline.arrRef spec1 0)) = W4 m c (Proc.devRef .tc (Pipeline.arrRef spec1 0))
    unfold W4
    rw [Function.update_of_ne (StableHlo.devRef_ne_of_ne (by decide : Pipeline.arrRef spec1 0 ≠ Pipeline.arrRef spec1 3))]
  | ⟨1, _⟩ =>
    refine ((dat1 (T3 m) c).arrAt_in 1 rfl _).trans ((A_eq1 (T3 m) c 1).trans ?_)
    show W3 m c (Proc.devRef .tc (Pipeline.arrRef spec1 1)) = W4 m c (Proc.devRef .tc (Pipeline.arrRef spec1 1))
    unfold W4
    rw [Function.update_of_ne (StableHlo.devRef_ne_of_ne (by decide : Pipeline.arrRef spec1 1 ≠ Pipeline.arrRef spec1 3))]
  | ⟨2, _⟩ =>
    refine ((dat1 (T3 m) c).arrAt_in 2 rfl _).trans ((A_eq1 (T3 m) c 2).trans ?_)
    show W3 m c (Proc.devRef .tc (Pipeline.arrRef spec1 2)) = W4 m c (Proc.devRef .tc (Pipeline.arrRef spec1 2))
    unfold W4
    rw [Function.update_of_ne (StableHlo.devRef_ne_of_ne (by decide : Pipeline.arrRef spec1 2 ≠ Pipeline.arrRef spec1 3))]
  | ⟨3, _⟩ =>
    show (dat1 (T3 m) c).arrAt 3 cfg1.N = W4 m c (Proc.devRef .tc (Pipeline.arrRef spec1 3))
    unfold W4
    rw [Function.update_self]
theorem hrest1 (c : Dev nD) : ∀ b, b ∉ Finset.univ.image (Pipeline.arrRef spec1) → T4 m c b = T3 m c b := fun b hb => by
  show W4 m c (Proc.devRef .tc b) = W3 m c (Proc.devRef .tc b)
  unfold W4
  exact Function.update_of_ne (StableHlo.devRef_ne_of_ne fun e => hb (Finset.mem_image.mpr ⟨3, Finset.mem_univ _, e.symm⟩)) _ _

set_option backward.isDefEq.respectTransparency.types false in
/-- Region 1 over the thread state: entered with every unscoped buffer at boundary 3's contents, left at boundary 4's. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg2.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 2's exit each of its arrays holds what its write-backs leave: an input its contents at entry, an output the new contents. -/
theorem hF2 (c : Dev nD) (w : Fin cfg2.W) : (dat2 (T5 m) c).arrAt w cfg2.N = T6 m c (Pipeline.arrRef spec2 w) := by
  match w with
  | ⟨0, _⟩ =>
    refine ((dat2 (T5 m) c).arrAt_in 0 rfl _).trans ((A_eq2 (T5 m) c 0).trans ?_)
    show W5 m c (Proc.devRef .tc (Pipeline.arrRef spec2 0)) = W6 m c (Proc.devRef .tc (Pipeline.arrRef spec2 0))
    unfold W6
    rw [Function.update_of_ne (StableHlo.devRef_ne_of_ne (by decide : Pipeline.arrRef spec2 0 ≠ Pipeline.arrRef spec2 3))]
  | ⟨1, _⟩ =>
    refine ((dat2 (T5 m) c).arrAt_in 1 rfl _).trans ((A_eq2 (T5 m) c 1).trans ?_)
    show W5 m c (Proc.devRef .tc (Pipeline.arrRef spec2 1)) = W6 m c (Proc.devRef .tc (Pipeline.arrRef spec2 1))
    unfold W6
    rw [Function.update_of_ne (StableHlo.devRef_ne_of_ne (by decide : Pipeline.arrRef spec2 1 ≠ Pipeline.arrRef spec2 3))]
  | ⟨2, _⟩ =>
    refine ((dat2 (T5 m) c).arrAt_in 2 rfl _).trans ((A_eq2 (T5 m) c 2).trans ?_)
    show W5 m c (Proc.devRef .tc (Pipeline.arrRef spec2 2)) = W6 m c (Proc.devRef .tc (Pipeline.arrRef spec2 2))
    unfold W6
    rw [Function.update_of_ne (StableHlo.devRef_ne_of_ne (by decide : Pipeline.arrRef spec2 2 ≠ Pipeline.arrRef spec2 3))]
  | ⟨3, _⟩ =>
    show (dat2 (T5 m) c).arrAt 3 cfg2.N = W6 m c (Proc.devRef .tc (Pipeline.arrRef spec2 3))
    unfold W6
    rw [Function.update_self]
theorem hrest2 (c : Dev nD) : ∀ b, b ∉ Finset.univ.image (Pipeline.arrRef spec2) → T6 m c b = T5 m c b := fun b hb => by
  show W6 m c (Proc.devRef .tc b) = W5 m c (Proc.devRef .tc b)
  unfold W6
  exact Function.update_of_ne (StableHlo.devRef_ne_of_ne fun e => hb (Finset.mem_image.mpr ⟨3, Finset.mem_univ _, e.symm⟩)) _ _

set_option backward.isDefEq.respectTransparency.types false in
/-- Region 2 over the thread state: entered with every unscoped buffer at boundary 5's contents, left at boundary 6's. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg3.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 3's exit each of its arrays holds what its write-backs leave: an input its contents at entry, an output the new contents. -/
theorem hF3 (c : Dev nD) (w : Fin cfg3.W) : (dat3 (T7 m) c).arrAt w cfg3.N = T8 m c (Pipeline.arrRef spec3 w) := by
  match w with
  | ⟨0, _⟩ =>
    refine ((dat3 (T7 m) c).arrAt_in 0 rfl _).trans ((A_eq3 (T7 m) c 0).trans ?_)
    show W7 m c (Proc.devRef .tc (Pipeline.arrRef spec3 0)) = W8 m c (Proc.devRef .tc (Pipeline.arrRef spec3 0))
    unfold W8
    rw [Function.update_of_ne (StableHlo.devRef_ne_of_ne (by decide : Pipeline.arrRef spec3 0 ≠ Pipeline.arrRef spec3 3))]
  | ⟨1, _⟩ =>
    refine ((dat3 (T7 m) c).arrAt_in 1 rfl _).trans ((A_eq3 (T7 m) c 1).trans ?_)
    show W7 m c (Proc.devRef .tc (Pipeline.arrRef spec3 1)) = W8 m c (Proc.devRef .tc (Pipeline.arrRef spec3 1))
    unfold W8
    rw [Function.update_of_ne (StableHlo.devRef_ne_of_ne (by decide : Pipeline.arrRef spec3 1 ≠ Pipeline.arrRef spec3 3))]
  | ⟨2, _⟩ =>
    refine ((dat3 (T7 m) c).arrAt_in 2 rfl _).trans ((A_eq3 (T7 m) c 2).trans ?_)
    show W7 m c (Proc.devRef .tc (Pipeline.arrRef spec3 2)) = W8 m c (Proc.devRef .tc (Pipeline.arrRef spec3 2))
    unfold W8
    rw [Function.update_of_ne (StableHlo.devRef_ne_of_ne (by decide : Pipeline.arrRef spec3 2 ≠ Pipeline.arrRef spec3 3))]
  | ⟨3, _⟩ =>
    show (dat3 (T7 m) c).arrAt 3 cfg3.N = W8 m c (Proc.devRef .tc (Pipeline.arrRef spec3 3))
    unfold W8
    rw [Function.update_self]
theorem hrest3 (c : Dev nD) : ∀ b, b ∉ Finset.univ.image (Pipeline.arrRef spec3) → T8 m c b = T7 m c b := fun b hb => by
  show W8 m c (Proc.devRef .tc b) = W7 m c (Proc.devRef .tc b)
  unfold W8
  exact Function.update_of_ne (StableHlo.devRef_ne_of_ne fun e => hb (Finset.mem_image.mpr ⟨3, Finset.mem_univ _, e.symm⟩)) _ _

set_option backward.isDefEq.respectTransparency.types false in
/-- Region 3 over the thread state: entered with every unscoped buffer at boundary 7's contents, left at boundary 8's. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (T7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T7 m c) (T8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg4.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 4's exit each of its arrays holds what its write-backs leave: an input its contents at entry, an output the new contents. -/
theorem hF4 (c : Dev nD) (w : Fin cfg4.W) : (dat4 (T11 m) c).arrAt w cfg4.N = T12 m c (Pipeline.arrRef spec4 w) := by
  match w with
  | ⟨0, _⟩ =>
    refine ((dat4 (T11 m) c).arrAt_in 0 rfl _).trans ((A_eq4 (T11 m) c 0).trans ?_)
    show W11 m c (Proc.devRef .tc (Pipeline.arrRef spec4 0)) = W12 m c (Proc.devRef .tc (Pipeline.arrRef spec4 0))
    unfold W12
    rw [Function.update_of_ne (StableHlo.devRef_ne_of_ne (by decide : Pipeline.arrRef spec4 0 ≠ Pipeline.arrRef spec4 6)), Function.update_of_ne (StableHlo.devRef_ne_of_ne (by decide : Pipeline.arrRef spec4 0 ≠ Pipeline.arrRef spec4 5)), Function.update_of_ne (StableHlo.devRef_ne_of_ne (by decide : Pipeline.arrRef spec4 0 ≠ Pipeline.arrRef spec4 4))]
  | ⟨1, _⟩ =>
    refine ((dat4 (T11 m) c).arrAt_in 1 rfl _).trans ((A_eq4 (T11 m) c 1).trans ?_)
    show W11 m c (Proc.devRef .tc (Pipeline.arrRef spec4 1)) = W12 m c (Proc.devRef .tc (Pipeline.arrRef spec4 1))
    unfold W12
    rw [Function.update_of_ne (StableHlo.devRef_ne_of_ne (by decide : Pipeline.arrRef spec4 1 ≠ Pipeline.arrRef spec4 6)), Function.update_of_ne (StableHlo.devRef_ne_of_ne (by decide : Pipeline.arrRef spec4 1 ≠ Pipeline.arrRef spec4 5)), Function.update_of_ne (StableHlo.devRef_ne_of_ne (by decide : Pipeline.arrRef spec4 1 ≠ Pipeline.arrRef spec4 4))]
  | ⟨2, _⟩ =>
    refine ((dat4 (T11 m) c).arrAt_in 2 rfl _).trans ((A_eq4 (T11 m) c 2).trans ?_)
    show W11 m c (Proc.devRef .tc (Pipeline.arrRef spec4 2)) = W12 m c (Proc.devRef .tc (Pipeline.arrRef spec4 2))
    unfold W12
    rw [Function.update_of_ne (StableHlo.devRef_ne_of_ne (by decide : Pipeline.arrRef spec4 2 ≠ Pipeline.arrRef spec4 6)), Function.update_of_ne (StableHlo.devRef_ne_of_ne (by decide : Pipeline.arrRef spec4 2 ≠ Pipeline.arrRef spec4 5)), Function.update_of_ne (StableHlo.devRef_ne_of_ne (by decide : Pipeline.arrRef spec4 2 ≠ Pipeline.arrRef spec4 4))]
  | ⟨3, _⟩ =>
    refine ((dat4 (T11 m) c).arrAt_in 3 rfl _).trans ((A_eq4 (T11 m) c 3).trans ?_)
    show W11 m c (Proc.devRef .tc (Pipeline.arrRef spec4 3)) = W12 m c (Proc.devRef .tc (Pipeline.arrRef spec4 3))
    unfold W12
    rw [Function.update_of_ne (StableHlo.devRef_ne_of_ne (by decide : Pipeline.arrRef spec4 3 ≠ Pipeline.arrRef spec4 6)), Function.update_of_ne (StableHlo.devRef_ne_of_ne (by decide : Pipeline.arrRef spec4 3 ≠ Pipeline.arrRef spec4 5)), Function.update_of_ne (StableHlo.devRef_ne_of_ne (by decide : Pipeline.arrRef spec4 3 ≠ Pipeline.arrRef spec4 4))]
  | ⟨4, _⟩ =>
    show (dat4 (T11 m) c).arrAt 4 cfg4.N = W12 m c (Proc.devRef .tc (Pipeline.arrRef spec4 4))
    unfold W12
    rw [Function.update_of_ne (StableHlo.devRef_ne_of_ne (by decide : Pipeline.arrRef spec4 4 ≠ Pipeline.arrRef spec4 6)), Function.update_of_ne (StableHlo.devRef_ne_of_ne (by decide : Pipeline.arrRef spec4 4 ≠ Pipeline.arrRef spec4 5)), Function.update_self]
  | ⟨5, _⟩ =>
    show (dat4 (T11 m) c).arrAt 5 cfg4.N = W12 m c (Proc.devRef .tc (Pipeline.arrRef spec4 5))
    unfold W12
    rw [Function.update_of_ne (StableHlo.devRef_ne_of_ne (by decide : Pipeline.arrRef spec4 5 ≠ Pipeline.arrRef spec4 6)), Function.update_self]
  | ⟨6, _⟩ =>
    show (dat4 (T11 m) c).arrAt 6 cfg4.N = W12 m c (Proc.devRef .tc (Pipeline.arrRef spec4 6))
    unfold W12
    rw [Function.update_self]
theorem hrest4 (c : Dev nD) : ∀ b, b ∉ Finset.univ.image (Pipeline.arrRef spec4) → T12 m c b = T11 m c b := fun b hb => by
  show W12 m c (Proc.devRef .tc b) = W11 m c (Proc.devRef .tc b)
  unfold W12
  exact (Function.update_of_ne (StableHlo.devRef_ne_of_ne fun e => hb (Finset.mem_image.mpr ⟨6, Finset.mem_univ _, e.symm⟩)) _ _).trans ((Function.update_of_ne (StableHlo.devRef_ne_of_ne fun e => hb (Finset.mem_image.mpr ⟨5, Finset.mem_univ _, e.symm⟩)) _ _).trans (Function.update_of_ne (StableHlo.devRef_ne_of_ne fun e => hb (Finset.mem_image.mpr ⟨4, Finset.mem_univ _, e.symm⟩)) _ _))

set_option backward.isDefEq.respectTransparency.types false in
/-- Region 4 over the thread state: entered with every unscoped buffer at boundary 11's contents, left at boundary 12's. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T11 m) c).loose
  hwaits := Pipeline.hwaits_of_owed_zero _ _ _ _ L lv 4 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec4 c (T11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T11 m c) (T12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg5.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 5's exit each of its arrays holds what its write-backs leave: an input its contents at entry, an output the new contents. -/
theorem hF5 (c : Dev nD) (w : Fin cfg5.W) : (dat5 (T13 m) c).arrAt w cfg5.N = T14 m c (Pipeline.arrRef spec5 w) := by
  match w with
  | ⟨0, _⟩ =>
    refine ((dat5 (T13 m) c).arrAt_in 0 rfl _).trans ((A_eq5 (T13 m) c 0).trans ?_)
    show W13 m c (Proc.devRef .tc (Pipeline.arrRef spec5 0)) = W14 m c (Proc.devRef .tc (Pipeline.arrRef spec5 0))
    unfold W14
    rw [Function.update_of_ne (StableHlo.devRef_ne_of_ne (by decide : Pipeline.arrRef spec5 0 ≠ Pipeline.arrRef spec5 3))]
  | ⟨1, _⟩ =>
    refine ((dat5 (T13 m) c).arrAt_in 1 rfl _).trans ((A_eq5 (T13 m) c 1).trans ?_)
    show W13 m c (Proc.devRef .tc (Pipeline.arrRef spec5 1)) = W14 m c (Proc.devRef .tc (Pipeline.arrRef spec5 1))
    unfold W14
    rw [Function.update_of_ne (StableHlo.devRef_ne_of_ne (by decide : Pipeline.arrRef spec5 1 ≠ Pipeline.arrRef spec5 3))]
  | ⟨2, _⟩ =>
    refine ((dat5 (T13 m) c).arrAt_in 2 rfl _).trans ((A_eq5 (T13 m) c 2).trans ?_)
    show W13 m c (Proc.devRef .tc (Pipeline.arrRef spec5 2)) = W14 m c (Proc.devRef .tc (Pipeline.arrRef spec5 2))
    unfold W14
    rw [Function.update_of_ne (StableHlo.devRef_ne_of_ne (by decide : Pipeline.arrRef spec5 2 ≠ Pipeline.arrRef spec5 3))]
  | ⟨3, _⟩ =>
    show (dat5 (T13 m) c).arrAt 3 cfg5.N = W14 m c (Proc.devRef .tc (Pipeline.arrRef spec5 3))
    unfold W14
    rw [Function.update_self]
theorem hrest5 (c : Dev nD) : ∀ b, b ∉ Finset.univ.image (Pipeline.arrRef spec5) → T14 m c b = T13 m c b := fun b hb => by
  show W14 m c (Proc.devRef .tc b) = W13 m c (Proc.devRef .tc b)
  unfold W14
  exact Function.update_of_ne (StableHlo.devRef_ne_of_ne fun e => hb (Finset.mem_image.mpr ⟨3, Finset.mem_univ _, e.symm⟩)) _ _

set_option backward.isDefEq.respectTransparency.types false in
/-- Region 5 over the thread state: entered with every unscoped buffer at boundary 13's contents, left at boundary 14's. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (T13 m) c).loose
  hwaits := Pipeline.hwaits_of_owed_zero _ _ _ _ L lv 5 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec5 c (T13 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (T13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (T13 m c) (T14 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg6.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 6's exit each of its arrays holds what its write-backs leave: an input its contents at entry, an output the new contents. -/
theorem hF6 (c : Dev nD) (w : Fin cfg6.W) : (dat6 (T17 m) c).arrAt w cfg6.N = T18 m c (Pipeline.arrRef spec6 w) := by
  match w with
  | ⟨0, _⟩ =>
    refine ((dat6 (T17 m) c).arrAt_in 0 rfl _).trans ((A_eq6 (T17 m) c 0).trans ?_)
    show W17 m c (Proc.devRef .tc (Pipeline.arrRef spec6 0)) = W18 m c (Proc.devRef .tc (Pipeline.arrRef spec6 0))
    unfold W18
    rw [Function.update_of_ne (StableHlo.devRef_ne_of_ne (by decide : Pipeline.arrRef spec6 0 ≠ Pipeline.arrRef spec6 6))]
  | ⟨1, _⟩ =>
    refine ((dat6 (T17 m) c).arrAt_in 1 rfl _).trans ((A_eq6 (T17 m) c 1).trans ?_)
    show W17 m c (Proc.devRef .tc (Pipeline.arrRef spec6 1)) = W18 m c (Proc.devRef .tc (Pipeline.arrRef spec6 1))
    unfold W18
    rw [Function.update_of_ne (StableHlo.devRef_ne_of_ne (by decide : Pipeline.arrRef spec6 1 ≠ Pipeline.arrRef spec6 6))]
  | ⟨2, _⟩ =>
    refine ((dat6 (T17 m) c).arrAt_in 2 rfl _).trans ((A_eq6 (T17 m) c 2).trans ?_)
    show W17 m c (Proc.devRef .tc (Pipeline.arrRef spec6 2)) = W18 m c (Proc.devRef .tc (Pipeline.arrRef spec6 2))
    unfold W18
    rw [Function.update_of_ne (StableHlo.devRef_ne_of_ne (by decide : Pipeline.arrRef spec6 2 ≠ Pipeline.arrRef spec6 6))]
  | ⟨3, _⟩ =>
    refine ((dat6 (T17 m) c).arrAt_in 3 rfl _).trans ((A_eq6 (T17 m) c 3).trans ?_)
    show W17 m c (Proc.devRef .tc (Pipeline.arrRef spec6 3)) = W18 m c (Proc.devRef .tc (Pipeline.arrRef spec6 3))
    unfold W18
    rw [Function.update_of_ne (StableHlo.devRef_ne_of_ne (by decide : Pipeline.arrRef spec6 3 ≠ Pipeline.arrRef spec6 6))]
  | ⟨4, _⟩ =>
    refine ((dat6 (T17 m) c).arrAt_in 4 rfl _).trans ((A_eq6 (T17 m) c 4).trans ?_)
    show W17 m c (Proc.devRef .tc (Pipeline.arrRef spec6 4)) = W18 m c (Proc.devRef .tc (Pipeline.arrRef spec6 4))
    unfold W18
    rw [Function.update_of_ne (StableHlo.devRef_ne_of_ne (by decide : Pipeline.arrRef spec6 4 ≠ Pipeline.arrRef spec6 6))]
  | ⟨5, _⟩ =>
    refine ((dat6 (T17 m) c).arrAt_in 5 rfl _).trans ((A_eq6 (T17 m) c 5).trans ?_)
    show W17 m c (Proc.devRef .tc (Pipeline.arrRef spec6 5)) = W18 m c (Proc.devRef .tc (Pipeline.arrRef spec6 5))
    unfold W18
    rw [Function.update_of_ne (StableHlo.devRef_ne_of_ne (by decide : Pipeline.arrRef spec6 5 ≠ Pipeline.arrRef spec6 6))]
  | ⟨6, _⟩ =>
    show (dat6 (T17 m) c).arrAt 6 cfg6.N = W18 m c (Proc.devRef .tc (Pipeline.arrRef spec6 6))
    unfold W18
    rw [Function.update_self]
theorem hrest6 (c : Dev nD) : ∀ b, b ∉ Finset.univ.image (Pipeline.arrRef spec6) → T18 m c b = T17 m c b := fun b hb => by
  show W18 m c (Proc.devRef .tc b) = W17 m c (Proc.devRef .tc b)
  unfold W18
  exact Function.update_of_ne (StableHlo.devRef_ne_of_ne fun e => hb (Finset.mem_image.mpr ⟨6, Finset.mem_univ _, e.symm⟩)) _ _

set_option backward.isDefEq.respectTransparency.types false in
/-- Region 6 over the thread state: entered with every unscoped buffer at boundary 17's contents, left at boundary 18's. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (T17 m) c).loose
  hwaits := Pipeline.hwaits_of_owed_zero _ _ _ _ L lv 6 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec6 c (T17 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (T17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (T17 m c) (T18 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg7.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 7's exit each of its arrays holds what its write-backs leave: an input its contents at entry, an output the new contents. -/
theorem hF7 (c : Dev nD) (w : Fin cfg7.W) : (dat7 (T21 m) c).arrAt w cfg7.N = T22 m c (Pipeline.arrRef spec7 w) := by
  match w with
  | ⟨0, _⟩ =>
    refine ((dat7 (T21 m) c).arrAt_in 0 rfl _).trans ((A_eq7 (T21 m) c 0).trans ?_)
    show W21 m c (Proc.devRef .tc (Pipeline.arrRef spec7 0)) = W22 m c (Proc.devRef .tc (Pipeline.arrRef spec7 0))
    unfold W22
    rw [Function.update_of_ne (StableHlo.devRef_ne_of_ne (by decide : Pipeline.arrRef spec7 0 ≠ Pipeline.arrRef spec7 6))]
  | ⟨1, _⟩ =>
    refine ((dat7 (T21 m) c).arrAt_in 1 rfl _).trans ((A_eq7 (T21 m) c 1).trans ?_)
    show W21 m c (Proc.devRef .tc (Pipeline.arrRef spec7 1)) = W22 m c (Proc.devRef .tc (Pipeline.arrRef spec7 1))
    unfold W22
    rw [Function.update_of_ne (StableHlo.devRef_ne_of_ne (by decide : Pipeline.arrRef spec7 1 ≠ Pipeline.arrRef spec7 6))]
  | ⟨2, _⟩ =>
    refine ((dat7 (T21 m) c).arrAt_in 2 rfl _).trans ((A_eq7 (T21 m) c 2).trans ?_)
    show W21 m c (Proc.devRef .tc (Pipeline.arrRef spec7 2)) = W22 m c (Proc.devRef .tc (Pipeline.arrRef spec7 2))
    unfold W22
    rw [Function.update_of_ne (StableHlo.devRef_ne_of_ne (by decide : Pipeline.arrRef spec7 2 ≠ Pipeline.arrRef spec7 6))]
  | ⟨3, _⟩ =>
    refine ((dat7 (T21 m) c).arrAt_in 3 rfl _).trans ((A_eq7 (T21 m) c 3).trans ?_)
    show W21 m c (Proc.devRef .tc (Pipeline.arrRef spec7 3)) = W22 m c (Proc.devRef .tc (Pipeline.arrRef spec7 3))
    unfold W22
    rw [Function.update_of_ne (StableHlo.devRef_ne_of_ne (by decide : Pipeline.arrRef spec7 3 ≠ Pipeline.arrRef spec7 6))]
  | ⟨4, _⟩ =>
    refine ((dat7 (T21 m) c).arrAt_in 4 rfl _).trans ((A_eq7 (T21 m) c 4).trans ?_)
    show W21 m c (Proc.devRef .tc (Pipeline.arrRef spec7 4)) = W22 m c (Proc.devRef .tc (Pipeline.arrRef spec7 4))
    unfold W22
    rw [Function.update_of_ne (StableHlo.devRef_ne_of_ne (by decide : Pipeline.arrRef spec7 4 ≠ Pipeline.arrRef spec7 6))]
  | ⟨5, _⟩ =>
    refine ((dat7 (T21 m) c).arrAt_in 5 rfl _).trans ((A_eq7 (T21 m) c 5).trans ?_)
    show W21 m c (Proc.devRef .tc (Pipeline.arrRef spec7 5)) = W22 m c (Proc.devRef .tc (Pipeline.arrRef spec7 5))
    unfold W22
    rw [Function.update_of_ne (StableHlo.devRef_ne_of_ne (by decide : Pipeline.arrRef spec7 5 ≠ Pipeline.arrRef spec7 6))]
  | ⟨6, _⟩ =>
    show (dat7 (T21 m) c).arrAt 6 cfg7.N = W22 m c (Proc.devRef .tc (Pipeline.arrRef spec7 6))
    unfold W22
    rw [Function.update_self]
theorem hrest7 (c : Dev nD) : ∀ b, b ∉ Finset.univ.image (Pipeline.arrRef spec7) → T22 m c b = T21 m c b := fun b hb => by
  show W22 m c (Proc.devRef .tc b) = W21 m c (Proc.devRef .tc b)
  unfold W22
  exact Function.update_of_ne (StableHlo.devRef_ne_of_ne fun e => hb (Finset.mem_image.mpr ⟨6, Finset.mem_univ _, e.symm⟩)) _ _

set_option backward.isDefEq.respectTransparency.types false in
/-- Region 7 over the thread state: entered with every unscoped buffer at boundary 21's contents, left at boundary 22's. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (T21 m) c).loose
  hwaits := Pipeline.hwaits_of_owed_zero _ _ _ _ L lv 7 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec7 c (T21 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (T21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (T21 m c) (T22 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg8.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 8's exit each of its arrays holds what its write-backs leave: an input its contents at entry, an output the new contents. -/
theorem hF8 (c : Dev nD) (w : Fin cfg8.W) : (dat8 (T23 m) c).arrAt w cfg8.N = T24 m c (Pipeline.arrRef spec8 w) := by
  match w with
  | ⟨0, _⟩ =>
    refine ((dat8 (T23 m) c).arrAt_in 0 rfl _).trans ((A_eq8 (T23 m) c 0).trans ?_)
    show W23 m c (Proc.devRef .tc (Pipeline.arrRef spec8 0)) = W24 m c (Proc.devRef .tc (Pipeline.arrRef spec8 0))
    unfold W24
    rw [Function.update_of_ne (StableHlo.devRef_ne_of_ne (by decide : Pipeline.arrRef spec8 0 ≠ Pipeline.arrRef spec8 3))]
  | ⟨1, _⟩ =>
    refine ((dat8 (T23 m) c).arrAt_in 1 rfl _).trans ((A_eq8 (T23 m) c 1).trans ?_)
    show W23 m c (Proc.devRef .tc (Pipeline.arrRef spec8 1)) = W24 m c (Proc.devRef .tc (Pipeline.arrRef spec8 1))
    unfold W24
    rw [Function.update_of_ne (StableHlo.devRef_ne_of_ne (by decide : Pipeline.arrRef spec8 1 ≠ Pipeline.arrRef spec8 3))]
  | ⟨2, _⟩ =>
    refine ((dat8 (T23 m) c).arrAt_in 2 rfl _).trans ((A_eq8 (T23 m) c 2).trans ?_)
    show W23 m c (Proc.devRef .tc (Pipeline.arrRef spec8 2)) = W24 m c (Proc.devRef .tc (Pipeline.arrRef spec8 2))
    unfold W24
    rw [Function.update_of_ne (StableHlo.devRef_ne_of_ne (by decide : Pipeline.arrRef spec8 2 ≠ Pipeline.arrRef spec8 3))]
  | ⟨3, _⟩ =>
    show (dat8 (T23 m) c).arrAt 3 cfg8.N = W24 m c (Proc.devRef .tc (Pipeline.arrRef spec8 3))
    unfold W24
    rw [Function.update_self]
theorem hrest8 (c : Dev nD) : ∀ b, b ∉ Finset.univ.image (Pipeline.arrRef spec8) → T24 m c b = T23 m c b := fun b hb => by
  show W24 m c (Proc.devRef .tc b) = W23 m c (Proc.devRef .tc b)
  unfold W24
  exact Function.update_of_ne (StableHlo.devRef_ne_of_ne fun e => hb (Finset.mem_image.mpr ⟨3, Finset.mem_univ _, e.symm⟩)) _ _

set_option backward.isDefEq.respectTransparency.types false in
/-- Region 8 over the thread state: entered with every unscoped buffer at boundary 23's contents, left at boundary 24's. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (T23 m) c).loose
  hwaits := Pipeline.hwaits_of_owed_zero _ _ _ _ L lv 8 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec8 c (T23 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (T23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (T23 m c) (T24 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg9.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 9's exit each of its arrays holds what its write-backs leave: an input its contents at entry, an output the new contents. -/
theorem hF9 (c : Dev nD) (w : Fin cfg9.W) : (dat9 (T25 m) c).arrAt w cfg9.N = T26 m c (Pipeline.arrRef spec9 w) := by
  match w with
  | ⟨0, _⟩ =>
    refine ((dat9 (T25 m) c).arrAt_in 0 rfl _).trans ((A_eq9 (T25 m) c 0).trans ?_)
    show W25 m c (Proc.devRef .tc (Pipeline.arrRef spec9 0)) = W26 m c (Proc.devRef .tc (Pipeline.arrRef spec9 0))
    unfold W26
    rw [Function.update_of_ne (StableHlo.devRef_ne_of_ne (by decide : Pipeline.arrRef spec9 0 ≠ Pipeline.arrRef spec9 3))]
  | ⟨1, _⟩ =>
    refine ((dat9 (T25 m) c).arrAt_in 1 rfl _).trans ((A_eq9 (T25 m) c 1).trans ?_)
    show W25 m c (Proc.devRef .tc (Pipeline.arrRef spec9 1)) = W26 m c (Proc.devRef .tc (Pipeline.arrRef spec9 1))
    unfold W26
    rw [Function.update_of_ne (StableHlo.devRef_ne_of_ne (by decide : Pipeline.arrRef spec9 1 ≠ Pipeline.arrRef spec9 3))]
  | ⟨2, _⟩ =>
    refine ((dat9 (T25 m) c).arrAt_in 2 rfl _).trans ((A_eq9 (T25 m) c 2).trans ?_)
    show W25 m c (Proc.devRef .tc (Pipeline.arrRef spec9 2)) = W26 m c (Proc.devRef .tc (Pipeline.arrRef spec9 2))
    unfold W26
    rw [Function.update_of_ne (StableHlo.devRef_ne_of_ne (by decide : Pipeline.arrRef spec9 2 ≠ Pipeline.arrRef spec9 3))]
  | ⟨3, _⟩ =>
    show (dat9 (T25 m) c).arrAt 3 cfg9.N = W26 m c (Proc.devRef .tc (Pipeline.arrRef spec9 3))
    unfold W26
    rw [Function.update_self]
theorem hrest9 (c : Dev nD) : ∀ b, b ∉ Finset.univ.image (Pipeline.arrRef spec9) → T26 m c b = T25 m c b := fun b hb => by
  show W26 m c (Proc.devRef .tc b) = W25 m c (Proc.devRef .tc b)
  unfold W26
  exact Function.update_of_ne (StableHlo.devRef_ne_of_ne fun e => hb (Finset.mem_image.mpr ⟨3, Finset.mem_univ _, e.symm⟩)) _ _

set_option backward.isDefEq.respectTransparency.types false in
/-- Region 9 over the thread state: entered with every unscoped buffer at boundary 25's contents, left at boundary 26's. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (T25 m) c).loose
  hwaits := Pipeline.hwaits_of_owed_zero _ _ _ _ L lv 9 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec9 c (T25 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (T25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (T25 m c) (T26 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg10.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 10's exit each of its arrays holds what its write-backs leave: an input its contents at entry, an output the new contents. -/
theorem hF10 (c : Dev nD) (w : Fin cfg10.W) : (dat10 (T29 m) c).arrAt w cfg10.N = T30 m c (Pipeline.arrRef spec10 w) := by
  match w with
  | ⟨0, _⟩ =>
    refine ((dat10 (T29 m) c).arrAt_in 0 rfl _).trans ((A_eq10 (T29 m) c 0).trans ?_)
    show W29 m c (Proc.devRef .tc (Pipeline.arrRef spec10 0)) = W30 m c (Proc.devRef .tc (Pipeline.arrRef spec10 0))
    unfold W30
    rw [Function.update_of_ne (StableHlo.devRef_ne_of_ne (by decide : Pipeline.arrRef spec10 0 ≠ Pipeline.arrRef spec10 6)), Function.update_of_ne (StableHlo.devRef_ne_of_ne (by decide : Pipeline.arrRef spec10 0 ≠ Pipeline.arrRef spec10 5)), Function.update_of_ne (StableHlo.devRef_ne_of_ne (by decide : Pipeline.arrRef spec10 0 ≠ Pipeline.arrRef spec10 4))]
  | ⟨1, _⟩ =>
    refine ((dat10 (T29 m) c).arrAt_in 1 rfl _).trans ((A_eq10 (T29 m) c 1).trans ?_)
    show W29 m c (Proc.devRef .tc (Pipeline.arrRef spec10 1)) = W30 m c (Proc.devRef .tc (Pipeline.arrRef spec10 1))
    unfold W30
    rw [Function.update_of_ne (StableHlo.devRef_ne_of_ne (by decide : Pipeline.arrRef spec10 1 ≠ Pipeline.arrRef spec10 6)), Function.update_of_ne (StableHlo.devRef_ne_of_ne (by decide : Pipeline.arrRef spec10 1 ≠ Pipeline.arrRef spec10 5)), Function.update_of_ne (StableHlo.devRef_ne_of_ne (by decide : Pipeline.arrRef spec10 1 ≠ Pipeline.arrRef spec10 4))]
  | ⟨2, _⟩ =>
    refine ((dat10 (T29 m) c).arrAt_in 2 rfl _).trans ((A_eq10 (T29 m) c 2).trans ?_)
    show W29 m c (Proc.devRef .tc (Pipeline.arrRef spec10 2)) = W30 m c (Proc.devRef .tc (Pipeline.arrRef spec10 2))
    unfold W30
    rw [Function.update_of_ne (StableHlo.devRef_ne_of_ne (by decide : Pipeline.arrRef spec10 2 ≠ Pipeline.arrRef spec10 6)), Function.update_of_ne (StableHlo.devRef_ne_of_ne (by decide : Pipeline.arrRef spec10 2 ≠ Pipeline.arrRef spec10 5)), Function.update_of_ne (StableHlo.devRef_ne_of_ne (by decide : Pipeline.arrRef spec10 2 ≠ Pipeline.arrRef spec10 4))]
  | ⟨3, _⟩ =>
    refine ((dat10 (T29 m) c).arrAt_in 3 rfl _).trans ((A_eq10 (T29 m) c 3).trans ?_)
    show W29 m c (Proc.devRef .tc (Pipeline.arrRef spec10 3)) = W30 m c (Proc.devRef .tc (Pipeline.arrRef spec10 3))
    unfold W30
    rw [Function.update_of_ne (StableHlo.devRef_ne_of_ne (by decide : Pipeline.arrRef spec10 3 ≠ Pipeline.arrRef spec10 6)), Function.update_of_ne (StableHlo.devRef_ne_of_ne (by decide : Pipeline.arrRef spec10 3 ≠ Pipeline.arrRef spec10 5)), Function.update_of_ne (StableHlo.devRef_ne_of_ne (by decide : Pipeline.arrRef spec10 3 ≠ Pipeline.arrRef spec10 4))]
  | ⟨4, _⟩ =>
    show (dat10 (T29 m) c).arrAt 4 cfg10.N = W30 m c (Proc.devRef .tc (Pipeline.arrRef spec10 4))
    unfold W30
    rw [Function.update_of_ne (StableHlo.devRef_ne_of_ne (by decide : Pipeline.arrRef spec10 4 ≠ Pipeline.arrRef spec10 6)), Function.update_of_ne (StableHlo.devRef_ne_of_ne (by decide : Pipeline.arrRef spec10 4 ≠ Pipeline.arrRef spec10 5)), Function.update_self]
  | ⟨5, _⟩ =>
    show (dat10 (T29 m) c).arrAt 5 cfg10.N = W30 m c (Proc.devRef .tc (Pipeline.arrRef spec10 5))
    unfold W30
    rw [Function.update_of_ne (StableHlo.devRef_ne_of_ne (by decide : Pipeline.arrRef spec10 5 ≠ Pipeline.arrRef spec10 6)), Function.update_self]
  | ⟨6, _⟩ =>
    show (dat10 (T29 m) c).arrAt 6 cfg10.N = W30 m c (Proc.devRef .tc (Pipeline.arrRef spec10 6))
    unfold W30
    rw [Function.update_self]
theorem hrest10 (c : Dev nD) : ∀ b, b ∉ Finset.univ.image (Pipeline.arrRef spec10) → T30 m c b = T29 m c b := fun b hb => by
  show W30 m c (Proc.devRef .tc b) = W29 m c (Proc.devRef .tc b)
  unfold W30
  exact (Function.update_of_ne (StableHlo.devRef_ne_of_ne fun e => hb (Finset.mem_image.mpr ⟨6, Finset.mem_univ _, e.symm⟩)) _ _).trans ((Function.update_of_ne (StableHlo.devRef_ne_of_ne fun e => hb (Finset.mem_image.mpr ⟨5, Finset.mem_univ _, e.symm⟩)) _ _).trans (Function.update_of_ne (StableHlo.devRef_ne_of_ne fun e => hb (Finset.mem_image.mpr ⟨4, Finset.mem_univ _, e.symm⟩)) _ _))

set_option backward.isDefEq.respectTransparency.types false in
/-- Region 10 over the thread state: entered with every unscoped buffer at boundary 29's contents, left at boundary 30's. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (T29 m) c).loose
  hwaits := Pipeline.hwaits_of_owed_zero _ _ _ _ L lv 10 fun _ _ => rfl
  pre c := iprop(StableHlo.held (c : Thread nD τ) (Pipeline.ucRefs τ sig) (W29 m c) ∗ R c)
  post c := iprop(StableHlo.held (c : Thread nD τ) (Pipeline.ucRefs τ sig) (W30 m c) ∗ R c)
  X c := iprop(∃ r, prngReg c r)
  Y c := iprop(∃ r, prngReg c r)
  Z c := Pipeline.unscopedRest (Ix := Unit) (Name := ℕ) (U := UR sig nD τ) (Lvl := ℕ) spec10 c (T29 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (T29 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (T29 m c) (T30 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg11.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 11's exit each of its arrays holds what its write-backs leave: an input its contents at entry, an output the new contents. -/
theorem hF11 (c : Dev nD) (w : Fin cfg11.W) : (dat11 (T31 m) c).arrAt w cfg11.N = T32 m c (Pipeline.arrRef spec11 w) := by
  match w with
  | ⟨0, _⟩ =>
    refine ((dat11 (T31 m) c).arrAt_in 0 rfl _).trans ((A_eq11 (T31 m) c 0).trans ?_)
    show W31 m c (Proc.devRef .tc (Pipeline.arrRef spec11 0)) = W32 m c (Proc.devRef .tc (Pipeline.arrRef spec11 0))
    unfold W32
    rw [Function.update_of_ne (StableHlo.devRef_ne_of_ne (by decide : Pipeline.arrRef spec11 0 ≠ Pipeline.arrRef spec11 3))]
  | ⟨1, _⟩ =>
    refine ((dat11 (T31 m) c).arrAt_in 1 rfl _).trans ((A_eq11 (T31 m) c 1).trans ?_)
    show W31 m c (Proc.devRef .tc (Pipeline.arrRef spec11 1)) = W32 m c (Proc.devRef .tc (Pipeline.arrRef spec11 1))
    unfold W32
    rw [Function.update_of_ne (StableHlo.devRef_ne_of_ne (by decide : Pipeline.arrRef spec11 1 ≠ Pipeline.arrRef spec11 3))]
  | ⟨2, _⟩ =>
    refine ((dat11 (T31 m) c).arrAt_in 2 rfl _).trans ((A_eq11 (T31 m) c 2).trans ?_)
    show W31 m c (Proc.devRef .tc (Pipeline.arrRef spec11 2)) = W32 m c (Proc.devRef .tc (Pipeline.arrRef spec11 2))
    unfold W32
    rw [Function.update_of_ne (StableHlo.devRef_ne_of_ne (by decide : Pipeline.arrRef spec11 2 ≠ Pipeline.arrRef spec11 3))]
  | ⟨3, _⟩ =>
    show (dat11 (T31 m) c).arrAt 3 cfg11.N = W32 m c (Proc.devRef .tc (Pipeline.arrRef spec11 3))
    unfold W32
    rw [Function.update_self]
theorem hrest11 (c : Dev nD) : ∀ b, b ∉ Finset.univ.image (Pipeline.arrRef spec11) → T32 m c b = T31 m c b := fun b hb => by
  show W32 m c (Proc.devRef .tc b) = W31 m c (Proc.devRef .tc b)
  unfold W32
  exact Function.update_of_ne (StableHlo.devRef_ne_of_ne fun e => hb (Finset.mem_image.mpr ⟨3, Finset.mem_univ _, e.symm⟩)) _ _

set_option backward.isDefEq.respectTransparency.types false in
/-- Region 11 over the thread state: entered with every unscoped buffer at boundary 31's contents, left at boundary 32's. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (T31 m) c).loose
  hwaits := Pipeline.hwaits_of_owed_zero _ _ _ _ L lv 11 fun _ _ => rfl
  pre c := iprop(StableHlo.held (c : Thread nD τ) (Pipeline.ucRefs τ sig) (W31 m c) ∗ R c)
  post c := iprop(StableHlo.held (c : Thread nD τ) (Pipeline.ucRefs τ sig) (W32 m c) ∗ R c)
  X c := iprop(∃ r, prngReg c r)
  Y c := iprop(∃ r, prngReg c r)
  Z c := Pipeline.unscopedRest (Ix := Unit) (Name := ℕ) (U := UR sig nD τ) (Lvl := ℕ) spec11 c (T31 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (T31 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (T31 m c) (T32 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg12.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 12's exit each of its arrays holds what its write-backs leave: an input its contents at entry, an output the new contents. -/
theorem hF12 (c : Dev nD) (w : Fin cfg12.W) : (dat12 (T35 m) c).arrAt w cfg12.N = T36 m c (Pipeline.arrRef spec12 w) := by
  match w with
  | ⟨0, _⟩ =>
    refine ((dat12 (T35 m) c).arrAt_in 0 rfl _).trans ((A_eq12 (T35 m) c 0).trans ?_)
    show W35 m c (Proc.devRef .tc (Pipeline.arrRef spec12 0)) = W36 m c (Proc.devRef .tc (Pipeline.arrRef spec12 0))
    unfold W36
    rw [Function.update_of_ne (StableHlo.devRef_ne_of_ne (by decide : Pipeline.arrRef spec12 0 ≠ Pipeline.arrRef spec12 6))]
  | ⟨1, _⟩ =>
    refine ((dat12 (T35 m) c).arrAt_in 1 rfl _).trans ((A_eq12 (T35 m) c 1).trans ?_)
    show W35 m c (Proc.devRef .tc (Pipeline.arrRef spec12 1)) = W36 m c (Proc.devRef .tc (Pipeline.arrRef spec12 1))
    unfold W36
    rw [Function.update_of_ne (StableHlo.devRef_ne_of_ne (by decide : Pipeline.arrRef spec12 1 ≠ Pipeline.arrRef spec12 6))]
  | ⟨2, _⟩ =>
    refine ((dat12 (T35 m) c).arrAt_in 2 rfl _).trans ((A_eq12 (T35 m) c 2).trans ?_)
    show W35 m c (Proc.devRef .tc (Pipeline.arrRef spec12 2)) = W36 m c (Proc.devRef .tc (Pipeline.arrRef spec12 2))
    unfold W36
    rw [Function.update_of_ne (StableHlo.devRef_ne_of_ne (by decide : Pipeline.arrRef spec12 2 ≠ Pipeline.arrRef spec12 6))]
  | ⟨3, _⟩ =>
    refine ((dat12 (T35 m) c).arrAt_in 3 rfl _).trans ((A_eq12 (T35 m) c 3).trans ?_)
    show W35 m c (Proc.devRef .tc (Pipeline.arrRef spec12 3)) = W36 m c (Proc.devRef .tc (Pipeline.arrRef spec12 3))
    unfold W36
    rw [Function.update_of_ne (StableHlo.devRef_ne_of_ne (by decide : Pipeline.arrRef spec12 3 ≠ Pipeline.arrRef spec12 6))]
  | ⟨4, _⟩ =>
    refine ((dat12 (T35 m) c).arrAt_in 4 rfl _).trans ((A_eq12 (T35 m) c 4).trans ?_)
    show W35 m c (Proc.devRef .tc (Pipeline.arrRef spec12 4)) = W36 m c (Proc.devRef .tc (Pipeline.arrRef spec12 4))
    unfold W36
    rw [Function.update_of_ne (StableHlo.devRef_ne_of_ne (by decide : Pipeline.arrRef spec12 4 ≠ Pipeline.arrRef spec12 6))]
  | ⟨5, _⟩ =>
    refine ((dat12 (T35 m) c).arrAt_in 5 rfl _).trans ((A_eq12 (T35 m) c 5).trans ?_)
    show W35 m c (Proc.devRef .tc (Pipeline.arrRef spec12 5)) = W36 m c (Proc.devRef .tc (Pipeline.arrRef spec12 5))
    unfold W36
    rw [Function.update_of_ne (StableHlo.devRef_ne_of_ne (by decide : Pipeline.arrRef spec12 5 ≠ Pipeline.arrRef spec12 6))]
  | ⟨6, _⟩ =>
    show (dat12 (T35 m) c).arrAt 6 cfg12.N = W36 m c (Proc.devRef .tc (Pipeline.arrRef spec12 6))
    unfold W36
    rw [Function.update_self]
theorem hrest12 (c : Dev nD) : ∀ b, b ∉ Finset.univ.image (Pipeline.arrRef spec12) → T36 m c b = T35 m c b := fun b hb => by
  show W36 m c (Proc.devRef .tc b) = W35 m c (Proc.devRef .tc b)
  unfold W36
  exact Function.update_of_ne (StableHlo.devRef_ne_of_ne fun e => hb (Finset.mem_image.mpr ⟨6, Finset.mem_univ _, e.symm⟩)) _ _

set_option backward.isDefEq.respectTransparency.types false in
/-- Region 12 over the thread state: entered with every unscoped buffer at boundary 35's contents, left at boundary 36's. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (T35 m) c).loose
  hwaits := Pipeline.hwaits_of_owed_zero _ _ _ _ L lv 12 fun _ _ => rfl
  pre c := iprop(StableHlo.held (c : Thread nD τ) (Pipeline.ucRefs τ sig) (W35 m c) ∗ R c)
  post c := iprop(StableHlo.held (c : Thread nD τ) (Pipeline.ucRefs τ sig) (W36 m c) ∗ R c)
  X c := iprop(∃ r, prngReg c r)
  Y c := iprop(∃ r, prngReg c r)
  Z c := Pipeline.unscopedRest (Ix := Unit) (Name := ℕ) (U := UR sig nD τ) (Lvl := ℕ) spec12 c (T35 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (T35 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (T35 m c) (T36 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg13.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 13's exit each of its arrays holds what its write-backs leave: an input its contents at entry, an output the new contents. -/
theorem hF13 (c : Dev nD) (w : Fin cfg13.W) : (dat13 (T39 m) c).arrAt w cfg13.N = T40 m c (Pipeline.arrRef spec13 w) := by
  match w with
  | ⟨0, _⟩ =>
    refine ((dat13 (T39 m) c).arrAt_in 0 rfl _).trans ((A_eq13 (T39 m) c 0).trans ?_)
    show W39 m c (Proc.devRef .tc (Pipeline.arrRef spec13 0)) = W40 m c (Proc.devRef .tc (Pipeline.arrRef spec13 0))
    unfold W40
    rw [Function.update_of_ne (StableHlo.devRef_ne_of_ne (by decide : Pipeline.arrRef spec13 0 ≠ Pipeline.arrRef spec13 6))]
  | ⟨1, _⟩ =>
    refine ((dat13 (T39 m) c).arrAt_in 1 rfl _).trans ((A_eq13 (T39 m) c 1).trans ?_)
    show W39 m c (Proc.devRef .tc (Pipeline.arrRef spec13 1)) = W40 m c (Proc.devRef .tc (Pipeline.arrRef spec13 1))
    unfold W40
    rw [Function.update_of_ne (StableHlo.devRef_ne_of_ne (by decide : Pipeline.arrRef spec13 1 ≠ Pipeline.arrRef spec13 6))]
  | ⟨2, _⟩ =>
    refine ((dat13 (T39 m) c).arrAt_in 2 rfl _).trans ((A_eq13 (T39 m) c 2).trans ?_)
    show W39 m c (Proc.devRef .tc (Pipeline.arrRef spec13 2)) = W40 m c (Proc.devRef .tc (Pipeline.arrRef spec13 2))
    unfold W40
    rw [Function.update_of_ne (StableHlo.devRef_ne_of_ne (by decide : Pipeline.arrRef spec13 2 ≠ Pipeline.arrRef spec13 6))]
  | ⟨3, _⟩ =>
    refine ((dat13 (T39 m) c).arrAt_in 3 rfl _).trans ((A_eq13 (T39 m) c 3).trans ?_)
    show W39 m c (Proc.devRef .tc (Pipeline.arrRef spec13 3)) = W40 m c (Proc.devRef .tc (Pipeline.arrRef spec13 3))
    unfold W40
    rw [Function.update_of_ne (StableHlo.devRef_ne_of_ne (by decide : Pipeline.arrRef spec13 3 ≠ Pipeline.arrRef spec13 6))]
  | ⟨4, _⟩ =>
    refine ((dat13 (T39 m) c).arrAt_in 4 rfl _).trans ((A_eq13 (T39 m) c 4).trans ?_)
    show W39 m c (Proc.devRef .tc (Pipeline.arrRef spec13 4)) = W40 m c (Proc.devRef .tc (Pipeline.arrRef spec13 4))
    unfold W40
    rw [Function.update_of_ne (StableHlo.devRef_ne_of_ne (by decide : Pipeline.arrRef spec13 4 ≠ Pipeline.arrRef spec13 6))]
  | ⟨5, _⟩ =>
    refine ((dat13 (T39 m) c).arrAt_in 5 rfl _).trans ((A_eq13 (T39 m) c 5).trans ?_)
    show W39 m c (Proc.devRef .tc (Pipeline.arrRef spec13 5)) = W40 m c (Proc.devRef .tc (Pipeline.arrRef spec13 5))
    unfold W40
    rw [Function.update_of_ne (StableHlo.devRef_ne_of_ne (by decide : Pipeline.arrRef spec13 5 ≠ Pipeline.arrRef spec13 6))]
  | ⟨6, _⟩ =>
    show (dat13 (T39 m) c).arrAt 6 cfg13.N = W40 m c (Proc.devRef .tc (Pipeline.arrRef spec13 6))
    unfold W40
    rw [Function.update_self]
theorem hrest13 (c : Dev nD) : ∀ b, b ∉ Finset.univ.image (Pipeline.arrRef spec13) → T40 m c b = T39 m c b := fun b hb => by
  show W40 m c (Proc.devRef .tc b) = W39 m c (Proc.devRef .tc b)
  unfold W40
  exact Function.update_of_ne (StableHlo.devRef_ne_of_ne fun e => hb (Finset.mem_image.mpr ⟨6, Finset.mem_univ _, e.symm⟩)) _ _

set_option backward.isDefEq.respectTransparency.types false in
/-- Region 13 over the thread state: entered with every unscoped buffer at boundary 39's contents, left at boundary 40's. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (T39 m) c).loose
  hwaits := Pipeline.hwaits_of_owed_zero _ _ _ _ L lv 13 fun _ _ => rfl
  pre c := iprop(StableHlo.held (c : Thread nD τ) (Pipeline.ucRefs τ sig) (W39 m c) ∗ R c)
  post c := iprop(StableHlo.held (c : Thread nD τ) (Pipeline.ucRefs τ sig) (W40 m c) ∗ R c)
  X c := iprop(∃ r, prngReg c r)
  Y c := iprop(∃ r, prngReg c r)
  Z c := Pipeline.unscopedRest (Ix := Unit) (Name := ℕ) (U := UR sig nD τ) (Lvl := ℕ) spec13 c (T39 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (T39 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (T39 m c) (T40 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg14.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 14's exit each of its arrays holds what its write-backs leave: an input its contents at entry, an output the new contents. -/
theorem hF14 (c : Dev nD) (w : Fin cfg14.W) : (dat14 (T41 m) c).arrAt w cfg14.N = T42 m c (Pipeline.arrRef spec14 w) := by
  match w with
  | ⟨0, _⟩ =>
    refine ((dat14 (T41 m) c).arrAt_in 0 rfl _).trans ((A_eq14 (T41 m) c 0).trans ?_)
    show W41 m c (Proc.devRef .tc (Pipeline.arrRef spec14 0)) = W42 m c (Proc.devRef .tc (Pipeline.arrRef spec14 0))
    unfold W42
    rw [Function.update_of_ne (StableHlo.devRef_ne_of_ne (by decide : Pipeline.arrRef spec14 0 ≠ Pipeline.arrRef spec14 3))]
  | ⟨1, _⟩ =>
    refine ((dat14 (T41 m) c).arrAt_in 1 rfl _).trans ((A_eq14 (T41 m) c 1).trans ?_)
    show W41 m c (Proc.devRef .tc (Pipeline.arrRef spec14 1)) = W42 m c (Proc.devRef .tc (Pipeline.arrRef spec14 1))
    unfold W42
    rw [Function.update_of_ne (StableHlo.devRef_ne_of_ne (by decide : Pipeline.arrRef spec14 1 ≠ Pipeline.arrRef spec14 3))]
  | ⟨2, _⟩ =>
    refine ((dat14 (T41 m) c).arrAt_in 2 rfl _).trans ((A_eq14 (T41 m) c 2).trans ?_)
    show W41 m c (Proc.devRef .tc (Pipeline.arrRef spec14 2)) = W42 m c (Proc.devRef .tc (Pipeline.arrRef spec14 2))
    unfold W42
    rw [Function.update_of_ne (StableHlo.devRef_ne_of_ne (by decide : Pipeline.arrRef spec14 2 ≠ Pipeline.arrRef spec14 3))]
  | ⟨3, _⟩ =>
    show (dat14 (T41 m) c).arrAt 3 cfg14.N = W42 m c (Proc.devRef .tc (Pipeline.arrRef spec14 3))
    unfold W42
    rw [Function.update_self]
theorem hrest14 (c : Dev nD) : ∀ b, b ∉ Finset.univ.image (Pipeline.arrRef spec14) → T42 m c b = T41 m c b := fun b hb => by
  show W42 m c (Proc.devRef .tc b) = W41 m c (Proc.devRef .tc b)
  unfold W42
  exact Function.update_of_ne (StableHlo.devRef_ne_of_ne fun e => hb (Finset.mem_image.mpr ⟨3, Finset.mem_univ _, e.symm⟩)) _ _

set_option backward.isDefEq.respectTransparency.types false in
/-- Region 14 over the thread state: entered with every unscoped buffer at boundary 41's contents, left at boundary 42's. -/
def reg14 : Pipeline.RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (T41 m) c).loose
  hwaits := Pipeline.hwaits_of_owed_zero _ _ _ _ L lv 14 fun _ _ => rfl
  pre c := iprop(StableHlo.held (c : Thread nD τ) (Pipeline.ucRefs τ sig) (W41 m c) ∗ R c)
  post c := iprop(StableHlo.held (c : Thread nD τ) (Pipeline.ucRefs τ sig) (W42 m c) ∗ R c)
  X c := iprop(∃ r, prngReg c r)
  Y c := iprop(∃ r, prngReg c r)
  Z c := Pipeline.unscopedRest (Ix := Unit) (Name := ℕ) (U := UR sig nD τ) (Lvl := ℕ) spec14 c (T41 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (T41 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (T41 m c) (T42 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg15.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 15's exit each of its arrays holds what its write-backs leave: an input its contents at entry, an output the new contents. -/
theorem hF15 (c : Dev nD) (w : Fin cfg15.W) : (dat15 (T43 m) c).arrAt w cfg15.N = T44 m c (Pipeline.arrRef spec15 w) := by
  match w with
  | ⟨0, _⟩ =>
    refine ((dat15 (T43 m) c).arrAt_in 0 rfl _).trans ((A_eq15 (T43 m) c 0).trans ?_)
    show W43 m c (Proc.devRef .tc (Pipeline.arrRef spec15 0)) = W44 m c (Proc.devRef .tc (Pipeline.arrRef spec15 0))
    unfold W44
    rw [Function.update_of_ne (StableHlo.devRef_ne_of_ne (by decide : Pipeline.arrRef spec15 0 ≠ Pipeline.arrRef spec15 3))]
  | ⟨1, _⟩ =>
    refine ((dat15 (T43 m) c).arrAt_in 1 rfl _).trans ((A_eq15 (T43 m) c 1).trans ?_)
    show W43 m c (Proc.devRef .tc (Pipeline.arrRef spec15 1)) = W44 m c (Proc.devRef .tc (Pipeline.arrRef spec15 1))
    unfold W44
    rw [Function.update_of_ne (StableHlo.devRef_ne_of_ne (by decide : Pipeline.arrRef spec15 1 ≠ Pipeline.arrRef spec15 3))]
  | ⟨2, _⟩ =>
    refine ((dat15 (T43 m) c).arrAt_in 2 rfl _).trans ((A_eq15 (T43 m) c 2).trans ?_)
    show W43 m c (Proc.devRef .tc (Pipeline.arrRef spec15 2)) = W44 m c (Proc.devRef .tc (Pipeline.arrRef spec15 2))
    unfold W44
    rw [Function.update_of_ne (StableHlo.devRef_ne_of_ne (by decide : Pipeline.arrRef spec15 2 ≠ Pipeline.arrRef spec15 3))]
  | ⟨3, _⟩ =>
    show (dat15 (T43 m) c).arrAt 3 cfg15.N = W44 m c (Proc.devRef .tc (Pipeline.arrRef spec15 3))
    unfold W44
    rw [Function.update_self]
theorem hrest15 (c : Dev nD) : ∀ b, b ∉ Finset.univ.image (Pipeline.arrRef spec15) → T44 m c b = T43 m c b := fun b hb => by
  show W44 m c (Proc.devRef .tc b) = W43 m c (Proc.devRef .tc b)
  unfold W44
  exact Function.update_of_ne (StableHlo.devRef_ne_of_ne fun e => hb (Finset.mem_image.mpr ⟨3, Finset.mem_univ _, e.symm⟩)) _ _

set_option backward.isDefEq.respectTransparency.types false in
/-- Region 15 over the thread state: entered with every unscoped buffer at boundary 43's contents, left at boundary 44's. -/
def reg15 : Pipeline.RegionSeg (pcfgs (F := F)) adm (pdats m) () defs₀ 𝒱₀ L lv 15 where
  win := launch15.win.to₀
  block_pos := launch15.block_pos
  stage_whole := launch15.stage_whole
  K := PEmpty
  osem k := k.elim
  ho := Pipeline.OwnSemFacts.none _
  hbody c := (body_obligation15 (T43 m) c).loose
  hwaits := Pipeline.hwaits_of_owed_zero _ _ _ _ L lv 15 fun _ _ => rfl
  pre c := iprop(StableHlo.held (c : Thread nD τ) (Pipeline.ucRefs τ sig) (W43 m c) ∗ R c)
  post c := iprop(StableHlo.held (c : Thread nD τ) (Pipeline.ucRefs τ sig) (W44 m c) ∗ R c)
  X c := iprop(∃ r, prngReg c r)
  Y c := iprop(∃ r, prngReg c r)
  Z c := Pipeline.unscopedRest (Ix := Unit) (Name := ℕ) (U := UR sig nD τ) (Lvl := ℕ) spec15 c (T43 m c)
  hentry c := by
    rw [Pipeline.ownSems0_none]
    have hsplit := Pipeline.arrays_of_unscopedBufs (p := 15) (pcfgs (F := F)) adm (pdats m) launch15.win launch15.arr_whole c
      ((pdats m 15 c).share_full fun _ => rfl) (T43 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m) ((pdats m 15 c).share_full fun _ => rfl)
      (T43 m c) (T44 m c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg16.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 16's exit each of its arrays holds what its write-backs leave: an input its contents at entry, an output the new contents. -/
theorem hF16 (c : Dev nD) (w : Fin cfg16.W) : (dat16 (T47 m) c).arrAt w cfg16.N = T48 m c (Pipeline.arrRef spec16 w) := by
  match w with
  | ⟨0, _⟩ =>
    refine ((dat16 (T47 m) c).arrAt_in 0 rfl _).trans ((A_eq16 (T47 m) c 0).trans ?_)
    show W47 m c (Proc.devRef .tc (Pipeline.arrRef spec16 0)) = W48 m c (Proc.devRef .tc (Pipeline.arrRef spec16 0))
    unfold W48
    rw [Function.update_of_ne (StableHlo.devRef_ne_of_ne (by decide : Pipeline.arrRef spec16 0 ≠ Pipeline.arrRef spec16 6)), Function.update_of_ne (StableHlo.devRef_ne_of_ne (by decide : Pipeline.arrRef spec16 0 ≠ Pipeline.arrRef spec16 5)), Function.update_of_ne (StableHlo.devRef_ne_of_ne (by decide : Pipeline.arrRef spec16 0 ≠ Pipeline.arrRef spec16 4))]
  | ⟨1, _⟩ =>
    refine ((dat16 (T47 m) c).arrAt_in 1 rfl _).trans ((A_eq16 (T47 m) c 1).trans ?_)
    show W47 m c (Proc.devRef .tc (Pipeline.arrRef spec16 1)) = W48 m c (Proc.devRef .tc (Pipeline.arrRef spec16 1))
    unfold W48
    rw [Function.update_of_ne (StableHlo.devRef_ne_of_ne (by decide : Pipeline.arrRef spec16 1 ≠ Pipeline.arrRef spec16 6)), Function.update_of_ne (StableHlo.devRef_ne_of_ne (by decide : Pipeline.arrRef spec16 1 ≠ Pipeline.arrRef spec16 5)), Function.update_of_ne (StableHlo.devRef_ne_of_ne (by decide : Pipeline.arrRef spec16 1 ≠ Pipeline.arrRef spec16 4))]
  | ⟨2, _⟩ =>
    refine ((dat16 (T47 m) c).arrAt_in 2 rfl _).trans ((A_eq16 (T47 m) c 2).trans ?_)
    show W47 m c (Proc.devRef .tc (Pipeline.arrRef spec16 2)) = W48 m c (Proc.devRef .tc (Pipeline.arrRef spec16 2))
    unfold W48
    rw [Function.update_of_ne (StableHlo.devRef_ne_of_ne (by decide : Pipeline.arrRef spec16 2 ≠ Pipeline.arrRef spec16 6)), Function.update_of_ne (StableHlo.devRef_ne_of_ne (by decide : Pipeline.arrRef spec16 2 ≠ Pipeline.arrRef spec16 5)), Function.update_of_ne (StableHlo.devRef_ne_of_ne (by decide : Pipeline.arrRef spec16 2 ≠ Pipeline.arrRef spec16 4))]
  | ⟨3, _⟩ =>
    refine ((dat16 (T47 m) c).arrAt_in 3 rfl _).trans ((A_eq16 (T47 m) c 3).trans ?_)
    show W47 m c (Proc.devRef .tc (Pipeline.arrRef spec16 3)) = W48 m c (Proc.devRef .tc (Pipeline.arrRef spec16 3))
    unfold W48
    rw [Function.update_of_ne (StableHlo.devRef_ne_of_ne (by decide : Pipeline.arrRef spec16 3 ≠ Pipeline.arrRef spec16 6)), Function.update_of_ne (StableHlo.devRef_ne_of_ne (by decide : Pipeline.arrRef spec16 3 ≠ Pipeline.arrRef spec16 5)), Function.update_of_ne (StableHlo.devRef_ne_of_ne (by decide : Pipeline.arrRef spec16 3 ≠ Pipeline.arrRef spec16 4))]
  | ⟨4, _⟩ =>
    show (dat16 (T47 m) c).arrAt 4 cfg16.N = W48 m c (Proc.devRef .tc (Pipeline.arrRef spec16 4))
    unfold W48
    rw [Function.update_of_ne (StableHlo.devRef_ne_of_ne (by decide : Pipeline.arrRef spec16 4 ≠ Pipeline.arrRef spec16 6)), Function.update_of_ne (StableHlo.devRef_ne_of_ne (by decide : Pipeline.arrRef spec16 4 ≠ Pipeline.arrRef spec16 5)), Function.update_self]
  | ⟨5, _⟩ =>
    show (dat16 (T47 m) c).arrAt 5 cfg16.N = W48 m c (Proc.devRef .tc (Pipeline.arrRef spec16 5))
    unfold W48
    rw [Function.update_of_ne (StableHlo.devRef_ne_of_ne (by decide : Pipeline.arrRef spec16 5 ≠ Pipeline.arrRef spec16 6)), Function.update_self]
  | ⟨6, _⟩ =>
    show (dat16 (T47 m) c).arrAt 6 cfg16.N = W48 m c (Proc.devRef .tc (Pipeline.arrRef spec16 6))
    unfold W48
    rw [Function.update_self]
theorem hrest16 (c : Dev nD) : ∀ b, b ∉ Finset.univ.image (Pipeline.arrRef spec16) → T48 m c b = T47 m c b := fun b hb => by
  show W48 m c (Proc.devRef .tc b) = W47 m c (Proc.devRef .tc b)
  unfold W48
  exact (Function.update_of_ne (StableHlo.devRef_ne_of_ne fun e => hb (Finset.mem_image.mpr ⟨6, Finset.mem_univ _, e.symm⟩)) _ _).trans ((Function.update_of_ne (StableHlo.devRef_ne_of_ne fun e => hb (Finset.mem_image.mpr ⟨5, Finset.mem_univ _, e.symm⟩)) _ _).trans (Function.update_of_ne (StableHlo.devRef_ne_of_ne fun e => hb (Finset.mem_image.mpr ⟨4, Finset.mem_univ _, e.symm⟩)) _ _))

set_option backward.isDefEq.respectTransparency.types false in
/-- Region 16 over the thread state: entered with every unscoped buffer at boundary 47's contents, left at boundary 48's. -/
def reg16 : Pipeline.RegionSeg (pcfgs (F := F)) adm (pdats m) () defs₀ 𝒱₀ L lv 16 where
  win := launch16.win.to₀
  block_pos := launch16.block_pos
  stage_whole := launch16.stage_whole
  K := PEmpty
  osem k := k.elim
  ho := Pipeline.OwnSemFacts.none _
  hbody c := (body_obligation16 (T47 m) c).loose
  hwaits := Pipeline.hwaits_of_owed_zero _ _ _ _ L lv 16 fun _ _ => rfl
  pre c := iprop(StableHlo.held (c : Thread nD τ) (Pipeline.ucRefs τ sig) (W47 m c) ∗ R c)
  post c := iprop(StableHlo.held (c : Thread nD τ) (Pipeline.ucRefs τ sig) (W48 m c) ∗ R c)
  X c := iprop(∃ r, prngReg c r)
  Y c := iprop(∃ r, prngReg c r)
  Z c := Pipeline.unscopedRest (Ix := Unit) (Name := ℕ) (U := UR sig nD τ) (Lvl := ℕ) spec16 c (T47 m c)
  hentry c := by
    rw [Pipeline.ownSems0_none]
    have hsplit := Pipeline.arrays_of_unscopedBufs (p := 16) (pcfgs (F := F)) adm (pdats m) launch16.win launch16.arr_whole c
      ((pdats m 16 c).share_full fun _ => rfl) (T47 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m) ((pdats m 16 c).share_full fun _ => rfl)
      (T47 m c) (T48 m c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg17.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 17's exit each of its arrays holds what its write-backs leave: an input its contents at entry, an output the new contents. -/
theorem hF17 (c : Dev nD) (w : Fin cfg17.W) : (dat17 (T49 m) c).arrAt w cfg17.N = T50 m c (Pipeline.arrRef spec17 w) := by
  match w with
  | ⟨0, _⟩ =>
    refine ((dat17 (T49 m) c).arrAt_in 0 rfl _).trans ((A_eq17 (T49 m) c 0).trans ?_)
    show W49 m c (Proc.devRef .tc (Pipeline.arrRef spec17 0)) = W50 m c (Proc.devRef .tc (Pipeline.arrRef spec17 0))
    unfold W50
    rw [Function.update_of_ne (StableHlo.devRef_ne_of_ne (by decide : Pipeline.arrRef spec17 0 ≠ Pipeline.arrRef spec17 3))]
  | ⟨1, _⟩ =>
    refine ((dat17 (T49 m) c).arrAt_in 1 rfl _).trans ((A_eq17 (T49 m) c 1).trans ?_)
    show W49 m c (Proc.devRef .tc (Pipeline.arrRef spec17 1)) = W50 m c (Proc.devRef .tc (Pipeline.arrRef spec17 1))
    unfold W50
    rw [Function.update_of_ne (StableHlo.devRef_ne_of_ne (by decide : Pipeline.arrRef spec17 1 ≠ Pipeline.arrRef spec17 3))]
  | ⟨2, _⟩ =>
    refine ((dat17 (T49 m) c).arrAt_in 2 rfl _).trans ((A_eq17 (T49 m) c 2).trans ?_)
    show W49 m c (Proc.devRef .tc (Pipeline.arrRef spec17 2)) = W50 m c (Proc.devRef .tc (Pipeline.arrRef spec17 2))
    unfold W50
    rw [Function.update_of_ne (StableHlo.devRef_ne_of_ne (by decide : Pipeline.arrRef spec17 2 ≠ Pipeline.arrRef spec17 3))]
  | ⟨3, _⟩ =>
    show (dat17 (T49 m) c).arrAt 3 cfg17.N = W50 m c (Proc.devRef .tc (Pipeline.arrRef spec17 3))
    unfold W50
    rw [Function.update_self]
theorem hrest17 (c : Dev nD) : ∀ b, b ∉ Finset.univ.image (Pipeline.arrRef spec17) → T50 m c b = T49 m c b := fun b hb => by
  show W50 m c (Proc.devRef .tc b) = W49 m c (Proc.devRef .tc b)
  unfold W50
  exact Function.update_of_ne (StableHlo.devRef_ne_of_ne fun e => hb (Finset.mem_image.mpr ⟨3, Finset.mem_univ _, e.symm⟩)) _ _

set_option backward.isDefEq.respectTransparency.types false in
/-- Region 17 over the thread state: entered with every unscoped buffer at boundary 49's contents, left at boundary 50's. -/
def reg17 : Pipeline.RegionSeg (pcfgs (F := F)) adm (pdats m) () defs₀ 𝒱₀ L lv 17 where
  win := launch17.win.to₀
  block_pos := launch17.block_pos
  stage_whole := launch17.stage_whole
  K := PEmpty
  osem k := k.elim
  ho := Pipeline.OwnSemFacts.none _
  hbody c := (body_obligation17 (T49 m) c).loose
  hwaits := Pipeline.hwaits_of_owed_zero _ _ _ _ L lv 17 fun _ _ => rfl
  pre c := iprop(StableHlo.held (c : Thread nD τ) (Pipeline.ucRefs τ sig) (W49 m c) ∗ R c)
  post c := iprop(StableHlo.held (c : Thread nD τ) (Pipeline.ucRefs τ sig) (W50 m c) ∗ R c)
  X c := iprop(∃ r, prngReg c r)
  Y c := iprop(∃ r, prngReg c r)
  Z c := Pipeline.unscopedRest (Ix := Unit) (Name := ℕ) (U := UR sig nD τ) (Lvl := ℕ) spec17 c (T49 m c)
  hentry c := by
    rw [Pipeline.ownSems0_none]
    have hsplit := Pipeline.arrays_of_unscopedBufs (p := 17) (pcfgs (F := F)) adm (pdats m) launch17.win launch17.arr_whole c
      ((pdats m 17 c).share_full fun _ => rfl) (T49 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m) ((pdats m 17 c).share_full fun _ => rfl)
      (T49 m c) (T50 m c) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg18.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 18's exit each of its arrays holds what its write-backs leave: an input its contents at entry, an output the new contents. -/
theorem hF18 (c : Dev nD) (w : Fin cfg18.W) : (dat18 (T53 m) c).arrAt w cfg18.N = T54 m c (Pipeline.arrRef spec18 w) := by
  match w with
  | ⟨0, _⟩ =>
    refine ((dat18 (T53 m) c).arrAt_in 0 rfl _).trans ((A_eq18 (T53 m) c 0).trans ?_)
    show W53 m c (Proc.devRef .tc (Pipeline.arrRef spec18 0)) = W54 m c (Proc.devRef .tc (Pipeline.arrRef spec18 0))
    unfold W54
    rw [Function.update_of_ne (StableHlo.devRef_ne_of_ne (by decide : Pipeline.arrRef spec18 0 ≠ Pipeline.arrRef spec18 6))]
  | ⟨1, _⟩ =>
    refine ((dat18 (T53 m) c).arrAt_in 1 rfl _).trans ((A_eq18 (T53 m) c 1).trans ?_)
    show W53 m c (Proc.devRef .tc (Pipeline.arrRef spec18 1)) = W54 m c (Proc.devRef .tc (Pipeline.arrRef spec18 1))
    unfold W54
    rw [Function.update_of_ne (StableHlo.devRef_ne_of_ne (by decide : Pipeline.arrRef spec18 1 ≠ Pipeline.arrRef spec18 6))]
  | ⟨2, _⟩ =>
    refine ((dat18 (T53 m) c).arrAt_in 2 rfl _).trans ((A_eq18 (T53 m) c 2).trans ?_)
    show W53 m c (Proc.devRef .tc (Pipeline.arrRef spec18 2)) = W54 m c (Proc.devRef .tc (Pipeline.arrRef spec18 2))
    unfold W54
    rw [Function.update_of_ne (StableHlo.devRef_ne_of_ne (by decide : Pipeline.arrRef spec18 2 ≠ Pipeline.arrRef spec18 6))]
  | ⟨3, _⟩ =>
    refine ((dat18 (T53 m) c).arrAt_in 3 rfl _).trans ((A_eq18 (T53 m) c 3).trans ?_)
    show W53 m c (Proc.devRef .tc (Pipeline.arrRef spec18 3)) = W54 m c (Proc.devRef .tc (Pipeline.arrRef spec18 3))
    unfold W54
    rw [Function.update_of_ne (StableHlo.devRef_ne_of_ne (by decide : Pipeline.arrRef spec18 3 ≠ Pipeline.arrRef spec18 6))]
  | ⟨4, _⟩ =>
    refine ((dat18 (T53 m) c).arrAt_in 4 rfl _).trans ((A_eq18 (T53 m) c 4).trans ?_)
    show W53 m c (Proc.devRef .tc (Pipeline.arrRef spec18 4)) = W54 m c (Proc.devRef .tc (Pipeline.arrRef spec18 4))
    unfold W54
    rw [Function.update_of_ne (StableHlo.devRef_ne_of_ne (by decide : Pipeline.arrRef spec18 4 ≠ Pipeline.arrRef spec18 6))]
  | ⟨5, _⟩ =>
    refine ((dat18 (T53 m) c).arrAt_in 5 rfl _).trans ((A_eq18 (T53 m) c 5).trans ?_)
    show W53 m c (Proc.devRef .tc (Pipeline.arrRef spec18 5)) = W54 m c (Proc.devRef .tc (Pipeline.arrRef spec18 5))
    unfold W54
    rw [Function.update_of_ne (StableHlo.devRef_ne_of_ne (by decide : Pipeline.arrRef spec18 5 ≠ Pipeline.arrRef spec18 6))]
  | ⟨6, _⟩ =>
    show (dat18 (T53 m) c).arrAt 6 cfg18.N = W54 m c (Proc.devRef .tc (Pipeline.arrRef spec18 6))
    unfold W54
    rw [Function.update_self]
theorem hrest18 (c : Dev nD) : ∀ b, b ∉ Finset.univ.image (Pipeline.arrRef spec18) → T54 m c b = T53 m c b := fun b hb => by
  show W54 m c (Proc.devRef .tc b) = W53 m c (Proc.devRef .tc b)
  unfold W54
  exact Function.update_of_ne (StableHlo.devRef_ne_of_ne fun e => hb (Finset.mem_image.mpr ⟨6, Finset.mem_univ _, e.symm⟩)) _ _

set_option backward.isDefEq.respectTransparency.types false in
/-- Region 18 over the thread state: entered with every unscoped buffer at boundary 53's contents, left at boundary 54's. -/
def reg18 : Pipeline.RegionSeg (pcfgs (F := F)) adm (pdats m) () defs₀ 𝒱₀ L lv 18 where
  win := launch18.win.to₀
  block_pos := launch18.block_pos
  stage_whole := launch18.stage_whole
  K := PEmpty
  osem k := k.elim
  ho := Pipeline.OwnSemFacts.none _
  hbody c := (body_obligation18 (T53 m) c).loose
  hwaits := Pipeline.hwaits_of_owed_zero _ _ _ _ L lv 18 fun _ _ => rfl
  pre c := iprop(StableHlo.held (c : Thread nD τ) (Pipeline.ucRefs τ sig) (W53 m c) ∗ R c)
  post c := iprop(StableHlo.held (c : Thread nD τ) (Pipeline.ucRefs τ sig) (W54 m c) ∗ R c)
  X c := iprop(∃ r, prngReg c r)
  Y c := iprop(∃ r, prngReg c r)
  Z c := Pipeline.unscopedRest (Ix := Unit) (Name := ℕ) (U := UR sig nD τ) (Lvl := ℕ) spec18 c (T53 m c)
  hentry c := by
    rw [Pipeline.ownSems0_none]
    have hsplit := Pipeline.arrays_of_unscopedBufs (p := 18) (pcfgs (F := F)) adm (pdats m) launch18.win launch18.arr_whole c
      ((pdats m 18 c).share_full fun _ => rfl) (T53 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m) ((pdats m 18 c).share_full fun _ => rfl)
      (T53 m c) (T54 m c) ((pdats m 18 c).arrAt · cfg18.N) (hF18 m c) (hrest18 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg19.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 19's exit each of its arrays holds what its write-backs leave: an input its contents at entry, an output the new contents. -/
theorem hF19 (c : Dev nD) (w : Fin cfg19.W) : (dat19 (T57 m) c).arrAt w cfg19.N = T58 m c (Pipeline.arrRef spec19 w) := by
  match w with
  | ⟨0, _⟩ =>
    refine ((dat19 (T57 m) c).arrAt_in 0 rfl _).trans ((A_eq19 (T57 m) c 0).trans ?_)
    show W57 m c (Proc.devRef .tc (Pipeline.arrRef spec19 0)) = W58 m c (Proc.devRef .tc (Pipeline.arrRef spec19 0))
    unfold W58
    rw [Function.update_of_ne (StableHlo.devRef_ne_of_ne (by decide : Pipeline.arrRef spec19 0 ≠ Pipeline.arrRef spec19 6))]
  | ⟨1, _⟩ =>
    refine ((dat19 (T57 m) c).arrAt_in 1 rfl _).trans ((A_eq19 (T57 m) c 1).trans ?_)
    show W57 m c (Proc.devRef .tc (Pipeline.arrRef spec19 1)) = W58 m c (Proc.devRef .tc (Pipeline.arrRef spec19 1))
    unfold W58
    rw [Function.update_of_ne (StableHlo.devRef_ne_of_ne (by decide : Pipeline.arrRef spec19 1 ≠ Pipeline.arrRef spec19 6))]
  | ⟨2, _⟩ =>
    refine ((dat19 (T57 m) c).arrAt_in 2 rfl _).trans ((A_eq19 (T57 m) c 2).trans ?_)
    show W57 m c (Proc.devRef .tc (Pipeline.arrRef spec19 2)) = W58 m c (Proc.devRef .tc (Pipeline.arrRef spec19 2))
    unfold W58
    rw [Function.update_of_ne (StableHlo.devRef_ne_of_ne (by decide : Pipeline.arrRef spec19 2 ≠ Pipeline.arrRef spec19 6))]
  | ⟨3, _⟩ =>
    refine ((dat19 (T57 m) c).arrAt_in 3 rfl _).trans ((A_eq19 (T57 m) c 3).trans ?_)
    show W57 m c (Proc.devRef .tc (Pipeline.arrRef spec19 3)) = W58 m c (Proc.devRef .tc (Pipeline.arrRef spec19 3))
    unfold W58
    rw [Function.update_of_ne (StableHlo.devRef_ne_of_ne (by decide : Pipeline.arrRef spec19 3 ≠ Pipeline.arrRef spec19 6))]
  | ⟨4, _⟩ =>
    refine ((dat19 (T57 m) c).arrAt_in 4 rfl _).trans ((A_eq19 (T57 m) c 4).trans ?_)
    show W57 m c (Proc.devRef .tc (Pipeline.arrRef spec19 4)) = W58 m c (Proc.devRef .tc (Pipeline.arrRef spec19 4))
    unfold W58
    rw [Function.update_of_ne (StableHlo.devRef_ne_of_ne (by decide : Pipeline.arrRef spec19 4 ≠ Pipeline.arrRef spec19 6))]
  | ⟨5, _⟩ =>
    refine ((dat19 (T57 m) c).arrAt_in 5 rfl _).trans ((A_eq19 (T57 m) c 5).trans ?_)
    show W57 m c (Proc.devRef .tc (Pipeline.arrRef spec19 5)) = W58 m c (Proc.devRef .tc (Pipeline.arrRef spec19 5))
    unfold W58
    rw [Function.update_of_ne (StableHlo.devRef_ne_of_ne (by decide : Pipeline.arrRef spec19 5 ≠ Pipeline.arrRef spec19 6))]
  | ⟨6, _⟩ =>
    show (dat19 (T57 m) c).arrAt 6 cfg19.N = W58 m c (Proc.devRef .tc (Pipeline.arrRef spec19 6))
    unfold W58
    rw [Function.update_self]
theorem hrest19 (c : Dev nD) : ∀ b, b ∉ Finset.univ.image (Pipeline.arrRef spec19) → T58 m c b = T57 m c b := fun b hb => by
  show W58 m c (Proc.devRef .tc b) = W57 m c (Proc.devRef .tc b)
  unfold W58
  exact Function.update_of_ne (StableHlo.devRef_ne_of_ne fun e => hb (Finset.mem_image.mpr ⟨6, Finset.mem_univ _, e.symm⟩)) _ _

set_option backward.isDefEq.respectTransparency.types false in
/-- Region 19 over the thread state: entered with every unscoped buffer at boundary 57's contents, left at boundary 58's. -/
def reg19 : Pipeline.RegionSeg (pcfgs (F := F)) adm (pdats m) () defs₀ 𝒱₀ L lv 19 where
  win := launch19.win.to₀
  block_pos := launch19.block_pos
  stage_whole := launch19.stage_whole
  K := PEmpty
  osem k := k.elim
  ho := Pipeline.OwnSemFacts.none _
  hbody c := (body_obligation19 (T57 m) c).loose
  hwaits := Pipeline.hwaits_of_owed_zero _ _ _ _ L lv 19 fun _ _ => rfl
  pre c := iprop(StableHlo.held (c : Thread nD τ) (Pipeline.ucRefs τ sig) (W57 m c) ∗ R c)
  post c := iprop(StableHlo.held (c : Thread nD τ) (Pipeline.ucRefs τ sig) (W58 m c) ∗ R c)
  X c := iprop(∃ r, prngReg c r)
  Y c := iprop(∃ r, prngReg c r)
  Z c := Pipeline.unscopedRest (Ix := Unit) (Name := ℕ) (U := UR sig nD τ) (Lvl := ℕ) spec19 c (T57 m c)
  hentry c := by
    rw [Pipeline.ownSems0_none]
    have hsplit := Pipeline.arrays_of_unscopedBufs (p := 19) (pcfgs (F := F)) adm (pdats m) launch19.win launch19.arr_whole c
      ((pdats m 19 c).share_full fun _ => rfl) (T57 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 19 c).Φ 0 = Pipeline.ΦA spec19 c from rfl]; unfold Pipeline.ΦA
    iintro ⟨Hp, -, Hr⟩
    isplitl [Hr]; · iexact Hr
    iexact Hp
  hout c := by
    rw [Pipeline.ownSems0_none, show (pdats m 19 c).Φ (Fin.last _) = Pipeline.ΦA spec19 c from rfl]; unfold Pipeline.ΦA
    iintro ⟨Hr, Hp⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (pdats m) ((pdats m 19 c).share_full fun _ => rfl)
      (T57 m c) (T58 m c) ((pdats m 19 c).arrAt · cfg19.N) (hF19 m c) (hrest19 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg20.lean ====
import proofs.«431450_j74423193305350_1_alg».proof.Proof.K.Fold

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 20's exit each of its arrays holds what its write-backs leave: an input its contents at entry, an output the new contents. -/
theorem hF20 (c : Dev nD) (w : Fin cfg20.W) : (dat20 (T59 m) c).arrAt w cfg20.N = T60 m c (Pipeline.arrRef spec20 w) := by
  match w with
  | ⟨0, _⟩ =>
    refine ((dat20 (T59 m) c).arrAt_in 0 rfl _).trans ((A_eq20 (T59 m) c 0).trans ?_)
    show W59 m c (Proc.devRef .tc (Pipeline.arrRef spec20 0)) = W60 m c (Proc.devRef .tc (Pipeline.arrRef spec20 0))
    unfold W60
    rw [Function.update_of_ne (StableHlo.devRef_ne_of_ne (by decide : Pipeline.arrRef spec20 0 ≠ Pipeline.arrRef spec20 7))]
  | ⟨1, _⟩ =>
    refine ((dat20 (T59 m) c).arrAt_in 1 rfl _).trans ((A_eq20 (T59 m) c 1).trans ?_)
    show W59 m c (Proc.devRef .tc (Pipeline.arrRef spec20 1)) = W60 m c (Proc.devRef .tc (Pipeline.arrRef spec20 1))
    unfold W60
    rw [Function.update_of_ne (StableHlo.devRef_ne_of_ne (by decide : Pipeline.arrRef spec20 1 ≠ Pipeline.arrRef spec20 7))]
  | ⟨2, _⟩ =>
    refine ((dat20 (T59 m) c).arrAt_in 2 rfl _).trans ((A_eq20 (T59 m) c 2).trans ?_)
    show W59 m c (Proc.devRef .tc (Pipeline.arrRef spec20 2)) = W60 m c (Proc.devRef .tc (Pipeline.arrRef spec20 2))
    unfold W60
    rw [Function.update_of_ne (StableHlo.devRef_ne_of_ne (by decide : Pipeline.arrRef spec20 2 ≠ Pipeline.arrRef spec20 7))]
  | ⟨3, _⟩ =>
    refine ((dat20 (T59 m) c).arrAt_in 3 rfl _).trans ((A_eq20 (T59 m) c 3).trans ?_)
    show W59 m c (Proc.devRef .tc (Pipeline.arrRef spec20 3)) = W60 m c (Proc.devRef .tc (Pipeline.arrRef spec20 3))
    unfold W60
    rw [Function.update_of_ne (StableHlo.devRef_ne_of_ne (by decide : Pipeline.arrRef spec20 3 ≠ Pipeline.arrRef spec20 7))]
  | ⟨4, _⟩ =>
    refine ((dat20 (T59 m) c).arrAt_in 4 rfl _).trans ((A_eq20 (T59 m) c 4).trans ?_)
    show W59 m c (Proc.devRef .tc (Pipeline.arrRef spec20 4)) = W60 m c (Proc.devRef .tc (Pipeline.arrRef spec20 4))
    unfold W60
    rw [Function.update_of_ne (StableHlo.devRef_ne_of_ne (by decide : Pipeline.arrRef spec20 4 ≠ Pipeline.arrRef spec20 7))]
  | ⟨5, _⟩ =>
    refine ((dat20 (T59 m) c).arrAt_in 5 rfl _).trans ((A_eq20 (T59 m) c 5).trans ?_)
    show W59 m c (Proc.devRef .tc (Pipeline.arrRef spec20 5)) = W60 m c (Proc.devRef .tc (Pipeline.arrRef spec20 5))
    unfold W60
    rw [Function.update_of_ne (StableHlo.devRef_ne_of_ne (by decide : Pipeline.arrRef spec20 5 ≠ Pipeline.arrRef spec20 7))]
  | ⟨6, _⟩ =>
    refine ((dat20 (T59 m) c).arrAt_in 6 rfl _).trans ((A_eq20 (T59 m) c 6).trans ?_)
    show W59 m c (Proc.devRef .tc (Pipeline.arrRef spec20 6)) = W60 m c (Proc.devRef .tc (Pipeline.arrRef spec20 6))
    unfold W60
    rw [Function.update_of_ne (StableHlo.devRef_ne_of_ne (by decide : Pipeline.arrRef spec20 6 ≠ Pipeline.arrRef spec20 7))]
  | ⟨7, _⟩ =>
    show (dat20 (T59 m) c).arrAt 7 cfg20.N = W60 m c (Proc.devRef .tc (Pipeline.arrRef spec20 7))
    unfold W60
    rw [Function.update_self]
theorem hrest20 (c : Dev nD) : ∀ b, b ∉ Finset.univ.image (Pipeline.arrRef spec20) → T60 m c b = T59 m c b := fun b hb => by
  show W60 m c (Proc.devRef .tc b) = W59 m c (Proc.devRef .tc b)
  unfold W60
  exact Function.update_of_ne (StableHlo.devRef_ne_of_ne fun e => hb (Finset.mem_image.mpr ⟨7, Finset.mem_univ _, e.symm⟩)) _ _

set_option backward.isDefEq.respectTransparency.types false in
/-- Region 20 over the thread state: entered with every unscoped buffer at boundary 59's contents, left at boundary 60's. -/
def reg20 : Pipeline.RegionSeg (pcfgs (F := F)) adm (pdats m) () defs₀ 𝒱₀ L lv 20 where
  win := launch20.win.to₀
  block_pos := launch20.block_pos
  stage_whole := launch20.stage_whole
  K := PEmpty
  osem k := k.elim
  ho := Pipeline.OwnSemFacts.none _
  hbody c := (body_obligation20 (T59 m) c).loose
  hwaits := Pipeline.hwaits_of_owed_zero _ _ _ _ L lv 20 fun _ _ => rfl
  pre c := iprop(StableHlo.held (c : Thread nD τ) (Pipeline.ucRefs τ sig) (W59 m c) ∗ R c)
  post c := iprop(StableHlo.held (c : Thread nD τ) (Pipeline.ucRefs τ sig) (W60 m c) ∗ R c)
  X c := iprop(∃ r, prngReg c r)
  Y c := iprop(∃ r, prngReg c r)
  Z c := Pipeline.unscopedRest (Ix := Unit) (Name := ℕ) (U := UR sig nD τ) (Lvl := ℕ) spec20 c (T59 m c)
  hentry c := by
    rw [Pipeline.ownSems0_none]
    have hsplit := Pipeline.arrays_of_unscopedBufs (p := 20) (pcfgs (F := F)) adm (pdats m) launch20.win launch20.arr_whole c
      ((pdats m 20 c).share_full fun _ => rfl) (T59 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) adm (Ix := Unit) (Name := ℕ) (U := UR sig nD τ) (Lvl := ℕ)
      launch20.win launch20.arr_whole c (pdats m) ((pdats m 20 c).share_full fun _ => rfl)
      (T59 m c) (T60 m c) ((pdats m 20 c).arrAt · cfg20.N) (hF20 m c) (hrest20 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
import proofs.«431450_j74423193305350_1_alg».proof.Proof.K.Seg0
import proofs.«431450_j74423193305350_1_alg».proof.Proof.K.Seg1
import proofs.«431450_j74423193305350_1_alg».proof.Proof.K.Seg2
import proofs.«431450_j74423193305350_1_alg».proof.Proof.K.Seg3
import proofs.«431450_j74423193305350_1_alg».proof.Proof.K.Seg4
import proofs.«431450_j74423193305350_1_alg».proof.Proof.K.Seg5
import proofs.«431450_j74423193305350_1_alg».proof.Proof.K.Seg6
import proofs.«431450_j74423193305350_1_alg».proof.Proof.K.Seg7
import proofs.«431450_j74423193305350_1_alg».proof.Proof.K.Seg8
import proofs.«431450_j74423193305350_1_alg».proof.Proof.K.Seg9
import proofs.«431450_j74423193305350_1_alg».proof.Proof.K.Seg10
import proofs.«431450_j74423193305350_1_alg».proof.Proof.K.Seg11
import proofs.«431450_j74423193305350_1_alg».proof.Proof.K.Seg12
import proofs.«431450_j74423193305350_1_alg».proof.Proof.K.Seg13
import proofs.«431450_j74423193305350_1_alg».proof.Proof.K.Seg14
import proofs.«431450_j74423193305350_1_alg».proof.Proof.K.Seg15
import proofs.«431450_j74423193305350_1_alg».proof.Proof.K.Seg16
import proofs.«431450_j74423193305350_1_alg».proof.Proof.K.Seg17
import proofs.«431450_j74423193305350_1_alg».proof.Proof.K.Seg18
import proofs.«431450_j74423193305350_1_alg».proof.Proof.K.Seg19
import proofs.«431450_j74423193305350_1_alg».proof.Proof.K.Seg20

/-! The regions as segments over the boundaries' contents, and the launch of @main: every weakly fair execution
    terminates, nothing faulting, with every unscoped buffer at the last boundary's contents. -/
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 16000000 in
set_option backward.isDefEq.respectTransparency.types false in
/-- THE RUN: from any memory with zero counters every weakly fair execution of @main terminates, nothing faulting, and the
    final memory holds every unscoped buffer at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W60 m c b) := by
  have h := run_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE21 := fun c => by iintro ⟨-, HO⟩; iexact HO)
    (R0 := reg0 m) (hpre0 := fun c => by rw [V1_eq]; exact .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)
    (R4 := reg4 m) (hpre4 := fun c => by rw [V11_eq]; exact .rfl) (hpost4 := fun c => by rw [V12_eq]; exact .rfl)
    (R5 := reg5 m) (hpre5 := fun c => by rw [V13_eq]; exact .rfl) (hpost5 := fun c => by rw [V14_eq]; exact .rfl)
    (R6 := reg6 m) (hpre6 := fun c => by rw [V17_eq]; exact .rfl) (hpost6 := fun c => by rw [V18_eq]; exact .rfl)
    (R7 := reg7 m) (hpre7 := fun c => by rw [V21_eq]; exact .rfl) (hpost7 := fun c => by rw [V22_eq]; exact .rfl)
    (R8 := reg8 m) (hpre8 := fun c => by rw [V23_eq]; exact .rfl) (hpost8 := fun c => by rw [V24_eq]; exact .rfl)
    (R9 := reg9 m) (hpre9 := fun c => by rw [V25_eq]; exact .rfl) (hpost9 := fun c => by rw [V26_eq]; exact .rfl)
    (R10 := reg10 m) (hpre10 := fun c => by rw [V29_eq]; exact .rfl) (hpost10 := fun c => by rw [V30_eq]; exact .rfl)
    (R11 := reg11 m) (hpre11 := fun c => by rw [V31_eq]; exact .rfl) (hpost11 := fun c => by rw [V32_eq]; exact .rfl)
    (R12 := reg12 m) (hpre12 := fun c => by rw [V35_eq]; exact .rfl) (hpost12 := fun c => by rw [V36_eq]; exact .rfl)
    (R13 := reg13 m) (hpre13 := fun c => by rw [V39_eq]; exact .rfl) (hpost13 := fun c => by rw [V40_eq]; exact .rfl)
    (R14 := reg14 m) (hpre14 := fun c => by rw [V41_eq]; exact .rfl) (hpost14 := fun c => by rw [V42_eq]; exact .rfl)
    (R15 := reg15 m) (hpre15 := fun c => by rw [V43_eq]; exact .rfl) (hpost15 := fun c => by rw [V44_eq]; exact .rfl)
    (R16 := reg16 m) (hpre16 := fun c => by rw [V47_eq]; exact .rfl) (hpost16 := fun c => by rw [V48_eq]; exact .rfl)
    (R17 := reg17 m) (hpre17 := fun c => by rw [V49_eq]; exact .rfl) (hpost17 := fun c => by rw [V50_eq]; exact .rfl)
    (R18 := reg18 m) (hpre18 := fun c => by rw [V53_eq]; exact .rfl) (hpost18 := fun c => by rw [V54_eq]; exact .rfl)
    (R19 := reg19 m) (hpre19 := fun c => by rw [V57_eq]; exact .rfl) (hpost19 := fun c => by rw [V58_eq]; exact .rfl)
    (R20 := reg20 m) (hpre20 := fun c => by rw [V59_eq]; exact .rfl) (hpost20 := fun c => by rw [V60_eq]; exact .rfl)
  exact (θ_run defs _ _).mono (fun r hr c b hb => (hr c b hb).trans (congrFun (V60_eq m c) b)) h

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem W60_main_arg0 (c : Dev nD) : W60 m c main_arg0 = m ((c : Thread nD τ).loc main_arg0) :=
  (congrFun (V60_eq m c).symm _).trans (V60_main_arg0 m (outs m) c)
theorem W60_main_arg1 (c : Dev nD) : W60 m c main_arg1 = m ((c : Thread nD τ).loc main_arg1) :=
  (congrFun (V60_eq m c).symm _).trans (V60_main_arg1 m (outs m) c)
theorem W60_main_arg2 (c : Dev nD) : W60 m c main_arg2 = m ((c : Thread nD τ).loc main_arg2) :=
  (congrFun (V60_eq m c).symm _).trans (V60_main_arg2 m (outs m) c)
theorem W60_main_arg3 (c : Dev nD) : W60 m c main_arg3 = m ((c : Thread nD τ).loc main_arg3) :=
  (congrFun (V60_eq m c).symm _).trans (V60_main_arg3 m (outs m) c)
theorem W60_main_arg4 (c : Dev nD) : W60 m c main_arg4 = m ((c : Thread nD τ).loc main_arg4) :=
  (congrFun (V60_eq m c).symm _).trans (V60_main_arg4 m (outs m) c)
theorem W60_main_arg5 (c : Dev nD) : W60 m c main_arg5 = m ((c : Thread nD τ).loc main_arg5) :=
  (congrFun (V60_eq m c).symm _).trans (V60_main_arg5 m (outs m) c)
theorem W60_main_arg6 (c : Dev nD) : W60 m c main_arg6 = m ((c : Thread nD τ).loc main_arg6) :=
  (congrFun (V60_eq m c).symm _).trans (V60_main_arg6 m (outs m) c)
theorem W60_main_arg7 (c : Dev nD) : W60 m c main_arg7 = m ((c : Thread nD τ).loc main_arg7) :=
  (congrFun (V60_eq m c).symm _).trans (V60_main_arg7 m (outs m) c)
theorem W60_main_arg8 (c : Dev nD) : W60 m c main_arg8 = m ((c : Thread nD τ).loc main_arg8) :=
  (congrFun (V60_eq m c).symm _).trans (V60_main_arg8 m (outs m) c)
theorem W60_main_arg9 (c : Dev nD) : W60 m c main_arg9 = m ((c : Thread nD τ).loc main_arg9) :=
  (congrFun (V60_eq m c).symm _).trans (V60_main_arg9 m (outs m) c)
theorem W60_main_arg10 (c : Dev nD) : W60 m c main_arg10 = m ((c : Thread nD τ).loc main_arg10) :=
  (congrFun (V60_eq m c).symm _).trans (V60_main_arg10 m (outs m) c)
theorem W60_main_arg11 (c : Dev nD) : W60 m c main_arg11 = m ((c : Thread nD τ).loc main_arg11) :=
  (congrFun (V60_eq m c).symm _).trans (V60_main_arg11 m (outs m) c)
theorem W60_main_arg12 (c : Dev nD) : W60 m c main_arg12 = m ((c : Thread nD τ).loc main_arg12) :=
  (congrFun (V60_eq m c).symm _).trans (V60_main_arg12 m (outs m) c)
theorem W60_main_arg13 (c : Dev nD) : W60 m c main_arg13 = m ((c : Thread nD τ).loc main_arg13) :=
  (congrFun (V60_eq m c).symm _).trans (V60_main_arg13 m (outs m) c)
theorem W60_main_arg14 (c : Dev nD) : W60 m c main_arg14 = m ((c : Thread nD τ).loc main_arg14) :=
  (congrFun (V60_eq m c).symm _).trans (V60_main_arg14 m (outs m) c)
theorem W60_main_arg15 (c : Dev nD) : W60 m c main_arg15 = m ((c : Thread nD τ).loc main_arg15) :=
  (congrFun (V60_eq m c).symm _).trans (V60_main_arg15 m (outs m) c)
theorem W60_main_arg16 (c : Dev nD) : W60 m c main_arg16 = m ((c : Thread nD τ).loc main_arg16) :=
  (congrFun (V60_eq m c).symm _).trans (V60_main_arg16 m (outs m) c)
theorem W60_main_arg17 (c : Dev nD) : W60 m c main_arg17 = m ((c : Thread nD τ).loc main_arg17) :=
  (congrFun (V60_eq m c).symm _).trans (V60_main_arg17 m (outs m) c)
theorem W60_main_arg18 (c : Dev nD) : W60 m c main_arg18 = m ((c : Thread nD τ).loc main_arg18) :=
  (congrFun (V60_eq m c).symm _).trans (V60_main_arg18 m (outs m) c)
theorem W60_main_arg19 (c : Dev nD) : W60 m c main_arg19 = m ((c : Thread nD τ).loc main_arg19) :=
  (congrFun (V60_eq m c).symm _).trans (V60_main_arg19 m (outs m) c)
theorem W60_main_arg20 (c : Dev nD) : W60 m c main_arg20 = m ((c : Thread nD τ).loc main_arg20) :=
  (congrFun (V60_eq m c).symm _).trans (V60_main_arg20 m (outs m) c)
theorem W60_main_arg21 (c : Dev nD) : W60 m c main_arg21 = m ((c : Thread nD τ).loc main_arg21) :=
  (congrFun (V60_eq m c).symm _).trans (V60_main_arg21 m (outs m) c)
theorem W60_main_arg22 (c : Dev nD) : W60 m c main_arg22 = m ((c : Thread nD τ).loc main_arg22) :=
  (congrFun (V60_eq m c).symm _).trans (V60_main_arg22 m (outs m) c)
theorem W60_main_arg23 (c : Dev nD) : W60 m c main_arg23 = m ((c : Thread nD τ).loc main_arg23) :=
  (congrFun (V60_eq m c).symm _).trans (V60_main_arg23 m (outs m) c)
theorem W60_main_arg24 (c : Dev nD) : W60 m c main_arg24 = m ((c : Thread nD τ).loc main_arg24) :=
  (congrFun (V60_eq m c).symm _).trans (V60_main_arg24 m (outs m) c)
theorem W60_main_arg25 (c : Dev nD) : W60 m c main_arg25 = m ((c : Thread nD τ).loc main_arg25) :=
  (congrFun (V60_eq m c).symm _).trans (V60_main_arg25 m (outs m) c)
theorem W60_main_arg26 (c : Dev nD) : W60 m c main_arg26 = m ((c : Thread nD τ).loc main_arg26) :=
  (congrFun (V60_eq m c).symm _).trans (V60_main_arg26 m (outs m) c)
theorem W60_main_arg27 (c : Dev nD) : W60 m c main_arg27 = m ((c : Thread nD τ).loc main_arg27) :=
  (congrFun (V60_eq m c).symm _).trans (V60_main_arg27 m (outs m) c)
theorem W60_main_arg28 (c : Dev nD) : W60 m c main_arg28 = m ((c : Thread nD τ).loc main_arg28) :=
  (congrFun (V60_eq m c).symm _).trans (V60_main_arg28 m (outs m) c)
theorem W60_main_arg29 (c : Dev nD) : W60 m c main_arg29 = m ((c : Thread nD τ).loc main_arg29) :=
  (congrFun (V60_eq m c).symm _).trans (V60_main_arg29 m (outs m) c)

/-- THE FRAME: every weakly fair execution terminates, nothing faulting, every argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c => ⟨(h c _ (mem_uc main_arg0 (by decide))).trans (W60_main_arg0 m c),
    (h c _ (mem_uc main_arg1 (by decide))).trans (W60_main_arg1 m c),
    (h c _ (mem_uc main_arg2 (by decide))).trans (W60_main_arg2 m c),
    (h c _ (mem_uc main_arg3 (by decide))).trans (W60_main_arg3 m c),
    (h c _ (mem_uc main_arg4 (by decide))).trans (W60_main_arg4 m c),
    (h c _ (mem_uc main_arg5 (by decide))).trans (W60_main_arg5 m c),
    (h c _ (mem_uc main_arg6 (by decide))).trans (W60_main_arg6 m c),
    (h c _ (mem_uc main_arg7 (by decide))).trans (W60_main_arg7 m c),
    (h c _ (mem_uc main_arg8 (by decide))).trans (W60_main_arg8 m c),
    (h c _ (mem_uc main_arg9 (by decide))).trans (W60_main_arg9 m c),
    (h c _ (mem_uc main_arg10 (by decide))).trans (W60_main_arg10 m c),
    (h c _ (mem_uc main_arg11 (by decide))).trans (W60_main_arg11 m c),
    (h c _ (mem_uc main_arg12 (by decide))).trans (W60_main_arg12 m c),
    (h c _ (mem_uc main_arg13 (by decide))).trans (W60_main_arg13 m c),
    (h c _ (mem_uc main_arg14 (by decide))).trans (W60_main_arg14 m c),
    (h c _ (mem_uc main_arg15 (by decide))).trans (W60_main_arg15 m c),
    (h c _ (mem_uc main_arg16 (by decide))).trans (W60_main_arg16 m c),
    (h c _ (mem_uc main_arg17 (by decide))).trans (W60_main_arg17 m c),
    (h c _ (mem_uc main_arg18 (by decide))).trans (W60_main_arg18 m c),
    (h c _ (mem_uc main_arg19 (by decide))).trans (W60_main_arg19 m c),
    (h c _ (mem_uc main_arg20 (by decide))).trans (W60_main_arg20 m c),
    (h c _ (mem_uc main_arg21 (by decide))).trans (W60_main_arg21 m c),
    (h c _ (mem_uc main_arg22 (by decide))).trans (W60_main_arg22 m c),
    (h c _ (mem_uc main_arg23 (by decide))).trans (W60_main_arg23 m c),
    (h c _ (mem_uc main_arg24 (by decide))).trans (W60_main_arg24 m c),
    (h c _ (mem_uc main_arg25 (by decide))).trans (W60_main_arg25 m c),
    (h c _ (mem_uc main_arg26 (by decide))).trans (W60_main_arg26 m c),
    (h c _ (mem_uc main_arg27 (by decide))).trans (W60_main_arg27 m c),
    (h c _ (mem_uc main_arg28 (by decide))).trans (W60_main_arg28 m c),
    (h c _ (mem_uc main_arg29 (by decide))).trans (W60_main_arg29 m c)⟩)
    (run_all m ρ)

/-- The run with its result: the result array at the last boundary's contents, every argument array as launched. -/
theorem run_res (ρ : Dev nD → PrngReg) :
    θ_run defs (onTc (τ := τ) (main (F := F))) ⟨m, fun _ => 0, ρ⟩ (fun r => ∀ c : Dev nD,
      r.2.mem ((c.tc : Thread nD τ).loc main_v219) = W60 m c main_v219
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c => ⟨h c _ (mem_uc main_v219 (by decide)),
    (h c _ (mem_uc main_arg0 (by decide))).trans (W60_main_arg0 m c),
    (h c _ (mem_uc main_arg1 (by decide))).trans (W60_main_arg1 m c),
    (h c _ (mem_uc main_arg2 (by decide))).trans (W60_main_arg2 m c),
    (h c _ (mem_uc main_arg3 (by decide))).trans (W60_main_arg3 m c),
    (h c _ (mem_uc main_arg4 (by decide))).trans (W60_main_arg4 m c),
    (h c _ (mem_uc main_arg5 (by decide))).trans (W60_main_arg5 m c),
    (h c _ (mem_uc main_arg6 (by decide))).trans (W60_main_arg6 m c),
    (h c _ (mem_uc main_arg7 (by decide))).trans (W60_main_arg7 m c),
    (h c _ (mem_uc main_arg8 (by decide))).trans (W60_main_arg8 m c),
    (h c _ (mem_uc main_arg9 (by decide))).trans (W60_main_arg9 m c),
    (h c _ (mem_uc main_arg10 (by decide))).trans (W60_main_arg10 m c),
    (h c _ (mem_uc main_arg11 (by decide))).trans (W60_main_arg11 m c),
    (h c _ (mem_uc main_arg12 (by decide))).trans (W60_main_arg12 m c),
    (h c _ (mem_uc main_arg13 (by decide))).trans (W60_main_arg13 m c),
    (h c _ (mem_uc main_arg14 (by decide))).trans (W60_main_arg14 m c),
    (h c _ (mem_uc main_arg15 (by decide))).trans (W60_main_arg15 m c),
    (h c _ (mem_uc main_arg16 (by decide))).trans (W60_main_arg16 m c),
    (h c _ (mem_uc main_arg17 (by decide))).trans (W60_main_arg17 m c),
    (h c _ (mem_uc main_arg18 (by decide))).trans (W60_main_arg18 m c),
    (h c _ (mem_uc main_arg19 (by decide))).trans (W60_main_arg19 m c),
    (h c _ (mem_uc main_arg20 (by decide))).trans (W60_main_arg20 m c),
    (h c _ (mem_uc main_arg21 (by decide))).trans (W60_main_arg21 m c),
    (h c _ (mem_uc main_arg22 (by decide))).trans (W60_main_arg22 m c),
    (h c _ (mem_uc main_arg23 (by decide))).trans (W60_main_arg23 m c),
    (h c _ (mem_uc main_arg24 (by decide))).trans (W60_main_arg24 m c),
    (h c _ (mem_uc main_arg25 (by decide))).trans (W60_main_arg25 m c),
    (h c _ (mem_uc main_arg26 (by decide))).trans (W60_main_arg26 m c),
    (h c _ (mem_uc main_arg27 (by decide))).trans (W60_main_arg27 m c),
    (h c _ (mem_uc main_arg28 (by decide))).trans (W60_main_arg28 m c),
    (h c _ (mem_uc main_arg29 (by decide))).trans (W60_main_arg29 m c)⟩)
    (run_all m ρ)

end Cert.Kernel.Hand

end
-- ==== Proof.KI.Reg0.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 0 (cc0__linear_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in output window 3's buffer: its one store, over the input blocks. -/
def out0_3 (x0 : Vec F S5000x6 .f32) (x1 : Vec F S6x64 .f32) (x2 : Vec F S1x64 .f32) : Vec F S5000x64 .f32 :=
  View.canon [⟨Rect.unit (s := S5000x64) ![0, 0] S5000x64.size inb_S5000x64_S5000x64_0_0, k0_pay1 (View.ld x0 (Rect.unit (s := S5000x6) ![0, 0] S5000x6.size inb_S5000x6_S5000x6_0_0)) (View.ld x1 (Rect.unit (s := S6x64) ![0, 0] S6x64.size inb_S6x64_S6x64_0_0)) (View.ld x2 (Rect.unit (s := S1x64) ![0, 0] S1x64.size inb_S1x64_S1x64_0_0))⟩]

theorem cover0_3 (p0 : Vec F S5000x64 .f32) (y : S5000x64.Idx) :
    ∃ pc ∈ ([⟨Rect.unit (s := S5000x64) ![0, 0] S5000x64.size inb_S5000x64_S5000x64_0_0, p0⟩] : List (View.Piece (Elt F) S5000x64 .f32)), y ∈ pc.1.set :=
  View.cover_of_tiled [⟨Rect.unit (s := S5000x64) ![0, 0] S5000x64.size inb_S5000x64_S5000x64_0_0, p0⟩] S5000x64.size (by rfl) y

set_option maxHeartbeats 4000000 in
/-- The body on whole staging memrefs, the inputs' at read contents and the outputs' at anything, runs to the
    continuation holding the inputs' as they were and each output's at its function of the inputs'. -/
theorem sound_kernel0 (c : Dev nD) (E : Set ℕ) (i : grid0.Coords) (arg0 : Memref sig .tc .vmem S5000x6 .f32) (harg0 : arg0.IsWhole) (arg1 : Memref sig .tc .vmem S6x64 .f32) (harg1 : arg1.IsWhole) (arg2 : Memref sig .tc .vmem S1x64 .f32) (harg2 : arg2.IsWhole) (arg3 : Memref sig .tc .vmem S5000x64 .f32) (harg3 : arg3.IsWhole)
    (x0 : Vec F S5000x6 .f32) (x1 : Vec F S6x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this region on core c: the arrays as the region finds them; after the body at point t each
    input's buffer at its block and each output's at its function of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 1 (cc1__edge_embed_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in output window 3's buffer: its one store, over the input blocks. -/
def out1_3 (x0 : Vec F S4000x2 .f32) (x1 : Vec F S2x64 .f32) (x2 : Vec F S1x64 .f32) : Vec F S4000x64 .f32 :=
  View.canon [⟨Rect.unit (s := S4000x64) ![0, 0] S4000x64.size inb_S4000x64_S4000x64_0_0, k1_pay1 (View.ld x0 (Rect.unit (s := S4000x2) ![0, 0] S4000x2.size inb_S4000x2_S4000x2_0_0)) (View.ld x1 (Rect.unit (s := S2x64) ![0, 0] S2x64.size inb_S2x64_S2x64_0_0)) (View.ld x2 (Rect.unit (s := S1x64) ![0, 0] S1x64.size inb_S1x64_S1x64_0_0))⟩]

theorem cover1_3 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

set_option maxHeartbeats 4000000 in
/-- The body on whole staging memrefs, the inputs' at read contents and the outputs' at anything, runs to the
    continuation holding the inputs' as they were and each output's at its function of the inputs'. -/
theorem sound_kernel1 (c : Dev nD) (E : Set ℕ) (i : grid1.Coords) (arg0 : Memref sig .tc .vmem S4000x2 .f32) (harg0 : arg0.IsWhole) (arg1 : Memref sig .tc .vmem S2x64 .f32) (harg1 : arg1.IsWhole) (arg2 : Memref sig .tc .vmem S1x64 .f32) (harg2 : arg2.IsWhole) (arg3 : Memref sig .tc .vmem S4000x64 .f32) (harg3 : arg3.IsWhole)
    (x0 : Vec F S4000x2 .f32) (x1 : Vec F S2x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__edge_embed_kernel i arg0 harg0 arg1 harg1 arg2 harg2 arg3 harg3) K := by
  simp only [cc1__edge_embed_kernel_eq_skeleton]; unfold cc1__edge_embed_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this region on core c: the arrays as the region finds them; after the body at point t each
    input's buffer at its block and each output's at its function of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 2 (cc2__linear_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in output window 3's buffer: its one store, over the input blocks. -/
def out2_3 (x0 : Vec F S5000x64 .f32) (x1 : Vec F S64x256 .f32) (x2 : Vec F S1x256 .f32) : Vec F S5000x256 .f32 :=
  View.canon [⟨Rect.unit (s := S5000x256) ![0, 0] S5000x256.size inb_S5000x256_S5000x256_0_0, k2_pay1 (View.ld x0 (Rect.unit (s := S5000x64) ![0, 0] S5000x64.size inb_S5000x64_S5000x64_0_0)) (View.ld x1 (Rect.unit (s := S64x256) ![0, 0] S64x256.size inb_S64x256_S64x256_0_0)) (View.ld x2 (Rect.unit (s := S1x256) ![0, 0] S1x256.size inb_S1x256_S1x256_0_0))⟩]

theorem cover2_3 (p0 : Vec F S5000x256 .f32) (y : S5000x256.Idx) :
    ∃ pc ∈ ([⟨Rect.unit (s := S5000x256) ![0, 0] S5000x256.size inb_S5000x256_S5000x256_0_0, p0⟩] : List (View.Piece (Elt F) S5000x256 .f32)), y ∈ pc.1.set :=
  View.cover_of_tiled [⟨Rect.unit (s := S5000x256) ![0, 0] S5000x256.size inb_S5000x256_S5000x256_0_0, p0⟩] S5000x256.size (by rfl) y

set_option maxHeartbeats 4000000 in
/-- The body on whole staging memrefs, the inputs' at read contents and the outputs' at anything, runs to the
    continuation holding the inputs' as they were and each output's at its function of the inputs'. -/
theorem sound_kernel2 (c : Dev nD) (E : Set ℕ) (i : grid2.Coords) (arg0 : Memref sig .tc .vmem S5000x64 .f32) (harg0 : arg0.IsWhole) (arg1 : Memref sig .tc .vmem S64x256 .f32) (harg1 : arg1.IsWhole) (arg2 : Memref sig .tc .vmem S1x256 .f32) (harg2 : arg2.IsWhole) (arg3 : Memref sig .tc .vmem S5000x256 .f32) (harg3 : arg3.IsWhole)
    (x0 : Vec F S5000x64 .f32) (x1 : Vec F S64x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__linear_kernel i arg0 harg0 arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this region on core c: the arrays as the region finds them; after the body at point t each
    input's buffer at its block and each output's at its function of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 3 (cc3__linear_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- What the body leaves in output window 3's buffer: its one store, over the input blocks. -/
def out3_3 (x0 : Vec F S4000x64 .f32) (x1 : Vec F S64x64 .f32) (x2 : Vec F S1x64 .f32) : Vec F S4000x64 .f32 :=
  View.canon [⟨Rect.unit (s := S4000x64) ![0, 0] S4000x64.size inb_S4000x64_S4000x64_0_0, k3_pay1 (View.ld x0 (Rect.unit (s := S4000x64) ![0, 0] S4000x64.size inb_S4000x64_S4000x64_0_0)) (View.ld x1 (Rect.unit (s := S64x64) ![0, 0] S64x64.size inb_S64x64_S64x64_0_0)) (View.ld x2 (Rect.unit (s := S1x64) ![0, 0] S1x64.size inb_S1x64_S1x64_0_0))⟩]

theorem cover3_3 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

set_option maxHeartbeats 4000000 in
/-- The body on whole staging memrefs, the inputs' at read contents and the outputs' at anything, runs to the
    continuation holding the inputs' as they were and each output's at its function of the inputs'. -/
theorem sound_kernel3 (c : Dev nD) (E : Set ℕ) (i : grid3.Coords) (arg0 : Memref sig .tc .vmem S4000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S4000x64 .f32) (harg3 : arg3.IsWhole)
    (x0 : Vec F S4000x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3__linear_kernel i arg0 harg0 arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of this region on core c: the arrays as the region finds them; after the body at point t each
    input's buffer at its block and each output's at its function of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 4 (cc4__edge_combine_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- What the body leaves in output window 4's buffer: its one store, over the input blocks. -/
def out4_4 (x0 : Vec F S4000x64 .f32) (x1 : Vec F S4000x64 .f32) (x2 : Vec F S4000x64 .f32) (x3 : Vec F S4000x64 .f32) : Vec F S4000x64 .f32 :=
  View.canon [⟨Rect.unit (s := S4000x64) ![0, 0] S4000x64.size inb_S4000x64_S4000x64_0_0, k4_pay1 (View.ld x0 (Rect.unit (s := S4000x64) ![0, 0] S4000x64.size inb_S4000x64_S4000x64_0_0)) (View.ld x1 (Rect.unit (s := S4000x64) ![0, 0] S4000x64.size inb_S4000x64_S4000x64_0_0)) (View.ld x2 (Rect.unit (s := S4000x64) ![0, 0] S4000x64.size inb_S4000x64_S4000x64_0_0))⟩]

theorem cover4_4 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

/-- What the body leaves in output window 5's buffer: its one store, over the input blocks. -/
def out4_5 (x0 : Vec F S4000x64 .f32) (x1 : Vec F S4000x64 .f32) (x2 : Vec F S4000x64 .f32) (x3 : Vec F S4000x64 .f32) : Vec F S4000x64 .f32 :=
  View.canon [⟨Rect.unit (s := S4000x64) ![0, 0] S4000x64.size inb_S4000x64_S4000x64_0_0, k4_pay2 (View.ld x0 (Rect.unit (s := S4000x64) ![0, 0] S4000x64.size inb_S4000x64_S4000x64_0_0)) (View.ld x1 (Rect.unit (s := S4000x64) ![0, 0] S4000x64.size inb_S4000x64_S4000x64_0_0)) (View.ld x2 (Rect.unit (s := S4000x64) ![0, 0] S4000x64.size inb_S4000x64_S4000x64_0_0))⟩]

theorem cover4_5 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

/-- What the body leaves in output window 6's buffer: its one store, over the input blocks. -/
def out4_6 (x0 : Vec F S4000x64 .f32) (x1 : Vec F S4000x64 .f32) (x2 : Vec F S4000x64 .f32) (x3 : Vec F S4000x64 .f32) : Vec F S4000x64 .f32 :=
  View.canon [⟨Rect.unit (s := S4000x64) ![0, 0] S4000x64.size inb_S4000x64_S4000x64_0_0, k4_pay3 (View.ld x0 (Rect.unit (s := S4000x64) ![0, 0] S4000x64.size inb_S4000x64_S4000x64_0_0)) (View.ld x1 (Rect.unit (s := S4000x64) ![0, 0] S4000x64.size inb_S4000x64_S4000x64_0_0)) (View.ld x2 (Rect.unit (s := S4000x64) ![0, 0] S4000x64.size inb_S4000x64_S4000x64_0_0)) (View.ld x3 (Rect.unit (s := S4000x64) ![0, 0] S4000x64.size inb_S4000x64_S4000x64_0_0))⟩]

theorem cover4_6 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

set_option maxHeartbeats 4000000 in
/-- The body on whole staging memrefs, the inputs' at read contents and the outputs' at anything, runs to the
    continuation holding the inputs' as they were and each output's at its function of the inputs'. -/
theorem sound_kernel4 (c : Dev nD) (E : Set ℕ) (i : grid4.Coords) (arg0 : Memref sig .tc .vmem S4000x64 .f32) (harg0 : arg0.IsWhole) (arg1 : Memref sig .tc .vmem S4000x64 .f32) (harg1 : arg1.IsWhole) (arg2 : Memref sig .tc .vmem S4000x64 .f32) (harg2 : arg2.IsWhole) (arg3 : Memref sig .tc .vmem S4000x64 .f32) (harg3 : arg3.IsWhole) (arg4 : Memref sig .tc .vmem S4000x64 .f32) (harg4 : arg4.IsWhole) (arg5 : Memref sig .tc .vmem S4000x64 .f32) (harg5 : arg5.IsWhole) (arg6 : Memref sig .tc .vmem S4000x64 .f32) (harg6 : arg6.IsWhole)
    (x0 : Vec F S4000x64 .f32) (x1 : Vec F S4000x64 .f32) (x2 : Vec F S4000x64 .f32) (x3 : Vec F S4000x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out4_4 x0 x1 x2 x3) ∗ owns (c : Thread nD τ) arg5 fullShare (out4_5 x0 x1 x2 x3) ∗ owns (c : Thread nD τ) arg6 fullShare (out4_6 x0 x1 x2 x3)) -∗ K ⟨⟩))
      ⊢ wp frame (wpE (defs₀ (F := F)) Variants.none c none) E (cc4__edge_combine_kernel i arg0 harg0 arg1 harg1 arg2 harg2 arg3 harg3 arg4 harg4 arg5 harg5 arg6 harg6) K := by
  simp only [cc4__edge_combine_kernel_eq_skeleton]; unfold cc4__edge_combine_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4_4 _)
  isplitl [H5]
  · iexists _; isplitr
    swap; · iexact H5
    ipureintro
    exact View.read_writes_eq_canon _ _ _ (cover4_5 _)
  iexists _; isplitr
  swap; · iexact H6
  ipureintro
  exact View.read_writes_eq_canon _ _ _ (cover4_6 _)

/-- The proof data of this region on core c: the arrays as the region finds them; after the body at point t each
    input's buffer at its block and each output's at its function of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
    | ⟨5, _⟩ => out4_5 (iblk4 V c 0 t) (iblk4 V c 1 t) (iblk4 V c 2 t) (iblk4 V c 3 t)
    | ⟨6, _⟩ => out4_6 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]
theorem after4_5 (c : Dev nD) (t : Fin cfg4.N) : (dat4 V c).after 5 t = out4_5 (iblk4 V c 0 t) (iblk4 V c 1 t) (iblk4 V c 2 t) (iblk4 V c 3 t) := by dsimp only [dat4]
theorem after4_6 (c : Dev nD) (t : Fin cfg4.N) : (dat4 V c).after 6 t = out4_6 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 5 (cc5__node_update_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- What the body leaves in output window 3's buffer: its one store, over the input blocks. -/
def out5_3 (x0 : Vec F S5000x64 .f32) (x1 : Vec F S5000x64 .f32) (x2 : Vec F S5000x64 .f32) : Vec F S5000x64 .f32 :=
  View.canon [⟨Rect.unit (s := S5000x64) ![0, 0] S5000x64.size inb_S5000x64_S5000x64_0_0, k5_pay1 (View.ld x2 (Rect.unit (s := S5000x64) ![0, 0] S5000x64.size inb_S5000x64_S5000x64_0_0)) (View.ld x0 (Rect.unit (s := S5000x64) ![0, 0] S5000x64.size inb_S5000x64_S5000x64_0_0)) (View.ld x1 (Rect.unit (s := S5000x64) ![0, 0] S5000x64.size inb_S5000x64_S5000x64_0_0))⟩]

theorem cover5_3 (p0 : Vec F S5000x64 .f32) (y : S5000x64.Idx) :
    ∃ pc ∈ ([⟨Rect.unit (s := S5000x64) ![0, 0] S5000x64.size inb_S5000x64_S5000x64_0_0, p0⟩] : List (View.Piece (Elt F) S5000x64 .f32)), y ∈ pc.1.set :=
  View.cover_of_tiled [⟨Rect.unit (s := S5000x64) ![0, 0] S5000x64.size inb_S5000x64_S5000x64_0_0, p0⟩] S5000x64.size (by rfl) y

set_option maxHeartbeats 4000000 in
/-- The body on whole staging memrefs, the inputs' at read contents and the outputs' at anything, runs to the
    continuation holding the inputs' as they were and each output's at its function of the inputs'. -/
theorem sound_kernel5 (c : Dev nD) (E : Set ℕ) (i : grid5.Coords) (arg0 : Memref sig .tc .vmem S5000x64 .f32) (harg0 : arg0.IsWhole) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole)
    (x0 : Vec F S5000x64 .f32) (x1 : Vec F S5000x64 .f32) (x2 : Vec F S5000x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5_3 x0 x1 x2)) -∗ K ⟨⟩))
      ⊢ wp frame (wpE (defs₀ (F := F)) Variants.none c none) E (cc5__node_update_kernel i arg0 harg0 arg1 harg1 arg2 harg2 arg3 harg3) K := by
  simp only [cc5__node_update_kernel_eq_skeleton]; unfold cc5__node_update_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of this region on core c: the arrays as the region finds them; after the body at point t each
    input's buffer at its block and each output's at its function of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 6 (cc6__bn_relu_residual_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point, fetched there or not. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds its block at every point, fetched there or not. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's staging buffer holds its block at every point, fetched there or not. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- What the body leaves in output window 6's buffer: its one store, over the input blocks. -/
def out6_6 (x0 : Vec F S5000x64 .f32) (x1 : Vec F S5000x64 .f32) (x2 : Vec F S1x64 .f32) (x3 : Vec F S1x64 .f32) (x4 : Vec F S1x64 .f32) (x5 : Vec F S1x64 .f32) : Vec F S5000x64 .f32 :=
  View.canon [⟨Rect.unit (s := S5000x64) ![0, 0] S5000x64.size inb_S5000x64_S5000x64_0_0, k6_pay1 (View.ld x3 (Rect.unit (s := S1x64) ![0, 0] S1x64.size inb_S1x64_S1x64_0_0)) (View.ld x0 (Rect.unit (s := S5000x64) ![0, 0] S5000x64.size inb_S5000x64_S5000x64_0_0)) (View.ld x2 (Rect.unit (s := S1x64) ![0, 0] S1x64.size inb_S1x64_S1x64_0_0)) (View.ld x4 (Rect.unit (s := S1x64) ![0, 0] S1x64.size inb_S1x64_S1x64_0_0)) (View.ld x5 (Rect.unit (s := S1x64) ![0, 0] S1x64.size inb_S1x64_S1x64_0_0)) (View.ld x1 (Rect.unit (s := S5000x64) ![0, 0] S5000x64.size inb_S5000x64_S5000x64_0_0))⟩]

theorem cover6_6 (p0 : Vec F S5000x64 .f32) (y : S5000x64.Idx) :
    ∃ pc ∈ ([⟨Rect.unit (s := S5000x64) ![0, 0] S5000x64.size inb_S5000x64_S5000x64_0_0, p0⟩] : List (View.Piece (Elt F) S5000x64 .f32)), y ∈ pc.1.set :=
  View.cover_of_tiled [⟨Rect.unit (s := S5000x64) ![0, 0] S5000x64.size inb_S5000x64_S5000x64_0_0, p0⟩] S5000x64.size (by rfl) y

set_option maxHeartbeats 4000000 in
/-- The body on whole staging memrefs, the inputs' at read contents and the outputs' at anything, runs to the
    continuation holding the inputs' as they were and each output's at its function of the inputs'. -/
theorem sound_kernel6 (c : Dev nD) (E : Set ℕ) (i : grid6.Coords) (arg0 : Memref sig .tc .vmem S5000x64 .f32) (harg0 : arg0.IsWhole) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S1x64 .f32) (x3 : Vec F S1x64 .f32) (x4 : Vec F S1x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out6_6 x0 x1 x2 x3 x4 x5)) -∗ K ⟨⟩))
      ⊢ wp frame (wpE (defs₀ (F := F)) Variants.none c none) E (cc6__bn_relu_residual_kernel i arg0 harg0 arg1 harg1 arg2 harg2 arg3 harg3 arg4 harg4 arg5 harg5 arg6 harg6) K := by
  simp only [cc6__bn_relu_residual_kernel_eq_skeleton]; unfold cc6__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-- The proof data of this region on core c: the arrays as the region finds them; after the body at point t each
    input's buffer at its block and each output's at its function of the input blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 7 (cc7__bn_relu_residual_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's staging buffer holds its block at every point, fetched there or not. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- What the body leaves in output window 6's buffer: its one store, over the input blocks. -/
def out7_6 (x0 : Vec F S4000x64 .f32) (x1 : Vec F S4000x64 .f32) (x2 : Vec F S1x64 .f32) (x3 : Vec F S1x64 .f32) (x4 : Vec F S1x64 .f32) (x5 : Vec F S1x64 .f32) : Vec F S4000x64 .f32 :=
  View.canon [⟨Rect.unit (s := S4000x64) ![0, 0] S4000x64.size inb_S4000x64_S4000x64_0_0, k7_pay1 (View.ld x3 (Rect.unit (s := S1x64) ![0, 0] S1x64.size inb_S1x64_S1x64_0_0)) (View.ld x0 (Rect.unit (s := S4000x64) ![0, 0] S4000x64.size inb_S4000x64_S4000x64_0_0)) (View.ld x2 (Rect.unit (s := S1x64) ![0, 0] S1x64.size inb_S1x64_S1x64_0_0)) (View.ld x4 (Rect.unit (s := S1x64) ![0, 0] S1x64.size inb_S1x64_S1x64_0_0)) (View.ld x5 (Rect.unit (s := S1x64) ![0, 0] S1x64.size inb_S1x64_S1x64_0_0)) (View.ld x1 (Rect.unit (s := S4000x64) ![0, 0] S4000x64.size inb_S4000x64_S4000x64_0_0))⟩]

theorem cover7_6 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

set_option maxHeartbeats 4000000 in
/-- The body on whole staging memrefs, the inputs' at read contents and the outputs' at anything, runs to the
    continuation holding the inputs' as they were and each output's at its function of the inputs'. -/
theorem sound_kernel7 (c : Dev nD) (E : Set ℕ) (i : grid7.Coords) (arg0 : Memref sig .tc .vmem S4000x64 .f32) (harg0 : arg0.IsWhole) (arg1 : Memref sig .tc .vmem S4000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S4000x64 .f32) (harg6 : arg6.IsWhole)
    (x0 : Vec F S4000x64 .f32) (x1 : Vec F S4000x64 .f32) (x2 : Vec F S1x64 .f32) (x3 : Vec F S1x64 .f32) (x4 : Vec F S1x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out7_6 x0 x1 x2 x3 x4 x5)) -∗ K ⟨⟩))
      ⊢ wp frame (wpE (defs₀ (F := F)) Variants.none c none) E (cc7__bn_relu_residual_kernel i arg0 harg0 arg1 harg1 arg2 harg2 arg3 harg3 arg4 harg4 arg5 harg5 arg6 harg6) K := by
  simp only [cc7__bn_relu_residual_kernel_eq_skeleton]; unfold cc7__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-- The proof data of this region on core c: the arrays as the region finds them; after the body at point t each
    input's buffer at its block and each output's at its function of the input blocks; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Reg8.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 8 (cc8__linear_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every point, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every point, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- What the body leaves in output window 3's buffer: its one store, over the input blocks. -/
def out8_3 (x0 : Vec F S5000x64 .f32) (x1 : Vec F S64x256 .f32) (x2 : Vec F S1x256 .f32) : Vec F S5000x256 .f32 :=
  View.canon [⟨Rect.unit (s := S5000x256) ![0, 0] S5000x256.size inb_S5000x256_S5000x256_0_0, k8_pay1 (View.ld x0 (Rect.unit (s := S5000x64) ![0, 0] S5000x64.size inb_S5000x64_S5000x64_0_0)) (View.ld x1 (Rect.unit (s := S64x256) ![0, 0] S64x256.size inb_S64x256_S64x256_0_0)) (View.ld x2 (Rect.unit (s := S1x256) ![0, 0] S1x256.size inb_S1x256_S1x256_0_0))⟩]

theorem cover8_3 (p0 : Vec F S5000x256 .f32) (y : S5000x256.Idx) :
    ∃ pc ∈ ([⟨Rect.unit (s := S5000x256) ![0, 0] S5000x256.size inb_S5000x256_S5000x256_0_0, p0⟩] : List (View.Piece (Elt F) S5000x256 .f32)), y ∈ pc.1.set :=
  View.cover_of_tiled [⟨Rect.unit (s := S5000x256) ![0, 0] S5000x256.size inb_S5000x256_S5000x256_0_0, p0⟩] S5000x256.size (by rfl) y

set_option maxHeartbeats 4000000 in
/-- The body on whole staging memrefs, the inputs' at read contents and the outputs' at anything, runs to the
    continuation holding the inputs' as they were and each output's at its function of the inputs'. -/
theorem sound_kernel8 (c : Dev nD) (E : Set ℕ) (i : grid8.Coords) (arg0 : Memref sig .tc .vmem S5000x64 .f32) (harg0 : arg0.IsWhole) (arg1 : Memref sig .tc .vmem S64x256 .f32) (harg1 : arg1.IsWhole) (arg2 : Memref sig .tc .vmem S1x256 .f32) (harg2 : arg2.IsWhole) (arg3 : Memref sig .tc .vmem S5000x256 .f32) (harg3 : arg3.IsWhole)
    (x0 : Vec F S5000x64 .f32) (x1 : Vec F S64x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out8_3 x0 x1 x2)) -∗ K ⟨⟩))
      ⊢ wp frame (wpE (defs₀ (F := F)) Variants.none c none) E (cc8__linear_kernel i arg0 harg0 arg1 harg1 arg2 harg2 arg3 harg3) K := by
  simp only [cc8__linear_kernel_eq_skeleton]; unfold cc8__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-- The proof data of this region on core c: the arrays as the region finds them; after the body at point t each
    input's buffer at its block and each output's at its function of the input blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Reg9.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 9 (cc9__linear_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every point, fetched there or not. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds its block at every point, fetched there or not. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer holds its block at every point, fetched there or not. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- What the body leaves in output window 3's buffer: its one store, over the input blocks. -/
def out9_3 (x0 : Vec F S4000x64 .f32) (x1 : Vec F S64x64 .f32) (x2 : Vec F S1x64 .f32) : Vec F S4000x64 .f32 :=
  View.canon [⟨Rect.unit (s := S4000x64) ![0, 0] S4000x64.size inb_S4000x64_S4000x64_0_0, k9_pay1 (View.ld x0 (Rect.unit (s := S4000x64) ![0, 0] S4000x64.size inb_S4000x64_S4000x64_0_0)) (View.ld x1 (Rect.unit (s := S64x64) ![0, 0] S64x64.size inb_S64x64_S64x64_0_0)) (View.ld x2 (Rect.unit (s := S1x64) ![0, 0] S1x64.size inb_S1x64_S1x64_0_0))⟩]

theorem cover9_3 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

set_option maxHeartbeats 4000000 in
/-- The body on whole staging memrefs, the inputs' at read contents and the outputs' at anything, runs to the
    continuation holding the inputs' as they were and each output's at its function of the inputs'. -/
theorem sound_kernel9 (c : Dev nD) (E : Set ℕ) (i : grid9.Coords) (arg0 : Memref sig .tc .vmem S4000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S4000x64 .f32) (harg3 : arg3.IsWhole)
    (x0 : Vec F S4000x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out9_3 x0 x1 x2)) -∗ K ⟨⟩))
      ⊢ wp frame (wpE (defs₀ (F := F)) Variants.none c none) E (cc9__linear_kernel i arg0 harg0 arg1 harg1 arg2 harg2 arg3 harg3) K := by
  simp only [cc9__linear_kernel_eq_skeleton]; unfold cc9__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-- The proof data of this region on core c: the arrays as the region finds them; after the body at point t each
    input's buffer at its block and each output's at its function of the input blocks; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Reg10.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 10 (cc10__edge_combine_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's staging buffer holds its block at every point, fetched there or not. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's staging buffer holds its block at every point, fetched there or not. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's staging buffer holds its block at every point, fetched there or not. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's staging buffer holds its block at every point, fetched there or not. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- What the body leaves in output window 4's buffer: its one store, over the input blocks. -/
def out10_4 (x0 : Vec F S4000x64 .f32) (x1 : Vec F S4000x64 .f32) (x2 : Vec F S4000x64 .f32) (x3 : Vec F S4000x64 .f32) : Vec F S4000x64 .f32 :=
  View.canon [⟨Rect.unit (s := S4000x64) ![0, 0] S4000x64.size inb_S4000x64_S4000x64_0_0, k10_pay1 (View.ld x0 (Rect.unit (s := S4000x64) ![0, 0] S4000x64.size inb_S4000x64_S4000x64_0_0)) (View.ld x1 (Rect.unit (s := S4000x64) ![0, 0] S4000x64.size inb_S4000x64_S4000x64_0_0)) (View.ld x2 (Rect.unit (s := S4000x64) ![0, 0] S4000x64.size inb_S4000x64_S4000x64_0_0))⟩]

theorem cover10_4 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

/-- What the body leaves in output window 5's buffer: its one store, over the input blocks. -/
def out10_5 (x0 : Vec F S4000x64 .f32) (x1 : Vec F S4000x64 .f32) (x2 : Vec F S4000x64 .f32) (x3 : Vec F S4000x64 .f32) : Vec F S4000x64 .f32 :=
  View.canon [⟨Rect.unit (s := S4000x64) ![0, 0] S4000x64.size inb_S4000x64_S4000x64_0_0, k10_pay2 (View.ld x0 (Rect.unit (s := S4000x64) ![0, 0] S4000x64.size inb_S4000x64_S4000x64_0_0)) (View.ld x1 (Rect.unit (s := S4000x64) ![0, 0] S4000x64.size inb_S4000x64_S4000x64_0_0)) (View.ld x2 (Rect.unit (s := S4000x64) ![0, 0] S4000x64.size inb_S4000x64_S4000x64_0_0))⟩]

theorem cover10_5 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

/-- What the body leaves in output window 6's buffer: its one store, over the input blocks. -/
def out10_6 (x0 : Vec F S4000x64 .f32) (x1 : Vec F S4000x64 .f32) (x2 : Vec F S4000x64 .f32) (x3 : Vec F S4000x64 .f32) : Vec F S4000x64 .f32 :=
  View.canon [⟨Rect.unit (s := S4000x64) ![0, 0] S4000x64.size inb_S4000x64_S4000x64_0_0, k10_pay3 (View.ld x0 (Rect.unit (s := S4000x64) ![0, 0] S4000x64.size inb_S4000x64_S4000x64_0_0)) (View.ld x1 (Rect.unit (s := S4000x64) ![0, 0] S4000x64.size inb_S4000x64_S4000x64_0_0)) (View.ld x2 (Rect.unit (s := S4000x64) ![0, 0] S4000x64.size inb_S4000x64_S4000x64_0_0)) (View.ld x3 (Rect.unit (s := S4000x64) ![0, 0] S4000x64.size inb_S4000x64_S4000x64_0_0))⟩]

theorem cover10_6 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

set_option maxHeartbeats 4000000 in
/-- The body on whole staging memrefs, the inputs' at read contents and the outputs' at anything, runs to the
    continuation holding the inputs' as they were and each output's at its function of the inputs'. -/
theorem sound_kernel10 (c : Dev nD) (E : Set ℕ) (i : grid10.Coords) (arg0 : Memref sig .tc .vmem S4000x64 .f32) (harg0 : arg0.IsWhole) (arg1 : Memref sig .tc .vmem S4000x64 .f32) (harg1 : arg1.IsWhole) (arg2 : Memref sig .tc .vmem S4000x64 .f32) (harg2 : arg2.IsWhole) (arg3 : Memref sig .tc .vmem S4000x64 .f32) (harg3 : arg3.IsWhole) (arg4 : Memref sig .tc .vmem S4000x64 .f32) (harg4 : arg4.IsWhole) (arg5 : Memref sig .tc .vmem S4000x64 .f32) (harg5 : arg5.IsWhole) (arg6 : Memref sig .tc .vmem S4000x64 .f32) (harg6 : arg6.IsWhole)
    (x0 : Vec F S4000x64 .f32) (x1 : Vec F S4000x64 .f32) (x2 : Vec F S4000x64 .f32) (x3 : Vec F S4000x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out10_4 x0 x1 x2 x3) ∗ owns (c : Thread nD τ) arg5 fullShare (out10_5 x0 x1 x2 x3) ∗ owns (c : Thread nD τ) arg6 fullShare (out10_6 x0 x1 x2 x3)) -∗ K ⟨⟩))
      ⊢ wp frame (wpE (defs₀ (F := F)) Variants.none c none) E (cc10__edge_combine_kernel i arg0 harg0 arg1 harg1 arg2 harg2 arg3 harg3 arg4 harg4 arg5 harg5 arg6 harg6) K := by
  simp only [cc10__edge_combine_kernel_eq_skeleton]; unfold cc10__edge_combine_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover10_4 _)
  isplitl [H5]
  · iexists _; isplitr
    swap; · iexact H5
    ipureintro
    exact View.read_writes_eq_canon _ _ _ (cover10_5 _)
  iexists _; isplitr
  swap; · iexact H6
  ipureintro
  exact View.read_writes_eq_canon _ _ _ (cover10_6 _)

/-- The proof data of this region on core c: the arrays as the region finds them; after the body at point t each
    input's buffer at its block and each output's at its function of the input blocks; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => out10_4 (iblk10 V c 0 t) (iblk10 V c 1 t) (iblk10 V c 2 t) (iblk10 V c 3 t)
    | ⟨5, _⟩ => out10_5 (iblk10 V c 0 t) (iblk10 V c 1 t) (iblk10 V c 2 t) (iblk10 V c 3 t)
    | ⟨6, _⟩ => out10_6 (iblk10 V c 0 t) (iblk10 V c 1 t) (iblk10 V c 2 t) (iblk10 V c 3 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = out10_4 (iblk10 V c 0 t) (iblk10 V c 1 t) (iblk10 V c 2 t) (iblk10 V c 3 t) := by dsimp only [dat10]
theorem after10_5 (c : Dev nD) (t : Fin cfg10.N) : (dat10 V c).after 5 t = out10_5 (iblk10 V c 0 t) (iblk10 V c 1 t) (iblk10 V c 2 t) (iblk10 V c 3 t) := by dsimp only [dat10]
theorem after10_6 (c : Dev nD) (t : Fin cfg10.N) : (dat10 V c).after 6 t = out10_6 (iblk10 V c 0 t) (iblk10 V c 1 t) (iblk10 V c 2 t) (iblk10 V c 3 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel10 c Set.univ _ _ _ _ _ _ _ _ _ _ _ _ _ _ _ (iblk10 V c 0 t) (iblk10 V c 1 t) (iblk10 V c 2 t) (iblk10 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.Reg11.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 11 (cc11__node_update_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's staging buffer holds its block at every point, fetched there or not. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's staging buffer holds its block at every point, fetched there or not. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's staging buffer holds its block at every point, fetched there or not. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- What the body leaves in output window 3's buffer: its one store, over the input blocks. -/
def out11_3 (x0 : Vec F S5000x64 .f32) (x1 : Vec F S5000x64 .f32) (x2 : Vec F S5000x64 .f32) : Vec F S5000x64 .f32 :=
  View.canon [⟨Rect.unit (s := S5000x64) ![0, 0] S5000x64.size inb_S5000x64_S5000x64_0_0, k11_pay1 (View.ld x2 (Rect.unit (s := S5000x64) ![0, 0] S5000x64.size inb_S5000x64_S5000x64_0_0)) (View.ld x0 (Rect.unit (s := S5000x64) ![0, 0] S5000x64.size inb_S5000x64_S5000x64_0_0)) (View.ld x1 (Rect.unit (s := S5000x64) ![0, 0] S5000x64.size inb_S5000x64_S5000x64_0_0))⟩]

theorem cover11_3 (p0 : Vec F S5000x64 .f32) (y : S5000x64.Idx) :
    ∃ pc ∈ ([⟨Rect.unit (s := S5000x64) ![0, 0] S5000x64.size inb_S5000x64_S5000x64_0_0, p0⟩] : List (View.Piece (Elt F) S5000x64 .f32)), y ∈ pc.1.set :=
  View.cover_of_tiled [⟨Rect.unit (s := S5000x64) ![0, 0] S5000x64.size inb_S5000x64_S5000x64_0_0, p0⟩] S5000x64.size (by rfl) y

set_option maxHeartbeats 4000000 in
/-- The body on whole staging memrefs, the inputs' at read contents and the outputs' at anything, runs to the
    continuation holding the inputs' as they were and each output's at its function of the inputs'. -/
theorem sound_kernel11 (c : Dev nD) (E : Set ℕ) (i : grid11.Coords) (arg0 : Memref sig .tc .vmem S5000x64 .f32) (harg0 : arg0.IsWhole) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole)
    (x0 : Vec F S5000x64 .f32) (x1 : Vec F S5000x64 .f32) (x2 : Vec F S5000x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out11_3 x0 x1 x2)) -∗ K ⟨⟩))
      ⊢ wp frame (wpE (defs₀ (F := F)) Variants.none c none) E (cc11__node_update_kernel i arg0 harg0 arg1 harg1 arg2 harg2 arg3 harg3) K := by
  simp only [cc11__node_update_kernel_eq_skeleton]; unfold cc11__node_update_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-- The proof data of this region on core c: the arrays as the region finds them; after the body at point t each
    input's buffer at its block and each output's at its function of the input blocks; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) (iblk11 V c 2 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.Reg12.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 12 (cc12__bn_relu_residual_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's staging buffer holds its block at every point, fetched there or not. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's staging buffer holds its block at every point, fetched there or not. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's staging buffer holds its block at every point, fetched there or not. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's staging buffer holds its block at every point, fetched there or not. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4's staging buffer holds its block at every point, fetched there or not. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-- Input window 5's staging buffer holds its block at every point, fetched there or not. -/
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)

/-- What the body leaves in output window 6's buffer: its one store, over the input blocks. -/
def out12_6 (x0 : Vec F S5000x64 .f32) (x1 : Vec F S5000x64 .f32) (x2 : Vec F S1x64 .f32) (x3 : Vec F S1x64 .f32) (x4 : Vec F S1x64 .f32) (x5 : Vec F S1x64 .f32) : Vec F S5000x64 .f32 :=
  View.canon [⟨Rect.unit (s := S5000x64) ![0, 0] S5000x64.size inb_S5000x64_S5000x64_0_0, k12_pay1 (View.ld x3 (Rect.unit (s := S1x64) ![0, 0] S1x64.size inb_S1x64_S1x64_0_0)) (View.ld x0 (Rect.unit (s := S5000x64) ![0, 0] S5000x64.size inb_S5000x64_S5000x64_0_0)) (View.ld x2 (Rect.unit (s := S1x64) ![0, 0] S1x64.size inb_S1x64_S1x64_0_0)) (View.ld x4 (Rect.unit (s := S1x64) ![0, 0] S1x64.size inb_S1x64_S1x64_0_0)) (View.ld x5 (Rect.unit (s := S1x64) ![0, 0] S1x64.size inb_S1x64_S1x64_0_0)) (View.ld x1 (Rect.unit (s := S5000x64) ![0, 0] S5000x64.size inb_S5000x64_S5000x64_0_0))⟩]

theorem cover12_6 (p0 : Vec F S5000x64 .f32) (y : S5000x64.Idx) :
    ∃ pc ∈ ([⟨Rect.unit (s := S5000x64) ![0, 0] S5000x64.size inb_S5000x64_S5000x64_0_0, p0⟩] : List (View.Piece (Elt F) S5000x64 .f32)), y ∈ pc.1.set :=
  View.cover_of_tiled [⟨Rect.unit (s := S5000x64) ![0, 0] S5000x64.size inb_S5000x64_S5000x64_0_0, p0⟩] S5000x64.size (by rfl) y

set_option maxHeartbeats 4000000 in
/-- The body on whole staging memrefs, the inputs' at read contents and the outputs' at anything, runs to the
    continuation holding the inputs' as they were and each output's at its function of the inputs'. -/
theorem sound_kernel12 (c : Dev nD) (E : Set ℕ) (i : grid12.Coords) (arg0 : Memref sig .tc .vmem S5000x64 .f32) (harg0 : arg0.IsWhole) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S1x64 .f32) (x3 : Vec F S1x64 .f32) (x4 : Vec F S1x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out12_6 x0 x1 x2 x3 x4 x5)) -∗ K ⟨⟩))
      ⊢ wp frame (wpE (defs₀ (F := F)) Variants.none c none) E (cc12__bn_relu_residual_kernel i arg0 harg0 arg1 harg1 arg2 harg2 arg3 harg3 arg4 harg4 arg5 harg5 arg6 harg6) K := by
  simp only [cc12__bn_relu_residual_kernel_eq_skeleton]; unfold cc12__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover12_6 _)

/-- The proof data of this region on core c: the arrays as the region finds them; after the body at point t each
    input's buffer at its block and each output's at its function of the input blocks; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => out12_6 (iblk12 V c 0 t) (iblk12 V c 1 t) (iblk12 V c 2 t) (iblk12 V c 3 t) (iblk12 V c 4 t) (iblk12 V c 5 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = out12_6 (iblk12 V c 0 t) (iblk12 V c 1 t) (iblk12 V c 2 t) (iblk12 V c 3 t) (iblk12 V c 4 t) (iblk12 V c 5 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d)))

def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel12 c Set.univ _ _ _ _ _ _ _ _ _ _ _ _ _ _ _ (iblk12 V c 0 t) (iblk12 V c 1 t) (iblk12 V c 2 t) (iblk12 V c 3 t) (iblk12 V c 4 t) (iblk12 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.KI.Reg13.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 13 (cc13__bn_relu_residual_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's staging buffer holds its block at every point, fetched there or not. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's staging buffer holds its block at every point, fetched there or not. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's staging buffer holds its block at every point, fetched there or not. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's staging buffer holds its block at every point, fetched there or not. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4's staging buffer holds its block at every point, fetched there or not. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Input window 5's staging buffer holds its block at every point, fetched there or not. -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-- What the body leaves in output window 6's buffer: its one store, over the input blocks. -/
def out13_6 (x0 : Vec F S4000x64 .f32) (x1 : Vec F S4000x64 .f32) (x2 : Vec F S1x64 .f32) (x3 : Vec F S1x64 .f32) (x4 : Vec F S1x64 .f32) (x5 : Vec F S1x64 .f32) : Vec F S4000x64 .f32 :=
  View.canon [⟨Rect.unit (s := S4000x64) ![0, 0] S4000x64.size inb_S4000x64_S4000x64_0_0, k13_pay1 (View.ld x3 (Rect.unit (s := S1x64) ![0, 0] S1x64.size inb_S1x64_S1x64_0_0)) (View.ld x0 (Rect.unit (s := S4000x64) ![0, 0] S4000x64.size inb_S4000x64_S4000x64_0_0)) (View.ld x2 (Rect.unit (s := S1x64) ![0, 0] S1x64.size inb_S1x64_S1x64_0_0)) (View.ld x4 (Rect.unit (s := S1x64) ![0, 0] S1x64.size inb_S1x64_S1x64_0_0)) (View.ld x5 (Rect.unit (s := S1x64) ![0, 0] S1x64.size inb_S1x64_S1x64_0_0)) (View.ld x1 (Rect.unit (s := S4000x64) ![0, 0] S4000x64.size inb_S4000x64_S4000x64_0_0))⟩]

theorem cover13_6 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

set_option maxHeartbeats 4000000 in
/-- The body on whole staging memrefs, the inputs' at read contents and the outputs' at anything, runs to the
    continuation holding the inputs' as they were and each output's at its function of the inputs'. -/
theorem sound_kernel13 (c : Dev nD) (E : Set ℕ) (i : grid13.Coords) (arg0 : Memref sig .tc .vmem S4000x64 .f32) (harg0 : arg0.IsWhole) (arg1 : Memref sig .tc .vmem S4000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S4000x64 .f32) (harg6 : arg6.IsWhole)
    (x0 : Vec F S4000x64 .f32) (x1 : Vec F S4000x64 .f32) (x2 : Vec F S1x64 .f32) (x3 : Vec F S1x64 .f32) (x4 : Vec F S1x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out13_6 x0 x1 x2 x3 x4 x5)) -∗ K ⟨⟩))
      ⊢ wp frame (wpE (defs₀ (F := F)) Variants.none c none) E (cc13__bn_relu_residual_kernel i arg0 harg0 arg1 harg1 arg2 harg2 arg3 harg3 arg4 harg4 arg5 harg5 arg6 harg6) K := by
  simp only [cc13__bn_relu_residual_kernel_eq_skeleton]; unfold cc13__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover13_6 _)

/-- The proof data of this region on core c: the arrays as the region finds them; after the body at point t each
    input's buffer at its block and each output's at its function of the input blocks; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => out13_6 (iblk13 V c 0 t) (iblk13 V c 1 t) (iblk13 V c 2 t) (iblk13 V c 3 t) (iblk13 V c 4 t) (iblk13 V c 5 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = out13_6 (iblk13 V c 0 t) (iblk13 V c 1 t) (iblk13 V c 2 t) (iblk13 V c 3 t) (iblk13 V c 4 t) (iblk13 V c 5 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d)))

def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel13 c Set.univ _ _ _ _ _ _ _ _ _ _ _ _ _ _ _ (iblk13 V c 0 t) (iblk13 V c 1 t) (iblk13 V c 2 t) (iblk13 V c 3 t) (iblk13 V c 4 t) (iblk13 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation13 (c : Dev nD) : BodyObligation (dat13 (F := F) V c) (defs₀ (F := F)) Variants.none () Set.univ := fun t => by
  rw [bigSep_W13, bigSep_W13]
  exact sound_body13 V c t

end Cert.KernelIdeal.Hand

end
-- ==== Proof.KI.Reg14.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 14 (cc14__linear_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's staging buffer holds its block at every point, fetched there or not. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's staging buffer holds its block at every point, fetched there or not. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's staging buffer holds its block at every point, fetched there or not. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- What the body leaves in output window 3's buffer: its one store, over the input blocks. -/
def out14_3 (x0 : Vec F S5000x64 .f32) (x1 : Vec F S64x256 .f32) (x2 : Vec F S1x256 .f32) : Vec F S5000x256 .f32 :=
  View.canon [⟨Rect.unit (s := S5000x256) ![0, 0] S5000x256.size inb_S5000x256_S5000x256_0_0, k14_pay1 (View.ld x0 (Rect.unit (s := S5000x64) ![0, 0] S5000x64.size inb_S5000x64_S5000x64_0_0)) (View.ld x1 (Rect.unit (s := S64x256) ![0, 0] S64x256.size inb_S64x256_S64x256_0_0)) (View.ld x2 (Rect.unit (s := S1x256) ![0, 0] S1x256.size inb_S1x256_S1x256_0_0))⟩]

theorem cover14_3 (p0 : Vec F S5000x256 .f32) (y : S5000x256.Idx) :
    ∃ pc ∈ ([⟨Rect.unit (s := S5000x256) ![0, 0] S5000x256.size inb_S5000x256_S5000x256_0_0, p0⟩] : List (View.Piece (Elt F) S5000x256 .f32)), y ∈ pc.1.set :=
  View.cover_of_tiled [⟨Rect.unit (s := S5000x256) ![0, 0] S5000x256.size inb_S5000x256_S5000x256_0_0, p0⟩] S5000x256.size (by rfl) y

set_option maxHeartbeats 4000000 in
/-- The body on whole staging memrefs, the inputs' at read contents and the outputs' at anything, runs to the
    continuation holding the inputs' as they were and each output's at its function of the inputs'. -/
theorem sound_kernel14 (c : Dev nD) (E : Set ℕ) (i : grid14.Coords) (arg0 : Memref sig .tc .vmem S5000x64 .f32) (harg0 : arg0.IsWhole) (arg1 : Memref sig .tc .vmem S64x256 .f32) (harg1 : arg1.IsWhole) (arg2 : Memref sig .tc .vmem S1x256 .f32) (harg2 : arg2.IsWhole) (arg3 : Memref sig .tc .vmem S5000x256 .f32) (harg3 : arg3.IsWhole)
    (x0 : Vec F S5000x64 .f32) (x1 : Vec F S64x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out14_3 x0 x1 x2)) -∗ K ⟨⟩))
      ⊢ wp frame (wpE (defs₀ (F := F)) Variants.none c none) E (cc14__linear_kernel i arg0 harg0 arg1 harg1 arg2 harg2 arg3 harg3) K := by
  simp only [cc14__linear_kernel_eq_skeleton]; unfold cc14__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover14_3 _)

/-- The proof data of this region on core c: the arrays as the region finds them; after the body at point t each
    input's buffer at its block and each output's at its function of the input blocks; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 (iblk14 V c 0 t) (iblk14 V c 1 t) (iblk14 V c 2 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = out14_3 (iblk14 V c 0 t) (iblk14 V c 1 t) (iblk14 V c 2 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d)))

def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t))

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).Φ t.succ = (dat14 V c).Φ t.castSucc from rfl,
    show (dat14 V c).owesAt () t.succ = (dat14 V c).owesAt () t.castSucc from rfl,
    after14_0, after14_1, after14_2, after14_3]
  iintro ⟨HΦ, Ho, ⟨%d0, H0⟩, ⟨%d1, H1⟩, ⟨%d2, H2⟩, ⟨%d3, H3⟩⟩
  iapply (sound_kernel14 c Set.univ _ _ _ _ _ _ _ _ _ (iblk14 V c 0 t) (iblk14 V c 1 t) (iblk14 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation14 (c : Dev nD) : BodyObligation (dat14 (F := F) V c) (defs₀ (F := F)) Variants.none () Set.univ := fun t => by
  rw [bigSep_W14, bigSep_W14]
  exact sound_body14 V c t

end Cert.KernelIdeal.Hand

end
-- ==== Proof.KI.Reg15.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 15 (cc15__linear_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- Input window 0's staging buffer holds its block at every point, fetched there or not. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- Input window 1's staging buffer holds its block at every point, fetched there or not. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-- Input window 2's staging buffer holds its block at every point, fetched there or not. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-- What the body leaves in output window 3's buffer: its one store, over the input blocks. -/
def out15_3 (x0 : Vec F S4000x64 .f32) (x1 : Vec F S64x64 .f32) (x2 : Vec F S1x64 .f32) : Vec F S4000x64 .f32 :=
  View.canon [⟨Rect.unit (s := S4000x64) ![0, 0] S4000x64.size inb_S4000x64_S4000x64_0_0, k15_pay1 (View.ld x0 (Rect.unit (s := S4000x64) ![0, 0] S4000x64.size inb_S4000x64_S4000x64_0_0)) (View.ld x1 (Rect.unit (s := S64x64) ![0, 0] S64x64.size inb_S64x64_S64x64_0_0)) (View.ld x2 (Rect.unit (s := S1x64) ![0, 0] S1x64.size inb_S1x64_S1x64_0_0))⟩]

theorem cover15_3 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

set_option maxHeartbeats 4000000 in
/-- The body on whole staging memrefs, the inputs' at read contents and the outputs' at anything, runs to the
    continuation holding the inputs' as they were and each output's at its function of the inputs'. -/
theorem sound_kernel15 (c : Dev nD) (E : Set ℕ) (i : grid15.Coords) (arg0 : Memref sig .tc .vmem S4000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S4000x64 .f32) (harg3 : arg3.IsWhole)
    (x0 : Vec F S4000x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out15_3 x0 x1 x2)) -∗ K ⟨⟩))
      ⊢ wp frame (wpE (defs₀ (F := F)) Variants.none c none) E (cc15__linear_kernel i arg0 harg0 arg1 harg1 arg2 harg2 arg3 harg3) K := by
  simp only [cc15__linear_kernel_eq_skeleton]; unfold cc15__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover15_3 _)

/-- The proof data of this region on core c: the arrays as the region finds them; after the body at point t each
    input's buffer at its block and each output's at its function of the input blocks; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15_3 (iblk15 V c 0 t) (iblk15 V c 1 t) (iblk15 V c 2 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = out15_3 (iblk15 V c 0 t) (iblk15 V c 1 t) (iblk15 V c 2 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d)))

def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t))

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  iintro ⟨HΦ, Ho, ⟨%d0, H0⟩, ⟨%d1, H1⟩, ⟨%d2, H2⟩, ⟨%d3, H3⟩⟩
  iapply (sound_kernel15 c Set.univ _ _ _ _ _ _ _ _ _ (iblk15 V c 0 t) (iblk15 V c 1 t) (iblk15 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation15 (c : Dev nD) : BodyObligation (dat15 (F := F) V c) (defs₀ (F := F)) Variants.none () Set.univ := fun t => by
  rw [bigSep_W15, bigSep_W15]
  exact sound_body15 V c t

end Cert.KernelIdeal.Hand

end
-- ==== Proof.KI.Reg16.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 16 (cc16__edge_combine_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's staging buffer holds its block at every point, fetched there or not. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-- Input window 1's staging buffer holds its block at every point, fetched there or not. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- Input window 2's staging buffer holds its block at every point, fetched there or not. -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

/-- Input window 3's staging buffer holds its block at every point, fetched there or not. -/
theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)

/-- What the body leaves in output window 4's buffer: its one store, over the input blocks. -/
def out16_4 (x0 : Vec F S4000x64 .f32) (x1 : Vec F S4000x64 .f32) (x2 : Vec F S4000x64 .f32) (x3 : Vec F S4000x64 .f32) : Vec F S4000x64 .f32 :=
  View.canon [⟨Rect.unit (s := S4000x64) ![0, 0] S4000x64.size inb_S4000x64_S4000x64_0_0, k16_pay1 (View.ld x0 (Rect.unit (s := S4000x64) ![0, 0] S4000x64.size inb_S4000x64_S4000x64_0_0)) (View.ld x1 (Rect.unit (s := S4000x64) ![0, 0] S4000x64.size inb_S4000x64_S4000x64_0_0)) (View.ld x2 (Rect.unit (s := S4000x64) ![0, 0] S4000x64.size inb_S4000x64_S4000x64_0_0))⟩]

theorem cover16_4 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

/-- What the body leaves in output window 5's buffer: its one store, over the input blocks. -/
def out16_5 (x0 : Vec F S4000x64 .f32) (x1 : Vec F S4000x64 .f32) (x2 : Vec F S4000x64 .f32) (x3 : Vec F S4000x64 .f32) : Vec F S4000x64 .f32 :=
  View.canon [⟨Rect.unit (s := S4000x64) ![0, 0] S4000x64.size inb_S4000x64_S4000x64_0_0, k16_pay2 (View.ld x0 (Rect.unit (s := S4000x64) ![0, 0] S4000x64.size inb_S4000x64_S4000x64_0_0)) (View.ld x1 (Rect.unit (s := S4000x64) ![0, 0] S4000x64.size inb_S4000x64_S4000x64_0_0)) (View.ld x2 (Rect.unit (s := S4000x64) ![0, 0] S4000x64.size inb_S4000x64_S4000x64_0_0))⟩]

theorem cover16_5 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

/-- What the body leaves in output window 6's buffer: its one store, over the input blocks. -/
def out16_6 (x0 : Vec F S4000x64 .f32) (x1 : Vec F S4000x64 .f32) (x2 : Vec F S4000x64 .f32) (x3 : Vec F S4000x64 .f32) : Vec F S4000x64 .f32 :=
  View.canon [⟨Rect.unit (s := S4000x64) ![0, 0] S4000x64.size inb_S4000x64_S4000x64_0_0, k16_pay3 (View.ld x0 (Rect.unit (s := S4000x64) ![0, 0] S4000x64.size inb_S4000x64_S4000x64_0_0)) (View.ld x1 (Rect.unit (s := S4000x64) ![0, 0] S4000x64.size inb_S4000x64_S4000x64_0_0)) (View.ld x2 (Rect.unit (s := S4000x64) ![0, 0] S4000x64.size inb_S4000x64_S4000x64_0_0)) (View.ld x3 (Rect.unit (s := S4000x64) ![0, 0] S4000x64.size inb_S4000x64_S4000x64_0_0))⟩]

theorem cover16_6 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

set_option maxHeartbeats 4000000 in
/-- The body on whole staging memrefs, the inputs' at read contents and the outputs' at anything, runs to the
    continuation holding the inputs' as they were and each output's at its function of the inputs'. -/
theorem sound_kernel16 (c : Dev nD) (E : Set ℕ) (i : grid16.Coords) (arg0 : Memref sig .tc .vmem S4000x64 .f32) (harg0 : arg0.IsWhole) (arg1 : Memref sig .tc .vmem S4000x64 .f32) (harg1 : arg1.IsWhole) (arg2 : Memref sig .tc .vmem S4000x64 .f32) (harg2 : arg2.IsWhole) (arg3 : Memref sig .tc .vmem S4000x64 .f32) (harg3 : arg3.IsWhole) (arg4 : Memref sig .tc .vmem S4000x64 .f32) (harg4 : arg4.IsWhole) (arg5 : Memref sig .tc .vmem S4000x64 .f32) (harg5 : arg5.IsWhole) (arg6 : Memref sig .tc .vmem S4000x64 .f32) (harg6 : arg6.IsWhole)
    (x0 : Vec F S4000x64 .f32) (x1 : Vec F S4000x64 .f32) (x2 : Vec F S4000x64 .f32) (x3 : Vec F S4000x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out16_4 x0 x1 x2 x3) ∗ owns (c : Thread nD τ) arg5 fullShare (out16_5 x0 x1 x2 x3) ∗ owns (c : Thread nD τ) arg6 fullShare (out16_6 x0 x1 x2 x3)) -∗ K ⟨⟩))
      ⊢ wp frame (wpE (defs₀ (F := F)) Variants.none c none) E (cc16__edge_combine_kernel i arg0 harg0 arg1 harg1 arg2 harg2 arg3 harg3 arg4 harg4 arg5 harg5 arg6 harg6) K := by
  simp only [cc16__edge_combine_kernel_eq_skeleton]; unfold cc16__edge_combine_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover16_4 _)
  isplitl [H5]
  · iexists _; isplitr
    swap; · iexact H5
    ipureintro
    exact View.read_writes_eq_canon _ _ _ (cover16_5 _)
  iexists _; isplitr
  swap; · iexact H6
  ipureintro
  exact View.read_writes_eq_canon _ _ _ (cover16_6 _)

/-- The proof data of this region on core c: the arrays as the region finds them; after the body at point t each
    input's buffer at its block and each output's at its function of the input blocks; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => out16_4 (iblk16 V c 0 t) (iblk16 V c 1 t) (iblk16 V c 2 t) (iblk16 V c 3 t)
    | ⟨5, _⟩ => out16_5 (iblk16 V c 0 t) (iblk16 V c 1 t) (iblk16 V c 2 t) (iblk16 V c 3 t)
    | ⟨6, _⟩ => out16_6 (iblk16 V c 0 t) (iblk16 V c 1 t) (iblk16 V c 2 t) (iblk16 V c 3 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = out16_4 (iblk16 V c 0 t) (iblk16 V c 1 t) (iblk16 V c 2 t) (iblk16 V c 3 t) := by dsimp only [dat16]
theorem after16_5 (c : Dev nD) (t : Fin cfg16.N) : (dat16 V c).after 5 t = out16_5 (iblk16 V c 0 t) (iblk16 V c 1 t) (iblk16 V c 2 t) (iblk16 V c 3 t) := by dsimp only [dat16]
theorem after16_6 (c : Dev nD) (t : Fin cfg16.N) : (dat16 V c).after 6 t = out16_6 (iblk16 V c 0 t) (iblk16 V c 1 t) (iblk16 V c 2 t) (iblk16 V c 3 t) := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d

def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d))
    ∗ (∃ d, owns (c : Thread nD τ) (st16_6 t) fullShare ((dat16 V c).before 6 t d)))

def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t)
    ∗ owns (c : Thread nD τ) (st16_6 t) fullShare ((dat16 V c).after 6 t))

theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3]
  rw [show (dat16 V c).Φ t.succ = (dat16 V c).Φ t.castSucc from rfl,
    show (dat16 V c).owesAt () t.succ = (dat16 V c).owesAt () t.castSucc from rfl,
    after16_0, after16_1, after16_2, after16_3, after16_4, after16_5, after16_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel16 c Set.univ _ _ _ _ _ _ _ _ _ _ _ _ _ _ _ (iblk16 V c 0 t) (iblk16 V c 1 t) (iblk16 V c 2 t) (iblk16 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation16 (c : Dev nD) : BodyObligation (dat16 (F := F) V c) (defs₀ (F := F)) Variants.none () Set.univ := fun t => by
  rw [bigSep_W16, bigSep_W16]
  exact sound_body16 V c t

end Cert.KernelIdeal.Hand

end
-- ==== Proof.KI.Reg17.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 17 (cc17__node_update_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- Input window 0's staging buffer holds its block at every point, fetched there or not. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- Input window 1's staging buffer holds its block at every point, fetched there or not. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-- Input window 2's staging buffer holds its block at every point, fetched there or not. -/
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

/-- What the body leaves in output window 3's buffer: its one store, over the input blocks. -/
def out17_3 (x0 : Vec F S5000x64 .f32) (x1 : Vec F S5000x64 .f32) (x2 : Vec F S5000x64 .f32) : Vec F S5000x64 .f32 :=
  View.canon [⟨Rect.unit (s := S5000x64) ![0, 0] S5000x64.size inb_S5000x64_S5000x64_0_0, k17_pay1 (View.ld x2 (Rect.unit (s := S5000x64) ![0, 0] S5000x64.size inb_S5000x64_S5000x64_0_0)) (View.ld x0 (Rect.unit (s := S5000x64) ![0, 0] S5000x64.size inb_S5000x64_S5000x64_0_0)) (View.ld x1 (Rect.unit (s := S5000x64) ![0, 0] S5000x64.size inb_S5000x64_S5000x64_0_0))⟩]

theorem cover17_3 (p0 : Vec F S5000x64 .f32) (y : S5000x64.Idx) :
    ∃ pc ∈ ([⟨Rect.unit (s := S5000x64) ![0, 0] S5000x64.size inb_S5000x64_S5000x64_0_0, p0⟩] : List (View.Piece (Elt F) S5000x64 .f32)), y ∈ pc.1.set :=
  View.cover_of_tiled [⟨Rect.unit (s := S5000x64) ![0, 0] S5000x64.size inb_S5000x64_S5000x64_0_0, p0⟩] S5000x64.size (by rfl) y

set_option maxHeartbeats 4000000 in
/-- The body on whole staging memrefs, the inputs' at read contents and the outputs' at anything, runs to the
    continuation holding the inputs' as they were and each output's at its function of the inputs'. -/
theorem sound_kernel17 (c : Dev nD) (E : Set ℕ) (i : grid17.Coords) (arg0 : Memref sig .tc .vmem S5000x64 .f32) (harg0 : arg0.IsWhole) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole)
    (x0 : Vec F S5000x64 .f32) (x1 : Vec F S5000x64 .f32) (x2 : Vec F S5000x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out17_3 x0 x1 x2)) -∗ K ⟨⟩))
      ⊢ wp frame (wpE (defs₀ (F := F)) Variants.none c none) E (cc17__node_update_kernel i arg0 harg0 arg1 harg1 arg2 harg2 arg3 harg3) K := by
  simp only [cc17__node_update_kernel_eq_skeleton]; unfold cc17__node_update_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover17_3 _)

/-- The proof data of this region on core c: the arrays as the region finds them; after the body at point t each
    input's buffer at its block and each output's at its function of the input blocks; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17_3 (iblk17 V c 0 t) (iblk17 V c 1 t) (iblk17 V c 2 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = out17_3 (iblk17 V c 0 t) (iblk17 V c 1 t) (iblk17 V c 2 t) := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d

def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d)))

def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t))

theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2]
  rw [show (dat17 V c).Φ t.succ = (dat17 V c).Φ t.castSucc from rfl,
    show (dat17 V c).owesAt () t.succ = (dat17 V c).owesAt () t.castSucc from rfl,
    after17_0, after17_1, after17_2, after17_3]
  iintro ⟨HΦ, Ho, ⟨%d0, H0⟩, ⟨%d1, H1⟩, ⟨%d2, H2⟩, ⟨%d3, H3⟩⟩
  iapply (sound_kernel17 c Set.univ _ _ _ _ _ _ _ _ _ (iblk17 V c 0 t) (iblk17 V c 1 t) (iblk17 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation17 (c : Dev nD) : BodyObligation (dat17 (F := F) V c) (defs₀ (F := F)) Variants.none () Set.univ := fun t => by
  rw [bigSep_W17, bigSep_W17]
  exact sound_body17 V c t

end Cert.KernelIdeal.Hand

end
-- ==== Proof.KI.Reg18.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 18 (cc18__bn_relu_residual_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- Input window 0's staging buffer holds its block at every point, fetched there or not. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

/-- Input window 1's staging buffer holds its block at every point, fetched there or not. -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-- Input window 2's staging buffer holds its block at every point, fetched there or not. -/
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)

/-- Input window 3's staging buffer holds its block at every point, fetched there or not. -/
theorem before18_3_of {c : Dev nD} (dat : Dat τ (Elt F) Unit ℕ (UR sig nD τ) ℕ cfg18 c) (hA : dat.A 3 = V c (Pipeline.arrRef spec18 3))
    (hafter : ∀ t, dat.after 3 t = iblk18 V c 3 t) (t : Fin cfg18.N) (d) : dat.before 3 t d = iblk18 V c 3 t :=
  (dat.before_in_eq_fetched 3 rfl (fun _ => rfl) (fun _ _ _ => rfl) (fun t => by rw [hafter]; unfold Dat.blockOf iblk18; rw [hA]; try rfl) t d).trans
    (by unfold Dat.fetched Dat.blockOf iblk18; rw [hA]; try rfl)

/-- Input window 4's staging buffer holds its block at every point, fetched there or not. -/
theorem before18_4_of {c : Dev nD} (dat : Dat τ (Elt F) Unit ℕ (UR sig nD τ) ℕ cfg18 c) (hA : dat.A 4 = V c (Pipeline.arrRef spec18 4))
    (hafter : ∀ t, dat.after 4 t = iblk18 V c 4 t) (t : Fin cfg18.N) (d) : dat.before 4 t d = iblk18 V c 4 t :=
  (dat.before_in_eq_fetched 4 rfl (fun _ => rfl) (fun _ _ _ => rfl) (fun t => by rw [hafter]; unfold Dat.blockOf iblk18; rw [hA]; try rfl) t d).trans
    (by unfold Dat.fetched Dat.blockOf iblk18; rw [hA]; try rfl)

/-- Input window 5's staging buffer holds its block at every point, fetched there or not. -/
theorem before18_5_of {c : Dev nD} (dat : Dat τ (Elt F) Unit ℕ (UR sig nD τ) ℕ cfg18 c) (hA : dat.A 5 = V c (Pipeline.arrRef spec18 5))
    (hafter : ∀ t, dat.after 5 t = iblk18 V c 5 t) (t : Fin cfg18.N) (d) : dat.before 5 t d = iblk18 V c 5 t :=
  (dat.before_in_eq_fetched 5 rfl (fun _ => rfl) (fun _ _ _ => rfl) (fun t => by rw [hafter]; unfold Dat.blockOf iblk18; rw [hA]; try rfl) t d).trans
    (by unfold Dat.fetched Dat.blockOf iblk18; rw [hA]; try rfl)

/-- What the body leaves in output window 6's buffer: its one store, over the input blocks. -/
def out18_6 (x0 : Vec F S5000x64 .f32) (x1 : Vec F S5000x64 .f32) (x2 : Vec F S1x64 .f32) (x3 : Vec F S1x64 .f32) (x4 : Vec F S1x64 .f32) (x5 : Vec F S1x64 .f32) : Vec F S5000x64 .f32 :=
  View.canon [⟨Rect.unit (s := S5000x64) ![0, 0] S5000x64.size inb_S5000x64_S5000x64_0_0, k18_pay1 (View.ld x3 (Rect.unit (s := S1x64) ![0, 0] S1x64.size inb_S1x64_S1x64_0_0)) (View.ld x0 (Rect.unit (s := S5000x64) ![0, 0] S5000x64.size inb_S5000x64_S5000x64_0_0)) (View.ld x2 (Rect.unit (s := S1x64) ![0, 0] S1x64.size inb_S1x64_S1x64_0_0)) (View.ld x4 (Rect.unit (s := S1x64) ![0, 0] S1x64.size inb_S1x64_S1x64_0_0)) (View.ld x5 (Rect.unit (s := S1x64) ![0, 0] S1x64.size inb_S1x64_S1x64_0_0)) (View.ld x1 (Rect.unit (s := S5000x64) ![0, 0] S5000x64.size inb_S5000x64_S5000x64_0_0))⟩]

theorem cover18_6 (p0 : Vec F S5000x64 .f32) (y : S5000x64.Idx) :
    ∃ pc ∈ ([⟨Rect.unit (s := S5000x64) ![0, 0] S5000x64.size inb_S5000x64_S5000x64_0_0, p0⟩] : List (View.Piece (Elt F) S5000x64 .f32)), y ∈ pc.1.set :=
  View.cover_of_tiled [⟨Rect.unit (s := S5000x64) ![0, 0] S5000x64.size inb_S5000x64_S5000x64_0_0, p0⟩] S5000x64.size (by rfl) y

set_option maxHeartbeats 4000000 in
/-- The body on whole staging memrefs, the inputs' at read contents and the outputs' at anything, runs to the
    continuation holding the inputs' as they were and each output's at its function of the inputs'. -/
theorem sound_kernel18 (c : Dev nD) (E : Set ℕ) (i : grid18.Coords) (arg0 : Memref sig .tc .vmem S5000x64 .f32) (harg0 : arg0.IsWhole) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S1x64 .f32) (x3 : Vec F S1x64 .f32) (x4 : Vec F S1x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out18_6 x0 x1 x2 x3 x4 x5)) -∗ K ⟨⟩))
      ⊢ wp frame (wpE (defs₀ (F := F)) Variants.none c none) E (cc18__bn_relu_residual_kernel i arg0 harg0 arg1 harg1 arg2 harg2 arg3 harg3 arg4 harg4 arg5 harg5 arg6 harg6) K := by
  simp only [cc18__bn_relu_residual_kernel_eq_skeleton]; unfold cc18__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover18_6 _)

/-- The proof data of this region on core c: the arrays as the region finds them; after the body at point t each
    input's buffer at its block and each output's at its function of the input blocks; nothing owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => iblk18 V c 3 t
    | ⟨4, _⟩ => iblk18 V c 4 t
    | ⟨5, _⟩ => iblk18 V c 5 t
    | ⟨6, _⟩ => out18_6 (iblk18 V c 0 t) (iblk18 V c 1 t) (iblk18 V c 2 t) (iblk18 V c 3 t) (iblk18 V c 4 t) (iblk18 V c 5 t)
  Φ _ := Pipeline.ΦA spec18 c
  q _ := fullShare
  owed _ := 0

theorem A_eq18 (c : Dev nD) (w : Fin cfg18.W) : (dat18 V c).A w = V c (Pipeline.arrRef spec18 w) := by
  dsimp only [dat18]

theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = iblk18 V c 3 t := by dsimp only [dat18]
theorem after18_4 (c : Dev nD) (t : Fin cfg18.N) : (dat18 V c).after 4 t = iblk18 V c 4 t := by dsimp only [dat18]
theorem after18_5 (c : Dev nD) (t : Fin cfg18.N) : (dat18 V c).after 5 t = iblk18 V c 5 t := by dsimp only [dat18]
theorem after18_6 (c : Dev nD) (t : Fin cfg18.N) : (dat18 V c).after 6 t = out18_6 (iblk18 V c 0 t) (iblk18 V c 1 t) (iblk18 V c 2 t) (iblk18 V c 3 t) (iblk18 V c 4 t) (iblk18 V c 5 t) := by dsimp only [dat18]

theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d
theorem before18_3 (c : Dev nD) (t : Fin cfg18.N) (d) : (dat18 V c).before 3 t d = iblk18 V c 3 t :=
  before18_3_of V (dat18 V c) (A_eq18 V c 3) (after18_3 V c) t d
theorem before18_4 (c : Dev nD) (t : Fin cfg18.N) (d) : (dat18 V c).before 4 t d = iblk18 V c 4 t :=
  before18_4_of V (dat18 V c) (A_eq18 V c 4) (after18_4 V c) t d
theorem before18_5 (c : Dev nD) (t : Fin cfg18.N) (d) : (dat18 V c).before 5 t d = iblk18 V c 5 t :=
  before18_5_of V (dat18 V c) (A_eq18 V c 5) (after18_5 V c) t d

def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d))
    ∗ (∃ d, owns (c : Thread nD τ) (st18_4 t) fullShare ((dat18 V c).before 4 t d))
    ∗ (∃ d, owns (c : Thread nD τ) (st18_5 t) fullShare ((dat18 V c).before 5 t d))
    ∗ (∃ d, owns (c : Thread nD τ) (st18_6 t) fullShare ((dat18 V c).before 6 t d)))

def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t)
    ∗ owns (c : Thread nD τ) (st18_4 t) fullShare ((dat18 V c).after 4 t)
    ∗ owns (c : Thread nD τ) (st18_5 t) fullShare ((dat18 V c).after 5 t)
    ∗ owns (c : Thread nD τ) (st18_6 t) fullShare ((dat18 V c).after 6 t))

theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2, before18_3, before18_4, before18_5]
  rw [show (dat18 V c).Φ t.succ = (dat18 V c).Φ t.castSucc from rfl,
    show (dat18 V c).owesAt () t.succ = (dat18 V c).owesAt () t.castSucc from rfl,
    after18_0, after18_1, after18_2, after18_3, after18_4, after18_5, after18_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel18 c Set.univ _ _ _ _ _ _ _ _ _ _ _ _ _ _ _ (iblk18 V c 0 t) (iblk18 V c 1 t) (iblk18 V c 2 t) (iblk18 V c 3 t) (iblk18 V c 4 t) (iblk18 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation18 (c : Dev nD) : BodyObligation (dat18 (F := F) V c) (defs₀ (F := F)) Variants.none () Set.univ := fun t => by
  rw [bigSep_W18, bigSep_W18]
  exact sound_body18 V c t

end Cert.KernelIdeal.Hand

end
-- ==== Proof.KI.Reg19.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 19 (cc19__bn_relu_residual_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- Input window 0's staging buffer holds its block at every point, fetched there or not. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

/-- Input window 1's staging buffer holds its block at every point, fetched there or not. -/
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

/-- Input window 2's staging buffer holds its block at every point, fetched there or not. -/
theorem before19_2_of {c : Dev nD} (dat : Dat τ (Elt F) Unit ℕ (UR sig nD τ) ℕ cfg19 c) (hA : dat.A 2 = V c (Pipeline.arrRef spec19 2))
    (hafter : ∀ t, dat.after 2 t = iblk19 V c 2 t) (t : Fin cfg19.N) (d) : dat.before 2 t d = iblk19 V c 2 t :=
  (dat.before_in_eq_fetched 2 rfl (fun _ => rfl) (fun _ _ _ => rfl) (fun t => by rw [hafter]; unfold Dat.blockOf iblk19; rw [hA]; try rfl) t d).trans
    (by unfold Dat.fetched Dat.blockOf iblk19; rw [hA]; try rfl)

/-- Input window 3's staging buffer holds its block at every point, fetched there or not. -/
theorem before19_3_of {c : Dev nD} (dat : Dat τ (Elt F) Unit ℕ (UR sig nD τ) ℕ cfg19 c) (hA : dat.A 3 = V c (Pipeline.arrRef spec19 3))
    (hafter : ∀ t, dat.after 3 t = iblk19 V c 3 t) (t : Fin cfg19.N) (d) : dat.before 3 t d = iblk19 V c 3 t :=
  (dat.before_in_eq_fetched 3 rfl (fun _ => rfl) (fun _ _ _ => rfl) (fun t => by rw [hafter]; unfold Dat.blockOf iblk19; rw [hA]; try rfl) t d).trans
    (by unfold Dat.fetched Dat.blockOf iblk19; rw [hA]; try rfl)

/-- Input window 4's staging buffer holds its block at every point, fetched there or not. -/
theorem before19_4_of {c : Dev nD} (dat : Dat τ (Elt F) Unit ℕ (UR sig nD τ) ℕ cfg19 c) (hA : dat.A 4 = V c (Pipeline.arrRef spec19 4))
    (hafter : ∀ t, dat.after 4 t = iblk19 V c 4 t) (t : Fin cfg19.N) (d) : dat.before 4 t d = iblk19 V c 4 t :=
  (dat.before_in_eq_fetched 4 rfl (fun _ => rfl) (fun _ _ _ => rfl) (fun t => by rw [hafter]; unfold Dat.blockOf iblk19; rw [hA]; try rfl) t d).trans
    (by unfold Dat.fetched Dat.blockOf iblk19; rw [hA]; try rfl)

/-- Input window 5's staging buffer holds its block at every point, fetched there or not. -/
theorem before19_5_of {c : Dev nD} (dat : Dat τ (Elt F) Unit ℕ (UR sig nD τ) ℕ cfg19 c) (hA : dat.A 5 = V c (Pipeline.arrRef spec19 5))
    (hafter : ∀ t, dat.after 5 t = iblk19 V c 5 t) (t : Fin cfg19.N) (d) : dat.before 5 t d = iblk19 V c 5 t :=
  (dat.before_in_eq_fetched 5 rfl (fun _ => rfl) (fun _ _ _ => rfl) (fun t => by rw [hafter]; unfold Dat.blockOf iblk19; rw [hA]; try rfl) t d).trans
    (by unfold Dat.fetched Dat.blockOf iblk19; rw [hA]; try rfl)

/-- What the body leaves in output window 6's buffer: its one store, over the input blocks. -/
def out19_6 (x0 : Vec F S4000x64 .f32) (x1 : Vec F S4000x64 .f32) (x2 : Vec F S1x64 .f32) (x3 : Vec F S1x64 .f32) (x4 : Vec F S1x64 .f32) (x5 : Vec F S1x64 .f32) : Vec F S4000x64 .f32 :=
  View.canon [⟨Rect.unit (s := S4000x64) ![0, 0] S4000x64.size inb_S4000x64_S4000x64_0_0, k19_pay1 (View.ld x3 (Rect.unit (s := S1x64) ![0, 0] S1x64.size inb_S1x64_S1x64_0_0)) (View.ld x0 (Rect.unit (s := S4000x64) ![0, 0] S4000x64.size inb_S4000x64_S4000x64_0_0)) (View.ld x2 (Rect.unit (s := S1x64) ![0, 0] S1x64.size inb_S1x64_S1x64_0_0)) (View.ld x4 (Rect.unit (s := S1x64) ![0, 0] S1x64.size inb_S1x64_S1x64_0_0)) (View.ld x5 (Rect.unit (s := S1x64) ![0, 0] S1x64.size inb_S1x64_S1x64_0_0)) (View.ld x1 (Rect.unit (s := S4000x64) ![0, 0] S4000x64.size inb_S4000x64_S4000x64_0_0))⟩]

theorem cover19_6 (p0 : Vec F S4000x64 .f32) (y : S4000x64.Idx) :
    ∃ pc ∈ ([⟨Rect.unit (s := S4000x64) ![0, 0] S4000x64.size inb_S4000x64_S4000x64_0_0, p0⟩] : List (View.Piece (Elt F) S4000x64 .f32)), y ∈ pc.1.set :=
  View.cover_of_tiled [⟨Rect.unit (s := S4000x64) ![0, 0] S4000x64.size inb_S4000x64_S4000x64_0_0, p0⟩] S4000x64.size (by rfl) y

set_option maxHeartbeats 4000000 in
/-- The body on whole staging memrefs, the inputs' at read contents and the outputs' at anything, runs to the
    continuation holding the inputs' as they were and each output's at its function of the inputs'. -/
theorem sound_kernel19 (c : Dev nD) (E : Set ℕ) (i : grid19.Coords) (arg0 : Memref sig .tc .vmem S4000x64 .f32) (harg0 : arg0.IsWhole) (arg1 : Memref sig .tc .vmem S4000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S4000x64 .f32) (harg6 : arg6.IsWhole)
    (x0 : Vec F S4000x64 .f32) (x1 : Vec F S4000x64 .f32) (x2 : Vec F S1x64 .f32) (x3 : Vec F S1x64 .f32) (x4 : Vec F S1x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out19_6 x0 x1 x2 x3 x4 x5)) -∗ K ⟨⟩))
      ⊢ wp frame (wpE (defs₀ (F := F)) Variants.none c none) E (cc19__bn_relu_residual_kernel i arg0 harg0 arg1 harg1 arg2 harg2 arg3 harg3 arg4 harg4 arg5 harg5 arg6 harg6) K := by
  simp only [cc19__bn_relu_residual_kernel_eq_skeleton]; unfold cc19__bn_relu_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover19_6 _)

/-- The proof data of this region on core c: the arrays as the region finds them; after the body at point t each
    input's buffer at its block and each output's at its function of the input blocks; nothing owed; full shares. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => iblk19 V c 3 t
    | ⟨4, _⟩ => iblk19 V c 4 t
    | ⟨5, _⟩ => iblk19 V c 5 t
    | ⟨6, _⟩ => out19_6 (iblk19 V c 0 t) (iblk19 V c 1 t) (iblk19 V c 2 t) (iblk19 V c 3 t) (iblk19 V c 4 t) (iblk19 V c 5 t)
  Φ _ := Pipeline.ΦA spec19 c
  q _ := fullShare
  owed _ := 0

theorem A_eq19 (c : Dev nD) (w : Fin cfg19.W) : (dat19 V c).A w = V c (Pipeline.arrRef spec19 w) := by
  dsimp only [dat19]

theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = iblk19 V c 2 t := by dsimp only [dat19]
theorem after19_3 (c : Dev nD) (t : Fin cfg19.N) : (dat19 V c).after 3 t = iblk19 V c 3 t := by dsimp only [dat19]
theorem after19_4 (c : Dev nD) (t : Fin cfg19.N) : (dat19 V c).after 4 t = iblk19 V c 4 t := by dsimp only [dat19]
theorem after19_5 (c : Dev nD) (t : Fin cfg19.N) : (dat19 V c).after 5 t = iblk19 V c 5 t := by dsimp only [dat19]
theorem after19_6 (c : Dev nD) (t : Fin cfg19.N) : (dat19 V c).after 6 t = out19_6 (iblk19 V c 0 t) (iblk19 V c 1 t) (iblk19 V c 2 t) (iblk19 V c 3 t) (iblk19 V c 4 t) (iblk19 V c 5 t) := by dsimp only [dat19]

theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d
theorem before19_2 (c : Dev nD) (t : Fin cfg19.N) (d) : (dat19 V c).before 2 t d = iblk19 V c 2 t :=
  before19_2_of V (dat19 V c) (A_eq19 V c 2) (after19_2 V c) t d
theorem before19_3 (c : Dev nD) (t : Fin cfg19.N) (d) : (dat19 V c).before 3 t d = iblk19 V c 3 t :=
  before19_3_of V (dat19 V c) (A_eq19 V c 3) (after19_3 V c) t d
theorem before19_4 (c : Dev nD) (t : Fin cfg19.N) (d) : (dat19 V c).before 4 t d = iblk19 V c 4 t :=
  before19_4_of V (dat19 V c) (A_eq19 V c 4) (after19_4 V c) t d
theorem before19_5 (c : Dev nD) (t : Fin cfg19.N) (d) : (dat19 V c).before 5 t d = iblk19 V c 5 t :=
  before19_5_of V (dat19 V c) (A_eq19 V c 5) (after19_5 V c) t d

def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d))
    ∗ (∃ d, owns (c : Thread nD τ) (st19_3 t) fullShare ((dat19 V c).before 3 t d))
    ∗ (∃ d, owns (c : Thread nD τ) (st19_4 t) fullShare ((dat19 V c).before 4 t d))
    ∗ (∃ d, owns (c : Thread nD τ) (st19_5 t) fullShare ((dat19 V c).before 5 t d))
    ∗ (∃ d, owns (c : Thread nD τ) (st19_6 t) fullShare ((dat19 V c).before 6 t d)))

def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t)
    ∗ owns (c : Thread nD τ) (st19_3 t) fullShare ((dat19 V c).after 3 t)
    ∗ owns (c : Thread nD τ) (st19_4 t) fullShare ((dat19 V c).after 4 t)
    ∗ owns (c : Thread nD τ) (st19_5 t) fullShare ((dat19 V c).after 5 t)
    ∗ owns (c : Thread nD τ) (st19_6 t) fullShare ((dat19 V c).after 6 t))

theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1, before19_2, before19_3, before19_4, before19_5]
  rw [show (dat19 V c).Φ t.succ = (dat19 V c).Φ t.castSucc from rfl,
    show (dat19 V c).owesAt () t.succ = (dat19 V c).owesAt () t.castSucc from rfl,
    after19_0, after19_1, after19_2, after19_3, after19_4, after19_5, after19_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel19 c Set.univ _ _ _ _ _ _ _ _ _ _ _ _ _ _ _ (iblk19 V c 0 t) (iblk19 V c 1 t) (iblk19 V c 2 t) (iblk19 V c 3 t) (iblk19 V c 4 t) (iblk19 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation19 (c : Dev nD) : BodyObligation (dat19 (F := F) V c) (defs₀ (F := F)) Variants.none () Set.univ := fun t => by
  rw [bigSep_W19, bigSep_W19]
  exact sound_body19 V c t

end Cert.KernelIdeal.Hand

end
-- ==== Proof.KI.Reg20.lean ====
import proofs.«431450_j74423193305350_1_alg».proof.Proof.Gen.KernelIdeal.Launch
import proofs.«431450_j74423193305350_1_alg».proof.Proof.Gen.KernelIdeal.Skeleton
import proofs.«431450_j74423193305350_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 20 (cc20__mlp_kernel) at the contents V its arrays hold when it is entered: what each output window's
    buffer holds after the body as a function of the input windows' blocks, the body's triple, the proof data
    (arrays at V, each input left as found, each output at that function) and the body obligation at every point. -/
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- Input window 0's staging buffer holds its block at every point, fetched there or not. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

/-- Input window 1's staging buffer holds its block at every point, fetched there or not. -/
theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

/-- Input window 2's staging buffer holds its block at every point, fetched there or not. -/
theorem before20_2_of {c : Dev nD} (dat : Dat τ (Elt F) Unit ℕ (UR sig nD τ) ℕ cfg20 c) (hA : dat.A 2 = V c (Pipeline.arrRef spec20 2))
    (hafter : ∀ t, dat.after 2 t = iblk20 V c 2 t) (t : Fin cfg20.N) (d) : dat.before 2 t d = iblk20 V c 2 t :=
  (dat.before_in_eq_fetched 2 rfl (fun _ => rfl) (fun _ _ _ => rfl) (fun t => by rw [hafter]; unfold Dat.blockOf iblk20; rw [hA]; try rfl) t d).trans
    (by unfold Dat.fetched Dat.blockOf iblk20; rw [hA]; try rfl)

/-- Input window 3's staging buffer holds its block at every point, fetched there or not. -/
theorem before20_3_of {c : Dev nD} (dat : Dat τ (Elt F) Unit ℕ (UR sig nD τ) ℕ cfg20 c) (hA : dat.A 3 = V c (Pipeline.arrRef spec20 3))
    (hafter : ∀ t, dat.after 3 t = iblk20 V c 3 t) (t : Fin cfg20.N) (d) : dat.before 3 t d = iblk20 V c 3 t :=
  (dat.before_in_eq_fetched 3 rfl (fun _ => rfl) (fun _ _ _ => rfl) (fun t => by rw [hafter]; unfold Dat.blockOf iblk20; rw [hA]; try rfl) t d).trans
    (by unfold Dat.fetched Dat.blockOf iblk20; rw [hA]; try rfl)

/-- Input window 4's staging buffer holds its block at every point, fetched there or not. -/
theorem before20_4_of {c : Dev nD} (dat : Dat τ (Elt F) Unit ℕ (UR sig nD τ) ℕ cfg20 c) (hA : dat.A 4 = V c (Pipeline.arrRef spec20 4))
    (hafter : ∀ t, dat.after 4 t = iblk20 V c 4 t) (t : Fin cfg20.N) (d) : dat.before 4 t d = iblk20 V c 4 t :=
  (dat.before_in_eq_fetched 4 rfl (fun _ => rfl) (fun _ _ _ => rfl) (fun t => by rw [hafter]; unfold Dat.blockOf iblk20; rw [hA]; try rfl) t d).trans
    (by unfold Dat.fetched Dat.blockOf iblk20; rw [hA]; try rfl)

/-- Input window 5's staging buffer holds its block at every point, fetched there or not. -/
theorem before20_5_of {c : Dev nD} (dat : Dat τ (Elt F) Unit ℕ (UR sig nD τ) ℕ cfg20 c) (hA : dat.A 5 = V c (Pipeline.arrRef spec20 5))
    (hafter : ∀ t, dat.after 5 t = iblk20 V c 5 t) (t : Fin cfg20.N) (d) : dat.before 5 t d = iblk20 V c 5 t :=
  (dat.before_in_eq_fetched 5 rfl (fun _ => rfl) (fun _ _ _ => rfl) (fun t => by rw [hafter]; unfold Dat.blockOf iblk20; rw [hA]; try rfl) t d).trans
    (by unfold Dat.fetched Dat.blockOf iblk20; rw [hA]; try rfl)

/-- Input window 6's staging buffer holds its block at every point, fetched there or not. -/
theorem before20_6_of {c : Dev nD} (dat : Dat τ (Elt F) Unit ℕ (UR sig nD τ) ℕ cfg20 c) (hA : dat.A 6 = V c (Pipeline.arrRef spec20 6))
    (hafter : ∀ t, dat.after 6 t = iblk20 V c 6 t) (t : Fin cfg20.N) (d) : dat.before 6 t d = iblk20 V c 6 t :=
  (dat.before_in_eq_fetched 6 rfl (fun _ => rfl) (fun _ _ _ => rfl) (fun t => by rw [hafter]; unfold Dat.blockOf iblk20; rw [hA]; try rfl) t d).trans
    (by unfold Dat.fetched Dat.blockOf iblk20; rw [hA]; try rfl)

/-- What the body leaves in output window 7's buffer: its one store, over the input blocks. -/
def out20_7 (x0 : Vec F S16x68 .f32) (x1 : Vec F S68x256 .f32) (x2 : Vec F S1x256 .f32) (x3 : Vec F S256x256 .f32) (x4 : Vec F S1x256 .f32) (x5 : Vec F S256x2 .f32) (x6 : Vec F S1x2 .f32) : Vec F S16x2 .f32 :=
  View.canon [⟨Rect.unit (s := S16x2) ![0, 0] S16x2.size inb_S16x2_S16x2_0_0, k20_pay1 (View.ld x0 (Rect.unit (s := S16x68) ![0, 0] S16x68.size inb_S16x68_S16x68_0_0)) (View.ld x1 (Rect.unit (s := S68x256) ![0, 0] S68x256.size inb_S68x256_S68x256_0_0)) (View.ld x2 (Rect.unit (s := S1x256) ![0, 0] S1x256.size inb_S1x256_S1x256_0_0)) (View.ld x3 (Rect.unit (s := S256x256) ![0, 0] S256x256.size inb_S256x256_S256x256_0_0)) (View.ld x4 (Rect.unit (s := S1x256) ![0, 0] S1x256.size inb_S1x256_S1x256_0_0)) (View.ld x5 (Rect.unit (s := S256x2) ![0, 0] S256x2.size inb_S256x2_S256x2_0_0)) (View.ld x6 (Rect.unit (s := S1x2) ![0, 0] S1x2.size inb_S1x2_S1x2_0_0))⟩]

theorem cover20_7 (p0 : Vec F S16x2 .f32) (y : S16x2.Idx) :
    ∃ pc ∈ ([⟨Rect.unit (s := S16x2) ![0, 0] S16x2.size inb_S16x2_S16x2_0_0, p0⟩] : List (View.Piece (Elt F) S16x2 .f32)), y ∈ pc.1.set :=
  View.cover_of_tiled [⟨Rect.unit (s := S16x2) ![0, 0] S16x2.size inb_S16x2_S16x2_0_0, p0⟩] S16x2.size (by rfl) y

set_option maxHeartbeats 4000000 in
/-- The body on whole staging memrefs, the inputs' at read contents and the outputs' at anything, runs to the
    continuation holding the inputs' as they were and each output's at its function of the inputs'. -/
theorem sound_kernel20 (c : Dev nD) (E : Set ℕ) (i : grid20.Coords) (arg0 : Memref sig .tc .vmem S16x68 .f32) (harg0 : arg0.IsWhole) (arg1 : Memref sig .tc .vmem S68x256 .f32) (harg1 : arg1.IsWhole) (arg2 : Memref sig .tc .vmem S1x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x2 .f32) (harg5 : arg5.IsWhole) (arg6 : Memref sig .tc .vmem S1x2 .f32) (harg6 : arg6.IsWhole) (arg7 : Memref sig .tc .vmem S16x2 .f32) (harg7 : arg7.IsWhole)
    (x0 : Vec F S16x68 .f32) (x1 : Vec F S68x256 .f32) (x2 : Vec F S1x256 .f32) (x3 : Vec F S256x256 .f32) (x4 : Vec F S1x256 .f32) (x5 : Vec F S256x2 .f32) (x6 : Vec F S1x2 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out20_7 x0 x1 x2 x3 x4 x5 x6)) -∗ K ⟨⟩))
      ⊢ wp frame (wpE (defs₀ (F := F)) Variants.none c none) E (cc20__mlp_kernel i arg0 harg0 arg1 harg1 arg2 harg2 arg3 harg3 arg4 harg4 arg5 harg5 arg6 harg6 arg7 harg7) K := by
  simp only [cc20__mlp_kernel_eq_skeleton]; unfold cc20__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover20_7 _)

/-- The proof data of this region on core c: the arrays as the region finds them; after the body at point t each
    input's buffer at its block and each output's at its function of the input blocks; nothing owed; full shares. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => iblk20 V c 2 t
    | ⟨3, _⟩ => iblk20 V c 3 t
    | ⟨4, _⟩ => iblk20 V c 4 t
    | ⟨5, _⟩ => iblk20 V c 5 t
    | ⟨6, _⟩ => iblk20 V c 6 t
    | ⟨7, _⟩ => out20_7 (iblk20 V c 0 t) (iblk20 V c 1 t) (iblk20 V c 2 t) (iblk20 V c 3 t) (iblk20 V c 4 t) (iblk20 V c 5 t) (iblk20 V c 6 t)
  Φ _ := Pipeline.ΦA spec20 c
  q _ := fullShare
  owed _ := 0

theorem A_eq20 (c : Dev nD) (w : Fin cfg20.W) : (dat20 V c).A w = V c (Pipeline.arrRef spec20 w) := by
  dsimp only [dat20]

theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = iblk20 V c 2 t := by dsimp only [dat20]
theorem after20_3 (c : Dev nD) (t : Fin cfg20.N) : (dat20 V c).after 3 t = iblk20 V c 3 t := by dsimp only [dat20]
theorem after20_4 (c : Dev nD) (t : Fin cfg20.N) : (dat20 V c).after 4 t = iblk20 V c 4 t := by dsimp only [dat20]
theorem after20_5 (c : Dev nD) (t : Fin cfg20.N) : (dat20 V c).after 5 t = iblk20 V c 5 t := by dsimp only [dat20]
theorem after20_6 (c : Dev nD) (t : Fin cfg20.N) : (dat20 V c).after 6 t = iblk20 V c 6 t := by dsimp only [dat20]
theorem after20_7 (c : Dev nD) (t : Fin cfg20.N) : (dat20 V c).after 7 t = out20_7 (iblk20 V c 0 t) (iblk20 V c 1 t) (iblk20 V c 2 t) (iblk20 V c 3 t) (iblk20 V c 4 t) (iblk20 V c 5 t) (iblk20 V c 6 t) := by dsimp only [dat20]

theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d
theorem before20_2 (c : Dev nD) (t : Fin cfg20.N) (d) : (dat20 V c).before 2 t d = iblk20 V c 2 t :=
  before20_2_of V (dat20 V c) (A_eq20 V c 2) (after20_2 V c) t d
theorem before20_3 (c : Dev nD) (t : Fin cfg20.N) (d) : (dat20 V c).before 3 t d = iblk20 V c 3 t :=
  before20_3_of V (dat20 V c) (A_eq20 V c 3) (after20_3 V c) t d
theorem before20_4 (c : Dev nD) (t : Fin cfg20.N) (d) : (dat20 V c).before 4 t d = iblk20 V c 4 t :=
  before20_4_of V (dat20 V c) (A_eq20 V c 4) (after20_4 V c) t d
theorem before20_5 (c : Dev nD) (t : Fin cfg20.N) (d) : (dat20 V c).before 5 t d = iblk20 V c 5 t :=
  before20_5_of V (dat20 V c) (A_eq20 V c 5) (after20_5 V c) t d
theorem before20_6 (c : Dev nD) (t : Fin cfg20.N) (d) : (dat20 V c).before 6 t d = iblk20 V c 6 t :=
  before20_6_of V (dat20 V c) (A_eq20 V c 6) (after20_6 V c) t d

def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d))
    ∗ (∃ d, owns (c : Thread nD τ) (st20_3 t) fullShare ((dat20 V c).before 3 t d))
    ∗ (∃ d, owns (c : Thread nD τ) (st20_4 t) fullShare ((dat20 V c).before 4 t d))
    ∗ (∃ d, owns (c : Thread nD τ) (st20_5 t) fullShare ((dat20 V c).before 5 t d))
    ∗ (∃ d, owns (c : Thread nD τ) (st20_6 t) fullShare ((dat20 V c).before 6 t d))
    ∗ (∃ d, owns (c : Thread nD τ) (st20_7 t) fullShare ((dat20 V c).before 7 t d)))

def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t)
    ∗ owns (c : Thread nD τ) (st20_3 t) fullShare ((dat20 V c).after 3 t)
    ∗ owns (c : Thread nD τ) (st20_4 t) fullShare ((dat20 V c).after 4 t)
    ∗ owns (c : Thread nD τ) (st20_5 t) fullShare ((dat20 V c).after 5 t)
    ∗ owns (c : Thread nD τ) (st20_6 t) fullShare ((dat20 V c).after 6 t)
    ∗ owns (c : Thread nD τ) (st20_7 t) fullShare ((dat20 V c).after 7 t))

theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1, before20_2, before20_3, before20_4, before20_5, before20_6]
  rw [show (dat20 V c).Φ t.succ = (dat20 V c).Φ t.castSucc from rfl,
    show (dat20 V c).owesAt () t.succ = (dat20 V c).owesAt () t.castSucc from rfl,
    after20_0, after20_1, after20_2, after20_3, after20_4, after20_5, after20_6, after20_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel20 c Set.univ _ _ _ _ _ _ _ _ _ _ _ _ _ _ _ _ _ (iblk20 V c 0 t) (iblk20 V c 1 t) (iblk20 V c 2 t) (iblk20 V c 3 t) (iblk20 V c 4 t) (iblk20 V c 5 t) (iblk20 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation20 (c : Dev nD) : BodyObligation (dat20 (F := F) V c) (defs₀ (F := F)) Variants.none () Set.univ := fun t => by
  rw [bigSep_W20, bigSep_W20]
  exact sound_body20 V c t

end Cert.KernelIdeal.Hand

end
-- ==== Proof.KI.Fold.lean ====
import proofs.«431450_j74423193305350_1_alg».proof.Proof.KI.RegionsP
import proofs.«431450_j74423193305350_1_alg».proof.Proof.KI.Reg0
import proofs.«431450_j74423193305350_1_alg».proof.Proof.KI.Reg1
import proofs.«431450_j74423193305350_1_alg».proof.Proof.KI.Reg2
import proofs.«431450_j74423193305350_1_alg».proof.Proof.KI.Reg3
import proofs.«431450_j74423193305350_1_alg».proof.Proof.KI.Reg4
import proofs.«431450_j74423193305350_1_alg».proof.Proof.KI.Reg5
import proofs.«431450_j74423193305350_1_alg».proof.Proof.KI.Reg6
import proofs.«431450_j74423193305350_1_alg».proof.Proof.KI.Reg7
import proofs.«431450_j74423193305350_1_alg».proof.Proof.KI.Reg8
import proofs.«431450_j74423193305350_1_alg».proof.Proof.KI.Reg9
import proofs.«431450_j74423193305350_1_alg».proof.Proof.KI.Reg10
import proofs.«431450_j74423193305350_1_alg».proof.Proof.KI.Reg11
import proofs.«431450_j74423193305350_1_alg».proof.Proof.KI.Reg12
import proofs.«431450_j74423193305350_1_alg».proof.Proof.KI.Reg13
import proofs.«431450_j74423193305350_1_alg».proof.Proof.KI.Reg14
import proofs.«431450_j74423193305350_1_alg».proof.Proof.KI.Reg15
import proofs.«431450_j74423193305350_1_alg».proof.Proof.KI.Reg16
import proofs.«431450_j74423193305350_1_alg».proof.Proof.KI.Reg17
import proofs.«431450_j74423193305350_1_alg».proof.Proof.KI.Reg18
import proofs.«431450_j74423193305350_1_alg».proof.Proof.KI.Reg19
import proofs.«431450_j74423193305350_1_alg».proof.Proof.KI.Reg20

/-! The run of @main: the contents of every unscoped buffer at each item boundary (a host stretch applies its
    operations; a region replaces each of its output arrays by what its write-backs leave), each region as a segment
    entered from one boundary's contents and left at the next, and the launch: every weakly fair execution ends with
    every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 (c : Dev nD) : Valuation τ sig (Elt F) := fun b => m (c, b)
abbrev T0 : (c : Dev nD) → (b : Ref sig .tc) → Buf (Elt F) ((c : Thread nD τ).loc b) := fun c b => W0 m c b
/-- After the host stretch hostOps0. -/
def W1 (c : Dev nD) : Valuation τ sig (Elt F) := StableHlo.after hostOps0 (W0 m c)
abbrev T1 : (c : Dev nD) → (b : Ref sig .tc) → Buf (Elt F) ((c : Thread nD τ).loc b) := fun c b => W1 m c b
/-- After region 0: each of its output arrays at what its write-backs leave, every other buffer as entered. -/
def W2 (c : Dev nD) : Valuation τ sig (Elt F) := Function.update (W1 m c) (Proc.devRef .tc (Pipeline.arrRef spec0 3)) ((dat0 (T1 m) c).arrAt 3 cfg0.N)
abbrev T2 : (c : Dev nD) → (b : Ref sig .tc) → Buf (Elt F) ((c : Thread nD τ).loc b) := fun c b => W2 m c b
/-- After the host stretch hostOps1. -/
def W3 (c : Dev nD) : Valuation τ sig (Elt F) := StableHlo.after hostOps1 (W2 m c)
abbrev T3 : (c : Dev nD) → (b : Ref sig .tc) → Buf (Elt F) ((c : Thread nD τ).loc b) := fun c b => W3 m c b
/-- After region 1: each of its output arrays at what its write-backs leave, every other buffer as entered. -/
def W4 (c : Dev nD) : Valuation τ sig (Elt F) := Function.update (W3 m c) (Proc.devRef .tc (Pipeline.arrRef spec1 3)) ((dat1 (T3 m) c).arrAt 3 cfg1.N)
abbrev T4 : (c : Dev nD) → (b : Ref sig .tc) → Buf (Elt F) ((c : Thread nD τ).loc b) := fun c b => W4 m c b
/-- After the host stretch hostOps2. -/
def W5 (c : Dev nD) : Valuation τ sig (Elt F) := StableHlo.after hostOps2 (W4 m c)
abbrev T5 : (c : Dev nD) → (b : Ref sig .tc) → Buf (Elt F) ((c : Thread nD τ).loc b) := fun c b => W5 m c b
/-- After region 2: each of its output arrays at what its write-backs leave, every other buffer as entered. -/
def W6 (c : Dev nD) : Valuation τ sig (Elt F) := Function.update (W5 m c) (Proc.devRef .tc (Pipeline.arrRef spec2 3)) ((dat2 (T5 m) c).arrAt 3 cfg2.N)
abbrev T6 : (c : Dev nD) → (b : Ref sig .tc) → Buf (Elt F) ((c : Thread nD τ).loc b) := fun c b => W6 m c b
/-- After the host stretch hostOps3. -/
def W7 (c : Dev nD) : Valuation τ sig (Elt F) := StableHlo.after hostOps3 (W6 m c)
abbrev T7 : (c : Dev nD) → (b : Ref sig .tc) → Buf (Elt F) ((c : Thread nD τ).loc b) := fun c b => W7 m c b
/-- After region 3: each of its output arrays at what its write-backs leave, every other buffer as entered. -/
def W8 (c : Dev nD) : Valuation τ sig (Elt F) := Function.update (W7 m c) (Proc.devRef .tc (Pipeline.arrRef spec3 3)) ((dat3 (T7 m) c).arrAt 3 cfg3.N)
abbrev T8 : (c : Dev nD) → (b : Ref sig .tc) → Buf (Elt F) ((c : Thread nD τ).loc b) := fun c b => W8 m c b
/-- After the host stretch hostOps4. -/
def W9 (c : Dev nD) : Valuation τ sig (Elt F) := StableHlo.after hostOps4 (W8 m c)
abbrev T9 : (c : Dev nD) → (b : Ref sig .tc) → Buf (Elt F) ((c : Thread nD τ).loc b) := fun c b => W9 m c b
/-- After the host stretch hostOps4_1. -/
def W10 (c : Dev nD) : Valuation τ sig (Elt F) := StableHlo.after hostOps4_1 (W9 m c)
abbrev T10 : (c : Dev nD) → (b : Ref sig .tc) → Buf (Elt F) ((c : Thread nD τ).loc b) := fun c b => W10 m c b
/-- After the host stretch hostOps4_2. -/
def W11 (c : Dev nD) : Valuation τ sig (Elt F) := StableHlo.after hostOps4_2 (W10 m c)
abbrev T11 : (c : Dev nD) → (b : Ref sig .tc) → Buf (Elt F) ((c : Thread nD τ).loc b) := fun c b => W11 m c b
/-- After region 4: each of its output arrays at what its write-backs leave, every other buffer as entered. -/
def W12 (c : Dev nD) : Valuation τ sig (Elt F) := Function.update (Function.update (Function.update (W11 m c) (Proc.devRef .tc (Pipeline.arrRef spec4 4)) ((dat4 (T11 m) c).arrAt 4 cfg4.N)) (Proc.devRef .tc (Pipeline.arrRef spec4 5)) ((dat4 (T11 m) c).arrAt 5 cfg4.N)) (Proc.devRef .tc (Pipeline.arrRef spec4 6)) ((dat4 (T11 m) c).arrAt 6 cfg4.N)
abbrev T12 : (c : Dev nD) → (b : Ref sig .tc) → Buf (Elt F) ((c : Thread nD τ).loc b) := fun c b => W12 m c b
/-- After the host stretch hostOps5. -/
def W13 (c : Dev nD) : Valuation τ sig (Elt F) := StableHlo.after hostOps5 (W12 m c)
abbrev T13 : (c : Dev nD) → (b : Ref sig .tc) → Buf (Elt F) ((c : Thread nD τ).loc b) := fun c b => W13 m c b
/-- After region 5: each of its output arrays at what its write-backs leave, every other buffer as entered. -/
def W14 (c : Dev nD) : Valuation τ sig (Elt F) := Function.update (W13 m c) (Proc.devRef .tc (Pipeline.arrRef spec5 3)) ((dat5 (T13 m) c).arrAt 3 cfg5.N)
abbrev T14 : (c : Dev nD) → (b : Ref sig .tc) → Buf (Elt F) ((c : Thread nD τ).loc b) := fun c b => W14 m c b
/-- After the host stretch hostOps6. -/
def W15 (c : Dev nD) : Valuation τ sig (Elt F) := StableHlo.after hostOps6 (W14 m c)
abbrev T15 : (c : Dev nD) → (b : Ref sig .tc) → Buf (Elt F) ((c : Thread nD τ).loc b) := fun c b => W15 m c b
/-- After the host stretch hostOps6_1. -/
def W16 (c : Dev nD) : Valuation τ sig (Elt F) := StableHlo.after hostOps6_1 (W15 m c)
abbrev T16 : (c : Dev nD) → (b : Ref sig .tc) → Buf (Elt F) ((c : Thread nD τ).loc b) := fun c b => W16 m c b
/-- After the host stretch hostOps6_2. -/
def W17 (c : Dev nD) : Valuation τ sig (Elt F) := StableHlo.after hostOps6_2 (W16 m c)
abbrev T17 : (c : Dev nD) → (b : Ref sig .tc) → Buf (Elt F) ((c : Thread nD τ).loc b) := fun c b => W17 m c b
/-- After region 6: each of its output arrays at what its write-backs leave, every other buffer as entered. -/
def W18 (c : Dev nD) : Valuation τ sig (Elt F) := Function.update (W17 m c) (Proc.devRef .tc (Pipeline.arrRef spec6 6)) ((dat6 (T17 m) c).arrAt 6 cfg6.N)
abbrev T18 : (c : Dev nD) → (b : Ref sig .tc) → Buf (Elt F) ((c : Thread nD τ).loc b) := fun c b => W18 m c b
/-- After the host stretch hostOps7. -/
def W19 (c : Dev nD) : Valuation τ sig (Elt F) := StableHlo.after hostOps7 (W18 m c)
abbrev T19 : (c : Dev nD) → (b : Ref sig .tc) → Buf (Elt F) ((c : Thread nD τ).loc b) := fun c b => W19 m c b
/-- After the host stretch hostOps7_1. -/
def W20 (c : Dev nD) : Valuation τ sig (Elt F) := StableHlo.after hostOps7_1 (W19 m c)
abbrev T20 : (c : Dev nD) → (b : Ref sig .tc) → Buf (Elt F) ((c : Thread nD τ).loc b) := fun c b => W20 m c b
/-- After the host stretch hostOps7_2. -/
def W21 (c : Dev nD) : Valuation τ sig (Elt F) := StableHlo.after hostOps7_2 (W20 m c)
abbrev T21 : (c : Dev nD) → (b : Ref sig .tc) → Buf (Elt F) ((c : Thread nD τ).loc b) := fun c b => W21 m c b
/-- After region 7: each of its output arrays at what its write-backs leave, every other buffer as entered. -/
def W22 (c : Dev nD) : Valuation τ sig (Elt F) := Function.update (W21 m c) (Proc.devRef .tc (Pipeline.arrRef spec7 6)) ((dat7 (T21 m) c).arrAt 6 cfg7.N)
abbrev T22 : (c : Dev nD) → (b : Ref sig .tc) → Buf (Elt F) ((c : Thread nD τ).loc b) := fun c b => W22 m c b
/-- After the host stretch hostOps8. -/
def W23 (c : Dev nD) : Valuation τ sig (Elt F) := StableHlo.after hostOps8 (W22 m c)
abbrev T23 : (c : Dev nD) → (b : Ref sig .tc) → Buf (Elt F) ((c : Thread nD τ).loc b) := fun c b => W23 m c b
/-- After region 8: each of its output arrays at what its write-backs leave, every other buffer as entered. -/
def W24 (c : Dev nD) : Valuation τ sig (Elt F) := Function.update (W23 m c) (Proc.devRef .tc (Pipeline.arrRef spec8 3)) ((dat8 (T23 m) c).arrAt 3 cfg8.N)
abbrev T24 : (c : Dev nD) → (b : Ref sig .tc) → Buf (Elt F) ((c : Thread nD τ).loc b) := fun c b => W24 m c b
/-- After the host stretch hostOps9. -/
def W25 (c : Dev nD) : Valuation τ sig (Elt F) := StableHlo.after hostOps9 (W24 m c)
abbrev T25 : (c : Dev nD) → (b : Ref sig .tc) → Buf (Elt F) ((c : Thread nD τ).loc b) := fun c b => W25 m c b
/-- After region 9: each of its output arrays at what its write-backs leave, every other buffer as entered. -/
def W26 (c : Dev nD) : Valuation τ sig (Elt F) := Function.update (W25 m c) (Proc.devRef .tc (Pipeline.arrRef spec9 3)) ((dat9 (T25 m) c).arrAt 3 cfg9.N)
abbrev T26 : (c : Dev nD) → (b : Ref sig .tc) → Buf (Elt F) ((c : Thread nD τ).loc b) := fun c b => W26 m c b
/-- After the host stretch hostOps10. -/
def W27 (c : Dev nD) : Valuation τ sig (Elt F) := StableHlo.after hostOps10 (W26 m c)
abbrev T27 : (c : Dev nD) → (b : Ref sig .tc) → Buf (Elt F) ((c : Thread nD τ).loc b) := fun c b => W27 m c b
/-- After the host stretch hostOps10_1. -/
def W28 (c : Dev nD) : Valuation τ sig (Elt F) := StableHlo.after hostOps10_1 (W27 m c)
abbrev T28 : (c : Dev nD) → (b : Ref sig .tc) → Buf (Elt F) ((c : Thread nD τ).loc b) := fun c b => W28 m c b
/-- After the host stretch hostOps10_2. -/
def W29 (c : Dev nD) : Valuation τ sig (Elt F) := StableHlo.after hostOps10_2 (W28 m c)
abbrev T29 : (c : Dev nD) → (b : Ref sig .tc) → Buf (Elt F) ((c : Thread nD τ).loc b) := fun c b => W29 m c b
/-- After region 10: each of its output arrays at what its write-backs leave, every other buffer as entered. -/
def W30 (c : Dev nD) : Valuation τ sig (Elt F) := Function.update (Function.update (Function.update (W29 m c) (Proc.devRef .tc (Pipeline.arrRef spec10 4)) ((dat10 (T29 m) c).arrAt 4 cfg10.N)) (Proc.devRef .tc (Pipeline.arrRef spec10 5)) ((dat10 (T29 m) c).arrAt 5 cfg10.N)) (Proc.devRef .tc (Pipeline.arrRef spec10 6)) ((dat10 (T29 m) c).arrAt 6 cfg10.N)
abbrev T30 : (c : Dev nD) → (b : Ref sig .tc) → Buf (Elt F) ((c : Thread nD τ).loc b) := fun c b => W30 m c b
/-- After the host stretch hostOps11. -/
def W31 (c : Dev nD) : Valuation τ sig (Elt F) := StableHlo.after hostOps11 (W30 m c)
abbrev T31 : (c : Dev nD) → (b : Ref sig .tc) → Buf (Elt F) ((c : Thread nD τ).loc b) := fun c b => W31 m c b
/-- After region 11: each of its output arrays at what its write-backs leave, every other buffer as entered. -/
def W32 (c : Dev nD) : Valuation τ sig (Elt F) := Function.update (W31 m c) (Proc.devRef .tc (Pipeline.arrRef spec11 3)) ((dat11 (T31 m) c).arrAt 3 cfg11.N)
abbrev T32 : (c : Dev nD) → (b : Ref sig .tc) → Buf (Elt F) ((c : Thread nD τ).loc b) := fun c b => W32 m c b
/-- After the host stretch hostOps12. -/
def W33 (c : Dev nD) : Valuation τ sig (Elt F) := StableHlo.after hostOps12 (W32 m c)
abbrev T33 : (c : Dev nD) → (b : Ref sig .tc) → Buf (Elt F) ((c : Thread nD τ).loc b) := fun c b => W33 m c b
/-- After the host stretch hostOps12_1. -/
def W34 (c : Dev nD) : Valuation τ sig (Elt F) := StableHlo.after hostOps12_1 (W33 m c)
abbrev T34 : (c : Dev nD) → (b : Ref sig .tc) → Buf (Elt F) ((c : Thread nD τ).loc b) := fun c b => W34 m c b
/-- After the host stretch hostOps12_2. -/
def W35 (c : Dev nD) : Valuation τ sig (Elt F) := StableHlo.after hostOps12_2 (W34 m c)
abbrev T35 : (c : Dev nD) → (b : Ref sig .tc) → Buf (Elt F) ((c : Thread nD τ).loc b) := fun c b => W35 m c b
/-- After region 12: each of its output arrays at what its write-backs leave, every other buffer as entered. -/
def W36 (c : Dev nD) : Valuation τ sig (Elt F) := Function.update (W35 m c) (Proc.devRef .tc (Pipeline.arrRef spec12 6)) ((dat12 (T35 m) c).arrAt 6 cfg12.N)
abbrev T36 : (c : Dev nD) → (b : Ref sig .tc) → Buf (Elt F) ((c : Thread nD τ).loc b) := fun c b => W36 m c b
/-- After the host stretch hostOps13. -/
def W37 (c : Dev nD) : Valuation τ sig (Elt F) := StableHlo.after hostOps13 (W36 m c)
abbrev T37 : (c : Dev nD) → (b : Ref sig .tc) → Buf (Elt F) ((c : Thread nD τ).loc b) := fun c b => W37 m c b
/-- After the host stretch hostOps13_1. -/
def W38 (c : Dev nD) : Valuation τ sig (Elt F) := StableHlo.after hostOps13_1 (W37 m c)
abbrev T38 : (c : Dev nD) → (b : Ref sig .tc) → Buf (Elt F) ((c : Thread nD τ).loc b) := fun c b => W38 m c b
/-- After the host stretch hostOps13_2. -/
def W39 (c : Dev nD) : Valuation τ sig (Elt F) := StableHlo.after hostOps13_2 (W38 m c)
abbrev T39 : (c : Dev nD) → (b : Ref sig .tc) → Buf (Elt F) ((c : Thread nD τ).loc b) := fun c b => W39 m c b
/-- After region 13: each of its output arrays at what its write-backs leave, every other buffer as entered. -/
def W40 (c : Dev nD) : Valuation τ sig (Elt F) := Function.update (W39 m c) (Proc.devRef .tc (Pipeline.arrRef spec13 6)) ((dat13 (T39 m) c).arrAt 6 cfg13.N)
abbrev T40 : (c : Dev nD) → (b : Ref sig .tc) → Buf (Elt F) ((c : Thread nD τ).loc b) := fun c b => W40 m c b
/-- After the host stretch hostOps14. -/
def W41 (c : Dev nD) : Valuation τ sig (Elt F) := StableHlo.after hostOps14 (W40 m c)
abbrev T41 : (c : Dev nD) → (b : Ref sig .tc) → Buf (Elt F) ((c : Thread nD τ).loc b) := fun c b => W41 m c b
/-- After region 14: each of its output arrays at what its write-backs leave, every other buffer as entered. -/
def W42 (c : Dev nD) : Valuation τ sig (Elt F) := Function.update (W41 m c) (Proc.devRef .tc (Pipeline.arrRef spec14 3)) ((dat14 (T41 m) c).arrAt 3 cfg14.N)
abbrev T42 : (c : Dev nD) → (b : Ref sig .tc) → Buf (Elt F) ((c : Thread nD τ).loc b) := fun c b => W42 m c b
/-- After the host stretch hostOps15. -/
def W43 (c : Dev nD) : Valuation τ sig (Elt F) := StableHlo.after hostOps15 (W42 m c)
abbrev T43 : (c : Dev nD) → (b : Ref sig .tc) → Buf (Elt F) ((c : Thread nD τ).loc b) := fun c b => W43 m c b
/-- After region 15: each of its output arrays at what its write-backs leave, every other buffer as entered. -/
def W44 (c : Dev nD) : Valuation τ sig (Elt F) := Function.update (W43 m c) (Proc.devRef .tc (Pipeline.arrRef spec15 3)) ((dat15 (T43 m) c).arrAt 3 cfg15.N)
abbrev T44 : (c : Dev nD) → (b : Ref sig .tc) → Buf (Elt F) ((c : Thread nD τ).loc b) := fun c b => W44 m c b
/-- After the host stretch hostOps16. -/
def W45 (c : Dev nD) : Valuation τ sig (Elt F) := StableHlo.after hostOps16 (W44 m c)
abbrev T45 : (c : Dev nD) → (b : Ref sig .tc) → Buf (Elt F) ((c : Thread nD τ).loc b) := fun c b => W45 m c b
/-- After the host stretch hostOps16_1. -/
def W46 (c : Dev nD) : Valuation τ sig (Elt F) := StableHlo.after hostOps16_1 (W45 m c)
abbrev T46 : (c : Dev nD) → (b : Ref sig .tc) → Buf (Elt F) ((c : Thread nD τ).loc b) := fun c b => W46 m c b
/-- After the host stretch hostOps16_2. -/
def W47 (c : Dev nD) : Valuation τ sig (Elt F) := StableHlo.after hostOps16_2 (W46 m c)
abbrev T47 : (c : Dev nD) → (b : Ref sig .tc) → Buf (Elt F) ((c : Thread nD τ).loc b) := fun c b => W47 m c b
/-- After region 16: each of its output arrays at what its write-backs leave, every other buffer as entered. -/
def W48 (c : Dev nD) : Valuation τ sig (Elt F) := Function.update (Function.update (Function.update (W47 m c) (Proc.devRef .tc (Pipeline.arrRef spec16 4)) ((dat16 (T47 m) c).arrAt 4 cfg16.N)) (Proc.devRef .tc (Pipeline.arrRef spec16 5)) ((dat16 (T47 m) c).arrAt 5 cfg16.N)) (Proc.devRef .tc (Pipeline.arrRef spec16 6)) ((dat16 (T47 m) c).arrAt 6 cfg16.N)
abbrev T48 : (c : Dev nD) → (b : Ref sig .tc) → Buf (Elt F) ((c : Thread nD τ).loc b) := fun c b => W48 m c b
/-- After the host stretch hostOps17. -/
def W49 (c : Dev nD) : Valuation τ sig (Elt F) := StableHlo.after hostOps17 (W48 m c)
abbrev T49 : (c : Dev nD) → (b : Ref sig .tc) → Buf (Elt F) ((c : Thread nD τ).loc b) := fun c b => W49 m c b
/-- After region 17: each of its output arrays at what its write-backs leave, every other buffer as entered. -/
def W50 (c : Dev nD) : Valuation τ sig (Elt F) := Function.update (W49 m c) (Proc.devRef .tc (Pipeline.arrRef spec17 3)) ((dat17 (T49 m) c).arrAt 3 cfg17.N)
abbrev T50 : (c : Dev nD) → (b : Ref sig .tc) → Buf (Elt F) ((c : Thread nD τ).loc b) := fun c b => W50 m c b
/-- After the host stretch hostOps18. -/
def W51 (c : Dev nD) : Valuation τ sig (Elt F) := StableHlo.after hostOps18 (W50 m c)
abbrev T51 : (c : Dev nD) → (b : Ref sig .tc) → Buf (Elt F) ((c : Thread nD τ).loc b) := fun c b => W51 m c b
/-- After the host stretch hostOps18_1. -/
def W52 (c : Dev nD) : Valuation τ sig (Elt F) := StableHlo.after hostOps18_1 (W51 m c)
abbrev T52 : (c : Dev nD) → (b : Ref sig .tc) → Buf (Elt F) ((c : Thread nD τ).loc b) := fun c b => W52 m c b
/-- After the host stretch hostOps18_2. -/
def W53 (c : Dev nD) : Valuation τ sig (Elt F) := StableHlo.after hostOps18_2 (W52 m c)
abbrev T53 : (c : Dev nD) → (b : Ref sig .tc) → Buf (Elt F) ((c : Thread nD τ).loc b) := fun c b => W53 m c b
/-- After region 18: each of its output arrays at what its write-backs leave, every other buffer as entered. -/
def W54 (c : Dev nD) : Valuation τ sig (Elt F) := Function.update (W53 m c) (Proc.devRef .tc (Pipeline.arrRef spec18 6)) ((dat18 (T53 m) c).arrAt 6 cfg18.N)
abbrev T54 : (c : Dev nD) → (b : Ref sig .tc) → Buf (Elt F) ((c : Thread nD τ).loc b) := fun c b => W54 m c b
/-- After the host stretch hostOps19. -/
def W55 (c : Dev nD) : Valuation τ sig (Elt F) := StableHlo.after hostOps19 (W54 m c)
abbrev T55 : (c : Dev nD) → (b : Ref sig .tc) → Buf (Elt F) ((c : Thread nD τ).loc b) := fun c b => W55 m c b
/-- After the host stretch hostOps19_1. -/
def W56 (c : Dev nD) : Valuation τ sig (Elt F) := StableHlo.after hostOps19_1 (W55 m c)
abbrev T56 : (c : Dev nD) → (b : Ref sig .tc) → Buf (Elt F) ((c : Thread nD τ).loc b) := fun c b => W56 m c b
/-- After the host stretch hostOps19_2. -/
def W57 (c : Dev nD) : Valuation τ sig (Elt F) := StableHlo.after hostOps19_2 (W56 m c)
abbrev T57 : (c : Dev nD) → (b : Ref sig .tc) → Buf (Elt F) ((c : Thread nD τ).loc b) := fun c b => W57 m c b
/-- After region 19: each of its output arrays at what its write-backs leave, every other buffer as entered. -/
def W58 (c : Dev nD) : Valuation τ sig (Elt F) := Function.update (W57 m c) (Proc.devRef .tc (Pipeline.arrRef spec19 6)) ((dat19 (T57 m) c).arrAt 6 cfg19.N)
abbrev T58 : (c : Dev nD) → (b : Ref sig .tc) → Buf (Elt F) ((c : Thread nD τ).loc b) := fun c b => W58 m c b
/-- After the host stretch hostOps20. -/
def W59 (c : Dev nD) : Valuation τ sig (Elt F) := StableHlo.after hostOps20 (W58 m c)
abbrev T59 : (c : Dev nD) → (b : Ref sig .tc) → Buf (Elt F) ((c : Thread nD τ).loc b) := fun c b => W59 m c b
/-- After region 20: each of its output arrays at what its write-backs leave, every other buffer as entered. -/
def W60 (c : Dev nD) : Valuation τ sig (Elt F) := Function.update (W59 m c) (Proc.devRef .tc (Pipeline.arrRef spec20 7)) ((dat20 (T59 m) c).arrAt 7 cfg20.N)
abbrev T60 : (c : Dev nD) → (b : Ref sig .tc) → Buf (Elt F) ((c : Thread nD τ).loc b) := fun c b => W60 m c b

/-- The boundaries' contents as one family. -/
def Wn : ℕ → Dev nD → Valuation τ sig (Elt F)
  | 0 => W0 m
  | 1 => W1 m
  | 2 => W2 m
  | 3 => W3 m
  | 4 => W4 m
  | 5 => W5 m
  | 6 => W6 m
  | 7 => W7 m
  | 8 => W8 m
  | 9 => W9 m
  | 10 => W10 m
  | 11 => W11 m
  | 12 => W12 m
  | 13 => W13 m
  | 14 => W14 m
  | 15 => W15 m
  | 16 => W16 m
  | 17 => W17 m
  | 18 => W18 m
  | 19 => W19 m
  | 20 => W20 m
  | 21 => W21 m
  | 22 => W22 m
  | 23 => W23 m
  | 24 => W24 m
  | 25 => W25 m
  | 26 => W26 m
  | 27 => W27 m
  | 28 => W28 m
  | 29 => W29 m
  | 30 => W30 m
  | 31 => W31 m
  | 32 => W32 m
  | 33 => W33 m
  | 34 => W34 m
  | 35 => W35 m
  | 36 => W36 m
  | 37 => W37 m
  | 38 => W38 m
  | 39 => W39 m
  | 40 => W40 m
  | 41 => W41 m
  | 42 => W42 m
  | 43 => W43 m
  | 44 => W44 m
  | 45 => W45 m
  | 46 => W46 m
  | 47 => W47 m
  | 48 => W48 m
  | 49 => W49 m
  | 50 => W50 m
  | 51 => W51 m
  | 52 => W52 m
  | 53 => W53 m
  | 54 => W54 m
  | 55 => W55 m
  | 56 => W56 m
  | 57 => W57 m
  | 58 => W58 m
  | 59 => W59 m
  | _ => W60 m
/-- What the regions leave, read off the boundaries' contents. -/
def outs : Outs (F := F) := fun j r c => Wn m j c r

theorem V0_eq (c : Dev nD) : V0 m c = W0 m c := rfl
theorem V1_eq (c : Dev nD) : V1 m c = W1 m c := by
  show StableHlo.after hostOps0 (V0 m c) = StableHlo.after hostOps0 (W0 m c)
  rw [V0_eq]
theorem V2_eq (c : Dev nD) : V2 m (outs m) c = W2 m c := by
  show Function.update (V1 m c) main_v1 (W2 m c main_v1) = W2 m c
  rw [V1_eq]
  funext b
  unfold W2
  simp only [Function.update_apply]
  repeat' split
  all_goals first | rfl | (subst_vars; simp only [Function.update_apply]; repeat' split) <;> first | rfl | (exfalso; revert ‹_›; decide) | skip
theorem V3_eq (c : Dev nD) : V3 m (outs m) c = W3 m c := by
  show StableHlo.after hostOps1 (V2 m (outs m) c) = StableHlo.after hostOps1 (W2 m c)
  rw [V2_eq]
theorem V4_eq (c : Dev nD) : V4 m (outs m) c = W4 m c := by
  show Function.update (V3 m (outs m) c) main_v3 (W4 m c main_v3) = W4 m c
  rw [V3_eq]
  funext b
  unfold W4
  simp only [Function.update_apply]
  repeat' split
  all_goals first | rfl | (subst_vars; simp only [Function.update_apply]; repeat' split) <;> first | rfl | (exfalso; revert ‹_›; decide) | skip
theorem V5_eq (c : Dev nD) : V5 m (outs m) c = W5 m c := by
  show StableHlo.after hostOps2 (V4 m (outs m) c) = StableHlo.after hostOps2 (W4 m c)
  rw [V4_eq]
theorem V6_eq (c : Dev nD) : V6 m (outs m) c = W6 m c := by
  show Function.update (V5 m (outs m) c) main_v23 (W6 m c main_v23) = W6 m c
  rw [V5_eq]
  funext b
  unfold W6
  simp only [Function.update_apply]
  repeat' split
  all_goals first | rfl | (subst_vars; simp only [Function.update_apply]; repeat' split) <;> first | rfl | (exfalso; revert ‹_›; decide) | skip
theorem V7_eq (c : Dev nD) : V7 m (outs m) c = W7 m c := by
  show StableHlo.after hostOps3 (V6 m (outs m) c) = StableHlo.after hostOps3 (W6 m c)
  rw [V6_eq]
theorem V8_eq (c : Dev nD) : V8 m (outs m) c = W8 m c := by
  show Function.update (V7 m (outs m) c) main_v33 (W8 m c main_v33) = W8 m c
  rw [V7_eq]
  funext b
  unfold W8
  simp only [Function.update_apply]
  repeat' split
  all_goals first | rfl | (subst_vars; simp only [Function.update_apply]; repeat' split) <;> first | rfl | (exfalso; revert ‹_›; decide) | skip
theorem V9_eq (c : Dev nD) : V9 m (outs m) c = W9 m c := by
  show StableHlo.after hostOps4 (V8 m (outs m) c) = StableHlo.after hostOps4 (W8 m c)
  rw [V8_eq]
theorem V10_eq (c : Dev nD) : V10 m (outs m) c = W10 m c := by
  show StableHlo.after hostOps4_1 (V9 m (outs m) c) = StableHlo.after hostOps4_1 (W9 m c)
  rw [V9_eq]
theorem V11_eq (c : Dev nD) : V11 m (outs m) c = W11 m c := by
  show StableHlo.after hostOps4_2 (V10 m (outs m) c) = StableHlo.after hostOps4_2 (W10 m c)
  rw [V10_eq]
theorem V12_eq (c : Dev nD) : V12 m (outs m) c = W12 m c := by
  show Function.update (Function.update (Function.update (V11 m (outs m) c) main_v37_0 (W12 m c main_v37_0)) main_v37_1 (W12 m c main_v37_1)) main_v37_2 (W12 m c main_v37_2) = W12 m c
  rw [V11_eq]
  funext b
  unfold W12
  simp only [Function.update_apply]
  repeat' split
  all_goals first | rfl | (subst_vars; simp only [Function.update_apply]; repeat' split) <;> first | rfl | (exfalso; revert ‹_›; decide) | skip
theorem V13_eq (c : Dev nD) : V13 m (outs m) c = W13 m c := by
  show StableHlo.after hostOps5 (V12 m (outs m) c) = StableHlo.after hostOps5 (W12 m c)
  rw [V12_eq]
theorem V14_eq (c : Dev nD) : V14 m (outs m) c = W14 m c := by
  show Function.update (V13 m (outs m) c) main_v44 (W14 m c main_v44) = W14 m c
  rw [V13_eq]
  funext b
  unfold W14
  simp only [Function.update_apply]
  repeat' split
  all_goals first | rfl | (subst_vars; simp only [Function.update_apply]; repeat' split) <;> first | rfl | (exfalso; revert ‹_›; decide) | skip
theorem V15_eq (c : Dev nD) : V15 m (outs m) c = W15 m c := by
  show StableHlo.after hostOps6 (V14 m (outs m) c) = StableHlo.after hostOps6 (W14 m c)
  rw [V14_eq]
theorem V16_eq (c : Dev nD) : V16 m (outs m) c = W16 m c := by
  show StableHlo.after hostOps6_1 (V15 m (outs m) c) = StableHlo.after hostOps6_1 (W15 m c)
  rw [V15_eq]
theorem V17_eq (c : Dev nD) : V17 m (outs m) c = W17 m c := by
  show StableHlo.after hostOps6_2 (V16 m (outs m) c) = StableHlo.after hostOps6_2 (W16 m c)
  rw [V16_eq]
theorem V18_eq (c : Dev nD) : V18 m (outs m) c = W18 m c := by
  show Function.update (V17 m (outs m) c) main_v57 (W18 m c main_v57) = W18 m c
  rw [V17_eq]
  funext b
  unfold W18
  simp only [Function.update_apply]
  repeat' split
  all_goals first | rfl | (subst_vars; simp only [Function.update_apply]; repeat' split) <;> first | rfl | (exfalso; revert ‹_›; decide) | skip
theorem V19_eq (c : Dev nD) : V19 m (outs m) c = W19 m c := by
  show StableHlo.after hostOps7 (V18 m (outs m) c) = StableHlo.after hostOps7 (W18 m c)
  rw [V18_eq]
theorem V20_eq (c : Dev nD) : V20 m (outs m) c = W20 m c := by
  show StableHlo.after hostOps7_1 (V19 m (outs m) c) = StableHlo.after hostOps7_1 (W19 m c)
  rw [V19_eq]
theorem V21_eq (c : Dev nD) : V21 m (outs m) c = W21 m c := by
  show StableHlo.after hostOps7_2 (V20 m (outs m) c) = StableHlo.after hostOps7_2 (W20 m c)
  rw [V20_eq]
theorem V22_eq (c : Dev nD) : V22 m (outs m) c = W22 m c := by
  show Function.update (V21 m (outs m) c) main_v70 (W22 m c main_v70) = W22 m c
  rw [V21_eq]
  funext b
  unfold W22
  simp only [Function.update_apply]
  repeat' split
  all_goals first | rfl | (subst_vars; simp only [Function.update_apply]; repeat' split) <;> first | rfl | (exfalso; revert ‹_›; decide) | skip
theorem V23_eq (c : Dev nD) : V23 m (outs m) c = W23 m c := by
  show StableHlo.after hostOps8 (V22 m (outs m) c) = StableHlo.after hostOps8 (W22 m c)
  rw [V22_eq]
theorem V24_eq (c : Dev nD) : V24 m (outs m) c = W24 m c := by
  show Function.update (V23 m (outs m) c) main_v90 (W24 m c main_v90) = W24 m c
  rw [V23_eq]
  funext b
  unfold W24
  simp only [Function.update_apply]
  repeat' split
  all_goals first | rfl | (subst_vars; simp only [Function.update_apply]; repeat' split) <;> first | rfl | (exfalso; revert ‹_›; decide) | skip
theorem V25_eq (c : Dev nD) : V25 m (outs m) c = W25 m c := by
  show StableHlo.after hostOps9 (V24 m (outs m) c) = StableHlo.after hostOps9 (W24 m c)
  rw [V24_eq]
theorem V26_eq (c : Dev nD) : V26 m (outs m) c = W26 m c := by
  show Function.update (V25 m (outs m) c) main_v100 (W26 m c main_v100) = W26 m c
  rw [V25_eq]
  funext b
  unfold W26
  simp only [Function.update_apply]
  repeat' split
  all_goals first | rfl | (subst_vars; simp only [Function.update_apply]; repeat' split) <;> first | rfl | (exfalso; revert ‹_›; decide) | skip
theorem V27_eq (c : Dev nD) : V27 m (outs m) c = W27 m c := by
  show StableHlo.after hostOps10 (V26 m (outs m) c) = StableHlo.after hostOps10 (W26 m c)
  rw [V26_eq]
theorem V28_eq (c : Dev nD) : V28 m (outs m) c = W28 m c := by
  show StableHlo.after hostOps10_1 (V27 m (outs m) c) = StableHlo.after hostOps10_1 (W27 m c)
  rw [V27_eq]
theorem V29_eq (c : Dev nD) : V29 m (outs m) c = W29 m c := by
  show StableHlo.after hostOps10_2 (V28 m (outs m) c) = StableHlo.after hostOps10_2 (W28 m c)
  rw [V28_eq]
theorem V30_eq (c : Dev nD) : V30 m (outs m) c = W30 m c := by
  show Function.update (Function.update (Function.update (V29 m (outs m) c) main_v104_0 (W30 m c main_v104_0)) main_v104_1 (W30 m c main_v104_1)) main_v104_2 (W30 m c main_v104_2) = W30 m c
  rw [V29_eq]
  funext b
  unfold W30
  simp only [Function.update_apply]
  repeat' split
  all_goals first | rfl | (subst_vars; simp only [Function.update_apply]; repeat' split) <;> first | rfl | (exfalso; revert ‹_›; decide) | skip
theorem V31_eq (c : Dev nD) : V31 m (outs m) c = W31 m c := by
  show StableHlo.after hostOps11 (V30 m (outs m) c) = StableHlo.after hostOps11 (W30 m c)
  rw [V30_eq]
theorem V32_eq (c : Dev nD) : V32 m (outs m) c = W32 m c := by
  show Function.update (V31 m (outs m) c) main_v111 (W32 m c main_v111) = W32 m c
  rw [V31_eq]
  funext b
  unfold W32
  simp only [Function.update_apply]
  repeat' split
  all_goals first | rfl | (subst_vars; simp only [Function.update_apply]; repeat' split) <;> first | rfl | (exfalso; revert ‹_›; decide) | skip
theorem V33_eq (c : Dev nD) : V33 m (outs m) c = W33 m c := by
  show StableHlo.after hostOps12 (V32 m (outs m) c) = StableHlo.after hostOps12 (W32 m c)
  rw [V32_eq]
theorem V34_eq (c : Dev nD) : V34 m (outs m) c = W34 m c := by
  show StableHlo.after hostOps12_1 (V33 m (outs m) c) = StableHlo.after hostOps12_1 (W33 m c)
  rw [V33_eq]
theorem V35_eq (c : Dev nD) : V35 m (outs m) c = W35 m c := by
  show StableHlo.after hostOps12_2 (V34 m (outs m) c) = StableHlo.after hostOps12_2 (W34 m c)
  rw [V34_eq]
theorem V36_eq (c : Dev nD) : V36 m (outs m) c = W36 m c := by
  show Function.update (V35 m (outs m) c) main_v124 (W36 m c main_v124) = W36 m c
  rw [V35_eq]
  funext b
  unfold W36
  simp only [Function.update_apply]
  repeat' split
  all_goals first | rfl | (subst_vars; simp only [Function.update_apply]; repeat' split) <;> first | rfl | (exfalso; revert ‹_›; decide) | skip
theorem V37_eq (c : Dev nD) : V37 m (outs m) c = W37 m c := by
  show StableHlo.after hostOps13 (V36 m (outs m) c) = StableHlo.after hostOps13 (W36 m c)
  rw [V36_eq]
theorem V38_eq (c : Dev nD) : V38 m (outs m) c = W38 m c := by
  show StableHlo.after hostOps13_1 (V37 m (outs m) c) = StableHlo.after hostOps13_1 (W37 m c)
  rw [V37_eq]
theorem V39_eq (c : Dev nD) : V39 m (outs m) c = W39 m c := by
  show StableHlo.after hostOps13_2 (V38 m (outs m) c) = StableHlo.after hostOps13_2 (W38 m c)
  rw [V38_eq]
theorem V40_eq (c : Dev nD) : V40 m (outs m) c = W40 m c := by
  show Function.update (V39 m (outs m) c) main_v137 (W40 m c main_v137) = W40 m c
  rw [V39_eq]
  funext b
  unfold W40
  simp only [Function.update_apply]
  repeat' split
  all_goals first | rfl | (subst_vars; simp only [Function.update_apply]; repeat' split) <;> first | rfl | (exfalso; revert ‹_›; decide) | skip
theorem V41_eq (c : Dev nD) : V41 m (outs m) c = W41 m c := by
  show StableHlo.after hostOps14 (V40 m (outs m) c) = StableHlo.after hostOps14 (W40 m c)
  rw [V40_eq]
theorem V42_eq (c : Dev nD) : V42 m (outs m) c = W42 m c := by
  show Function.update (V41 m (outs m) c) main_v157 (W42 m c main_v157) = W42 m c
  rw [V41_eq]
  funext b
  unfold W42
  simp only [Function.update_apply]
  repeat' split
  all_goals first | rfl | (subst_vars; simp only [Function.update_apply]; repeat' split) <;> first | rfl | (exfalso; revert ‹_›; decide) | skip
theorem V43_eq (c : Dev nD) : V43 m (outs m) c = W43 m c := by
  show StableHlo.after hostOps15 (V42 m (outs m) c) = StableHlo.after hostOps15 (W42 m c)
  rw [V42_eq]
theorem V44_eq (c : Dev nD) : V44 m (outs m) c = W44 m c := by
  show Function.update (V43 m (outs m) c) main_v167 (W44 m c main_v167) = W44 m c
  rw [V43_eq]
  funext b
  unfold W44
  simp only [Function.update_apply]
  repeat' split
  all_goals first | rfl | (subst_vars; simp only [Function.update_apply]; repeat' split) <;> first | rfl | (exfalso; revert ‹_›; decide) | skip
theorem V45_eq (c : Dev nD) : V45 m (outs m) c = W45 m c := by
  show StableHlo.after hostOps16 (V44 m (outs m) c) = StableHlo.after hostOps16 (W44 m c)
  rw [V44_eq]
theorem V46_eq (c : Dev nD) : V46 m (outs m) c = W46 m c := by
  show StableHlo.after hostOps16_1 (V45 m (outs m) c) = StableHlo.after hostOps16_1 (W45 m c)
  rw [V45_eq]
theorem V47_eq (c : Dev nD) : V47 m (outs m) c = W47 m c := by
  show StableHlo.after hostOps16_2 (V46 m (outs m) c) = StableHlo.after hostOps16_2 (W46 m c)
  rw [V46_eq]
theorem V48_eq (c : Dev nD) : V48 m (outs m) c = W48 m c := by
  show Function.update (Function.update (Function.update (V47 m (outs m) c) main_v171_0 (W48 m c main_v171_0)) main_v171_1 (W48 m c main_v171_1)) main_v171_2 (W48 m c main_v171_2) = W48 m c
  rw [V47_eq]
  funext b
  unfold W48
  simp only [Function.update_apply]
  repeat' split
  all_goals first | rfl | (subst_vars; simp only [Function.update_apply]; repeat' split) <;> first | rfl | (exfalso; revert ‹_›; decide) | skip
theorem V49_eq (c : Dev nD) : V49 m (outs m) c = W49 m c := by
  show StableHlo.after hostOps17 (V48 m (outs m) c) = StableHlo.after hostOps17 (W48 m c)
  rw [V48_eq]
theorem V50_eq (c : Dev nD) : V50 m (outs m) c = W50 m c := by
  show Function.update (V49 m (outs m) c) main_v178 (W50 m c main_v178) = W50 m c
  rw [V49_eq]
  funext b
  unfold W50
  simp only [Function.update_apply]
  repeat' split
  all_goals first | rfl | (subst_vars; simp only [Function.update_apply]; repeat' split) <;> first | rfl | (exfalso; revert ‹_›; decide) | skip
theorem V51_eq (c : Dev nD) : V51 m (outs m) c = W51 m c := by
  show StableHlo.after hostOps18 (V50 m (outs m) c) = StableHlo.after hostOps18 (W50 m c)
  rw [V50_eq]
theorem V52_eq (c : Dev nD) : V52 m (outs m) c = W52 m c := by
  show StableHlo.after hostOps18_1 (V51 m (outs m) c) = StableHlo.after hostOps18_1 (W51 m c)
  rw [V51_eq]
theorem V53_eq (c : Dev nD) : V53 m (outs m) c = W53 m c := by
  show StableHlo.after hostOps18_2 (V52 m (outs m) c) = StableHlo.after hostOps18_2 (W52 m c)
  rw [V52_eq]
theorem V54_eq (c : Dev nD) : V54 m (outs m) c = W54 m c := by
  show Function.update (V53 m (outs m) c) main_v191 (W54 m c main_v191) = W54 m c
  rw [V53_eq]
  funext b
  unfold W54
  simp only [Function.update_apply]
  repeat' split
  all_goals first | rfl | (subst_vars; simp only [Function.update_apply]; repeat' split) <;> first | rfl | (exfalso; revert ‹_›; decide) | skip
theorem V55_eq (c : Dev nD) : V55 m (outs m) c = W55 m c := by
  show StableHlo.after hostOps19 (V54 m (outs m) c) = StableHlo.after hostOps19 (W54 m c)
  rw [V54_eq]
theorem V56_eq (c : Dev nD) : V56 m (outs m) c = W56 m c := by
  show StableHlo.after hostOps19_1 (V55 m (outs m) c) = StableHlo.after hostOps19_1 (W55 m c)
  rw [V55_eq]
theorem V57_eq (c : Dev nD) : V57 m (outs m) c = W57 m c := by
  show StableHlo.after hostOps19_2 (V56 m (outs m) c) = StableHlo.after hostOps19_2 (W56 m c)
  rw [V56_eq]
theorem V58_eq (c : Dev nD) : V58 m (outs m) c = W58 m c := by
  show Function.update (V57 m (outs m) c) main_v204 (W58 m c main_v204) = W58 m c
  rw [V57_eq]
  funext b
  unfold W58
  simp only [Function.update_apply]
  repeat' split
  all_goals first | rfl | (subst_vars; simp only [Function.update_apply]; repeat' split) <;> first | rfl | (exfalso; revert ‹_›; decide) | skip
theorem V59_eq (c : Dev nD) : V59 m (outs m) c = W59 m c := by
  show StableHlo.after hostOps20 (V58 m (outs m) c) = StableHlo.after hostOps20 (W58 m c)
  rw [V58_eq]
theorem V60_eq (c : Dev nD) : V60 m (outs m) c = W60 m c := by
  show Function.update (V59 m (outs m) c) main_v219 (W60 m c main_v219) = W60 m c
  rw [V59_eq]
  funext b
  unfold W60
  simp only [Function.update_apply]
  repeat' split
  all_goals first | rfl | (subst_vars; simp only [Function.update_apply]; repeat' split) <;> first | rfl | (exfalso; revert ‹_›; decide) | skip

/-! An item changes only the buffers it writes: every other buffer is carried over. -/
theorem W1_of (c : Dev nD) (r : Ref sig .tc) (h : r ∉ hostOps0_W) : W1 m c r = W0 m c r :=
  (congrFun (V1_eq m c).symm _).trans ((V1_of m c r h).trans (congrFun (V0_eq m c) _))
theorem W2_of (c : Dev nD) (r : Ref sig .tc) (h : r ∉ ([main_v1] : List (Ref sig .tc))) : W2 m c r = W1 m c r :=
  (congrFun (V2_eq m c).symm _).trans ((V2_of m (outs m) c r h).trans (congrFun (V1_eq m c) _))
theorem W3_of (c : Dev nD) (r : Ref sig .tc) (h : r ∉ hostOps1_W) : W3 m c r = W2 m c r :=
  (congrFun (V3_eq m c).symm _).trans ((V3_of m (outs m) c r h).trans (congrFun (V2_eq m c) _))
theorem W4_of (c : Dev nD) (r : Ref sig .tc) (h : r ∉ ([main_v3] : List (Ref sig .tc))) : W4 m c r = W3 m c r :=
  (congrFun (V4_eq m c).symm _).trans ((V4_of m (outs m) c r h).trans (congrFun (V3_eq m c) _))
theorem W5_of (c : Dev nD) (r : Ref sig .tc) (h : r ∉ hostOps2_W) : W5 m c r = W4 m c r :=
  (congrFun (V5_eq m c).symm _).trans ((V5_of m (outs m) c r h).trans (congrFun (V4_eq m c) _))
theorem W6_of (c : Dev nD) (r : Ref sig .tc) (h : r ∉ ([main_v23] : List (Ref sig .tc))) : W6 m c r = W5 m c r :=
  (congrFun (V6_eq m c).symm _).trans ((V6_of m (outs m) c r h).trans (congrFun (V5_eq m c) _))
theorem W7_of (c : Dev nD) (r : Ref sig .tc) (h : r ∉ hostOps3_W) : W7 m c r = W6 m c r :=
  (congrFun (V7_eq m c).symm _).trans ((V7_of m (outs m) c r h).trans (congrFun (V6_eq m c) _))
theorem W8_of (c : Dev nD) (r : Ref sig .tc) (h : r ∉ ([main_v33] : List (Ref sig .tc))) : W8 m c r = W7 m c r :=
  (congrFun (V8_eq m c).symm _).trans ((V8_of m (outs m) c r h).trans (congrFun (V7_eq m c) _))
theorem W9_of (c : Dev nD) (r : Ref sig .tc) (h : r ∉ hostOps4_W) : W9 m c r = W8 m c r :=
  (congrFun (V9_eq m c).symm _).trans ((V9_of m (outs m) c r h).trans (congrFun (V8_eq m c) _))
theorem W10_of (c : Dev nD) (r : Ref sig .tc) (h : r ∉ hostOps4_1_W) : W10 m c r = W9 m c r :=
  (congrFun (V10_eq m c).symm _).trans ((V10_of m (outs m) c r h).trans (congrFun (V9_eq m c) _))
theorem W11_of (c : Dev nD) (r : Ref sig .tc) (h : r ∉ hostOps4_2_W) : W11 m c r = W10 m c r :=
  (congrFun (V11_eq m c).symm _).trans ((V11_of m (outs m) c r h).trans (congrFun (V10_eq m c) _))
theorem W12_of (c : Dev nD) (r : Ref sig .tc) (h : r ∉ ([main_v37_0, main_v37_1, main_v37_2] : List (Ref sig .tc))) : W12 m c r = W11 m c r :=
  (congrFun (V12_eq m c).symm _).trans ((V12_of m (outs m) c r h).trans (congrFun (V11_eq m c) _))
theorem W13_of (c : Dev nD) (r : Ref sig .tc) (h : r ∉ hostOps5_W) : W13 m c r = W12 m c r :=
  (congrFun (V13_eq m c).symm _).trans ((V13_of m (outs m) c r h).trans (congrFun (V12_eq m c) _))
theorem W14_of (c : Dev nD) (r : Ref sig .tc) (h : r ∉ ([main_v44] : List (Ref sig .tc))) : W14 m c r = W13 m c r :=
  (congrFun (V14_eq m c).symm _).trans ((V14_of m (outs m) c r h).trans (congrFun (V13_eq m c) _))
theorem W15_of (c : Dev nD) (r : Ref sig .tc) (h : r ∉ hostOps6_W) : W15 m c r = W14 m c r :=
  (congrFun (V15_eq m c).symm _).trans ((V15_of m (outs m) c r h).trans (congrFun (V14_eq m c) _))
theorem W16_of (c : Dev nD) (r : Ref sig .tc) (h : r ∉ hostOps6_1_W) : W16 m c r = W15 m c r :=
  (congrFun (V16_eq m c).symm _).trans ((V16_of m (outs m) c r h).trans (congrFun (V15_eq m c) _))
theorem W17_of (c : Dev nD) (r : Ref sig .tc) (h : r ∉ hostOps6_2_W) : W17 m c r = W16 m c r :=
  (congrFun (V17_eq m c).symm _).trans ((V17_of m (outs m) c r h).trans (congrFun (V16_eq m c) _))
theorem W18_of (c : Dev nD) (r : Ref sig .tc) (h : r ∉ ([main_v57] : List (Ref sig .tc))) : W18 m c r = W17 m c r :=
  (congrFun (V18_eq m c).symm _).trans ((V18_of m (outs m) c r h).trans (congrFun (V17_eq m c) _))
theorem W19_of (c : Dev nD) (r : Ref sig .tc) (h : r ∉ hostOps7_W) : W19 m c r = W18 m c r :=
  (congrFun (V19_eq m c).symm _).trans ((V19_of m (outs m) c r h).trans (congrFun (V18_eq m c) _))
theorem W20_of (c : Dev nD) (r : Ref sig .tc) (h : r ∉ hostOps7_1_W) : W20 m c r = W19 m c r :=
  (congrFun (V20_eq m c).symm _).trans ((V20_of m (outs m) c r h).trans (congrFun (V19_eq m c) _))
theorem W21_of (c : Dev nD) (r : Ref sig .tc) (h : r ∉ hostOps7_2_W) : W21 m c r = W20 m c r :=
  (congrFun (V21_eq m c).symm _).trans ((V21_of m (outs m) c r h).trans (congrFun (V20_eq m c) _))
theorem W22_of (c : Dev nD) (r : Ref sig .tc) (h : r ∉ ([main_v70] : List (Ref sig .tc))) : W22 m c r = W21 m c r :=
  (congrFun (V22_eq m c).symm _).trans ((V22_of m (outs m) c r h).trans (congrFun (V21_eq m c) _))
theorem W23_of (c : Dev nD) (r : Ref sig .tc) (h : r ∉ hostOps8_W) : W23 m c r = W22 m c r :=
  (congrFun (V23_eq m c).symm _).trans ((V23_of m (outs m) c r h).trans (congrFun (V22_eq m c) _))
theorem W24_of (c : Dev nD) (r : Ref sig .tc) (h : r ∉ ([main_v90] : List (Ref sig .tc))) : W24 m c r = W23 m c r :=
  (congrFun (V24_eq m c).symm _).trans ((V24_of m (outs m) c r h).trans (congrFun (V23_eq m c) _))
theorem W25_of (c : Dev nD) (r : Ref sig .tc) (h : r ∉ hostOps9_W) : W25 m c r = W24 m c r :=
  (congrFun (V25_eq m c).symm _).trans ((V25_of m (outs m) c r h).trans (congrFun (V24_eq m c) _))
theorem W26_of (c : Dev nD) (r : Ref sig .tc) (h : r ∉ ([main_v100] : List (Ref sig .tc))) : W26 m c r = W25 m c r :=
  (congrFun (V26_eq m c).symm _).trans ((V26_of m (outs m) c r h).trans (congrFun (V25_eq m c) _))
theorem W27_of (c : Dev nD) (r : Ref sig .tc) (h : r ∉ hostOps10_W) : W27 m c r = W26 m c r :=
  (congrFun (V27_eq m c).symm _).trans ((V27_of m (outs m) c r h).trans (congrFun (V26_eq m c) _))
theorem W28_of (c : Dev nD) (r : Ref sig .tc) (h : r ∉ hostOps10_1_W) : W28 m c r = W27 m c r :=
  (congrFun (V28_eq m c).symm _).trans ((V28_of m (outs m) c r h).trans (congrFun (V27_eq m c) _))
theorem W29_of (c : Dev nD) (r : Ref sig .tc) (h : r ∉ hostOps10_2_W) : W29 m c r = W28 m c r :=
  (congrFun (V29_eq m c).symm _).trans ((V29_of m (outs m) c r h).trans (congrFun (V28_eq m c) _))
theorem W30_of (c : Dev nD) (r : Ref sig .tc) (h : r ∉ ([main_v104_0, main_v104_1, main_v104_2] : List (Ref sig .tc))) : W30 m c r = W29 m c r :=
  (congrFun (V30_eq m c).symm _).trans ((V30_of m (outs m) c r h).trans (congrFun (V29_eq m c) _))
theorem W31_of (c : Dev nD) (r : Ref sig .tc) (h : r ∉ hostOps11_W) : W31 m c r = W30 m c r :=
  (congrFun (V31_eq m c).symm _).trans ((V31_of m (outs m) c r h).trans (congrFun (V30_eq m c) _))
theorem W32_of (c : Dev nD) (r : Ref sig .tc) (h : r ∉ ([main_v111] : List (Ref sig .tc))) : W32 m c r = W31 m c r :=
  (congrFun (V32_eq m c).symm _).trans ((V32_of m (outs m) c r h).trans (congrFun (V31_eq m c) _))
theorem W33_of (c : Dev nD) (r : Ref sig .tc) (h : r ∉ hostOps12_W) : W33 m c r = W32 m c r :=
  (congrFun (V33_eq m c).symm _).trans ((V33_of m (outs m) c r h).trans (congrFun (V32_eq m c) _))
theorem W34_of (c : Dev nD) (r : Ref sig .tc) (h : r ∉ hostOps12_1_W) : W34 m c r = W33 m c r :=
  (congrFun (V34_eq m c).symm _).trans ((V34_of m (outs m) c r h).trans (congrFun (V33_eq m c) _))
theorem W35_of (c : Dev nD) (r : Ref sig .tc) (h : r ∉ hostOps12_2_W) : W35 m c r = W34 m c r :=
  (congrFun (V35_eq m c).symm _).trans ((V35_of m (outs m) c r h).trans (congrFun (V34_eq m c) _))
theorem W36_of (c : Dev nD) (r : Ref sig .tc) (h : r ∉ ([main_v124] : List (Ref sig .tc))) : W36 m c r = W35 m c r :=
  (congrFun (V36_eq m c).symm _).trans ((V36_of m (outs m) c r h).trans (congrFun (V35_eq m c) _))
theorem W37_of (c : Dev nD) (r : Ref sig .tc) (h : r ∉ hostOps13_W) : W37 m c r = W36 m c r :=
  (congrFun (V37_eq m c).symm _).trans ((V37_of m (outs m) c r h).trans (congrFun (V36_eq m c) _))
theorem W38_of (c : Dev nD) (r : Ref sig .tc) (h : r ∉ hostOps13_1_W) : W38 m c r = W37 m c r :=
  (congrFun (V38_eq m c).symm _).trans ((V38_of m (outs m) c r h).trans (congrFun (V37_eq m c) _))
theorem W39_of (c : Dev nD) (r : Ref sig .tc) (h : r ∉ hostOps13_2_W) : W39 m c r = W38 m c r :=
  (congrFun (V39_eq m c).symm _).trans ((V39_of m (outs m) c r h).trans (congrFun (V38_eq m c) _))
theorem W40_of (c : Dev nD) (r : Ref sig .tc) (h : r ∉ ([main_v137] : List (Ref sig .tc))) : W40 m c r = W39 m c r :=
  (congrFun (V40_eq m c).symm _).trans ((V40_of m (outs m) c r h).trans (congrFun (V39_eq m c) _))
theorem W41_of (c : Dev nD) (r : Ref sig .tc) (h : r ∉ hostOps14_W) : W41 m c r = W40 m c r :=
  (congrFun (V41_eq m c).symm _).trans ((V41_of m (outs m) c r h).trans (congrFun (V40_eq m c) _))
theorem W42_of (c : Dev nD) (r : Ref sig .tc) (h : r ∉ ([main_v157] : List (Ref sig .tc))) : W42 m c r = W41 m c r :=
  (congrFun (V42_eq m c).symm _).trans ((V42_of m (outs m) c r h).trans (congrFun (V41_eq m c) _))
theorem W43_of (c : Dev nD) (r : Ref sig .tc) (h : r ∉ hostOps15_W) : W43 m c r = W42 m c r :=
  (congrFun (V43_eq m c).symm _).trans ((V43_of m (outs m) c r h).trans (congrFun (V42_eq m c) _))
theorem W44_of (c : Dev nD) (r : Ref sig .tc) (h : r ∉ ([main_v167] : List (Ref sig .tc))) : W44 m c r = W43 m c r :=
  (congrFun (V44_eq m c).symm _).trans ((V44_of m (outs m) c r h).trans (congrFun (V43_eq m c) _))
theorem W45_of (c : Dev nD) (r : Ref sig .tc) (h : r ∉ hostOps16_W) : W45 m c r = W44 m c r :=
  (congrFun (V45_eq m c).symm _).trans ((V45_of m (outs m) c r h).trans (congrFun (V44_eq m c) _))
theorem W46_of (c : Dev nD) (r : Ref sig .tc) (h : r ∉ hostOps16_1_W) : W46 m c r = W45 m c r :=
  (congrFun (V46_eq m c).symm _).trans ((V46_of m (outs m) c r h).trans (congrFun (V45_eq m c) _))
theorem W47_of (c : Dev nD) (r : Ref sig .tc) (h : r ∉ hostOps16_2_W) : W47 m c r = W46 m c r :=
  (congrFun (V47_eq m c).symm _).trans ((V47_of m (outs m) c r h).trans (congrFun (V46_eq m c) _))
theorem W48_of (c : Dev nD) (r : Ref sig .tc) (h : r ∉ ([main_v171_0, main_v171_1, main_v171_2] : List (Ref sig .tc))) : W48 m c r = W47 m c r :=
  (congrFun (V48_eq m c).symm _).trans ((V48_of m (outs m) c r h).trans (congrFun (V47_eq m c) _))
theorem W49_of (c : Dev nD) (r : Ref sig .tc) (h : r ∉ hostOps17_W) : W49 m c r = W48 m c r :=
  (congrFun (V49_eq m c).symm _).trans ((V49_of m (outs m) c r h).trans (congrFun (V48_eq m c) _))
theorem W50_of (c : Dev nD) (r : Ref sig .tc) (h : r ∉ ([main_v178] : List (Ref sig .tc))) : W50 m c r = W49 m c r :=
  (congrFun (V50_eq m c).symm _).trans ((V50_of m (outs m) c r h).trans (congrFun (V49_eq m c) _))
theorem W51_of (c : Dev nD) (r : Ref sig .tc) (h : r ∉ hostOps18_W) : W51 m c r = W50 m c r :=
  (congrFun (V51_eq m c).symm _).trans ((V51_of m (outs m) c r h).trans (congrFun (V50_eq m c) _))
theorem W52_of (c : Dev nD) (r : Ref sig .tc) (h : r ∉ hostOps18_1_W) : W52 m c r = W51 m c r :=
  (congrFun (V52_eq m c).symm _).trans ((V52_of m (outs m) c r h).trans (congrFun (V51_eq m c) _))
theorem W53_of (c : Dev nD) (r : Ref sig .tc) (h : r ∉ hostOps18_2_W) : W53 m c r = W52 m c r :=
  (congrFun (V53_eq m c).symm _).trans ((V53_of m (outs m) c r h).trans (congrFun (V52_eq m c) _))
theorem W54_of (c : Dev nD) (r : Ref sig .tc) (h : r ∉ ([main_v191] : List (Ref sig .tc))) : W54 m c r = W53 m c r :=
  (congrFun (V54_eq m c).symm _).trans ((V54_of m (outs m) c r h).trans (congrFun (V53_eq m c) _))
theorem W55_of (c : Dev nD) (r : Ref sig .tc) (h : r ∉ hostOps19_W) : W55 m c r = W54 m c r :=
  (congrFun (V55_eq m c).symm _).trans ((V55_of m (outs m) c r h).trans (congrFun (V54_eq m c) _))
theorem W56_of (c : Dev nD) (r : Ref sig .tc) (h : r ∉ hostOps19_1_W) : W56 m c r = W55 m c r :=
  (congrFun (V56_eq m c).symm _).trans ((V56_of m (outs m) c r h).trans (congrFun (V55_eq m c) _))
theorem W57_of (c : Dev nD) (r : Ref sig .tc) (h : r ∉ hostOps19_2_W) : W57 m c r = W56 m c r :=
  (congrFun (V57_eq m c).symm _).trans ((V57_of m (outs m) c r h).trans (congrFun (V56_eq m c) _))
theorem W58_of (c : Dev nD) (r : Ref sig .tc) (h : r ∉ ([main_v204] : List (Ref sig .tc))) : W58 m c r = W57 m c r :=
  (congrFun (V58_eq m c).symm _).trans ((V58_of m (outs m) c r h).trans (congrFun (V57_eq m c) _))
theorem W59_of (c : Dev nD) (r : Ref sig .tc) (h : r ∉ hostOps20_W) : W59 m c r = W58 m c r :=
  (congrFun (V59_eq m c).symm _).trans ((V59_of m (outs m) c r h).trans (congrFun (V58_eq m c) _))
theorem W60_of (c : Dev nD) (r : Ref sig .tc) (h : r ∉ ([main_v219] : List (Ref sig .tc))) : W60 m c r = W59 m c r :=
  (congrFun (V60_eq m c).symm _).trans ((V60_of m (outs m) c r h).trans (congrFun (V59_eq m c) _))

/-- Every region's proof data, each at the contents its region is entered with. -/
def pdats : (p : Fin 21) → (c : Dev nD) → Dat τ (Elt F) Unit ℕ (UR sig nD τ) ℕ (cfgs p) c
  | ⟨0, _⟩ => fun c => dat0 (T1 m) c
  | ⟨1, _⟩ => fun c => dat1 (T3 m) c
  | ⟨2, _⟩ => fun c => dat2 (T5 m) c
  | ⟨3, _⟩ => fun c => dat3 (T7 m) c
  | ⟨4, _⟩ => fun c => dat4 (T11 m) c
  | ⟨5, _⟩ => fun c => dat5 (T13 m) c
  | ⟨6, _⟩ => fun c => dat6 (T17 m) c
  | ⟨7, _⟩ => fun c => dat7 (T21 m) c
  | ⟨8, _⟩ => fun c => dat8 (T23 m) c
  | ⟨9, _⟩ => fun c => dat9 (T25 m) c
  | ⟨10, _⟩ => fun c => dat10 (T29 m) c
  | ⟨11, _⟩ => fun c => dat11 (T31 m) c
  | ⟨12, _⟩ => fun c => dat12 (T35 m) c
  | ⟨13, _⟩ => fun c => dat13 (T39 m) c
  | ⟨14, _⟩ => fun c => dat14 (T41 m) c
  | ⟨15, _⟩ => fun c => dat15 (T43 m) c
  | ⟨16, _⟩ => fun c => dat16 (T47 m) c
  | ⟨17, _⟩ => fun c => dat17 (T49 m) c
  | ⟨18, _⟩ => fun c => dat18 (T53 m) c
  | ⟨19, _⟩ => fun c => dat19 (T57 m) c
  | ⟨20, _⟩ => fun c => dat20 (T59 m) c
  | ⟨_ + 21, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

end Cert.KernelIdeal.Hand

end
-- ==== Proof.KI.Seg0.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 0's exit each of its arrays holds what its write-backs leave: an input its contents at entry, an output the new contents. -/
theorem hF0 (c : Dev nD) (w : Fin cfg0.W) : (dat0 (T1 m) c).arrAt w cfg0.N = T2 m c (Pipeline.arrRef spec0 w) := by
  match w with
  | ⟨0, _⟩ =>
    refine ((dat0 (T1 m) c).arrAt_in 0 rfl _).trans ((A_eq0 (T1 m) c 0).trans ?_)
    show W1 m c (Proc.devRef .tc (Pipeline.arrRef spec0 0)) = W2 m c (Proc.devRef .tc (Pipeline.arrRef spec0 0))
    unfold W2
    rw [Function.update_of_ne (StableHlo.devRef_ne_of_ne (by decide : Pipeline.arrRef spec0 0 ≠ Pipeline.arrRef spec0 3))]
  | ⟨1, _⟩ =>
    refine ((dat0 (T1 m) c).arrAt_in 1 rfl _).trans ((A_eq0 (T1 m) c 1).trans ?_)
    show W1 m c (Proc.devRef .tc (Pipeline.arrRef spec0 1)) = W2 m c (Proc.devRef .tc (Pipeline.arrRef spec0 1))
    unfold W2
    rw [Function.update_of_ne (StableHlo.devRef_ne_of_ne (by decide : Pipeline.arrRef spec0 1 ≠ Pipeline.arrRef spec0 3))]
  | ⟨2, _⟩ =>
    refine ((dat0 (T1 m) c).arrAt_in 2 rfl _).trans ((A_eq0 (T1 m) c 2).trans ?_)
    show W1 m c (Proc.devRef .tc (Pipeline.arrRef spec0 2)) = W2 m c (Proc.devRef .tc (Pipeline.arrRef spec0 2))
    unfold W2
    rw [Function.update_of_ne (StableHlo.devRef_ne_of_ne (by decide : Pipeline.arrRef spec0 2 ≠ Pipeline.arrRef spec0 3))]
  | ⟨3, _⟩ =>
    show (dat0 (T1 m) c).arrAt 3 cfg0.N = W2 m c (Proc.devRef .tc (Pipeline.arrRef spec0 3))
    unfold W2
    rw [Function.update_self]
theorem hrest0 (c : Dev nD) : ∀ b, b ∉ Finset.univ.image (Pipeline.arrRef spec0) → T2 m c b = T1 m c b := fun b hb => by
  show W2 m c (Proc.devRef .tc b) = W1 m c (Proc.devRef .tc b)
  unfold W2
  exact Function.update_of_ne (StableHlo.devRef_ne_of_ne fun e => hb (Finset.mem_image.mpr ⟨3, Finset.mem_univ _, e.symm⟩)) _ _

set_option backward.isDefEq.respectTransparency.types false in
/-- Region 0 over the thread state: entered with every unscoped buffer at boundary 1's contents, left at boundary 2's. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 1's exit each of its arrays holds what its write-backs leave: an input its contents at entry, an output the new contents. -/
theorem hF1 (c : Dev nD) (w : Fin cfg1.W) : (dat1 (T3 m) c).arrAt w cfg1.N = T4 m c (Pipeline.arrRef spec1 w) := by
  match w with
  | ⟨0, _⟩ =>
    refine ((dat1 (T3 m) c).arrAt_in 0 rfl _).trans ((A_eq1 (T3 m) c 0).trans ?_)
    show W3 m c (Proc.devRef .tc (Pipeline.arrRef spec1 0)) = W4 m c (Proc.devRef .tc (Pipeline.arrRef spec1 0))
    unfold W4
    rw [Function.update_of_ne (StableHlo.devRef_ne_of_ne (by decide : Pipeline.arrRef spec1 0 ≠ Pipeline.arrRef spec1 3))]
  | ⟨1, _⟩ =>
    refine ((dat1 (T3 m) c).arrAt_in 1 rfl _).trans ((A_eq1 (T3 m) c 1).trans ?_)
    show W3 m c (Proc.devRef .tc (Pipeline.arrRef spec1 1)) = W4 m c (Proc.devRef .tc (Pipeline.arrRef spec1 1))
    unfold W4
    rw [Function.update_of_ne (StableHlo.devRef_ne_of_ne (by decide : Pipeline.arrRef spec1 1 ≠ Pipeline.arrRef spec1 3))]
  | ⟨2, _⟩ =>
    refine ((dat1 (T3 m) c).arrAt_in 2 rfl _).trans ((A_eq1 (T3 m) c 2).trans ?_)
    show W3 m c (Proc.devRef .tc (Pipeline.arrRef spec1 2)) = W4 m c (Proc.devRef .tc (Pipeline.arrRef spec1 2))
    unfold W4
    rw [Function.update_of_ne (StableHlo.devRef_ne_of_ne (by decide : Pipeline.arrRef spec1 2 ≠ Pipeline.arrRef spec1 3))]
  | ⟨3, _⟩ =>
    show (dat1 (T3 m) c).arrAt 3 cfg1.N = W4 m c (Proc.devRef .tc (Pipeline.arrRef spec1 3))
    unfold W4
    rw [Function.update_self]
theorem hrest1 (c : Dev nD) : ∀ b, b ∉ Finset.univ.image (Pipeline.arrRef spec1) → T4 m c b = T3 m c b := fun b hb => by
  show W4 m c (Proc.devRef .tc b) = W3 m c (Proc.devRef .tc b)
  unfold W4
  exact Function.update_of_ne (StableHlo.devRef_ne_of_ne fun e => hb (Finset.mem_image.mpr ⟨3, Finset.mem_univ _, e.symm⟩)) _ _

set_option backward.isDefEq.respectTransparency.types false in
/-- Region 1 over the thread state: entered with every unscoped buffer at boundary 3's contents, left at boundary 4's. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 2's exit each of its arrays holds what its write-backs leave: an input its contents at entry, an output the new contents. -/
theorem hF2 (c : Dev nD) (w : Fin cfg2.W) : (dat2 (T5 m) c).arrAt w cfg2.N = T6 m c (Pipeline.arrRef spec2 w) := by
  match w with
  | ⟨0, _⟩ =>
    refine ((dat2 (T5 m) c).arrAt_in 0 rfl _).trans ((A_eq2 (T5 m) c 0).trans ?_)
    show W5 m c (Proc.devRef .tc (Pipeline.arrRef spec2 0)) = W6 m c (Proc.devRef .tc (Pipeline.arrRef spec2 0))
    unfold W6
    rw [Function.update_of_ne (StableHlo.devRef_ne_of_ne (by decide : Pipeline.arrRef spec2 0 ≠ Pipeline.arrRef spec2 3))]
  | ⟨1, _⟩ =>
    refine ((dat2 (T5 m) c).arrAt_in 1 rfl _).trans ((A_eq2 (T5 m) c 1).trans ?_)
    show W5 m c (Proc.devRef .tc (Pipeline.arrRef spec2 1)) = W6 m c (Proc.devRef .tc (Pipeline.arrRef spec2 1))
    unfold W6
    rw [Function.update_of_ne (StableHlo.devRef_ne_of_ne (by decide : Pipeline.arrRef spec2 1 ≠ Pipeline.arrRef spec2 3))]
  | ⟨2, _⟩ =>
    refine ((dat2 (T5 m) c).arrAt_in 2 rfl _).trans ((A_eq2 (T5 m) c 2).trans ?_)
    show W5 m c (Proc.devRef .tc (Pipeline.arrRef spec2 2)) = W6 m c (Proc.devRef .tc (Pipeline.arrRef spec2 2))
    unfold W6
    rw [Function.update_of_ne (StableHlo.devRef_ne_of_ne (by decide : Pipeline.arrRef spec2 2 ≠ Pipeline.arrRef spec2 3))]
  | ⟨3, _⟩ =>
    show (dat2 (T5 m) c).arrAt 3 cfg2.N = W6 m c (Proc.devRef .tc (Pipeline.arrRef spec2 3))
    unfold W6
    rw [Function.update_self]
theorem hrest2 (c : Dev nD) : ∀ b, b ∉ Finset.univ.image (Pipeline.arrRef spec2) → T6 m c b = T5 m c b := fun b hb => by
  show W6 m c (Proc.devRef .tc b) = W5 m c (Proc.devRef .tc b)
  unfold W6
  exact Function.update_of_ne (StableHlo.devRef_ne_of_ne fun e => hb (Finset.mem_image.mpr ⟨3, Finset.mem_univ _, e.symm⟩)) _ _

set_option backward.isDefEq.respectTransparency.types false in
/-- Region 2 over the thread state: entered with every unscoped buffer at boundary 5's contents, left at boundary 6's. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 3's exit each of its arrays holds what its write-backs leave: an input its contents at entry, an output the new contents. -/
theorem hF3 (c : Dev nD) (w : Fin cfg3.W) : (dat3 (T7 m) c).arrAt w cfg3.N = T8 m c (Pipeline.arrRef spec3 w) := by
  match w with
  | ⟨0, _⟩ =>
    refine ((dat3 (T7 m) c).arrAt_in 0 rfl _).trans ((A_eq3 (T7 m) c 0).trans ?_)
    show W7 m c (Proc.devRef .tc (Pipeline.arrRef spec3 0)) = W8 m c (Proc.devRef .tc (Pipeline.arrRef spec3 0))
    unfold W8
    rw [Function.update_of_ne (StableHlo.devRef_ne_of_ne (by decide : Pipeline.arrRef spec3 0 ≠ Pipeline.arrRef spec3 3))]
  | ⟨1, _⟩ =>
    refine ((dat3 (T7 m) c).arrAt_in 1 rfl _).trans ((A_eq3 (T7 m) c 1).trans ?_)
    show W7 m c (Proc.devRef .tc (Pipeline.arrRef spec3 1)) = W8 m c (Proc.devRef .tc (Pipeline.arrRef spec3 1))
    unfold W8
    rw [Function.update_of_ne (StableHlo.devRef_ne_of_ne (by decide : Pipeline.arrRef spec3 1 ≠ Pipeline.arrRef spec3 3))]
  | ⟨2, _⟩ =>
    refine ((dat3 (T7 m) c).arrAt_in 2 rfl _).trans ((A_eq3 (T7 m) c 2).trans ?_)
    show W7 m c (Proc.devRef .tc (Pipeline.arrRef spec3 2)) = W8 m c (Proc.devRef .tc (Pipeline.arrRef spec3 2))
    unfold W8
    rw [Function.update_of_ne (StableHlo.devRef_ne_of_ne (by decide : Pipeline.arrRef spec3 2 ≠ Pipeline.arrRef spec3 3))]
  | ⟨3, _⟩ =>
    show (dat3 (T7 m) c).arrAt 3 cfg3.N = W8 m c (Proc.devRef .tc (Pipeline.arrRef spec3 3))
    unfold W8
    rw [Function.update_self]
theorem hrest3 (c : Dev nD) : ∀ b, b ∉ Finset.univ.image (Pipeline.arrRef spec3) → T8 m c b = T7 m c b := fun b hb => by
  show W8 m c (Proc.devRef .tc b) = W7 m c (Proc.devRef .tc b)
  unfold W8
  exact Function.update_of_ne (StableHlo.devRef_ne_of_ne fun e => hb (Finset.mem_image.mpr ⟨3, Finset.mem_univ _, e.symm⟩)) _ _

set_option backward.isDefEq.respectTransparency.types false in
/-- Region 3 over the thread state: entered with every unscoped buffer at boundary 7's contents, left at boundary 8's. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (T7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T7 m c) (T8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 4's exit each of its arrays holds what its write-backs leave: an input its contents at entry, an output the new contents. -/
theorem hF4 (c : Dev nD) (w : Fin cfg4.W) : (dat4 (T11 m) c).arrAt w cfg4.N = T12 m c (Pipeline.arrRef spec4 w) := by
  match w with
  | ⟨0, _⟩ =>
    refine ((dat4 (T11 m) c).arrAt_in 0 rfl _).trans ((A_eq4 (T11 m) c 0).trans ?_)
    show W11 m c (Proc.devRef .tc (Pipeline.arrRef spec4 0)) = W12 m c (Proc.devRef .tc (Pipeline.arrRef spec4 0))
    unfold W12
    rw [Function.update_of_ne (StableHlo.devRef_ne_of_ne (by decide : Pipeline.arrRef spec4 0 ≠ Pipeline.arrRef spec4 6)), Function.update_of_ne (StableHlo.devRef_ne_of_ne (by decide : Pipeline.arrRef spec4 0 ≠ Pipeline.arrRef spec4 5)), Function.update_of_ne (StableHlo.devRef_ne_of_ne (by decide : Pipeline.arrRef spec4 0 ≠ Pipeline.arrRef spec4 4))]
  | ⟨1, _⟩ =>
    refine ((dat4 (T11 m) c).arrAt_in 1 rfl _).trans ((A_eq4 (T11 m) c 1).trans ?_)
    show W11 m c (Proc.devRef .tc (Pipeline.arrRef spec4 1)) = W12 m c (Proc.devRef .tc (Pipeline.arrRef spec4 1))
    unfold W12
    rw [Function.update_of_ne (StableHlo.devRef_ne_of_ne (by decide : Pipeline.arrRef spec4 1 ≠ Pipeline.arrRef spec4 6)), Function.update_of_ne (StableHlo.devRef_ne_of_ne (by decide : Pipeline.arrRef spec4 1 ≠ Pipeline.arrRef spec4 5)), Function.update_of_ne (StableHlo.devRef_ne_of_ne (by decide : Pipeline.arrRef spec4 1 ≠ Pipeline.arrRef spec4 4))]
  | ⟨2, _⟩ =>
    refine ((dat4 (T11 m) c).arrAt_in 2 rfl _).trans ((A_eq4 (T11 m) c 2).trans ?_)
    show W11 m c (Proc.devRef .tc (Pipeline.arrRef spec4 2)) = W12 m c (Proc.devRef .tc (Pipeline.arrRef spec4 2))
    unfold W12
    rw [Function.update_of_ne (StableHlo.devRef_ne_of_ne (by decide : Pipeline.arrRef spec4 2 ≠ Pipeline.arrRef spec4 6)), Function.update_of_ne (StableHlo.devRef_ne_of_ne (by decide : Pipeline.arrRef spec4 2 ≠ Pipeline.arrRef spec4 5)), Function.update_of_ne (StableHlo.devRef_ne_of_ne (by decide : Pipeline.arrRef spec4 2 ≠ Pipeline.arrRef spec4 4))]
  | ⟨3, _⟩ =>
    refine ((dat4 (T11 m) c).arrAt_in 3 rfl _).trans ((A_eq4 (T11 m) c 3).trans ?_)
    show W11 m c (Proc.devRef .tc (Pipeline.arrRef spec4 3)) = W12 m c (Proc.devRef .tc (Pipeline.arrRef spec4 3))
    unfold W12
    rw [Function.update_of_ne (StableHlo.devRef_ne_of_ne (by decide : Pipeline.arrRef spec4 3 ≠ Pipeline.arrRef spec4 6)), Function.update_of_ne (StableHlo.devRef_ne_of_ne (by decide : Pipeline.arrRef spec4 3 ≠ Pipeline.arrRef spec4 5)), Function.update_of_ne (StableHlo.devRef_ne_of_ne (by decide : Pipeline.arrRef spec4 3 ≠ Pipeline.arrRef spec4 4))]
  | ⟨4, _⟩ =>
    show (dat4 (T11 m) c).arrAt 4 cfg4.N = W12 m c (Proc.devRef .tc (Pipeline.arrRef spec4 4))
    unfold W12
    rw [Function.update_of_ne (StableHlo.devRef_ne_of_ne (by decide : Pipeline.arrRef spec4 4 ≠ Pipeline.arrRef spec4 6)), Function.update_of_ne (StableHlo.devRef_ne_of_ne (by decide : Pipeline.arrRef spec4 4 ≠ Pipeline.arrRef spec4 5)), Function.update_self]
  | ⟨5, _⟩ =>
    show (dat4 (T11 m) c).arrAt 5 cfg4.N = W12 m c (Proc.devRef .tc (Pipeline.arrRef spec4 5))
    unfold W12
    rw [Function.update_of_ne (StableHlo.devRef_ne_of_ne (by decide : Pipeline.arrRef spec4 5 ≠ Pipeline.arrRef spec4 6)), Function.update_self]
  | ⟨6, _⟩ =>
    show (dat4 (T11 m) c).arrAt 6 cfg4.N = W12 m c (Proc.devRef .tc (Pipeline.arrRef spec4 6))
    unfold W12
    rw [Function.update_self]
theorem hrest4 (c : Dev nD) : ∀ b, b ∉ Finset.univ.image (Pipeline.arrRef spec4) → T12 m c b = T11 m c b := fun b hb => by
  show W12 m c (Proc.devRef .tc b) = W11 m c (Proc.devRef .tc b)
  unfold W12
  exact (Function.update_of_ne (StableHlo.devRef_ne_of_ne fun e => hb (Finset.mem_image.mpr ⟨6, Finset.mem_univ _, e.symm⟩)) _ _).trans ((Function.update_of_ne (StableHlo.devRef_ne_of_ne fun e => hb (Finset.mem_image.mpr ⟨5, Finset.mem_univ _, e.symm⟩)) _ _).trans (Function.update_of_ne (StableHlo.devRef_ne_of_ne fun e => hb (Finset.mem_image.mpr ⟨4, Finset.mem_univ _, e.symm⟩)) _ _))

set_option backward.isDefEq.respectTransparency.types false in
/-- Region 4 over the thread state: entered with every unscoped buffer at boundary 11's contents, left at boundary 12's. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T11 m) c).loose
  hwaits := Pipeline.hwaits_of_owed_zero _ _ _ _ L lv 4 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec4 c (T11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (T11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T11 m c) (T12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg5.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 5's exit each of its arrays holds what its write-backs leave: an input its contents at entry, an output the new contents. -/
theorem hF5 (c : Dev nD) (w : Fin cfg5.W) : (dat5 (T13 m) c).arrAt w cfg5.N = T14 m c (Pipeline.arrRef spec5 w) := by
  match w with
  | ⟨0, _⟩ =>
    refine ((dat5 (T13 m) c).arrAt_in 0 rfl _).trans ((A_eq5 (T13 m) c 0).trans ?_)
    show W13 m c (Proc.devRef .tc (Pipeline.arrRef spec5 0)) = W14 m c (Proc.devRef .tc (Pipeline.arrRef spec5 0))
    unfold W14
    rw [Function.update_of_ne (StableHlo.devRef_ne_of_ne (by decide : Pipeline.arrRef spec5 0 ≠ Pipeline.arrRef spec5 3))]
  | ⟨1, _⟩ =>
    refine ((dat5 (T13 m) c).arrAt_in 1 rfl _).trans ((A_eq5 (T13 m) c 1).trans ?_)
    show W13 m c (Proc.devRef .tc (Pipeline.arrRef spec5 1)) = W14 m c (Proc.devRef .tc (Pipeline.arrRef spec5 1))
    unfold W14
    rw [Function.update_of_ne (StableHlo.devRef_ne_of_ne (by decide : Pipeline.arrRef spec5 1 ≠ Pipeline.arrRef spec5 3))]
  | ⟨2, _⟩ =>
    refine ((dat5 (T13 m) c).arrAt_in 2 rfl _).trans ((A_eq5 (T13 m) c 2).trans ?_)
    show W13 m c (Proc.devRef .tc (Pipeline.arrRef spec5 2)) = W14 m c (Proc.devRef .tc (Pipeline.arrRef spec5 2))
    unfold W14
    rw [Function.update_of_ne (StableHlo.devRef_ne_of_ne (by decide : Pipeline.arrRef spec5 2 ≠ Pipeline.arrRef spec5 3))]
  | ⟨3, _⟩ =>
    show (dat5 (T13 m) c).arrAt 3 cfg5.N = W14 m c (Proc.devRef .tc (Pipeline.arrRef spec5 3))
    unfold W14
    rw [Function.update_self]
theorem hrest5 (c : Dev nD) : ∀ b, b ∉ Finset.univ.image (Pipeline.arrRef spec5) → T14 m c b = T13 m c b := fun b hb => by
  show W14 m c (Proc.devRef .tc b) = W13 m c (Proc.devRef .tc b)
  unfold W14
  exact Function.update_of_ne (StableHlo.devRef_ne_of_ne fun e => hb (Finset.mem_image.mpr ⟨3, Finset.mem_univ _, e.symm⟩)) _ _

set_option backward.isDefEq.respectTransparency.types false in
/-- Region 5 over the thread state: entered with every unscoped buffer at boundary 13's contents, left at boundary 14's. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (T13 m) c).loose
  hwaits := Pipeline.hwaits_of_owed_zero _ _ _ _ L lv 5 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec5 c (T13 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (T13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (T13 m c) (T14 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg6.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 6's exit each of its arrays holds what its write-backs leave: an input its contents at entry, an output the new contents. -/
theorem hF6 (c : Dev nD) (w : Fin cfg6.W) : (dat6 (T17 m) c).arrAt w cfg6.N = T18 m c (Pipeline.arrRef spec6 w) := by
  match w with
  | ⟨0, _⟩ =>
    refine ((dat6 (T17 m) c).arrAt_in 0 rfl _).trans ((A_eq6 (T17 m) c 0).trans ?_)
    show W17 m c (Proc.devRef .tc (Pipeline.arrRef spec6 0)) = W18 m c (Proc.devRef .tc (Pipeline.arrRef spec6 0))
    unfold W18
    rw [Function.update_of_ne (StableHlo.devRef_ne_of_ne (by decide : Pipeline.arrRef spec6 0 ≠ Pipeline.arrRef spec6 6))]
  | ⟨1, _⟩ =>
    refine ((dat6 (T17 m) c).arrAt_in 1 rfl _).trans ((A_eq6 (T17 m) c 1).trans ?_)
    show W17 m c (Proc.devRef .tc (Pipeline.arrRef spec6 1)) = W18 m c (Proc.devRef .tc (Pipeline.arrRef spec6 1))
    unfold W18
    rw [Function.update_of_ne (StableHlo.devRef_ne_of_ne (by decide : Pipeline.arrRef spec6 1 ≠ Pipeline.arrRef spec6 6))]
  | ⟨2, _⟩ =>
    refine ((dat6 (T17 m) c).arrAt_in 2 rfl _).trans ((A_eq6 (T17 m) c 2).trans ?_)
    show W17 m c (Proc.devRef .tc (Pipeline.arrRef spec6 2)) = W18 m c (Proc.devRef .tc (Pipeline.arrRef spec6 2))
    unfold W18
    rw [Function.update_of_ne (StableHlo.devRef_ne_of_ne (by decide : Pipeline.arrRef spec6 2 ≠ Pipeline.arrRef spec6 6))]
  | ⟨3, _⟩ =>
    refine ((dat6 (T17 m) c).arrAt_in 3 rfl _).trans ((A_eq6 (T17 m) c 3).trans ?_)
    show W17 m c (Proc.devRef .tc (Pipeline.arrRef spec6 3)) = W18 m c (Proc.devRef .tc (Pipeline.arrRef spec6 3))
    unfold W18
    rw [Function.update_of_ne (StableHlo.devRef_ne_of_ne (by decide : Pipeline.arrRef spec6 3 ≠ Pipeline.arrRef spec6 6))]
  | ⟨4, _⟩ =>
    refine ((dat6 (T17 m) c).arrAt_in 4 rfl _).trans ((A_eq6 (T17 m) c 4).trans ?_)
    show W17 m c (Proc.devRef .tc (Pipeline.arrRef spec6 4)) = W18 m c (Proc.devRef .tc (Pipeline.arrRef spec6 4))
    unfold W18
    rw [Function.update_of_ne (StableHlo.devRef_ne_of_ne (by decide : Pipeline.arrRef spec6 4 ≠ Pipeline.arrRef spec6 6))]
  | ⟨5, _⟩ =>
    refine ((dat6 (T17 m) c).arrAt_in 5 rfl _).trans ((A_eq6 (T17 m) c 5).trans ?_)
    show W17 m c (Proc.devRef .tc (Pipeline.arrRef spec6 5)) = W18 m c (Proc.devRef .tc (Pipeline.arrRef spec6 5))
    unfold W18
    rw [Function.update_of_ne (StableHlo.devRef_ne_of_ne (by decide : Pipeline.arrRef spec6 5 ≠ Pipeline.arrRef spec6 6))]
  | ⟨6, _⟩ =>
    show (dat6 (T17 m) c).arrAt 6 cfg6.N = W18 m c (Proc.devRef .tc (Pipeline.arrRef spec6 6))
    unfold W18
    rw [Function.update_self]
theorem hrest6 (c : Dev nD) : ∀ b, b ∉ Finset.univ.image (Pipeline.arrRef spec6) → T18 m c b = T17 m c b := fun b hb => by
  show W18 m c (Proc.devRef .tc b) = W17 m c (Proc.devRef .tc b)
  unfold W18
  exact Function.update_of_ne (StableHlo.devRef_ne_of_ne fun e => hb (Finset.mem_image.mpr ⟨6, Finset.mem_univ _, e.symm⟩)) _ _

set_option backward.isDefEq.respectTransparency.types false in
/-- Region 6 over the thread state: entered with every unscoped buffer at boundary 17's contents, left at boundary 18's. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (T17 m) c).loose
  hwaits := Pipeline.hwaits_of_owed_zero _ _ _ _ L lv 6 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec6 c (T17 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (T17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (T17 m c) (T18 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg7.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 7's exit each of its arrays holds what its write-backs leave: an input its contents at entry, an output the new contents. -/
theorem hF7 (c : Dev nD) (w : Fin cfg7.W) : (dat7 (T21 m) c).arrAt w cfg7.N = T22 m c (Pipeline.arrRef spec7 w) := by
  match w with
  | ⟨0, _⟩ =>
    refine ((dat7 (T21 m) c).arrAt_in 0 rfl _).trans ((A_eq7 (T21 m) c 0).trans ?_)
    show W21 m c (Proc.devRef .tc (Pipeline.arrRef spec7 0)) = W22 m c (Proc.devRef .tc (Pipeline.arrRef spec7 0))
    unfold W22
    rw [Function.update_of_ne (StableHlo.devRef_ne_of_ne (by decide : Pipeline.arrRef spec7 0 ≠ Pipeline.arrRef spec7 6))]
  | ⟨1, _⟩ =>
    refine ((dat7 (T21 m) c).arrAt_in 1 rfl _).trans ((A_eq7 (T21 m) c 1).trans ?_)
    show W21 m c (Proc.devRef .tc (Pipeline.arrRef spec7 1)) = W22 m c (Proc.devRef .tc (Pipeline.arrRef spec7 1))
    unfold W22
    rw [Function.update_of_ne (StableHlo.devRef_ne_of_ne (by decide : Pipeline.arrRef spec7 1 ≠ Pipeline.arrRef spec7 6))]
  | ⟨2, _⟩ =>
    refine ((dat7 (T21 m) c).arrAt_in 2 rfl _).trans ((A_eq7 (T21 m) c 2).trans ?_)
    show W21 m c (Proc.devRef .tc (Pipeline.arrRef spec7 2)) = W22 m c (Proc.devRef .tc (Pipeline.arrRef spec7 2))
    unfold W22
    rw [Function.update_of_ne (StableHlo.devRef_ne_of_ne (by decide : Pipeline.arrRef spec7 2 ≠ Pipeline.arrRef spec7 6))]
  | ⟨3, _⟩ =>
    refine ((dat7 (T21 m) c).arrAt_in 3 rfl _).trans ((A_eq7 (T21 m) c 3).trans ?_)
    show W21 m c (Proc.devRef .tc (Pipeline.arrRef spec7 3)) = W22 m c (Proc.devRef .tc (Pipeline.arrRef spec7 3))
    unfold W22
    rw [Function.update_of_ne (StableHlo.devRef_ne_of_ne (by decide : Pipeline.arrRef spec7 3 ≠ Pipeline.arrRef spec7 6))]
  | ⟨4, _⟩ =>
    refine ((dat7 (T21 m) c).arrAt_in 4 rfl _).trans ((A_eq7 (T21 m) c 4).trans ?_)
    show W21 m c (Proc.devRef .tc (Pipeline.arrRef spec7 4)) = W22 m c (Proc.devRef .tc (Pipeline.arrRef spec7 4))
    unfold W22
    rw [Function.update_of_ne (StableHlo.devRef_ne_of_ne (by decide : Pipeline.arrRef spec7 4 ≠ Pipeline.arrRef spec7 6))]
  | ⟨5, _⟩ =>
    refine ((dat7 (T21 m) c).arrAt_in 5 rfl _).trans ((A_eq7 (T21 m) c 5).trans ?_)
    show W21 m c (Proc.devRef .tc (Pipeline.arrRef spec7 5)) = W22 m c (Proc.devRef .tc (Pipeline.arrRef spec7 5))
    unfold W22
    rw [Function.update_of_ne (StableHlo.devRef_ne_of_ne (by decide : Pipeline.arrRef spec7 5 ≠ Pipeline.arrRef spec7 6))]
  | ⟨6, _⟩ =>
    show (dat7 (T21 m) c).arrAt 6 cfg7.N = W22 m c (Proc.devRef .tc (Pipeline.arrRef spec7 6))
    unfold W22
    rw [Function.update_self]
theorem hrest7 (c : Dev nD) : ∀ b, b ∉ Finset.univ.image (Pipeline.arrRef spec7) → T22 m c b = T21 m c b := fun b hb => by
  show W22 m c (Proc.devRef .tc b) = W21 m c (Proc.devRef .tc b)
  unfold W22
  exact Function.update_of_ne (StableHlo.devRef_ne_of_ne fun e => hb (Finset.mem_image.mpr ⟨6, Finset.mem_univ _, e.symm⟩)) _ _

set_option backward.isDefEq.respectTransparency.types false in
/-- Region 7 over the thread state: entered with every unscoped buffer at boundary 21's contents, left at boundary 22's. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (T21 m) c).loose
  hwaits := Pipeline.hwaits_of_owed_zero _ _ _ _ L lv 7 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec7 c (T21 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (T21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (T21 m c) (T22 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg8.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 8's exit each of its arrays holds what its write-backs leave: an input its contents at entry, an output the new contents. -/
theorem hF8 (c : Dev nD) (w : Fin cfg8.W) : (dat8 (T23 m) c).arrAt w cfg8.N = T24 m c (Pipeline.arrRef spec8 w) := by
  match w with
  | ⟨0, _⟩ =>
    refine ((dat8 (T23 m) c).arrAt_in 0 rfl _).trans ((A_eq8 (T23 m) c 0).trans ?_)
    show W23 m c (Proc.devRef .tc (Pipeline.arrRef spec8 0)) = W24 m c (Proc.devRef .tc (Pipeline.arrRef spec8 0))
    unfold W24
    rw [Function.update_of_ne (StableHlo.devRef_ne_of_ne (by decide : Pipeline.arrRef spec8 0 ≠ Pipeline.arrRef spec8 3))]
  | ⟨1, _⟩ =>
    refine ((dat8 (T23 m) c).arrAt_in 1 rfl _).trans ((A_eq8 (T23 m) c 1).trans ?_)
    show W23 m c (Proc.devRef .tc (Pipeline.arrRef spec8 1)) = W24 m c (Proc.devRef .tc (Pipeline.arrRef spec8 1))
    unfold W24
    rw [Function.update_of_ne (StableHlo.devRef_ne_of_ne (by decide : Pipeline.arrRef spec8 1 ≠ Pipeline.arrRef spec8 3))]
  | ⟨2, _⟩ =>
    refine ((dat8 (T23 m) c).arrAt_in 2 rfl _).trans ((A_eq8 (T23 m) c 2).trans ?_)
    show W23 m c (Proc.devRef .tc (Pipeline.arrRef spec8 2)) = W24 m c (Proc.devRef .tc (Pipeline.arrRef spec8 2))
    unfold W24
    rw [Function.update_of_ne (StableHlo.devRef_ne_of_ne (by decide : Pipeline.arrRef spec8 2 ≠ Pipeline.arrRef spec8 3))]
  | ⟨3, _⟩ =>
    show (dat8 (T23 m) c).arrAt 3 cfg8.N = W24 m c (Proc.devRef .tc (Pipeline.arrRef spec8 3))
    unfold W24
    rw [Function.update_self]
theorem hrest8 (c : Dev nD) : ∀ b, b ∉ Finset.univ.image (Pipeline.arrRef spec8) → T24 m c b = T23 m c b := fun b hb => by
  show W24 m c (Proc.devRef .tc b) = W23 m c (Proc.devRef .tc b)
  unfold W24
  exact Function.update_of_ne (StableHlo.devRef_ne_of_ne fun e => hb (Finset.mem_image.mpr ⟨3, Finset.mem_univ _, e.symm⟩)) _ _

set_option backward.isDefEq.respectTransparency.types false in
/-- Region 8 over the thread state: entered with every unscoped buffer at boundary 23's contents, left at boundary 24's. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (T23 m) c).loose
  hwaits := Pipeline.hwaits_of_owed_zero _ _ _ _ L lv 8 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec8 c (T23 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (T23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (T23 m c) (T24 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg9.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 9's exit each of its arrays holds what its write-backs leave: an input its contents at entry, an output the new contents. -/
theorem hF9 (c : Dev nD) (w : Fin cfg9.W) : (dat9 (T25 m) c).arrAt w cfg9.N = T26 m c (Pipeline.arrRef spec9 w) := by
  match w with
  | ⟨0, _⟩ =>
    refine ((dat9 (T25 m) c).arrAt_in 0 rfl _).trans ((A_eq9 (T25 m) c 0).trans ?_)
    show W25 m c (Proc.devRef .tc (Pipeline.arrRef spec9 0)) = W26 m c (Proc.devRef .tc (Pipeline.arrRef spec9 0))
    unfold W26
    rw [Function.update_of_ne (StableHlo.devRef_ne_of_ne (by decide : Pipeline.arrRef spec9 0 ≠ Pipeline.arrRef spec9 3))]
  | ⟨1, _⟩ =>
    refine ((dat9 (T25 m) c).arrAt_in 1 rfl _).trans ((A_eq9 (T25 m) c 1).trans ?_)
    show W25 m c (Proc.devRef .tc (Pipeline.arrRef spec9 1)) = W26 m c (Proc.devRef .tc (Pipeline.arrRef spec9 1))
    unfold W26
    rw [Function.update_of_ne (StableHlo.devRef_ne_of_ne (by decide : Pipeline.arrRef spec9 1 ≠ Pipeline.arrRef spec9 3))]
  | ⟨2, _⟩ =>
    refine ((dat9 (T25 m) c).arrAt_in 2 rfl _).trans ((A_eq9 (T25 m) c 2).trans ?_)
    show W25 m c (Proc.devRef .tc (Pipeline.arrRef spec9 2)) = W26 m c (Proc.devRef .tc (Pipeline.arrRef spec9 2))
    unfold W26
    rw [Function.update_of_ne (StableHlo.devRef_ne_of_ne (by decide : Pipeline.arrRef spec9 2 ≠ Pipeline.arrRef spec9 3))]
  | ⟨3, _⟩ =>
    show (dat9 (T25 m) c).arrAt 3 cfg9.N = W26 m c (Proc.devRef .tc (Pipeline.arrRef spec9 3))
    unfold W26
    rw [Function.update_self]
theorem hrest9 (c : Dev nD) : ∀ b, b ∉ Finset.univ.image (Pipeline.arrRef spec9) → T26 m c b = T25 m c b := fun b hb => by
  show W26 m c (Proc.devRef .tc b) = W25 m c (Proc.devRef .tc b)
  unfold W26
  exact Function.update_of_ne (StableHlo.devRef_ne_of_ne fun e => hb (Finset.mem_image.mpr ⟨3, Finset.mem_univ _, e.symm⟩)) _ _

set_option backward.isDefEq.respectTransparency.types false in
/-- Region 9 over the thread state: entered with every unscoped buffer at boundary 25's contents, left at boundary 26's. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (T25 m) c).loose
  hwaits := Pipeline.hwaits_of_owed_zero _ _ _ _ L lv 9 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec9 c (T25 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (T25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (T25 m c) (T26 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg10.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 10's exit each of its arrays holds what its write-backs leave: an input its contents at entry, an output the new contents. -/
theorem hF10 (c : Dev nD) (w : Fin cfg10.W) : (dat10 (T29 m) c).arrAt w cfg10.N = T30 m c (Pipeline.arrRef spec10 w) := by
  match w with
  | ⟨0, _⟩ =>
    refine ((dat10 (T29 m) c).arrAt_in 0 rfl _).trans ((A_eq10 (T29 m) c 0).trans ?_)
    show W29 m c (Proc.devRef .tc (Pipeline.arrRef spec10 0)) = W30 m c (Proc.devRef .tc (Pipeline.arrRef spec10 0))
    unfold W30
    rw [Function.update_of_ne (StableHlo.devRef_ne_of_ne (by decide : Pipeline.arrRef spec10 0 ≠ Pipeline.arrRef spec10 6)), Function.update_of_ne (StableHlo.devRef_ne_of_ne (by decide : Pipeline.arrRef spec10 0 ≠ Pipeline.arrRef spec10 5)), Function.update_of_ne (StableHlo.devRef_ne_of_ne (by decide : Pipeline.arrRef spec10 0 ≠ Pipeline.arrRef spec10 4))]
  | ⟨1, _⟩ =>
    refine ((dat10 (T29 m) c).arrAt_in 1 rfl _).trans ((A_eq10 (T29 m) c 1).trans ?_)
    show W29 m c (Proc.devRef .tc (Pipeline.arrRef spec10 1)) = W30 m c (Proc.devRef .tc (Pipeline.arrRef spec10 1))
    unfold W30
    rw [Function.update_of_ne (StableHlo.devRef_ne_of_ne (by decide : Pipeline.arrRef spec10 1 ≠ Pipeline.arrRef spec10 6)), Function.update_of_ne (StableHlo.devRef_ne_of_ne (by decide : Pipeline.arrRef spec10 1 ≠ Pipeline.arrRef spec10 5)), Function.update_of_ne (StableHlo.devRef_ne_of_ne (by decide : Pipeline.arrRef spec10 1 ≠ Pipeline.arrRef spec10 4))]
  | ⟨2, _⟩ =>
    refine ((dat10 (T29 m) c).arrAt_in 2 rfl _).trans ((A_eq10 (T29 m) c 2).trans ?_)
    show W29 m c (Proc.devRef .tc (Pipeline.arrRef spec10 2)) = W30 m c (Proc.devRef .tc (Pipeline.arrRef spec10 2))
    unfold W30
    rw [Function.update_of_ne (StableHlo.devRef_ne_of_ne (by decide : Pipeline.arrRef spec10 2 ≠ Pipeline.arrRef spec10 6)), Function.update_of_ne (StableHlo.devRef_ne_of_ne (by decide : Pipeline.arrRef spec10 2 ≠ Pipeline.arrRef spec10 5)), Function.update_of_ne (StableHlo.devRef_ne_of_ne (by decide : Pipeline.arrRef spec10 2 ≠ Pipeline.arrRef spec10 4))]
  | ⟨3, _⟩ =>
    refine ((dat10 (T29 m) c).arrAt_in 3 rfl _).trans ((A_eq10 (T29 m) c 3).trans ?_)
    show W29 m c (Proc.devRef .tc (Pipeline.arrRef spec10 3)) = W30 m c (Proc.devRef .tc (Pipeline.arrRef spec10 3))
    unfold W30
    rw [Function.update_of_ne (StableHlo.devRef_ne_of_ne (by decide : Pipeline.arrRef spec10 3 ≠ Pipeline.arrRef spec10 6)), Function.update_of_ne (StableHlo.devRef_ne_of_ne (by decide : Pipeline.arrRef spec10 3 ≠ Pipeline.arrRef spec10 5)), Function.update_of_ne (StableHlo.devRef_ne_of_ne (by decide : Pipeline.arrRef spec10 3 ≠ Pipeline.arrRef spec10 4))]
  | ⟨4, _⟩ =>
    show (dat10 (T29 m) c).arrAt 4 cfg10.N = W30 m c (Proc.devRef .tc (Pipeline.arrRef spec10 4))
    unfold W30
    rw [Function.update_of_ne (StableHlo.devRef_ne_of_ne (by decide : Pipeline.arrRef spec10 4 ≠ Pipeline.arrRef spec10 6)), Function.update_of_ne (StableHlo.devRef_ne_of_ne (by decide : Pipeline.arrRef spec10 4 ≠ Pipeline.arrRef spec10 5)), Function.update_self]
  | ⟨5, _⟩ =>
    show (dat10 (T29 m) c).arrAt 5 cfg10.N = W30 m c (Proc.devRef .tc (Pipeline.arrRef spec10 5))
    unfold W30
    rw [Function.update_of_ne (StableHlo.devRef_ne_of_ne (by decide : Pipeline.arrRef spec10 5 ≠ Pipeline.arrRef spec10 6)), Function.update_self]
  | ⟨6, _⟩ =>
    show (dat10 (T29 m) c).arrAt 6 cfg10.N = W30 m c (Proc.devRef .tc (Pipeline.arrRef spec10 6))
    unfold W30
    rw [Function.update_self]
theorem hrest10 (c : Dev nD) : ∀ b, b ∉ Finset.univ.image (Pipeline.arrRef spec10) → T30 m c b = T29 m c b := fun b hb => by
  show W30 m c (Proc.devRef .tc b) = W29 m c (Proc.devRef .tc b)
  unfold W30
  exact (Function.update_of_ne (StableHlo.devRef_ne_of_ne fun e => hb (Finset.mem_image.mpr ⟨6, Finset.mem_univ _, e.symm⟩)) _ _).trans ((Function.update_of_ne (StableHlo.devRef_ne_of_ne fun e => hb (Finset.mem_image.mpr ⟨5, Finset.mem_univ _, e.symm⟩)) _ _).trans (Function.update_of_ne (StableHlo.devRef_ne_of_ne fun e => hb (Finset.mem_image.mpr ⟨4, Finset.mem_univ _, e.symm⟩)) _ _))

set_option backward.isDefEq.respectTransparency.types false in
/-- Region 10 over the thread state: entered with every unscoped buffer at boundary 29's contents, left at boundary 30's. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (T29 m) c).loose
  hwaits := Pipeline.hwaits_of_owed_zero _ _ _ _ L lv 10 fun _ _ => rfl
  pre c := iprop(StableHlo.held (c : Thread nD τ) (Pipeline.ucRefs τ sig) (W29 m c) ∗ R c)
  post c := iprop(StableHlo.held (c : Thread nD τ) (Pipeline.ucRefs τ sig) (W30 m c) ∗ R c)
  X c := iprop(∃ r, prngReg c r)
  Y c := iprop(∃ r, prngReg c r)
  Z c := Pipeline.unscopedRest (Ix := Unit) (Name := ℕ) (U := UR sig nD τ) (Lvl := ℕ) spec10 c (T29 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (T29 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (T29 m c) (T30 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg11.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 11's exit each of its arrays holds what its write-backs leave: an input its contents at entry, an output the new contents. -/
theorem hF11 (c : Dev nD) (w : Fin cfg11.W) : (dat11 (T31 m) c).arrAt w cfg11.N = T32 m c (Pipeline.arrRef spec11 w) := by
  match w with
  | ⟨0, _⟩ =>
    refine ((dat11 (T31 m) c).arrAt_in 0 rfl _).trans ((A_eq11 (T31 m) c 0).trans ?_)
    show W31 m c (Proc.devRef .tc (Pipeline.arrRef spec11 0)) = W32 m c (Proc.devRef .tc (Pipeline.arrRef spec11 0))
    unfold W32
    rw [Function.update_of_ne (StableHlo.devRef_ne_of_ne (by decide : Pipeline.arrRef spec11 0 ≠ Pipeline.arrRef spec11 3))]
  | ⟨1, _⟩ =>
    refine ((dat11 (T31 m) c).arrAt_in 1 rfl _).trans ((A_eq11 (T31 m) c 1).trans ?_)
    show W31 m c (Proc.devRef .tc (Pipeline.arrRef spec11 1)) = W32 m c (Proc.devRef .tc (Pipeline.arrRef spec11 1))
    unfold W32
    rw [Function.update_of_ne (StableHlo.devRef_ne_of_ne (by decide : Pipeline.arrRef spec11 1 ≠ Pipeline.arrRef spec11 3))]
  | ⟨2, _⟩ =>
    refine ((dat11 (T31 m) c).arrAt_in 2 rfl _).trans ((A_eq11 (T31 m) c 2).trans ?_)
    show W31 m c (Proc.devRef .tc (Pipeline.arrRef spec11 2)) = W32 m c (Proc.devRef .tc (Pipeline.arrRef spec11 2))
    unfold W32
    rw [Function.update_of_ne (StableHlo.devRef_ne_of_ne (by decide : Pipeline.arrRef spec11 2 ≠ Pipeline.arrRef spec11 3))]
  | ⟨3, _⟩ =>
    show (dat11 (T31 m) c).arrAt 3 cfg11.N = W32 m c (Proc.devRef .tc (Pipeline.arrRef spec11 3))
    unfold W32
    rw [Function.update_self]
theorem hrest11 (c : Dev nD) : ∀ b, b ∉ Finset.univ.image (Pipeline.arrRef spec11) → T32 m c b = T31 m c b := fun b hb => by
  show W32 m c (Proc.devRef .tc b) = W31 m c (Proc.devRef .tc b)
  unfold W32
  exact Function.update_of_ne (StableHlo.devRef_ne_of_ne fun e => hb (Finset.mem_image.mpr ⟨3, Finset.mem_univ _, e.symm⟩)) _ _

set_option backward.isDefEq.respectTransparency.types false in
/-- Region 11 over the thread state: entered with every unscoped buffer at boundary 31's contents, left at boundary 32's. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (T31 m) c).loose
  hwaits := Pipeline.hwaits_of_owed_zero _ _ _ _ L lv 11 fun _ _ => rfl
  pre c := iprop(StableHlo.held (c : Thread nD τ) (Pipeline.ucRefs τ sig) (W31 m c) ∗ R c)
  post c := iprop(StableHlo.held (c : Thread nD τ) (Pipeline.ucRefs τ sig) (W32 m c) ∗ R c)
  X c := iprop(∃ r, prngReg c r)
  Y c := iprop(∃ r, prngReg c r)
  Z c := Pipeline.unscopedRest (Ix := Unit) (Name := ℕ) (U := UR sig nD τ) (Lvl := ℕ) spec11 c (T31 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (T31 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (T31 m c) (T32 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg12.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 12's exit each of its arrays holds what its write-backs leave: an input its contents at entry, an output the new contents. -/
theorem hF12 (c : Dev nD) (w : Fin cfg12.W) : (dat12 (T35 m) c).arrAt w cfg12.N = T36 m c (Pipeline.arrRef spec12 w) := by
  match w with
  | ⟨0, _⟩ =>
    refine ((dat12 (T35 m) c).arrAt_in 0 rfl _).trans ((A_eq12 (T35 m) c 0).trans ?_)
    show W35 m c (Proc.devRef .tc (Pipeline.arrRef spec12 0)) = W36 m c (Proc.devRef .tc (Pipeline.arrRef spec12 0))
    unfold W36
    rw [Function.update_of_ne (StableHlo.devRef_ne_of_ne (by decide : Pipeline.arrRef spec12 0 ≠ Pipeline.arrRef spec12 6))]
  | ⟨1, _⟩ =>
    refine ((dat12 (T35 m) c).arrAt_in 1 rfl _).trans ((A_eq12 (T35 m) c 1).trans ?_)
    show W35 m c (Proc.devRef .tc (Pipeline.arrRef spec12 1)) = W36 m c (Proc.devRef .tc (Pipeline.arrRef spec12 1))
    unfold W36
    rw [Function.update_of_ne (StableHlo.devRef_ne_of_ne (by decide : Pipeline.arrRef spec12 1 ≠ Pipeline.arrRef spec12 6))]
  | ⟨2, _⟩ =>
    refine ((dat12 (T35 m) c).arrAt_in 2 rfl _).trans ((A_eq12 (T35 m) c 2).trans ?_)
    show W35 m c (Proc.devRef .tc (Pipeline.arrRef spec12 2)) = W36 m c (Proc.devRef .tc (Pipeline.arrRef spec12 2))
    unfold W36
    rw [Function.update_of_ne (StableHlo.devRef_ne_of_ne (by decide : Pipeline.arrRef spec12 2 ≠ Pipeline.arrRef spec12 6))]
  | ⟨3, _⟩ =>
    refine ((dat12 (T35 m) c).arrAt_in 3 rfl _).trans ((A_eq12 (T35 m) c 3).trans ?_)
    show W35 m c (Proc.devRef .tc (Pipeline.arrRef spec12 3)) = W36 m c (Proc.devRef .tc (Pipeline.arrRef spec12 3))
    unfold W36
    rw [Function.update_of_ne (StableHlo.devRef_ne_of_ne (by decide : Pipeline.arrRef spec12 3 ≠ Pipeline.arrRef spec12 6))]
  | ⟨4, _⟩ =>
    refine ((dat12 (T35 m) c).arrAt_in 4 rfl _).trans ((A_eq12 (T35 m) c 4).trans ?_)
    show W35 m c (Proc.devRef .tc (Pipeline.arrRef spec12 4)) = W36 m c (Proc.devRef .tc (Pipeline.arrRef spec12 4))
    unfold W36
    rw [Function.update_of_ne (StableHlo.devRef_ne_of_ne (by decide : Pipeline.arrRef spec12 4 ≠ Pipeline.arrRef spec12 6))]
  | ⟨5, _⟩ =>
    refine ((dat12 (T35 m) c).arrAt_in 5 rfl _).trans ((A_eq12 (T35 m) c 5).trans ?_)
    show W35 m c (Proc.devRef .tc (Pipeline.arrRef spec12 5)) = W36 m c (Proc.devRef .tc (Pipeline.arrRef spec12 5))
    unfold W36
    rw [Function.update_of_ne (StableHlo.devRef_ne_of_ne (by decide : Pipeline.arrRef spec12 5 ≠ Pipeline.arrRef spec12 6))]
  | ⟨6, _⟩ =>
    show (dat12 (T35 m) c).arrAt 6 cfg12.N = W36 m c (Proc.devRef .tc (Pipeline.arrRef spec12 6))
    unfold W36
    rw [Function.update_self]
theorem hrest12 (c : Dev nD) : ∀ b, b ∉ Finset.univ.image (Pipeline.arrRef spec12) → T36 m c b = T35 m c b := fun b hb => by
  show W36 m c (Proc.devRef .tc b) = W35 m c (Proc.devRef .tc b)
  unfold W36
  exact Function.update_of_ne (StableHlo.devRef_ne_of_ne fun e => hb (Finset.mem_image.mpr ⟨6, Finset.mem_univ _, e.symm⟩)) _ _

set_option backward.isDefEq.respectTransparency.types false in
/-- Region 12 over the thread state: entered with every unscoped buffer at boundary 35's contents, left at boundary 36's. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (T35 m) c).loose
  hwaits := Pipeline.hwaits_of_owed_zero _ _ _ _ L lv 12 fun _ _ => rfl
  pre c := iprop(StableHlo.held (c : Thread nD τ) (Pipeline.ucRefs τ sig) (W35 m c) ∗ R c)
  post c := iprop(StableHlo.held (c : Thread nD τ) (Pipeline.ucRefs τ sig) (W36 m c) ∗ R c)
  X c := iprop(∃ r, prngReg c r)
  Y c := iprop(∃ r, prngReg c r)
  Z c := Pipeline.unscopedRest (Ix := Unit) (Name := ℕ) (U := UR sig nD τ) (Lvl := ℕ) spec12 c (T35 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (T35 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (T35 m c) (T36 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg13.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 13's exit each of its arrays holds what its write-backs leave: an input its contents at entry, an output the new contents. -/
theorem hF13 (c : Dev nD) (w : Fin cfg13.W) : (dat13 (T39 m) c).arrAt w cfg13.N = T40 m c (Pipeline.arrRef spec13 w) := by
  match w with
  | ⟨0, _⟩ =>
    refine ((dat13 (T39 m) c).arrAt_in 0 rfl _).trans ((A_eq13 (T39 m) c 0).trans ?_)
    show W39 m c (Proc.devRef .tc (Pipeline.arrRef spec13 0)) = W40 m c (Proc.devRef .tc (Pipeline.arrRef spec13 0))
    unfold W40
    rw [Function.update_of_ne (StableHlo.devRef_ne_of_ne (by decide : Pipeline.arrRef spec13 0 ≠ Pipeline.arrRef spec13 6))]
  | ⟨1, _⟩ =>
    refine ((dat13 (T39 m) c).arrAt_in 1 rfl _).trans ((A_eq13 (T39 m) c 1).trans ?_)
    show W39 m c (Proc.devRef .tc (Pipeline.arrRef spec13 1)) = W40 m c (Proc.devRef .tc (Pipeline.arrRef spec13 1))
    unfold W40
    rw [Function.update_of_ne (StableHlo.devRef_ne_of_ne (by decide : Pipeline.arrRef spec13 1 ≠ Pipeline.arrRef spec13 6))]
  | ⟨2, _⟩ =>
    refine ((dat13 (T39 m) c).arrAt_in 2 rfl _).trans ((A_eq13 (T39 m) c 2).trans ?_)
    show W39 m c (Proc.devRef .tc (Pipeline.arrRef spec13 2)) = W40 m c (Proc.devRef .tc (Pipeline.arrRef spec13 2))
    unfold W40
    rw [Function.update_of_ne (StableHlo.devRef_ne_of_ne (by decide : Pipeline.arrRef spec13 2 ≠ Pipeline.arrRef spec13 6))]
  | ⟨3, _⟩ =>
    refine ((dat13 (T39 m) c).arrAt_in 3 rfl _).trans ((A_eq13 (T39 m) c 3).trans ?_)
    show W39 m c (Proc.devRef .tc (Pipeline.arrRef spec13 3)) = W40 m c (Proc.devRef .tc (Pipeline.arrRef spec13 3))
    unfold W40
    rw [Function.update_of_ne (StableHlo.devRef_ne_of_ne (by decide : Pipeline.arrRef spec13 3 ≠ Pipeline.arrRef spec13 6))]
  | ⟨4, _⟩ =>
    refine ((dat13 (T39 m) c).arrAt_in 4 rfl _).trans ((A_eq13 (T39 m) c 4).trans ?_)
    show W39 m c (Proc.devRef .tc (Pipeline.arrRef spec13 4)) = W40 m c (Proc.devRef .tc (Pipeline.arrRef spec13 4))
    unfold W40
    rw [Function.update_of_ne (StableHlo.devRef_ne_of_ne (by decide : Pipeline.arrRef spec13 4 ≠ Pipeline.arrRef spec13 6))]
  | ⟨5, _⟩ =>
    refine ((dat13 (T39 m) c).arrAt_in 5 rfl _).trans ((A_eq13 (T39 m) c 5).trans ?_)
    show W39 m c (Proc.devRef .tc (Pipeline.arrRef spec13 5)) = W40 m c (Proc.devRef .tc (Pipeline.arrRef spec13 5))
    unfold W40
    rw [Function.update_of_ne (StableHlo.devRef_ne_of_ne (by decide : Pipeline.arrRef spec13 5 ≠ Pipeline.arrRef spec13 6))]
  | ⟨6, _⟩ =>
    show (dat13 (T39 m) c).arrAt 6 cfg13.N = W40 m c (Proc.devRef .tc (Pipeline.arrRef spec13 6))
    unfold W40
    rw [Function.update_self]
theorem hrest13 (c : Dev nD) : ∀ b, b ∉ Finset.univ.image (Pipeline.arrRef spec13) → T40 m c b = T39 m c b := fun b hb => by
  show W40 m c (Proc.devRef .tc b) = W39 m c (Proc.devRef .tc b)
  unfold W40
  exact Function.update_of_ne (StableHlo.devRef_ne_of_ne fun e => hb (Finset.mem_image.mpr ⟨6, Finset.mem_univ _, e.symm⟩)) _ _

set_option backward.isDefEq.respectTransparency.types false in
/-- Region 13 over the thread state: entered with every unscoped buffer at boundary 39's contents, left at boundary 40's. -/
def reg13 : Pipeline.RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (T39 m) c).loose
  hwaits := Pipeline.hwaits_of_owed_zero _ _ _ _ L lv 13 fun _ _ => rfl
  pre c := iprop(StableHlo.held (c : Thread nD τ) (Pipeline.ucRefs τ sig) (W39 m c) ∗ R c)
  post c := iprop(StableHlo.held (c : Thread nD τ) (Pipeline.ucRefs τ sig) (W40 m c) ∗ R c)
  X c := iprop(∃ r, prngReg c r)
  Y c := iprop(∃ r, prngReg c r)
  Z c := Pipeline.unscopedRest (Ix := Unit) (Name := ℕ) (U := UR sig nD τ) (Lvl := ℕ) spec13 c (T39 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (T39 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (T39 m c) (T40 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg14.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 14's exit each of its arrays holds what its write-backs leave: an input its contents at entry, an output the new contents. -/
theorem hF14 (c : Dev nD) (w : Fin cfg14.W) : (dat14 (T41 m) c).arrAt w cfg14.N = T42 m c (Pipeline.arrRef spec14 w) := by
  match w with
  | ⟨0, _⟩ =>
    refine ((dat14 (T41 m) c).arrAt_in 0 rfl _).trans ((A_eq14 (T41 m) c 0).trans ?_)
    show W41 m c (Proc.devRef .tc (Pipeline.arrRef spec14 0)) = W42 m c (Proc.devRef .tc (Pipeline.arrRef spec14 0))
    unfold W42
    rw [Function.update_of_ne (StableHlo.devRef_ne_of_ne (by decide : Pipeline.arrRef spec14 0 ≠ Pipeline.arrRef spec14 3))]
  | ⟨1, _⟩ =>
    refine ((dat14 (T41 m) c).arrAt_in 1 rfl _).trans ((A_eq14 (T41 m) c 1).trans ?_)
    show W41 m c (Proc.devRef .tc (Pipeline.arrRef spec14 1)) = W42 m c (Proc.devRef .tc (Pipeline.arrRef spec14 1))
    unfold W42
    rw [Function.update_of_ne (StableHlo.devRef_ne_of_ne (by decide : Pipeline.arrRef spec14 1 ≠ Pipeline.arrRef spec14 3))]
  | ⟨2, _⟩ =>
    refine ((dat14 (T41 m) c).arrAt_in 2 rfl _).trans ((A_eq14 (T41 m) c 2).trans ?_)
    show W41 m c (Proc.devRef .tc (Pipeline.arrRef spec14 2)) = W42 m c (Proc.devRef .tc (Pipeline.arrRef spec14 2))
    unfold W42
    rw [Function.update_of_ne (StableHlo.devRef_ne_of_ne (by decide : Pipeline.arrRef spec14 2 ≠ Pipeline.arrRef spec14 3))]
  | ⟨3, _⟩ =>
    show (dat14 (T41 m) c).arrAt 3 cfg14.N = W42 m c (Proc.devRef .tc (Pipeline.arrRef spec14 3))
    unfold W42
    rw [Function.update_self]
theorem hrest14 (c : Dev nD) : ∀ b, b ∉ Finset.univ.image (Pipeline.arrRef spec14) → T42 m c b = T41 m c b := fun b hb => by
  show W42 m c (Proc.devRef .tc b) = W41 m c (Proc.devRef .tc b)
  unfold W42
  exact Function.update_of_ne (StableHlo.devRef_ne_of_ne fun e => hb (Finset.mem_image.mpr ⟨3, Finset.mem_univ _, e.symm⟩)) _ _

set_option backward.isDefEq.respectTransparency.types false in
/-- Region 14 over the thread state: entered with every unscoped buffer at boundary 41's contents, left at boundary 42's. -/
def reg14 : Pipeline.RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (T41 m) c).loose
  hwaits := Pipeline.hwaits_of_owed_zero _ _ _ _ L lv 14 fun _ _ => rfl
  pre c := iprop(StableHlo.held (c : Thread nD τ) (Pipeline.ucRefs τ sig) (W41 m c) ∗ R c)
  post c := iprop(StableHlo.held (c : Thread nD τ) (Pipeline.ucRefs τ sig) (W42 m c) ∗ R c)
  X c := iprop(∃ r, prngReg c r)
  Y c := iprop(∃ r, prngReg c r)
  Z c := Pipeline.unscopedRest (Ix := Unit) (Name := ℕ) (U := UR sig nD τ) (Lvl := ℕ) spec14 c (T41 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (T41 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (T41 m c) (T42 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg15.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 15's exit each of its arrays holds what its write-backs leave: an input its contents at entry, an output the new contents. -/
theorem hF15 (c : Dev nD) (w : Fin cfg15.W) : (dat15 (T43 m) c).arrAt w cfg15.N = T44 m c (Pipeline.arrRef spec15 w) := by
  match w with
  | ⟨0, _⟩ =>
    refine ((dat15 (T43 m) c).arrAt_in 0 rfl _).trans ((A_eq15 (T43 m) c 0).trans ?_)
    show W43 m c (Proc.devRef .tc (Pipeline.arrRef spec15 0)) = W44 m c (Proc.devRef .tc (Pipeline.arrRef spec15 0))
    unfold W44
    rw [Function.update_of_ne (StableHlo.devRef_ne_of_ne (by decide : Pipeline.arrRef spec15 0 ≠ Pipeline.arrRef spec15 3))]
  | ⟨1, _⟩ =>
    refine ((dat15 (T43 m) c).arrAt_in 1 rfl _).trans ((A_eq15 (T43 m) c 1).trans ?_)
    show W43 m c (Proc.devRef .tc (Pipeline.arrRef spec15 1)) = W44 m c (Proc.devRef .tc (Pipeline.arrRef spec15 1))
    unfold W44
    rw [Function.update_of_ne (StableHlo.devRef_ne_of_ne (by decide : Pipeline.arrRef spec15 1 ≠ Pipeline.arrRef spec15 3))]
  | ⟨2, _⟩ =>
    refine ((dat15 (T43 m) c).arrAt_in 2 rfl _).trans ((A_eq15 (T43 m) c 2).trans ?_)
    show W43 m c (Proc.devRef .tc (Pipeline.arrRef spec15 2)) = W44 m c (Proc.devRef .tc (Pipeline.arrRef spec15 2))
    unfold W44
    rw [Function.update_of_ne (StableHlo.devRef_ne_of_ne (by decide : Pipeline.arrRef spec15 2 ≠ Pipeline.arrRef spec15 3))]
  | ⟨3, _⟩ =>
    show (dat15 (T43 m) c).arrAt 3 cfg15.N = W44 m c (Proc.devRef .tc (Pipeline.arrRef spec15 3))
    unfold W44
    rw [Function.update_self]
theorem hrest15 (c : Dev nD) : ∀ b, b ∉ Finset.univ.image (Pipeline.arrRef spec15) → T44 m c b = T43 m c b := fun b hb => by
  show W44 m c (Proc.devRef .tc b) = W43 m c (Proc.devRef .tc b)
  unfold W44
  exact Function.update_of_ne (StableHlo.devRef_ne_of_ne fun e => hb (Finset.mem_image.mpr ⟨3, Finset.mem_univ _, e.symm⟩)) _ _

set_option backward.isDefEq.respectTransparency.types false in
/-- Region 15 over the thread state: entered with every unscoped buffer at boundary 43's contents, left at boundary 44's. -/
def reg15 : Pipeline.RegionSeg (pcfgs (F := F)) adm (pdats m) () defs₀ 𝒱₀ L lv 15 where
  win := launch15.win.to₀
  block_pos := launch15.block_pos
  stage_whole := launch15.stage_whole
  K := PEmpty
  osem k := k.elim
  ho := Pipeline.OwnSemFacts.none _
  hbody c := (body_obligation15 (T43 m) c).loose
  hwaits := Pipeline.hwaits_of_owed_zero _ _ _ _ L lv 15 fun _ _ => rfl
  pre c := iprop(StableHlo.held (c : Thread nD τ) (Pipeline.ucRefs τ sig) (W43 m c) ∗ R c)
  post c := iprop(StableHlo.held (c : Thread nD τ) (Pipeline.ucRefs τ sig) (W44 m c) ∗ R c)
  X c := iprop(∃ r, prngReg c r)
  Y c := iprop(∃ r, prngReg c r)
  Z c := Pipeline.unscopedRest (Ix := Unit) (Name := ℕ) (U := UR sig nD τ) (Lvl := ℕ) spec15 c (T43 m c)
  hentry c := by
    rw [Pipeline.ownSems0_none]
    have hsplit := Pipeline.arrays_of_unscopedBufs (p := 15) (pcfgs (F := F)) adm (pdats m) launch15.win launch15.arr_whole c
      ((pdats m 15 c).share_full fun _ => rfl) (T43 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m) ((pdats m 15 c).share_full fun _ => rfl)
      (T43 m c) (T44 m c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg16.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 16's exit each of its arrays holds what its write-backs leave: an input its contents at entry, an output the new contents. -/
theorem hF16 (c : Dev nD) (w : Fin cfg16.W) : (dat16 (T47 m) c).arrAt w cfg16.N = T48 m c (Pipeline.arrRef spec16 w) := by
  match w with
  | ⟨0, _⟩ =>
    refine ((dat16 (T47 m) c).arrAt_in 0 rfl _).trans ((A_eq16 (T47 m) c 0).trans ?_)
    show W47 m c (Proc.devRef .tc (Pipeline.arrRef spec16 0)) = W48 m c (Proc.devRef .tc (Pipeline.arrRef spec16 0))
    unfold W48
    rw [Function.update_of_ne (StableHlo.devRef_ne_of_ne (by decide : Pipeline.arrRef spec16 0 ≠ Pipeline.arrRef spec16 6)), Function.update_of_ne (StableHlo.devRef_ne_of_ne (by decide : Pipeline.arrRef spec16 0 ≠ Pipeline.arrRef spec16 5)), Function.update_of_ne (StableHlo.devRef_ne_of_ne (by decide : Pipeline.arrRef spec16 0 ≠ Pipeline.arrRef spec16 4))]
  | ⟨1, _⟩ =>
    refine ((dat16 (T47 m) c).arrAt_in 1 rfl _).trans ((A_eq16 (T47 m) c 1).trans ?_)
    show W47 m c (Proc.devRef .tc (Pipeline.arrRef spec16 1)) = W48 m c (Proc.devRef .tc (Pipeline.arrRef spec16 1))
    unfold W48
    rw [Function.update_of_ne (StableHlo.devRef_ne_of_ne (by decide : Pipeline.arrRef spec16 1 ≠ Pipeline.arrRef spec16 6)), Function.update_of_ne (StableHlo.devRef_ne_of_ne (by decide : Pipeline.arrRef spec16 1 ≠ Pipeline.arrRef spec16 5)), Function.update_of_ne (StableHlo.devRef_ne_of_ne (by decide : Pipeline.arrRef spec16 1 ≠ Pipeline.arrRef spec16 4))]
  | ⟨2, _⟩ =>
    refine ((dat16 (T47 m) c).arrAt_in 2 rfl _).trans ((A_eq16 (T47 m) c 2).trans ?_)
    show W47 m c (Proc.devRef .tc (Pipeline.arrRef spec16 2)) = W48 m c (Proc.devRef .tc (Pipeline.arrRef spec16 2))
    unfold W48
    rw [Function.update_of_ne (StableHlo.devRef_ne_of_ne (by decide : Pipeline.arrRef spec16 2 ≠ Pipeline.arrRef spec16 6)), Function.update_of_ne (StableHlo.devRef_ne_of_ne (by decide : Pipeline.arrRef spec16 2 ≠ Pipeline.arrRef spec16 5)), Function.update_of_ne (StableHlo.devRef_ne_of_ne (by decide : Pipeline.arrRef spec16 2 ≠ Pipeline.arrRef spec16 4))]
  | ⟨3, _⟩ =>
    refine ((dat16 (T47 m) c).arrAt_in 3 rfl _).trans ((A_eq16 (T47 m) c 3).trans ?_)
    show W47 m c (Proc.devRef .tc (Pipeline.arrRef spec16 3)) = W48 m c (Proc.devRef .tc (Pipeline.arrRef spec16 3))
    unfold W48
    rw [Function.update_of_ne (StableHlo.devRef_ne_of_ne (by decide : Pipeline.arrRef spec16 3 ≠ Pipeline.arrRef spec16 6)), Function.update_of_ne (StableHlo.devRef_ne_of_ne (by decide : Pipeline.arrRef spec16 3 ≠ Pipeline.arrRef spec16 5)), Function.update_of_ne (StableHlo.devRef_ne_of_ne (by decide : Pipeline.arrRef spec16 3 ≠ Pipeline.arrRef spec16 4))]
  | ⟨4, _⟩ =>
    show (dat16 (T47 m) c).arrAt 4 cfg16.N = W48 m c (Proc.devRef .tc (Pipeline.arrRef spec16 4))
    unfold W48
    rw [Function.update_of_ne (StableHlo.devRef_ne_of_ne (by decide : Pipeline.arrRef spec16 4 ≠ Pipeline.arrRef spec16 6)), Function.update_of_ne (StableHlo.devRef_ne_of_ne (by decide : Pipeline.arrRef spec16 4 ≠ Pipeline.arrRef spec16 5)), Function.update_self]
  | ⟨5, _⟩ =>
    show (dat16 (T47 m) c).arrAt 5 cfg16.N = W48 m c (Proc.devRef .tc (Pipeline.arrRef spec16 5))
    unfold W48
    rw [Function.update_of_ne (StableHlo.devRef_ne_of_ne (by decide : Pipeline.arrRef spec16 5 ≠ Pipeline.arrRef spec16 6)), Function.update_self]
  | ⟨6, _⟩ =>
    show (dat16 (T47 m) c).arrAt 6 cfg16.N = W48 m c (Proc.devRef .tc (Pipeline.arrRef spec16 6))
    unfold W48
    rw [Function.update_self]
theorem hrest16 (c : Dev nD) : ∀ b, b ∉ Finset.univ.image (Pipeline.arrRef spec16) → T48 m c b = T47 m c b := fun b hb => by
  show W48 m c (Proc.devRef .tc b) = W47 m c (Proc.devRef .tc b)
  unfold W48
  exact (Function.update_of_ne (StableHlo.devRef_ne_of_ne fun e => hb (Finset.mem_image.mpr ⟨6, Finset.mem_univ _, e.symm⟩)) _ _).trans ((Function.update_of_ne (StableHlo.devRef_ne_of_ne fun e => hb (Finset.mem_image.mpr ⟨5, Finset.mem_univ _, e.symm⟩)) _ _).trans (Function.update_of_ne (StableHlo.devRef_ne_of_ne fun e => hb (Finset.mem_image.mpr ⟨4, Finset.mem_univ _, e.symm⟩)) _ _))

set_option backward.isDefEq.respectTransparency.types false in
/-- Region 16 over the thread state: entered with every unscoped buffer at boundary 47's contents, left at boundary 48's. -/
def reg16 : Pipeline.RegionSeg (pcfgs (F := F)) adm (pdats m) () defs₀ 𝒱₀ L lv 16 where
  win := launch16.win.to₀
  block_pos := launch16.block_pos
  stage_whole := launch16.stage_whole
  K := PEmpty
  osem k := k.elim
  ho := Pipeline.OwnSemFacts.none _
  hbody c := (body_obligation16 (T47 m) c).loose
  hwaits := Pipeline.hwaits_of_owed_zero _ _ _ _ L lv 16 fun _ _ => rfl
  pre c := iprop(StableHlo.held (c : Thread nD τ) (Pipeline.ucRefs τ sig) (W47 m c) ∗ R c)
  post c := iprop(StableHlo.held (c : Thread nD τ) (Pipeline.ucRefs τ sig) (W48 m c) ∗ R c)
  X c := iprop(∃ r, prngReg c r)
  Y c := iprop(∃ r, prngReg c r)
  Z c := Pipeline.unscopedRest (Ix := Unit) (Name := ℕ) (U := UR sig nD τ) (Lvl := ℕ) spec16 c (T47 m c)
  hentry c := by
    rw [Pipeline.ownSems0_none]
    have hsplit := Pipeline.arrays_of_unscopedBufs (p := 16) (pcfgs (F := F)) adm (pdats m) launch16.win launch16.arr_whole c
      ((pdats m 16 c).share_full fun _ => rfl) (T47 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m) ((pdats m 16 c).share_full fun _ => rfl)
      (T47 m c) (T48 m c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg17.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 17's exit each of its arrays holds what its write-backs leave: an input its contents at entry, an output the new contents. -/
theorem hF17 (c : Dev nD) (w : Fin cfg17.W) : (dat17 (T49 m) c).arrAt w cfg17.N = T50 m c (Pipeline.arrRef spec17 w) := by
  match w with
  | ⟨0, _⟩ =>
    refine ((dat17 (T49 m) c).arrAt_in 0 rfl _).trans ((A_eq17 (T49 m) c 0).trans ?_)
    show W49 m c (Proc.devRef .tc (Pipeline.arrRef spec17 0)) = W50 m c (Proc.devRef .tc (Pipeline.arrRef spec17 0))
    unfold W50
    rw [Function.update_of_ne (StableHlo.devRef_ne_of_ne (by decide : Pipeline.arrRef spec17 0 ≠ Pipeline.arrRef spec17 3))]
  | ⟨1, _⟩ =>
    refine ((dat17 (T49 m) c).arrAt_in 1 rfl _).trans ((A_eq17 (T49 m) c 1).trans ?_)
    show W49 m c (Proc.devRef .tc (Pipeline.arrRef spec17 1)) = W50 m c (Proc.devRef .tc (Pipeline.arrRef spec17 1))
    unfold W50
    rw [Function.update_of_ne (StableHlo.devRef_ne_of_ne (by decide : Pipeline.arrRef spec17 1 ≠ Pipeline.arrRef spec17 3))]
  | ⟨2, _⟩ =>
    refine ((dat17 (T49 m) c).arrAt_in 2 rfl _).trans ((A_eq17 (T49 m) c 2).trans ?_)
    show W49 m c (Proc.devRef .tc (Pipeline.arrRef spec17 2)) = W50 m c (Proc.devRef .tc (Pipeline.arrRef spec17 2))
    unfold W50
    rw [Function.update_of_ne (StableHlo.devRef_ne_of_ne (by decide : Pipeline.arrRef spec17 2 ≠ Pipeline.arrRef spec17 3))]
  | ⟨3, _⟩ =>
    show (dat17 (T49 m) c).arrAt 3 cfg17.N = W50 m c (Proc.devRef .tc (Pipeline.arrRef spec17 3))
    unfold W50
    rw [Function.update_self]
theorem hrest17 (c : Dev nD) : ∀ b, b ∉ Finset.univ.image (Pipeline.arrRef spec17) → T50 m c b = T49 m c b := fun b hb => by
  show W50 m c (Proc.devRef .tc b) = W49 m c (Proc.devRef .tc b)
  unfold W50
  exact Function.update_of_ne (StableHlo.devRef_ne_of_ne fun e => hb (Finset.mem_image.mpr ⟨3, Finset.mem_univ _, e.symm⟩)) _ _

set_option backward.isDefEq.respectTransparency.types false in
/-- Region 17 over the thread state: entered with every unscoped buffer at boundary 49's contents, left at boundary 50's. -/
def reg17 : Pipeline.RegionSeg (pcfgs (F := F)) adm (pdats m) () defs₀ 𝒱₀ L lv 17 where
  win := launch17.win.to₀
  block_pos := launch17.block_pos
  stage_whole := launch17.stage_whole
  K := PEmpty
  osem k := k.elim
  ho := Pipeline.OwnSemFacts.none _
  hbody c := (body_obligation17 (T49 m) c).loose
  hwaits := Pipeline.hwaits_of_owed_zero _ _ _ _ L lv 17 fun _ _ => rfl
  pre c := iprop(StableHlo.held (c : Thread nD τ) (Pipeline.ucRefs τ sig) (W49 m c) ∗ R c)
  post c := iprop(StableHlo.held (c : Thread nD τ) (Pipeline.ucRefs τ sig) (W50 m c) ∗ R c)
  X c := iprop(∃ r, prngReg c r)
  Y c := iprop(∃ r, prngReg c r)
  Z c := Pipeline.unscopedRest (Ix := Unit) (Name := ℕ) (U := UR sig nD τ) (Lvl := ℕ) spec17 c (T49 m c)
  hentry c := by
    rw [Pipeline.ownSems0_none]
    have hsplit := Pipeline.arrays_of_unscopedBufs (p := 17) (pcfgs (F := F)) adm (pdats m) launch17.win launch17.arr_whole c
      ((pdats m 17 c).share_full fun _ => rfl) (T49 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m) ((pdats m 17 c).share_full fun _ => rfl)
      (T49 m c) (T50 m c) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg18.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 18's exit each of its arrays holds what its write-backs leave: an input its contents at entry, an output the new contents. -/
theorem hF18 (c : Dev nD) (w : Fin cfg18.W) : (dat18 (T53 m) c).arrAt w cfg18.N = T54 m c (Pipeline.arrRef spec18 w) := by
  match w with
  | ⟨0, _⟩ =>
    refine ((dat18 (T53 m) c).arrAt_in 0 rfl _).trans ((A_eq18 (T53 m) c 0).trans ?_)
    show W53 m c (Proc.devRef .tc (Pipeline.arrRef spec18 0)) = W54 m c (Proc.devRef .tc (Pipeline.arrRef spec18 0))
    unfold W54
    rw [Function.update_of_ne (StableHlo.devRef_ne_of_ne (by decide : Pipeline.arrRef spec18 0 ≠ Pipeline.arrRef spec18 6))]
  | ⟨1, _⟩ =>
    refine ((dat18 (T53 m) c).arrAt_in 1 rfl _).trans ((A_eq18 (T53 m) c 1).trans ?_)
    show W53 m c (Proc.devRef .tc (Pipeline.arrRef spec18 1)) = W54 m c (Proc.devRef .tc (Pipeline.arrRef spec18 1))
    unfold W54
    rw [Function.update_of_ne (StableHlo.devRef_ne_of_ne (by decide : Pipeline.arrRef spec18 1 ≠ Pipeline.arrRef spec18 6))]
  | ⟨2, _⟩ =>
    refine ((dat18 (T53 m) c).arrAt_in 2 rfl _).trans ((A_eq18 (T53 m) c 2).trans ?_)
    show W53 m c (Proc.devRef .tc (Pipeline.arrRef spec18 2)) = W54 m c (Proc.devRef .tc (Pipeline.arrRef spec18 2))
    unfold W54
    rw [Function.update_of_ne (StableHlo.devRef_ne_of_ne (by decide : Pipeline.arrRef spec18 2 ≠ Pipeline.arrRef spec18 6))]
  | ⟨3, _⟩ =>
    refine ((dat18 (T53 m) c).arrAt_in 3 rfl _).trans ((A_eq18 (T53 m) c 3).trans ?_)
    show W53 m c (Proc.devRef .tc (Pipeline.arrRef spec18 3)) = W54 m c (Proc.devRef .tc (Pipeline.arrRef spec18 3))
    unfold W54
    rw [Function.update_of_ne (StableHlo.devRef_ne_of_ne (by decide : Pipeline.arrRef spec18 3 ≠ Pipeline.arrRef spec18 6))]
  | ⟨4, _⟩ =>
    refine ((dat18 (T53 m) c).arrAt_in 4 rfl _).trans ((A_eq18 (T53 m) c 4).trans ?_)
    show W53 m c (Proc.devRef .tc (Pipeline.arrRef spec18 4)) = W54 m c (Proc.devRef .tc (Pipeline.arrRef spec18 4))
    unfold W54
    rw [Function.update_of_ne (StableHlo.devRef_ne_of_ne (by decide : Pipeline.arrRef spec18 4 ≠ Pipeline.arrRef spec18 6))]
  | ⟨5, _⟩ =>
    refine ((dat18 (T53 m) c).arrAt_in 5 rfl _).trans ((A_eq18 (T53 m) c 5).trans ?_)
    show W53 m c (Proc.devRef .tc (Pipeline.arrRef spec18 5)) = W54 m c (Proc.devRef .tc (Pipeline.arrRef spec18 5))
    unfold W54
    rw [Function.update_of_ne (StableHlo.devRef_ne_of_ne (by decide : Pipeline.arrRef spec18 5 ≠ Pipeline.arrRef spec18 6))]
  | ⟨6, _⟩ =>
    show (dat18 (T53 m) c).arrAt 6 cfg18.N = W54 m c (Proc.devRef .tc (Pipeline.arrRef spec18 6))
    unfold W54
    rw [Function.update_self]
theorem hrest18 (c : Dev nD) : ∀ b, b ∉ Finset.univ.image (Pipeline.arrRef spec18) → T54 m c b = T53 m c b := fun b hb => by
  show W54 m c (Proc.devRef .tc b) = W53 m c (Proc.devRef .tc b)
  unfold W54
  exact Function.update_of_ne (StableHlo.devRef_ne_of_ne fun e => hb (Finset.mem_image.mpr ⟨6, Finset.mem_univ _, e.symm⟩)) _ _

set_option backward.isDefEq.respectTransparency.types false in
/-- Region 18 over the thread state: entered with every unscoped buffer at boundary 53's contents, left at boundary 54's. -/
def reg18 : Pipeline.RegionSeg (pcfgs (F := F)) adm (pdats m) () defs₀ 𝒱₀ L lv 18 where
  win := launch18.win.to₀
  block_pos := launch18.block_pos
  stage_whole := launch18.stage_whole
  K := PEmpty
  osem k := k.elim
  ho := Pipeline.OwnSemFacts.none _
  hbody c := (body_obligation18 (T53 m) c).loose
  hwaits := Pipeline.hwaits_of_owed_zero _ _ _ _ L lv 18 fun _ _ => rfl
  pre c := iprop(StableHlo.held (c : Thread nD τ) (Pipeline.ucRefs τ sig) (W53 m c) ∗ R c)
  post c := iprop(StableHlo.held (c : Thread nD τ) (Pipeline.ucRefs τ sig) (W54 m c) ∗ R c)
  X c := iprop(∃ r, prngReg c r)
  Y c := iprop(∃ r, prngReg c r)
  Z c := Pipeline.unscopedRest (Ix := Unit) (Name := ℕ) (U := UR sig nD τ) (Lvl := ℕ) spec18 c (T53 m c)
  hentry c := by
    rw [Pipeline.ownSems0_none]
    have hsplit := Pipeline.arrays_of_unscopedBufs (p := 18) (pcfgs (F := F)) adm (pdats m) launch18.win launch18.arr_whole c
      ((pdats m 18 c).share_full fun _ => rfl) (T53 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m) ((pdats m 18 c).share_full fun _ => rfl)
      (T53 m c) (T54 m c) ((pdats m 18 c).arrAt · cfg18.N) (hF18 m c) (hrest18 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg19.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 19's exit each of its arrays holds what its write-backs leave: an input its contents at entry, an output the new contents. -/
theorem hF19 (c : Dev nD) (w : Fin cfg19.W) : (dat19 (T57 m) c).arrAt w cfg19.N = T58 m c (Pipeline.arrRef spec19 w) := by
  match w with
  | ⟨0, _⟩ =>
    refine ((dat19 (T57 m) c).arrAt_in 0 rfl _).trans ((A_eq19 (T57 m) c 0).trans ?_)
    show W57 m c (Proc.devRef .tc (Pipeline.arrRef spec19 0)) = W58 m c (Proc.devRef .tc (Pipeline.arrRef spec19 0))
    unfold W58
    rw [Function.update_of_ne (StableHlo.devRef_ne_of_ne (by decide : Pipeline.arrRef spec19 0 ≠ Pipeline.arrRef spec19 6))]
  | ⟨1, _⟩ =>
    refine ((dat19 (T57 m) c).arrAt_in 1 rfl _).trans ((A_eq19 (T57 m) c 1).trans ?_)
    show W57 m c (Proc.devRef .tc (Pipeline.arrRef spec19 1)) = W58 m c (Proc.devRef .tc (Pipeline.arrRef spec19 1))
    unfold W58
    rw [Function.update_of_ne (StableHlo.devRef_ne_of_ne (by decide : Pipeline.arrRef spec19 1 ≠ Pipeline.arrRef spec19 6))]
  | ⟨2, _⟩ =>
    refine ((dat19 (T57 m) c).arrAt_in 2 rfl _).trans ((A_eq19 (T57 m) c 2).trans ?_)
    show W57 m c (Proc.devRef .tc (Pipeline.arrRef spec19 2)) = W58 m c (Proc.devRef .tc (Pipeline.arrRef spec19 2))
    unfold W58
    rw [Function.update_of_ne (StableHlo.devRef_ne_of_ne (by decide : Pipeline.arrRef spec19 2 ≠ Pipeline.arrRef spec19 6))]
  | ⟨3, _⟩ =>
    refine ((dat19 (T57 m) c).arrAt_in 3 rfl _).trans ((A_eq19 (T57 m) c 3).trans ?_)
    show W57 m c (Proc.devRef .tc (Pipeline.arrRef spec19 3)) = W58 m c (Proc.devRef .tc (Pipeline.arrRef spec19 3))
    unfold W58
    rw [Function.update_of_ne (StableHlo.devRef_ne_of_ne (by decide : Pipeline.arrRef spec19 3 ≠ Pipeline.arrRef spec19 6))]
  | ⟨4, _⟩ =>
    refine ((dat19 (T57 m) c).arrAt_in 4 rfl _).trans ((A_eq19 (T57 m) c 4).trans ?_)
    show W57 m c (Proc.devRef .tc (Pipeline.arrRef spec19 4)) = W58 m c (Proc.devRef .tc (Pipeline.arrRef spec19 4))
    unfold W58
    rw [Function.update_of_ne (StableHlo.devRef_ne_of_ne (by decide : Pipeline.arrRef spec19 4 ≠ Pipeline.arrRef spec19 6))]
  | ⟨5, _⟩ =>
    refine ((dat19 (T57 m) c).arrAt_in 5 rfl _).trans ((A_eq19 (T57 m) c 5).trans ?_)
    show W57 m c (Proc.devRef .tc (Pipeline.arrRef spec19 5)) = W58 m c (Proc.devRef .tc (Pipeline.arrRef spec19 5))
    unfold W58
    rw [Function.update_of_ne (StableHlo.devRef_ne_of_ne (by decide : Pipeline.arrRef spec19 5 ≠ Pipeline.arrRef spec19 6))]
  | ⟨6, _⟩ =>
    show (dat19 (T57 m) c).arrAt 6 cfg19.N = W58 m c (Proc.devRef .tc (Pipeline.arrRef spec19 6))
    unfold W58
    rw [Function.update_self]
theorem hrest19 (c : Dev nD) : ∀ b, b ∉ Finset.univ.image (Pipeline.arrRef spec19) → T58 m c b = T57 m c b := fun b hb => by
  show W58 m c (Proc.devRef .tc b) = W57 m c (Proc.devRef .tc b)
  unfold W58
  exact Function.update_of_ne (StableHlo.devRef_ne_of_ne fun e => hb (Finset.mem_image.mpr ⟨6, Finset.mem_univ _, e.symm⟩)) _ _

set_option backward.isDefEq.respectTransparency.types false in
/-- Region 19 over the thread state: entered with every unscoped buffer at boundary 57's contents, left at boundary 58's. -/
def reg19 : Pipeline.RegionSeg (pcfgs (F := F)) adm (pdats m) () defs₀ 𝒱₀ L lv 19 where
  win := launch19.win.to₀
  block_pos := launch19.block_pos
  stage_whole := launch19.stage_whole
  K := PEmpty
  osem k := k.elim
  ho := Pipeline.OwnSemFacts.none _
  hbody c := (body_obligation19 (T57 m) c).loose
  hwaits := Pipeline.hwaits_of_owed_zero _ _ _ _ L lv 19 fun _ _ => rfl
  pre c := iprop(StableHlo.held (c : Thread nD τ) (Pipeline.ucRefs τ sig) (W57 m c) ∗ R c)
  post c := iprop(StableHlo.held (c : Thread nD τ) (Pipeline.ucRefs τ sig) (W58 m c) ∗ R c)
  X c := iprop(∃ r, prngReg c r)
  Y c := iprop(∃ r, prngReg c r)
  Z c := Pipeline.unscopedRest (Ix := Unit) (Name := ℕ) (U := UR sig nD τ) (Lvl := ℕ) spec19 c (T57 m c)
  hentry c := by
    rw [Pipeline.ownSems0_none]
    have hsplit := Pipeline.arrays_of_unscopedBufs (p := 19) (pcfgs (F := F)) adm (pdats m) launch19.win launch19.arr_whole c
      ((pdats m 19 c).share_full fun _ => rfl) (T57 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 19 c).Φ 0 = Pipeline.ΦA spec19 c from rfl]; unfold Pipeline.ΦA
    iintro ⟨Hp, -, Hr⟩
    isplitl [Hr]; · iexact Hr
    iexact Hp
  hout c := by
    rw [Pipeline.ownSems0_none, show (pdats m 19 c).Φ (Fin.last _) = Pipeline.ΦA spec19 c from rfl]; unfold Pipeline.ΦA
    iintro ⟨Hr, Hp⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (pdats m) ((pdats m 19 c).share_full fun _ => rfl)
      (T57 m c) (T58 m c) ((pdats m 19 c).arrAt · cfg19.N) (hF19 m c) (hrest19 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg20.lean ====
import proofs.«431450_j74423193305350_1_alg».proof.Proof.KI.Fold

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1600000 in
/-- At region 20's exit each of its arrays holds what its write-backs leave: an input its contents at entry, an output the new contents. -/
theorem hF20 (c : Dev nD) (w : Fin cfg20.W) : (dat20 (T59 m) c).arrAt w cfg20.N = T60 m c (Pipeline.arrRef spec20 w) := by
  match w with
  | ⟨0, _⟩ =>
    refine ((dat20 (T59 m) c).arrAt_in 0 rfl _).trans ((A_eq20 (T59 m) c 0).trans ?_)
    show W59 m c (Proc.devRef .tc (Pipeline.arrRef spec20 0)) = W60 m c (Proc.devRef .tc (Pipeline.arrRef spec20 0))
    unfold W60
    rw [Function.update_of_ne (StableHlo.devRef_ne_of_ne (by decide : Pipeline.arrRef spec20 0 ≠ Pipeline.arrRef spec20 7))]
  | ⟨1, _⟩ =>
    refine ((dat20 (T59 m) c).arrAt_in 1 rfl _).trans ((A_eq20 (T59 m) c 1).trans ?_)
    show W59 m c (Proc.devRef .tc (Pipeline.arrRef spec20 1)) = W60 m c (Proc.devRef .tc (Pipeline.arrRef spec20 1))
    unfold W60
    rw [Function.update_of_ne (StableHlo.devRef_ne_of_ne (by decide : Pipeline.arrRef spec20 1 ≠ Pipeline.arrRef spec20 7))]
  | ⟨2, _⟩ =>
    refine ((dat20 (T59 m) c).arrAt_in 2 rfl _).trans ((A_eq20 (T59 m) c 2).trans ?_)
    show W59 m c (Proc.devRef .tc (Pipeline.arrRef spec20 2)) = W60 m c (Proc.devRef .tc (Pipeline.arrRef spec20 2))
    unfold W60
    rw [Function.update_of_ne (StableHlo.devRef_ne_of_ne (by decide : Pipeline.arrRef spec20 2 ≠ Pipeline.arrRef spec20 7))]
  | ⟨3, _⟩ =>
    refine ((dat20 (T59 m) c).arrAt_in 3 rfl _).trans ((A_eq20 (T59 m) c 3).trans ?_)
    show W59 m c (Proc.devRef .tc (Pipeline.arrRef spec20 3)) = W60 m c (Proc.devRef .tc (Pipeline.arrRef spec20 3))
    unfold W60
    rw [Function.update_of_ne (StableHlo.devRef_ne_of_ne (by decide : Pipeline.arrRef spec20 3 ≠ Pipeline.arrRef spec20 7))]
  | ⟨4, _⟩ =>
    refine ((dat20 (T59 m) c).arrAt_in 4 rfl _).trans ((A_eq20 (T59 m) c 4).trans ?_)
    show W59 m c (Proc.devRef .tc (Pipeline.arrRef spec20 4)) = W60 m c (Proc.devRef .tc (Pipeline.arrRef spec20 4))
    unfold W60
    rw [Function.update_of_ne (StableHlo.devRef_ne_of_ne (by decide : Pipeline.arrRef spec20 4 ≠ Pipeline.arrRef spec20 7))]
  | ⟨5, _⟩ =>
    refine ((dat20 (T59 m) c).arrAt_in 5 rfl _).trans ((A_eq20 (T59 m) c 5).trans ?_)
    show W59 m c (Proc.devRef .tc (Pipeline.arrRef spec20 5)) = W60 m c (Proc.devRef .tc (Pipeline.arrRef spec20 5))
    unfold W60
    rw [Function.update_of_ne (StableHlo.devRef_ne_of_ne (by decide : Pipeline.arrRef spec20 5 ≠ Pipeline.arrRef spec20 7))]
  | ⟨6, _⟩ =>
    refine ((dat20 (T59 m) c).arrAt_in 6 rfl _).trans ((A_eq20 (T59 m) c 6).trans ?_)
    show W59 m c (Proc.devRef .tc (Pipeline.arrRef spec20 6)) = W60 m c (Proc.devRef .tc (Pipeline.arrRef spec20 6))
    unfold W60
    rw [Function.update_of_ne (StableHlo.devRef_ne_of_ne (by decide : Pipeline.arrRef spec20 6 ≠ Pipeline.arrRef spec20 7))]
  | ⟨7, _⟩ =>
    show (dat20 (T59 m) c).arrAt 7 cfg20.N = W60 m c (Proc.devRef .tc (Pipeline.arrRef spec20 7))
    unfold W60
    rw [Function.update_self]
theorem hrest20 (c : Dev nD) : ∀ b, b ∉ Finset.univ.image (Pipeline.arrRef spec20) → T60 m c b = T59 m c b := fun b hb => by
  show W60 m c (Proc.devRef .tc b) = W59 m c (Proc.devRef .tc b)
  unfold W60
  exact Function.update_of_ne (StableHlo.devRef_ne_of_ne fun e => hb (Finset.mem_image.mpr ⟨7, Finset.mem_univ _, e.symm⟩)) _ _

set_option backward.isDefEq.respectTransparency.types false in
/-- Region 20 over the thread state: entered with every unscoped buffer at boundary 59's contents, left at boundary 60's. -/
def reg20 : Pipeline.RegionSeg (pcfgs (F := F)) adm (pdats m) () defs₀ 𝒱₀ L lv 20 where
  win := launch20.win.to₀
  block_pos := launch20.block_pos
  stage_whole := launch20.stage_whole
  K := PEmpty
  osem k := k.elim
  ho := Pipeline.OwnSemFacts.none _
  hbody c := (body_obligation20 (T59 m) c).loose
  hwaits := Pipeline.hwaits_of_owed_zero _ _ _ _ L lv 20 fun _ _ => rfl
  pre c := iprop(StableHlo.held (c : Thread nD τ) (Pipeline.ucRefs τ sig) (W59 m c) ∗ R c)
  post c := iprop(StableHlo.held (c : Thread nD τ) (Pipeline.ucRefs τ sig) (W60 m c) ∗ R c)
  X c := iprop(∃ r, prngReg c r)
  Y c := iprop(∃ r, prngReg c r)
  Z c := Pipeline.unscopedRest (Ix := Unit) (Name := ℕ) (U := UR sig nD τ) (Lvl := ℕ) spec20 c (T59 m c)
  hentry c := by
    rw [Pipeline.ownSems0_none]
    have hsplit := Pipeline.arrays_of_unscopedBufs (p := 20) (pcfgs (F := F)) adm (pdats m) launch20.win launch20.arr_whole c
      ((pdats m 20 c).share_full fun _ => rfl) (T59 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) adm (Ix := Unit) (Name := ℕ) (U := UR sig nD τ) (Lvl := ℕ)
      launch20.win launch20.arr_whole c (pdats m) ((pdats m 20 c).share_full fun _ => rfl)
      (T59 m c) (T60 m c) ((pdats m 20 c).arrAt · cfg20.N) (hF20 m c) (hrest20 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
import proofs.«431450_j74423193305350_1_alg».proof.Proof.KI.Seg0
import proofs.«431450_j74423193305350_1_alg».proof.Proof.KI.Seg1
import proofs.«431450_j74423193305350_1_alg».proof.Proof.KI.Seg2
import proofs.«431450_j74423193305350_1_alg».proof.Proof.KI.Seg3
import proofs.«431450_j74423193305350_1_alg».proof.Proof.KI.Seg4
import proofs.«431450_j74423193305350_1_alg».proof.Proof.KI.Seg5
import proofs.«431450_j74423193305350_1_alg».proof.Proof.KI.Seg6
import proofs.«431450_j74423193305350_1_alg».proof.Proof.KI.Seg7
import proofs.«431450_j74423193305350_1_alg».proof.Proof.KI.Seg8
import proofs.«431450_j74423193305350_1_alg».proof.Proof.KI.Seg9
import proofs.«431450_j74423193305350_1_alg».proof.Proof.KI.Seg10
import proofs.«431450_j74423193305350_1_alg».proof.Proof.KI.Seg11
import proofs.«431450_j74423193305350_1_alg».proof.Proof.KI.Seg12
import proofs.«431450_j74423193305350_1_alg».proof.Proof.KI.Seg13
import proofs.«431450_j74423193305350_1_alg».proof.Proof.KI.Seg14
import proofs.«431450_j74423193305350_1_alg».proof.Proof.KI.Seg15
import proofs.«431450_j74423193305350_1_alg».proof.Proof.KI.Seg16
import proofs.«431450_j74423193305350_1_alg».proof.Proof.KI.Seg17
import proofs.«431450_j74423193305350_1_alg».proof.Proof.KI.Seg18
import proofs.«431450_j74423193305350_1_alg».proof.Proof.KI.Seg19
import proofs.«431450_j74423193305350_1_alg».proof.Proof.KI.Seg20

/-! The regions as segments over the boundaries' contents, and the launch of @main: every weakly fair execution
    terminates, nothing faulting, with every unscoped buffer at the last boundary's contents. -/
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 16000000 in
set_option backward.isDefEq.respectTransparency.types false in
/-- THE RUN: from any memory with zero counters every weakly fair execution of @main terminates, nothing faulting, and the
    final memory holds every unscoped buffer at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W60 m c b) := by
  have h := run_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE21 := fun c => by iintro ⟨-, HO⟩; iexact HO)
    (R0 := reg0 m) (hpre0 := fun c => by rw [V1_eq]; exact .rfl) (hpost0 := fun c => by rw [V2_eq]; exact .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)
    (R4 := reg4 m) (hpre4 := fun c => by rw [V11_eq]; exact .rfl) (hpost4 := fun c => by rw [V12_eq]; exact .rfl)
    (R5 := reg5 m) (hpre5 := fun c => by rw [V13_eq]; exact .rfl) (hpost5 := fun c => by rw [V14_eq]; exact .rfl)
    (R6 := reg6 m) (hpre6 := fun c => by rw [V17_eq]; exact .rfl) (hpost6 := fun c => by rw [V18_eq]; exact .rfl)
    (R7 := reg7 m) (hpre7 := fun c => by rw [V21_eq]; exact .rfl) (hpost7 := fun c => by rw [V22_eq]; exact .rfl)
    (R8 := reg8 m) (hpre8 := fun c => by rw [V23_eq]; exact .rfl) (hpost8 := fun c => by rw [V24_eq]; exact .rfl)
    (R9 := reg9 m) (hpre9 := fun c => by rw [V25_eq]; exact .rfl) (hpost9 := fun c => by rw [V26_eq]; exact .rfl)
    (R10 := reg10 m) (hpre10 := fun c => by rw [V29_eq]; exact .rfl) (hpost10 := fun c => by rw [V30_eq]; exact .rfl)
    (R11 := reg11 m) (hpre11 := fun c => by rw [V31_eq]; exact .rfl) (hpost11 := fun c => by rw [V32_eq]; exact .rfl)
    (R12 := reg12 m) (hpre12 := fun c => by rw [V35_eq]; exact .rfl) (hpost12 := fun c => by rw [V36_eq]; exact .rfl)
    (R13 := reg13 m) (hpre13 := fun c => by rw [V39_eq]; exact .rfl) (hpost13 := fun c => by rw [V40_eq]; exact .rfl)
    (R14 := reg14 m) (hpre14 := fun c => by rw [V41_eq]; exact .rfl) (hpost14 := fun c => by rw [V42_eq]; exact .rfl)
    (R15 := reg15 m) (hpre15 := fun c => by rw [V43_eq]; exact .rfl) (hpost15 := fun c => by rw [V44_eq]; exact .rfl)
    (R16 := reg16 m) (hpre16 := fun c => by rw [V47_eq]; exact .rfl) (hpost16 := fun c => by rw [V48_eq]; exact .rfl)
    (R17 := reg17 m) (hpre17 := fun c => by rw [V49_eq]; exact .rfl) (hpost17 := fun c => by rw [V50_eq]; exact .rfl)
    (R18 := reg18 m) (hpre18 := fun c => by rw [V53_eq]; exact .rfl) (hpost18 := fun c => by rw [V54_eq]; exact .rfl)
    (R19 := reg19 m) (hpre19 := fun c => by rw [V57_eq]; exact .rfl) (hpost19 := fun c => by rw [V58_eq]; exact .rfl)
    (R20 := reg20 m) (hpre20 := fun c => by rw [V59_eq]; exact .rfl) (hpost20 := fun c => by rw [V60_eq]; exact .rfl)
  exact (θ_run defs _ _).mono (fun r hr c b hb => (hr c b hb).trans (congrFun (V60_eq m c) b)) h

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem W60_main_arg0 (c : Dev nD) : W60 m c main_arg0 = m ((c : Thread nD τ).loc main_arg0) :=
  (congrFun (V60_eq m c).symm _).trans (V60_main_arg0 m (outs m) c)
theorem W60_main_arg1 (c : Dev nD) : W60 m c main_arg1 = m ((c : Thread nD τ).loc main_arg1) :=
  (congrFun (V60_eq m c).symm _).trans (V60_main_arg1 m (outs m) c)
theorem W60_main_arg2 (c : Dev nD) : W60 m c main_arg2 = m ((c : Thread nD τ).loc main_arg2) :=
  (congrFun (V60_eq m c).symm _).trans (V60_main_arg2 m (outs m) c)
theorem W60_main_arg3 (c : Dev nD) : W60 m c main_arg3 = m ((c : Thread nD τ).loc main_arg3) :=
  (congrFun (V60_eq m c).symm _).trans (V60_main_arg3 m (outs m) c)
theorem W60_main_arg4 (c : Dev nD) : W60 m c main_arg4 = m ((c : Thread nD τ).loc main_arg4) :=
  (congrFun (V60_eq m c).symm _).trans (V60_main_arg4 m (outs m) c)
theorem W60_main_arg5 (c : Dev nD) : W60 m c main_arg5 = m ((c : Thread nD τ).loc main_arg5) :=
  (congrFun (V60_eq m c).symm _).trans (V60_main_arg5 m (outs m) c)
theorem W60_main_arg6 (c : Dev nD) : W60 m c main_arg6 = m ((c : Thread nD τ).loc main_arg6) :=
  (congrFun (V60_eq m c).symm _).trans (V60_main_arg6 m (outs m) c)
theorem W60_main_arg7 (c : Dev nD) : W60 m c main_arg7 = m ((c : Thread nD τ).loc main_arg7) :=
  (congrFun (V60_eq m c).symm _).trans (V60_main_arg7 m (outs m) c)
theorem W60_main_arg8 (c : Dev nD) : W60 m c main_arg8 = m ((c : Thread nD τ).loc main_arg8) :=
  (congrFun (V60_eq m c).symm _).trans (V60_main_arg8 m (outs m) c)
theorem W60_main_arg9 (c : Dev nD) : W60 m c main_arg9 = m ((c : Thread nD τ).loc main_arg9) :=
  (congrFun (V60_eq m c).symm _).trans (V60_main_arg9 m (outs m) c)
theorem W60_main_arg10 (c : Dev nD) : W60 m c main_arg10 = m ((c : Thread nD τ).loc main_arg10) :=
  (congrFun (V60_eq m c).symm _).trans (V60_main_arg10 m (outs m) c)
theorem W60_main_arg11 (c : Dev nD) : W60 m c main_arg11 = m ((c : Thread nD τ).loc main_arg11) :=
  (congrFun (V60_eq m c).symm _).trans (V60_main_arg11 m (outs m) c)
theorem W60_main_arg12 (c : Dev nD) : W60 m c main_arg12 = m ((c : Thread nD τ).loc main_arg12) :=
  (congrFun (V60_eq m c).symm _).trans (V60_main_arg12 m (outs m) c)
theorem W60_main_arg13 (c : Dev nD) : W60 m c main_arg13 = m ((c : Thread nD τ).loc main_arg13) :=
  (congrFun (V60_eq m c).symm _).trans (V60_main_arg13 m (outs m) c)
theorem W60_main_arg14 (c : Dev nD) : W60 m c main_arg14 = m ((c : Thread nD τ).loc main_arg14) :=
  (congrFun (V60_eq m c).symm _).trans (V60_main_arg14 m (outs m) c)
theorem W60_main_arg15 (c : Dev nD) : W60 m c main_arg15 = m ((c : Thread nD τ).loc main_arg15) :=
  (congrFun (V60_eq m c).symm _).trans (V60_main_arg15 m (outs m) c)
theorem W60_main_arg16 (c : Dev nD) : W60 m c main_arg16 = m ((c : Thread nD τ).loc main_arg16) :=
  (congrFun (V60_eq m c).symm _).trans (V60_main_arg16 m (outs m) c)
theorem W60_main_arg17 (c : Dev nD) : W60 m c main_arg17 = m ((c : Thread nD τ).loc main_arg17) :=
  (congrFun (V60_eq m c).symm _).trans (V60_main_arg17 m (outs m) c)
theorem W60_main_arg18 (c : Dev nD) : W60 m c main_arg18 = m ((c : Thread nD τ).loc main_arg18) :=
  (congrFun (V60_eq m c).symm _).trans (V60_main_arg18 m (outs m) c)
theorem W60_main_arg19 (c : Dev nD) : W60 m c main_arg19 = m ((c : Thread nD τ).loc main_arg19) :=
  (congrFun (V60_eq m c).symm _).trans (V60_main_arg19 m (outs m) c)
theorem W60_main_arg20 (c : Dev nD) : W60 m c main_arg20 = m ((c : Thread nD τ).loc main_arg20) :=
  (congrFun (V60_eq m c).symm _).trans (V60_main_arg20 m (outs m) c)
theorem W60_main_arg21 (c : Dev nD) : W60 m c main_arg21 = m ((c : Thread nD τ).loc main_arg21) :=
  (congrFun (V60_eq m c).symm _).trans (V60_main_arg21 m (outs m) c)
theorem W60_main_arg22 (c : Dev nD) : W60 m c main_arg22 = m ((c : Thread nD τ).loc main_arg22) :=
  (congrFun (V60_eq m c).symm _).trans (V60_main_arg22 m (outs m) c)
theorem W60_main_arg23 (c : Dev nD) : W60 m c main_arg23 = m ((c : Thread nD τ).loc main_arg23) :=
  (congrFun (V60_eq m c).symm _).trans (V60_main_arg23 m (outs m) c)
theorem W60_main_arg24 (c : Dev nD) : W60 m c main_arg24 = m ((c : Thread nD τ).loc main_arg24) :=
  (congrFun (V60_eq m c).symm _).trans (V60_main_arg24 m (outs m) c)
theorem W60_main_arg25 (c : Dev nD) : W60 m c main_arg25 = m ((c : Thread nD τ).loc main_arg25) :=
  (congrFun (V60_eq m c).symm _).trans (V60_main_arg25 m (outs m) c)
theorem W60_main_arg26 (c : Dev nD) : W60 m c main_arg26 = m ((c : Thread nD τ).loc main_arg26) :=
  (congrFun (V60_eq m c).symm _).trans (V60_main_arg26 m (outs m) c)
theorem W60_main_arg27 (c : Dev nD) : W60 m c main_arg27 = m ((c : Thread nD τ).loc main_arg27) :=
  (congrFun (V60_eq m c).symm _).trans (V60_main_arg27 m (outs m) c)
theorem W60_main_arg28 (c : Dev nD) : W60 m c main_arg28 = m ((c : Thread nD τ).loc main_arg28) :=
  (congrFun (V60_eq m c).symm _).trans (V60_main_arg28 m (outs m) c)
theorem W60_main_arg29 (c : Dev nD) : W60 m c main_arg29 = m ((c : Thread nD τ).loc main_arg29) :=
  (congrFun (V60_eq m c).symm _).trans (V60_main_arg29 m (outs m) c)

/-- THE FRAME: every weakly fair execution terminates, nothing faulting, every argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c => ⟨(h c _ (mem_uc main_arg0 (by decide))).trans (W60_main_arg0 m c),
    (h c _ (mem_uc main_arg1 (by decide))).trans (W60_main_arg1 m c),
    (h c _ (mem_uc main_arg2 (by decide))).trans (W60_main_arg2 m c),
    (h c _ (mem_uc main_arg3 (by decide))).trans (W60_main_arg3 m c),
    (h c _ (mem_uc main_arg4 (by decide))).trans (W60_main_arg4 m c),
    (h c _ (mem_uc main_arg5 (by decide))).trans (W60_main_arg5 m c),
    (h c _ (mem_uc main_arg6 (by decide))).trans (W60_main_arg6 m c),
    (h c _ (mem_uc main_arg7 (by decide))).trans (W60_main_arg7 m c),
    (h c _ (mem_uc main_arg8 (by decide))).trans (W60_main_arg8 m c),
    (h c _ (mem_uc main_arg9 (by decide))).trans (W60_main_arg9 m c),
    (h c _ (mem_uc main_arg10 (by decide))).trans (W60_main_arg10 m c),
    (h c _ (mem_uc main_arg11 (by decide))).trans (W60_main_arg11 m c),
    (h c _ (mem_uc main_arg12 (by decide))).trans (W60_main_arg12 m c),
    (h c _ (mem_uc main_arg13 (by decide))).trans (W60_main_arg13 m c),
    (h c _ (mem_uc main_arg14 (by decide))).trans (W60_main_arg14 m c),
    (h c _ (mem_uc main_arg15 (by decide))).trans (W60_main_arg15 m c),
    (h c _ (mem_uc main_arg16 (by decide))).trans (W60_main_arg16 m c),
    (h c _ (mem_uc main_arg17 (by decide))).trans (W60_main_arg17 m c),
    (h c _ (mem_uc main_arg18 (by decide))).trans (W60_main_arg18 m c),
    (h c _ (mem_uc main_arg19 (by decide))).trans (W60_main_arg19 m c),
    (h c _ (mem_uc main_arg20 (by decide))).trans (W60_main_arg20 m c),
    (h c _ (mem_uc main_arg21 (by decide))).trans (W60_main_arg21 m c),
    (h c _ (mem_uc main_arg22 (by decide))).trans (W60_main_arg22 m c),
    (h c _ (mem_uc main_arg23 (by decide))).trans (W60_main_arg23 m c),
    (h c _ (mem_uc main_arg24 (by decide))).trans (W60_main_arg24 m c),
    (h c _ (mem_uc main_arg25 (by decide))).trans (W60_main_arg25 m c),
    (h c _ (mem_uc main_arg26 (by decide))).trans (W60_main_arg26 m c),
    (h c _ (mem_uc main_arg27 (by decide))).trans (W60_main_arg27 m c),
    (h c _ (mem_uc main_arg28 (by decide))).trans (W60_main_arg28 m c),
    (h c _ (mem_uc main_arg29 (by decide))).trans (W60_main_arg29 m c)⟩)
    (run_all m ρ)

/-- The run with its result: the result array at the last boundary's contents, every argument array as launched. -/
theorem run_res (ρ : Dev nD → PrngReg) :
    θ_run defs (onTc (τ := τ) (main (F := F))) ⟨m, fun _ => 0, ρ⟩ (fun r => ∀ c : Dev nD,
      r.2.mem ((c.tc : Thread nD τ).loc main_v219) = W60 m c main_v219
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c => ⟨h c _ (mem_uc main_v219 (by decide)),
    (h c _ (mem_uc main_arg0 (by decide))).trans (W60_main_arg0 m c),
    (h c _ (mem_uc main_arg1 (by decide))).trans (W60_main_arg1 m c),
    (h c _ (mem_uc main_arg2 (by decide))).trans (W60_main_arg2 m c),
    (h c _ (mem_uc main_arg3 (by decide))).trans (W60_main_arg3 m c),
    (h c _ (mem_uc main_arg4 (by decide))).trans (W60_main_arg4 m c),
    (h c _ (mem_uc main_arg5 (by decide))).trans (W60_main_arg5 m c),
    (h c _ (mem_uc main_arg6 (by decide))).trans (W60_main_arg6 m c),
    (h c _ (mem_uc main_arg7 (by decide))).trans (W60_main_arg7 m c),
    (h c _ (mem_uc main_arg8 (by decide))).trans (W60_main_arg8 m c),
    (h c _ (mem_uc main_arg9 (by decide))).trans (W60_main_arg9 m c),
    (h c _ (mem_uc main_arg10 (by decide))).trans (W60_main_arg10 m c),
    (h c _ (mem_uc main_arg11 (by decide))).trans (W60_main_arg11 m c),
    (h c _ (mem_uc main_arg12 (by decide))).trans (W60_main_arg12 m c),
    (h c _ (mem_uc main_arg13 (by decide))).trans (W60_main_arg13 m c),
    (h c _ (mem_uc main_arg14 (by decide))).trans (W60_main_arg14 m c),
    (h c _ (mem_uc main_arg15 (by decide))).trans (W60_main_arg15 m c),
    (h c _ (mem_uc main_arg16 (by decide))).trans (W60_main_arg16 m c),
    (h c _ (mem_uc main_arg17 (by decide))).trans (W60_main_arg17 m c),
    (h c _ (mem_uc main_arg18 (by decide))).trans (W60_main_arg18 m c),
    (h c _ (mem_uc main_arg19 (by decide))).trans (W60_main_arg19 m c),
    (h c _ (mem_uc main_arg20 (by decide))).trans (W60_main_arg20 m c),
    (h c _ (mem_uc main_arg21 (by decide))).trans (W60_main_arg21 m c),
    (h c _ (mem_uc main_arg22 (by decide))).trans (W60_main_arg22 m c),
    (h c _ (mem_uc main_arg23 (by decide))).trans (W60_main_arg23 m c),
    (h c _ (mem_uc main_arg24 (by decide))).trans (W60_main_arg24 m c),
    (h c _ (mem_uc main_arg25 (by decide))).trans (W60_main_arg25 m c),
    (h c _ (mem_uc main_arg26 (by decide))).trans (W60_main_arg26 m c),
    (h c _ (mem_uc main_arg27 (by decide))).trans (W60_main_arg27 m c),
    (h c _ (mem_uc main_arg28 (by decide))).trans (W60_main_arg28 m c),
    (h c _ (mem_uc main_arg29 (by decide))).trans (W60_main_arg29 m c)⟩)
    (run_all m ρ)

end Cert.KernelIdeal.Hand

end
-- ==== Proof.Ref.Ops.lean ====
import proofs.«431450_j74423193305350_1_alg».proof.Proof.Gen.ReferenceIdeal
import Idealize.ShloMosaic.Lib.StableHlo.Run

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation that writes the one buffer of a reference in a list writes inside the list's buffers. -/
theorem wr {W : List (Ref sig .tc)} {op : HloOp τ sig (Elt F)} {y : Ref sig .tc} (hw : op.writes = {Proc.devRef .tc y}) (h : y ∈ W) :
    op.writes ⊆ (W.map (Proc.devRef (τ := τ) .tc)).toFinset :=
  hw ▸ Finset.singleton_subset_iff.2 (List.mem_toFinset.2 (List.mem_map_of_mem h))

/-- @main's statements 1 … 11 (of window 0), the outlined functions' bodies at their call sites: 11 operations. -/
abbrev opsEmb : List (HloOp τ sig (Elt F)) :=
  [ StableHlo.nullary main_cst (constant S_ .f32 0x3F800000#32),
    StableHlo.unary main_cst main_v0 (broadcastInDim S400000x2 ![] bcast_S_S400000x2 : (⟨S_, .f32⟩ : BufTy).Contents (Elt F) → (⟨S400000x2, .f32⟩ : BufTy).Contents (Elt F)),
    StableHlo.binary main_v0 main_arg2 main_v1 (Host.divf : (⟨S400000x2, .f32⟩ : BufTy).Contents (Elt F) → (⟨S400000x2, .f32⟩ : BufTy).Contents (Elt F) → (⟨S400000x2, .f32⟩ : BufTy).Contents (Elt F)),
    StableHlo.binary main_arg1 main_arg6 main_v2 ((fun l r => Host.dotGeneral dot_S50000x6_S6x64_S50000x64_1_0_0_1_n_n none l r) : (⟨S50000x6, .f32⟩ : BufTy).Contents (Elt F) → (⟨S6x64, .f32⟩ : BufTy).Contents (Elt F) → (⟨S50000x64, .f32⟩ : BufTy).Contents (Elt F)),
    StableHlo.unary main_arg7 main_v3 (broadcastInDim S1x64 ![1] bcast_S64_S1x64_1 : (⟨S64, .f32⟩ : BufTy).Contents (Elt F) → (⟨S1x64, .f32⟩ : BufTy).Contents (Elt F)),
    StableHlo.unary main_v3 main_v4 (broadcastInDim S50000x64 ![0, 1] bcast_S1x64_S50000x64_0_1 : (⟨S1x64, .f32⟩ : BufTy).Contents (Elt F) → (⟨S50000x64, .f32⟩ : BufTy).Contents (Elt F)),
    StableHlo.binary main_v2 main_v4 main_v5 (addf : (⟨S50000x64, .f32⟩ : BufTy).Contents (Elt F) → (⟨S50000x64, .f32⟩ : BufTy).Contents (Elt F) → (⟨S50000x64, .f32⟩ : BufTy).Contents (Elt F)),
    StableHlo.binary main_v1 main_arg8 main_v6 ((fun l r => Host.dotGeneral dot_S400000x2_S2x64_S400000x64_1_0_0_1_n_n none l r) : (⟨S400000x2, .f32⟩ : BufTy).Contents (Elt F) → (⟨S2x64, .f32⟩ : BufTy).Contents (Elt F) → (⟨S400000x64, .f32⟩ : BufTy).Contents (Elt F)),
    StableHlo.unary main_arg9 main_v7 (broadcastInDim S1x64 ![1] bcast_S64_S1x64_1 : (⟨S64, .f32⟩ : BufTy).Contents (Elt F) → (⟨S1x64, .f32⟩ : BufTy).Contents (Elt F)),
    StableHlo.unary main_v7 main_v8 (broadcastInDim S400000x64 ![0, 1] bcast_S1x64_S400000x64_0_1 : (⟨S1x64, .f32⟩ : BufTy).Contents (Elt F) → (⟨S400000x64, .f32⟩ : BufTy).Contents (Elt F)),
    StableHlo.binary main_v6 main_v8 main_v9 (addf : (⟨S400000x64, .f32⟩ : BufTy).Contents (Elt F) → (⟨S400000x64, .f32⟩ : BufTy).Contents (Elt F) → (⟨S400000x64, .f32⟩ : BufTy).Contents (Elt F)) ]

theorem opsEmb_sub : (opsEmb : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., binary_bufs_sub .., unary_bufs_sub .., unary_bufs_sub .., binary_bufs_sub ..⟩

/-- The references opsEmb writes, in order. -/
abbrev opsEmb_W : List (Ref sig .tc) :=
  [main_cst, main_v0, main_v1, main_v2, main_v3, main_v4, main_v5, main_v6, main_v7, main_v8, main_v9]

theorem opsEmb_wr : (opsEmb : List (HloOp τ sig (Elt F))).Forall fun op => op.writes ⊆ (opsEmb_W.map (Proc.devRef (τ := τ) .tc)).toFinset :=
  ⟨wr (y := main_cst) rfl (by decide), wr (y := main_v0) rfl (by decide), wr (y := main_v1) rfl (by decide), wr (y := main_v2) rfl (by decide), wr (y := main_v3) rfl (by decide), wr (y := main_v4) rfl (by decide), wr (y := main_v5) rfl (by decide), wr (y := main_v6) rfl (by decide), wr (y := main_v7) rfl (by decide), wr (y := main_v8) rfl (by decide), wr (y := main_v9) rfl (by decide)⟩

theorem opsEmb_fresh : (opsEmb : List (HloOp τ sig (Elt F))).Forall fun op => op.fresh = ∅ :=
  ⟨rfl, rfl, rfl, rfl, rfl, rfl, rfl, rfl, rfl, rfl, rfl⟩

/-- @main's statements 12 … 60 (of window 0), the outlined functions' bodies at their call sites: 49 operations. -/
abbrev opsL1a : List (HloOp τ sig (Elt F)) :=
  [ StableHlo.unary main_arg10 main_v10 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v10 main_v11 rfl shapeCasts_S1x64x64_S64x64,
    StableHlo.binary main_v5 main_v11 main_v12 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v13 ((extractStridedSlice S1x64 ![0, 0] · slices_S3x64_S1x64_0_0) : (⟨S3x64, .f32⟩ : BufTy).Contents (Elt F) → (⟨S1x64, .f32⟩ : BufTy).Contents (Elt F)),
    StableHlo.reshape main_v13 main_v14 rfl shapeCasts_S1x64_S64,
    StableHlo.unary main_v14 main_v15 (broadcastInDim S1x64 ![1] bcast_S64_S1x64_1 : (⟨S64, .f32⟩ : BufTy).Contents (Elt F) → (⟨S1x64, .f32⟩ : BufTy).Contents (Elt F)),
    StableHlo.unary main_v15 main_v16 (broadcastInDim S50000x64 ![0, 1] bcast_S1x64_S50000x64_0_1 : (⟨S1x64, .f32⟩ : BufTy).Contents (Elt F) → (⟨S50000x64, .f32⟩ : BufTy).Contents (Elt F)),
    StableHlo.binary main_v12 main_v16 main_v17 (addf : (⟨S50000x64, .f32⟩ : BufTy).Contents (Elt F) → (⟨S50000x64, .f32⟩ : BufTy).Contents (Elt F) → (⟨S50000x64, .f32⟩ : BufTy).Contents (Elt F)),
    StableHlo.unary main_arg12 main_v18 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v18 main_v19 rfl shapeCasts_S1x64x64_S64x64,
    StableHlo.binary main_v5 main_v19 main_v20 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg13 main_v21 ((extractStridedSlice S1x64 ![0, 0] · slices_S3x64_S1x64_0_0) : (⟨S3x64, .f32⟩ : BufTy).Contents (Elt F) → (⟨S1x64, .f32⟩ : BufTy).Contents (Elt F)),
    StableHlo.reshape main_v21 main_v22 rfl shapeCasts_S1x64_S64,
    StableHlo.unary main_v22 main_v23 (broadcastInDim S1x64 ![1] bcast_S64_S1x64_1 : (⟨S64, .f32⟩ : BufTy).Contents (Elt F) → (⟨S1x64, .f32⟩ : BufTy).Contents (Elt F)),
    StableHlo.unary main_v23 main_v24 (broadcastInDim S50000x64 ![0, 1] bcast_S1x64_S50000x64_0_1 : (⟨S1x64, .f32⟩ : BufTy).Contents (Elt F) → (⟨S50000x64, .f32⟩ : BufTy).Contents (Elt F)),
    StableHlo.binary main_v20 main_v24 main_v25 (addf : (⟨S50000x64, .f32⟩ : BufTy).Contents (Elt F) → (⟨S50000x64, .f32⟩ : BufTy).Contents (Elt F) → (⟨S50000x64, .f32⟩ : BufTy).Contents (Elt F)),
    StableHlo.unary main_arg16 main_v26 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v26 main_v27 rfl shapeCasts_S1x64x64_S64x64,
    StableHlo.binary main_v5 main_v27 main_v28 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg17 main_v29 ((extractStridedSlice S1x64 ![0, 0] · slices_S3x64_S1x64_0_0) : (⟨S3x64, .f32⟩ : BufTy).Contents (Elt F) → (⟨S1x64, .f32⟩ : BufTy).Contents (Elt F)),
    StableHlo.reshape main_v29 main_v30 rfl shapeCasts_S1x64_S64,
    StableHlo.unary main_v30 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S50000x64 ![0, 1] bcast_S1x64_S50000x64_0_1 : (⟨S1x64, .f32⟩ : BufTy).Contents (Elt F) → (⟨S50000x64, .f32⟩ : BufTy).Contents (Elt F)),
    StableHlo.binary main_v28 main_v32 main_v33 (addf : (⟨S50000x64, .f32⟩ : BufTy).Contents (Elt F) → (⟨S50000x64, .f32⟩ : BufTy).Contents (Elt F) → (⟨S50000x64, .f32⟩ : BufTy).Contents (Elt F)),
    StableHlo.unary main_arg18 main_v34 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v34 main_v35 rfl shapeCasts_S1x64x64_S64x64,
    StableHlo.binary main_v5 main_v35 main_v36 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg19 main_v37 ((extractStridedSlice S1x64 ![0, 0] · slices_S3x64_S1x64_0_0) : (⟨S3x64, .f32⟩ : BufTy).Contents (Elt F) → (⟨S1x64, .f32⟩ : BufTy).Contents (Elt F)),
    StableHlo.reshape main_v37 main_v38 rfl shapeCasts_S1x64_S64,
    StableHlo.unary main_v38 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S50000x64 ![0, 1] bcast_S1x64_S50000x64_0_1 : (⟨S1x64, .f32⟩ : BufTy).Contents (Elt F) → (⟨S50000x64, .f32⟩ : BufTy).Contents (Elt F)),
    StableHlo.binary main_v36 main_v40 main_v41 (addf : (⟨S50000x64, .f32⟩ : BufTy).Contents (Elt F) → (⟨S50000x64, .f32⟩ : BufTy).Contents (Elt F) → (⟨S50000x64, .f32⟩ : BufTy).Contents (Elt F)),
    StableHlo.unary main_arg14 main_v42 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v42 main_v43 rfl shapeCasts_S1x64x64_S64x64,
    StableHlo.binary main_v9 main_v43 main_v44 ((fun l r => Host.dotGeneral dot_S400000x64_S64x64_S400000x64_1_0_0_1_n_n none l r) : (⟨S400000x64, .f32⟩ : BufTy).Contents (Elt F) → (⟨S64x64, .f32⟩ : BufTy).Contents (Elt F) → (⟨S400000x64, .f32⟩ : BufTy).Contents (Elt F)),
    StableHlo.unary main_arg15 main_v45 ((extractStridedSlice S1x64 ![0, 0] · slices_S3x64_S1x64_0_0) : (⟨S3x64, .f32⟩ : BufTy).Contents (Elt F) → (⟨S1x64, .f32⟩ : BufTy).Contents (Elt F)),
    StableHlo.reshape main_v45 main_v46 rfl shapeCasts_S1x64_S64,
    StableHlo.unary main_v46 main_v47 (broadcastInDim S1x64 ![1] bcast_S64_S1x64_1 : (⟨S64, .f32⟩ : BufTy).Contents (Elt F) → (⟨S1x64, .f32⟩ : BufTy).Contents (Elt F)),
    StableHlo.unary main_v47 main_v48 (broadcastInDim S400000x64 ![0, 1] bcast_S1x64_S400000x64_0_1 : (⟨S1x64, .f32⟩ : BufTy).Contents (Elt F) → (⟨S400000x64, .f32⟩ : BufTy).Contents (Elt F)),
    StableHlo.binary main_v44 main_v48 main_v49 (addf : (⟨S400000x64, .f32⟩ : BufTy).Contents (Elt F) → (⟨S400000x64, .f32⟩ : BufTy).Contents (Elt F) → (⟨S400000x64, .f32⟩ : BufTy).Contents (Elt F)),
    StableHlo.nullary main_c (constantI S_ 32 0#32),
    StableHlo.unary main_c main_v50 (broadcastInDim S400000 ![] bcast_S_S400000 : (⟨S_, .i32⟩ : BufTy).Contents (Elt F) → (⟨S400000, .i32⟩ : BufTy).Contents (Elt F)),
    StableHlo.binary main_arg3 main_v50 main_v51 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 50000#32),
    StableHlo.unary main_c_0 main_v52 (broadcastInDim S400000 ![] bcast_S_S400000 : (⟨S_, .i32⟩ : BufTy).Contents (Elt F) → (⟨S400000, .i32⟩ : BufTy).Contents (Elt F)),
    StableHlo.binary main_arg3 main_v52 main_v53 (addi : (⟨S400000, .i32⟩ : BufTy).Contents (Elt F) → (⟨S400000, .i32⟩ : BufTy).Contents (Elt F) → (⟨S400000, .i32⟩ : BufTy).Contents (Elt F)),
    StableHlo.ternary main_v51 main_v53 main_arg3 main_v54 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v54 main_v55 (broadcastInDim S400000x1 ![0] bcast_S400000_S400000x1_0 : (⟨S400000, .i32⟩ : BufTy).Contents (Elt F) → (⟨S400000x1, .i32⟩ : BufTy).Contents (Elt F)),
    StableHlo.binary main_v33 main_v55 main_v56 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)) ]

theorem opsL1a_sub : (opsL1a : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- The references opsL1a writes, in order. -/
abbrev opsL1a_W : List (Ref sig .tc) :=
  [main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_c, main_v50, main_v51, main_c_0, main_v52, main_v53, main_v54, main_v55, main_v56]

theorem opsL1a_wr : (opsL1a : List (HloOp τ sig (Elt F))).Forall fun op => op.writes ⊆ (opsL1a_W.map (Proc.devRef (τ := τ) .tc)).toFinset :=
  ⟨wr (y := main_v10) rfl (by decide), wr (y := main_v11) rfl (by decide), wr (y := main_v12) rfl (by decide), wr (y := main_v13) rfl (by decide), wr (y := main_v14) rfl (by decide), wr (y := main_v15) rfl (by decide), wr (y := main_v16) rfl (by decide), wr (y := main_v17) rfl (by decide), wr (y := main_v18) rfl (by decide), wr (y := main_v19) rfl (by decide), wr (y := main_v20) rfl (by decide), wr (y := main_v21) rfl (by decide), wr (y := main_v22) rfl (by decide), wr (y := main_v23) rfl (by decide), wr (y := main_v24) rfl (by decide), wr (y := main_v25) rfl (by decide), wr (y := main_v26) rfl (by decide), wr (y := main_v27) rfl (by decide), wr (y := main_v28) rfl (by decide), wr (y := main_v29) rfl (by decide), wr (y := main_v30) rfl (by decide), wr (y := main_v31) rfl (by decide), wr (y := main_v32) rfl (by decide), wr (y := main_v33) rfl (by decide), wr (y := main_v34) rfl (by decide), wr (y := main_v35) rfl (by decide), wr (y := main_v36) rfl (by decide), wr (y := main_v37) rfl (by decide), wr (y := main_v38) rfl (by decide), wr (y := main_v39) rfl (by decide), wr (y := main_v40) rfl (by decide), wr (y := main_v41) rfl (by decide), wr (y := main_v42) rfl (by decide), wr (y := main_v43) rfl (by decide), wr (y := main_v44) rfl (by decide), wr (y := main_v45) rfl (by decide), wr (y := main_v46) rfl (by decide), wr (y := main_v47) rfl (by decide), wr (y := main_v48) rfl (by decide), wr (y := main_v49) rfl (by decide), wr (y := main_c) rfl (by decide), wr (y := main_v50) rfl (by decide), wr (y := main_v51) rfl (by decide), wr (y := main_c_0) rfl (by decide), wr (y := main_v52) rfl (by decide), wr (y := main_v53) rfl (by decide), wr (y := main_v54) rfl (by decide), wr (y := main_v55) rfl (by decide), wr (y := main_v56) rfl (by decide)⟩

theorem opsL1a_fresh : (opsL1a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's statements 61 … 120 (of window 1), the outlined functions' bodies at their call sites: 81 operations. -/
abbrev opsL1b : List (HloOp τ sig (Elt F)) :=
  [ StableHlo.nullary main_c_1 (constantI S_ 32 0#32),
    StableHlo.unary main_c_1 main_v57 (broadcastInDim S400000 ![] bcast_S_S400000 : (⟨S_, .i32⟩ : BufTy).Contents (Elt F) → (⟨S400000, .i32⟩ : BufTy).Contents (Elt F)),
    StableHlo.binary main_arg4 main_v57 main_v58 (cmpi .slt : (⟨S400000, .i32⟩ : BufTy).Contents (Elt F) → (⟨S400000, .i32⟩ : BufTy).Contents (Elt F) → (⟨S400000, .i1⟩ : BufTy).Contents (Elt F)),
    StableHlo.nullary main_c_2 (constantI S_ 32 50000#32),
    StableHlo.unary main_c_2 main_v59 (broadcastInDim S400000 ![] bcast_S_S400000 : (⟨S_, .i32⟩ : BufTy).Contents (Elt F) → (⟨S400000, .i32⟩ : BufTy).Contents (Elt F)),
    StableHlo.binary main_arg4 main_v59 main_v60 (addi : (⟨S400000, .i32⟩ : BufTy).Contents (Elt F) → (⟨S400000, .i32⟩ : BufTy).Contents (Elt F) → (⟨S400000, .i32⟩ : BufTy).Contents (Elt F)),
    StableHlo.ternary main_v58 main_v60 main_arg4 main_v61 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v61 main_v62 (broadcastInDim S400000x1 ![0] bcast_S400000_S400000x1_0 : (⟨S400000, .i32⟩ : BufTy).Contents (Elt F) → (⟨S400000x1, .i32⟩ : BufTy).Contents (Elt F)),
    StableHlo.binary main_v41 main_v62 main_v63 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)),
    StableHlo.binary main_v56 main_v63 main_v64 (addf : (⟨S400000x64, .f32⟩ : BufTy).Contents (Elt F) → (⟨S400000x64, .f32⟩ : BufTy).Contents (Elt F) → (⟨S400000x64, .f32⟩ : BufTy).Contents (Elt F)),
    StableHlo.binary main_v64 main_v49 main_v65 (addf : (⟨S400000x64, .f32⟩ : BufTy).Contents (Elt F) → (⟨S400000x64, .f32⟩ : BufTy).Contents (Elt F) → (⟨S400000x64, .f32⟩ : BufTy).Contents (Elt F)),
    StableHlo.unary main_v65 main_v66 (Host.negf : (⟨S400000x64, .f32⟩ : BufTy).Contents (Elt F) → (⟨S400000x64, .f32⟩ : BufTy).Contents (Elt F)),
    StableHlo.unary main_v66 main_v67 (Host.exp : (⟨S400000x64, .f32⟩ : BufTy).Contents (Elt F) → (⟨S400000x64, .f32⟩ : BufTy).Contents (Elt F)),
    StableHlo.nullary main_cst_3 (constant S_ .f32 0x3F800000#32),
    StableHlo.unary main_cst_3 main_v68 (broadcastInDim S400000x64 ![] bcast_S_S400000x64 : (⟨S_, .f32⟩ : BufTy).Contents (Elt F) → (⟨S400000x64, .f32⟩ : BufTy).Contents (Elt F)),
    StableHlo.binary main_v68 main_v67 main_v69 (addf : (⟨S400000x64, .f32⟩ : BufTy).Contents (Elt F) → (⟨S400000x64, .f32⟩ : BufTy).Contents (Elt F) → (⟨S400000x64, .f32⟩ : BufTy).Contents (Elt F)),
    StableHlo.nullary main_cst_4 (constant S_ .f32 0x3F800000#32),
    StableHlo.unary main_cst_4 main_v70 (broadcastInDim S400000x64 ![] bcast_S_S400000x64 : (⟨S_, .f32⟩ : BufTy).Contents (Elt F) → (⟨S400000x64, .f32⟩ : BufTy).Contents (Elt F)),
    StableHlo.binary main_v70 main_v69 main_v71 (Host.divf : (⟨S400000x64, .f32⟩ : BufTy).Contents (Elt F) → (⟨S400000x64, .f32⟩ : BufTy).Contents (Elt F) → (⟨S400000x64, .f32⟩ : BufTy).Contents (Elt F)),
    StableHlo.nullary main_c_5 (constantI S_ 32 0#32),
    StableHlo.unary main_c_5 main_v72 (broadcastInDim S400000 ![] bcast_S_S400000 : (⟨S_, .i32⟩ : BufTy).Contents (Elt F) → (⟨S400000, .i32⟩ : BufTy).Contents (Elt F)),
    StableHlo.binary main_arg3 main_v72 main_v73 (cmpi .slt : (⟨S400000, .i32⟩ : BufTy).Contents (Elt F) → (⟨S400000, .i32⟩ : BufTy).Contents (Elt F) → (⟨S400000, .i1⟩ : BufTy).Contents (Elt F)),
    StableHlo.nullary main_c_6 (constantI S_ 32 50000#32),
    StableHlo.unary main_c_6 main_v74 (broadcastInDim S400000 ![] bcast_S_S400000 : (⟨S_, .i32⟩ : BufTy).Contents (Elt F) → (⟨S400000, .i32⟩ : BufTy).Contents (Elt F)),
    StableHlo.binary main_arg3 main_v74 main_v75 (addi : (⟨S400000, .i32⟩ : BufTy).Contents (Elt F) → (⟨S400000, .i32⟩ : BufTy).Contents (Elt F) → (⟨S400000, .i32⟩ : BufTy).Contents (Elt F)),
    StableHlo.ternary main_v73 main_v75 main_arg3 main_v76 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v76 main_v77 (broadcastInDim S400000x1 ![0] bcast_S400000_S400000x1_0 : (⟨S400000, .i32⟩ : BufTy).Contents (Elt F) → (⟨S400000x1, .i32⟩ : BufTy).Contents (Elt F)),
    StableHlo.binary main_v25 main_v77 main_v78 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)),
    StableHlo.binary main_v71 main_v78 main_v79 (mulf : (⟨S400000x64, .f32⟩ : BufTy).Contents (Elt F) → (⟨S400000x64, .f32⟩ : BufTy).Contents (Elt F) → (⟨S400000x64, .f32⟩ : BufTy).Contents (Elt F)),
    StableHlo.nullary main_cst_7 (constant S_ .f32 0x00000000#32),
    StableHlo.unary main_cst_7 main_v80 (broadcastInDim S50000x64 ![] bcast_S_S50000x64 : (⟨S_, .f32⟩ : BufTy).Contents (Elt F) → (⟨S50000x64, .f32⟩ : BufTy).Contents (Elt F)),
    StableHlo.unary main_arg4 main_v81 (broadcastInDim S400000x1 ![0] bcast_S400000_S400000x1_0 : (⟨S400000, .i32⟩ : BufTy).Contents (Elt F) → (⟨S400000x1, .i32⟩ : BufTy).Contents (Elt F)),
    StableHlo.ternary main_v80 main_v81 main_v79 main_v82 ((fun x i u => Host.scatterAdd scatter_S50000x64_S400000x1_S400000x64_1_0_0_1 x i u) : (⟨S50000x64, .f32⟩ : BufTy).Contents (Elt F) → (⟨S400000x1, .i32⟩ : BufTy).Contents (Elt F) → (⟨S400000x64, .f32⟩ : BufTy).Contents (Elt F) → (⟨S50000x64, .f32⟩ : BufTy).Contents (Elt F)),
    StableHlo.nullary main_cst_8 (constant S_ .f32 0x00000000#32),
    StableHlo.unary main_cst_8 main_v83 (broadcastInDim S50000x64 ![] bcast_S_S50000x64 : (⟨S_, .f32⟩ : BufTy).Contents (Elt F) → (⟨S50000x64, .f32⟩ : BufTy).Contents (Elt F)),
    StableHlo.unary main_arg4 main_v84 (broadcastInDim S400000x1 ![0] bcast_S400000_S400000x1_0 : (⟨S400000, .i32⟩ : BufTy).Contents (Elt F) → (⟨S400000x1, .i32⟩ : BufTy).Contents (Elt F)),
    StableHlo.ternary main_v83 main_v84 main_v71 main_v85 ((fun x i u => Host.scatterAdd scatter_S50000x64_S400000x1_S400000x64_1_0_0_1 x i u) : (⟨S50000x64, .f32⟩ : BufTy).Contents (Elt F) → (⟨S400000x1, .i32⟩ : BufTy).Contents (Elt F) → (⟨S400000x64, .f32⟩ : BufTy).Contents (Elt F) → (⟨S50000x64, .f32⟩ : BufTy).Contents (Elt F)),
    StableHlo.nullary main_cst_9 (constant S_ .f32 0x358637BD#32),
    StableHlo.unary main_cst_9 main_v86 (broadcastInDim S50000x64 ![] bcast_S_S50000x64 : (⟨S_, .f32⟩ : BufTy).Contents (Elt F) → (⟨S50000x64, .f32⟩ : BufTy).Contents (Elt F)),
    StableHlo.binary main_v85 main_v86 main_v87 (addf : (⟨S50000x64, .f32⟩ : BufTy).Contents (Elt F) → (⟨S50000x64, .f32⟩ : BufTy).Contents (Elt F) → (⟨S50000x64, .f32⟩ : BufTy).Contents (Elt F)),
    StableHlo.binary main_v82 main_v87 main_v88 (Host.divf : (⟨S50000x64, .f32⟩ : BufTy).Contents (Elt F) → (⟨S50000x64, .f32⟩ : BufTy).Contents (Elt F) → (⟨S50000x64, .f32⟩ : BufTy).Contents (Elt F)),
    StableHlo.binary main_v17 main_v88 main_v89 (addf : (⟨S50000x64, .f32⟩ : BufTy).Contents (Elt F) → (⟨S50000x64, .f32⟩ : BufTy).Contents (Elt F) → (⟨S50000x64, .f32⟩ : BufTy).Contents (Elt F)),
    StableHlo.unary main_arg20 main_v90 ((extractStridedSlice S1x64 ![0, 0] · slices_S3x64_S1x64_0_0) : (⟨S3x64, .f32⟩ : BufTy).Contents (Elt F) → (⟨S1x64, .f32⟩ : BufTy).Contents (Elt F)),
    StableHlo.reshape main_v90 main_v91 rfl shapeCasts_S1x64_S64,
    StableHlo.unary main_arg21 main_v92 ((extractStridedSlice S1x64 ![0, 0] · slices_S3x64_S1x64_0_0) : (⟨S3x64, .f32⟩ : BufTy).Contents (Elt F) → (⟨S1x64, .f32⟩ : BufTy).Contents (Elt F)),
    StableHlo.reshape main_v92 main_v93 rfl shapeCasts_S1x64_S64,
    StableHlo.nullary main_cst_10 (constant S_ .f32 0x00000000#32),
    StableHlo.binary main_v89 main_cst_10 main_v94 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_11 (constant S_ .f32 0x47435000#32),
    StableHlo.unary main_cst_11 main_v95 (broadcastInDim S64 ![] bcast_S_S64 : (⟨S_, .f32⟩ : BufTy).Contents (Elt F) → (⟨S64, .f32⟩ : BufTy).Contents (Elt F)),
    StableHlo.binary main_v94 main_v95 main_v96 (Host.divf : (⟨S64, .f32⟩ : BufTy).Contents (Elt F) → (⟨S64, .f32⟩ : BufTy).Contents (Elt F) → (⟨S64, .f32⟩ : BufTy).Contents (Elt F)),
    StableHlo.nullary main_c_12 (constantI S_ 32 0#32),
    StableHlo.TRef.nullary main_call0.cst (constant S_ .f32 0x00000000#32),
    StableHlo.TRef.binary (.of main_v89) main_call0.cst main_call0.v0 (fun x v => Host.reduceAdd x v reducesTo_S50000x64_S64_d0 h_S_),
    StableHlo.TRef.unary main_call0.v0 main_call0.v1 (broadcastInDim S1x64 ![1] bcast_S64_S1x64_1),
    StableHlo.TRef.nullary main_call0.cst_0 (constant S_ .f32 0x47435000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S50000x64 ![0, 1] bcast_S1x64_S50000x64_0_1),
    StableHlo.TRef.binary (.of main_v89) main_call0.v4 main_call0.v5 subf,
    StableHlo.TRef.binary main_call0.v5 main_call0.v5 main_call0.v6 mulf,
    StableHlo.TRef.unary (.of main_c_12) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v96 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S50000x64 ![0, 1] bcast_S1x64_S50000x64_0_1 : (⟨S1x64, .f32⟩ : BufTy).Contents (Elt F) → (⟨S50000x64, .f32⟩ : BufTy).Contents (Elt F)),
    StableHlo.binary main_v89 main_v99 main_v100 (subf : (⟨S50000x64, .f32⟩ : BufTy).Contents (Elt F) → (⟨S50000x64, .f32⟩ : BufTy).Contents (Elt F) → (⟨S50000x64, .f32⟩ : BufTy).Contents (Elt F)),
    StableHlo.nullary main_cst_13 (constant S_ .f32 0x3727C5AC#32),
    StableHlo.unary main_cst_13 main_v101 (broadcastInDim S64 ![] bcast_S_S64 : (⟨S_, .f32⟩ : BufTy).Contents (Elt F) → (⟨S64, .f32⟩ : BufTy).Contents (Elt F)),
    StableHlo.binary main_v97 main_v101 main_v102 (addf : (⟨S64, .f32⟩ : BufTy).Contents (Elt F) → (⟨S64, .f32⟩ : BufTy).Contents (Elt F) → (⟨S64, .f32⟩ : BufTy).Contents (Elt F)),
    StableHlo.unary main_v102 main_v103 (Host.rsqrt : (⟨S64, .f32⟩ : BufTy).Contents (Elt F) → (⟨S64, .f32⟩ : BufTy).Contents (Elt F)) ]

theorem opsL1b_sub : (opsL1b : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub ..⟩

/-- The references opsL1b writes, in order. -/
abbrev opsL1b_W : List (Ref sig .tc) :=
  [main_c_1, main_v57, main_v58, main_c_2, main_v59, main_v60, main_v61, main_v62, main_v63, main_v64, main_v65, main_v66, main_v67, main_cst_3, main_v68, main_v69, main_cst_4, main_v70, main_v71, main_c_5, main_v72, main_v73, main_c_6, main_v74, main_v75, main_v76, main_v77, main_v78, main_v79, main_cst_7, main_v80, main_v81, main_v82, main_cst_8, main_v83, main_v84, main_v85, main_cst_9, main_v86, main_v87, main_v88, main_v89, main_v90, main_v91, main_v92, main_v93, main_cst_10, main_v94, main_cst_11, main_v95, main_v96, main_c_12, (main_call0.cst).ref, (main_call0.v0).ref, (main_call0.v1).ref, (main_call0.cst_0).ref, (main_call0.v2).ref, (main_call0.v3).ref, (main_call0.v4).ref, (main_call0.v5).ref, (main_call0.v6).ref, (main_call0.v7).ref, (main_call0.cst_1).ref, (main_call0.v8).ref, (main_call0.cst_2).ref, (main_call0.v9).ref, (main_call0.v10).ref, (main_call0.v11).ref, (main_call0.cst_3).ref, (main_call0.v12).ref, (main_call0.cst_4).ref, (main_call0.call0.v0).ref, (main_call0.call0.v1).ref, (main_call0.call0.v2).ref, main_v98, main_v99, main_v100, main_cst_13, main_v101, main_v102, main_v103]

theorem opsL1b_wr : (opsL1b : List (HloOp τ sig (Elt F))).Forall fun op => op.writes ⊆ (opsL1b_W.map (Proc.devRef (τ := τ) .tc)).toFinset :=
  ⟨wr (y := main_c_1) rfl (by decide), wr (y := main_v57) rfl (by decide), wr (y := main_v58) rfl (by decide), wr (y := main_c_2) rfl (by decide), wr (y := main_v59) rfl (by decide), wr (y := main_v60) rfl (by decide), wr (y := main_v61) rfl (by decide), wr (y := main_v62) rfl (by decide), wr (y := main_v63) rfl (by decide), wr (y := main_v64) rfl (by decide), wr (y := main_v65) rfl (by decide), wr (y := main_v66) rfl (by decide), wr (y := main_v67) rfl (by decide), wr (y := main_cst_3) rfl (by decide), wr (y := main_v68) rfl (by decide), wr (y := main_v69) rfl (by decide), wr (y := main_cst_4) rfl (by decide), wr (y := main_v70) rfl (by decide), wr (y := main_v71) rfl (by decide), wr (y := main_c_5) rfl (by decide), wr (y := main_v72) rfl (by decide), wr (y := main_v73) rfl (by decide), wr (y := main_c_6) rfl (by decide), wr (y := main_v74) rfl (by decide), wr (y := main_v75) rfl (by decide), wr (y := main_v76) rfl (by decide), wr (y := main_v77) rfl (by decide), wr (y := main_v78) rfl (by decide), wr (y := main_v79) rfl (by decide), wr (y := main_cst_7) rfl (by decide), wr (y := main_v80) rfl (by decide), wr (y := main_v81) rfl (by decide), wr (y := main_v82) rfl (by decide), wr (y := main_cst_8) rfl (by decide), wr (y := main_v83) rfl (by decide), wr (y := main_v84) rfl (by decide), wr (y := main_v85) rfl (by decide), wr (y := main_cst_9) rfl (by decide), wr (y := main_v86) rfl (by decide), wr (y := main_v87) rfl (by decide), wr (y := main_v88) rfl (by decide), wr (y := main_v89) rfl (by decide), wr (y := main_v90) rfl (by decide), wr (y := main_v91) rfl (by decide), wr (y := main_v92) rfl (by decide), wr (y := main_v93) rfl (by decide), wr (y := main_cst_10) rfl (by decide), wr (y := main_v94) rfl (by decide), wr (y := main_cst_11) rfl (by decide), wr (y := main_v95) rfl (by decide), wr (y := main_v96) rfl (by decide), wr (y := main_c_12) rfl (by decide), wr (y := (main_call0.cst).ref) rfl (by decide), wr (y := (main_call0.v0).ref) rfl (by decide), wr (y := (main_call0.v1).ref) rfl (by decide), wr (y := (main_call0.cst_0).ref) rfl (by decide), wr (y := (main_call0.v2).ref) rfl (by decide), wr (y := (main_call0.v3).ref) rfl (by decide), wr (y := (main_call0.v4).ref) rfl (by decide), wr (y := (main_call0.v5).ref) rfl (by decide), wr (y := (main_call0.v6).ref) rfl (by decide), wr (y := (main_call0.v7).ref) rfl (by decide), wr (y := (main_call0.cst_1).ref) rfl (by decide), wr (y := (main_call0.v8).ref) rfl (by decide), wr (y := (main_call0.cst_2).ref) rfl (by decide), wr (y := (main_call0.v9).ref) rfl (by decide), wr (y := (main_call0.v10).ref) rfl (by decide), wr (y := (main_call0.v11).ref) rfl (by decide), wr (y := (main_call0.cst_3).ref) rfl (by decide), wr (y := (main_call0.v12).ref) rfl (by decide), wr (y := (main_call0.cst_4).ref) rfl (by decide), wr (y := (main_call0.call0.v0).ref) rfl (by decide), wr (y := (main_call0.call0.v1).ref) rfl (by decide), wr (y := (main_call0.call0.v2).ref) rfl (by decide), wr (y := main_v98) rfl (by decide), wr (y := main_v99) rfl (by decide), wr (y := main_v100) rfl (by decide), wr (y := main_cst_13) rfl (by decide), wr (y := main_v101) rfl (by decide), wr (y := main_v102) rfl (by decide), wr (y := main_v103) rfl (by decide)⟩

theorem opsL1b_fresh : (opsL1b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's statements 121 … 160 (of window 2), the outlined functions' bodies at their call sites: 65 operations. -/
abbrev opsL1c : List (HloOp τ sig (Elt F)) :=
  [ StableHlo.unary main_v103 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S50000x64 ![0, 1] bcast_S1x64_S50000x64_0_1 : (⟨S1x64, .f32⟩ : BufTy).Contents (Elt F) → (⟨S50000x64, .f32⟩ : BufTy).Contents (Elt F)),
    StableHlo.binary main_v100 main_v105 main_v106 (mulf : (⟨S50000x64, .f32⟩ : BufTy).Contents (Elt F) → (⟨S50000x64, .f32⟩ : BufTy).Contents (Elt F) → (⟨S50000x64, .f32⟩ : BufTy).Contents (Elt F)),
    StableHlo.unary main_v91 main_v107 (broadcastInDim S1x64 ![1] bcast_S64_S1x64_1 : (⟨S64, .f32⟩ : BufTy).Contents (Elt F) → (⟨S1x64, .f32⟩ : BufTy).Contents (Elt F)),
    StableHlo.unary main_v107 main_v108 (broadcastInDim S50000x64 ![0, 1] bcast_S1x64_S50000x64_0_1 : (⟨S1x64, .f32⟩ : BufTy).Contents (Elt F) → (⟨S50000x64, .f32⟩ : BufTy).Contents (Elt F)),
    StableHlo.binary main_v106 main_v108 main_v109 (mulf : (⟨S50000x64, .f32⟩ : BufTy).Contents (Elt F) → (⟨S50000x64, .f32⟩ : BufTy).Contents (Elt F) → (⟨S50000x64, .f32⟩ : BufTy).Contents (Elt F)),
    StableHlo.unary main_v93 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S50000x64 ![0, 1] bcast_S1x64_S50000x64_0_1 : (⟨S1x64, .f32⟩ : BufTy).Contents (Elt F) → (⟨S50000x64, .f32⟩ : BufTy).Contents (Elt F)),
    StableHlo.binary main_v109 main_v111 main_v112 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v112) main_call1.v0 main_call1.v1 maximumf,
    StableHlo.binary main_v5 main_v113 main_v114 (addf : (⟨S50000x64, .f32⟩ : BufTy).Contents (Elt F) → (⟨S50000x64, .f32⟩ : BufTy).Contents (Elt F) → (⟨S50000x64, .f32⟩ : BufTy).Contents (Elt F)),
    StableHlo.unary main_arg22 main_v115 ((extractStridedSlice S1x64 ![0, 0] · slices_S3x64_S1x64_0_0) : (⟨S3x64, .f32⟩ : BufTy).Contents (Elt F) → (⟨S1x64, .f32⟩ : BufTy).Contents (Elt F)),
    StableHlo.reshape main_v115 main_v116 rfl shapeCasts_S1x64_S64,
    StableHlo.unary main_arg23 main_v117 ((extractStridedSlice S1x64 ![0, 0] · slices_S3x64_S1x64_0_0) : (⟨S3x64, .f32⟩ : BufTy).Contents (Elt F) → (⟨S1x64, .f32⟩ : BufTy).Contents (Elt F)),
    StableHlo.reshape main_v117 main_v118 rfl shapeCasts_S1x64_S64,
    StableHlo.nullary main_cst_14 (constant S_ .f32 0x00000000#32),
    StableHlo.binary main_v65 main_cst_14 main_v119 ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)),
    StableHlo.nullary main_cst_15 (constant S_ .f32 0x48C35000#32),
    StableHlo.unary main_cst_15 main_v120 (broadcastInDim S64 ![] bcast_S_S64 : (⟨S_, .f32⟩ : BufTy).Contents (Elt F) → (⟨S64, .f32⟩ : BufTy).Contents (Elt F)),
    StableHlo.binary main_v119 main_v120 main_v121 (Host.divf : (⟨S64, .f32⟩ : BufTy).Contents (Elt F) → (⟨S64, .f32⟩ : BufTy).Contents (Elt F) → (⟨S64, .f32⟩ : BufTy).Contents (Elt F)),
    StableHlo.nullary main_c_16 (constantI S_ 32 0#32),
    StableHlo.TRef.nullary main_call2.cst (constant S_ .f32 0x00000000#32),
    StableHlo.TRef.binary (.of main_v65) main_call2.cst main_call2.v0 (fun x v => Host.reduceAdd x v reducesTo_S400000x64_S64_d0 h_S_),
    StableHlo.TRef.unary main_call2.v0 main_call2.v1 (broadcastInDim S1x64 ![1] bcast_S64_S1x64_1),
    StableHlo.TRef.nullary main_call2.cst_0 (constant S_ .f32 0x48C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S400000x64 ![0, 1] bcast_S1x64_S400000x64_0_1),
    StableHlo.TRef.binary (.of main_v65) main_call2.v4 main_call2.v5 subf,
    StableHlo.TRef.binary main_call2.v5 main_call2.v5 main_call2.v6 mulf,
    StableHlo.TRef.unary (.of main_c_16) main_call2.v7 (sitofp .f32),
    StableHlo.TRef.nullary main_call2.cst_1 (constant S_ .f32 0x48C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S400000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v121 main_v123 (broadcastInDim S1x64 ![1] bcast_S64_S1x64_1 : (⟨S64, .f32⟩ : BufTy).Contents (Elt F) → (⟨S1x64, .f32⟩ : BufTy).Contents (Elt F)),
    StableHlo.unary main_v123 main_v124 (broadcastInDim S400000x64 ![0, 1] bcast_S1x64_S400000x64_0_1 : (⟨S1x64, .f32⟩ : BufTy).Contents (Elt F) → (⟨S400000x64, .f32⟩ : BufTy).Contents (Elt F)),
    StableHlo.binary main_v65 main_v124 main_v125 (subf : (⟨S400000x64, .f32⟩ : BufTy).Contents (Elt F) → (⟨S400000x64, .f32⟩ : BufTy).Contents (Elt F) → (⟨S400000x64, .f32⟩ : BufTy).Contents (Elt F)),
    StableHlo.nullary main_cst_17 (constant S_ .f32 0x3727C5AC#32),
    StableHlo.unary main_cst_17 main_v126 (broadcastInDim S64 ![] bcast_S_S64 : (⟨S_, .f32⟩ : BufTy).Contents (Elt F) → (⟨S64, .f32⟩ : BufTy).Contents (Elt F)),
    StableHlo.binary main_v122 main_v126 main_v127 (addf : (⟨S64, .f32⟩ : BufTy).Contents (Elt F) → (⟨S64, .f32⟩ : BufTy).Contents (Elt F) → (⟨S64, .f32⟩ : BufTy).Contents (Elt F)),
    StableHlo.unary main_v127 main_v128 (Host.rsqrt : (⟨S64, .f32⟩ : BufTy).Contents (Elt F) → (⟨S64, .f32⟩ : BufTy).Contents (Elt F)),
    StableHlo.unary main_v128 main_v129 (broadcastInDim S1x64 ![1] bcast_S64_S1x64_1 : (⟨S64, .f32⟩ : BufTy).Contents (Elt F) → (⟨S1x64, .f32⟩ : BufTy).Contents (Elt F)),
    StableHlo.unary main_v129 main_v130 (broadcastInDim S400000x64 ![0, 1] bcast_S1x64_S400000x64_0_1 : (⟨S1x64, .f32⟩ : BufTy).Contents (Elt F) → (⟨S400000x64, .f32⟩ : BufTy).Contents (Elt F)),
    StableHlo.binary main_v125 main_v130 main_v131 (mulf : (⟨S400000x64, .f32⟩ : BufTy).Contents (Elt F) → (⟨S400000x64, .f32⟩ : BufTy).Contents (Elt F) → (⟨S400000x64, .f32⟩ : BufTy).Contents (Elt F)),
    StableHlo.unary main_v116 main_v132 (broadcastInDim S1x64 ![1] bcast_S64_S1x64_1 : (⟨S64, .f32⟩ : BufTy).Contents (Elt F) → (⟨S1x64, .f32⟩ : BufTy).Contents (Elt F)),
    StableHlo.unary main_v132 main_v133 (broadcastInDim S400000x64 ![0, 1] bcast_S1x64_S400000x64_0_1 : (⟨S1x64, .f32⟩ : BufTy).Contents (Elt F) → (⟨S400000x64, .f32⟩ : BufTy).Contents (Elt F)),
    StableHlo.binary main_v131 main_v133 main_v134 (mulf : (⟨S400000x64, .f32⟩ : BufTy).Contents (Elt F) → (⟨S400000x64, .f32⟩ : BufTy).Contents (Elt F) → (⟨S400000x64, .f32⟩ : BufTy).Contents (Elt F)),
    StableHlo.unary main_v118 main_v135 (broadcastInDim S1x64 ![1] bcast_S64_S1x64_1 : (⟨S64, .f32⟩ : BufTy).Contents (Elt F) → (⟨S1x64, .f32⟩ : BufTy).Contents (Elt F)),
    StableHlo.unary main_v135 main_v136 (broadcastInDim S400000x64 ![0, 1] bcast_S1x64_S400000x64_0_1 : (⟨S1x64, .f32⟩ : BufTy).Contents (Elt F) → (⟨S400000x64, .f32⟩ : BufTy).Contents (Elt F)),
    StableHlo.binary main_v134 main_v136 main_v137 (addf : (⟨S400000x64, .f32⟩ : BufTy).Contents (Elt F) → (⟨S400000x64, .f32⟩ : BufTy).Contents (Elt F) → (⟨S400000x64, .f32⟩ : BufTy).Contents (Elt F)),
    StableHlo.TRef.nullary main_call3.cst (constant S_ .f32 0x00000000#32),
    StableHlo.TRef.unary main_call3.cst main_call3.v0 (broadcastInDim S400000x64 ![] bcast_S_S400000x64),
    StableHlo.TRef.binary (.of main_v137) main_call3.v0 main_call3.v1 maximumf,
    StableHlo.binary main_v9 main_v138 main_v139 (addf : (⟨S400000x64, .f32⟩ : BufTy).Contents (Elt F) → (⟨S400000x64, .f32⟩ : BufTy).Contents (Elt F) → (⟨S400000x64, .f32⟩ : BufTy).Contents (Elt F)) ]

theorem opsL1c_sub : (opsL1c : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

/-- The references opsL1c writes, in order. -/
abbrev opsL1c_W : List (Ref sig .tc) :=
  [main_v104, main_v105, main_v106, main_v107, main_v108, main_v109, main_v110, main_v111, main_v112, (main_call1.cst).ref, (main_call1.v0).ref, (main_call1.v1).ref, main_v114, main_v115, main_v116, main_v117, main_v118, main_cst_14, main_v119, main_cst_15, main_v120, main_v121, main_c_16, (main_call2.cst).ref, (main_call2.v0).ref, (main_call2.v1).ref, (main_call2.cst_0).ref, (main_call2.v2).ref, (main_call2.v3).ref, (main_call2.v4).ref, (main_call2.v5).ref, (main_call2.v6).ref, (main_call2.v7).ref, (main_call2.cst_1).ref, (main_call2.v8).ref, (main_call2.cst_2).ref, (main_call2.v9).ref, (main_call2.v10).ref, (main_call2.v11).ref, (main_call2.cst_3).ref, (main_call2.v12).ref, (main_call2.cst_4).ref, (main_call2.call0.v0).ref, (main_call2.call0.v1).ref, (main_call2.call0.v2).ref, main_v123, main_v124, main_v125, main_cst_17, main_v126, main_v127, main_v128, main_v129, main_v130, main_v131, main_v132, main_v133, main_v134, main_v135, main_v136, main_v137, (main_call3.cst).ref, (main_call3.v0).ref, (main_call3.v1).ref, main_v139]

theorem opsL1c_wr : (opsL1c : List (HloOp τ sig (Elt F))).Forall fun op => op.writes ⊆ (opsL1c_W.map (Proc.devRef (τ := τ) .tc)).toFinset :=
  ⟨wr (y := main_v104) rfl (by decide), wr (y := main_v105) rfl (by decide), wr (y := main_v106) rfl (by decide), wr (y := main_v107) rfl (by decide), wr (y := main_v108) rfl (by decide), wr (y := main_v109) rfl (by decide), wr (y := main_v110) rfl (by decide), wr (y := main_v111) rfl (by decide), wr (y := main_v112) rfl (by decide), wr (y := (main_call1.cst).ref) rfl (by decide), wr (y := (main_call1.v0).ref) rfl (by decide), wr (y := (main_call1.v1).ref) rfl (by decide), wr (y := main_v114) rfl (by decide), wr (y := main_v115) rfl (by decide), wr (y := main_v116) rfl (by decide), wr (y := main_v117) rfl (by decide), wr (y := main_v118) rfl (by decide), wr (y := main_cst_14) rfl (by decide), wr (y := main_v119) rfl (by decide), wr (y := main_cst_15) rfl (by decide), wr (y := main_v120) rfl (by decide), wr (y := main_v121) rfl (by decide), wr (y := main_c_16) rfl (by decide), wr (y := (main_call2.cst).ref) rfl (by decide), wr (y := (main_call2.v0).ref) rfl (by decide), wr (y := (main_call2.v1).ref) rfl (by decide), wr (y := (main_call2.cst_0).ref) rfl (by decide), wr (y := (main_call2.v2).ref) rfl (by decide), wr (y := (main_call2.v3).ref) rfl (by decide), wr (y := (main_call2.v4).ref) rfl (by decide), wr (y := (main_call2.v5).ref) rfl (by decide), wr (y := (main_call2.v6).ref) rfl (by decide), wr (y := (main_call2.v7).ref) rfl (by decide), wr (y := (main_call2.cst_1).ref) rfl (by decide), wr (y := (main_call2.v8).ref) rfl (by decide), wr (y := (main_call2.cst_2).ref) rfl (by decide), wr (y := (main_call2.v9).ref) rfl (by decide), wr (y := (main_call2.v10).ref) rfl (by decide), wr (y := (main_call2.v11).ref) rfl (by decide), wr (y := (main_call2.cst_3).ref) rfl (by decide), wr (y := (main_call2.v12).ref) rfl (by decide), wr (y := (main_call2.cst_4).ref) rfl (by decide), wr (y := (main_call2.call0.v0).ref) rfl (by decide), wr (y := (main_call2.call0.v1).ref) rfl (by decide), wr (y := (main_call2.call0.v2).ref) rfl (by decide), wr (y := main_v123) rfl (by decide), wr (y := main_v124) rfl (by decide), wr (y := main_v125) rfl (by decide), wr (y := main_cst_17) rfl (by decide), wr (y := main_v126) rfl (by decide), wr (y := main_v127) rfl (by decide), wr (y := main_v128) rfl (by decide), wr (y := main_v129) rfl (by decide), wr (y := main_v130) rfl (by decide), wr (y := main_v131) rfl (by decide), wr (y := main_v132) rfl (by decide), wr (y := main_v133) rfl (by decide), wr (y := main_v134) rfl (by decide), wr (y := main_v135) rfl (by decide), wr (y := main_v136) rfl (by decide), wr (y := main_v137) rfl (by decide), wr (y := (main_call3.cst).ref) rfl (by decide), wr (y := (main_call3.v0).ref) rfl (by decide), wr (y := (main_call3.v1).ref) rfl (by decide), wr (y := main_v139) rfl (by decide)⟩

theorem opsL1c_fresh : (opsL1c : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's statements 161 … 180 (of window 2), the outlined functions' bodies at their call sites: 20 operations. -/
abbrev opsL2a : List (HloOp τ sig (Elt F)) :=
  [ StableHlo.unary main_arg10 main_v140 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v140 main_v141 rfl shapeCasts_S1x64x64_S64x64,
    StableHlo.binary main_v114 main_v141 main_v142 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v143 ((extractStridedSlice S1x64 ![1, 0] · slices_S3x64_S1x64_1_0) : (⟨S3x64, .f32⟩ : BufTy).Contents (Elt F) → (⟨S1x64, .f32⟩ : BufTy).Contents (Elt F)),
    StableHlo.reshape main_v143 main_v144 rfl shapeCasts_S1x64_S64,
    StableHlo.unary main_v144 main_v145 (broadcastInDim S1x64 ![1] bcast_S64_S1x64_1 : (⟨S64, .f32⟩ : BufTy).Contents (Elt F) → (⟨S1x64, .f32⟩ : BufTy).Contents (Elt F)),
    StableHlo.unary main_v145 main_v146 (broadcastInDim S50000x64 ![0, 1] bcast_S1x64_S50000x64_0_1 : (⟨S1x64, .f32⟩ : BufTy).Contents (Elt F) → (⟨S50000x64, .f32⟩ : BufTy).Contents (Elt F)),
    StableHlo.binary main_v142 main_v146 main_v147 (addf : (⟨S50000x64, .f32⟩ : BufTy).Contents (Elt F) → (⟨S50000x64, .f32⟩ : BufTy).Contents (Elt F) → (⟨S50000x64, .f32⟩ : BufTy).Contents (Elt F)),
    StableHlo.unary main_arg12 main_v148 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v148 main_v149 rfl shapeCasts_S1x64x64_S64x64,
    StableHlo.binary main_v114 main_v149 main_v150 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg13 main_v151 ((extractStridedSlice S1x64 ![1, 0] · slices_S3x64_S1x64_1_0) : (⟨S3x64, .f32⟩ : BufTy).Contents (Elt F) → (⟨S1x64, .f32⟩ : BufTy).Contents (Elt F)),
    StableHlo.reshape main_v151 main_v152 rfl shapeCasts_S1x64_S64,
    StableHlo.unary main_v152 main_v153 (broadcastInDim S1x64 ![1] bcast_S64_S1x64_1 : (⟨S64, .f32⟩ : BufTy).Contents (Elt F) → (⟨S1x64, .f32⟩ : BufTy).Contents (Elt F)),
    StableHlo.unary main_v153 main_v154 (broadcastInDim S50000x64 ![0, 1] bcast_S1x64_S50000x64_0_1 : (⟨S1x64, .f32⟩ : BufTy).Contents (Elt F) → (⟨S50000x64, .f32⟩ : BufTy).Contents (Elt F)),
    StableHlo.binary main_v150 main_v154 main_v155 (addf : (⟨S50000x64, .f32⟩ : BufTy).Contents (Elt F) → (⟨S50000x64, .f32⟩ : BufTy).Contents (Elt F) → (⟨S50000x64, .f32⟩ : BufTy).Contents (Elt F)),
    StableHlo.unary main_arg16 main_v156 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v156 main_v157 rfl shapeCasts_S1x64x64_S64x64,
    StableHlo.binary main_v114 main_v157 main_v158 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg17 main_v159 ((extractStridedSlice S1x64 ![1, 0] · slices_S3x64_S1x64_1_0) : (⟨S3x64, .f32⟩ : BufTy).Contents (Elt F) → (⟨S1x64, .f32⟩ : BufTy).Contents (Elt F)) ]

theorem opsL2a_sub : (opsL2a : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub ..⟩

/-- The references opsL2a writes, in order. -/
abbrev opsL2a_W : List (Ref sig .tc) :=
  [main_v140, main_v141, main_v142, main_v143, main_v144, main_v145, main_v146, main_v147, main_v148, main_v149, main_v150, main_v151, main_v152, main_v153, main_v154, main_v155, main_v156, main_v157, main_v158, main_v159]

theorem opsL2a_wr : (opsL2a : List (HloOp τ sig (Elt F))).Forall fun op => op.writes ⊆ (opsL2a_W.map (Proc.devRef (τ := τ) .tc)).toFinset :=
  ⟨wr (y := main_v140) rfl (by decide), wr (y := main_v141) rfl (by decide), wr (y := main_v142) rfl (by decide), wr (y := main_v143) rfl (by decide), wr (y := main_v144) rfl (by decide), wr (y := main_v145) rfl (by decide), wr (y := main_v146) rfl (by decide), wr (y := main_v147) rfl (by decide), wr (y := main_v148) rfl (by decide), wr (y := main_v149) rfl (by decide), wr (y := main_v150) rfl (by decide), wr (y := main_v151) rfl (by decide), wr (y := main_v152) rfl (by decide), wr (y := main_v153) rfl (by decide), wr (y := main_v154) rfl (by decide), wr (y := main_v155) rfl (by decide), wr (y := main_v156) rfl (by decide), wr (y := main_v157) rfl (by decide), wr (y := main_v158) rfl (by decide), wr (y := main_v159) rfl (by decide)⟩

theorem opsL2a_fresh : (opsL2a : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- @main's statements 181 … 240 (of window 3), the outlined functions' bodies at their call sites: 60 operations. -/
abbrev opsL2b : List (HloOp τ sig (Elt F)) :=
  [ StableHlo.reshape main_v159 main_v160 rfl shapeCasts_S1x64_S64,
    StableHlo.unary main_v160 main_v161 (broadcastInDim S1x64 ![1] bcast_S64_S1x64_1 : (⟨S64, .f32⟩ : BufTy).Contents (Elt F) → (⟨S1x64, .f32⟩ : BufTy).Contents (Elt F)),
    StableHlo.unary main_v161 main_v162 (broadcastInDim S50000x64 ![0, 1] bcast_S1x64_S50000x64_0_1 : (⟨S1x64, .f32⟩ : BufTy).Contents (Elt F) → (⟨S50000x64, .f32⟩ : BufTy).Contents (Elt F)),
    StableHlo.binary main_v158 main_v162 main_v163 (addf : (⟨S50000x64, .f32⟩ : BufTy).Contents (Elt F) → (⟨S50000x64, .f32⟩ : BufTy).Contents (Elt F) → (⟨S50000x64, .f32⟩ : BufTy).Contents (Elt F)),
    StableHlo.unary main_arg18 main_v164 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v164 main_v165 rfl shapeCasts_S1x64x64_S64x64,
    StableHlo.binary main_v114 main_v165 main_v166 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg19 main_v167 ((extractStridedSlice S1x64 ![1, 0] · slices_S3x64_S1x64_1_0) : (⟨S3x64, .f32⟩ : BufTy).Contents (Elt F) → (⟨S1x64, .f32⟩ : BufTy).Contents (Elt F)),
    StableHlo.reshape main_v167 main_v168 rfl shapeCasts_S1x64_S64,
    StableHlo.unary main_v168 main_v169 (broadcastInDim S1x64 ![1] bcast_S64_S1x64_1 : (⟨S64, .f32⟩ : BufTy).Contents (Elt F) → (⟨S1x64, .f32⟩ : BufTy).Contents (Elt F)),
    StableHlo.unary main_v169 main_v170 (broadcastInDim S50000x64 ![0, 1] bcast_S1x64_S50000x64_0_1 : (⟨S1x64, .f32⟩ : BufTy).Contents (Elt F) → (⟨S50000x64, .f32⟩ : BufTy).Contents (Elt F)),
    StableHlo.binary main_v166 main_v170 main_v171 (addf : (⟨S50000x64, .f32⟩ : BufTy).Contents (Elt F) → (⟨S50000x64, .f32⟩ : BufTy).Contents (Elt F) → (⟨S50000x64, .f32⟩ : BufTy).Contents (Elt F)),
    StableHlo.unary main_arg14 main_v172 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v172 main_v173 rfl shapeCasts_S1x64x64_S64x64,
    StableHlo.binary main_v139 main_v173 main_v174 ((fun l r => Host.dotGeneral dot_S400000x64_S64x64_S400000x64_1_0_0_1_n_n none l r) : (⟨S400000x64, .f32⟩ : BufTy).Contents (Elt F) → (⟨S64x64, .f32⟩ : BufTy).Contents (Elt F) → (⟨S400000x64, .f32⟩ : BufTy).Contents (Elt F)),
    StableHlo.unary main_arg15 main_v175 ((extractStridedSlice S1x64 ![1, 0] · slices_S3x64_S1x64_1_0) : (⟨S3x64, .f32⟩ : BufTy).Contents (Elt F) → (⟨S1x64, .f32⟩ : BufTy).Contents (Elt F)),
    StableHlo.reshape main_v175 main_v176 rfl shapeCasts_S1x64_S64,
    StableHlo.unary main_v176 main_v177 (broadcastInDim S1x64 ![1] bcast_S64_S1x64_1 : (⟨S64, .f32⟩ : BufTy).Contents (Elt F) → (⟨S1x64, .f32⟩ : BufTy).Contents (Elt F)),
    StableHlo.unary main_v177 main_v178 (broadcastInDim S400000x64 ![0, 1] bcast_S1x64_S400000x64_0_1 : (⟨S1x64, .f32⟩ : BufTy).Contents (Elt F) → (⟨S400000x64, .f32⟩ : BufTy).Contents (Elt F)),
    StableHlo.binary main_v174 main_v178 main_v179 (addf : (⟨S400000x64, .f32⟩ : BufTy).Contents (Elt F) → (⟨S400000x64, .f32⟩ : BufTy).Contents (Elt F) → (⟨S400000x64, .f32⟩ : BufTy).Contents (Elt F)),
    StableHlo.nullary main_c_18 (constantI S_ 32 0#32),
    StableHlo.unary main_c_18 main_v180 (broadcastInDim S400000 ![] bcast_S_S400000 : (⟨S_, .i32⟩ : BufTy).Contents (Elt F) → (⟨S400000, .i32⟩ : BufTy).Contents (Elt F)),
    StableHlo.binary main_arg3 main_v180 main_v181 (cmpi .slt : (⟨S400000, .i32⟩ : BufTy).Contents (Elt F) → (⟨S400000, .i32⟩ : BufTy).Contents (Elt F) → (⟨S400000, .i1⟩ : BufTy).Contents (Elt F)),
    StableHlo.nullary main_c_19 (constantI S_ 32 50000#32),
    StableHlo.unary main_c_19 main_v182 (broadcastInDim S400000 ![] bcast_S_S400000 : (⟨S_, .i32⟩ : BufTy).Contents (Elt F) → (⟨S400000, .i32⟩ : BufTy).Contents (Elt F)),
    StableHlo.binary main_arg3 main_v182 main_v183 (addi : (⟨S400000, .i32⟩ : BufTy).Contents (Elt F) → (⟨S400000, .i32⟩ : BufTy).Contents (Elt F) → (⟨S400000, .i32⟩ : BufTy).Contents (Elt F)),
    StableHlo.ternary main_v181 main_v183 main_arg3 main_v184 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v184 main_v185 (broadcastInDim S400000x1 ![0] bcast_S400000_S400000x1_0 : (⟨S400000, .i32⟩ : BufTy).Contents (Elt F) → (⟨S400000x1, .i32⟩ : BufTy).Contents (Elt F)),
    StableHlo.binary main_v163 main_v185 main_v186 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)),
    StableHlo.nullary main_c_20 (constantI S_ 32 0#32),
    StableHlo.unary main_c_20 main_v187 (broadcastInDim S400000 ![] bcast_S_S400000 : (⟨S_, .i32⟩ : BufTy).Contents (Elt F) → (⟨S400000, .i32⟩ : BufTy).Contents (Elt F)),
    StableHlo.binary main_arg4 main_v187 main_v188 (cmpi .slt : (⟨S400000, .i32⟩ : BufTy).Contents (Elt F) → (⟨S400000, .i32⟩ : BufTy).Contents (Elt F) → (⟨S400000, .i1⟩ : BufTy).Contents (Elt F)),
    StableHlo.nullary main_c_21 (constantI S_ 32 50000#32),
    StableHlo.unary main_c_21 main_v189 (broadcastInDim S400000 ![] bcast_S_S400000 : (⟨S_, .i32⟩ : BufTy).Contents (Elt F) → (⟨S400000, .i32⟩ : BufTy).Contents (Elt F)),
    StableHlo.binary main_arg4 main_v189 main_v190 (addi : (⟨S400000, .i32⟩ : BufTy).Contents (Elt F) → (⟨S400000, .i32⟩ : BufTy).Contents (Elt F) → (⟨S400000, .i32⟩ : BufTy).Contents (Elt F)),
    StableHlo.ternary main_v188 main_v190 main_arg4 main_v191 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v191 main_v192 (broadcastInDim S400000x1 ![0] bcast_S400000_S400000x1_0 : (⟨S400000, .i32⟩ : BufTy).Contents (Elt F) → (⟨S400000x1, .i32⟩ : BufTy).Contents (Elt F)),
    StableHlo.binary main_v171 main_v192 main_v193 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)),
    StableHlo.binary main_v186 main_v193 main_v194 (addf : (⟨S400000x64, .f32⟩ : BufTy).Contents (Elt F) → (⟨S400000x64, .f32⟩ : BufTy).Contents (Elt F) → (⟨S400000x64, .f32⟩ : BufTy).Contents (Elt F)),
    StableHlo.binary main_v194 main_v179 main_v195 (addf : (⟨S400000x64, .f32⟩ : BufTy).Contents (Elt F) → (⟨S400000x64, .f32⟩ : BufTy).Contents (Elt F) → (⟨S400000x64, .f32⟩ : BufTy).Contents (Elt F)),
    StableHlo.unary main_v195 main_v196 (Host.negf : (⟨S400000x64, .f32⟩ : BufTy).Contents (Elt F) → (⟨S400000x64, .f32⟩ : BufTy).Contents (Elt F)),
    StableHlo.unary main_v196 main_v197 (Host.exp : (⟨S400000x64, .f32⟩ : BufTy).Contents (Elt F) → (⟨S400000x64, .f32⟩ : BufTy).Contents (Elt F)),
    StableHlo.nullary main_cst_22 (constant S_ .f32 0x3F800000#32),
    StableHlo.unary main_cst_22 main_v198 (broadcastInDim S400000x64 ![] bcast_S_S400000x64 : (⟨S_, .f32⟩ : BufTy).Contents (Elt F) → (⟨S400000x64, .f32⟩ : BufTy).Contents (Elt F)),
    StableHlo.binary main_v198 main_v197 main_v199 (addf : (⟨S400000x64, .f32⟩ : BufTy).Contents (Elt F) → (⟨S400000x64, .f32⟩ : BufTy).Contents (Elt F) → (⟨S400000x64, .f32⟩ : BufTy).Contents (Elt F)),
    StableHlo.nullary main_cst_23 (constant S_ .f32 0x3F800000#32),
    StableHlo.unary main_cst_23 main_v200 (broadcastInDim S400000x64 ![] bcast_S_S400000x64 : (⟨S_, .f32⟩ : BufTy).Contents (Elt F) → (⟨S400000x64, .f32⟩ : BufTy).Contents (Elt F)),
    StableHlo.binary main_v200 main_v199 main_v201 (Host.divf : (⟨S400000x64, .f32⟩ : BufTy).Contents (Elt F) → (⟨S400000x64, .f32⟩ : BufTy).Contents (Elt F) → (⟨S400000x64, .f32⟩ : BufTy).Contents (Elt F)),
    StableHlo.nullary main_c_24 (constantI S_ 32 0#32),
    StableHlo.unary main_c_24 main_v202 (broadcastInDim S400000 ![] bcast_S_S400000 : (⟨S_, .i32⟩ : BufTy).Contents (Elt F) → (⟨S400000, .i32⟩ : BufTy).Contents (Elt F)),
    StableHlo.binary main_arg3 main_v202 main_v203 (cmpi .slt : (⟨S400000, .i32⟩ : BufTy).Contents (Elt F) → (⟨S400000, .i32⟩ : BufTy).Contents (Elt F) → (⟨S400000, .i1⟩ : BufTy).Contents (Elt F)),
    StableHlo.nullary main_c_25 (constantI S_ 32 50000#32),
    StableHlo.unary main_c_25 main_v204 (broadcastInDim S400000 ![] bcast_S_S400000 : (⟨S_, .i32⟩ : BufTy).Contents (Elt F) → (⟨S400000, .i32⟩ : BufTy).Contents (Elt F)),
    StableHlo.binary main_arg3 main_v204 main_v205 (addi : (⟨S400000, .i32⟩ : BufTy).Contents (Elt F) → (⟨S400000, .i32⟩ : BufTy).Contents (Elt F) → (⟨S400000, .i32⟩ : BufTy).Contents (Elt F)),
    StableHlo.ternary main_v203 main_v205 main_arg3 main_v206 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v206 main_v207 (broadcastInDim S400000x1 ![0] bcast_S400000_S400000x1_0 : (⟨S400000, .i32⟩ : BufTy).Contents (Elt F) → (⟨S400000x1, .i32⟩ : BufTy).Contents (Elt F)),
    StableHlo.binary main_v155 main_v207 main_v208 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)),
    StableHlo.binary main_v201 main_v208 main_v209 (mulf : (⟨S400000x64, .f32⟩ : BufTy).Contents (Elt F) → (⟨S400000x64, .f32⟩ : BufTy).Contents (Elt F) → (⟨S400000x64, .f32⟩ : BufTy).Contents (Elt F)),
    StableHlo.nullary main_cst_26 (constant S_ .f32 0x00000000#32),
    StableHlo.unary main_cst_26 main_v210 (broadcastInDim S50000x64 ![] bcast_S_S50000x64 : (⟨S_, .f32⟩ : BufTy).Contents (Elt F) → (⟨S50000x64, .f32⟩ : BufTy).Contents (Elt F)) ]

theorem opsL2b_sub : (opsL2b : List (HloOp τ sig (Elt F))).Forall fun op => op.bufs ⊆ tcRefs τ sig :=
  ⟨reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub ..⟩

/-- The references opsL2b writes, in order. -/
abbrev opsL2b_W : List (Ref sig .tc) :=
  [main_v160, main_v161, main_v162, main_v163, main_v164, main_v165, main_v166, main_v167, main_v168, main_v169, main_v170, main_v171, main_v172, main_v173, main_v174, main_v175, main_v176, main_v177, main_v178, main_v179, main_c_18, main_v180, main_v181, main_c_19, main_v182, main_v183, main_v184, main_v185, main_v186, main_c_20, main_v187, main_v188, main_c_21, main_v189, main_v190, main_v191, main_v192, main_v193, main_v194, main_v195, main_v196, main_v197, main_cst_22, main_v198, main_v199, main_cst_23, main_v200, main_v201, main_c_24, main_v202, main_v203, main_c_25, main_v204, main_v205, main_v206, main_v207, main_v208, main_v209, main_cst_26, main_v210]

theorem opsL2b_wr : (opsL2b : List (HloOp τ sig (Elt F))).Forall fun op => op.writes ⊆ (opsL2b_W.map (Proc.devRef (τ := τ) .tc)).toFinset :=
  ⟨wr (y := main_v160) rfl (by decide), wr (y := main_v161) rfl (by decide), wr (y := main_v162) rfl (by decide), wr (y := main_v163) rfl (by decide), wr (y := main_v164) rfl (by decide), wr (y := main_v165) rfl (by decide), wr (y := main_v166) rfl (by decide), wr (y := main_v167) rfl (by decide), wr (y := main_v168) rfl (by decide), wr (y := main_v169) rfl (by decide), wr (y := main_v170) rfl (by decide), wr (y := main_v171) rfl (by decide), wr (y := main_v172) rfl (by decide), wr (y := main_v173) rfl (by decide), wr (y := main_v174) rfl (by decide), wr (y := main_v175) rfl (by decide), wr (y := main_v176) rfl (by decide), wr (y := main_v177) rfl (by decide), wr (y := main_v178) rfl (by decide), wr (y := main_v179) rfl (by decide), wr (y := main_c_18) rfl (by decide), wr (y := main_v180) rfl (by decide), wr (y := main_v181) rfl (by decide), wr (y := main_c_19) rfl (by decide), wr (y := main_v182) rfl (by decide), wr (y := main_v183) rfl (by decide), wr (y := main_v184) rfl (by decide), wr (y := main_v185) rfl (by decide), wr (y := main_v186) rfl (by decide), wr (y := main_c_20) rfl (by decide), wr (y := main_v187) rfl (by decide), wr (y := main_v188) rfl (by decide), wr (y := main_c_21) rfl (by decide), wr (y := main_v189) rfl (by decide), wr (y := main_v190) rfl (by decide), wr (y := main_v191) rfl (by decide), wr (y := main_v192) rfl (by decide), wr (y := main_v193) rfl (by decide), wr (y := main_v194) rfl (by decide), wr (y := main_v195) rfl (by decide), wr (y := main_v196) rfl (by decide), wr (y := main_v197) rfl (by decide), wr (y := main_cst_22) rfl (by decide), wr (y := main_v198) rfl (by decide), wr (y := main_v199) rfl (by decide), wr (y := main_cst_23) rfl (by decide), wr (y := main_v200) rfl (by decide), wr (y := main_v201) rfl (by decide), wr (y := main_c_24) rfl (by decide), wr (y := main_v202) rfl (by decide), wr (y := main_v203) rfl (by decide), wr (y := main_c_25) rfl (by decide), wr (y := main_v204) rfl (by decide), wr (y := main_v205) rfl (by decide), wr (y := main_v206) rfl (by decide), wr (y := main_v207) rfl (by decide), wr (y := main_v208) rfl (by decide), wr (y := main_v209) rfl (by decide), wr (y := main_cst_26) rfl (by decide), wr (y := main_v210) rfl (by decide)⟩

theorem opsL2b_fresh : (opsL2b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's statements 241 … 300 (of window 4), the outlined functions' bodies at their call sites: 104 operations. -/
abbrev opsL2c : List (HloOp τ sig (Elt F)) :=
  [ StableHlo.unary main_arg4 main_v211 (broadcastInDim S400000x1 ![0] bcast_S400000_S400000x1_0 : (⟨S400000, .i32⟩ : BufTy).Contents (Elt F) → (⟨S400000x1, .i32⟩ : BufTy).Contents (Elt F)),
    StableHlo.ternary main_v210 main_v211 main_v209 main_v212 ((fun x i u => Host.scatterAdd scatter_S50000x64_S400000x1_S400000x64_1_0_0_1 x i u) : (⟨S50000x64, .f32⟩ : BufTy).Contents (Elt F) → (⟨S400000x1, .i32⟩ : BufTy).Contents (Elt F) → (⟨S400000x64, .f32⟩ : BufTy).Contents (Elt F) → (⟨S50000x64, .f32⟩ : BufTy).Contents (Elt F)),
    StableHlo.nullary main_cst_27 (constant S_ .f32 0x00000000#32),
    StableHlo.unary main_cst_27 main_v213 (broadcastInDim S50000x64 ![] bcast_S_S50000x64 : (⟨S_, .f32⟩ : BufTy).Contents (Elt F) → (⟨S50000x64, .f32⟩ : BufTy).Contents (Elt F)),
    StableHlo.unary main_arg4 main_v214 (broadcastInDim S400000x1 ![0] bcast_S400000_S400000x1_0 : (⟨S400000, .i32⟩ : BufTy).Contents (Elt F) → (⟨S400000x1, .i32⟩ : BufTy).Contents (Elt F)),
    StableHlo.ternary main_v213 main_v214 main_v201 main_v215 ((fun x i u => Host.scatterAdd scatter_S50000x64_S400000x1_S400000x64_1_0_0_1 x i u) : (⟨S50000x64, .f32⟩ : BufTy).Contents (Elt F) → (⟨S400000x1, .i32⟩ : BufTy).Contents (Elt F) → (⟨S400000x64, .f32⟩ : BufTy).Contents (Elt F) → (⟨S50000x64, .f32⟩ : BufTy).Contents (Elt F)),
    StableHlo.nullary main_cst_28 (constant S_ .f32 0x358637BD#32),
    StableHlo.unary main_cst_28 main_v216 (broadcastInDim S50000x64 ![] bcast_S_S50000x64 : (⟨S_, .f32⟩ : BufTy).Contents (Elt F) → (⟨S50000x64, .f32⟩ : BufTy).Contents (Elt F)),
    StableHlo.binary main_v215 main_v216 main_v217 (addf : (⟨S50000x64, .f32⟩ : BufTy).Contents (Elt F) → (⟨S50000x64, .f32⟩ : BufTy).Contents (Elt F) → (⟨S50000x64, .f32⟩ : BufTy).Contents (Elt F)),
    StableHlo.binary main_v212 main_v217 main_v218 (Host.divf : (⟨S50000x64, .f32⟩ : BufTy).Contents (Elt F) → (⟨S50000x64, .f32⟩ : BufTy).Contents (Elt F) → (⟨S50000x64, .f32⟩ : BufTy).Contents (Elt F)),
    StableHlo.binary main_v147 main_v218 main_v219 (addf : (⟨S50000x64, .f32⟩ : BufTy).Contents (Elt F) → (⟨S50000x64, .f32⟩ : BufTy).Contents (Elt F) → (⟨S50000x64, .f32⟩ : BufTy).Contents (Elt F)),
    StableHlo.unary main_arg20 main_v220 ((extractStridedSlice S1x64 ![1, 0] · slices_S3x64_S1x64_1_0) : (⟨S3x64, .f32⟩ : BufTy).Contents (Elt F) → (⟨S1x64, .f32⟩ : BufTy).Contents (Elt F)),
    StableHlo.reshape main_v220 main_v221 rfl shapeCasts_S1x64_S64,
    StableHlo.unary main_arg21 main_v222 ((extractStridedSlice S1x64 ![1, 0] · slices_S3x64_S1x64_1_0) : (⟨S3x64, .f32⟩ : BufTy).Contents (Elt F) → (⟨S1x64, .f32⟩ : BufTy).Contents (Elt F)),
    StableHlo.reshape main_v222 main_v223 rfl shapeCasts_S1x64_S64,
    StableHlo.nullary main_cst_29 (constant S_ .f32 0x00000000#32),
    StableHlo.binary main_v219 main_cst_29 main_v224 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_30 (constant S_ .f32 0x47435000#32),
    StableHlo.unary main_cst_30 main_v225 (broadcastInDim S64 ![] bcast_S_S64 : (⟨S_, .f32⟩ : BufTy).Contents (Elt F) → (⟨S64, .f32⟩ : BufTy).Contents (Elt F)),
    StableHlo.binary main_v224 main_v225 main_v226 (Host.divf : (⟨S64, .f32⟩ : BufTy).Contents (Elt F) → (⟨S64, .f32⟩ : BufTy).Contents (Elt F) → (⟨S64, .f32⟩ : BufTy).Contents (Elt F)),
    StableHlo.nullary main_c_31 (constantI S_ 32 0#32),
    StableHlo.TRef.nullary main_call4.cst (constant S_ .f32 0x00000000#32),
    StableHlo.TRef.binary (.of main_v219) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (.of main_v219) main_call4.v4 main_call4.v5 subf,
    StableHlo.TRef.binary main_call4.v5 main_call4.v5 main_call4.v6 mulf,
    StableHlo.TRef.unary (.of main_c_31) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v226 main_v228 (broadcastInDim S1x64 ![1] bcast_S64_S1x64_1 : (⟨S64, .f32⟩ : BufTy).Contents (Elt F) → (⟨S1x64, .f32⟩ : BufTy).Contents (Elt F)),
    StableHlo.unary main_v228 main_v229 (broadcastInDim S50000x64 ![0, 1] bcast_S1x64_S50000x64_0_1 : (⟨S1x64, .f32⟩ : BufTy).Contents (Elt F) → (⟨S50000x64, .f32⟩ : BufTy).Contents (Elt F)),
    StableHlo.binary main_v219 main_v229 main_v230 (subf : (⟨S50000x64, .f32⟩ : BufTy).Contents (Elt F) → (⟨S50000x64, .f32⟩ : BufTy).Contents (Elt F) → (⟨S50000x64, .f32⟩ : BufTy).Contents (Elt F)),
    StableHlo.nullary main_cst_32 (constant S_ .f32 0x3727C5AC#32),
    StableHlo.unary main_cst_32 main_v231 (broadcastInDim S64 ![] bcast_S_S64 : (⟨S_, .f32⟩ : BufTy).Contents (Elt F) → (⟨S64, .f32⟩ : BufTy).Contents (Elt F)),
    StableHlo.binary main_v227 main_v231 main_v232 (addf : (⟨S64, .f32⟩ : BufTy).Contents (Elt F) → (⟨S64, .f32⟩ : BufTy).Contents (Elt F) → (⟨S64, .f32⟩ : BufTy).Contents (Elt F)),
    StableHlo.unary main_v232 main_v233 (Host.rsqrt : (⟨S64, .f32⟩ : BufTy).Contents (Elt F) → (⟨S64, .f32⟩ : BufTy).Contents (Elt F)),
    StableHlo.unary main_v233 main_v234 (broadcastInDim S1x64 ![1] bcast_S64_S1x64_1 : (⟨S64, .f32⟩ : BufTy).Contents (Elt F) → (⟨S1x64, .f32⟩ : BufTy).Contents (Elt F)),
    StableHlo.unary main_v234 main_v235 (broadcastInDim S50000x64 ![0, 1] bcast_S1x64_S50000x64_0_1 : (⟨S1x64, .f32⟩ : BufTy).Contents (Elt F) → (⟨S50000x64, .f32⟩ : BufTy).Contents (Elt F)),
    StableHlo.binary main_v230 main_v235 main_v236 (mulf : (⟨S50000x64, .f32⟩ : BufTy).Contents (Elt F) → (⟨S50000x64, .f32⟩ : BufTy).Contents (Elt F) → (⟨S50000x64, .f32⟩ : BufTy).Contents (Elt F)),
    StableHlo.unary main_v221 main_v237 (broadcastInDim S1x64 ![1] bcast_S64_S1x64_1 : (⟨S64, .f32⟩ : BufTy).Contents (Elt F) → (⟨S1x64, .f32⟩ : BufTy).Contents (Elt F)),
    StableHlo.unary main_v237 main_v238 (broadcastInDim S50000x64 ![0, 1] bcast_S1x64_S50000x64_0_1 : (⟨S1x64, .f32⟩ : BufTy).Contents (Elt F) → (⟨S50000x64, .f32⟩ : BufTy).Contents (Elt F)),
    StableHlo.binary main_v236 main_v238 main_v239 (mulf : (⟨S50000x64, .f32⟩ : BufTy).Contents (Elt F) → (⟨S50000x64, .f32⟩ : BufTy).Contents (Elt F) → (⟨S50000x64, .f32⟩ : BufTy).Contents (Elt F)),
    StableHlo.unary main_v223 main_v240 (broadcastInDim S1x64 ![1] bcast_S64_S1x64_1 : (⟨S64, .f32⟩ : BufTy).Contents (Elt F) → (⟨S1x64, .f32⟩ : BufTy).Contents (Elt F)),
    StableHlo.unary main_v240 main_v241 (broadcastInDim S50000x64 ![0, 1] bcast_S1x64_S50000x64_0_1 : (⟨S1x64, .f32⟩ : BufTy).Contents (Elt F) → (⟨S50000x64, .f32⟩ : BufTy).Contents (Elt F)),
    StableHlo.binary main_v239 main_v241 main_v242 (addf : (⟨S50000x64, .f32⟩ : BufTy).Contents (Elt F) → (⟨S50000x64, .f32⟩ : BufTy).Contents (Elt F) → (⟨S50000x64, .f32⟩ : BufTy).Contents (Elt F)),
    StableHlo.TRef.nullary main_call5.cst (constant S_ .f32 0x00000000#32),
    StableHlo.TRef.unary main_call5.cst main_call5.v0 (broadcastInDim S50000x64 ![] bcast_S_S50000x64),
    StableHlo.TRef.binary (.of main_v242) main_call5.v0 main_call5.v1 maximumf,
    StableHlo.binary main_v114 main_v243 main_v244 (addf : (⟨S50000x64, .f32⟩ : BufTy).Contents (Elt F) → (⟨S50000x64, .f32⟩ : BufTy).Contents (Elt F) → (⟨S50000x64, .f32⟩ : BufTy).Contents (Elt F)),
    StableHlo.unary main_arg22 main_v245 ((extractStridedSlice S1x64 ![1, 0] · slices_S3x64_S1x64_1_0) : (⟨S3x64, .f32⟩ : BufTy).Contents (Elt F) → (⟨S1x64, .f32⟩ : BufTy).Contents (Elt F)),
    StableHlo.reshape main_v245 main_v246 rfl shapeCasts_S1x64_S64,
    StableHlo.unary main_arg23 main_v247 ((extractStridedSlice S1x64 ![1, 0] · slices_S3x64_S1x64_1_0) : (⟨S3x64, .f32⟩ : BufTy).Contents (Elt F) → (⟨S1x64, .f32⟩ : BufTy).Contents (Elt F)),
    StableHlo.reshape main_v247 main_v248 rfl shapeCasts_S1x64_S64,
    StableHlo.nullary main_cst_33 (constant S_ .f32 0x00000000#32),
    StableHlo.binary main_v195 main_cst_33 main_v249 ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)),
    StableHlo.nullary main_cst_34 (constant S_ .f32 0x48C35000#32),
    StableHlo.unary main_cst_34 main_v250 (broadcastInDim S64 ![] bcast_S_S64 : (⟨S_, .f32⟩ : BufTy).Contents (Elt F) → (⟨S64, .f32⟩ : BufTy).Contents (Elt F)),
    StableHlo.binary main_v249 main_v250 main_v251 (Host.divf : (⟨S64, .f32⟩ : BufTy).Contents (Elt F) → (⟨S64, .f32⟩ : BufTy).Contents (Elt F) → (⟨S64, .f32⟩ : BufTy).Contents (Elt F)),
    StableHlo.nullary main_c_35 (constantI S_ 32 0#32),
    StableHlo.TRef.nullary main_call6.cst (constant S_ .f32 0x00000000#32),
    StableHlo.TRef.binary (.of main_v195) main_call6.cst main_call6.v0 (fun x v => Host.reduceAdd x v reducesTo_S400000x64_S64_d0 h_S_),
    StableHlo.TRef.unary main_call6.v0 main_call6.v1 (broadcastInDim S1x64 ![1] bcast_S64_S1x64_1),
    StableHlo.TRef.nullary main_call6.cst_0 (constant S_ .f32 0x48C35000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S400000x64 ![0, 1] bcast_S1x64_S400000x64_0_1),
    StableHlo.TRef.binary (.of main_v195) main_call6.v4 main_call6.v5 subf,
    StableHlo.TRef.binary main_call6.v5 main_call6.v5 main_call6.v6 mulf,
    StableHlo.TRef.unary (.of main_c_35) main_call6.v7 (sitofp .f32),
    StableHlo.TRef.nullary main_call6.cst_1 (constant S_ .f32 0x48C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S400000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v251 main_v253 (broadcastInDim S1x64 ![1] bcast_S64_S1x64_1 : (⟨S64, .f32⟩ : BufTy).Contents (Elt F) → (⟨S1x64, .f32⟩ : BufTy).Contents (Elt F)),
    StableHlo.unary main_v253 main_v254 (broadcastInDim S400000x64 ![0, 1] bcast_S1x64_S400000x64_0_1 : (⟨S1x64, .f32⟩ : BufTy).Contents (Elt F) → (⟨S400000x64, .f32⟩ : BufTy).Contents (Elt F)),
    StableHlo.binary main_v195 main_v254 main_v255 (subf : (⟨S400000x64, .f32⟩ : BufTy).Contents (Elt F) → (⟨S400000x64, .f32⟩ : BufTy).Contents (Elt F) → (⟨S400000x64, .f32⟩ : BufTy).Contents (Elt F)),
    StableHlo.nullary main_cst_36 (constant S_ .f32 0x3727C5AC#32),
    StableHlo.unary main_cst_36 main_v256 (broadcastInDim S64 ![] bcast_S_S64 : (⟨S_, .f32⟩ : BufTy).Contents (Elt F) → (⟨S64, .f32⟩ : BufTy).Contents (Elt F)),
    StableHlo.binary main_v252 main_v256 main_v257 (addf : (⟨S64, .f32⟩ : BufTy).Contents (Elt F) → (⟨S64, .f32⟩ : BufTy).Contents (Elt F) → (⟨S64, .f32⟩ : BufTy).Contents (Elt F)),
    StableHlo.unary main_v257 main_v258 (Host.rsqrt : (⟨S64, .f32⟩ : BufTy).Contents (Elt F) → (⟨S64, .f32⟩ : BufTy).Contents (Elt F)),
    StableHlo.unary main_v258 main_v259 (broadcastInDim S1x64 ![1] bcast_S64_S1x64_1 : (⟨S64, .f32⟩ : BufTy).Contents (Elt F) → (⟨S1x64, .f32⟩ : BufTy).Contents (Elt F)),
    StableHlo.unary main_v259 main_v260 (broadcastInDim S400000x64 ![0, 1] bcast_S1x64_S400000x64_0_1 : (⟨S1x64, .f32⟩ : BufTy).Contents (Elt F) → (⟨S400000x64, .f32⟩ : BufTy).Contents (Elt F)) ]

theorem opsL2c_sub : (opsL2c : List (HloOp τ sig (Elt F))).Forall fun op => op.bufs ⊆ tcRefs τ sig :=
  ⟨unary_bufs_sub .., ternary_bufs_sub .., nullary_bufs_sub .., unary_bufs_sub .., unary_bufs_sub .., ternary_bufs_sub .., nullary_bufs_sub .., unary_bufs_sub .., binary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub ..⟩

/-- The references opsL2c writes, in order. -/
abbrev opsL2c_W : List (Ref sig .tc) :=
  [main_v211, main_v212, main_cst_27, main_v213, main_v214, main_v215, main_cst_28, main_v216, main_v217, main_v218, main_v219, main_v220, main_v221, main_v222, main_v223, main_cst_29, main_v224, main_cst_30, main_v225, main_v226, main_c_31, (main_call4.cst).ref, (main_call4.v0).ref, (main_call4.v1).ref, (main_call4.cst_0).ref, (main_call4.v2).ref, (main_call4.v3).ref, (main_call4.v4).ref, (main_call4.v5).ref, (main_call4.v6).ref, (main_call4.v7).ref, (main_call4.cst_1).ref, (main_call4.v8).ref, (main_call4.cst_2).ref, (main_call4.v9).ref, (main_call4.v10).ref, (main_call4.v11).ref, (main_call4.cst_3).ref, (main_call4.v12).ref, (main_call4.cst_4).ref, (main_call4.call0.v0).ref, (main_call4.call0.v1).ref, (main_call4.call0.v2).ref, main_v228, main_v229, main_v230, main_cst_32, main_v231, main_v232, main_v233, main_v234, main_v235, main_v236, main_v237, main_v238, main_v239, main_v240, main_v241, main_v242, (main_call5.cst).ref, (main_call5.v0).ref, (main_call5.v1).ref, main_v244, main_v245, main_v246, main_v247, main_v248, main_cst_33, main_v249, main_cst_34, main_v250, main_v251, main_c_35, (main_call6.cst).ref, (main_call6.v0).ref, (main_call6.v1).ref, (main_call6.cst_0).ref, (main_call6.v2).ref, (main_call6.v3).ref, (main_call6.v4).ref, (main_call6.v5).ref, (main_call6.v6).ref, (main_call6.v7).ref, (main_call6.cst_1).ref, (main_call6.v8).ref, (main_call6.cst_2).ref, (main_call6.v9).ref, (main_call6.v10).ref, (main_call6.v11).ref, (main_call6.cst_3).ref, (main_call6.v12).ref, (main_call6.cst_4).ref, (main_call6.call0.v0).ref, (main_call6.call0.v1).ref, (main_call6.call0.v2).ref, main_v253, main_v254, main_v255, main_cst_36, main_v256, main_v257, main_v258, main_v259, main_v260]

theorem opsL2c_wr : (opsL2c : List (HloOp τ sig (Elt F))).Forall fun op => op.writes ⊆ (opsL2c_W.map (Proc.devRef (τ := τ) .tc)).toFinset :=
  ⟨wr (y := main_v211) rfl (by decide), wr (y := main_v212) rfl (by decide), wr (y := main_cst_27) rfl (by decide), wr (y := main_v213) rfl (by decide), wr (y := main_v214) rfl (by decide), wr (y := main_v215) rfl (by decide), wr (y := main_cst_28) rfl (by decide), wr (y := main_v216) rfl (by decide), wr (y := main_v217) rfl (by decide), wr (y := main_v218) rfl (by decide), wr (y := main_v219) rfl (by decide), wr (y := main_v220) rfl (by decide), wr (y := main_v221) rfl (by decide), wr (y := main_v222) rfl (by decide), wr (y := main_v223) rfl (by decide), wr (y := main_cst_29) rfl (by decide), wr (y := main_v224) rfl (by decide), wr (y := main_cst_30) rfl (by decide), wr (y := main_v225) rfl (by decide), wr (y := main_v226) rfl (by decide), wr (y := main_c_31) rfl (by decide), wr (y := (main_call4.cst).ref) rfl (by decide), wr (y := (main_call4.v0).ref) rfl (by decide), wr (y := (main_call4.v1).ref) rfl (by decide), wr (y := (main_call4.cst_0).ref) rfl (by decide), wr (y := (main_call4.v2).ref) rfl (by decide), wr (y := (main_call4.v3).ref) rfl (by decide), wr (y := (main_call4.v4).ref) rfl (by decide), wr (y := (main_call4.v5).ref) rfl (by decide), wr (y := (main_call4.v6).ref) rfl (by decide), wr (y := (main_call4.v7).ref) rfl (by decide), wr (y := (main_call4.cst_1).ref) rfl (by decide), wr (y := (main_call4.v8).ref) rfl (by decide), wr (y := (main_call4.cst_2).ref) rfl (by decide), wr (y := (main_call4.v9).ref) rfl (by decide), wr (y := (main_call4.v10).ref) rfl (by decide), wr (y := (main_call4.v11).ref) rfl (by decide), wr (y := (main_call4.cst_3).ref) rfl (by decide), wr (y := (main_call4.v12).ref) rfl (by decide), wr (y := (main_call4.cst_4).ref) rfl (by decide), wr (y := (main_call4.call0.v0).ref) rfl (by decide), wr (y := (main_call4.call0.v1).ref) rfl (by decide), wr (y := (main_call4.call0.v2).ref) rfl (by decide), wr (y := main_v228) rfl (by decide), wr (y := main_v229) rfl (by decide), wr (y := main_v230) rfl (by decide), wr (y := main_cst_32) rfl (by decide), wr (y := main_v231) rfl (by decide), wr (y := main_v232) rfl (by decide), wr (y := main_v233) rfl (by decide), wr (y := main_v234) rfl (by decide), wr (y := main_v235) rfl (by decide), wr (y := main_v236) rfl (by decide), wr (y := main_v237) rfl (by decide), wr (y := main_v238) rfl (by decide), wr (y := main_v239) rfl (by decide), wr (y := main_v240) rfl (by decide), wr (y := main_v241) rfl (by decide), wr (y := main_v242) rfl (by decide), wr (y := (main_call5.cst).ref) rfl (by decide), wr (y := (main_call5.v0).ref) rfl (by decide), wr (y := (main_call5.v1).ref) rfl (by decide), wr (y := main_v244) rfl (by decide), wr (y := main_v245) rfl (by decide), wr (y := main_v246) rfl (by decide), wr (y := main_v247) rfl (by decide), wr (y := main_v248) rfl (by decide), wr (y := main_cst_33) rfl (by decide), wr (y := main_v249) rfl (by decide), wr (y := main_cst_34) rfl (by decide), wr (y := main_v250) rfl (by decide), wr (y := main_v251) rfl (by decide), wr (y := main_c_35) rfl (by decide), wr (y := (main_call6.cst).ref) rfl (by decide), wr (y := (main_call6.v0).ref) rfl (by decide), wr (y := (main_call6.v1).ref) rfl (by decide), wr (y := (main_call6.cst_0).ref) rfl (by decide), wr (y := (main_call6.v2).ref) rfl (by decide), wr (y := (main_call6.v3).ref) rfl (by decide), wr (y := (main_call6.v4).ref) rfl (by decide), wr (y := (main_call6.v5).ref) rfl (by decide), wr (y := (main_call6.v6).ref) rfl (by decide), wr (y := (main_call6.v7).ref) rfl (by decide), wr (y := (main_call6.cst_1).ref) rfl (by decide), wr (y := (main_call6.v8).ref) rfl (by decide), wr (y := (main_call6.cst_2).ref) rfl (by decide), wr (y := (main_call6.v9).ref) rfl (by decide), wr (y := (main_call6.v10).ref) rfl (by decide), wr (y := (main_call6.v11).ref) rfl (by decide), wr (y := (main_call6.cst_3).ref) rfl (by decide), wr (y := (main_call6.v12).ref) rfl (by decide), wr (y := (main_call6.cst_4).ref) rfl (by decide), wr (y := (main_call6.call0.v0).ref) rfl (by decide), wr (y := (main_call6.call0.v1).ref) rfl (by decide), wr (y := (main_call6.call0.v2).ref) rfl (by decide), wr (y := main_v253) rfl (by decide), wr (y := main_v254) rfl (by decide), wr (y := main_v255) rfl (by decide), wr (y := main_cst_36) rfl (by decide), wr (y := main_v256) rfl (by decide), wr (y := main_v257) rfl (by decide), wr (y := main_v258) rfl (by decide), wr (y := main_v259) rfl (by decide), wr (y := main_v260) rfl (by decide)⟩

theorem opsL2c_fresh : (opsL2c : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's statements 301 … 309 (of window 5), the outlined functions' bodies at their call sites: 11 operations. -/
abbrev opsL2d : List (HloOp τ sig (Elt F)) :=
  [ StableHlo.binary main_v255 main_v260 main_v261 (mulf : (⟨S400000x64, .f32⟩ : BufTy).Contents (Elt F) → (⟨S400000x64, .f32⟩ : BufTy).Contents (Elt F) → (⟨S400000x64, .f32⟩ : BufTy).Contents (Elt F)),
    StableHlo.unary main_v246 main_v262 (broadcastInDim S1x64 ![1] bcast_S64_S1x64_1 : (⟨S64, .f32⟩ : BufTy).Contents (Elt F) → (⟨S1x64, .f32⟩ : BufTy).Contents (Elt F)),
    StableHlo.unary main_v262 main_v263 (broadcastInDim S400000x64 ![0, 1] bcast_S1x64_S400000x64_0_1 : (⟨S1x64, .f32⟩ : BufTy).Contents (Elt F) → (⟨S400000x64, .f32⟩ : BufTy).Contents (Elt F)),
    StableHlo.binary main_v261 main_v263 main_v264 (mulf : (⟨S400000x64, .f32⟩ : BufTy).Contents (Elt F) → (⟨S400000x64, .f32⟩ : BufTy).Contents (Elt F) → (⟨S400000x64, .f32⟩ : BufTy).Contents (Elt F)),
    StableHlo.unary main_v248 main_v265 (broadcastInDim S1x64 ![1] bcast_S64_S1x64_1 : (⟨S64, .f32⟩ : BufTy).Contents (Elt F) → (⟨S1x64, .f32⟩ : BufTy).Contents (Elt F)),
    StableHlo.unary main_v265 main_v266 (broadcastInDim S400000x64 ![0, 1] bcast_S1x64_S400000x64_0_1 : (⟨S1x64, .f32⟩ : BufTy).Contents (Elt F) → (⟨S400000x64, .f32⟩ : BufTy).Contents (Elt F)),
    StableHlo.binary main_v264 main_v266 main_v267 (addf : (⟨S400000x64, .f32⟩ : BufTy).Contents (Elt F) → (⟨S400000x64, .f32⟩ : BufTy).Contents (Elt F) → (⟨S400000x64, .f32⟩ : BufTy).Contents (Elt F)),
    StableHlo.TRef.nullary main_call7.cst (constant S_ .f32 0x00000000#32),
    StableHlo.TRef.unary main_call7.cst main_call7.v0 (broadcastInDim S400000x64 ![] bcast_S_S400000x64),
    StableHlo.TRef.binary (.of main_v267) main_call7.v0 main_call7.v1 maximumf,
    StableHlo.binary main_v139 main_v268 main_v269 (addf : (⟨S400000x64, .f32⟩ : BufTy).Contents (Elt F) → (⟨S400000x64, .f32⟩ : BufTy).Contents (Elt F) → (⟨S400000x64, .f32⟩ : BufTy).Contents (Elt F)) ]

theorem opsL2d_sub : (opsL2d : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

/-- The references opsL2d writes, in order. -/
abbrev opsL2d_W : List (Ref sig .tc) :=
  [main_v261, main_v262, main_v263, main_v264, main_v265, main_v266, main_v267, (main_call7.cst).ref, (main_call7.v0).ref, (main_call7.v1).ref, main_v269]

theorem opsL2d_wr : (opsL2d : List (HloOp τ sig (Elt F))).Forall fun op => op.writes ⊆ (opsL2d_W.map (Proc.devRef (τ := τ) .tc)).toFinset :=
  ⟨wr (y := main_v261) rfl (by decide), wr (y := main_v262) rfl (by decide), wr (y := main_v263) rfl (by decide), wr (y := main_v264) rfl (by decide), wr (y := main_v265) rfl (by decide), wr (y := main_v266) rfl (by decide), wr (y := main_v267) rfl (by decide), wr (y := (main_call7.cst).ref) rfl (by decide), wr (y := (main_call7.v0).ref) rfl (by decide), wr (y := (main_call7.v1).ref) rfl (by decide), wr (y := main_v269) rfl (by decide)⟩

theorem opsL2d_fresh : (opsL2d : List (HloOp τ sig (Elt F))).Forall fun op => op.fresh = ∅ :=
  ⟨rfl, rfl, rfl, rfl, rfl, rfl, rfl, rfl, rfl, rfl, rfl⟩

/-- @main's statements 310 … 360 (of window 5), the outlined functions' bodies at their call sites: 51 operations. -/
abbrev opsL3a : List (HloOp τ sig (Elt F)) :=
  [ StableHlo.unary main_arg10 main_v270 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v270 main_v271 rfl shapeCasts_S1x64x64_S64x64,
    StableHlo.binary main_v244 main_v271 main_v272 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v273 ((extractStridedSlice S1x64 ![2, 0] · slices_S3x64_S1x64_2_0) : (⟨S3x64, .f32⟩ : BufTy).Contents (Elt F) → (⟨S1x64, .f32⟩ : BufTy).Contents (Elt F)),
    StableHlo.reshape main_v273 main_v274 rfl shapeCasts_S1x64_S64,
    StableHlo.unary main_v274 main_v275 (broadcastInDim S1x64 ![1] bcast_S64_S1x64_1 : (⟨S64, .f32⟩ : BufTy).Contents (Elt F) → (⟨S1x64, .f32⟩ : BufTy).Contents (Elt F)),
    StableHlo.unary main_v275 main_v276 (broadcastInDim S50000x64 ![0, 1] bcast_S1x64_S50000x64_0_1 : (⟨S1x64, .f32⟩ : BufTy).Contents (Elt F) → (⟨S50000x64, .f32⟩ : BufTy).Contents (Elt F)),
    StableHlo.binary main_v272 main_v276 main_v277 (addf : (⟨S50000x64, .f32⟩ : BufTy).Contents (Elt F) → (⟨S50000x64, .f32⟩ : BufTy).Contents (Elt F) → (⟨S50000x64, .f32⟩ : BufTy).Contents (Elt F)),
    StableHlo.unary main_arg12 main_v278 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v278 main_v279 rfl shapeCasts_S1x64x64_S64x64,
    StableHlo.binary main_v244 main_v279 main_v280 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg13 main_v281 ((extractStridedSlice S1x64 ![2, 0] · slices_S3x64_S1x64_2_0) : (⟨S3x64, .f32⟩ : BufTy).Contents (Elt F) → (⟨S1x64, .f32⟩ : BufTy).Contents (Elt F)),
    StableHlo.reshape main_v281 main_v282 rfl shapeCasts_S1x64_S64,
    StableHlo.unary main_v282 main_v283 (broadcastInDim S1x64 ![1] bcast_S64_S1x64_1 : (⟨S64, .f32⟩ : BufTy).Contents (Elt F) → (⟨S1x64, .f32⟩ : BufTy).Contents (Elt F)),
    StableHlo.unary main_v283 main_v284 (broadcastInDim S50000x64 ![0, 1] bcast_S1x64_S50000x64_0_1 : (⟨S1x64, .f32⟩ : BufTy).Contents (Elt F) → (⟨S50000x64, .f32⟩ : BufTy).Contents (Elt F)),
    StableHlo.binary main_v280 main_v284 main_v285 (addf : (⟨S50000x64, .f32⟩ : BufTy).Contents (Elt F) → (⟨S50000x64, .f32⟩ : BufTy).Contents (Elt F) → (⟨S50000x64, .f32⟩ : BufTy).Contents (Elt F)),
    StableHlo.unary main_arg16 main_v286 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v286 main_v287 rfl shapeCasts_S1x64x64_S64x64,
    StableHlo.binary main_v244 main_v287 main_v288 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg17 main_v289 ((extractStridedSlice S1x64 ![2, 0] · slices_S3x64_S1x64_2_0) : (⟨S3x64, .f32⟩ : BufTy).Contents (Elt F) → (⟨S1x64, .f32⟩ : BufTy).Contents (Elt F)),
    StableHlo.reshape main_v289 main_v290 rfl shapeCasts_S1x64_S64,
    StableHlo.unary main_v290 main_v291 (broadcastInDim S1x64 ![1] bcast_S64_S1x64_1 : (⟨S64, .f32⟩ : BufTy).Contents (Elt F) → (⟨S1x64, .f32⟩ : BufTy).Contents (Elt F)),
    StableHlo.unary main_v291 main_v292 (broadcastInDim S50000x64 ![0, 1] bcast_S1x64_S50000x64_0_1 : (⟨S1x64, .f32⟩ : BufTy).Contents (Elt F) → (⟨S50000x64, .f32⟩ : BufTy).Contents (Elt F)),
    StableHlo.binary main_v288 main_v292 main_v293 (addf : (⟨S50000x64, .f32⟩ : BufTy).Contents (Elt F) → (⟨S50000x64, .f32⟩ : BufTy).Contents (Elt F) → (⟨S50000x64, .f32⟩ : BufTy).Contents (Elt F)),
    StableHlo.unary main_arg18 main_v294 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v294 main_v295 rfl shapeCasts_S1x64x64_S64x64,
    StableHlo.binary main_v244 main_v295 main_v296 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg19 main_v297 ((extractStridedSlice S1x64 ![2, 0] · slices_S3x64_S1x64_2_0) : (⟨S3x64, .f32⟩ : BufTy).Contents (Elt F) → (⟨S1x64, .f32⟩ : BufTy).Contents (Elt F)),
    StableHlo.reshape main_v297 main_v298 rfl shapeCasts_S1x64_S64,
    StableHlo.unary main_v298 main_v299 (broadcastInDim S1x64 ![1] bcast_S64_S1x64_1 : (⟨S64, .f32⟩ : BufTy).Contents (Elt F) → (⟨S1x64, .f32⟩ : BufTy).Contents (Elt F)),
    StableHlo.unary main_v299 main_v300 (broadcastInDim S50000x64 ![0, 1] bcast_S1x64_S50000x64_0_1 : (⟨S1x64, .f32⟩ : BufTy).Contents (Elt F) → (⟨S50000x64, .f32⟩ : BufTy).Contents (Elt F)),
    StableHlo.binary main_v296 main_v300 main_v301 (addf : (⟨S50000x64, .f32⟩ : BufTy).Contents (Elt F) → (⟨S50000x64, .f32⟩ : BufTy).Contents (Elt F) → (⟨S50000x64, .f32⟩ : BufTy).Contents (Elt F)),
    StableHlo.unary main_arg14 main_v302 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v302 main_v303 rfl shapeCasts_S1x64x64_S64x64,
    StableHlo.binary main_v269 main_v303 main_v304 ((fun l r => Host.dotGeneral dot_S400000x64_S64x64_S400000x64_1_0_0_1_n_n none l r) : (⟨S400000x64, .f32⟩ : BufTy).Contents (Elt F) → (⟨S64x64, .f32⟩ : BufTy).Contents (Elt F) → (⟨S400000x64, .f32⟩ : BufTy).Contents (Elt F)),
    StableHlo.unary main_arg15 main_v305 ((extractStridedSlice S1x64 ![2, 0] · slices_S3x64_S1x64_2_0) : (⟨S3x64, .f32⟩ : BufTy).Contents (Elt F) → (⟨S1x64, .f32⟩ : BufTy).Contents (Elt F)),
    StableHlo.reshape main_v305 main_v306 rfl shapeCasts_S1x64_S64,
    StableHlo.unary main_v306 main_v307 (broadcastInDim S1x64 ![1] bcast_S64_S1x64_1 : (⟨S64, .f32⟩ : BufTy).Contents (Elt F) → (⟨S1x64, .f32⟩ : BufTy).Contents (Elt F)),
    StableHlo.unary main_v307 main_v308 (broadcastInDim S400000x64 ![0, 1] bcast_S1x64_S400000x64_0_1 : (⟨S1x64, .f32⟩ : BufTy).Contents (Elt F) → (⟨S400000x64, .f32⟩ : BufTy).Contents (Elt F)),
    StableHlo.binary main_v304 main_v308 main_v309 (addf : (⟨S400000x64, .f32⟩ : BufTy).Contents (Elt F) → (⟨S400000x64, .f32⟩ : BufTy).Contents (Elt F) → (⟨S400000x64, .f32⟩ : BufTy).Contents (Elt F)),
    StableHlo.nullary main_c_37 (constantI S_ 32 0#32),
    StableHlo.unary main_c_37 main_v310 (broadcastInDim S400000 ![] bcast_S_S400000 : (⟨S_, .i32⟩ : BufTy).Contents (Elt F) → (⟨S400000, .i32⟩ : BufTy).Contents (Elt F)),
    StableHlo.binary main_arg3 main_v310 main_v311 (cmpi .slt : (⟨S400000, .i32⟩ : BufTy).Contents (Elt F) → (⟨S400000, .i32⟩ : BufTy).Contents (Elt F) → (⟨S400000, .i1⟩ : BufTy).Contents (Elt F)),
    StableHlo.nullary main_c_38 (constantI S_ 32 50000#32),
    StableHlo.unary main_c_38 main_v312 (broadcastInDim S400000 ![] bcast_S_S400000 : (⟨S_, .i32⟩ : BufTy).Contents (Elt F) → (⟨S400000, .i32⟩ : BufTy).Contents (Elt F)),
    StableHlo.binary main_arg3 main_v312 main_v313 (addi : (⟨S400000, .i32⟩ : BufTy).Contents (Elt F) → (⟨S400000, .i32⟩ : BufTy).Contents (Elt F) → (⟨S400000, .i32⟩ : BufTy).Contents (Elt F)),
    StableHlo.ternary main_v311 main_v313 main_arg3 main_v314 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v314 main_v315 (broadcastInDim S400000x1 ![0] bcast_S400000_S400000x1_0 : (⟨S400000, .i32⟩ : BufTy).Contents (Elt F) → (⟨S400000x1, .i32⟩ : BufTy).Contents (Elt F)),
    StableHlo.binary main_v293 main_v315 main_v316 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)),
    StableHlo.nullary main_c_39 (constantI S_ 32 0#32),
    StableHlo.unary main_c_39 main_v317 (broadcastInDim S400000 ![] bcast_S_S400000 : (⟨S_, .i32⟩ : BufTy).Contents (Elt F) → (⟨S400000, .i32⟩ : BufTy).Contents (Elt F)) ]

theorem opsL3a_sub : (opsL3a : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub ..⟩

/-- The references opsL3a writes, in order. -/
abbrev opsL3a_W : List (Ref sig .tc) :=
  [main_v270, main_v271, main_v272, main_v273, main_v274, main_v275, main_v276, main_v277, main_v278, main_v279, main_v280, main_v281, main_v282, main_v283, main_v284, main_v285, main_v286, main_v287, main_v288, main_v289, main_v290, main_v291, main_v292, main_v293, main_v294, main_v295, main_v296, main_v297, main_v298, main_v299, main_v300, main_v301, main_v302, main_v303, main_v304, main_v305, main_v306, main_v307, main_v308, main_v309, main_c_37, main_v310, main_v311, main_c_38, main_v312, main_v313, main_v314, main_v315, main_v316, main_c_39, main_v317]

theorem opsL3a_wr : (opsL3a : List (HloOp τ sig (Elt F))).Forall fun op => op.writes ⊆ (opsL3a_W.map (Proc.devRef (τ := τ) .tc)).toFinset :=
  ⟨wr (y := main_v270) rfl (by decide), wr (y := main_v271) rfl (by decide), wr (y := main_v272) rfl (by decide), wr (y := main_v273) rfl (by decide), wr (y := main_v274) rfl (by decide), wr (y := main_v275) rfl (by decide), wr (y := main_v276) rfl (by decide), wr (y := main_v277) rfl (by decide), wr (y := main_v278) rfl (by decide), wr (y := main_v279) rfl (by decide), wr (y := main_v280) rfl (by decide), wr (y := main_v281) rfl (by decide), wr (y := main_v282) rfl (by decide), wr (y := main_v283) rfl (by decide), wr (y := main_v284) rfl (by decide), wr (y := main_v285) rfl (by decide), wr (y := main_v286) rfl (by decide), wr (y := main_v287) rfl (by decide), wr (y := main_v288) rfl (by decide), wr (y := main_v289) rfl (by decide), wr (y := main_v290) rfl (by decide), wr (y := main_v291) rfl (by decide), wr (y := main_v292) rfl (by decide), wr (y := main_v293) rfl (by decide), wr (y := main_v294) rfl (by decide), wr (y := main_v295) rfl (by decide), wr (y := main_v296) rfl (by decide), wr (y := main_v297) rfl (by decide), wr (y := main_v298) rfl (by decide), wr (y := main_v299) rfl (by decide), wr (y := main_v300) rfl (by decide), wr (y := main_v301) rfl (by decide), wr (y := main_v302) rfl (by decide), wr (y := main_v303) rfl (by decide), wr (y := main_v304) rfl (by decide), wr (y := main_v305) rfl (by decide), wr (y := main_v306) rfl (by decide), wr (y := main_v307) rfl (by decide), wr (y := main_v308) rfl (by decide), wr (y := main_v309) rfl (by decide), wr (y := main_c_37) rfl (by decide), wr (y := main_v310) rfl (by decide), wr (y := main_v311) rfl (by decide), wr (y := main_c_38) rfl (by decide), wr (y := main_v312) rfl (by decide), wr (y := main_v313) rfl (by decide), wr (y := main_v314) rfl (by decide), wr (y := main_v315) rfl (by decide), wr (y := main_v316) rfl (by decide), wr (y := main_c_39) rfl (by decide), wr (y := main_v317) rfl (by decide)⟩

theorem opsL3a_fresh : (opsL3a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's statements 361 … 420 (of window 6), the outlined functions' bodies at their call sites: 81 operations. -/
abbrev opsL3b : List (HloOp τ sig (Elt F)) :=
  [ StableHlo.binary main_arg4 main_v317 main_v318 (cmpi .slt : (⟨S400000, .i32⟩ : BufTy).Contents (Elt F) → (⟨S400000, .i32⟩ : BufTy).Contents (Elt F) → (⟨S400000, .i1⟩ : BufTy).Contents (Elt F)),
    StableHlo.nullary main_c_40 (constantI S_ 32 50000#32),
    StableHlo.unary main_c_40 main_v319 (broadcastInDim S400000 ![] bcast_S_S400000 : (⟨S_, .i32⟩ : BufTy).Contents (Elt F) → (⟨S400000, .i32⟩ : BufTy).Contents (Elt F)),
    StableHlo.binary main_arg4 main_v319 main_v320 (addi : (⟨S400000, .i32⟩ : BufTy).Contents (Elt F) → (⟨S400000, .i32⟩ : BufTy).Contents (Elt F) → (⟨S400000, .i32⟩ : BufTy).Contents (Elt F)),
    StableHlo.ternary main_v318 main_v320 main_arg4 main_v321 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v321 main_v322 (broadcastInDim S400000x1 ![0] bcast_S400000_S400000x1_0 : (⟨S400000, .i32⟩ : BufTy).Contents (Elt F) → (⟨S400000x1, .i32⟩ : BufTy).Contents (Elt F)),
    StableHlo.binary main_v301 main_v322 main_v323 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)),
    StableHlo.binary main_v316 main_v323 main_v324 (addf : (⟨S400000x64, .f32⟩ : BufTy).Contents (Elt F) → (⟨S400000x64, .f32⟩ : BufTy).Contents (Elt F) → (⟨S400000x64, .f32⟩ : BufTy).Contents (Elt F)),
    StableHlo.binary main_v324 main_v309 main_v325 (addf : (⟨S400000x64, .f32⟩ : BufTy).Contents (Elt F) → (⟨S400000x64, .f32⟩ : BufTy).Contents (Elt F) → (⟨S400000x64, .f32⟩ : BufTy).Contents (Elt F)),
    StableHlo.unary main_v325 main_v326 (Host.negf : (⟨S400000x64, .f32⟩ : BufTy).Contents (Elt F) → (⟨S400000x64, .f32⟩ : BufTy).Contents (Elt F)),
    StableHlo.unary main_v326 main_v327 (Host.exp : (⟨S400000x64, .f32⟩ : BufTy).Contents (Elt F) → (⟨S400000x64, .f32⟩ : BufTy).Contents (Elt F)),
    StableHlo.nullary main_cst_41 (constant S_ .f32 0x3F800000#32),
    StableHlo.unary main_cst_41 main_v328 (broadcastInDim S400000x64 ![] bcast_S_S400000x64 : (⟨S_, .f32⟩ : BufTy).Contents (Elt F) → (⟨S400000x64, .f32⟩ : BufTy).Contents (Elt F)),
    StableHlo.binary main_v328 main_v327 main_v329 (addf : (⟨S400000x64, .f32⟩ : BufTy).Contents (Elt F) → (⟨S400000x64, .f32⟩ : BufTy).Contents (Elt F) → (⟨S400000x64, .f32⟩ : BufTy).Contents (Elt F)),
    StableHlo.nullary main_cst_42 (constant S_ .f32 0x3F800000#32),
    StableHlo.unary main_cst_42 main_v330 (broadcastInDim S400000x64 ![] bcast_S_S400000x64 : (⟨S_, .f32⟩ : BufTy).Contents (Elt F) → (⟨S400000x64, .f32⟩ : BufTy).Contents (Elt F)),
    StableHlo.binary main_v330 main_v329 main_v331 (Host.divf : (⟨S400000x64, .f32⟩ : BufTy).Contents (Elt F) → (⟨S400000x64, .f32⟩ : BufTy).Contents (Elt F) → (⟨S400000x64, .f32⟩ : BufTy).Contents (Elt F)),
    StableHlo.nullary main_c_43 (constantI S_ 32 0#32),
    StableHlo.unary main_c_43 main_v332 (broadcastInDim S400000 ![] bcast_S_S400000 : (⟨S_, .i32⟩ : BufTy).Contents (Elt F) → (⟨S400000, .i32⟩ : BufTy).Contents (Elt F)),
    StableHlo.binary main_arg3 main_v332 main_v333 (cmpi .slt : (⟨S400000, .i32⟩ : BufTy).Contents (Elt F) → (⟨S400000, .i32⟩ : BufTy).Contents (Elt F) → (⟨S400000, .i1⟩ : BufTy).Contents (Elt F)),
    StableHlo.nullary main_c_44 (constantI S_ 32 50000#32),
    StableHlo.unary main_c_44 main_v334 (broadcastInDim S400000 ![] bcast_S_S400000 : (⟨S_, .i32⟩ : BufTy).Contents (Elt F) → (⟨S400000, .i32⟩ : BufTy).Contents (Elt F)),
    StableHlo.binary main_arg3 main_v334 main_v335 (addi : (⟨S400000, .i32⟩ : BufTy).Contents (Elt F) → (⟨S400000, .i32⟩ : BufTy).Contents (Elt F) → (⟨S400000, .i32⟩ : BufTy).Contents (Elt F)),
    StableHlo.ternary main_v333 main_v335 main_arg3 main_v336 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v336 main_v337 (broadcastInDim S400000x1 ![0] bcast_S400000_S400000x1_0 : (⟨S400000, .i32⟩ : BufTy).Contents (Elt F) → (⟨S400000x1, .i32⟩ : BufTy).Contents (Elt F)),
    StableHlo.binary main_v285 main_v337 main_v338 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)),
    StableHlo.binary main_v331 main_v338 main_v339 (mulf : (⟨S400000x64, .f32⟩ : BufTy).Contents (Elt F) → (⟨S400000x64, .f32⟩ : BufTy).Contents (Elt F) → (⟨S400000x64, .f32⟩ : BufTy).Contents (Elt F)),
    StableHlo.nullary main_cst_45 (constant S_ .f32 0x00000000#32),
    StableHlo.unary main_cst_45 main_v340 (broadcastInDim S50000x64 ![] bcast_S_S50000x64 : (⟨S_, .f32⟩ : BufTy).Contents (Elt F) → (⟨S50000x64, .f32⟩ : BufTy).Contents (Elt F)),
    StableHlo.unary main_arg4 main_v341 (broadcastInDim S400000x1 ![0] bcast_S400000_S400000x1_0 : (⟨S400000, .i32⟩ : BufTy).Contents (Elt F) → (⟨S400000x1, .i32⟩ : BufTy).Contents (Elt F)),
    StableHlo.ternary main_v340 main_v341 main_v339 main_v342 ((fun x i u => Host.scatterAdd scatter_S50000x64_S400000x1_S400000x64_1_0_0_1 x i u) : (⟨S50000x64, .f32⟩ : BufTy).Contents (Elt F) → (⟨S400000x1, .i32⟩ : BufTy).Contents (Elt F) → (⟨S400000x64, .f32⟩ : BufTy).Contents (Elt F) → (⟨S50000x64, .f32⟩ : BufTy).Contents (Elt F)),
    StableHlo.nullary main_cst_46 (constant S_ .f32 0x00000000#32),
    StableHlo.unary main_cst_46 main_v343 (broadcastInDim S50000x64 ![] bcast_S_S50000x64 : (⟨S_, .f32⟩ : BufTy).Contents (Elt F) → (⟨S50000x64, .f32⟩ : BufTy).Contents (Elt F)),
    StableHlo.unary main_arg4 main_v344 (broadcastInDim S400000x1 ![0] bcast_S400000_S400000x1_0 : (⟨S400000, .i32⟩ : BufTy).Contents (Elt F) → (⟨S400000x1, .i32⟩ : BufTy).Contents (Elt F)),
    StableHlo.ternary main_v343 main_v344 main_v331 main_v345 ((fun x i u => Host.scatterAdd scatter_S50000x64_S400000x1_S400000x64_1_0_0_1 x i u) : (⟨S50000x64, .f32⟩ : BufTy).Contents (Elt F) → (⟨S400000x1, .i32⟩ : BufTy).Contents (Elt F) → (⟨S400000x64, .f32⟩ : BufTy).Contents (Elt F) → (⟨S50000x64, .f32⟩ : BufTy).Contents (Elt F)),
    StableHlo.nullary main_cst_47 (constant S_ .f32 0x358637BD#32),
    StableHlo.unary main_cst_47 main_v346 (broadcastInDim S50000x64 ![] bcast_S_S50000x64 : (⟨S_, .f32⟩ : BufTy).Contents (Elt F) → (⟨S50000x64, .f32⟩ : BufTy).Contents (Elt F)),
    StableHlo.binary main_v345 main_v346 main_v347 (addf : (⟨S50000x64, .f32⟩ : BufTy).Contents (Elt F) → (⟨S50000x64, .f32⟩ : BufTy).Contents (Elt F) → (⟨S50000x64, .f32⟩ : BufTy).Contents (Elt F)),
    StableHlo.binary main_v342 main_v347 main_v348 (Host.divf : (⟨S50000x64, .f32⟩ : BufTy).Contents (Elt F) → (⟨S50000x64, .f32⟩ : BufTy).Contents (Elt F) → (⟨S50000x64, .f32⟩ : BufTy).Contents (Elt F)),
    StableHlo.binary main_v277 main_v348 main_v349 (addf : (⟨S50000x64, .f32⟩ : BufTy).Contents (Elt F) → (⟨S50000x64, .f32⟩ : BufTy).Contents (Elt F) → (⟨S50000x64, .f32⟩ : BufTy).Contents (Elt F)),
    StableHlo.unary main_arg20 main_v350 ((extractStridedSlice S1x64 ![2, 0] · slices_S3x64_S1x64_2_0) : (⟨S3x64, .f32⟩ : BufTy).Contents (Elt F) → (⟨S1x64, .f32⟩ : BufTy).Contents (Elt F)),
    StableHlo.reshape main_v350 main_v351 rfl shapeCasts_S1x64_S64,
    StableHlo.unary main_arg21 main_v352 ((extractStridedSlice S1x64 ![2, 0] · slices_S3x64_S1x64_2_0) : (⟨S3x64, .f32⟩ : BufTy).Contents (Elt F) → (⟨S1x64, .f32⟩ : BufTy).Contents (Elt F)),
    StableHlo.reshape main_v352 main_v353 rfl shapeCasts_S1x64_S64,
    StableHlo.nullary main_cst_48 (constant S_ .f32 0x00000000#32),
    StableHlo.binary main_v349 main_cst_48 main_v354 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_49 (constant S_ .f32 0x47435000#32),
    StableHlo.unary main_cst_49 main_v355 (broadcastInDim S64 ![] bcast_S_S64 : (⟨S_, .f32⟩ : BufTy).Contents (Elt F) → (⟨S64, .f32⟩ : BufTy).Contents (Elt F)),
    StableHlo.binary main_v354 main_v355 main_v356 (Host.divf : (⟨S64, .f32⟩ : BufTy).Contents (Elt F) → (⟨S64, .f32⟩ : BufTy).Contents (Elt F) → (⟨S64, .f32⟩ : BufTy).Contents (Elt F)),
    StableHlo.nullary main_c_50 (constantI S_ 32 0#32),
    StableHlo.TRef.nullary main_call8.cst (constant S_ .f32 0x00000000#32),
    StableHlo.TRef.binary (.of main_v349) main_call8.cst main_call8.v0 (fun x v => Host.reduceAdd x v reducesTo_S50000x64_S64_d0 h_S_),
    StableHlo.TRef.unary main_call8.v0 main_call8.v1 (broadcastInDim S1x64 ![1] bcast_S64_S1x64_1),
    StableHlo.TRef.nullary main_call8.cst_0 (constant S_ .f32 0x47435000#32),
    StableHlo.TRef.unary main_call8.cst_0 main_call8.v2 (broadcastInDim S1x64 ![] bcast_S_S1x64),
    StableHlo.TRef.binary main_call8.v1 main_call8.v2 main_call8.v3 Host.divf,
    StableHlo.TRef.unary main_call8.v3 main_call8.v4 (broadcastInDim S50000x64 ![0, 1] bcast_S1x64_S50000x64_0_1),
    StableHlo.TRef.binary (.of main_v349) main_call8.v4 main_call8.v5 subf,
    StableHlo.TRef.binary main_call8.v5 main_call8.v5 main_call8.v6 mulf,
    StableHlo.TRef.unary (.of main_c_50) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x64_S64_d0 h_S_),
    StableHlo.TRef.unary main_call8.v8 main_call8.v10 (broadcastInDim S64 ![] bcast_S_S64),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S64 ![] bcast_S_S64),
    StableHlo.TRef.ternary main_call8.v12 main_call8.v11 main_call8.call0.v1 main_call8.call0.v2 (fun p a b => select (broadcastInDim S64 ![] bcast_S_S64 p) a b),
    StableHlo.unary main_v356 main_v358 (broadcastInDim S1x64 ![1] bcast_S64_S1x64_1 : (⟨S64, .f32⟩ : BufTy).Contents (Elt F) → (⟨S1x64, .f32⟩ : BufTy).Contents (Elt F)),
    StableHlo.unary main_v358 main_v359 (broadcastInDim S50000x64 ![0, 1] bcast_S1x64_S50000x64_0_1 : (⟨S1x64, .f32⟩ : BufTy).Contents (Elt F) → (⟨S50000x64, .f32⟩ : BufTy).Contents (Elt F)),
    StableHlo.binary main_v349 main_v359 main_v360 (subf : (⟨S50000x64, .f32⟩ : BufTy).Contents (Elt F) → (⟨S50000x64, .f32⟩ : BufTy).Contents (Elt F) → (⟨S50000x64, .f32⟩ : BufTy).Contents (Elt F)),
    StableHlo.nullary main_cst_51 (constant S_ .f32 0x3727C5AC#32),
    StableHlo.unary main_cst_51 main_v361 (broadcastInDim S64 ![] bcast_S_S64 : (⟨S_, .f32⟩ : BufTy).Contents (Elt F) → (⟨S64, .f32⟩ : BufTy).Contents (Elt F)),
    StableHlo.binary main_v357 main_v361 main_v362 (addf : (⟨S64, .f32⟩ : BufTy).Contents (Elt F) → (⟨S64, .f32⟩ : BufTy).Contents (Elt F) → (⟨S64, .f32⟩ : BufTy).Contents (Elt F)),
    StableHlo.unary main_v362 main_v363 (Host.rsqrt : (⟨S64, .f32⟩ : BufTy).Contents (Elt F) → (⟨S64, .f32⟩ : BufTy).Contents (Elt F)),
    StableHlo.unary main_v363 main_v364 (broadcastInDim S1x64 ![1] bcast_S64_S1x64_1 : (⟨S64, .f32⟩ : BufTy).Contents (Elt F) → (⟨S1x64, .f32⟩ : BufTy).Contents (Elt F)),
    StableHlo.unary main_v364 main_v365 (broadcastInDim S50000x64 ![0, 1] bcast_S1x64_S50000x64_0_1 : (⟨S1x64, .f32⟩ : BufTy).Contents (Elt F) → (⟨S50000x64, .f32⟩ : BufTy).Contents (Elt F)) ]

theorem opsL3b_sub : (opsL3b : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub ..⟩

/-- The references opsL3b writes, in order. -/
abbrev opsL3b_W : List (Ref sig .tc) :=
  [main_v318, main_c_40, main_v319, main_v320, main_v321, main_v322, main_v323, main_v324, main_v325, main_v326, main_v327, main_cst_41, main_v328, main_v329, main_cst_42, main_v330, main_v331, main_c_43, main_v332, main_v333, main_c_44, main_v334, main_v335, main_v336, main_v337, main_v338, main_v339, main_cst_45, main_v340, main_v341, main_v342, main_cst_46, main_v343, main_v344, main_v345, main_cst_47, main_v346, main_v347, main_v348, main_v349, main_v350, main_v351, main_v352, main_v353, main_cst_48, main_v354, main_cst_49, main_v355, main_v356, main_c_50, (main_call8.cst).ref, (main_call8.v0).ref, (main_call8.v1).ref, (main_call8.cst_0).ref, (main_call8.v2).ref, (main_call8.v3).ref, (main_call8.v4).ref, (main_call8.v5).ref, (main_call8.v6).ref, (main_call8.v7).ref, (main_call8.cst_1).ref, (main_call8.v8).ref, (main_call8.cst_2).ref, (main_call8.v9).ref, (main_call8.v10).ref, (main_call8.v11).ref, (main_call8.cst_3).ref, (main_call8.v12).ref, (main_call8.cst_4).ref, (main_call8.call0.v0).ref, (main_call8.call0.v1).ref, (main_call8.call0.v2).ref, main_v358, main_v359, main_v360, main_cst_51, main_v361, main_v362, main_v363, main_v364, main_v365]

theorem opsL3b_wr : (opsL3b : List (HloOp τ sig (Elt F))).Forall fun op => op.writes ⊆ (opsL3b_W.map (Proc.devRef (τ := τ) .tc)).toFinset :=
  ⟨wr (y := main_v318) rfl (by decide), wr (y := main_c_40) rfl (by decide), wr (y := main_v319) rfl (by decide), wr (y := main_v320) rfl (by decide), wr (y := main_v321) rfl (by decide), wr (y := main_v322) rfl (by decide), wr (y := main_v323) rfl (by decide), wr (y := main_v324) rfl (by decide), wr (y := main_v325) rfl (by decide), wr (y := main_v326) rfl (by decide), wr (y := main_v327) rfl (by decide), wr (y := main_cst_41) rfl (by decide), wr (y := main_v328) rfl (by decide), wr (y := main_v329) rfl (by decide), wr (y := main_cst_42) rfl (by decide), wr (y := main_v330) rfl (by decide), wr (y := main_v331) rfl (by decide), wr (y := main_c_43) rfl (by decide), wr (y := main_v332) rfl (by decide), wr (y := main_v333) rfl (by decide), wr (y := main_c_44) rfl (by decide), wr (y := main_v334) rfl (by decide), wr (y := main_v335) rfl (by decide), wr (y := main_v336) rfl (by decide), wr (y := main_v337) rfl (by decide), wr (y := main_v338) rfl (by decide), wr (y := main_v339) rfl (by decide), wr (y := main_cst_45) rfl (by decide), wr (y := main_v340) rfl (by decide), wr (y := main_v341) rfl (by decide), wr (y := main_v342) rfl (by decide), wr (y := main_cst_46) rfl (by decide), wr (y := main_v343) rfl (by decide), wr (y := main_v344) rfl (by decide), wr (y := main_v345) rfl (by decide), wr (y := main_cst_47) rfl (by decide), wr (y := main_v346) rfl (by decide), wr (y := main_v347) rfl (by decide), wr (y := main_v348) rfl (by decide), wr (y := main_v349) rfl (by decide), wr (y := main_v350) rfl (by decide), wr (y := main_v351) rfl (by decide), wr (y := main_v352) rfl (by decide), wr (y := main_v353) rfl (by decide), wr (y := main_cst_48) rfl (by decide), wr (y := main_v354) rfl (by decide), wr (y := main_cst_49) rfl (by decide), wr (y := main_v355) rfl (by decide), wr (y := main_v356) rfl (by decide), wr (y := main_c_50) rfl (by decide), wr (y := (main_call8.cst).ref) rfl (by decide), wr (y := (main_call8.v0).ref) rfl (by decide), wr (y := (main_call8.v1).ref) rfl (by decide), wr (y := (main_call8.cst_0).ref) rfl (by decide), wr (y := (main_call8.v2).ref) rfl (by decide), wr (y := (main_call8.v3).ref) rfl (by decide), wr (y := (main_call8.v4).ref) rfl (by decide), wr (y := (main_call8.v5).ref) rfl (by decide), wr (y := (main_call8.v6).ref) rfl (by decide), wr (y := (main_call8.v7).ref) rfl (by decide), wr (y := (main_call8.cst_1).ref) rfl (by decide), wr (y := (main_call8.v8).ref) rfl (by decide), wr (y := (main_call8.cst_2).ref) rfl (by decide), wr (y := (main_call8.v9).ref) rfl (by decide), wr (y := (main_call8.v10).ref) rfl (by decide), wr (y := (main_call8.v11).ref) rfl (by decide), wr (y := (main_call8.cst_3).ref) rfl (by decide), wr (y := (main_call8.v12).ref) rfl (by decide), wr (y := (main_call8.cst_4).ref) rfl (by decide), wr (y := (main_call8.call0.v0).ref) rfl (by decide), wr (y := (main_call8.call0.v1).ref) rfl (by decide), wr (y := (main_call8.call0.v2).ref) rfl (by decide), wr (y := main_v358) rfl (by decide), wr (y := main_v359) rfl (by decide), wr (y := main_v360) rfl (by decide), wr (y := main_cst_51) rfl (by decide), wr (y := main_v361) rfl (by decide), wr (y := main_v362) rfl (by decide), wr (y := main_v363) rfl (by decide), wr (y := main_v364) rfl (by decide), wr (y := main_v365) rfl (by decide)⟩

theorem opsL3b_fresh : (opsL3b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's statements 421 … 458 (of window 7), the outlined functions' bodies at their call sites: 63 operations. -/
abbrev opsL3c : List (HloOp τ sig (Elt F)) :=
  [ StableHlo.binary main_v360 main_v365 main_v366 (mulf : (⟨S50000x64, .f32⟩ : BufTy).Contents (Elt F) → (⟨S50000x64, .f32⟩ : BufTy).Contents (Elt F) → (⟨S50000x64, .f32⟩ : BufTy).Contents (Elt F)),
    StableHlo.unary main_v351 main_v367 (broadcastInDim S1x64 ![1] bcast_S64_S1x64_1 : (⟨S64, .f32⟩ : BufTy).Contents (Elt F) → (⟨S1x64, .f32⟩ : BufTy).Contents (Elt F)),
    StableHlo.unary main_v367 main_v368 (broadcastInDim S50000x64 ![0, 1] bcast_S1x64_S50000x64_0_1 : (⟨S1x64, .f32⟩ : BufTy).Contents (Elt F) → (⟨S50000x64, .f32⟩ : BufTy).Contents (Elt F)),
    StableHlo.binary main_v366 main_v368 main_v369 (mulf : (⟨S50000x64, .f32⟩ : BufTy).Contents (Elt F) → (⟨S50000x64, .f32⟩ : BufTy).Contents (Elt F) → (⟨S50000x64, .f32⟩ : BufTy).Contents (Elt F)),
    StableHlo.unary main_v353 main_v370 (broadcastInDim S1x64 ![1] bcast_S64_S1x64_1 : (⟨S64, .f32⟩ : BufTy).Contents (Elt F) → (⟨S1x64, .f32⟩ : BufTy).Contents (Elt F)),
    StableHlo.unary main_v370 main_v371 (broadcastInDim S50000x64 ![0, 1] bcast_S1x64_S50000x64_0_1 : (⟨S1x64, .f32⟩ : BufTy).Contents (Elt F) → (⟨S50000x64, .f32⟩ : BufTy).Contents (Elt F)),
    StableHlo.binary main_v369 main_v371 main_v372 (addf : (⟨S50000x64, .f32⟩ : BufTy).Contents (Elt F) → (⟨S50000x64, .f32⟩ : BufTy).Contents (Elt F) → (⟨S50000x64, .f32⟩ : BufTy).Contents (Elt F)),
    StableHlo.TRef.nullary main_call9.cst (constant S_ .f32 0x00000000#32),
    StableHlo.TRef.unary main_call9.cst main_call9.v0 (broadcastInDim S50000x64 ![] bcast_S_S50000x64),
    StableHlo.TRef.binary (.of main_v372) main_call9.v0 main_call9.v1 maximumf,
    StableHlo.binary main_v244 main_v373 main_v374 (addf : (⟨S50000x64, .f32⟩ : BufTy).Contents (Elt F) → (⟨S50000x64, .f32⟩ : BufTy).Contents (Elt F) → (⟨S50000x64, .f32⟩ : BufTy).Contents (Elt F)),
    StableHlo.unary main_arg22 main_v375 ((extractStridedSlice S1x64 ![2, 0] · slices_S3x64_S1x64_2_0) : (⟨S3x64, .f32⟩ : BufTy).Contents (Elt F) → (⟨S1x64, .f32⟩ : BufTy).Contents (Elt F)),
    StableHlo.reshape main_v375 main_v376 rfl shapeCasts_S1x64_S64,
    StableHlo.unary main_arg23 main_v377 ((extractStridedSlice S1x64 ![2, 0] · slices_S3x64_S1x64_2_0) : (⟨S3x64, .f32⟩ : BufTy).Contents (Elt F) → (⟨S1x64, .f32⟩ : BufTy).Contents (Elt F)),
    StableHlo.reshape main_v377 main_v378 rfl shapeCasts_S1x64_S64,
    StableHlo.nullary main_cst_52 (constant S_ .f32 0x00000000#32),
    StableHlo.binary main_v325 main_cst_52 main_v379 ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)),
    StableHlo.nullary main_cst_53 (constant S_ .f32 0x48C35000#32),
    StableHlo.unary main_cst_53 main_v380 (broadcastInDim S64 ![] bcast_S_S64 : (⟨S_, .f32⟩ : BufTy).Contents (Elt F) → (⟨S64, .f32⟩ : BufTy).Contents (Elt F)),
    StableHlo.binary main_v379 main_v380 main_v381 (Host.divf : (⟨S64, .f32⟩ : BufTy).Contents (Elt F) → (⟨S64, .f32⟩ : BufTy).Contents (Elt F) → (⟨S64, .f32⟩ : BufTy).Contents (Elt F)),
    StableHlo.nullary main_c_54 (constantI S_ 32 0#32),
    StableHlo.TRef.nullary main_call10.cst (constant S_ .f32 0x00000000#32),
    StableHlo.TRef.binary (.of main_v325) main_call10.cst main_call10.v0 (fun x v => Host.reduceAdd x v reducesTo_S400000x64_S64_d0 h_S_),
    StableHlo.TRef.unary main_call10.v0 main_call10.v1 (broadcastInDim S1x64 ![1] bcast_S64_S1x64_1),
    StableHlo.TRef.nullary main_call10.cst_0 (constant S_ .f32 0x48C35000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S400000x64 ![0, 1] bcast_S1x64_S400000x64_0_1),
    StableHlo.TRef.binary (.of main_v325) main_call10.v4 main_call10.v5 subf,
    StableHlo.TRef.binary main_call10.v5 main_call10.v5 main_call10.v6 mulf,
    StableHlo.TRef.unary (.of main_c_54) main_call10.v7 (sitofp .f32),
    StableHlo.TRef.nullary main_call10.cst_1 (constant S_ .f32 0x48C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S400000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v381 main_v383 (broadcastInDim S1x64 ![1] bcast_S64_S1x64_1 : (⟨S64, .f32⟩ : BufTy).Contents (Elt F) → (⟨S1x64, .f32⟩ : BufTy).Contents (Elt F)),
    StableHlo.unary main_v383 main_v384 (broadcastInDim S400000x64 ![0, 1] bcast_S1x64_S400000x64_0_1 : (⟨S1x64, .f32⟩ : BufTy).Contents (Elt F) → (⟨S400000x64, .f32⟩ : BufTy).Contents (Elt F)),
    StableHlo.binary main_v325 main_v384 main_v385 (subf : (⟨S400000x64, .f32⟩ : BufTy).Contents (Elt F) → (⟨S400000x64, .f32⟩ : BufTy).Contents (Elt F) → (⟨S400000x64, .f32⟩ : BufTy).Contents (Elt F)),
    StableHlo.nullary main_cst_55 (constant S_ .f32 0x3727C5AC#32),
    StableHlo.unary main_cst_55 main_v386 (broadcastInDim S64 ![] bcast_S_S64 : (⟨S_, .f32⟩ : BufTy).Contents (Elt F) → (⟨S64, .f32⟩ : BufTy).Contents (Elt F)),
    StableHlo.binary main_v382 main_v386 main_v387 (addf : (⟨S64, .f32⟩ : BufTy).Contents (Elt F) → (⟨S64, .f32⟩ : BufTy).Contents (Elt F) → (⟨S64, .f32⟩ : BufTy).Contents (Elt F)),
    StableHlo.unary main_v387 main_v388 (Host.rsqrt : (⟨S64, .f32⟩ : BufTy).Contents (Elt F) → (⟨S64, .f32⟩ : BufTy).Contents (Elt F)),
    StableHlo.unary main_v388 main_v389 (broadcastInDim S1x64 ![1] bcast_S64_S1x64_1 : (⟨S64, .f32⟩ : BufTy).Contents (Elt F) → (⟨S1x64, .f32⟩ : BufTy).Contents (Elt F)),
    StableHlo.unary main_v389 main_v390 (broadcastInDim S400000x64 ![0, 1] bcast_S1x64_S400000x64_0_1 : (⟨S1x64, .f32⟩ : BufTy).Contents (Elt F) → (⟨S400000x64, .f32⟩ : BufTy).Contents (Elt F)),
    StableHlo.binary main_v385 main_v390 main_v391 (mulf : (⟨S400000x64, .f32⟩ : BufTy).Contents (Elt F) → (⟨S400000x64, .f32⟩ : BufTy).Contents (Elt F) → (⟨S400000x64, .f32⟩ : BufTy).Contents (Elt F)),
    StableHlo.unary main_v376 main_v392 (broadcastInDim S1x64 ![1] bcast_S64_S1x64_1 : (⟨S64, .f32⟩ : BufTy).Contents (Elt F) → (⟨S1x64, .f32⟩ : BufTy).Contents (Elt F)),
    StableHlo.unary main_v392 main_v393 (broadcastInDim S400000x64 ![0, 1] bcast_S1x64_S400000x64_0_1 : (⟨S1x64, .f32⟩ : BufTy).Contents (Elt F) → (⟨S400000x64, .f32⟩ : BufTy).Contents (Elt F)),
    StableHlo.binary main_v391 main_v393 main_v394 (mulf : (⟨S400000x64, .f32⟩ : BufTy).Contents (Elt F) → (⟨S400000x64, .f32⟩ : BufTy).Contents (Elt F) → (⟨S400000x64, .f32⟩ : BufTy).Contents (Elt F)),
    StableHlo.unary main_v378 main_v395 (broadcastInDim S1x64 ![1] bcast_S64_S1x64_1 : (⟨S64, .f32⟩ : BufTy).Contents (Elt F) → (⟨S1x64, .f32⟩ : BufTy).Contents (Elt F)),
    StableHlo.unary main_v395 main_v396 (broadcastInDim S400000x64 ![0, 1] bcast_S1x64_S400000x64_0_1 : (⟨S1x64, .f32⟩ : BufTy).Contents (Elt F) → (⟨S400000x64, .f32⟩ : BufTy).Contents (Elt F)),
    StableHlo.binary main_v394 main_v396 main_v397 (addf : (⟨S400000x64, .f32⟩ : BufTy).Contents (Elt F) → (⟨S400000x64, .f32⟩ : BufTy).Contents (Elt F) → (⟨S400000x64, .f32⟩ : BufTy).Contents (Elt F)),
    StableHlo.TRef.nullary main_call11.cst (constant S_ .f32 0x00000000#32),
    StableHlo.TRef.unary main_call11.cst main_call11.v0 (broadcastInDim S400000x64 ![] bcast_S_S400000x64),
    StableHlo.TRef.binary (.of main_v397) main_call11.v0 main_call11.v1 maximumf,
    StableHlo.binary main_v269 main_v398 main_v399 (addf : (⟨S400000x64, .f32⟩ : BufTy).Contents (Elt F) → (⟨S400000x64, .f32⟩ : BufTy).Contents (Elt F) → (⟨S400000x64, .f32⟩ : BufTy).Contents (Elt F)) ]

theorem opsL3c_sub : (opsL3c : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

/-- The references opsL3c writes, in order. -/
abbrev opsL3c_W : List (Ref sig .tc) :=
  [main_v366, main_v367, main_v368, main_v369, main_v370, main_v371, main_v372, (main_call9.cst).ref, (main_call9.v0).ref, (main_call9.v1).ref, main_v374, main_v375, main_v376, main_v377, main_v378, main_cst_52, main_v379, main_cst_53, main_v380, main_v381, main_c_54, (main_call10.cst).ref, (main_call10.v0).ref, (main_call10.v1).ref, (main_call10.cst_0).ref, (main_call10.v2).ref, (main_call10.v3).ref, (main_call10.v4).ref, (main_call10.v5).ref, (main_call10.v6).ref, (main_call10.v7).ref, (main_call10.cst_1).ref, (main_call10.v8).ref, (main_call10.cst_2).ref, (main_call10.v9).ref, (main_call10.v10).ref, (main_call10.v11).ref, (main_call10.cst_3).ref, (main_call10.v12).ref, (main_call10.cst_4).ref, (main_call10.call0.v0).ref, (main_call10.call0.v1).ref, (main_call10.call0.v2).ref, main_v383, main_v384, main_v385, main_cst_55, main_v386, main_v387, main_v388, main_v389, main_v390, main_v391, main_v392, main_v393, main_v394, main_v395, main_v396, main_v397, (main_call11.cst).ref, (main_call11.v0).ref, (main_call11.v1).ref, main_v399]

theorem opsL3c_wr : (opsL3c : List (HloOp τ sig (Elt F))).Forall fun op => op.writes ⊆ (opsL3c_W.map (Proc.devRef (τ := τ) .tc)).toFinset :=
  ⟨wr (y := main_v366) rfl (by decide), wr (y := main_v367) rfl (by decide), wr (y := main_v368) rfl (by decide), wr (y := main_v369) rfl (by decide), wr (y := main_v370) rfl (by decide), wr (y := main_v371) rfl (by decide), wr (y := main_v372) rfl (by decide), wr (y := (main_call9.cst).ref) rfl (by decide), wr (y := (main_call9.v0).ref) rfl (by decide), wr (y := (main_call9.v1).ref) rfl (by decide), wr (y := main_v374) rfl (by decide), wr (y := main_v375) rfl (by decide), wr (y := main_v376) rfl (by decide), wr (y := main_v377) rfl (by decide), wr (y := main_v378) rfl (by decide), wr (y := main_cst_52) rfl (by decide), wr (y := main_v379) rfl (by decide), wr (y := main_cst_53) rfl (by decide), wr (y := main_v380) rfl (by decide), wr (y := main_v381) rfl (by decide), wr (y := main_c_54) rfl (by decide), wr (y := (main_call10.cst).ref) rfl (by decide), wr (y := (main_call10.v0).ref) rfl (by decide), wr (y := (main_call10.v1).ref) rfl (by decide), wr (y := (main_call10.cst_0).ref) rfl (by decide), wr (y := (main_call10.v2).ref) rfl (by decide), wr (y := (main_call10.v3).ref) rfl (by decide), wr (y := (main_call10.v4).ref) rfl (by decide), wr (y := (main_call10.v5).ref) rfl (by decide), wr (y := (main_call10.v6).ref) rfl (by decide), wr (y := (main_call10.v7).ref) rfl (by decide), wr (y := (main_call10.cst_1).ref) rfl (by decide), wr (y := (main_call10.v8).ref) rfl (by decide), wr (y := (main_call10.cst_2).ref) rfl (by decide), wr (y := (main_call10.v9).ref) rfl (by decide), wr (y := (main_call10.v10).ref) rfl (by decide), wr (y := (main_call10.v11).ref) rfl (by decide), wr (y := (main_call10.cst_3).ref) rfl (by decide), wr (y := (main_call10.v12).ref) rfl (by decide), wr (y := (main_call10.cst_4).ref) rfl (by decide), wr (y := (main_call10.call0.v0).ref) rfl (by decide), wr (y := (main_call10.call0.v1).ref) rfl (by decide), wr (y := (main_call10.call0.v2).ref) rfl (by decide), wr (y := main_v383) rfl (by decide), wr (y := main_v384) rfl (by decide), wr (y := main_v385) rfl (by decide), wr (y := main_cst_55) rfl (by decide), wr (y := main_v386) rfl (by decide), wr (y := main_v387) rfl (by decide), wr (y := main_v388) rfl (by decide), wr (y := main_v389) rfl (by decide), wr (y := main_v390) rfl (by decide), wr (y := main_v391) rfl (by decide), wr (y := main_v392) rfl (by decide), wr (y := main_v393) rfl (by decide), wr (y := main_v394) rfl (by decide), wr (y := main_v395) rfl (by decide), wr (y := main_v396) rfl (by decide), wr (y := main_v397) rfl (by decide), wr (y := (main_call11.cst).ref) rfl (by decide), wr (y := (main_call11.v0).ref) rfl (by decide), wr (y := (main_call11.v1).ref) rfl (by decide), wr (y := main_v399) rfl (by decide)⟩

theorem opsL3c_fresh : (opsL3c : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's statements 459 … 480 (of window 7), the outlined functions' bodies at their call sites: 24 operations. -/
abbrev opsOuta : List (HloOp τ sig (Elt F)) :=
  [ StableHlo.nullary main_cst_56 (constant S_ .f32 0x3F800000#32),
    StableHlo.unary main_cst_56 main_v400 (broadcastInDim S50000 ![] bcast_S_S50000 : (⟨S_, .f32⟩ : BufTy).Contents (Elt F) → (⟨S50000, .f32⟩ : BufTy).Contents (Elt F)),
    StableHlo.nullary main_cst_57 (constant S_ .f32 0x00000000#32),
    StableHlo.unary main_cst_57 main_v401 (broadcastInDim S16 ![] bcast_S_S16 : (⟨S_, .f32⟩ : BufTy).Contents (Elt F) → (⟨S16, .f32⟩ : BufTy).Contents (Elt F)),
    StableHlo.unary main_arg5 main_v402 (broadcastInDim S50000x1 ![0] bcast_S50000_S50000x1_0 : (⟨S50000, .i32⟩ : BufTy).Contents (Elt F) → (⟨S50000x1, .i32⟩ : BufTy).Contents (Elt F)),
    StableHlo.ternary main_v401 main_v402 main_v400 main_v403 ((fun x i u => Host.scatterAdd scatter_S16_S50000x1_S50000_n_0_0_1 x i u) : (⟨S16, .f32⟩ : BufTy).Contents (Elt F) → (⟨S50000x1, .i32⟩ : BufTy).Contents (Elt F) → (⟨S50000, .f32⟩ : BufTy).Contents (Elt F) → (⟨S16, .f32⟩ : BufTy).Contents (Elt F)),
    StableHlo.nullary main_cst_58 (constant S_ .f32 0x00000000#32),
    StableHlo.unary main_cst_58 main_v404 (broadcastInDim S16x64 ![] bcast_S_S16x64 : (⟨S_, .f32⟩ : BufTy).Contents (Elt F) → (⟨S16x64, .f32⟩ : BufTy).Contents (Elt F)),
    StableHlo.unary main_arg5 main_v405 (broadcastInDim S50000x1 ![0] bcast_S50000_S50000x1_0 : (⟨S50000, .i32⟩ : BufTy).Contents (Elt F) → (⟨S50000x1, .i32⟩ : BufTy).Contents (Elt F)),
    StableHlo.ternary main_v404 main_v405 main_v374 main_v406 ((fun x i u => Host.scatterAdd scatter_S16x64_S50000x1_S50000x64_1_0_0_1 x i u) : (⟨S16x64, .f32⟩ : BufTy).Contents (Elt F) → (⟨S50000x1, .i32⟩ : BufTy).Contents (Elt F) → (⟨S50000x64, .f32⟩ : BufTy).Contents (Elt F) → (⟨S16x64, .f32⟩ : BufTy).Contents (Elt F)),
    StableHlo.unary main_v403 main_v407 (broadcastInDim S16x1 ![0] bcast_S16_S16x1_0 : (⟨S16, .f32⟩ : BufTy).Contents (Elt F) → (⟨S16x1, .f32⟩ : BufTy).Contents (Elt F)),
    StableHlo.unary main_v407 main_v408 (broadcastInDim S16x64 ![0, 1] bcast_S16x1_S16x64_0_1 : (⟨S16x1, .f32⟩ : BufTy).Contents (Elt F) → (⟨S16x64, .f32⟩ : BufTy).Contents (Elt F)),
    StableHlo.binary main_v406 main_v408 main_v409 (Host.divf : (⟨S16x64, .f32⟩ : BufTy).Contents (Elt F) → (⟨S16x64, .f32⟩ : BufTy).Contents (Elt F) → (⟨S16x64, .f32⟩ : BufTy).Contents (Elt F)),
    StableHlo.binary main_v409 main_arg0 main_v410 ((fun a b => concatenate S16x68 1 [⟨S16x64, a⟩, ⟨S16x4, b⟩] concatenates_S16x64_S16x4_S16x68_d1) : (⟨S16x64, .f32⟩ : BufTy).Contents (Elt F) → (⟨S16x4, .f32⟩ : BufTy).Contents (Elt F) → (⟨S16x68, .f32⟩ : BufTy).Contents (Elt F)),
    StableHlo.binary main_v410 main_arg24 main_v411 ((fun l r => Host.dotGeneral dot_S16x68_S68x256_S16x256_1_0_0_1_n_n none l r) : (⟨S16x68, .f32⟩ : BufTy).Contents (Elt F) → (⟨S68x256, .f32⟩ : BufTy).Contents (Elt F) → (⟨S16x256, .f32⟩ : BufTy).Contents (Elt F)),
    StableHlo.unary main_arg25 main_v412 (broadcastInDim S1x256 ![1] bcast_S256_S1x256_1 : (⟨S256, .f32⟩ : BufTy).Contents (Elt F) → (⟨S1x256, .f32⟩ : BufTy).Contents (Elt F)),
    StableHlo.unary main_v412 main_v413 (broadcastInDim S16x256 ![0, 1] bcast_S1x256_S16x256_0_1 : (⟨S1x256, .f32⟩ : BufTy).Contents (Elt F) → (⟨S16x256, .f32⟩ : BufTy).Contents (Elt F)),
    StableHlo.binary main_v411 main_v413 main_v414 (addf : (⟨S16x256, .f32⟩ : BufTy).Contents (Elt F) → (⟨S16x256, .f32⟩ : BufTy).Contents (Elt F) → (⟨S16x256, .f32⟩ : BufTy).Contents (Elt F)),
    StableHlo.TRef.nullary main_call12.cst (constant S_ .f32 0x00000000#32),
    StableHlo.TRef.unary main_call12.cst main_call12.v0 (broadcastInDim S16x256 ![] bcast_S_S16x256),
    StableHlo.TRef.binary (.of main_v414) main_call12.v0 main_call12.v1 maximumf,
    StableHlo.binary main_v415 main_arg26 main_v416 ((fun l r => Host.dotGeneral dot_S16x256_S256x256_S16x256_1_0_0_1_n_n none l r) : (⟨S16x256, .f32⟩ : BufTy).Contents (Elt F) → (⟨S256x256, .f32⟩ : BufTy).Contents (Elt F) → (⟨S16x256, .f32⟩ : BufTy).Contents (Elt F)),
    StableHlo.unary main_arg27 main_v417 (broadcastInDim S1x256 ![1] bcast_S256_S1x256_1 : (⟨S256, .f32⟩ : BufTy).Contents (Elt F) → (⟨S1x256, .f32⟩ : BufTy).Contents (Elt F)),
    StableHlo.unary main_v417 main_v418 (broadcastInDim S16x256 ![0, 1] bcast_S1x256_S16x256_0_1 : (⟨S1x256, .f32⟩ : BufTy).Contents (Elt F) → (⟨S16x256, .f32⟩ : BufTy).Contents (Elt F)) ]

theorem opsOuta_sub : (opsOuta : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub ..⟩

/-- The references opsOuta writes, in order. -/
abbrev opsOuta_W : List (Ref sig .tc) :=
  [main_cst_56, main_v400, main_cst_57, main_v401, main_v402, main_v403, main_cst_58, main_v404, main_v405, main_v406, main_v407, main_v408, main_v409, main_v410, main_v411, main_v412, main_v413, main_v414, (main_call12.cst).ref, (main_call12.v0).ref, (main_call12.v1).ref, main_v416, main_v417, main_v418]

theorem opsOuta_wr : (opsOuta : List (HloOp τ sig (Elt F))).Forall fun op => op.writes ⊆ (opsOuta_W.map (Proc.devRef (τ := τ) .tc)).toFinset :=
  ⟨wr (y := main_cst_56) rfl (by decide), wr (y := main_v400) rfl (by decide), wr (y := main_cst_57) rfl (by decide), wr (y := main_v401) rfl (by decide), wr (y := main_v402) rfl (by decide), wr (y := main_v403) rfl (by decide), wr (y := main_cst_58) rfl (by decide), wr (y := main_v404) rfl (by decide), wr (y := main_v405) rfl (by decide), wr (y := main_v406) rfl (by decide), wr (y := main_v407) rfl (by decide), wr (y := main_v408) rfl (by decide), wr (y := main_v409) rfl (by decide), wr (y := main_v410) rfl (by decide), wr (y := main_v411) rfl (by decide), wr (y := main_v412) rfl (by decide), wr (y := main_v413) rfl (by decide), wr (y := main_v414) rfl (by decide), wr (y := (main_call12.cst).ref) rfl (by decide), wr (y := (main_call12.v0).ref) rfl (by decide), wr (y := (main_call12.v1).ref) rfl (by decide), wr (y := main_v416) rfl (by decide), wr (y := main_v417) rfl (by decide), wr (y := main_v418) rfl (by decide)⟩

theorem opsOuta_fresh : (opsOuta : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- @main's statements 481 … 490 (of window 8), the outlined functions' bodies at their call sites: 12 operations. -/
abbrev opsOutb : List (HloOp τ sig (Elt F)) :=
  [ StableHlo.binary main_v416 main_v418 main_v419 (addf : (⟨S16x256, .f32⟩ : BufTy).Contents (Elt F) → (⟨S16x256, .f32⟩ : BufTy).Contents (Elt F) → (⟨S16x256, .f32⟩ : BufTy).Contents (Elt F)),
    StableHlo.TRef.nullary main_call13.cst (constant S_ .f32 0x00000000#32),
    StableHlo.TRef.unary main_call13.cst main_call13.v0 (broadcastInDim S16x256 ![] bcast_S_S16x256),
    StableHlo.TRef.binary (.of main_v419) main_call13.v0 main_call13.v1 maximumf,
    StableHlo.binary main_v420 main_arg28 main_v421 ((fun l r => Host.dotGeneral dot_S16x256_S256x2_S16x2_1_0_0_1_n_n none l r) : (⟨S16x256, .f32⟩ : BufTy).Contents (Elt F) → (⟨S256x2, .f32⟩ : BufTy).Contents (Elt F) → (⟨S16x2, .f32⟩ : BufTy).Contents (Elt F)),
    StableHlo.unary main_arg29 main_v422 (broadcastInDim S1x2 ![1] bcast_S2_S1x2_1 : (⟨S2, .f32⟩ : BufTy).Contents (Elt F) → (⟨S1x2, .f32⟩ : BufTy).Contents (Elt F)),
    StableHlo.unary main_v422 main_v423 (broadcastInDim S16x2 ![0, 1] bcast_S1x2_S16x2_0_1 : (⟨S1x2, .f32⟩ : BufTy).Contents (Elt F) → (⟨S16x2, .f32⟩ : BufTy).Contents (Elt F)),
    StableHlo.binary main_v421 main_v423 main_v424 (addf : (⟨S16x2, .f32⟩ : BufTy).Contents (Elt F) → (⟨S16x2, .f32⟩ : BufTy).Contents (Elt F) → (⟨S16x2, .f32⟩ : BufTy).Contents (Elt F)),
    StableHlo.unary main_v424 main_v425 (Host.tanh : (⟨S16x2, .f32⟩ : BufTy).Contents (Elt F) → (⟨S16x2, .f32⟩ : BufTy).Contents (Elt F)),
    StableHlo.nullary main_cst_59 (constant S_ .f32 0x3F800000#32),
    StableHlo.unary main_cst_59 main_v426 (broadcastInDim S16x2 ![] bcast_S_S16x2 : (⟨S_, .f32⟩ : BufTy).Contents (Elt F) → (⟨S16x2, .f32⟩ : BufTy).Contents (Elt F)),
    StableHlo.binary main_v426 main_v425 main_v427 (mulf : (⟨S16x2, .f32⟩ : BufTy).Contents (Elt F) → (⟨S16x2, .f32⟩ : BufTy).Contents (Elt F) → (⟨S16x2, .f32⟩ : BufTy).Contents (Elt F)) ]

theorem opsOutb_sub : (opsOutb : List (HloOp τ sig (Elt F))).Forall fun op => op.bufs ⊆ tcRefs τ sig :=
  ⟨binary_bufs_sub .., nullary_bufs_sub .., unary_bufs_sub .., binary_bufs_sub .., binary_bufs_sub .., unary_bufs_sub .., unary_bufs_sub .., binary_bufs_sub .., unary_bufs_sub .., nullary_bufs_sub .., unary_bufs_sub .., binary_bufs_sub ..⟩

/-- The references opsOutb writes, in order. -/
abbrev opsOutb_W : List (Ref sig .tc) :=
  [main_v419, (main_call13.cst).ref, (main_call13.v0).ref, (main_call13.v1).ref, main_v421, main_v422, main_v423, main_v424, main_v425, main_cst_59, main_v426, main_v427]

theorem opsOutb_wr : (opsOutb : List (HloOp τ sig (Elt F))).Forall fun op => op.writes ⊆ (opsOutb_W.map (Proc.devRef (τ := τ) .tc)).toFinset :=
  ⟨wr (y := main_v419) rfl (by decide), wr (y := (main_call13.cst).ref) rfl (by decide), wr (y := (main_call13.v0).ref) rfl (by decide), wr (y := (main_call13.v1).ref) rfl (by decide), wr (y := main_v421) rfl (by decide), wr (y := main_v422) rfl (by decide), wr (y := main_v423) rfl (by decide), wr (y := main_v424) rfl (by decide), wr (y := main_v425) rfl (by decide), wr (y := main_cst_59) rfl (by decide), wr (y := main_v426) rfl (by decide), wr (y := main_v427) rfl (by decide)⟩

theorem opsOutb_fresh : (opsOutb : List (HloOp τ sig (Elt F))).Forall fun op => op.fresh = ∅ :=
  ⟨rfl, rfl, rfl, rfl, rfl, rfl, rfl, rfl, rfl, rfl, rfl, rfl⟩

/-! Each window of @main is the straight line of its pieces. -/

set_option maxRecDepth 65536 in
theorem part0_eq (c : Dev nD) : main_part0 (F := F) c = seq (opsEmb ++ opsL1a) := rfl

set_option maxRecDepth 65536 in
theorem part1_eq (c : Dev nD) : main_part1 (F := F) c = seq (opsL1b) := rfl

set_option maxRecDepth 65536 in
theorem part2_eq (c : Dev nD) : main_part2 (F := F) c = seq (opsL1c ++ opsL2a) := rfl

set_option maxRecDepth 65536 in
theorem part3_eq (c : Dev nD) : main_part3 (F := F) c = seq (opsL2b) := rfl

set_option maxRecDepth 65536 in
theorem part4_eq (c : Dev nD) : main_part4 (F := F) c = seq (opsL2c) := rfl

set_option maxRecDepth 65536 in
theorem part5_eq (c : Dev nD) : main_part5 (F := F) c = seq (opsL2d ++ opsL3a) := rfl

set_option maxRecDepth 65536 in
theorem part6_eq (c : Dev nD) : main_part6 (F := F) c = seq (opsL3b) := rfl

set_option maxRecDepth 65536 in
theorem part7_eq (c : Dev nD) : main_part7 (F := F) c = seq (opsL3c ++ opsOuta) := rfl

set_option maxRecDepth 65536 in
theorem part8_eq (c : Dev nD) : main_part8 (F := F) c = seq (opsOutb) := rfl

end Cert.ReferenceIdeal.Hand

end
-- ==== Proof.Ref.Run.lean ====
import proofs.«431450_j74423193305350_1_alg».proof.Proof.Ref.Ops

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stages, and @main's whole line -/

/-- Layer 1 (statements 12 … 160). -/
abbrev opsL1 : List (HloOp τ sig (Elt F)) := opsL1a ++ opsL1b ++ opsL1c
/-- Layer 2 (statements 161 … 309). -/
abbrev opsL2 : List (HloOp τ sig (Elt F)) := opsL2a ++ opsL2b ++ opsL2c ++ opsL2d
/-- Layer 3 (statements 310 … 458). -/
abbrev opsL3 : List (HloOp τ sig (Elt F)) := opsL3a ++ opsL3b ++ opsL3c
/-- The readout and the MLP (statements 459 … 490). -/
abbrev opsOut : List (HloOp τ sig (Elt F)) := opsOuta ++ opsOutb

/-- @main's operations in order: the two embeddings (opsEmb), the three layers, the readout and MLP. -/
abbrev ops : List (HloOp τ sig (Elt F)) := opsEmb ++ opsL1 ++ opsL2 ++ opsL3 ++ opsOut

/-- @main is that straight line: its windows are their pieces' lines, a line of two lists is the first then the
    second (seq_append), and sequencing is associative. -/
theorem main_eq (c : Dev nD) : main (F := F) c = seq ops := by
  simp only [main, part0_eq, part1_eq, part2_eq, part3_eq, part4_eq, part5_eq, part6_eq, part7_eq, part8_eq,
    ops, opsL1, opsL2, opsL3, opsOut, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_app {α : Type} {p : α → Prop} {a b : List α} (ha : a.Forall p) (hb : b.Forall p) : (a ++ b).Forall p :=
  List.forall_append.2 ⟨ha, hb⟩

theorem ops_sub : (ops : List (HloOp τ sig (Elt F))).Forall fun op => op.bufs ⊆ tcRefs τ sig :=
  forall_app (forall_app (forall_app (forall_app opsEmb_sub
    (forall_app (forall_app opsL1a_sub opsL1b_sub) opsL1c_sub))
    (forall_app (forall_app (forall_app opsL2a_sub opsL2b_sub) opsL2c_sub) opsL2d_sub))
    (forall_app (forall_app opsL3a_sub opsL3b_sub) opsL3c_sub))
    (forall_app opsOuta_sub opsOutb_sub)

theorem ops_fresh : (ops : List (HloOp τ sig (Elt F))).Forall fun op => op.fresh = ∅ :=
  forall_app (forall_app (forall_app (forall_app opsEmb_fresh
    (forall_app (forall_app opsL1a_fresh opsL1b_fresh) opsL1c_fresh))
    (forall_app (forall_app (forall_app opsL2a_fresh opsL2b_fresh) opsL2c_fresh) opsL2d_fresh))
    (forall_app (forall_app opsL3a_fresh opsL3b_fresh) opsL3c_fresh))
    (forall_app opsOuta_fresh opsOutb_fresh)

/-- On every device, for any float values, from any memory with zero counters: every weakly fair execution of @main
    terminates, and every TensorCore buffer ends at the fold of the operations' results over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.1 ops_fresh)

/-! ## The arguments are unchanged -/

/-- A line keeps a reference: after it the reference's buffer holds what it held. -/
def Keeps (l : List (HloOp τ sig (Elt F))) (r : Ref sig .tc) : Prop :=
  ∀ V : Valuation τ sig (Elt F), after l V (Proc.devRef .tc r) = V (Proc.devRef .tc r)

/-- The fold over two lines, one after the other: the second's over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Two lines that keep a reference, one after the other, keep it. -/
theorem Keeps.app {a b : List (HloOp τ sig (Elt F))} {r : Ref sig .tc} (ha : Keeps a r) (hb : Keeps b r) : Keeps (a ++ b) r :=
  fun V => by rw [after_app, hb, ha]

/-- The fold over @main's line, stage by stage. -/
theorem after_ops (V : Valuation τ sig (Elt F)) :
    after ops V = after opsOut (after opsL3 (after opsL2 (after opsL1 (after opsEmb V)))) :=
  (after_app _ opsOut V).trans (congrArg (after opsOut) ((after_app _ opsL3 V).trans (congrArg (after opsL3)
    ((after_app _ opsL2 V).trans (congrArg (after opsL2) (after_app opsEmb opsL1 V))))))

/-- The fold over each stage, piece by piece. -/
theorem after_opsL1 (V : Valuation τ sig (Elt F)) : after opsL1 V = after opsL1c (after opsL1b (after opsL1a V)) :=
  (after_app _ opsL1c V).trans (congrArg (after opsL1c) (after_app opsL1a opsL1b V))
theorem after_opsL2 (V : Valuation τ sig (Elt F)) :
    after opsL2 V = after opsL2d (after opsL2c (after opsL2b (after opsL2a V))) :=
  (after_app _ opsL2d V).trans (congrArg (after opsL2d) ((after_app _ opsL2c V).trans (congrArg (after opsL2c)
    (after_app opsL2a opsL2b V))))
theorem after_opsL3 (V : Valuation τ sig (Elt F)) : after opsL3 V = after opsL3c (after opsL3b (after opsL3a V)) :=
  (after_app _ opsL3c V).trans (congrArg (after opsL3c) (after_app opsL3a opsL3b V))
theorem after_opsOut (V : Valuation τ sig (Elt F)) : after opsOut V = after opsOutb (after opsOuta V) :=
  after_app opsOuta opsOutb V

/-- A line whose operations write only buffers of the references W keeps every reference outside W. -/
theorem keeps_of_wr {l : List (HloOp τ sig (Elt F))} {W : List (Ref sig .tc)} {r : Ref sig .tc}
    (hW : l.Forall fun op => op.writes ⊆ (W.map (Proc.devRef (τ := τ) .tc)).toFinset) (hr : r ∉ W) : Keeps l r :=
  fun V => after_of_writes_sub l V hW hr

/-- Every reference @main's operations write, in order. -/
abbrev ops_W : List (Ref sig .tc) :=
  opsEmb_W ++ (opsL1a_W ++ opsL1b_W ++ opsL1c_W) ++ (opsL2a_W ++ opsL2b_W ++ opsL2c_W ++ opsL2d_W)
    ++ (opsL3a_W ++ opsL3b_W ++ opsL3c_W) ++ (opsOuta_W ++ opsOutb_W)

/-- @main keeps every reference none of its operations writes. -/
theorem ops_keeps {r : Ref sig .tc} (hr : r ∉ ops_W) : Keeps (ops (F := F)) r := by
  simp only [ops_W, List.mem_append, not_or] at hr
  obtain ⟨⟨⟨⟨hE, ⟨h1a, h1b⟩, h1c⟩, ⟨⟨h2a, h2b⟩, h2c⟩, h2d⟩, ⟨h3a, h3b⟩, h3c⟩, hOa, hOb⟩ := hr
  exact ((((keeps_of_wr opsEmb_wr hE).app
    (((keeps_of_wr opsL1a_wr h1a).app (keeps_of_wr opsL1b_wr h1b)).app (keeps_of_wr opsL1c_wr h1c))).app
    ((((keeps_of_wr opsL2a_wr h2a).app (keeps_of_wr opsL2b_wr h2b)).app (keeps_of_wr opsL2c_wr h2c)).app (keeps_of_wr opsL2d_wr h2d))).app
    (((keeps_of_wr opsL3a_wr h3a).app (keeps_of_wr opsL3b_wr h3b)).app (keeps_of_wr opsL3c_wr h3c))).app
    ((keeps_of_wr opsOuta_wr hOa).app (keeps_of_wr opsOutb_wr hOb))

/-- @main runs (terminates, no fault) and its thirty arguments end unchanged: no operation writes an argument. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  (θ_run defs _ _).mono (fun _ h c =>
    ⟨(h c main_arg0).trans (ops_keeps (by decide) _),
      (h c main_arg1).trans (ops_keeps (by decide) _),
      (h c main_arg2).trans (ops_keeps (by decide) _),
      (h c main_arg3).trans (ops_keeps (by decide) _),
      (h c main_arg4).trans (ops_keeps (by decide) _),
      (h c main_arg5).trans (ops_keeps (by decide) _),
      (h c main_arg6).trans (ops_keeps (by decide) _),
      (h c main_arg7).trans (ops_keeps (by decide) _),
      (h c main_arg8).trans (ops_keeps (by decide) _),
      (h c main_arg9).trans (ops_keeps (by decide) _),
      (h c main_arg10).trans (ops_keeps (by decide) _),
      (h c main_arg11).trans (ops_keeps (by decide) _),
      (h c main_arg12).trans (ops_keeps (by decide) _),
      (h c main_arg13).trans (ops_keeps (by decide) _),
      (h c main_arg14).trans (ops_keeps (by decide) _),
      (h c main_arg15).trans (ops_keeps (by decide) _),
      (h c main_arg16).trans (ops_keeps (by decide) _),
      (h c main_arg17).trans (ops_keeps (by decide) _),
      (h c main_arg18).trans (ops_keeps (by decide) _),
      (h c main_arg19).trans (ops_keeps (by decide) _),
      (h c main_arg20).trans (ops_keeps (by decide) _),
      (h c main_arg21).trans (ops_keeps (by decide) _),
      (h c main_arg22).trans (ops_keeps (by decide) _),
      (h c main_arg23).trans (ops_keeps (by decide) _),
      (h c main_arg24).trans (ops_keeps (by decide) _),
      (h c main_arg25).trans (ops_keeps (by decide) _),
      (h c main_arg26).trans (ops_keeps (by decide) _),
      (h c main_arg27).trans (ops_keeps (by decide) _),
      (h c main_arg28).trans (ops_keeps (by decide) _),
      (h c main_arg29).trans (ops_keeps (by decide) _)⟩)
    (run_all m ρ)

end Cert.ReferenceIdeal.Hand

end
-- ==== Proof.Ref.Res.lean ====
import proofs.«431450_j74423193305350_1_alg».proof.Proof.Ref.Run

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main runs, its result buffer ends at what the fold over its operations gives there, and its thirty arguments
    end unchanged. -/
theorem run_res (m : (ℓ : Loc nD τ sig) → Buf (Elt F) ℓ) (ρ : Dev nD → PrngReg)
    (v : (c : Dev nD) → Buf (Elt F) ((c.tc : Thread nD τ).loc main_v427))
    (hv : ∀ c, after ops (launchContents m c) (Proc.devRef .tc main_v427) = v c) :
    θ_run defs (onTc (τ := τ) (main (F := F))) ⟨m, fun _ => 0, ρ⟩ fun r => ∀ c : Dev nD,
      r.2.mem ((c.tc : Thread nD τ).loc main_v427) = v c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  (θ_run defs _ _).mono (fun _ h c =>
    ⟨(h c main_v427).trans (hv c),
      (h c main_arg0).trans (ops_keeps (by decide) _),
      (h c main_arg1).trans (ops_keeps (by decide) _),
      (h c main_arg2).trans (ops_keeps (by decide) _),
      (h c main_arg3).trans (ops_keeps (by decide) _),
      (h c main_arg4).trans (ops_keeps (by decide) _),
      (h c main_arg5).trans (ops_keeps (by decide) _),
      (h c main_arg6).trans (ops_keeps (by decide) _),
      (h c main_arg7).trans (ops_keeps (by decide) _),
      (h c main_arg8).trans (ops_keeps (by decide) _),
      (h c main_arg9).trans (ops_keeps (by decide) _),
      (h c main_arg10).trans (ops_keeps (by decide) _),
      (h c main_arg11).trans (ops_keeps (by decide) _),
      (h c main_arg12).trans (ops_keeps (by decide) _),
      (h c main_arg13).trans (ops_keeps (by decide) _),
      (h c main_arg14).trans (ops_keeps (by decide) _),
      (h c main_arg15).trans (ops_keeps (by decide) _),
      (h c main_arg16).trans (ops_keeps (by decide) _),
      (h c main_arg17).trans (ops_keeps (by decide) _),
      (h c main_arg18).trans (ops_keeps (by decide) _),
      (h c main_arg19).trans (ops_keeps (by decide) _),
      (h c main_arg20).trans (ops_keeps (by decide) _),
      (h c main_arg21).trans (ops_keeps (by decide) _),
      (h c main_arg22).trans (ops_keeps (by decide) _),
      (h c main_arg23).trans (ops_keeps (by decide) _),
      (h c main_arg24).trans (ops_keeps (by decide) _),
      (h c main_arg25).trans (ops_keeps (by decide) _),
      (h c main_arg26).trans (ops_keeps (by decide) _),
      (h c main_arg27).trans (ops_keeps (by decide) _),
      (h c main_arg28).trans (ops_keeps (by decide) _),
      (h c main_arg29).trans (ops_keeps (by decide) _)⟩)
    (run_all m ρ)

end Cert.ReferenceIdeal.Hand

end
-- ==== Proof.Spec.lean ====
import Idealize.ShloMosaic.PureOps.Ideal
import Idealize.ShloMosaic.Lib.ValueIdx

/-! The network's layers as formulas over the extended reals, entry by entry: what one row of a dense layer, of the
    gated edge update, of the node update and of the normalised residual step computes from the rows it reads. Both
    programs' arrays are read against these formulas; nothing here mentions a program. -/

noncomputable section

namespace Cert.Spec

open Idealize.ShloMosaic Idealize.ShloMosaic.ValueIdx

/-- A matrix of extended reals with n rows and k columns. -/
abbrev Mat (n k : Nat) : Type := (⟨2, ![n, k]⟩ : Shape).Idx → EReal

/-- Entry (r, j) of x · w + b: row r of x against column j of w, plus the bias row's entry j. -/
def lin {n k p : Nat} (x : Mat n k) (w : Mat k p) (b : Mat 1 p) (r : Fin n) (j : Fin p) : EReal :=
  (∑ t : Fin k, x (ix2 r t) * w (ix2 t j)) + b (ix2 0 j)

/-- Entry (r, j) of (1 / x) · w + b, the reciprocal taken entry by entry (the quotient of the extended reals). -/
def linRecip {n k p : Nat} (one : EReal) (x : Mat n k) (w : Mat k p) (b : Mat 1 p) (r : Fin n) (j : Fin p) : EReal :=
  (∑ t : Fin k, Ideal.div one (x (ix2 r t)) * w (ix2 t j)) + b (ix2 0 j)

/-- The edge gate's argument: the three edge-sized summands added in the order (a + b) + c. -/
def gateArg {n k : Nat} (a b c : Mat n k) (r : Fin n) (j : Fin k) : EReal :=
  (a (ix2 r j) + b (ix2 r j)) + c (ix2 r j)

/-- The gate: the logistic function of the gate's argument. -/
def gate {n k : Nat} (a b c : Mat n k) (r : Fin n) (j : Fin k) : EReal :=
  Ideal.logistic (gateArg a b c r j)

/-- The gated message: the gate times the sender's entry. -/
def gated {n k : Nat} (a b c d : Mat n k) (r : Fin n) (j : Fin k) : EReal :=
  gate a b c r j * d (ix2 r j)

/-- The node update: a + num / (den + eps). -/
def nodeUpd {n k : Nat} (eps : EReal) (a num den : Mat n k) (r : Fin n) (j : Fin k) : EReal :=
  a (ix2 r j) + Ideal.div (num (ix2 r j)) (den (ix2 r j) + eps)

/-- The normalised residual step: res + max (((x − mean) · rsqrt (var + eps)) · g + b) 0, the statistics and the
    affine pair one row each. -/
def bnRelu {n k : Nat} (eps zero : EReal) (x res : Mat n k) (mean var g b : Mat 1 k) (r : Fin n) (j : Fin k) : EReal :=
  res (ix2 r j) + max ((((x (ix2 r j) - mean (ix2 0 j)) * Ideal.rsqrt (var (ix2 0 j) + eps)) * g (ix2 0 j)) + b (ix2 0 j)) zero

end Cert.Spec

end
-- ==== Proof.KI.Val0.lean ====
import proofs.«431450_j74423193305350_1_alg».proof.Proof.KI.Reg0
import proofs.«431450_j74423193305350_1_alg».proof.Proof.Spec
import Idealize.ShloMosaic.Lib.Pipeline.Value
import Idealize.ShloMosaic.Lib.ValueIdx
import Idealize.ShloMosaic.Lib.ValueLayout
import Idealize.ShloMosaic.PureOps.Ideal.Laws

/-! Region 0 (a dense layer: [50000,6] times [6,64] plus a [1,64] bias row, in row blocks of 5000) at the extended
    reals: the body's payload entry by entry, what each grid point writes back as the block of one whole-array
    function, the blocks covering the rows, and so the whole output array as the dense-layer formula of the region's
    whole input arrays. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The payload at an entry -/

theorem lhs_lin0_0 (i : S5000x64.Idx) (q : dot_S5000x6_S6x64_S5000x64_1_0_0_1_n_n.contr.Idx) :
    (dot_S5000x6_S6x64_S5000x64_1_0_0_1_n_n.lhsIdx i q 0).val = (i 0).val := by
  unfold DotDims.lhsIdx
  rw [dif_neg (show ¬(0 : Fin S5000x6.rank) ∈ dot_S5000x6_S6x64_S5000x64_1_0_0_1_n_n.lhsBatch by decide), dif_pos (show (0 : Fin S5000x6.rank) ∈ dot_S5000x6_S6x64_S5000x64_1_0_0_1_n_n.lhsNonContracting by decide)]
  rfl

theorem lhs_lin0_1 (i : S5000x64.Idx) (q : dot_S5000x6_S6x64_S5000x64_1_0_0_1_n_n.contr.Idx) :
    (dot_S5000x6_S6x64_S5000x64_1_0_0_1_n_n.lhsIdx i q 1).val = (q ⟨0, by decide⟩).val :=
  dot_S5000x6_S6x64_S5000x64_1_0_0_1_n_n.lhsIdx_val_of_single rfl i q

theorem rhs_lin0_0 (i : S5000x64.Idx) (q : dot_S5000x6_S6x64_S5000x64_1_0_0_1_n_n.contr.Idx) :
    (dot_S5000x6_S6x64_S5000x64_1_0_0_1_n_n.rhsIdx i q 0).val = (q ⟨0, by decide⟩).val :=
  dot_S5000x6_S6x64_S5000x64_1_0_0_1_n_n.rhsIdx_val_of_single rfl i q

theorem rhs_lin0_1 (i : S5000x64.Idx) (q : dot_S5000x6_S6x64_S5000x64_1_0_0_1_n_n.contr.Idx) :
    (dot_S5000x6_S6x64_S5000x64_1_0_0_1_n_n.rhsIdx i q 1).val = (i 1).val := by
  unfold DotDims.rhsIdx
  rw [dif_neg (show ¬(1 : Fin S6x64.rank) ∈ dot_S5000x6_S6x64_S5000x64_1_0_0_1_n_n.rhsBatch by decide), dif_pos (show (1 : Fin S6x64.rank) ∈ dot_S5000x6_S6x64_S5000x64_1_0_0_1_n_n.rhsNonContracting by decide)]
  rfl

/-- The product at an entry: row p of the left block against column q of the right one. -/
theorem mm0_apply (a : FVec Ideal S5000x6 .bf16) (b : FVec Ideal S6x64 .bf16) (p : Fin 5000) (q : Fin 64) :
    FloatOps.matmul dot_S5000x6_S6x64_S5000x64_1_0_0_1_n_n none a b (constant S5000x64 .f32 0x00000000#32) (ix2 p q)
      = ∑ k : Fin 6, a (ix2 p k) * b (ix2 k q) := by
  rw [Ideal.matmul_constant_zero_apply, ← Equiv.sum_comp (ValueIdx.contrEquiv1 dot_S5000x6_S6x64_S5000x64_1_0_0_1_n_n 6 rfl rfl).symm]
  refine Finset.sum_congr rfl fun k _ => ?_
  have hk := ValueIdx.contrEquiv1_symm_val dot_S5000x6_S6x64_S5000x64_1_0_0_1_n_n 6 rfl rfl k
  have el : dot_S5000x6_S6x64_S5000x64_1_0_0_1_n_n.lhsIdx (ix2 p q) ((ValueIdx.contrEquiv1 dot_S5000x6_S6x64_S5000x64_1_0_0_1_n_n 6 rfl rfl).symm k) = ix2 p k := funext fun a => Fin.ext (by
    match a with
    | ⟨0, _⟩ => exact lhs_lin0_0 _ _
    | ⟨1, _⟩ => exact (lhs_lin0_1 _ _).trans hk)
  have er : dot_S5000x6_S6x64_S5000x64_1_0_0_1_n_n.rhsIdx (ix2 p q) ((ValueIdx.contrEquiv1 dot_S5000x6_S6x64_S5000x64_1_0_0_1_n_n 6 rfl rfl).symm k) = ix2 k q := funext fun a => Fin.ext (by
    match a with
    | ⟨0, _⟩ => exact (rhs_lin0_0 _ _).trans hk
    | ⟨1, _⟩ => exact rhs_lin0_1 _ _)
  rw [el, er]

/-- The bias row spread over the rows, at an entry. -/
theorem bias0_apply (x2 : Vec Ideal S1x64 .f32) (p : Fin 5000) (q : Fin 64) :
    broadcastTo S5000x64 x2 broadcasts_S1x64_S5000x64 (ix2 p q) = x2 (ix2 0 q) :=
  broadcastTo_apply x2 broadcasts_S1x64_S5000x64 (ix2 p q) (ix2 0 q) (fun a => by
    match a with
    | ⟨0, _⟩ => rfl
    | ⟨1, _⟩ => rfl)

/-- The body's payload at an entry: the row of the first block against the column of the second, plus the bias. -/
theorem pay0_apply (x0 : Vec Ideal S5000x6 .f32) (x1 : Vec Ideal S6x64 .f32) (x2 : Vec Ideal S1x64 .f32) (p : Fin 5000) (q : Fin 64) :
    k0_pay1 x0 x1 x2 (ix2 p q) = (∑ k : Fin 6, x0 (ix2 p k) * x1 (ix2 k q)) + x2 (ix2 0 q) := by
  unfold k0_pay1
  rw [shapeCast_self]
  refine (addf_apply _ _ _).trans ?_
  exact congrArg₂ (· + ·) (mm0_apply _ _ p q) (bias0_apply x2 p q)

/-! ## From blocks to the array -/

variable (V : (c : Dev nD) → (b : Ref sig .tc) → Buf (Elt Ideal) ((c : Thread nD τ).loc b))

theorem offs_zero0 : (![0, 0] : Fin 2 → Nat) = fun _ => 0 := funext fun a => by fin_cases a <;> rfl

/-- The whole output array: the dense layer of the region's whole input arrays. -/
def lin0_whole (c : Dev nD) : S50000x64.Idx → EReal := fun i =>
  Spec.lin (V c main_arg1 : S50000x6.Idx → EReal) (V c main_arg6 : S6x64.Idx → EReal) (V c main_v0 : S1x64.Idx → EReal) (i 0) (i 1)

/-- The printed index maps, decided over the grid: the row windows' block index is the point, every other is 0. -/
theorem idx_lin0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem pt_lt0 (t : Fin cfg0.N) : t.val < 10 := by have h := t.isLt; have hN : cfg0.N = 10 := N_0; omega

/-- The left window's block at point t is rows 5000 t … of its array. -/
theorem iblk0_0_apply (c : Dev nD) (t : Fin cfg0.N) (p : Fin 5000) (k : Fin 6) :
    (iblk0 V c 0 t : Vec Ideal S5000x6 .f32) (ix2 p k) = (V c main_arg1 : S50000x6.Idx → EReal) (ix2 ⟨t.val * 5000 + p.val, by have := pt_lt0 t; have := p.isLt; omega⟩ k) := by
  obtain ⟨e0, e1, -, -, -, -, -, -⟩ := idx_lin0 t
  unfold iblk0
  rw [View.read_apply]
  show V c main_arg1 _ = V c main_arg1 _
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 6 + 1 * k.val = k.val; rw [e1]; omega

/-- The weight window's block at every point is its whole array. -/
theorem iblk0_1_apply (c : Dev nD) (t : Fin cfg0.N) (k : Fin 6) (q : Fin 64) :
    (iblk0 V c 1 t : Vec Ideal S6x64 .f32) (ix2 k q) = (V c main_arg6 : S6x64.Idx → EReal) (ix2 k q) := by
  obtain ⟨-, -, e2, e3, -, -, -, -⟩ := idx_lin0 t
  unfold iblk0
  rw [View.read_apply]
  show V c main_arg6 _ = V c main_arg6 _
  congr 1
  funext a
  apply Fin.ext
  match a with
  | ⟨0, _⟩ => show win0_1.index t (0 : Fin 2) * 6 + 1 * k.val = k.val; rw [e2]; omega
  | ⟨1, _⟩ => show win0_1.index t (1 : Fin 2) * 64 + 1 * q.val = q.val; rw [e3]; omega

/-- The bias window's block at every point is its whole row. -/
theorem iblk0_2_apply (c : Dev nD) (t : Fin cfg0.N) (q : Fin 64) :
    (iblk0 V c 2 t : Vec Ideal S1x64 .f32) (ix2 0 q) = (V c main_v0 : S1x64.Idx → EReal) (ix2 0 q) := by
  obtain ⟨-, -, -, -, e4, e5, -, -⟩ := idx_lin0 t
  unfold iblk0
  rw [View.read_apply]
  show V c main_v0 _ = V c main_v0 _
  congr 1
  funext a
  apply Fin.ext
  match a with
  | ⟨0, _⟩ => show win0_2.index t (0 : Fin 2) * 1 + 1 * 0 = 0; rw [e4]
  | ⟨1, _⟩ => show win0_2.index t (1 : Fin 2) * 64 + 1 * q.val = q.val; rw [e5]; omega

/-- What point t writes back is block t of the whole-array dense layer. -/
theorem flushed0_3_eq (c : Dev nD) (t : Fin cfg0.N) :
    (dat0 (F := Ideal) V c).flushed 3 t = ((cfg0.win 3).blk t).view.read (Elt Ideal) (lin0_whole V c) := by
  show (cfg0.win 3).cut (grid0.coords t) ((dat0 V c).after 3 t) = _
  rw [after0_3]
  unfold out0_3
  rw [View.canon_unit_zero offs_zero0]
  simp only [View.ld_unit_zero (S := S5000x6) offs_zero0, View.ld_unit_zero (S := S6x64) offs_zero0, View.ld_unit_zero (S := S1x64) offs_zero0]
  obtain ⟨-, -, -, -, -, -, e6, e7⟩ := idx_lin0 t
  refine funext fun (j : S5000x64.Idx) => ?_
  obtain ⟨p, q, rfl⟩ : ∃ (p : Fin 5000) (q : Fin 64), j = ix2 p q := ⟨j 0, j 1, eq_ix2 j⟩
  show k0_pay1 (iblk0 V c 0 t) (iblk0 V c 1 t) (iblk0 V c 2 t) (ix2 p q) = lin0_whole V c (((cfg0.win 3).blk t).view.emb (ix2 p q))
  rw [pay0_apply, iblk0_2_apply V c t q]
  unfold lin0_whole Spec.lin
  have hr : ((cfg0.win 3).blk t).view.emb (ix2 p q) 0 = (⟨t.val * 5000 + p.val, by have := pt_lt0 t; have := p.isLt; omega⟩ : Fin 50000) :=
    Fin.ext (by show win0_3.index t (0 : Fin 2) * 5000 + 1 * p.val = t.val * 5000 + p.val; rw [e6]; omega)
  have hq : ((cfg0.win 3).blk t).view.emb (ix2 p q) 1 = (q : Fin 64) :=
    Fin.ext (by show win0_3.index t (1 : Fin 2) * 64 + 1 * q.val = q.val; rw [e7]; omega)
  rw [hr, hq]
  exact congrArg (· + _) (Finset.sum_congr rfl fun k _ => congrArg₂ (· * ·) (iblk0_0_apply V c t p k) (iblk0_1_apply V c t k q))

/-- An index of the output array is in point t's block iff each coordinate is in the block's range on its axis. -/
theorem mem_blk0_3 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v1).slice (win0_3.rect t)).set ↔ _
  rw [View.set_slice_whole, Rect.mem_set_unit]
  exact Iff.rfl

/-- Row r of the output is written back by the point r / 5000. -/
theorem cover0_3_rows (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  refine ⟨⟨(i 0).val / 5000, by rw [hN]; omega⟩, flush0_3 _, ?_⟩
  rw [mem_blk0_3]
  obtain ⟨-, -, -, -, -, -, e6, e7⟩ := idx_lin0 ⟨(i 0).val / 5000, by rw [hN]; omega⟩
  intro a
  match a with
  | ⟨0, _⟩ => show win0_3.index _ (0 : Fin 2) * 5000 ≤ (i 0).val ∧ (i 0).val < win0_3.index _ (0 : Fin 2) * 5000 + 5000; rw [e6]; show (i 0).val / 5000 * 5000 ≤ (i 0).val ∧ (i 0).val < (i 0).val / 5000 * 5000 + 5000; omega
  | ⟨1, _⟩ => show win0_3.index _ (1 : Fin 2) * 64 ≤ (i 1).val ∧ (i 1).val < win0_3.index _ (1 : Fin 2) * 64 + 64; rw [e7]; omega

/-- The output array after the region's last point is the dense layer of the whole input arrays. -/
theorem final0_3 (c : Dev nD) : (dat0 (F := Ideal) V c).arrAt 3 cfg0.N = lin0_whole V c :=
  (dat0 (F := Ideal) V c).arrAt_eq_of_cover 3 (lin0_whole V c) (fun t _ => flushed0_3_eq V c t) (cover0_3_rows)

/-- … read at an entry. -/
theorem final0_3_apply (c : Dev nD) (r : Fin 50000) (j : Fin 64) :
    (dat0 (F := Ideal) V c).arrAt 3 cfg0.N (ValueIdx.ix2 r j)
      = Spec.lin (V c main_arg1 : S50000x6.Idx → EReal) (V c main_arg6 : S6x64.Idx → EReal) (V c main_v0 : S1x64.Idx → EReal) r j := by
  rw [final0_3]
  rfl

end Cert.KernelIdeal.Hand

end
-- ==== Proof.KI.Val1.lean ====
import proofs.«431450_j74423193305350_1_alg».proof.Proof.KI.Reg1
import proofs.«431450_j74423193305350_1_alg».proof.Proof.Spec
import Idealize.ShloMosaic.Lib.Pipeline.Value
import Idealize.ShloMosaic.Lib.ValueIdx
import Idealize.ShloMosaic.Lib.ValueLayout
import Idealize.ShloMosaic.PureOps.Ideal.Laws

/-! Region 1 (a dense layer: the entrywise reciprocal of [400000,2] times [2,64] plus a [1,64] bias row, in row blocks of 4000) at the extended
    reals: the body's payload entry by entry, what each grid point writes back as the block of one whole-array
    function, the blocks covering the rows, and so the whole output array as the dense-layer formula of the region's
    whole input arrays. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The payload at an entry -/

theorem lhs_lin1_0 (i : S4000x64.Idx) (q : dot_S4000x2_S2x64_S4000x64_1_0_0_1_n_n.contr.Idx) :
    (dot_S4000x2_S2x64_S4000x64_1_0_0_1_n_n.lhsIdx i q 0).val = (i 0).val := by
  unfold DotDims.lhsIdx
  rw [dif_neg (show ¬(0 : Fin S4000x2.rank) ∈ dot_S4000x2_S2x64_S4000x64_1_0_0_1_n_n.lhsBatch by decide), dif_pos (show (0 : Fin S4000x2.rank) ∈ dot_S4000x2_S2x64_S4000x64_1_0_0_1_n_n.lhsNonContracting by decide)]
  rfl

theorem lhs_lin1_1 (i : S4000x64.Idx) (q : dot_S4000x2_S2x64_S4000x64_1_0_0_1_n_n.contr.Idx) :
    (dot_S4000x2_S2x64_S4000x64_1_0_0_1_n_n.lhsIdx i q 1).val = (q ⟨0, by decide⟩).val :=
  dot_S4000x2_S2x64_S4000x64_1_0_0_1_n_n.lhsIdx_val_of_single rfl i q

theorem rhs_lin1_0 (i : S4000x64.Idx) (q : dot_S4000x2_S2x64_S4000x64_1_0_0_1_n_n.contr.Idx) :
    (dot_S4000x2_S2x64_S4000x64_1_0_0_1_n_n.rhsIdx i q 0).val = (q ⟨0, by decide⟩).val :=
  dot_S4000x2_S2x64_S4000x64_1_0_0_1_n_n.rhsIdx_val_of_single rfl i q

theorem rhs_lin1_1 (i : S4000x64.Idx) (q : dot_S4000x2_S2x64_S4000x64_1_0_0_1_n_n.contr.Idx) :
    (dot_S4000x2_S2x64_S4000x64_1_0_0_1_n_n.rhsIdx i q 1).val = (i 1).val := by
  unfold DotDims.rhsIdx
  rw [dif_neg (show ¬(1 : Fin S2x64.rank) ∈ dot_S4000x2_S2x64_S4000x64_1_0_0_1_n_n.rhsBatch by decide), dif_pos (show (1 : Fin S2x64.rank) ∈ dot_S4000x2_S2x64_S4000x64_1_0_0_1_n_n.rhsNonContracting by decide)]
  rfl

/-- The product at an entry: row p of the left block against column q of the right one. -/
theorem mm1_apply (a : FVec Ideal S4000x2 .bf16) (b : FVec Ideal S2x64 .bf16) (p : Fin 4000) (q : Fin 64) :
    FloatOps.matmul dot_S4000x2_S2x64_S4000x64_1_0_0_1_n_n none a b (constant S4000x64 .f32 0x00000000#32) (ix2 p q)
      = ∑ k : Fin 2, a (ix2 p k) * b (ix2 k q) := by
  rw [Ideal.matmul_constant_zero_apply, ← Equiv.sum_comp (ValueIdx.contrEquiv1 dot_S4000x2_S2x64_S4000x64_1_0_0_1_n_n 2 rfl rfl).symm]
  refine Finset.sum_congr rfl fun k _ => ?_
  have hk := ValueIdx.contrEquiv1_symm_val dot_S4000x2_S2x64_S4000x64_1_0_0_1_n_n 2 rfl rfl k
  have el : dot_S4000x2_S2x64_S4000x64_1_0_0_1_n_n.lhsIdx (ix2 p q) ((ValueIdx.contrEquiv1 dot_S4000x2_S2x64_S4000x64_1_0_0_1_n_n 2 rfl rfl).symm k) = ix2 p k := funext fun a => Fin.ext (by
    match a with
    | ⟨0, _⟩ => exact lhs_lin1_0 _ _
    | ⟨1, _⟩ => exact (lhs_lin1_1 _ _).trans hk)
  have er : dot_S4000x2_S2x64_S4000x64_1_0_0_1_n_n.rhsIdx (ix2 p q) ((ValueIdx.contrEquiv1 dot_S4000x2_S2x64_S4000x64_1_0_0_1_n_n 2 rfl rfl).symm k) = ix2 k q := funext fun a => Fin.ext (by
    match a with
    | ⟨0, _⟩ => exact (rhs_lin1_0 _ _).trans hk
    | ⟨1, _⟩ => exact rhs_lin1_1 _ _)
  rw [el, er]

/-- The bias row spread over the rows, at an entry. -/
theorem bias1_apply (x2 : Vec Ideal S1x64 .f32) (p : Fin 4000) (q : Fin 64) :
    broadcastTo S4000x64 x2 broadcasts_S1x64_S4000x64 (ix2 p q) = x2 (ix2 0 q) :=
  broadcastTo_apply x2 broadcasts_S1x64_S4000x64 (ix2 p q) (ix2 0 q) (fun a => by
    match a with
    | ⟨0, _⟩ => rfl
    | ⟨1, _⟩ => rfl)

/-- The body's payload at an entry: the row of the first block against the column of the second, plus the bias. -/
theorem pay1_apply (x0 : Vec Ideal S4000x2 .f32) (x1 : Vec Ideal S2x64 .f32) (x2 : Vec Ideal S1x64 .f32) (p : Fin 4000) (q : Fin 64) :
    k1_pay1 x0 x1 x2 (ix2 p q) = (∑ k : Fin 2, Ideal.div (Ideal.ofBits .f32 0x3F800000#32) (x0 (ix2 p k)) * x1 (ix2 k q)) + x2 (ix2 0 q) := by
  unfold k1_pay1
  rw [shapeCast_self]
  refine (addf_apply _ _ _).trans ?_
  exact congrArg₂ (· + ·) (mm1_apply _ _ p q) (bias1_apply x2 p q)

/-! ## From blocks to the array -/

variable (V : (c : Dev nD) → (b : Ref sig .tc) → Buf (Elt Ideal) ((c : Thread nD τ).loc b))

theorem offs_zero1 : (![0, 0] : Fin 2 → Nat) = fun _ => 0 := funext fun a => by fin_cases a <;> rfl

/-- The whole output array: the dense layer of the region's whole input arrays. -/
def lin1_whole (c : Dev nD) : S400000x64.Idx → EReal := fun i =>
  Spec.linRecip (Ideal.ofBits .f32 0x3F800000#32) (V c main_arg2 : S400000x2.Idx → EReal) (V c main_arg8 : S2x64.Idx → EReal) (V c main_v2 : S1x64.Idx → EReal) (i 0) (i 1)

/-- The printed index maps, decided over the grid: the row windows' block index is the point, every other is 0. -/
theorem idx_lin1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem pt_lt1 (t : Fin cfg1.N) : t.val < 100 := by have h := t.isLt; have hN : cfg1.N = 100 := N_1; omega

/-- The left window's block at point t is rows 4000 t … of its array. -/
theorem iblk1_0_apply (c : Dev nD) (t : Fin cfg1.N) (p : Fin 4000) (k : Fin 2) :
    (iblk1 V c 0 t : Vec Ideal S4000x2 .f32) (ix2 p k) = (V c main_arg2 : S400000x2.Idx → EReal) (ix2 ⟨t.val * 4000 + p.val, by have := pt_lt1 t; have := p.isLt; omega⟩ k) := by
  obtain ⟨e0, e1, -, -, -, -, -, -⟩ := idx_lin1 t
  unfold iblk1
  rw [View.read_apply]
  show V c main_arg2 _ = V c main_arg2 _
  congr 1
  funext a
  apply Fin.ext
  match a with
  | ⟨0, _⟩ => show win1_0.index t (0 : Fin 2) * 4000 + 1 * p.val = t.val * 4000 + p.val; rw [e0]; omega
  | ⟨1, _⟩ => show win1_0.index t (1 : Fin 2) * 2 + 1 * k.val = k.val; rw [e1]; omega

/-- The weight window's block at every point is its whole array. -/
theorem iblk1_1_apply (c : Dev nD) (t : Fin cfg1.N) (k : Fin 2) (q : Fin 64) :
    (iblk1 V c 1 t : Vec Ideal S2x64 .f32) (ix2 k q) = (V c main_arg8 : S2x64.Idx → EReal) (ix2 k q) := by
  obtain ⟨-, -, e2, e3, -, -, -, -⟩ := idx_lin1 t
  unfold iblk1
  rw [View.read_apply]
  show V c main_arg8 _ = V c main_arg8 _
  congr 1
  funext a
  apply Fin.ext
  match a with
  | ⟨0, _⟩ => show win1_1.index t (0 : Fin 2) * 2 + 1 * k.val = k.val; rw [e2]; omega
  | ⟨1, _⟩ => show win1_1.index t (1 : Fin 2) * 64 + 1 * q.val = q.val; rw [e3]; omega

/-- The bias window's block at every point is its whole row. -/
theorem iblk1_2_apply (c : Dev nD) (t : Fin cfg1.N) (q : Fin 64) :
    (iblk1 V c 2 t : Vec Ideal S1x64 .f32) (ix2 0 q) = (V c main_v2 : S1x64.Idx → EReal) (ix2 0 q) := by
  obtain ⟨-, -, -, -, e4, e5, -, -⟩ := idx_lin1 t
  unfold iblk1
  rw [View.read_apply]
  show V c main_v2 _ = V c main_v2 _
  congr 1
  funext a
  apply Fin.ext
  match a with
  | ⟨0, _⟩ => show win1_2.index t (0 : Fin 2) * 1 + 1 * 0 = 0; rw [e4]
  | ⟨1, _⟩ => show win1_2.index t (1 : Fin 2) * 64 + 1 * q.val = q.val; rw [e5]; omega

/-- What point t writes back is block t of the whole-array dense layer. -/
theorem flushed1_3_eq (c : Dev nD) (t : Fin cfg1.N) :
    (dat1 (F := Ideal) V c).flushed 3 t = ((cfg1.win 3).blk t).view.read (Elt Ideal) (lin1_whole V c) := by
  show (cfg1.win 3).cut (grid1.coords t) ((dat1 V c).after 3 t) = _
  rw [after1_3]
  unfold out1_3
  rw [View.canon_unit_zero offs_zero1]
  simp only [View.ld_unit_zero (S := S4000x2) offs_zero1, View.ld_unit_zero (S := S2x64) offs_zero1, View.ld_unit_zero (S := S1x64) offs_zero1]
  obtain ⟨-, -, -, -, -, -, e6, e7⟩ := idx_lin1 t
  refine funext fun (j : S4000x64.Idx) => ?_
  obtain ⟨p, q, rfl⟩ : ∃ (p : Fin 4000) (q : Fin 64), j = ix2 p q := ⟨j 0, j 1, eq_ix2 j⟩
  show k1_pay1 (iblk1 V c 0 t) (iblk1 V c 1 t) (iblk1 V c 2 t) (ix2 p q) = lin1_whole V c (((cfg1.win 3).blk t).view.emb (ix2 p q))
  rw [pay1_apply, iblk1_2_apply V c t q]
  unfold lin1_whole Spec.linRecip
  have hr : ((cfg1.win 3).blk t).view.emb (ix2 p q) 0 = (⟨t.val * 4000 + p.val, by have := pt_lt1 t; have := p.isLt; omega⟩ : Fin 400000) :=
    Fin.ext (by show win1_3.index t (0 : Fin 2) * 4000 + 1 * p.val = t.val * 4000 + p.val; rw [e6]; omega)
  have hq : ((cfg1.win 3).blk t).view.emb (ix2 p q) 1 = (q : Fin 64) :=
    Fin.ext (by show win1_3.index t (1 : Fin 2) * 64 + 1 * q.val = q.val; rw [e7]; omega)
  rw [hr, hq]
  exact congrArg (· + _) (Finset.sum_congr rfl fun k _ => congrArg₂ (· * ·) (congrArg (Ideal.div (Ideal.ofBits .f32 0x3F800000#32)) (iblk1_0_apply V c t p k)) (iblk1_1_apply V c t k q))

/-- An index of the output array is in point t's block iff each coordinate is in the block's range on its axis. -/
theorem mem_blk1_3 (t : Fin cfg1.N) (i : S400000x64.Idx) :
    i ∈ ((cfg1.win 3).blk t).view.set ↔ ∀ a : Fin 2, win1_3.index t a * S4000x64.size a ≤ (i a).val ∧ (i a).val < win1_3.index t a * S4000x64.size a + S4000x64.size a := by
  show i ∈ ((View.whole main_v3).slice (win1_3.rect t)).set ↔ _
  rw [View.set_slice_whole, Rect.mem_set_unit]
  exact Iff.rfl

/-- Row r of the output is written back by the point r / 4000. -/
theorem cover1_3_rows (i : S400000x64.Idx) : ∃ t : Fin cfg1.N, (cfg1.win 3).flush t = true ∧ i ∈ ((cfg1.win 3).blk t).view.set := by
  have hi0 : (i 0).val < 400000 := (i 0).isLt
  have hi1 : (i 1).val < 64 := (i 1).isLt
  have hN : cfg1.N = 100 := N_1
  refine ⟨⟨(i 0).val / 4000, by rw [hN]; omega⟩, flush1_3 _, ?_⟩
  rw [mem_blk1_3]
  obtain ⟨-, -, -, -, -, -, e6, e7⟩ := idx_lin1 ⟨(i 0).val / 4000, by rw [hN]; omega⟩
  intro a
  match a with
  | ⟨0, _⟩ => show win1_3.index _ (0 : Fin 2) * 4000 ≤ (i 0).val ∧ (i 0).val < win1_3.index _ (0 : Fin 2) * 4000 + 4000; rw [e6]; show (i 0).val / 4000 * 4000 ≤ (i 0).val ∧ (i 0).val < (i 0).val / 4000 * 4000 + 4000; omega
  | ⟨1, _⟩ => show win1_3.index _ (1 : Fin 2) * 64 ≤ (i 1).val ∧ (i 1).val < win1_3.index _ (1 : Fin 2) * 64 + 64; rw [e7]; omega

/-- The output array after the region's last point is the dense layer of the whole input arrays. -/
theorem final1_3 (c : Dev nD) : (dat1 (F := Ideal) V c).arrAt 3 cfg1.N = lin1_whole V c :=
  (dat1 (F := Ideal) V c).arrAt_eq_of_cover 3 (lin1_whole V c) (fun t _ => flushed1_3_eq V c t) (cover1_3_rows)

/-- … read at an entry. -/
theorem final1_3_apply (c : Dev nD) (r : Fin 400000) (j : Fin 64) :
    (dat1 (F := Ideal) V c).arrAt 3 cfg1.N (ValueIdx.ix2 r j)
      = Spec.linRecip (Ideal.ofBits .f32 0x3F800000#32) (V c main_arg2 : S400000x2.Idx → EReal) (V c main_arg8 : S2x64.Idx → EReal) (V c main_v2 : S1x64.Idx → EReal) r j := by
  rw [final1_3]
  rfl

end Cert.KernelIdeal.Hand

end
-- ==== Proof.KI.Val2.lean ====
import proofs.«431450_j74423193305350_1_alg».proof.Proof.KI.Reg2
import proofs.«431450_j74423193305350_1_alg».proof.Proof.Spec
import Idealize.ShloMosaic.Lib.Pipeline.Value
import Idealize.ShloMosaic.Lib.ValueIdx
import Idealize.ShloMosaic.Lib.ValueLayout
import Idealize.ShloMosaic.PureOps.Ideal.Laws

/-! Region 2 (a dense layer: [50000,64] times [64,256] plus a [1,256] bias row, in row blocks of 5000) at the extended
    reals: the body's payload entry by entry, what each grid point writes back as the block of one whole-array
    function, the blocks covering the rows, and so the whole output array as the dense-layer formula of the region's
    whole input arrays. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The payload at an entry -/

theorem lhs_lin2_0 (i : S5000x256.Idx) (q : dot_S5000x64_S64x256_S5000x256_1_0_0_1_n_n.contr.Idx) :
    (dot_S5000x64_S64x256_S5000x256_1_0_0_1_n_n.lhsIdx i q 0).val = (i 0).val := by
  unfold DotDims.lhsIdx
  rw [dif_neg (show ¬(0 : Fin S5000x64.rank) ∈ dot_S5000x64_S64x256_S5000x256_1_0_0_1_n_n.lhsBatch by decide), dif_pos (show (0 : Fin S5000x64.rank) ∈ dot_S5000x64_S64x256_S5000x256_1_0_0_1_n_n.lhsNonContracting by decide)]
  rfl

theorem lhs_lin2_1 (i : S5000x256.Idx) (q : dot_S5000x64_S64x256_S5000x256_1_0_0_1_n_n.contr.Idx) :
    (dot_S5000x64_S64x256_S5000x256_1_0_0_1_n_n.lhsIdx i q 1).val = (q ⟨0, by decide⟩).val :=
  dot_S5000x64_S64x256_S5000x256_1_0_0_1_n_n.lhsIdx_val_of_single rfl i q

theorem rhs_lin2_0 (i : S5000x256.Idx) (q : dot_S5000x64_S64x256_S5000x256_1_0_0_1_n_n.contr.Idx) :
    (dot_S5000x64_S64x256_S5000x256_1_0_0_1_n_n.rhsIdx i q 0).val = (q ⟨0, by decide⟩).val :=
  dot_S5000x64_S64x256_S5000x256_1_0_0_1_n_n.rhsIdx_val_of_single rfl i q

theorem rhs_lin2_1 (i : S5000x256.Idx) (q : dot_S5000x64_S64x256_S5000x256_1_0_0_1_n_n.contr.Idx) :
    (dot_S5000x64_S64x256_S5000x256_1_0_0_1_n_n.rhsIdx i q 1).val = (i 1).val := by
  unfold DotDims.rhsIdx
  rw [dif_neg (show ¬(1 : Fin S64x256.rank) ∈ dot_S5000x64_S64x256_S5000x256_1_0_0_1_n_n.rhsBatch by decide), dif_pos (show (1 : Fin S64x256.rank) ∈ dot_S5000x64_S64x256_S5000x256_1_0_0_1_n_n.rhsNonContracting by decide)]
  rfl

/-- The product at an entry: row p of the left block against column q of the right one. -/
theorem mm2_apply (a : FVec Ideal S5000x64 .bf16) (b : FVec Ideal S64x256 .bf16) (p : Fin 5000) (q : Fin 256) :
    FloatOps.matmul dot_S5000x64_S64x256_S5000x256_1_0_0_1_n_n none a b (constant S5000x256 .f32 0x00000000#32) (ix2 p q)
      = ∑ k : Fin 64, a (ix2 p k) * b (ix2 k q) := by
  rw [Ideal.matmul_constant_zero_apply, ← Equiv.sum_comp (ValueIdx.contrEquiv1 dot_S5000x64_S64x256_S5000x256_1_0_0_1_n_n 64 rfl rfl).symm]
  refine Finset.sum_congr rfl fun k _ => ?_
  have hk := ValueIdx.contrEquiv1_symm_val dot_S5000x64_S64x256_S5000x256_1_0_0_1_n_n 64 rfl rfl k
  have el : dot_S5000x64_S64x256_S5000x256_1_0_0_1_n_n.lhsIdx (ix2 p q) ((ValueIdx.contrEquiv1 dot_S5000x64_S64x256_S5000x256_1_0_0_1_n_n 64 rfl rfl).symm k) = ix2 p k := funext fun a => Fin.ext (by
    match a with
    | ⟨0, _⟩ => exact lhs_lin2_0 _ _
    | ⟨1, _⟩ => exact (lhs_lin2_1 _ _).trans hk)
  have er : dot_S5000x64_S64x256_S5000x256_1_0_0_1_n_n.rhsIdx (ix2 p q) ((ValueIdx.contrEquiv1 dot_S5000x64_S64x256_S5000x256_1_0_0_1_n_n 64 rfl rfl).symm k) = ix2 k q := funext fun a => Fin.ext (by
    match a with
    | ⟨0, _⟩ => exact (rhs_lin2_0 _ _).trans hk
    | ⟨1, _⟩ => exact rhs_lin2_1 _ _)
  rw [el, er]

/-- The bias row spread over the rows, at an entry. -/
theorem bias2_apply (x2 : Vec Ideal S1x256 .f32) (p : Fin 5000) (q : Fin 256) :
    broadcastTo S5000x256 x2 broadcasts_S1x256_S5000x256 (ix2 p q) = x2 (ix2 0 q) :=
  broadcastTo_apply x2 broadcasts_S1x256_S5000x256 (ix2 p q) (ix2 0 q) (fun a => by
    match a with
    | ⟨0, _⟩ => rfl
    | ⟨1, _⟩ => rfl)

/-- The body's payload at an entry: the row of the first block against the column of the second, plus the bias. -/
theorem pay2_apply (x0 : Vec Ideal S5000x64 .f32) (x1 : Vec Ideal S64x256 .f32) (x2 : Vec Ideal S1x256 .f32) (p : Fin 5000) (q : Fin 256) :
    k2_pay1 x0 x1 x2 (ix2 p q) = (∑ k : Fin 64, x0 (ix2 p k) * x1 (ix2 k q)) + x2 (ix2 0 q) := by
  unfold k2_pay1
  rw [shapeCast_self, shapeCast_self, shapeCast_self]
  refine (addf_apply _ _ _).trans ?_
  exact congrArg₂ (· + ·) (mm2_apply _ _ p q) (bias2_apply x2 p q)

/-! ## From blocks to the array -/

variable (V : (c : Dev nD) → (b : Ref sig .tc) → Buf (Elt Ideal) ((c : Thread nD τ).loc b))

theorem offs_zero2 : (![0, 0] : Fin 2 → Nat) = fun _ => 0 := funext fun a => by fin_cases a <;> rfl

/-- The whole output array: the dense layer of the region's whole input arrays. -/
def lin2_whole (c : Dev nD) : S50000x256.Idx → EReal := fun i =>
  Spec.lin (V c main_v1 : S50000x64.Idx → EReal) (V c main_v12 : S64x256.Idx → EReal) (V c main_v22 : S1x256.Idx → EReal) (i 0) (i 1)

/-- The printed index maps, decided over the grid: the row windows' block index is the point, every other is 0. -/
theorem idx_lin2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem pt_lt2 (t : Fin cfg2.N) : t.val < 10 := by have h := t.isLt; have hN : cfg2.N = 10 := N_2; omega

/-- The left window's block at point t is rows 5000 t … of its array. -/
theorem iblk2_0_apply (c : Dev nD) (t : Fin cfg2.N) (p : Fin 5000) (k : Fin 64) :
    (iblk2 V c 0 t : Vec Ideal S5000x64 .f32) (ix2 p k) = (V c main_v1 : S50000x64.Idx → EReal) (ix2 ⟨t.val * 5000 + p.val, by have := pt_lt2 t; have := p.isLt; omega⟩ k) := by
  obtain ⟨e0, e1, -, -, -, -, -, -⟩ := idx_lin2 t
  unfold iblk2
  rw [View.read_apply]
  show V c main_v1 _ = V c main_v1 _
  congr 1
  funext a
  apply Fin.ext
  match a with
  | ⟨0, _⟩ => show win2_0.index t (0 : Fin 2) * 5000 + 1 * p.val = t.val * 5000 + p.val; rw [e0]; omega
  | ⟨1, _⟩ => show win2_0.index t (1 : Fin 2) * 64 + 1 * k.val = k.val; rw [e1]; omega

/-- The weight window's block at every point is its whole array. -/
theorem iblk2_1_apply (c : Dev nD) (t : Fin cfg2.N) (k : Fin 64) (q : Fin 256) :
    (iblk2 V c 1 t : Vec Ideal S64x256 .f32) (ix2 k q) = (V c main_v12 : S64x256.Idx → EReal) (ix2 k q) := by
  obtain ⟨-, -, e2, e3, -, -, -, -⟩ := idx_lin2 t
  unfold iblk2
  rw [View.read_apply]
  show V c main_v12 _ = V c main_v12 _
  congr 1
  funext a
  apply Fin.ext
  match a with
  | ⟨0, _⟩ => show win2_1.index t (0 : Fin 2) * 64 + 1 * k.val = k.val; rw [e2]; omega
  | ⟨1, _⟩ => show win2_1.index t (1 : Fin 2) * 256 + 1 * q.val = q.val; rw [e3]; omega

/-- The bias window's block at every point is its whole row. -/
theorem iblk2_2_apply (c : Dev nD) (t : Fin cfg2.N) (q : Fin 256) :
    (iblk2 V c 2 t : Vec Ideal S1x256 .f32) (ix2 0 q) = (V c main_v22 : S1x256.Idx → EReal) (ix2 0 q) := by
  obtain ⟨-, -, -, -, e4, e5, -, -⟩ := idx_lin2 t
  unfold iblk2
  rw [View.read_apply]
  show V c main_v22 _ = V c main_v22 _
  congr 1
  funext a
  apply Fin.ext
  match a with
  | ⟨0, _⟩ => show win2_2.index t (0 : Fin 2) * 1 + 1 * 0 = 0; rw [e4]
  | ⟨1, _⟩ => show win2_2.index t (1 : Fin 2) * 256 + 1 * q.val = q.val; rw [e5]; omega

/-- What point t writes back is block t of the whole-array dense layer. -/
theorem flushed2_3_eq (c : Dev nD) (t : Fin cfg2.N) :
    (dat2 (F := Ideal) V c).flushed 3 t = ((cfg2.win 3).blk t).view.read (Elt Ideal) (lin2_whole V c) := by
  show (cfg2.win 3).cut (grid2.coords t) ((dat2 V c).after 3 t) = _
  rw [after2_3]
  unfold out2_3
  rw [View.canon_unit_zero offs_zero2]
  simp only [View.ld_unit_zero (S := S5000x64) offs_zero2, View.ld_unit_zero (S := S64x256) offs_zero2, View.ld_unit_zero (S := S1x256) offs_zero2]
  obtain ⟨-, -, -, -, -, -, e6, e7⟩ := idx_lin2 t
  refine funext fun (j : S5000x256.Idx) => ?_
  obtain ⟨p, q, rfl⟩ : ∃ (p : Fin 5000) (q : Fin 256), j = ix2 p q := ⟨j 0, j 1, eq_ix2 j⟩
  show k2_pay1 (iblk2 V c 0 t) (iblk2 V c 1 t) (iblk2 V c 2 t) (ix2 p q) = lin2_whole V c (((cfg2.win 3).blk t).view.emb (ix2 p q))
  rw [pay2_apply, iblk2_2_apply V c t q]
  unfold lin2_whole Spec.lin
  have hr : ((cfg2.win 3).blk t).view.emb (ix2 p q) 0 = (⟨t.val * 5000 + p.val, by have := pt_lt2 t; have := p.isLt; omega⟩ : Fin 50000) :=
    Fin.ext (by show win2_3.index t (0 : Fin 2) * 5000 + 1 * p.val = t.val * 5000 + p.val; rw [e6]; omega)
  have hq : ((cfg2.win 3).blk t).view.emb (ix2 p q) 1 = (q : Fin 256) :=
    Fin.ext (by show win2_3.index t (1 : Fin 2) * 256 + 1 * q.val = q.val; rw [e7]; omega)
  rw [hr, hq]
  exact congrArg (· + _) (Finset.sum_congr rfl fun k _ => congrArg₂ (· * ·) (iblk2_0_apply V c t p k) (iblk2_1_apply V c t k q))

/-- An index of the output array is in point t's block iff each coordinate is in the block's range on its axis. -/
theorem mem_blk2_3 (t : Fin cfg2.N) (i : S50000x256.Idx) :
    i ∈ ((cfg2.win 3).blk t).view.set ↔ ∀ a : Fin 2, win2_3.index t a * S5000x256.size a ≤ (i a).val ∧ (i a).val < win2_3.index t a * S5000x256.size a + S5000x256.size a := by
  show i ∈ ((View.whole main_v23).slice (win2_3.rect t)).set ↔ _
  rw [View.set_slice_whole, Rect.mem_set_unit]
  exact Iff.rfl

/-- Row r of the output is written back by the point r / 5000. -/
theorem cover2_3_rows (i : S50000x256.Idx) : ∃ t : Fin cfg2.N, (cfg2.win 3).flush t = true ∧ i ∈ ((cfg2.win 3).blk t).view.set := by
  have hi0 : (i 0).val < 50000 := (i 0).isLt
  have hi1 : (i 1).val < 256 := (i 1).isLt
  have hN : cfg2.N = 10 := N_2
  refine ⟨⟨(i 0).val / 5000, by rw [hN]; omega⟩, flush2_3 _, ?_⟩
  rw [mem_blk2_3]
  obtain ⟨-, -, -, -, -, -, e6, e7⟩ := idx_lin2 ⟨(i 0).val / 5000, by rw [hN]; omega⟩
  intro a
  match a with
  | ⟨0, _⟩ => show win2_3.index _ (0 : Fin 2) * 5000 ≤ (i 0).val ∧ (i 0).val < win2_3.index _ (0 : Fin 2) * 5000 + 5000; rw [e6]; show (i 0).val / 5000 * 5000 ≤ (i 0).val ∧ (i 0).val < (i 0).val / 5000 * 5000 + 5000; omega
  | ⟨1, _⟩ => show win2_3.index _ (1 : Fin 2) * 256 ≤ (i 1).val ∧ (i 1).val < win2_3.index _ (1 : Fin 2) * 256 + 256; rw [e7]; omega

/-- The output array after the region's last point is the dense layer of the whole input arrays. -/
theorem final2_3 (c : Dev nD) : (dat2 (F := Ideal) V c).arrAt 3 cfg2.N = lin2_whole V c :=
  (dat2 (F := Ideal) V c).arrAt_eq_of_cover 3 (lin2_whole V c) (fun t _ => flushed2_3_eq V c t) (cover2_3_rows)

/-- … read at an entry. -/
theorem final2_3_apply (c : Dev nD) (r : Fin 50000) (j : Fin 256) :
    (dat2 (F := Ideal) V c).arrAt 3 cfg2.N (ValueIdx.ix2 r j)
      = Spec.lin (V c main_v1 : S50000x64.Idx → EReal) (V c main_v12 : S64x256.Idx → EReal) (V c main_v22 : S1x256.Idx → EReal) r j := by
  rw [final2_3]
  rfl

end Cert.KernelIdeal.Hand

end
-- ==== Proof.KI.Val3.lean ====
import proofs.«431450_j74423193305350_1_alg».proof.Proof.KI.Reg3
import proofs.«431450_j74423193305350_1_alg».proof.Proof.Spec
import Idealize.ShloMosaic.Lib.Pipeline.Value
import Idealize.ShloMosaic.Lib.ValueIdx
import Idealize.ShloMosaic.Lib.ValueLayout
import Idealize.ShloMosaic.PureOps.Ideal.Laws

/-! Region 3 (a dense layer: [400000,64] times [64,64] plus a [1,64] bias row, in row blocks of 4000) at the extended
    reals: the body's payload entry by entry, what each grid point writes back as the block of one whole-array
    function, the blocks covering the rows, and so the whole output array as the dense-layer formula of the region's
    whole input arrays. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The payload at an entry -/

theorem lhs_lin3_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl

theorem lhs_lin3_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q

theorem rhs_lin3_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q

theorem rhs_lin3_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The product at an entry: row p of the left block against column q of the right one. -/
theorem mm3_apply (a : FVec Ideal S4000x64 .bf16) (b : FVec Ideal S64x64 .bf16) (p : Fin 4000) (q : Fin 64) :
    FloatOps.matmul dot_S4000x64_S64x64_S4000x64_1_0_0_1_n_n none a b (constant S4000x64 .f32 0x00000000#32) (ix2 p q)
      = ∑ k : Fin 64, a (ix2 p k) * b (ix2 k q) := by
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact lhs_lin3_0 _ _
    | ⟨1, _⟩ => exact (lhs_lin3_1 _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (rhs_lin3_0 _ _).trans hk
    | ⟨1, _⟩ => exact rhs_lin3_1 _ _)
  rw [el, er]

/-- The bias row spread over the rows, at an entry. -/
theorem bias3_apply (x2 : Vec Ideal S1x64 .f32) (p : Fin 4000) (q : Fin 64) :
    broadcastTo S4000x64 x2 broadcasts_S1x64_S4000x64 (ix2 p q) = x2 (ix2 0 q) :=
  broadcastTo_apply x2 broadcasts_S1x64_S4000x64 (ix2 p q) (ix2 0 q) (fun a => by
    match a with
    | ⟨0, _⟩ => rfl
    | ⟨1, _⟩ => rfl)

/-- The body's payload at an entry: the row of the first block against the column of the second, plus the bias. -/
theorem pay3_apply (x0 : Vec Ideal S4000x64 .f32) (x1 : Vec Ideal S64x64 .f32) (x2 : Vec Ideal S1x64 .f32) (p : Fin 4000) (q : Fin 64) :
    k3_pay1 x0 x1 x2 (ix2 p q) = (∑ k : Fin 64, x0 (ix2 p k) * x1 (ix2 k q)) + x2 (ix2 0 q) := by
  unfold k3_pay1
  rw [shapeCast_self, shapeCast_self, shapeCast_self]
  refine (addf_apply _ _ _).trans ?_
  exact congrArg₂ (· + ·) (mm3_apply _ _ p q) (bias3_apply x2 p q)

/-! ## From blocks to the array -/

variable (V : (c : Dev nD) → (b : Ref sig .tc) → Buf (Elt Ideal) ((c : Thread nD τ).loc b))

theorem offs_zero3 : (![0, 0] : Fin 2 → Nat) = fun _ => 0 := funext fun a => by fin_cases a <;> rfl

/-- The whole output array: the dense layer of the region's whole input arrays. -/
def lin3_whole (c : Dev nD) : S400000x64.Idx → EReal := fun i =>
  Spec.lin (V c main_v3 : S400000x64.Idx → EReal) (V c main_v29 : S64x64.Idx → EReal) (V c main_v32 : S1x64.Idx → EReal) (i 0) (i 1)

/-- The printed index maps, decided over the grid: the row windows' block index is the point, every other is 0. -/
theorem idx_lin3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem pt_lt3 (t : Fin cfg3.N) : t.val < 100 := by have h := t.isLt; have hN : cfg3.N = 100 := N_3; omega

/-- The left window's block at point t is rows 4000 t … of its array. -/
theorem iblk3_0_apply (c : Dev nD) (t : Fin cfg3.N) (p : Fin 4000) (k : Fin 64) :
    (iblk3 V c 0 t : Vec Ideal S4000x64 .f32) (ix2 p k) = (V c main_v3 : S400000x64.Idx → EReal) (ix2 ⟨t.val * 4000 + p.val, by have := pt_lt3 t; have := p.isLt; omega⟩ k) := by
  obtain ⟨e0, e1, -, -, -, -, -, -⟩ := idx_lin3 t
  unfold iblk3
  rw [View.read_apply]
  show V c main_v3 _ = V c main_v3 _
  congr 1
  funext a
  apply Fin.ext
  match a with
  | ⟨0, _⟩ => show win3_0.index t (0 : Fin 2) * 4000 + 1 * p.val = t.val * 4000 + p.val; rw [e0]; omega
  | ⟨1, _⟩ => show win3_0.index t (1 : Fin 2) * 64 + 1 * k.val = k.val; rw [e1]; omega

/-- The weight window's block at every point is its whole array. -/
theorem iblk3_1_apply (c : Dev nD) (t : Fin cfg3.N) (k : Fin 64) (q : Fin 64) :
    (iblk3 V c 1 t : Vec Ideal S64x64 .f32) (ix2 k q) = (V c main_v29 : S64x64.Idx → EReal) (ix2 k q) := by
  obtain ⟨-, -, e2, e3, -, -, -, -⟩ := idx_lin3 t
  unfold iblk3
  rw [View.read_apply]
  show V c main_v29 _ = V c main_v29 _
  congr 1
  funext a
  apply Fin.ext
  match a with
  | ⟨0, _⟩ => show win3_1.index t (0 : Fin 2) * 64 + 1 * k.val = k.val; rw [e2]; omega
  | ⟨1, _⟩ => show win3_1.index t (1 : Fin 2) * 64 + 1 * q.val = q.val; rw [e3]; omega

/-- The bias window's block at every point is its whole row. -/
theorem iblk3_2_apply (c : Dev nD) (t : Fin cfg3.N) (q : Fin 64) :
    (iblk3 V c 2 t : Vec Ideal S1x64 .f32) (ix2 0 q) = (V c main_v32 : S1x64.Idx → EReal) (ix2 0 q) := by
  obtain ⟨-, -, -, -, e4, e5, -, -⟩ := idx_lin3 t
  unfold iblk3
  rw [View.read_apply]
  show V c main_v32 _ = V c main_v32 _
  congr 1
  funext a
  apply Fin.ext
  match a with
  | ⟨0, _⟩ => show win3_2.index t (0 : Fin 2) * 1 + 1 * 0 = 0; rw [e4]
  | ⟨1, _⟩ => show win3_2.index t (1 : Fin 2) * 64 + 1 * q.val = q.val; rw [e5]; omega

/-- What point t writes back is block t of the whole-array dense layer. -/
theorem flushed3_3_eq (c : Dev nD) (t : Fin cfg3.N) :
    (dat3 (F := Ideal) V c).flushed 3 t = ((cfg3.win 3).blk t).view.read (Elt Ideal) (lin3_whole V c) := by
  show (cfg3.win 3).cut (grid3.coords t) ((dat3 V c).after 3 t) = _
  rw [after3_3]
  unfold out3_3
  rw [View.canon_unit_zero offs_zero3]
  simp only [View.ld_unit_zero (S := S4000x64) offs_zero3, View.ld_unit_zero (S := S64x64) offs_zero3, View.ld_unit_zero (S := S1x64) offs_zero3]
  obtain ⟨-, -, -, -, -, -, e6, e7⟩ := idx_lin3 t
  refine funext fun (j : S4000x64.Idx) => ?_
  obtain ⟨p, q, rfl⟩ : ∃ (p : Fin 4000) (q : Fin 64), j = ix2 p q := ⟨j 0, j 1, eq_ix2 j⟩
  show k3_pay1 (iblk3 V c 0 t) (iblk3 V c 1 t) (iblk3 V c 2 t) (ix2 p q) = lin3_whole V c (((cfg3.win 3).blk t).view.emb (ix2 p q))
  rw [pay3_apply, iblk3_2_apply V c t q]
  unfold lin3_whole Spec.lin
  have hr : ((cfg3.win 3).blk t).view.emb (ix2 p q) 0 = (⟨t.val * 4000 + p.val, by have := pt_lt3 t; have := p.isLt; omega⟩ : Fin 400000) :=
    Fin.ext (by show win3_3.index t (0 : Fin 2) * 4000 + 1 * p.val = t.val * 4000 + p.val; rw [e6]; omega)
  have hq : ((cfg3.win 3).blk t).view.emb (ix2 p q) 1 = (q : Fin 64) :=
    Fin.ext (by show win3_3.index t (1 : Fin 2) * 64 + 1 * q.val = q.val; rw [e7]; omega)
  rw [hr, hq]
  exact congrArg (· + _) (Finset.sum_congr rfl fun k _ => congrArg₂ (· * ·) (iblk3_0_apply V c t p k) (iblk3_1_apply V c t k q))

/-- An index of the output array is in point t's block iff each coordinate is in the block's range on its axis. -/
theorem mem_blk3_3 (t : Fin cfg3.N) (i : S400000x64.Idx) :
    i ∈ ((cfg3.win 3).blk t).view.set ↔ ∀ a : Fin 2, win3_3.index t a * S4000x64.size a ≤ (i a).val ∧ (i a).val < win3_3.index t a * S4000x64.size a + S4000x64.size a := by
  show i ∈ ((View.whole main_v33).slice (win3_3.rect t)).set ↔ _
  rw [View.set_slice_whole, Rect.mem_set_unit]
  exact Iff.rfl

/-- Row r of the output is written back by the point r / 4000. -/
theorem cover3_3_rows (i : S400000x64.Idx) : ∃ t : Fin cfg3.N, (cfg3.win 3).flush t = true ∧ i ∈ ((cfg3.win 3).blk t).view.set := by
  have hi0 : (i 0).val < 400000 := (i 0).isLt
  have hi1 : (i 1).val < 64 := (i 1).isLt
  have hN : cfg3.N = 100 := N_3
  refine ⟨⟨(i 0).val / 4000, by rw [hN]; omega⟩, flush3_3 _, ?_⟩
  rw [mem_blk3_3]
  obtain ⟨-, -, -, -, -, -, e6, e7⟩ := idx_lin3 ⟨(i 0).val / 4000, by rw [hN]; omega⟩
  intro a
  match a with
  | ⟨0, _⟩ => show win3_3.index _ (0 : Fin 2) * 4000 ≤ (i 0).val ∧ (i 0).val < win3_3.index _ (0 : Fin 2) * 4000 + 4000; rw [e6]; show (i 0).val / 4000 * 4000 ≤ (i 0).val ∧ (i 0).val < (i 0).val / 4000 * 4000 + 4000; omega
  | ⟨1, _⟩ => show win3_3.index _ (1 : Fin 2) * 64 ≤ (i 1).val ∧ (i 1).val < win3_3.index _ (1 : Fin 2) * 64 + 64; rw [e7]; omega

/-- The output array after the region's last point is the dense layer of the whole input arrays. -/
theorem final3_3 (c : Dev nD) : (dat3 (F := Ideal) V c).arrAt 3 cfg3.N = lin3_whole V c :=
  (dat3 (F := Ideal) V c).arrAt_eq_of_cover 3 (lin3_whole V c) (fun t _ => flushed3_3_eq V c t) (cover3_3_rows)

/-- … read at an entry. -/
theorem final3_3_apply (c : Dev nD) (r : Fin 400000) (j : Fin 64) :
    (dat3 (F := Ideal) V c).arrAt 3 cfg3.N (ValueIdx.ix2 r j)
      = Spec.lin (V c main_v3 : S400000x64.Idx → EReal) (V c main_v29 : S64x64.Idx → EReal) (V c main_v32 : S1x64.Idx → EReal) r j := by
  rw [final3_3]
  rfl

end Cert.KernelIdeal.Hand

end
-- ==== Proof.KI.Host0.lean ====
import proofs.«431450_j74423193305350_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

/-! The two bias reshapes before the embedding layers (host stretches 0 and 1): a vector of 64 entries laid out as one row, read at an entry, from any contents of the buffers. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : Valuation τ sig (Elt Ideal))

/-- After the first stretch, the row buffer at column j holds the node-embedding bias at j. -/
theorem host0_v0 (j : Fin 64) :
    (StableHlo.after (hostOps0 (F := Ideal)) V (Proc.devRef .tc main_v0) : S1x64.Idx → EReal) (ix2 0 j)
      = (V (Proc.devRef .tc main_arg7) : S64.Idx → EReal) (ix1 j) := by
  have e : (StableHlo.after (hostOps0 (F := Ideal)) V (Proc.devRef .tc main_v0) : S1x64.Idx → EReal)
      = shapeCast S1x64 (V (Proc.devRef .tc main_arg7) : S64.Idx → EReal) shapeCasts_S64_S1x64 := by
    after_results; rfl
  rw [e]
  exact shapeCast_a_1a_apply _ _ 0 j

/-- After the second stretch, the row buffer at column j holds the edge-embedding bias at j. -/
theorem host1_v2 (j : Fin 64) :
    (StableHlo.after (hostOps1 (F := Ideal)) V (Proc.devRef .tc main_v2) : S1x64.Idx → EReal) (ix2 0 j)
      = (V (Proc.devRef .tc main_arg9) : S64.Idx → EReal) (ix1 j) := by
  have e : (StableHlo.after (hostOps1 (F := Ideal)) V (Proc.devRef .tc main_v2) : S1x64.Idx → EReal)
      = shapeCast S1x64 (V (Proc.devRef .tc main_arg9) : S64.Idx → EReal) shapeCasts_S64_S1x64 := by
    after_results; rfl
  rw [e]
  exact shapeCast_a_1a_apply _ _ 0 j

end Cert.KernelIdeal.Hand
-- ==== Proof.KI.Host2.lean ====
import proofs.«431450_j74423193305350_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

/-! Host stretch 2: the four square weight matrices of layer row 0 laid side by side as one [64,256] matrix, and their four bias vectors end to end as one [1,256] row, each read at an entry, from any contents of the buffers. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : Valuation τ sig (Elt Ideal))

/-- Row 0 of a stack of three matrices, as a matrix, at an entry. -/
private theorem row0_mat_apply (X : S3x64x64.Idx → EReal) (k j : Fin 64) :
    shapeCast S64x64 (extractStridedSlice S1x64x64 ![0, 0, 0] X slices_S3x64x64_S1x64x64_0_0_0) shapeCasts_S1x64x64_S64x64 (ix2 k j)
      = X (ix3 0 k j) := by
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- Row 0 of a stack of three vectors, as a vector, at an entry. -/
private theorem row0_vec_apply (X : S3x64.Idx → EReal) (j : Fin 64) :
    shapeCast S64 (extractStridedSlice S1x64 ![0, 0] X slices_S3x64_S1x64_0_0) shapeCasts_S1x64_S64 (ix1 j)
      = X (ix2 0 j) := by
  rw [shapeCast_1a_a_apply]
  exact slice2_axis0_apply 0 X slices_S3x64_S1x64_0_0 0 j 0 rfl

/-- Four 64-column blocks side by side, read in block 0. -/
private theorem cat4_0 (x0 x1 x2 x3 : S64x64.Idx → EReal) (k j : Fin 64) (c : Fin 256) (hc : c.val = 0 + j.val) :
    concatenate S64x256 1 [⟨S64x64, x0⟩, ⟨S64x64, x1⟩, ⟨S64x64, x2⟩, ⟨S64x64, x3⟩] concatenates_S64x64_S64x64_S64x64_S64x64_S64x256_d1 (ix2 k c) = x0 (ix2 k j) :=
  concatenate_apply_piece (t := S64x256) (1 : Fin 2) [⟨S64x64, x0⟩, ⟨S64x64, x1⟩, ⟨S64x64, x2⟩, ⟨S64x64, x3⟩] _ (ix2 k c) 0 (by simp) S64x64 x0 rfl rfl 0 rfl (ix2 k j)
    (fun b hb => by
      match b with
      | ⟨0, _⟩ => rfl
      | ⟨1, _⟩ => exact absurd rfl hb)
    (by show 0 + j.val = c.val; omega)

/-- Four 64-column blocks side by side, read in block 1. -/
private theorem cat4_1 (x0 x1 x2 x3 : S64x64.Idx → EReal) (k j : Fin 64) (c : Fin 256) (hc : c.val = 64 + j.val) :
    concatenate S64x256 1 [⟨S64x64, x0⟩, ⟨S64x64, x1⟩, ⟨S64x64, x2⟩, ⟨S64x64, x3⟩] concatenates_S64x64_S64x64_S64x64_S64x64_S64x256_d1 (ix2 k c) = x1 (ix2 k j) :=
  concatenate_apply_piece (t := S64x256) (1 : Fin 2) [⟨S64x64, x0⟩, ⟨S64x64, x1⟩, ⟨S64x64, x2⟩, ⟨S64x64, x3⟩] _ (ix2 k c) 1 (by simp) S64x64 x1 rfl rfl 64 rfl (ix2 k j)
    (fun b hb => by
      match b with
      | ⟨0, _⟩ => rfl
      | ⟨1, _⟩ => exact absurd rfl hb)
    (by show 64 + j.val = c.val; omega)

/-- Four 64-column blocks side by side, read in block 2. -/
private theorem cat4_2 (x0 x1 x2 x3 : S64x64.Idx → EReal) (k j : Fin 64) (c : Fin 256) (hc : c.val = 128 + j.val) :
    concatenate S64x256 1 [⟨S64x64, x0⟩, ⟨S64x64, x1⟩, ⟨S64x64, x2⟩, ⟨S64x64, x3⟩] concatenates_S64x64_S64x64_S64x64_S64x64_S64x256_d1 (ix2 k c) = x2 (ix2 k j) :=
  concatenate_apply_piece (t := S64x256) (1 : Fin 2) [⟨S64x64, x0⟩, ⟨S64x64, x1⟩, ⟨S64x64, x2⟩, ⟨S64x64, x3⟩] _ (ix2 k c) 2 (by simp) S64x64 x2 rfl rfl 128 rfl (ix2 k j)
    (fun b hb => by
      match b with
      | ⟨0, _⟩ => rfl
      | ⟨1, _⟩ => exact absurd rfl hb)
    (by show 128 + j.val = c.val; omega)

/-- Four 64-column blocks side by side, read in block 3. -/
private theorem cat4_3 (x0 x1 x2 x3 : S64x64.Idx → EReal) (k j : Fin 64) (c : Fin 256) (hc : c.val = 192 + j.val) :
    concatenate S64x256 1 [⟨S64x64, x0⟩, ⟨S64x64, x1⟩, ⟨S64x64, x2⟩, ⟨S64x64, x3⟩] concatenates_S64x64_S64x64_S64x64_S64x64_S64x256_d1 (ix2 k c) = x3 (ix2 k j) :=
  concatenate_apply_piece (t := S64x256) (1 : Fin 2) [⟨S64x64, x0⟩, ⟨S64x64, x1⟩, ⟨S64x64, x2⟩, ⟨S64x64, x3⟩] _ (ix2 k c) 3 (by simp) S64x64 x3 rfl rfl 192 rfl (ix2 k j)
    (fun b hb => by
      match b with
      | ⟨0, _⟩ => rfl
      | ⟨1, _⟩ => exact absurd rfl hb)
    (by show 192 + j.val = c.val; omega)

/-- Four 64-entry vectors end to end, read in piece 0. -/
private theorem cat4v_0 (x0 x1 x2 x3 : S64.Idx → EReal) (j : Fin 64) (c : Fin 256) (hc : c.val = 0 + j.val) :
    concatenate S256 0 [⟨S64, x0⟩, ⟨S64, x1⟩, ⟨S64, x2⟩, ⟨S64, x3⟩] concatenates_S64_S64_S64_S64_S256_d0 (ix1 c) = x0 (ix1 j) :=
  concatenate_apply_piece (t := S256) (0 : Fin 1) [⟨S64, x0⟩, ⟨S64, x1⟩, ⟨S64, x2⟩, ⟨S64, x3⟩] _ (ix1 c) 0 (by simp) S64 x0 rfl rfl 0 rfl (ix1 j)
    (fun b hb => by
      match b with
      | ⟨0, _⟩ => exact absurd rfl hb)
    (by show 0 + j.val = c.val; omega)

/-- Four 64-entry vectors end to end, read in piece 1. -/
private theorem cat4v_1 (x0 x1 x2 x3 : S64.Idx → EReal) (j : Fin 64) (c : Fin 256) (hc : c.val = 64 + j.val) :
    concatenate S256 0 [⟨S64, x0⟩, ⟨S64, x1⟩, ⟨S64, x2⟩, ⟨S64, x3⟩] concatenates_S64_S64_S64_S64_S256_d0 (ix1 c) = x1 (ix1 j) :=
  concatenate_apply_piece (t := S256) (0 : Fin 1) [⟨S64, x0⟩, ⟨S64, x1⟩, ⟨S64, x2⟩, ⟨S64, x3⟩] _ (ix1 c) 1 (by simp) S64 x1 rfl rfl 64 rfl (ix1 j)
    (fun b hb => by
      match b with
      | ⟨0, _⟩ => exact absurd rfl hb)
    (by show 64 + j.val = c.val; omega)

/-- Four 64-entry vectors end to end, read in piece 2. -/
private theorem cat4v_2 (x0 x1 x2 x3 : S64.Idx → EReal) (j : Fin 64) (c : Fin 256) (hc : c.val = 128 + j.val) :
    concatenate S256 0 [⟨S64, x0⟩, ⟨S64, x1⟩, ⟨S64, x2⟩, ⟨S64, x3⟩] concatenates_S64_S64_S64_S64_S256_d0 (ix1 c) = x2 (ix1 j) :=
  concatenate_apply_piece (t := S256) (0 : Fin 1) [⟨S64, x0⟩, ⟨S64, x1⟩, ⟨S64, x2⟩, ⟨S64, x3⟩] _ (ix1 c) 2 (by simp) S64 x2 rfl rfl 128 rfl (ix1 j)
    (fun b hb => by
      match b with
      | ⟨0, _⟩ => exact absurd rfl hb)
    (by show 128 + j.val = c.val; omega)

/-- Four 64-entry vectors end to end, read in piece 3. -/
private theorem cat4v_3 (x0 x1 x2 x3 : S64.Idx → EReal) (j : Fin 64) (c : Fin 256) (hc : c.val = 192 + j.val) :
    concatenate S256 0 [⟨S64, x0⟩, ⟨S64, x1⟩, ⟨S64, x2⟩, ⟨S64, x3⟩] concatenates_S64_S64_S64_S64_S256_d0 (ix1 c) = x3 (ix1 j) :=
  concatenate_apply_piece (t := S256) (0 : Fin 1) [⟨S64, x0⟩, ⟨S64, x1⟩, ⟨S64, x2⟩, ⟨S64, x3⟩] _ (ix1 c) 3 (by simp) S64 x3 rfl rfl 192 rfl (ix1 j)
    (fun b hb => by
      match b with
      | ⟨0, _⟩ => exact absurd rfl hb)
    (by show 192 + j.val = c.val; omega)

/-- The weight matrix after the stretch: the four row-0 matrices side by side. -/
theorem host2_v12_eq :
    (StableHlo.after (hostOps2 (F := Ideal)) V (Proc.devRef .tc main_v12) : S64x256.Idx → EReal)
      = concatenate S64x256 1 [⟨S64x64, shapeCast S64x64 (extractStridedSlice S1x64x64 ![0, 0, 0] (V (Proc.devRef .tc main_arg10) : S3x64x64.Idx → EReal) slices_S3x64x64_S1x64x64_0_0_0) shapeCasts_S1x64x64_S64x64⟩, ⟨S64x64, shapeCast S64x64 (extractStridedSlice S1x64x64 ![0, 0, 0] (V (Proc.devRef .tc main_arg12) : S3x64x64.Idx → EReal) slices_S3x64x64_S1x64x64_0_0_0) shapeCasts_S1x64x64_S64x64⟩, ⟨S64x64, shapeCast S64x64 (extractStridedSlice S1x64x64 ![0, 0, 0] (V (Proc.devRef .tc main_arg16) : S3x64x64.Idx → EReal) slices_S3x64x64_S1x64x64_0_0_0) shapeCasts_S1x64x64_S64x64⟩, ⟨S64x64, shapeCast S64x64 (extractStridedSlice S1x64x64 ![0, 0, 0] (V (Proc.devRef .tc main_arg18) : S3x64x64.Idx → EReal) slices_S3x64x64_S1x64x64_0_0_0) shapeCasts_S1x64x64_S64x64⟩] concatenates_S64x64_S64x64_S64x64_S64x64_S64x256_d1 := by
  after_results; rfl

/-- The bias row after the stretch: the four row-0 vectors end to end, as one row. -/
theorem host2_v22_eq :
    (StableHlo.after (hostOps2 (F := Ideal)) V (Proc.devRef .tc main_v22) : S1x256.Idx → EReal)
      = shapeCast S1x256 (concatenate S256 0 [⟨S64, shapeCast S64 (extractStridedSlice S1x64 ![0, 0] (V (Proc.devRef .tc main_arg11) : S3x64.Idx → EReal) slices_S3x64_S1x64_0_0) shapeCasts_S1x64_S64⟩, ⟨S64, shapeCast S64 (extractStridedSlice S1x64 ![0, 0] (V (Proc.devRef .tc main_arg13) : S3x64.Idx → EReal) slices_S3x64_S1x64_0_0) shapeCasts_S1x64_S64⟩, ⟨S64, shapeCast S64 (extractStridedSlice S1x64 ![0, 0] (V (Proc.devRef .tc main_arg17) : S3x64.Idx → EReal) slices_S3x64_S1x64_0_0) shapeCasts_S1x64_S64⟩, ⟨S64, shapeCast S64 (extractStridedSlice S1x64 ![0, 0] (V (Proc.devRef .tc main_arg19) : S3x64.Idx → EReal) slices_S3x64_S1x64_0_0) shapeCasts_S1x64_S64⟩] concatenates_S64_S64_S64_S64_S256_d0) shapeCasts_S256_S1x256 := by
  after_results; rfl

/-- Column block 0 of the weight matrix is the A weights of layer row 0. -/
theorem host2_v12_A (k j : Fin 64) (c : Fin 256) (hc : c.val = 0 + j.val) :
    (StableHlo.after (hostOps2 (F := Ideal)) V (Proc.devRef .tc main_v12) : S64x256.Idx → EReal) (ix2 k c)
      = (V (Proc.devRef .tc main_arg10) : S3x64x64.Idx → EReal) (ix3 0 k j) := by
  rw [host2_v12_eq, cat4_0 _ _ _ _ k j c hc, row0_mat_apply]

/-- Column block 0 of the bias row is the A bias of layer row 0. -/
theorem host2_v22_A (j : Fin 64) (c : Fin 256) (hc : c.val = 0 + j.val) :
    (StableHlo.after (hostOps2 (F := Ideal)) V (Proc.devRef .tc main_v22) : S1x256.Idx → EReal) (ix2 0 c)
      = (V (Proc.devRef .tc main_arg11) : S3x64.Idx → EReal) (ix2 0 j) := by
  rw [host2_v22_eq, shapeCast_a_1a_apply, cat4v_0 _ _ _ _ j c hc, row0_vec_apply]

/-- Column block 1 of the weight matrix is the B weights of layer row 0. -/
theorem host2_v12_B (k j : Fin 64) (c : Fin 256) (hc : c.val = 64 + j.val) :
    (StableHlo.after (hostOps2 (F := Ideal)) V (Proc.devRef .tc main_v12) : S64x256.Idx → EReal) (ix2 k c)
      = (V (Proc.devRef .tc main_arg12) : S3x64x64.Idx → EReal) (ix3 0 k j) := by
  rw [host2_v12_eq, cat4_1 _ _ _ _ k j c hc, row0_mat_apply]

/-- Column block 1 of the bias row is the B bias of layer row 0. -/
theorem host2_v22_B (j : Fin 64) (c : Fin 256) (hc : c.val = 64 + j.val) :
    (StableHlo.after (hostOps2 (F := Ideal)) V (Proc.devRef .tc main_v22) : S1x256.Idx → EReal) (ix2 0 c)
      = (V (Proc.devRef .tc main_arg13) : S3x64.Idx → EReal) (ix2 0 j) := by
  rw [host2_v22_eq, shapeCast_a_1a_apply, cat4v_1 _ _ _ _ j c hc, row0_vec_apply]

/-- Column block 2 of the weight matrix is the D weights of layer row 0. -/
theorem host2_v12_D (k j : Fin 64) (c : Fin 256) (hc : c.val = 128 + j.val) :
    (StableHlo.after (hostOps2 (F := Ideal)) V (Proc.devRef .tc main_v12) : S64x256.Idx → EReal) (ix2 k c)
      = (V (Proc.devRef .tc main_arg16) : S3x64x64.Idx → EReal) (ix3 0 k j) := by
  rw [host2_v12_eq, cat4_2 _ _ _ _ k j c hc, row0_mat_apply]

/-- Column block 2 of the bias row is the D bias of layer row 0. -/
theorem host2_v22_D (j : Fin 64) (c : Fin 256) (hc : c.val = 128 + j.val) :
    (StableHlo.after (hostOps2 (F := Ideal)) V (Proc.devRef .tc main_v22) : S1x256.Idx → EReal) (ix2 0 c)
      = (V (Proc.devRef .tc main_arg17) : S3x64.Idx → EReal) (ix2 0 j) := by
  rw [host2_v22_eq, shapeCast_a_1a_apply, cat4v_2 _ _ _ _ j c hc, row0_vec_apply]

/-- Column block 3 of the weight matrix is the E weights of layer row 0. -/
theorem host2_v12_E (k j : Fin 64) (c : Fin 256) (hc : c.val = 192 + j.val) :
    (StableHlo.after (hostOps2 (F := Ideal)) V (Proc.devRef .tc main_v12) : S64x256.Idx → EReal) (ix2 k c)
      = (V (Proc.devRef .tc main_arg18) : S3x64x64.Idx → EReal) (ix3 0 k j) := by
  rw [host2_v12_eq, cat4_3 _ _ _ _ k j c hc, row0_mat_apply]

/-- Column block 3 of the bias row is the E bias of layer row 0. -/
theorem host2_v22_E (j : Fin 64) (c : Fin 256) (hc : c.val = 192 + j.val) :
    (StableHlo.after (hostOps2 (F := Ideal)) V (Proc.devRef .tc main_v22) : S1x256.Idx → EReal) (ix2 0 c)
      = (V (Proc.devRef .tc main_arg19) : S3x64.Idx → EReal) (ix2 0 j) := by
  rw [host2_v22_eq, shapeCast_a_1a_apply, cat4v_3 _ _ _ _ j c hc, row0_vec_apply]

end Cert.KernelIdeal.Hand
-- ==== Proof.KI.Host3.lean ====
import proofs.«431450_j74423193305350_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

/-! Host stretch 3: the four 64-column blocks of the [50000,256] product main_v23, and the C weights and C bias of layer row 0, each read at an entry, from any contents of the buffers. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : Valuation τ sig (Elt Ideal))

/-- Row 0 of a stack of three matrices, as a matrix, at an entry. -/
private theorem row0_mat_apply (X : S3x64x64.Idx → EReal) (k j : Fin 64) :
    shapeCast S64x64 (extractStridedSlice S1x64x64 ![0, 0, 0] X slices_S3x64x64_S1x64x64_0_0_0) shapeCasts_S1x64x64_S64x64 (ix2 k j)
      = X (ix3 0 k j) := by
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- Row 0 of a stack of three vectors, as a vector, at an entry. -/
private theorem row0_vec_apply (X : S3x64.Idx → EReal) (j : Fin 64) :
    shapeCast S64 (extractStridedSlice S1x64 ![0, 0] X slices_S3x64_S1x64_0_0) shapeCasts_S1x64_S64 (ix1 j)
      = X (ix2 0 j) := by
  rw [shapeCast_1a_a_apply]
  exact slice2_axis0_apply 0 X slices_S3x64_S1x64_0_0 0 j 0 rfl

/-- Columns 0 … 0+63 of the [50000,256] array: entry (r, j) is the source's entry (r, 0 + j). -/
theorem host3_v24 (r : Fin 50000) (j : Fin 64) (c : Fin 256) (hc : c.val = 0 + j.val) :
    (StableHlo.after (hostOps3 (F := Ideal)) V (Proc.devRef .tc main_v24) : S50000x64.Idx → EReal) (ix2 r j)
      = (V (Proc.devRef .tc main_v23) : S50000x256.Idx → EReal) (ix2 r c) := by
  have e : (StableHlo.after (hostOps3 (F := Ideal)) V (Proc.devRef .tc main_v24) : S50000x64.Idx → EReal)
      = extractStridedSlice S50000x64 ![0, 0] (V (Proc.devRef .tc main_v23) : S50000x256.Idx → EReal) slices_S50000x256_S50000x64_0_0 := by
    after_results
  rw [e]
  exact slice2_axis1_apply 0 _ _ r j c hc

/-- Columns 64 … 64+63 of the [50000,256] array: entry (r, j) is the source's entry (r, 64 + j). -/
theorem host3_v25 (r : Fin 50000) (j : Fin 64) (c : Fin 256) (hc : c.val = 64 + j.val) :
    (StableHlo.after (hostOps3 (F := Ideal)) V (Proc.devRef .tc main_v25) : S50000x64.Idx → EReal) (ix2 r j)
      = (V (Proc.devRef .tc main_v23) : S50000x256.Idx → EReal) (ix2 r c) := by
  have e : (StableHlo.after (hostOps3 (F := Ideal)) V (Proc.devRef .tc main_v25) : S50000x64.Idx → EReal)
      = extractStridedSlice S50000x64 ![0, 64] (V (Proc.devRef .tc main_v23) : S50000x256.Idx → EReal) slices_S50000x256_S50000x64_0_64 := by
    after_results
  rw [e]
  exact slice2_axis1_apply 64 _ _ r j c hc

/-- Columns 128 … 128+63 of the [50000,256] array: entry (r, j) is the source's entry (r, 128 + j). -/
theorem host3_v26 (r : Fin 50000) (j : Fin 64) (c : Fin 256) (hc : c.val = 128 + j.val) :
    (StableHlo.after (hostOps3 (F := Ideal)) V (Proc.devRef .tc main_v26) : S50000x64.Idx → EReal) (ix2 r j)
      = (V (Proc.devRef .tc main_v23) : S50000x256.Idx → EReal) (ix2 r c) := by
  have e : (StableHlo.after (hostOps3 (F := Ideal)) V (Proc.devRef .tc main_v26) : S50000x64.Idx → EReal)
      = extractStridedSlice S50000x64 ![0, 128] (V (Proc.devRef .tc main_v23) : S50000x256.Idx → EReal) slices_S50000x256_S50000x64_0_128 := by
    after_results
  rw [e]
  exact slice2_axis1_apply 128 _ _ r j c hc

/-- Columns 192 … 192+63 of the [50000,256] array: entry (r, j) is the source's entry (r, 192 + j). -/
theorem host3_v27 (r : Fin 50000) (j : Fin 64) (c : Fin 256) (hc : c.val = 192 + j.val) :
    (StableHlo.after (hostOps3 (F := Ideal)) V (Proc.devRef .tc main_v27) : S50000x64.Idx → EReal) (ix2 r j)
      = (V (Proc.devRef .tc main_v23) : S50000x256.Idx → EReal) (ix2 r c) := by
  have e : (StableHlo.after (hostOps3 (F := Ideal)) V (Proc.devRef .tc main_v27) : S50000x64.Idx → EReal)
      = extractStridedSlice S50000x64 ![0, 192] (V (Proc.devRef .tc main_v23) : S50000x256.Idx → EReal) slices_S50000x256_S50000x64_0_192 := by
    after_results
  rw [e]
  exact slice2_axis1_apply 192 _ _ r j c hc

/-- The C weights of layer row 0, as a matrix. -/
theorem host3_v29 (k j : Fin 64) :
    (StableHlo.after (hostOps3 (F := Ideal)) V (Proc.devRef .tc main_v29) : S64x64.Idx → EReal) (ix2 k j)
      = (V (Proc.devRef .tc main_arg14) : S3x64x64.Idx → EReal) (ix3 0 k j) := by
  have e : (StableHlo.after (hostOps3 (F := Ideal)) V (Proc.devRef .tc main_v29) : S64x64.Idx → EReal)
      = shapeCast S64x64 (extractStridedSlice S1x64x64 ![0, 0, 0] (V (Proc.devRef .tc main_arg14) : S3x64x64.Idx → EReal) slices_S3x64x64_S1x64x64_0_0_0) shapeCasts_S1x64x64_S64x64 := by
    after_results; rfl
  rw [e, row0_mat_apply]

/-- The C bias of layer row 0, as one row. -/
theorem host3_v32 (j : Fin 64) :
    (StableHlo.after (hostOps3 (F := Ideal)) V (Proc.devRef .tc main_v32) : S1x64.Idx → EReal) (ix2 0 j)
      = (V (Proc.devRef .tc main_arg15) : S3x64.Idx → EReal) (ix2 0 j) := by
  have e : (StableHlo.after (hostOps3 (F := Ideal)) V (Proc.devRef .tc main_v32) : S1x64.Idx → EReal)
      = shapeCast S1x64 (shapeCast S64 (extractStridedSlice S1x64 ![0, 0] (V (Proc.devRef .tc main_arg15) : S3x64.Idx → EReal) slices_S3x64_S1x64_0_0) shapeCasts_S1x64_S64) shapeCasts_S64_S1x64 := by
    after_results; rfl
  rw [e, shapeCast_a_1a_apply, row0_vec_apply]

end Cert.KernelIdeal.Hand
-- ==== Proof.Ref.Fold.lean ====
import proofs.«431450_j74423193305350_1_alg».proof.Proof.Ref.Run

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The references each stage writes -/

/-- The references layer 1 writes, in order. -/
abbrev opsL1_W : List (Ref sig .tc) := opsL1a_W ++ opsL1b_W ++ opsL1c_W
/-- The references layer 2 writes, in order. -/
abbrev opsL2_W : List (Ref sig .tc) := opsL2a_W ++ opsL2b_W ++ opsL2c_W ++ opsL2d_W
/-- The references layer 3 writes, in order. -/
abbrev opsL3_W : List (Ref sig .tc) := opsL3a_W ++ opsL3b_W ++ opsL3c_W
/-- The references the readout and the MLP write, in order. -/
abbrev opsOut_W : List (Ref sig .tc) := opsOuta_W ++ opsOutb_W

theorem opsEmb_keeps {r : Ref sig .tc} (h : r ∉ opsEmb_W) : Keeps (opsEmb (F := F)) r := keeps_of_wr opsEmb_wr h

theorem opsL1_keeps {r : Ref sig .tc} (h : r ∉ opsL1_W) : Keeps (opsL1 (F := F)) r := by
  simp only [opsL1_W, List.mem_append, not_or] at h
  obtain ⟨⟨ha, hb⟩, hc⟩ := h
  exact ((keeps_of_wr opsL1a_wr ha).app (keeps_of_wr opsL1b_wr hb)).app (keeps_of_wr opsL1c_wr hc)

theorem opsL2_keeps {r : Ref sig .tc} (h : r ∉ opsL2_W) : Keeps (opsL2 (F := F)) r := by
  simp only [opsL2_W, List.mem_append, not_or] at h
  obtain ⟨⟨⟨ha, hb⟩, hc⟩, hd⟩ := h
  exact (((keeps_of_wr opsL2a_wr ha).app (keeps_of_wr opsL2b_wr hb)).app (keeps_of_wr opsL2c_wr hc)).app
    (keeps_of_wr opsL2d_wr hd)

theorem opsL3_keeps {r : Ref sig .tc} (h : r ∉ opsL3_W) : Keeps (opsL3 (F := F)) r := by
  simp only [opsL3_W, List.mem_append, not_or] at h
  obtain ⟨⟨ha, hb⟩, hc⟩ := h
  exact ((keeps_of_wr opsL3a_wr ha).app (keeps_of_wr opsL3b_wr hb)).app (keeps_of_wr opsL3c_wr hc)

theorem opsOut_keeps {r : Ref sig .tc} (h : r ∉ opsOut_W) : Keeps (opsOut (F := F)) r := by
  simp only [opsOut_W, List.mem_append, not_or] at h
  obtain ⟨ha, hb⟩ := h
  exact (keeps_of_wr opsOuta_wr ha).app (keeps_of_wr opsOutb_wr hb)

/-! ## The contents at the stage boundaries -/

/-- The device's buffers at launch. -/
def RW0 (m : (ℓ : Loc nD τ sig) → Buf (Elt F) ℓ) (c : Dev nD) : Valuation τ sig (Elt F) := fun b => m (c, b)
/-- After the two embeddings. -/
def RW1 (m : (ℓ : Loc nD τ sig) → Buf (Elt F) ℓ) (c : Dev nD) : Valuation τ sig (Elt F) := after opsEmb (RW0 m c)
/-- After layer 1. -/
def RW2 (m : (ℓ : Loc nD τ sig) → Buf (Elt F) ℓ) (c : Dev nD) : Valuation τ sig (Elt F) := after opsL1 (RW1 m c)
/-- After layer 2. -/
def RW3 (m : (ℓ : Loc nD τ sig) → Buf (Elt F) ℓ) (c : Dev nD) : Valuation τ sig (Elt F) := after opsL2 (RW2 m c)
/-- After layer 3. -/
def RW4 (m : (ℓ : Loc nD τ sig) → Buf (Elt F) ℓ) (c : Dev nD) : Valuation τ sig (Elt F) := after opsL3 (RW3 m c)
/-- After the readout and the MLP: the end of @main. -/
def RW5 (m : (ℓ : Loc nD τ sig) → Buf (Elt F) ℓ) (c : Dev nD) : Valuation τ sig (Elt F) := after opsOut (RW4 m c)

/-- The fold over @main's whole line is the last boundary's contents. -/
theorem after_ops_eq (m : (ℓ : Loc nD τ sig) → Buf (Elt F) ℓ) (c : Dev nD) :
    after ops (fun b => m (c, b)) = RW5 m c :=
  after_ops _

variable (m : (ℓ : Loc nD τ sig) → Buf (Elt F) ℓ) (c : Dev nD)

/-- A reference a stage does not write holds after it what it held before it. -/
theorem RW1_of (r : Ref sig .tc) (h : r ∉ opsEmb_W) : RW1 m c (Proc.devRef .tc r) = RW0 m c (Proc.devRef .tc r) :=
  opsEmb_keeps h _
theorem RW2_of (r : Ref sig .tc) (h : r ∉ opsL1_W) : RW2 m c (Proc.devRef .tc r) = RW1 m c (Proc.devRef .tc r) :=
  opsL1_keeps h _
theorem RW3_of (r : Ref sig .tc) (h : r ∉ opsL2_W) : RW3 m c (Proc.devRef .tc r) = RW2 m c (Proc.devRef .tc r) :=
  opsL2_keeps h _
theorem RW4_of (r : Ref sig .tc) (h : r ∉ opsL3_W) : RW4 m c (Proc.devRef .tc r) = RW3 m c (Proc.devRef .tc r) :=
  opsL3_keeps h _
theorem RW5_of (r : Ref sig .tc) (h : r ∉ opsOut_W) : RW5 m c (Proc.devRef .tc r) = RW4 m c (Proc.devRef .tc r) :=
  opsOut_keeps h _

end Cert.ReferenceIdeal.Hand

end
-- ==== Proof.Ref.RdLib.lean ====
import Idealize.ShloMosaic.Lib.StableHlo.Run
import Mathlib.Data.List.Forall2

noncomputable section

/-! Reading one buffer out of the fold over a straight line of operations each of which writes one buffer:
    the buffer operation k writes holds, after the line, operation k's result over the contents before it;
    and what a buffer held before operation k is what it holds after the line (when no later operation writes
    it) or what it held at the start (when no earlier one does). Generic in the signature. -/

namespace Cert.ReferenceIdeal.Hand.Rd

open Idealize.ShloMosaic Idealize.SL.Sem Idealize.ShloMosaic.StableHlo

variable {τ : Topo} {sig : RefSig} {Val : EltTy → Type}

/-- The operation writes the one buffer of the reference. -/
def Writes1 (op : HloOp τ sig Val) (y : Ref sig .tc) : Prop := op.writes = {Proc.devRef .tc y}

/-- The fold over two lines, one after the other: the second's over the first's. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A line keeps the buffer of a reference none of its operations writes. -/
theorem keep {l : List (HloOp τ sig Val)} {W : List (Ref sig .tc)} (h : List.Forall₂ Writes1 l W)
    {r : Ref sig .tc} (hr : r ∉ W) (V : Valuation τ sig Val) :
    after l V (Proc.devRef .tc r) = V (Proc.devRef .tc r) := by
  induction h generalizing V with
  | nil => rfl
  | @cons op y l W hop _ ih =>
    rw [after_cons, ih (fun hm => hr (List.mem_cons_of_mem _ hm)), op.result_of_not_mem V]
    rw [show op.writes = {Proc.devRef .tc y} from hop, Finset.mem_singleton]
    exact devRef_ne_of_ne fun e => hr (e ▸ List.mem_cons_self)

/-- Before operation k, a buffer no earlier operation writes holds what it held at the start. -/
theorem tk_keep {l : List (HloOp τ sig Val)} {W : List (Ref sig .tc)} (h : List.Forall₂ Writes1 l W) (k : Nat)
    {a : Ref sig .tc} (ha : a ∉ W.take k) (V : Valuation τ sig Val) :
    after (l.take k) V (Proc.devRef .tc a) = V (Proc.devRef .tc a) :=
  keep (List.forall₂_take k h) ha V

/-- Before operation k, a buffer that operation k and the later ones do not write holds what it holds after the line. -/
theorem tk_eq {l : List (HloOp τ sig Val)} {W : List (Ref sig .tc)} (h : List.Forall₂ Writes1 l W) (k : Nat)
    {a : Ref sig .tc} (ha : a ∉ W.drop k) (V : Valuation τ sig Val) :
    after (l.take k) V (Proc.devRef .tc a) = after l V (Proc.devRef .tc a) := by
  conv_rhs => rw [← List.take_append_drop k l, after_app]
  exact (keep (List.forall₂_drop k h) ha _).symm

/-- After the line, the buffer operation k writes (and no later one) holds operation k's result over the contents before it. -/
theorem at_eq {l : List (HloOp τ sig Val)} {W : List (Ref sig .tc)} (h : List.Forall₂ Writes1 l W) (k : Nat)
    (hk : k < W.length) {y : Ref sig .tc} (hy : y ∉ W.drop (k + 1)) (V : Valuation τ sig Val) :
    after l V (Proc.devRef .tc y)
      = (l[k]'(lt_of_lt_of_eq hk h.length_eq.symm)).result (after (l.take k) V) (Proc.devRef .tc y) := by
  conv_lhs => rw [← List.take_append_drop k l, after_app,
    List.drop_eq_getElem_cons (lt_of_lt_of_eq hk h.length_eq.symm), after_cons]
  exact keep (List.forall₂_drop (k + 1) h) hy _

/-- Two lines one after the other write, operation by operation, the references of the two lists one after the other. -/
theorem w1_app {l₁ l₂ : List (HloOp τ sig Val)} {W₁ W₂ : List (Ref sig .tc)} (h₁ : List.Forall₂ Writes1 l₁ W₁)
    (h₂ : List.Forall₂ Writes1 l₂ W₂) : List.Forall₂ Writes1 (l₁ ++ l₂) (W₁ ++ W₂) :=
  List.rel_append h₁ h₂

end Cert.ReferenceIdeal.Hand.Rd

end
-- ==== Proof.Ref.RdEmb.lean ====
import proofs.«431450_j74423193305350_1_alg».proof.Proof.Ref.Fold
import proofs.«431450_j74423193305350_1_alg».proof.Proof.Ref.RdLib

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operation k of opsEmb writes the one buffer of reference k of opsEmb_W. -/
theorem opsEmb_w1 : List.Forall₂ Rd.Writes1 (opsEmb : List (HloOp τ sig (Elt F))) opsEmb_W :=
  .cons rfl (.cons rfl (.cons rfl (.cons rfl (.cons rfl (.cons rfl (.cons rfl (.cons rfl (.cons rfl (.cons rfl (.cons rfl (.nil)))))))))))

theorem rd_main_cst (V : Valuation τ sig (Elt F)) :
    after opsEmb V (Proc.devRef .tc main_cst) = (constant S_ .f32 0x3F800000#32) := by
  rw [Rd.at_eq opsEmb_w1 0 (by decide) (y := main_cst) (by decide) V]
  generalize after (List.take 0 opsEmb) V = W
  exact nullary_result main_cst (constant S_ .f32 0x3F800000#32) ⟨by decide, rfl⟩ W

theorem rd_main_v0 (V : Valuation τ sig (Elt F)) :
    after opsEmb V (Proc.devRef .tc main_v0) = (broadcastInDim S400000x2 ![] bcast_S_S400000x2 : (⟨S_, .f32⟩ : BufTy).Contents (Elt F) → (⟨S400000x2, .f32⟩ : BufTy).Contents (Elt F)) (after opsEmb V (Proc.devRef .tc main_cst)) := by
  rw [← Rd.tk_eq opsEmb_w1 1 (a := main_cst) (by decide) V,
    Rd.at_eq opsEmb_w1 1 (by decide) (y := main_v0) (by decide) V]
  generalize after (List.take 1 opsEmb) V = W
  exact unary_result main_cst main_v0 (broadcastInDim S400000x2 ![] bcast_S_S400000x2 : (⟨S_, .f32⟩ : BufTy).Contents (Elt F) → (⟨S400000x2, .f32⟩ : BufTy).Contents (Elt F)) ⟨by decide, rfl⟩ ⟨by decide, rfl⟩ W

theorem rd_main_v1 (V : Valuation τ sig (Elt F)) :
    after opsEmb V (Proc.devRef .tc main_v1) = (Host.divf : (⟨S400000x2, .f32⟩ : BufTy).Contents (Elt F) → (⟨S400000x2, .f32⟩ : BufTy).Contents (Elt F) → (⟨S400000x2, .f32⟩ : BufTy).Contents (Elt F)) (after opsEmb V (Proc.devRef .tc main_v0)) (V (Proc.devRef .tc main_arg2)) := by
  rw [← Rd.tk_eq opsEmb_w1 2 (a := main_v0) (by decide) V,
    ← Rd.tk_keep opsEmb_w1 2 (a := main_arg2) (by decide) V,
    Rd.at_eq opsEmb_w1 2 (by decide) (y := main_v1) (by decide) V]
  generalize after (List.take 2 opsEmb) V = W
  exact binary_result main_v0 main_arg2 main_v1 (Host.divf : (⟨S400000x2, .f32⟩ : BufTy).Contents (Elt F) → (⟨S400000x2, .f32⟩ : BufTy).Contents (Elt F) → (⟨S400000x2, .f32⟩ : BufTy).Contents (Elt F)) ⟨by decide, rfl⟩ ⟨by decide, rfl⟩ ⟨by decide, rfl⟩ W

theorem rd_main_v2 (V : Valuation τ sig (Elt F)) :
    after opsEmb V (Proc.devRef .tc main_v2) = ((fun l r => Host.dotGeneral dot_S50000x6_S6x64_S50000x64_1_0_0_1_n_n none l r) : (⟨S50000x6, .f32⟩ : BufTy).Contents (Elt F) → (⟨S6x64, .f32⟩ : BufTy).Contents (Elt F) → (⟨S50000x64, .f32⟩ : BufTy).Contents (Elt F)) (V (Proc.devRef .tc main_arg1)) (V (Proc.devRef .tc main_arg6)) := by
  rw [← Rd.tk_keep opsEmb_w1 3 (a := main_arg1) (by decide) V,
    ← Rd.tk_keep opsEmb_w1 3 (a := main_arg6) (by decide) V,
    Rd.at_eq opsEmb_w1 3 (by decide) (y := main_v2) (by decide) V]
  generalize after (List.take 3 opsEmb) V = W
  exact binary_result main_arg1 main_arg6 main_v2 ((fun l r => Host.dotGeneral dot_S50000x6_S6x64_S50000x64_1_0_0_1_n_n none l r) : (⟨S50000x6, .f32⟩ : BufTy).Contents (Elt F) → (⟨S6x64, .f32⟩ : BufTy).Contents (Elt F) → (⟨S50000x64, .f32⟩ : BufTy).Contents (Elt F)) ⟨by decide, rfl⟩ ⟨by decide, rfl⟩ ⟨by decide, rfl⟩ W

theorem rd_main_v3 (V : Valuation τ sig (Elt F)) :
    after opsEmb V (Proc.devRef .tc main_v3) = (broadcastInDim S1x64 ![1] bcast_S64_S1x64_1 : (⟨S64, .f32⟩ : BufTy).Contents (Elt F) → (⟨S1x64, .f32⟩ : BufTy).Contents (Elt F)) (V (Proc.devRef .tc main_arg7)) := by
  rw [← Rd.tk_keep opsEmb_w1 4 (a := main_arg7) (by decide) V,
    Rd.at_eq opsEmb_w1 4 (by decide) (y := main_v3) (by decide) V]
  generalize after (List.take 4 opsEmb) V = W
  exact unary_result main_arg7 main_v3 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v4 (V : Valuation τ sig (Elt F)) :
    after opsEmb V (Proc.devRef .tc main_v4) = (broadcastInDim S50000x64 ![0, 1] bcast_S1x64_S50000x64_0_1 : (⟨S1x64, .f32⟩ : BufTy).Contents (Elt F) → (⟨S50000x64, .f32⟩ : BufTy).Contents (Elt F)) (after opsEmb V (Proc.devRef .tc main_v3)) := by
  rw [← Rd.tk_eq opsEmb_w1 5 (a := main_v3) (by decide) V,
    Rd.at_eq opsEmb_w1 5 (by decide) (y := main_v4) (by decide) V]
  generalize after (List.take 5 opsEmb) V = W
  exact unary_result main_v3 main_v4 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v5 (V : Valuation τ sig (Elt F)) :
    after opsEmb V (Proc.devRef .tc main_v5) = (addf : (⟨S50000x64, .f32⟩ : BufTy).Contents (Elt F) → (⟨S50000x64, .f32⟩ : BufTy).Contents (Elt F) → (⟨S50000x64, .f32⟩ : BufTy).Contents (Elt F)) (after opsEmb V (Proc.devRef .tc main_v2)) (after opsEmb V (Proc.devRef .tc main_v4)) := by
  rw [← Rd.tk_eq opsEmb_w1 6 (a := main_v2) (by decide) V,
    ← Rd.tk_eq opsEmb_w1 6 (a := main_v4) (by decide) V,
    Rd.at_eq opsEmb_w1 6 (by decide) (y := main_v5) (by decide) V]
  generalize after (List.take 6 opsEmb) V = W
  exact binary_result main_v2 main_v4 main_v5 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v6 (V : Valuation τ sig (Elt F)) :
    after opsEmb V (Proc.devRef .tc main_v6) = ((fun l r => Host.dotGeneral dot_S400000x2_S2x64_S400000x64_1_0_0_1_n_n none l r) : (⟨S400000x2, .f32⟩ : BufTy).Contents (Elt F) → (⟨S2x64, .f32⟩ : BufTy).Contents (Elt F) → (⟨S400000x64, .f32⟩ : BufTy).Contents (Elt F)) (after opsEmb V (Proc.devRef .tc main_v1)) (V (Proc.devRef .tc main_arg8)) := by
  rw [← Rd.tk_eq opsEmb_w1 7 (a := main_v1) (by decide) V,
    ← Rd.tk_keep opsEmb_w1 7 (a := main_arg8) (by decide) V,
    Rd.at_eq opsEmb_w1 7 (by decide) (y := main_v6) (by decide) V]
  generalize after (List.take 7 opsEmb) V = W
  exact binary_result main_v1 main_arg8 main_v6 ((fun l r => Host.dotGeneral dot_S400000x2_S2x64_S400000x64_1_0_0_1_n_n none l r) : (⟨S400000x2, .f32⟩ : BufTy).Contents (Elt F) → (⟨S2x64, .f32⟩ : BufTy).Contents (Elt F) → (⟨S400000x64, .f32⟩ : BufTy).Contents (Elt F)) ⟨by decide, rfl⟩ ⟨by decide, rfl⟩ ⟨by decide, rfl⟩ W

theorem rd_main_v7 (V : Valuation τ sig (Elt F)) :
    after opsEmb V (Proc.devRef .tc main_v7) = (broadcastInDim S1x64 ![1] bcast_S64_S1x64_1 : (⟨S64, .f32⟩ : BufTy).Contents (Elt F) → (⟨S1x64, .f32⟩ : BufTy).Contents (Elt F)) (V (Proc.devRef .tc main_arg9)) := by
  rw [← Rd.tk_keep opsEmb_w1 8 (a := main_arg9) (by decide) V,
    Rd.at_eq opsEmb_w1 8 (by decide) (y := main_v7) (by decide) V]
  generalize after (List.take 8 opsEmb) V = W
  exact unary_result main_arg9 main_v7 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v8 (V : Valuation τ sig (Elt F)) :
    after opsEmb V (Proc.devRef .tc main_v8) = (broadcastInDim S400000x64 ![0, 1] bcast_S1x64_S400000x64_0_1 : (⟨S1x64, .f32⟩ : BufTy).Contents (Elt F) → (⟨S400000x64, .f32⟩ : BufTy).Contents (Elt F)) (after opsEmb V (Proc.devRef .tc main_v7)) := by
  rw [← Rd.tk_eq opsEmb_w1 9 (a := main_v7) (by decide) V,
    Rd.at_eq opsEmb_w1 9 (by decide) (y := main_v8) (by decide) V]
  generalize after (List.take 9 opsEmb) V = W
  exact unary_result main_v7 main_v8 (broadcastInDim S400000x64 ![0, 1] bcast_S1x64_S400000x64_0_1 : (⟨S1x64, .f32⟩ : BufTy).Contents (Elt F) → (⟨S400000x64, .f32⟩ : BufTy).Contents (Elt F)) ⟨by decide, rfl⟩ ⟨by decide, rfl⟩ W

theorem rd_main_v9 (V : Valuation τ sig (Elt F)) :
    after opsEmb V (Proc.devRef .tc main_v9) = (addf : (⟨S400000x64, .f32⟩ : BufTy).Contents (Elt F) → (⟨S400000x64, .f32⟩ : BufTy).Contents (Elt F) → (⟨S400000x64, .f32⟩ : BufTy).Contents (Elt F)) (after opsEmb V (Proc.devRef .tc main_v6)) (after opsEmb V (Proc.devRef .tc main_v8)) := by
  rw [← Rd.tk_eq opsEmb_w1 10 (a := main_v6) (by decide) V,
    ← Rd.tk_eq opsEmb_w1 10 (a := main_v8) (by decide) V,
    Rd.at_eq opsEmb_w1 10 (by decide) (y := main_v9) (by decide) V]
  generalize after (List.take 10 opsEmb) V = W
  exact binary_result main_v6 main_v8 main_v9 (addf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

end Cert.ReferenceIdeal.Hand

end
-- ==== Proof.Ref.RdL1.lean ====
import proofs.«431450_j74423193305350_1_alg».proof.Proof.Ref.Fold
import proofs.«431450_j74423193305350_1_alg».proof.Proof.Ref.RdLib

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operation k of opsL1a writes the one buffer of reference k of opsL1a_W. -/
theorem opsL1a_w1 : List.Forall₂ Rd.Writes1 (opsL1a : List (HloOp τ sig (Elt F))) opsL1a_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))

/-- Operation k of opsL1b writes the one buffer of reference k of opsL1b_W. -/
theorem opsL1b_w1 : List.Forall₂ Rd.Writes1 (opsL1b : List (HloOp τ sig (Elt F))) opsL1b_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))

/-- Operation k of opsL1c writes the one buffer of reference k of opsL1c_W. -/
theorem opsL1c_w1 : List.Forall₂ Rd.Writes1 (opsL1c : List (HloOp τ sig (Elt F))) opsL1c_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))

/-- Operation k of opsL1 writes the one buffer of reference k of opsL1_W. -/
theorem opsL1_w1 : List.Forall₂ Rd.Writes1 (opsL1 : List (HloOp τ sig (Elt F))) opsL1_W :=
  Rd.w1_app (Rd.w1_app (opsL1a_w1) opsL1b_w1) opsL1c_w1

theorem rd_main_v10 (V : Valuation τ sig (Elt F)) :
    after opsL1 V (Proc.devRef .tc main_v10) = ((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg10)) := by
  rw [← Rd.tk_keep opsL1_w1 0 (a := main_arg10) (by decide) V,
    Rd.at_eq opsL1_w1 0 (by decide) (y := main_v10) (by decide) V]
  generalize after (List.take 0 opsL1) V = W
  exact unary_result main_arg10 main_v10 ((extractStridedSlice S1x64x64 ![0, 0, 0] · slices_S3x64x64_S1x64x64_0_0_0) : (⟨S3x64x64, .f32⟩ : BufTy).Contents (Elt F) → (⟨S1x64x64, .f32⟩ : BufTy).Contents (Elt F)) ⟨by decide, rfl⟩ ⟨by decide, rfl⟩ W

theorem rd_main_v11 (V : Valuation τ sig (Elt F)) :
    after opsL1 V (Proc.devRef .tc main_v11) = shapeCast S64x64 (after opsL1 V (Proc.devRef .tc main_v10)) shapeCasts_S1x64x64_S64x64 := by
  rw [← Rd.tk_eq opsL1_w1 1 (a := main_v10) (by decide) V,
    Rd.at_eq opsL1_w1 1 (by decide) (y := main_v11) (by decide) V]
  generalize after (List.take 1 opsL1) V = W
  exact reshape_result main_v10 main_v11 rfl shapeCasts_S1x64x64_S64x64 ⟨by decide, rfl⟩ ⟨by decide, rfl⟩ W

theorem rd_main_v12 (V : Valuation τ sig (Elt F)) :
    after opsL1 V (Proc.devRef .tc main_v12) = ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_v5)) (after opsL1 V (Proc.devRef .tc main_v11)) := by
  rw [← Rd.tk_keep opsL1_w1 2 (a := main_v5) (by decide) V,
    ← Rd.tk_eq opsL1_w1 2 (a := main_v11) (by decide) V,
    Rd.at_eq opsL1_w1 2 (by decide) (y := main_v12) (by decide) V]
  generalize after (List.take 2 opsL1) V = W
  exact binary_result main_v5 main_v11 main_v12 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ⟨by decide, rfl⟩ ⟨by decide, rfl⟩ ⟨by decide, rfl⟩ W

theorem rd_main_v13 (V : Valuation τ sig (Elt F)) :
    after opsL1 V (Proc.devRef .tc main_v13) = ((extractStridedSlice S1x64 ![0, 0] · slices_S3x64_S1x64_0_0) : (⟨S3x64, .f32⟩ : BufTy).Contents (Elt F) → (⟨S1x64, .f32⟩ : BufTy).Contents (Elt F)) (V (Proc.devRef .tc main_arg11)) := by
  rw [← Rd.tk_keep opsL1_w1 3 (a := main_arg11) (by decide) V,
    Rd.at_eq opsL1_w1 3 (by decide) (y := main_v13) (by decide) V]
  generalize after (List.take 3 opsL1) V = W
  exact unary_result main_arg11 main_v13 ((extractStridedSlice S1x64 ![0, 0] · slices_S3x64_S1x64_0_0) : (⟨S3x64, .f32⟩ : BufTy).Contents (Elt F) → (⟨S1x64, .f32⟩ : BufTy).Contents (Elt F)) ⟨by decide, rfl⟩ ⟨by decide, rfl⟩ W

theorem rd_main_v14 (V : Valuation τ sig (Elt F)) :
    after opsL1 V (Proc.devRef .tc main_v14) = shapeCast S64 (after opsL1 V (Proc.devRef .tc main_v13)) shapeCasts_S1x64_S64 := by
  rw [← Rd.tk_eq opsL1_w1 4 (a := main_v13) (by decide) V,
    Rd.at_eq opsL1_w1 4 (by decide) (y := main_v14) (by decide) V]
  generalize after (List.take 4 opsL1) V = W
  exact reshape_result main_v13 main_v14 rfl shapeCasts_S1x64_S64 ⟨by decide, rfl⟩ ⟨by decide, rfl⟩ W

theorem rd_main_v15 (V : Valuation τ sig (Elt F)) :
    after opsL1 V (Proc.devRef .tc main_v15) = (broadcastInDim S1x64 ![1] bcast_S64_S1x64_1 : (⟨S64, .f32⟩ : BufTy).Contents (Elt F) → (⟨S1x64, .f32⟩ : BufTy).Contents (Elt F)) (after opsL1 V (Proc.devRef .tc main_v14)) := by
  rw [← Rd.tk_eq opsL1_w1 5 (a := main_v14) (by decide) V,
    Rd.at_eq opsL1_w1 5 (by decide) (y := main_v15) (by decide) V]
  generalize after (List.take 5 opsL1) V = W
  exact unary_result main_v14 main_v15 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v16 (V : Valuation τ sig (Elt F)) :
    after opsL1 V (Proc.devRef .tc main_v16) = (broadcastInDim S50000x64 ![0, 1] bcast_S1x64_S50000x64_0_1 : (⟨S1x64, .f32⟩ : BufTy).Contents (Elt F) → (⟨S50000x64, .f32⟩ : BufTy).Contents (Elt F)) (after opsL1 V (Proc.devRef .tc main_v15)) := by
  rw [← Rd.tk_eq opsL1_w1 6 (a := main_v15) (by decide) V,
    Rd.at_eq opsL1_w1 6 (by decide) (y := main_v16) (by decide) V]
  generalize after (List.take 6 opsL1) V = W
  exact unary_result main_v15 main_v16 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v17 (V : Valuation τ sig (Elt F)) :
    after opsL1 V (Proc.devRef .tc main_v17) = (addf : (⟨S50000x64, .f32⟩ : BufTy).Contents (Elt F) → (⟨S50000x64, .f32⟩ : BufTy).Contents (Elt F) → (⟨S50000x64, .f32⟩ : BufTy).Contents (Elt F)) (after opsL1 V (Proc.devRef .tc main_v12)) (after opsL1 V (Proc.devRef .tc main_v16)) := by
  rw [← Rd.tk_eq opsL1_w1 7 (a := main_v12) (by decide) V,
    ← Rd.tk_eq opsL1_w1 7 (a := main_v16) (by decide) V,
    Rd.at_eq opsL1_w1 7 (by decide) (y := main_v17) (by decide) V]
  generalize after (List.take 7 opsL1) V = W
  exact binary_result main_v12 main_v16 main_v17 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v18 (V : Valuation τ sig (Elt F)) :
    after opsL1 V (Proc.devRef .tc main_v18) = ((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg12)) := by
  rw [← Rd.tk_keep opsL1_w1 8 (a := main_arg12) (by decide) V,
    Rd.at_eq opsL1_w1 8 (by decide) (y := main_v18) (by decide) V]
  generalize after (List.take 8 opsL1) V = W
  exact unary_result main_arg12 main_v18 ((extractStridedSlice S1x64x64 ![0, 0, 0] · slices_S3x64x64_S1x64x64_0_0_0) : (⟨S3x64x64, .f32⟩ : BufTy).Contents (Elt F) → (⟨S1x64x64, .f32⟩ : BufTy).Contents (Elt F)) ⟨by decide, rfl⟩ ⟨by decide, rfl⟩ W

theorem rd_main_v19 (V : Valuation τ sig (Elt F)) :
    after opsL1 V (Proc.devRef .tc main_v19) = shapeCast S64x64 (after opsL1 V (Proc.devRef .tc main_v18)) shapeCasts_S1x64x64_S64x64 := by
  rw [← Rd.tk_eq opsL1_w1 9 (a := main_v18) (by decide) V,
    Rd.at_eq opsL1_w1 9 (by decide) (y := main_v19) (by decide) V]
  generalize after (List.take 9 opsL1) V = W
  exact reshape_result main_v18 main_v19 rfl shapeCasts_S1x64x64_S64x64 ⟨by decide, rfl⟩ ⟨by decide, rfl⟩ W

theorem rd_main_v20 (V : Valuation τ sig (Elt F)) :
    after opsL1 V (Proc.devRef .tc main_v20) = ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_v5)) (after opsL1 V (Proc.devRef .tc main_v19)) := by
  rw [← Rd.tk_keep opsL1_w1 10 (a := main_v5) (by decide) V,
    ← Rd.tk_eq opsL1_w1 10 (a := main_v19) (by decide) V,
    Rd.at_eq opsL1_w1 10 (by decide) (y := main_v20) (by decide) V]
  generalize after (List.take 10 opsL1) V = W
  exact binary_result main_v5 main_v19 main_v20 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ⟨by decide, rfl⟩ ⟨by decide, rfl⟩ ⟨by decide, rfl⟩ W

theorem rd_main_v21 (V : Valuation τ sig (Elt F)) :
    after opsL1 V (Proc.devRef .tc main_v21) = ((extractStridedSlice S1x64 ![0, 0] · slices_S3x64_S1x64_0_0) : (⟨S3x64, .f32⟩ : BufTy).Contents (Elt F) → (⟨S1x64, .f32⟩ : BufTy).Contents (Elt F)) (V (Proc.devRef .tc main_arg13)) := by
  rw [← Rd.tk_keep opsL1_w1 11 (a := main_arg13) (by decide) V,
    Rd.at_eq opsL1_w1 11 (by decide) (y := main_v21) (by decide) V]
  generalize after (List.take 11 opsL1) V = W
  exact unary_result main_arg13 main_v21 ((extractStridedSlice S1x64 ![0, 0] · slices_S3x64_S1x64_0_0) : (⟨S3x64, .f32⟩ : BufTy).Contents (Elt F) → (⟨S1x64, .f32⟩ : BufTy).Contents (Elt F)) ⟨by decide, rfl⟩ ⟨by decide, rfl⟩ W

theorem rd_main_v22 (V : Valuation τ sig (Elt F)) :
    after opsL1 V (Proc.devRef .tc main_v22) = shapeCast S64 (after opsL1 V (Proc.devRef .tc main_v21)) shapeCasts_S1x64_S64 := by
  rw [← Rd.tk_eq opsL1_w1 12 (a := main_v21) (by decide) V,
    Rd.at_eq opsL1_w1 12 (by decide) (y := main_v22) (by decide) V]
  generalize after (List.take 12 opsL1) V = W
  exact reshape_result main_v21 main_v22 rfl shapeCasts_S1x64_S64 ⟨by decide, rfl⟩ ⟨by decide, rfl⟩ W

theorem rd_main_v23 (V : Valuation τ sig (Elt F)) :
    after opsL1 V (Proc.devRef .tc main_v23) = (broadcastInDim S1x64 ![1] bcast_S64_S1x64_1 : (⟨S64, .f32⟩ : BufTy).Contents (Elt F) → (⟨S1x64, .f32⟩ : BufTy).Contents (Elt F)) (after opsL1 V (Proc.devRef .tc main_v22)) := by
  rw [← Rd.tk_eq opsL1_w1 13 (a := main_v22) (by decide) V,
    Rd.at_eq opsL1_w1 13 (by decide) (y := main_v23) (by decide) V]
  generalize after (List.take 13 opsL1) V = W
  exact unary_result main_v22 main_v23 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v24 (V : Valuation τ sig (Elt F)) :
    after opsL1 V (Proc.devRef .tc main_v24) = (broadcastInDim S50000x64 ![0, 1] bcast_S1x64_S50000x64_0_1 : (⟨S1x64, .f32⟩ : BufTy).Contents (Elt F) → (⟨S50000x64, .f32⟩ : BufTy).Contents (Elt F)) (after opsL1 V (Proc.devRef .tc main_v23)) := by
  rw [← Rd.tk_eq opsL1_w1 14 (a := main_v23) (by decide) V,
    Rd.at_eq opsL1_w1 14 (by decide) (y := main_v24) (by decide) V]
  generalize after (List.take 14 opsL1) V = W
  exact unary_result main_v23 main_v24 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v25 (V : Valuation τ sig (Elt F)) :
    after opsL1 V (Proc.devRef .tc main_v25) = (addf : (⟨S50000x64, .f32⟩ : BufTy).Contents (Elt F) → (⟨S50000x64, .f32⟩ : BufTy).Contents (Elt F) → (⟨S50000x64, .f32⟩ : BufTy).Contents (Elt F)) (after opsL1 V (Proc.devRef .tc main_v20)) (after opsL1 V (Proc.devRef .tc main_v24)) := by
  rw [← Rd.tk_eq opsL1_w1 15 (a := main_v20) (by decide) V,
    ← Rd.tk_eq opsL1_w1 15 (a := main_v24) (by decide) V,
    Rd.at_eq opsL1_w1 15 (by decide) (y := main_v25) (by decide) V]
  generalize after (List.take 15 opsL1) V = W
  exact binary_result main_v20 main_v24 main_v25 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v26 (V : Valuation τ sig (Elt F)) :
    after opsL1 V (Proc.devRef .tc main_v26) = ((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg16)) := by
  rw [← Rd.tk_keep opsL1_w1 16 (a := main_arg16) (by decide) V,
    Rd.at_eq opsL1_w1 16 (by decide) (y := main_v26) (by decide) V]
  generalize after (List.take 16 opsL1) V = W
  exact unary_result main_arg16 main_v26 ((extractStridedSlice S1x64x64 ![0, 0, 0] · slices_S3x64x64_S1x64x64_0_0_0) : (⟨S3x64x64, .f32⟩ : BufTy).Contents (Elt F) → (⟨S1x64x64, .f32⟩ : BufTy).Contents (Elt F)) ⟨by decide, rfl⟩ ⟨by decide, rfl⟩ W

theorem rd_main_v27 (V : Valuation τ sig (Elt F)) :
    after opsL1 V (Proc.devRef .tc main_v27) = shapeCast S64x64 (after opsL1 V (Proc.devRef .tc main_v26)) shapeCasts_S1x64x64_S64x64 := by
  rw [← Rd.tk_eq opsL1_w1 17 (a := main_v26) (by decide) V,
    Rd.at_eq opsL1_w1 17 (by decide) (y := main_v27) (by decide) V]
  generalize after (List.take 17 opsL1) V = W
  exact reshape_result main_v26 main_v27 rfl shapeCasts_S1x64x64_S64x64 ⟨by decide, rfl⟩ ⟨by decide, rfl⟩ W

theorem rd_main_v28 (V : Valuation τ sig (Elt F)) :
    after opsL1 V (Proc.devRef .tc main_v28) = ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_v5)) (after opsL1 V (Proc.devRef .tc main_v27)) := by
  rw [← Rd.tk_keep opsL1_w1 18 (a := main_v5) (by decide) V,
    ← Rd.tk_eq opsL1_w1 18 (a := main_v27) (by decide) V,
    Rd.at_eq opsL1_w1 18 (by decide) (y := main_v28) (by decide) V]
  generalize after (List.take 18 opsL1) V = W
  exact binary_result main_v5 main_v27 main_v28 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ⟨by decide, rfl⟩ ⟨by decide, rfl⟩ ⟨by decide, rfl⟩ W

theorem rd_main_v29 (V : Valuation τ sig (Elt F)) :
    after opsL1 V (Proc.devRef .tc main_v29) = ((extractStridedSlice S1x64 ![0, 0] · slices_S3x64_S1x64_0_0) : (⟨S3x64, .f32⟩ : BufTy).Contents (Elt F) → (⟨S1x64, .f32⟩ : BufTy).Contents (Elt F)) (V (Proc.devRef .tc main_arg17)) := by
  rw [← Rd.tk_keep opsL1_w1 19 (a := main_arg17) (by decide) V,
    Rd.at_eq opsL1_w1 19 (by decide) (y := main_v29) (by decide) V]
  generalize after (List.take 19 opsL1) V = W
  exact unary_result main_arg17 main_v29 ((extractStridedSlice S1x64 ![0, 0] · slices_S3x64_S1x64_0_0) : (⟨S3x64, .f32⟩ : BufTy).Contents (Elt F) → (⟨S1x64, .f32⟩ : BufTy).Contents (Elt F)) ⟨by decide, rfl⟩ ⟨by decide, rfl⟩ W

theorem rd_main_v30 (V : Valuation τ sig (Elt F)) :
    after opsL1 V (Proc.devRef .tc main_v30) = shapeCast S64 (after opsL1 V (Proc.devRef .tc main_v29)) shapeCasts_S1x64_S64 := by
  rw [← Rd.tk_eq opsL1_w1 20 (a := main_v29) (by decide) V,
    Rd.at_eq opsL1_w1 20 (by decide) (y := main_v30) (by decide) V]
  generalize after (List.take 20 opsL1) V = W
  exact reshape_result main_v29 main_v30 rfl shapeCasts_S1x64_S64 ⟨by decide, rfl⟩ ⟨by decide, rfl⟩ W

theorem rd_main_v31 (V : Valuation τ sig (Elt F)) :
    after opsL1 V (Proc.devRef .tc main_v31) = (broadcastInDim S1x64 ![1] bcast_S64_S1x64_1 : (⟨S64, .f32⟩ : BufTy).Contents (Elt F) → (⟨S1x64, .f32⟩ : BufTy).Contents (Elt F)) (after opsL1 V (Proc.devRef .tc main_v30)) := by
  rw [← Rd.tk_eq opsL1_w1 21 (a := main_v30) (by decide) V,
    Rd.at_eq opsL1_w1 21 (by decide) (y := main_v31) (by decide) V]
  generalize after (List.take 21 opsL1) V = W
  exact unary_result main_v30 main_v31 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v32 (V : Valuation τ sig (Elt F)) :
    after opsL1 V (Proc.devRef .tc main_v32) = (broadcastInDim S50000x64 ![0, 1] bcast_S1x64_S50000x64_0_1 : (⟨S1x64, .f32⟩ : BufTy).Contents (Elt F) → (⟨S50000x64, .f32⟩ : BufTy).Contents (Elt F)) (after opsL1 V (Proc.devRef .tc main_v31)) := by
  rw [← Rd.tk_eq opsL1_w1 22 (a := main_v31) (by decide) V,
    Rd.at_eq opsL1_w1 22 (by decide) (y := main_v32) (by decide) V]
  generalize after (List.take 22 opsL1) V = W
  exact unary_result main_v31 main_v32 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v33 (V : Valuation τ sig (Elt F)) :
    after opsL1 V (Proc.devRef .tc main_v33) = (addf : (⟨S50000x64, .f32⟩ : BufTy).Contents (Elt F) → (⟨S50000x64, .f32⟩ : BufTy).Contents (Elt F) → (⟨S50000x64, .f32⟩ : BufTy).Contents (Elt F)) (after opsL1 V (Proc.devRef .tc main_v28)) (after opsL1 V (Proc.devRef .tc main_v32)) := by
  rw [← Rd.tk_eq opsL1_w1 23 (a := main_v28) (by decide) V,
    ← Rd.tk_eq opsL1_w1 23 (a := main_v32) (by decide) V,
    Rd.at_eq opsL1_w1 23 (by decide) (y := main_v33) (by decide) V]
  generalize after (List.take 23 opsL1) V = W
  exact binary_result main_v28 main_v32 main_v33 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v34 (V : Valuation τ sig (Elt F)) :
    after opsL1 V (Proc.devRef .tc main_v34) = ((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg18)) := by
  rw [← Rd.tk_keep opsL1_w1 24 (a := main_arg18) (by decide) V,
    Rd.at_eq opsL1_w1 24 (by decide) (y := main_v34) (by decide) V]
  generalize after (List.take 24 opsL1) V = W
  exact unary_result main_arg18 main_v34 ((extractStridedSlice S1x64x64 ![0, 0, 0] · slices_S3x64x64_S1x64x64_0_0_0) : (⟨S3x64x64, .f32⟩ : BufTy).Contents (Elt F) → (⟨S1x64x64, .f32⟩ : BufTy).Contents (Elt F)) ⟨by decide, rfl⟩ ⟨by decide, rfl⟩ W

theorem rd_main_v35 (V : Valuation τ sig (Elt F)) :
    after opsL1 V (Proc.devRef .tc main_v35) = shapeCast S64x64 (after opsL1 V (Proc.devRef .tc main_v34)) shapeCasts_S1x64x64_S64x64 := by
  rw [← Rd.tk_eq opsL1_w1 25 (a := main_v34) (by decide) V,
    Rd.at_eq opsL1_w1 25 (by decide) (y := main_v35) (by decide) V]
  generalize after (List.take 25 opsL1) V = W
  exact reshape_result main_v34 main_v35 rfl shapeCasts_S1x64x64_S64x64 ⟨by decide, rfl⟩ ⟨by decide, rfl⟩ W

theorem rd_main_v36 (V : Valuation τ sig (Elt F)) :
    after opsL1 V (Proc.devRef .tc main_v36) = ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_v5)) (after opsL1 V (Proc.devRef .tc main_v35)) := by
  rw [← Rd.tk_keep opsL1_w1 26 (a := main_v5) (by decide) V,
    ← Rd.tk_eq opsL1_w1 26 (a := main_v35) (by decide) V,
    Rd.at_eq opsL1_w1 26 (by decide) (y := main_v36) (by decide) V]
  generalize after (List.take 26 opsL1) V = W
  exact binary_result main_v5 main_v35 main_v36 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ⟨by decide, rfl⟩ ⟨by decide, rfl⟩ ⟨by decide, rfl⟩ W

theorem rd_main_v37 (V : Valuation τ sig (Elt F)) :
    after opsL1 V (Proc.devRef .tc main_v37) = ((extractStridedSlice S1x64 ![0, 0] · slices_S3x64_S1x64_0_0) : (⟨S3x64, .f32⟩ : BufTy).Contents (Elt F) → (⟨S1x64, .f32⟩ : BufTy).Contents (Elt F)) (V (Proc.devRef .tc main_arg19)) := by
  rw [← Rd.tk_keep opsL1_w1 27 (a := main_arg19) (by decide) V,
    Rd.at_eq opsL1_w1 27 (by decide) (y := main_v37) (by decide) V]
  generalize after (List.take 27 opsL1) V = W
  exact unary_result main_arg19 main_v37 ((extractStridedSlice S1x64 ![0, 0] · slices_S3x64_S1x64_0_0) : (⟨S3x64, .f32⟩ : BufTy).Contents (Elt F) → (⟨S1x64, .f32⟩ : BufTy).Contents (Elt F)) ⟨by decide, rfl⟩ ⟨by decide, rfl⟩ W

theorem rd_main_v38 (V : Valuation τ sig (Elt F)) :
    after opsL1 V (Proc.devRef .tc main_v38) = shapeCast S64 (after opsL1 V (Proc.devRef .tc main_v37)) shapeCasts_S1x64_S64 := by
  rw [← Rd.tk_eq opsL1_w1 28 (a := main_v37) (by decide) V,
    Rd.at_eq opsL1_w1 28 (by decide) (y := main_v38) (by decide) V]
  generalize after (List.take 28 opsL1) V = W
  exact reshape_result main_v37 main_v38 rfl shapeCasts_S1x64_S64 ⟨by decide, rfl⟩ ⟨by decide, rfl⟩ W

theorem rd_main_v39 (V : Valuation τ sig (Elt F)) :
    after opsL1 V (Proc.devRef .tc main_v39) = (broadcastInDim S1x64 ![1] bcast_S64_S1x64_1 : (⟨S64, .f32⟩ : BufTy).Contents (Elt F) → (⟨S1x64, .f32⟩ : BufTy).Contents (Elt F)) (after opsL1 V (Proc.devRef .tc main_v38)) := by
  rw [← Rd.tk_eq opsL1_w1 29 (a := main_v38) (by decide) V,
    Rd.at_eq opsL1_w1 29 (by decide) (y := main_v39) (by decide) V]
  generalize after (List.take 29 opsL1) V = W
  exact unary_result main_v38 main_v39 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v40 (V : Valuation τ sig (Elt F)) :
    after opsL1 V (Proc.devRef .tc main_v40) = (broadcastInDim S50000x64 ![0, 1] bcast_S1x64_S50000x64_0_1 : (⟨S1x64, .f32⟩ : BufTy).Contents (Elt F) → (⟨S50000x64, .f32⟩ : BufTy).Contents (Elt F)) (after opsL1 V (Proc.devRef .tc main_v39)) := by
  rw [← Rd.tk_eq opsL1_w1 30 (a := main_v39) (by decide) V,
    Rd.at_eq opsL1_w1 30 (by decide) (y := main_v40) (by decide) V]
  generalize after (List.take 30 opsL1) V = W
  exact unary_result main_v39 main_v40 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v41 (V : Valuation τ sig (Elt F)) :
    after opsL1 V (Proc.devRef .tc main_v41) = (addf : (⟨S50000x64, .f32⟩ : BufTy).Contents (Elt F) → (⟨S50000x64, .f32⟩ : BufTy).Contents (Elt F) → (⟨S50000x64, .f32⟩ : BufTy).Contents (Elt F)) (after opsL1 V (Proc.devRef .tc main_v36)) (after opsL1 V (Proc.devRef .tc main_v40)) := by
  rw [← Rd.tk_eq opsL1_w1 31 (a := main_v36) (by decide) V,
    ← Rd.tk_eq opsL1_w1 31 (a := main_v40) (by decide) V,
    Rd.at_eq opsL1_w1 31 (by decide) (y := main_v41) (by decide) V]
  generalize after (List.take 31 opsL1) V = W
  exact binary_result main_v36 main_v40 main_v41 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v42 (V : Valuation τ sig (Elt F)) :
    after opsL1 V (Proc.devRef .tc main_v42) = ((extractStridedSlice S1x64x64 ![0, 0, 0] · slices_S3x64x64_S1x64x64_0_0_0) : (⟨S3x64x64, .f32⟩ : BufTy).Contents (Elt F) → (⟨S1x64x64, .f32⟩ : BufTy).Contents (Elt F)) (V (Proc.devRef .tc main_arg14)) := by
  rw [← Rd.tk_keep opsL1_w1 32 (a := main_arg14) (by decide) V,
    Rd.at_eq opsL1_w1 32 (by decide) (y := main_v42) (by decide) V]
  generalize after (List.take 32 opsL1) V = W
  exact unary_result main_arg14 main_v42 ((extractStridedSlice S1x64x64 ![0, 0, 0] · slices_S3x64x64_S1x64x64_0_0_0) : (⟨S3x64x64, .f32⟩ : BufTy).Contents (Elt F) → (⟨S1x64x64, .f32⟩ : BufTy).Contents (Elt F)) ⟨by decide, rfl⟩ ⟨by decide, rfl⟩ W

theorem rd_main_v43 (V : Valuation τ sig (Elt F)) :
    after opsL1 V (Proc.devRef .tc main_v43) = shapeCast S64x64 (after opsL1 V (Proc.devRef .tc main_v42)) shapeCasts_S1x64x64_S64x64 := by
  rw [← Rd.tk_eq opsL1_w1 33 (a := main_v42) (by decide) V,
    Rd.at_eq opsL1_w1 33 (by decide) (y := main_v43) (by decide) V]
  generalize after (List.take 33 opsL1) V = W
  exact reshape_result main_v42 main_v43 rfl shapeCasts_S1x64x64_S64x64 ⟨by decide, rfl⟩ ⟨by decide, rfl⟩ W

theorem rd_main_v44 (V : Valuation τ sig (Elt F)) :
    after opsL1 V (Proc.devRef .tc main_v44) = ((fun l r => Host.dotGeneral dot_S400000x64_S64x64_S400000x64_1_0_0_1_n_n none l r) : (⟨S400000x64, .f32⟩ : BufTy).Contents (Elt F) → (⟨S64x64, .f32⟩ : BufTy).Contents (Elt F) → (⟨S400000x64, .f32⟩ : BufTy).Contents (Elt F)) (V (Proc.devRef .tc main_v9)) (after opsL1 V (Proc.devRef .tc main_v43)) := by
  rw [← Rd.tk_keep opsL1_w1 34 (a := main_v9) (by decide) V,
    ← Rd.tk_eq opsL1_w1 34 (a := main_v43) (by decide) V,
    Rd.at_eq opsL1_w1 34 (by decide) (y := main_v44) (by decide) V]
  generalize after (List.take 34 opsL1) V = W
  exact binary_result main_v9 main_v43 main_v44 ((fun l r => Host.dotGeneral dot_S400000x64_S64x64_S400000x64_1_0_0_1_n_n none l r) : (⟨S400000x64, .f32⟩ : BufTy).Contents (Elt F) → (⟨S64x64, .f32⟩ : BufTy).Contents (Elt F) → (⟨S400000x64, .f32⟩ : BufTy).Contents (Elt F)) ⟨by decide, rfl⟩ ⟨by decide, rfl⟩ ⟨by decide, rfl⟩ W

theorem rd_main_v45 (V : Valuation τ sig (Elt F)) :
    after opsL1 V (Proc.devRef .tc main_v45) = ((extractStridedSlice S1x64 ![0, 0] · slices_S3x64_S1x64_0_0) : (⟨S3x64, .f32⟩ : BufTy).Contents (Elt F) → (⟨S1x64, .f32⟩ : BufTy).Contents (Elt F)) (V (Proc.devRef .tc main_arg15)) := by
  rw [← Rd.tk_keep opsL1_w1 35 (a := main_arg15) (by decide) V,
    Rd.at_eq opsL1_w1 35 (by decide) (y := main_v45) (by decide) V]
  generalize after (List.take 35 opsL1) V = W
  exact unary_result main_arg15 main_v45 ((extractStridedSlice S1x64 ![0, 0] · slices_S3x64_S1x64_0_0) : (⟨S3x64, .f32⟩ : BufTy).Contents (Elt F) → (⟨S1x64, .f32⟩ : BufTy).Contents (Elt F)) ⟨by decide, rfl⟩ ⟨by decide, rfl⟩ W

theorem rd_main_v46 (V : Valuation τ sig (Elt F)) :
    after opsL1 V (Proc.devRef .tc main_v46) = shapeCast S64 (after opsL1 V (Proc.devRef .tc main_v45)) shapeCasts_S1x64_S64 := by
  rw [← Rd.tk_eq opsL1_w1 36 (a := main_v45) (by decide) V,
    Rd.at_eq opsL1_w1 36 (by decide) (y := main_v46) (by decide) V]
  generalize after (List.take 36 opsL1) V = W
  exact reshape_result main_v45 main_v46 rfl shapeCasts_S1x64_S64 ⟨by decide, rfl⟩ ⟨by decide, rfl⟩ W

theorem rd_main_v47 (V : Valuation τ sig (Elt F)) :
    after opsL1 V (Proc.devRef .tc main_v47) = (broadcastInDim S1x64 ![1] bcast_S64_S1x64_1 : (⟨S64, .f32⟩ : BufTy).Contents (Elt F) → (⟨S1x64, .f32⟩ : BufTy).Contents (Elt F)) (after opsL1 V (Proc.devRef .tc main_v46)) := by
  rw [← Rd.tk_eq opsL1_w1 37 (a := main_v46) (by decide) V,
    Rd.at_eq opsL1_w1 37 (by decide) (y := main_v47) (by decide) V]
  generalize after (List.take 37 opsL1) V = W
  exact unary_result main_v46 main_v47 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v48 (V : Valuation τ sig (Elt F)) :
    after opsL1 V (Proc.devRef .tc main_v48) = (broadcastInDim S400000x64 ![0, 1] bcast_S1x64_S400000x64_0_1 : (⟨S1x64, .f32⟩ : BufTy).Contents (Elt F) → (⟨S400000x64, .f32⟩ : BufTy).Contents (Elt F)) (after opsL1 V (Proc.devRef .tc main_v47)) := by
  rw [← Rd.tk_eq opsL1_w1 38 (a := main_v47) (by decide) V,
    Rd.at_eq opsL1_w1 38 (by decide) (y := main_v48) (by decide) V]
  generalize after (List.take 38 opsL1) V = W
  exact unary_result main_v47 main_v48 (broadcastInDim S400000x64 ![0, 1] bcast_S1x64_S400000x64_0_1 : (⟨S1x64, .f32⟩ : BufTy).Contents (Elt F) → (⟨S400000x64, .f32⟩ : BufTy).Contents (Elt F)) ⟨by decide, rfl⟩ ⟨by decide, rfl⟩ W

theorem rd_main_v49 (V : Valuation τ sig (Elt F)) :
    after opsL1 V (Proc.devRef .tc main_v49) = (addf : (⟨S400000x64, .f32⟩ : BufTy).Contents (Elt F) → (⟨S400000x64, .f32⟩ : BufTy).Contents (Elt F) → (⟨S400000x64, .f32⟩ : BufTy).Contents (Elt F)) (after opsL1 V (Proc.devRef .tc main_v44)) (after opsL1 V (Proc.devRef .tc main_v48)) := by
  rw [← Rd.tk_eq opsL1_w1 39 (a := main_v44) (by decide) V,
    ← Rd.tk_eq opsL1_w1 39 (a := main_v48) (by decide) V,
    Rd.at_eq opsL1_w1 39 (by decide) (y := main_v49) (by decide) V]
  generalize after (List.take 39 opsL1) V = W
  exact binary_result main_v44 main_v48 main_v49 (addf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_c (V : Valuation τ sig (Elt F)) :
    after opsL1 V (Proc.devRef .tc main_c) = (constantI S_ 32 0#32) := by
  rw [Rd.at_eq opsL1_w1 40 (by decide) (y := main_c) (by decide) V]
  generalize after (List.take 40 opsL1) V = W
  exact nullary_result main_c (constantI S_ 32 0#32) ⟨by decide, rfl⟩ W

theorem rd_main_v50 (V : Valuation τ sig (Elt F)) :
    after opsL1 V (Proc.devRef .tc main_v50) = (broadcastInDim S400000 ![] bcast_S_S400000 : (⟨S_, .i32⟩ : BufTy).Contents (Elt F) → (⟨S400000, .i32⟩ : BufTy).Contents (Elt F)) (after opsL1 V (Proc.devRef .tc main_c)) := by
  rw [← Rd.tk_eq opsL1_w1 41 (a := main_c) (by decide) V,
    Rd.at_eq opsL1_w1 41 (by decide) (y := main_v50) (by decide) V]
  generalize after (List.take 41 opsL1) V = W
  exact unary_result main_c main_v50 (broadcastInDim S400000 ![] bcast_S_S400000 : (⟨S_, .i32⟩ : BufTy).Contents (Elt F) → (⟨S400000, .i32⟩ : BufTy).Contents (Elt F)) ⟨by decide, rfl⟩ ⟨by decide, rfl⟩ W

theorem rd_main_v51 (V : Valuation τ sig (Elt F)) :
    after opsL1 V (Proc.devRef .tc main_v51) = (cmpi .slt : (⟨S400000, .i32⟩ : BufTy).Contents (Elt F) → (⟨S400000, .i32⟩ : BufTy).Contents (Elt F) → (⟨S400000, .i1⟩ : BufTy).Contents (Elt F)) (V (Proc.devRef .tc main_arg3)) (after opsL1 V (Proc.devRef .tc main_v50)) := by
  rw [← Rd.tk_keep opsL1_w1 42 (a := main_arg3) (by decide) V,
    ← Rd.tk_eq opsL1_w1 42 (a := main_v50) (by decide) V,
    Rd.at_eq opsL1_w1 42 (by decide) (y := main_v51) (by decide) V]
  generalize after (List.take 42 opsL1) V = W
  exact binary_result main_arg3 main_v50 main_v51 (cmpi .slt : (⟨S400000, .i32⟩ : BufTy).Contents (Elt F) → (⟨S400000, .i32⟩ : BufTy).Contents (Elt F) → (⟨S400000, .i1⟩ : BufTy).Contents (Elt F)) ⟨by decide, rfl⟩ ⟨by decide, rfl⟩ ⟨by decide, rfl⟩ W

theorem rd_main_c_0 (V : Valuation τ sig (Elt F)) :
    after opsL1 V (Proc.devRef .tc main_c_0) = (constantI S_ 32 50000#32) := by
  rw [Rd.at_eq opsL1_w1 43 (by decide) (y := main_c_0) (by decide) V]
  generalize after (List.take 43 opsL1) V = W
  exact nullary_result main_c_0 (constantI S_ 32 50000#32) ⟨by decide, rfl⟩ W

theorem rd_main_v52 (V : Valuation τ sig (Elt F)) :
    after opsL1 V (Proc.devRef .tc main_v52) = (broadcastInDim S400000 ![] bcast_S_S400000 : (⟨S_, .i32⟩ : BufTy).Contents (Elt F) → (⟨S400000, .i32⟩ : BufTy).Contents (Elt F)) (after opsL1 V (Proc.devRef .tc main_c_0)) := by
  rw [← Rd.tk_eq opsL1_w1 44 (a := main_c_0) (by decide) V,
    Rd.at_eq opsL1_w1 44 (by decide) (y := main_v52) (by decide) V]
  generalize after (List.take 44 opsL1) V = W
  exact unary_result main_c_0 main_v52 (broadcastInDim S400000 ![] bcast_S_S400000 : (⟨S_, .i32⟩ : BufTy).Contents (Elt F) → (⟨S400000, .i32⟩ : BufTy).Contents (Elt F)) ⟨by decide, rfl⟩ ⟨by decide, rfl⟩ W

theorem rd_main_v53 (V : Valuation τ sig (Elt F)) :
    after opsL1 V (Proc.devRef .tc main_v53) = (addi : (⟨S400000, .i32⟩ : BufTy).Contents (Elt F) → (⟨S400000, .i32⟩ : BufTy).Contents (Elt F) → (⟨S400000, .i32⟩ : BufTy).Contents (Elt F)) (V (Proc.devRef .tc main_arg3)) (after opsL1 V (Proc.devRef .tc main_v52)) := by
  rw [← Rd.tk_keep opsL1_w1 45 (a := main_arg3) (by decide) V,
    ← Rd.tk_eq opsL1_w1 45 (a := main_v52) (by decide) V,
    Rd.at_eq opsL1_w1 45 (by decide) (y := main_v53) (by decide) V]
  generalize after (List.take 45 opsL1) V = W
  exact binary_result main_arg3 main_v52 main_v53 (addi : (⟨S400000, .i32⟩ : BufTy).Contents (Elt F) → (⟨S400000, .i32⟩ : BufTy).Contents (Elt F) → (⟨S400000, .i32⟩ : BufTy).Contents (Elt F)) ⟨by decide, rfl⟩ ⟨by decide, rfl⟩ ⟨by decide, rfl⟩ W

theorem rd_main_v54 (V : Valuation τ sig (Elt F)) :
    after opsL1 V (Proc.devRef .tc main_v54) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (after opsL1 V (Proc.devRef .tc main_v51)) (after opsL1 V (Proc.devRef .tc main_v53)) (V (Proc.devRef .tc main_arg3)) := by
  rw [← Rd.tk_eq opsL1_w1 46 (a := main_v51) (by decide) V,
    ← Rd.tk_eq opsL1_w1 46 (a := main_v53) (by decide) V,
    ← Rd.tk_keep opsL1_w1 46 (a := main_arg3) (by decide) V,
    Rd.at_eq opsL1_w1 46 (by decide) (y := main_v54) (by decide) V]
  generalize after (List.take 46 opsL1) V = W
  exact ternary_result main_v51 main_v53 main_arg3 main_v54 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) ⟨by decide, rfl⟩ ⟨by decide, rfl⟩ ⟨by decide, rfl⟩ ⟨by decide, rfl⟩ W

theorem rd_main_v55 (V : Valuation τ sig (Elt F)) :
    after opsL1 V (Proc.devRef .tc main_v55) = (broadcastInDim S400000x1 ![0] bcast_S400000_S400000x1_0 : (⟨S400000, .i32⟩ : BufTy).Contents (Elt F) → (⟨S400000x1, .i32⟩ : BufTy).Contents (Elt F)) (after opsL1 V (Proc.devRef .tc main_v54)) := by
  rw [← Rd.tk_eq opsL1_w1 47 (a := main_v54) (by decide) V,
    Rd.at_eq opsL1_w1 47 (by decide) (y := main_v55) (by decide) V]
  generalize after (List.take 47 opsL1) V = W
  exact unary_result main_v54 main_v55 (broadcastInDim S400000x1 ![0] bcast_S400000_S400000x1_0 : (⟨S400000, .i32⟩ : BufTy).Contents (Elt F) → (⟨S400000x1, .i32⟩ : BufTy).Contents (Elt F)) ⟨by decide, rfl⟩ ⟨by decide, rfl⟩ W

theorem rd_main_v56 (V : Valuation τ sig (Elt F)) :
    after opsL1 V (Proc.devRef .tc main_v56) = ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)) (after opsL1 V (Proc.devRef .tc main_v33)) (after opsL1 V (Proc.devRef .tc main_v55)) := by
  rw [← Rd.tk_eq opsL1_w1 48 (a := main_v33) (by decide) V,
    ← Rd.tk_eq opsL1_w1 48 (a := main_v55) (by decide) V,
    Rd.at_eq opsL1_w1 48 (by decide) (y := main_v56) (by decide) V]
  generalize after (List.take 48 opsL1) V = W
  exact binary_result main_v33 main_v55 main_v56 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)) ⟨by decide, rfl⟩ ⟨by decide, rfl⟩ ⟨by decide, rfl⟩ W

theorem rd_main_c_1 (V : Valuation τ sig (Elt F)) :
    after opsL1 V (Proc.devRef .tc main_c_1) = (constantI S_ 32 0#32) := by
  rw [Rd.at_eq opsL1_w1 49 (by decide) (y := main_c_1) (by decide) V]
  generalize after (List.take 49 opsL1) V = W
  exact nullary_result main_c_1 (constantI S_ 32 0#32) ⟨by decide, rfl⟩ W

theorem rd_main_v57 (V : Valuation τ sig (Elt F)) :
    after opsL1 V (Proc.devRef .tc main_v57) = (broadcastInDim S400000 ![] bcast_S_S400000 : (⟨S_, .i32⟩ : BufTy).Contents (Elt F) → (⟨S400000, .i32⟩ : BufTy).Contents (Elt F)) (after opsL1 V (Proc.devRef .tc main_c_1)) := by
  rw [← Rd.tk_eq opsL1_w1 50 (a := main_c_1) (by decide) V,
    Rd.at_eq opsL1_w1 50 (by decide) (y := main_v57) (by decide) V]
  generalize after (List.take 50 opsL1) V = W
  exact unary_result main_c_1 main_v57 (broadcastInDim S400000 ![] bcast_S_S400000 : (⟨S_, .i32⟩ : BufTy).Contents (Elt F) → (⟨S400000, .i32⟩ : BufTy).Contents (Elt F)) ⟨by decide, rfl⟩ ⟨by decide, rfl⟩ W

theorem rd_main_v58 (V : Valuation τ sig (Elt F)) :
    after opsL1 V (Proc.devRef .tc main_v58) = (cmpi .slt : (⟨S400000, .i32⟩ : BufTy).Contents (Elt F) → (⟨S400000, .i32⟩ : BufTy).Contents (Elt F) → (⟨S400000, .i1⟩ : BufTy).Contents (Elt F)) (V (Proc.devRef .tc main_arg4)) (after opsL1 V (Proc.devRef .tc main_v57)) := by
  rw [← Rd.tk_keep opsL1_w1 51 (a := main_arg4) (by decide) V,
    ← Rd.tk_eq opsL1_w1 51 (a := main_v57) (by decide) V,
    Rd.at_eq opsL1_w1 51 (by decide) (y := main_v58) (by decide) V]
  generalize after (List.take 51 opsL1) V = W
  exact binary_result main_arg4 main_v57 main_v58 (cmpi .slt : (⟨S400000, .i32⟩ : BufTy).Contents (Elt F) → (⟨S400000, .i32⟩ : BufTy).Contents (Elt F) → (⟨S400000, .i1⟩ : BufTy).Contents (Elt F)) ⟨by decide, rfl⟩ ⟨by decide, rfl⟩ ⟨by decide, rfl⟩ W

theorem rd_main_c_2 (V : Valuation τ sig (Elt F)) :
    after opsL1 V (Proc.devRef .tc main_c_2) = (constantI S_ 32 50000#32) := by
  rw [Rd.at_eq opsL1_w1 52 (by decide) (y := main_c_2) (by decide) V]
  generalize after (List.take 52 opsL1) V = W
  exact nullary_result main_c_2 (constantI S_ 32 50000#32) ⟨by decide, rfl⟩ W

theorem rd_main_v59 (V : Valuation τ sig (Elt F)) :
    after opsL1 V (Proc.devRef .tc main_v59) = (broadcastInDim S400000 ![] bcast_S_S400000 : (⟨S_, .i32⟩ : BufTy).Contents (Elt F) → (⟨S400000, .i32⟩ : BufTy).Contents (Elt F)) (after opsL1 V (Proc.devRef .tc main_c_2)) := by
  rw [← Rd.tk_eq opsL1_w1 53 (a := main_c_2) (by decide) V,
    Rd.at_eq opsL1_w1 53 (by decide) (y := main_v59) (by decide) V]
  generalize after (List.take 53 opsL1) V = W
  exact unary_result main_c_2 main_v59 (broadcastInDim S400000 ![] bcast_S_S400000 : (⟨S_, .i32⟩ : BufTy).Contents (Elt F) → (⟨S400000, .i32⟩ : BufTy).Contents (Elt F)) ⟨by decide, rfl⟩ ⟨by decide, rfl⟩ W

theorem rd_main_v60 (V : Valuation τ sig (Elt F)) :
    after opsL1 V (Proc.devRef .tc main_v60) = (addi : (⟨S400000, .i32⟩ : BufTy).Contents (Elt F) → (⟨S400000, .i32⟩ : BufTy).Contents (Elt F) → (⟨S400000, .i32⟩ : BufTy).Contents (Elt F)) (V (Proc.devRef .tc main_arg4)) (after opsL1 V (Proc.devRef .tc main_v59)) := by
  rw [← Rd.tk_keep opsL1_w1 54 (a := main_arg4) (by decide) V,
    ← Rd.tk_eq opsL1_w1 54 (a := main_v59) (by decide) V,
    Rd.at_eq opsL1_w1 54 (by decide) (y := main_v60) (by decide) V]
  generalize after (List.take 54 opsL1) V = W
  exact binary_result main_arg4 main_v59 main_v60 (addi : (⟨S400000, .i32⟩ : BufTy).Contents (Elt F) → (⟨S400000, .i32⟩ : BufTy).Contents (Elt F) → (⟨S400000, .i32⟩ : BufTy).Contents (Elt F)) ⟨by decide, rfl⟩ ⟨by decide, rfl⟩ ⟨by decide, rfl⟩ W

theorem rd_main_v61 (V : Valuation τ sig (Elt F)) :
    after opsL1 V (Proc.devRef .tc main_v61) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (after opsL1 V (Proc.devRef .tc main_v58)) (after opsL1 V (Proc.devRef .tc main_v60)) (V (Proc.devRef .tc main_arg4)) := by
  rw [← Rd.tk_eq opsL1_w1 55 (a := main_v58) (by decide) V,
    ← Rd.tk_eq opsL1_w1 55 (a := main_v60) (by decide) V,
    ← Rd.tk_keep opsL1_w1 55 (a := main_arg4) (by decide) V,
    Rd.at_eq opsL1_w1 55 (by decide) (y := main_v61) (by decide) V]
  generalize after (List.take 55 opsL1) V = W
  exact ternary_result main_v58 main_v60 main_arg4 main_v61 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) ⟨by decide, rfl⟩ ⟨by decide, rfl⟩ ⟨by decide, rfl⟩ ⟨by decide, rfl⟩ W

theorem rd_main_v62 (V : Valuation τ sig (Elt F)) :
    after opsL1 V (Proc.devRef .tc main_v62) = (broadcastInDim S400000x1 ![0] bcast_S400000_S400000x1_0 : (⟨S400000, .i32⟩ : BufTy).Contents (Elt F) → (⟨S400000x1, .i32⟩ : BufTy).Contents (Elt F)) (after opsL1 V (Proc.devRef .tc main_v61)) := by
  rw [← Rd.tk_eq opsL1_w1 56 (a := main_v61) (by decide) V,
    Rd.at_eq opsL1_w1 56 (by decide) (y := main_v62) (by decide) V]
  generalize after (List.take 56 opsL1) V = W
  exact unary_result main_v61 main_v62 (broadcastInDim S400000x1 ![0] bcast_S400000_S400000x1_0 : (⟨S400000, .i32⟩ : BufTy).Contents (Elt F) → (⟨S400000x1, .i32⟩ : BufTy).Contents (Elt F)) ⟨by decide, rfl⟩ ⟨by decide, rfl⟩ W

theorem rd_main_v63 (V : Valuation τ sig (Elt F)) :
    after opsL1 V (Proc.devRef .tc main_v63) = ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)) (after opsL1 V (Proc.devRef .tc main_v41)) (after opsL1 V (Proc.devRef .tc main_v62)) := by
  rw [← Rd.tk_eq opsL1_w1 57 (a := main_v41) (by decide) V,
    ← Rd.tk_eq opsL1_w1 57 (a := main_v62) (by decide) V,
    Rd.at_eq opsL1_w1 57 (by decide) (y := main_v63) (by decide) V]
  generalize after (List.take 57 opsL1) V = W
  exact binary_result main_v41 main_v62 main_v63 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)) ⟨by decide, rfl⟩ ⟨by decide, rfl⟩ ⟨by decide, rfl⟩ W

theorem rd_main_v64 (V : Valuation τ sig (Elt F)) :
    after opsL1 V (Proc.devRef .tc main_v64) = (addf : (⟨S400000x64, .f32⟩ : BufTy).Contents (Elt F) → (⟨S400000x64, .f32⟩ : BufTy).Contents (Elt F) → (⟨S400000x64, .f32⟩ : BufTy).Contents (Elt F)) (after opsL1 V (Proc.devRef .tc main_v56)) (after opsL1 V (Proc.devRef .tc main_v63)) := by
  rw [← Rd.tk_eq opsL1_w1 58 (a := main_v56) (by decide) V,
    ← Rd.tk_eq opsL1_w1 58 (a := main_v63) (by decide) V,
    Rd.at_eq opsL1_w1 58 (by decide) (y := main_v64) (by decide) V]
  generalize after (List.take 58 opsL1) V = W
  exact binary_result main_v56 main_v63 main_v64 (addf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_v65 (V : Valuation τ sig (Elt F)) :
    after opsL1 V (Proc.devRef .tc main_v65) = (addf : (⟨S400000x64, .f32⟩ : BufTy).Contents (Elt F) → (⟨S400000x64, .f32⟩ : BufTy).Contents (Elt F) → (⟨S400000x64, .f32⟩ : BufTy).Contents (Elt F)) (after opsL1 V (Proc.devRef .tc main_v64)) (after opsL1 V (Proc.devRef .tc main_v49)) := by
  rw [← Rd.tk_eq opsL1_w1 59 (a := main_v64) (by decide) V,
    ← Rd.tk_eq opsL1_w1 59 (a := main_v49) (by decide) V,
    Rd.at_eq opsL1_w1 59 (by decide) (y := main_v65) (by decide) V]
  generalize after (List.take 59 opsL1) V = W
  exact binary_result main_v64 main_v49 main_v65 (addf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_v66 (V : Valuation τ sig (Elt F)) :
    after opsL1 V (Proc.devRef .tc main_v66) = (Host.negf : (⟨S400000x64, .f32⟩ : BufTy).Contents (Elt F) → (⟨S400000x64, .f32⟩ : BufTy).Contents (Elt F)) (after opsL1 V (Proc.devRef .tc main_v65)) := by
  rw [← Rd.tk_eq opsL1_w1 60 (a := main_v65) (by decide) V,
    Rd.at_eq opsL1_w1 60 (by decide) (y := main_v66) (by decide) V]
  generalize after (List.take 60 opsL1) V = W
  exact unary_result main_v65 main_v66 (Host.negf : (⟨S400000x64, .f32⟩ : BufTy).Contents (Elt F) → (⟨S400000x64, .f32⟩ : BufTy).Contents (Elt F)) ⟨by decide, rfl⟩ ⟨by decide, rfl⟩ W

theorem rd_main_v67 (V : Valuation τ sig (Elt F)) :
    after opsL1 V (Proc.devRef .tc main_v67) = (Host.exp : (⟨S400000x64, .f32⟩ : BufTy).Contents (Elt F) → (⟨S400000x64, .f32⟩ : BufTy).Contents (Elt F)) (after opsL1 V (Proc.devRef .tc main_v66)) := by
  rw [← Rd.tk_eq opsL1_w1 61 (a := main_v66) (by decide) V,
    Rd.at_eq opsL1_w1 61 (by decide) (y := main_v67) (by decide) V]
  generalize after (List.take 61 opsL1) V = W
  exact unary_result main_v66 main_v67 (Host.exp : (⟨S400000x64, .f32⟩ : BufTy).Contents (Elt F) → (⟨S400000x64, .f32⟩ : BufTy).Contents (Elt F)) ⟨by decide, rfl⟩ ⟨by decide, rfl⟩ W

theorem rd_main_cst_3 (V : Valuation τ sig (Elt F)) :
    after opsL1 V (Proc.devRef .tc main_cst_3) = (constant S_ .f32 0x3F800000#32) := by
  rw [Rd.at_eq opsL1_w1 62 (by decide) (y := main_cst_3) (by decide) V]
  generalize after (List.take 62 opsL1) V = W
  exact nullary_result main_cst_3 (constant S_ .f32 0x3F800000#32) ⟨by decide, rfl⟩ W

theorem rd_main_v68 (V : Valuation τ sig (Elt F)) :
    after opsL1 V (Proc.devRef .tc main_v68) = (broadcastInDim S400000x64 ![] bcast_S_S400000x64 : (⟨S_, .f32⟩ : BufTy).Contents (Elt F) → (⟨S400000x64, .f32⟩ : BufTy).Contents (Elt F)) (after opsL1 V (Proc.devRef .tc main_cst_3)) := by
  rw [← Rd.tk_eq opsL1_w1 63 (a := main_cst_3) (by decide) V,
    Rd.at_eq opsL1_w1 63 (by decide) (y := main_v68) (by decide) V]
  generalize after (List.take 63 opsL1) V = W
  exact unary_result main_cst_3 main_v68 (broadcastInDim S400000x64 ![] bcast_S_S400000x64 : (⟨S_, .f32⟩ : BufTy).Contents (Elt F) → (⟨S400000x64, .f32⟩ : BufTy).Contents (Elt F)) ⟨by decide, rfl⟩ ⟨by decide, rfl⟩ W

theorem rd_main_v69 (V : Valuation τ sig (Elt F)) :
    after opsL1 V (Proc.devRef .tc main_v69) = (addf : (⟨S400000x64, .f32⟩ : BufTy).Contents (Elt F) → (⟨S400000x64, .f32⟩ : BufTy).Contents (Elt F) → (⟨S400000x64, .f32⟩ : BufTy).Contents (Elt F)) (after opsL1 V (Proc.devRef .tc main_v68)) (after opsL1 V (Proc.devRef .tc main_v67)) := by
  rw [← Rd.tk_eq opsL1_w1 64 (a := main_v68) (by decide) V,
    ← Rd.tk_eq opsL1_w1 64 (a := main_v67) (by decide) V,
    Rd.at_eq opsL1_w1 64 (by decide) (y := main_v69) (by decide) V]
  generalize after (List.take 64 opsL1) V = W
  exact binary_result main_v68 main_v67 main_v69 (addf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_cst_4 (V : Valuation τ sig (Elt F)) :
    after opsL1 V (Proc.devRef .tc main_cst_4) = (constant S_ .f32 0x3F800000#32) := by
  rw [Rd.at_eq opsL1_w1 65 (by decide) (y := main_cst_4) (by decide) V]
  generalize after (List.take 65 opsL1) V = W
  exact nullary_result main_cst_4 (constant S_ .f32 0x3F800000#32) ⟨by decide, rfl⟩ W

theorem rd_main_v70 (V : Valuation τ sig (Elt F)) :
    after opsL1 V (Proc.devRef .tc main_v70) = (broadcastInDim S400000x64 ![] bcast_S_S400000x64 : (⟨S_, .f32⟩ : BufTy).Contents (Elt F) → (⟨S400000x64, .f32⟩ : BufTy).Contents (Elt F)) (after opsL1 V (Proc.devRef .tc main_cst_4)) := by
  rw [← Rd.tk_eq opsL1_w1 66 (a := main_cst_4) (by decide) V,
    Rd.at_eq opsL1_w1 66 (by decide) (y := main_v70) (by decide) V]
  generalize after (List.take 66 opsL1) V = W
  exact unary_result main_cst_4 main_v70 (broadcastInDim S400000x64 ![] bcast_S_S400000x64 : (⟨S_, .f32⟩ : BufTy).Contents (Elt F) → (⟨S400000x64, .f32⟩ : BufTy).Contents (Elt F)) ⟨by decide, rfl⟩ ⟨by decide, rfl⟩ W

theorem rd_main_v71 (V : Valuation τ sig (Elt F)) :
    after opsL1 V (Proc.devRef .tc main_v71) = (Host.divf : (⟨S400000x64, .f32⟩ : BufTy).Contents (Elt F) → (⟨S400000x64, .f32⟩ : BufTy).Contents (Elt F) → (⟨S400000x64, .f32⟩ : BufTy).Contents (Elt F)) (after opsL1 V (Proc.devRef .tc main_v70)) (after opsL1 V (Proc.devRef .tc main_v69)) := by
  rw [← Rd.tk_eq opsL1_w1 67 (a := main_v70) (by decide) V,
    ← Rd.tk_eq opsL1_w1 67 (a := main_v69) (by decide) V,
    Rd.at_eq opsL1_w1 67 (by decide) (y := main_v71) (by decide) V]
  generalize after (List.take 67 opsL1) V = W
  exact binary_result main_v70 main_v69 main_v71 (Host.divf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_c_5 (V : Valuation τ sig (Elt F)) :
    after opsL1 V (Proc.devRef .tc main_c_5) = (constantI S_ 32 0#32) := by
  rw [Rd.at_eq opsL1_w1 68 (by decide) (y := main_c_5) (by decide) V]
  generalize after (List.take 68 opsL1) V = W
  exact nullary_result main_c_5 (constantI S_ 32 0#32) ⟨by decide, rfl⟩ W

theorem rd_main_v72 (V : Valuation τ sig (Elt F)) :
    after opsL1 V (Proc.devRef .tc main_v72) = (broadcastInDim S400000 ![] bcast_S_S400000 : (⟨S_, .i32⟩ : BufTy).Contents (Elt F) → (⟨S400000, .i32⟩ : BufTy).Contents (Elt F)) (after opsL1 V (Proc.devRef .tc main_c_5)) := by
  rw [← Rd.tk_eq opsL1_w1 69 (a := main_c_5) (by decide) V,
    Rd.at_eq opsL1_w1 69 (by decide) (y := main_v72) (by decide) V]
  generalize after (List.take 69 opsL1) V = W
  exact unary_result main_c_5 main_v72 (broadcastInDim S400000 ![] bcast_S_S400000 : (⟨S_, .i32⟩ : BufTy).Contents (Elt F) → (⟨S400000, .i32⟩ : BufTy).Contents (Elt F)) ⟨by decide, rfl⟩ ⟨by decide, rfl⟩ W

theorem rd_main_v73 (V : Valuation τ sig (Elt F)) :
    after opsL1 V (Proc.devRef .tc main_v73) = (cmpi .slt : (⟨S400000, .i32⟩ : BufTy).Contents (Elt F) → (⟨S400000, .i32⟩ : BufTy).Contents (Elt F) → (⟨S400000, .i1⟩ : BufTy).Contents (Elt F)) (V (Proc.devRef .tc main_arg3)) (after opsL1 V (Proc.devRef .tc main_v72)) := by
  rw [← Rd.tk_keep opsL1_w1 70 (a := main_arg3) (by decide) V,
    ← Rd.tk_eq opsL1_w1 70 (a := main_v72) (by decide) V,
    Rd.at_eq opsL1_w1 70 (by decide) (y := main_v73) (by decide) V]
  generalize after (List.take 70 opsL1) V = W
  exact binary_result main_arg3 main_v72 main_v73 (cmpi .slt : (⟨S400000, .i32⟩ : BufTy).Contents (Elt F) → (⟨S400000, .i32⟩ : BufTy).Contents (Elt F) → (⟨S400000, .i1⟩ : BufTy).Contents (Elt F)) ⟨by decide, rfl⟩ ⟨by decide, rfl⟩ ⟨by decide, rfl⟩ W

theorem rd_main_c_6 (V : Valuation τ sig (Elt F)) :
    after opsL1 V (Proc.devRef .tc main_c_6) = (constantI S_ 32 50000#32) := by
  rw [Rd.at_eq opsL1_w1 71 (by decide) (y := main_c_6) (by decide) V]
  generalize after (List.take 71 opsL1) V = W
  exact nullary_result main_c_6 (constantI S_ 32 50000#32) ⟨by decide, rfl⟩ W

theorem rd_main_v74 (V : Valuation τ sig (Elt F)) :
    after opsL1 V (Proc.devRef .tc main_v74) = (broadcastInDim S400000 ![] bcast_S_S400000 : (⟨S_, .i32⟩ : BufTy).Contents (Elt F) → (⟨S400000, .i32⟩ : BufTy).Contents (Elt F)) (after opsL1 V (Proc.devRef .tc main_c_6)) := by
  rw [← Rd.tk_eq opsL1_w1 72 (a := main_c_6) (by decide) V,
    Rd.at_eq opsL1_w1 72 (by decide) (y := main_v74) (by decide) V]
  generalize after (List.take 72 opsL1) V = W
  exact unary_result main_c_6 main_v74 (broadcastInDim S400000 ![] bcast_S_S400000 : (⟨S_, .i32⟩ : BufTy).Contents (Elt F) → (⟨S400000, .i32⟩ : BufTy).Contents (Elt F)) ⟨by decide, rfl⟩ ⟨by decide, rfl⟩ W

theorem rd_main_v75 (V : Valuation τ sig (Elt F)) :
    after opsL1 V (Proc.devRef .tc main_v75) = (addi : (⟨S400000, .i32⟩ : BufTy).Contents (Elt F) → (⟨S400000, .i32⟩ : BufTy).Contents (Elt F) → (⟨S400000, .i32⟩ : BufTy).Contents (Elt F)) (V (Proc.devRef .tc main_arg3)) (after opsL1 V (Proc.devRef .tc main_v74)) := by
  rw [← Rd.tk_keep opsL1_w1 73 (a := main_arg3) (by decide) V,
    ← Rd.tk_eq opsL1_w1 73 (a := main_v74) (by decide) V,
    Rd.at_eq opsL1_w1 73 (by decide) (y := main_v75) (by decide) V]
  generalize after (List.take 73 opsL1) V = W
  exact binary_result main_arg3 main_v74 main_v75 (addi : (⟨S400000, .i32⟩ : BufTy).Contents (Elt F) → (⟨S400000, .i32⟩ : BufTy).Contents (Elt F) → (⟨S400000, .i32⟩ : BufTy).Contents (Elt F)) ⟨by decide, rfl⟩ ⟨by decide, rfl⟩ ⟨by decide, rfl⟩ W

theorem rd_main_v76 (V : Valuation τ sig (Elt F)) :
    after opsL1 V (Proc.devRef .tc main_v76) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (after opsL1 V (Proc.devRef .tc main_v73)) (after opsL1 V (Proc.devRef .tc main_v75)) (V (Proc.devRef .tc main_arg3)) := by
  rw [← Rd.tk_eq opsL1_w1 74 (a := main_v73) (by decide) V,
    ← Rd.tk_eq opsL1_w1 74 (a := main_v75) (by decide) V,
    ← Rd.tk_keep opsL1_w1 74 (a := main_arg3) (by decide) V,
    Rd.at_eq opsL1_w1 74 (by decide) (y := main_v76) (by decide) V]
  generalize after (List.take 74 opsL1) V = W
  exact ternary_result main_v73 main_v75 main_arg3 main_v76 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) ⟨by decide, rfl⟩ ⟨by decide, rfl⟩ ⟨by decide, rfl⟩ ⟨by decide, rfl⟩ W

theorem rd_main_v77 (V : Valuation τ sig (Elt F)) :
    after opsL1 V (Proc.devRef .tc main_v77) = (broadcastInDim S400000x1 ![0] bcast_S400000_S400000x1_0 : (⟨S400000, .i32⟩ : BufTy).Contents (Elt F) → (⟨S400000x1, .i32⟩ : BufTy).Contents (Elt F)) (after opsL1 V (Proc.devRef .tc main_v76)) := by
  rw [← Rd.tk_eq opsL1_w1 75 (a := main_v76) (by decide) V,
    Rd.at_eq opsL1_w1 75 (by decide) (y := main_v77) (by decide) V]
  generalize after (List.take 75 opsL1) V = W
  exact unary_result main_v76 main_v77 (broadcastInDim S400000x1 ![0] bcast_S400000_S400000x1_0 : (⟨S400000, .i32⟩ : BufTy).Contents (Elt F) → (⟨S400000x1, .i32⟩ : BufTy).Contents (Elt F)) ⟨by decide, rfl⟩ ⟨by decide, rfl⟩ W

theorem rd_main_v78 (V : Valuation τ sig (Elt F)) :
    after opsL1 V (Proc.devRef .tc main_v78) = ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)) (after opsL1 V (Proc.devRef .tc main_v25)) (after opsL1 V (Proc.devRef .tc main_v77)) := by
  rw [← Rd.tk_eq opsL1_w1 76 (a := main_v25) (by decide) V,
    ← Rd.tk_eq opsL1_w1 76 (a := main_v77) (by decide) V,
    Rd.at_eq opsL1_w1 76 (by decide) (y := main_v78) (by decide) V]
  generalize after (List.take 76 opsL1) V = W
  exact binary_result main_v25 main_v77 main_v78 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)) ⟨by decide, rfl⟩ ⟨by decide, rfl⟩ ⟨by decide, rfl⟩ W

theorem rd_main_v79 (V : Valuation τ sig (Elt F)) :
    after opsL1 V (Proc.devRef .tc main_v79) = (mulf : (⟨S400000x64, .f32⟩ : BufTy).Contents (Elt F) → (⟨S400000x64, .f32⟩ : BufTy).Contents (Elt F) → (⟨S400000x64, .f32⟩ : BufTy).Contents (Elt F)) (after opsL1 V (Proc.devRef .tc main_v71)) (after opsL1 V (Proc.devRef .tc main_v78)) := by
  rw [← Rd.tk_eq opsL1_w1 77 (a := main_v71) (by decide) V,
    ← Rd.tk_eq opsL1_w1 77 (a := main_v78) (by decide) V,
    Rd.at_eq opsL1_w1 77 (by decide) (y := main_v79) (by decide) V]
  generalize after (List.take 77 opsL1) V = W
  exact binary_result main_v71 main_v78 main_v79 (mulf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_cst_7 (V : Valuation τ sig (Elt F)) :
    after opsL1 V (Proc.devRef .tc main_cst_7) = (constant S_ .f32 0x00000000#32) := by
  rw [Rd.at_eq opsL1_w1 78 (by decide) (y := main_cst_7) (by decide) V]
  generalize after (List.take 78 opsL1) V = W
  exact nullary_result main_cst_7 (constant S_ .f32 0x00000000#32) ⟨by decide, rfl⟩ W

theorem rd_main_v80 (V : Valuation τ sig (Elt F)) :
    after opsL1 V (Proc.devRef .tc main_v80) = (broadcastInDim S50000x64 ![] bcast_S_S50000x64 : (⟨S_, .f32⟩ : BufTy).Contents (Elt F) → (⟨S50000x64, .f32⟩ : BufTy).Contents (Elt F)) (after opsL1 V (Proc.devRef .tc main_cst_7)) := by
  rw [← Rd.tk_eq opsL1_w1 79 (a := main_cst_7) (by decide) V,
    Rd.at_eq opsL1_w1 79 (by decide) (y := main_v80) (by decide) V]
  generalize after (List.take 79 opsL1) V = W
  exact unary_result main_cst_7 main_v80 (broadcastInDim S50000x64 ![] bcast_S_S50000x64 : (⟨S_, .f32⟩ : BufTy).Contents (Elt F) → (⟨S50000x64, .f32⟩ : BufTy).Contents (Elt F)) ⟨by decide, rfl⟩ ⟨by decide, rfl⟩ W

theorem rd_main_v81 (V : Valuation τ sig (Elt F)) :
    after opsL1 V (Proc.devRef .tc main_v81) = (broadcastInDim S400000x1 ![0] bcast_S400000_S400000x1_0 : (⟨S400000, .i32⟩ : BufTy).Contents (Elt F) → (⟨S400000x1, .i32⟩ : BufTy).Contents (Elt F)) (V (Proc.devRef .tc main_arg4)) := by
  rw [← Rd.tk_keep opsL1_w1 80 (a := main_arg4) (by decide) V,
    Rd.at_eq opsL1_w1 80 (by decide) (y := main_v81) (by decide) V]
  generalize after (List.take 80 opsL1) V = W
  exact unary_result main_arg4 main_v81 (broadcastInDim S400000x1 ![0] bcast_S400000_S400000x1_0 : (⟨S400000, .i32⟩ : BufTy).Contents (Elt F) → (⟨S400000x1, .i32⟩ : BufTy).Contents (Elt F)) ⟨by decide, rfl⟩ ⟨by decide, rfl⟩ W

theorem rd_main_v82 (V : Valuation τ sig (Elt F)) :
    after opsL1 V (Proc.devRef .tc main_v82) = ((fun x i u => Host.scatterAdd scatter_S50000x64_S400000x1_S400000x64_1_0_0_1 x i u) : (⟨S50000x64, .f32⟩ : BufTy).Contents (Elt F) → (⟨S400000x1, .i32⟩ : BufTy).Contents (Elt F) → (⟨S400000x64, .f32⟩ : BufTy).Contents (Elt F) → (⟨S50000x64, .f32⟩ : BufTy).Contents (Elt F)) (after opsL1 V (Proc.devRef .tc main_v80)) (after opsL1 V (Proc.devRef .tc main_v81)) (after opsL1 V (Proc.devRef .tc main_v79)) := by
  rw [← Rd.tk_eq opsL1_w1 81 (a := main_v80) (by decide) V,
    ← Rd.tk_eq opsL1_w1 81 (a := main_v81) (by decide) V,
    ← Rd.tk_eq opsL1_w1 81 (a := main_v79) (by decide) V,
    Rd.at_eq opsL1_w1 81 (by decide) (y := main_v82) (by decide) V]
  generalize after (List.take 81 opsL1) V = W
  exact ternary_result main_v80 main_v81 main_v79 main_v82 ((fun x i u => Host.scatterAdd scatter_S50000x64_S400000x1_S400000x64_1_0_0_1 x i u) : (⟨S50000x64, .f32⟩ : BufTy).Contents (Elt F) → (⟨S400000x1, .i32⟩ : BufTy).Contents (Elt F) → (⟨S400000x64, .f32⟩ : BufTy).Contents (Elt F) → (⟨S50000x64, .f32⟩ : BufTy).Contents (Elt F)) ⟨by decide, rfl⟩ ⟨by decide, rfl⟩ ⟨by decide, rfl⟩ ⟨by decide, rfl⟩ W

theorem rd_main_cst_8 (V : Valuation τ sig (Elt F)) :
    after opsL1 V (Proc.devRef .tc main_cst_8) = (constant S_ .f32 0x00000000#32) := by
  rw [Rd.at_eq opsL1_w1 82 (by decide) (y := main_cst_8) (by decide) V]
  generalize after (List.take 82 opsL1) V = W
  exact nullary_result main_cst_8 (constant S_ .f32 0x00000000#32) ⟨by decide, rfl⟩ W

theorem rd_main_v83 (V : Valuation τ sig (Elt F)) :
    after opsL1 V (Proc.devRef .tc main_v83) = (broadcastInDim S50000x64 ![] bcast_S_S50000x64 : (⟨S_, .f32⟩ : BufTy).Contents (Elt F) → (⟨S50000x64, .f32⟩ : BufTy).Contents (Elt F)) (after opsL1 V (Proc.devRef .tc main_cst_8)) := by
  rw [← Rd.tk_eq opsL1_w1 83 (a := main_cst_8) (by decide) V,
    Rd.at_eq opsL1_w1 83 (by decide) (y := main_v83) (by decide) V]
  generalize after (List.take 83 opsL1) V = W
  exact unary_result main_cst_8 main_v83 (broadcastInDim S50000x64 ![] bcast_S_S50000x64 : (⟨S_, .f32⟩ : BufTy).Contents (Elt F) → (⟨S50000x64, .f32⟩ : BufTy).Contents (Elt F)) ⟨by decide, rfl⟩ ⟨by decide, rfl⟩ W

theorem rd_main_v84 (V : Valuation τ sig (Elt F)) :
    after opsL1 V (Proc.devRef .tc main_v84) = (broadcastInDim S400000x1 ![0] bcast_S400000_S400000x1_0 : (⟨S400000, .i32⟩ : BufTy).Contents (Elt F) → (⟨S400000x1, .i32⟩ : BufTy).Contents (Elt F)) (V (Proc.devRef .tc main_arg4)) := by
  rw [← Rd.tk_keep opsL1_w1 84 (a := main_arg4) (by decide) V,
    Rd.at_eq opsL1_w1 84 (by decide) (y := main_v84) (by decide) V]
  generalize after (List.take 84 opsL1) V = W
  exact unary_result main_arg4 main_v84 (broadcastInDim S400000x1 ![0] bcast_S400000_S400000x1_0 : (⟨S400000, .i32⟩ : BufTy).Contents (Elt F) → (⟨S400000x1, .i32⟩ : BufTy).Contents (Elt F)) ⟨by decide, rfl⟩ ⟨by decide, rfl⟩ W

theorem rd_main_v85 (V : Valuation τ sig (Elt F)) :
    after opsL1 V (Proc.devRef .tc main_v85) = ((fun x i u => Host.scatterAdd scatter_S50000x64_S400000x1_S400000x64_1_0_0_1 x i u) : (⟨S50000x64, .f32⟩ : BufTy).Contents (Elt F) → (⟨S400000x1, .i32⟩ : BufTy).Contents (Elt F) → (⟨S400000x64, .f32⟩ : BufTy).Contents (Elt F) → (⟨S50000x64, .f32⟩ : BufTy).Contents (Elt F)) (after opsL1 V (Proc.devRef .tc main_v83)) (after opsL1 V (Proc.devRef .tc main_v84)) (after opsL1 V (Proc.devRef .tc main_v71)) := by
  rw [← Rd.tk_eq opsL1_w1 85 (a := main_v83) (by decide) V,
    ← Rd.tk_eq opsL1_w1 85 (a := main_v84) (by decide) V,
    ← Rd.tk_eq opsL1_w1 85 (a := main_v71) (by decide) V,
    Rd.at_eq opsL1_w1 85 (by decide) (y := main_v85) (by decide) V]
  generalize after (List.take 85 opsL1) V = W
  exact ternary_result main_v83 main_v84 main_v71 main_v85 ((fun x i u => Host.scatterAdd scatter_S50000x64_S400000x1_S400000x64_1_0_0_1 x i u) : (⟨S50000x64, .f32⟩ : BufTy).Contents (Elt F) → (⟨S400000x1, .i32⟩ : BufTy).Contents (Elt F) → (⟨S400000x64, .f32⟩ : BufTy).Contents (Elt F) → (⟨S50000x64, .f32⟩ : BufTy).Contents (Elt F)) ⟨by decide, rfl⟩ ⟨by decide, rfl⟩ ⟨by decide, rfl⟩ ⟨by decide, rfl⟩ W

theorem rd_main_cst_9 (V : Valuation τ sig (Elt F)) :
    after opsL1 V (Proc.devRef .tc main_cst_9) = (constant S_ .f32 0x358637BD#32) := by
  rw [Rd.at_eq opsL1_w1 86 (by decide) (y := main_cst_9) (by decide) V]
  generalize after (List.take 86 opsL1) V = W
  exact nullary_result main_cst_9 (constant S_ .f32 0x358637BD#32) ⟨by decide, rfl⟩ W

theorem rd_main_v86 (V : Valuation τ sig (Elt F)) :
    after opsL1 V (Proc.devRef .tc main_v86) = (broadcastInDim S50000x64 ![] bcast_S_S50000x64 : (⟨S_, .f32⟩ : BufTy).Contents (Elt F) → (⟨S50000x64, .f32⟩ : BufTy).Contents (Elt F)) (after opsL1 V (Proc.devRef .tc main_cst_9)) := by
  rw [← Rd.tk_eq opsL1_w1 87 (a := main_cst_9) (by decide) V,
    Rd.at_eq opsL1_w1 87 (by decide) (y := main_v86) (by decide) V]
  generalize after (List.take 87 opsL1) V = W
  exact unary_result main_cst_9 main_v86 (broadcastInDim S50000x64 ![] bcast_S_S50000x64 : (⟨S_, .f32⟩ : BufTy).Contents (Elt F) → (⟨S50000x64, .f32⟩ : BufTy).Contents (Elt F)) ⟨by decide, rfl⟩ ⟨by decide, rfl⟩ W

theorem rd_main_v87 (V : Valuation τ sig (Elt F)) :
    after opsL1 V (Proc.devRef .tc main_v87) = (addf : (⟨S50000x64, .f32⟩ : BufTy).Contents (Elt F) → (⟨S50000x64, .f32⟩ : BufTy).Contents (Elt F) → (⟨S50000x64, .f32⟩ : BufTy).Contents (Elt F)) (after opsL1 V (Proc.devRef .tc main_v85)) (after opsL1 V (Proc.devRef .tc main_v86)) := by
  rw [← Rd.tk_eq opsL1_w1 88 (a := main_v85) (by decide) V,
    ← Rd.tk_eq opsL1_w1 88 (a := main_v86) (by decide) V,
    Rd.at_eq opsL1_w1 88 (by decide) (y := main_v87) (by decide) V]
  generalize after (List.take 88 opsL1) V = W
  exact binary_result main_v85 main_v86 main_v87 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v88 (V : Valuation τ sig (Elt F)) :
    after opsL1 V (Proc.devRef .tc main_v88) = (Host.divf : (⟨S50000x64, .f32⟩ : BufTy).Contents (Elt F) → (⟨S50000x64, .f32⟩ : BufTy).Contents (Elt F) → (⟨S50000x64, .f32⟩ : BufTy).Contents (Elt F)) (after opsL1 V (Proc.devRef .tc main_v82)) (after opsL1 V (Proc.devRef .tc main_v87)) := by
  rw [← Rd.tk_eq opsL1_w1 89 (a := main_v82) (by decide) V,
    ← Rd.tk_eq opsL1_w1 89 (a := main_v87) (by decide) V,
    Rd.at_eq opsL1_w1 89 (by decide) (y := main_v88) (by decide) V]
  generalize after (List.take 89 opsL1) V = W
  exact binary_result main_v82 main_v87 main_v88 (Host.divf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v89 (V : Valuation τ sig (Elt F)) :
    after opsL1 V (Proc.devRef .tc main_v89) = (addf : (⟨S50000x64, .f32⟩ : BufTy).Contents (Elt F) → (⟨S50000x64, .f32⟩ : BufTy).Contents (Elt F) → (⟨S50000x64, .f32⟩ : BufTy).Contents (Elt F)) (after opsL1 V (Proc.devRef .tc main_v17)) (after opsL1 V (Proc.devRef .tc main_v88)) := by
  rw [← Rd.tk_eq opsL1_w1 90 (a := main_v17) (by decide) V,
    ← Rd.tk_eq opsL1_w1 90 (a := main_v88) (by decide) V,
    Rd.at_eq opsL1_w1 90 (by decide) (y := main_v89) (by decide) V]
  generalize after (List.take 90 opsL1) V = W
  exact binary_result main_v17 main_v88 main_v89 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v90 (V : Valuation τ sig (Elt F)) :
    after opsL1 V (Proc.devRef .tc main_v90) = ((extractStridedSlice S1x64 ![0, 0] · slices_S3x64_S1x64_0_0) : (⟨S3x64, .f32⟩ : BufTy).Contents (Elt F) → (⟨S1x64, .f32⟩ : BufTy).Contents (Elt F)) (V (Proc.devRef .tc main_arg20)) := by
  rw [← Rd.tk_keep opsL1_w1 91 (a := main_arg20) (by decide) V,
    Rd.at_eq opsL1_w1 91 (by decide) (y := main_v90) (by decide) V]
  generalize after (List.take 91 opsL1) V = W
  exact unary_result main_arg20 main_v90 ((extractStridedSlice S1x64 ![0, 0] · slices_S3x64_S1x64_0_0) : (⟨S3x64, .f32⟩ : BufTy).Contents (Elt F) → (⟨S1x64, .f32⟩ : BufTy).Contents (Elt F)) ⟨by decide, rfl⟩ ⟨by decide, rfl⟩ W

theorem rd_main_v91 (V : Valuation τ sig (Elt F)) :
    after opsL1 V (Proc.devRef .tc main_v91) = shapeCast S64 (after opsL1 V (Proc.devRef .tc main_v90)) shapeCasts_S1x64_S64 := by
  rw [← Rd.tk_eq opsL1_w1 92 (a := main_v90) (by decide) V,
    Rd.at_eq opsL1_w1 92 (by decide) (y := main_v91) (by decide) V]
  generalize after (List.take 92 opsL1) V = W
  exact reshape_result main_v90 main_v91 rfl shapeCasts_S1x64_S64 ⟨by decide, rfl⟩ ⟨by decide, rfl⟩ W

theorem rd_main_v92 (V : Valuation τ sig (Elt F)) :
    after opsL1 V (Proc.devRef .tc main_v92) = ((extractStridedSlice S1x64 ![0, 0] · slices_S3x64_S1x64_0_0) : (⟨S3x64, .f32⟩ : BufTy).Contents (Elt F) → (⟨S1x64, .f32⟩ : BufTy).Contents (Elt F)) (V (Proc.devRef .tc main_arg21)) := by
  rw [← Rd.tk_keep opsL1_w1 93 (a := main_arg21) (by decide) V,
    Rd.at_eq opsL1_w1 93 (by decide) (y := main_v92) (by decide) V]
  generalize after (List.take 93 opsL1) V = W
  exact unary_result main_arg21 main_v92 ((extractStridedSlice S1x64 ![0, 0] · slices_S3x64_S1x64_0_0) : (⟨S3x64, .f32⟩ : BufTy).Contents (Elt F) → (⟨S1x64, .f32⟩ : BufTy).Contents (Elt F)) ⟨by decide, rfl⟩ ⟨by decide, rfl⟩ W

theorem rd_main_v93 (V : Valuation τ sig (Elt F)) :
    after opsL1 V (Proc.devRef .tc main_v93) = shapeCast S64 (after opsL1 V (Proc.devRef .tc main_v92)) shapeCasts_S1x64_S64 := by
  rw [← Rd.tk_eq opsL1_w1 94 (a := main_v92) (by decide) V,
    Rd.at_eq opsL1_w1 94 (by decide) (y := main_v93) (by decide) V]
  generalize after (List.take 94 opsL1) V = W
  exact reshape_result main_v92 main_v93 rfl shapeCasts_S1x64_S64 ⟨by decide, rfl⟩ ⟨by decide, rfl⟩ W

theorem rd_main_cst_10 (V : Valuation τ sig (Elt F)) :
    after opsL1 V (Proc.devRef .tc main_cst_10) = (constant S_ .f32 0x00000000#32) := by
  rw [Rd.at_eq opsL1_w1 95 (by decide) (y := main_cst_10) (by decide) V]
  generalize after (List.take 95 opsL1) V = W
  exact nullary_result main_cst_10 (constant S_ .f32 0x00000000#32) ⟨by decide, rfl⟩ W

theorem rd_main_v94 (V : Valuation τ sig (Elt F)) :
    after opsL1 V (Proc.devRef .tc main_v94) = ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) (after opsL1 V (Proc.devRef .tc main_v89)) (after opsL1 V (Proc.devRef .tc main_cst_10)) := by
  rw [← Rd.tk_eq opsL1_w1 96 (a := main_v89) (by decide) V,
    ← Rd.tk_eq opsL1_w1 96 (a := main_cst_10) (by decide) V,
    Rd.at_eq opsL1_w1 96 (by decide) (y := main_v94) (by decide) V]
  generalize after (List.take 96 opsL1) V = W
  exact binary_result main_v89 main_cst_10 main_v94 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ W

theorem rd_main_cst_11 (V : Valuation τ sig (Elt F)) :
    after opsL1 V (Proc.devRef .tc main_cst_11) = (constant S_ .f32 0x47435000#32) := by
  rw [Rd.at_eq opsL1_w1 97 (by decide) (y := main_cst_11) (by decide) V]
  generalize after (List.take 97 opsL1) V = W
  exact nullary_result main_cst_11 (constant S_ .f32 0x47435000#32) ⟨by decide, rfl⟩ W

theorem rd_main_v95 (V : Valuation τ sig (Elt F)) :
    after opsL1 V (Proc.devRef .tc main_v95) = (broadcastInDim S64 ![] bcast_S_S64 : (⟨S_, .f32⟩ : BufTy).Contents (Elt F) → (⟨S64, .f32⟩ : BufTy).Contents (Elt F)) (after opsL1 V (Proc.devRef .tc main_cst_11)) := by
  rw [← Rd.tk_eq opsL1_w1 98 (a := main_cst_11) (by decide) V,
    Rd.at_eq opsL1_w1 98 (by decide) (y := main_v95) (by decide) V]
  generalize after (List.take 98 opsL1) V = W
  exact unary_result main_cst_11 main_v95 (broadcastInDim S64 ![] bcast_S_S64 : (⟨S_, .f32⟩ : BufTy).Contents (Elt F) → (⟨S64, .f32⟩ : BufTy).Contents (Elt F)) ⟨by decide, rfl⟩ ⟨by decide, rfl⟩ W

theorem rd_main_v96 (V : Valuation τ sig (Elt F)) :
    after opsL1 V (Proc.devRef .tc main_v96) = (Host.divf : (⟨S64, .f32⟩ : BufTy).Contents (Elt F) → (⟨S64, .f32⟩ : BufTy).Contents (Elt F) → (⟨S64, .f32⟩ : BufTy).Contents (Elt F)) (after opsL1 V (Proc.devRef .tc main_v94)) (after opsL1 V (Proc.devRef .tc main_v95)) := by
  rw [← Rd.tk_eq opsL1_w1 99 (a := main_v94) (by decide) V,
    ← Rd.tk_eq opsL1_w1 99 (a := main_v95) (by decide) V,
    Rd.at_eq opsL1_w1 99 (by decide) (y := main_v96) (by decide) V]
  generalize after (List.take 99 opsL1) V = W
  exact binary_result main_v94 main_v95 main_v96 (Host.divf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ W

theorem rd_main_c_12 (V : Valuation τ sig (Elt F)) :
    after opsL1 V (Proc.devRef .tc main_c_12) = (constantI S_ 32 0#32) := by
  rw [Rd.at_eq opsL1_w1 100 (by decide) (y := main_c_12) (by decide) V]
  generalize after (List.take 100 opsL1) V = W
  exact nullary_result main_c_12 (constantI S_ 32 0#32) ⟨by decide, rfl⟩ W

theorem rd_main_call0_cst (V : Valuation τ sig (Elt F)) :
    after opsL1 V (Proc.devRef .tc main_call0_cst) = ((constant S_ .f32 0x00000000#32) : (⟨S_, .f32⟩ : BufTy).Contents (Elt F)) := by
  rw [Rd.at_eq opsL1_w1 101 (by decide) (y := main_call0_cst) (by decide) V]
  generalize after (List.take 101 opsL1) V = W
  exact nullary_result main_call0_cst ((constant S_ .f32 0x00000000#32) : (⟨S_, .f32⟩ : BufTy).Contents (Elt F)) ⟨by decide, rfl⟩ W

theorem rd_main_call0_v0 (V : Valuation τ sig (Elt F)) :
    after opsL1 V (Proc.devRef .tc main_call0_v0) = ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) (after opsL1 V (Proc.devRef .tc main_v89)) (after opsL1 V (Proc.devRef .tc main_call0_cst)) := by
  rw [← Rd.tk_eq opsL1_w1 102 (a := main_v89) (by decide) V,
    ← Rd.tk_eq opsL1_w1 102 (a := main_call0_cst) (by decide) V,
    Rd.at_eq opsL1_w1 102 (by decide) (y := main_call0_v0) (by decide) V]
  generalize after (List.take 102 opsL1) V = W
  exact binary_result main_v89 main_call0_cst main_call0_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ W

theorem rd_main_call0_v1 (V : Valuation τ sig (Elt F)) :
    after opsL1 V (Proc.devRef .tc main_call0_v1) = ((broadcastInDim S1x64 ![1] bcast_S64_S1x64_1) : (⟨S64, .f32⟩ : BufTy).Contents (Elt F) → (⟨S1x64, .f32⟩ : BufTy).Contents (Elt F)) (after opsL1 V (Proc.devRef .tc main_call0_v0)) := by
  rw [← Rd.tk_eq opsL1_w1 103 (a := main_call0_v0) (by decide) V,
    Rd.at_eq opsL1_w1 103 (by decide) (y := main_call0_v1) (by decide) V]
  generalize after (List.take 103 opsL1) V = W
  exact unary_result main_call0_v0 main_call0_v1 ((broadcastInDim S1x64 ![1] bcast_S64_S1x64_1) : (⟨S64, .f32⟩ : BufTy).Contents (Elt F) → (⟨S1x64, .f32⟩ : BufTy).Contents (Elt F)) ⟨by decide, rfl⟩ ⟨by decide, rfl⟩ W

theorem rd_main_call0_cst_0 (V : Valuation τ sig (Elt F)) :
    after opsL1 V (Proc.devRef .tc main_call0_cst_0) = ((constant S_ .f32 0x47435000#32) : (⟨S_, .f32⟩ : BufTy).Contents (Elt F)) := by
  rw [Rd.at_eq opsL1_w1 104 (by decide) (y := main_call0_cst_0) (by decide) V]
  generalize after (List.take 104 opsL1) V = W
  exact nullary_result main_call0_cst_0 ((constant S_ .f32 0x47435000#32) : (⟨S_, .f32⟩ : BufTy).Contents (Elt F)) ⟨by decide, rfl⟩ W

theorem rd_main_call0_v2 (V : Valuation τ sig (Elt F)) :
    after opsL1 V (Proc.devRef .tc main_call0_v2) = ((broadcastInDim S1x64 ![] bcast_S_S1x64) : (⟨S_, .f32⟩ : BufTy).Contents (Elt F) → (⟨S1x64, .f32⟩ : BufTy).Contents (Elt F)) (after opsL1 V (Proc.devRef .tc main_call0_cst_0)) := by
  rw [← Rd.tk_eq opsL1_w1 105 (a := main_call0_cst_0) (by decide) V,
    Rd.at_eq opsL1_w1 105 (by decide) (y := main_call0_v2) (by decide) V]
  generalize after (List.take 105 opsL1) V = W
  exact unary_result main_call0_cst_0 main_call0_v2 ((broadcastInDim S1x64 ![] bcast_S_S1x64) : (⟨S_, .f32⟩ : BufTy).Contents (Elt F) → (⟨S1x64, .f32⟩ : BufTy).Contents (Elt F)) ⟨by decide, rfl⟩ ⟨by decide, rfl⟩ W

theorem rd_main_call0_v3 (V : Valuation τ sig (Elt F)) :
    after opsL1 V (Proc.devRef .tc main_call0_v3) = (Host.divf : (⟨S1x64, .f32⟩ : BufTy).Contents (Elt F) → (⟨S1x64, .f32⟩ : BufTy).Contents (Elt F) → (⟨S1x64, .f32⟩ : BufTy).Contents (Elt F)) (after opsL1 V (Proc.devRef .tc main_call0_v1)) (after opsL1 V (Proc.devRef .tc main_call0_v2)) := by
  rw [← Rd.tk_eq opsL1_w1 106 (a := main_call0_v1) (by decide) V,
    ← Rd.tk_eq opsL1_w1 106 (a := main_call0_v2) (by decide) V,
    Rd.at_eq opsL1_w1 106 (by decide) (y := main_call0_v3) (by decide) V]
  generalize after (List.take 106 opsL1) V = W
  exact binary_result main_call0_v1 main_call0_v2 main_call0_v3 (Host.divf : (⟨S1x64, .f32⟩ : BufTy).Contents (Elt F) → (⟨S1x64, .f32⟩ : BufTy).Contents (Elt F) → (⟨S1x64, .f32⟩ : BufTy).Contents (Elt F)) ⟨by decide, rfl⟩ ⟨by decide, rfl⟩ ⟨by decide, rfl⟩ W

theorem rd_main_call0_v4 (V : Valuation τ sig (Elt F)) :
    after opsL1 V (Proc.devRef .tc main_call0_v4) = ((broadcastInDim S50000x64 ![0, 1] bcast_S1x64_S50000x64_0_1) : (⟨S1x64, .f32⟩ : BufTy).Contents (Elt F) → (⟨S50000x64, .f32⟩ : BufTy).Contents (Elt F)) (after opsL1 V (Proc.devRef .tc main_call0_v3)) := by
  rw [← Rd.tk_eq opsL1_w1 107 (a := main_call0_v3) (by decide) V,
    Rd.at_eq opsL1_w1 107 (by decide) (y := main_call0_v4) (by decide) V]
  generalize after (List.take 107 opsL1) V = W
  exact unary_result main_call0_v3 main_call0_v4 ((broadcastInDim S50000x64 ![0, 1] bcast_S1x64_S50000x64_0_1) : (⟨S1x64, .f32⟩ : BufTy).Contents (Elt F) → (⟨S50000x64, .f32⟩ : BufTy).Contents (Elt F)) ⟨by decide, rfl⟩ ⟨by decide, rfl⟩ W

theorem rd_main_call0_v5 (V : Valuation τ sig (Elt F)) :
    after opsL1 V (Proc.devRef .tc main_call0_v5) = (subf : (⟨S50000x64, .f32⟩ : BufTy).Contents (Elt F) → (⟨S50000x64, .f32⟩ : BufTy).Contents (Elt F) → (⟨S50000x64, .f32⟩ : BufTy).Contents (Elt F)) (after opsL1 V (Proc.devRef .tc main_v89)) (after opsL1 V (Proc.devRef .tc main_call0_v4)) := by
  rw [← Rd.tk_eq opsL1_w1 108 (a := main_v89) (by decide) V,
    ← Rd.tk_eq opsL1_w1 108 (a := main_call0_v4) (by decide) V,
    Rd.at_eq opsL1_w1 108 (by decide) (y := main_call0_v5) (by decide) V]
  generalize after (List.take 108 opsL1) V = W
  exact binary_result main_v89 main_call0_v4 main_call0_v5 (subf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_call0_v6 (V : Valuation τ sig (Elt F)) :
    after opsL1 V (Proc.devRef .tc main_call0_v6) = (mulf : (⟨S50000x64, .f32⟩ : BufTy).Contents (Elt F) → (⟨S50000x64, .f32⟩ : BufTy).Contents (Elt F) → (⟨S50000x64, .f32⟩ : BufTy).Contents (Elt F)) (after opsL1 V (Proc.devRef .tc main_call0_v5)) (after opsL1 V (Proc.devRef .tc main_call0_v5)) := by
  rw [← Rd.tk_eq opsL1_w1 109 (a := main_call0_v5) (by decide) V,
    Rd.at_eq opsL1_w1 109 (by decide) (y := main_call0_v6) (by decide) V]
  generalize after (List.take 109 opsL1) V = W
  exact binary_result main_call0_v5 main_call0_v5 main_call0_v6 (mulf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_call0_v7 (V : Valuation τ sig (Elt F)) :
    after opsL1 V (Proc.devRef .tc main_call0_v7) = ((sitofp .f32) : (⟨S_, .i32⟩ : BufTy).Contents (Elt F) → (⟨S_, .f32⟩ : BufTy).Contents (Elt F)) (after opsL1 V (Proc.devRef .tc main_c_12)) := by
  rw [← Rd.tk_eq opsL1_w1 110 (a := main_c_12) (by decide) V,
    Rd.at_eq opsL1_w1 110 (by decide) (y := main_call0_v7) (by decide) V]
  generalize after (List.take 110 opsL1) V = W
  exact unary_result main_c_12 main_call0_v7 ((sitofp .f32) : (⟨S_, .i32⟩ : BufTy).Contents (Elt F) → (⟨S_, .f32⟩ : BufTy).Contents (Elt F)) ⟨by decide, rfl⟩ ⟨by decide, rfl⟩ W

theorem rd_main_call0_cst_1 (V : Valuation τ sig (Elt F)) :
    after opsL1 V (Proc.devRef .tc main_call0_cst_1) = ((constant S_ .f32 0x47435000#32) : (⟨S_, .f32⟩ : BufTy).Contents (Elt F)) := by
  rw [Rd.at_eq opsL1_w1 111 (by decide) (y := main_call0_cst_1) (by decide) V]
  generalize after (List.take 111 opsL1) V = W
  exact nullary_result main_call0_cst_1 ((constant S_ .f32 0x47435000#32) : (⟨S_, .f32⟩ : BufTy).Contents (Elt F)) ⟨by decide, rfl⟩ W

theorem rd_main_call0_v8 (V : Valuation τ sig (Elt F)) :
    after opsL1 V (Proc.devRef .tc main_call0_v8) = (subf : (⟨S_, .f32⟩ : BufTy).Contents (Elt F) → (⟨S_, .f32⟩ : BufTy).Contents (Elt F) → (⟨S_, .f32⟩ : BufTy).Contents (Elt F)) (after opsL1 V (Proc.devRef .tc main_call0_cst_1)) (after opsL1 V (Proc.devRef .tc main_call0_v7)) := by
  rw [← Rd.tk_eq opsL1_w1 112 (a := main_call0_cst_1) (by decide) V,
    ← Rd.tk_eq opsL1_w1 112 (a := main_call0_v7) (by decide) V,
    Rd.at_eq opsL1_w1 112 (by decide) (y := main_call0_v8) (by decide) V]
  generalize after (List.take 112 opsL1) V = W
  exact binary_result main_call0_cst_1 main_call0_v7 main_call0_v8 (subf : (⟨S_, .f32⟩ : BufTy).Contents (Elt F) → (⟨S_, .f32⟩ : BufTy).Contents (Elt F) → (⟨S_, .f32⟩ : BufTy).Contents (Elt F)) ⟨by decide, rfl⟩ ⟨by decide, rfl⟩ ⟨by decide, rfl⟩ W

theorem rd_main_call0_cst_2 (V : Valuation τ sig (Elt F)) :
    after opsL1 V (Proc.devRef .tc main_call0_cst_2) = ((constant S_ .f32 0x00000000#32) : (⟨S_, .f32⟩ : BufTy).Contents (Elt F)) := by
  rw [Rd.at_eq opsL1_w1 113 (by decide) (y := main_call0_cst_2) (by decide) V]
  generalize after (List.take 113 opsL1) V = W
  exact nullary_result main_call0_cst_2 ((constant S_ .f32 0x00000000#32) : (⟨S_, .f32⟩ : BufTy).Contents (Elt F)) ⟨by decide, rfl⟩ W

theorem rd_main_call0_v9 (V : Valuation τ sig (Elt F)) :
    after opsL1 V (Proc.devRef .tc main_call0_v9) = ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) (after opsL1 V (Proc.devRef .tc main_call0_v6)) (after opsL1 V (Proc.devRef .tc main_call0_cst_2)) := by
  rw [← Rd.tk_eq opsL1_w1 114 (a := main_call0_v6) (by decide) V,
    ← Rd.tk_eq opsL1_w1 114 (a := main_call0_cst_2) (by decide) V,
    Rd.at_eq opsL1_w1 114 (by decide) (y := main_call0_v9) (by decide) V]
  generalize after (List.take 114 opsL1) V = W
  exact binary_result main_call0_v6 main_call0_cst_2 main_call0_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ W

theorem rd_main_call0_v10 (V : Valuation τ sig (Elt F)) :
    after opsL1 V (Proc.devRef .tc main_call0_v10) = ((broadcastInDim S64 ![] bcast_S_S64) : (⟨S_, .f32⟩ : BufTy).Contents (Elt F) → (⟨S64, .f32⟩ : BufTy).Contents (Elt F)) (after opsL1 V (Proc.devRef .tc main_call0_v8)) := by
  rw [← Rd.tk_eq opsL1_w1 115 (a := main_call0_v8) (by decide) V,
    Rd.at_eq opsL1_w1 115 (by decide) (y := main_call0_v10) (by decide) V]
  generalize after (List.take 115 opsL1) V = W
  exact unary_result main_call0_v8 main_call0_v10 ((broadcastInDim S64 ![] bcast_S_S64) : (⟨S_, .f32⟩ : BufTy).Contents (Elt F) → (⟨S64, .f32⟩ : BufTy).Contents (Elt F)) ⟨by decide, rfl⟩ ⟨by decide, rfl⟩ W

theorem rd_main_call0_v11 (V : Valuation τ sig (Elt F)) :
    after opsL1 V (Proc.devRef .tc main_call0_v11) = (Host.divf : (⟨S64, .f32⟩ : BufTy).Contents (Elt F) → (⟨S64, .f32⟩ : BufTy).Contents (Elt F) → (⟨S64, .f32⟩ : BufTy).Contents (Elt F)) (after opsL1 V (Proc.devRef .tc main_call0_v9)) (after opsL1 V (Proc.devRef .tc main_call0_v10)) := by
  rw [← Rd.tk_eq opsL1_w1 116 (a := main_call0_v9) (by decide) V,
    ← Rd.tk_eq opsL1_w1 116 (a := main_call0_v10) (by decide) V,
    Rd.at_eq opsL1_w1 116 (by decide) (y := main_call0_v11) (by decide) V]
  generalize after (List.take 116 opsL1) V = W
  exact binary_result main_call0_v9 main_call0_v10 main_call0_v11 (Host.divf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ W

theorem rd_main_call0_cst_3 (V : Valuation τ sig (Elt F)) :
    after opsL1 V (Proc.devRef .tc main_call0_cst_3) = ((constant S_ .f32 0x00000000#32) : (⟨S_, .f32⟩ : BufTy).Contents (Elt F)) := by
  rw [Rd.at_eq opsL1_w1 117 (by decide) (y := main_call0_cst_3) (by decide) V]
  generalize after (List.take 117 opsL1) V = W
  exact nullary_result main_call0_cst_3 ((constant S_ .f32 0x00000000#32) : (⟨S_, .f32⟩ : BufTy).Contents (Elt F)) ⟨by decide, rfl⟩ W

theorem rd_main_call0_v12 (V : Valuation τ sig (Elt F)) :
    after opsL1 V (Proc.devRef .tc main_call0_v12) = ((cmpf .ogt) : (⟨S_, .f32⟩ : BufTy).Contents (Elt F) → (⟨S_, .f32⟩ : BufTy).Contents (Elt F) → (⟨S_, .i1⟩ : BufTy).Contents (Elt F)) (after opsL1 V (Proc.devRef .tc main_call0_v8)) (after opsL1 V (Proc.devRef .tc main_call0_cst_3)) := by
  rw [← Rd.tk_eq opsL1_w1 118 (a := main_call0_v8) (by decide) V,
    ← Rd.tk_eq opsL1_w1 118 (a := main_call0_cst_3) (by decide) V,
    Rd.at_eq opsL1_w1 118 (by decide) (y := main_call0_v12) (by decide) V]
  generalize after (List.take 118 opsL1) V = W
  exact binary_result main_call0_v8 main_call0_cst_3 main_call0_v12 ((cmpf .ogt) : (⟨S_, .f32⟩ : BufTy).Contents (Elt F) → (⟨S_, .f32⟩ : BufTy).Contents (Elt F) → (⟨S_, .i1⟩ : BufTy).Contents (Elt F)) ⟨by decide, rfl⟩ ⟨by decide, rfl⟩ ⟨by decide, rfl⟩ W

theorem rd_main_call0_cst_4 (V : Valuation τ sig (Elt F)) :
    after opsL1 V (Proc.devRef .tc main_call0_cst_4) = ((constant S_ .f32 0x7FC00000#32) : (⟨S_, .f32⟩ : BufTy).Contents (Elt F)) := by
  rw [Rd.at_eq opsL1_w1 119 (by decide) (y := main_call0_cst_4) (by decide) V]
  generalize after (List.take 119 opsL1) V = W
  exact nullary_result main_call0_cst_4 ((constant S_ .f32 0x7FC00000#32) : (⟨S_, .f32⟩ : BufTy).Contents (Elt F)) ⟨by decide, rfl⟩ W

theorem rd_main_call0_call0_v0 (V : Valuation τ sig (Elt F)) :
    after opsL1 V (Proc.devRef .tc main_call0_call0_v0) = (id : (⟨S_, .f32⟩ : BufTy).Contents (Elt F) → (⟨S_, .f32⟩ : BufTy).Contents (Elt F)) (after opsL1 V (Proc.devRef .tc main_call0_cst_4)) := by
  rw [← Rd.tk_eq opsL1_w1 120 (a := main_call0_cst_4) (by decide) V,
    Rd.at_eq opsL1_w1 120 (by decide) (y := main_call0_call0_v0) (by decide) V]
  generalize after (List.take 120 opsL1) V = W
  exact unary_result main_call0_cst_4 main_call0_call0_v0 (id : (⟨S_, .f32⟩ : BufTy).Contents (Elt F) → (⟨S_, .f32⟩ : BufTy).Contents (Elt F)) ⟨by decide, rfl⟩ ⟨by decide, rfl⟩ W

theorem rd_main_call0_call0_v1 (V : Valuation τ sig (Elt F)) :
    after opsL1 V (Proc.devRef .tc main_call0_call0_v1) = ((broadcastInDim S64 ![] bcast_S_S64) : (⟨S_, .f32⟩ : BufTy).Contents (Elt F) → (⟨S64, .f32⟩ : BufTy).Contents (Elt F)) (after opsL1 V (Proc.devRef .tc main_call0_call0_v0)) := by
  rw [← Rd.tk_eq opsL1_w1 121 (a := main_call0_call0_v0) (by decide) V,
    Rd.at_eq opsL1_w1 121 (by decide) (y := main_call0_call0_v1) (by decide) V]
  generalize after (List.take 121 opsL1) V = W
  exact unary_result main_call0_call0_v0 main_call0_call0_v1 ((broadcastInDim S64 ![] bcast_S_S64) : (⟨S_, .f32⟩ : BufTy).Contents (Elt F) → (⟨S64, .f32⟩ : BufTy).Contents (Elt F)) ⟨by decide, rfl⟩ ⟨by decide, rfl⟩ W

theorem rd_main_v97 (V : Valuation τ sig (Elt F)) :
    after opsL1 V (Proc.devRef .tc main_v97) = ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) (after opsL1 V (Proc.devRef .tc main_call0_v12)) (after opsL1 V (Proc.devRef .tc main_call0_v11)) (after opsL1 V (Proc.devRef .tc main_call0_call0_v1)) := by
  rw [← Rd.tk_eq opsL1_w1 122 (a := main_call0_v12) (by decide) V,
    ← Rd.tk_eq opsL1_w1 122 (a := main_call0_v11) (by decide) V,
    ← Rd.tk_eq opsL1_w1 122 (a := main_call0_call0_v1) (by decide) V,
    Rd.at_eq opsL1_w1 122 (by decide) (y := main_v97) (by decide) V]
  generalize after (List.take 122 opsL1) V = W
  exact ternary_result main_call0_v12 main_call0_v11 main_call0_call0_v1 main_v97 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ ⟨by decide, rfl⟩ W

theorem rd_main_v98 (V : Valuation τ sig (Elt F)) :
    after opsL1 V (Proc.devRef .tc main_v98) = (broadcastInDim S1x64 ![1] bcast_S64_S1x64_1 : (⟨S64, .f32⟩ : BufTy).Contents (Elt F) → (⟨S1x64, .f32⟩ : BufTy).Contents (Elt F)) (after opsL1 V (Proc.devRef .tc main_v96)) := by
  rw [← Rd.tk_eq opsL1_w1 123 (a := main_v96) (by decide) V,
    Rd.at_eq opsL1_w1 123 (by decide) (y := main_v98) (by decide) V]
  generalize after (List.take 123 opsL1) V = W
  exact unary_result main_v96 main_v98 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v99 (V : Valuation τ sig (Elt F)) :
    after opsL1 V (Proc.devRef .tc main_v99) = (broadcastInDim S50000x64 ![0, 1] bcast_S1x64_S50000x64_0_1 : (⟨S1x64, .f32⟩ : BufTy).Contents (Elt F) → (⟨S50000x64, .f32⟩ : BufTy).Contents (Elt F)) (after opsL1 V (Proc.devRef .tc main_v98)) := by
  rw [← Rd.tk_eq opsL1_w1 124 (a := main_v98) (by decide) V,
    Rd.at_eq opsL1_w1 124 (by decide) (y := main_v99) (by decide) V]
  generalize after (List.take 124 opsL1) V = W
  exact unary_result main_v98 main_v99 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v100 (V : Valuation τ sig (Elt F)) :
    after opsL1 V (Proc.devRef .tc main_v100) = (subf : (⟨S50000x64, .f32⟩ : BufTy).Contents (Elt F) → (⟨S50000x64, .f32⟩ : BufTy).Contents (Elt F) → (⟨S50000x64, .f32⟩ : BufTy).Contents (Elt F)) (after opsL1 V (Proc.devRef .tc main_v89)) (after opsL1 V (Proc.devRef .tc main_v99)) := by
  rw [← Rd.tk_eq opsL1_w1 125 (a := main_v89) (by decide) V,
    ← Rd.tk_eq opsL1_w1 125 (a := main_v99) (by decide) V,
    Rd.at_eq opsL1_w1 125 (by decide) (y := main_v100) (by decide) V]
  generalize after (List.take 125 opsL1) V = W
  exact binary_result main_v89 main_v99 main_v100 (subf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_cst_13 (V : Valuation τ sig (Elt F)) :
    after opsL1 V (Proc.devRef .tc main_cst_13) = (constant S_ .f32 0x3727C5AC#32) := by
  rw [Rd.at_eq opsL1_w1 126 (by decide) (y := main_cst_13) (by decide) V]
  generalize after (List.take 126 opsL1) V = W
  exact nullary_result main_cst_13 (constant S_ .f32 0x3727C5AC#32) ⟨by decide, rfl⟩ W

theorem rd_main_v101 (V : Valuation τ sig (Elt F)) :
    after opsL1 V (Proc.devRef .tc main_v101) = (broadcastInDim S64 ![] bcast_S_S64 : (⟨S_, .f32⟩ : BufTy).Contents (Elt F) → (⟨S64, .f32⟩ : BufTy).Contents (Elt F)) (after opsL1 V (Proc.devRef .tc main_cst_13)) := by
  rw [← Rd.tk_eq opsL1_w1 127 (a := main_cst_13) (by decide) V,
    Rd.at_eq opsL1_w1 127 (by decide) (y := main_v101) (by decide) V]
  generalize after (List.take 127 opsL1) V = W
  exact unary_result main_cst_13 main_v101 (broadcastInDim S64 ![] bcast_S_S64 : (⟨S_, .f32⟩ : BufTy).Contents (Elt F) → (⟨S64, .f32⟩ : BufTy).Contents (Elt F)) ⟨by decide, rfl⟩ ⟨by decide, rfl⟩ W

theorem rd_main_v102 (V : Valuation τ sig (Elt F)) :
    after opsL1 V (Proc.devRef .tc main_v102) = (addf : (⟨S64, .f32⟩ : BufTy).Contents (Elt F) → (⟨S64, .f32⟩ : BufTy).Contents (Elt F) → (⟨S64, .f32⟩ : BufTy).Contents (Elt F)) (after opsL1 V (Proc.devRef .tc main_v97)) (after opsL1 V (Proc.devRef .tc main_v101)) := by
  rw [← Rd.tk_eq opsL1_w1 128 (a := main_v97) (by decide) V,
    ← Rd.tk_eq opsL1_w1 128 (a := main_v101) (by decide) V,
    Rd.at_eq opsL1_w1 128 (by decide) (y := main_v102) (by decide) V]
  generalize after (List.take 128 opsL1) V = W
  exact binary_result main_v97 main_v101 main_v102 (addf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ W

theorem rd_main_v103 (V : Valuation τ sig (Elt F)) :
    after opsL1 V (Proc.devRef .tc main_v103) = (Host.rsqrt : (⟨S64, .f32⟩ : BufTy).Contents (Elt F) → (⟨S64, .f32⟩ : BufTy).Contents (Elt F)) (after opsL1 V (Proc.devRef .tc main_v102)) := by
  rw [← Rd.tk_eq opsL1_w1 129 (a := main_v102) (by decide) V,
    Rd.at_eq opsL1_w1 129 (by decide) (y := main_v103) (by decide) V]
  generalize after (List.take 129 opsL1) V = W
  exact unary_result main_v102 main_v103 (Host.rsqrt : (⟨S64, .f32⟩ : BufTy).Contents (Elt F) → (⟨S64, .f32⟩ : BufTy).Contents (Elt F)) ⟨by decide, rfl⟩ ⟨by decide, rfl⟩ W

theorem rd_main_v104 (V : Valuation τ sig (Elt F)) :
    after opsL1 V (Proc.devRef .tc main_v104) = (broadcastInDim S1x64 ![1] bcast_S64_S1x64_1 : (⟨S64, .f32⟩ : BufTy).Contents (Elt F) → (⟨S1x64, .f32⟩ : BufTy).Contents (Elt F)) (after opsL1 V (Proc.devRef .tc main_v103)) := by
  rw [← Rd.tk_eq opsL1_w1 130 (a := main_v103) (by decide) V,
    Rd.at_eq opsL1_w1 130 (by decide) (y := main_v104) (by decide) V]
  generalize after (List.take 130 opsL1) V = W
  exact unary_result main_v103 main_v104 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v105 (V : Valuation τ sig (Elt F)) :
    after opsL1 V (Proc.devRef .tc main_v105) = (broadcastInDim S50000x64 ![0, 1] bcast_S1x64_S50000x64_0_1 : (⟨S1x64, .f32⟩ : BufTy).Contents (Elt F) → (⟨S50000x64, .f32⟩ : BufTy).Contents (Elt F)) (after opsL1 V (Proc.devRef .tc main_v104)) := by
  rw [← Rd.tk_eq opsL1_w1 131 (a := main_v104) (by decide) V,
    Rd.at_eq opsL1_w1 131 (by decide) (y := main_v105) (by decide) V]
  generalize after (List.take 131 opsL1) V = W
  exact unary_result main_v104 main_v105 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v106 (V : Valuation τ sig (Elt F)) :
    after opsL1 V (Proc.devRef .tc main_v106) = (mulf : (⟨S50000x64, .f32⟩ : BufTy).Contents (Elt F) → (⟨S50000x64, .f32⟩ : BufTy).Contents (Elt F) → (⟨S50000x64, .f32⟩ : BufTy).Contents (Elt F)) (after opsL1 V (Proc.devRef .tc main_v100)) (after opsL1 V (Proc.devRef .tc main_v105)) := by
  rw [← Rd.tk_eq opsL1_w1 132 (a := main_v100) (by decide) V,
    ← Rd.tk_eq opsL1_w1 132 (a := main_v105) (by decide) V,
    Rd.at_eq opsL1_w1 132 (by decide) (y := main_v106) (by decide) V]
  generalize after (List.take 132 opsL1) V = W
  exact binary_result main_v100 main_v105 main_v106 (mulf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v107 (V : Valuation τ sig (Elt F)) :
    after opsL1 V (Proc.devRef .tc main_v107) = (broadcastInDim S1x64 ![1] bcast_S64_S1x64_1 : (⟨S64, .f32⟩ : BufTy).Contents (Elt F) → (⟨S1x64, .f32⟩ : BufTy).Contents (Elt F)) (after opsL1 V (Proc.devRef .tc main_v91)) := by
  rw [← Rd.tk_eq opsL1_w1 133 (a := main_v91) (by decide) V,
    Rd.at_eq opsL1_w1 133 (by decide) (y := main_v107) (by decide) V]
  generalize after (List.take 133 opsL1) V = W
  exact unary_result main_v91 main_v107 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v108 (V : Valuation τ sig (Elt F)) :
    after opsL1 V (Proc.devRef .tc main_v108) = (broadcastInDim S50000x64 ![0, 1] bcast_S1x64_S50000x64_0_1 : (⟨S1x64, .f32⟩ : BufTy).Contents (Elt F) → (⟨S50000x64, .f32⟩ : BufTy).Contents (Elt F)) (after opsL1 V (Proc.devRef .tc main_v107)) := by
  rw [← Rd.tk_eq opsL1_w1 134 (a := main_v107) (by decide) V,
    Rd.at_eq opsL1_w1 134 (by decide) (y := main_v108) (by decide) V]
  generalize after (List.take 134 opsL1) V = W
  exact unary_result main_v107 main_v108 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v109 (V : Valuation τ sig (Elt F)) :
    after opsL1 V (Proc.devRef .tc main_v109) = (mulf : (⟨S50000x64, .f32⟩ : BufTy).Contents (Elt F) → (⟨S50000x64, .f32⟩ : BufTy).Contents (Elt F) → (⟨S50000x64, .f32⟩ : BufTy).Contents (Elt F)) (after opsL1 V (Proc.devRef .tc main_v106)) (after opsL1 V (Proc.devRef .tc main_v108)) := by
  rw [← Rd.tk_eq opsL1_w1 135 (a := main_v106) (by decide) V,
    ← Rd.tk_eq opsL1_w1 135 (a := main_v108) (by decide) V,
    Rd.at_eq opsL1_w1 135 (by decide) (y := main_v109) (by decide) V]
  generalize after (List.take 135 opsL1) V = W
  exact binary_result main_v106 main_v108 main_v109 (mulf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v110 (V : Valuation τ sig (Elt F)) :
    after opsL1 V (Proc.devRef .tc main_v110) = (broadcastInDim S1x64 ![1] bcast_S64_S1x64_1 : (⟨S64, .f32⟩ : BufTy).Contents (Elt F) → (⟨S1x64, .f32⟩ : BufTy).Contents (Elt F)) (after opsL1 V (Proc.devRef .tc main_v93)) := by
  rw [← Rd.tk_eq opsL1_w1 136 (a := main_v93) (by decide) V,
    Rd.at_eq opsL1_w1 136 (by decide) (y := main_v110) (by decide) V]
  generalize after (List.take 136 opsL1) V = W
  exact unary_result main_v93 main_v110 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v111 (V : Valuation τ sig (Elt F)) :
    after opsL1 V (Proc.devRef .tc main_v111) = (broadcastInDim S50000x64 ![0, 1] bcast_S1x64_S50000x64_0_1 : (⟨S1x64, .f32⟩ : BufTy).Contents (Elt F) → (⟨S50000x64, .f32⟩ : BufTy).Contents (Elt F)) (after opsL1 V (Proc.devRef .tc main_v110)) := by
  rw [← Rd.tk_eq opsL1_w1 137 (a := main_v110) (by decide) V,
    Rd.at_eq opsL1_w1 137 (by decide) (y := main_v111) (by decide) V]
  generalize after (List.take 137 opsL1) V = W
  exact unary_result main_v110 main_v111 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v112 (V : Valuation τ sig (Elt F)) :
    after opsL1 V (Proc.devRef .tc main_v112) = (addf : (⟨S50000x64, .f32⟩ : BufTy).Contents (Elt F) → (⟨S50000x64, .f32⟩ : BufTy).Contents (Elt F) → (⟨S50000x64, .f32⟩ : BufTy).Contents (Elt F)) (after opsL1 V (Proc.devRef .tc main_v109)) (after opsL1 V (Proc.devRef .tc main_v111)) := by
  rw [← Rd.tk_eq opsL1_w1 138 (a := main_v109) (by decide) V,
    ← Rd.tk_eq opsL1_w1 138 (a := main_v111) (by decide) V,
    Rd.at_eq opsL1_w1 138 (by decide) (y := main_v112) (by decide) V]
  generalize after (List.take 138 opsL1) V = W
  exact binary_result main_v109 main_v111 main_v112 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_call1_cst (V : Valuation τ sig (Elt F)) :
    after opsL1 V (Proc.devRef .tc main_call1_cst) = ((constant S_ .f32 0x00000000#32) : (⟨S_, .f32⟩ : BufTy).Contents (Elt F)) := by
  rw [Rd.at_eq opsL1_w1 139 (by decide) (y := main_call1_cst) (by decide) V]
  generalize after (List.take 139 opsL1) V = W
  exact nullary_result main_call1_cst ((constant S_ .f32 0x00000000#32) : (⟨S_, .f32⟩ : BufTy).Contents (Elt F)) ⟨by decide, rfl⟩ W

theorem rd_main_call1_v0 (V : Valuation τ sig (Elt F)) :
    after opsL1 V (Proc.devRef .tc main_call1_v0) = ((broadcastInDim S50000x64 ![] bcast_S_S50000x64) : (⟨S_, .f32⟩ : BufTy).Contents (Elt F) → (⟨S50000x64, .f32⟩ : BufTy).Contents (Elt F)) (after opsL1 V (Proc.devRef .tc main_call1_cst)) := by
  rw [← Rd.tk_eq opsL1_w1 140 (a := main_call1_cst) (by decide) V,
    Rd.at_eq opsL1_w1 140 (by decide) (y := main_call1_v0) (by decide) V]
  generalize after (List.take 140 opsL1) V = W
  exact unary_result main_call1_cst main_call1_v0 ((broadcastInDim S50000x64 ![] bcast_S_S50000x64) : (⟨S_, .f32⟩ : BufTy).Contents (Elt F) → (⟨S50000x64, .f32⟩ : BufTy).Contents (Elt F)) ⟨by decide, rfl⟩ ⟨by decide, rfl⟩ W

theorem rd_main_v113 (V : Valuation τ sig (Elt F)) :
    after opsL1 V (Proc.devRef .tc main_v113) = (maximumf : (⟨S50000x64, .f32⟩ : BufTy).Contents (Elt F) → (⟨S50000x64, .f32⟩ : BufTy).Contents (Elt F) → (⟨S50000x64, .f32⟩ : BufTy).Contents (Elt F)) (after opsL1 V (Proc.devRef .tc main_v112)) (after opsL1 V (Proc.devRef .tc main_call1_v0)) := by
  rw [← Rd.tk_eq opsL1_w1 141 (a := main_v112) (by decide) V,
    ← Rd.tk_eq opsL1_w1 141 (a := main_call1_v0) (by decide) V,
    Rd.at_eq opsL1_w1 141 (by decide) (y := main_v113) (by decide) V]
  generalize after (List.take 141 opsL1) V = W
  exact binary_result main_v112 main_call1_v0 main_v113 (maximumf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v114 (V : Valuation τ sig (Elt F)) :
    after opsL1 V (Proc.devRef .tc main_v114) = (addf : (⟨S50000x64, .f32⟩ : BufTy).Contents (Elt F) → (⟨S50000x64, .f32⟩ : BufTy).Contents (Elt F) → (⟨S50000x64, .f32⟩ : BufTy).Contents (Elt F)) (V (Proc.devRef .tc main_v5)) (after opsL1 V (Proc.devRef .tc main_v113)) := by
  rw [← Rd.tk_keep opsL1_w1 142 (a := main_v5) (by decide) V,
    ← Rd.tk_eq opsL1_w1 142 (a := main_v113) (by decide) V,
    Rd.at_eq opsL1_w1 142 (by decide) (y := main_v114) (by decide) V]
  generalize after (List.take 142 opsL1) V = W
  exact binary_result main_v5 main_v113 main_v114 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v115 (V : Valuation τ sig (Elt F)) :
    after opsL1 V (Proc.devRef .tc main_v115) = ((extractStridedSlice S1x64 ![0, 0] · slices_S3x64_S1x64_0_0) : (⟨S3x64, .f32⟩ : BufTy).Contents (Elt F) → (⟨S1x64, .f32⟩ : BufTy).Contents (Elt F)) (V (Proc.devRef .tc main_arg22)) := by
  rw [← Rd.tk_keep opsL1_w1 143 (a := main_arg22) (by decide) V,
    Rd.at_eq opsL1_w1 143 (by decide) (y := main_v115) (by decide) V]
  generalize after (List.take 143 opsL1) V = W
  exact unary_result main_arg22 main_v115 ((extractStridedSlice S1x64 ![0, 0] · slices_S3x64_S1x64_0_0) : (⟨S3x64, .f32⟩ : BufTy).Contents (Elt F) → (⟨S1x64, .f32⟩ : BufTy).Contents (Elt F)) ⟨by decide, rfl⟩ ⟨by decide, rfl⟩ W

theorem rd_main_v116 (V : Valuation τ sig (Elt F)) :
    after opsL1 V (Proc.devRef .tc main_v116) = shapeCast S64 (after opsL1 V (Proc.devRef .tc main_v115)) shapeCasts_S1x64_S64 := by
  rw [← Rd.tk_eq opsL1_w1 144 (a := main_v115) (by decide) V,
    Rd.at_eq opsL1_w1 144 (by decide) (y := main_v116) (by decide) V]
  generalize after (List.take 144 opsL1) V = W
  exact reshape_result main_v115 main_v116 rfl shapeCasts_S1x64_S64 ⟨by decide, rfl⟩ ⟨by decide, rfl⟩ W

theorem rd_main_v117 (V : Valuation τ sig (Elt F)) :
    after opsL1 V (Proc.devRef .tc main_v117) = ((extractStridedSlice S1x64 ![0, 0] · slices_S3x64_S1x64_0_0) : (⟨S3x64, .f32⟩ : BufTy).Contents (Elt F) → (⟨S1x64, .f32⟩ : BufTy).Contents (Elt F)) (V (Proc.devRef .tc main_arg23)) := by
  rw [← Rd.tk_keep opsL1_w1 145 (a := main_arg23) (by decide) V,
    Rd.at_eq opsL1_w1 145 (by decide) (y := main_v117) (by decide) V]
  generalize after (List.take 145 opsL1) V = W
  exact unary_result main_arg23 main_v117 ((extractStridedSlice S1x64 ![0, 0] · slices_S3x64_S1x64_0_0) : (⟨S3x64, .f32⟩ : BufTy).Contents (Elt F) → (⟨S1x64, .f32⟩ : BufTy).Contents (Elt F)) ⟨by decide, rfl⟩ ⟨by decide, rfl⟩ W

theorem rd_main_v118 (V : Valuation τ sig (Elt F)) :
    after opsL1 V (Proc.devRef .tc main_v118) = shapeCast S64 (after opsL1 V (Proc.devRef .tc main_v117)) shapeCasts_S1x64_S64 := by
  rw [← Rd.tk_eq opsL1_w1 146 (a := main_v117) (by decide) V,
    Rd.at_eq opsL1_w1 146 (by decide) (y := main_v118) (by decide) V]
  generalize after (List.take 146 opsL1) V = W
  exact reshape_result main_v117 main_v118 rfl shapeCasts_S1x64_S64 ⟨by decide, rfl⟩ ⟨by decide, rfl⟩ W

theorem rd_main_cst_14 (V : Valuation τ sig (Elt F)) :
    after opsL1 V (Proc.devRef .tc main_cst_14) = (constant S_ .f32 0x00000000#32) := by
  rw [Rd.at_eq opsL1_w1 147 (by decide) (y := main_cst_14) (by decide) V]
  generalize after (List.take 147 opsL1) V = W
  exact nullary_result main_cst_14 (constant S_ .f32 0x00000000#32) ⟨by decide, rfl⟩ W

theorem rd_main_v119 (V : Valuation τ sig (Elt F)) :
    after opsL1 V (Proc.devRef .tc main_v119) = ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)) (after opsL1 V (Proc.devRef .tc main_v65)) (after opsL1 V (Proc.devRef .tc main_cst_14)) := by
  rw [← Rd.tk_eq opsL1_w1 148 (a := main_v65) (by decide) V,
    ← Rd.tk_eq opsL1_w1 148 (a := main_cst_14) (by decide) V,
    Rd.at_eq opsL1_w1 148 (by decide) (y := main_v119) (by decide) V]
  generalize after (List.take 148 opsL1) V = W
  exact binary_result main_v65 main_cst_14 main_v119 ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ W

theorem rd_main_cst_15 (V : Valuation τ sig (Elt F)) :
    after opsL1 V (Proc.devRef .tc main_cst_15) = (constant S_ .f32 0x48C35000#32) := by
  rw [Rd.at_eq opsL1_w1 149 (by decide) (y := main_cst_15) (by decide) V]
  generalize after (List.take 149 opsL1) V = W
  exact nullary_result main_cst_15 (constant S_ .f32 0x48C35000#32) ⟨by decide, rfl⟩ W

theorem rd_main_v120 (V : Valuation τ sig (Elt F)) :
    after opsL1 V (Proc.devRef .tc main_v120) = (broadcastInDim S64 ![] bcast_S_S64 : (⟨S_, .f32⟩ : BufTy).Contents (Elt F) → (⟨S64, .f32⟩ : BufTy).Contents (Elt F)) (after opsL1 V (Proc.devRef .tc main_cst_15)) := by
  rw [← Rd.tk_eq opsL1_w1 150 (a := main_cst_15) (by decide) V,
    Rd.at_eq opsL1_w1 150 (by decide) (y := main_v120) (by decide) V]
  generalize after (List.take 150 opsL1) V = W
  exact unary_result main_cst_15 main_v120 (broadcastInDim S64 ![] bcast_S_S64 : (⟨S_, .f32⟩ : BufTy).Contents (Elt F) → (⟨S64, .f32⟩ : BufTy).Contents (Elt F)) ⟨by decide, rfl⟩ ⟨by decide, rfl⟩ W

theorem rd_main_v121 (V : Valuation τ sig (Elt F)) :
    after opsL1 V (Proc.devRef .tc main_v121) = (Host.divf : (⟨S64, .f32⟩ : BufTy).Contents (Elt F) → (⟨S64, .f32⟩ : BufTy).Contents (Elt F) → (⟨S64, .f32⟩ : BufTy).Contents (Elt F)) (after opsL1 V (Proc.devRef .tc main_v119)) (after opsL1 V (Proc.devRef .tc main_v120)) := by
  rw [← Rd.tk_eq opsL1_w1 151 (a := main_v119) (by decide) V,
    ← Rd.tk_eq opsL1_w1 151 (a := main_v120) (by decide) V,
    Rd.at_eq opsL1_w1 151 (by decide) (y := main_v121) (by decide) V]
  generalize after (List.take 151 opsL1) V = W
  exact binary_result main_v119 main_v120 main_v121 (Host.divf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ W

theorem rd_main_c_16 (V : Valuation τ sig (Elt F)) :
    after opsL1 V (Proc.devRef .tc main_c_16) = (constantI S_ 32 0#32) := by
  rw [Rd.at_eq opsL1_w1 152 (by decide) (y := main_c_16) (by decide) V]
  generalize after (List.take 152 opsL1) V = W
  exact nullary_result main_c_16 (constantI S_ 32 0#32) ⟨by decide, rfl⟩ W

theorem rd_main_call2_cst (V : Valuation τ sig (Elt F)) :
    after opsL1 V (Proc.devRef .tc main_call2_cst) = ((constant S_ .f32 0x00000000#32) : (⟨S_, .f32⟩ : BufTy).Contents (Elt F)) := by
  rw [Rd.at_eq opsL1_w1 153 (by decide) (y := main_call2_cst) (by decide) V]
  generalize after (List.take 153 opsL1) V = W
  exact nullary_result main_call2_cst ((constant S_ .f32 0x00000000#32) : (⟨S_, .f32⟩ : BufTy).Contents (Elt F)) ⟨by decide, rfl⟩ W

theorem rd_main_call2_v0 (V : Valuation τ sig (Elt F)) :
    after opsL1 V (Proc.devRef .tc main_call2_v0) = ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)) (after opsL1 V (Proc.devRef .tc main_v65)) (after opsL1 V (Proc.devRef .tc main_call2_cst)) := by
  rw [← Rd.tk_eq opsL1_w1 154 (a := main_v65) (by decide) V,
    ← Rd.tk_eq opsL1_w1 154 (a := main_call2_cst) (by decide) V,
    Rd.at_eq opsL1_w1 154 (by decide) (y := main_call2_v0) (by decide) V]
  generalize after (List.take 154 opsL1) V = W
  exact binary_result main_v65 main_call2_cst main_call2_v0 ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ W

theorem rd_main_call2_v1 (V : Valuation τ sig (Elt F)) :
    after opsL1 V (Proc.devRef .tc main_call2_v1) = ((broadcastInDim S1x64 ![1] bcast_S64_S1x64_1) : (⟨S64, .f32⟩ : BufTy).Contents (Elt F) → (⟨S1x64, .f32⟩ : BufTy).Contents (Elt F)) (after opsL1 V (Proc.devRef .tc main_call2_v0)) := by
  rw [← Rd.tk_eq opsL1_w1 155 (a := main_call2_v0) (by decide) V,
    Rd.at_eq opsL1_w1 155 (by decide) (y := main_call2_v1) (by decide) V]
  generalize after (List.take 155 opsL1) V = W
  exact unary_result main_call2_v0 main_call2_v1 ((broadcastInDim S1x64 ![1] bcast_S64_S1x64_1) : (⟨S64, .f32⟩ : BufTy).Contents (Elt F) → (⟨S1x64, .f32⟩ : BufTy).Contents (Elt F)) ⟨by decide, rfl⟩ ⟨by decide, rfl⟩ W

theorem rd_main_call2_cst_0 (V : Valuation τ sig (Elt F)) :
    after opsL1 V (Proc.devRef .tc main_call2_cst_0) = ((constant S_ .f32 0x48C35000#32) : (⟨S_, .f32⟩ : BufTy).Contents (Elt F)) := by
  rw [Rd.at_eq opsL1_w1 156 (by decide) (y := main_call2_cst_0) (by decide) V]
  generalize after (List.take 156 opsL1) V = W
  exact nullary_result main_call2_cst_0 ((constant S_ .f32 0x48C35000#32) : (⟨S_, .f32⟩ : BufTy).Contents (Elt F)) ⟨by decide, rfl⟩ W

theorem rd_main_call2_v2 (V : Valuation τ sig (Elt F)) :
    after opsL1 V (Proc.devRef .tc main_call2_v2) = ((broadcastInDim S1x64 ![] bcast_S_S1x64) : (⟨S_, .f32⟩ : BufTy).Contents (Elt F) → (⟨S1x64, .f32⟩ : BufTy).Contents (Elt F)) (after opsL1 V (Proc.devRef .tc main_call2_cst_0)) := by
  rw [← Rd.tk_eq opsL1_w1 157 (a := main_call2_cst_0) (by decide) V,
    Rd.at_eq opsL1_w1 157 (by decide) (y := main_call2_v2) (by decide) V]
  generalize after (List.take 157 opsL1) V = W
  exact unary_result main_call2_cst_0 main_call2_v2 ((broadcastInDim S1x64 ![] bcast_S_S1x64) : (⟨S_, .f32⟩ : BufTy).Contents (Elt F) → (⟨S1x64, .f32⟩ : BufTy).Contents (Elt F)) ⟨by decide, rfl⟩ ⟨by decide, rfl⟩ W

theorem rd_main_call2_v3 (V : Valuation τ sig (Elt F)) :
    after opsL1 V (Proc.devRef .tc main_call2_v3) = (Host.divf : (⟨S1x64, .f32⟩ : BufTy).Contents (Elt F) → (⟨S1x64, .f32⟩ : BufTy).Contents (Elt F) → (⟨S1x64, .f32⟩ : BufTy).Contents (Elt F)) (after opsL1 V (Proc.devRef .tc main_call2_v1)) (after opsL1 V (Proc.devRef .tc main_call2_v2)) := by
  rw [← Rd.tk_eq opsL1_w1 158 (a := main_call2_v1) (by decide) V,
    ← Rd.tk_eq opsL1_w1 158 (a := main_call2_v2) (by decide) V,
    Rd.at_eq opsL1_w1 158 (by decide) (y := main_call2_v3) (by decide) V]
  generalize after (List.take 158 opsL1) V = W
  exact binary_result main_call2_v1 main_call2_v2 main_call2_v3 (Host.divf : (⟨S1x64, .f32⟩ : BufTy).Contents (Elt F) → (⟨S1x64, .f32⟩ : BufTy).Contents (Elt F) → (⟨S1x64, .f32⟩ : BufTy).Contents (Elt F)) ⟨by decide, rfl⟩ ⟨by decide, rfl⟩ ⟨by decide, rfl⟩ W

theorem rd_main_call2_v4 (V : Valuation τ sig (Elt F)) :
    after opsL1 V (Proc.devRef .tc main_call2_v4) = ((broadcastInDim S400000x64 ![0, 1] bcast_S1x64_S400000x64_0_1) : (⟨S1x64, .f32⟩ : BufTy).Contents (Elt F) → (⟨S400000x64, .f32⟩ : BufTy).Contents (Elt F)) (after opsL1 V (Proc.devRef .tc main_call2_v3)) := by
  rw [← Rd.tk_eq opsL1_w1 159 (a := main_call2_v3) (by decide) V,
    Rd.at_eq opsL1_w1 159 (by decide) (y := main_call2_v4) (by decide) V]
  generalize after (List.take 159 opsL1) V = W
  exact unary_result main_call2_v3 main_call2_v4 ((broadcastInDim S400000x64 ![0, 1] bcast_S1x64_S400000x64_0_1) : (⟨S1x64, .f32⟩ : BufTy).Contents (Elt F) → (⟨S400000x64, .f32⟩ : BufTy).Contents (Elt F)) ⟨by decide, rfl⟩ ⟨by decide, rfl⟩ W

theorem rd_main_call2_v5 (V : Valuation τ sig (Elt F)) :
    after opsL1 V (Proc.devRef .tc main_call2_v5) = (subf : (⟨S400000x64, .f32⟩ : BufTy).Contents (Elt F) → (⟨S400000x64, .f32⟩ : BufTy).Contents (Elt F) → (⟨S400000x64, .f32⟩ : BufTy).Contents (Elt F)) (after opsL1 V (Proc.devRef .tc main_v65)) (after opsL1 V (Proc.devRef .tc main_call2_v4)) := by
  rw [← Rd.tk_eq opsL1_w1 160 (a := main_v65) (by decide) V,
    ← Rd.tk_eq opsL1_w1 160 (a := main_call2_v4) (by decide) V,
    Rd.at_eq opsL1_w1 160 (by decide) (y := main_call2_v5) (by decide) V]
  generalize after (List.take 160 opsL1) V = W
  exact binary_result main_v65 main_call2_v4 main_call2_v5 (subf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_call2_v6 (V : Valuation τ sig (Elt F)) :
    after opsL1 V (Proc.devRef .tc main_call2_v6) = (mulf : (⟨S400000x64, .f32⟩ : BufTy).Contents (Elt F) → (⟨S400000x64, .f32⟩ : BufTy).Contents (Elt F) → (⟨S400000x64, .f32⟩ : BufTy).Contents (Elt F)) (after opsL1 V (Proc.devRef .tc main_call2_v5)) (after opsL1 V (Proc.devRef .tc main_call2_v5)) := by
  rw [← Rd.tk_eq opsL1_w1 161 (a := main_call2_v5) (by decide) V,
    Rd.at_eq opsL1_w1 161 (by decide) (y := main_call2_v6) (by decide) V]
  generalize after (List.take 161 opsL1) V = W
  exact binary_result main_call2_v5 main_call2_v5 main_call2_v6 (mulf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_call2_v7 (V : Valuation τ sig (Elt F)) :
    after opsL1 V (Proc.devRef .tc main_call2_v7) = ((sitofp .f32) : (⟨S_, .i32⟩ : BufTy).Contents (Elt F) → (⟨S_, .f32⟩ : BufTy).Contents (Elt F)) (after opsL1 V (Proc.devRef .tc main_c_16)) := by
  rw [← Rd.tk_eq opsL1_w1 162 (a := main_c_16) (by decide) V,
    Rd.at_eq opsL1_w1 162 (by decide) (y := main_call2_v7) (by decide) V]
  generalize after (List.take 162 opsL1) V = W
  exact unary_result main_c_16 main_call2_v7 ((sitofp .f32) : (⟨S_, .i32⟩ : BufTy).Contents (Elt F) → (⟨S_, .f32⟩ : BufTy).Contents (Elt F)) ⟨by decide, rfl⟩ ⟨by decide, rfl⟩ W

theorem rd_main_call2_cst_1 (V : Valuation τ sig (Elt F)) :
    after opsL1 V (Proc.devRef .tc main_call2_cst_1) = ((constant S_ .f32 0x48C35000#32) : (⟨S_, .f32⟩ : BufTy).Contents (Elt F)) := by
  rw [Rd.at_eq opsL1_w1 163 (by decide) (y := main_call2_cst_1) (by decide) V]
  generalize after (List.take 163 opsL1) V = W
  exact nullary_result main_call2_cst_1 ((constant S_ .f32 0x48C35000#32) : (⟨S_, .f32⟩ : BufTy).Contents (Elt F)) ⟨by decide, rfl⟩ W

theorem rd_main_call2_v8 (V : Valuation τ sig (Elt F)) :
    after opsL1 V (Proc.devRef .tc main_call2_v8) = (subf : (⟨S_, .f32⟩ : BufTy).Contents (Elt F) → (⟨S_, .f32⟩ : BufTy).Contents (Elt F) → (⟨S_, .f32⟩ : BufTy).Contents (Elt F)) (after opsL1 V (Proc.devRef .tc main_call2_cst_1)) (after opsL1 V (Proc.devRef .tc main_call2_v7)) := by
  rw [← Rd.tk_eq opsL1_w1 164 (a := main_call2_cst_1) (by decide) V,
    ← Rd.tk_eq opsL1_w1 164 (a := main_call2_v7) (by decide) V,
    Rd.at_eq opsL1_w1 164 (by decide) (y := main_call2_v8) (by decide) V]
  generalize after (List.take 164 opsL1) V = W
  exact binary_result main_call2_cst_1 main_call2_v7 main_call2_v8 (subf : (⟨S_, .f32⟩ : BufTy).Contents (Elt F) → (⟨S_, .f32⟩ : BufTy).Contents (Elt F) → (⟨S_, .f32⟩ : BufTy).Contents (Elt F)) ⟨by decide, rfl⟩ ⟨by decide, rfl⟩ ⟨by decide, rfl⟩ W

theorem rd_main_call2_cst_2 (V : Valuation τ sig (Elt F)) :
    after opsL1 V (Proc.devRef .tc main_call2_cst_2) = ((constant S_ .f32 0x00000000#32) : (⟨S_, .f32⟩ : BufTy).Contents (Elt F)) := by
  rw [Rd.at_eq opsL1_w1 165 (by decide) (y := main_call2_cst_2) (by decide) V]
  generalize after (List.take 165 opsL1) V = W
  exact nullary_result main_call2_cst_2 ((constant S_ .f32 0x00000000#32) : (⟨S_, .f32⟩ : BufTy).Contents (Elt F)) ⟨by decide, rfl⟩ W

theorem rd_main_call2_v9 (V : Valuation τ sig (Elt F)) :
    after opsL1 V (Proc.devRef .tc main_call2_v9) = ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)) (after opsL1 V (Proc.devRef .tc main_call2_v6)) (after opsL1 V (Proc.devRef .tc main_call2_cst_2)) := by
  rw [← Rd.tk_eq opsL1_w1 166 (a := main_call2_v6) (by decide) V,
    ← Rd.tk_eq opsL1_w1 166 (a := main_call2_cst_2) (by decide) V,
    Rd.at_eq opsL1_w1 166 (by decide) (y := main_call2_v9) (by decide) V]
  generalize after (List.take 166 opsL1) V = W
  exact binary_result main_call2_v6 main_call2_cst_2 main_call2_v9 ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ W

theorem rd_main_call2_v10 (V : Valuation τ sig (Elt F)) :
    after opsL1 V (Proc.devRef .tc main_call2_v10) = ((broadcastInDim S64 ![] bcast_S_S64) : (⟨S_, .f32⟩ : BufTy).Contents (Elt F) → (⟨S64, .f32⟩ : BufTy).Contents (Elt F)) (after opsL1 V (Proc.devRef .tc main_call2_v8)) := by
  rw [← Rd.tk_eq opsL1_w1 167 (a := main_call2_v8) (by decide) V,
    Rd.at_eq opsL1_w1 167 (by decide) (y := main_call2_v10) (by decide) V]
  generalize after (List.take 167 opsL1) V = W
  exact unary_result main_call2_v8 main_call2_v10 ((broadcastInDim S64 ![] bcast_S_S64) : (⟨S_, .f32⟩ : BufTy).Contents (Elt F) → (⟨S64, .f32⟩ : BufTy).Contents (Elt F)) ⟨by decide, rfl⟩ ⟨by decide, rfl⟩ W

theorem rd_main_call2_v11 (V : Valuation τ sig (Elt F)) :
    after opsL1 V (Proc.devRef .tc main_call2_v11) = (Host.divf : (⟨S64, .f32⟩ : BufTy).Contents (Elt F) → (⟨S64, .f32⟩ : BufTy).Contents (Elt F) → (⟨S64, .f32⟩ : BufTy).Contents (Elt F)) (after opsL1 V (Proc.devRef .tc main_call2_v9)) (after opsL1 V (Proc.devRef .tc main_call2_v10)) := by
  rw [← Rd.tk_eq opsL1_w1 168 (a := main_call2_v9) (by decide) V,
    ← Rd.tk_eq opsL1_w1 168 (a := main_call2_v10) (by decide) V,
    Rd.at_eq opsL1_w1 168 (by decide) (y := main_call2_v11) (by decide) V]
  generalize after (List.take 168 opsL1) V = W
  exact binary_result main_call2_v9 main_call2_v10 main_call2_v11 (Host.divf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ W

theorem rd_main_call2_cst_3 (V : Valuation τ sig (Elt F)) :
    after opsL1 V (Proc.devRef .tc main_call2_cst_3) = ((constant S_ .f32 0x00000000#32) : (⟨S_, .f32⟩ : BufTy).Contents (Elt F)) := by
  rw [Rd.at_eq opsL1_w1 169 (by decide) (y := main_call2_cst_3) (by decide) V]
  generalize after (List.take 169 opsL1) V = W
  exact nullary_result main_call2_cst_3 ((constant S_ .f32 0x00000000#32) : (⟨S_, .f32⟩ : BufTy).Contents (Elt F)) ⟨by decide, rfl⟩ W

theorem rd_main_call2_v12 (V : Valuation τ sig (Elt F)) :
    after opsL1 V (Proc.devRef .tc main_call2_v12) = ((cmpf .ogt) : (⟨S_, .f32⟩ : BufTy).Contents (Elt F) → (⟨S_, .f32⟩ : BufTy).Contents (Elt F) → (⟨S_, .i1⟩ : BufTy).Contents (Elt F)) (after opsL1 V (Proc.devRef .tc main_call2_v8)) (after opsL1 V (Proc.devRef .tc main_call2_cst_3)) := by
  rw [← Rd.tk_eq opsL1_w1 170 (a := main_call2_v8) (by decide) V,
    ← Rd.tk_eq opsL1_w1 170 (a := main_call2_cst_3) (by decide) V,
    Rd.at_eq opsL1_w1 170 (by decide) (y := main_call2_v12) (by decide) V]
  generalize after (List.take 170 opsL1) V = W
  exact binary_result main_call2_v8 main_call2_cst_3 main_call2_v12 ((cmpf .ogt) : (⟨S_, .f32⟩ : BufTy).Contents (Elt F) → (⟨S_, .f32⟩ : BufTy).Contents (Elt F) → (⟨S_, .i1⟩ : BufTy).Contents (Elt F)) ⟨by decide, rfl⟩ ⟨by decide, rfl⟩ ⟨by decide, rfl⟩ W

theorem rd_main_call2_cst_4 (V : Valuation τ sig (Elt F)) :
    after opsL1 V (Proc.devRef .tc main_call2_cst_4) = ((constant S_ .f32 0x7FC00000#32) : (⟨S_, .f32⟩ : BufTy).Contents (Elt F)) := by
  rw [Rd.at_eq opsL1_w1 171 (by decide) (y := main_call2_cst_4) (by decide) V]
  generalize after (List.take 171 opsL1) V = W
  exact nullary_result main_call2_cst_4 ((constant S_ .f32 0x7FC00000#32) : (⟨S_, .f32⟩ : BufTy).Contents (Elt F)) ⟨by decide, rfl⟩ W

theorem rd_main_call2_call0_v0 (V : Valuation τ sig (Elt F)) :
    after opsL1 V (Proc.devRef .tc main_call2_call0_v0) = (id : (⟨S_, .f32⟩ : BufTy).Contents (Elt F) → (⟨S_, .f32⟩ : BufTy).Contents (Elt F)) (after opsL1 V (Proc.devRef .tc main_call2_cst_4)) := by
  rw [← Rd.tk_eq opsL1_w1 172 (a := main_call2_cst_4) (by decide) V,
    Rd.at_eq opsL1_w1 172 (by decide) (y := main_call2_call0_v0) (by decide) V]
  generalize after (List.take 172 opsL1) V = W
  exact unary_result main_call2_cst_4 main_call2_call0_v0 (id : (⟨S_, .f32⟩ : BufTy).Contents (Elt F) → (⟨S_, .f32⟩ : BufTy).Contents (Elt F)) ⟨by decide, rfl⟩ ⟨by decide, rfl⟩ W

theorem rd_main_call2_call0_v1 (V : Valuation τ sig (Elt F)) :
    after opsL1 V (Proc.devRef .tc main_call2_call0_v1) = ((broadcastInDim S64 ![] bcast_S_S64) : (⟨S_, .f32⟩ : BufTy).Contents (Elt F) → (⟨S64, .f32⟩ : BufTy).Contents (Elt F)) (after opsL1 V (Proc.devRef .tc main_call2_call0_v0)) := by
  rw [← Rd.tk_eq opsL1_w1 173 (a := main_call2_call0_v0) (by decide) V,
    Rd.at_eq opsL1_w1 173 (by decide) (y := main_call2_call0_v1) (by decide) V]
  generalize after (List.take 173 opsL1) V = W
  exact unary_result main_call2_call0_v0 main_call2_call0_v1 ((broadcastInDim S64 ![] bcast_S_S64) : (⟨S_, .f32⟩ : BufTy).Contents (Elt F) → (⟨S64, .f32⟩ : BufTy).Contents (Elt F)) ⟨by decide, rfl⟩ ⟨by decide, rfl⟩ W

theorem rd_main_v122 (V : Valuation τ sig (Elt F)) :
    after opsL1 V (Proc.devRef .tc main_v122) = ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) (after opsL1 V (Proc.devRef .tc main_call2_v12)) (after opsL1 V (Proc.devRef .tc main_call2_v11)) (after opsL1 V (Proc.devRef .tc main_call2_call0_v1)) := by
  rw [← Rd.tk_eq opsL1_w1 174 (a := main_call2_v12) (by decide) V,
    ← Rd.tk_eq opsL1_w1 174 (a := main_call2_v11) (by decide) V,
    ← Rd.tk_eq opsL1_w1 174 (a := main_call2_call0_v1) (by decide) V,
    Rd.at_eq opsL1_w1 174 (by decide) (y := main_v122) (by decide) V]
  generalize after (List.take 174 opsL1) V = W
  exact ternary_result main_call2_v12 main_call2_v11 main_call2_call0_v1 main_v122 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ ⟨by decide, rfl⟩ W

theorem rd_main_v123 (V : Valuation τ sig (Elt F)) :
    after opsL1 V (Proc.devRef .tc main_v123) = (broadcastInDim S1x64 ![1] bcast_S64_S1x64_1 : (⟨S64, .f32⟩ : BufTy).Contents (Elt F) → (⟨S1x64, .f32⟩ : BufTy).Contents (Elt F)) (after opsL1 V (Proc.devRef .tc main_v121)) := by
  rw [← Rd.tk_eq opsL1_w1 175 (a := main_v121) (by decide) V,
    Rd.at_eq opsL1_w1 175 (by decide) (y := main_v123) (by decide) V]
  generalize after (List.take 175 opsL1) V = W
  exact unary_result main_v121 main_v123 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v124 (V : Valuation τ sig (Elt F)) :
    after opsL1 V (Proc.devRef .tc main_v124) = (broadcastInDim S400000x64 ![0, 1] bcast_S1x64_S400000x64_0_1 : (⟨S1x64, .f32⟩ : BufTy).Contents (Elt F) → (⟨S400000x64, .f32⟩ : BufTy).Contents (Elt F)) (after opsL1 V (Proc.devRef .tc main_v123)) := by
  rw [← Rd.tk_eq opsL1_w1 176 (a := main_v123) (by decide) V,
    Rd.at_eq opsL1_w1 176 (by decide) (y := main_v124) (by decide) V]
  generalize after (List.take 176 opsL1) V = W
  exact unary_result main_v123 main_v124 (broadcastInDim S400000x64 ![0, 1] bcast_S1x64_S400000x64_0_1 : (⟨S1x64, .f32⟩ : BufTy).Contents (Elt F) → (⟨S400000x64, .f32⟩ : BufTy).Contents (Elt F)) ⟨by decide, rfl⟩ ⟨by decide, rfl⟩ W

theorem rd_main_v125 (V : Valuation τ sig (Elt F)) :
    after opsL1 V (Proc.devRef .tc main_v125) = (subf : (⟨S400000x64, .f32⟩ : BufTy).Contents (Elt F) → (⟨S400000x64, .f32⟩ : BufTy).Contents (Elt F) → (⟨S400000x64, .f32⟩ : BufTy).Contents (Elt F)) (after opsL1 V (Proc.devRef .tc main_v65)) (after opsL1 V (Proc.devRef .tc main_v124)) := by
  rw [← Rd.tk_eq opsL1_w1 177 (a := main_v65) (by decide) V,
    ← Rd.tk_eq opsL1_w1 177 (a := main_v124) (by decide) V,
    Rd.at_eq opsL1_w1 177 (by decide) (y := main_v125) (by decide) V]
  generalize after (List.take 177 opsL1) V = W
  exact binary_result main_v65 main_v124 main_v125 (subf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_cst_17 (V : Valuation τ sig (Elt F)) :
    after opsL1 V (Proc.devRef .tc main_cst_17) = (constant S_ .f32 0x3727C5AC#32) := by
  rw [Rd.at_eq opsL1_w1 178 (by decide) (y := main_cst_17) (by decide) V]
  generalize after (List.take 178 opsL1) V = W
  exact nullary_result main_cst_17 (constant S_ .f32 0x3727C5AC#32) ⟨by decide, rfl⟩ W

theorem rd_main_v126 (V : Valuation τ sig (Elt F)) :
    after opsL1 V (Proc.devRef .tc main_v126) = (broadcastInDim S64 ![] bcast_S_S64 : (⟨S_, .f32⟩ : BufTy).Contents (Elt F) → (⟨S64, .f32⟩ : BufTy).Contents (Elt F)) (after opsL1 V (Proc.devRef .tc main_cst_17)) := by
  rw [← Rd.tk_eq opsL1_w1 179 (a := main_cst_17) (by decide) V,
    Rd.at_eq opsL1_w1 179 (by decide) (y := main_v126) (by decide) V]
  generalize after (List.take 179 opsL1) V = W
  exact unary_result main_cst_17 main_v126 (broadcastInDim S64 ![] bcast_S_S64 : (⟨S_, .f32⟩ : BufTy).Contents (Elt F) → (⟨S64, .f32⟩ : BufTy).Contents (Elt F)) ⟨by decide, rfl⟩ ⟨by decide, rfl⟩ W

theorem rd_main_v127 (V : Valuation τ sig (Elt F)) :
    after opsL1 V (Proc.devRef .tc main_v127) = (addf : (⟨S64, .f32⟩ : BufTy).Contents (Elt F) → (⟨S64, .f32⟩ : BufTy).Contents (Elt F) → (⟨S64, .f32⟩ : BufTy).Contents (Elt F)) (after opsL1 V (Proc.devRef .tc main_v122)) (after opsL1 V (Proc.devRef .tc main_v126)) := by
  rw [← Rd.tk_eq opsL1_w1 180 (a := main_v122) (by decide) V,
    ← Rd.tk_eq opsL1_w1 180 (a := main_v126) (by decide) V,
    Rd.at_eq opsL1_w1 180 (by decide) (y := main_v127) (by decide) V]
  generalize after (List.take 180 opsL1) V = W
  exact binary_result main_v122 main_v126 main_v127 (addf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ W

theorem rd_main_v128 (V : Valuation τ sig (Elt F)) :
    after opsL1 V (Proc.devRef .tc main_v128) = (Host.rsqrt : (⟨S64, .f32⟩ : BufTy).Contents (Elt F) → (⟨S64, .f32⟩ : BufTy).Contents (Elt F)) (after opsL1 V (Proc.devRef .tc main_v127)) := by
  rw [← Rd.tk_eq opsL1_w1 181 (a := main_v127) (by decide) V,
    Rd.at_eq opsL1_w1 181 (by decide) (y := main_v128) (by decide) V]
  generalize after (List.take 181 opsL1) V = W
  exact unary_result main_v127 main_v128 (Host.rsqrt : (⟨S64, .f32⟩ : BufTy).Contents (Elt F) → (⟨S64, .f32⟩ : BufTy).Contents (Elt F)) ⟨by decide, rfl⟩ ⟨by decide, rfl⟩ W

theorem rd_main_v129 (V : Valuation τ sig (Elt F)) :
    after opsL1 V (Proc.devRef .tc main_v129) = (broadcastInDim S1x64 ![1] bcast_S64_S1x64_1 : (⟨S64, .f32⟩ : BufTy).Contents (Elt F) → (⟨S1x64, .f32⟩ : BufTy).Contents (Elt F)) (after opsL1 V (Proc.devRef .tc main_v128)) := by
  rw [← Rd.tk_eq opsL1_w1 182 (a := main_v128) (by decide) V,
    Rd.at_eq opsL1_w1 182 (by decide) (y := main_v129) (by decide) V]
  generalize after (List.take 182 opsL1) V = W
  exact unary_result main_v128 main_v129 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v130 (V : Valuation τ sig (Elt F)) :
    after opsL1 V (Proc.devRef .tc main_v130) = (broadcastInDim S400000x64 ![0, 1] bcast_S1x64_S400000x64_0_1 : (⟨S1x64, .f32⟩ : BufTy).Contents (Elt F) → (⟨S400000x64, .f32⟩ : BufTy).Contents (Elt F)) (after opsL1 V (Proc.devRef .tc main_v129)) := by
  rw [← Rd.tk_eq opsL1_w1 183 (a := main_v129) (by decide) V,
    Rd.at_eq opsL1_w1 183 (by decide) (y := main_v130) (by decide) V]
  generalize after (List.take 183 opsL1) V = W
  exact unary_result main_v129 main_v130 (broadcastInDim S400000x64 ![0, 1] bcast_S1x64_S400000x64_0_1 : (⟨S1x64, .f32⟩ : BufTy).Contents (Elt F) → (⟨S400000x64, .f32⟩ : BufTy).Contents (Elt F)) ⟨by decide, rfl⟩ ⟨by decide, rfl⟩ W

theorem rd_main_v131 (V : Valuation τ sig (Elt F)) :
    after opsL1 V (Proc.devRef .tc main_v131) = (mulf : (⟨S400000x64, .f32⟩ : BufTy).Contents (Elt F) → (⟨S400000x64, .f32⟩ : BufTy).Contents (Elt F) → (⟨S400000x64, .f32⟩ : BufTy).Contents (Elt F)) (after opsL1 V (Proc.devRef .tc main_v125)) (after opsL1 V (Proc.devRef .tc main_v130)) := by
  rw [← Rd.tk_eq opsL1_w1 184 (a := main_v125) (by decide) V,
    ← Rd.tk_eq opsL1_w1 184 (a := main_v130) (by decide) V,
    Rd.at_eq opsL1_w1 184 (by decide) (y := main_v131) (by decide) V]
  generalize after (List.take 184 opsL1) V = W
  exact binary_result main_v125 main_v130 main_v131 (mulf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_v132 (V : Valuation τ sig (Elt F)) :
    after opsL1 V (Proc.devRef .tc main_v132) = (broadcastInDim S1x64 ![1] bcast_S64_S1x64_1 : (⟨S64, .f32⟩ : BufTy).Contents (Elt F) → (⟨S1x64, .f32⟩ : BufTy).Contents (Elt F)) (after opsL1 V (Proc.devRef .tc main_v116)) := by
  rw [← Rd.tk_eq opsL1_w1 185 (a := main_v116) (by decide) V,
    Rd.at_eq opsL1_w1 185 (by decide) (y := main_v132) (by decide) V]
  generalize after (List.take 185 opsL1) V = W
  exact unary_result main_v116 main_v132 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v133 (V : Valuation τ sig (Elt F)) :
    after opsL1 V (Proc.devRef .tc main_v133) = (broadcastInDim S400000x64 ![0, 1] bcast_S1x64_S400000x64_0_1 : (⟨S1x64, .f32⟩ : BufTy).Contents (Elt F) → (⟨S400000x64, .f32⟩ : BufTy).Contents (Elt F)) (after opsL1 V (Proc.devRef .tc main_v132)) := by
  rw [← Rd.tk_eq opsL1_w1 186 (a := main_v132) (by decide) V,
    Rd.at_eq opsL1_w1 186 (by decide) (y := main_v133) (by decide) V]
  generalize after (List.take 186 opsL1) V = W
  exact unary_result main_v132 main_v133 (broadcastInDim S400000x64 ![0, 1] bcast_S1x64_S400000x64_0_1 : (⟨S1x64, .f32⟩ : BufTy).Contents (Elt F) → (⟨S400000x64, .f32⟩ : BufTy).Contents (Elt F)) ⟨by decide, rfl⟩ ⟨by decide, rfl⟩ W

theorem rd_main_v134 (V : Valuation τ sig (Elt F)) :
    after opsL1 V (Proc.devRef .tc main_v134) = (mulf : (⟨S400000x64, .f32⟩ : BufTy).Contents (Elt F) → (⟨S400000x64, .f32⟩ : BufTy).Contents (Elt F) → (⟨S400000x64, .f32⟩ : BufTy).Contents (Elt F)) (after opsL1 V (Proc.devRef .tc main_v131)) (after opsL1 V (Proc.devRef .tc main_v133)) := by
  rw [← Rd.tk_eq opsL1_w1 187 (a := main_v131) (by decide) V,
    ← Rd.tk_eq opsL1_w1 187 (a := main_v133) (by decide) V,
    Rd.at_eq opsL1_w1 187 (by decide) (y := main_v134) (by decide) V]
  generalize after (List.take 187 opsL1) V = W
  exact binary_result main_v131 main_v133 main_v134 (mulf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_v135 (V : Valuation τ sig (Elt F)) :
    after opsL1 V (Proc.devRef .tc main_v135) = (broadcastInDim S1x64 ![1] bcast_S64_S1x64_1 : (⟨S64, .f32⟩ : BufTy).Contents (Elt F) → (⟨S1x64, .f32⟩ : BufTy).Contents (Elt F)) (after opsL1 V (Proc.devRef .tc main_v118)) := by
  rw [← Rd.tk_eq opsL1_w1 188 (a := main_v118) (by decide) V,
    Rd.at_eq opsL1_w1 188 (by decide) (y := main_v135) (by decide) V]
  generalize after (List.take 188 opsL1) V = W
  exact unary_result main_v118 main_v135 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v136 (V : Valuation τ sig (Elt F)) :
    after opsL1 V (Proc.devRef .tc main_v136) = (broadcastInDim S400000x64 ![0, 1] bcast_S1x64_S400000x64_0_1 : (⟨S1x64, .f32⟩ : BufTy).Contents (Elt F) → (⟨S400000x64, .f32⟩ : BufTy).Contents (Elt F)) (after opsL1 V (Proc.devRef .tc main_v135)) := by
  rw [← Rd.tk_eq opsL1_w1 189 (a := main_v135) (by decide) V,
    Rd.at_eq opsL1_w1 189 (by decide) (y := main_v136) (by decide) V]
  generalize after (List.take 189 opsL1) V = W
  exact unary_result main_v135 main_v136 (broadcastInDim S400000x64 ![0, 1] bcast_S1x64_S400000x64_0_1 : (⟨S1x64, .f32⟩ : BufTy).Contents (Elt F) → (⟨S400000x64, .f32⟩ : BufTy).Contents (Elt F)) ⟨by decide, rfl⟩ ⟨by decide, rfl⟩ W

theorem rd_main_v137 (V : Valuation τ sig (Elt F)) :
    after opsL1 V (Proc.devRef .tc main_v137) = (addf : (⟨S400000x64, .f32⟩ : BufTy).Contents (Elt F) → (⟨S400000x64, .f32⟩ : BufTy).Contents (Elt F) → (⟨S400000x64, .f32⟩ : BufTy).Contents (Elt F)) (after opsL1 V (Proc.devRef .tc main_v134)) (after opsL1 V (Proc.devRef .tc main_v136)) := by
  rw [← Rd.tk_eq opsL1_w1 190 (a := main_v134) (by decide) V,
    ← Rd.tk_eq opsL1_w1 190 (a := main_v136) (by decide) V,
    Rd.at_eq opsL1_w1 190 (by decide) (y := main_v137) (by decide) V]
  generalize after (List.take 190 opsL1) V = W
  exact binary_result main_v134 main_v136 main_v137 (addf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_call3_cst (V : Valuation τ sig (Elt F)) :
    after opsL1 V (Proc.devRef .tc main_call3_cst) = ((constant S_ .f32 0x00000000#32) : (⟨S_, .f32⟩ : BufTy).Contents (Elt F)) := by
  rw [Rd.at_eq opsL1_w1 191 (by decide) (y := main_call3_cst) (by decide) V]
  generalize after (List.take 191 opsL1) V = W
  exact nullary_result main_call3_cst ((constant S_ .f32 0x00000000#32) : (⟨S_, .f32⟩ : BufTy).Contents (Elt F)) ⟨by decide, rfl⟩ W

theorem rd_main_call3_v0 (V : Valuation τ sig (Elt F)) :
    after opsL1 V (Proc.devRef .tc main_call3_v0) = ((broadcastInDim S400000x64 ![] bcast_S_S400000x64) : (⟨S_, .f32⟩ : BufTy).Contents (Elt F) → (⟨S400000x64, .f32⟩ : BufTy).Contents (Elt F)) (after opsL1 V (Proc.devRef .tc main_call3_cst)) := by
  rw [← Rd.tk_eq opsL1_w1 192 (a := main_call3_cst) (by decide) V,
    Rd.at_eq opsL1_w1 192 (by decide) (y := main_call3_v0) (by decide) V]
  generalize after (List.take 192 opsL1) V = W
  exact unary_result main_call3_cst main_call3_v0 ((broadcastInDim S400000x64 ![] bcast_S_S400000x64) : (⟨S_, .f32⟩ : BufTy).Contents (Elt F) → (⟨S400000x64, .f32⟩ : BufTy).Contents (Elt F)) ⟨by decide, rfl⟩ ⟨by decide, rfl⟩ W

theorem rd_main_v138 (V : Valuation τ sig (Elt F)) :
    after opsL1 V (Proc.devRef .tc main_v138) = (maximumf : (⟨S400000x64, .f32⟩ : BufTy).Contents (Elt F) → (⟨S400000x64, .f32⟩ : BufTy).Contents (Elt F) → (⟨S400000x64, .f32⟩ : BufTy).Contents (Elt F)) (after opsL1 V (Proc.devRef .tc main_v137)) (after opsL1 V (Proc.devRef .tc main_call3_v0)) := by
  rw [← Rd.tk_eq opsL1_w1 193 (a := main_v137) (by decide) V,
    ← Rd.tk_eq opsL1_w1 193 (a := main_call3_v0) (by decide) V,
    Rd.at_eq opsL1_w1 193 (by decide) (y := main_v138) (by decide) V]
  generalize after (List.take 193 opsL1) V = W
  exact binary_result main_v137 main_call3_v0 main_v138 (maximumf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_v139 (V : Valuation τ sig (Elt F)) :
    after opsL1 V (Proc.devRef .tc main_v139) = (addf : (⟨S400000x64, .f32⟩ : BufTy).Contents (Elt F) → (⟨S400000x64, .f32⟩ : BufTy).Contents (Elt F) → (⟨S400000x64, .f32⟩ : BufTy).Contents (Elt F)) (V (Proc.devRef .tc main_v9)) (after opsL1 V (Proc.devRef .tc main_v138)) := by
  rw [← Rd.tk_keep opsL1_w1 194 (a := main_v9) (by decide) V,
    ← Rd.tk_eq opsL1_w1 194 (a := main_v138) (by decide) V,
    Rd.at_eq opsL1_w1 194 (by decide) (y := main_v139) (by decide) V]
  generalize after (List.take 194 opsL1) V = W
  exact binary_result main_v9 main_v138 main_v139 (addf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

end Cert.ReferenceIdeal.Hand

end
-- ==== Proof.Ref.Form1.lean ====
import proofs.«431450_j74423193305350_1_alg».proof.ReferenceIdeal
import proofs.«431450_j74423193305350_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Cert.ReferenceIdeal Idealize.ShloMosaic Idealize.ShloMosaic.ValueIdx

variable [Facts₀]
open Facts₀

/-! ## The dense layer [50000,6] · [6,64] -/

/-- The contraction has one axis. -/
theorem contr_emb_pos : 0 < dot_S50000x6_S6x64_S50000x64_1_0_0_1_n_n.contr.rank := Nat.one_pos

theorem lhs_emb_0 (i : S50000x64.Idx) (q : dot_S50000x6_S6x64_S50000x64_1_0_0_1_n_n.contr.Idx) :
    (dot_S50000x6_S6x64_S50000x64_1_0_0_1_n_n.lhsIdx i q 0).val = (i 0).val := by
  unfold DotDims.lhsIdx
  rw [dif_neg (show ¬(0 : Fin S50000x6.rank) ∈ dot_S50000x6_S6x64_S50000x64_1_0_0_1_n_n.lhsBatch from List.not_mem_nil),
    dif_pos (show (0 : Fin S50000x6.rank) ∈ dot_S50000x6_S6x64_S50000x64_1_0_0_1_n_n.lhsNonContracting from List.mem_singleton.2 rfl)]
  rfl

theorem lhs_emb_1 (i : S50000x64.Idx) (q : dot_S50000x6_S6x64_S50000x64_1_0_0_1_n_n.contr.Idx) :
    (dot_S50000x6_S6x64_S50000x64_1_0_0_1_n_n.lhsIdx i q 1).val = (q ⟨0, contr_emb_pos⟩).val :=
  dot_S50000x6_S6x64_S50000x64_1_0_0_1_n_n.lhsIdx_val_of_single rfl i q

theorem rhs_emb_0 (i : S50000x64.Idx) (q : dot_S50000x6_S6x64_S50000x64_1_0_0_1_n_n.contr.Idx) :
    (dot_S50000x6_S6x64_S50000x64_1_0_0_1_n_n.rhsIdx i q 0).val = (q ⟨0, contr_emb_pos⟩).val :=
  dot_S50000x6_S6x64_S50000x64_1_0_0_1_n_n.rhsIdx_val_of_single rfl i q

theorem rhs_emb_1 (i : S50000x64.Idx) (q : dot_S50000x6_S6x64_S50000x64_1_0_0_1_n_n.contr.Idx) :
    (dot_S50000x6_S6x64_S50000x64_1_0_0_1_n_n.rhsIdx i q 1).val = (i 1).val := by
  unfold DotDims.rhsIdx
  rw [dif_neg (show ¬(1 : Fin S6x64.rank) ∈ dot_S50000x6_S6x64_S50000x64_1_0_0_1_n_n.rhsBatch from List.not_mem_nil),
    dif_pos (show (1 : Fin S6x64.rank) ∈ dot_S50000x6_S6x64_S50000x64_1_0_0_1_n_n.rhsNonContracting from List.mem_singleton.2 rfl)]
  rfl

/-- The product alone at entry (r, j): row r of x against column j of w. -/
theorem dot_emb_apply (x : FVec Ideal S50000x6 .f32) (w : FVec Ideal S6x64 .f32) (r : Fin 50000) (j : Fin 64) :
    Host.dotGeneral (F := Ideal) dot_S50000x6_S6x64_S50000x64_1_0_0_1_n_n none x w (ix2 r j) = ∑ t : Fin 6, x (ix2 r t) * w (ix2 t j) := by
  simp only [Host.dotGeneral]
  rw [Ideal.dotGeneral_apply, ← Equiv.sum_comp (ValueIdx.contrEquiv1 dot_S50000x6_S6x64_S50000x64_1_0_0_1_n_n 6 rfl rfl).symm]
  refine Finset.sum_congr rfl fun t _ => ?_
  have hk := ValueIdx.contrEquiv1_symm_val dot_S50000x6_S6x64_S50000x64_1_0_0_1_n_n 6 rfl rfl t
  have el : dot_S50000x6_S6x64_S50000x64_1_0_0_1_n_n.lhsIdx (ix2 r j) ((ValueIdx.contrEquiv1 dot_S50000x6_S6x64_S50000x64_1_0_0_1_n_n 6 rfl rfl).symm t) = ix2 r t := funext fun a => Fin.ext (by
    match a with
    | ⟨0, _⟩ => exact lhs_emb_0 _ _
    | ⟨1, _⟩ => exact (lhs_emb_1 _ _).trans hk)
  have er : dot_S50000x6_S6x64_S50000x64_1_0_0_1_n_n.rhsIdx (ix2 r j) ((ValueIdx.contrEquiv1 dot_S50000x6_S6x64_S50000x64_1_0_0_1_n_n 6 rfl rfl).symm t) = ix2 t j := funext fun a => Fin.ext (by
    match a with
    | ⟨0, _⟩ => exact (rhs_emb_0 _ _).trans hk
    | ⟨1, _⟩ => exact rhs_emb_1 _ _)
  rw [el, er]

/-- The bias vector broadcast to a row and then to every row, at entry (r, j): the vector's entry j. -/
theorem bias_emb_apply (bv : FVec Ideal S64 .f32) (r : Fin 50000) (j : Fin 64) :
    broadcastInDim S50000x64 ![0, 1] bcast_S1x64_S50000x64_0_1 (broadcastInDim S1x64 ![1] bcast_S64_S1x64_1 bv) (ix2 r j) = bv (ix1 j) := by
  rw [broadcastInDim_apply _ _ _ _ (ix2 (0 : Fin 1) j) (fun a => by
    match a with
    | ⟨0, _⟩ => rfl
    | ⟨1, _⟩ => rfl)]
  exact broadcastInDim_apply _ _ _ _ (ix1 j) (fun a => by
    match a with
    | ⟨0, _⟩ => rfl)

/-- The node embedding: x · w plus the bias vector on every row is the dense-layer formula, entry by entry. -/
theorem lin_emb (x : FVec Ideal S50000x6 .f32) (w : FVec Ideal S6x64 .f32) (bv : FVec Ideal S64 .f32) (r : Fin 50000) (j : Fin 64) :
    addf (Host.dotGeneral (F := Ideal) dot_S50000x6_S6x64_S50000x64_1_0_0_1_n_n none x w)
      (broadcastInDim S50000x64 ![0, 1] bcast_S1x64_S50000x64_0_1 (broadcastInDim S1x64 ![1] bcast_S64_S1x64_1 bv)) (ix2 r j)
      = Spec.lin x w (fun i => bv (ix1 (i 1))) r j := by
  rw [addf_apply, dot_emb_apply, bias_emb_apply]
  rfl

/-! ## The dense layer [400000,2] · [2,64] -/

/-- The contraction has one axis. -/
theorem contr_edge_pos : 0 < dot_S400000x2_S2x64_S400000x64_1_0_0_1_n_n.contr.rank := Nat.one_pos

theorem lhs_edge_0 (i : S400000x64.Idx) (q : dot_S400000x2_S2x64_S400000x64_1_0_0_1_n_n.contr.Idx) :
    (dot_S400000x2_S2x64_S400000x64_1_0_0_1_n_n.lhsIdx i q 0).val = (i 0).val := by
  unfold DotDims.lhsIdx
  rw [dif_neg (show ¬(0 : Fin S400000x2.rank) ∈ dot_S400000x2_S2x64_S400000x64_1_0_0_1_n_n.lhsBatch from List.not_mem_nil),
    dif_pos (show (0 : Fin S400000x2.rank) ∈ dot_S400000x2_S2x64_S400000x64_1_0_0_1_n_n.lhsNonContracting from List.mem_singleton.2 rfl)]
  rfl

theorem lhs_edge_1 (i : S400000x64.Idx) (q : dot_S400000x2_S2x64_S400000x64_1_0_0_1_n_n.contr.Idx) :
    (dot_S400000x2_S2x64_S400000x64_1_0_0_1_n_n.lhsIdx i q 1).val = (q ⟨0, contr_edge_pos⟩).val :=
  dot_S400000x2_S2x64_S400000x64_1_0_0_1_n_n.lhsIdx_val_of_single rfl i q

theorem rhs_edge_0 (i : S400000x64.Idx) (q : dot_S400000x2_S2x64_S400000x64_1_0_0_1_n_n.contr.Idx) :
    (dot_S400000x2_S2x64_S400000x64_1_0_0_1_n_n.rhsIdx i q 0).val = (q ⟨0, contr_edge_pos⟩).val :=
  dot_S400000x2_S2x64_S400000x64_1_0_0_1_n_n.rhsIdx_val_of_single rfl i q

theorem rhs_edge_1 (i : S400000x64.Idx) (q : dot_S400000x2_S2x64_S400000x64_1_0_0_1_n_n.contr.Idx) :
    (dot_S400000x2_S2x64_S400000x64_1_0_0_1_n_n.rhsIdx i q 1).val = (i 1).val := by
  unfold DotDims.rhsIdx
  rw [dif_neg (show ¬(1 : Fin S2x64.rank) ∈ dot_S400000x2_S2x64_S400000x64_1_0_0_1_n_n.rhsBatch from List.not_mem_nil),
    dif_pos (show (1 : Fin S2x64.rank) ∈ dot_S400000x2_S2x64_S400000x64_1_0_0_1_n_n.rhsNonContracting from List.mem_singleton.2 rfl)]
  rfl

/-- The product alone at entry (r, j): row r of x against column j of w. -/
theorem dot_edge_apply (x : FVec Ideal S400000x2 .f32) (w : FVec Ideal S2x64 .f32) (r : Fin 400000) (j : Fin 64) :
    Host.dotGeneral (F := Ideal) dot_S400000x2_S2x64_S400000x64_1_0_0_1_n_n none x w (ix2 r j) = ∑ t : Fin 2, x (ix2 r t) * w (ix2 t j) := by
  simp only [Host.dotGeneral]
  rw [Ideal.dotGeneral_apply, ← Equiv.sum_comp (ValueIdx.contrEquiv1 dot_S400000x2_S2x64_S400000x64_1_0_0_1_n_n 2 rfl rfl).symm]
  refine Finset.sum_congr rfl fun t _ => ?_
  have hk := ValueIdx.contrEquiv1_symm_val dot_S400000x2_S2x64_S400000x64_1_0_0_1_n_n 2 rfl rfl t
  have el : dot_S400000x2_S2x64_S400000x64_1_0_0_1_n_n.lhsIdx (ix2 r j) ((ValueIdx.contrEquiv1 dot_S400000x2_S2x64_S400000x64_1_0_0_1_n_n 2 rfl rfl).symm t) = ix2 r t := funext fun a => Fin.ext (by
    match a with
    | ⟨0, _⟩ => exact lhs_edge_0 _ _
    | ⟨1, _⟩ => exact (lhs_edge_1 _ _).trans hk)
  have er : dot_S400000x2_S2x64_S400000x64_1_0_0_1_n_n.rhsIdx (ix2 r j) ((ValueIdx.contrEquiv1 dot_S400000x2_S2x64_S400000x64_1_0_0_1_n_n 2 rfl rfl).symm t) = ix2 t j := funext fun a => Fin.ext (by
    match a with
    | ⟨0, _⟩ => exact (rhs_edge_0 _ _).trans hk
    | ⟨1, _⟩ => exact rhs_edge_1 _ _)
  rw [el, er]

/-- The bias vector broadcast to a row and then to every row, at entry (r, j): the vector's entry j. -/
theorem bias_edge_apply (bv : FVec Ideal S64 .f32) (r : Fin 400000) (j : Fin 64) :
    broadcastInDim S400000x64 ![0, 1] bcast_S1x64_S400000x64_0_1 (broadcastInDim S1x64 ![1] bcast_S64_S1x64_1 bv) (ix2 r j) = bv (ix1 j) := by
  rw [broadcastInDim_apply _ _ _ _ (ix2 (0 : Fin 1) j) (fun a => by
    match a with
    | ⟨0, _⟩ => rfl
    | ⟨1, _⟩ => rfl)]
  exact broadcastInDim_apply _ _ _ _ (ix1 j) (fun a => by
    match a with
    | ⟨0, _⟩ => rfl)

/-! ## The reciprocal of the edge features -/

/-- One over x, entry by entry: the word 1.0 spread over the array, divided by x. -/
theorem recip_edge_apply (x : FVec Ideal S400000x2 .f32) (r : Fin 400000) (t : Fin 2) :
    Host.divf (broadcastInDim S400000x2 ![] bcast_S_S400000x2 (constant (F := Ideal) S_ .f32 0x3F800000#32)) x (ix2 r t)
      = Ideal.div (Ideal.ofBits .f32 0x3F800000#32) (x (ix2 r t)) := by
  show Ideal.div (broadcastInDim S400000x2 ![] bcast_S_S400000x2 (constant (F := Ideal) S_ .f32 0x3F800000#32) (ix2 r t)) (x (ix2 r t)) = _
  rw [broadcastInDim_apply _ _ _ _ ix0 (fun a => a.elim0), constant_apply]

/-- The edge embedding: (1 / x) · w plus the bias vector on every row is the reciprocal dense-layer formula. -/
theorem lin_edge (x : FVec Ideal S400000x2 .f32) (w : FVec Ideal S2x64 .f32) (bv : FVec Ideal S64 .f32) (r : Fin 400000) (j : Fin 64) :
    addf (Host.dotGeneral (F := Ideal) dot_S400000x2_S2x64_S400000x64_1_0_0_1_n_n none
        (Host.divf (broadcastInDim S400000x2 ![] bcast_S_S400000x2 (constant (F := Ideal) S_ .f32 0x3F800000#32)) x) w)
      (broadcastInDim S400000x64 ![0, 1] bcast_S1x64_S400000x64_0_1 (broadcastInDim S1x64 ![1] bcast_S64_S1x64_1 bv)) (ix2 r j)
      = Spec.linRecip (Ideal.ofBits .f32 0x3F800000#32) x w (fun i => bv (ix1 (i 1))) r j := by
  rw [addf_apply, dot_edge_apply, bias_edge_apply]
  simp only [recip_edge_apply]
  rfl

/-! ## The dense layer [50000,64] · [64,64] -/

/-- The contraction has one axis. -/
theorem contr_node_pos : 0 < dot_S50000x64_S64x64_S50000x64_1_0_0_1_n_n.contr.rank := Nat.one_pos

theorem lhs_node_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch from List.not_mem_nil),
    dif_pos (show (0 : Fin S50000x64.rank) ∈ dot_S50000x64_S64x64_S50000x64_1_0_0_1_n_n.lhsNonContracting from List.mem_singleton.2 rfl)]
  rfl

theorem lhs_node_1 (i : S50000x64.Idx) (q : dot_S50000x64_S64x64_S50000x64_1_0_0_1_n_n.contr.Idx) :
    (dot_S50000x64_S64x64_S50000x64_1_0_0_1_n_n.lhsIdx i q 1).val = (q ⟨0, contr_node_pos⟩).val :=
  dot_S50000x64_S64x64_S50000x64_1_0_0_1_n_n.lhsIdx_val_of_single rfl i q

theorem rhs_node_0 (i : S50000x64.Idx) (q : dot_S50000x64_S64x64_S50000x64_1_0_0_1_n_n.contr.Idx) :
    (dot_S50000x64_S64x64_S50000x64_1_0_0_1_n_n.rhsIdx i q 0).val = (q ⟨0, contr_node_pos⟩).val :=
  dot_S50000x64_S64x64_S50000x64_1_0_0_1_n_n.rhsIdx_val_of_single rfl i q

theorem rhs_node_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch from List.not_mem_nil),
    dif_pos (show (1 : Fin S64x64.rank) ∈ dot_S50000x64_S64x64_S50000x64_1_0_0_1_n_n.rhsNonContracting from List.mem_singleton.2 rfl)]
  rfl

/-- The product alone at entry (r, j): row r of x against column j of w. -/
theorem dot_node_apply (x : FVec Ideal S50000x64 .f32) (w : FVec Ideal S64x64 .f32) (r : Fin 50000) (j : Fin 64) :
    Host.dotGeneral (F := Ideal) dot_S50000x64_S64x64_S50000x64_1_0_0_1_n_n none x w (ix2 r j) = ∑ t : Fin 64, x (ix2 r t) * w (ix2 t j) := by
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun t _ => ?_
  have hk := ValueIdx.contrEquiv1_symm_val dot_S50000x64_S64x64_S50000x64_1_0_0_1_n_n 64 rfl rfl t
  have el : dot_S50000x64_S64x64_S50000x64_1_0_0_1_n_n.lhsIdx (ix2 r j) ((ValueIdx.contrEquiv1 dot_S50000x64_S64x64_S50000x64_1_0_0_1_n_n 64 rfl rfl).symm t) = ix2 r t := funext fun a => Fin.ext (by
    match a with
    | ⟨0, _⟩ => exact lhs_node_0 _ _
    | ⟨1, _⟩ => exact (lhs_node_1 _ _).trans hk)
  have er : dot_S50000x64_S64x64_S50000x64_1_0_0_1_n_n.rhsIdx (ix2 r j) ((ValueIdx.contrEquiv1 dot_S50000x64_S64x64_S50000x64_1_0_0_1_n_n 64 rfl rfl).symm t) = ix2 t j := funext fun a => Fin.ext (by
    match a with
    | ⟨0, _⟩ => exact (rhs_node_0 _ _).trans hk
    | ⟨1, _⟩ => exact rhs_node_1 _ _)
  rw [el, er]

/-- The bias vector broadcast to a row and then to every row, at entry (r, j): the vector's entry j. -/
theorem bias_node_apply (bv : FVec Ideal S64 .f32) (r : Fin 50000) (j : Fin 64) :
    broadcastInDim S50000x64 ![0, 1] bcast_S1x64_S50000x64_0_1 (broadcastInDim S1x64 ![1] bcast_S64_S1x64_1 bv) (ix2 r j) = bv (ix1 j) := by
  rw [broadcastInDim_apply _ _ _ _ (ix2 (0 : Fin 1) j) (fun a => by
    match a with
    | ⟨0, _⟩ => rfl
    | ⟨1, _⟩ => rfl)]
  exact broadcastInDim_apply _ _ _ _ (ix1 j) (fun a => by
    match a with
    | ⟨0, _⟩ => rfl)

/-- A node-sized dense layer (the A, B, D, E maps of every layer): h · w plus the bias vector on every row. -/
theorem lin_node (x : FVec Ideal S50000x64 .f32) (w : FVec Ideal S64x64 .f32) (bv : FVec Ideal S64 .f32) (r : Fin 50000) (j : Fin 64) :
    addf (Host.dotGeneral (F := Ideal) dot_S50000x64_S64x64_S50000x64_1_0_0_1_n_n none x w)
      (broadcastInDim S50000x64 ![0, 1] bcast_S1x64_S50000x64_0_1 (broadcastInDim S1x64 ![1] bcast_S64_S1x64_1 bv)) (ix2 r j)
      = Spec.lin x w (fun i => bv (ix1 (i 1))) r j := by
  rw [addf_apply, dot_node_apply, bias_node_apply]
  rfl

/-! ## The dense layer [400000,64] · [64,64] -/

/-- The contraction has one axis. -/
theorem contr_edge64_pos : 0 < dot_S400000x64_S64x64_S400000x64_1_0_0_1_n_n.contr.rank := Nat.one_pos

theorem lhs_edge64_0 (i : S400000x64.Idx) (q : dot_S400000x64_S64x64_S400000x64_1_0_0_1_n_n.contr.Idx) :
    (dot_S400000x64_S64x64_S400000x64_1_0_0_1_n_n.lhsIdx i q 0).val = (i 0).val := by
  unfold DotDims.lhsIdx
  rw [dif_neg (show ¬(0 : Fin S400000x64.rank) ∈ dot_S400000x64_S64x64_S400000x64_1_0_0_1_n_n.lhsBatch from List.not_mem_nil),
    dif_pos (show (0 : Fin S400000x64.rank) ∈ dot_S400000x64_S64x64_S400000x64_1_0_0_1_n_n.lhsNonContracting from List.mem_singleton.2 rfl)]
  rfl

theorem lhs_edge64_1 (i : S400000x64.Idx) (q : dot_S400000x64_S64x64_S400000x64_1_0_0_1_n_n.contr.Idx) :
    (dot_S400000x64_S64x64_S400000x64_1_0_0_1_n_n.lhsIdx i q 1).val = (q ⟨0, contr_edge64_pos⟩).val :=
  dot_S400000x64_S64x64_S400000x64_1_0_0_1_n_n.lhsIdx_val_of_single rfl i q

theorem rhs_edge64_0 (i : S400000x64.Idx) (q : dot_S400000x64_S64x64_S400000x64_1_0_0_1_n_n.contr.Idx) :
    (dot_S400000x64_S64x64_S400000x64_1_0_0_1_n_n.rhsIdx i q 0).val = (q ⟨0, contr_edge64_pos⟩).val :=
  dot_S400000x64_S64x64_S400000x64_1_0_0_1_n_n.rhsIdx_val_of_single rfl i q

theorem rhs_edge64_1 (i : S400000x64.Idx) (q : dot_S400000x64_S64x64_S400000x64_1_0_0_1_n_n.contr.Idx) :
    (dot_S400000x64_S64x64_S400000x64_1_0_0_1_n_n.rhsIdx i q 1).val = (i 1).val := by
  unfold DotDims.rhsIdx
  rw [dif_neg (show ¬(1 : Fin S64x64.rank) ∈ dot_S400000x64_S64x64_S400000x64_1_0_0_1_n_n.rhsBatch from List.not_mem_nil),
    dif_pos (show (1 : Fin S64x64.rank) ∈ dot_S400000x64_S64x64_S400000x64_1_0_0_1_n_n.rhsNonContracting from List.mem_singleton.2 rfl)]
  rfl

/-- The product alone at entry (r, j): row r of x against column j of w. -/
theorem dot_edge64_apply (x : FVec Ideal S400000x64 .f32) (w : FVec Ideal S64x64 .f32) (r : Fin 400000) (j : Fin 64) :
    Host.dotGeneral (F := Ideal) dot_S400000x64_S64x64_S400000x64_1_0_0_1_n_n none x w (ix2 r j) = ∑ t : Fin 64, x (ix2 r t) * w (ix2 t j) := by
  simp only [Host.dotGeneral]
  rw [Ideal.dotGeneral_apply, ← Equiv.sum_comp (ValueIdx.contrEquiv1 dot_S400000x64_S64x64_S400000x64_1_0_0_1_n_n 64 rfl rfl).symm]
  refine Finset.sum_congr rfl fun t _ => ?_
  have hk := ValueIdx.contrEquiv1_symm_val dot_S400000x64_S64x64_S400000x64_1_0_0_1_n_n 64 rfl rfl t
  have el : dot_S400000x64_S64x64_S400000x64_1_0_0_1_n_n.lhsIdx (ix2 r j) ((ValueIdx.contrEquiv1 dot_S400000x64_S64x64_S400000x64_1_0_0_1_n_n 64 rfl rfl).symm t) = ix2 r t := funext fun a => Fin.ext (by
    match a with
    | ⟨0, _⟩ => exact lhs_edge64_0 _ _
    | ⟨1, _⟩ => exact (lhs_edge64_1 _ _).trans hk)
  have er : dot_S400000x64_S64x64_S400000x64_1_0_0_1_n_n.rhsIdx (ix2 r j) ((ValueIdx.contrEquiv1 dot_S400000x64_S64x64_S400000x64_1_0_0_1_n_n 64 rfl rfl).symm t) = ix2 t j := funext fun a => Fin.ext (by
    match a with
    | ⟨0, _⟩ => exact (rhs_edge64_0 _ _).trans hk
    | ⟨1, _⟩ => exact rhs_edge64_1 _ _)
  rw [el, er]

/-- The bias vector broadcast to a row and then to every row, at entry (r, j): the vector's entry j. -/
theorem bias_edge64_apply (bv : FVec Ideal S64 .f32) (r : Fin 400000) (j : Fin 64) :
    broadcastInDim S400000x64 ![0, 1] bcast_S1x64_S400000x64_0_1 (broadcastInDim S1x64 ![1] bcast_S64_S1x64_1 bv) (ix2 r j) = bv (ix1 j) := by
  rw [broadcastInDim_apply _ _ _ _ (ix2 (0 : Fin 1) j) (fun a => by
    match a with
    | ⟨0, _⟩ => rfl
    | ⟨1, _⟩ => rfl)]
  exact broadcastInDim_apply _ _ _ _ (ix1 j) (fun a => by
    match a with
    | ⟨0, _⟩ => rfl)

/-- The edge-sized dense layer (the C map of every layer): e · w plus the bias vector on every row. -/
theorem lin_edge64 (x : FVec Ideal S400000x64 .f32) (w : FVec Ideal S64x64 .f32) (bv : FVec Ideal S64 .f32) (r : Fin 400000) (j : Fin 64) :
    addf (Host.dotGeneral (F := Ideal) dot_S400000x64_S64x64_S400000x64_1_0_0_1_n_n none x w)
      (broadcastInDim S400000x64 ![0, 1] bcast_S1x64_S400000x64_0_1 (broadcastInDim S1x64 ![1] bcast_S64_S1x64_1 bv)) (ix2 r j)
      = Spec.lin x w (fun i => bv (ix1 (i 1))) r j := by
  rw [addf_apply, dot_edge64_apply, bias_edge64_apply]
  rfl

/-! ## A layer's weights out of the stacked arrays -/

/-- Layer 1's weight matrix: the slice [0:1] of the stacked weights, its unit axis dropped, at entry (k, j). -/
theorem wslice0_apply (a : FVec Ideal S3x64x64 .f32) (k j : Fin 64) :
    shapeCast S64x64 (extractStridedSlice S1x64x64 ![0, 0, 0] a slices_S3x64x64_S1x64x64_0_0_0) shapeCasts_S1x64x64_S64x64 (ix2 k j)
      = a (ix3 (0 : Fin 3) k j) := by
  rw [shapeCast_1ab_ab_apply]
  exact extractStridedSlice_apply _ _ _ _ (ix3 (0 : Fin 3) k j) (fun c => by
    match c with
    | ⟨0, _⟩ => rfl
    | ⟨1, _⟩ => exact (Nat.zero_add _).symm
    | ⟨2, _⟩ => exact (Nat.zero_add _).symm)

/-- Layer 1's bias (or gain) vector: the slice [0:1] of the stacked vectors, its unit axis dropped, at entry j. -/
theorem bslice0_apply (a : FVec Ideal S3x64 .f32) (j : Fin 64) :
    shapeCast S64 (extractStridedSlice S1x64 ![0, 0] a slices_S3x64_S1x64_0_0) shapeCasts_S1x64_S64 (ix1 j)
      = a (ix2 (0 : Fin 3) j) := by
  rw [shapeCast_1a_a_apply]
  exact extractStridedSlice_apply _ _ _ _ (ix2 (0 : Fin 3) j) (fun c => by
    match c with
    | ⟨0, _⟩ => rfl
    | ⟨1, _⟩ => exact (Nat.zero_add _).symm)

/-- Layer 2's weight matrix: the slice [1:2] of the stacked weights, its unit axis dropped, at entry (k, j). -/
theorem wslice1_apply (a : FVec Ideal S3x64x64 .f32) (k j : Fin 64) :
    shapeCast S64x64 (extractStridedSlice S1x64x64 ![1, 0, 0] a slices_S3x64x64_S1x64x64_1_0_0) shapeCasts_S1x64x64_S64x64 (ix2 k j)
      = a (ix3 (1 : Fin 3) k j) := by
  rw [shapeCast_1ab_ab_apply]
  exact extractStridedSlice_apply _ _ _ _ (ix3 (1 : Fin 3) k j) (fun c => by
    match c with
    | ⟨0, _⟩ => rfl
    | ⟨1, _⟩ => exact (Nat.zero_add _).symm
    | ⟨2, _⟩ => exact (Nat.zero_add _).symm)

/-- Layer 2's bias (or gain) vector: the slice [1:2] of the stacked vectors, its unit axis dropped, at entry j. -/
theorem bslice1_apply (a : FVec Ideal S3x64 .f32) (j : Fin 64) :
    shapeCast S64 (extractStridedSlice S1x64 ![1, 0] a slices_S3x64_S1x64_1_0) shapeCasts_S1x64_S64 (ix1 j)
      = a (ix2 (1 : Fin 3) j) := by
  rw [shapeCast_1a_a_apply]
  exact extractStridedSlice_apply _ _ _ _ (ix2 (1 : Fin 3) j) (fun c => by
    match c with
    | ⟨0, _⟩ => rfl
    | ⟨1, _⟩ => exact (Nat.zero_add _).symm)

/-- Layer 3's weight matrix: the slice [2:3] of the stacked weights, its unit axis dropped, at entry (k, j). -/
theorem wslice2_apply (a : FVec Ideal S3x64x64 .f32) (k j : Fin 64) :
    shapeCast S64x64 (extractStridedSlice S1x64x64 ![2, 0, 0] a slices_S3x64x64_S1x64x64_2_0_0) shapeCasts_S1x64x64_S64x64 (ix2 k j)
      = a (ix3 (2 : Fin 3) k j) := by
  rw [shapeCast_1ab_ab_apply]
  exact extractStridedSlice_apply _ _ _ _ (ix3 (2 : Fin 3) k j) (fun c => by
    match c with
    | ⟨0, _⟩ => rfl
    | ⟨1, _⟩ => exact (Nat.zero_add _).symm
    | ⟨2, _⟩ => exact (Nat.zero_add _).symm)

/-- Layer 3's bias (or gain) vector: the slice [2:3] of the stacked vectors, its unit axis dropped, at entry j. -/
theorem bslice2_apply (a : FVec Ideal S3x64 .f32) (j : Fin 64) :
    shapeCast S64 (extractStridedSlice S1x64 ![2, 0] a slices_S3x64_S1x64_2_0) shapeCasts_S1x64_S64 (ix1 j)
      = a (ix2 (2 : Fin 3) j) := by
  rw [shapeCast_1a_a_apply]
  exact extractStridedSlice_apply _ _ _ _ (ix2 (2 : Fin 3) j) (fun c => by
    match c with
    | ⟨0, _⟩ => rfl
    | ⟨1, _⟩ => exact (Nat.zero_add _).symm)

end Cert.ReferenceIdeal.Hand

end
-- ==== Proof.Sim.Base.lean ====
import proofs.«431450_j74423193305350_1_alg».proof.Defs

/-! The two memories of the equivalence claim, and what it means that they agree on the arguments. -/

noncomputable section

namespace Cert.Sim

open Idealize.ShloMosaic Idealize.SL.Sem

/-- A memory of the idealized kernel program. -/
abbrev KM : Type := (ℓ : Loc Cert.KernelIdeal.nD Cert.KernelIdeal.τ Cert.KernelIdeal.sig) → Buf (Elt Ideal) ℓ
/-- A memory of the idealized reference program. -/
abbrev RM : Type := (ℓ : Loc Cert.ReferenceIdeal.nD Cert.ReferenceIdeal.τ Cert.ReferenceIdeal.sig) → Buf (Elt Ideal) ℓ

/-- The reference's memory holds, argument by argument, what the kernel's memory holds (the claim's hypothesis, verbatim). -/
def Agree (m : KM) (m' : RM) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)

end Cert.Sim

end
-- ==== Proof.Sim.Dense1.lean ====
import proofs.«431450_j74423193305350_1_alg».proof.Proof.KI.Fold
import proofs.«431450_j74423193305350_1_alg».proof.Proof.KI.Seg0
import proofs.«431450_j74423193305350_1_alg».proof.Proof.KI.Seg1
import proofs.«431450_j74423193305350_1_alg».proof.Proof.KI.Seg2
import proofs.«431450_j74423193305350_1_alg».proof.Proof.KI.Seg3
import proofs.«431450_j74423193305350_1_alg».proof.Proof.KI.Val0
import proofs.«431450_j74423193305350_1_alg».proof.Proof.KI.Val1
import proofs.«431450_j74423193305350_1_alg».proof.Proof.KI.Val2
import proofs.«431450_j74423193305350_1_alg».proof.Proof.KI.Val3
import proofs.«431450_j74423193305350_1_alg».proof.Proof.KI.Host0
import proofs.«431450_j74423193305350_1_alg».proof.Proof.KI.Host2
import proofs.«431450_j74423193305350_1_alg».proof.Proof.KI.Host3
import proofs.«431450_j74423193305350_1_alg».proof.Proof.Ref.Fold
import proofs.«431450_j74423193305350_1_alg».proof.Proof.Ref.RdEmb
import proofs.«431450_j74423193305350_1_alg».proof.Proof.Ref.RdL1
import proofs.«431450_j74423193305350_1_alg».proof.Proof.Ref.Form1
import proofs.«431450_j74423193305350_1_alg».proof.Proof.Sim.Base
import proofs.«431450_j74423193305350_1_alg».proof.Proof.Spec

/-! The dense layers of the two embeddings and of layer 1, kernel against reference: each kernel array a dense region (or a column
    block of one) leaves equals the reference buffer its dot-plus-bias leaves, given that the two memories agree on
    the arguments and that the arrays the layers read already agree. Both sides are read as the same dense-layer
    formula; the kernel's wide product against the four weight blocks side by side is, on column block a, the
    product against weight a. Each layer's pairing takes the equations between the weight and bias arguments it
    reads as hypotheses; the last theorem supplies them all from the agreement of the two memories. -/
set_option maxRecDepth 16384

noncomputable section

namespace Cert.Sim

open Idealize.ShloMosaic Idealize.ShloMosaic.TcCoe Idealize.ShloMosaic.ValueIdx Idealize.ShloMosaic.StableHlo
open Idealize.SL.Sem
open Cert.KernelIdeal.Hand Cert.ReferenceIdeal.Hand
open Cert.Spec (Mat)

/-- A dense-layer entry depends only on the row of the left matrix, on one column of the weights and on one bias
    entry: two layers that agree there have the same entry, whatever the widths of the two weight matrices. -/
theorem lin_congr {n k p p' : Nat} {x x' : Mat n k} {w : Mat k p} {w' : Mat k p'} {b : Mat 1 p} {b' : Mat 1 p'}
    {r : Fin n} {j : Fin p} {j' : Fin p'} (hx : ∀ t : Fin k, x (ix2 r t) = x' (ix2 r t))
    (hw : ∀ t : Fin k, w (ix2 t j) = w' (ix2 t j')) (hb : b (ix2 0 j) = b' (ix2 0 j')) :
    Spec.lin x w b r j = Spec.lin x' w' b' r j' := by
  unfold Spec.lin
  rw [hb]
  exact congrArg (· + _) (Finset.sum_congr rfl fun t _ => by rw [hx t, hw t])

/-- The same for the layer that takes reciprocals of the left matrix first. -/
theorem linRecip_congr {n k p p' : Nat} {one : EReal} {x x' : Mat n k} {w : Mat k p} {w' : Mat k p'} {b : Mat 1 p} {b' : Mat 1 p'}
    {r : Fin n} {j : Fin p} {j' : Fin p'} (hx : ∀ t : Fin k, x (ix2 r t) = x' (ix2 r t))
    (hw : ∀ t : Fin k, w (ix2 t j) = w' (ix2 t j')) (hb : b (ix2 0 j) = b' (ix2 0 j')) :
    Spec.linRecip one x w b r j = Spec.linRecip one x' w' b' r j' := by
  unfold Spec.linRecip
  rw [hb]
  exact congrArg (· + _) (Finset.sum_congr rfl fun t _ => by rw [hx t, hw t])

variable (m : KM) (m' : RM)

/-! ## The embeddings -/

/-- The reference's node embedding is the dense layer of the arguments. -/
theorem ref_v5 (c : Dev Cert.KernelIdeal.nD) (r : Fin 50000) (j : Fin 64) :
    (RW1 m' c (Proc.devRef .tc Cert.ReferenceIdeal.main_v5) : Mat 50000 64) (ix2 r j)
      = Spec.lin (RW0 m' c (Proc.devRef .tc Cert.ReferenceIdeal.main_arg1) : Mat 50000 6) (RW0 m' c (Proc.devRef .tc Cert.ReferenceIdeal.main_arg6) : Mat 6 64)
          (fun i => (RW0 m' c (Proc.devRef .tc Cert.ReferenceIdeal.main_arg7) : Cert.ReferenceIdeal.S64.Idx → EReal) (ix1 (i 1))) r j := by
  unfold RW1
  rw [rd_main_v5, rd_main_v2, rd_main_v4, rd_main_v3]
  exact lin_emb _ _ _ r j

/-- The reference's edge embedding is the reciprocal dense layer of the arguments. -/
theorem ref_v9 (c : Dev Cert.KernelIdeal.nD) (r : Fin 400000) (j : Fin 64) :
    (RW1 m' c (Proc.devRef .tc Cert.ReferenceIdeal.main_v9) : Mat 400000 64) (ix2 r j)
      = Spec.linRecip (Ideal.ofBits .f32 0x3F800000#32) (RW0 m' c (Proc.devRef .tc Cert.ReferenceIdeal.main_arg2) : Mat 400000 2) (RW0 m' c (Proc.devRef .tc Cert.ReferenceIdeal.main_arg8) : Mat 2 64)
          (fun i => (RW0 m' c (Proc.devRef .tc Cert.ReferenceIdeal.main_arg9) : Cert.ReferenceIdeal.S64.Idx → EReal) (ix1 (i 1))) r j := by
  unfold RW1
  rw [rd_main_v9, rd_main_v6, rd_main_v8, rd_main_v7, rd_main_v1, rd_main_v0, rd_main_cst]
  exact lin_edge _ _ _ r j

/-- The node embedding: the kernel's array after region 0 is the reference's buffer after its embedding stage. -/
theorem h0_core (c : Dev Cert.KernelIdeal.nD)
    (k1 : (W1 m c (Proc.devRef .tc Cert.KernelIdeal.main_arg1) : Mat 50000 6) = (RW0 m' c (Proc.devRef .tc Cert.ReferenceIdeal.main_arg1) : Mat 50000 6))
    (k6 : (W1 m c (Proc.devRef .tc Cert.KernelIdeal.main_arg6) : Mat 6 64) = (RW0 m' c (Proc.devRef .tc Cert.ReferenceIdeal.main_arg6) : Mat 6 64))
    (k7 : (W0 m c (Proc.devRef .tc Cert.KernelIdeal.main_arg7) : Cert.KernelIdeal.S64.Idx → EReal) = (RW0 m' c (Proc.devRef .tc Cert.ReferenceIdeal.main_arg7) : Cert.KernelIdeal.S64.Idx → EReal)) :
    (T2 m c Cert.KernelIdeal.main_v1 : Mat 50000 64) = (RW1 m' c (Proc.devRef .tc Cert.ReferenceIdeal.main_v5) : Mat 50000 64) := by
  funext i
  obtain ⟨r, j, rfl⟩ : ∃ (r : Fin 50000) (j : Fin 64), i = ix2 r j := ⟨i 0, i 1, eq_ix2 i⟩
  refine (congrFun (hF0 m c 3).symm (ix2 r j)).trans ?_
  refine (final0_3_apply (T1 m) c r j).trans ?_
  refine Eq.trans ?_ (ref_v5 m' c r j).symm
  refine lin_congr (fun t => ?_) (fun t => ?_) ?_
  · exact congrFun k1 (ix2 r t)
  · exact congrFun k6 (ix2 t j)
  · exact (host0_v0 (W0 m c) j).trans (congrFun k7 (ix1 j))

/-- The edge embedding: the kernel's array after region 1 is the reference's buffer after its embedding stage. -/
theorem e0_core (c : Dev Cert.KernelIdeal.nD)
    (k2 : (W3 m c (Proc.devRef .tc Cert.KernelIdeal.main_arg2) : Mat 400000 2) = (RW0 m' c (Proc.devRef .tc Cert.ReferenceIdeal.main_arg2) : Mat 400000 2))
    (k8 : (W3 m c (Proc.devRef .tc Cert.KernelIdeal.main_arg8) : Mat 2 64) = (RW0 m' c (Proc.devRef .tc Cert.ReferenceIdeal.main_arg8) : Mat 2 64))
    (k9 : (W2 m c (Proc.devRef .tc Cert.KernelIdeal.main_arg9) : Cert.KernelIdeal.S64.Idx → EReal) = (RW0 m' c (Proc.devRef .tc Cert.ReferenceIdeal.main_arg9) : Cert.KernelIdeal.S64.Idx → EReal)) :
    (T4 m c Cert.KernelIdeal.main_v3 : Mat 400000 64) = (RW1 m' c (Proc.devRef .tc Cert.ReferenceIdeal.main_v9) : Mat 400000 64) := by
  funext i
  obtain ⟨r, j, rfl⟩ : ∃ (r : Fin 400000) (j : Fin 64), i = ix2 r j := ⟨i 0, i 1, eq_ix2 i⟩
  refine (congrFun (hF1 m c 3).symm (ix2 r j)).trans ?_
  refine (final1_3_apply (T3 m) c r j).trans ?_
  refine Eq.trans ?_ (ref_v9 m' c r j).symm
  refine linRecip_congr (fun t => ?_) (fun t => ?_) ?_
  · exact congrFun k2 (ix2 r t)
  · exact congrFun k8 (ix2 t j)
  · exact (host1_v2 (W2 m c) j).trans (congrFun k9 (ix1 j))

/-! ## Layer 1: the four node-side dense layers (one wide product in the kernel) and the edge-side one -/

/-- The reference's dense layer ending in buffer 17: the dense-layer formula of its input rows and of layer slice 0 of the stacked weights and biases. -/
theorem ref_v17 (c : Dev Cert.KernelIdeal.nD) (r : Fin 50000) (j : Fin 64) :
    (RW2 m' c (Proc.devRef .tc Cert.ReferenceIdeal.main_v17) : Mat 50000 64) (ix2 r j)
      = Spec.lin (RW1 m' c (Proc.devRef .tc Cert.ReferenceIdeal.main_v5) : Mat 50000 64)
          (fun (i : (⟨2, ![64, 64]⟩ : Shape).Idx) => (RW1 m' c (Proc.devRef .tc Cert.ReferenceIdeal.main_arg10) : Cert.ReferenceIdeal.S3x64x64.Idx → EReal) (ix3 0 (i 0) (i 1)))
          (fun (i : (⟨2, ![1, 64]⟩ : Shape).Idx) => (RW1 m' c (Proc.devRef .tc Cert.ReferenceIdeal.main_arg11) : Cert.ReferenceIdeal.S3x64.Idx → EReal) (ix2 0 (i 1))) r j := by
  unfold RW2
  rw [rd_main_v17, rd_main_v12, rd_main_v16, rd_main_v15, rd_main_v14, rd_main_v13, rd_main_v11, rd_main_v10]
  refine (lin_node _ _ _ r j).trans ?_
  exact lin_congr (fun _ => rfl) (fun t => wslice0_apply _ t j) (bslice0_apply _ j)

/-- The reference's dense layer ending in buffer 25: the dense-layer formula of its input rows and of layer slice 0 of the stacked weights and biases. -/
theorem ref_v25 (c : Dev Cert.KernelIdeal.nD) (r : Fin 50000) (j : Fin 64) :
    (RW2 m' c (Proc.devRef .tc Cert.ReferenceIdeal.main_v25) : Mat 50000 64) (ix2 r j)
      = Spec.lin (RW1 m' c (Proc.devRef .tc Cert.ReferenceIdeal.main_v5) : Mat 50000 64)
          (fun (i : (⟨2, ![64, 64]⟩ : Shape).Idx) => (RW1 m' c (Proc.devRef .tc Cert.ReferenceIdeal.main_arg12) : Cert.ReferenceIdeal.S3x64x64.Idx → EReal) (ix3 0 (i 0) (i 1)))
          (fun (i : (⟨2, ![1, 64]⟩ : Shape).Idx) => (RW1 m' c (Proc.devRef .tc Cert.ReferenceIdeal.main_arg13) : Cert.ReferenceIdeal.S3x64.Idx → EReal) (ix2 0 (i 1))) r j := by
  unfold RW2
  rw [rd_main_v25, rd_main_v20, rd_main_v24, rd_main_v23, rd_main_v22, rd_main_v21, rd_main_v19, rd_main_v18]
  refine (lin_node _ _ _ r j).trans ?_
  exact lin_congr (fun _ => rfl) (fun t => wslice0_apply _ t j) (bslice0_apply _ j)

/-- The reference's dense layer ending in buffer 33: the dense-layer formula of its input rows and of layer slice 0 of the stacked weights and biases. -/
theorem ref_v33 (c : Dev Cert.KernelIdeal.nD) (r : Fin 50000) (j : Fin 64) :
    (RW2 m' c (Proc.devRef .tc Cert.ReferenceIdeal.main_v33) : Mat 50000 64) (ix2 r j)
      = Spec.lin (RW1 m' c (Proc.devRef .tc Cert.ReferenceIdeal.main_v5) : Mat 50000 64)
          (fun (i : (⟨2, ![64, 64]⟩ : Shape).Idx) => (RW1 m' c (Proc.devRef .tc Cert.ReferenceIdeal.main_arg16) : Cert.ReferenceIdeal.S3x64x64.Idx → EReal) (ix3 0 (i 0) (i 1)))
          (fun (i : (⟨2, ![1, 64]⟩ : Shape).Idx) => (RW1 m' c (Proc.devRef .tc Cert.ReferenceIdeal.main_arg17) : Cert.ReferenceIdeal.S3x64.Idx → EReal) (ix2 0 (i 1))) r j := by
  unfold RW2
  rw [rd_main_v33, rd_main_v28, rd_main_v32, rd_main_v31, rd_main_v30, rd_main_v29, rd_main_v27, rd_main_v26]
  refine (lin_node _ _ _ r j).trans ?_
  exact lin_congr (fun _ => rfl) (fun t => wslice0_apply _ t j) (bslice0_apply _ j)

/-- The reference's dense layer ending in buffer 41: the dense-layer formula of its input rows and of layer slice 0 of the stacked weights and biases. -/
theorem ref_v41 (c : Dev Cert.KernelIdeal.nD) (r : Fin 50000) (j : Fin 64) :
    (RW2 m' c (Proc.devRef .tc Cert.ReferenceIdeal.main_v41) : Mat 50000 64) (ix2 r j)
      = Spec.lin (RW1 m' c (Proc.devRef .tc Cert.ReferenceIdeal.main_v5) : Mat 50000 64)
          (fun (i : (⟨2, ![64, 64]⟩ : Shape).Idx) => (RW1 m' c (Proc.devRef .tc Cert.ReferenceIdeal.main_arg18) : Cert.ReferenceIdeal.S3x64x64.Idx → EReal) (ix3 0 (i 0) (i 1)))
          (fun (i : (⟨2, ![1, 64]⟩ : Shape).Idx) => (RW1 m' c (Proc.devRef .tc Cert.ReferenceIdeal.main_arg19) : Cert.ReferenceIdeal.S3x64.Idx → EReal) (ix2 0 (i 1))) r j := by
  unfold RW2
  rw [rd_main_v41, rd_main_v36, rd_main_v40, rd_main_v39, rd_main_v38, rd_main_v37, rd_main_v35, rd_main_v34]
  refine (lin_node _ _ _ r j).trans ?_
  exact lin_congr (fun _ => rfl) (fun t => wslice0_apply _ t j) (bslice0_apply _ j)

/-- The reference's dense layer ending in buffer 49: the dense-layer formula of its input rows and of layer slice 0 of the stacked weights and biases. -/
theorem ref_v49 (c : Dev Cert.KernelIdeal.nD) (r : Fin 400000) (j : Fin 64) :
    (RW2 m' c (Proc.devRef .tc Cert.ReferenceIdeal.main_v49) : Mat 400000 64) (ix2 r j)
      = Spec.lin (RW1 m' c (Proc.devRef .tc Cert.ReferenceIdeal.main_v9) : Mat 400000 64)
          (fun (i : (⟨2, ![64, 64]⟩ : Shape).Idx) => (RW1 m' c (Proc.devRef .tc Cert.ReferenceIdeal.main_arg14) : Cert.ReferenceIdeal.S3x64x64.Idx → EReal) (ix3 0 (i 0) (i 1)))
          (fun (i : (⟨2, ![1, 64]⟩ : Shape).Idx) => (RW1 m' c (Proc.devRef .tc Cert.ReferenceIdeal.main_arg15) : Cert.ReferenceIdeal.S3x64.Idx → EReal) (ix2 0 (i 1))) r j := by
  unfold RW2
  rw [rd_main_v49, rd_main_v44, rd_main_v48, rd_main_v47, rd_main_v46, rd_main_v45, rd_main_v43, rd_main_v42]
  refine (lin_edge64 _ _ _ r j).trans ?_
  exact lin_congr (fun _ => rfl) (fun t => wslice0_apply _ t j) (bslice0_apply _ j)

/-- Column block A of the kernel's wide product is the reference's dense layer with weight A. -/
theorem a1_core (c : Dev Cert.KernelIdeal.nD)
    (hh : (T4 m c Cert.KernelIdeal.main_v1 : Mat 50000 64) = (RW1 m' c (Proc.devRef .tc Cert.ReferenceIdeal.main_v5) : Mat 50000 64))
    (kW : (W4 m c (Proc.devRef .tc Cert.KernelIdeal.main_arg10) : Cert.KernelIdeal.S3x64x64.Idx → EReal) = (RW1 m' c (Proc.devRef .tc Cert.ReferenceIdeal.main_arg10) : Cert.KernelIdeal.S3x64x64.Idx → EReal))
    (kB : (W4 m c (Proc.devRef .tc Cert.KernelIdeal.main_arg11) : Cert.KernelIdeal.S3x64.Idx → EReal) = (RW1 m' c (Proc.devRef .tc Cert.ReferenceIdeal.main_arg11) : Cert.KernelIdeal.S3x64.Idx → EReal)) :
    (T7 m c Cert.KernelIdeal.main_v24 : Mat 50000 64) = (RW2 m' c (Proc.devRef .tc Cert.ReferenceIdeal.main_v17) : Mat 50000 64) := by
  funext i
  obtain ⟨r, j, rfl⟩ : ∃ (r : Fin 50000) (j : Fin 64), i = ix2 r j := ⟨i 0, i 1, eq_ix2 i⟩
  have hj : j.val < 64 := j.isLt
  refine (host3_v24 (W6 m c) r j ⟨0 + j.val, by omega⟩ rfl).trans ?_
  refine (congrFun (hF2 m c 3).symm (ix2 r ⟨0 + j.val, by omega⟩)).trans ?_
  refine (final2_3_apply (T5 m) c r ⟨0 + j.val, by omega⟩).trans ?_
  refine Eq.trans ?_ (ref_v17 m' c r j).symm
  refine lin_congr (fun t => ?_) (fun t => ?_) ?_
  · exact congrFun (Eq.trans (W5_of m c Cert.KernelIdeal.main_v1 (by decide)) hh) (ix2 r t)
  · exact (host2_v12_A (W4 m c) t j ⟨0 + j.val, by omega⟩ rfl).trans (congrFun kW (ix3 0 t j))
  · exact (host2_v22_A (W4 m c) j ⟨0 + j.val, by omega⟩ rfl).trans (congrFun kB (ix2 0 j))

/-- Column block B of the kernel's wide product is the reference's dense layer with weight B. -/
theorem b1_core (c : Dev Cert.KernelIdeal.nD)
    (hh : (T4 m c Cert.KernelIdeal.main_v1 : Mat 50000 64) = (RW1 m' c (Proc.devRef .tc Cert.ReferenceIdeal.main_v5) : Mat 50000 64))
    (kW : (W4 m c (Proc.devRef .tc Cert.KernelIdeal.main_arg12) : Cert.KernelIdeal.S3x64x64.Idx → EReal) = (RW1 m' c (Proc.devRef .tc Cert.ReferenceIdeal.main_arg12) : Cert.KernelIdeal.S3x64x64.Idx → EReal))
    (kB : (W4 m c (Proc.devRef .tc Cert.KernelIdeal.main_arg13) : Cert.KernelIdeal.S3x64.Idx → EReal) = (RW1 m' c (Proc.devRef .tc Cert.ReferenceIdeal.main_arg13) : Cert.KernelIdeal.S3x64.Idx → EReal)) :
    (T7 m c Cert.KernelIdeal.main_v25 : Mat 50000 64) = (RW2 m' c (Proc.devRef .tc Cert.ReferenceIdeal.main_v25) : Mat 50000 64) := by
  funext i
  obtain ⟨r, j, rfl⟩ : ∃ (r : Fin 50000) (j : Fin 64), i = ix2 r j := ⟨i 0, i 1, eq_ix2 i⟩
  have hj : j.val < 64 := j.isLt
  refine (host3_v25 (W6 m c) r j ⟨64 + j.val, by omega⟩ rfl).trans ?_
  refine (congrFun (hF2 m c 3).symm (ix2 r ⟨64 + j.val, by omega⟩)).trans ?_
  refine (final2_3_apply (T5 m) c r ⟨64 + j.val, by omega⟩).trans ?_
  refine Eq.trans ?_ (ref_v25 m' c r j).symm
  refine lin_congr (fun t => ?_) (fun t => ?_) ?_
  · exact congrFun (Eq.trans (W5_of m c Cert.KernelIdeal.main_v1 (by decide)) hh) (ix2 r t)
  · exact (host2_v12_B (W4 m c) t j ⟨64 + j.val, by omega⟩ rfl).trans (congrFun kW (ix3 0 t j))
  · exact (host2_v22_B (W4 m c) j ⟨64 + j.val, by omega⟩ rfl).trans (congrFun kB (ix2 0 j))

/-- Column block D of the kernel's wide product is the reference's dense layer with weight D. -/
theorem d1_core (c : Dev Cert.KernelIdeal.nD)
    (hh : (T4 m c Cert.KernelIdeal.main_v1 : Mat 50000 64) = (RW1 m' c (Proc.devRef .tc Cert.ReferenceIdeal.main_v5) : Mat 50000 64))
    (kW : (W4 m c (Proc.devRef .tc Cert.KernelIdeal.main_arg16) : Cert.KernelIdeal.S3x64x64.Idx → EReal) = (RW1 m' c (Proc.devRef .tc Cert.ReferenceIdeal.main_arg16) : Cert.KernelIdeal.S3x64x64.Idx → EReal))
    (kB : (W4 m c (Proc.devRef .tc Cert.KernelIdeal.main_arg17) : Cert.KernelIdeal.S3x64.Idx → EReal) = (RW1 m' c (Proc.devRef .tc Cert.ReferenceIdeal.main_arg17) : Cert.KernelIdeal.S3x64.Idx → EReal)) :
    (T7 m c Cert.KernelIdeal.main_v26 : Mat 50000 64) = (RW2 m' c (Proc.devRef .tc Cert.ReferenceIdeal.main_v33) : Mat 50000 64) := by
  funext i
  obtain ⟨r, j, rfl⟩ : ∃ (r : Fin 50000) (j : Fin 64), i = ix2 r j := ⟨i 0, i 1, eq_ix2 i⟩
  have hj : j.val < 64 := j.isLt
  refine (host3_v26 (W6 m c) r j ⟨128 + j.val, by omega⟩ rfl).trans ?_
  refine (congrFun (hF2 m c 3).symm (ix2 r ⟨128 + j.val, by omega⟩)).trans ?_
  refine (final2_3_apply (T5 m) c r ⟨128 + j.val, by omega⟩).trans ?_
  refine Eq.trans ?_ (ref_v33 m' c r j).symm
  refine lin_congr (fun t => ?_) (fun t => ?_) ?_
  · exact congrFun (Eq.trans (W5_of m c Cert.KernelIdeal.main_v1 (by decide)) hh) (ix2 r t)
  · exact (host2_v12_D (W4 m c) t j ⟨128 + j.val, by omega⟩ rfl).trans (congrFun kW (ix3 0 t j))
  · exact (host2_v22_D (W4 m c) j ⟨128 + j.val, by omega⟩ rfl).trans (congrFun kB (ix2 0 j))

/-- Column block E of the kernel's wide product is the reference's dense layer with weight E. -/
theorem e1_core (c : Dev Cert.KernelIdeal.nD)
    (hh : (T4 m c Cert.KernelIdeal.main_v1 : Mat 50000 64) = (RW1 m' c (Proc.devRef .tc Cert.ReferenceIdeal.main_v5) : Mat 50000 64))
    (kW : (W4 m c (Proc.devRef .tc Cert.KernelIdeal.main_arg18) : Cert.KernelIdeal.S3x64x64.Idx → EReal) = (RW1 m' c (Proc.devRef .tc Cert.ReferenceIdeal.main_arg18) : Cert.KernelIdeal.S3x64x64.Idx → EReal))
    (kB : (W4 m c (Proc.devRef .tc Cert.KernelIdeal.main_arg19) : Cert.KernelIdeal.S3x64.Idx → EReal) = (RW1 m' c (Proc.devRef .tc Cert.ReferenceIdeal.main_arg19) : Cert.KernelIdeal.S3x64.Idx → EReal)) :
    (T7 m c Cert.KernelIdeal.main_v27 : Mat 50000 64) = (RW2 m' c (Proc.devRef .tc Cert.ReferenceIdeal.main_v41) : Mat 50000 64) := by
  funext i
  obtain ⟨r, j, rfl⟩ : ∃ (r : Fin 50000) (j : Fin 64), i = ix2 r j := ⟨i 0, i 1, eq_ix2 i⟩
  have hj : j.val < 64 := j.isLt
  refine (host3_v27 (W6 m c) r j ⟨192 + j.val, by omega⟩ rfl).trans ?_
  refine (congrFun (hF2 m c 3).symm (ix2 r ⟨192 + j.val, by omega⟩)).trans ?_
  refine (final2_3_apply (T5 m) c r ⟨192 + j.val, by omega⟩).trans ?_
  refine Eq.trans ?_ (ref_v41 m' c r j).symm
  refine lin_congr (fun t => ?_) (fun t => ?_) ?_
  · exact congrFun (Eq.trans (W5_of m c Cert.KernelIdeal.main_v1 (by decide)) hh) (ix2 r t)
  · exact (host2_v12_E (W4 m c) t j ⟨192 + j.val, by omega⟩ rfl).trans (congrFun kW (ix3 0 t j))
  · exact (host2_v22_E (W4 m c) j ⟨192 + j.val, by omega⟩ rfl).trans (congrFun kB (ix2 0 j))

/-- The edge-side dense layer of layer 1: the kernel's array after region 3 is the reference's buffer. -/
theorem ce1_core (c : Dev Cert.KernelIdeal.nD)
    (he : (T4 m c Cert.KernelIdeal.main_v3 : Mat 400000 64) = (RW1 m' c (Proc.devRef .tc Cert.ReferenceIdeal.main_v9) : Mat 400000 64))
    (kW : (W6 m c (Proc.devRef .tc Cert.KernelIdeal.main_arg14) : Cert.KernelIdeal.S3x64x64.Idx → EReal) = (RW1 m' c (Proc.devRef .tc Cert.ReferenceIdeal.main_arg14) : Cert.KernelIdeal.S3x64x64.Idx → EReal))
    (kB : (W6 m c (Proc.devRef .tc Cert.KernelIdeal.main_arg15) : Cert.KernelIdeal.S3x64.Idx → EReal) = (RW1 m' c (Proc.devRef .tc Cert.ReferenceIdeal.main_arg15) : Cert.KernelIdeal.S3x64.Idx → EReal)) :
    (T8 m c Cert.KernelIdeal.main_v33 : Mat 400000 64) = (RW2 m' c (Proc.devRef .tc Cert.ReferenceIdeal.main_v49) : Mat 400000 64) := by
  funext i
  obtain ⟨r, j, rfl⟩ : ∃ (r : Fin 400000) (j : Fin 64), i = ix2 r j := ⟨i 0, i 1, eq_ix2 i⟩
  refine (congrFun (hF3 m c 3).symm (ix2 r j)).trans ?_
  refine (final3_3_apply (T7 m) c r j).trans ?_
  refine Eq.trans ?_ (ref_v49 m' c r j).symm
  refine lin_congr (fun t => ?_) (fun t => ?_) ?_
  · exact congrFun (Eq.trans ((W7_of m c Cert.KernelIdeal.main_v3 (by decide)).trans ((W6_of m c Cert.KernelIdeal.main_v3 (by decide)).trans (W5_of m c Cert.KernelIdeal.main_v3 (by decide)))) he) (ix2 r t)
  · exact (host3_v29 (W6 m c) t j).trans (congrFun kW (ix3 0 t j))
  · exact (host3_v32 (W6 m c) j).trans (congrFun kB (ix2 0 j))

/-! ## All of them from the agreement of the two memories -/

/-- Where the two memories agree on the arguments: the two embeddings agree, and if the node (edge) features layer 1 starts from
    agree, so do its four node-side (its edge-side) dense layers. The one place this module reads the agreement:
    each weight and bias argument is still its launch contents at the boundary where it is read. -/
theorem dense1_eqs (hagree : Agree m m') (c : Dev Cert.KernelIdeal.nD) :
    ((T2 m c Cert.KernelIdeal.main_v1 : Mat 50000 64) = (RW1 m' c (Proc.devRef .tc Cert.ReferenceIdeal.main_v5) : Mat 50000 64))
    ∧ ((T4 m c Cert.KernelIdeal.main_v3 : Mat 400000 64) = (RW1 m' c (Proc.devRef .tc Cert.ReferenceIdeal.main_v9) : Mat 400000 64))
    ∧ (((T4 m c Cert.KernelIdeal.main_v1 : Mat 50000 64) = (RW1 m' c (Proc.devRef .tc Cert.ReferenceIdeal.main_v5) : Mat 50000 64)) →
        ((T7 m c Cert.KernelIdeal.main_v24 : Mat 50000 64) = (RW2 m' c (Proc.devRef .tc Cert.ReferenceIdeal.main_v17) : Mat 50000 64))
        ∧ ((T7 m c Cert.KernelIdeal.main_v25 : Mat 50000 64) = (RW2 m' c (Proc.devRef .tc Cert.ReferenceIdeal.main_v25) : Mat 50000 64))
        ∧ ((T7 m c Cert.KernelIdeal.main_v26 : Mat 50000 64) = (RW2 m' c (Proc.devRef .tc Cert.ReferenceIdeal.main_v33) : Mat 50000 64))
        ∧ ((T7 m c Cert.KernelIdeal.main_v27 : Mat 50000 64) = (RW2 m' c (Proc.devRef .tc Cert.ReferenceIdeal.main_v41) : Mat 50000 64)))
    ∧ (((T4 m c Cert.KernelIdeal.main_v3 : Mat 400000 64) = (RW1 m' c (Proc.devRef .tc Cert.ReferenceIdeal.main_v9) : Mat 400000 64)) →
        ((T8 m c Cert.KernelIdeal.main_v33 : Mat 400000 64) = (RW2 m' c (Proc.devRef .tc Cert.ReferenceIdeal.main_v49) : Mat 400000 64))) := by
  obtain ⟨a0, a1, a2, a3, a4, a5, a6, a7, a8, a9, a10, a11, a12, a13, a14, a15, a16, a17, a18, a19, a20, a21, a22, a23, a24, a25, a26, a27, a28, a29⟩ := hagree c
  have k1 : (W1 m c (Proc.devRef .tc Cert.KernelIdeal.main_arg1) : Mat 50000 6) = (RW0 m' c (Proc.devRef .tc Cert.ReferenceIdeal.main_arg1) : Mat 50000 6) := (Eq.trans (W1_of m c Cert.KernelIdeal.main_arg1 (by decide)) (a1.symm))
  have k6 : (W1 m c (Proc.devRef .tc Cert.KernelIdeal.main_arg6) : Mat 6 64) = (RW0 m' c (Proc.devRef .tc Cert.ReferenceIdeal.main_arg6) : Mat 6 64) := (Eq.trans (W1_of m c Cert.KernelIdeal.main_arg6 (by decide)) (a6.symm))
  have k7 : (W0 m c (Proc.devRef .tc Cert.KernelIdeal.main_arg7) : Cert.KernelIdeal.S64.Idx → EReal) = (RW0 m' c (Proc.devRef .tc Cert.ReferenceIdeal.main_arg7) : Cert.KernelIdeal.S64.Idx → EReal) := (a7.symm)
  have k2 : (W3 m c (Proc.devRef .tc Cert.KernelIdeal.main_arg2) : Mat 400000 2) = (RW0 m' c (Proc.devRef .tc Cert.ReferenceIdeal.main_arg2) : Mat 400000 2) := (Eq.trans ((W3_of m c Cert.KernelIdeal.main_arg2 (by decide)).trans ((W2_of m c Cert.KernelIdeal.main_arg2 (by decide)).trans (W1_of m c Cert.KernelIdeal.main_arg2 (by decide)))) (a2.symm))
  have k8 : (W3 m c (Proc.devRef .tc Cert.KernelIdeal.main_arg8) : Mat 2 64) = (RW0 m' c (Proc.devRef .tc Cert.ReferenceIdeal.main_arg8) : Mat 2 64) := (Eq.trans ((W3_of m c Cert.KernelIdeal.main_arg8 (by decide)).trans ((W2_of m c Cert.KernelIdeal.main_arg8 (by decide)).trans (W1_of m c Cert.KernelIdeal.main_arg8 (by decide)))) (a8.symm))
  have k9 : (W2 m c (Proc.devRef .tc Cert.KernelIdeal.main_arg9) : Cert.KernelIdeal.S64.Idx → EReal) = (RW0 m' c (Proc.devRef .tc Cert.ReferenceIdeal.main_arg9) : Cert.KernelIdeal.S64.Idx → EReal) := (Eq.trans ((W2_of m c Cert.KernelIdeal.main_arg9 (by decide)).trans (W1_of m c Cert.KernelIdeal.main_arg9 (by decide))) (a9.symm))
  have k10 : (W4 m c (Proc.devRef .tc Cert.KernelIdeal.main_arg10) : Cert.KernelIdeal.S3x64x64.Idx → EReal) = (RW1 m' c (Proc.devRef .tc Cert.ReferenceIdeal.main_arg10) : Cert.KernelIdeal.S3x64x64.Idx → EReal) := (Eq.trans ((W4_of m c Cert.KernelIdeal.main_arg10 (by decide)).trans ((W3_of m c Cert.KernelIdeal.main_arg10 (by decide)).trans ((W2_of m c Cert.KernelIdeal.main_arg10 (by decide)).trans (W1_of m c Cert.KernelIdeal.main_arg10 (by decide))))) (Eq.trans (a10.symm) (RW1_of m' c Cert.ReferenceIdeal.main_arg10 (by decide)).symm))
  have k11 : (W4 m c (Proc.devRef .tc Cert.KernelIdeal.main_arg11) : Cert.KernelIdeal.S3x64.Idx → EReal) = (RW1 m' c (Proc.devRef .tc Cert.ReferenceIdeal.main_arg11) : Cert.KernelIdeal.S3x64.Idx → EReal) := (Eq.trans ((W4_of m c Cert.KernelIdeal.main_arg11 (by decide)).trans ((W3_of m c Cert.KernelIdeal.main_arg11 (by decide)).trans ((W2_of m c Cert.KernelIdeal.main_arg11 (by decide)).trans (W1_of m c Cert.KernelIdeal.main_arg11 (by decide))))) (Eq.trans (a11.symm) (RW1_of m' c Cert.ReferenceIdeal.main_arg11 (by decide)).symm))
  have k12 : (W4 m c (Proc.devRef .tc Cert.KernelIdeal.main_arg12) : Cert.KernelIdeal.S3x64x64.Idx → EReal) = (RW1 m' c (Proc.devRef .tc Cert.ReferenceIdeal.main_arg12) : Cert.KernelIdeal.S3x64x64.Idx → EReal) := (Eq.trans ((W4_of m c Cert.KernelIdeal.main_arg12 (by decide)).trans ((W3_of m c Cert.KernelIdeal.main_arg12 (by decide)).trans ((W2_of m c Cert.KernelIdeal.main_arg12 (by decide)).trans (W1_of m c Cert.KernelIdeal.main_arg12 (by decide))))) (Eq.trans (a12.symm) (RW1_of m' c Cert.ReferenceIdeal.main_arg12 (by decide)).symm))
  have k13 : (W4 m c (Proc.devRef .tc Cert.KernelIdeal.main_arg13) : Cert.KernelIdeal.S3x64.Idx → EReal) = (RW1 m' c (Proc.devRef .tc Cert.ReferenceIdeal.main_arg13) : Cert.KernelIdeal.S3x64.Idx → EReal) := (Eq.trans ((W4_of m c Cert.KernelIdeal.main_arg13 (by decide)).trans ((W3_of m c Cert.KernelIdeal.main_arg13 (by decide)).trans ((W2_of m c Cert.KernelIdeal.main_arg13 (by decide)).trans (W1_of m c Cert.KernelIdeal.main_arg13 (by decide))))) (Eq.trans (a13.symm) (RW1_of m' c Cert.ReferenceIdeal.main_arg13 (by decide)).symm))
  have k16 : (W4 m c (Proc.devRef .tc Cert.KernelIdeal.main_arg16) : Cert.KernelIdeal.S3x64x64.Idx → EReal) = (RW1 m' c (Proc.devRef .tc Cert.ReferenceIdeal.main_arg16) : Cert.KernelIdeal.S3x64x64.Idx → EReal) := (Eq.trans ((W4_of m c Cert.KernelIdeal.main_arg16 (by decide)).trans ((W3_of m c Cert.KernelIdeal.main_arg16 (by decide)).trans ((W2_of m c Cert.KernelIdeal.main_arg16 (by decide)).trans (W1_of m c Cert.KernelIdeal.main_arg16 (by decide))))) (Eq.trans (a16.symm) (RW1_of m' c Cert.ReferenceIdeal.main_arg16 (by decide)).symm))
  have k17 : (W4 m c (Proc.devRef .tc Cert.KernelIdeal.main_arg17) : Cert.KernelIdeal.S3x64.Idx → EReal) = (RW1 m' c (Proc.devRef .tc Cert.ReferenceIdeal.main_arg17) : Cert.KernelIdeal.S3x64.Idx → EReal) := (Eq.trans ((W4_of m c Cert.KernelIdeal.main_arg17 (by decide)).trans ((W3_of m c Cert.KernelIdeal.main_arg17 (by decide)).trans ((W2_of m c Cert.KernelIdeal.main_arg17 (by decide)).trans (W1_of m c Cert.KernelIdeal.main_arg17 (by decide))))) (Eq.trans (a17.symm) (RW1_of m' c Cert.ReferenceIdeal.main_arg17 (by decide)).symm))
  have k18 : (W4 m c (Proc.devRef .tc Cert.KernelIdeal.main_arg18) : Cert.KernelIdeal.S3x64x64.Idx → EReal) = (RW1 m' c (Proc.devRef .tc Cert.ReferenceIdeal.main_arg18) : Cert.KernelIdeal.S3x64x64.Idx → EReal) := (Eq.trans ((W4_of m c Cert.KernelIdeal.main_arg18 (by decide)).trans ((W3_of m c Cert.KernelIdeal.main_arg18 (by decide)).trans ((W2_of m c Cert.KernelIdeal.main_arg18 (by decide)).trans (W1_of m c Cert.KernelIdeal.main_arg18 (by decide))))) (Eq.trans (a18.symm) (RW1_of m' c Cert.ReferenceIdeal.main_arg18 (by decide)).symm))
  have k19 : (W4 m c (Proc.devRef .tc Cert.KernelIdeal.main_arg19) : Cert.KernelIdeal.S3x64.Idx → EReal) = (RW1 m' c (Proc.devRef .tc Cert.ReferenceIdeal.main_arg19) : Cert.KernelIdeal.S3x64.Idx → EReal) := (Eq.trans ((W4_of m c Cert.KernelIdeal.main_arg19 (by decide)).trans ((W3_of m c Cert.KernelIdeal.main_arg19 (by decide)).trans ((W2_of m c Cert.KernelIdeal.main_arg19 (by decide)).trans (W1_of m c Cert.KernelIdeal.main_arg19 (by decide))))) (Eq.trans (a19.symm) (RW1_of m' c Cert.ReferenceIdeal.main_arg19 (by decide)).symm))
  have k14 : (W6 m c (Proc.devRef .tc Cert.KernelIdeal.main_arg14) : Cert.KernelIdeal.S3x64x64.Idx → EReal) = (RW1 m' c (Proc.devRef .tc Cert.ReferenceIdeal.main_arg14) : Cert.KernelIdeal.S3x64x64.Idx → EReal) := (Eq.trans ((W6_of m c Cert.KernelIdeal.main_arg14 (by decide)).trans ((W5_of m c Cert.KernelIdeal.main_arg14 (by decide)).trans ((W4_of m c Cert.KernelIdeal.main_arg14 (by decide)).trans ((W3_of m c Cert.KernelIdeal.main_arg14 (by decide)).trans ((W2_of m c Cert.KernelIdeal.main_arg14 (by decide)).trans (W1_of m c Cert.KernelIdeal.main_arg14 (by decide))))))) (Eq.trans (a14.symm) (RW1_of m' c Cert.ReferenceIdeal.main_arg14 (by decide)).symm))
  have k15 : (W6 m c (Proc.devRef .tc Cert.KernelIdeal.main_arg15) : Cert.KernelIdeal.S3x64.Idx → EReal) = (RW1 m' c (Proc.devRef .tc Cert.ReferenceIdeal.main_arg15) : Cert.KernelIdeal.S3x64.Idx → EReal) := (Eq.trans ((W6_of m c Cert.KernelIdeal.main_arg15 (by decide)).trans ((W5_of m c Cert.KernelIdeal.main_arg15 (by decide)).trans ((W4_of m c Cert.KernelIdeal.main_arg15 (by decide)).trans ((W3_of m c Cert.KernelIdeal.main_arg15 (by decide)).trans ((W2_of m c Cert.KernelIdeal.main_arg15 (by decide)).trans (W1_of m c Cert.KernelIdeal.main_arg15 (by decide))))))) (Eq.trans (a15.symm) (RW1_of m' c Cert.ReferenceIdeal.main_arg15 (by decide)).symm))
  exact ⟨h0_core m m' c k1 k6 k7, e0_core m m' c k2 k8 k9, fun hh => ⟨a1_core m m' c hh k10 k11, b1_core m m' c hh k12 k13, d1_core m m' c hh k16 k17, e1_core m m' c hh k18 k19⟩,
    fun he => ce1_core m m' c he k14 k15⟩

end Cert.Sim

end
-- ==== Proof.LibRows.lean ====
/-
  A row gather and a segment sum, read at an index.

  gather_rows: the gather that x[idx] of a matrix lowers to (start indices an [E,1] column, the row axis collapsed and
  start-indexed, the column axis an offset axis) reads, at (e, q), the matrix at the row that idx (e,0) names — read signed
  and clamped into the table — and column q.
  scatterAdd_rows / scatterAdd_vec: the accumulating scatter that a segment sum lowers to adds, to the operand's entry at
  row r, every update row e whose index word, read signed and not clamped, is r; a word outside the table adds nowhere.
-/
import Idealize.ShloMosaic.PureOps.Ideal
import Idealize.ShloMosaic.PureOps.Contract
import Idealize.ShloMosaic.Lib.ValueIdx
import Idealize.ShloMosaic.Lib.StableHlo.Predicate

noncomputable section

namespace Gcn.Rows

open Idealize.ShloMosaic Idealize.ShloMosaic.ValueIdx

theorem gather_rows {α : Type} {N E C w : ℕ} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q)
      = x (ix2 (⟨min (idx (ix2 e (0 : Fin 1))).toInt.toNat (N - 1), by omega⟩ : Fin N) q) := by
  unfold Host.gather
  congr 1
  funext a
  apply Fin.ext
  have hb : ∀ a, a ∉ d.operandBatchingDims := by intro a; rw [hob]; exact List.not_mem_nil
  have hq : ∀ x : Fin 2, x = 1 → ((ix2 e q : (⟨2, ![E, C]⟩ : Shape).Idx) x).val = q.val := by
    intro x hx; subst hx; rfl
  have he : ∀ x : Fin 2, x = 0 → ((ix2 e q : (⟨2, ![E, C]⟩ : Shape).Idx) x).val = e.val := by
    intro x hx; subst hx; rfl
  -- the result's one offset axis is axis 1, its one batch axis is axis 0
  have hoffall : ∀ y ∈ d.offsetDims, y = 1 := by
    intro y hy; rw [hoff] at hy; exact List.mem_singleton.mp hy
  have hbatall : ∀ y ∈ d.batchDims, y = 0 := by
    intro y hy
    have hy1 : y ∉ d.offsetDims := by
      have := (List.mem_filter.mp hy).2
      simpa using this
    rw [hoff] at hy1
    match y with
    | ⟨0, _⟩ => rfl
    | ⟨1, _⟩ => exact absurd (List.mem_singleton.mpr rfl) hy1
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    have hlen : d.startIndexMap.length = 1 := by rw [hsim]; rfl
    -- every component of the start index of (e, q) is read at (e, 0)
    have hsi : ∀ c, d.siIdx (ix2 e q) c = ix2 e (0 : Fin 1) := by
      intro c
      funext b
      match b with
      | ⟨0, _⟩ =>
        unfold GatherDims.siIdx
        rw [dif_neg (by rw [hivd]; simp)]
        unfold GatherDims.siCoord
        apply Fin.ext
        simp only [Fin.val_cast]
        exact he _ (hbatall _ (List.getElem_mem _))
      | ⟨1, _⟩ =>
        unfold GatherDims.siIdx
        rw [dif_pos (by rw [hivd])]
        apply Fin.ext
        show c.val = 0
        have := c.isLt
        omega
    show d.start (ix2 e q) idx 0 + d.batchCoord (ix2 e q) 0 + d.offCoord (ix2 e q) 0 = min _ (N - 1)
    rw [GatherDims.batchCoord_eq_zero _ _ _ (hb _), GatherDims.offCoord_eq_zero _ _ _ hk]
    simp only [Nat.add_zero]
    unfold GatherDims.start
    rw [dif_pos hm, hsi]
    show min (idx _).toInt.toNat (N - d.sliceSizes 0) = _
    rw [hsl]
  | ⟨1, _⟩ =>
    have hk : (1 : Fin 2) ∈ d.sKept := by rw [GatherDims.mem_sKept, hcoll]; exact ⟨by simp, hb _⟩
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (hoffall _ (List.getElem_mem _))

/-! The accumulating scatter of rows: on axis 0 the window starts at the index word read signed and has no extent, on
    axis 1 it starts at 0 and its coordinate is the update's column. -/

private theorem rows_siIdx {R E C : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (e : Fin E) (q' : Fin C) (c : Fin d.scatterDimsToOperandDims.length) :
    d.siIdx (ix2 e q') c = ix2 e (0 : Fin 1) := by
  have he : ∀ x : Fin 2, x = 0 → ((ix2 e q' : (⟨2, ![E, C]⟩ : Shape).Idx) x).val = e.val := by
    intro x hx; subst hx; rfl
  have hscall : ∀ y ∈ d.uScatter, y = 0 := by
    intro y hy
    have hy1 : y ∉ d.updateWindowDims := by
      have := (List.mem_filter.mp hy).2
      simpa using this
    rw [huw] at hy1
    match y with
    | ⟨0, _⟩ => rfl
    | ⟨1, _⟩ => exact absurd (List.mem_singleton.mpr rfl) hy1
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _ (hscall _ (List.getElem_mem _))
  | ⟨1, _⟩ =>
    unfold ScatterDims.siIdx
    rw [dif_pos (by rw [hivd])]
    apply Fin.ext
    show c.val = 0
    have := c.isLt
    omega

private theorem rows_start0 {R E C w : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (idx : IVec ⟨2, ![E, 1]⟩ w) (e : Fin E) (q' : Fin C) :
    d.start (ix2 e q') idx 0 = (idx (ix2 e (0 : Fin 1))).toInt := by
  have hm : (0 : Fin 2) ∈ d.scatterDimsToOperandDims := by rw [hsd]; exact List.mem_singleton.mpr rfl
  unfold ScatterDims.start
  rw [dif_pos hm, rows_siIdx d huw hsd hivd]

private theorem rows_start1 {R E C w : ℕ} (d : ScatterDims ⟨2, ![R, C]⟩ ⟨2, ![E, 1]⟩ ⟨2, ![E, C]⟩)
    (hsd : d.scatterDimsToOperandDims = [0])
    (idx : IVec ⟨2, ![E, 1]⟩ w) (e : Fin E) (q' : Fin C) :
    d.start (ix2 e q') idx 1 = 0 := by
  have hm : (1 : Fin 2) ∉ d.scatterDimsToOperandDims := by rw [hsd]; simp
  unfold ScatterDims.start
  rw [dif_neg hm]

private theorem rows_window0 {R E C : ℕ} (d : ScatterDims ⟨2, ![R, C]⟩ ⟨2, ![E, 1]⟩ ⟨2, ![E, C]⟩)
    (hins : d.insertedWindowDims = [0]) (e : Fin E) (q' : Fin C) :
    d.window (ix2 e q') 0 = 0 := by
  have hk : (0 : Fin 2) ∉ d.sKept := by
    intro h
    have := (List.mem_filter.mp h).2
    rw [hins] at this
    simp at this
  unfold ScatterDims.window
  rw [dif_neg hk]

private theorem rows_window1 {R E C : ℕ} (d : ScatterDims ⟨2, ![R, C]⟩ ⟨2, ![E, 1]⟩ ⟨2, ![E, C]⟩)
    (huw : d.updateWindowDims = [1]) (hins : d.insertedWindowDims = [0]) (e : Fin E) (q' : Fin C) :
    d.window (ix2 e q') 1 = q'.val := by
  have hk : (1 : Fin 2) ∈ d.sKept := by
    refine List.mem_filter.mpr ⟨List.mem_finRange _, ?_⟩
    rw [hins]; simp
  have hq : ∀ x : Fin 2, x = 1 → ((ix2 e q' : (⟨2, ![E, C]⟩ : Shape).Idx) x).val = q'.val := by
    intro x hx; subst hx; rfl
  have hwall : ∀ y ∈ d.updateWindowDims, y = 1 := by
    intro y hy; rw [huw] at hy; exact List.mem_singleton.mp hy
  unfold ScatterDims.window
  rw [dif_pos hk]
  exact hq _ (hwall _ (List.getElem_mem _))

/-- An update entry (e, q') lands on the operand entry (r, q) exactly when its index word, read signed, is r and its
    column is q. -/
private theorem rows_resultIdx_iff {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1) (idx : IVec ⟨2, ![E, 1]⟩ w) (e : Fin E) (q' q : Fin C) (r : Fin R) :
    d.resultIdx? (ix2 e q') idx = some (ix2 r q)
      ↔ (idx (ix2 e (0 : Fin 1))).toInt = (r.val : ℤ) ∧ q' = q := by
  have hs0 := rows_start0 d huw hsd hivd idx e q'
  have hs1 := rows_start1 d hsd idx e q'
  have hw0 := rows_window0 d hins e q'
  have hw1 := rows_window1 d huw hins e q'
  have hr := r.isLt
  have hq := q.isLt
  have hq' := q'.isLt
  unfold ScatterDims.resultIdx?
  constructor
  · intro h
    split at h
    · rename_i hh
      have hf := Option.some.inj h
      have h0 : (d.start (ix2 e q') idx 0 + (d.window (ix2 e q') 0 : ℤ)).toNat = r.val :=
        congrArg (fun f : (⟨2, ![R, C]⟩ : Shape).Idx => (f 0).val) hf
      have h1 : (d.start (ix2 e q') idx 1 + (d.window (ix2 e q') 1 : ℤ)).toNat = q.val :=
        congrArg (fun f : (⟨2, ![R, C]⟩ : Shape).Idx => (f 1).val) hf
      have hh0 : 0 ≤ d.start (ix2 e q') idx 0 + (d.window (ix2 e q') 0 : ℤ) := (hh 0).1
      rw [hs0, hw0] at h0 hh0
      rw [hs1, hw1] at h1
      refine ⟨by omega, Fin.ext (by omega)⟩
    · exact absurd h (by simp)
  · rintro ⟨h0, rfl⟩
    have hh : ∀ a, 0 ≤ d.start (ix2 e q') idx a + (d.window (ix2 e q') a : ℤ)
        ∧ d.start (ix2 e q') idx a + (d.window (ix2 e q') a : ℤ) < ((⟨2, ![R, C]⟩ : Shape).size a : ℤ) := by
      intro a
      match a with
      | ⟨0, _⟩ =>
        show 0 ≤ d.start (ix2 e q') idx 0 + (d.window (ix2 e q') 0 : ℤ)
          ∧ d.start (ix2 e q') idx 0 + (d.window (ix2 e q') 0 : ℤ) < (R : ℤ)
        rw [hs0, hw0]; omega
      | ⟨1, _⟩ =>
        show 0 ≤ d.start (ix2 e q') idx 1 + (d.window (ix2 e q') 1 : ℤ)
          ∧ d.start (ix2 e q') idx 1 + (d.window (ix2 e q') 1 : ℤ) < (C : ℤ)
        rw [hs1, hw1]; omega
    rw [dif_pos hh]
    congr 1
    funext a
    apply Fin.ext
    match a with
    | ⟨0, _⟩ =>
      show (d.start (ix2 e q') idx 0 + (d.window (ix2 e q') 0 : ℤ)).toNat = r.val
      rw [hs0, hw0]; omega
    | ⟨1, _⟩ =>
      show (d.start (ix2 e q') idx 1 + (d.window (ix2 e q') 1 : ℤ)).toNat = q'.val
      rw [hs1, hw1]; omega

theorem scatterAdd_rows {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1)
    (x : (⟨2, ![R, C]⟩ : Shape).Idx → EReal) (idx : IVec ⟨2, ![E, 1]⟩ w) (upd : (⟨2, ![E, C]⟩ : Shape).Idx → EReal)
    (r : Fin R) (q : Fin C) :
    Ideal.hostScatterAdd d x idx upd (ix2 r q)
      = x (ix2 r q) + ∑ e : Fin E, if (idx (ix2 e (0 : Fin 1))).toInt = (r.val : ℤ) then upd (ix2 e q) else 0 := by
  unfold Ideal.hostScatterAdd
  congr 1
  rw [Finset.sum_filter, sum_idx2]
  refine Finset.sum_congr rfl fun e _ => ?_
  simp only [rows_resultIdx_iff d huw hins hsd hivd]
  by_cases h : (idx (ix2 e (0 : Fin 1))).toInt = (r.val : ℤ)
  · simp only [h, true_and, if_true]
    rw [Finset.sum_ite_eq' Finset.univ q (fun q' => upd (ix2 e q'))]
    simp
  · simp only [h, false_and, if_false, Finset.sum_const_zero]

/-! The accumulating scatter of a vector: the same with no column. -/

private theorem vec_siIdx {R E : ℕ} (d : ScatterDims ⟨1, ![R]⟩ ⟨2, ![E, 1]⟩ ⟨1, ![E]⟩)
    (hsd : d.scatterDimsToOperandDims = [0]) (hivd : d.indexVectorDim = 1)
    (e : Fin E) (c : Fin d.scatterDimsToOperandDims.length) :
    d.siIdx (ix1 e) c = ix2 e (0 : Fin 1) := by
  have he : ∀ x : Fin 1, ((ix1 e : (⟨1, ![E]⟩ : Shape).Idx) x).val = e.val := by
    intro x
    obtain rfl : x = 0 := Subsingleton.elim _ _
    rfl
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _
  | ⟨1, _⟩ =>
    unfold ScatterDims.siIdx
    rw [dif_pos (by rw [hivd])]
    apply Fin.ext
    show c.val = 0
    have := c.isLt
    omega

private theorem vec_start0 {R E w : ℕ} (d : ScatterDims ⟨1, ![R]⟩ ⟨2, ![E, 1]⟩ ⟨1, ![E]⟩)
    (hsd : d.scatterDimsToOperandDims = [0]) (hivd : d.indexVectorDim = 1)
    (idx : IVec ⟨2, ![E, 1]⟩ w) (e : Fin E) :
    d.start (ix1 e) idx 0 = (idx (ix2 e (0 : Fin 1))).toInt := by
  have hm : (0 : Fin 1) ∈ d.scatterDimsToOperandDims := by rw [hsd]; exact List.mem_singleton.mpr rfl
  unfold ScatterDims.start
  rw [dif_pos hm, vec_siIdx d hsd hivd]

private theorem vec_window0 {R E : ℕ} (d : ScatterDims ⟨1, ![R]⟩ ⟨2, ![E, 1]⟩ ⟨1, ![E]⟩)
    (hins : d.insertedWindowDims = [0]) (e : Fin E) :
    d.window (ix1 e) 0 = 0 := by
  have hk : (0 : Fin 1) ∉ d.sKept := by
    intro h
    have := (List.mem_filter.mp h).2
    rw [hins] at this
    simp at this
  unfold ScatterDims.window
  rw [dif_neg hk]

/-- An update entry e lands on the operand entry r exactly when its index word, read signed, is r. -/
private theorem vec_resultIdx_iff {R E w : ℕ} (d : ScatterDims ⟨1, ![R]⟩ ⟨2, ![E, 1]⟩ ⟨1, ![E]⟩)
    (hins : d.insertedWindowDims = [0]) (hsd : d.scatterDimsToOperandDims = [0])
    (hivd : d.indexVectorDim = 1) (idx : IVec ⟨2, ![E, 1]⟩ w) (e : Fin E) (r : Fin R) :
    d.resultIdx? (ix1 e) idx = some (ix1 r) ↔ (idx (ix2 e (0 : Fin 1))).toInt = (r.val : ℤ) := by
  have hs0 := vec_start0 d hsd hivd idx e
  have hw0 := vec_window0 d hins e
  have hr := r.isLt
  unfold ScatterDims.resultIdx?
  constructor
  · intro h
    split at h
    · rename_i hh
      have hf := Option.some.inj h
      have h0 : (d.start (ix1 e) idx 0 + (d.window (ix1 e) 0 : ℤ)).toNat = r.val :=
        congrArg (fun f : (⟨1, ![R]⟩ : Shape).Idx => (f 0).val) hf
      have hh0 : 0 ≤ d.start (ix1 e) idx 0 + (d.window (ix1 e) 0 : ℤ) := (hh 0).1
      rw [hs0, hw0] at h0 hh0
      omega
    · exact absurd h (by simp)
  · intro h0
    have hh : ∀ a, 0 ≤ d.start (ix1 e) idx a + (d.window (ix1 e) a : ℤ)
        ∧ d.start (ix1 e) idx a + (d.window (ix1 e) a : ℤ) < ((⟨1, ![R]⟩ : Shape).size a : ℤ) := by
      intro a
      match a with
      | ⟨0, _⟩ =>
        show 0 ≤ d.start (ix1 e) idx 0 + (d.window (ix1 e) 0 : ℤ)
          ∧ d.start (ix1 e) idx 0 + (d.window (ix1 e) 0 : ℤ) < (R : ℤ)
        rw [hs0, hw0]; omega
    rw [dif_pos hh]
    congr 1
    funext a
    apply Fin.ext
    match a with
    | ⟨0, _⟩ =>
      show (d.start (ix1 e) idx 0 + (d.window (ix1 e) 0 : ℤ)).toNat = r.val
      rw [hs0, hw0]; omega

theorem scatterAdd_vec {R E w : ℕ} (d : ScatterDims ⟨1, ![R]⟩ ⟨2, ![E, 1]⟩ ⟨1, ![E]⟩)
    (huw : d.updateWindowDims = []) (hins : d.insertedWindowDims = [0]) (hsd : d.scatterDimsToOperandDims = [0])
    (hivd : d.indexVectorDim = 1)
    (x : (⟨1, ![R]⟩ : Shape).Idx → EReal) (idx : IVec ⟨2, ![E, 1]⟩ w) (upd : (⟨1, ![E]⟩ : Shape).Idx → EReal)
    (r : Fin R) :
    Ideal.hostScatterAdd d x idx upd (ix1 r)
      = x (ix1 r) + ∑ e : Fin E, if (idx (ix2 e (0 : Fin 1))).toInt = (r.val : ℤ) then upd (ix1 e) else 0 := by
  unfold Ideal.hostScatterAdd
  congr 1
  -- a rank-1 index set is its coordinate range
  rw [Finset.sum_filter,
    ← Equiv.sum_comp (⟨ix1, fun i => i 0, fun _ => rfl, fun i => (eq_ix1 i).symm⟩ : Fin E ≃ (⟨1, ![E]⟩ : Shape).Idx)]
  refine Finset.sum_congr rfl fun e _ => ?_
  exact if_congr (vec_resultIdx_iff d hins hsd hivd idx e r) rfl rfl

end Gcn.Rows

end
-- ==== Proof.KI.Take.lean ====
/-
  A row look-up read at an index. Each of the nine stretches computes take(table, idx): negative index words are
  wrapped by adding the table's height, a range test is reduced along the index column, the rows are gathered, and rows
  whose index failed the test are filled with a constant. When every index word is in [0, 50000), signed, nothing is
  wrapped, every test holds, the gather's clamp does nothing, and the result at (e, q) is the table at the row the
  e-th index word names, column q.
-/
import proofs.«431450_j74423193305350_1_alg».proof.Proof.Gen.KernelIdeal.Launch
import Idealize.ShloMosaic.Lib.StableHlo.Run
import Idealize.ShloMosaic.Lib.StableHlo.Predicate
import Idealize.ShloMosaic.Lib.ValueIdx
import proofs.«431450_j74423193305350_1_alg».proof.Proof.LibRows

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-! ## Words -/

theorem toInt_zero32 : (0#32 : BitVec 32).toInt = 0 := by decide
theorem toInt_49999 : (49999#32 : BitVec 32).toInt = 49999 := by decide

/-- A nonnegative word is not wrapped. -/
theorem wrap_nonneg (w : BitVec 32) (h0 : 0 ≤ w.toInt) :
    Scalar.select (IntOp.cmpi .slt w 0#32) (IntOp.addi w 50000#32) w = w := by
  have hc : ¬ IntOp.cmpi .slt w 0#32 = 1#1 := by
    rw [IntOp.cmpi_slt, toInt_zero32]; omega
  rw [eq_zero_of_ne_one hc, select_zero]

/-- A fold by "and" from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h1 : IntOp.andi 1#1 1#1 = (1#1 : BitVec 1) := by decide
    rw [List.foldl_cons, hf a, h1]
    exact foldl_andi_ones f hf l

/-- A reduction by "and" from 1 of an array of ones is 1 everywhere. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_ones x hx _

/-- A vector as a column reads, at any index of the column, the vector at that index's row. -/
theorem bcast_col_at {α : Type} (v : S400000.Idx → α) (j : S400000x1.Idx) :
    broadcastInDim S400000x1 ![0] Facts₀.bcast_S400000_S400000x1_0 v j = v (ix1 (j 0)) := by
  simp only [broadcastInDim]
  congr 1
  funext a
  have ha : a = 0 := Subsingleton.elim _ _
  subst ha
  apply Fin.ext
  split
  · next h1 => exact absurd h1 (by decide)
  · rfl

/-- A vector along the rows of a rectangle reads, at (e, q), the vector at e. -/
theorem bcast_row_at {α : Type} (v : S400000.Idx → α) (e : Fin 400000) (q : Fin 64) :
    broadcastInDim S400000x64 ![0] Facts₀.bcast_S400000_S400000x64_0 v (ix2 e q) = v (ix1 e) := by
  simp only [broadcastInDim]
  congr 1
  funext a
  have ha : a = 0 := Subsingleton.elim _ _
  subst ha
  apply Fin.ext
  split
  · next h1 => exact absurd h1 (by decide)
  · rfl

/-! ## The look-up as a term -/

/-- take(x, idx) as the stretches compute it. -/
def takeTerm {F : FTy → Type} [FloatOps F] (x : FVec F S50000x64 .f32) (idx : IVec S400000 32) : FVec F S400000x64 .f32 :=
  let v0 : IVec S400000 32 := broadcastInDim S400000 ![] Facts₀.bcast_S_S400000 (constantI S_ 32 0#32)
  let v1 : IVec S400000 1 := cmpi .slt idx v0
  let v2 : IVec S400000 32 := broadcastInDim S400000 ![] Facts₀.bcast_S_S400000 (constantI S_ 32 50000#32)
  let v3 : IVec S400000 32 := addi idx v2
  let v4 : IVec S400000 32 := select v1 v3 idx
  let v5 : IVec S400000x1 32 := broadcastInDim S400000x1 ![0] Facts₀.bcast_S400000_S400000x1_0 v4
  let v6 : IVec S400000x1 32 := broadcastInDim S400000x1 ![] Facts₀.bcast_S_S400000x1 (constantI S_ 32 0#32)
  let v7 : IVec S400000x1 1 := cmpi .sge v5 v6
  let v8 : IVec S1x1 32 := broadcastInDim S1x1 ![1] Facts₀.bcast_S1_S1x1_1 (constantI S1 32 49999#32)
  let v9 : IVec S400000x1 32 := broadcastInDim S400000x1 ![0, 1] Facts₀.bcast_S1x1_S400000x1_0_1 v8
  let v10 : IVec S400000x1 1 := cmpi .sle v5 v9
  let v11 : IVec S400000x1 1 := andi v7 v10
  let v12 : IVec S400000 1 := Host.reduce IntOp.andi v11 (constantI S_ 1 1#1) Facts₀.reducesTo_S400000x1_S400000_d1 Facts₀.h_S_
  let v13 : FVec F S400000x64 .f32 := Host.gather gather_S50000x64_S400000x1_S400000x64_1_0_n_n_0_1_164 x v5
  let v14 : IVec S400000x64 1 := broadcastInDim S400000x64 ![0] Facts₀.bcast_S400000_S400000x64_0 v12
  let v15 : FVec F S400000x64 .f32 := broadcastInDim S400000x64 ![] Facts₀.bcast_S_S400000x64 (constant S_ .f32 0x7FC00000#32)
  select v14 v13 v15

/-- With every index word in [0, 50000): the look-up at (e, q) is the table at the row the e-th word names. -/
theorem takeTerm_apply (x : FVec Ideal S50000x64 .f32) (idx : IVec S400000 32)
    (hidx : ∀ i : Fin 400000, 0 ≤ (idx (ix1 i)).toInt ∧ (idx (ix1 i)).toInt < 50000) (e : Fin 400000) (q : Fin 64) :
    takeTerm x idx (ix2 e q)
      = x (ix2 (⟨(idx (ix1 e)).toInt.toNat, by have := hidx e; omega⟩ : Fin 50000) q) := by
  -- the wrapped index column is the index vector
  have hv5 : ∀ j : S400000x1.Idx,
      broadcastInDim S400000x1 ![0] Facts₀.bcast_S400000_S400000x1_0
        (select (cmpi .slt idx (broadcastInDim S400000 ![] Facts₀.bcast_S_S400000 (constantI S_ 32 0#32)))
          (addi idx (broadcastInDim S400000 ![] Facts₀.bcast_S_S400000 (constantI S_ 32 50000#32))) idx) j
        = idx (ix1 (j 0)) := by
    intro j
    rw [bcast_col_at]
    exact wrap_nonneg _ (hidx (j 0)).1
  -- the range test holds in every row
  have hv11 : ∀ j : S400000x1.Idx,
      andi (cmpi .sge (broadcastInDim S400000x1 ![0] Facts₀.bcast_S400000_S400000x1_0
              (select (cmpi .slt idx (broadcastInDim S400000 ![] Facts₀.bcast_S_S400000 (constantI S_ 32 0#32)))
                (addi idx (broadcastInDim S400000 ![] Facts₀.bcast_S_S400000 (constantI S_ 32 50000#32))) idx))
            (broadcastInDim S400000x1 ![] Facts₀.bcast_S_S400000x1 (constantI S_ 32 0#32)))
        (cmpi .sle (broadcastInDim S400000x1 ![0] Facts₀.bcast_S400000_S400000x1_0
              (select (cmpi .slt idx (broadcastInDim S400000 ![] Facts₀.bcast_S_S400000 (constantI S_ 32 0#32)))
                (addi idx (broadcastInDim S400000 ![] Facts₀.bcast_S_S400000 (constantI S_ 32 50000#32))) idx))
            (broadcastInDim S400000x1 ![0, 1] Facts₀.bcast_S1x1_S400000x1_0_1
              (broadcastInDim S1x1 ![1] Facts₀.bcast_S1_S1x1_1 (constantI S1 32 49999#32)))) j = 1#1 := by
    intro j
    show IntOp.andi (IntOp.cmpi .sge _ (0#32 : BitVec 32)) (IntOp.cmpi .sle _ (49999#32 : BitVec 32)) = 1#1
    rw [hv5 j, IntOp.andi_eq_one, IntOp.cmpi_sge, IntOp.cmpi_sle, toInt_zero32, toInt_49999]
    have := hidx (j 0)
    omega
  dsimp only [takeTerm]
  rw [select_apply, bcast_row_at, reduce_andi_ones _ _ _ _ _ hv11 rfl, select_one,
    Gcn.Rows.gather_rows _ rfl rfl rfl rfl rfl rfl x _ e q (by decide)]
  congr 2
  apply Fin.ext
  show min (_ : BitVec 32).toInt.toNat (50000 - 1) = (idx (ix1 e)).toInt.toNat
  rw [hv5]
  show min (idx (ix1 e)).toInt.toNat (50000 - 1) = (idx (ix1 e)).toInt.toNat
  have := hidx e
  omega

/-! ## The nine stretches -/

theorem hostOps4_eq {F : FTy → Type} [FloatOps F] (V : Valuation τ sig (Elt F)) :
    StableHlo.after (hostOps4 (F := F)) V main_v34 = takeTerm (V main_v26) (V main_arg3) := by
  show StableHlo.after (hostOps4 (F := F)) V (Proc.devRef .tc main_v34) = _
  after_results_simp <;> (try simp only [StableHlo.TRef.ofBuf, StableHlo.TRef.toBuf, cast_eq]) <;> rfl

theorem take_hostOps4 (V : Valuation τ sig (Elt Ideal))
    (hidx : ∀ i : Fin 400000, 0 ≤ (V main_arg3 (ix1 i)).toInt ∧ (V main_arg3 (ix1 i)).toInt < 50000)
    (e : Fin 400000) (q : Fin 64) :
    StableHlo.after (hostOps4 (F := Ideal)) V main_v34 (ix2 e q)
      = V main_v26 (ix2 (⟨(V main_arg3 (ix1 e)).toInt.toNat, by have := hidx e; omega⟩ : Fin 50000) q) := by
  rw [hostOps4_eq]
  exact takeTerm_apply _ _ hidx e q

theorem hostOps4_1_eq {F : FTy → Type} [FloatOps F] (V : Valuation τ sig (Elt F)) :
    StableHlo.after (hostOps4_1 (F := F)) V main_v35 = takeTerm (V main_v27) (V main_arg4) := by
  show StableHlo.after (hostOps4_1 (F := F)) V (Proc.devRef .tc main_v35) = _
  after_results_simp <;> (try simp only [StableHlo.TRef.ofBuf, StableHlo.TRef.toBuf, cast_eq]) <;> rfl

theorem take_hostOps4_1 (V : Valuation τ sig (Elt Ideal))
    (hidx : ∀ i : Fin 400000, 0 ≤ (V main_arg4 (ix1 i)).toInt ∧ (V main_arg4 (ix1 i)).toInt < 50000)
    (e : Fin 400000) (q : Fin 64) :
    StableHlo.after (hostOps4_1 (F := Ideal)) V main_v35 (ix2 e q)
      = V main_v27 (ix2 (⟨(V main_arg4 (ix1 e)).toInt.toNat, by have := hidx e; omega⟩ : Fin 50000) q) := by
  rw [hostOps4_1_eq]
  exact takeTerm_apply _ _ hidx e q

theorem hostOps4_2_eq {F : FTy → Type} [FloatOps F] (V : Valuation τ sig (Elt F)) :
    StableHlo.after (hostOps4_2 (F := F)) V main_v36 = takeTerm (V main_v25) (V main_arg3) := by
  show StableHlo.after (hostOps4_2 (F := F)) V (Proc.devRef .tc main_v36) = _
  after_results_simp <;> (try simp only [StableHlo.TRef.ofBuf, StableHlo.TRef.toBuf, cast_eq]) <;> rfl

theorem take_hostOps4_2 (V : Valuation τ sig (Elt Ideal))
    (hidx : ∀ i : Fin 400000, 0 ≤ (V main_arg3 (ix1 i)).toInt ∧ (V main_arg3 (ix1 i)).toInt < 50000)
    (e : Fin 400000) (q : Fin 64) :
    StableHlo.after (hostOps4_2 (F := Ideal)) V main_v36 (ix2 e q)
      = V main_v25 (ix2 (⟨(V main_arg3 (ix1 e)).toInt.toNat, by have := hidx e; omega⟩ : Fin 50000) q) := by
  rw [hostOps4_2_eq]
  exact takeTerm_apply _ _ hidx e q

theorem hostOps10_eq {F : FTy → Type} [FloatOps F] (V : Valuation τ sig (Elt F)) :
    StableHlo.after (hostOps10 (F := F)) V main_v101 = takeTerm (V main_v93) (V main_arg3) := by
  show StableHlo.after (hostOps10 (F := F)) V (Proc.devRef .tc main_v101) = _
  after_results_simp <;> (try simp only [StableHlo.TRef.ofBuf, StableHlo.TRef.toBuf, cast_eq]) <;> rfl

theorem take_hostOps10 (V : Valuation τ sig (Elt Ideal))
    (hidx : ∀ i : Fin 400000, 0 ≤ (V main_arg3 (ix1 i)).toInt ∧ (V main_arg3 (ix1 i)).toInt < 50000)
    (e : Fin 400000) (q : Fin 64) :
    StableHlo.after (hostOps10 (F := Ideal)) V main_v101 (ix2 e q)
      = V main_v93 (ix2 (⟨(V main_arg3 (ix1 e)).toInt.toNat, by have := hidx e; omega⟩ : Fin 50000) q) := by
  rw [hostOps10_eq]
  exact takeTerm_apply _ _ hidx e q

theorem hostOps10_1_eq {F : FTy → Type} [FloatOps F] (V : Valuation τ sig (Elt F)) :
    StableHlo.after (hostOps10_1 (F := F)) V main_v102 = takeTerm (V main_v94) (V main_arg4) := by
  show StableHlo.after (hostOps10_1 (F := F)) V (Proc.devRef .tc main_v102) = _
  after_results_simp <;> (try simp only [StableHlo.TRef.ofBuf, StableHlo.TRef.toBuf, cast_eq]) <;> rfl

theorem take_hostOps10_1 (V : Valuation τ sig (Elt Ideal))
    (hidx : ∀ i : Fin 400000, 0 ≤ (V main_arg4 (ix1 i)).toInt ∧ (V main_arg4 (ix1 i)).toInt < 50000)
    (e : Fin 400000) (q : Fin 64) :
    StableHlo.after (hostOps10_1 (F := Ideal)) V main_v102 (ix2 e q)
      = V main_v94 (ix2 (⟨(V main_arg4 (ix1 e)).toInt.toNat, by have := hidx e; omega⟩ : Fin 50000) q) := by
  rw [hostOps10_1_eq]
  exact takeTerm_apply _ _ hidx e q

theorem hostOps10_2_eq {F : FTy → Type} [FloatOps F] (V : Valuation τ sig (Elt F)) :
    StableHlo.after (hostOps10_2 (F := F)) V main_v103 = takeTerm (V main_v92) (V main_arg3) := by
  show StableHlo.after (hostOps10_2 (F := F)) V (Proc.devRef .tc main_v103) = _
  after_results_simp <;> (try simp only [StableHlo.TRef.ofBuf, StableHlo.TRef.toBuf, cast_eq]) <;> rfl

theorem take_hostOps10_2 (V : Valuation τ sig (Elt Ideal))
    (hidx : ∀ i : Fin 400000, 0 ≤ (V main_arg3 (ix1 i)).toInt ∧ (V main_arg3 (ix1 i)).toInt < 50000)
    (e : Fin 400000) (q : Fin 64) :
    StableHlo.after (hostOps10_2 (F := Ideal)) V main_v103 (ix2 e q)
      = V main_v92 (ix2 (⟨(V main_arg3 (ix1 e)).toInt.toNat, by have := hidx e; omega⟩ : Fin 50000) q) := by
  rw [hostOps10_2_eq]
  exact takeTerm_apply _ _ hidx e q

theorem hostOps16_eq {F : FTy → Type} [FloatOps F] (V : Valuation τ sig (Elt F)) :
    StableHlo.after (hostOps16 (F := F)) V main_v168 = takeTerm (V main_v160) (V main_arg3) := by
  show StableHlo.after (hostOps16 (F := F)) V (Proc.devRef .tc main_v168) = _
  after_results_simp <;> (try simp only [StableHlo.TRef.ofBuf, StableHlo.TRef.toBuf, cast_eq]) <;> rfl

theorem take_hostOps16 (V : Valuation τ sig (Elt Ideal))
    (hidx : ∀ i : Fin 400000, 0 ≤ (V main_arg3 (ix1 i)).toInt ∧ (V main_arg3 (ix1 i)).toInt < 50000)
    (e : Fin 400000) (q : Fin 64) :
    StableHlo.after (hostOps16 (F := Ideal)) V main_v168 (ix2 e q)
      = V main_v160 (ix2 (⟨(V main_arg3 (ix1 e)).toInt.toNat, by have := hidx e; omega⟩ : Fin 50000) q) := by
  rw [hostOps16_eq]
  exact takeTerm_apply _ _ hidx e q

theorem hostOps16_1_eq {F : FTy → Type} [FloatOps F] (V : Valuation τ sig (Elt F)) :
    StableHlo.after (hostOps16_1 (F := F)) V main_v169 = takeTerm (V main_v161) (V main_arg4) := by
  show StableHlo.after (hostOps16_1 (F := F)) V (Proc.devRef .tc main_v169) = _
  after_results_simp <;> (try simp only [StableHlo.TRef.ofBuf, StableHlo.TRef.toBuf, cast_eq]) <;> rfl

theorem take_hostOps16_1 (V : Valuation τ sig (Elt Ideal))
    (hidx : ∀ i : Fin 400000, 0 ≤ (V main_arg4 (ix1 i)).toInt ∧ (V main_arg4 (ix1 i)).toInt < 50000)
    (e : Fin 400000) (q : Fin 64) :
    StableHlo.after (hostOps16_1 (F := Ideal)) V main_v169 (ix2 e q)
      = V main_v161 (ix2 (⟨(V main_arg4 (ix1 e)).toInt.toNat, by have := hidx e; omega⟩ : Fin 50000) q) := by
  rw [hostOps16_1_eq]
  exact takeTerm_apply _ _ hidx e q

theorem hostOps16_2_eq {F : FTy → Type} [FloatOps F] (V : Valuation τ sig (Elt F)) :
    StableHlo.after (hostOps16_2 (F := F)) V main_v170 = takeTerm (V main_v159) (V main_arg3) := by
  show StableHlo.after (hostOps16_2 (F := F)) V (Proc.devRef .tc main_v170) = _
  after_results_simp <;> (try simp only [StableHlo.TRef.ofBuf, StableHlo.TRef.toBuf, cast_eq]) <;> rfl

theorem take_hostOps16_2 (V : Valuation τ sig (Elt Ideal))
    (hidx : ∀ i : Fin 400000, 0 ≤ (V main_arg3 (ix1 i)).toInt ∧ (V main_arg3 (ix1 i)).toInt < 50000)
    (e : Fin 400000) (q : Fin 64) :
    StableHlo.after (hostOps16_2 (F := Ideal)) V main_v170 (ix2 e q)
      = V main_v159 (ix2 (⟨(V main_arg3 (ix1 e)).toInt.toNat, by have := hidx e; omega⟩ : Fin 50000) q) := by
  rw [hostOps16_2_eq]
  exact takeTerm_apply _ _ hidx e q

end Cert.KernelIdeal.Hand

end
-- ==== Proof.Ref.Gather.lean ====
/-
  The reference's row look-up x[idx] read at an index: negative index words are wrapped by adding the table's height,
  the wrapped vector is laid as a column, and the rows are gathered (the gather clamps a start index into the table).
  When every index word is in [0, 50000), signed, nothing is wrapped, the clamp does nothing, and the result at (e, q)
  is the table at the row the e-th index word names, column q.
-/
import proofs.«431450_j74423193305350_1_alg».proof.Proof.Gen.ReferenceIdeal
import Idealize.ShloMosaic.Lib.StableHlo.Predicate
import Idealize.ShloMosaic.Lib.ValueIdx
import Idealize.ShloMosaic.Lib.Affine
import proofs.«431450_j74423193305350_1_alg».proof.Proof.LibRows

set_option maxRecDepth 16384

noncomputable section

namespace Cert.ReferenceIdeal.Hand

open Cert.ReferenceIdeal
open Idealize.ShloMosaic Idealize.ShloMosaic.ValueIdx

theorem toInt_zero32 : (0#32 : BitVec 32).toInt = 0 := by decide

/-- A nonnegative word is not wrapped. -/
theorem wrap_nonneg (w : BitVec 32) (h0 : 0 ≤ w.toInt) :
    Scalar.select (IntOp.cmpi .slt w 0#32) (IntOp.addi w 50000#32) w = w := by
  have hc : ¬ IntOp.cmpi .slt w 0#32 = 1#1 := by
    rw [IntOp.cmpi_slt, toInt_zero32]; omega
  rw [eq_zero_of_ne_one hc, select_zero]

/-- A vector as a column reads, at any index of the column, the vector at that index's row. -/
theorem bcast_col_at {α : Type} (v : S400000.Idx → α) (j : S400000x1.Idx) :
    broadcastInDim S400000x1 ![0] Facts₀.bcast_S400000_S400000x1_0 v j = v (ix1 (j 0)) := by
  simp only [broadcastInDim]
  congr 1
  funext a
  have ha : a = 0 := Subsingleton.elim _ _
  subst ha
  apply Fin.ext
  split
  · next h1 => exact absurd h1 (by decide)
  · rfl

/-- With every index word in [0, 50000): x[idx] at (e, q) is the table at the row the e-th word names. -/
theorem gather_apply {α : Type} (x : S50000x64.Idx → α) (idx : IVec S400000 32)
    (hidx : ∀ i : Fin 400000, 0 ≤ (idx (ix1 i)).toInt ∧ (idx (ix1 i)).toInt < 50000) (e : Fin 400000) (q : Fin 64) :
    Host.gather gather_S50000x64_S400000x1_S400000x64_1_0_n_n_0_1_164 x
        (broadcastInDim S400000x1 ![0] Facts₀.bcast_S400000_S400000x1_0
          (select (cmpi .slt idx (broadcastInDim S400000 ![] Facts₀.bcast_S_S400000 (constantI S_ 32 0#32)))
            (addi idx (broadcastInDim S400000 ![] Facts₀.bcast_S_S400000 (constantI S_ 32 50000#32))) idx))
        (ix2 e q)
      = x (ix2 (⟨(idx (ix1 e)).toInt.toNat, by have := hidx e; omega⟩ : Fin 50000) q) := by
  have hv5 : ∀ j : S400000x1.Idx,
      broadcastInDim S400000x1 ![0] Facts₀.bcast_S400000_S400000x1_0
        (select (cmpi .slt idx (broadcastInDim S400000 ![] Facts₀.bcast_S_S400000 (constantI S_ 32 0#32)))
          (addi idx (broadcastInDim S400000 ![] Facts₀.bcast_S_S400000 (constantI S_ 32 50000#32))) idx) j
        = idx (ix1 (j 0)) := by
    intro j
    rw [bcast_col_at]
    exact wrap_nonneg _ (hidx (j 0)).1
  rw [Gcn.Rows.gather_rows _ rfl rfl rfl rfl rfl rfl x _ e q (by decide)]
  congr 2
  apply Fin.ext
  show min (_ : BitVec 32).toInt.toNat (50000 - 1) = (idx (ix1 e)).toInt.toNat
  rw [hv5]
  show min (idx (ix1 e)).toInt.toNat (50000 - 1) = (idx (ix1 e)).toInt.toNat
  have := hidx e
  omega

end Cert.ReferenceIdeal.Hand

end
-- ==== Proof.PreFacts.lean ====
/-
  The index range read out of the precondition. The precondition's last two conjuncts say, of the two
  index vectors, that every word is at least 0 and below 50000, signed: the whole predicate is one chain
  of conjunctions, each universal test a reduction by "and" from 1, so the final word being 1 makes every
  comparison word 1, and a comparison word being 1 says the comparison of the two signed values.
-/
import proofs.«431450_j74423193305350_1_alg».proof.Defs
import Idealize.ShloMosaic.Lib.StableHlo.Predicate
import Idealize.ShloMosaic.Lib.ReduceAll
import Idealize.ShloMosaic.Lib.ValueIdx

set_option maxRecDepth 16384

noncomputable section

namespace Cert.PreFacts

open Idealize.ShloMosaic Idealize.SL.Sem
open Cert.Pre_finite_inputs

variable [Cert.Pre_finite_inputs.Facts]

instance : Subsingleton S_.Idx := ⟨fun a b => funext fun d => d.elim0⟩

theorem toInt_zero32 : (0#32 : BitVec 32).toInt = 0 := by decide
theorem toInt_50000 : (50000#32 : BitVec 32).toInt = 50000 := by decide

/-- The last part of the chain: when its result is 1, the first vector's words are below the broadcast
    bound wherever the carried comparison is 1, and the second vector's words are in [0, 50000). -/
theorem part8_range (a3 a4 : IVec S400000 32) (v133 : IVec S_ 1) (v135 : IVec S400000 1) (c53 : IVec S_ 32)
    (e : fn_part8 (F := Ideal) a3 a4 v133 v135 c53 ValueIdx.ix0 = 1#1) (i : S400000.Idx) :
    (v135 i = 1#1 ∧ (a3 i).toInt < (c53 ValueIdx.ix0).toInt) ∧ (0 ≤ (a4 i).toInt ∧ (a4 i).toInt < 50000) := by
  unfold fn_part8 at e
  dsimp only at e
  obtain ⟨e1, e2⟩ := IntOp.andi_eq_one.1 e
  obtain ⟨-, e3⟩ := IntOp.andi_eq_one.1 e1
  have h3 := Host.reduce_andi_all _ _ _ _ _ e3 i
  have h4 := Host.reduce_andi_all _ _ _ _ _ e2 i
  obtain ⟨h3a, h3b⟩ := IntOp.andi_eq_one.1 h3
  obtain ⟨h4a, h4b⟩ := IntOp.andi_eq_one.1 h4
  have b3 : (a3 i).toInt < (broadcastInDim S400000 ![] Facts.bcast_S_S400000 c53 i).toInt := IntOp.cmpi_slt.1 h3b
  have b4a : (0#32 : BitVec 32).toInt ≤ (a4 i).toInt := IntOp.cmpi_sge.1 h4a
  have b4b : (a4 i).toInt < (50000#32 : BitVec 32).toInt := IntOp.cmpi_slt.1 h4b
  rw [toInt_zero32] at b4a
  rw [toInt_50000] at b4b
  have ec : broadcastInDim S400000 ![] Facts.bcast_S_S400000 c53 i = c53 ValueIdx.ix0 := congrArg c53 (Subsingleton.elim _ _)
  rw [ec] at b3
  exact ⟨⟨h3a, b3⟩, b4a, b4b⟩

/-- The precondition's result word, on a device, is the last part of the chain at the two index vectors, the
    carried comparison the first vector's test against 0 and the carried bound the constant 50000. -/
theorem pre_part8 (m : (ℓ : Loc Cert.KernelIdeal.nD Cert.KernelIdeal.τ Cert.KernelIdeal.sig) → Buf (Elt Ideal) ℓ)
    (h : Cert.Pre_KernelIdeal m) (c : Dev Cert.KernelIdeal.nD) :
    ∃ v133 : IVec S_ 1,
      fn_part8 (F := Ideal)
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        v133
        (cmpi .sge (m ((c.tc : Thread Cert.KernelIdeal.nD Cert.KernelIdeal.τ).loc Cert.KernelIdeal.main_arg3))
          (broadcastInDim S400000 ![] Facts.bcast_S_S400000 (constantI S_ 32 0#32)))
        (constantI S_ 32 50000#32) ValueIdx.ix0 = 1#1 :=
  ⟨_, congrFun (h c) ValueIdx.ix0⟩

/-- Every word of the first index vector is in [0, 50000), signed. -/
theorem src_inb (m : (ℓ : Loc Cert.KernelIdeal.nD Cert.KernelIdeal.τ Cert.KernelIdeal.sig) → Buf (Elt Ideal) ℓ)
    (h : Cert.Pre_KernelIdeal m) (c : Dev Cert.KernelIdeal.nD) (i : Fin 400000) :
    0 ≤ (m ((c.tc : Thread Cert.KernelIdeal.nD Cert.KernelIdeal.τ).loc Cert.KernelIdeal.main_arg3) (ValueIdx.ix1 i)).toInt
      ∧ (m ((c.tc : Thread Cert.KernelIdeal.nD Cert.KernelIdeal.τ).loc Cert.KernelIdeal.main_arg3) (ValueIdx.ix1 i)).toInt < 50000 := by
  obtain ⟨v133, e⟩ := pre_part8 m h c
  obtain ⟨⟨h1, h2⟩, -⟩ := part8_range _ _ _ _ _ e (ValueIdx.ix1 i)
  have b0 : (0#32 : BitVec 32).toInt ≤ _ := IntOp.cmpi_sge.1 h1
  rw [toInt_zero32] at b0
  have b1 : _ < (50000#32 : BitVec 32).toInt := h2
  rw [toInt_50000] at b1
  exact ⟨b0, b1⟩

/-- Every word of the second index vector is in [0, 50000), signed. -/
theorem dst_inb (m : (ℓ : Loc Cert.KernelIdeal.nD Cert.KernelIdeal.τ Cert.KernelIdeal.sig) → Buf (Elt Ideal) ℓ)
    (h : Cert.Pre_KernelIdeal m) (c : Dev Cert.KernelIdeal.nD) (i : Fin 400000) :
    0 ≤ (m ((c.tc : Thread Cert.KernelIdeal.nD Cert.KernelIdeal.τ).loc Cert.KernelIdeal.main_arg4) (ValueIdx.ix1 i)).toInt
      ∧ (m ((c.tc : Thread Cert.KernelIdeal.nD Cert.KernelIdeal.τ).loc Cert.KernelIdeal.main_arg4) (ValueIdx.ix1 i)).toInt < 50000 := by
  obtain ⟨v133, e⟩ := pre_part8 m h c
  exact (part8_range _ _ _ _ _ e (ValueIdx.ix1 i)).2

end Cert.PreFacts

end
-- ==== Proof.Sim.Take1.lean ====
import proofs.«431450_j74423193305350_1_alg».proof.Proof.KI.Fold
import proofs.«431450_j74423193305350_1_alg».proof.Proof.KI.Take
import proofs.«431450_j74423193305350_1_alg».proof.Proof.Ref.Fold
import proofs.«431450_j74423193305350_1_alg».proof.Proof.Ref.RdL1
import proofs.«431450_j74423193305350_1_alg».proof.Proof.Ref.Gather
import proofs.«431450_j74423193305350_1_alg».proof.Proof.PreFacts
import proofs.«431450_j74423193305350_1_alg».proof.Proof.Gen.Pre_finite_inputs
import proofs.«431450_j74423193305350_1_alg».proof.Proof.Spec

/-! The three row look-ups of layer 1, kernel against reference: each array a kernel look-up leaves equals the buffer the
    reference's look-up leaves, given that the two memories agree on the arguments, that the precondition holds (every
    index word is in [0, 50000)), and that the tables the look-ups read already agree. Both sides are read at an index
    as the table at the row the index word names; the index vectors are the launch contents, where the memories agree. -/
set_option maxRecDepth 16384

noncomputable section

namespace Cert.Sim

open Idealize.ShloMosaic Idealize.ShloMosaic.TcCoe Idealize.ShloMosaic.ValueIdx Idealize.ShloMosaic.StableHlo
open Idealize.SL.Sem
open Cert.KernelIdeal.Hand Cert.ReferenceIdeal.Hand
open Cert.Spec (Mat)

/-- The table at the row an index word names depends only on the table and the index vector. -/
theorem row_congrT1 {x x' : Mat 50000 64} {idx idx' : (⟨1, ![400000]⟩ : Shape).Idx → BitVec 32} (hx : x = x') (hi : idx = idx')
    (e : Fin 400000) (q : Fin 64) (h : (idx (ix1 e)).toInt.toNat < 50000) (h' : (idx' (ix1 e)).toInt.toNat < 50000) :
    x (ix2 (⟨(idx (ix1 e)).toInt.toNat, h⟩ : Fin 50000) q) = x' (ix2 (⟨(idx' (ix1 e)).toInt.toNat, h'⟩ : Fin 50000) q) := by
  subst hx; subst hi; rfl

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two memories agree on the thirty arguments (the hypothesis of the claim, word for word). -/
abbrev ArgsAgreeT1 : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)

/-! ## The index vectors, at the boundaries where they are read -/

/-- The index vector of look-up 0 is still the launch contents at kernel boundary 8. -/
theorem kidx1_0 (c : Dev Cert.KernelIdeal.nD) :
    W8 m c (Proc.devRef .tc Cert.KernelIdeal.main_arg3) = m ((c.tc : Thread Cert.KernelIdeal.nD Cert.KernelIdeal.τ).loc Cert.KernelIdeal.main_arg3) :=
  (W8_of m c Cert.KernelIdeal.main_arg3 (by decide)).trans (
    (W7_of m c Cert.KernelIdeal.main_arg3 (by decide)).trans (
    (W6_of m c Cert.KernelIdeal.main_arg3 (by decide)).trans (
    (W5_of m c Cert.KernelIdeal.main_arg3 (by decide)).trans (
    (W4_of m c Cert.KernelIdeal.main_arg3 (by decide)).trans (
    (W3_of m c Cert.KernelIdeal.main_arg3 (by decide)).trans (
    (W2_of m c Cert.KernelIdeal.main_arg3 (by decide)).trans (
    (W1_of m c Cert.KernelIdeal.main_arg3 (by decide)).trans (
    rfl))))))))

/-- The index vector of look-up 1 is still the launch contents at kernel boundary 9. -/
theorem kidx1_1 (c : Dev Cert.KernelIdeal.nD) :
    W9 m c (Proc.devRef .tc Cert.KernelIdeal.main_arg4) = m ((c.tc : Thread Cert.KernelIdeal.nD Cert.KernelIdeal.τ).loc Cert.KernelIdeal.main_arg4) :=
  (W9_of m c Cert.KernelIdeal.main_arg4 (by decide)).trans (
    (W8_of m c Cert.KernelIdeal.main_arg4 (by decide)).trans (
    (W7_of m c Cert.KernelIdeal.main_arg4 (by decide)).trans (
    (W6_of m c Cert.KernelIdeal.main_arg4 (by decide)).trans (
    (W5_of m c Cert.KernelIdeal.main_arg4 (by decide)).trans (
    (W4_of m c Cert.KernelIdeal.main_arg4 (by decide)).trans (
    (W3_of m c Cert.KernelIdeal.main_arg4 (by decide)).trans (
    (W2_of m c Cert.KernelIdeal.main_arg4 (by decide)).trans (
    (W1_of m c Cert.KernelIdeal.main_arg4 (by decide)).trans (
    rfl)))))))))

/-- The index vector of look-up 2 is still the launch contents at kernel boundary 10. -/
theorem kidx1_2 (c : Dev Cert.KernelIdeal.nD) :
    W10 m c (Proc.devRef .tc Cert.KernelIdeal.main_arg3) = m ((c.tc : Thread Cert.KernelIdeal.nD Cert.KernelIdeal.τ).loc Cert.KernelIdeal.main_arg3) :=
  (W10_of m c Cert.KernelIdeal.main_arg3 (by decide)).trans (
    (W9_of m c Cert.KernelIdeal.main_arg3 (by decide)).trans (
    (W8_of m c Cert.KernelIdeal.main_arg3 (by decide)).trans (
    (W7_of m c Cert.KernelIdeal.main_arg3 (by decide)).trans (
    (W6_of m c Cert.KernelIdeal.main_arg3 (by decide)).trans (
    (W5_of m c Cert.KernelIdeal.main_arg3 (by decide)).trans (
    (W4_of m c Cert.KernelIdeal.main_arg3 (by decide)).trans (
    (W3_of m c Cert.KernelIdeal.main_arg3 (by decide)).trans (
    (W2_of m c Cert.KernelIdeal.main_arg3 (by decide)).trans (
    (W1_of m c Cert.KernelIdeal.main_arg3 (by decide)).trans (
    rfl))))))))))

/-- The reference's index vector main_arg3 is still the launch contents at reference boundary 1. -/
theorem ridx1_main_arg3 (c : Dev Cert.KernelIdeal.nD) :
    RW1 m' c (Proc.devRef .tc Cert.ReferenceIdeal.main_arg3) = m' ((c.tc : Thread Cert.ReferenceIdeal.nD Cert.ReferenceIdeal.τ).loc Cert.ReferenceIdeal.main_arg3) :=
  (RW1_of m' c Cert.ReferenceIdeal.main_arg3 (by decide)).trans (
    rfl)

/-- The reference's index vector main_arg4 is still the launch contents at reference boundary 1. -/
theorem ridx1_main_arg4 (c : Dev Cert.KernelIdeal.nD) :
    RW1 m' c (Proc.devRef .tc Cert.ReferenceIdeal.main_arg4) = m' ((c.tc : Thread Cert.ReferenceIdeal.nD Cert.ReferenceIdeal.τ).loc Cert.ReferenceIdeal.main_arg4) :=
  (RW1_of m' c Cert.ReferenceIdeal.main_arg4 (by decide)).trans (
    rfl)

/-! ## Each side at an index -/

/-- Kernel look-up 0 (hostOps4) at (e, q): the table main_v26, as it stood at boundary 8, at the row the index word names. -/
theorem ktake1_0 (hpre : Cert.Pre_KernelIdeal m) (c : Dev Cert.KernelIdeal.nD) (e : Fin 400000) (q : Fin 64) :
    (W9 m c (Proc.devRef .tc Cert.KernelIdeal.main_v34) : Mat 400000 64) (ix2 e q)
      = (W8 m c (Proc.devRef .tc Cert.KernelIdeal.main_v26) : Mat 50000 64)
          (ix2 (⟨(m ((c.tc : Thread Cert.KernelIdeal.nD Cert.KernelIdeal.τ).loc Cert.KernelIdeal.main_arg3) (ix1 e)).toInt.toNat,
            by have := Cert.PreFacts.src_inb m hpre c e; omega⟩ : Fin 50000) q) := by
  have hidx : ∀ i : Fin 400000, 0 ≤ (W8 m c (Proc.devRef .tc Cert.KernelIdeal.main_arg3) (ix1 i)).toInt
      ∧ (W8 m c (Proc.devRef .tc Cert.KernelIdeal.main_arg3) (ix1 i)).toInt < 50000 := fun i => by
    rw [kidx1_0 m c]; exact Cert.PreFacts.src_inb m hpre c i
  have htbl : W8 m c (Proc.devRef .tc Cert.KernelIdeal.main_v26) = W8 m c (Proc.devRef .tc Cert.KernelIdeal.main_v26) :=
    rfl
  refine (take_hostOps4 (W8 m c) hidx e q).trans ?_
  exact row_congrT1 htbl (kidx1_0 m c) e q _ _

/-- Reference look-up 0 (main_v56) at (e, q): the table main_v33 after the layer, at the row the index word names. -/
theorem rtake1_0 (c : Dev Cert.KernelIdeal.nD)
    (hidx : ∀ i : Fin 400000, 0 ≤ (m' ((c.tc : Thread Cert.ReferenceIdeal.nD Cert.ReferenceIdeal.τ).loc Cert.ReferenceIdeal.main_arg3) (ix1 i)).toInt
      ∧ (m' ((c.tc : Thread Cert.ReferenceIdeal.nD Cert.ReferenceIdeal.τ).loc Cert.ReferenceIdeal.main_arg3) (ix1 i)).toInt < 50000)
    (e : Fin 400000) (q : Fin 64) :
    (RW2 m' c (Proc.devRef .tc Cert.ReferenceIdeal.main_v56) : Mat 400000 64) (ix2 e q)
      = (RW2 m' c (Proc.devRef .tc Cert.ReferenceIdeal.main_v33) : Mat 50000 64)
          (ix2 (⟨(m' ((c.tc : Thread Cert.ReferenceIdeal.nD Cert.ReferenceIdeal.τ).loc Cert.ReferenceIdeal.main_arg3) (ix1 e)).toInt.toNat,
            by have := hidx e; omega⟩ : Fin 50000) q) := by
  unfold RW2
  rw [rd_main_v56, rd_main_v55, rd_main_v54, rd_main_v51, rd_main_v53, rd_main_v50, rd_main_v52, rd_main_c, rd_main_c_0,
    ridx1_main_arg3 m' c]
  exact gather_apply _ _ hidx e q

/-- Kernel look-up 1 (hostOps4_1) at (e, q): the table main_v27, as it stood at boundary 8, at the row the index word names. -/
theorem ktake1_1 (hpre : Cert.Pre_KernelIdeal m) (c : Dev Cert.KernelIdeal.nD) (e : Fin 400000) (q : Fin 64) :
    (W10 m c (Proc.devRef .tc Cert.KernelIdeal.main_v35) : Mat 400000 64) (ix2 e q)
      = (W8 m c (Proc.devRef .tc Cert.KernelIdeal.main_v27) : Mat 50000 64)
          (ix2 (⟨(m ((c.tc : Thread Cert.KernelIdeal.nD Cert.KernelIdeal.τ).loc Cert.KernelIdeal.main_arg4) (ix1 e)).toInt.toNat,
            by have := Cert.PreFacts.dst_inb m hpre c e; omega⟩ : Fin 50000) q) := by
  have hidx : ∀ i : Fin 400000, 0 ≤ (W9 m c (Proc.devRef .tc Cert.KernelIdeal.main_arg4) (ix1 i)).toInt
      ∧ (W9 m c (Proc.devRef .tc Cert.KernelIdeal.main_arg4) (ix1 i)).toInt < 50000 := fun i => by
    rw [kidx1_1 m c]; exact Cert.PreFacts.dst_inb m hpre c i
  have htbl : W9 m c (Proc.devRef .tc Cert.KernelIdeal.main_v27) = W8 m c (Proc.devRef .tc Cert.KernelIdeal.main_v27) :=
    (W9_of m c Cert.KernelIdeal.main_v27 (by decide)).trans (rfl)
  refine (take_hostOps4_1 (W9 m c) hidx e q).trans ?_
  exact row_congrT1 htbl (kidx1_1 m c) e q _ _

/-- Reference look-up 1 (main_v63) at (e, q): the table main_v41 after the layer, at the row the index word names. -/
theorem rtake1_1 (c : Dev Cert.KernelIdeal.nD)
    (hidx : ∀ i : Fin 400000, 0 ≤ (m' ((c.tc : Thread Cert.ReferenceIdeal.nD Cert.ReferenceIdeal.τ).loc Cert.ReferenceIdeal.main_arg4) (ix1 i)).toInt
      ∧ (m' ((c.tc : Thread Cert.ReferenceIdeal.nD Cert.ReferenceIdeal.τ).loc Cert.ReferenceIdeal.main_arg4) (ix1 i)).toInt < 50000)
    (e : Fin 400000) (q : Fin 64) :
    (RW2 m' c (Proc.devRef .tc Cert.ReferenceIdeal.main_v63) : Mat 400000 64) (ix2 e q)
      = (RW2 m' c (Proc.devRef .tc Cert.ReferenceIdeal.main_v41) : Mat 50000 64)
          (ix2 (⟨(m' ((c.tc : Thread Cert.ReferenceIdeal.nD Cert.ReferenceIdeal.τ).loc Cert.ReferenceIdeal.main_arg4) (ix1 e)).toInt.toNat,
            by have := hidx e; omega⟩ : Fin 50000) q) := by
  unfold RW2
  rw [rd_main_v63, rd_main_v62, rd_main_v61, rd_main_v58, rd_main_v60, rd_main_v57, rd_main_v59, rd_main_c_1, rd_main_c_2,
    ridx1_main_arg4 m' c]
  exact gather_apply _ _ hidx e q

/-- Kernel look-up 2 (hostOps4_2) at (e, q): the table main_v25, as it stood at boundary 8, at the row the index word names. -/
theorem ktake1_2 (hpre : Cert.Pre_KernelIdeal m) (c : Dev Cert.KernelIdeal.nD) (e : Fin 400000) (q : Fin 64) :
    (W11 m c (Proc.devRef .tc Cert.KernelIdeal.main_v36) : Mat 400000 64) (ix2 e q)
      = (W8 m c (Proc.devRef .tc Cert.KernelIdeal.main_v25) : Mat 50000 64)
          (ix2 (⟨(m ((c.tc : Thread Cert.KernelIdeal.nD Cert.KernelIdeal.τ).loc Cert.KernelIdeal.main_arg3) (ix1 e)).toInt.toNat,
            by have := Cert.PreFacts.src_inb m hpre c e; omega⟩ : Fin 50000) q) := by
  have hidx : ∀ i : Fin 400000, 0 ≤ (W10 m c (Proc.devRef .tc Cert.KernelIdeal.main_arg3) (ix1 i)).toInt
      ∧ (W10 m c (Proc.devRef .tc Cert.KernelIdeal.main_arg3) (ix1 i)).toInt < 50000 := fun i => by
    rw [kidx1_2 m c]; exact Cert.PreFacts.src_inb m hpre c i
  have htbl : W10 m c (Proc.devRef .tc Cert.KernelIdeal.main_v25) = W8 m c (Proc.devRef .tc Cert.KernelIdeal.main_v25) :=
    (W10_of m c Cert.KernelIdeal.main_v25 (by decide)).trans ((W9_of m c Cert.KernelIdeal.main_v25 (by decide)).trans (rfl))
  refine (take_hostOps4_2 (W10 m c) hidx e q).trans ?_
  exact row_congrT1 htbl (kidx1_2 m c) e q _ _

/-- Reference look-up 2 (main_v78) at (e, q): the table main_v25 after the layer, at the row the index word names. -/
theorem rtake1_2 (c : Dev Cert.KernelIdeal.nD)
    (hidx : ∀ i : Fin 400000, 0 ≤ (m' ((c.tc : Thread Cert.ReferenceIdeal.nD Cert.ReferenceIdeal.τ).loc Cert.ReferenceIdeal.main_arg3) (ix1 i)).toInt
      ∧ (m' ((c.tc : Thread Cert.ReferenceIdeal.nD Cert.ReferenceIdeal.τ).loc Cert.ReferenceIdeal.main_arg3) (ix1 i)).toInt < 50000)
    (e : Fin 400000) (q : Fin 64) :
    (RW2 m' c (Proc.devRef .tc Cert.ReferenceIdeal.main_v78) : Mat 400000 64) (ix2 e q)
      = (RW2 m' c (Proc.devRef .tc Cert.ReferenceIdeal.main_v25) : Mat 50000 64)
          (ix2 (⟨(m' ((c.tc : Thread Cert.ReferenceIdeal.nD Cert.ReferenceIdeal.τ).loc Cert.ReferenceIdeal.main_arg3) (ix1 e)).toInt.toNat,
            by have := hidx e; omega⟩ : Fin 50000) q) := by
  unfold RW2
  rw [rd_main_v78, rd_main_v77, rd_main_v76, rd_main_v73, rd_main_v75, rd_main_v72, rd_main_v74, rd_main_c_5, rd_main_c_6,
    ridx1_main_arg3 m' c]
  exact gather_apply _ _ hidx e q

/-! ## The pairing -/

/-- The three look-ups of layer 1 agree, given the tables they read agree. -/
theorem take_eq1 (hpre : Cert.Pre_KernelIdeal m) (hagree : ArgsAgreeT1 m m') (c : Dev Cert.KernelIdeal.nD)
    (hT0 : (T8 m c Cert.KernelIdeal.main_v26 : Mat 50000 64) = (RW2 m' c (Proc.devRef .tc Cert.ReferenceIdeal.main_v33) : Mat 50000 64))
    (hT1 : (T8 m c Cert.KernelIdeal.main_v27 : Mat 50000 64) = (RW2 m' c (Proc.devRef .tc Cert.ReferenceIdeal.main_v41) : Mat 50000 64))
    (hT2 : (T8 m c Cert.KernelIdeal.main_v25 : Mat 50000 64) = (RW2 m' c (Proc.devRef .tc Cert.ReferenceIdeal.main_v25) : Mat 50000 64)) :
    (T9 m c Cert.KernelIdeal.main_v34 : Mat 400000 64) = (RW2 m' c (Proc.devRef .tc Cert.ReferenceIdeal.main_v56) : Mat 400000 64)
    ∧ (T10 m c Cert.KernelIdeal.main_v35 : Mat 400000 64) = (RW2 m' c (Proc.devRef .tc Cert.ReferenceIdeal.main_v63) : Mat 400000 64)
    ∧ (T11 m c Cert.KernelIdeal.main_v36 : Mat 400000 64) = (RW2 m' c (Proc.devRef .tc Cert.ReferenceIdeal.main_v78) : Mat 400000 64) := by
  have ha3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) := (hagree c).2.2.2.1
  have ha4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) := (hagree c).2.2.2.2.1
  have hs : ∀ i : Fin 400000, 0 ≤ (m' ((c.tc : Thread Cert.ReferenceIdeal.nD Cert.ReferenceIdeal.τ).loc Cert.ReferenceIdeal.main_arg3) (ix1 i)).toInt
      ∧ (m' ((c.tc : Thread Cert.ReferenceIdeal.nD Cert.ReferenceIdeal.τ).loc Cert.ReferenceIdeal.main_arg3) (ix1 i)).toInt < 50000 := fun i => by
    rw [ha3]; exact Cert.PreFacts.src_inb m hpre c i
  have hd : ∀ i : Fin 400000, 0 ≤ (m' ((c.tc : Thread Cert.ReferenceIdeal.nD Cert.ReferenceIdeal.τ).loc Cert.ReferenceIdeal.main_arg4) (ix1 i)).toInt
      ∧ (m' ((c.tc : Thread Cert.ReferenceIdeal.nD Cert.ReferenceIdeal.τ).loc Cert.ReferenceIdeal.main_arg4) (ix1 i)).toInt < 50000 := fun i => by
    rw [ha4]; exact Cert.PreFacts.dst_inb m hpre c i
  refine ⟨?_, ?_, ?_⟩
  · funext j
    rw [eq_ix2 j]
    refine (ktake1_0 m hpre c (j 0) (j 1)).trans ((rtake1_0 m' c hs (j 0) (j 1)).trans ?_).symm
    exact row_congrT1 hT0.symm ha3 (j 0) (j 1) _ _
  · funext j
    rw [eq_ix2 j]
    refine (ktake1_1 m hpre c (j 0) (j 1)).trans ((rtake1_1 m' c hd (j 0) (j 1)).trans ?_).symm
    exact row_congrT1 hT1.symm ha4 (j 0) (j 1) _ _
  · funext j
    rw [eq_ix2 j]
    refine (ktake1_2 m hpre c (j 0) (j 1)).trans ((rtake1_2 m' c hs (j 0) (j 1)).trans ?_).symm
    exact row_congrT1 hT2.symm ha3 (j 0) (j 1) _ _

end Cert.Sim

end
-- ==== Proof.KI.Val4.lean ====
import proofs.«431450_j74423193305350_1_alg».proof.Proof.KI.Reg4
import proofs.«431450_j74423193305350_1_alg».proof.Proof.Spec
import Idealize.ShloMosaic.Lib.Pipeline.Value
import Idealize.ShloMosaic.Lib.ValueIdx
import Idealize.ShloMosaic.PureOps.Ideal.Laws

/-! Region 4 (the edge combine) at the extended reals: each of its three output arrays after the last grid point,
    read at an entry, is the gate's argument, the gate, and the gated message of the four input arrays at that entry.
    The body's operations are entrywise, every window moves by the same row block of 4000 rows, and the hundred
    blocks tile the 400000 rows. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeroOff4 : (![0, 0] : Fin 2 → Nat) = fun _ => 0 := funext fun a => by fin_cases a <;> rfl

/-- The gate's argument (a + b) + d, each array read at its own index. -/
abbrev gateArgAt4 (a b d : S400000x64.Idx → EReal) (i0 i1 i2 : S400000x64.Idx) : EReal := (a i0 + b i1) + d i2

/-- The gate: the logistic function of the gate's argument. -/
abbrev gateAt4 (a b d : S400000x64.Idx → EReal) (i0 i1 i2 : S400000x64.Idx) : EReal := Ideal.logistic (gateArgAt4 a b d i0 i1 i2)

/-- The gated message: the gate times the fourth array's entry. -/
abbrev gatedAt4 (a b d e : S400000x64.Idx → EReal) (i0 i1 i2 i3 : S400000x64.Idx) : EReal := gateAt4 a b d i0 i1 i2 * e i3

/-- The gate's argument of three edge arrays, entry by entry. -/
abbrev gateArgArr4 (a b d : S400000x64.Idx → EReal) : S400000x64.Idx → EReal := fun i => gateArgAt4 a b d i i i

/-- The gate of three edge arrays, entry by entry. -/
abbrev gateArr4 (a b d : S400000x64.Idx → EReal) : S400000x64.Idx → EReal := fun i => gateAt4 a b d i i i

/-- The gated message of four edge arrays, entry by entry. -/
abbrev gatedArr4 (a b d e : S400000x64.Idx → EReal) : S400000x64.Idx → EReal := fun i => gatedAt4 a b d e i i i i

/-- The first payload is the sum of its three blocks in the order (x0 + x1) + x2, entry by entry. -/
theorem pay4_1_eq (x0 x1 x2 : Vec Ideal S4000x64 .f32) : k4_pay1 x0 x1 x2 = fun i => (x0 i + x1 i) + x2 i := by
  unfold k4_pay1
  simp only [shapeCast_self]
  rfl

/-- The second payload is the logistic function of the first, entry by entry. -/
theorem pay4_2_eq (x0 x1 x2 : Vec Ideal S4000x64 .f32) : k4_pay2 x0 x1 x2 = fun i => Ideal.logistic ((x0 i + x1 i) + x2 i) := by
  unfold k4_pay2
  rw [pay4_1_eq]
  rfl

/-- The third payload is the second times the fourth block, entry by entry. -/
theorem pay4_3_eq (x0 x1 x2 x3 : Vec Ideal S4000x64 .f32) : k4_pay3 x0 x1 x2 x3 = fun i => Ideal.logistic ((x0 i + x1 i) + x2 i) * x3 i := by
  unfold k4_pay3
  rw [pay4_2_eq]
  simp only [shapeCast_self]
  rfl

/-- The printed index maps, decided over the grid: every window's block at point t is row block t, column block 0. -/
theorem idxFacts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-! Each window's block at point t sits where output window 4's does. -/

theorem embEq4_0 (t : Fin cfg4.N) (j : S4000x64.Idx) :
    ((cfg4.win 0).blk t).view.emb j = ((cfg4.win 4).blk t).view.emb j := by
  obtain ⟨a0, a1, b0, b1, d0, d1, e0, e1, f0, f1, g0, g1, h0, h1⟩ := idxFacts4 t
  funext a; apply Fin.ext
  match a with
  | ⟨0, _⟩ => show win4_0.index t (0 : Fin 2) * 4000 + 1 * (j 0).val = win4_4.index t (0 : Fin 2) * 4000 + 1 * (j 0).val; omega
  | ⟨1, _⟩ => show win4_0.index t (1 : Fin 2) * 64 + 1 * (j 1).val = win4_4.index t (1 : Fin 2) * 64 + 1 * (j 1).val; omega

theorem embEq4_1 (t : Fin cfg4.N) (j : S4000x64.Idx) :
    ((cfg4.win 1).blk t).view.emb j = ((cfg4.win 4).blk t).view.emb j := by
  obtain ⟨a0, a1, b0, b1, d0, d1, e0, e1, f0, f1, g0, g1, h0, h1⟩ := idxFacts4 t
  funext a; apply Fin.ext
  match a with
  | ⟨0, _⟩ => show win4_1.index t (0 : Fin 2) * 4000 + 1 * (j 0).val = win4_4.index t (0 : Fin 2) * 4000 + 1 * (j 0).val; omega
  | ⟨1, _⟩ => show win4_1.index t (1 : Fin 2) * 64 + 1 * (j 1).val = win4_4.index t (1 : Fin 2) * 64 + 1 * (j 1).val; omega

theorem embEq4_2 (t : Fin cfg4.N) (j : S4000x64.Idx) :
    ((cfg4.win 2).blk t).view.emb j = ((cfg4.win 4).blk t).view.emb j := by
  obtain ⟨a0, a1, b0, b1, d0, d1, e0, e1, f0, f1, g0, g1, h0, h1⟩ := idxFacts4 t
  funext a; apply Fin.ext
  match a with
  | ⟨0, _⟩ => show win4_2.index t (0 : Fin 2) * 4000 + 1 * (j 0).val = win4_4.index t (0 : Fin 2) * 4000 + 1 * (j 0).val; omega
  | ⟨1, _⟩ => show win4_2.index t (1 : Fin 2) * 64 + 1 * (j 1).val = win4_4.index t (1 : Fin 2) * 64 + 1 * (j 1).val; omega

theorem embEq4_3 (t : Fin cfg4.N) (j : S4000x64.Idx) :
    ((cfg4.win 3).blk t).view.emb j = ((cfg4.win 4).blk t).view.emb j := by
  obtain ⟨a0, a1, b0, b1, d0, d1, e0, e1, f0, f1, g0, g1, h0, h1⟩ := idxFacts4 t
  funext a; apply Fin.ext
  match a with
  | ⟨0, _⟩ => show win4_3.index t (0 : Fin 2) * 4000 + 1 * (j 0).val = win4_4.index t (0 : Fin 2) * 4000 + 1 * (j 0).val; omega
  | ⟨1, _⟩ => show win4_3.index t (1 : Fin 2) * 64 + 1 * (j 1).val = win4_4.index t (1 : Fin 2) * 64 + 1 * (j 1).val; omega

theorem embEq4_5 (t : Fin cfg4.N) (j : S4000x64.Idx) :
    ((cfg4.win 5).blk t).view.emb j = ((cfg4.win 4).blk t).view.emb j := by
  obtain ⟨a0, a1, b0, b1, d0, d1, e0, e1, f0, f1, g0, g1, h0, h1⟩ := idxFacts4 t
  funext a; apply Fin.ext
  match a with
  | ⟨0, _⟩ => show win4_5.index t (0 : Fin 2) * 4000 + 1 * (j 0).val = win4_4.index t (0 : Fin 2) * 4000 + 1 * (j 0).val; omega
  | ⟨1, _⟩ => show win4_5.index t (1 : Fin 2) * 64 + 1 * (j 1).val = win4_4.index t (1 : Fin 2) * 64 + 1 * (j 1).val; omega

theorem embEq4_6 (t : Fin cfg4.N) (j : S4000x64.Idx) :
    ((cfg4.win 6).blk t).view.emb j = ((cfg4.win 4).blk t).view.emb j := by
  obtain ⟨a0, a1, b0, b1, d0, d1, e0, e1, f0, f1, g0, g1, h0, h1⟩ := idxFacts4 t
  funext a; apply Fin.ext
  match a with
  | ⟨0, _⟩ => show win4_6.index t (0 : Fin 2) * 4000 + 1 * (j 0).val = win4_4.index t (0 : Fin 2) * 4000 + 1 * (j 0).val; omega
  | ⟨1, _⟩ => show win4_6.index t (1 : Fin 2) * 64 + 1 * (j 1).val = win4_4.index t (1 : Fin 2) * 64 + 1 * (j 1).val; omega

/-- What point t writes back to output 4 is block t of the gate's argument of the input arrays. -/
theorem flushed4_4_eq (c : Dev nD) (t : Fin cfg4.N) :
    (dat4 V c).flushed 4 t = ((cfg4.win 4).blk t).view.read (Elt Ideal) (gateArgArr4 (V c main_v34 : S400000x64.Idx → EReal) (V c main_v35 : S400000x64.Idx → EReal) (V c main_v33 : S400000x64.Idx → EReal)) := by
  show (cfg4.win 4).cut (grid4.coords t) ((dat4 V c).after 4 t) = _
  rw [after4_4]
  unfold out4_4
  rw [View.canon_unit_zero zeroOff4]
  simp only [View.ld_unit_zero (S := S4000x64) zeroOff4]
  rw [pay4_1_eq]
  funext j
  show gateArgAt4 (V c main_v34 : S400000x64.Idx → EReal) (V c main_v35 : S400000x64.Idx → EReal) (V c main_v33 : S400000x64.Idx → EReal) (((cfg4.win 0).blk t).view.emb j) (((cfg4.win 1).blk t).view.emb j) (((cfg4.win 2).blk t).view.emb j)
    = gateArgAt4 (V c main_v34 : S400000x64.Idx → EReal) (V c main_v35 : S400000x64.Idx → EReal) (V c main_v33 : S400000x64.Idx → EReal) (((cfg4.win 4).blk t).view.emb j) (((cfg4.win 4).blk t).view.emb j) (((cfg4.win 4).blk t).view.emb j)
  rw [embEq4_0 t j, embEq4_1 t j, embEq4_2 t j]

/-- What point t writes back to output 5 is block t of the gate of the input arrays. -/
theorem flushed4_5_eq (c : Dev nD) (t : Fin cfg4.N) :
    (dat4 V c).flushed 5 t = ((cfg4.win 5).blk t).view.read (Elt Ideal) (gateArr4 (V c main_v34 : S400000x64.Idx → EReal) (V c main_v35 : S400000x64.Idx → EReal) (V c main_v33 : S400000x64.Idx → EReal)) := by
  show (cfg4.win 5).cut (grid4.coords t) ((dat4 V c).after 5 t) = _
  rw [after4_5]
  unfold out4_5
  rw [View.canon_unit_zero zeroOff4]
  simp only [View.ld_unit_zero (S := S4000x64) zeroOff4]
  rw [pay4_2_eq]
  funext j
  show gateAt4 (V c main_v34 : S400000x64.Idx → EReal) (V c main_v35 : S400000x64.Idx → EReal) (V c main_v33 : S400000x64.Idx → EReal) (((cfg4.win 0).blk t).view.emb j) (((cfg4.win 1).blk t).view.emb j) (((cfg4.win 2).blk t).view.emb j)
    = gateAt4 (V c main_v34 : S400000x64.Idx → EReal) (V c main_v35 : S400000x64.Idx → EReal) (V c main_v33 : S400000x64.Idx → EReal) (((cfg4.win 5).blk t).view.emb j) (((cfg4.win 5).blk t).view.emb j) (((cfg4.win 5).blk t).view.emb j)
  rw [embEq4_0 t j, embEq4_1 t j, embEq4_2 t j, embEq4_5 t j]

/-- What point t writes back to output 6 is block t of the gated message of the input arrays. -/
theorem flushed4_6_eq (c : Dev nD) (t : Fin cfg4.N) :
    (dat4 V c).flushed 6 t = ((cfg4.win 6).blk t).view.read (Elt Ideal) (gatedArr4 (V c main_v34 : S400000x64.Idx → EReal) (V c main_v35 : S400000x64.Idx → EReal) (V c main_v33 : S400000x64.Idx → EReal) (V c main_v36 : S400000x64.Idx → EReal)) := by
  show (cfg4.win 6).cut (grid4.coords t) ((dat4 V c).after 6 t) = _
  rw [after4_6]
  unfold out4_6
  rw [View.canon_unit_zero zeroOff4]
  simp only [View.ld_unit_zero (S := S4000x64) zeroOff4]
  rw [pay4_3_eq]
  funext j
  show gatedAt4 (V c main_v34 : S400000x64.Idx → EReal) (V c main_v35 : S400000x64.Idx → EReal) (V c main_v33 : S400000x64.Idx → EReal) (V c main_v36 : S400000x64.Idx → EReal) (((cfg4.win 0).blk t).view.emb j) (((cfg4.win 1).blk t).view.emb j) (((cfg4.win 2).blk t).view.emb j) (((cfg4.win 3).blk t).view.emb j)
    = gatedAt4 (V c main_v34 : S400000x64.Idx → EReal) (V c main_v35 : S400000x64.Idx → EReal) (V c main_v33 : S400000x64.Idx → EReal) (V c main_v36 : S400000x64.Idx → EReal) (((cfg4.win 6).blk t).view.emb j) (((cfg4.win 6).blk t).view.emb j) (((cfg4.win 6).blk t).view.emb j) (((cfg4.win 6).blk t).view.emb j)
  rw [embEq4_0 t j, embEq4_1 t j, embEq4_2 t j, embEq4_3 t j, embEq4_6 t j]

/-- An index of output array 4 is in point t's block iff each coordinate is in the block's range on its axis. -/
theorem memBlk4_4 (t : Fin cfg4.N) (i : S400000x64.Idx) :
    i ∈ ((cfg4.win 4).blk t).view.set ↔ ∀ a : Fin 2, win4_4.index t a * S4000x64.size a ≤ (i a).val ∧ (i a).val < win4_4.index t a * S4000x64.size a + S4000x64.size a := by
  show i ∈ ((View.whole main_v37_0).slice (win4_4.rect t)).set ↔ _
  rw [View.set_slice_whole, Rect.mem_set_unit]
  exact Iff.rfl

/-- Every index of output array 4 is in the block of the point its row falls in: row r is in block r / 4000. -/
theorem covered4_4 (i : S400000x64.Idx) :
    ∃ t : Fin cfg4.N, (cfg4.win 4).flush t = true ∧ i ∈ ((cfg4.win 4).blk t).view.set := by
  have hi0 : (i 0).val < 400000 := (i 0).isLt
  have hi1 : (i 1).val < 64 := (i 1).isLt
  have hN : cfg4.N = 100 := N_4
  have hlt : (i 0).val / 4000 < cfg4.N := by rw [hN]; omega
  obtain ⟨t, ht⟩ : ∃ t : Fin cfg4.N, t.val = (i 0).val / 4000 := ⟨⟨_, hlt⟩, rfl⟩
  obtain ⟨a0, a1, b0, b1, d0, d1, e0, e1, f0, f1, g0, g1, h0, h1⟩ := idxFacts4 t
  refine ⟨t, flush4_4 t, ?_⟩
  rw [memBlk4_4]
  intro a
  match a with
  | ⟨0, _⟩ =>
    show win4_4.index t (0 : Fin 2) * 4000 ≤ (i 0).val ∧ (i 0).val < win4_4.index t (0 : Fin 2) * 4000 + 4000
    omega
  | ⟨1, _⟩ =>
    show win4_4.index t (1 : Fin 2) * 64 ≤ (i 1).val ∧ (i 1).val < win4_4.index t (1 : Fin 2) * 64 + 64
    omega

/-- An index of output array 5 is in point t's block iff each coordinate is in the block's range on its axis. -/
theorem memBlk4_5 (t : Fin cfg4.N) (i : S400000x64.Idx) :
    i ∈ ((cfg4.win 5).blk t).view.set ↔ ∀ a : Fin 2, win4_5.index t a * S4000x64.size a ≤ (i a).val ∧ (i a).val < win4_5.index t a * S4000x64.size a + S4000x64.size a := by
  show i ∈ ((View.whole main_v37_1).slice (win4_5.rect t)).set ↔ _
  rw [View.set_slice_whole, Rect.mem_set_unit]
  exact Iff.rfl

/-- Every index of output array 5 is in the block of the point its row falls in: row r is in block r / 4000. -/
theorem covered4_5 (i : S400000x64.Idx) :
    ∃ t : Fin cfg4.N, (cfg4.win 5).flush t = true ∧ i ∈ ((cfg4.win 5).blk t).view.set := by
  have hi0 : (i 0).val < 400000 := (i 0).isLt
  have hi1 : (i 1).val < 64 := (i 1).isLt
  have hN : cfg4.N = 100 := N_4
  have hlt : (i 0).val / 4000 < cfg4.N := by rw [hN]; omega
  obtain ⟨t, ht⟩ : ∃ t : Fin cfg4.N, t.val = (i 0).val / 4000 := ⟨⟨_, hlt⟩, rfl⟩
  obtain ⟨a0, a1, b0, b1, d0, d1, e0, e1, f0, f1, g0, g1, h0, h1⟩ := idxFacts4 t
  refine ⟨t, flush4_5 t, ?_⟩
  rw [memBlk4_5]
  intro a
  match a with
  | ⟨0, _⟩ =>
    show win4_5.index t (0 : Fin 2) * 4000 ≤ (i 0).val ∧ (i 0).val < win4_5.index t (0 : Fin 2) * 4000 + 4000
    omega
  | ⟨1, _⟩ =>
    show win4_5.index t (1 : Fin 2) * 64 ≤ (i 1).val ∧ (i 1).val < win4_5.index t (1 : Fin 2) * 64 + 64
    omega

/-- An index of output array 6 is in point t's block iff each coordinate is in the block's range on its axis. -/
theorem memBlk4_6 (t : Fin cfg4.N) (i : S400000x64.Idx) :
    i ∈ ((cfg4.win 6).blk t).view.set ↔ ∀ a : Fin 2, win4_6.index t a * S4000x64.size a ≤ (i a).val ∧ (i a).val < win4_6.index t a * S4000x64.size a + S4000x64.size a := by
  show i ∈ ((View.whole main_v37_2).slice (win4_6.rect t)).set ↔ _
  rw [View.set_slice_whole, Rect.mem_set_unit]
  exact Iff.rfl

/-- Every index of output array 6 is in the block of the point its row falls in: row r is in block r / 4000. -/
theorem covered4_6 (i : S400000x64.Idx) :
    ∃ t : Fin cfg4.N, (cfg4.win 6).flush t = true ∧ i ∈ ((cfg4.win 6).blk t).view.set := by
  have hi0 : (i 0).val < 400000 := (i 0).isLt
  have hi1 : (i 1).val < 64 := (i 1).isLt
  have hN : cfg4.N = 100 := N_4
  have hlt : (i 0).val / 4000 < cfg4.N := by rw [hN]; omega
  obtain ⟨t, ht⟩ : ∃ t : Fin cfg4.N, t.val = (i 0).val / 4000 := ⟨⟨_, hlt⟩, rfl⟩
  obtain ⟨a0, a1, b0, b1, d0, d1, e0, e1, f0, f1, g0, g1, h0, h1⟩ := idxFacts4 t
  refine ⟨t, flush4_6 t, ?_⟩
  rw [memBlk4_6]
  intro a
  match a with
  | ⟨0, _⟩ =>
    show win4_6.index t (0 : Fin 2) * 4000 ≤ (i 0).val ∧ (i 0).val < win4_6.index t (0 : Fin 2) * 4000 + 4000
    omega
  | ⟨1, _⟩ =>
    show win4_6.index t (1 : Fin 2) * 64 ≤ (i 1).val ∧ (i 1).val < win4_6.index t (1 : Fin 2) * 64 + 64
    omega

/-- Output array 4 after the last point is the gate's argument of the input arrays. -/
theorem final4_4 (c : Dev nD) : (dat4 V c).arrAt 4 cfg4.N = gateArgArr4 (V c main_v34 : S400000x64.Idx → EReal) (V c main_v35 : S400000x64.Idx → EReal) (V c main_v33 : S400000x64.Idx → EReal) :=
  (dat4 V c).arrAt_eq_of_cover 4 _ (fun t _ => flushed4_4_eq V c t) covered4_4

/-- Output array 5 after the last point is the gate of the input arrays. -/
theorem final4_5 (c : Dev nD) : (dat4 V c).arrAt 5 cfg4.N = gateArr4 (V c main_v34 : S400000x64.Idx → EReal) (V c main_v35 : S400000x64.Idx → EReal) (V c main_v33 : S400000x64.Idx → EReal) :=
  (dat4 V c).arrAt_eq_of_cover 5 _ (fun t _ => flushed4_5_eq V c t) covered4_5

/-- Output array 6 after the last point is the gated message of the input arrays. -/
theorem final4_6 (c : Dev nD) : (dat4 V c).arrAt 6 cfg4.N = gatedArr4 (V c main_v34 : S400000x64.Idx → EReal) (V c main_v35 : S400000x64.Idx → EReal) (V c main_v33 : S400000x64.Idx → EReal) (V c main_v36 : S400000x64.Idx → EReal) :=
  (dat4 V c).arrAt_eq_of_cover 6 _ (fun t _ => flushed4_6_eq V c t) covered4_6

theorem final4_4_apply (c : Dev nD) (r : Fin 400000) (j : Fin 64) :
    ((dat4 (F := Ideal) V c).arrAt 4 cfg4.N : S400000x64.Idx → EReal) (ix2 r j) = Spec.gateArg (V c main_v34 : S400000x64.Idx → EReal) (V c main_v35 : S400000x64.Idx → EReal) (V c main_v33 : S400000x64.Idx → EReal) r j := by
  rw [final4_4]; rfl

theorem final4_5_apply (c : Dev nD) (r : Fin 400000) (j : Fin 64) :
    ((dat4 (F := Ideal) V c).arrAt 5 cfg4.N : S400000x64.Idx → EReal) (ix2 r j) = Spec.gate (V c main_v34 : S400000x64.Idx → EReal) (V c main_v35 : S400000x64.Idx → EReal) (V c main_v33 : S400000x64.Idx → EReal) r j := by
  rw [final4_5]; rfl

theorem final4_6_apply (c : Dev nD) (r : Fin 400000) (j : Fin 64) :
    ((dat4 (F := Ideal) V c).arrAt 6 cfg4.N : S400000x64.Idx → EReal) (ix2 r j) = Spec.gated (V c main_v34 : S400000x64.Idx → EReal) (V c main_v35 : S400000x64.Idx → EReal) (V c main_v33 : S400000x64.Idx → EReal) (V c main_v36 : S400000x64.Idx → EReal) r j := by
  rw [final4_6]; rfl

end Cert.KernelIdeal.Hand

end
-- ==== Proof.KI.Val5.lean ====
import proofs.«431450_j74423193305350_1_alg».proof.Proof.KI.Reg5
import proofs.«431450_j74423193305350_1_alg».proof.Proof.Spec
import Idealize.ShloMosaic.Lib.Pipeline.Value
import Idealize.ShloMosaic.Lib.ValueIdx
import Idealize.ShloMosaic.PureOps.Ideal.Laws

/-! Region 5 (the node update) at the extended reals: its output array after the last grid point, read at an entry, is
    a + num / (den + eps) of the three input arrays at that entry, eps the body's constant word. The body's operations
    are entrywise, every window moves by the same row block of 5000 rows, and the ten blocks tile the 50000 rows. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeroOff5 : (![0, 0] : Fin 2 → Nat) = fun _ => 0 := funext fun a => by fin_cases a <;> rfl

/-- a + num / (den + eps), each array read at its own index. -/
abbrev nodeUpdAt5 (a num den : S50000x64.Idx → EReal) (i0 i1 i2 : S50000x64.Idx) : EReal := a i0 + Ideal.div (num i1) (den i2 + (Ideal.ofBits .f32 0x358637BD#32))

/-- a + num / (den + eps) of three node arrays, entry by entry. -/
abbrev nodeUpdArr5 (a num den : S50000x64.Idx → EReal) : S50000x64.Idx → EReal := fun i => nodeUpdAt5 a num den i i i

/-- The payload is x0 + x1 / (x2 + eps) of its blocks, entry by entry (the body loads den first, then a, then num). -/
theorem pay5_1_eq (x2 x0 x1 : Vec Ideal S5000x64 .f32) :
    k5_pay1 x2 x0 x1 = fun i => x0 i + Ideal.div (x1 i) (x2 i + (Ideal.ofBits .f32 0x358637BD#32)) := by
  unfold k5_pay1
  simp only [shapeCast_self]
  rfl

/-- The printed index maps, decided over the grid: every window's block at point t is row block t, column block 0. -/
theorem idxFacts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-! Each input window's block at point t sits where the output window's does. -/

theorem embEq5_0 (t : Fin cfg5.N) (j : S5000x64.Idx) :
    ((cfg5.win 0).blk t).view.emb j = ((cfg5.win 3).blk t).view.emb j := by
  obtain ⟨a0, a1, b0, b1, d0, d1, e0, e1⟩ := idxFacts5 t
  funext a; apply Fin.ext
  match a with
  | ⟨0, _⟩ => show win5_0.index t (0 : Fin 2) * 5000 + 1 * (j 0).val = win5_3.index t (0 : Fin 2) * 5000 + 1 * (j 0).val; omega
  | ⟨1, _⟩ => show win5_0.index t (1 : Fin 2) * 64 + 1 * (j 1).val = win5_3.index t (1 : Fin 2) * 64 + 1 * (j 1).val; omega

theorem embEq5_1 (t : Fin cfg5.N) (j : S5000x64.Idx) :
    ((cfg5.win 1).blk t).view.emb j = ((cfg5.win 3).blk t).view.emb j := by
  obtain ⟨a0, a1, b0, b1, d0, d1, e0, e1⟩ := idxFacts5 t
  funext a; apply Fin.ext
  match a with
  | ⟨0, _⟩ => show win5_1.index t (0 : Fin 2) * 5000 + 1 * (j 0).val = win5_3.index t (0 : Fin 2) * 5000 + 1 * (j 0).val; omega
  | ⟨1, _⟩ => show win5_1.index t (1 : Fin 2) * 64 + 1 * (j 1).val = win5_3.index t (1 : Fin 2) * 64 + 1 * (j 1).val; omega

theorem embEq5_2 (t : Fin cfg5.N) (j : S5000x64.Idx) :
    ((cfg5.win 2).blk t).view.emb j = ((cfg5.win 3).blk t).view.emb j := by
  obtain ⟨a0, a1, b0, b1, d0, d1, e0, e1⟩ := idxFacts5 t
  funext a; apply Fin.ext
  match a with
  | ⟨0, _⟩ => show win5_2.index t (0 : Fin 2) * 5000 + 1 * (j 0).val = win5_3.index t (0 : Fin 2) * 5000 + 1 * (j 0).val; omega
  | ⟨1, _⟩ => show win5_2.index t (1 : Fin 2) * 64 + 1 * (j 1).val = win5_3.index t (1 : Fin 2) * 64 + 1 * (j 1).val; omega

/-- What point t writes back is block t of a + num / (den + eps) of the input arrays. -/
theorem flushed5_3_eq (c : Dev nD) (t : Fin cfg5.N) :
    (dat5 V c).flushed 3 t = ((cfg5.win 3).blk t).view.read (Elt Ideal) (nodeUpdArr5 (V c main_v24 : S50000x64.Idx → EReal) (V c main_v40 : S50000x64.Idx → EReal) (V c main_v43 : S50000x64.Idx → EReal)) := by
  show (cfg5.win 3).cut (grid5.coords t) ((dat5 V c).after 3 t) = _
  rw [after5_3]
  unfold out5_3
  rw [View.canon_unit_zero zeroOff5]
  simp only [View.ld_unit_zero (S := S5000x64) zeroOff5]
  rw [pay5_1_eq]
  funext j
  show nodeUpdAt5 (V c main_v24 : S50000x64.Idx → EReal) (V c main_v40 : S50000x64.Idx → EReal) (V c main_v43 : S50000x64.Idx → EReal) (((cfg5.win 0).blk t).view.emb j) (((cfg5.win 1).blk t).view.emb j) (((cfg5.win 2).blk t).view.emb j)
    = nodeUpdAt5 (V c main_v24 : S50000x64.Idx → EReal) (V c main_v40 : S50000x64.Idx → EReal) (V c main_v43 : S50000x64.Idx → EReal) (((cfg5.win 3).blk t).view.emb j) (((cfg5.win 3).blk t).view.emb j) (((cfg5.win 3).blk t).view.emb j)
  rw [embEq5_0 t j, embEq5_1 t j, embEq5_2 t j]

/-- An index of the output array is in point t's block iff each coordinate is in the block's range on its axis. -/
theorem memBlk5_3 (t : Fin cfg5.N) (i : S50000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v44).slice (win5_3.rect t)).set ↔ _
  rw [View.set_slice_whole, Rect.mem_set_unit]
  exact Iff.rfl

/-- Every index of the output array is in the block of the point its row falls in: row r is in block r / 5000. -/
theorem covered5_3 (i : S50000x64.Idx) :
    ∃ t : Fin cfg5.N, (cfg5.win 3).flush t = true ∧ i ∈ ((cfg5.win 3).blk t).view.set := by
  have hi0 : (i 0).val < 50000 := (i 0).isLt
  have hi1 : (i 1).val < 64 := (i 1).isLt
  have hN : cfg5.N = 10 := N_5
  have hlt : (i 0).val / 5000 < cfg5.N := by rw [hN]; omega
  obtain ⟨t, ht⟩ : ∃ t : Fin cfg5.N, t.val = (i 0).val / 5000 := ⟨⟨_, hlt⟩, rfl⟩
  obtain ⟨a0, a1, b0, b1, d0, d1, e0, e1⟩ := idxFacts5 t
  refine ⟨t, flush5_3 t, ?_⟩
  rw [memBlk5_3]
  intro a
  match a with
  | ⟨0, _⟩ =>
    show win5_3.index t (0 : Fin 2) * 5000 ≤ (i 0).val ∧ (i 0).val < win5_3.index t (0 : Fin 2) * 5000 + 5000
    omega
  | ⟨1, _⟩ =>
    show win5_3.index t (1 : Fin 2) * 64 ≤ (i 1).val ∧ (i 1).val < win5_3.index t (1 : Fin 2) * 64 + 64
    omega

/-- The output array after the last point is a + num / (den + eps) of the input arrays. -/
theorem final5_3 (c : Dev nD) : (dat5 V c).arrAt 3 cfg5.N = nodeUpdArr5 (V c main_v24 : S50000x64.Idx → EReal) (V c main_v40 : S50000x64.Idx → EReal) (V c main_v43 : S50000x64.Idx → EReal) :=
  (dat5 V c).arrAt_eq_of_cover 3 _ (fun t _ => flushed5_3_eq V c t) covered5_3

theorem final5_3_apply (c : Dev nD) (r : Fin 50000) (j : Fin 64) :
    ((dat5 (F := Ideal) V c).arrAt 3 cfg5.N : S50000x64.Idx → EReal) (ix2 r j) = Spec.nodeUpd (Ideal.ofBits .f32 0x358637BD#32) (V c main_v24 : S50000x64.Idx → EReal) (V c main_v40 : S50000x64.Idx → EReal) (V c main_v43 : S50000x64.Idx → EReal) r j := by
  rw [final5_3]; rfl

end Cert.KernelIdeal.Hand

end
-- ==== Proof.KI.Val6.lean ====
import proofs.«431450_j74423193305350_1_alg».proof.Proof.KI.Reg6
import proofs.«431450_j74423193305350_1_alg».proof.Proof.Spec
import Idealize.ShloMosaic.Lib.Pipeline.Value
import Idealize.ShloMosaic.Lib.ValueIdx
import Idealize.ShloMosaic.PureOps.Ideal.Laws

/-! Region 6 (batch normalisation, rectifier and residual on [50000,64]) at the extended reals: its output array after
    the last grid point, read at an entry, is res + max (((x − mean) · rsqrt (var + eps)) · g + b) 0 at that entry, the
    statistics and the affine pair read in their one row, eps and 0 the body's constant words. The two big windows move by
    the same row block of 5000 rows, the four one-row windows stay at their one block, and the 10 blocks tile the 50000 rows. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeroOff6 : (![0, 0] : Fin 2 → Nat) = fun _ => 0 := funext fun a => by fin_cases a <;> rfl

/-- res + max (((x − mean) · rsqrt (var + eps)) · g + b) 0, each array and each row read at its own index. -/
abbrev bnAt6 (x res : S50000x64.Idx → EReal) (mean var g b : S1x64.Idx → EReal) (i0 i1 : S50000x64.Idx) (k2 k3 k4 k5 : S1x64.Idx) : EReal :=
  res i1 + max ((((x i0 - mean k2) * Ideal.rsqrt (var k3 + (Ideal.ofBits .f32 0x3727C5AC#32))) * g k4) + b k5) (Ideal.ofBits .f32 0x00000000#32)

/-- The normalised residual step of two arrays and four rows, entry by entry. -/
abbrev bnArr6 (x res : S50000x64.Idx → EReal) (mean var g b : S1x64.Idx → EReal) : S50000x64.Idx → EReal := fun i =>
  bnAt6 x res mean var g b i i (ix2 0 (i 1)) (ix2 0 (i 1)) (ix2 0 (i 1)) (ix2 0 (i 1))

/-- A row broadcast down the block's rows, read at (p, q), is the row at (0, q). -/
theorem bcastRow6 (x : FVec Ideal S1x64 .f32) (p : Fin 5000) (q : Fin 64) :
    broadcastTo S5000x64 x broadcasts_S1x64_S5000x64 (ix2 p q) = x (ix2 0 q) :=
  broadcastTo_apply x broadcasts_S1x64_S5000x64 (ix2 p q) (ix2 0 q) (fun a => by
    match a with
    | ⟨0, _⟩ => rfl
    | ⟨1, _⟩ => rfl)

/-- The payload at (p, q): the body loads var first, then x, mean, g, b, res. -/
theorem pay6_apply (v0 : Vec Ideal S1x64 .f32) (v5 : Vec Ideal S5000x64 .f32) (v7 v13 v17 : Vec Ideal S1x64 .f32) (v21 : Vec Ideal S5000x64 .f32)
    (p : Fin 5000) (q : Fin 64) :
    k6_pay1 v0 v5 v7 v13 v17 v21 (ix2 p q)
      = v21 (ix2 p q) + max ((((v5 (ix2 p q) - v7 (ix2 0 q)) * Ideal.rsqrt (v0 (ix2 0 q) + (Ideal.ofBits .f32 0x3727C5AC#32))) * v13 (ix2 0 q)) + v17 (ix2 0 q)) (Ideal.ofBits .f32 0x00000000#32) := by
  unfold k6_pay1
  simp only [shapeCast_self]
  show v21 (ix2 p q) + max ((((v5 (ix2 p q) - broadcastTo S5000x64 v7 broadcasts_S1x64_S5000x64 (ix2 p q))
      * broadcastTo S5000x64 ((rsqrt (addf v0 (broadcast S1x64 (Scalar.ofBits .f32 0x3727C5AC#32))) : FVec Ideal S1x64 .f32)) broadcasts_S1x64_S5000x64 (ix2 p q))
      * broadcastTo S5000x64 v13 broadcasts_S1x64_S5000x64 (ix2 p q)) + broadcastTo S5000x64 v17 broadcasts_S1x64_S5000x64 (ix2 p q)) (Ideal.ofBits .f32 0x00000000#32) = _
  rw [bcastRow6 v7, bcastRow6 v13, bcastRow6 v17, bcastRow6 ((rsqrt (addf v0 (broadcast S1x64 (Scalar.ofBits .f32 0x3727C5AC#32))) : FVec Ideal S1x64 .f32))]
  rfl

/-- The printed index maps, decided over the grid: the two big inputs and the output are at row block t, column block 0; the
    four one-row windows at block (0, 0). -/
theorem idxFacts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- Row p of block t is a row of the array. -/
theorem rowLt6 (t : Fin cfg6.N) (p : Fin 5000) : t.val * 5000 + p.val < 50000 := by
  have ht : t.val < 10 := Nat.lt_of_lt_of_eq t.isLt N_6
  have hp := p.isLt
  omega

/-! Entry (p, q) of a big window's block at point t is entry (5000 t + p, q) of its array; entry (0, q) of a one-row
    window's block is entry (0, q) of its array. -/

theorem embBig6_0 (t : Fin cfg6.N) (p : Fin 5000) (q : Fin 64) :
    ((cfg6.win 0).blk t).view.emb (ix2 p q : S5000x64.Idx) = (ix2 ⟨t.val * 5000 + p.val, rowLt6 t p⟩ q : S50000x64.Idx) := by
  obtain ⟨a0, a1, b0, b1, d0, d1, e0, e1, f0, f1, g0, g1, h0, h1⟩ := idxFacts6 t
  funext a; apply Fin.ext
  match a with
  | ⟨0, _⟩ => show win6_0.index t (0 : Fin 2) * 5000 + 1 * p.val = t.val * 5000 + p.val; omega
  | ⟨1, _⟩ => show win6_0.index t (1 : Fin 2) * 64 + 1 * q.val = q.val; omega

theorem embBig6_1 (t : Fin cfg6.N) (p : Fin 5000) (q : Fin 64) :
    ((cfg6.win 1).blk t).view.emb (ix2 p q : S5000x64.Idx) = (ix2 ⟨t.val * 5000 + p.val, rowLt6 t p⟩ q : S50000x64.Idx) := by
  obtain ⟨a0, a1, b0, b1, d0, d1, e0, e1, f0, f1, g0, g1, h0, h1⟩ := idxFacts6 t
  funext a; apply Fin.ext
  match a with
  | ⟨0, _⟩ => show win6_1.index t (0 : Fin 2) * 5000 + 1 * p.val = t.val * 5000 + p.val; omega
  | ⟨1, _⟩ => show win6_1.index t (1 : Fin 2) * 64 + 1 * q.val = q.val; omega

theorem embBig6_6 (t : Fin cfg6.N) (p : Fin 5000) (q : Fin 64) :
    ((cfg6.win 6).blk t).view.emb (ix2 p q : S5000x64.Idx) = (ix2 ⟨t.val * 5000 + p.val, rowLt6 t p⟩ q : S50000x64.Idx) := by
  obtain ⟨a0, a1, b0, b1, d0, d1, e0, e1, f0, f1, g0, g1, h0, h1⟩ := idxFacts6 t
  funext a; apply Fin.ext
  match a with
  | ⟨0, _⟩ => show win6_6.index t (0 : Fin 2) * 5000 + 1 * p.val = t.val * 5000 + p.val; omega
  | ⟨1, _⟩ => show win6_6.index t (1 : Fin 2) * 64 + 1 * q.val = q.val; omega

theorem embRow6_2 (t : Fin cfg6.N) (q : Fin 64) :
    ((cfg6.win 2).blk t).view.emb (ix2 0 q : S1x64.Idx) = (ix2 0 q : S1x64.Idx) := by
  obtain ⟨a0, a1, b0, b1, d0, d1, e0, e1, f0, f1, g0, g1, h0, h1⟩ := idxFacts6 t
  funext a; apply Fin.ext
  match a with
  | ⟨0, _⟩ => show win6_2.index t (0 : Fin 2) * 1 + 1 * 0 = 0; omega
  | ⟨1, _⟩ => show win6_2.index t (1 : Fin 2) * 64 + 1 * q.val = q.val; omega

theorem embRow6_3 (t : Fin cfg6.N) (q : Fin 64) :
    ((cfg6.win 3).blk t).view.emb (ix2 0 q : S1x64.Idx) = (ix2 0 q : S1x64.Idx) := by
  obtain ⟨a0, a1, b0, b1, d0, d1, e0, e1, f0, f1, g0, g1, h0, h1⟩ := idxFacts6 t
  funext a; apply Fin.ext
  match a with
  | ⟨0, _⟩ => show win6_3.index t (0 : Fin 2) * 1 + 1 * 0 = 0; omega
  | ⟨1, _⟩ => show win6_3.index t (1 : Fin 2) * 64 + 1 * q.val = q.val; omega

theorem embRow6_4 (t : Fin cfg6.N) (q : Fin 64) :
    ((cfg6.win 4).blk t).view.emb (ix2 0 q : S1x64.Idx) = (ix2 0 q : S1x64.Idx) := by
  obtain ⟨a0, a1, b0, b1, d0, d1, e0, e1, f0, f1, g0, g1, h0, h1⟩ := idxFacts6 t
  funext a; apply Fin.ext
  match a with
  | ⟨0, _⟩ => show win6_4.index t (0 : Fin 2) * 1 + 1 * 0 = 0; omega
  | ⟨1, _⟩ => show win6_4.index t (1 : Fin 2) * 64 + 1 * q.val = q.val; omega

theorem embRow6_5 (t : Fin cfg6.N) (q : Fin 64) :
    ((cfg6.win 5).blk t).view.emb (ix2 0 q : S1x64.Idx) = (ix2 0 q : S1x64.Idx) := by
  obtain ⟨a0, a1, b0, b1, d0, d1, e0, e1, f0, f1, g0, g1, h0, h1⟩ := idxFacts6 t
  funext a; apply Fin.ext
  match a with
  | ⟨0, _⟩ => show win6_5.index t (0 : Fin 2) * 1 + 1 * 0 = 0; omega
  | ⟨1, _⟩ => show win6_5.index t (1 : Fin 2) * 64 + 1 * q.val = q.val; omega

/-- The payload of the input blocks at point t, at (p, q), is the step's value at the array entry that (p, q) of block t is. -/
theorem blkVal6 (c : Dev nD) (t : Fin cfg6.N) (p : Fin 5000) (q : Fin 64) :
    k6_pay1 (iblk6 V c 3 t) (iblk6 V c 0 t) (iblk6 V c 2 t) (iblk6 V c 4 t) (iblk6 V c 5 t) (iblk6 V c 1 t) (ix2 p q)
      = bnArr6 (V c main_v44 : S50000x64.Idx → EReal) (V c main_v1 : S50000x64.Idx → EReal) (V c main_v53 : S1x64.Idx → EReal) (V c main_v54 : S1x64.Idx → EReal) (V c main_v55 : S1x64.Idx → EReal) (V c main_v56 : S1x64.Idx → EReal) (((cfg6.win 6).blk t).view.emb (ix2 p q : S5000x64.Idx)) := by
  refine (pay6_apply _ _ _ _ _ _ p q).trans ?_
  show bnAt6 (V c main_v44 : S50000x64.Idx → EReal) (V c main_v1 : S50000x64.Idx → EReal) (V c main_v53 : S1x64.Idx → EReal) (V c main_v54 : S1x64.Idx → EReal) (V c main_v55 : S1x64.Idx → EReal) (V c main_v56 : S1x64.Idx → EReal) (((cfg6.win 0).blk t).view.emb (ix2 p q : S5000x64.Idx)) (((cfg6.win 1).blk t).view.emb (ix2 p q : S5000x64.Idx)) (((cfg6.win 2).blk t).view.emb (ix2 0 q : S1x64.Idx)) (((cfg6.win 3).blk t).view.emb (ix2 0 q : S1x64.Idx)) (((cfg6.win 4).blk t).view.emb (ix2 0 q : S1x64.Idx)) (((cfg6.win 5).blk t).view.emb (ix2 0 q : S1x64.Idx)) = _
  rw [embBig6_0 t p q, embBig6_1 t p q, embBig6_6 t p q, embRow6_2 t q, embRow6_3 t q, embRow6_4 t q, embRow6_5 t q]

/-- What point t writes back is block t of the step's array. -/
theorem flushed6_6_eq (c : Dev nD) (t : Fin cfg6.N) :
    (dat6 V c).flushed 6 t = ((cfg6.win 6).blk t).view.read (Elt Ideal) (bnArr6 (V c main_v44 : S50000x64.Idx → EReal) (V c main_v1 : S50000x64.Idx → EReal) (V c main_v53 : S1x64.Idx → EReal) (V c main_v54 : S1x64.Idx → EReal) (V c main_v55 : S1x64.Idx → EReal) (V c main_v56 : S1x64.Idx → EReal)) := by
  show (cfg6.win 6).cut (grid6.coords t) ((dat6 V c).after 6 t) = _
  rw [after6_6]
  unfold out6_6
  rw [View.canon_unit_zero zeroOff6]
  simp only [View.ld_unit_zero (S := S5000x64) zeroOff6, View.ld_unit_zero (S := S1x64) zeroOff6]
  funext y
  obtain ⟨p, q, rfl⟩ : ∃ (p : Fin 5000) (q : Fin 64), y = (ix2 p q : S5000x64.Idx) := ⟨y 0, y 1, eq_ix2 y⟩
  exact blkVal6 V c t p q

/-- An index of the output array is in point t's block iff each coordinate is in the block's range on its axis. -/
theorem memBlk6_6 (t : Fin cfg6.N) (i : S50000x64.Idx) :
    i ∈ ((cfg6.win 6).blk t).view.set ↔ ∀ a : Fin 2, win6_6.index t a * S5000x64.size a ≤ (i a).val ∧ (i a).val < win6_6.index t a * S5000x64.size a + S5000x64.size a := by
  show i ∈ ((View.whole main_v57).slice (win6_6.rect t)).set ↔ _
  rw [View.set_slice_whole, Rect.mem_set_unit]
  exact Iff.rfl

/-- Every index of the output array is in the block of the point its row falls in: row r is in block r / 5000. -/
theorem covered6_6 (i : S50000x64.Idx) :
    ∃ t : Fin cfg6.N, (cfg6.win 6).flush t = true ∧ i ∈ ((cfg6.win 6).blk t).view.set := by
  have hi0 : (i 0).val < 50000 := (i 0).isLt
  have hi1 : (i 1).val < 64 := (i 1).isLt
  have hN : cfg6.N = 10 := N_6
  have hlt : (i 0).val / 5000 < cfg6.N := by rw [hN]; omega
  obtain ⟨t, ht⟩ : ∃ t : Fin cfg6.N, t.val = (i 0).val / 5000 := ⟨⟨_, hlt⟩, rfl⟩
  obtain ⟨a0, a1, b0, b1, d0, d1, e0, e1, f0, f1, g0, g1, h0, h1⟩ := idxFacts6 t
  refine ⟨t, flush6_6 t, ?_⟩
  rw [memBlk6_6]
  intro a
  match a with
  | ⟨0, _⟩ =>
    show win6_6.index t (0 : Fin 2) * 5000 ≤ (i 0).val ∧ (i 0).val < win6_6.index t (0 : Fin 2) * 5000 + 5000
    omega
  | ⟨1, _⟩ =>
    show win6_6.index t (1 : Fin 2) * 64 ≤ (i 1).val ∧ (i 1).val < win6_6.index t (1 : Fin 2) * 64 + 64
    omega

/-- The output array after the last point is the step's array. -/
theorem final6_6 (c : Dev nD) : (dat6 V c).arrAt 6 cfg6.N = bnArr6 (V c main_v44 : S50000x64.Idx → EReal) (V c main_v1 : S50000x64.Idx → EReal) (V c main_v53 : S1x64.Idx → EReal) (V c main_v54 : S1x64.Idx → EReal) (V c main_v55 : S1x64.Idx → EReal) (V c main_v56 : S1x64.Idx → EReal) :=
  (dat6 V c).arrAt_eq_of_cover 6 _ (fun t _ => flushed6_6_eq V c t) covered6_6

theorem final6_6_apply (c : Dev nD) (r : Fin 50000) (j : Fin 64) :
    ((dat6 (F := Ideal) V c).arrAt 6 cfg6.N : S50000x64.Idx → EReal) (ix2 r j)
      = Spec.bnRelu (Ideal.ofBits .f32 0x3727C5AC#32) (Ideal.ofBits .f32 0x00000000#32) (V c main_v44 : S50000x64.Idx → EReal) (V c main_v1 : S50000x64.Idx → EReal) (V c main_v53 : S1x64.Idx → EReal) (V c main_v54 : S1x64.Idx → EReal) (V c main_v55 : S1x64.Idx → EReal) (V c main_v56 : S1x64.Idx → EReal) r j := by
  rw [final6_6]; rfl

end Cert.KernelIdeal.Hand

end
-- ==== Proof.KI.Val7.lean ====
import proofs.«431450_j74423193305350_1_alg».proof.Proof.KI.Reg7
import proofs.«431450_j74423193305350_1_alg».proof.Proof.Spec
import Idealize.ShloMosaic.Lib.Pipeline.Value
import Idealize.ShloMosaic.Lib.ValueIdx
import Idealize.ShloMosaic.PureOps.Ideal.Laws

/-! Region 7 (batch normalisation, rectifier and residual on [400000,64]) at the extended reals: its output array after
    the last grid point, read at an entry, is res + max (((x − mean) · rsqrt (var + eps)) · g + b) 0 at that entry, the
    statistics and the affine pair read in their one row, eps and 0 the body's constant words. The two big windows move by
    the same row block of 4000 rows, the four one-row windows stay at their one block, and the 100 blocks tile the 400000 rows. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeroOff7 : (![0, 0] : Fin 2 → Nat) = fun _ => 0 := funext fun a => by fin_cases a <;> rfl

/-- res + max (((x − mean) · rsqrt (var + eps)) · g + b) 0, each array and each row read at its own index. -/
abbrev bnAt7 (x res : S400000x64.Idx → EReal) (mean var g b : S1x64.Idx → EReal) (i0 i1 : S400000x64.Idx) (k2 k3 k4 k5 : S1x64.Idx) : EReal :=
  res i1 + max ((((x i0 - mean k2) * Ideal.rsqrt (var k3 + (Ideal.ofBits .f32 0x3727C5AC#32))) * g k4) + b k5) (Ideal.ofBits .f32 0x00000000#32)

/-- The normalised residual step of two arrays and four rows, entry by entry. -/
abbrev bnArr7 (x res : S400000x64.Idx → EReal) (mean var g b : S1x64.Idx → EReal) : S400000x64.Idx → EReal := fun i =>
  bnAt7 x res mean var g b i i (ix2 0 (i 1)) (ix2 0 (i 1)) (ix2 0 (i 1)) (ix2 0 (i 1))

/-- A row broadcast down the block's rows, read at (p, q), is the row at (0, q). -/
theorem bcastRow7 (x : FVec Ideal S1x64 .f32) (p : Fin 4000) (q : Fin 64) :
    broadcastTo S4000x64 x broadcasts_S1x64_S4000x64 (ix2 p q) = x (ix2 0 q) :=
  broadcastTo_apply x broadcasts_S1x64_S4000x64 (ix2 p q) (ix2 0 q) (fun a => by
    match a with
    | ⟨0, _⟩ => rfl
    | ⟨1, _⟩ => rfl)

/-- The payload at (p, q): the body loads var first, then x, mean, g, b, res. -/
theorem pay7_apply (v0 : Vec Ideal S1x64 .f32) (v5 : Vec Ideal S4000x64 .f32) (v7 v13 v17 : Vec Ideal S1x64 .f32) (v21 : Vec Ideal S4000x64 .f32)
    (p : Fin 4000) (q : Fin 64) :
    k7_pay1 v0 v5 v7 v13 v17 v21 (ix2 p q)
      = v21 (ix2 p q) + max ((((v5 (ix2 p q) - v7 (ix2 0 q)) * Ideal.rsqrt (v0 (ix2 0 q) + (Ideal.ofBits .f32 0x3727C5AC#32))) * v13 (ix2 0 q)) + v17 (ix2 0 q)) (Ideal.ofBits .f32 0x00000000#32) := by
  unfold k7_pay1
  simp only [shapeCast_self]
  show v21 (ix2 p q) + max ((((v5 (ix2 p q) - broadcastTo S4000x64 v7 broadcasts_S1x64_S4000x64 (ix2 p q))
      * broadcastTo S4000x64 ((rsqrt (addf v0 (broadcast S1x64 (Scalar.ofBits .f32 0x3727C5AC#32))) : FVec Ideal S1x64 .f32)) broadcasts_S1x64_S4000x64 (ix2 p q))
      * broadcastTo S4000x64 v13 broadcasts_S1x64_S4000x64 (ix2 p q)) + broadcastTo S4000x64 v17 broadcasts_S1x64_S4000x64 (ix2 p q)) (Ideal.ofBits .f32 0x00000000#32) = _
  rw [bcastRow7 v7, bcastRow7 v13, bcastRow7 v17, bcastRow7 ((rsqrt (addf v0 (broadcast S1x64 (Scalar.ofBits .f32 0x3727C5AC#32))) : FVec Ideal S1x64 .f32))]
  rfl

/-- The printed index maps, decided over the grid: the two big inputs and the output are at row block t, column block 0; the
    four one-row windows at block (0, 0). -/
theorem idxFacts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- Row p of block t is a row of the array. -/
theorem rowLt7 (t : Fin cfg7.N) (p : Fin 4000) : t.val * 4000 + p.val < 400000 := by
  have ht : t.val < 100 := Nat.lt_of_lt_of_eq t.isLt N_7
  have hp := p.isLt
  omega

/-! Entry (p, q) of a big window's block at point t is entry (4000 t + p, q) of its array; entry (0, q) of a one-row
    window's block is entry (0, q) of its array. -/

theorem embBig7_0 (t : Fin cfg7.N) (p : Fin 4000) (q : Fin 64) :
    ((cfg7.win 0).blk t).view.emb (ix2 p q : S4000x64.Idx) = (ix2 ⟨t.val * 4000 + p.val, rowLt7 t p⟩ q : S400000x64.Idx) := by
  obtain ⟨a0, a1, b0, b1, d0, d1, e0, e1, f0, f1, g0, g1, h0, h1⟩ := idxFacts7 t
  funext a; apply Fin.ext
  match a with
  | ⟨0, _⟩ => show win7_0.index t (0 : Fin 2) * 4000 + 1 * p.val = t.val * 4000 + p.val; omega
  | ⟨1, _⟩ => show win7_0.index t (1 : Fin 2) * 64 + 1 * q.val = q.val; omega

theorem embBig7_1 (t : Fin cfg7.N) (p : Fin 4000) (q : Fin 64) :
    ((cfg7.win 1).blk t).view.emb (ix2 p q : S4000x64.Idx) = (ix2 ⟨t.val * 4000 + p.val, rowLt7 t p⟩ q : S400000x64.Idx) := by
  obtain ⟨a0, a1, b0, b1, d0, d1, e0, e1, f0, f1, g0, g1, h0, h1⟩ := idxFacts7 t
  funext a; apply Fin.ext
  match a with
  | ⟨0, _⟩ => show win7_1.index t (0 : Fin 2) * 4000 + 1 * p.val = t.val * 4000 + p.val; omega
  | ⟨1, _⟩ => show win7_1.index t (1 : Fin 2) * 64 + 1 * q.val = q.val; omega

theorem embBig7_6 (t : Fin cfg7.N) (p : Fin 4000) (q : Fin 64) :
    ((cfg7.win 6).blk t).view.emb (ix2 p q : S4000x64.Idx) = (ix2 ⟨t.val * 4000 + p.val, rowLt7 t p⟩ q : S400000x64.Idx) := by
  obtain ⟨a0, a1, b0, b1, d0, d1, e0, e1, f0, f1, g0, g1, h0, h1⟩ := idxFacts7 t
  funext a; apply Fin.ext
  match a with
  | ⟨0, _⟩ => show win7_6.index t (0 : Fin 2) * 4000 + 1 * p.val = t.val * 4000 + p.val; omega
  | ⟨1, _⟩ => show win7_6.index t (1 : Fin 2) * 64 + 1 * q.val = q.val; omega

theorem embRow7_2 (t : Fin cfg7.N) (q : Fin 64) :
    ((cfg7.win 2).blk t).view.emb (ix2 0 q : S1x64.Idx) = (ix2 0 q : S1x64.Idx) := by
  obtain ⟨a0, a1, b0, b1, d0, d1, e0, e1, f0, f1, g0, g1, h0, h1⟩ := idxFacts7 t
  funext a; apply Fin.ext
  match a with
  | ⟨0, _⟩ => show win7_2.index t (0 : Fin 2) * 1 + 1 * 0 = 0; omega
  | ⟨1, _⟩ => show win7_2.index t (1 : Fin 2) * 64 + 1 * q.val = q.val; omega

theorem embRow7_3 (t : Fin cfg7.N) (q : Fin 64) :
    ((cfg7.win 3).blk t).view.emb (ix2 0 q : S1x64.Idx) = (ix2 0 q : S1x64.Idx) := by
  obtain ⟨a0, a1, b0, b1, d0, d1, e0, e1, f0, f1, g0, g1, h0, h1⟩ := idxFacts7 t
  funext a; apply Fin.ext
  match a with
  | ⟨0, _⟩ => show win7_3.index t (0 : Fin 2) * 1 + 1 * 0 = 0; omega
  | ⟨1, _⟩ => show win7_3.index t (1 : Fin 2) * 64 + 1 * q.val = q.val; omega

theorem embRow7_4 (t : Fin cfg7.N) (q : Fin 64) :
    ((cfg7.win 4).blk t).view.emb (ix2 0 q : S1x64.Idx) = (ix2 0 q : S1x64.Idx) := by
  obtain ⟨a0, a1, b0, b1, d0, d1, e0, e1, f0, f1, g0, g1, h0, h1⟩ := idxFacts7 t
  funext a; apply Fin.ext
  match a with
  | ⟨0, _⟩ => show win7_4.index t (0 : Fin 2) * 1 + 1 * 0 = 0; omega
  | ⟨1, _⟩ => show win7_4.index t (1 : Fin 2) * 64 + 1 * q.val = q.val; omega

theorem embRow7_5 (t : Fin cfg7.N) (q : Fin 64) :
    ((cfg7.win 5).blk t).view.emb (ix2 0 q : S1x64.Idx) = (ix2 0 q : S1x64.Idx) := by
  obtain ⟨a0, a1, b0, b1, d0, d1, e0, e1, f0, f1, g0, g1, h0, h1⟩ := idxFacts7 t
  funext a; apply Fin.ext
  match a with
  | ⟨0, _⟩ => show win7_5.index t (0 : Fin 2) * 1 + 1 * 0 = 0; omega
  | ⟨1, _⟩ => show win7_5.index t (1 : Fin 2) * 64 + 1 * q.val = q.val; omega

/-- The payload of the input blocks at point t, at (p, q), is the step's value at the array entry that (p, q) of block t is. -/
theorem blkVal7 (c : Dev nD) (t : Fin cfg7.N) (p : Fin 4000) (q : Fin 64) :
    k7_pay1 (iblk7 V c 3 t) (iblk7 V c 0 t) (iblk7 V c 2 t) (iblk7 V c 4 t) (iblk7 V c 5 t) (iblk7 V c 1 t) (ix2 p q)
      = bnArr7 (V c main_v37_0 : S400000x64.Idx → EReal) (V c main_v3 : S400000x64.Idx → EReal) (V c main_v66 : S1x64.Idx → EReal) (V c main_v67 : S1x64.Idx → EReal) (V c main_v68 : S1x64.Idx → EReal) (V c main_v69 : S1x64.Idx → EReal) (((cfg7.win 6).blk t).view.emb (ix2 p q : S4000x64.Idx)) := by
  refine (pay7_apply _ _ _ _ _ _ p q).trans ?_
  show bnAt7 (V c main_v37_0 : S400000x64.Idx → EReal) (V c main_v3 : S400000x64.Idx → EReal) (V c main_v66 : S1x64.Idx → EReal) (V c main_v67 : S1x64.Idx → EReal) (V c main_v68 : S1x64.Idx → EReal) (V c main_v69 : S1x64.Idx → EReal) (((cfg7.win 0).blk t).view.emb (ix2 p q : S4000x64.Idx)) (((cfg7.win 1).blk t).view.emb (ix2 p q : S4000x64.Idx)) (((cfg7.win 2).blk t).view.emb (ix2 0 q : S1x64.Idx)) (((cfg7.win 3).blk t).view.emb (ix2 0 q : S1x64.Idx)) (((cfg7.win 4).blk t).view.emb (ix2 0 q : S1x64.Idx)) (((cfg7.win 5).blk t).view.emb (ix2 0 q : S1x64.Idx)) = _
  rw [embBig7_0 t p q, embBig7_1 t p q, embBig7_6 t p q, embRow7_2 t q, embRow7_3 t q, embRow7_4 t q, embRow7_5 t q]

/-- What point t writes back is block t of the step's array. -/
theorem flushed7_6_eq (c : Dev nD) (t : Fin cfg7.N) :
    (dat7 V c).flushed 6 t = ((cfg7.win 6).blk t).view.read (Elt Ideal) (bnArr7 (V c main_v37_0 : S400000x64.Idx → EReal) (V c main_v3 : S400000x64.Idx → EReal) (V c main_v66 : S1x64.Idx → EReal) (V c main_v67 : S1x64.Idx → EReal) (V c main_v68 : S1x64.Idx → EReal) (V c main_v69 : S1x64.Idx → EReal)) := by
  show (cfg7.win 6).cut (grid7.coords t) ((dat7 V c).after 6 t) = _
  rw [after7_6]
  unfold out7_6
  rw [View.canon_unit_zero zeroOff7]
  simp only [View.ld_unit_zero (S := S4000x64) zeroOff7, View.ld_unit_zero (S := S1x64) zeroOff7]
  funext y
  obtain ⟨p, q, rfl⟩ : ∃ (p : Fin 4000) (q : Fin 64), y = (ix2 p q : S4000x64.Idx) := ⟨y 0, y 1, eq_ix2 y⟩
  exact blkVal7 V c t p q

/-- An index of the output array is in point t's block iff each coordinate is in the block's range on its axis. -/
theorem memBlk7_6 (t : Fin cfg7.N) (i : S400000x64.Idx) :
    i ∈ ((cfg7.win 6).blk t).view.set ↔ ∀ a : Fin 2, win7_6.index t a * S4000x64.size a ≤ (i a).val ∧ (i a).val < win7_6.index t a * S4000x64.size a + S4000x64.size a := by
  show i ∈ ((View.whole main_v70).slice (win7_6.rect t)).set ↔ _
  rw [View.set_slice_whole, Rect.mem_set_unit]
  exact Iff.rfl

/-- Every index of the output array is in the block of the point its row falls in: row r is in block r / 4000. -/
theorem covered7_6 (i : S400000x64.Idx) :
    ∃ t : Fin cfg7.N, (cfg7.win 6).flush t = true ∧ i ∈ ((cfg7.win 6).blk t).view.set := by
  have hi0 : (i 0).val < 400000 := (i 0).isLt
  have hi1 : (i 1).val < 64 := (i 1).isLt
  have hN : cfg7.N = 100 := N_7
  have hlt : (i 0).val / 4000 < cfg7.N := by rw [hN]; omega
  obtain ⟨t, ht⟩ : ∃ t : Fin cfg7.N, t.val = (i 0).val / 4000 := ⟨⟨_, hlt⟩, rfl⟩
  obtain ⟨a0, a1, b0, b1, d0, d1, e0, e1, f0, f1, g0, g1, h0, h1⟩ := idxFacts7 t
  refine ⟨t, flush7_6 t, ?_⟩
  rw [memBlk7_6]
  intro a
  match a with
  | ⟨0, _⟩ =>
    show win7_6.index t (0 : Fin 2) * 4000 ≤ (i 0).val ∧ (i 0).val < win7_6.index t (0 : Fin 2) * 4000 + 4000
    omega
  | ⟨1, _⟩ =>
    show win7_6.index t (1 : Fin 2) * 64 ≤ (i 1).val ∧ (i 1).val < win7_6.index t (1 : Fin 2) * 64 + 64
    omega

/-- The output array after the last point is the step's array. -/
theorem final7_6 (c : Dev nD) : (dat7 V c).arrAt 6 cfg7.N = bnArr7 (V c main_v37_0 : S400000x64.Idx → EReal) (V c main_v3 : S400000x64.Idx → EReal) (V c main_v66 : S1x64.Idx → EReal) (V c main_v67 : S1x64.Idx → EReal) (V c main_v68 : S1x64.Idx → EReal) (V c main_v69 : S1x64.Idx → EReal) :=
  (dat7 V c).arrAt_eq_of_cover 6 _ (fun t _ => flushed7_6_eq V c t) covered7_6

theorem final7_6_apply (c : Dev nD) (r : Fin 400000) (j : Fin 64) :
    ((dat7 (F := Ideal) V c).arrAt 6 cfg7.N : S400000x64.Idx → EReal) (ix2 r j)
      = Spec.bnRelu (Ideal.ofBits .f32 0x3727C5AC#32) (Ideal.ofBits .f32 0x00000000#32) (V c main_v37_0 : S400000x64.Idx → EReal) (V c main_v3 : S400000x64.Idx → EReal) (V c main_v66 : S1x64.Idx → EReal) (V c main_v67 : S1x64.Idx → EReal) (V c main_v68 : S1x64.Idx → EReal) (V c main_v69 : S1x64.Idx → EReal) r j := by
  rw [final7_6]; rfl

end Cert.KernelIdeal.Hand

end
-- ==== Proof.Ref.Form2.lean ====
import proofs.«431450_j74423193305350_1_alg».proof.ReferenceIdeal
import proofs.«431450_j74423193305350_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Cert.ReferenceIdeal Idealize.ShloMosaic Idealize.ShloMosaic.ValueIdx

variable [Facts₀]
open Facts₀

/-! ## Scalars spread over an array -/

/-- The word 1.0 is the extended real 1. -/
theorem ofBits_one_f32 : Ideal.ofBits .f32 0x3F800000#32 = 1 := by
  simp [Ideal.ofBits, Ideal.ieee, -EReal.coe_mul]; norm_num

/-- A scalar constant spread over an edge-sized array, at any entry: the constant. -/
theorem splat_edge_apply (e : BitVec 32) (r : Fin 400000) (j : Fin 64) :
    broadcastInDim S400000x64 ![] bcast_S_S400000x64 (constant (F := Ideal) S_ .f32 e) (ix2 r j) = Ideal.ofBits .f32 e := by
  rw [broadcastInDim_apply _ _ _ _ ix0 (fun a => a.elim0), constant_apply]

/-- A scalar constant spread over a node-sized array, at any entry: the constant. -/
theorem splat_node_apply (e : BitVec 32) (r : Fin 50000) (j : Fin 64) :
    broadcastInDim S50000x64 ![] bcast_S_S50000x64 (constant (F := Ideal) S_ .f32 e) (ix2 r j) = Ideal.ofBits .f32 e := by
  rw [broadcastInDim_apply _ _ _ _ ix0 (fun a => a.elim0), constant_apply]

/-- A scalar constant spread over a 64-vector, at any entry: the constant. -/
theorem splat_vec_apply (e : BitVec 32) (j : Fin 64) :
    broadcastInDim S64 ![] bcast_S_S64 (constant (F := Ideal) S_ .f32 e) (ix1 j) = Ideal.ofBits .f32 e := by
  rw [broadcastInDim_apply _ _ _ _ ix0 (fun a => a.elim0), constant_apply]

/-- A 64-vector broadcast to one row and then to every node row, at entry (r, j): the vector's entry j. -/
theorem rows_node_apply (bv : FVec Ideal S64 .f32) (r : Fin 50000) (j : Fin 64) :
    broadcastInDim S50000x64 ![0, 1] bcast_S1x64_S50000x64_0_1 (broadcastInDim S1x64 ![1] bcast_S64_S1x64_1 bv) (ix2 r j) = bv (ix1 j) := by
  rw [broadcastInDim_apply _ _ _ _ (ix2 (0 : Fin 1) j) (fun a => by
    match a with
    | ⟨0, _⟩ => rfl
    | ⟨1, _⟩ => rfl)]
  exact broadcastInDim_apply _ _ _ _ (ix1 j) (fun a => by
    match a with
    | ⟨0, _⟩ => rfl)

/-- A 64-vector broadcast to one row and then to every edge row, at entry (r, j): the vector's entry j. -/
theorem rows_edge_apply (bv : FVec Ideal S64 .f32) (r : Fin 400000) (j : Fin 64) :
    broadcastInDim S400000x64 ![0, 1] bcast_S1x64_S400000x64_0_1 (broadcastInDim S1x64 ![1] bcast_S64_S1x64_1 bv) (ix2 r j) = bv (ix1 j) := by
  rw [broadcastInDim_apply _ _ _ _ (ix2 (0 : Fin 1) j) (fun a => by
    match a with
    | ⟨0, _⟩ => rfl
    | ⟨1, _⟩ => rfl)]
  exact broadcastInDim_apply _ _ _ _ (ix1 j) (fun a => by
    match a with
    | ⟨0, _⟩ => rfl)

/-! ## The edge gate -/

/-- The three edge-sized summands added in the order (a + b) + c. -/
theorem gateArg_apply (a b c : FVec Ideal S400000x64 .f32) (r : Fin 400000) (j : Fin 64) :
    addf (addf a b) c (ix2 r j) = Spec.gateArg a b c r j := rfl

/-- 1 / (1 + exp (−z)), entry by entry, is the logistic function of z's entry. -/
theorem logistic_edge_apply (z : FVec Ideal S400000x64 .f32) (r : Fin 400000) (j : Fin 64) :
    Host.divf (broadcastInDim S400000x64 ![] bcast_S_S400000x64 (constant (F := Ideal) S_ .f32 0x3F800000#32))
      (addf (broadcastInDim S400000x64 ![] bcast_S_S400000x64 (constant (F := Ideal) S_ .f32 0x3F800000#32))
        (Host.exp (Host.negf z))) (ix2 r j) = Ideal.logistic (z (ix2 r j)) := by
  show Ideal.div (broadcastInDim S400000x64 ![] bcast_S_S400000x64 (constant (F := Ideal) S_ .f32 0x3F800000#32) (ix2 r j))
    (broadcastInDim S400000x64 ![] bcast_S_S400000x64 (constant (F := Ideal) S_ .f32 0x3F800000#32) (ix2 r j)
      + Ideal.exp (-(z (ix2 r j)))) = _
  rw [splat_edge_apply, ofBits_one_f32]
  rfl

/-- The gate: the logistic function of (a + b) + c. -/
theorem gate_apply (a b c : FVec Ideal S400000x64 .f32) (r : Fin 400000) (j : Fin 64) :
    Host.divf (broadcastInDim S400000x64 ![] bcast_S_S400000x64 (constant (F := Ideal) S_ .f32 0x3F800000#32))
      (addf (broadcastInDim S400000x64 ![] bcast_S_S400000x64 (constant (F := Ideal) S_ .f32 0x3F800000#32))
        (Host.exp (Host.negf (addf (addf a b) c)))) (ix2 r j) = Spec.gate a b c r j := by
  rw [logistic_edge_apply]
  rfl

/-- The gated message: the gate times the sender's entry. -/
theorem gated_apply (a b c d : FVec Ideal S400000x64 .f32) (r : Fin 400000) (j : Fin 64) :
    mulf (Host.divf (broadcastInDim S400000x64 ![] bcast_S_S400000x64 (constant (F := Ideal) S_ .f32 0x3F800000#32))
      (addf (broadcastInDim S400000x64 ![] bcast_S_S400000x64 (constant (F := Ideal) S_ .f32 0x3F800000#32))
        (Host.exp (Host.negf (addf (addf a b) c))))) d (ix2 r j) = Spec.gated a b c d r j := by
  rw [mulf_apply, gate_apply]
  rfl

/-! ## The node update -/

/-- a + num / (den + eps), the constant eps spread over the array. -/
theorem nodeUpd_apply (e : BitVec 32) (a num den : FVec Ideal S50000x64 .f32) (r : Fin 50000) (j : Fin 64) :
    addf a (Host.divf num (addf den (broadcastInDim S50000x64 ![] bcast_S_S50000x64 (constant (F := Ideal) S_ .f32 e)))) (ix2 r j)
      = Spec.nodeUpd (Ideal.ofBits .f32 e) a num den r j := by
  show a (ix2 r j) + Ideal.div (num (ix2 r j))
    (den (ix2 r j) + broadcastInDim S50000x64 ![] bcast_S_S50000x64 (constant (F := Ideal) S_ .f32 e) (ix2 r j)) = _
  rw [splat_node_apply]
  rfl

/-! ## The normalised residual step -/

/-- The reciprocal square root of a 64-vector plus a spread constant, at entry j. -/
theorem rsqrt_vec_apply (e : BitVec 32) (v : FVec Ideal S64 .f32) (j : Fin 64) :
    Host.rsqrt (addf v (broadcastInDim S64 ![] bcast_S_S64 (constant (F := Ideal) S_ .f32 e))) (ix1 j)
      = Ideal.rsqrt (v (ix1 j) + Ideal.ofBits .f32 e) := by
  show Ideal.rsqrt (v (ix1 j) + broadcastInDim S64 ![] bcast_S_S64 (constant (F := Ideal) S_ .f32 e) (ix1 j)) = _
  rw [splat_vec_apply]

/-- The node side: res + max (((x − mean) · rsqrt (var + eps)) · g + b) 0, the statistics, gain and bias 64-vectors
    broadcast to every row. -/
theorem bnRelu_node_apply (e z : BitVec 32) (x res : FVec Ideal S50000x64 .f32) (m v g b : FVec Ideal S64 .f32) (r : Fin 50000) (j : Fin 64) :
    addf res (maximumf
      (addf (mulf (mulf (subf x (broadcastInDim S50000x64 ![0, 1] bcast_S1x64_S50000x64_0_1 (broadcastInDim S1x64 ![1] bcast_S64_S1x64_1 m)))
          (broadcastInDim S50000x64 ![0, 1] bcast_S1x64_S50000x64_0_1 (broadcastInDim S1x64 ![1] bcast_S64_S1x64_1
            (Host.rsqrt (addf v (broadcastInDim S64 ![] bcast_S_S64 (constant (F := Ideal) S_ .f32 e)))))))
          (broadcastInDim S50000x64 ![0, 1] bcast_S1x64_S50000x64_0_1 (broadcastInDim S1x64 ![1] bcast_S64_S1x64_1 g)))
        (broadcastInDim S50000x64 ![0, 1] bcast_S1x64_S50000x64_0_1 (broadcastInDim S1x64 ![1] bcast_S64_S1x64_1 b)))
      (broadcastInDim S50000x64 ![] bcast_S_S50000x64 (constant (F := Ideal) S_ .f32 z))) (ix2 r j)
      = Spec.bnRelu (Ideal.ofBits .f32 e) (Ideal.ofBits .f32 z) x res (fun i => m (ix1 (i 1))) (fun i => v (ix1 (i 1)))
          (fun i => g (ix1 (i 1))) (fun i => b (ix1 (i 1))) r j := by
  rw [addf_apply, maximumf_apply, addf_apply, mulf_apply, mulf_apply, subf_apply, rows_node_apply, rows_node_apply, rows_node_apply,
    rows_node_apply, rsqrt_vec_apply, splat_node_apply]
  rfl

/-- The edge side: the same step over the edge-sized arrays. -/
theorem bnRelu_edge_apply (e z : BitVec 32) (x res : FVec Ideal S400000x64 .f32) (m v g b : FVec Ideal S64 .f32) (r : Fin 400000) (j : Fin 64) :
    addf res (maximumf
      (addf (mulf (mulf (subf x (broadcastInDim S400000x64 ![0, 1] bcast_S1x64_S400000x64_0_1 (broadcastInDim S1x64 ![1] bcast_S64_S1x64_1 m)))
          (broadcastInDim S400000x64 ![0, 1] bcast_S1x64_S400000x64_0_1 (broadcastInDim S1x64 ![1] bcast_S64_S1x64_1
            (Host.rsqrt (addf v (broadcastInDim S64 ![] bcast_S_S64 (constant (F := Ideal) S_ .f32 e)))))))
          (broadcastInDim S400000x64 ![0, 1] bcast_S1x64_S400000x64_0_1 (broadcastInDim S1x64 ![1] bcast_S64_S1x64_1 g)))
        (broadcastInDim S400000x64 ![0, 1] bcast_S1x64_S400000x64_0_1 (broadcastInDim S1x64 ![1] bcast_S64_S1x64_1 b)))
      (broadcastInDim S400000x64 ![] bcast_S_S400000x64 (constant (F := Ideal) S_ .f32 z))) (ix2 r j)
      = Spec.bnRelu (Ideal.ofBits .f32 e) (Ideal.ofBits .f32 z) x res (fun i => m (ix1 (i 1))) (fun i => v (ix1 (i 1)))
          (fun i => g (ix1 (i 1))) (fun i => b (ix1 (i 1))) r j := by
  rw [addf_apply, maximumf_apply, addf_apply, mulf_apply, mulf_apply, subf_apply, rows_edge_apply, rows_edge_apply, rows_edge_apply,
    rows_edge_apply, rsqrt_vec_apply, splat_edge_apply]
  rfl

end Cert.ReferenceIdeal.Hand

end
-- ==== Proof.Sim.Elem1.lean ====
import proofs.«431450_j74423193305350_1_alg».proof.Proof.KI.Seg4
import proofs.«431450_j74423193305350_1_alg».proof.Proof.KI.Seg5
import proofs.«431450_j74423193305350_1_alg».proof.Proof.KI.Seg6
import proofs.«431450_j74423193305350_1_alg».proof.Proof.KI.Seg7
import proofs.«431450_j74423193305350_1_alg».proof.Proof.KI.Val4
import proofs.«431450_j74423193305350_1_alg».proof.Proof.KI.Val5
import proofs.«431450_j74423193305350_1_alg».proof.Proof.KI.Val6
import proofs.«431450_j74423193305350_1_alg».proof.Proof.KI.Val7
import proofs.«431450_j74423193305350_1_alg».proof.Proof.Ref.RdL1
import proofs.«431450_j74423193305350_1_alg».proof.Proof.Ref.Form2
import proofs.«431450_j74423193305350_1_alg».proof.Proof.Spec

/-! Layer 1's entrywise steps, kernel against reference: the edge gate (its argument, the gate, the gated message), the
    node update, and the two normalised residual steps. Each side's array is read at an entry as the layer formula of
    the arrays it is computed from; equal inputs then give equal outputs. -/
set_option maxRecDepth 16384

noncomputable section

namespace Cert.Sim

open Cert.KernelIdeal.Hand Cert.ReferenceIdeal.Hand
open Idealize.ShloMosaic Idealize.ShloMosaic.ValueIdx Idealize.ShloMosaic.StableHlo
open Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-! ## The formulas respect equality of their arrays -/

/-- The normalised residual step of equal arrays, the statistics and the affine pair equal row entry by row entry. -/
theorem bnRelu_congr {n k : Nat} (eps zero : EReal) {x x' res res' : Spec.Mat n k} {mean mean' var var' g g' b b' : Spec.Mat 1 k}
    (hx : x = x') (hres : res = res') (hmean : ∀ j : Fin k, mean (ix2 0 j) = mean' (ix2 0 j))
    (hvar : ∀ j : Fin k, var (ix2 0 j) = var' (ix2 0 j)) (hg : ∀ j : Fin k, g (ix2 0 j) = g' (ix2 0 j))
    (hb : ∀ j : Fin k, b (ix2 0 j) = b' (ix2 0 j)) (r : Fin n) (j : Fin k) :
    Spec.bnRelu eps zero x res mean var g b r j = Spec.bnRelu eps zero x' res' mean' var' g' b' r j := by
  unfold Spec.bnRelu
  rw [hx, hres, hmean j, hvar j, hg j, hb j]

/-! ## The kernel's arrays at an entry -/

theorem k_gateArg (r : Fin 400000) (j : Fin 64) :
    (T12 m c Cert.KernelIdeal.main_v37_0 : Spec.Mat 400000 64) (ix2 r j)
      = Spec.gateArg (T11 m c Cert.KernelIdeal.main_v34 : Spec.Mat 400000 64) (T11 m c Cert.KernelIdeal.main_v35 : Spec.Mat 400000 64) (T11 m c Cert.KernelIdeal.main_v33 : Spec.Mat 400000 64) r j :=
  (congrFun ((hF4 m c 4).symm : (T12 m c Cert.KernelIdeal.main_v37_0 : Spec.Mat 400000 64) = _) (ix2 r j)).trans (final4_4_apply (T11 m) c r j)

theorem k_gate (r : Fin 400000) (j : Fin 64) :
    (T12 m c Cert.KernelIdeal.main_v37_1 : Spec.Mat 400000 64) (ix2 r j)
      = Spec.gate (T11 m c Cert.KernelIdeal.main_v34 : Spec.Mat 400000 64) (T11 m c Cert.KernelIdeal.main_v35 : Spec.Mat 400000 64) (T11 m c Cert.KernelIdeal.main_v33 : Spec.Mat 400000 64) r j :=
  (congrFun ((hF4 m c 5).symm : (T12 m c Cert.KernelIdeal.main_v37_1 : Spec.Mat 400000 64) = _) (ix2 r j)).trans (final4_5_apply (T11 m) c r j)

theorem k_gated (r : Fin 400000) (j : Fin 64) :
    (T12 m c Cert.KernelIdeal.main_v37_2 : Spec.Mat 400000 64) (ix2 r j)
      = Spec.gated (T11 m c Cert.KernelIdeal.main_v34 : Spec.Mat 400000 64) (T11 m c Cert.KernelIdeal.main_v35 : Spec.Mat 400000 64) (T11 m c Cert.KernelIdeal.main_v33 : Spec.Mat 400000 64) (T11 m c Cert.KernelIdeal.main_v36 : Spec.Mat 400000 64) r j :=
  (congrFun ((hF4 m c 6).symm : (T12 m c Cert.KernelIdeal.main_v37_2 : Spec.Mat 400000 64) = _) (ix2 r j)).trans (final4_6_apply (T11 m) c r j)

theorem k_node (r : Fin 50000) (j : Fin 64) :
    (T14 m c Cert.KernelIdeal.main_v44 : Spec.Mat 50000 64) (ix2 r j)
      = Spec.nodeUpd (Ideal.ofBits .f32 0x358637BD#32) (T13 m c Cert.KernelIdeal.main_v24 : Spec.Mat 50000 64) (T13 m c Cert.KernelIdeal.main_v40 : Spec.Mat 50000 64) (T13 m c Cert.KernelIdeal.main_v43 : Spec.Mat 50000 64) r j :=
  (congrFun ((hF5 m c 3).symm : (T14 m c Cert.KernelIdeal.main_v44 : Spec.Mat 50000 64) = _) (ix2 r j)).trans (final5_3_apply (T13 m) c r j)

theorem k_bnh (r : Fin 50000) (j : Fin 64) :
    (T18 m c Cert.KernelIdeal.main_v57 : Spec.Mat 50000 64) (ix2 r j)
      = Spec.bnRelu (Ideal.ofBits .f32 0x3727C5AC#32) (Ideal.ofBits .f32 0x00000000#32) (T17 m c Cert.KernelIdeal.main_v44 : Spec.Mat 50000 64) (T17 m c Cert.KernelIdeal.main_v1 : Spec.Mat 50000 64)
          (T17 m c Cert.KernelIdeal.main_v53 : Spec.Mat 1 64) (T17 m c Cert.KernelIdeal.main_v54 : Spec.Mat 1 64) (T17 m c Cert.KernelIdeal.main_v55 : Spec.Mat 1 64) (T17 m c Cert.KernelIdeal.main_v56 : Spec.Mat 1 64) r j :=
  (congrFun ((hF6 m c 6).symm : (T18 m c Cert.KernelIdeal.main_v57 : Spec.Mat 50000 64) = _) (ix2 r j)).trans (final6_6_apply (T17 m) c r j)

theorem k_bne (r : Fin 400000) (j : Fin 64) :
    (T22 m c Cert.KernelIdeal.main_v70 : Spec.Mat 400000 64) (ix2 r j)
      = Spec.bnRelu (Ideal.ofBits .f32 0x3727C5AC#32) (Ideal.ofBits .f32 0x00000000#32) (T21 m c Cert.KernelIdeal.main_v37_0 : Spec.Mat 400000 64) (T21 m c Cert.KernelIdeal.main_v3 : Spec.Mat 400000 64)
          (T21 m c Cert.KernelIdeal.main_v66 : Spec.Mat 1 64) (T21 m c Cert.KernelIdeal.main_v67 : Spec.Mat 1 64) (T21 m c Cert.KernelIdeal.main_v68 : Spec.Mat 1 64) (T21 m c Cert.KernelIdeal.main_v69 : Spec.Mat 1 64) r j :=
  (congrFun ((hF7 m c 6).symm : (T22 m c Cert.KernelIdeal.main_v70 : Spec.Mat 400000 64) = _) (ix2 r j)).trans (final7_6_apply (T21 m) c r j)

/-! ## The reference's arrays at an entry -/

theorem r_gateArg (r : Fin 400000) (j : Fin 64) :
    (RW2 m' c (Proc.devRef .tc Cert.ReferenceIdeal.main_v65) : Spec.Mat 400000 64) (ix2 r j)
      = Spec.gateArg (RW2 m' c (Proc.devRef .tc Cert.ReferenceIdeal.main_v56) : Spec.Mat 400000 64) (RW2 m' c (Proc.devRef .tc Cert.ReferenceIdeal.main_v63) : Spec.Mat 400000 64) (RW2 m' c (Proc.devRef .tc Cert.ReferenceIdeal.main_v49) : Spec.Mat 400000 64) r j := by
  unfold RW2
  rw [rd_main_v65, rd_main_v64]
  exact gateArg_apply _ _ _ r j

theorem r_gate (r : Fin 400000) (j : Fin 64) :
    (RW2 m' c (Proc.devRef .tc Cert.ReferenceIdeal.main_v71) : Spec.Mat 400000 64) (ix2 r j)
      = Spec.gate (RW2 m' c (Proc.devRef .tc Cert.ReferenceIdeal.main_v56) : Spec.Mat 400000 64) (RW2 m' c (Proc.devRef .tc Cert.ReferenceIdeal.main_v63) : Spec.Mat 400000 64) (RW2 m' c (Proc.devRef .tc Cert.ReferenceIdeal.main_v49) : Spec.Mat 400000 64) r j := by
  unfold RW2
  rw [rd_main_v71, rd_main_v70, rd_main_cst_4, rd_main_v69, rd_main_v68, rd_main_cst_3, rd_main_v67, rd_main_v66, rd_main_v65,
    rd_main_v64]
  exact gate_apply _ _ _ r j

theorem r_gated (r : Fin 400000) (j : Fin 64) :
    (RW2 m' c (Proc.devRef .tc Cert.ReferenceIdeal.main_v79) : Spec.Mat 400000 64) (ix2 r j)
      = Spec.gated (RW2 m' c (Proc.devRef .tc Cert.ReferenceIdeal.main_v56) : Spec.Mat 400000 64) (RW2 m' c (Proc.devRef .tc Cert.ReferenceIdeal.main_v63) : Spec.Mat 400000 64) (RW2 m' c (Proc.devRef .tc Cert.ReferenceIdeal.main_v49) : Spec.Mat 400000 64) (RW2 m' c (Proc.devRef .tc Cert.ReferenceIdeal.main_v78) : Spec.Mat 400000 64) r j := by
  unfold RW2
  rw [rd_main_v79, rd_main_v71, rd_main_v70, rd_main_cst_4, rd_main_v69, rd_main_v68, rd_main_cst_3, rd_main_v67, rd_main_v66,
    rd_main_v65, rd_main_v64]
  exact gated_apply _ _ _ _ r j

theorem r_node (r : Fin 50000) (j : Fin 64) :
    (RW2 m' c (Proc.devRef .tc Cert.ReferenceIdeal.main_v89) : Spec.Mat 50000 64) (ix2 r j)
      = Spec.nodeUpd (Ideal.ofBits .f32 0x358637BD#32) (RW2 m' c (Proc.devRef .tc Cert.ReferenceIdeal.main_v17) : Spec.Mat 50000 64) (RW2 m' c (Proc.devRef .tc Cert.ReferenceIdeal.main_v82) : Spec.Mat 50000 64) (RW2 m' c (Proc.devRef .tc Cert.ReferenceIdeal.main_v85) : Spec.Mat 50000 64) r j := by
  unfold RW2
  rw [rd_main_v89, rd_main_v88, rd_main_v87, rd_main_v86, rd_main_cst_9]
  exact nodeUpd_apply _ _ _ _ r j

theorem r_bnh (r : Fin 50000) (j : Fin 64) :
    (RW2 m' c (Proc.devRef .tc Cert.ReferenceIdeal.main_v114) : Spec.Mat 50000 64) (ix2 r j)
      = Spec.bnRelu (Ideal.ofBits .f32 0x3727C5AC#32) (Ideal.ofBits .f32 0x00000000#32) (RW2 m' c (Proc.devRef .tc Cert.ReferenceIdeal.main_v89) : Spec.Mat 50000 64) (RW1 m' c (Proc.devRef .tc Cert.ReferenceIdeal.main_v5) : Spec.Mat 50000 64)
          (fun i => (RW2 m' c (Proc.devRef .tc Cert.ReferenceIdeal.main_v96) : (⟨1, ![64]⟩ : Shape).Idx → EReal) (ix1 (i 1))) (fun i => (RW2 m' c (Proc.devRef .tc Cert.ReferenceIdeal.main_v97) : (⟨1, ![64]⟩ : Shape).Idx → EReal) (ix1 (i 1)))
          (fun i => (RW2 m' c (Proc.devRef .tc Cert.ReferenceIdeal.main_v91) : (⟨1, ![64]⟩ : Shape).Idx → EReal) (ix1 (i 1))) (fun i => (RW2 m' c (Proc.devRef .tc Cert.ReferenceIdeal.main_v93) : (⟨1, ![64]⟩ : Shape).Idx → EReal) (ix1 (i 1))) r j := by
  unfold RW2
  rw [rd_main_v114, rd_main_v113, rd_main_call1_v0, rd_main_call1_cst, rd_main_v112, rd_main_v111, rd_main_v110, rd_main_v109,
    rd_main_v108, rd_main_v107, rd_main_v106, rd_main_v105, rd_main_v104, rd_main_v103, rd_main_v102, rd_main_v101, rd_main_cst_13,
    rd_main_v100, rd_main_v99, rd_main_v98]
  exact bnRelu_node_apply _ _ _ _ _ _ _ _ r j

theorem r_bne (r : Fin 400000) (j : Fin 64) :
    (RW2 m' c (Proc.devRef .tc Cert.ReferenceIdeal.main_v139) : Spec.Mat 400000 64) (ix2 r j)
      = Spec.bnRelu (Ideal.ofBits .f32 0x3727C5AC#32) (Ideal.ofBits .f32 0x00000000#32) (RW2 m' c (Proc.devRef .tc Cert.ReferenceIdeal.main_v65) : Spec.Mat 400000 64) (RW1 m' c (Proc.devRef .tc Cert.ReferenceIdeal.main_v9) : Spec.Mat 400000 64)
          (fun i => (RW2 m' c (Proc.devRef .tc Cert.ReferenceIdeal.main_v121) : (⟨1, ![64]⟩ : Shape).Idx → EReal) (ix1 (i 1))) (fun i => (RW2 m' c (Proc.devRef .tc Cert.ReferenceIdeal.main_v122) : (⟨1, ![64]⟩ : Shape).Idx → EReal) (ix1 (i 1)))
          (fun i => (RW2 m' c (Proc.devRef .tc Cert.ReferenceIdeal.main_v116) : (⟨1, ![64]⟩ : Shape).Idx → EReal) (ix1 (i 1))) (fun i => (RW2 m' c (Proc.devRef .tc Cert.ReferenceIdeal.main_v118) : (⟨1, ![64]⟩ : Shape).Idx → EReal) (ix1 (i 1))) r j := by
  unfold RW2
  rw [rd_main_v139, rd_main_v138, rd_main_call3_v0, rd_main_call3_cst, rd_main_v137, rd_main_v136, rd_main_v135, rd_main_v134,
    rd_main_v133, rd_main_v132, rd_main_v131, rd_main_v130, rd_main_v129, rd_main_v128, rd_main_v127, rd_main_v126, rd_main_cst_17,
    rd_main_v125, rd_main_v124, rd_main_v123]
  exact bnRelu_edge_apply _ _ _ _ _ _ _ _ r j

/-! ## The pairings -/

/-- The edge combine: equal summands and sender rows give equal gate arguments, gates and gated messages. -/
theorem gate_eq
    (h34 : (T11 m c Cert.KernelIdeal.main_v34 : Spec.Mat 400000 64) = (RW2 m' c (Proc.devRef .tc Cert.ReferenceIdeal.main_v56) : Spec.Mat 400000 64))
    (h35 : (T11 m c Cert.KernelIdeal.main_v35 : Spec.Mat 400000 64) = (RW2 m' c (Proc.devRef .tc Cert.ReferenceIdeal.main_v63) : Spec.Mat 400000 64))
    (h33 : (T11 m c Cert.KernelIdeal.main_v33 : Spec.Mat 400000 64) = (RW2 m' c (Proc.devRef .tc Cert.ReferenceIdeal.main_v49) : Spec.Mat 400000 64))
    (h36 : (T11 m c Cert.KernelIdeal.main_v36 : Spec.Mat 400000 64) = (RW2 m' c (Proc.devRef .tc Cert.ReferenceIdeal.main_v78) : Spec.Mat 400000 64)) :
    (T12 m c Cert.KernelIdeal.main_v37_0 : Spec.Mat 400000 64) = (RW2 m' c (Proc.devRef .tc Cert.ReferenceIdeal.main_v65) : Spec.Mat 400000 64)
      ∧ (T12 m c Cert.KernelIdeal.main_v37_1 : Spec.Mat 400000 64) = (RW2 m' c (Proc.devRef .tc Cert.ReferenceIdeal.main_v71) : Spec.Mat 400000 64)
      ∧ (T12 m c Cert.KernelIdeal.main_v37_2 : Spec.Mat 400000 64) = (RW2 m' c (Proc.devRef .tc Cert.ReferenceIdeal.main_v79) : Spec.Mat 400000 64) := by
  refine ⟨funext fun i => ?_, funext fun i => ?_, funext fun i => ?_⟩
  · obtain ⟨p, q, rfl⟩ : ∃ (p : Fin 400000) (q : Fin 64), i = ix2 p q := ⟨i 0, i 1, eq_ix2 i⟩
    refine (k_gateArg m c p q).trans (Eq.trans ?_ (r_gateArg m' c p q).symm)
    rw [h34, h35, h33]
  · obtain ⟨p, q, rfl⟩ : ∃ (p : Fin 400000) (q : Fin 64), i = ix2 p q := ⟨i 0, i 1, eq_ix2 i⟩
    refine (k_gate m c p q).trans (Eq.trans ?_ (r_gate m' c p q).symm)
    rw [h34, h35, h33]
  · obtain ⟨p, q, rfl⟩ : ∃ (p : Fin 400000) (q : Fin 64), i = ix2 p q := ⟨i 0, i 1, eq_ix2 i⟩
    refine (k_gated m c p q).trans (Eq.trans ?_ (r_gated m' c p q).symm)
    rw [h34, h35, h33, h36]

/-- The node update: equal node rows, numerators and denominators give equal updated rows. -/
theorem node_eq
    (h24 : (T13 m c Cert.KernelIdeal.main_v24 : Spec.Mat 50000 64) = (RW2 m' c (Proc.devRef .tc Cert.ReferenceIdeal.main_v17) : Spec.Mat 50000 64))
    (h40 : (T13 m c Cert.KernelIdeal.main_v40 : Spec.Mat 50000 64) = (RW2 m' c (Proc.devRef .tc Cert.ReferenceIdeal.main_v82) : Spec.Mat 50000 64))
    (h43 : (T13 m c Cert.KernelIdeal.main_v43 : Spec.Mat 50000 64) = (RW2 m' c (Proc.devRef .tc Cert.ReferenceIdeal.main_v85) : Spec.Mat 50000 64)) :
    (T14 m c Cert.KernelIdeal.main_v44 : Spec.Mat 50000 64) = (RW2 m' c (Proc.devRef .tc Cert.ReferenceIdeal.main_v89) : Spec.Mat 50000 64) := by
  funext i
  obtain ⟨p, q, rfl⟩ : ∃ (p : Fin 50000) (q : Fin 64), i = ix2 p q := ⟨i 0, i 1, eq_ix2 i⟩
  refine (k_node m c p q).trans (Eq.trans ?_ (r_node m' c p q).symm)
  rw [h24, h40, h43]

/-- The node side's normalised residual step. -/
theorem bnh_eq
    (hx : (T17 m c Cert.KernelIdeal.main_v44 : Spec.Mat 50000 64) = (RW2 m' c (Proc.devRef .tc Cert.ReferenceIdeal.main_v89) : Spec.Mat 50000 64))
    (hres : (T17 m c Cert.KernelIdeal.main_v1 : Spec.Mat 50000 64) = (RW1 m' c (Proc.devRef .tc Cert.ReferenceIdeal.main_v5) : Spec.Mat 50000 64))
    (hmean : ∀ j : Fin 64, (T17 m c Cert.KernelIdeal.main_v53 : Spec.Mat 1 64) (ix2 0 j) = (RW2 m' c (Proc.devRef .tc Cert.ReferenceIdeal.main_v96) : (⟨1, ![64]⟩ : Shape).Idx → EReal) (ix1 j))
    (hvar : ∀ j : Fin 64, (T17 m c Cert.KernelIdeal.main_v54 : Spec.Mat 1 64) (ix2 0 j) = (RW2 m' c (Proc.devRef .tc Cert.ReferenceIdeal.main_v97) : (⟨1, ![64]⟩ : Shape).Idx → EReal) (ix1 j))
    (hg : ∀ j : Fin 64, (T17 m c Cert.KernelIdeal.main_v55 : Spec.Mat 1 64) (ix2 0 j) = (RW2 m' c (Proc.devRef .tc Cert.ReferenceIdeal.main_v91) : (⟨1, ![64]⟩ : Shape).Idx → EReal) (ix1 j))
    (hb : ∀ j : Fin 64, (T17 m c Cert.KernelIdeal.main_v56 : Spec.Mat 1 64) (ix2 0 j) = (RW2 m' c (Proc.devRef .tc Cert.ReferenceIdeal.main_v93) : (⟨1, ![64]⟩ : Shape).Idx → EReal) (ix1 j)) :
    (T18 m c Cert.KernelIdeal.main_v57 : Spec.Mat 50000 64) = (RW2 m' c (Proc.devRef .tc Cert.ReferenceIdeal.main_v114) : Spec.Mat 50000 64) := by
  funext i
  obtain ⟨p, q, rfl⟩ : ∃ (p : Fin 50000) (q : Fin 64), i = ix2 p q := ⟨i 0, i 1, eq_ix2 i⟩
  refine (k_bnh m c p q).trans (Eq.trans ?_ (r_bnh m' c p q).symm)
  exact bnRelu_congr _ _ hx hres hmean hvar hg hb p q

/-- The edge side's normalised residual step. -/
theorem bne_eq
    (hx : (T21 m c Cert.KernelIdeal.main_v37_0 : Spec.Mat 400000 64) = (RW2 m' c (Proc.devRef .tc Cert.ReferenceIdeal.main_v65) : Spec.Mat 400000 64))
    (hres : (T21 m c Cert.KernelIdeal.main_v3 : Spec.Mat 400000 64) = (RW1 m' c (Proc.devRef .tc Cert.ReferenceIdeal.main_v9) : Spec.Mat 400000 64))
    (hmean : ∀ j : Fin 64, (T21 m c Cert.KernelIdeal.main_v66 : Spec.Mat 1 64) (ix2 0 j) = (RW2 m' c (Proc.devRef .tc Cert.ReferenceIdeal.main_v121) : (⟨1, ![64]⟩ : Shape).Idx → EReal) (ix1 j))
    (hvar : ∀ j : Fin 64, (T21 m c Cert.KernelIdeal.main_v67 : Spec.Mat 1 64) (ix2 0 j) = (RW2 m' c (Proc.devRef .tc Cert.ReferenceIdeal.main_v122) : (⟨1, ![64]⟩ : Shape).Idx → EReal) (ix1 j))
    (hg : ∀ j : Fin 64, (T21 m c Cert.KernelIdeal.main_v68 : Spec.Mat 1 64) (ix2 0 j) = (RW2 m' c (Proc.devRef .tc Cert.ReferenceIdeal.main_v116) : (⟨1, ![64]⟩ : Shape).Idx → EReal) (ix1 j))
    (hb : ∀ j : Fin 64, (T21 m c Cert.KernelIdeal.main_v69 : Spec.Mat 1 64) (ix2 0 j) = (RW2 m' c (Proc.devRef .tc Cert.ReferenceIdeal.main_v118) : (⟨1, ![64]⟩ : Shape).Idx → EReal) (ix1 j)) :
    (T22 m c Cert.KernelIdeal.main_v70 : Spec.Mat 400000 64) = (RW2 m' c (Proc.devRef .tc Cert.ReferenceIdeal.main_v139) : Spec.Mat 400000 64) := by
  funext i
  obtain ⟨p, q, rfl⟩ : ∃ (p : Fin 400000) (q : Fin 64), i = ix2 p q := ⟨i 0, i 1, eq_ix2 i⟩
  refine (k_bne m c p q).trans (Eq.trans ?_ (r_bne m' c p q).symm)
  exact bnRelu_congr _ _ hx hres hmean hvar hg hb p q

end Cert.Sim

end
-- ==== Proof.KI.HostDefs.lean ====
import proofs.«431450_j74423193305350_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

/-! The whole-array functions the host stretches between the kernel regions compute, each the printed operations composed: segment sums, column means and variances, and the readout's input. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-- The rows of a [400000,64] array added up by target: row r of the result is the sum of the rows e with idx e = r (a scatter-add into zeros). -/
def segSum64 (upd : FVec Ideal S400000x64 .f32) (idx : IVec S400000 32) : FVec Ideal S50000x64 .f32 :=
  Host.scatterAdd scatter_S50000x64_S400000x1_S400000x64_1_0_0_1 (broadcastInDim S50000x64 ![] bcast_S_S50000x64 (constant (F := Ideal) S_ .f32 0x00000000#32)) (broadcastInDim S400000x1 ![0] bcast_S400000_S400000x1_0 idx) upd

/-- The column means of a [50000,64] array: the column sums over 50000. -/
def colMeanN (X : FVec Ideal S50000x64 .f32) : FVec Ideal S64 .f32 :=
  Host.divf (Host.reduceAdd X (constant (F := Ideal) S_ .f32 0x00000000#32) reducesTo_S50000x64_S64_d0 h_S_) (broadcastInDim S64 ![] bcast_S_S64 (constant (F := Ideal) S_ .f32 0x47435000#32))

/-- The column variances of a [50000,64] array: the column means of the squared deviations from the column means. -/
def colVarN (X : FVec Ideal S50000x64 .f32) : FVec Ideal S64 .f32 :=
  select (broadcastInDim S64 ![] bcast_S_S64 (cmpf .ogt (subf (constant (F := Ideal) S_ .f32 0x47435000#32) (sitofp .f32 (constantI S_ 32 0#32))) (constant (F := Ideal) S_ .f32 0x00000000#32))) (Host.divf (Host.reduceAdd (mulf (subf X (broadcastInDim S50000x64 ![0, 1] bcast_S1x64_S50000x64_0_1 (Host.divf (broadcastInDim S1x64 ![1] bcast_S64_S1x64_1 (Host.reduceAdd X (constant (F := Ideal) S_ .f32 0x00000000#32) reducesTo_S50000x64_S64_d0 h_S_)) (broadcastInDim S1x64 ![] bcast_S_S1x64 (constant (F := Ideal) S_ .f32 0x47435000#32))))) (subf X (broadcastInDim S50000x64 ![0, 1] bcast_S1x64_S50000x64_0_1 (Host.divf (broadcastInDim S1x64 ![1] bcast_S64_S1x64_1 (Host.reduceAdd X (constant (F := Ideal) S_ .f32 0x00000000#32) reducesTo_S50000x64_S64_d0 h_S_)) (broadcastInDim S1x64 ![] bcast_S_S1x64 (constant (F := Ideal) S_ .f32 0x47435000#32)))))) (constant (F := Ideal) S_ .f32 0x00000000#32) reducesTo_S50000x64_S64_d0 h_S_) (broadcastInDim S64 ![] bcast_S_S64 (subf (constant (F := Ideal) S_ .f32 0x47435000#32) (sitofp .f32 (constantI S_ 32 0#32))))) (broadcastInDim S64 ![] bcast_S_S64 (id (constant (F := Ideal) S_ .f32 0x7FC00000#32)))

/-- The column means of a [400000,64] array: the column sums over 400000. -/
def colMeanE (X : FVec Ideal S400000x64 .f32) : FVec Ideal S64 .f32 :=
  Host.divf (Host.reduceAdd X (constant (F := Ideal) S_ .f32 0x00000000#32) reducesTo_S400000x64_S64_d0 h_S_) (broadcastInDim S64 ![] bcast_S_S64 (constant (F := Ideal) S_ .f32 0x48C35000#32))

/-- The column variances of a [400000,64] array. -/
def colVarE (X : FVec Ideal S400000x64 .f32) : FVec Ideal S64 .f32 :=
  select (broadcastInDim S64 ![] bcast_S_S64 (cmpf .ogt (subf (constant (F := Ideal) S_ .f32 0x48C35000#32) (sitofp .f32 (constantI S_ 32 0#32))) (constant (F := Ideal) S_ .f32 0x00000000#32))) (Host.divf (Host.reduceAdd (mulf (subf X (broadcastInDim S400000x64 ![0, 1] bcast_S1x64_S400000x64_0_1 (Host.divf (broadcastInDim S1x64 ![1] bcast_S64_S1x64_1 (Host.reduceAdd X (constant (F := Ideal) S_ .f32 0x00000000#32) reducesTo_S400000x64_S64_d0 h_S_)) (broadcastInDim S1x64 ![] bcast_S_S1x64 (constant (F := Ideal) S_ .f32 0x48C35000#32))))) (subf X (broadcastInDim S400000x64 ![0, 1] bcast_S1x64_S400000x64_0_1 (Host.divf (broadcastInDim S1x64 ![1] bcast_S64_S1x64_1 (Host.reduceAdd X (constant (F := Ideal) S_ .f32 0x00000000#32) reducesTo_S400000x64_S64_d0 h_S_)) (broadcastInDim S1x64 ![] bcast_S_S1x64 (constant (F := Ideal) S_ .f32 0x48C35000#32)))))) (constant (F := Ideal) S_ .f32 0x00000000#32) reducesTo_S400000x64_S64_d0 h_S_) (broadcastInDim S64 ![] bcast_S_S64 (subf (constant (F := Ideal) S_ .f32 0x48C35000#32) (sitofp .f32 (constantI S_ 32 0#32))))) (broadcastInDim S64 ![] bcast_S_S64 (id (constant (F := Ideal) S_ .f32 0x7FC00000#32)))

/-- How many of the 50000 nodes each of the 16 graphs has: ones added up by graph. -/
def graphCount (g : IVec S50000 32) : FVec Ideal S16 .f32 :=
  Host.scatterAdd scatter_S16_S50000x1_S50000_n_0_0_1 (broadcastInDim S16 ![] bcast_S_S16 (constant (F := Ideal) S_ .f32 0x00000000#32)) (broadcastInDim S50000x1 ![0] bcast_S50000_S50000x1_0 g) (broadcastInDim S50000 ![] bcast_S_S50000 (constant (F := Ideal) S_ .f32 0x3F800000#32))

/-- The rows of a [50000,64] array added up by graph. -/
def graphSum (X : FVec Ideal S50000x64 .f32) (g : IVec S50000 32) : FVec Ideal S16x64 .f32 :=
  Host.scatterAdd scatter_S16x64_S50000x1_S50000x64_1_0_0_1 (broadcastInDim S16x64 ![] bcast_S_S16x64 (constant (F := Ideal) S_ .f32 0x00000000#32)) (broadcastInDim S50000x1 ![0] bcast_S50000_S50000x1_0 g) X

/-- The readout's input: per graph the mean node row (sum over count), then the graph's four own features. -/
def readoutX (X : FVec Ideal S50000x64 .f32) (g : IVec S50000 32) (u : FVec Ideal S16x4 .f32) : FVec Ideal S16x68 .f32 :=
  concatenate S16x68 1 [⟨S16x64, (Host.divf (graphSum X g) (broadcastInDim S16x64 ![0, 1] bcast_S16x1_S16x64_0_1 (broadcastInDim S16x1 ![0] bcast_S16_S16x1_0 (graphCount g))))⟩, ⟨S16x4, u⟩] concatenates_S16x64_S16x4_S16x68_d1

end Cert.KernelIdeal.Hand
-- ==== Proof.KI.Host5.lean ====
import proofs.«431450_j74423193305350_1_alg».proof.Proof.Gen.KernelIdeal.Launch
import proofs.«431450_j74423193305350_1_alg».proof.Proof.KI.HostDefs
import Idealize.ShloMosaic.Lib.StableHlo.Run
import Idealize.ShloMosaic.Lib.Pipeline.Value
import Idealize.ShloMosaic.Lib.ValueIdx
import Idealize.ShloMosaic.Lib.ValueLayout

/-! Host stretch 5: the two sums by target node (of the gated messages main_v37_2 and of the gates main_v37_1), as the named segment sum of whatever the buffers held. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : Valuation τ sig (Elt Ideal))

/-- After the stretch: the gated messages added up by target node. -/
theorem host5_v40 :
    (StableHlo.after (hostOps5 (F := Ideal)) V (Proc.devRef .tc main_v40) : S50000x64.Idx → EReal)
      = segSum64 (V (Proc.devRef .tc main_v37_2)) (V (Proc.devRef .tc main_arg4)) := by
  after_results
  all_goals rfl

/-- After the stretch: the gates added up by target node. -/
theorem host5_v43 :
    (StableHlo.after (hostOps5 (F := Ideal)) V (Proc.devRef .tc main_v43) : S50000x64.Idx → EReal)
      = segSum64 (V (Proc.devRef .tc main_v37_1)) (V (Proc.devRef .tc main_arg4)) := by
  after_results
  all_goals rfl

end Cert.KernelIdeal.Hand
-- ==== Proof.KI.Host6.lean ====
import proofs.«431450_j74423193305350_1_alg».proof.Proof.Gen.KernelIdeal.Launch
import proofs.«431450_j74423193305350_1_alg».proof.Proof.KI.HostDefs
import Idealize.ShloMosaic.Lib.StableHlo.Run
import Idealize.ShloMosaic.Lib.Pipeline.Value
import Idealize.ShloMosaic.Lib.ValueIdx
import Idealize.ShloMosaic.Lib.ValueLayout

/-! Host stretches 6, 6_1, 6_2 run in order: the column means and variances of main_v44 as the named functions, laid out as rows, and the batch-norm gain and bias rows of layer row 0, from whatever the buffers held. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : Valuation τ sig (Elt Ideal))

/-- Row 0 of a stack of three vectors, as a vector, at an entry. -/
private theorem row0_vec_apply (X : S3x64.Idx → EReal) (j : Fin 64) :
    shapeCast S64 (extractStridedSlice S1x64 ![0, 0] X slices_S3x64_S1x64_0_0) shapeCasts_S1x64_S64 (ix1 j)
      = X (ix2 0 j) := by
  rw [shapeCast_1a_a_apply]
  exact slice2_axis0_apply 0 X slices_S3x64_S1x64_0_0 0 j 0 rfl

/-- The buffers' contents after the three stretches run in order. -/
abbrev after6 : Valuation τ sig (Elt Ideal) :=
  StableHlo.after (hostOps6_2 (F := Ideal)) (StableHlo.after (hostOps6_1 (F := Ideal)) (StableHlo.after (hostOps6 (F := Ideal)) V))

/-- The mean row: the column means of main_v44, as one row. -/
theorem host6_v53_eq :
    (after6 V (Proc.devRef .tc main_v53) : S1x64.Idx → EReal)
      = shapeCast S1x64 (colMeanN (V (Proc.devRef .tc main_v44))) shapeCasts_S64_S1x64 := by
  unfold after6
  after_results
  all_goals rfl

set_option maxHeartbeats 1600000 in
/-- The variance row: the column variances of main_v44, as one row. -/
theorem host6_v54_eq :
    (after6 V (Proc.devRef .tc main_v54) : S1x64.Idx → EReal)
      = shapeCast S1x64 (colVarN (V (Proc.devRef .tc main_v44))) shapeCasts_S64_S1x64 := by
  unfold after6
  after_results
  all_goals rfl

/-- The mean row at column j. -/
theorem host6_v53 (j : Fin 64) :
    (after6 V (Proc.devRef .tc main_v53) : S1x64.Idx → EReal) (ix2 0 j) = colMeanN (V (Proc.devRef .tc main_v44)) (ix1 j) := by
  rw [host6_v53_eq, shapeCast_a_1a_apply]

/-- The variance row at column j. -/
theorem host6_v54 (j : Fin 64) :
    (after6 V (Proc.devRef .tc main_v54) : S1x64.Idx → EReal) (ix2 0 j) = colVarN (V (Proc.devRef .tc main_v44)) (ix1 j) := by
  rw [host6_v54_eq, shapeCast_a_1a_apply]

/-- The gain row of layer row 0, at column j. -/
theorem host6_v55 (j : Fin 64) :
    (after6 V (Proc.devRef .tc main_v55) : S1x64.Idx → EReal) (ix2 0 j) = (V (Proc.devRef .tc main_arg20) : S3x64.Idx → EReal) (ix2 0 j) := by
  have e : (after6 V (Proc.devRef .tc main_v55) : S1x64.Idx → EReal)
      = shapeCast S1x64 (shapeCast S64 (extractStridedSlice S1x64 ![0, 0] (V (Proc.devRef .tc main_arg20) : S3x64.Idx → EReal) slices_S3x64_S1x64_0_0) shapeCasts_S1x64_S64) shapeCasts_S64_S1x64 := by
    unfold after6
    after_results
    all_goals rfl
  rw [e, shapeCast_a_1a_apply, row0_vec_apply]

/-- The bias row of layer row 0, at column j. -/
theorem host6_v56 (j : Fin 64) :
    (after6 V (Proc.devRef .tc main_v56) : S1x64.Idx → EReal) (ix2 0 j) = (V (Proc.devRef .tc main_arg21) : S3x64.Idx → EReal) (ix2 0 j) := by
  have e : (after6 V (Proc.devRef .tc main_v56) : S1x64.Idx → EReal)
      = shapeCast S1x64 (shapeCast S64 (extractStridedSlice S1x64 ![0, 0] (V (Proc.devRef .tc main_arg21) : S3x64.Idx → EReal) slices_S3x64_S1x64_0_0) shapeCasts_S1x64_S64) shapeCasts_S64_S1x64 := by
    unfold after6
    after_results
    all_goals rfl
  rw [e, shapeCast_a_1a_apply, row0_vec_apply]

end Cert.KernelIdeal.Hand
-- ==== Proof.KI.Host7.lean ====
import proofs.«431450_j74423193305350_1_alg».proof.Proof.Gen.KernelIdeal.Launch
import proofs.«431450_j74423193305350_1_alg».proof.Proof.KI.HostDefs
import Idealize.ShloMosaic.Lib.StableHlo.Run
import Idealize.ShloMosaic.Lib.Pipeline.Value
import Idealize.ShloMosaic.Lib.ValueIdx
import Idealize.ShloMosaic.Lib.ValueLayout

/-! Host stretches 7, 7_1, 7_2 run in order: the column means and variances of main_v37_0 as the named functions, laid out as rows, and the batch-norm gain and bias rows of layer row 0, from whatever the buffers held. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : Valuation τ sig (Elt Ideal))

/-- Row 0 of a stack of three vectors, as a vector, at an entry. -/
private theorem row0_vec_apply (X : S3x64.Idx → EReal) (j : Fin 64) :
    shapeCast S64 (extractStridedSlice S1x64 ![0, 0] X slices_S3x64_S1x64_0_0) shapeCasts_S1x64_S64 (ix1 j)
      = X (ix2 0 j) := by
  rw [shapeCast_1a_a_apply]
  exact slice2_axis0_apply 0 X slices_S3x64_S1x64_0_0 0 j 0 rfl

/-- The buffers' contents after the three stretches run in order. -/
abbrev after7 : Valuation τ sig (Elt Ideal) :=
  StableHlo.after (hostOps7_2 (F := Ideal)) (StableHlo.after (hostOps7_1 (F := Ideal)) (StableHlo.after (hostOps7 (F := Ideal)) V))

/-- The mean row: the column means of main_v37_0, as one row. -/
theorem host7_v66_eq :
    (after7 V (Proc.devRef .tc main_v66) : S1x64.Idx → EReal)
      = shapeCast S1x64 (colMeanE (V (Proc.devRef .tc main_v37_0))) shapeCasts_S64_S1x64 := by
  unfold after7
  after_results
  all_goals rfl

set_option maxHeartbeats 1600000 in
/-- The variance row: the column variances of main_v37_0, as one row. -/
theorem host7_v67_eq :
    (after7 V (Proc.devRef .tc main_v67) : S1x64.Idx → EReal)
      = shapeCast S1x64 (colVarE (V (Proc.devRef .tc main_v37_0))) shapeCasts_S64_S1x64 := by
  unfold after7
  after_results
  all_goals rfl

/-- The mean row at column j. -/
theorem host7_v66 (j : Fin 64) :
    (after7 V (Proc.devRef .tc main_v66) : S1x64.Idx → EReal) (ix2 0 j) = colMeanE (V (Proc.devRef .tc main_v37_0)) (ix1 j) := by
  rw [host7_v66_eq, shapeCast_a_1a_apply]

/-- The variance row at column j. -/
theorem host7_v67 (j : Fin 64) :
    (after7 V (Proc.devRef .tc main_v67) : S1x64.Idx → EReal) (ix2 0 j) = colVarE (V (Proc.devRef .tc main_v37_0)) (ix1 j) := by
  rw [host7_v67_eq, shapeCast_a_1a_apply]

/-- The gain row of layer row 0, at column j. -/
theorem host7_v68 (j : Fin 64) :
    (after7 V (Proc.devRef .tc main_v68) : S1x64.Idx → EReal) (ix2 0 j) = (V (Proc.devRef .tc main_arg22) : S3x64.Idx → EReal) (ix2 0 j) := by
  have e : (after7 V (Proc.devRef .tc main_v68) : S1x64.Idx → EReal)
      = shapeCast S1x64 (shapeCast S64 (extractStridedSlice S1x64 ![0, 0] (V (Proc.devRef .tc main_arg22) : S3x64.Idx → EReal) slices_S3x64_S1x64_0_0) shapeCasts_S1x64_S64) shapeCasts_S64_S1x64 := by
    unfold after7
    after_results
    all_goals rfl
  rw [e, shapeCast_a_1a_apply, row0_vec_apply]

/-- The bias row of layer row 0, at column j. -/
theorem host7_v69 (j : Fin 64) :
    (after7 V (Proc.devRef .tc main_v69) : S1x64.Idx → EReal) (ix2 0 j) = (V (Proc.devRef .tc main_arg23) : S3x64.Idx → EReal) (ix2 0 j) := by
  have e : (after7 V (Proc.devRef .tc main_v69) : S1x64.Idx → EReal)
      = shapeCast S1x64 (shapeCast S64 (extractStridedSlice S1x64 ![0, 0] (V (Proc.devRef .tc main_arg23) : S3x64.Idx → EReal) slices_S3x64_S1x64_0_0) shapeCasts_S1x64_S64) shapeCasts_S64_S1x64 := by
    unfold after7
    after_results
    all_goals rfl
  rw [e, shapeCast_a_1a_apply, row0_vec_apply]

end Cert.KernelIdeal.Hand
-- ==== Proof.Sim.ChainTerms.lean ====
import proofs.«431450_j74423193305350_1_alg».proof.Proof.KI.HostDefs
import proofs.«431450_j74423193305350_1_alg».proof.Proof.Gen.ReferenceIdeal
import Idealize.ShloMosaic.Lib.Pipeline.Value
import Idealize.ShloMosaic.Lib.ValueIdx
import Idealize.ShloMosaic.Lib.ValueLayout

/-! The reference's segment sums, column means and column variances, composed from its printed operations, are the
    named whole-array functions of the kernel's host stretches: the same operations over the same shapes, the two
    programs' records of them equal. And a row of the reference's stacked vectors, read at an entry. -/
set_option maxRecDepth 16384

noncomputable section

namespace Cert.Sim

open Idealize.ShloMosaic Idealize.ShloMosaic.ValueIdx

section
open Cert.ReferenceIdeal Cert.ReferenceIdeal.Gen

/-- The reference's term for: the rows of a [400000,64] array added up by target: row r of the result is the sum of the rows e with idx e = r (a scatter-add into zeros). -/
theorem segSum64_ref (upd : FVec Ideal S400000x64 .f32) (idx : IVec S400000 32) :
    Host.scatterAdd scatter_S50000x64_S400000x1_S400000x64_1_0_0_1 (broadcastInDim S50000x64 ![] bcast_S_S50000x64 (constant (F := Ideal) S_ .f32 0x00000000#32)) (broadcastInDim S400000x1 ![0] bcast_S400000_S400000x1_0 idx) upd
      = Cert.KernelIdeal.Hand.segSum64 upd idx := by
  unfold Cert.KernelIdeal.Hand.segSum64
  rfl

/-- The reference's term for: the column means of a [50000,64] array: the column sums over 50000. -/
theorem colMeanN_ref (X : FVec Ideal S50000x64 .f32) :
    Host.divf (Host.reduceAdd X (constant (F := Ideal) S_ .f32 0x00000000#32) reducesTo_S50000x64_S64_d0 h_S_) (broadcastInDim S64 ![] bcast_S_S64 (constant (F := Ideal) S_ .f32 0x47435000#32))
      = Cert.KernelIdeal.Hand.colMeanN X := by
  unfold Cert.KernelIdeal.Hand.colMeanN
  rfl

/-- The reference's term for: the column variances of a [50000,64] array: the column means of the squared deviations from the column means. -/
theorem colVarN_ref (X : FVec Ideal S50000x64 .f32) :
    select (broadcastInDim S64 ![] bcast_S_S64 (cmpf .ogt (subf (constant (F := Ideal) S_ .f32 0x47435000#32) (sitofp .f32 (constantI S_ 32 0#32))) (constant (F := Ideal) S_ .f32 0x00000000#32))) (Host.divf (Host.reduceAdd (mulf (subf X (broadcastInDim S50000x64 ![0, 1] bcast_S1x64_S50000x64_0_1 (Host.divf (broadcastInDim S1x64 ![1] bcast_S64_S1x64_1 (Host.reduceAdd X (constant (F := Ideal) S_ .f32 0x00000000#32) reducesTo_S50000x64_S64_d0 h_S_)) (broadcastInDim S1x64 ![] bcast_S_S1x64 (constant (F := Ideal) S_ .f32 0x47435000#32))))) (subf X (broadcastInDim S50000x64 ![0, 1] bcast_S1x64_S50000x64_0_1 (Host.divf (broadcastInDim S1x64 ![1] bcast_S64_S1x64_1 (Host.reduceAdd X (constant (F := Ideal) S_ .f32 0x00000000#32) reducesTo_S50000x64_S64_d0 h_S_)) (broadcastInDim S1x64 ![] bcast_S_S1x64 (constant (F := Ideal) S_ .f32 0x47435000#32)))))) (constant (F := Ideal) S_ .f32 0x00000000#32) reducesTo_S50000x64_S64_d0 h_S_) (broadcastInDim S64 ![] bcast_S_S64 (subf (constant (F := Ideal) S_ .f32 0x47435000#32) (sitofp .f32 (constantI S_ 32 0#32))))) (broadcastInDim S64 ![] bcast_S_S64 (id (constant (F := Ideal) S_ .f32 0x7FC00000#32)))
      = Cert.KernelIdeal.Hand.colVarN X := by
  unfold Cert.KernelIdeal.Hand.colVarN
  rfl

/-- The reference's term for: the column means of a [400000,64] array: the column sums over 400000. -/
theorem colMeanE_ref (X : FVec Ideal S400000x64 .f32) :
    Host.divf (Host.reduceAdd X (constant (F := Ideal) S_ .f32 0x00000000#32) reducesTo_S400000x64_S64_d0 h_S_) (broadcastInDim S64 ![] bcast_S_S64 (constant (F := Ideal) S_ .f32 0x48C35000#32))
      = Cert.KernelIdeal.Hand.colMeanE X := by
  unfold Cert.KernelIdeal.Hand.colMeanE
  rfl

/-- The reference's term for: the column variances of a [400000,64] array. -/
theorem colVarE_ref (X : FVec Ideal S400000x64 .f32) :
    select (broadcastInDim S64 ![] bcast_S_S64 (cmpf .ogt (subf (constant (F := Ideal) S_ .f32 0x48C35000#32) (sitofp .f32 (constantI S_ 32 0#32))) (constant (F := Ideal) S_ .f32 0x00000000#32))) (Host.divf (Host.reduceAdd (mulf (subf X (broadcastInDim S400000x64 ![0, 1] bcast_S1x64_S400000x64_0_1 (Host.divf (broadcastInDim S1x64 ![1] bcast_S64_S1x64_1 (Host.reduceAdd X (constant (F := Ideal) S_ .f32 0x00000000#32) reducesTo_S400000x64_S64_d0 h_S_)) (broadcastInDim S1x64 ![] bcast_S_S1x64 (constant (F := Ideal) S_ .f32 0x48C35000#32))))) (subf X (broadcastInDim S400000x64 ![0, 1] bcast_S1x64_S400000x64_0_1 (Host.divf (broadcastInDim S1x64 ![1] bcast_S64_S1x64_1 (Host.reduceAdd X (constant (F := Ideal) S_ .f32 0x00000000#32) reducesTo_S400000x64_S64_d0 h_S_)) (broadcastInDim S1x64 ![] bcast_S_S1x64 (constant (F := Ideal) S_ .f32 0x48C35000#32)))))) (constant (F := Ideal) S_ .f32 0x00000000#32) reducesTo_S400000x64_S64_d0 h_S_) (broadcastInDim S64 ![] bcast_S_S64 (subf (constant (F := Ideal) S_ .f32 0x48C35000#32) (sitofp .f32 (constantI S_ 32 0#32))))) (broadcastInDim S64 ![] bcast_S_S64 (id (constant (F := Ideal) S_ .f32 0x7FC00000#32)))
      = Cert.KernelIdeal.Hand.colVarE X := by
  unfold Cert.KernelIdeal.Hand.colVarE
  rfl

/-- Row 0 of the reference's stack of three vectors, as a vector, at an entry. -/
theorem ref_row0_vec_apply (X : S3x64.Idx → EReal) (j : Fin 64) :
    shapeCast S64 (extractStridedSlice S1x64 ![0, 0] X slices_S3x64_S1x64_0_0) shapeCasts_S1x64_S64 (ix1 j)
      = X (ix2 0 j) := by
  rw [shapeCast_1a_a_apply]
  exact slice2_axis0_apply 0 X slices_S3x64_S1x64_0_0 0 j 0 rfl

/-- Row 1 of the reference's stack of three vectors, as a vector, at an entry. -/
theorem ref_row1_vec_apply (X : S3x64.Idx → EReal) (j : Fin 64) :
    shapeCast S64 (extractStridedSlice S1x64 ![1, 0] X slices_S3x64_S1x64_1_0) shapeCasts_S1x64_S64 (ix1 j)
      = X (ix2 1 j) := by
  rw [shapeCast_1a_a_apply]
  exact slice2_axis0_apply 1 X slices_S3x64_S1x64_1_0 0 j 1 rfl

/-- Row 2 of the reference's stack of three vectors, as a vector, at an entry. -/
theorem ref_row2_vec_apply (X : S3x64.Idx → EReal) (j : Fin 64) :
    shapeCast S64 (extractStridedSlice S1x64 ![2, 0] X slices_S3x64_S1x64_2_0) shapeCasts_S1x64_S64 (ix1 j)
      = X (ix2 2 j) := by
  rw [shapeCast_1a_a_apply]
  exact slice2_axis0_apply 2 X slices_S3x64_S1x64_2_0 0 j 2 rfl

end

end Cert.Sim
-- ==== Proof.Sim.Args.lean ====
import proofs.«431450_j74423193305350_1_alg».proof.Proof.Sim.Base
import proofs.«431450_j74423193305350_1_alg».proof.Proof.KI.Fold
import proofs.«431450_j74423193305350_1_alg».proof.Proof.Ref.Fold
import proofs.«431450_j74423193305350_1_alg».proof.Proof.Spec

/-! The arguments, kernel against reference, at launch: the claim's hypothesis
    read once, argument by argument, as equations between the two programs' launch contents at the arguments' own
    shapes. -/
set_option maxRecDepth 16384

noncomputable section

namespace Cert.Sim

open Idealize.ShloMosaic Idealize.ShloMosaic.TcCoe Idealize.SL.Sem
open Cert.KernelIdeal.Hand Cert.ReferenceIdeal.Hand
open Cert.Spec (Mat)

/-- Where the two memories agree, each of the thirty arguments holds the same array in both programs at launch
    (conjunct k is argument k, at its own shape). -/
theorem args_agree (m : KM) (m' : RM) (hagree : Agree m m') (c : Dev Cert.KernelIdeal.nD) :
    ((W0 m c (Proc.devRef .tc Cert.KernelIdeal.main_arg0) : Mat 16 4) = (RW0 m' c (Proc.devRef .tc Cert.ReferenceIdeal.main_arg0) : Mat 16 4))
    ∧ ((W0 m c (Proc.devRef .tc Cert.KernelIdeal.main_arg1) : Mat 50000 6) = (RW0 m' c (Proc.devRef .tc Cert.ReferenceIdeal.main_arg1) : Mat 50000 6))
    ∧ ((W0 m c (Proc.devRef .tc Cert.KernelIdeal.main_arg2) : Mat 400000 2) = (RW0 m' c (Proc.devRef .tc Cert.ReferenceIdeal.main_arg2) : Mat 400000 2))
    ∧ ((W0 m c (Proc.devRef .tc Cert.KernelIdeal.main_arg3) : IVec Cert.KernelIdeal.S400000 32) = (RW0 m' c (Proc.devRef .tc Cert.ReferenceIdeal.main_arg3) : IVec Cert.KernelIdeal.S400000 32))
    ∧ ((W0 m c (Proc.devRef .tc Cert.KernelIdeal.main_arg4) : IVec Cert.KernelIdeal.S400000 32) = (RW0 m' c (Proc.devRef .tc Cert.ReferenceIdeal.main_arg4) : IVec Cert.KernelIdeal.S400000 32))
    ∧ ((W0 m c (Proc.devRef .tc Cert.KernelIdeal.main_arg5) : IVec Cert.KernelIdeal.S50000 32) = (RW0 m' c (Proc.devRef .tc Cert.ReferenceIdeal.main_arg5) : IVec Cert.KernelIdeal.S50000 32))
    ∧ ((W0 m c (Proc.devRef .tc Cert.KernelIdeal.main_arg6) : Mat 6 64) = (RW0 m' c (Proc.devRef .tc Cert.ReferenceIdeal.main_arg6) : Mat 6 64))
    ∧ ((W0 m c (Proc.devRef .tc Cert.KernelIdeal.main_arg7) : Cert.KernelIdeal.S64.Idx → EReal) = (RW0 m' c (Proc.devRef .tc Cert.ReferenceIdeal.main_arg7) : Cert.KernelIdeal.S64.Idx → EReal))
    ∧ ((W0 m c (Proc.devRef .tc Cert.KernelIdeal.main_arg8) : Mat 2 64) = (RW0 m' c (Proc.devRef .tc Cert.ReferenceIdeal.main_arg8) : Mat 2 64))
    ∧ ((W0 m c (Proc.devRef .tc Cert.KernelIdeal.main_arg9) : Cert.KernelIdeal.S64.Idx → EReal) = (RW0 m' c (Proc.devRef .tc Cert.ReferenceIdeal.main_arg9) : Cert.KernelIdeal.S64.Idx → EReal))
    ∧ ((W0 m c (Proc.devRef .tc Cert.KernelIdeal.main_arg10) : Cert.KernelIdeal.S3x64x64.Idx → EReal) = (RW0 m' c (Proc.devRef .tc Cert.ReferenceIdeal.main_arg10) : Cert.KernelIdeal.S3x64x64.Idx → EReal))
    ∧ ((W0 m c (Proc.devRef .tc Cert.KernelIdeal.main_arg11) : Cert.KernelIdeal.S3x64.Idx → EReal) = (RW0 m' c (Proc.devRef .tc Cert.ReferenceIdeal.main_arg11) : Cert.KernelIdeal.S3x64.Idx → EReal))
    ∧ ((W0 m c (Proc.devRef .tc Cert.KernelIdeal.main_arg12) : Cert.KernelIdeal.S3x64x64.Idx → EReal) = (RW0 m' c (Proc.devRef .tc Cert.ReferenceIdeal.main_arg12) : Cert.KernelIdeal.S3x64x64.Idx → EReal))
    ∧ ((W0 m c (Proc.devRef .tc Cert.KernelIdeal.main_arg13) : Cert.KernelIdeal.S3x64.Idx → EReal) = (RW0 m' c (Proc.devRef .tc Cert.ReferenceIdeal.main_arg13) : Cert.KernelIdeal.S3x64.Idx → EReal))
    ∧ ((W0 m c (Proc.devRef .tc Cert.KernelIdeal.main_arg14) : Cert.KernelIdeal.S3x64x64.Idx → EReal) = (RW0 m' c (Proc.devRef .tc Cert.ReferenceIdeal.main_arg14) : Cert.KernelIdeal.S3x64x64.Idx → EReal))
    ∧ ((W0 m c (Proc.devRef .tc Cert.KernelIdeal.main_arg15) : Cert.KernelIdeal.S3x64.Idx → EReal) = (RW0 m' c (Proc.devRef .tc Cert.ReferenceIdeal.main_arg15) : Cert.KernelIdeal.S3x64.Idx → EReal))
    ∧ ((W0 m c (Proc.devRef .tc Cert.KernelIdeal.main_arg16) : Cert.KernelIdeal.S3x64x64.Idx → EReal) = (RW0 m' c (Proc.devRef .tc Cert.ReferenceIdeal.main_arg16) : Cert.KernelIdeal.S3x64x64.Idx → EReal))
    ∧ ((W0 m c (Proc.devRef .tc Cert.KernelIdeal.main_arg17) : Cert.KernelIdeal.S3x64.Idx → EReal) = (RW0 m' c (Proc.devRef .tc Cert.ReferenceIdeal.main_arg17) : Cert.KernelIdeal.S3x64.Idx → EReal))
    ∧ ((W0 m c (Proc.devRef .tc Cert.KernelIdeal.main_arg18) : Cert.KernelIdeal.S3x64x64.Idx → EReal) = (RW0 m' c (Proc.devRef .tc Cert.ReferenceIdeal.main_arg18) : Cert.KernelIdeal.S3x64x64.Idx → EReal))
    ∧ ((W0 m c (Proc.devRef .tc Cert.KernelIdeal.main_arg19) : Cert.KernelIdeal.S3x64.Idx → EReal) = (RW0 m' c (Proc.devRef .tc Cert.ReferenceIdeal.main_arg19) : Cert.KernelIdeal.S3x64.Idx → EReal))
    ∧ ((W0 m c (Proc.devRef .tc Cert.KernelIdeal.main_arg20) : Cert.KernelIdeal.S3x64.Idx → EReal) = (RW0 m' c (Proc.devRef .tc Cert.ReferenceIdeal.main_arg20) : Cert.KernelIdeal.S3x64.Idx → EReal))
    ∧ ((W0 m c (Proc.devRef .tc Cert.KernelIdeal.main_arg21) : Cert.KernelIdeal.S3x64.Idx → EReal) = (RW0 m' c (Proc.devRef .tc Cert.ReferenceIdeal.main_arg21) : Cert.KernelIdeal.S3x64.Idx → EReal))
    ∧ ((W0 m c (Proc.devRef .tc Cert.KernelIdeal.main_arg22) : Cert.KernelIdeal.S3x64.Idx → EReal) = (RW0 m' c (Proc.devRef .tc Cert.ReferenceIdeal.main_arg22) : Cert.KernelIdeal.S3x64.Idx → EReal))
    ∧ ((W0 m c (Proc.devRef .tc Cert.KernelIdeal.main_arg23) : Cert.KernelIdeal.S3x64.Idx → EReal) = (RW0 m' c (Proc.devRef .tc Cert.ReferenceIdeal.main_arg23) : Cert.KernelIdeal.S3x64.Idx → EReal))
    ∧ ((W0 m c (Proc.devRef .tc Cert.KernelIdeal.main_arg24) : Mat 68 256) = (RW0 m' c (Proc.devRef .tc Cert.ReferenceIdeal.main_arg24) : Mat 68 256))
    ∧ ((W0 m c (Proc.devRef .tc Cert.KernelIdeal.main_arg25) : Cert.KernelIdeal.S256.Idx → EReal) = (RW0 m' c (Proc.devRef .tc Cert.ReferenceIdeal.main_arg25) : Cert.KernelIdeal.S256.Idx → EReal))
    ∧ ((W0 m c (Proc.devRef .tc Cert.KernelIdeal.main_arg26) : Mat 256 256) = (RW0 m' c (Proc.devRef .tc Cert.ReferenceIdeal.main_arg26) : Mat 256 256))
    ∧ ((W0 m c (Proc.devRef .tc Cert.KernelIdeal.main_arg27) : Cert.KernelIdeal.S256.Idx → EReal) = (RW0 m' c (Proc.devRef .tc Cert.ReferenceIdeal.main_arg27) : Cert.KernelIdeal.S256.Idx → EReal))
    ∧ ((W0 m c (Proc.devRef .tc Cert.KernelIdeal.main_arg28) : Mat 256 2) = (RW0 m' c (Proc.devRef .tc Cert.ReferenceIdeal.main_arg28) : Mat 256 2))
    ∧ ((W0 m c (Proc.devRef .tc Cert.KernelIdeal.main_arg29) : Cert.KernelIdeal.S2.Idx → EReal) = (RW0 m' c (Proc.devRef .tc Cert.ReferenceIdeal.main_arg29) : Cert.KernelIdeal.S2.Idx → EReal)) := by
  obtain ⟨a0, a1, a2, a3, a4, a5, a6, a7, a8, a9, a10, a11, a12, a13, a14, a15, a16, a17, a18, a19, a20, a21, a22, a23, a24, a25, a26, a27, a28, a29⟩ := hagree c
  exact ⟨a0.symm, a1.symm, a2.symm, a3.symm, a4.symm, a5.symm, a6.symm, a7.symm, a8.symm, a9.symm, a10.symm, a11.symm, a12.symm, a13.symm, a14.symm, a15.symm, a16.symm, a17.symm, a18.symm, a19.symm, a20.symm, a21.symm, a22.symm, a23.symm, a24.symm, a25.symm, a26.symm, a27.symm, a28.symm, a29.symm⟩

end Cert.Sim

end
-- ==== Proof.Sim.Chain1.lean ====
import proofs.«431450_j74423193305350_1_alg».proof.Proof.KI.Fold
import proofs.«431450_j74423193305350_1_alg».proof.Proof.KI.Host5
import proofs.«431450_j74423193305350_1_alg».proof.Proof.KI.Host6
import proofs.«431450_j74423193305350_1_alg».proof.Proof.KI.Host7
import proofs.«431450_j74423193305350_1_alg».proof.Proof.Ref.Fold
import proofs.«431450_j74423193305350_1_alg».proof.Proof.Ref.RdL1
import proofs.«431450_j74423193305350_1_alg».proof.Proof.Sim.ChainTerms
import proofs.«431450_j74423193305350_1_alg».proof.Proof.Sim.Args
import proofs.«431450_j74423193305350_1_alg».proof.Proof.Spec

/-! Layer 1's host chains that both programs run as the same array operations, kernel against reference: the two sums
    by target node, and the column means and variances and the gain and bias rows of the two normalisations. Each
    side's buffer is read as one named whole-array function (or one argument row) of the array the chain starts from;
    equal starting arrays and equal arguments then give equal results. -/
set_option maxRecDepth 16384

noncomputable section

namespace Cert.Sim

open Cert.KernelIdeal.Hand Cert.ReferenceIdeal.Hand
open Idealize.ShloMosaic Idealize.ShloMosaic.TcCoe Idealize.ShloMosaic.ValueIdx Idealize.ShloMosaic.StableHlo
open Idealize.SL.Sem
open Cert.Spec (Mat)

variable (m : KM) (m' : RM)
variable (c : Dev Cert.KernelIdeal.nD)

/-! ## The arguments the chains read -/

/-- The target-node indices and the four normalisation parameter stacks are still the launch contents where the chains read
    them (no item before writes them), in both programs, and there the two memories agree. -/
theorem chain_args_L1 (hagree : Agree m m') :
    ((W12 m c (Proc.devRef .tc Cert.KernelIdeal.main_arg4) : IVec Cert.KernelIdeal.S400000 32) = (RW1 m' c (Proc.devRef .tc Cert.ReferenceIdeal.main_arg4) : IVec Cert.KernelIdeal.S400000 32))
    ∧ ((W14 m c (Proc.devRef .tc Cert.KernelIdeal.main_arg20) : Cert.KernelIdeal.S3x64.Idx → EReal) = (RW1 m' c (Proc.devRef .tc Cert.ReferenceIdeal.main_arg20) : Cert.KernelIdeal.S3x64.Idx → EReal))
    ∧ ((W14 m c (Proc.devRef .tc Cert.KernelIdeal.main_arg21) : Cert.KernelIdeal.S3x64.Idx → EReal) = (RW1 m' c (Proc.devRef .tc Cert.ReferenceIdeal.main_arg21) : Cert.KernelIdeal.S3x64.Idx → EReal))
    ∧ ((W18 m c (Proc.devRef .tc Cert.KernelIdeal.main_arg22) : Cert.KernelIdeal.S3x64.Idx → EReal) = (RW1 m' c (Proc.devRef .tc Cert.ReferenceIdeal.main_arg22) : Cert.KernelIdeal.S3x64.Idx → EReal))
    ∧ ((W18 m c (Proc.devRef .tc Cert.KernelIdeal.main_arg23) : Cert.KernelIdeal.S3x64.Idx → EReal) = (RW1 m' c (Proc.devRef .tc Cert.ReferenceIdeal.main_arg23) : Cert.KernelIdeal.S3x64.Idx → EReal)) := by
  have h := args_agree m m' hagree c
  refine ⟨?_, ?_, ?_, ?_, ?_⟩
  · refine Eq.trans (((W12_of m c Cert.KernelIdeal.main_arg4 (by decide)).trans ((W11_of m c Cert.KernelIdeal.main_arg4 (by decide)).trans ((W10_of m c Cert.KernelIdeal.main_arg4 (by decide)).trans ((W9_of m c Cert.KernelIdeal.main_arg4 (by decide)).trans ((W8_of m c Cert.KernelIdeal.main_arg4 (by decide)).trans ((W7_of m c Cert.KernelIdeal.main_arg4 (by decide)).trans ((W6_of m c Cert.KernelIdeal.main_arg4 (by decide)).trans ((W5_of m c Cert.KernelIdeal.main_arg4 (by decide)).trans ((W4_of m c Cert.KernelIdeal.main_arg4 (by decide)).trans ((W3_of m c Cert.KernelIdeal.main_arg4 (by decide)).trans ((W2_of m c Cert.KernelIdeal.main_arg4 (by decide)).trans (W1_of m c Cert.KernelIdeal.main_arg4 (by decide))))))))))))) : W12 m c (Proc.devRef .tc Cert.KernelIdeal.main_arg4) = W0 m c (Proc.devRef .tc Cert.KernelIdeal.main_arg4)) ?_
    refine Eq.trans ?_ ((RW1_of m' c Cert.ReferenceIdeal.main_arg4 (by decide)) : RW1 m' c (Proc.devRef .tc Cert.ReferenceIdeal.main_arg4) = RW0 m' c (Proc.devRef .tc Cert.ReferenceIdeal.main_arg4)).symm
    exact h.2.2.2.2.1
  · refine Eq.trans (((W14_of m c Cert.KernelIdeal.main_arg20 (by decide)).trans ((W13_of m c Cert.KernelIdeal.main_arg20 (by decide)).trans ((W12_of m c Cert.KernelIdeal.main_arg20 (by decide)).trans ((W11_of m c Cert.KernelIdeal.main_arg20 (by decide)).trans ((W10_of m c Cert.KernelIdeal.main_arg20 (by decide)).trans ((W9_of m c Cert.KernelIdeal.main_arg20 (by decide)).trans ((W8_of m c Cert.KernelIdeal.main_arg20 (by decide)).trans ((W7_of m c Cert.KernelIdeal.main_arg20 (by decide)).trans ((W6_of m c Cert.KernelIdeal.main_arg20 (by decide)).trans ((W5_of m c Cert.KernelIdeal.main_arg20 (by decide)).trans ((W4_of m c Cert.KernelIdeal.main_arg20 (by decide)).trans ((W3_of m c Cert.KernelIdeal.main_arg20 (by decide)).trans ((W2_of m c Cert.KernelIdeal.main_arg20 (by decide)).trans (W1_of m c Cert.KernelIdeal.main_arg20 (by decide))))))))))))))) : W14 m c (Proc.devRef .tc Cert.KernelIdeal.main_arg20) = W0 m c (Proc.devRef .tc Cert.KernelIdeal.main_arg20)) ?_
    refine Eq.trans ?_ ((RW1_of m' c Cert.ReferenceIdeal.main_arg20 (by decide)) : RW1 m' c (Proc.devRef .tc Cert.ReferenceIdeal.main_arg20) = RW0 m' c (Proc.devRef .tc Cert.ReferenceIdeal.main_arg20)).symm
    exact h.2.2.2.2.2.2.2.2.2.2.2.2.2.2.2.2.2.2.2.2.1
  · refine Eq.trans (((W14_of m c Cert.KernelIdeal.main_arg21 (by decide)).trans ((W13_of m c Cert.KernelIdeal.main_arg21 (by decide)).trans ((W12_of m c Cert.KernelIdeal.main_arg21 (by decide)).trans ((W11_of m c Cert.KernelIdeal.main_arg21 (by decide)).trans ((W10_of m c Cert.KernelIdeal.main_arg21 (by decide)).trans ((W9_of m c Cert.KernelIdeal.main_arg21 (by decide)).trans ((W8_of m c Cert.KernelIdeal.main_arg21 (by decide)).trans ((W7_of m c Cert.KernelIdeal.main_arg21 (by decide)).trans ((W6_of m c Cert.KernelIdeal.main_arg21 (by decide)).trans ((W5_of m c Cert.KernelIdeal.main_arg21 (by decide)).trans ((W4_of m c Cert.KernelIdeal.main_arg21 (by decide)).trans ((W3_of m c Cert.KernelIdeal.main_arg21 (by decide)).trans ((W2_of m c Cert.KernelIdeal.main_arg21 (by decide)).trans (W1_of m c Cert.KernelIdeal.main_arg21 (by decide))))))))))))))) : W14 m c (Proc.devRef .tc Cert.KernelIdeal.main_arg21) = W0 m c (Proc.devRef .tc Cert.KernelIdeal.main_arg21)) ?_
    refine Eq.trans ?_ ((RW1_of m' c Cert.ReferenceIdeal.main_arg21 (by decide)) : RW1 m' c (Proc.devRef .tc Cert.ReferenceIdeal.main_arg21) = RW0 m' c (Proc.devRef .tc Cert.ReferenceIdeal.main_arg21)).symm
    exact h.2.2.2.2.2.2.2.2.2.2.2.2.2.2.2.2.2.2.2.2.2.1
  · refine Eq.trans (((W18_of m c Cert.KernelIdeal.main_arg22 (by decide)).trans ((W17_of m c Cert.KernelIdeal.main_arg22 (by decide)).trans ((W16_of m c Cert.KernelIdeal.main_arg22 (by decide)).trans ((W15_of m c Cert.KernelIdeal.main_arg22 (by decide)).trans ((W14_of m c Cert.KernelIdeal.main_arg22 (by decide)).trans ((W13_of m c Cert.KernelIdeal.main_arg22 (by decide)).trans ((W12_of m c Cert.KernelIdeal.main_arg22 (by decide)).trans ((W11_of m c Cert.KernelIdeal.main_arg22 (by decide)).trans ((W10_of m c Cert.KernelIdeal.main_arg22 (by decide)).trans ((W9_of m c Cert.KernelIdeal.main_arg22 (by decide)).trans ((W8_of m c Cert.KernelIdeal.main_arg22 (by decide)).trans ((W7_of m c Cert.KernelIdeal.main_arg22 (by decide)).trans ((W6_of m c Cert.KernelIdeal.main_arg22 (by decide)).trans ((W5_of m c Cert.KernelIdeal.main_arg22 (by decide)).trans ((W4_of m c Cert.KernelIdeal.main_arg22 (by decide)).trans ((W3_of m c Cert.KernelIdeal.main_arg22 (by decide)).trans ((W2_of m c Cert.KernelIdeal.main_arg22 (by decide)).trans (W1_of m c Cert.KernelIdeal.main_arg22 (by decide))))))))))))))))))) : W18 m c (Proc.devRef .tc Cert.KernelIdeal.main_arg22) = W0 m c (Proc.devRef .tc Cert.KernelIdeal.main_arg22)) ?_
    refine Eq.trans ?_ ((RW1_of m' c Cert.ReferenceIdeal.main_arg22 (by decide)) : RW1 m' c (Proc.devRef .tc Cert.ReferenceIdeal.main_arg22) = RW0 m' c (Proc.devRef .tc Cert.ReferenceIdeal.main_arg22)).symm
    exact h.2.2.2.2.2.2.2.2.2.2.2.2.2.2.2.2.2.2.2.2.2.2.1
  · refine Eq.trans (((W18_of m c Cert.KernelIdeal.main_arg23 (by decide)).trans ((W17_of m c Cert.KernelIdeal.main_arg23 (by decide)).trans ((W16_of m c Cert.KernelIdeal.main_arg23 (by decide)).trans ((W15_of m c Cert.KernelIdeal.main_arg23 (by decide)).trans ((W14_of m c Cert.KernelIdeal.main_arg23 (by decide)).trans ((W13_of m c Cert.KernelIdeal.main_arg23 (by decide)).trans ((W12_of m c Cert.KernelIdeal.main_arg23 (by decide)).trans ((W11_of m c Cert.KernelIdeal.main_arg23 (by decide)).trans ((W10_of m c Cert.KernelIdeal.main_arg23 (by decide)).trans ((W9_of m c Cert.KernelIdeal.main_arg23 (by decide)).trans ((W8_of m c Cert.KernelIdeal.main_arg23 (by decide)).trans ((W7_of m c Cert.KernelIdeal.main_arg23 (by decide)).trans ((W6_of m c Cert.KernelIdeal.main_arg23 (by decide)).trans ((W5_of m c Cert.KernelIdeal.main_arg23 (by decide)).trans ((W4_of m c Cert.KernelIdeal.main_arg23 (by decide)).trans ((W3_of m c Cert.KernelIdeal.main_arg23 (by decide)).trans ((W2_of m c Cert.KernelIdeal.main_arg23 (by decide)).trans (W1_of m c Cert.KernelIdeal.main_arg23 (by decide))))))))))))))))))) : W18 m c (Proc.devRef .tc Cert.KernelIdeal.main_arg23) = W0 m c (Proc.devRef .tc Cert.KernelIdeal.main_arg23)) ?_
    refine Eq.trans ?_ ((RW1_of m' c Cert.ReferenceIdeal.main_arg23 (by decide)) : RW1 m' c (Proc.devRef .tc Cert.ReferenceIdeal.main_arg23) = RW0 m' c (Proc.devRef .tc Cert.ReferenceIdeal.main_arg23)).symm
    exact h.2.2.2.2.2.2.2.2.2.2.2.2.2.2.2.2.2.2.2.2.2.2.2.1

/-! ## The two sums by target node -/

/-- The kernel's sum of the gated messages by target node, as the segment sum of the array the region left. -/
theorem k_v40 : (T13 m c Cert.KernelIdeal.main_v40 : Mat 50000 64) = segSum64 (T12 m c Cert.KernelIdeal.main_v37_2) (W12 m c (Proc.devRef .tc Cert.KernelIdeal.main_arg4)) := by
  show W13 m c _ = _
  unfold W13
  exact host5_v40 (W12 m c)

/-- The reference's sum of the gated messages by target node, as the same segment sum. -/
theorem r_v82 : (RW2 m' c (Proc.devRef .tc Cert.ReferenceIdeal.main_v82) : Mat 50000 64) = segSum64 (RW2 m' c (Proc.devRef .tc Cert.ReferenceIdeal.main_v79)) (RW1 m' c (Proc.devRef .tc Cert.ReferenceIdeal.main_arg4)) := by
  unfold RW2
  rw [rd_main_v82, rd_main_v81, rd_main_v80, rd_main_cst_7]
  exact segSum64_ref _ _

/-- The kernel's sum of the gates by target node, as the segment sum of the array the region left. -/
theorem k_v43 : (T13 m c Cert.KernelIdeal.main_v43 : Mat 50000 64) = segSum64 (T12 m c Cert.KernelIdeal.main_v37_1) (W12 m c (Proc.devRef .tc Cert.KernelIdeal.main_arg4)) := by
  show W13 m c _ = _
  unfold W13
  exact host5_v43 (W12 m c)

/-- The reference's sum of the gates by target node, as the same segment sum. -/
theorem r_v85 : (RW2 m' c (Proc.devRef .tc Cert.ReferenceIdeal.main_v85) : Mat 50000 64) = segSum64 (RW2 m' c (Proc.devRef .tc Cert.ReferenceIdeal.main_v71)) (RW1 m' c (Proc.devRef .tc Cert.ReferenceIdeal.main_arg4)) := by
  unfold RW2
  rw [rd_main_v85, rd_main_v84, rd_main_v83, rd_main_cst_8]
  exact segSum64_ref _ _

/-- Equal gated messages and equal gates give equal sums by target node. -/
theorem scatter_eq_L1 (hagree : Agree m m')
    (hw : (T12 m c Cert.KernelIdeal.main_v37_2 : Mat 400000 64) = (RW2 m' c (Proc.devRef .tc Cert.ReferenceIdeal.main_v79) : Mat 400000 64))
    (hs : (T12 m c Cert.KernelIdeal.main_v37_1 : Mat 400000 64) = (RW2 m' c (Proc.devRef .tc Cert.ReferenceIdeal.main_v71) : Mat 400000 64)) :
    (T13 m c Cert.KernelIdeal.main_v40 : Mat 50000 64) = (RW2 m' c (Proc.devRef .tc Cert.ReferenceIdeal.main_v82) : Mat 50000 64)
      ∧ (T13 m c Cert.KernelIdeal.main_v43 : Mat 50000 64) = (RW2 m' c (Proc.devRef .tc Cert.ReferenceIdeal.main_v85) : Mat 50000 64) :=
  ⟨(k_v40 m c).trans ((congrArg₂ segSum64 hw (chain_args_L1 m m' c hagree).1).trans (r_v82 m' c).symm),
   (k_v43 m c).trans ((congrArg₂ segSum64 hs (chain_args_L1 m m' c hagree).1).trans (r_v85 m' c).symm)⟩

/-! ## The node normalisation's statistics (50000 rows) -/

/-- The kernel's mean row at a column: the column mean of the array the stretches start from. -/
theorem k_v53 (j : Fin 64) : (T17 m c Cert.KernelIdeal.main_v53 : Mat 1 64) (ix2 0 j) = colMeanN (T14 m c Cert.KernelIdeal.main_v44) (ix1 j) := by
  show W17 m c _ _ = _
  unfold W17 W16 W15
  exact host6_v53 (W14 m c) j

/-- The kernel's variance row at a column. -/
theorem k_v54 (j : Fin 64) : (T17 m c Cert.KernelIdeal.main_v54 : Mat 1 64) (ix2 0 j) = colVarN (T14 m c Cert.KernelIdeal.main_v44) (ix1 j) := by
  show W17 m c _ _ = _
  unfold W17 W16 W15
  exact host6_v54 (W14 m c) j

/-- The kernel's gain row at a column: the argument's row 0. -/
theorem k_v55 (j : Fin 64) : (T17 m c Cert.KernelIdeal.main_v55 : Mat 1 64) (ix2 0 j) = (W14 m c (Proc.devRef .tc Cert.KernelIdeal.main_arg20) : Cert.KernelIdeal.S3x64.Idx → EReal) (ix2 0 j) := by
  show W17 m c _ _ = _
  unfold W17 W16 W15
  exact host6_v55 (W14 m c) j

/-- The kernel's bias row at a column: the argument's row 0. -/
theorem k_v56 (j : Fin 64) : (T17 m c Cert.KernelIdeal.main_v56 : Mat 1 64) (ix2 0 j) = (W14 m c (Proc.devRef .tc Cert.KernelIdeal.main_arg21) : Cert.KernelIdeal.S3x64.Idx → EReal) (ix2 0 j) := by
  show W17 m c _ _ = _
  unfold W17 W16 W15
  exact host6_v56 (W14 m c) j

/-- The reference's mean vector: the same column mean. -/
theorem r_v96 : (RW2 m' c (Proc.devRef .tc Cert.ReferenceIdeal.main_v96) : Cert.KernelIdeal.S64.Idx → EReal) = colMeanN (RW2 m' c (Proc.devRef .tc Cert.ReferenceIdeal.main_v89)) := by
  unfold RW2
  rw [rd_main_v96, rd_main_v95, rd_main_cst_11, rd_main_v94, rd_main_cst_10]
  exact colMeanN_ref _

set_option maxHeartbeats 1600000 in
/-- The reference's variance vector: the same column variance. -/
theorem r_v97 : (RW2 m' c (Proc.devRef .tc Cert.ReferenceIdeal.main_v97) : Cert.KernelIdeal.S64.Idx → EReal) = colVarN (RW2 m' c (Proc.devRef .tc Cert.ReferenceIdeal.main_v89)) := by
  unfold RW2
  rw [rd_main_v97, rd_main_call0_call0_v1, rd_main_call0_call0_v0, rd_main_call0_cst_4, rd_main_call0_v12, rd_main_call0_cst_3, rd_main_call0_v11, rd_main_call0_v10, rd_main_call0_v9, rd_main_call0_cst_2, rd_main_call0_v8, rd_main_call0_cst_1, rd_main_call0_v7, rd_main_call0_v6, rd_main_call0_v5, rd_main_call0_v4, rd_main_call0_v3, rd_main_call0_v2, rd_main_call0_cst_0, rd_main_call0_v1, rd_main_call0_v0, rd_main_call0_cst, rd_main_c_12]
  exact colVarN_ref _

/-- The reference's gain vector at an entry: the argument's row 0. -/
theorem r_v91 (j : Fin 64) : (RW2 m' c (Proc.devRef .tc Cert.ReferenceIdeal.main_v91) : Cert.KernelIdeal.S64.Idx → EReal) (ix1 j) = (RW1 m' c (Proc.devRef .tc Cert.ReferenceIdeal.main_arg20) : Cert.KernelIdeal.S3x64.Idx → EReal) (ix2 0 j) := by
  unfold RW2
  rw [rd_main_v91, rd_main_v90]
  exact ref_row0_vec_apply _ j

/-- The reference's bias vector at an entry: the argument's row 0. -/
theorem r_v93 (j : Fin 64) : (RW2 m' c (Proc.devRef .tc Cert.ReferenceIdeal.main_v93) : Cert.KernelIdeal.S64.Idx → EReal) (ix1 j) = (RW1 m' c (Proc.devRef .tc Cert.ReferenceIdeal.main_arg21) : Cert.KernelIdeal.S3x64.Idx → EReal) (ix2 0 j) := by
  unfold RW2
  rw [rd_main_v93, rd_main_v92]
  exact ref_row0_vec_apply _ j

/-- Equal node arrays give equal mean, variance, gain and bias rows. -/
theorem stats_h_L1 (hagree : Agree m m')
    (hx : (T14 m c Cert.KernelIdeal.main_v44 : Mat 50000 64) = (RW2 m' c (Proc.devRef .tc Cert.ReferenceIdeal.main_v89) : Mat 50000 64)) :
    (∀ j : Fin 64, (T17 m c Cert.KernelIdeal.main_v53 : Mat 1 64) (ix2 0 j) = (RW2 m' c (Proc.devRef .tc Cert.ReferenceIdeal.main_v96) : Cert.KernelIdeal.S64.Idx → EReal) (ix1 j))
      ∧ (∀ j : Fin 64, (T17 m c Cert.KernelIdeal.main_v54 : Mat 1 64) (ix2 0 j) = (RW2 m' c (Proc.devRef .tc Cert.ReferenceIdeal.main_v97) : Cert.KernelIdeal.S64.Idx → EReal) (ix1 j))
      ∧ (∀ j : Fin 64, (T17 m c Cert.KernelIdeal.main_v55 : Mat 1 64) (ix2 0 j) = (RW2 m' c (Proc.devRef .tc Cert.ReferenceIdeal.main_v91) : Cert.KernelIdeal.S64.Idx → EReal) (ix1 j))
      ∧ (∀ j : Fin 64, (T17 m c Cert.KernelIdeal.main_v56 : Mat 1 64) (ix2 0 j) = (RW2 m' c (Proc.devRef .tc Cert.ReferenceIdeal.main_v93) : Cert.KernelIdeal.S64.Idx → EReal) (ix1 j)) :=
  ⟨fun j => (k_v53 m c j).trans (congrFun ((congrArg colMeanN hx).trans (r_v96 m' c).symm) (ix1 j)),
   fun j => (k_v54 m c j).trans (congrFun ((congrArg colVarN hx).trans (r_v97 m' c).symm) (ix1 j)),
   fun j => (k_v55 m c j).trans ((congrFun (chain_args_L1 m m' c hagree).2.1 (ix2 0 j)).trans (r_v91 m' c j).symm),
   fun j => (k_v56 m c j).trans ((congrFun (chain_args_L1 m m' c hagree).2.2.1 (ix2 0 j)).trans (r_v93 m' c j).symm)⟩

/-! ## The edge normalisation's statistics (400000 rows) -/

/-- The kernel's mean row at a column: the column mean of the array the stretches start from. -/
theorem k_v66 (j : Fin 64) : (T21 m c Cert.KernelIdeal.main_v66 : Mat 1 64) (ix2 0 j) = colMeanE (W18 m c (Proc.devRef .tc Cert.KernelIdeal.main_v37_0)) (ix1 j) := by
  show W21 m c _ _ = _
  unfold W21 W20 W19
  exact host7_v66 (W18 m c) j

/-- The kernel's variance row at a column. -/
theorem k_v67 (j : Fin 64) : (T21 m c Cert.KernelIdeal.main_v67 : Mat 1 64) (ix2 0 j) = colVarE (W18 m c (Proc.devRef .tc Cert.KernelIdeal.main_v37_0)) (ix1 j) := by
  show W21 m c _ _ = _
  unfold W21 W20 W19
  exact host7_v67 (W18 m c) j

/-- The kernel's gain row at a column: the argument's row 0. -/
theorem k_v68 (j : Fin 64) : (T21 m c Cert.KernelIdeal.main_v68 : Mat 1 64) (ix2 0 j) = (W18 m c (Proc.devRef .tc Cert.KernelIdeal.main_arg22) : Cert.KernelIdeal.S3x64.Idx → EReal) (ix2 0 j) := by
  show W21 m c _ _ = _
  unfold W21 W20 W19
  exact host7_v68 (W18 m c) j

/-- The kernel's bias row at a column: the argument's row 0. -/
theorem k_v69 (j : Fin 64) : (T21 m c Cert.KernelIdeal.main_v69 : Mat 1 64) (ix2 0 j) = (W18 m c (Proc.devRef .tc Cert.KernelIdeal.main_arg23) : Cert.KernelIdeal.S3x64.Idx → EReal) (ix2 0 j) := by
  show W21 m c _ _ = _
  unfold W21 W20 W19
  exact host7_v69 (W18 m c) j

/-- The reference's mean vector: the same column mean. -/
theorem r_v121 : (RW2 m' c (Proc.devRef .tc Cert.ReferenceIdeal.main_v121) : Cert.KernelIdeal.S64.Idx → EReal) = colMeanE (RW2 m' c (Proc.devRef .tc Cert.ReferenceIdeal.main_v65)) := by
  unfold RW2
  rw [rd_main_v121, rd_main_v120, rd_main_cst_15, rd_main_v119, rd_main_cst_14]
  exact colMeanE_ref _

set_option maxHeartbeats 1600000 in
/-- The reference's variance vector: the same column variance. -/
theorem r_v122 : (RW2 m' c (Proc.devRef .tc Cert.ReferenceIdeal.main_v122) : Cert.KernelIdeal.S64.Idx → EReal) = colVarE (RW2 m' c (Proc.devRef .tc Cert.ReferenceIdeal.main_v65)) := by
  unfold RW2
  rw [rd_main_v122, rd_main_call2_call0_v1, rd_main_call2_call0_v0, rd_main_call2_cst_4, rd_main_call2_v12, rd_main_call2_cst_3, rd_main_call2_v11, rd_main_call2_v10, rd_main_call2_v9, rd_main_call2_cst_2, rd_main_call2_v8, rd_main_call2_cst_1, rd_main_call2_v7, rd_main_call2_v6, rd_main_call2_v5, rd_main_call2_v4, rd_main_call2_v3, rd_main_call2_v2, rd_main_call2_cst_0, rd_main_call2_v1, rd_main_call2_v0, rd_main_call2_cst, rd_main_c_16]
  exact colVarE_ref _

/-- The reference's gain vector at an entry: the argument's row 0. -/
theorem r_v116 (j : Fin 64) : (RW2 m' c (Proc.devRef .tc Cert.ReferenceIdeal.main_v116) : Cert.KernelIdeal.S64.Idx → EReal) (ix1 j) = (RW1 m' c (Proc.devRef .tc Cert.ReferenceIdeal.main_arg22) : Cert.KernelIdeal.S3x64.Idx → EReal) (ix2 0 j) := by
  unfold RW2
  rw [rd_main_v116, rd_main_v115]
  exact ref_row0_vec_apply _ j

/-- The reference's bias vector at an entry: the argument's row 0. -/
theorem r_v118 (j : Fin 64) : (RW2 m' c (Proc.devRef .tc Cert.ReferenceIdeal.main_v118) : Cert.KernelIdeal.S64.Idx → EReal) (ix1 j) = (RW1 m' c (Proc.devRef .tc Cert.ReferenceIdeal.main_arg23) : Cert.KernelIdeal.S3x64.Idx → EReal) (ix2 0 j) := by
  unfold RW2
  rw [rd_main_v118, rd_main_v117]
  exact ref_row0_vec_apply _ j

/-- The gate arguments the edge statistics start from are still what the edge region left. -/
theorem k_v37_0_at18 : W18 m c (Proc.devRef .tc Cert.KernelIdeal.main_v37_0) = W12 m c (Proc.devRef .tc Cert.KernelIdeal.main_v37_0) :=
  ((W18_of m c Cert.KernelIdeal.main_v37_0 (by decide)).trans ((W17_of m c Cert.KernelIdeal.main_v37_0 (by decide)).trans ((W16_of m c Cert.KernelIdeal.main_v37_0 (by decide)).trans ((W15_of m c Cert.KernelIdeal.main_v37_0 (by decide)).trans ((W14_of m c Cert.KernelIdeal.main_v37_0 (by decide)).trans (W13_of m c Cert.KernelIdeal.main_v37_0 (by decide)))))))

/-- Equal gate-argument arrays give equal mean, variance, gain and bias rows. -/
theorem stats_e_L1 (hagree : Agree m m')
    (hx : (T12 m c Cert.KernelIdeal.main_v37_0 : Mat 400000 64) = (RW2 m' c (Proc.devRef .tc Cert.ReferenceIdeal.main_v65) : Mat 400000 64)) :
    (∀ j : Fin 64, (T21 m c Cert.KernelIdeal.main_v66 : Mat 1 64) (ix2 0 j) = (RW2 m' c (Proc.devRef .tc Cert.ReferenceIdeal.main_v121) : Cert.KernelIdeal.S64.Idx → EReal) (ix1 j))
      ∧ (∀ j : Fin 64, (T21 m c Cert.KernelIdeal.main_v67 : Mat 1 64) (ix2 0 j) = (RW2 m' c (Proc.devRef .tc Cert.ReferenceIdeal.main_v122) : Cert.KernelIdeal.S64.Idx → EReal) (ix1 j))
      ∧ (∀ j : Fin 64, (T21 m c Cert.KernelIdeal.main_v68 : Mat 1 64) (ix2 0 j) = (RW2 m' c (Proc.devRef .tc Cert.ReferenceIdeal.main_v116) : Cert.KernelIdeal.S64.Idx → EReal) (ix1 j))
      ∧ (∀ j : Fin 64, (T21 m c Cert.KernelIdeal.main_v69 : Mat 1 64) (ix2 0 j) = (RW2 m' c (Proc.devRef .tc Cert.ReferenceIdeal.main_v118) : Cert.KernelIdeal.S64.Idx → EReal) (ix1 j)) := by
  have hx' : (W18 m c (Proc.devRef .tc Cert.KernelIdeal.main_v37_0) : Mat 400000 64) = (RW2 m' c (Proc.devRef .tc Cert.ReferenceIdeal.main_v65) : Mat 400000 64) := (k_v37_0_at18 m c).trans hx
  exact
  ⟨fun j => (k_v66 m c j).trans (congrFun ((congrArg colMeanE hx').trans (r_v121 m' c).symm) (ix1 j)),
   fun j => (k_v67 m c j).trans (congrFun ((congrArg colVarE hx').trans (r_v122 m' c).symm) (ix1 j)),
   fun j => (k_v68 m c j).trans ((congrFun (chain_args_L1 m m' c hagree).2.2.2.1 (ix2 0 j)).trans (r_v116 m' c j).symm),
   fun j => (k_v69 m c j).trans ((congrFun (chain_args_L1 m m' c hagree).2.2.2.2 (ix2 0 j)).trans (r_v118 m' c j).symm)⟩

end Cert.Sim
-- ==== Proof.Sim.Layer1.lean ====
import proofs.«431450_j74423193305350_1_alg».proof.Proof.Sim.Dense1
import proofs.«431450_j74423193305350_1_alg».proof.Proof.Sim.Take1
import proofs.«431450_j74423193305350_1_alg».proof.Proof.Sim.Elem1
import proofs.«431450_j74423193305350_1_alg».proof.Proof.Sim.Chain1

/-! Layer 1 of the network, kernel against reference: if the node and edge feature arrays the layer starts from
    agree, so do the ones it ends with. The layer's steps in order — the dense layers, the three row gathers, the
    gate, the two segment sums, the node update, the node normalisation, the edge normalisation — each one's
    pairing applied to the pairings before it, a buffer no item in between writes carried across those items. -/
set_option maxRecDepth 16384

noncomputable section

namespace Cert.Sim

open Idealize.ShloMosaic Idealize.ShloMosaic.TcCoe Idealize.ShloMosaic.ValueIdx Idealize.ShloMosaic.StableHlo
open Idealize.SL.Sem
open Cert.KernelIdeal.Hand Cert.ReferenceIdeal.Hand
open Cert.Spec (Mat)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

theorem layer1 (hpre : Cert.Pre_KernelIdeal m) (hagree : Agree m m') (c : Dev Cert.KernelIdeal.nD)
    (hh : (T4 m c Cert.KernelIdeal.main_v1 : Mat 50000 64) = (RW1 m' c (Proc.devRef .tc Cert.ReferenceIdeal.main_v5) : Mat 50000 64))
    (he : (T4 m c Cert.KernelIdeal.main_v3 : Mat 400000 64) = (RW1 m' c (Proc.devRef .tc Cert.ReferenceIdeal.main_v9) : Mat 400000 64)) :
    (T22 m c Cert.KernelIdeal.main_v57 : Mat 50000 64) = (RW2 m' c (Proc.devRef .tc Cert.ReferenceIdeal.main_v114) : Mat 50000 64)
      ∧ (T22 m c Cert.KernelIdeal.main_v70 : Mat 400000 64) = (RW2 m' c (Proc.devRef .tc Cert.ReferenceIdeal.main_v139) : Mat 400000 64) := by
  obtain ⟨hA, hB, hD, hE⟩ := (dense1_eqs m m' hagree c).2.2.1 hh
  have hC := (dense1_eqs m m' hagree c).2.2.2 he
  have hD8 : (T8 m c Cert.KernelIdeal.main_v26 : Mat 50000 64) = (RW2 m' c (Proc.devRef .tc Cert.ReferenceIdeal.main_v33) : Mat 50000 64) :=
    Eq.trans (W8_of m c Cert.KernelIdeal.main_v26 (by decide)) hD
  have hE8 : (T8 m c Cert.KernelIdeal.main_v27 : Mat 50000 64) = (RW2 m' c (Proc.devRef .tc Cert.ReferenceIdeal.main_v41) : Mat 50000 64) :=
    Eq.trans (W8_of m c Cert.KernelIdeal.main_v27 (by decide)) hE
  have hB8 : (T8 m c Cert.KernelIdeal.main_v25 : Mat 50000 64) = (RW2 m' c (Proc.devRef .tc Cert.ReferenceIdeal.main_v25) : Mat 50000 64) :=
    Eq.trans (W8_of m c Cert.KernelIdeal.main_v25 (by decide)) hB
  obtain ⟨h34, h35, h36⟩ := take_eq1 m m' hpre hagree c hD8 hE8 hB8
  have h34' : (T11 m c Cert.KernelIdeal.main_v34 : Mat 400000 64) = (RW2 m' c (Proc.devRef .tc Cert.ReferenceIdeal.main_v56) : Mat 400000 64) :=
    Eq.trans ((W11_of m c Cert.KernelIdeal.main_v34 (by decide)).trans (W10_of m c Cert.KernelIdeal.main_v34 (by decide))) h34
  have h35' : (T11 m c Cert.KernelIdeal.main_v35 : Mat 400000 64) = (RW2 m' c (Proc.devRef .tc Cert.ReferenceIdeal.main_v63) : Mat 400000 64) :=
    Eq.trans (W11_of m c Cert.KernelIdeal.main_v35 (by decide)) h35
  have h33' : (T11 m c Cert.KernelIdeal.main_v33 : Mat 400000 64) = (RW2 m' c (Proc.devRef .tc Cert.ReferenceIdeal.main_v49) : Mat 400000 64) :=
    Eq.trans ((W11_of m c Cert.KernelIdeal.main_v33 (by decide)).trans ((W10_of m c Cert.KernelIdeal.main_v33 (by decide)).trans (W9_of m c Cert.KernelIdeal.main_v33 (by decide)))) hC
  obtain ⟨hg0, hg1, hg2⟩ := gate_eq m m' c h34' h35' h33' h36
  obtain ⟨h40, h43⟩ := scatter_eq_L1 m m' c hagree hg2 hg1
  have hA13 : (T13 m c Cert.KernelIdeal.main_v24 : Mat 50000 64) = (RW2 m' c (Proc.devRef .tc Cert.ReferenceIdeal.main_v17) : Mat 50000 64) :=
    Eq.trans ((W13_of m c Cert.KernelIdeal.main_v24 (by decide)).trans ((W12_of m c Cert.KernelIdeal.main_v24 (by decide)).trans ((W11_of m c Cert.KernelIdeal.main_v24 (by decide)).trans ((W10_of m c Cert.KernelIdeal.main_v24 (by decide)).trans ((W9_of m c Cert.KernelIdeal.main_v24 (by decide)).trans (W8_of m c Cert.KernelIdeal.main_v24 (by decide))))))) hA
  have h44 := node_eq m m' c hA13 h40 h43
  obtain ⟨sm, sv, sg, sb⟩ := stats_h_L1 m m' c hagree h44
  have h44' : (T17 m c Cert.KernelIdeal.main_v44 : Mat 50000 64) = (RW2 m' c (Proc.devRef .tc Cert.ReferenceIdeal.main_v89) : Mat 50000 64) :=
    Eq.trans ((W17_of m c Cert.KernelIdeal.main_v44 (by decide)).trans ((W16_of m c Cert.KernelIdeal.main_v44 (by decide)).trans (W15_of m c Cert.KernelIdeal.main_v44 (by decide)))) h44
  have hres : (T17 m c Cert.KernelIdeal.main_v1 : Mat 50000 64) = (RW1 m' c (Proc.devRef .tc Cert.ReferenceIdeal.main_v5) : Mat 50000 64) :=
    Eq.trans ((W17_of m c Cert.KernelIdeal.main_v1 (by decide)).trans ((W16_of m c Cert.KernelIdeal.main_v1 (by decide)).trans ((W15_of m c Cert.KernelIdeal.main_v1 (by decide)).trans ((W14_of m c Cert.KernelIdeal.main_v1 (by decide)).trans ((W13_of m c Cert.KernelIdeal.main_v1 (by decide)).trans ((W12_of m c Cert.KernelIdeal.main_v1 (by decide)).trans ((W11_of m c Cert.KernelIdeal.main_v1 (by decide)).trans ((W10_of m c Cert.KernelIdeal.main_v1 (by decide)).trans ((W9_of m c Cert.KernelIdeal.main_v1 (by decide)).trans ((W8_of m c Cert.KernelIdeal.main_v1 (by decide)).trans ((W7_of m c Cert.KernelIdeal.main_v1 (by decide)).trans ((W6_of m c Cert.KernelIdeal.main_v1 (by decide)).trans (W5_of m c Cert.KernelIdeal.main_v1 (by decide)))))))))))))) hh
  have h57 := bnh_eq m m' c h44' hres sm sv sg sb
  obtain ⟨em, ev, eg, eb⟩ := stats_e_L1 m m' c hagree hg0
  have hg0' : (T21 m c Cert.KernelIdeal.main_v37_0 : Mat 400000 64) = (RW2 m' c (Proc.devRef .tc Cert.ReferenceIdeal.main_v65) : Mat 400000 64) :=
    Eq.trans ((W21_of m c Cert.KernelIdeal.main_v37_0 (by decide)).trans ((W20_of m c Cert.KernelIdeal.main_v37_0 (by decide)).trans ((W19_of m c Cert.KernelIdeal.main_v37_0 (by decide)).trans ((W18_of m c Cert.KernelIdeal.main_v37_0 (by decide)).trans ((W17_of m c Cert.KernelIdeal.main_v37_0 (by decide)).trans ((W16_of m c Cert.KernelIdeal.main_v37_0 (by decide)).trans ((W15_of m c Cert.KernelIdeal.main_v37_0 (by decide)).trans ((W14_of m c Cert.KernelIdeal.main_v37_0 (by decide)).trans (W13_of m c Cert.KernelIdeal.main_v37_0 (by decide)))))))))) hg0
  have hres' : (T21 m c Cert.KernelIdeal.main_v3 : Mat 400000 64) = (RW1 m' c (Proc.devRef .tc Cert.ReferenceIdeal.main_v9) : Mat 400000 64) :=
    Eq.trans ((W21_of m c Cert.KernelIdeal.main_v3 (by decide)).trans ((W20_of m c Cert.KernelIdeal.main_v3 (by decide)).trans ((W19_of m c Cert.KernelIdeal.main_v3 (by decide)).trans ((W18_of m c Cert.KernelIdeal.main_v3 (by decide)).trans ((W17_of m c Cert.KernelIdeal.main_v3 (by decide)).trans ((W16_of m c Cert.KernelIdeal.main_v3 (by decide)).trans ((W15_of m c Cert.KernelIdeal.main_v3 (by decide)).trans ((W14_of m c Cert.KernelIdeal.main_v3 (by decide)).trans ((W13_of m c Cert.KernelIdeal.main_v3 (by decide)).trans ((W12_of m c Cert.KernelIdeal.main_v3 (by decide)).trans ((W11_of m c Cert.KernelIdeal.main_v3 (by decide)).trans ((W10_of m c Cert.KernelIdeal.main_v3 (by decide)).trans ((W9_of m c Cert.KernelIdeal.main_v3 (by decide)).trans ((W8_of m c Cert.KernelIdeal.main_v3 (by decide)).trans ((W7_of m c Cert.KernelIdeal.main_v3 (by decide)).trans ((W6_of m c Cert.KernelIdeal.main_v3 (by decide)).trans (W5_of m c Cert.KernelIdeal.main_v3 (by decide)))))))))))))))))) he
  have h70 := bne_eq m m' c hg0' hres' em ev eg eb
  exact ⟨Eq.trans ((W22_of m c Cert.KernelIdeal.main_v57 (by decide)).trans ((W21_of m c Cert.KernelIdeal.main_v57 (by decide)).trans ((W20_of m c Cert.KernelIdeal.main_v57 (by decide)).trans (W19_of m c Cert.KernelIdeal.main_v57 (by decide))))) h57, h70⟩

end Cert.Sim

end
-- ==== Proof.KI.Val8.lean ====
import proofs.«431450_j74423193305350_1_alg».proof.Proof.KI.Reg8
import proofs.«431450_j74423193305350_1_alg».proof.Proof.Spec
import Idealize.ShloMosaic.Lib.Pipeline.Value
import Idealize.ShloMosaic.Lib.ValueIdx
import Idealize.ShloMosaic.Lib.ValueLayout
import Idealize.ShloMosaic.PureOps.Ideal.Laws

/-! Region 8 (a dense layer: [50000,64] times [64,256] plus a [1,256] bias row, in row blocks of 5000) at the extended
    reals: the body's payload entry by entry, what each grid point writes back as the block of one whole-array
    function, the blocks covering the rows, and so the whole output array as the dense-layer formula of the region's
    whole input arrays. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The payload at an entry -/

theorem lhs_lin8_0 (i : S5000x256.Idx) (q : dot_S5000x64_S64x256_S5000x256_1_0_0_1_n_n.contr.Idx) :
    (dot_S5000x64_S64x256_S5000x256_1_0_0_1_n_n.lhsIdx i q 0).val = (i 0).val := by
  unfold DotDims.lhsIdx
  rw [dif_neg (show ¬(0 : Fin S5000x64.rank) ∈ dot_S5000x64_S64x256_S5000x256_1_0_0_1_n_n.lhsBatch by decide), dif_pos (show (0 : Fin S5000x64.rank) ∈ dot_S5000x64_S64x256_S5000x256_1_0_0_1_n_n.lhsNonContracting by decide)]
  rfl

theorem lhs_lin8_1 (i : S5000x256.Idx) (q : dot_S5000x64_S64x256_S5000x256_1_0_0_1_n_n.contr.Idx) :
    (dot_S5000x64_S64x256_S5000x256_1_0_0_1_n_n.lhsIdx i q 1).val = (q ⟨0, by decide⟩).val :=
  dot_S5000x64_S64x256_S5000x256_1_0_0_1_n_n.lhsIdx_val_of_single rfl i q

theorem rhs_lin8_0 (i : S5000x256.Idx) (q : dot_S5000x64_S64x256_S5000x256_1_0_0_1_n_n.contr.Idx) :
    (dot_S5000x64_S64x256_S5000x256_1_0_0_1_n_n.rhsIdx i q 0).val = (q ⟨0, by decide⟩).val :=
  dot_S5000x64_S64x256_S5000x256_1_0_0_1_n_n.rhsIdx_val_of_single rfl i q

theorem rhs_lin8_1 (i : S5000x256.Idx) (q : dot_S5000x64_S64x256_S5000x256_1_0_0_1_n_n.contr.Idx) :
    (dot_S5000x64_S64x256_S5000x256_1_0_0_1_n_n.rhsIdx i q 1).val = (i 1).val := by
  unfold DotDims.rhsIdx
  rw [dif_neg (show ¬(1 : Fin S64x256.rank) ∈ dot_S5000x64_S64x256_S5000x256_1_0_0_1_n_n.rhsBatch by decide), dif_pos (show (1 : Fin S64x256.rank) ∈ dot_S5000x64_S64x256_S5000x256_1_0_0_1_n_n.rhsNonContracting by decide)]
  rfl

/-- The product at an entry: row p of the left block against column q of the right one. -/
theorem mm8_apply (a : FVec Ideal S5000x64 .bf16) (b : FVec Ideal S64x256 .bf16) (p : Fin 5000) (q : Fin 256) :
    FloatOps.matmul dot_S5000x64_S64x256_S5000x256_1_0_0_1_n_n none a b (constant S5000x256 .f32 0x00000000#32) (ix2 p q)
      = ∑ k : Fin 64, a (ix2 p k) * b (ix2 k q) := by
  rw [Ideal.matmul_constant_zero_apply, ← Equiv.sum_comp (ValueIdx.contrEquiv1 dot_S5000x64_S64x256_S5000x256_1_0_0_1_n_n 64 rfl rfl).symm]
  refine Finset.sum_congr rfl fun k _ => ?_
  have hk := ValueIdx.contrEquiv1_symm_val dot_S5000x64_S64x256_S5000x256_1_0_0_1_n_n 64 rfl rfl k
  have el : dot_S5000x64_S64x256_S5000x256_1_0_0_1_n_n.lhsIdx (ix2 p q) ((ValueIdx.contrEquiv1 dot_S5000x64_S64x256_S5000x256_1_0_0_1_n_n 64 rfl rfl).symm k) = ix2 p k := funext fun a => Fin.ext (by
    match a with
    | ⟨0, _⟩ => exact lhs_lin8_0 _ _
    | ⟨1, _⟩ => exact (lhs_lin8_1 _ _).trans hk)
  have er : dot_S5000x64_S64x256_S5000x256_1_0_0_1_n_n.rhsIdx (ix2 p q) ((ValueIdx.contrEquiv1 dot_S5000x64_S64x256_S5000x256_1_0_0_1_n_n 64 rfl rfl).symm k) = ix2 k q := funext fun a => Fin.ext (by
    match a with
    | ⟨0, _⟩ => exact (rhs_lin8_0 _ _).trans hk
    | ⟨1, _⟩ => exact rhs_lin8_1 _ _)
  rw [el, er]

/-- The bias row spread over the rows, at an entry. -/
theorem bias8_apply (x2 : Vec Ideal S1x256 .f32) (p : Fin 5000) (q : Fin 256) :
    broadcastTo S5000x256 x2 broadcasts_S1x256_S5000x256 (ix2 p q) = x2 (ix2 0 q) :=
  broadcastTo_apply x2 broadcasts_S1x256_S5000x256 (ix2 p q) (ix2 0 q) (fun a => by
    match a with
    | ⟨0, _⟩ => rfl
    | ⟨1, _⟩ => rfl)

/-- The body's payload at an entry: the row of the first block against the column of the second, plus the bias. -/
theorem pay8_apply (x0 : Vec Ideal S5000x64 .f32) (x1 : Vec Ideal S64x256 .f32) (x2 : Vec Ideal S1x256 .f32) (p : Fin 5000) (q : Fin 256) :
    k8_pay1 x0 x1 x2 (ix2 p q) = (∑ k : Fin 64, x0 (ix2 p k) * x1 (ix2 k q)) + x2 (ix2 0 q) := by
  unfold k8_pay1
  rw [shapeCast_self, shapeCast_self, shapeCast_self]
  refine (addf_apply _ _ _).trans ?_
  exact congrArg₂ (· + ·) (mm8_apply _ _ p q) (bias8_apply x2 p q)

/-! ## From blocks to the array -/

variable (V : (c : Dev nD) → (b : Ref sig .tc) → Buf (Elt Ideal) ((c : Thread nD τ).loc b))

theorem offs_zero8 : (![0, 0] : Fin 2 → Nat) = fun _ => 0 := funext fun a => by fin_cases a <;> rfl

/-- The whole output array: the dense layer of the region's whole input arrays. -/
def lin8_whole (c : Dev nD) : S50000x256.Idx → EReal := fun i =>
  Spec.lin (V c main_v57 : S50000x64.Idx → EReal) (V c main_v79 : S64x256.Idx → EReal) (V c main_v89 : S1x256.Idx → EReal) (i 0) (i 1)

/-- The printed index maps, decided over the grid: the row windows' block index is the point, every other is 0. -/
theorem idx_lin8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

theorem pt_lt8 (t : Fin cfg8.N) : t.val < 10 := by have h := t.isLt; have hN : cfg8.N = 10 := N_8; omega

/-- The left window's block at point t is rows 5000 t … of its array. -/
theorem iblk8_0_apply (c : Dev nD) (t : Fin cfg8.N) (p : Fin 5000) (k : Fin 64) :
    (iblk8 V c 0 t : Vec Ideal S5000x64 .f32) (ix2 p k) = (V c main_v57 : S50000x64.Idx → EReal) (ix2 ⟨t.val * 5000 + p.val, by have := pt_lt8 t; have := p.isLt; omega⟩ k) := by
  obtain ⟨e0, e1, -, -, -, -, -, -⟩ := idx_lin8 t
  unfold iblk8
  rw [View.read_apply]
  show V c main_v57 _ = V c main_v57 _
  congr 1
  funext a
  apply Fin.ext
  match a with
  | ⟨0, _⟩ => show win8_0.index t (0 : Fin 2) * 5000 + 1 * p.val = t.val * 5000 + p.val; rw [e0]; omega
  | ⟨1, _⟩ => show win8_0.index t (1 : Fin 2) * 64 + 1 * k.val = k.val; rw [e1]; omega

/-- The weight window's block at every point is its whole array. -/
theorem iblk8_1_apply (c : Dev nD) (t : Fin cfg8.N) (k : Fin 64) (q : Fin 256) :
    (iblk8 V c 1 t : Vec Ideal S64x256 .f32) (ix2 k q) = (V c main_v79 : S64x256.Idx → EReal) (ix2 k q) := by
  obtain ⟨-, -, e2, e3, -, -, -, -⟩ := idx_lin8 t
  unfold iblk8
  rw [View.read_apply]
  show V c main_v79 _ = V c main_v79 _
  congr 1
  funext a
  apply Fin.ext
  match a with
  | ⟨0, _⟩ => show win8_1.index t (0 : Fin 2) * 64 + 1 * k.val = k.val; rw [e2]; omega
  | ⟨1, _⟩ => show win8_1.index t (1 : Fin 2) * 256 + 1 * q.val = q.val; rw [e3]; omega

/-- The bias window's block at every point is its whole row. -/
theorem iblk8_2_apply (c : Dev nD) (t : Fin cfg8.N) (q : Fin 256) :
    (iblk8 V c 2 t : Vec Ideal S1x256 .f32) (ix2 0 q) = (V c main_v89 : S1x256.Idx → EReal) (ix2 0 q) := by
  obtain ⟨-, -, -, -, e4, e5, -, -⟩ := idx_lin8 t
  unfold iblk8
  rw [View.read_apply]
  show V c main_v89 _ = V c main_v89 _
  congr 1
  funext a
  apply Fin.ext
  match a with
  | ⟨0, _⟩ => show win8_2.index t (0 : Fin 2) * 1 + 1 * 0 = 0; rw [e4]
  | ⟨1, _⟩ => show win8_2.index t (1 : Fin 2) * 256 + 1 * q.val = q.val; rw [e5]; omega

/-- What point t writes back is block t of the whole-array dense layer. -/
theorem flushed8_3_eq (c : Dev nD) (t : Fin cfg8.N) :
    (dat8 (F := Ideal) V c).flushed 3 t = ((cfg8.win 3).blk t).view.read (Elt Ideal) (lin8_whole V c) := by
  show (cfg8.win 3).cut (grid8.coords t) ((dat8 V c).after 3 t) = _
  rw [after8_3]
  unfold out8_3
  rw [View.canon_unit_zero offs_zero8]
  simp only [View.ld_unit_zero (S := S5000x64) offs_zero8, View.ld_unit_zero (S := S64x256) offs_zero8, View.ld_unit_zero (S := S1x256) offs_zero8]
  obtain ⟨-, -, -, -, -, -, e6, e7⟩ := idx_lin8 t
  refine funext fun (j : S5000x256.Idx) => ?_
  obtain ⟨p, q, rfl⟩ : ∃ (p : Fin 5000) (q : Fin 256), j = ix2 p q := ⟨j 0, j 1, eq_ix2 j⟩
  show k8_pay1 (iblk8 V c 0 t) (iblk8 V c 1 t) (iblk8 V c 2 t) (ix2 p q) = lin8_whole V c (((cfg8.win 3).blk t).view.emb (ix2 p q))
  rw [pay8_apply, iblk8_2_apply V c t q]
  unfold lin8_whole Spec.lin
  have hr : ((cfg8.win 3).blk t).view.emb (ix2 p q) 0 = (⟨t.val * 5000 + p.val, by have := pt_lt8 t; have := p.isLt; omega⟩ : Fin 50000) :=
    Fin.ext (by show win8_3.index t (0 : Fin 2) * 5000 + 1 * p.val = t.val * 5000 + p.val; rw [e6]; omega)
  have hq : ((cfg8.win 3).blk t).view.emb (ix2 p q) 1 = (q : Fin 256) :=
    Fin.ext (by show win8_3.index t (1 : Fin 2) * 256 + 1 * q.val = q.val; rw [e7]; omega)
  rw [hr, hq]
  exact congrArg (· + _) (Finset.sum_congr rfl fun k _ => congrArg₂ (· * ·) (iblk8_0_apply V c t p k) (iblk8_1_apply V c t k q))

/-- An index of the output array is in point t's block iff each coordinate is in the block's range on its axis. -/
theorem mem_blk8_3 (t : Fin cfg8.N) (i : S50000x256.Idx) :
    i ∈ ((cfg8.win 3).blk t).view.set ↔ ∀ a : Fin 2, win8_3.index t a * S5000x256.size a ≤ (i a).val ∧ (i a).val < win8_3.index t a * S5000x256.size a + S5000x256.size a := by
  show i ∈ ((View.whole main_v90).slice (win8_3.rect t)).set ↔ _
  rw [View.set_slice_whole, Rect.mem_set_unit]
  exact Iff.rfl

/-- Row r of the output is written back by the point r / 5000. -/
theorem cover8_3_rows (i : S50000x256.Idx) : ∃ t : Fin cfg8.N, (cfg8.win 3).flush t = true ∧ i ∈ ((cfg8.win 3).blk t).view.set := by
  have hi0 : (i 0).val < 50000 := (i 0).isLt
  have hi1 : (i 1).val < 256 := (i 1).isLt
  have hN : cfg8.N = 10 := N_8
  refine ⟨⟨(i 0).val / 5000, by rw [hN]; omega⟩, flush8_3 _, ?_⟩
  rw [mem_blk8_3]
  obtain ⟨-, -, -, -, -, -, e6, e7⟩ := idx_lin8 ⟨(i 0).val / 5000, by rw [hN]; omega⟩
  intro a
  match a with
  | ⟨0, _⟩ => show win8_3.index _ (0 : Fin 2) * 5000 ≤ (i 0).val ∧ (i 0).val < win8_3.index _ (0 : Fin 2) * 5000 + 5000; rw [e6]; show (i 0).val / 5000 * 5000 ≤ (i 0).val ∧ (i 0).val < (i 0).val / 5000 * 5000 + 5000; omega
  | ⟨1, _⟩ => show win8_3.index _ (1 : Fin 2) * 256 ≤ (i 1).val ∧ (i 1).val < win8_3.index _ (1 : Fin 2) * 256 + 256; rw [e7]; omega

/-- The output array after the region's last point is the dense layer of the whole input arrays. -/
theorem final8_3 (c : Dev nD) : (dat8 (F := Ideal) V c).arrAt 3 cfg8.N = lin8_whole V c :=
  (dat8 (F := Ideal) V c).arrAt_eq_of_cover 3 (lin8_whole V c) (fun t _ => flushed8_3_eq V c t) (cover8_3_rows)

/-- … read at an entry. -/
theorem final8_3_apply (c : Dev nD) (r : Fin 50000) (j : Fin 256) :
    (dat8 (F := Ideal) V c).arrAt 3 cfg8.N (ValueIdx.ix2 r j)
      = Spec.lin (V c main_v57 : S50000x64.Idx → EReal) (V c main_v79 : S64x256.Idx → EReal) (V c main_v89 : S1x256.Idx → EReal) r j := by
  rw [final8_3]
  rfl

end Cert.KernelIdeal.Hand

end
-- ==== Proof.KI.Val9.lean ====
import proofs.«431450_j74423193305350_1_alg».proof.Proof.KI.Reg9
import proofs.«431450_j74423193305350_1_alg».proof.Proof.Spec
import Idealize.ShloMosaic.Lib.Pipeline.Value
import Idealize.ShloMosaic.Lib.ValueIdx
import Idealize.ShloMosaic.Lib.ValueLayout
import Idealize.ShloMosaic.PureOps.Ideal.Laws

/-! Region 9 (a dense layer: [400000,64] times [64,64] plus a [1,64] bias row, in row blocks of 4000) at the extended
    reals: the body's payload entry by entry, what each grid point writes back as the block of one whole-array
    function, the blocks covering the rows, and so the whole output array as the dense-layer formula of the region's
    whole input arrays. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The payload at an entry -/

theorem lhs_lin9_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl

theorem lhs_lin9_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q

theorem rhs_lin9_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q

theorem rhs_lin9_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The product at an entry: row p of the left block against column q of the right one. -/
theorem mm9_apply (a : FVec Ideal S4000x64 .bf16) (b : FVec Ideal S64x64 .bf16) (p : Fin 4000) (q : Fin 64) :
    FloatOps.matmul dot_S4000x64_S64x64_S4000x64_1_0_0_1_n_n none a b (constant S4000x64 .f32 0x00000000#32) (ix2 p q)
      = ∑ k : Fin 64, a (ix2 p k) * b (ix2 k q) := by
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact lhs_lin9_0 _ _
    | ⟨1, _⟩ => exact (lhs_lin9_1 _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (rhs_lin9_0 _ _).trans hk
    | ⟨1, _⟩ => exact rhs_lin9_1 _ _)
  rw [el, er]

/-- The bias row spread over the rows, at an entry. -/
theorem bias9_apply (x2 : Vec Ideal S1x64 .f32) (p : Fin 4000) (q : Fin 64) :
    broadcastTo S4000x64 x2 broadcasts_S1x64_S4000x64 (ix2 p q) = x2 (ix2 0 q) :=
  broadcastTo_apply x2 broadcasts_S1x64_S4000x64 (ix2 p q) (ix2 0 q) (fun a => by
    match a with
    | ⟨0, _⟩ => rfl
    | ⟨1, _⟩ => rfl)

/-- The body's payload at an entry: the row of the first block against the column of the second, plus the bias. -/
theorem pay9_apply (x0 : Vec Ideal S4000x64 .f32) (x1 : Vec Ideal S64x64 .f32) (x2 : Vec Ideal S1x64 .f32) (p : Fin 4000) (q : Fin 64) :
    k9_pay1 x0 x1 x2 (ix2 p q) = (∑ k : Fin 64, x0 (ix2 p k) * x1 (ix2 k q)) + x2 (ix2 0 q) := by
  unfold k9_pay1
  rw [shapeCast_self, shapeCast_self, shapeCast_self]
  refine (addf_apply _ _ _).trans ?_
  exact congrArg₂ (· + ·) (mm9_apply _ _ p q) (bias9_apply x2 p q)

/-! ## From blocks to the array -/

variable (V : (c : Dev nD) → (b : Ref sig .tc) → Buf (Elt Ideal) ((c : Thread nD τ).loc b))

theorem offs_zero9 : (![0, 0] : Fin 2 → Nat) = fun _ => 0 := funext fun a => by fin_cases a <;> rfl

/-- The whole output array: the dense layer of the region's whole input arrays. -/
def lin9_whole (c : Dev nD) : S400000x64.Idx → EReal := fun i =>
  Spec.lin (V c main_v70 : S400000x64.Idx → EReal) (V c main_v96 : S64x64.Idx → EReal) (V c main_v99 : S1x64.Idx → EReal) (i 0) (i 1)

/-- The printed index maps, decided over the grid: the row windows' block index is the point, every other is 0. -/
theorem idx_lin9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

theorem pt_lt9 (t : Fin cfg9.N) : t.val < 100 := by have h := t.isLt; have hN : cfg9.N = 100 := N_9; omega

/-- The left window's block at point t is rows 4000 t … of its array. -/
theorem iblk9_0_apply (c : Dev nD) (t : Fin cfg9.N) (p : Fin 4000) (k : Fin 64) :
    (iblk9 V c 0 t : Vec Ideal S4000x64 .f32) (ix2 p k) = (V c main_v70 : S400000x64.Idx → EReal) (ix2 ⟨t.val * 4000 + p.val, by have := pt_lt9 t; have := p.isLt; omega⟩ k) := by
  obtain ⟨e0, e1, -, -, -, -, -, -⟩ := idx_lin9 t
  unfold iblk9
  rw [View.read_apply]
  show V c main_v70 _ = V c main_v70 _
  congr 1
  funext a
  apply Fin.ext
  match a with
  | ⟨0, _⟩ => show win9_0.index t (0 : Fin 2) * 4000 + 1 * p.val = t.val * 4000 + p.val; rw [e0]; omega
  | ⟨1, _⟩ => show win9_0.index t (1 : Fin 2) * 64 + 1 * k.val = k.val; rw [e1]; omega

/-- The weight window's block at every point is its whole array. -/
theorem iblk9_1_apply (c : Dev nD) (t : Fin cfg9.N) (k : Fin 64) (q : Fin 64) :
    (iblk9 V c 1 t : Vec Ideal S64x64 .f32) (ix2 k q) = (V c main_v96 : S64x64.Idx → EReal) (ix2 k q) := by
  obtain ⟨-, -, e2, e3, -, -, -, -⟩ := idx_lin9 t
  unfold iblk9
  rw [View.read_apply]
  show V c main_v96 _ = V c main_v96 _
  congr 1
  funext a
  apply Fin.ext
  match a with
  | ⟨0, _⟩ => show win9_1.index t (0 : Fin 2) * 64 + 1 * k.val = k.val; rw [e2]; omega
  | ⟨1, _⟩ => show win9_1.index t (1 : Fin 2) * 64 + 1 * q.val = q.val; rw [e3]; omega

/-- The bias window's block at every point is its whole row. -/
theorem iblk9_2_apply (c : Dev nD) (t : Fin cfg9.N) (q : Fin 64) :
    (iblk9 V c 2 t : Vec Ideal S1x64 .f32) (ix2 0 q) = (V c main_v99 : S1x64.Idx → EReal) (ix2 0 q) := by
  obtain ⟨-, -, -, -, e4, e5, -, -⟩ := idx_lin9 t
  unfold iblk9
  rw [View.read_apply]
  show V c main_v99 _ = V c main_v99 _
  congr 1
  funext a
  apply Fin.ext
  match a with
  | ⟨0, _⟩ => show win9_2.index t (0 : Fin 2) * 1 + 1 * 0 = 0; rw [e4]
  | ⟨1, _⟩ => show win9_2.index t (1 : Fin 2) * 64 + 1 * q.val = q.val; rw [e5]; omega

/-- What point t writes back is block t of the whole-array dense layer. -/
theorem flushed9_3_eq (c : Dev nD) (t : Fin cfg9.N) :
    (dat9 (F := Ideal) V c).flushed 3 t = ((cfg9.win 3).blk t).view.read (Elt Ideal) (lin9_whole V c) := by
  show (cfg9.win 3).cut (grid9.coords t) ((dat9 V c).after 3 t) = _
  rw [after9_3]
  unfold out9_3
  rw [View.canon_unit_zero offs_zero9]
  simp only [View.ld_unit_zero (S := S4000x64) offs_zero9, View.ld_unit_zero (S := S64x64) offs_zero9, View.ld_unit_zero (S := S1x64) offs_zero9]
  obtain ⟨-, -, -, -, -, -, e6, e7⟩ := idx_lin9 t
  refine funext fun (j : S4000x64.Idx) => ?_
  obtain ⟨p, q, rfl⟩ : ∃ (p : Fin 4000) (q : Fin 64), j = ix2 p q := ⟨j 0, j 1, eq_ix2 j⟩
  show k9_pay1 (iblk9 V c 0 t) (iblk9 V c 1 t) (iblk9 V c 2 t) (ix2 p q) = lin9_whole V c (((cfg9.win 3).blk t).view.emb (ix2 p q))
  rw [pay9_apply, iblk9_2_apply V c t q]
  unfold lin9_whole Spec.lin
  have hr : ((cfg9.win 3).blk t).view.emb (ix2 p q) 0 = (⟨t.val * 4000 + p.val, by have := pt_lt9 t; have := p.isLt; omega⟩ : Fin 400000) :=
    Fin.ext (by show win9_3.index t (0 : Fin 2) * 4000 + 1 * p.val = t.val * 4000 + p.val; rw [e6]; omega)
  have hq : ((cfg9.win 3).blk t).view.emb (ix2 p q) 1 = (q : Fin 64) :=
    Fin.ext (by show win9_3.index t (1 : Fin 2) * 64 + 1 * q.val = q.val; rw [e7]; omega)
  rw [hr, hq]
  exact congrArg (· + _) (Finset.sum_congr rfl fun k _ => congrArg₂ (· * ·) (iblk9_0_apply V c t p k) (iblk9_1_apply V c t k q))

/-- An index of the output array is in point t's block iff each coordinate is in the block's range on its axis. -/
theorem mem_blk9_3 (t : Fin cfg9.N) (i : S400000x64.Idx) :
    i ∈ ((cfg9.win 3).blk t).view.set ↔ ∀ a : Fin 2, win9_3.index t a * S4000x64.size a ≤ (i a).val ∧ (i a).val < win9_3.index t a * S4000x64.size a + S4000x64.size a := by
  show i ∈ ((View.whole main_v100).slice (win9_3.rect t)).set ↔ _
  rw [View.set_slice_whole, Rect.mem_set_unit]
  exact Iff.rfl

/-- Row r of the output is written back by the point r / 4000. -/
theorem cover9_3_rows (i : S400000x64.Idx) : ∃ t : Fin cfg9.N, (cfg9.win 3).flush t = true ∧ i ∈ ((cfg9.win 3).blk t).view.set := by
  have hi0 : (i 0).val < 400000 := (i 0).isLt
  have hi1 : (i 1).val < 64 := (i 1).isLt
  have hN : cfg9.N = 100 := N_9
  refine ⟨⟨(i 0).val / 4000, by rw [hN]; omega⟩, flush9_3 _, ?_⟩
  rw [mem_blk9_3]
  obtain ⟨-, -, -, -, -, -, e6, e7⟩ := idx_lin9 ⟨(i 0).val / 4000, by rw [hN]; omega⟩
  intro a
  match a with
  | ⟨0, _⟩ => show win9_3.index _ (0 : Fin 2) * 4000 ≤ (i 0).val ∧ (i 0).val < win9_3.index _ (0 : Fin 2) * 4000 + 4000; rw [e6]; show (i 0).val / 4000 * 4000 ≤ (i 0).val ∧ (i 0).val < (i 0).val / 4000 * 4000 + 4000; omega
  | ⟨1, _⟩ => show win9_3.index _ (1 : Fin 2) * 64 ≤ (i 1).val ∧ (i 1).val < win9_3.index _ (1 : Fin 2) * 64 + 64; rw [e7]; omega

/-- The output array after the region's last point is the dense layer of the whole input arrays. -/
theorem final9_3 (c : Dev nD) : (dat9 (F := Ideal) V c).arrAt 3 cfg9.N = lin9_whole V c :=
  (dat9 (F := Ideal) V c).arrAt_eq_of_cover 3 (lin9_whole V c) (fun t _ => flushed9_3_eq V c t) (cover9_3_rows)

/-- … read at an entry. -/
theorem final9_3_apply (c : Dev nD) (r : Fin 400000) (j : Fin 64) :
    (dat9 (F := Ideal) V c).arrAt 3 cfg9.N (ValueIdx.ix2 r j)
      = Spec.lin (V c main_v70 : S400000x64.Idx → EReal) (V c main_v96 : S64x64.Idx → EReal) (V c main_v99 : S1x64.Idx → EReal) r j := by
  rw [final9_3]
  rfl

end Cert.KernelIdeal.Hand

end
-- ==== Proof.KI.Host8.lean ====
import proofs.«431450_j74423193305350_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

/-! Host stretch 8: the four square weight matrices of layer row 1 laid side by side as one [64,256] matrix, and their four bias vectors end to end as one [1,256] row, each read at an entry, from any contents of the buffers. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : Valuation τ sig (Elt Ideal))

/-- Row 1 of a stack of three matrices, as a matrix, at an entry. -/
private theorem row1_mat_apply (X : S3x64x64.Idx → EReal) (k j : Fin 64) :
    shapeCast S64x64 (extractStridedSlice S1x64x64 ![1, 0, 0] X slices_S3x64x64_S1x64x64_1_0_0) shapeCasts_S1x64x64_S64x64 (ix2 k j)
      = X (ix3 1 k j) := by
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- Row 1 of a stack of three vectors, as a vector, at an entry. -/
private theorem row1_vec_apply (X : S3x64.Idx → EReal) (j : Fin 64) :
    shapeCast S64 (extractStridedSlice S1x64 ![1, 0] X slices_S3x64_S1x64_1_0) shapeCasts_S1x64_S64 (ix1 j)
      = X (ix2 1 j) := by
  rw [shapeCast_1a_a_apply]
  exact slice2_axis0_apply 1 X slices_S3x64_S1x64_1_0 0 j 1 rfl

/-- Four 64-column blocks side by side, read in block 0. -/
private theorem cat4_0 (x0 x1 x2 x3 : S64x64.Idx → EReal) (k j : Fin 64) (c : Fin 256) (hc : c.val = 0 + j.val) :
    concatenate S64x256 1 [⟨S64x64, x0⟩, ⟨S64x64, x1⟩, ⟨S64x64, x2⟩, ⟨S64x64, x3⟩] concatenates_S64x64_S64x64_S64x64_S64x64_S64x256_d1 (ix2 k c) = x0 (ix2 k j) :=
  concatenate_apply_piece (t := S64x256) (1 : Fin 2) [⟨S64x64, x0⟩, ⟨S64x64, x1⟩, ⟨S64x64, x2⟩, ⟨S64x64, x3⟩] _ (ix2 k c) 0 (by simp) S64x64 x0 rfl rfl 0 rfl (ix2 k j)
    (fun b hb => by
      match b with
      | ⟨0, _⟩ => rfl
      | ⟨1, _⟩ => exact absurd rfl hb)
    (by show 0 + j.val = c.val; omega)

/-- Four 64-column blocks side by side, read in block 1. -/
private theorem cat4_1 (x0 x1 x2 x3 : S64x64.Idx → EReal) (k j : Fin 64) (c : Fin 256) (hc : c.val = 64 + j.val) :
    concatenate S64x256 1 [⟨S64x64, x0⟩, ⟨S64x64, x1⟩, ⟨S64x64, x2⟩, ⟨S64x64, x3⟩] concatenates_S64x64_S64x64_S64x64_S64x64_S64x256_d1 (ix2 k c) = x1 (ix2 k j) :=
  concatenate_apply_piece (t := S64x256) (1 : Fin 2) [⟨S64x64, x0⟩, ⟨S64x64, x1⟩, ⟨S64x64, x2⟩, ⟨S64x64, x3⟩] _ (ix2 k c) 1 (by simp) S64x64 x1 rfl rfl 64 rfl (ix2 k j)
    (fun b hb => by
      match b with
      | ⟨0, _⟩ => rfl
      | ⟨1, _⟩ => exact absurd rfl hb)
    (by show 64 + j.val = c.val; omega)

/-- Four 64-column blocks side by side, read in block 2. -/
private theorem cat4_2 (x0 x1 x2 x3 : S64x64.Idx → EReal) (k j : Fin 64) (c : Fin 256) (hc : c.val = 128 + j.val) :
    concatenate S64x256 1 [⟨S64x64, x0⟩, ⟨S64x64, x1⟩, ⟨S64x64, x2⟩, ⟨S64x64, x3⟩] concatenates_S64x64_S64x64_S64x64_S64x64_S64x256_d1 (ix2 k c) = x2 (ix2 k j) :=
  concatenate_apply_piece (t := S64x256) (1 : Fin 2) [⟨S64x64, x0⟩, ⟨S64x64, x1⟩, ⟨S64x64, x2⟩, ⟨S64x64, x3⟩] _ (ix2 k c) 2 (by simp) S64x64 x2 rfl rfl 128 rfl (ix2 k j)
    (fun b hb => by
      match b with
      | ⟨0, _⟩ => rfl
      | ⟨1, _⟩ => exact absurd rfl hb)
    (by show 128 + j.val = c.val; omega)

/-- Four 64-column blocks side by side, read in block 3. -/
private theorem cat4_3 (x0 x1 x2 x3 : S64x64.Idx → EReal) (k j : Fin 64) (c : Fin 256) (hc : c.val = 192 + j.val) :
    concatenate S64x256 1 [⟨S64x64, x0⟩, ⟨S64x64, x1⟩, ⟨S64x64, x2⟩, ⟨S64x64, x3⟩] concatenates_S64x64_S64x64_S64x64_S64x64_S64x256_d1 (ix2 k c) = x3 (ix2 k j) :=
  concatenate_apply_piece (t := S64x256) (1 : Fin 2) [⟨S64x64, x0⟩, ⟨S64x64, x1⟩, ⟨S64x64, x2⟩, ⟨S64x64, x3⟩] _ (ix2 k c) 3 (by simp) S64x64 x3 rfl rfl 192 rfl (ix2 k j)
    (fun b hb => by
      match b with
      | ⟨0, _⟩ => rfl
      | ⟨1, _⟩ => exact absurd rfl hb)
    (by show 192 + j.val = c.val; omega)

/-- Four 64-entry vectors end to end, read in piece 0. -/
private theorem cat4v_0 (x0 x1 x2 x3 : S64.Idx → EReal) (j : Fin 64) (c : Fin 256) (hc : c.val = 0 + j.val) :
    concatenate S256 0 [⟨S64, x0⟩, ⟨S64, x1⟩, ⟨S64, x2⟩, ⟨S64, x3⟩] concatenates_S64_S64_S64_S64_S256_d0 (ix1 c) = x0 (ix1 j) :=
  concatenate_apply_piece (t := S256) (0 : Fin 1) [⟨S64, x0⟩, ⟨S64, x1⟩, ⟨S64, x2⟩, ⟨S64, x3⟩] _ (ix1 c) 0 (by simp) S64 x0 rfl rfl 0 rfl (ix1 j)
    (fun b hb => by
      match b with
      | ⟨0, _⟩ => exact absurd rfl hb)
    (by show 0 + j.val = c.val; omega)

/-- Four 64-entry vectors end to end, read in piece 1. -/
private theorem cat4v_1 (x0 x1 x2 x3 : S64.Idx → EReal) (j : Fin 64) (c : Fin 256) (hc : c.val = 64 + j.val) :
    concatenate S256 0 [⟨S64, x0⟩, ⟨S64, x1⟩, ⟨S64, x2⟩, ⟨S64, x3⟩] concatenates_S64_S64_S64_S64_S256_d0 (ix1 c) = x1 (ix1 j) :=
  concatenate_apply_piece (t := S256) (0 : Fin 1) [⟨S64, x0⟩, ⟨S64, x1⟩, ⟨S64, x2⟩, ⟨S64, x3⟩] _ (ix1 c) 1 (by simp) S64 x1 rfl rfl 64 rfl (ix1 j)
    (fun b hb => by
      match b with
      | ⟨0, _⟩ => exact absurd rfl hb)
    (by show 64 + j.val = c.val; omega)

/-- Four 64-entry vectors end to end, read in piece 2. -/
private theorem cat4v_2 (x0 x1 x2 x3 : S64.Idx → EReal) (j : Fin 64) (c : Fin 256) (hc : c.val = 128 + j.val) :
    concatenate S256 0 [⟨S64, x0⟩, ⟨S64, x1⟩, ⟨S64, x2⟩, ⟨S64, x3⟩] concatenates_S64_S64_S64_S64_S256_d0 (ix1 c) = x2 (ix1 j) :=
  concatenate_apply_piece (t := S256) (0 : Fin 1) [⟨S64, x0⟩, ⟨S64, x1⟩, ⟨S64, x2⟩, ⟨S64, x3⟩] _ (ix1 c) 2 (by simp) S64 x2 rfl rfl 128 rfl (ix1 j)
    (fun b hb => by
      match b with
      | ⟨0, _⟩ => exact absurd rfl hb)
    (by show 128 + j.val = c.val; omega)

/-- Four 64-entry vectors end to end, read in piece 3. -/
private theorem cat4v_3 (x0 x1 x2 x3 : S64.Idx → EReal) (j : Fin 64) (c : Fin 256) (hc : c.val = 192 + j.val) :
    concatenate S256 0 [⟨S64, x0⟩, ⟨S64, x1⟩, ⟨S64, x2⟩, ⟨S64, x3⟩] concatenates_S64_S64_S64_S64_S256_d0 (ix1 c) = x3 (ix1 j) :=
  concatenate_apply_piece (t := S256) (0 : Fin 1) [⟨S64, x0⟩, ⟨S64, x1⟩, ⟨S64, x2⟩, ⟨S64, x3⟩] _ (ix1 c) 3 (by simp) S64 x3 rfl rfl 192 rfl (ix1 j)
    (fun b hb => by
      match b with
      | ⟨0, _⟩ => exact absurd rfl hb)
    (by show 192 + j.val = c.val; omega)

/-- The weight matrix after the stretch: the four row-1 matrices side by side. -/
theorem host8_v79_eq :
    (StableHlo.after (hostOps8 (F := Ideal)) V (Proc.devRef .tc main_v79) : S64x256.Idx → EReal)
      = concatenate S64x256 1 [⟨S64x64, shapeCast S64x64 (extractStridedSlice S1x64x64 ![1, 0, 0] (V (Proc.devRef .tc main_arg10) : S3x64x64.Idx → EReal) slices_S3x64x64_S1x64x64_1_0_0) shapeCasts_S1x64x64_S64x64⟩, ⟨S64x64, shapeCast S64x64 (extractStridedSlice S1x64x64 ![1, 0, 0] (V (Proc.devRef .tc main_arg12) : S3x64x64.Idx → EReal) slices_S3x64x64_S1x64x64_1_0_0) shapeCasts_S1x64x64_S64x64⟩, ⟨S64x64, shapeCast S64x64 (extractStridedSlice S1x64x64 ![1, 0, 0] (V (Proc.devRef .tc main_arg16) : S3x64x64.Idx → EReal) slices_S3x64x64_S1x64x64_1_0_0) shapeCasts_S1x64x64_S64x64⟩, ⟨S64x64, shapeCast S64x64 (extractStridedSlice S1x64x64 ![1, 0, 0] (V (Proc.devRef .tc main_arg18) : S3x64x64.Idx → EReal) slices_S3x64x64_S1x64x64_1_0_0) shapeCasts_S1x64x64_S64x64⟩] concatenates_S64x64_S64x64_S64x64_S64x64_S64x256_d1 := by
  after_results; rfl

/-- The bias row after the stretch: the four row-1 vectors end to end, as one row. -/
theorem host8_v89_eq :
    (StableHlo.after (hostOps8 (F := Ideal)) V (Proc.devRef .tc main_v89) : S1x256.Idx → EReal)
      = shapeCast S1x256 (concatenate S256 0 [⟨S64, shapeCast S64 (extractStridedSlice S1x64 ![1, 0] (V (Proc.devRef .tc main_arg11) : S3x64.Idx → EReal) slices_S3x64_S1x64_1_0) shapeCasts_S1x64_S64⟩, ⟨S64, shapeCast S64 (extractStridedSlice S1x64 ![1, 0] (V (Proc.devRef .tc main_arg13) : S3x64.Idx → EReal) slices_S3x64_S1x64_1_0) shapeCasts_S1x64_S64⟩, ⟨S64, shapeCast S64 (extractStridedSlice S1x64 ![1, 0] (V (Proc.devRef .tc main_arg17) : S3x64.Idx → EReal) slices_S3x64_S1x64_1_0) shapeCasts_S1x64_S64⟩, ⟨S64, shapeCast S64 (extractStridedSlice S1x64 ![1, 0] (V (Proc.devRef .tc main_arg19) : S3x64.Idx → EReal) slices_S3x64_S1x64_1_0) shapeCasts_S1x64_S64⟩] concatenates_S64_S64_S64_S64_S256_d0) shapeCasts_S256_S1x256 := by
  after_results; rfl

/-- Column block 0 of the weight matrix is the A weights of layer row 1. -/
theorem host8_v79_A (k j : Fin 64) (c : Fin 256) (hc : c.val = 0 + j.val) :
    (StableHlo.after (hostOps8 (F := Ideal)) V (Proc.devRef .tc main_v79) : S64x256.Idx → EReal) (ix2 k c)
      = (V (Proc.devRef .tc main_arg10) : S3x64x64.Idx → EReal) (ix3 1 k j) := by
  rw [host8_v79_eq, cat4_0 _ _ _ _ k j c hc, row1_mat_apply]

/-- Column block 0 of the bias row is the A bias of layer row 1. -/
theorem host8_v89_A (j : Fin 64) (c : Fin 256) (hc : c.val = 0 + j.val) :
    (StableHlo.after (hostOps8 (F := Ideal)) V (Proc.devRef .tc main_v89) : S1x256.Idx → EReal) (ix2 0 c)
      = (V (Proc.devRef .tc main_arg11) : S3x64.Idx → EReal) (ix2 1 j) := by
  rw [host8_v89_eq, shapeCast_a_1a_apply, cat4v_0 _ _ _ _ j c hc, row1_vec_apply]

/-- Column block 1 of the weight matrix is the B weights of layer row 1. -/
theorem host8_v79_B (k j : Fin 64) (c : Fin 256) (hc : c.val = 64 + j.val) :
    (StableHlo.after (hostOps8 (F := Ideal)) V (Proc.devRef .tc main_v79) : S64x256.Idx → EReal) (ix2 k c)
      = (V (Proc.devRef .tc main_arg12) : S3x64x64.Idx → EReal) (ix3 1 k j) := by
  rw [host8_v79_eq, cat4_1 _ _ _ _ k j c hc, row1_mat_apply]

/-- Column block 1 of the bias row is the B bias of layer row 1. -/
theorem host8_v89_B (j : Fin 64) (c : Fin 256) (hc : c.val = 64 + j.val) :
    (StableHlo.after (hostOps8 (F := Ideal)) V (Proc.devRef .tc main_v89) : S1x256.Idx → EReal) (ix2 0 c)
      = (V (Proc.devRef .tc main_arg13) : S3x64.Idx → EReal) (ix2 1 j) := by
  rw [host8_v89_eq, shapeCast_a_1a_apply, cat4v_1 _ _ _ _ j c hc, row1_vec_apply]

/-- Column block 2 of the weight matrix is the D weights of layer row 1. -/
theorem host8_v79_D (k j : Fin 64) (c : Fin 256) (hc : c.val = 128 + j.val) :
    (StableHlo.after (hostOps8 (F := Ideal)) V (Proc.devRef .tc main_v79) : S64x256.Idx → EReal) (ix2 k c)
      = (V (Proc.devRef .tc main_arg16) : S3x64x64.Idx → EReal) (ix3 1 k j) := by
  rw [host8_v79_eq, cat4_2 _ _ _ _ k j c hc, row1_mat_apply]

/-- Column block 2 of the bias row is the D bias of layer row 1. -/
theorem host8_v89_D (j : Fin 64) (c : Fin 256) (hc : c.val = 128 + j.val) :
    (StableHlo.after (hostOps8 (F := Ideal)) V (Proc.devRef .tc main_v89) : S1x256.Idx → EReal) (ix2 0 c)
      = (V (Proc.devRef .tc main_arg17) : S3x64.Idx → EReal) (ix2 1 j) := by
  rw [host8_v89_eq, shapeCast_a_1a_apply, cat4v_2 _ _ _ _ j c hc, row1_vec_apply]

/-- Column block 3 of the weight matrix is the E weights of layer row 1. -/
theorem host8_v79_E (k j : Fin 64) (c : Fin 256) (hc : c.val = 192 + j.val) :
    (StableHlo.after (hostOps8 (F := Ideal)) V (Proc.devRef .tc main_v79) : S64x256.Idx → EReal) (ix2 k c)
      = (V (Proc.devRef .tc main_arg18) : S3x64x64.Idx → EReal) (ix3 1 k j) := by
  rw [host8_v79_eq, cat4_3 _ _ _ _ k j c hc, row1_mat_apply]

/-- Column block 3 of the bias row is the E bias of layer row 1. -/
theorem host8_v89_E (j : Fin 64) (c : Fin 256) (hc : c.val = 192 + j.val) :
    (StableHlo.after (hostOps8 (F := Ideal)) V (Proc.devRef .tc main_v89) : S1x256.Idx → EReal) (ix2 0 c)
      = (V (Proc.devRef .tc main_arg19) : S3x64.Idx → EReal) (ix2 1 j) := by
  rw [host8_v89_eq, shapeCast_a_1a_apply, cat4v_3 _ _ _ _ j c hc, row1_vec_apply]

end Cert.KernelIdeal.Hand
-- ==== Proof.KI.Host9.lean ====
import proofs.«431450_j74423193305350_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

/-! Host stretch 9: the four 64-column blocks of the [50000,256] product main_v90, and the C weights and C bias of layer row 1, each read at an entry, from any contents of the buffers. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : Valuation τ sig (Elt Ideal))

/-- Row 1 of a stack of three matrices, as a matrix, at an entry. -/
private theorem row1_mat_apply (X : S3x64x64.Idx → EReal) (k j : Fin 64) :
    shapeCast S64x64 (extractStridedSlice S1x64x64 ![1, 0, 0] X slices_S3x64x64_S1x64x64_1_0_0) shapeCasts_S1x64x64_S64x64 (ix2 k j)
      = X (ix3 1 k j) := by
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- Row 1 of a stack of three vectors, as a vector, at an entry. -/
private theorem row1_vec_apply (X : S3x64.Idx → EReal) (j : Fin 64) :
    shapeCast S64 (extractStridedSlice S1x64 ![1, 0] X slices_S3x64_S1x64_1_0) shapeCasts_S1x64_S64 (ix1 j)
      = X (ix2 1 j) := by
  rw [shapeCast_1a_a_apply]
  exact slice2_axis0_apply 1 X slices_S3x64_S1x64_1_0 0 j 1 rfl

/-- Columns 0 … 0+63 of the [50000,256] array: entry (r, j) is the source's entry (r, 0 + j). -/
theorem host9_v91 (r : Fin 50000) (j : Fin 64) (c : Fin 256) (hc : c.val = 0 + j.val) :
    (StableHlo.after (hostOps9 (F := Ideal)) V (Proc.devRef .tc main_v91) : S50000x64.Idx → EReal) (ix2 r j)
      = (V (Proc.devRef .tc main_v90) : S50000x256.Idx → EReal) (ix2 r c) := by
  have e : (StableHlo.after (hostOps9 (F := Ideal)) V (Proc.devRef .tc main_v91) : S50000x64.Idx → EReal)
      = extractStridedSlice S50000x64 ![0, 0] (V (Proc.devRef .tc main_v90) : S50000x256.Idx → EReal) slices_S50000x256_S50000x64_0_0 := by
    after_results
  rw [e]
  exact slice2_axis1_apply 0 _ _ r j c hc

/-- Columns 64 … 64+63 of the [50000,256] array: entry (r, j) is the source's entry (r, 64 + j). -/
theorem host9_v92 (r : Fin 50000) (j : Fin 64) (c : Fin 256) (hc : c.val = 64 + j.val) :
    (StableHlo.after (hostOps9 (F := Ideal)) V (Proc.devRef .tc main_v92) : S50000x64.Idx → EReal) (ix2 r j)
      = (V (Proc.devRef .tc main_v90) : S50000x256.Idx → EReal) (ix2 r c) := by
  have e : (StableHlo.after (hostOps9 (F := Ideal)) V (Proc.devRef .tc main_v92) : S50000x64.Idx → EReal)
      = extractStridedSlice S50000x64 ![0, 64] (V (Proc.devRef .tc main_v90) : S50000x256.Idx → EReal) slices_S50000x256_S50000x64_0_64 := by
    after_results
  rw [e]
  exact slice2_axis1_apply 64 _ _ r j c hc

/-- Columns 128 … 128+63 of the [50000,256] array: entry (r, j) is the source's entry (r, 128 + j). -/
theorem host9_v93 (r : Fin 50000) (j : Fin 64) (c : Fin 256) (hc : c.val = 128 + j.val) :
    (StableHlo.after (hostOps9 (F := Ideal)) V (Proc.devRef .tc main_v93) : S50000x64.Idx → EReal) (ix2 r j)
      = (V (Proc.devRef .tc main_v90) : S50000x256.Idx → EReal) (ix2 r c) := by
  have e : (StableHlo.after (hostOps9 (F := Ideal)) V (Proc.devRef .tc main_v93) : S50000x64.Idx → EReal)
      = extractStridedSlice S50000x64 ![0, 128] (V (Proc.devRef .tc main_v90) : S50000x256.Idx → EReal) slices_S50000x256_S50000x64_0_128 := by
    after_results
  rw [e]
  exact slice2_axis1_apply 128 _ _ r j c hc

/-- Columns 192 … 192+63 of the [50000,256] array: entry (r, j) is the source's entry (r, 192 + j). -/
theorem host9_v94 (r : Fin 50000) (j : Fin 64) (c : Fin 256) (hc : c.val = 192 + j.val) :
    (StableHlo.after (hostOps9 (F := Ideal)) V (Proc.devRef .tc main_v94) : S50000x64.Idx → EReal) (ix2 r j)
      = (V (Proc.devRef .tc main_v90) : S50000x256.Idx → EReal) (ix2 r c) := by
  have e : (StableHlo.after (hostOps9 (F := Ideal)) V (Proc.devRef .tc main_v94) : S50000x64.Idx → EReal)
      = extractStridedSlice S50000x64 ![0, 192] (V (Proc.devRef .tc main_v90) : S50000x256.Idx → EReal) slices_S50000x256_S50000x64_0_192 := by
    after_results
  rw [e]
  exact slice2_axis1_apply 192 _ _ r j c hc

/-- The C weights of layer row 1, as a matrix. -/
theorem host9_v96 (k j : Fin 64) :
    (StableHlo.after (hostOps9 (F := Ideal)) V (Proc.devRef .tc main_v96) : S64x64.Idx → EReal) (ix2 k j)
      = (V (Proc.devRef .tc main_arg14) : S3x64x64.Idx → EReal) (ix3 1 k j) := by
  have e : (StableHlo.after (hostOps9 (F := Ideal)) V (Proc.devRef .tc main_v96) : S64x64.Idx → EReal)
      = shapeCast S64x64 (extractStridedSlice S1x64x64 ![1, 0, 0] (V (Proc.devRef .tc main_arg14) : S3x64x64.Idx → EReal) slices_S3x64x64_S1x64x64_1_0_0) shapeCasts_S1x64x64_S64x64 := by
    after_results; rfl
  rw [e, row1_mat_apply]

/-- The C bias of layer row 1, as one row. -/
theorem host9_v99 (j : Fin 64) :
    (StableHlo.after (hostOps9 (F := Ideal)) V (Proc.devRef .tc main_v99) : S1x64.Idx → EReal) (ix2 0 j)
      = (V (Proc.devRef .tc main_arg15) : S3x64.Idx → EReal) (ix2 1 j) := by
  have e : (StableHlo.after (hostOps9 (F := Ideal)) V (Proc.devRef .tc main_v99) : S1x64.Idx → EReal)
      = shapeCast S1x64 (shapeCast S64 (extractStridedSlice S1x64 ![1, 0] (V (Proc.devRef .tc main_arg15) : S3x64.Idx → EReal) slices_S3x64_S1x64_1_0) shapeCasts_S1x64_S64) shapeCasts_S64_S1x64 := by
    after_results; rfl
  rw [e, shapeCast_a_1a_apply, row1_vec_apply]

end Cert.KernelIdeal.Hand
-- ==== Proof.Ref.RdL2.lean ====
import proofs.«431450_j74423193305350_1_alg».proof.Proof.Ref.Fold
import proofs.«431450_j74423193305350_1_alg».proof.Proof.Ref.RdLib

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operation k of opsL2a writes the one buffer of reference k of opsL2a_W. -/
theorem opsL2a_w1 : List.Forall₂ Rd.Writes1 (opsL2a : List (HloOp τ sig (Elt F))) opsL2a_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))

/-- Operation k of opsL2b writes the one buffer of reference k of opsL2b_W. -/
theorem opsL2b_w1 : List.Forall₂ Rd.Writes1 (opsL2b : List (HloOp τ sig (Elt F))) opsL2b_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))

/-- Operation k of opsL2c writes the one buffer of reference k of opsL2c_W. -/
theorem opsL2c_w1 : List.Forall₂ Rd.Writes1 (opsL2c : List (HloOp τ sig (Elt F))) opsL2c_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))

/-- Operation k of opsL2d writes the one buffer of reference k of opsL2d_W. -/
theorem opsL2d_w1 : List.Forall₂ Rd.Writes1 (opsL2d : List (HloOp τ sig (Elt F))) opsL2d_W :=
  .cons rfl (.cons rfl (.cons rfl (.cons rfl (.cons rfl (.cons rfl (.cons rfl (.cons rfl (.cons rfl (.cons rfl (.cons rfl (.nil)))))))))))

/-- Operation k of opsL2 writes the one buffer of reference k of opsL2_W. -/
theorem opsL2_w1 : List.Forall₂ Rd.Writes1 (opsL2 : List (HloOp τ sig (Elt F))) opsL2_W :=
  Rd.w1_app (Rd.w1_app (Rd.w1_app (opsL2a_w1) opsL2b_w1) opsL2c_w1) opsL2d_w1

theorem rd_main_v140 (V : Valuation τ sig (Elt F)) :
    after opsL2 V (Proc.devRef .tc main_v140) = ((extractStridedSlice S1x64x64 ![1, 0, 0] · slices_S3x64x64_S1x64x64_1_0_0) : (⟨S3x64x64, .f32⟩ : BufTy).Contents (Elt F) → (⟨S1x64x64, .f32⟩ : BufTy).Contents (Elt F)) (V (Proc.devRef .tc main_arg10)) := by
  rw [← Rd.tk_keep opsL2_w1 0 (a := main_arg10) (by decide) V,
    Rd.at_eq opsL2_w1 0 (by decide) (y := main_v140) (by decide) V]
  generalize after (List.take 0 opsL2) V = W
  exact unary_result main_arg10 main_v140 ((extractStridedSlice S1x64x64 ![1, 0, 0] · slices_S3x64x64_S1x64x64_1_0_0) : (⟨S3x64x64, .f32⟩ : BufTy).Contents (Elt F) → (⟨S1x64x64, .f32⟩ : BufTy).Contents (Elt F)) ⟨by decide, rfl⟩ ⟨by decide, rfl⟩ W

theorem rd_main_v141 (V : Valuation τ sig (Elt F)) :
    after opsL2 V (Proc.devRef .tc main_v141) = shapeCast S64x64 (after opsL2 V (Proc.devRef .tc main_v140)) shapeCasts_S1x64x64_S64x64 := by
  rw [← Rd.tk_eq opsL2_w1 1 (a := main_v140) (by decide) V,
    Rd.at_eq opsL2_w1 1 (by decide) (y := main_v141) (by decide) V]
  generalize after (List.take 1 opsL2) V = W
  exact reshape_result main_v140 main_v141 rfl shapeCasts_S1x64x64_S64x64 ⟨by decide, rfl⟩ ⟨by decide, rfl⟩ W

theorem rd_main_v142 (V : Valuation τ sig (Elt F)) :
    after opsL2 V (Proc.devRef .tc main_v142) = ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_v114)) (after opsL2 V (Proc.devRef .tc main_v141)) := by
  rw [← Rd.tk_keep opsL2_w1 2 (a := main_v114) (by decide) V,
    ← Rd.tk_eq opsL2_w1 2 (a := main_v141) (by decide) V,
    Rd.at_eq opsL2_w1 2 (by decide) (y := main_v142) (by decide) V]
  generalize after (List.take 2 opsL2) V = W
  exact binary_result main_v114 main_v141 main_v142 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ⟨by decide, rfl⟩ ⟨by decide, rfl⟩ ⟨by decide, rfl⟩ W

theorem rd_main_v143 (V : Valuation τ sig (Elt F)) :
    after opsL2 V (Proc.devRef .tc main_v143) = ((extractStridedSlice S1x64 ![1, 0] · slices_S3x64_S1x64_1_0) : (⟨S3x64, .f32⟩ : BufTy).Contents (Elt F) → (⟨S1x64, .f32⟩ : BufTy).Contents (Elt F)) (V (Proc.devRef .tc main_arg11)) := by
  rw [← Rd.tk_keep opsL2_w1 3 (a := main_arg11) (by decide) V,
    Rd.at_eq opsL2_w1 3 (by decide) (y := main_v143) (by decide) V]
  generalize after (List.take 3 opsL2) V = W
  exact unary_result main_arg11 main_v143 ((extractStridedSlice S1x64 ![1, 0] · slices_S3x64_S1x64_1_0) : (⟨S3x64, .f32⟩ : BufTy).Contents (Elt F) → (⟨S1x64, .f32⟩ : BufTy).Contents (Elt F)) ⟨by decide, rfl⟩ ⟨by decide, rfl⟩ W

theorem rd_main_v144 (V : Valuation τ sig (Elt F)) :
    after opsL2 V (Proc.devRef .tc main_v144) = shapeCast S64 (after opsL2 V (Proc.devRef .tc main_v143)) shapeCasts_S1x64_S64 := by
  rw [← Rd.tk_eq opsL2_w1 4 (a := main_v143) (by decide) V,
    Rd.at_eq opsL2_w1 4 (by decide) (y := main_v144) (by decide) V]
  generalize after (List.take 4 opsL2) V = W
  exact reshape_result main_v143 main_v144 rfl shapeCasts_S1x64_S64 ⟨by decide, rfl⟩ ⟨by decide, rfl⟩ W

theorem rd_main_v145 (V : Valuation τ sig (Elt F)) :
    after opsL2 V (Proc.devRef .tc main_v145) = (broadcastInDim S1x64 ![1] bcast_S64_S1x64_1 : (⟨S64, .f32⟩ : BufTy).Contents (Elt F) → (⟨S1x64, .f32⟩ : BufTy).Contents (Elt F)) (after opsL2 V (Proc.devRef .tc main_v144)) := by
  rw [← Rd.tk_eq opsL2_w1 5 (a := main_v144) (by decide) V,
    Rd.at_eq opsL2_w1 5 (by decide) (y := main_v145) (by decide) V]
  generalize after (List.take 5 opsL2) V = W
  exact unary_result main_v144 main_v145 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v146 (V : Valuation τ sig (Elt F)) :
    after opsL2 V (Proc.devRef .tc main_v146) = (broadcastInDim S50000x64 ![0, 1] bcast_S1x64_S50000x64_0_1 : (⟨S1x64, .f32⟩ : BufTy).Contents (Elt F) → (⟨S50000x64, .f32⟩ : BufTy).Contents (Elt F)) (after opsL2 V (Proc.devRef .tc main_v145)) := by
  rw [← Rd.tk_eq opsL2_w1 6 (a := main_v145) (by decide) V,
    Rd.at_eq opsL2_w1 6 (by decide) (y := main_v146) (by decide) V]
  generalize after (List.take 6 opsL2) V = W
  exact unary_result main_v145 main_v146 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v147 (V : Valuation τ sig (Elt F)) :
    after opsL2 V (Proc.devRef .tc main_v147) = (addf : (⟨S50000x64, .f32⟩ : BufTy).Contents (Elt F) → (⟨S50000x64, .f32⟩ : BufTy).Contents (Elt F) → (⟨S50000x64, .f32⟩ : BufTy).Contents (Elt F)) (after opsL2 V (Proc.devRef .tc main_v142)) (after opsL2 V (Proc.devRef .tc main_v146)) := by
  rw [← Rd.tk_eq opsL2_w1 7 (a := main_v142) (by decide) V,
    ← Rd.tk_eq opsL2_w1 7 (a := main_v146) (by decide) V,
    Rd.at_eq opsL2_w1 7 (by decide) (y := main_v147) (by decide) V]
  generalize after (List.take 7 opsL2) V = W
  exact binary_result main_v142 main_v146 main_v147 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v148 (V : Valuation τ sig (Elt F)) :
    after opsL2 V (Proc.devRef .tc main_v148) = ((extractStridedSlice S1x64x64 ![1, 0, 0] · slices_S3x64x64_S1x64x64_1_0_0) : (⟨S3x64x64, .f32⟩ : BufTy).Contents (Elt F) → (⟨S1x64x64, .f32⟩ : BufTy).Contents (Elt F)) (V (Proc.devRef .tc main_arg12)) := by
  rw [← Rd.tk_keep opsL2_w1 8 (a := main_arg12) (by decide) V,
    Rd.at_eq opsL2_w1 8 (by decide) (y := main_v148) (by decide) V]
  generalize after (List.take 8 opsL2) V = W
  exact unary_result main_arg12 main_v148 ((extractStridedSlice S1x64x64 ![1, 0, 0] · slices_S3x64x64_S1x64x64_1_0_0) : (⟨S3x64x64, .f32⟩ : BufTy).Contents (Elt F) → (⟨S1x64x64, .f32⟩ : BufTy).Contents (Elt F)) ⟨by decide, rfl⟩ ⟨by decide, rfl⟩ W

theorem rd_main_v149 (V : Valuation τ sig (Elt F)) :
    after opsL2 V (Proc.devRef .tc main_v149) = shapeCast S64x64 (after opsL2 V (Proc.devRef .tc main_v148)) shapeCasts_S1x64x64_S64x64 := by
  rw [← Rd.tk_eq opsL2_w1 9 (a := main_v148) (by decide) V,
    Rd.at_eq opsL2_w1 9 (by decide) (y := main_v149) (by decide) V]
  generalize after (List.take 9 opsL2) V = W
  exact reshape_result main_v148 main_v149 rfl shapeCasts_S1x64x64_S64x64 ⟨by decide, rfl⟩ ⟨by decide, rfl⟩ W

theorem rd_main_v150 (V : Valuation τ sig (Elt F)) :
    after opsL2 V (Proc.devRef .tc main_v150) = ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_v114)) (after opsL2 V (Proc.devRef .tc main_v149)) := by
  rw [← Rd.tk_keep opsL2_w1 10 (a := main_v114) (by decide) V,
    ← Rd.tk_eq opsL2_w1 10 (a := main_v149) (by decide) V,
    Rd.at_eq opsL2_w1 10 (by decide) (y := main_v150) (by decide) V]
  generalize after (List.take 10 opsL2) V = W
  exact binary_result main_v114 main_v149 main_v150 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ⟨by decide, rfl⟩ ⟨by decide, rfl⟩ ⟨by decide, rfl⟩ W

theorem rd_main_v151 (V : Valuation τ sig (Elt F)) :
    after opsL2 V (Proc.devRef .tc main_v151) = ((extractStridedSlice S1x64 ![1, 0] · slices_S3x64_S1x64_1_0) : (⟨S3x64, .f32⟩ : BufTy).Contents (Elt F) → (⟨S1x64, .f32⟩ : BufTy).Contents (Elt F)) (V (Proc.devRef .tc main_arg13)) := by
  rw [← Rd.tk_keep opsL2_w1 11 (a := main_arg13) (by decide) V,
    Rd.at_eq opsL2_w1 11 (by decide) (y := main_v151) (by decide) V]
  generalize after (List.take 11 opsL2) V = W
  exact unary_result main_arg13 main_v151 ((extractStridedSlice S1x64 ![1, 0] · slices_S3x64_S1x64_1_0) : (⟨S3x64, .f32⟩ : BufTy).Contents (Elt F) → (⟨S1x64, .f32⟩ : BufTy).Contents (Elt F)) ⟨by decide, rfl⟩ ⟨by decide, rfl⟩ W

theorem rd_main_v152 (V : Valuation τ sig (Elt F)) :
    after opsL2 V (Proc.devRef .tc main_v152) = shapeCast S64 (after opsL2 V (Proc.devRef .tc main_v151)) shapeCasts_S1x64_S64 := by
  rw [← Rd.tk_eq opsL2_w1 12 (a := main_v151) (by decide) V,
    Rd.at_eq opsL2_w1 12 (by decide) (y := main_v152) (by decide) V]
  generalize after (List.take 12 opsL2) V = W
  exact reshape_result main_v151 main_v152 rfl shapeCasts_S1x64_S64 ⟨by decide, rfl⟩ ⟨by decide, rfl⟩ W

theorem rd_main_v153 (V : Valuation τ sig (Elt F)) :
    after opsL2 V (Proc.devRef .tc main_v153) = (broadcastInDim S1x64 ![1] bcast_S64_S1x64_1 : (⟨S64, .f32⟩ : BufTy).Contents (Elt F) → (⟨S1x64, .f32⟩ : BufTy).Contents (Elt F)) (after opsL2 V (Proc.devRef .tc main_v152)) := by
  rw [← Rd.tk_eq opsL2_w1 13 (a := main_v152) (by decide) V,
    Rd.at_eq opsL2_w1 13 (by decide) (y := main_v153) (by decide) V]
  generalize after (List.take 13 opsL2) V = W
  exact unary_result main_v152 main_v153 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v154 (V : Valuation τ sig (Elt F)) :
    after opsL2 V (Proc.devRef .tc main_v154) = (broadcastInDim S50000x64 ![0, 1] bcast_S1x64_S50000x64_0_1 : (⟨S1x64, .f32⟩ : BufTy).Contents (Elt F) → (⟨S50000x64, .f32⟩ : BufTy).Contents (Elt F)) (after opsL2 V (Proc.devRef .tc main_v153)) := by
  rw [← Rd.tk_eq opsL2_w1 14 (a := main_v153) (by decide) V,
    Rd.at_eq opsL2_w1 14 (by decide) (y := main_v154) (by decide) V]
  generalize after (List.take 14 opsL2) V = W
  exact unary_result main_v153 main_v154 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v155 (V : Valuation τ sig (Elt F)) :
    after opsL2 V (Proc.devRef .tc main_v155) = (addf : (⟨S50000x64, .f32⟩ : BufTy).Contents (Elt F) → (⟨S50000x64, .f32⟩ : BufTy).Contents (Elt F) → (⟨S50000x64, .f32⟩ : BufTy).Contents (Elt F)) (after opsL2 V (Proc.devRef .tc main_v150)) (after opsL2 V (Proc.devRef .tc main_v154)) := by
  rw [← Rd.tk_eq opsL2_w1 15 (a := main_v150) (by decide) V,
    ← Rd.tk_eq opsL2_w1 15 (a := main_v154) (by decide) V,
    Rd.at_eq opsL2_w1 15 (by decide) (y := main_v155) (by decide) V]
  generalize after (List.take 15 opsL2) V = W
  exact binary_result main_v150 main_v154 main_v155 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v156 (V : Valuation τ sig (Elt F)) :
    after opsL2 V (Proc.devRef .tc main_v156) = ((extractStridedSlice S1x64x64 ![1, 0, 0] · slices_S3x64x64_S1x64x64_1_0_0) : (⟨S3x64x64, .f32⟩ : BufTy).Contents (Elt F) → (⟨S1x64x64, .f32⟩ : BufTy).Contents (Elt F)) (V (Proc.devRef .tc main_arg16)) := by
  rw [← Rd.tk_keep opsL2_w1 16 (a := main_arg16) (by decide) V,
    Rd.at_eq opsL2_w1 16 (by decide) (y := main_v156) (by decide) V]
  generalize after (List.take 16 opsL2) V = W
  exact unary_result main_arg16 main_v156 ((extractStridedSlice S1x64x64 ![1, 0, 0] · slices_S3x64x64_S1x64x64_1_0_0) : (⟨S3x64x64, .f32⟩ : BufTy).Contents (Elt F) → (⟨S1x64x64, .f32⟩ : BufTy).Contents (Elt F)) ⟨by decide, rfl⟩ ⟨by decide, rfl⟩ W

theorem rd_main_v157 (V : Valuation τ sig (Elt F)) :
    after opsL2 V (Proc.devRef .tc main_v157) = shapeCast S64x64 (after opsL2 V (Proc.devRef .tc main_v156)) shapeCasts_S1x64x64_S64x64 := by
  rw [← Rd.tk_eq opsL2_w1 17 (a := main_v156) (by decide) V,
    Rd.at_eq opsL2_w1 17 (by decide) (y := main_v157) (by decide) V]
  generalize after (List.take 17 opsL2) V = W
  exact reshape_result main_v156 main_v157 rfl shapeCasts_S1x64x64_S64x64 ⟨by decide, rfl⟩ ⟨by decide, rfl⟩ W

theorem rd_main_v158 (V : Valuation τ sig (Elt F)) :
    after opsL2 V (Proc.devRef .tc main_v158) = ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_v114)) (after opsL2 V (Proc.devRef .tc main_v157)) := by
  rw [← Rd.tk_keep opsL2_w1 18 (a := main_v114) (by decide) V,
    ← Rd.tk_eq opsL2_w1 18 (a := main_v157) (by decide) V,
    Rd.at_eq opsL2_w1 18 (by decide) (y := main_v158) (by decide) V]
  generalize after (List.take 18 opsL2) V = W
  exact binary_result main_v114 main_v157 main_v158 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ⟨by decide, rfl⟩ ⟨by decide, rfl⟩ ⟨by decide, rfl⟩ W

theorem rd_main_v159 (V : Valuation τ sig (Elt F)) :
    after opsL2 V (Proc.devRef .tc main_v159) = ((extractStridedSlice S1x64 ![1, 0] · slices_S3x64_S1x64_1_0) : (⟨S3x64, .f32⟩ : BufTy).Contents (Elt F) → (⟨S1x64, .f32⟩ : BufTy).Contents (Elt F)) (V (Proc.devRef .tc main_arg17)) := by
  rw [← Rd.tk_keep opsL2_w1 19 (a := main_arg17) (by decide) V,
    Rd.at_eq opsL2_w1 19 (by decide) (y := main_v159) (by decide) V]
  generalize after (List.take 19 opsL2) V = W
  exact unary_result main_arg17 main_v159 ((extractStridedSlice S1x64 ![1, 0] · slices_S3x64_S1x64_1_0) : (⟨S3x64, .f32⟩ : BufTy).Contents (Elt F) → (⟨S1x64, .f32⟩ : BufTy).Contents (Elt F)) ⟨by decide, rfl⟩ ⟨by decide, rfl⟩ W

theorem rd_main_v160 (V : Valuation τ sig (Elt F)) :
    after opsL2 V (Proc.devRef .tc main_v160) = shapeCast S64 (after opsL2 V (Proc.devRef .tc main_v159)) shapeCasts_S1x64_S64 := by
  rw [← Rd.tk_eq opsL2_w1 20 (a := main_v159) (by decide) V,
    Rd.at_eq opsL2_w1 20 (by decide) (y := main_v160) (by decide) V]
  generalize after (List.take 20 opsL2) V = W
  exact reshape_result main_v159 main_v160 rfl shapeCasts_S1x64_S64 ⟨by decide, rfl⟩ ⟨by decide, rfl⟩ W

theorem rd_main_v161 (V : Valuation τ sig (Elt F)) :
    after opsL2 V (Proc.devRef .tc main_v161) = (broadcastInDim S1x64 ![1] bcast_S64_S1x64_1 : (⟨S64, .f32⟩ : BufTy).Contents (Elt F) → (⟨S1x64, .f32⟩ : BufTy).Contents (Elt F)) (after opsL2 V (Proc.devRef .tc main_v160)) := by
  rw [← Rd.tk_eq opsL2_w1 21 (a := main_v160) (by decide) V,
    Rd.at_eq opsL2_w1 21 (by decide) (y := main_v161) (by decide) V]
  generalize after (List.take 21 opsL2) V = W
  exact unary_result main_v160 main_v161 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v162 (V : Valuation τ sig (Elt F)) :
    after opsL2 V (Proc.devRef .tc main_v162) = (broadcastInDim S50000x64 ![0, 1] bcast_S1x64_S50000x64_0_1 : (⟨S1x64, .f32⟩ : BufTy).Contents (Elt F) → (⟨S50000x64, .f32⟩ : BufTy).Contents (Elt F)) (after opsL2 V (Proc.devRef .tc main_v161)) := by
  rw [← Rd.tk_eq opsL2_w1 22 (a := main_v161) (by decide) V,
    Rd.at_eq opsL2_w1 22 (by decide) (y := main_v162) (by decide) V]
  generalize after (List.take 22 opsL2) V = W
  exact unary_result main_v161 main_v162 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v163 (V : Valuation τ sig (Elt F)) :
    after opsL2 V (Proc.devRef .tc main_v163) = (addf : (⟨S50000x64, .f32⟩ : BufTy).Contents (Elt F) → (⟨S50000x64, .f32⟩ : BufTy).Contents (Elt F) → (⟨S50000x64, .f32⟩ : BufTy).Contents (Elt F)) (after opsL2 V (Proc.devRef .tc main_v158)) (after opsL2 V (Proc.devRef .tc main_v162)) := by
  rw [← Rd.tk_eq opsL2_w1 23 (a := main_v158) (by decide) V,
    ← Rd.tk_eq opsL2_w1 23 (a := main_v162) (by decide) V,
    Rd.at_eq opsL2_w1 23 (by decide) (y := main_v163) (by decide) V]
  generalize after (List.take 23 opsL2) V = W
  exact binary_result main_v158 main_v162 main_v163 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v164 (V : Valuation τ sig (Elt F)) :
    after opsL2 V (Proc.devRef .tc main_v164) = ((extractStridedSlice S1x64x64 ![1, 0, 0] · slices_S3x64x64_S1x64x64_1_0_0) : (⟨S3x64x64, .f32⟩ : BufTy).Contents (Elt F) → (⟨S1x64x64, .f32⟩ : BufTy).Contents (Elt F)) (V (Proc.devRef .tc main_arg18)) := by
  rw [← Rd.tk_keep opsL2_w1 24 (a := main_arg18) (by decide) V,
    Rd.at_eq opsL2_w1 24 (by decide) (y := main_v164) (by decide) V]
  generalize after (List.take 24 opsL2) V = W
  exact unary_result main_arg18 main_v164 ((extractStridedSlice S1x64x64 ![1, 0, 0] · slices_S3x64x64_S1x64x64_1_0_0) : (⟨S3x64x64, .f32⟩ : BufTy).Contents (Elt F) → (⟨S1x64x64, .f32⟩ : BufTy).Contents (Elt F)) ⟨by decide, rfl⟩ ⟨by decide, rfl⟩ W

theorem rd_main_v165 (V : Valuation τ sig (Elt F)) :
    after opsL2 V (Proc.devRef .tc main_v165) = shapeCast S64x64 (after opsL2 V (Proc.devRef .tc main_v164)) shapeCasts_S1x64x64_S64x64 := by
  rw [← Rd.tk_eq opsL2_w1 25 (a := main_v164) (by decide) V,
    Rd.at_eq opsL2_w1 25 (by decide) (y := main_v165) (by decide) V]
  generalize after (List.take 25 opsL2) V = W
  exact reshape_result main_v164 main_v165 rfl shapeCasts_S1x64x64_S64x64 ⟨by decide, rfl⟩ ⟨by decide, rfl⟩ W

theorem rd_main_v166 (V : Valuation τ sig (Elt F)) :
    after opsL2 V (Proc.devRef .tc main_v166) = ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_v114)) (after opsL2 V (Proc.devRef .tc main_v165)) := by
  rw [← Rd.tk_keep opsL2_w1 26 (a := main_v114) (by decide) V,
    ← Rd.tk_eq opsL2_w1 26 (a := main_v165) (by decide) V,
    Rd.at_eq opsL2_w1 26 (by decide) (y := main_v166) (by decide) V]
  generalize after (List.take 26 opsL2) V = W
  exact binary_result main_v114 main_v165 main_v166 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ⟨by decide, rfl⟩ ⟨by decide, rfl⟩ ⟨by decide, rfl⟩ W

theorem rd_main_v167 (V : Valuation τ sig (Elt F)) :
    after opsL2 V (Proc.devRef .tc main_v167) = ((extractStridedSlice S1x64 ![1, 0] · slices_S3x64_S1x64_1_0) : (⟨S3x64, .f32⟩ : BufTy).Contents (Elt F) → (⟨S1x64, .f32⟩ : BufTy).Contents (Elt F)) (V (Proc.devRef .tc main_arg19)) := by
  rw [← Rd.tk_keep opsL2_w1 27 (a := main_arg19) (by decide) V,
    Rd.at_eq opsL2_w1 27 (by decide) (y := main_v167) (by decide) V]
  generalize after (List.take 27 opsL2) V = W
  exact unary_result main_arg19 main_v167 ((extractStridedSlice S1x64 ![1, 0] · slices_S3x64_S1x64_1_0) : (⟨S3x64, .f32⟩ : BufTy).Contents (Elt F) → (⟨S1x64, .f32⟩ : BufTy).Contents (Elt F)) ⟨by decide, rfl⟩ ⟨by decide, rfl⟩ W

theorem rd_main_v168 (V : Valuation τ sig (Elt F)) :
    after opsL2 V (Proc.devRef .tc main_v168) = shapeCast S64 (after opsL2 V (Proc.devRef .tc main_v167)) shapeCasts_S1x64_S64 := by
  rw [← Rd.tk_eq opsL2_w1 28 (a := main_v167) (by decide) V,
    Rd.at_eq opsL2_w1 28 (by decide) (y := main_v168) (by decide) V]
  generalize after (List.take 28 opsL2) V = W
  exact reshape_result main_v167 main_v168 rfl shapeCasts_S1x64_S64 ⟨by decide, rfl⟩ ⟨by decide, rfl⟩ W

theorem rd_main_v169 (V : Valuation τ sig (Elt F)) :
    after opsL2 V (Proc.devRef .tc main_v169) = (broadcastInDim S1x64 ![1] bcast_S64_S1x64_1 : (⟨S64, .f32⟩ : BufTy).Contents (Elt F) → (⟨S1x64, .f32⟩ : BufTy).Contents (Elt F)) (after opsL2 V (Proc.devRef .tc main_v168)) := by
  rw [← Rd.tk_eq opsL2_w1 29 (a := main_v168) (by decide) V,
    Rd.at_eq opsL2_w1 29 (by decide) (y := main_v169) (by decide) V]
  generalize after (List.take 29 opsL2) V = W
  exact unary_result main_v168 main_v169 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v170 (V : Valuation τ sig (Elt F)) :
    after opsL2 V (Proc.devRef .tc main_v170) = (broadcastInDim S50000x64 ![0, 1] bcast_S1x64_S50000x64_0_1 : (⟨S1x64, .f32⟩ : BufTy).Contents (Elt F) → (⟨S50000x64, .f32⟩ : BufTy).Contents (Elt F)) (after opsL2 V (Proc.devRef .tc main_v169)) := by
  rw [← Rd.tk_eq opsL2_w1 30 (a := main_v169) (by decide) V,
    Rd.at_eq opsL2_w1 30 (by decide) (y := main_v170) (by decide) V]
  generalize after (List.take 30 opsL2) V = W
  exact unary_result main_v169 main_v170 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v171 (V : Valuation τ sig (Elt F)) :
    after opsL2 V (Proc.devRef .tc main_v171) = (addf : (⟨S50000x64, .f32⟩ : BufTy).Contents (Elt F) → (⟨S50000x64, .f32⟩ : BufTy).Contents (Elt F) → (⟨S50000x64, .f32⟩ : BufTy).Contents (Elt F)) (after opsL2 V (Proc.devRef .tc main_v166)) (after opsL2 V (Proc.devRef .tc main_v170)) := by
  rw [← Rd.tk_eq opsL2_w1 31 (a := main_v166) (by decide) V,
    ← Rd.tk_eq opsL2_w1 31 (a := main_v170) (by decide) V,
    Rd.at_eq opsL2_w1 31 (by decide) (y := main_v171) (by decide) V]
  generalize after (List.take 31 opsL2) V = W
  exact binary_result main_v166 main_v170 main_v171 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v172 (V : Valuation τ sig (Elt F)) :
    after opsL2 V (Proc.devRef .tc main_v172) = ((extractStridedSlice S1x64x64 ![1, 0, 0] · slices_S3x64x64_S1x64x64_1_0_0) : (⟨S3x64x64, .f32⟩ : BufTy).Contents (Elt F) → (⟨S1x64x64, .f32⟩ : BufTy).Contents (Elt F)) (V (Proc.devRef .tc main_arg14)) := by
  rw [← Rd.tk_keep opsL2_w1 32 (a := main_arg14) (by decide) V,
    Rd.at_eq opsL2_w1 32 (by decide) (y := main_v172) (by decide) V]
  generalize after (List.take 32 opsL2) V = W
  exact unary_result main_arg14 main_v172 ((extractStridedSlice S1x64x64 ![1, 0, 0] · slices_S3x64x64_S1x64x64_1_0_0) : (⟨S3x64x64, .f32⟩ : BufTy).Contents (Elt F) → (⟨S1x64x64, .f32⟩ : BufTy).Contents (Elt F)) ⟨by decide, rfl⟩ ⟨by decide, rfl⟩ W

theorem rd_main_v173 (V : Valuation τ sig (Elt F)) :
    after opsL2 V (Proc.devRef .tc main_v173) = shapeCast S64x64 (after opsL2 V (Proc.devRef .tc main_v172)) shapeCasts_S1x64x64_S64x64 := by
  rw [← Rd.tk_eq opsL2_w1 33 (a := main_v172) (by decide) V,
    Rd.at_eq opsL2_w1 33 (by decide) (y := main_v173) (by decide) V]
  generalize after (List.take 33 opsL2) V = W
  exact reshape_result main_v172 main_v173 rfl shapeCasts_S1x64x64_S64x64 ⟨by decide, rfl⟩ ⟨by decide, rfl⟩ W

theorem rd_main_v174 (V : Valuation τ sig (Elt F)) :
    after opsL2 V (Proc.devRef .tc main_v174) = ((fun l r => Host.dotGeneral dot_S400000x64_S64x64_S400000x64_1_0_0_1_n_n none l r) : (⟨S400000x64, .f32⟩ : BufTy).Contents (Elt F) → (⟨S64x64, .f32⟩ : BufTy).Contents (Elt F) → (⟨S400000x64, .f32⟩ : BufTy).Contents (Elt F)) (V (Proc.devRef .tc main_v139)) (after opsL2 V (Proc.devRef .tc main_v173)) := by
  rw [← Rd.tk_keep opsL2_w1 34 (a := main_v139) (by decide) V,
    ← Rd.tk_eq opsL2_w1 34 (a := main_v173) (by decide) V,
    Rd.at_eq opsL2_w1 34 (by decide) (y := main_v174) (by decide) V]
  generalize after (List.take 34 opsL2) V = W
  exact binary_result main_v139 main_v173 main_v174 ((fun l r => Host.dotGeneral dot_S400000x64_S64x64_S400000x64_1_0_0_1_n_n none l r) : (⟨S400000x64, .f32⟩ : BufTy).Contents (Elt F) → (⟨S64x64, .f32⟩ : BufTy).Contents (Elt F) → (⟨S400000x64, .f32⟩ : BufTy).Contents (Elt F)) ⟨by decide, rfl⟩ ⟨by decide, rfl⟩ ⟨by decide, rfl⟩ W

theorem rd_main_v175 (V : Valuation τ sig (Elt F)) :
    after opsL2 V (Proc.devRef .tc main_v175) = ((extractStridedSlice S1x64 ![1, 0] · slices_S3x64_S1x64_1_0) : (⟨S3x64, .f32⟩ : BufTy).Contents (Elt F) → (⟨S1x64, .f32⟩ : BufTy).Contents (Elt F)) (V (Proc.devRef .tc main_arg15)) := by
  rw [← Rd.tk_keep opsL2_w1 35 (a := main_arg15) (by decide) V,
    Rd.at_eq opsL2_w1 35 (by decide) (y := main_v175) (by decide) V]
  generalize after (List.take 35 opsL2) V = W
  exact unary_result main_arg15 main_v175 ((extractStridedSlice S1x64 ![1, 0] · slices_S3x64_S1x64_1_0) : (⟨S3x64, .f32⟩ : BufTy).Contents (Elt F) → (⟨S1x64, .f32⟩ : BufTy).Contents (Elt F)) ⟨by decide, rfl⟩ ⟨by decide, rfl⟩ W

theorem rd_main_v176 (V : Valuation τ sig (Elt F)) :
    after opsL2 V (Proc.devRef .tc main_v176) = shapeCast S64 (after opsL2 V (Proc.devRef .tc main_v175)) shapeCasts_S1x64_S64 := by
  rw [← Rd.tk_eq opsL2_w1 36 (a := main_v175) (by decide) V,
    Rd.at_eq opsL2_w1 36 (by decide) (y := main_v176) (by decide) V]
  generalize after (List.take 36 opsL2) V = W
  exact reshape_result main_v175 main_v176 rfl shapeCasts_S1x64_S64 ⟨by decide, rfl⟩ ⟨by decide, rfl⟩ W

theorem rd_main_v177 (V : Valuation τ sig (Elt F)) :
    after opsL2 V (Proc.devRef .tc main_v177) = (broadcastInDim S1x64 ![1] bcast_S64_S1x64_1 : (⟨S64, .f32⟩ : BufTy).Contents (Elt F) → (⟨S1x64, .f32⟩ : BufTy).Contents (Elt F)) (after opsL2 V (Proc.devRef .tc main_v176)) := by
  rw [← Rd.tk_eq opsL2_w1 37 (a := main_v176) (by decide) V,
    Rd.at_eq opsL2_w1 37 (by decide) (y := main_v177) (by decide) V]
  generalize after (List.take 37 opsL2) V = W
  exact unary_result main_v176 main_v177 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v178 (V : Valuation τ sig (Elt F)) :
    after opsL2 V (Proc.devRef .tc main_v178) = (broadcastInDim S400000x64 ![0, 1] bcast_S1x64_S400000x64_0_1 : (⟨S1x64, .f32⟩ : BufTy).Contents (Elt F) → (⟨S400000x64, .f32⟩ : BufTy).Contents (Elt F)) (after opsL2 V (Proc.devRef .tc main_v177)) := by
  rw [← Rd.tk_eq opsL2_w1 38 (a := main_v177) (by decide) V,
    Rd.at_eq opsL2_w1 38 (by decide) (y := main_v178) (by decide) V]
  generalize after (List.take 38 opsL2) V = W
  exact unary_result main_v177 main_v178 (broadcastInDim S400000x64 ![0, 1] bcast_S1x64_S400000x64_0_1 : (⟨S1x64, .f32⟩ : BufTy).Contents (Elt F) → (⟨S400000x64, .f32⟩ : BufTy).Contents (Elt F)) ⟨by decide, rfl⟩ ⟨by decide, rfl⟩ W

theorem rd_main_v179 (V : Valuation τ sig (Elt F)) :
    after opsL2 V (Proc.devRef .tc main_v179) = (addf : (⟨S400000x64, .f32⟩ : BufTy).Contents (Elt F) → (⟨S400000x64, .f32⟩ : BufTy).Contents (Elt F) → (⟨S400000x64, .f32⟩ : BufTy).Contents (Elt F)) (after opsL2 V (Proc.devRef .tc main_v174)) (after opsL2 V (Proc.devRef .tc main_v178)) := by
  rw [← Rd.tk_eq opsL2_w1 39 (a := main_v174) (by decide) V,
    ← Rd.tk_eq opsL2_w1 39 (a := main_v178) (by decide) V,
    Rd.at_eq opsL2_w1 39 (by decide) (y := main_v179) (by decide) V]
  generalize after (List.take 39 opsL2) V = W
  exact binary_result main_v174 main_v178 main_v179 (addf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_c_18 (V : Valuation τ sig (Elt F)) :
    after opsL2 V (Proc.devRef .tc main_c_18) = (constantI S_ 32 0#32) := by
  rw [Rd.at_eq opsL2_w1 40 (by decide) (y := main_c_18) (by decide) V]
  generalize after (List.take 40 opsL2) V = W
  exact nullary_result main_c_18 (constantI S_ 32 0#32) ⟨by decide, rfl⟩ W

theorem rd_main_v180 (V : Valuation τ sig (Elt F)) :
    after opsL2 V (Proc.devRef .tc main_v180) = (broadcastInDim S400000 ![] bcast_S_S400000 : (⟨S_, .i32⟩ : BufTy).Contents (Elt F) → (⟨S400000, .i32⟩ : BufTy).Contents (Elt F)) (after opsL2 V (Proc.devRef .tc main_c_18)) := by
  rw [← Rd.tk_eq opsL2_w1 41 (a := main_c_18) (by decide) V,
    Rd.at_eq opsL2_w1 41 (by decide) (y := main_v180) (by decide) V]
  generalize after (List.take 41 opsL2) V = W
  exact unary_result main_c_18 main_v180 (broadcastInDim S400000 ![] bcast_S_S400000 : (⟨S_, .i32⟩ : BufTy).Contents (Elt F) → (⟨S400000, .i32⟩ : BufTy).Contents (Elt F)) ⟨by decide, rfl⟩ ⟨by decide, rfl⟩ W

theorem rd_main_v181 (V : Valuation τ sig (Elt F)) :
    after opsL2 V (Proc.devRef .tc main_v181) = (cmpi .slt : (⟨S400000, .i32⟩ : BufTy).Contents (Elt F) → (⟨S400000, .i32⟩ : BufTy).Contents (Elt F) → (⟨S400000, .i1⟩ : BufTy).Contents (Elt F)) (V (Proc.devRef .tc main_arg3)) (after opsL2 V (Proc.devRef .tc main_v180)) := by
  rw [← Rd.tk_keep opsL2_w1 42 (a := main_arg3) (by decide) V,
    ← Rd.tk_eq opsL2_w1 42 (a := main_v180) (by decide) V,
    Rd.at_eq opsL2_w1 42 (by decide) (y := main_v181) (by decide) V]
  generalize after (List.take 42 opsL2) V = W
  exact binary_result main_arg3 main_v180 main_v181 (cmpi .slt : (⟨S400000, .i32⟩ : BufTy).Contents (Elt F) → (⟨S400000, .i32⟩ : BufTy).Contents (Elt F) → (⟨S400000, .i1⟩ : BufTy).Contents (Elt F)) ⟨by decide, rfl⟩ ⟨by decide, rfl⟩ ⟨by decide, rfl⟩ W

theorem rd_main_c_19 (V : Valuation τ sig (Elt F)) :
    after opsL2 V (Proc.devRef .tc main_c_19) = (constantI S_ 32 50000#32) := by
  rw [Rd.at_eq opsL2_w1 43 (by decide) (y := main_c_19) (by decide) V]
  generalize after (List.take 43 opsL2) V = W
  exact nullary_result main_c_19 (constantI S_ 32 50000#32) ⟨by decide, rfl⟩ W

theorem rd_main_v182 (V : Valuation τ sig (Elt F)) :
    after opsL2 V (Proc.devRef .tc main_v182) = (broadcastInDim S400000 ![] bcast_S_S400000 : (⟨S_, .i32⟩ : BufTy).Contents (Elt F) → (⟨S400000, .i32⟩ : BufTy).Contents (Elt F)) (after opsL2 V (Proc.devRef .tc main_c_19)) := by
  rw [← Rd.tk_eq opsL2_w1 44 (a := main_c_19) (by decide) V,
    Rd.at_eq opsL2_w1 44 (by decide) (y := main_v182) (by decide) V]
  generalize after (List.take 44 opsL2) V = W
  exact unary_result main_c_19 main_v182 (broadcastInDim S400000 ![] bcast_S_S400000 : (⟨S_, .i32⟩ : BufTy).Contents (Elt F) → (⟨S400000, .i32⟩ : BufTy).Contents (Elt F)) ⟨by decide, rfl⟩ ⟨by decide, rfl⟩ W

theorem rd_main_v183 (V : Valuation τ sig (Elt F)) :
    after opsL2 V (Proc.devRef .tc main_v183) = (addi : (⟨S400000, .i32⟩ : BufTy).Contents (Elt F) → (⟨S400000, .i32⟩ : BufTy).Contents (Elt F) → (⟨S400000, .i32⟩ : BufTy).Contents (Elt F)) (V (Proc.devRef .tc main_arg3)) (after opsL2 V (Proc.devRef .tc main_v182)) := by
  rw [← Rd.tk_keep opsL2_w1 45 (a := main_arg3) (by decide) V,
    ← Rd.tk_eq opsL2_w1 45 (a := main_v182) (by decide) V,
    Rd.at_eq opsL2_w1 45 (by decide) (y := main_v183) (by decide) V]
  generalize after (List.take 45 opsL2) V = W
  exact binary_result main_arg3 main_v182 main_v183 (addi : (⟨S400000, .i32⟩ : BufTy).Contents (Elt F) → (⟨S400000, .i32⟩ : BufTy).Contents (Elt F) → (⟨S400000, .i32⟩ : BufTy).Contents (Elt F)) ⟨by decide, rfl⟩ ⟨by decide, rfl⟩ ⟨by decide, rfl⟩ W

theorem rd_main_v184 (V : Valuation τ sig (Elt F)) :
    after opsL2 V (Proc.devRef .tc main_v184) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (after opsL2 V (Proc.devRef .tc main_v181)) (after opsL2 V (Proc.devRef .tc main_v183)) (V (Proc.devRef .tc main_arg3)) := by
  rw [← Rd.tk_eq opsL2_w1 46 (a := main_v181) (by decide) V,
    ← Rd.tk_eq opsL2_w1 46 (a := main_v183) (by decide) V,
    ← Rd.tk_keep opsL2_w1 46 (a := main_arg3) (by decide) V,
    Rd.at_eq opsL2_w1 46 (by decide) (y := main_v184) (by decide) V]
  generalize after (List.take 46 opsL2) V = W
  exact ternary_result main_v181 main_v183 main_arg3 main_v184 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) ⟨by decide, rfl⟩ ⟨by decide, rfl⟩ ⟨by decide, rfl⟩ ⟨by decide, rfl⟩ W

theorem rd_main_v185 (V : Valuation τ sig (Elt F)) :
    after opsL2 V (Proc.devRef .tc main_v185) = (broadcastInDim S400000x1 ![0] bcast_S400000_S400000x1_0 : (⟨S400000, .i32⟩ : BufTy).Contents (Elt F) → (⟨S400000x1, .i32⟩ : BufTy).Contents (Elt F)) (after opsL2 V (Proc.devRef .tc main_v184)) := by
  rw [← Rd.tk_eq opsL2_w1 47 (a := main_v184) (by decide) V,
    Rd.at_eq opsL2_w1 47 (by decide) (y := main_v185) (by decide) V]
  generalize after (List.take 47 opsL2) V = W
  exact unary_result main_v184 main_v185 (broadcastInDim S400000x1 ![0] bcast_S400000_S400000x1_0 : (⟨S400000, .i32⟩ : BufTy).Contents (Elt F) → (⟨S400000x1, .i32⟩ : BufTy).Contents (Elt F)) ⟨by decide, rfl⟩ ⟨by decide, rfl⟩ W

theorem rd_main_v186 (V : Valuation τ sig (Elt F)) :
    after opsL2 V (Proc.devRef .tc main_v186) = ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)) (after opsL2 V (Proc.devRef .tc main_v163)) (after opsL2 V (Proc.devRef .tc main_v185)) := by
  rw [← Rd.tk_eq opsL2_w1 48 (a := main_v163) (by decide) V,
    ← Rd.tk_eq opsL2_w1 48 (a := main_v185) (by decide) V,
    Rd.at_eq opsL2_w1 48 (by decide) (y := main_v186) (by decide) V]
  generalize after (List.take 48 opsL2) V = W
  exact binary_result main_v163 main_v185 main_v186 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)) ⟨by decide, rfl⟩ ⟨by decide, rfl⟩ ⟨by decide, rfl⟩ W

theorem rd_main_c_20 (V : Valuation τ sig (Elt F)) :
    after opsL2 V (Proc.devRef .tc main_c_20) = (constantI S_ 32 0#32) := by
  rw [Rd.at_eq opsL2_w1 49 (by decide) (y := main_c_20) (by decide) V]
  generalize after (List.take 49 opsL2) V = W
  exact nullary_result main_c_20 (constantI S_ 32 0#32) ⟨by decide, rfl⟩ W

theorem rd_main_v187 (V : Valuation τ sig (Elt F)) :
    after opsL2 V (Proc.devRef .tc main_v187) = (broadcastInDim S400000 ![] bcast_S_S400000 : (⟨S_, .i32⟩ : BufTy).Contents (Elt F) → (⟨S400000, .i32⟩ : BufTy).Contents (Elt F)) (after opsL2 V (Proc.devRef .tc main_c_20)) := by
  rw [← Rd.tk_eq opsL2_w1 50 (a := main_c_20) (by decide) V,
    Rd.at_eq opsL2_w1 50 (by decide) (y := main_v187) (by decide) V]
  generalize after (List.take 50 opsL2) V = W
  exact unary_result main_c_20 main_v187 (broadcastInDim S400000 ![] bcast_S_S400000 : (⟨S_, .i32⟩ : BufTy).Contents (Elt F) → (⟨S400000, .i32⟩ : BufTy).Contents (Elt F)) ⟨by decide, rfl⟩ ⟨by decide, rfl⟩ W

theorem rd_main_v188 (V : Valuation τ sig (Elt F)) :
    after opsL2 V (Proc.devRef .tc main_v188) = (cmpi .slt : (⟨S400000, .i32⟩ : BufTy).Contents (Elt F) → (⟨S400000, .i32⟩ : BufTy).Contents (Elt F) → (⟨S400000, .i1⟩ : BufTy).Contents (Elt F)) (V (Proc.devRef .tc main_arg4)) (after opsL2 V (Proc.devRef .tc main_v187)) := by
  rw [← Rd.tk_keep opsL2_w1 51 (a := main_arg4) (by decide) V,
    ← Rd.tk_eq opsL2_w1 51 (a := main_v187) (by decide) V,
    Rd.at_eq opsL2_w1 51 (by decide) (y := main_v188) (by decide) V]
  generalize after (List.take 51 opsL2) V = W
  exact binary_result main_arg4 main_v187 main_v188 (cmpi .slt : (⟨S400000, .i32⟩ : BufTy).Contents (Elt F) → (⟨S400000, .i32⟩ : BufTy).Contents (Elt F) → (⟨S400000, .i1⟩ : BufTy).Contents (Elt F)) ⟨by decide, rfl⟩ ⟨by decide, rfl⟩ ⟨by decide, rfl⟩ W

theorem rd_main_c_21 (V : Valuation τ sig (Elt F)) :
    after opsL2 V (Proc.devRef .tc main_c_21) = (constantI S_ 32 50000#32) := by
  rw [Rd.at_eq opsL2_w1 52 (by decide) (y := main_c_21) (by decide) V]
  generalize after (List.take 52 opsL2) V = W
  exact nullary_result main_c_21 (constantI S_ 32 50000#32) ⟨by decide, rfl⟩ W

theorem rd_main_v189 (V : Valuation τ sig (Elt F)) :
    after opsL2 V (Proc.devRef .tc main_v189) = (broadcastInDim S400000 ![] bcast_S_S400000 : (⟨S_, .i32⟩ : BufTy).Contents (Elt F) → (⟨S400000, .i32⟩ : BufTy).Contents (Elt F)) (after opsL2 V (Proc.devRef .tc main_c_21)) := by
  rw [← Rd.tk_eq opsL2_w1 53 (a := main_c_21) (by decide) V,
    Rd.at_eq opsL2_w1 53 (by decide) (y := main_v189) (by decide) V]
  generalize after (List.take 53 opsL2) V = W
  exact unary_result main_c_21 main_v189 (broadcastInDim S400000 ![] bcast_S_S400000 : (⟨S_, .i32⟩ : BufTy).Contents (Elt F) → (⟨S400000, .i32⟩ : BufTy).Contents (Elt F)) ⟨by decide, rfl⟩ ⟨by decide, rfl⟩ W

theorem rd_main_v190 (V : Valuation τ sig (Elt F)) :
    after opsL2 V (Proc.devRef .tc main_v190) = (addi : (⟨S400000, .i32⟩ : BufTy).Contents (Elt F) → (⟨S400000, .i32⟩ : BufTy).Contents (Elt F) → (⟨S400000, .i32⟩ : BufTy).Contents (Elt F)) (V (Proc.devRef .tc main_arg4)) (after opsL2 V (Proc.devRef .tc main_v189)) := by
  rw [← Rd.tk_keep opsL2_w1 54 (a := main_arg4) (by decide) V,
    ← Rd.tk_eq opsL2_w1 54 (a := main_v189) (by decide) V,
    Rd.at_eq opsL2_w1 54 (by decide) (y := main_v190) (by decide) V]
  generalize after (List.take 54 opsL2) V = W
  exact binary_result main_arg4 main_v189 main_v190 (addi : (⟨S400000, .i32⟩ : BufTy).Contents (Elt F) → (⟨S400000, .i32⟩ : BufTy).Contents (Elt F) → (⟨S400000, .i32⟩ : BufTy).Contents (Elt F)) ⟨by decide, rfl⟩ ⟨by decide, rfl⟩ ⟨by decide, rfl⟩ W

theorem rd_main_v191 (V : Valuation τ sig (Elt F)) :
    after opsL2 V (Proc.devRef .tc main_v191) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (after opsL2 V (Proc.devRef .tc main_v188)) (after opsL2 V (Proc.devRef .tc main_v190)) (V (Proc.devRef .tc main_arg4)) := by
  rw [← Rd.tk_eq opsL2_w1 55 (a := main_v188) (by decide) V,
    ← Rd.tk_eq opsL2_w1 55 (a := main_v190) (by decide) V,
    ← Rd.tk_keep opsL2_w1 55 (a := main_arg4) (by decide) V,
    Rd.at_eq opsL2_w1 55 (by decide) (y := main_v191) (by decide) V]
  generalize after (List.take 55 opsL2) V = W
  exact ternary_result main_v188 main_v190 main_arg4 main_v191 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) ⟨by decide, rfl⟩ ⟨by decide, rfl⟩ ⟨by decide, rfl⟩ ⟨by decide, rfl⟩ W

theorem rd_main_v192 (V : Valuation τ sig (Elt F)) :
    after opsL2 V (Proc.devRef .tc main_v192) = (broadcastInDim S400000x1 ![0] bcast_S400000_S400000x1_0 : (⟨S400000, .i32⟩ : BufTy).Contents (Elt F) → (⟨S400000x1, .i32⟩ : BufTy).Contents (Elt F)) (after opsL2 V (Proc.devRef .tc main_v191)) := by
  rw [← Rd.tk_eq opsL2_w1 56 (a := main_v191) (by decide) V,
    Rd.at_eq opsL2_w1 56 (by decide) (y := main_v192) (by decide) V]
  generalize after (List.take 56 opsL2) V = W
  exact unary_result main_v191 main_v192 (broadcastInDim S400000x1 ![0] bcast_S400000_S400000x1_0 : (⟨S400000, .i32⟩ : BufTy).Contents (Elt F) → (⟨S400000x1, .i32⟩ : BufTy).Contents (Elt F)) ⟨by decide, rfl⟩ ⟨by decide, rfl⟩ W

theorem rd_main_v193 (V : Valuation τ sig (Elt F)) :
    after opsL2 V (Proc.devRef .tc main_v193) = ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)) (after opsL2 V (Proc.devRef .tc main_v171)) (after opsL2 V (Proc.devRef .tc main_v192)) := by
  rw [← Rd.tk_eq opsL2_w1 57 (a := main_v171) (by decide) V,
    ← Rd.tk_eq opsL2_w1 57 (a := main_v192) (by decide) V,
    Rd.at_eq opsL2_w1 57 (by decide) (y := main_v193) (by decide) V]
  generalize after (List.take 57 opsL2) V = W
  exact binary_result main_v171 main_v192 main_v193 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)) ⟨by decide, rfl⟩ ⟨by decide, rfl⟩ ⟨by decide, rfl⟩ W

theorem rd_main_v194 (V : Valuation τ sig (Elt F)) :
    after opsL2 V (Proc.devRef .tc main_v194) = (addf : (⟨S400000x64, .f32⟩ : BufTy).Contents (Elt F) → (⟨S400000x64, .f32⟩ : BufTy).Contents (Elt F) → (⟨S400000x64, .f32⟩ : BufTy).Contents (Elt F)) (after opsL2 V (Proc.devRef .tc main_v186)) (after opsL2 V (Proc.devRef .tc main_v193)) := by
  rw [← Rd.tk_eq opsL2_w1 58 (a := main_v186) (by decide) V,
    ← Rd.tk_eq opsL2_w1 58 (a := main_v193) (by decide) V,
    Rd.at_eq opsL2_w1 58 (by decide) (y := main_v194) (by decide) V]
  generalize after (List.take 58 opsL2) V = W
  exact binary_result main_v186 main_v193 main_v194 (addf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_v195 (V : Valuation τ sig (Elt F)) :
    after opsL2 V (Proc.devRef .tc main_v195) = (addf : (⟨S400000x64, .f32⟩ : BufTy).Contents (Elt F) → (⟨S400000x64, .f32⟩ : BufTy).Contents (Elt F) → (⟨S400000x64, .f32⟩ : BufTy).Contents (Elt F)) (after opsL2 V (Proc.devRef .tc main_v194)) (after opsL2 V (Proc.devRef .tc main_v179)) := by
  rw [← Rd.tk_eq opsL2_w1 59 (a := main_v194) (by decide) V,
    ← Rd.tk_eq opsL2_w1 59 (a := main_v179) (by decide) V,
    Rd.at_eq opsL2_w1 59 (by decide) (y := main_v195) (by decide) V]
  generalize after (List.take 59 opsL2) V = W
  exact binary_result main_v194 main_v179 main_v195 (addf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_v196 (V : Valuation τ sig (Elt F)) :
    after opsL2 V (Proc.devRef .tc main_v196) = (Host.negf : (⟨S400000x64, .f32⟩ : BufTy).Contents (Elt F) → (⟨S400000x64, .f32⟩ : BufTy).Contents (Elt F)) (after opsL2 V (Proc.devRef .tc main_v195)) := by
  rw [← Rd.tk_eq opsL2_w1 60 (a := main_v195) (by decide) V,
    Rd.at_eq opsL2_w1 60 (by decide) (y := main_v196) (by decide) V]
  generalize after (List.take 60 opsL2) V = W
  exact unary_result main_v195 main_v196 (Host.negf : (⟨S400000x64, .f32⟩ : BufTy).Contents (Elt F) → (⟨S400000x64, .f32⟩ : BufTy).Contents (Elt F)) ⟨by decide, rfl⟩ ⟨by decide, rfl⟩ W

theorem rd_main_v197 (V : Valuation τ sig (Elt F)) :
    after opsL2 V (Proc.devRef .tc main_v197) = (Host.exp : (⟨S400000x64, .f32⟩ : BufTy).Contents (Elt F) → (⟨S400000x64, .f32⟩ : BufTy).Contents (Elt F)) (after opsL2 V (Proc.devRef .tc main_v196)) := by
  rw [← Rd.tk_eq opsL2_w1 61 (a := main_v196) (by decide) V,
    Rd.at_eq opsL2_w1 61 (by decide) (y := main_v197) (by decide) V]
  generalize after (List.take 61 opsL2) V = W
  exact unary_result main_v196 main_v197 (Host.exp : (⟨S400000x64, .f32⟩ : BufTy).Contents (Elt F) → (⟨S400000x64, .f32⟩ : BufTy).Contents (Elt F)) ⟨by decide, rfl⟩ ⟨by decide, rfl⟩ W

theorem rd_main_cst_22 (V : Valuation τ sig (Elt F)) :
    after opsL2 V (Proc.devRef .tc main_cst_22) = (constant S_ .f32 0x3F800000#32) := by
  rw [Rd.at_eq opsL2_w1 62 (by decide) (y := main_cst_22) (by decide) V]
  generalize after (List.take 62 opsL2) V = W
  exact nullary_result main_cst_22 (constant S_ .f32 0x3F800000#32) ⟨by decide, rfl⟩ W

theorem rd_main_v198 (V : Valuation τ sig (Elt F)) :
    after opsL2 V (Proc.devRef .tc main_v198) = (broadcastInDim S400000x64 ![] bcast_S_S400000x64 : (⟨S_, .f32⟩ : BufTy).Contents (Elt F) → (⟨S400000x64, .f32⟩ : BufTy).Contents (Elt F)) (after opsL2 V (Proc.devRef .tc main_cst_22)) := by
  rw [← Rd.tk_eq opsL2_w1 63 (a := main_cst_22) (by decide) V,
    Rd.at_eq opsL2_w1 63 (by decide) (y := main_v198) (by decide) V]
  generalize after (List.take 63 opsL2) V = W
  exact unary_result main_cst_22 main_v198 (broadcastInDim S400000x64 ![] bcast_S_S400000x64 : (⟨S_, .f32⟩ : BufTy).Contents (Elt F) → (⟨S400000x64, .f32⟩ : BufTy).Contents (Elt F)) ⟨by decide, rfl⟩ ⟨by decide, rfl⟩ W

theorem rd_main_v199 (V : Valuation τ sig (Elt F)) :
    after opsL2 V (Proc.devRef .tc main_v199) = (addf : (⟨S400000x64, .f32⟩ : BufTy).Contents (Elt F) → (⟨S400000x64, .f32⟩ : BufTy).Contents (Elt F) → (⟨S400000x64, .f32⟩ : BufTy).Contents (Elt F)) (after opsL2 V (Proc.devRef .tc main_v198)) (after opsL2 V (Proc.devRef .tc main_v197)) := by
  rw [← Rd.tk_eq opsL2_w1 64 (a := main_v198) (by decide) V,
    ← Rd.tk_eq opsL2_w1 64 (a := main_v197) (by decide) V,
    Rd.at_eq opsL2_w1 64 (by decide) (y := main_v199) (by decide) V]
  generalize after (List.take 64 opsL2) V = W
  exact binary_result main_v198 main_v197 main_v199 (addf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_cst_23 (V : Valuation τ sig (Elt F)) :
    after opsL2 V (Proc.devRef .tc main_cst_23) = (constant S_ .f32 0x3F800000#32) := by
  rw [Rd.at_eq opsL2_w1 65 (by decide) (y := main_cst_23) (by decide) V]
  generalize after (List.take 65 opsL2) V = W
  exact nullary_result main_cst_23 (constant S_ .f32 0x3F800000#32) ⟨by decide, rfl⟩ W

theorem rd_main_v200 (V : Valuation τ sig (Elt F)) :
    after opsL2 V (Proc.devRef .tc main_v200) = (broadcastInDim S400000x64 ![] bcast_S_S400000x64 : (⟨S_, .f32⟩ : BufTy).Contents (Elt F) → (⟨S400000x64, .f32⟩ : BufTy).Contents (Elt F)) (after opsL2 V (Proc.devRef .tc main_cst_23)) := by
  rw [← Rd.tk_eq opsL2_w1 66 (a := main_cst_23) (by decide) V,
    Rd.at_eq opsL2_w1 66 (by decide) (y := main_v200) (by decide) V]
  generalize after (List.take 66 opsL2) V = W
  exact unary_result main_cst_23 main_v200 (broadcastInDim S400000x64 ![] bcast_S_S400000x64 : (⟨S_, .f32⟩ : BufTy).Contents (Elt F) → (⟨S400000x64, .f32⟩ : BufTy).Contents (Elt F)) ⟨by decide, rfl⟩ ⟨by decide, rfl⟩ W

theorem rd_main_v201 (V : Valuation τ sig (Elt F)) :
    after opsL2 V (Proc.devRef .tc main_v201) = (Host.divf : (⟨S400000x64, .f32⟩ : BufTy).Contents (Elt F) → (⟨S400000x64, .f32⟩ : BufTy).Contents (Elt F) → (⟨S400000x64, .f32⟩ : BufTy).Contents (Elt F)) (after opsL2 V (Proc.devRef .tc main_v200)) (after opsL2 V (Proc.devRef .tc main_v199)) := by
  rw [← Rd.tk_eq opsL2_w1 67 (a := main_v200) (by decide) V,
    ← Rd.tk_eq opsL2_w1 67 (a := main_v199) (by decide) V,
    Rd.at_eq opsL2_w1 67 (by decide) (y := main_v201) (by decide) V]
  generalize after (List.take 67 opsL2) V = W
  exact binary_result main_v200 main_v199 main_v201 (Host.divf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_c_24 (V : Valuation τ sig (Elt F)) :
    after opsL2 V (Proc.devRef .tc main_c_24) = (constantI S_ 32 0#32) := by
  rw [Rd.at_eq opsL2_w1 68 (by decide) (y := main_c_24) (by decide) V]
  generalize after (List.take 68 opsL2) V = W
  exact nullary_result main_c_24 (constantI S_ 32 0#32) ⟨by decide, rfl⟩ W

theorem rd_main_v202 (V : Valuation τ sig (Elt F)) :
    after opsL2 V (Proc.devRef .tc main_v202) = (broadcastInDim S400000 ![] bcast_S_S400000 : (⟨S_, .i32⟩ : BufTy).Contents (Elt F) → (⟨S400000, .i32⟩ : BufTy).Contents (Elt F)) (after opsL2 V (Proc.devRef .tc main_c_24)) := by
  rw [← Rd.tk_eq opsL2_w1 69 (a := main_c_24) (by decide) V,
    Rd.at_eq opsL2_w1 69 (by decide) (y := main_v202) (by decide) V]
  generalize after (List.take 69 opsL2) V = W
  exact unary_result main_c_24 main_v202 (broadcastInDim S400000 ![] bcast_S_S400000 : (⟨S_, .i32⟩ : BufTy).Contents (Elt F) → (⟨S400000, .i32⟩ : BufTy).Contents (Elt F)) ⟨by decide, rfl⟩ ⟨by decide, rfl⟩ W

theorem rd_main_v203 (V : Valuation τ sig (Elt F)) :
    after opsL2 V (Proc.devRef .tc main_v203) = (cmpi .slt : (⟨S400000, .i32⟩ : BufTy).Contents (Elt F) → (⟨S400000, .i32⟩ : BufTy).Contents (Elt F) → (⟨S400000, .i1⟩ : BufTy).Contents (Elt F)) (V (Proc.devRef .tc main_arg3)) (after opsL2 V (Proc.devRef .tc main_v202)) := by
  rw [← Rd.tk_keep opsL2_w1 70 (a := main_arg3) (by decide) V,
    ← Rd.tk_eq opsL2_w1 70 (a := main_v202) (by decide) V,
    Rd.at_eq opsL2_w1 70 (by decide) (y := main_v203) (by decide) V]
  generalize after (List.take 70 opsL2) V = W
  exact binary_result main_arg3 main_v202 main_v203 (cmpi .slt : (⟨S400000, .i32⟩ : BufTy).Contents (Elt F) → (⟨S400000, .i32⟩ : BufTy).Contents (Elt F) → (⟨S400000, .i1⟩ : BufTy).Contents (Elt F)) ⟨by decide, rfl⟩ ⟨by decide, rfl⟩ ⟨by decide, rfl⟩ W

theorem rd_main_c_25 (V : Valuation τ sig (Elt F)) :
    after opsL2 V (Proc.devRef .tc main_c_25) = (constantI S_ 32 50000#32) := by
  rw [Rd.at_eq opsL2_w1 71 (by decide) (y := main_c_25) (by decide) V]
  generalize after (List.take 71 opsL2) V = W
  exact nullary_result main_c_25 (constantI S_ 32 50000#32) ⟨by decide, rfl⟩ W

theorem rd_main_v204 (V : Valuation τ sig (Elt F)) :
    after opsL2 V (Proc.devRef .tc main_v204) = (broadcastInDim S400000 ![] bcast_S_S400000 : (⟨S_, .i32⟩ : BufTy).Contents (Elt F) → (⟨S400000, .i32⟩ : BufTy).Contents (Elt F)) (after opsL2 V (Proc.devRef .tc main_c_25)) := by
  rw [← Rd.tk_eq opsL2_w1 72 (a := main_c_25) (by decide) V,
    Rd.at_eq opsL2_w1 72 (by decide) (y := main_v204) (by decide) V]
  generalize after (List.take 72 opsL2) V = W
  exact unary_result main_c_25 main_v204 (broadcastInDim S400000 ![] bcast_S_S400000 : (⟨S_, .i32⟩ : BufTy).Contents (Elt F) → (⟨S400000, .i32⟩ : BufTy).Contents (Elt F)) ⟨by decide, rfl⟩ ⟨by decide, rfl⟩ W

theorem rd_main_v205 (V : Valuation τ sig (Elt F)) :
    after opsL2 V (Proc.devRef .tc main_v205) = (addi : (⟨S400000, .i32⟩ : BufTy).Contents (Elt F) → (⟨S400000, .i32⟩ : BufTy).Contents (Elt F) → (⟨S400000, .i32⟩ : BufTy).Contents (Elt F)) (V (Proc.devRef .tc main_arg3)) (after opsL2 V (Proc.devRef .tc main_v204)) := by
  rw [← Rd.tk_keep opsL2_w1 73 (a := main_arg3) (by decide) V,
    ← Rd.tk_eq opsL2_w1 73 (a := main_v204) (by decide) V,
    Rd.at_eq opsL2_w1 73 (by decide) (y := main_v205) (by decide) V]
  generalize after (List.take 73 opsL2) V = W
  exact binary_result main_arg3 main_v204 main_v205 (addi : (⟨S400000, .i32⟩ : BufTy).Contents (Elt F) → (⟨S400000, .i32⟩ : BufTy).Contents (Elt F) → (⟨S400000, .i32⟩ : BufTy).Contents (Elt F)) ⟨by decide, rfl⟩ ⟨by decide, rfl⟩ ⟨by decide, rfl⟩ W

theorem rd_main_v206 (V : Valuation τ sig (Elt F)) :
    after opsL2 V (Proc.devRef .tc main_v206) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (after opsL2 V (Proc.devRef .tc main_v203)) (after opsL2 V (Proc.devRef .tc main_v205)) (V (Proc.devRef .tc main_arg3)) := by
  rw [← Rd.tk_eq opsL2_w1 74 (a := main_v203) (by decide) V,
    ← Rd.tk_eq opsL2_w1 74 (a := main_v205) (by decide) V,
    ← Rd.tk_keep opsL2_w1 74 (a := main_arg3) (by decide) V,
    Rd.at_eq opsL2_w1 74 (by decide) (y := main_v206) (by decide) V]
  generalize after (List.take 74 opsL2) V = W
  exact ternary_result main_v203 main_v205 main_arg3 main_v206 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) ⟨by decide, rfl⟩ ⟨by decide, rfl⟩ ⟨by decide, rfl⟩ ⟨by decide, rfl⟩ W

theorem rd_main_v207 (V : Valuation τ sig (Elt F)) :
    after opsL2 V (Proc.devRef .tc main_v207) = (broadcastInDim S400000x1 ![0] bcast_S400000_S400000x1_0 : (⟨S400000, .i32⟩ : BufTy).Contents (Elt F) → (⟨S400000x1, .i32⟩ : BufTy).Contents (Elt F)) (after opsL2 V (Proc.devRef .tc main_v206)) := by
  rw [← Rd.tk_eq opsL2_w1 75 (a := main_v206) (by decide) V,
    Rd.at_eq opsL2_w1 75 (by decide) (y := main_v207) (by decide) V]
  generalize after (List.take 75 opsL2) V = W
  exact unary_result main_v206 main_v207 (broadcastInDim S400000x1 ![0] bcast_S400000_S400000x1_0 : (⟨S400000, .i32⟩ : BufTy).Contents (Elt F) → (⟨S400000x1, .i32⟩ : BufTy).Contents (Elt F)) ⟨by decide, rfl⟩ ⟨by decide, rfl⟩ W

theorem rd_main_v208 (V : Valuation τ sig (Elt F)) :
    after opsL2 V (Proc.devRef .tc main_v208) = ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)) (after opsL2 V (Proc.devRef .tc main_v155)) (after opsL2 V (Proc.devRef .tc main_v207)) := by
  rw [← Rd.tk_eq opsL2_w1 76 (a := main_v155) (by decide) V,
    ← Rd.tk_eq opsL2_w1 76 (a := main_v207) (by decide) V,
    Rd.at_eq opsL2_w1 76 (by decide) (y := main_v208) (by decide) V]
  generalize after (List.take 76 opsL2) V = W
  exact binary_result main_v155 main_v207 main_v208 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)) ⟨by decide, rfl⟩ ⟨by decide, rfl⟩ ⟨by decide, rfl⟩ W

theorem rd_main_v209 (V : Valuation τ sig (Elt F)) :
    after opsL2 V (Proc.devRef .tc main_v209) = (mulf : (⟨S400000x64, .f32⟩ : BufTy).Contents (Elt F) → (⟨S400000x64, .f32⟩ : BufTy).Contents (Elt F) → (⟨S400000x64, .f32⟩ : BufTy).Contents (Elt F)) (after opsL2 V (Proc.devRef .tc main_v201)) (after opsL2 V (Proc.devRef .tc main_v208)) := by
  rw [← Rd.tk_eq opsL2_w1 77 (a := main_v201) (by decide) V,
    ← Rd.tk_eq opsL2_w1 77 (a := main_v208) (by decide) V,
    Rd.at_eq opsL2_w1 77 (by decide) (y := main_v209) (by decide) V]
  generalize after (List.take 77 opsL2) V = W
  exact binary_result main_v201 main_v208 main_v209 (mulf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_cst_26 (V : Valuation τ sig (Elt F)) :
    after opsL2 V (Proc.devRef .tc main_cst_26) = (constant S_ .f32 0x00000000#32) := by
  rw [Rd.at_eq opsL2_w1 78 (by decide) (y := main_cst_26) (by decide) V]
  generalize after (List.take 78 opsL2) V = W
  exact nullary_result main_cst_26 (constant S_ .f32 0x00000000#32) ⟨by decide, rfl⟩ W

theorem rd_main_v210 (V : Valuation τ sig (Elt F)) :
    after opsL2 V (Proc.devRef .tc main_v210) = (broadcastInDim S50000x64 ![] bcast_S_S50000x64 : (⟨S_, .f32⟩ : BufTy).Contents (Elt F) → (⟨S50000x64, .f32⟩ : BufTy).Contents (Elt F)) (after opsL2 V (Proc.devRef .tc main_cst_26)) := by
  rw [← Rd.tk_eq opsL2_w1 79 (a := main_cst_26) (by decide) V,
    Rd.at_eq opsL2_w1 79 (by decide) (y := main_v210) (by decide) V]
  generalize after (List.take 79 opsL2) V = W
  exact unary_result main_cst_26 main_v210 (broadcastInDim S50000x64 ![] bcast_S_S50000x64 : (⟨S_, .f32⟩ : BufTy).Contents (Elt F) → (⟨S50000x64, .f32⟩ : BufTy).Contents (Elt F)) ⟨by decide, rfl⟩ ⟨by decide, rfl⟩ W

theorem rd_main_v211 (V : Valuation τ sig (Elt F)) :
    after opsL2 V (Proc.devRef .tc main_v211) = (broadcastInDim S400000x1 ![0] bcast_S400000_S400000x1_0 : (⟨S400000, .i32⟩ : BufTy).Contents (Elt F) → (⟨S400000x1, .i32⟩ : BufTy).Contents (Elt F)) (V (Proc.devRef .tc main_arg4)) := by
  rw [← Rd.tk_keep opsL2_w1 80 (a := main_arg4) (by decide) V,
    Rd.at_eq opsL2_w1 80 (by decide) (y := main_v211) (by decide) V]
  generalize after (List.take 80 opsL2) V = W
  exact unary_result main_arg4 main_v211 (broadcastInDim S400000x1 ![0] bcast_S400000_S400000x1_0 : (⟨S400000, .i32⟩ : BufTy).Contents (Elt F) → (⟨S400000x1, .i32⟩ : BufTy).Contents (Elt F)) ⟨by decide, rfl⟩ ⟨by decide, rfl⟩ W

theorem rd_main_v212 (V : Valuation τ sig (Elt F)) :
    after opsL2 V (Proc.devRef .tc main_v212) = ((fun x i u => Host.scatterAdd scatter_S50000x64_S400000x1_S400000x64_1_0_0_1 x i u) : (⟨S50000x64, .f32⟩ : BufTy).Contents (Elt F) → (⟨S400000x1, .i32⟩ : BufTy).Contents (Elt F) → (⟨S400000x64, .f32⟩ : BufTy).Contents (Elt F) → (⟨S50000x64, .f32⟩ : BufTy).Contents (Elt F)) (after opsL2 V (Proc.devRef .tc main_v210)) (after opsL2 V (Proc.devRef .tc main_v211)) (after opsL2 V (Proc.devRef .tc main_v209)) := by
  rw [← Rd.tk_eq opsL2_w1 81 (a := main_v210) (by decide) V,
    ← Rd.tk_eq opsL2_w1 81 (a := main_v211) (by decide) V,
    ← Rd.tk_eq opsL2_w1 81 (a := main_v209) (by decide) V,
    Rd.at_eq opsL2_w1 81 (by decide) (y := main_v212) (by decide) V]
  generalize after (List.take 81 opsL2) V = W
  exact ternary_result main_v210 main_v211 main_v209 main_v212 ((fun x i u => Host.scatterAdd scatter_S50000x64_S400000x1_S400000x64_1_0_0_1 x i u) : (⟨S50000x64, .f32⟩ : BufTy).Contents (Elt F) → (⟨S400000x1, .i32⟩ : BufTy).Contents (Elt F) → (⟨S400000x64, .f32⟩ : BufTy).Contents (Elt F) → (⟨S50000x64, .f32⟩ : BufTy).Contents (Elt F)) ⟨by decide, rfl⟩ ⟨by decide, rfl⟩ ⟨by decide, rfl⟩ ⟨by decide, rfl⟩ W

theorem rd_main_cst_27 (V : Valuation τ sig (Elt F)) :
    after opsL2 V (Proc.devRef .tc main_cst_27) = (constant S_ .f32 0x00000000#32) := by
  rw [Rd.at_eq opsL2_w1 82 (by decide) (y := main_cst_27) (by decide) V]
  generalize after (List.take 82 opsL2) V = W
  exact nullary_result main_cst_27 (constant S_ .f32 0x00000000#32) ⟨by decide, rfl⟩ W

theorem rd_main_v213 (V : Valuation τ sig (Elt F)) :
    after opsL2 V (Proc.devRef .tc main_v213) = (broadcastInDim S50000x64 ![] bcast_S_S50000x64 : (⟨S_, .f32⟩ : BufTy).Contents (Elt F) → (⟨S50000x64, .f32⟩ : BufTy).Contents (Elt F)) (after opsL2 V (Proc.devRef .tc main_cst_27)) := by
  rw [← Rd.tk_eq opsL2_w1 83 (a := main_cst_27) (by decide) V,
    Rd.at_eq opsL2_w1 83 (by decide) (y := main_v213) (by decide) V]
  generalize after (List.take 83 opsL2) V = W
  exact unary_result main_cst_27 main_v213 (broadcastInDim S50000x64 ![] bcast_S_S50000x64 : (⟨S_, .f32⟩ : BufTy).Contents (Elt F) → (⟨S50000x64, .f32⟩ : BufTy).Contents (Elt F)) ⟨by decide, rfl⟩ ⟨by decide, rfl⟩ W

theorem rd_main_v214 (V : Valuation τ sig (Elt F)) :
    after opsL2 V (Proc.devRef .tc main_v214) = (broadcastInDim S400000x1 ![0] bcast_S400000_S400000x1_0 : (⟨S400000, .i32⟩ : BufTy).Contents (Elt F) → (⟨S400000x1, .i32⟩ : BufTy).Contents (Elt F)) (V (Proc.devRef .tc main_arg4)) := by
  rw [← Rd.tk_keep opsL2_w1 84 (a := main_arg4) (by decide) V,
    Rd.at_eq opsL2_w1 84 (by decide) (y := main_v214) (by decide) V]
  generalize after (List.take 84 opsL2) V = W
  exact unary_result main_arg4 main_v214 (broadcastInDim S400000x1 ![0] bcast_S400000_S400000x1_0 : (⟨S400000, .i32⟩ : BufTy).Contents (Elt F) → (⟨S400000x1, .i32⟩ : BufTy).Contents (Elt F)) ⟨by decide, rfl⟩ ⟨by decide, rfl⟩ W

theorem rd_main_v215 (V : Valuation τ sig (Elt F)) :
    after opsL2 V (Proc.devRef .tc main_v215) = ((fun x i u => Host.scatterAdd scatter_S50000x64_S400000x1_S400000x64_1_0_0_1 x i u) : (⟨S50000x64, .f32⟩ : BufTy).Contents (Elt F) → (⟨S400000x1, .i32⟩ : BufTy).Contents (Elt F) → (⟨S400000x64, .f32⟩ : BufTy).Contents (Elt F) → (⟨S50000x64, .f32⟩ : BufTy).Contents (Elt F)) (after opsL2 V (Proc.devRef .tc main_v213)) (after opsL2 V (Proc.devRef .tc main_v214)) (after opsL2 V (Proc.devRef .tc main_v201)) := by
  rw [← Rd.tk_eq opsL2_w1 85 (a := main_v213) (by decide) V,
    ← Rd.tk_eq opsL2_w1 85 (a := main_v214) (by decide) V,
    ← Rd.tk_eq opsL2_w1 85 (a := main_v201) (by decide) V,
    Rd.at_eq opsL2_w1 85 (by decide) (y := main_v215) (by decide) V]
  generalize after (List.take 85 opsL2) V = W
  exact ternary_result main_v213 main_v214 main_v201 main_v215 ((fun x i u => Host.scatterAdd scatter_S50000x64_S400000x1_S400000x64_1_0_0_1 x i u) : (⟨S50000x64, .f32⟩ : BufTy).Contents (Elt F) → (⟨S400000x1, .i32⟩ : BufTy).Contents (Elt F) → (⟨S400000x64, .f32⟩ : BufTy).Contents (Elt F) → (⟨S50000x64, .f32⟩ : BufTy).Contents (Elt F)) ⟨by decide, rfl⟩ ⟨by decide, rfl⟩ ⟨by decide, rfl⟩ ⟨by decide, rfl⟩ W

theorem rd_main_cst_28 (V : Valuation τ sig (Elt F)) :
    after opsL2 V (Proc.devRef .tc main_cst_28) = (constant S_ .f32 0x358637BD#32) := by
  rw [Rd.at_eq opsL2_w1 86 (by decide) (y := main_cst_28) (by decide) V]
  generalize after (List.take 86 opsL2) V = W
  exact nullary_result main_cst_28 (constant S_ .f32 0x358637BD#32) ⟨by decide, rfl⟩ W

theorem rd_main_v216 (V : Valuation τ sig (Elt F)) :
    after opsL2 V (Proc.devRef .tc main_v216) = (broadcastInDim S50000x64 ![] bcast_S_S50000x64 : (⟨S_, .f32⟩ : BufTy).Contents (Elt F) → (⟨S50000x64, .f32⟩ : BufTy).Contents (Elt F)) (after opsL2 V (Proc.devRef .tc main_cst_28)) := by
  rw [← Rd.tk_eq opsL2_w1 87 (a := main_cst_28) (by decide) V,
    Rd.at_eq opsL2_w1 87 (by decide) (y := main_v216) (by decide) V]
  generalize after (List.take 87 opsL2) V = W
  exact unary_result main_cst_28 main_v216 (broadcastInDim S50000x64 ![] bcast_S_S50000x64 : (⟨S_, .f32⟩ : BufTy).Contents (Elt F) → (⟨S50000x64, .f32⟩ : BufTy).Contents (Elt F)) ⟨by decide, rfl⟩ ⟨by decide, rfl⟩ W

theorem rd_main_v217 (V : Valuation τ sig (Elt F)) :
    after opsL2 V (Proc.devRef .tc main_v217) = (addf : (⟨S50000x64, .f32⟩ : BufTy).Contents (Elt F) → (⟨S50000x64, .f32⟩ : BufTy).Contents (Elt F) → (⟨S50000x64, .f32⟩ : BufTy).Contents (Elt F)) (after opsL2 V (Proc.devRef .tc main_v215)) (after opsL2 V (Proc.devRef .tc main_v216)) := by
  rw [← Rd.tk_eq opsL2_w1 88 (a := main_v215) (by decide) V,
    ← Rd.tk_eq opsL2_w1 88 (a := main_v216) (by decide) V,
    Rd.at_eq opsL2_w1 88 (by decide) (y := main_v217) (by decide) V]
  generalize after (List.take 88 opsL2) V = W
  exact binary_result main_v215 main_v216 main_v217 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v218 (V : Valuation τ sig (Elt F)) :
    after opsL2 V (Proc.devRef .tc main_v218) = (Host.divf : (⟨S50000x64, .f32⟩ : BufTy).Contents (Elt F) → (⟨S50000x64, .f32⟩ : BufTy).Contents (Elt F) → (⟨S50000x64, .f32⟩ : BufTy).Contents (Elt F)) (after opsL2 V (Proc.devRef .tc main_v212)) (after opsL2 V (Proc.devRef .tc main_v217)) := by
  rw [← Rd.tk_eq opsL2_w1 89 (a := main_v212) (by decide) V,
    ← Rd.tk_eq opsL2_w1 89 (a := main_v217) (by decide) V,
    Rd.at_eq opsL2_w1 89 (by decide) (y := main_v218) (by decide) V]
  generalize after (List.take 89 opsL2) V = W
  exact binary_result main_v212 main_v217 main_v218 (Host.divf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v219 (V : Valuation τ sig (Elt F)) :
    after opsL2 V (Proc.devRef .tc main_v219) = (addf : (⟨S50000x64, .f32⟩ : BufTy).Contents (Elt F) → (⟨S50000x64, .f32⟩ : BufTy).Contents (Elt F) → (⟨S50000x64, .f32⟩ : BufTy).Contents (Elt F)) (after opsL2 V (Proc.devRef .tc main_v147)) (after opsL2 V (Proc.devRef .tc main_v218)) := by
  rw [← Rd.tk_eq opsL2_w1 90 (a := main_v147) (by decide) V,
    ← Rd.tk_eq opsL2_w1 90 (a := main_v218) (by decide) V,
    Rd.at_eq opsL2_w1 90 (by decide) (y := main_v219) (by decide) V]
  generalize after (List.take 90 opsL2) V = W
  exact binary_result main_v147 main_v218 main_v219 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v220 (V : Valuation τ sig (Elt F)) :
    after opsL2 V (Proc.devRef .tc main_v220) = ((extractStridedSlice S1x64 ![1, 0] · slices_S3x64_S1x64_1_0) : (⟨S3x64, .f32⟩ : BufTy).Contents (Elt F) → (⟨S1x64, .f32⟩ : BufTy).Contents (Elt F)) (V (Proc.devRef .tc main_arg20)) := by
  rw [← Rd.tk_keep opsL2_w1 91 (a := main_arg20) (by decide) V,
    Rd.at_eq opsL2_w1 91 (by decide) (y := main_v220) (by decide) V]
  generalize after (List.take 91 opsL2) V = W
  exact unary_result main_arg20 main_v220 ((extractStridedSlice S1x64 ![1, 0] · slices_S3x64_S1x64_1_0) : (⟨S3x64, .f32⟩ : BufTy).Contents (Elt F) → (⟨S1x64, .f32⟩ : BufTy).Contents (Elt F)) ⟨by decide, rfl⟩ ⟨by decide, rfl⟩ W

theorem rd_main_v221 (V : Valuation τ sig (Elt F)) :
    after opsL2 V (Proc.devRef .tc main_v221) = shapeCast S64 (after opsL2 V (Proc.devRef .tc main_v220)) shapeCasts_S1x64_S64 := by
  rw [← Rd.tk_eq opsL2_w1 92 (a := main_v220) (by decide) V,
    Rd.at_eq opsL2_w1 92 (by decide) (y := main_v221) (by decide) V]
  generalize after (List.take 92 opsL2) V = W
  exact reshape_result main_v220 main_v221 rfl shapeCasts_S1x64_S64 ⟨by decide, rfl⟩ ⟨by decide, rfl⟩ W

theorem rd_main_v222 (V : Valuation τ sig (Elt F)) :
    after opsL2 V (Proc.devRef .tc main_v222) = ((extractStridedSlice S1x64 ![1, 0] · slices_S3x64_S1x64_1_0) : (⟨S3x64, .f32⟩ : BufTy).Contents (Elt F) → (⟨S1x64, .f32⟩ : BufTy).Contents (Elt F)) (V (Proc.devRef .tc main_arg21)) := by
  rw [← Rd.tk_keep opsL2_w1 93 (a := main_arg21) (by decide) V,
    Rd.at_eq opsL2_w1 93 (by decide) (y := main_v222) (by decide) V]
  generalize after (List.take 93 opsL2) V = W
  exact unary_result main_arg21 main_v222 ((extractStridedSlice S1x64 ![1, 0] · slices_S3x64_S1x64_1_0) : (⟨S3x64, .f32⟩ : BufTy).Contents (Elt F) → (⟨S1x64, .f32⟩ : BufTy).Contents (Elt F)) ⟨by decide, rfl⟩ ⟨by decide, rfl⟩ W

theorem rd_main_v223 (V : Valuation τ sig (Elt F)) :
    after opsL2 V (Proc.devRef .tc main_v223) = shapeCast S64 (after opsL2 V (Proc.devRef .tc main_v222)) shapeCasts_S1x64_S64 := by
  rw [← Rd.tk_eq opsL2_w1 94 (a := main_v222) (by decide) V,
    Rd.at_eq opsL2_w1 94 (by decide) (y := main_v223) (by decide) V]
  generalize after (List.take 94 opsL2) V = W
  exact reshape_result main_v222 main_v223 rfl shapeCasts_S1x64_S64 ⟨by decide, rfl⟩ ⟨by decide, rfl⟩ W

theorem rd_main_cst_29 (V : Valuation τ sig (Elt F)) :
    after opsL2 V (Proc.devRef .tc main_cst_29) = (constant S_ .f32 0x00000000#32) := by
  rw [Rd.at_eq opsL2_w1 95 (by decide) (y := main_cst_29) (by decide) V]
  generalize after (List.take 95 opsL2) V = W
  exact nullary_result main_cst_29 (constant S_ .f32 0x00000000#32) ⟨by decide, rfl⟩ W

theorem rd_main_v224 (V : Valuation τ sig (Elt F)) :
    after opsL2 V (Proc.devRef .tc main_v224) = ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) (after opsL2 V (Proc.devRef .tc main_v219)) (after opsL2 V (Proc.devRef .tc main_cst_29)) := by
  rw [← Rd.tk_eq opsL2_w1 96 (a := main_v219) (by decide) V,
    ← Rd.tk_eq opsL2_w1 96 (a := main_cst_29) (by decide) V,
    Rd.at_eq opsL2_w1 96 (by decide) (y := main_v224) (by decide) V]
  generalize after (List.take 96 opsL2) V = W
  exact binary_result main_v219 main_cst_29 main_v224 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ W

theorem rd_main_cst_30 (V : Valuation τ sig (Elt F)) :
    after opsL2 V (Proc.devRef .tc main_cst_30) = (constant S_ .f32 0x47435000#32) := by
  rw [Rd.at_eq opsL2_w1 97 (by decide) (y := main_cst_30) (by decide) V]
  generalize after (List.take 97 opsL2) V = W
  exact nullary_result main_cst_30 (constant S_ .f32 0x47435000#32) ⟨by decide, rfl⟩ W

theorem rd_main_v225 (V : Valuation τ sig (Elt F)) :
    after opsL2 V (Proc.devRef .tc main_v225) = (broadcastInDim S64 ![] bcast_S_S64 : (⟨S_, .f32⟩ : BufTy).Contents (Elt F) → (⟨S64, .f32⟩ : BufTy).Contents (Elt F)) (after opsL2 V (Proc.devRef .tc main_cst_30)) := by
  rw [← Rd.tk_eq opsL2_w1 98 (a := main_cst_30) (by decide) V,
    Rd.at_eq opsL2_w1 98 (by decide) (y := main_v225) (by decide) V]
  generalize after (List.take 98 opsL2) V = W
  exact unary_result main_cst_30 main_v225 (broadcastInDim S64 ![] bcast_S_S64 : (⟨S_, .f32⟩ : BufTy).Contents (Elt F) → (⟨S64, .f32⟩ : BufTy).Contents (Elt F)) ⟨by decide, rfl⟩ ⟨by decide, rfl⟩ W

theorem rd_main_v226 (V : Valuation τ sig (Elt F)) :
    after opsL2 V (Proc.devRef .tc main_v226) = (Host.divf : (⟨S64, .f32⟩ : BufTy).Contents (Elt F) → (⟨S64, .f32⟩ : BufTy).Contents (Elt F) → (⟨S64, .f32⟩ : BufTy).Contents (Elt F)) (after opsL2 V (Proc.devRef .tc main_v224)) (after opsL2 V (Proc.devRef .tc main_v225)) := by
  rw [← Rd.tk_eq opsL2_w1 99 (a := main_v224) (by decide) V,
    ← Rd.tk_eq opsL2_w1 99 (a := main_v225) (by decide) V,
    Rd.at_eq opsL2_w1 99 (by decide) (y := main_v226) (by decide) V]
  generalize after (List.take 99 opsL2) V = W
  exact binary_result main_v224 main_v225 main_v226 (Host.divf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ W

theorem rd_main_c_31 (V : Valuation τ sig (Elt F)) :
    after opsL2 V (Proc.devRef .tc main_c_31) = (constantI S_ 32 0#32) := by
  rw [Rd.at_eq opsL2_w1 100 (by decide) (y := main_c_31) (by decide) V]
  generalize after (List.take 100 opsL2) V = W
  exact nullary_result main_c_31 (constantI S_ 32 0#32) ⟨by decide, rfl⟩ W

theorem rd_main_call4_cst (V : Valuation τ sig (Elt F)) :
    after opsL2 V (Proc.devRef .tc main_call4_cst) = ((constant S_ .f32 0x00000000#32) : (⟨S_, .f32⟩ : BufTy).Contents (Elt F)) := by
  rw [Rd.at_eq opsL2_w1 101 (by decide) (y := main_call4_cst) (by decide) V]
  generalize after (List.take 101 opsL2) V = W
  exact nullary_result main_call4_cst ((constant S_ .f32 0x00000000#32) : (⟨S_, .f32⟩ : BufTy).Contents (Elt F)) ⟨by decide, rfl⟩ W

theorem rd_main_call4_v0 (V : Valuation τ sig (Elt F)) :
    after opsL2 V (Proc.devRef .tc main_call4_v0) = ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) (after opsL2 V (Proc.devRef .tc main_v219)) (after opsL2 V (Proc.devRef .tc main_call4_cst)) := by
  rw [← Rd.tk_eq opsL2_w1 102 (a := main_v219) (by decide) V,
    ← Rd.tk_eq opsL2_w1 102 (a := main_call4_cst) (by decide) V,
    Rd.at_eq opsL2_w1 102 (by decide) (y := main_call4_v0) (by decide) V]
  generalize after (List.take 102 opsL2) V = W
  exact binary_result main_v219 main_call4_cst main_call4_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ W

theorem rd_main_call4_v1 (V : Valuation τ sig (Elt F)) :
    after opsL2 V (Proc.devRef .tc main_call4_v1) = ((broadcastInDim S1x64 ![1] bcast_S64_S1x64_1) : (⟨S64, .f32⟩ : BufTy).Contents (Elt F) → (⟨S1x64, .f32⟩ : BufTy).Contents (Elt F)) (after opsL2 V (Proc.devRef .tc main_call4_v0)) := by
  rw [← Rd.tk_eq opsL2_w1 103 (a := main_call4_v0) (by decide) V,
    Rd.at_eq opsL2_w1 103 (by decide) (y := main_call4_v1) (by decide) V]
  generalize after (List.take 103 opsL2) V = W
  exact unary_result main_call4_v0 main_call4_v1 ((broadcastInDim S1x64 ![1] bcast_S64_S1x64_1) : (⟨S64, .f32⟩ : BufTy).Contents (Elt F) → (⟨S1x64, .f32⟩ : BufTy).Contents (Elt F)) ⟨by decide, rfl⟩ ⟨by decide, rfl⟩ W

theorem rd_main_call4_cst_0 (V : Valuation τ sig (Elt F)) :
    after opsL2 V (Proc.devRef .tc main_call4_cst_0) = ((constant S_ .f32 0x47435000#32) : (⟨S_, .f32⟩ : BufTy).Contents (Elt F)) := by
  rw [Rd.at_eq opsL2_w1 104 (by decide) (y := main_call4_cst_0) (by decide) V]
  generalize after (List.take 104 opsL2) V = W
  exact nullary_result main_call4_cst_0 ((constant S_ .f32 0x47435000#32) : (⟨S_, .f32⟩ : BufTy).Contents (Elt F)) ⟨by decide, rfl⟩ W

theorem rd_main_call4_v2 (V : Valuation τ sig (Elt F)) :
    after opsL2 V (Proc.devRef .tc main_call4_v2) = ((broadcastInDim S1x64 ![] bcast_S_S1x64) : (⟨S_, .f32⟩ : BufTy).Contents (Elt F) → (⟨S1x64, .f32⟩ : BufTy).Contents (Elt F)) (after opsL2 V (Proc.devRef .tc main_call4_cst_0)) := by
  rw [← Rd.tk_eq opsL2_w1 105 (a := main_call4_cst_0) (by decide) V,
    Rd.at_eq opsL2_w1 105 (by decide) (y := main_call4_v2) (by decide) V]
  generalize after (List.take 105 opsL2) V = W
  exact unary_result main_call4_cst_0 main_call4_v2 ((broadcastInDim S1x64 ![] bcast_S_S1x64) : (⟨S_, .f32⟩ : BufTy).Contents (Elt F) → (⟨S1x64, .f32⟩ : BufTy).Contents (Elt F)) ⟨by decide, rfl⟩ ⟨by decide, rfl⟩ W

theorem rd_main_call4_v3 (V : Valuation τ sig (Elt F)) :
    after opsL2 V (Proc.devRef .tc main_call4_v3) = (Host.divf : (⟨S1x64, .f32⟩ : BufTy).Contents (Elt F) → (⟨S1x64, .f32⟩ : BufTy).Contents (Elt F) → (⟨S1x64, .f32⟩ : BufTy).Contents (Elt F)) (after opsL2 V (Proc.devRef .tc main_call4_v1)) (after opsL2 V (Proc.devRef .tc main_call4_v2)) := by
  rw [← Rd.tk_eq opsL2_w1 106 (a := main_call4_v1) (by decide) V,
    ← Rd.tk_eq opsL2_w1 106 (a := main_call4_v2) (by decide) V,
    Rd.at_eq opsL2_w1 106 (by decide) (y := main_call4_v3) (by decide) V]
  generalize after (List.take 106 opsL2) V = W
  exact binary_result main_call4_v1 main_call4_v2 main_call4_v3 (Host.divf : (⟨S1x64, .f32⟩ : BufTy).Contents (Elt F) → (⟨S1x64, .f32⟩ : BufTy).Contents (Elt F) → (⟨S1x64, .f32⟩ : BufTy).Contents (Elt F)) ⟨by decide, rfl⟩ ⟨by decide, rfl⟩ ⟨by decide, rfl⟩ W

theorem rd_main_call4_v4 (V : Valuation τ sig (Elt F)) :
    after opsL2 V (Proc.devRef .tc main_call4_v4) = ((broadcastInDim S50000x64 ![0, 1] bcast_S1x64_S50000x64_0_1) : (⟨S1x64, .f32⟩ : BufTy).Contents (Elt F) → (⟨S50000x64, .f32⟩ : BufTy).Contents (Elt F)) (after opsL2 V (Proc.devRef .tc main_call4_v3)) := by
  rw [← Rd.tk_eq opsL2_w1 107 (a := main_call4_v3) (by decide) V,
    Rd.at_eq opsL2_w1 107 (by decide) (y := main_call4_v4) (by decide) V]
  generalize after (List.take 107 opsL2) V = W
  exact unary_result main_call4_v3 main_call4_v4 ((broadcastInDim S50000x64 ![0, 1] bcast_S1x64_S50000x64_0_1) : (⟨S1x64, .f32⟩ : BufTy).Contents (Elt F) → (⟨S50000x64, .f32⟩ : BufTy).Contents (Elt F)) ⟨by decide, rfl⟩ ⟨by decide, rfl⟩ W

theorem rd_main_call4_v5 (V : Valuation τ sig (Elt F)) :
    after opsL2 V (Proc.devRef .tc main_call4_v5) = (subf : (⟨S50000x64, .f32⟩ : BufTy).Contents (Elt F) → (⟨S50000x64, .f32⟩ : BufTy).Contents (Elt F) → (⟨S50000x64, .f32⟩ : BufTy).Contents (Elt F)) (after opsL2 V (Proc.devRef .tc main_v219)) (after opsL2 V (Proc.devRef .tc main_call4_v4)) := by
  rw [← Rd.tk_eq opsL2_w1 108 (a := main_v219) (by decide) V,
    ← Rd.tk_eq opsL2_w1 108 (a := main_call4_v4) (by decide) V,
    Rd.at_eq opsL2_w1 108 (by decide) (y := main_call4_v5) (by decide) V]
  generalize after (List.take 108 opsL2) V = W
  exact binary_result main_v219 main_call4_v4 main_call4_v5 (subf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_call4_v6 (V : Valuation τ sig (Elt F)) :
    after opsL2 V (Proc.devRef .tc main_call4_v6) = (mulf : (⟨S50000x64, .f32⟩ : BufTy).Contents (Elt F) → (⟨S50000x64, .f32⟩ : BufTy).Contents (Elt F) → (⟨S50000x64, .f32⟩ : BufTy).Contents (Elt F)) (after opsL2 V (Proc.devRef .tc main_call4_v5)) (after opsL2 V (Proc.devRef .tc main_call4_v5)) := by
  rw [← Rd.tk_eq opsL2_w1 109 (a := main_call4_v5) (by decide) V,
    Rd.at_eq opsL2_w1 109 (by decide) (y := main_call4_v6) (by decide) V]
  generalize after (List.take 109 opsL2) V = W
  exact binary_result main_call4_v5 main_call4_v5 main_call4_v6 (mulf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_call4_v7 (V : Valuation τ sig (Elt F)) :
    after opsL2 V (Proc.devRef .tc main_call4_v7) = ((sitofp .f32) : (⟨S_, .i32⟩ : BufTy).Contents (Elt F) → (⟨S_, .f32⟩ : BufTy).Contents (Elt F)) (after opsL2 V (Proc.devRef .tc main_c_31)) := by
  rw [← Rd.tk_eq opsL2_w1 110 (a := main_c_31) (by decide) V,
    Rd.at_eq opsL2_w1 110 (by decide) (y := main_call4_v7) (by decide) V]
  generalize after (List.take 110 opsL2) V = W
  exact unary_result main_c_31 main_call4_v7 ((sitofp .f32) : (⟨S_, .i32⟩ : BufTy).Contents (Elt F) → (⟨S_, .f32⟩ : BufTy).Contents (Elt F)) ⟨by decide, rfl⟩ ⟨by decide, rfl⟩ W

theorem rd_main_call4_cst_1 (V : Valuation τ sig (Elt F)) :
    after opsL2 V (Proc.devRef .tc main_call4_cst_1) = ((constant S_ .f32 0x47435000#32) : (⟨S_, .f32⟩ : BufTy).Contents (Elt F)) := by
  rw [Rd.at_eq opsL2_w1 111 (by decide) (y := main_call4_cst_1) (by decide) V]
  generalize after (List.take 111 opsL2) V = W
  exact nullary_result main_call4_cst_1 ((constant S_ .f32 0x47435000#32) : (⟨S_, .f32⟩ : BufTy).Contents (Elt F)) ⟨by decide, rfl⟩ W

theorem rd_main_call4_v8 (V : Valuation τ sig (Elt F)) :
    after opsL2 V (Proc.devRef .tc main_call4_v8) = (subf : (⟨S_, .f32⟩ : BufTy).Contents (Elt F) → (⟨S_, .f32⟩ : BufTy).Contents (Elt F) → (⟨S_, .f32⟩ : BufTy).Contents (Elt F)) (after opsL2 V (Proc.devRef .tc main_call4_cst_1)) (after opsL2 V (Proc.devRef .tc main_call4_v7)) := by
  rw [← Rd.tk_eq opsL2_w1 112 (a := main_call4_cst_1) (by decide) V,
    ← Rd.tk_eq opsL2_w1 112 (a := main_call4_v7) (by decide) V,
    Rd.at_eq opsL2_w1 112 (by decide) (y := main_call4_v8) (by decide) V]
  generalize after (List.take 112 opsL2) V = W
  exact binary_result main_call4_cst_1 main_call4_v7 main_call4_v8 (subf : (⟨S_, .f32⟩ : BufTy).Contents (Elt F) → (⟨S_, .f32⟩ : BufTy).Contents (Elt F) → (⟨S_, .f32⟩ : BufTy).Contents (Elt F)) ⟨by decide, rfl⟩ ⟨by decide, rfl⟩ ⟨by decide, rfl⟩ W

theorem rd_main_call4_cst_2 (V : Valuation τ sig (Elt F)) :
    after opsL2 V (Proc.devRef .tc main_call4_cst_2) = ((constant S_ .f32 0x00000000#32) : (⟨S_, .f32⟩ : BufTy).Contents (Elt F)) := by
  rw [Rd.at_eq opsL2_w1 113 (by decide) (y := main_call4_cst_2) (by decide) V]
  generalize after (List.take 113 opsL2) V = W
  exact nullary_result main_call4_cst_2 ((constant S_ .f32 0x00000000#32) : (⟨S_, .f32⟩ : BufTy).Contents (Elt F)) ⟨by decide, rfl⟩ W

theorem rd_main_call4_v9 (V : Valuation τ sig (Elt F)) :
    after opsL2 V (Proc.devRef .tc main_call4_v9) = ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) (after opsL2 V (Proc.devRef .tc main_call4_v6)) (after opsL2 V (Proc.devRef .tc main_call4_cst_2)) := by
  rw [← Rd.tk_eq opsL2_w1 114 (a := main_call4_v6) (by decide) V,
    ← Rd.tk_eq opsL2_w1 114 (a := main_call4_cst_2) (by decide) V,
    Rd.at_eq opsL2_w1 114 (by decide) (y := main_call4_v9) (by decide) V]
  generalize after (List.take 114 opsL2) V = W
  exact binary_result main_call4_v6 main_call4_cst_2 main_call4_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ W

theorem rd_main_call4_v10 (V : Valuation τ sig (Elt F)) :
    after opsL2 V (Proc.devRef .tc main_call4_v10) = ((broadcastInDim S64 ![] bcast_S_S64) : (⟨S_, .f32⟩ : BufTy).Contents (Elt F) → (⟨S64, .f32⟩ : BufTy).Contents (Elt F)) (after opsL2 V (Proc.devRef .tc main_call4_v8)) := by
  rw [← Rd.tk_eq opsL2_w1 115 (a := main_call4_v8) (by decide) V,
    Rd.at_eq opsL2_w1 115 (by decide) (y := main_call4_v10) (by decide) V]
  generalize after (List.take 115 opsL2) V = W
  exact unary_result main_call4_v8 main_call4_v10 ((broadcastInDim S64 ![] bcast_S_S64) : (⟨S_, .f32⟩ : BufTy).Contents (Elt F) → (⟨S64, .f32⟩ : BufTy).Contents (Elt F)) ⟨by decide, rfl⟩ ⟨by decide, rfl⟩ W

theorem rd_main_call4_v11 (V : Valuation τ sig (Elt F)) :
    after opsL2 V (Proc.devRef .tc main_call4_v11) = (Host.divf : (⟨S64, .f32⟩ : BufTy).Contents (Elt F) → (⟨S64, .f32⟩ : BufTy).Contents (Elt F) → (⟨S64, .f32⟩ : BufTy).Contents (Elt F)) (after opsL2 V (Proc.devRef .tc main_call4_v9)) (after opsL2 V (Proc.devRef .tc main_call4_v10)) := by
  rw [← Rd.tk_eq opsL2_w1 116 (a := main_call4_v9) (by decide) V,
    ← Rd.tk_eq opsL2_w1 116 (a := main_call4_v10) (by decide) V,
    Rd.at_eq opsL2_w1 116 (by decide) (y := main_call4_v11) (by decide) V]
  generalize after (List.take 116 opsL2) V = W
  exact binary_result main_call4_v9 main_call4_v10 main_call4_v11 (Host.divf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ W

theorem rd_main_call4_cst_3 (V : Valuation τ sig (Elt F)) :
    after opsL2 V (Proc.devRef .tc main_call4_cst_3) = ((constant S_ .f32 0x00000000#32) : (⟨S_, .f32⟩ : BufTy).Contents (Elt F)) := by
  rw [Rd.at_eq opsL2_w1 117 (by decide) (y := main_call4_cst_3) (by decide) V]
  generalize after (List.take 117 opsL2) V = W
  exact nullary_result main_call4_cst_3 ((constant S_ .f32 0x00000000#32) : (⟨S_, .f32⟩ : BufTy).Contents (Elt F)) ⟨by decide, rfl⟩ W

theorem rd_main_call4_v12 (V : Valuation τ sig (Elt F)) :
    after opsL2 V (Proc.devRef .tc main_call4_v12) = ((cmpf .ogt) : (⟨S_, .f32⟩ : BufTy).Contents (Elt F) → (⟨S_, .f32⟩ : BufTy).Contents (Elt F) → (⟨S_, .i1⟩ : BufTy).Contents (Elt F)) (after opsL2 V (Proc.devRef .tc main_call4_v8)) (after opsL2 V (Proc.devRef .tc main_call4_cst_3)) := by
  rw [← Rd.tk_eq opsL2_w1 118 (a := main_call4_v8) (by decide) V,
    ← Rd.tk_eq opsL2_w1 118 (a := main_call4_cst_3) (by decide) V,
    Rd.at_eq opsL2_w1 118 (by decide) (y := main_call4_v12) (by decide) V]
  generalize after (List.take 118 opsL2) V = W
  exact binary_result main_call4_v8 main_call4_cst_3 main_call4_v12 ((cmpf .ogt) : (⟨S_, .f32⟩ : BufTy).Contents (Elt F) → (⟨S_, .f32⟩ : BufTy).Contents (Elt F) → (⟨S_, .i1⟩ : BufTy).Contents (Elt F)) ⟨by decide, rfl⟩ ⟨by decide, rfl⟩ ⟨by decide, rfl⟩ W

theorem rd_main_call4_cst_4 (V : Valuation τ sig (Elt F)) :
    after opsL2 V (Proc.devRef .tc main_call4_cst_4) = ((constant S_ .f32 0x7FC00000#32) : (⟨S_, .f32⟩ : BufTy).Contents (Elt F)) := by
  rw [Rd.at_eq opsL2_w1 119 (by decide) (y := main_call4_cst_4) (by decide) V]
  generalize after (List.take 119 opsL2) V = W
  exact nullary_result main_call4_cst_4 ((constant S_ .f32 0x7FC00000#32) : (⟨S_, .f32⟩ : BufTy).Contents (Elt F)) ⟨by decide, rfl⟩ W

theorem rd_main_call4_call0_v0 (V : Valuation τ sig (Elt F)) :
    after opsL2 V (Proc.devRef .tc main_call4_call0_v0) = (id : (⟨S_, .f32⟩ : BufTy).Contents (Elt F) → (⟨S_, .f32⟩ : BufTy).Contents (Elt F)) (after opsL2 V (Proc.devRef .tc main_call4_cst_4)) := by
  rw [← Rd.tk_eq opsL2_w1 120 (a := main_call4_cst_4) (by decide) V,
    Rd.at_eq opsL2_w1 120 (by decide) (y := main_call4_call0_v0) (by decide) V]
  generalize after (List.take 120 opsL2) V = W
  exact unary_result main_call4_cst_4 main_call4_call0_v0 (id : (⟨S_, .f32⟩ : BufTy).Contents (Elt F) → (⟨S_, .f32⟩ : BufTy).Contents (Elt F)) ⟨by decide, rfl⟩ ⟨by decide, rfl⟩ W

theorem rd_main_call4_call0_v1 (V : Valuation τ sig (Elt F)) :
    after opsL2 V (Proc.devRef .tc main_call4_call0_v1) = ((broadcastInDim S64 ![] bcast_S_S64) : (⟨S_, .f32⟩ : BufTy).Contents (Elt F) → (⟨S64, .f32⟩ : BufTy).Contents (Elt F)) (after opsL2 V (Proc.devRef .tc main_call4_call0_v0)) := by
  rw [← Rd.tk_eq opsL2_w1 121 (a := main_call4_call0_v0) (by decide) V,
    Rd.at_eq opsL2_w1 121 (by decide) (y := main_call4_call0_v1) (by decide) V]
  generalize after (List.take 121 opsL2) V = W
  exact unary_result main_call4_call0_v0 main_call4_call0_v1 ((broadcastInDim S64 ![] bcast_S_S64) : (⟨S_, .f32⟩ : BufTy).Contents (Elt F) → (⟨S64, .f32⟩ : BufTy).Contents (Elt F)) ⟨by decide, rfl⟩ ⟨by decide, rfl⟩ W

theorem rd_main_v227 (V : Valuation τ sig (Elt F)) :
    after opsL2 V (Proc.devRef .tc main_v227) = ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) (after opsL2 V (Proc.devRef .tc main_call4_v12)) (after opsL2 V (Proc.devRef .tc main_call4_v11)) (after opsL2 V (Proc.devRef .tc main_call4_call0_v1)) := by
  rw [← Rd.tk_eq opsL2_w1 122 (a := main_call4_v12) (by decide) V,
    ← Rd.tk_eq opsL2_w1 122 (a := main_call4_v11) (by decide) V,
    ← Rd.tk_eq opsL2_w1 122 (a := main_call4_call0_v1) (by decide) V,
    Rd.at_eq opsL2_w1 122 (by decide) (y := main_v227) (by decide) V]
  generalize after (List.take 122 opsL2) V = W
  exact ternary_result main_call4_v12 main_call4_v11 main_call4_call0_v1 main_v227 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ ⟨by decide, rfl⟩ W

theorem rd_main_v228 (V : Valuation τ sig (Elt F)) :
    after opsL2 V (Proc.devRef .tc main_v228) = (broadcastInDim S1x64 ![1] bcast_S64_S1x64_1 : (⟨S64, .f32⟩ : BufTy).Contents (Elt F) → (⟨S1x64, .f32⟩ : BufTy).Contents (Elt F)) (after opsL2 V (Proc.devRef .tc main_v226)) := by
  rw [← Rd.tk_eq opsL2_w1 123 (a := main_v226) (by decide) V,
    Rd.at_eq opsL2_w1 123 (by decide) (y := main_v228) (by decide) V]
  generalize after (List.take 123 opsL2) V = W
  exact unary_result main_v226 main_v228 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v229 (V : Valuation τ sig (Elt F)) :
    after opsL2 V (Proc.devRef .tc main_v229) = (broadcastInDim S50000x64 ![0, 1] bcast_S1x64_S50000x64_0_1 : (⟨S1x64, .f32⟩ : BufTy).Contents (Elt F) → (⟨S50000x64, .f32⟩ : BufTy).Contents (Elt F)) (after opsL2 V (Proc.devRef .tc main_v228)) := by
  rw [← Rd.tk_eq opsL2_w1 124 (a := main_v228) (by decide) V,
    Rd.at_eq opsL2_w1 124 (by decide) (y := main_v229) (by decide) V]
  generalize after (List.take 124 opsL2) V = W
  exact unary_result main_v228 main_v229 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v230 (V : Valuation τ sig (Elt F)) :
    after opsL2 V (Proc.devRef .tc main_v230) = (subf : (⟨S50000x64, .f32⟩ : BufTy).Contents (Elt F) → (⟨S50000x64, .f32⟩ : BufTy).Contents (Elt F) → (⟨S50000x64, .f32⟩ : BufTy).Contents (Elt F)) (after opsL2 V (Proc.devRef .tc main_v219)) (after opsL2 V (Proc.devRef .tc main_v229)) := by
  rw [← Rd.tk_eq opsL2_w1 125 (a := main_v219) (by decide) V,
    ← Rd.tk_eq opsL2_w1 125 (a := main_v229) (by decide) V,
    Rd.at_eq opsL2_w1 125 (by decide) (y := main_v230) (by decide) V]
  generalize after (List.take 125 opsL2) V = W
  exact binary_result main_v219 main_v229 main_v230 (subf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_cst_32 (V : Valuation τ sig (Elt F)) :
    after opsL2 V (Proc.devRef .tc main_cst_32) = (constant S_ .f32 0x3727C5AC#32) := by
  rw [Rd.at_eq opsL2_w1 126 (by decide) (y := main_cst_32) (by decide) V]
  generalize after (List.take 126 opsL2) V = W
  exact nullary_result main_cst_32 (constant S_ .f32 0x3727C5AC#32) ⟨by decide, rfl⟩ W

theorem rd_main_v231 (V : Valuation τ sig (Elt F)) :
    after opsL2 V (Proc.devRef .tc main_v231) = (broadcastInDim S64 ![] bcast_S_S64 : (⟨S_, .f32⟩ : BufTy).Contents (Elt F) → (⟨S64, .f32⟩ : BufTy).Contents (Elt F)) (after opsL2 V (Proc.devRef .tc main_cst_32)) := by
  rw [← Rd.tk_eq opsL2_w1 127 (a := main_cst_32) (by decide) V,
    Rd.at_eq opsL2_w1 127 (by decide) (y := main_v231) (by decide) V]
  generalize after (List.take 127 opsL2) V = W
  exact unary_result main_cst_32 main_v231 (broadcastInDim S64 ![] bcast_S_S64 : (⟨S_, .f32⟩ : BufTy).Contents (Elt F) → (⟨S64, .f32⟩ : BufTy).Contents (Elt F)) ⟨by decide, rfl⟩ ⟨by decide, rfl⟩ W

theorem rd_main_v232 (V : Valuation τ sig (Elt F)) :
    after opsL2 V (Proc.devRef .tc main_v232) = (addf : (⟨S64, .f32⟩ : BufTy).Contents (Elt F) → (⟨S64, .f32⟩ : BufTy).Contents (Elt F) → (⟨S64, .f32⟩ : BufTy).Contents (Elt F)) (after opsL2 V (Proc.devRef .tc main_v227)) (after opsL2 V (Proc.devRef .tc main_v231)) := by
  rw [← Rd.tk_eq opsL2_w1 128 (a := main_v227) (by decide) V,
    ← Rd.tk_eq opsL2_w1 128 (a := main_v231) (by decide) V,
    Rd.at_eq opsL2_w1 128 (by decide) (y := main_v232) (by decide) V]
  generalize after (List.take 128 opsL2) V = W
  exact binary_result main_v227 main_v231 main_v232 (addf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ W

theorem rd_main_v233 (V : Valuation τ sig (Elt F)) :
    after opsL2 V (Proc.devRef .tc main_v233) = (Host.rsqrt : (⟨S64, .f32⟩ : BufTy).Contents (Elt F) → (⟨S64, .f32⟩ : BufTy).Contents (Elt F)) (after opsL2 V (Proc.devRef .tc main_v232)) := by
  rw [← Rd.tk_eq opsL2_w1 129 (a := main_v232) (by decide) V,
    Rd.at_eq opsL2_w1 129 (by decide) (y := main_v233) (by decide) V]
  generalize after (List.take 129 opsL2) V = W
  exact unary_result main_v232 main_v233 (Host.rsqrt : (⟨S64, .f32⟩ : BufTy).Contents (Elt F) → (⟨S64, .f32⟩ : BufTy).Contents (Elt F)) ⟨by decide, rfl⟩ ⟨by decide, rfl⟩ W

theorem rd_main_v234 (V : Valuation τ sig (Elt F)) :
    after opsL2 V (Proc.devRef .tc main_v234) = (broadcastInDim S1x64 ![1] bcast_S64_S1x64_1 : (⟨S64, .f32⟩ : BufTy).Contents (Elt F) → (⟨S1x64, .f32⟩ : BufTy).Contents (Elt F)) (after opsL2 V (Proc.devRef .tc main_v233)) := by
  rw [← Rd.tk_eq opsL2_w1 130 (a := main_v233) (by decide) V,
    Rd.at_eq opsL2_w1 130 (by decide) (y := main_v234) (by decide) V]
  generalize after (List.take 130 opsL2) V = W
  exact unary_result main_v233 main_v234 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v235 (V : Valuation τ sig (Elt F)) :
    after opsL2 V (Proc.devRef .tc main_v235) = (broadcastInDim S50000x64 ![0, 1] bcast_S1x64_S50000x64_0_1 : (⟨S1x64, .f32⟩ : BufTy).Contents (Elt F) → (⟨S50000x64, .f32⟩ : BufTy).Contents (Elt F)) (after opsL2 V (Proc.devRef .tc main_v234)) := by
  rw [← Rd.tk_eq opsL2_w1 131 (a := main_v234) (by decide) V,
    Rd.at_eq opsL2_w1 131 (by decide) (y := main_v235) (by decide) V]
  generalize after (List.take 131 opsL2) V = W
  exact unary_result main_v234 main_v235 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v236 (V : Valuation τ sig (Elt F)) :
    after opsL2 V (Proc.devRef .tc main_v236) = (mulf : (⟨S50000x64, .f32⟩ : BufTy).Contents (Elt F) → (⟨S50000x64, .f32⟩ : BufTy).Contents (Elt F) → (⟨S50000x64, .f32⟩ : BufTy).Contents (Elt F)) (after opsL2 V (Proc.devRef .tc main_v230)) (after opsL2 V (Proc.devRef .tc main_v235)) := by
  rw [← Rd.tk_eq opsL2_w1 132 (a := main_v230) (by decide) V,
    ← Rd.tk_eq opsL2_w1 132 (a := main_v235) (by decide) V,
    Rd.at_eq opsL2_w1 132 (by decide) (y := main_v236) (by decide) V]
  generalize after (List.take 132 opsL2) V = W
  exact binary_result main_v230 main_v235 main_v236 (mulf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v237 (V : Valuation τ sig (Elt F)) :
    after opsL2 V (Proc.devRef .tc main_v237) = (broadcastInDim S1x64 ![1] bcast_S64_S1x64_1 : (⟨S64, .f32⟩ : BufTy).Contents (Elt F) → (⟨S1x64, .f32⟩ : BufTy).Contents (Elt F)) (after opsL2 V (Proc.devRef .tc main_v221)) := by
  rw [← Rd.tk_eq opsL2_w1 133 (a := main_v221) (by decide) V,
    Rd.at_eq opsL2_w1 133 (by decide) (y := main_v237) (by decide) V]
  generalize after (List.take 133 opsL2) V = W
  exact unary_result main_v221 main_v237 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v238 (V : Valuation τ sig (Elt F)) :
    after opsL2 V (Proc.devRef .tc main_v238) = (broadcastInDim S50000x64 ![0, 1] bcast_S1x64_S50000x64_0_1 : (⟨S1x64, .f32⟩ : BufTy).Contents (Elt F) → (⟨S50000x64, .f32⟩ : BufTy).Contents (Elt F)) (after opsL2 V (Proc.devRef .tc main_v237)) := by
  rw [← Rd.tk_eq opsL2_w1 134 (a := main_v237) (by decide) V,
    Rd.at_eq opsL2_w1 134 (by decide) (y := main_v238) (by decide) V]
  generalize after (List.take 134 opsL2) V = W
  exact unary_result main_v237 main_v238 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v239 (V : Valuation τ sig (Elt F)) :
    after opsL2 V (Proc.devRef .tc main_v239) = (mulf : (⟨S50000x64, .f32⟩ : BufTy).Contents (Elt F) → (⟨S50000x64, .f32⟩ : BufTy).Contents (Elt F) → (⟨S50000x64, .f32⟩ : BufTy).Contents (Elt F)) (after opsL2 V (Proc.devRef .tc main_v236)) (after opsL2 V (Proc.devRef .tc main_v238)) := by
  rw [← Rd.tk_eq opsL2_w1 135 (a := main_v236) (by decide) V,
    ← Rd.tk_eq opsL2_w1 135 (a := main_v238) (by decide) V,
    Rd.at_eq opsL2_w1 135 (by decide) (y := main_v239) (by decide) V]
  generalize after (List.take 135 opsL2) V = W
  exact binary_result main_v236 main_v238 main_v239 (mulf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v240 (V : Valuation τ sig (Elt F)) :
    after opsL2 V (Proc.devRef .tc main_v240) = (broadcastInDim S1x64 ![1] bcast_S64_S1x64_1 : (⟨S64, .f32⟩ : BufTy).Contents (Elt F) → (⟨S1x64, .f32⟩ : BufTy).Contents (Elt F)) (after opsL2 V (Proc.devRef .tc main_v223)) := by
  rw [← Rd.tk_eq opsL2_w1 136 (a := main_v223) (by decide) V,
    Rd.at_eq opsL2_w1 136 (by decide) (y := main_v240) (by decide) V]
  generalize after (List.take 136 opsL2) V = W
  exact unary_result main_v223 main_v240 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v241 (V : Valuation τ sig (Elt F)) :
    after opsL2 V (Proc.devRef .tc main_v241) = (broadcastInDim S50000x64 ![0, 1] bcast_S1x64_S50000x64_0_1 : (⟨S1x64, .f32⟩ : BufTy).Contents (Elt F) → (⟨S50000x64, .f32⟩ : BufTy).Contents (Elt F)) (after opsL2 V (Proc.devRef .tc main_v240)) := by
  rw [← Rd.tk_eq opsL2_w1 137 (a := main_v240) (by decide) V,
    Rd.at_eq opsL2_w1 137 (by decide) (y := main_v241) (by decide) V]
  generalize after (List.take 137 opsL2) V = W
  exact unary_result main_v240 main_v241 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v242 (V : Valuation τ sig (Elt F)) :
    after opsL2 V (Proc.devRef .tc main_v242) = (addf : (⟨S50000x64, .f32⟩ : BufTy).Contents (Elt F) → (⟨S50000x64, .f32⟩ : BufTy).Contents (Elt F) → (⟨S50000x64, .f32⟩ : BufTy).Contents (Elt F)) (after opsL2 V (Proc.devRef .tc main_v239)) (after opsL2 V (Proc.devRef .tc main_v241)) := by
  rw [← Rd.tk_eq opsL2_w1 138 (a := main_v239) (by decide) V,
    ← Rd.tk_eq opsL2_w1 138 (a := main_v241) (by decide) V,
    Rd.at_eq opsL2_w1 138 (by decide) (y := main_v242) (by decide) V]
  generalize after (List.take 138 opsL2) V = W
  exact binary_result main_v239 main_v241 main_v242 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_call5_cst (V : Valuation τ sig (Elt F)) :
    after opsL2 V (Proc.devRef .tc main_call5_cst) = ((constant S_ .f32 0x00000000#32) : (⟨S_, .f32⟩ : BufTy).Contents (Elt F)) := by
  rw [Rd.at_eq opsL2_w1 139 (by decide) (y := main_call5_cst) (by decide) V]
  generalize after (List.take 139 opsL2) V = W
  exact nullary_result main_call5_cst ((constant S_ .f32 0x00000000#32) : (⟨S_, .f32⟩ : BufTy).Contents (Elt F)) ⟨by decide, rfl⟩ W

theorem rd_main_call5_v0 (V : Valuation τ sig (Elt F)) :
    after opsL2 V (Proc.devRef .tc main_call5_v0) = ((broadcastInDim S50000x64 ![] bcast_S_S50000x64) : (⟨S_, .f32⟩ : BufTy).Contents (Elt F) → (⟨S50000x64, .f32⟩ : BufTy).Contents (Elt F)) (after opsL2 V (Proc.devRef .tc main_call5_cst)) := by
  rw [← Rd.tk_eq opsL2_w1 140 (a := main_call5_cst) (by decide) V,
    Rd.at_eq opsL2_w1 140 (by decide) (y := main_call5_v0) (by decide) V]
  generalize after (List.take 140 opsL2) V = W
  exact unary_result main_call5_cst main_call5_v0 ((broadcastInDim S50000x64 ![] bcast_S_S50000x64) : (⟨S_, .f32⟩ : BufTy).Contents (Elt F) → (⟨S50000x64, .f32⟩ : BufTy).Contents (Elt F)) ⟨by decide, rfl⟩ ⟨by decide, rfl⟩ W

theorem rd_main_v243 (V : Valuation τ sig (Elt F)) :
    after opsL2 V (Proc.devRef .tc main_v243) = (maximumf : (⟨S50000x64, .f32⟩ : BufTy).Contents (Elt F) → (⟨S50000x64, .f32⟩ : BufTy).Contents (Elt F) → (⟨S50000x64, .f32⟩ : BufTy).Contents (Elt F)) (after opsL2 V (Proc.devRef .tc main_v242)) (after opsL2 V (Proc.devRef .tc main_call5_v0)) := by
  rw [← Rd.tk_eq opsL2_w1 141 (a := main_v242) (by decide) V,
    ← Rd.tk_eq opsL2_w1 141 (a := main_call5_v0) (by decide) V,
    Rd.at_eq opsL2_w1 141 (by decide) (y := main_v243) (by decide) V]
  generalize after (List.take 141 opsL2) V = W
  exact binary_result main_v242 main_call5_v0 main_v243 (maximumf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v244 (V : Valuation τ sig (Elt F)) :
    after opsL2 V (Proc.devRef .tc main_v244) = (addf : (⟨S50000x64, .f32⟩ : BufTy).Contents (Elt F) → (⟨S50000x64, .f32⟩ : BufTy).Contents (Elt F) → (⟨S50000x64, .f32⟩ : BufTy).Contents (Elt F)) (V (Proc.devRef .tc main_v114)) (after opsL2 V (Proc.devRef .tc main_v243)) := by
  rw [← Rd.tk_keep opsL2_w1 142 (a := main_v114) (by decide) V,
    ← Rd.tk_eq opsL2_w1 142 (a := main_v243) (by decide) V,
    Rd.at_eq opsL2_w1 142 (by decide) (y := main_v244) (by decide) V]
  generalize after (List.take 142 opsL2) V = W
  exact binary_result main_v114 main_v243 main_v244 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v245 (V : Valuation τ sig (Elt F)) :
    after opsL2 V (Proc.devRef .tc main_v245) = ((extractStridedSlice S1x64 ![1, 0] · slices_S3x64_S1x64_1_0) : (⟨S3x64, .f32⟩ : BufTy).Contents (Elt F) → (⟨S1x64, .f32⟩ : BufTy).Contents (Elt F)) (V (Proc.devRef .tc main_arg22)) := by
  rw [← Rd.tk_keep opsL2_w1 143 (a := main_arg22) (by decide) V,
    Rd.at_eq opsL2_w1 143 (by decide) (y := main_v245) (by decide) V]
  generalize after (List.take 143 opsL2) V = W
  exact unary_result main_arg22 main_v245 ((extractStridedSlice S1x64 ![1, 0] · slices_S3x64_S1x64_1_0) : (⟨S3x64, .f32⟩ : BufTy).Contents (Elt F) → (⟨S1x64, .f32⟩ : BufTy).Contents (Elt F)) ⟨by decide, rfl⟩ ⟨by decide, rfl⟩ W

theorem rd_main_v246 (V : Valuation τ sig (Elt F)) :
    after opsL2 V (Proc.devRef .tc main_v246) = shapeCast S64 (after opsL2 V (Proc.devRef .tc main_v245)) shapeCasts_S1x64_S64 := by
  rw [← Rd.tk_eq opsL2_w1 144 (a := main_v245) (by decide) V,
    Rd.at_eq opsL2_w1 144 (by decide) (y := main_v246) (by decide) V]
  generalize after (List.take 144 opsL2) V = W
  exact reshape_result main_v245 main_v246 rfl shapeCasts_S1x64_S64 ⟨by decide, rfl⟩ ⟨by decide, rfl⟩ W

theorem rd_main_v247 (V : Valuation τ sig (Elt F)) :
    after opsL2 V (Proc.devRef .tc main_v247) = ((extractStridedSlice S1x64 ![1, 0] · slices_S3x64_S1x64_1_0) : (⟨S3x64, .f32⟩ : BufTy).Contents (Elt F) → (⟨S1x64, .f32⟩ : BufTy).Contents (Elt F)) (V (Proc.devRef .tc main_arg23)) := by
  rw [← Rd.tk_keep opsL2_w1 145 (a := main_arg23) (by decide) V,
    Rd.at_eq opsL2_w1 145 (by decide) (y := main_v247) (by decide) V]
  generalize after (List.take 145 opsL2) V = W
  exact unary_result main_arg23 main_v247 ((extractStridedSlice S1x64 ![1, 0] · slices_S3x64_S1x64_1_0) : (⟨S3x64, .f32⟩ : BufTy).Contents (Elt F) → (⟨S1x64, .f32⟩ : BufTy).Contents (Elt F)) ⟨by decide, rfl⟩ ⟨by decide, rfl⟩ W

theorem rd_main_v248 (V : Valuation τ sig (Elt F)) :
    after opsL2 V (Proc.devRef .tc main_v248) = shapeCast S64 (after opsL2 V (Proc.devRef .tc main_v247)) shapeCasts_S1x64_S64 := by
  rw [← Rd.tk_eq opsL2_w1 146 (a := main_v247) (by decide) V,
    Rd.at_eq opsL2_w1 146 (by decide) (y := main_v248) (by decide) V]
  generalize after (List.take 146 opsL2) V = W
  exact reshape_result main_v247 main_v248 rfl shapeCasts_S1x64_S64 ⟨by decide, rfl⟩ ⟨by decide, rfl⟩ W

theorem rd_main_cst_33 (V : Valuation τ sig (Elt F)) :
    after opsL2 V (Proc.devRef .tc main_cst_33) = (constant S_ .f32 0x00000000#32) := by
  rw [Rd.at_eq opsL2_w1 147 (by decide) (y := main_cst_33) (by decide) V]
  generalize after (List.take 147 opsL2) V = W
  exact nullary_result main_cst_33 (constant S_ .f32 0x00000000#32) ⟨by decide, rfl⟩ W

theorem rd_main_v249 (V : Valuation τ sig (Elt F)) :
    after opsL2 V (Proc.devRef .tc main_v249) = ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)) (after opsL2 V (Proc.devRef .tc main_v195)) (after opsL2 V (Proc.devRef .tc main_cst_33)) := by
  rw [← Rd.tk_eq opsL2_w1 148 (a := main_v195) (by decide) V,
    ← Rd.tk_eq opsL2_w1 148 (a := main_cst_33) (by decide) V,
    Rd.at_eq opsL2_w1 148 (by decide) (y := main_v249) (by decide) V]
  generalize after (List.take 148 opsL2) V = W
  exact binary_result main_v195 main_cst_33 main_v249 ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ W

theorem rd_main_cst_34 (V : Valuation τ sig (Elt F)) :
    after opsL2 V (Proc.devRef .tc main_cst_34) = (constant S_ .f32 0x48C35000#32) := by
  rw [Rd.at_eq opsL2_w1 149 (by decide) (y := main_cst_34) (by decide) V]
  generalize after (List.take 149 opsL2) V = W
  exact nullary_result main_cst_34 (constant S_ .f32 0x48C35000#32) ⟨by decide, rfl⟩ W

theorem rd_main_v250 (V : Valuation τ sig (Elt F)) :
    after opsL2 V (Proc.devRef .tc main_v250) = (broadcastInDim S64 ![] bcast_S_S64 : (⟨S_, .f32⟩ : BufTy).Contents (Elt F) → (⟨S64, .f32⟩ : BufTy).Contents (Elt F)) (after opsL2 V (Proc.devRef .tc main_cst_34)) := by
  rw [← Rd.tk_eq opsL2_w1 150 (a := main_cst_34) (by decide) V,
    Rd.at_eq opsL2_w1 150 (by decide) (y := main_v250) (by decide) V]
  generalize after (List.take 150 opsL2) V = W
  exact unary_result main_cst_34 main_v250 (broadcastInDim S64 ![] bcast_S_S64 : (⟨S_, .f32⟩ : BufTy).Contents (Elt F) → (⟨S64, .f32⟩ : BufTy).Contents (Elt F)) ⟨by decide, rfl⟩ ⟨by decide, rfl⟩ W

theorem rd_main_v251 (V : Valuation τ sig (Elt F)) :
    after opsL2 V (Proc.devRef .tc main_v251) = (Host.divf : (⟨S64, .f32⟩ : BufTy).Contents (Elt F) → (⟨S64, .f32⟩ : BufTy).Contents (Elt F) → (⟨S64, .f32⟩ : BufTy).Contents (Elt F)) (after opsL2 V (Proc.devRef .tc main_v249)) (after opsL2 V (Proc.devRef .tc main_v250)) := by
  rw [← Rd.tk_eq opsL2_w1 151 (a := main_v249) (by decide) V,
    ← Rd.tk_eq opsL2_w1 151 (a := main_v250) (by decide) V,
    Rd.at_eq opsL2_w1 151 (by decide) (y := main_v251) (by decide) V]
  generalize after (List.take 151 opsL2) V = W
  exact binary_result main_v249 main_v250 main_v251 (Host.divf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ W

theorem rd_main_c_35 (V : Valuation τ sig (Elt F)) :
    after opsL2 V (Proc.devRef .tc main_c_35) = (constantI S_ 32 0#32) := by
  rw [Rd.at_eq opsL2_w1 152 (by decide) (y := main_c_35) (by decide) V]
  generalize after (List.take 152 opsL2) V = W
  exact nullary_result main_c_35 (constantI S_ 32 0#32) ⟨by decide, rfl⟩ W

theorem rd_main_call6_cst (V : Valuation τ sig (Elt F)) :
    after opsL2 V (Proc.devRef .tc main_call6_cst) = ((constant S_ .f32 0x00000000#32) : (⟨S_, .f32⟩ : BufTy).Contents (Elt F)) := by
  rw [Rd.at_eq opsL2_w1 153 (by decide) (y := main_call6_cst) (by decide) V]
  generalize after (List.take 153 opsL2) V = W
  exact nullary_result main_call6_cst ((constant S_ .f32 0x00000000#32) : (⟨S_, .f32⟩ : BufTy).Contents (Elt F)) ⟨by decide, rfl⟩ W

theorem rd_main_call6_v0 (V : Valuation τ sig (Elt F)) :
    after opsL2 V (Proc.devRef .tc main_call6_v0) = ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)) (after opsL2 V (Proc.devRef .tc main_v195)) (after opsL2 V (Proc.devRef .tc main_call6_cst)) := by
  rw [← Rd.tk_eq opsL2_w1 154 (a := main_v195) (by decide) V,
    ← Rd.tk_eq opsL2_w1 154 (a := main_call6_cst) (by decide) V,
    Rd.at_eq opsL2_w1 154 (by decide) (y := main_call6_v0) (by decide) V]
  generalize after (List.take 154 opsL2) V = W
  exact binary_result main_v195 main_call6_cst main_call6_v0 ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ W

theorem rd_main_call6_v1 (V : Valuation τ sig (Elt F)) :
    after opsL2 V (Proc.devRef .tc main_call6_v1) = ((broadcastInDim S1x64 ![1] bcast_S64_S1x64_1) : (⟨S64, .f32⟩ : BufTy).Contents (Elt F) → (⟨S1x64, .f32⟩ : BufTy).Contents (Elt F)) (after opsL2 V (Proc.devRef .tc main_call6_v0)) := by
  rw [← Rd.tk_eq opsL2_w1 155 (a := main_call6_v0) (by decide) V,
    Rd.at_eq opsL2_w1 155 (by decide) (y := main_call6_v1) (by decide) V]
  generalize after (List.take 155 opsL2) V = W
  exact unary_result main_call6_v0 main_call6_v1 ((broadcastInDim S1x64 ![1] bcast_S64_S1x64_1) : (⟨S64, .f32⟩ : BufTy).Contents (Elt F) → (⟨S1x64, .f32⟩ : BufTy).Contents (Elt F)) ⟨by decide, rfl⟩ ⟨by decide, rfl⟩ W

theorem rd_main_call6_cst_0 (V : Valuation τ sig (Elt F)) :
    after opsL2 V (Proc.devRef .tc main_call6_cst_0) = ((constant S_ .f32 0x48C35000#32) : (⟨S_, .f32⟩ : BufTy).Contents (Elt F)) := by
  rw [Rd.at_eq opsL2_w1 156 (by decide) (y := main_call6_cst_0) (by decide) V]
  generalize after (List.take 156 opsL2) V = W
  exact nullary_result main_call6_cst_0 ((constant S_ .f32 0x48C35000#32) : (⟨S_, .f32⟩ : BufTy).Contents (Elt F)) ⟨by decide, rfl⟩ W

theorem rd_main_call6_v2 (V : Valuation τ sig (Elt F)) :
    after opsL2 V (Proc.devRef .tc main_call6_v2) = ((broadcastInDim S1x64 ![] bcast_S_S1x64) : (⟨S_, .f32⟩ : BufTy).Contents (Elt F) → (⟨S1x64, .f32⟩ : BufTy).Contents (Elt F)) (after opsL2 V (Proc.devRef .tc main_call6_cst_0)) := by
  rw [← Rd.tk_eq opsL2_w1 157 (a := main_call6_cst_0) (by decide) V,
    Rd.at_eq opsL2_w1 157 (by decide) (y := main_call6_v2) (by decide) V]
  generalize after (List.take 157 opsL2) V = W
  exact unary_result main_call6_cst_0 main_call6_v2 ((broadcastInDim S1x64 ![] bcast_S_S1x64) : (⟨S_, .f32⟩ : BufTy).Contents (Elt F) → (⟨S1x64, .f32⟩ : BufTy).Contents (Elt F)) ⟨by decide, rfl⟩ ⟨by decide, rfl⟩ W

theorem rd_main_call6_v3 (V : Valuation τ sig (Elt F)) :
    after opsL2 V (Proc.devRef .tc main_call6_v3) = (Host.divf : (⟨S1x64, .f32⟩ : BufTy).Contents (Elt F) → (⟨S1x64, .f32⟩ : BufTy).Contents (Elt F) → (⟨S1x64, .f32⟩ : BufTy).Contents (Elt F)) (after opsL2 V (Proc.devRef .tc main_call6_v1)) (after opsL2 V (Proc.devRef .tc main_call6_v2)) := by
  rw [← Rd.tk_eq opsL2_w1 158 (a := main_call6_v1) (by decide) V,
    ← Rd.tk_eq opsL2_w1 158 (a := main_call6_v2) (by decide) V,
    Rd.at_eq opsL2_w1 158 (by decide) (y := main_call6_v3) (by decide) V]
  generalize after (List.take 158 opsL2) V = W
  exact binary_result main_call6_v1 main_call6_v2 main_call6_v3 (Host.divf : (⟨S1x64, .f32⟩ : BufTy).Contents (Elt F) → (⟨S1x64, .f32⟩ : BufTy).Contents (Elt F) → (⟨S1x64, .f32⟩ : BufTy).Contents (Elt F)) ⟨by decide, rfl⟩ ⟨by decide, rfl⟩ ⟨by decide, rfl⟩ W

theorem rd_main_call6_v4 (V : Valuation τ sig (Elt F)) :
    after opsL2 V (Proc.devRef .tc main_call6_v4) = ((broadcastInDim S400000x64 ![0, 1] bcast_S1x64_S400000x64_0_1) : (⟨S1x64, .f32⟩ : BufTy).Contents (Elt F) → (⟨S400000x64, .f32⟩ : BufTy).Contents (Elt F)) (after opsL2 V (Proc.devRef .tc main_call6_v3)) := by
  rw [← Rd.tk_eq opsL2_w1 159 (a := main_call6_v3) (by decide) V,
    Rd.at_eq opsL2_w1 159 (by decide) (y := main_call6_v4) (by decide) V]
  generalize after (List.take 159 opsL2) V = W
  exact unary_result main_call6_v3 main_call6_v4 ((broadcastInDim S400000x64 ![0, 1] bcast_S1x64_S400000x64_0_1) : (⟨S1x64, .f32⟩ : BufTy).Contents (Elt F) → (⟨S400000x64, .f32⟩ : BufTy).Contents (Elt F)) ⟨by decide, rfl⟩ ⟨by decide, rfl⟩ W

theorem rd_main_call6_v5 (V : Valuation τ sig (Elt F)) :
    after opsL2 V (Proc.devRef .tc main_call6_v5) = (subf : (⟨S400000x64, .f32⟩ : BufTy).Contents (Elt F) → (⟨S400000x64, .f32⟩ : BufTy).Contents (Elt F) → (⟨S400000x64, .f32⟩ : BufTy).Contents (Elt F)) (after opsL2 V (Proc.devRef .tc main_v195)) (after opsL2 V (Proc.devRef .tc main_call6_v4)) := by
  rw [← Rd.tk_eq opsL2_w1 160 (a := main_v195) (by decide) V,
    ← Rd.tk_eq opsL2_w1 160 (a := main_call6_v4) (by decide) V,
    Rd.at_eq opsL2_w1 160 (by decide) (y := main_call6_v5) (by decide) V]
  generalize after (List.take 160 opsL2) V = W
  exact binary_result main_v195 main_call6_v4 main_call6_v5 (subf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_call6_v6 (V : Valuation τ sig (Elt F)) :
    after opsL2 V (Proc.devRef .tc main_call6_v6) = (mulf : (⟨S400000x64, .f32⟩ : BufTy).Contents (Elt F) → (⟨S400000x64, .f32⟩ : BufTy).Contents (Elt F) → (⟨S400000x64, .f32⟩ : BufTy).Contents (Elt F)) (after opsL2 V (Proc.devRef .tc main_call6_v5)) (after opsL2 V (Proc.devRef .tc main_call6_v5)) := by
  rw [← Rd.tk_eq opsL2_w1 161 (a := main_call6_v5) (by decide) V,
    Rd.at_eq opsL2_w1 161 (by decide) (y := main_call6_v6) (by decide) V]
  generalize after (List.take 161 opsL2) V = W
  exact binary_result main_call6_v5 main_call6_v5 main_call6_v6 (mulf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_call6_v7 (V : Valuation τ sig (Elt F)) :
    after opsL2 V (Proc.devRef .tc main_call6_v7) = ((sitofp .f32) : (⟨S_, .i32⟩ : BufTy).Contents (Elt F) → (⟨S_, .f32⟩ : BufTy).Contents (Elt F)) (after opsL2 V (Proc.devRef .tc main_c_35)) := by
  rw [← Rd.tk_eq opsL2_w1 162 (a := main_c_35) (by decide) V,
    Rd.at_eq opsL2_w1 162 (by decide) (y := main_call6_v7) (by decide) V]
  generalize after (List.take 162 opsL2) V = W
  exact unary_result main_c_35 main_call6_v7 ((sitofp .f32) : (⟨S_, .i32⟩ : BufTy).Contents (Elt F) → (⟨S_, .f32⟩ : BufTy).Contents (Elt F)) ⟨by decide, rfl⟩ ⟨by decide, rfl⟩ W

theorem rd_main_call6_cst_1 (V : Valuation τ sig (Elt F)) :
    after opsL2 V (Proc.devRef .tc main_call6_cst_1) = ((constant S_ .f32 0x48C35000#32) : (⟨S_, .f32⟩ : BufTy).Contents (Elt F)) := by
  rw [Rd.at_eq opsL2_w1 163 (by decide) (y := main_call6_cst_1) (by decide) V]
  generalize after (List.take 163 opsL2) V = W
  exact nullary_result main_call6_cst_1 ((constant S_ .f32 0x48C35000#32) : (⟨S_, .f32⟩ : BufTy).Contents (Elt F)) ⟨by decide, rfl⟩ W

theorem rd_main_call6_v8 (V : Valuation τ sig (Elt F)) :
    after opsL2 V (Proc.devRef .tc main_call6_v8) = (subf : (⟨S_, .f32⟩ : BufTy).Contents (Elt F) → (⟨S_, .f32⟩ : BufTy).Contents (Elt F) → (⟨S_, .f32⟩ : BufTy).Contents (Elt F)) (after opsL2 V (Proc.devRef .tc main_call6_cst_1)) (after opsL2 V (Proc.devRef .tc main_call6_v7)) := by
  rw [← Rd.tk_eq opsL2_w1 164 (a := main_call6_cst_1) (by decide) V,
    ← Rd.tk_eq opsL2_w1 164 (a := main_call6_v7) (by decide) V,
    Rd.at_eq opsL2_w1 164 (by decide) (y := main_call6_v8) (by decide) V]
  generalize after (List.take 164 opsL2) V = W
  exact binary_result main_call6_cst_1 main_call6_v7 main_call6_v8 (subf : (⟨S_, .f32⟩ : BufTy).Contents (Elt F) → (⟨S_, .f32⟩ : BufTy).Contents (Elt F) → (⟨S_, .f32⟩ : BufTy).Contents (Elt F)) ⟨by decide, rfl⟩ ⟨by decide, rfl⟩ ⟨by decide, rfl⟩ W

theorem rd_main_call6_cst_2 (V : Valuation τ sig (Elt F)) :
    after opsL2 V (Proc.devRef .tc main_call6_cst_2) = ((constant S_ .f32 0x00000000#32) : (⟨S_, .f32⟩ : BufTy).Contents (Elt F)) := by
  rw [Rd.at_eq opsL2_w1 165 (by decide) (y := main_call6_cst_2) (by decide) V]
  generalize after (List.take 165 opsL2) V = W
  exact nullary_result main_call6_cst_2 ((constant S_ .f32 0x00000000#32) : (⟨S_, .f32⟩ : BufTy).Contents (Elt F)) ⟨by decide, rfl⟩ W

theorem rd_main_call6_v9 (V : Valuation τ sig (Elt F)) :
    after opsL2 V (Proc.devRef .tc main_call6_v9) = ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)) (after opsL2 V (Proc.devRef .tc main_call6_v6)) (after opsL2 V (Proc.devRef .tc main_call6_cst_2)) := by
  rw [← Rd.tk_eq opsL2_w1 166 (a := main_call6_v6) (by decide) V,
    ← Rd.tk_eq opsL2_w1 166 (a := main_call6_cst_2) (by decide) V,
    Rd.at_eq opsL2_w1 166 (by decide) (y := main_call6_v9) (by decide) V]
  generalize after (List.take 166 opsL2) V = W
  exact binary_result main_call6_v6 main_call6_cst_2 main_call6_v9 ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ W

theorem rd_main_call6_v10 (V : Valuation τ sig (Elt F)) :
    after opsL2 V (Proc.devRef .tc main_call6_v10) = ((broadcastInDim S64 ![] bcast_S_S64) : (⟨S_, .f32⟩ : BufTy).Contents (Elt F) → (⟨S64, .f32⟩ : BufTy).Contents (Elt F)) (after opsL2 V (Proc.devRef .tc main_call6_v8)) := by
  rw [← Rd.tk_eq opsL2_w1 167 (a := main_call6_v8) (by decide) V,
    Rd.at_eq opsL2_w1 167 (by decide) (y := main_call6_v10) (by decide) V]
  generalize after (List.take 167 opsL2) V = W
  exact unary_result main_call6_v8 main_call6_v10 ((broadcastInDim S64 ![] bcast_S_S64) : (⟨S_, .f32⟩ : BufTy).Contents (Elt F) → (⟨S64, .f32⟩ : BufTy).Contents (Elt F)) ⟨by decide, rfl⟩ ⟨by decide, rfl⟩ W

theorem rd_main_call6_v11 (V : Valuation τ sig (Elt F)) :
    after opsL2 V (Proc.devRef .tc main_call6_v11) = (Host.divf : (⟨S64, .f32⟩ : BufTy).Contents (Elt F) → (⟨S64, .f32⟩ : BufTy).Contents (Elt F) → (⟨S64, .f32⟩ : BufTy).Contents (Elt F)) (after opsL2 V (Proc.devRef .tc main_call6_v9)) (after opsL2 V (Proc.devRef .tc main_call6_v10)) := by
  rw [← Rd.tk_eq opsL2_w1 168 (a := main_call6_v9) (by decide) V,
    ← Rd.tk_eq opsL2_w1 168 (a := main_call6_v10) (by decide) V,
    Rd.at_eq opsL2_w1 168 (by decide) (y := main_call6_v11) (by decide) V]
  generalize after (List.take 168 opsL2) V = W
  exact binary_result main_call6_v9 main_call6_v10 main_call6_v11 (Host.divf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ W

theorem rd_main_call6_cst_3 (V : Valuation τ sig (Elt F)) :
    after opsL2 V (Proc.devRef .tc main_call6_cst_3) = ((constant S_ .f32 0x00000000#32) : (⟨S_, .f32⟩ : BufTy).Contents (Elt F)) := by
  rw [Rd.at_eq opsL2_w1 169 (by decide) (y := main_call6_cst_3) (by decide) V]
  generalize after (List.take 169 opsL2) V = W
  exact nullary_result main_call6_cst_3 ((constant S_ .f32 0x00000000#32) : (⟨S_, .f32⟩ : BufTy).Contents (Elt F)) ⟨by decide, rfl⟩ W

theorem rd_main_call6_v12 (V : Valuation τ sig (Elt F)) :
    after opsL2 V (Proc.devRef .tc main_call6_v12) = ((cmpf .ogt) : (⟨S_, .f32⟩ : BufTy).Contents (Elt F) → (⟨S_, .f32⟩ : BufTy).Contents (Elt F) → (⟨S_, .i1⟩ : BufTy).Contents (Elt F)) (after opsL2 V (Proc.devRef .tc main_call6_v8)) (after opsL2 V (Proc.devRef .tc main_call6_cst_3)) := by
  rw [← Rd.tk_eq opsL2_w1 170 (a := main_call6_v8) (by decide) V,
    ← Rd.tk_eq opsL2_w1 170 (a := main_call6_cst_3) (by decide) V,
    Rd.at_eq opsL2_w1 170 (by decide) (y := main_call6_v12) (by decide) V]
  generalize after (List.take 170 opsL2) V = W
  exact binary_result main_call6_v8 main_call6_cst_3 main_call6_v12 ((cmpf .ogt) : (⟨S_, .f32⟩ : BufTy).Contents (Elt F) → (⟨S_, .f32⟩ : BufTy).Contents (Elt F) → (⟨S_, .i1⟩ : BufTy).Contents (Elt F)) ⟨by decide, rfl⟩ ⟨by decide, rfl⟩ ⟨by decide, rfl⟩ W

theorem rd_main_call6_cst_4 (V : Valuation τ sig (Elt F)) :
    after opsL2 V (Proc.devRef .tc main_call6_cst_4) = ((constant S_ .f32 0x7FC00000#32) : (⟨S_, .f32⟩ : BufTy).Contents (Elt F)) := by
  rw [Rd.at_eq opsL2_w1 171 (by decide) (y := main_call6_cst_4) (by decide) V]
  generalize after (List.take 171 opsL2) V = W
  exact nullary_result main_call6_cst_4 ((constant S_ .f32 0x7FC00000#32) : (⟨S_, .f32⟩ : BufTy).Contents (Elt F)) ⟨by decide, rfl⟩ W

theorem rd_main_call6_call0_v0 (V : Valuation τ sig (Elt F)) :
    after opsL2 V (Proc.devRef .tc main_call6_call0_v0) = (id : (⟨S_, .f32⟩ : BufTy).Contents (Elt F) → (⟨S_, .f32⟩ : BufTy).Contents (Elt F)) (after opsL2 V (Proc.devRef .tc main_call6_cst_4)) := by
  rw [← Rd.tk_eq opsL2_w1 172 (a := main_call6_cst_4) (by decide) V,
    Rd.at_eq opsL2_w1 172 (by decide) (y := main_call6_call0_v0) (by decide) V]
  generalize after (List.take 172 opsL2) V = W
  exact unary_result main_call6_cst_4 main_call6_call0_v0 (id : (⟨S_, .f32⟩ : BufTy).Contents (Elt F) → (⟨S_, .f32⟩ : BufTy).Contents (Elt F)) ⟨by decide, rfl⟩ ⟨by decide, rfl⟩ W

theorem rd_main_call6_call0_v1 (V : Valuation τ sig (Elt F)) :
    after opsL2 V (Proc.devRef .tc main_call6_call0_v1) = ((broadcastInDim S64 ![] bcast_S_S64) : (⟨S_, .f32⟩ : BufTy).Contents (Elt F) → (⟨S64, .f32⟩ : BufTy).Contents (Elt F)) (after opsL2 V (Proc.devRef .tc main_call6_call0_v0)) := by
  rw [← Rd.tk_eq opsL2_w1 173 (a := main_call6_call0_v0) (by decide) V,
    Rd.at_eq opsL2_w1 173 (by decide) (y := main_call6_call0_v1) (by decide) V]
  generalize after (List.take 173 opsL2) V = W
  exact unary_result main_call6_call0_v0 main_call6_call0_v1 ((broadcastInDim S64 ![] bcast_S_S64) : (⟨S_, .f32⟩ : BufTy).Contents (Elt F) → (⟨S64, .f32⟩ : BufTy).Contents (Elt F)) ⟨by decide, rfl⟩ ⟨by decide, rfl⟩ W

theorem rd_main_v252 (V : Valuation τ sig (Elt F)) :
    after opsL2 V (Proc.devRef .tc main_v252) = ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) (after opsL2 V (Proc.devRef .tc main_call6_v12)) (after opsL2 V (Proc.devRef .tc main_call6_v11)) (after opsL2 V (Proc.devRef .tc main_call6_call0_v1)) := by
  rw [← Rd.tk_eq opsL2_w1 174 (a := main_call6_v12) (by decide) V,
    ← Rd.tk_eq opsL2_w1 174 (a := main_call6_v11) (by decide) V,
    ← Rd.tk_eq opsL2_w1 174 (a := main_call6_call0_v1) (by decide) V,
    Rd.at_eq opsL2_w1 174 (by decide) (y := main_v252) (by decide) V]
  generalize after (List.take 174 opsL2) V = W
  exact ternary_result main_call6_v12 main_call6_v11 main_call6_call0_v1 main_v252 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ ⟨by decide, rfl⟩ W

theorem rd_main_v253 (V : Valuation τ sig (Elt F)) :
    after opsL2 V (Proc.devRef .tc main_v253) = (broadcastInDim S1x64 ![1] bcast_S64_S1x64_1 : (⟨S64, .f32⟩ : BufTy).Contents (Elt F) → (⟨S1x64, .f32⟩ : BufTy).Contents (Elt F)) (after opsL2 V (Proc.devRef .tc main_v251)) := by
  rw [← Rd.tk_eq opsL2_w1 175 (a := main_v251) (by decide) V,
    Rd.at_eq opsL2_w1 175 (by decide) (y := main_v253) (by decide) V]
  generalize after (List.take 175 opsL2) V = W
  exact unary_result main_v251 main_v253 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v254 (V : Valuation τ sig (Elt F)) :
    after opsL2 V (Proc.devRef .tc main_v254) = (broadcastInDim S400000x64 ![0, 1] bcast_S1x64_S400000x64_0_1 : (⟨S1x64, .f32⟩ : BufTy).Contents (Elt F) → (⟨S400000x64, .f32⟩ : BufTy).Contents (Elt F)) (after opsL2 V (Proc.devRef .tc main_v253)) := by
  rw [← Rd.tk_eq opsL2_w1 176 (a := main_v253) (by decide) V,
    Rd.at_eq opsL2_w1 176 (by decide) (y := main_v254) (by decide) V]
  generalize after (List.take 176 opsL2) V = W
  exact unary_result main_v253 main_v254 (broadcastInDim S400000x64 ![0, 1] bcast_S1x64_S400000x64_0_1 : (⟨S1x64, .f32⟩ : BufTy).Contents (Elt F) → (⟨S400000x64, .f32⟩ : BufTy).Contents (Elt F)) ⟨by decide, rfl⟩ ⟨by decide, rfl⟩ W

theorem rd_main_v255 (V : Valuation τ sig (Elt F)) :
    after opsL2 V (Proc.devRef .tc main_v255) = (subf : (⟨S400000x64, .f32⟩ : BufTy).Contents (Elt F) → (⟨S400000x64, .f32⟩ : BufTy).Contents (Elt F) → (⟨S400000x64, .f32⟩ : BufTy).Contents (Elt F)) (after opsL2 V (Proc.devRef .tc main_v195)) (after opsL2 V (Proc.devRef .tc main_v254)) := by
  rw [← Rd.tk_eq opsL2_w1 177 (a := main_v195) (by decide) V,
    ← Rd.tk_eq opsL2_w1 177 (a := main_v254) (by decide) V,
    Rd.at_eq opsL2_w1 177 (by decide) (y := main_v255) (by decide) V]
  generalize after (List.take 177 opsL2) V = W
  exact binary_result main_v195 main_v254 main_v255 (subf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_cst_36 (V : Valuation τ sig (Elt F)) :
    after opsL2 V (Proc.devRef .tc main_cst_36) = (constant S_ .f32 0x3727C5AC#32) := by
  rw [Rd.at_eq opsL2_w1 178 (by decide) (y := main_cst_36) (by decide) V]
  generalize after (List.take 178 opsL2) V = W
  exact nullary_result main_cst_36 (constant S_ .f32 0x3727C5AC#32) ⟨by decide, rfl⟩ W

theorem rd_main_v256 (V : Valuation τ sig (Elt F)) :
    after opsL2 V (Proc.devRef .tc main_v256) = (broadcastInDim S64 ![] bcast_S_S64 : (⟨S_, .f32⟩ : BufTy).Contents (Elt F) → (⟨S64, .f32⟩ : BufTy).Contents (Elt F)) (after opsL2 V (Proc.devRef .tc main_cst_36)) := by
  rw [← Rd.tk_eq opsL2_w1 179 (a := main_cst_36) (by decide) V,
    Rd.at_eq opsL2_w1 179 (by decide) (y := main_v256) (by decide) V]
  generalize after (List.take 179 opsL2) V = W
  exact unary_result main_cst_36 main_v256 (broadcastInDim S64 ![] bcast_S_S64 : (⟨S_, .f32⟩ : BufTy).Contents (Elt F) → (⟨S64, .f32⟩ : BufTy).Contents (Elt F)) ⟨by decide, rfl⟩ ⟨by decide, rfl⟩ W

theorem rd_main_v257 (V : Valuation τ sig (Elt F)) :
    after opsL2 V (Proc.devRef .tc main_v257) = (addf : (⟨S64, .f32⟩ : BufTy).Contents (Elt F) → (⟨S64, .f32⟩ : BufTy).Contents (Elt F) → (⟨S64, .f32⟩ : BufTy).Contents (Elt F)) (after opsL2 V (Proc.devRef .tc main_v252)) (after opsL2 V (Proc.devRef .tc main_v256)) := by
  rw [← Rd.tk_eq opsL2_w1 180 (a := main_v252) (by decide) V,
    ← Rd.tk_eq opsL2_w1 180 (a := main_v256) (by decide) V,
    Rd.at_eq opsL2_w1 180 (by decide) (y := main_v257) (by decide) V]
  generalize after (List.take 180 opsL2) V = W
  exact binary_result main_v252 main_v256 main_v257 (addf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ W

theorem rd_main_v258 (V : Valuation τ sig (Elt F)) :
    after opsL2 V (Proc.devRef .tc main_v258) = (Host.rsqrt : (⟨S64, .f32⟩ : BufTy).Contents (Elt F) → (⟨S64, .f32⟩ : BufTy).Contents (Elt F)) (after opsL2 V (Proc.devRef .tc main_v257)) := by
  rw [← Rd.tk_eq opsL2_w1 181 (a := main_v257) (by decide) V,
    Rd.at_eq opsL2_w1 181 (by decide) (y := main_v258) (by decide) V]
  generalize after (List.take 181 opsL2) V = W
  exact unary_result main_v257 main_v258 (Host.rsqrt : (⟨S64, .f32⟩ : BufTy).Contents (Elt F) → (⟨S64, .f32⟩ : BufTy).Contents (Elt F)) ⟨by decide, rfl⟩ ⟨by decide, rfl⟩ W

theorem rd_main_v259 (V : Valuation τ sig (Elt F)) :
    after opsL2 V (Proc.devRef .tc main_v259) = (broadcastInDim S1x64 ![1] bcast_S64_S1x64_1 : (⟨S64, .f32⟩ : BufTy).Contents (Elt F) → (⟨S1x64, .f32⟩ : BufTy).Contents (Elt F)) (after opsL2 V (Proc.devRef .tc main_v258)) := by
  rw [← Rd.tk_eq opsL2_w1 182 (a := main_v258) (by decide) V,
    Rd.at_eq opsL2_w1 182 (by decide) (y := main_v259) (by decide) V]
  generalize after (List.take 182 opsL2) V = W
  exact unary_result main_v258 main_v259 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v260 (V : Valuation τ sig (Elt F)) :
    after opsL2 V (Proc.devRef .tc main_v260) = (broadcastInDim S400000x64 ![0, 1] bcast_S1x64_S400000x64_0_1 : (⟨S1x64, .f32⟩ : BufTy).Contents (Elt F) → (⟨S400000x64, .f32⟩ : BufTy).Contents (Elt F)) (after opsL2 V (Proc.devRef .tc main_v259)) := by
  rw [← Rd.tk_eq opsL2_w1 183 (a := main_v259) (by decide) V,
    Rd.at_eq opsL2_w1 183 (by decide) (y := main_v260) (by decide) V]
  generalize after (List.take 183 opsL2) V = W
  exact unary_result main_v259 main_v260 (broadcastInDim S400000x64 ![0, 1] bcast_S1x64_S400000x64_0_1 : (⟨S1x64, .f32⟩ : BufTy).Contents (Elt F) → (⟨S400000x64, .f32⟩ : BufTy).Contents (Elt F)) ⟨by decide, rfl⟩ ⟨by decide, rfl⟩ W

theorem rd_main_v261 (V : Valuation τ sig (Elt F)) :
    after opsL2 V (Proc.devRef .tc main_v261) = (mulf : (⟨S400000x64, .f32⟩ : BufTy).Contents (Elt F) → (⟨S400000x64, .f32⟩ : BufTy).Contents (Elt F) → (⟨S400000x64, .f32⟩ : BufTy).Contents (Elt F)) (after opsL2 V (Proc.devRef .tc main_v255)) (after opsL2 V (Proc.devRef .tc main_v260)) := by
  rw [← Rd.tk_eq opsL2_w1 184 (a := main_v255) (by decide) V,
    ← Rd.tk_eq opsL2_w1 184 (a := main_v260) (by decide) V,
    Rd.at_eq opsL2_w1 184 (by decide) (y := main_v261) (by decide) V]
  generalize after (List.take 184 opsL2) V = W
  exact binary_result main_v255 main_v260 main_v261 (mulf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_v262 (V : Valuation τ sig (Elt F)) :
    after opsL2 V (Proc.devRef .tc main_v262) = (broadcastInDim S1x64 ![1] bcast_S64_S1x64_1 : (⟨S64, .f32⟩ : BufTy).Contents (Elt F) → (⟨S1x64, .f32⟩ : BufTy).Contents (Elt F)) (after opsL2 V (Proc.devRef .tc main_v246)) := by
  rw [← Rd.tk_eq opsL2_w1 185 (a := main_v246) (by decide) V,
    Rd.at_eq opsL2_w1 185 (by decide) (y := main_v262) (by decide) V]
  generalize after (List.take 185 opsL2) V = W
  exact unary_result main_v246 main_v262 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v263 (V : Valuation τ sig (Elt F)) :
    after opsL2 V (Proc.devRef .tc main_v263) = (broadcastInDim S400000x64 ![0, 1] bcast_S1x64_S400000x64_0_1 : (⟨S1x64, .f32⟩ : BufTy).Contents (Elt F) → (⟨S400000x64, .f32⟩ : BufTy).Contents (Elt F)) (after opsL2 V (Proc.devRef .tc main_v262)) := by
  rw [← Rd.tk_eq opsL2_w1 186 (a := main_v262) (by decide) V,
    Rd.at_eq opsL2_w1 186 (by decide) (y := main_v263) (by decide) V]
  generalize after (List.take 186 opsL2) V = W
  exact unary_result main_v262 main_v263 (broadcastInDim S400000x64 ![0, 1] bcast_S1x64_S400000x64_0_1 : (⟨S1x64, .f32⟩ : BufTy).Contents (Elt F) → (⟨S400000x64, .f32⟩ : BufTy).Contents (Elt F)) ⟨by decide, rfl⟩ ⟨by decide, rfl⟩ W

theorem rd_main_v264 (V : Valuation τ sig (Elt F)) :
    after opsL2 V (Proc.devRef .tc main_v264) = (mulf : (⟨S400000x64, .f32⟩ : BufTy).Contents (Elt F) → (⟨S400000x64, .f32⟩ : BufTy).Contents (Elt F) → (⟨S400000x64, .f32⟩ : BufTy).Contents (Elt F)) (after opsL2 V (Proc.devRef .tc main_v261)) (after opsL2 V (Proc.devRef .tc main_v263)) := by
  rw [← Rd.tk_eq opsL2_w1 187 (a := main_v261) (by decide) V,
    ← Rd.tk_eq opsL2_w1 187 (a := main_v263) (by decide) V,
    Rd.at_eq opsL2_w1 187 (by decide) (y := main_v264) (by decide) V]
  generalize after (List.take 187 opsL2) V = W
  exact binary_result main_v261 main_v263 main_v264 (mulf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_v265 (V : Valuation τ sig (Elt F)) :
    after opsL2 V (Proc.devRef .tc main_v265) = (broadcastInDim S1x64 ![1] bcast_S64_S1x64_1 : (⟨S64, .f32⟩ : BufTy).Contents (Elt F) → (⟨S1x64, .f32⟩ : BufTy).Contents (Elt F)) (after opsL2 V (Proc.devRef .tc main_v248)) := by
  rw [← Rd.tk_eq opsL2_w1 188 (a := main_v248) (by decide) V,
    Rd.at_eq opsL2_w1 188 (by decide) (y := main_v265) (by decide) V]
  generalize after (List.take 188 opsL2) V = W
  exact unary_result main_v248 main_v265 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v266 (V : Valuation τ sig (Elt F)) :
    after opsL2 V (Proc.devRef .tc main_v266) = (broadcastInDim S400000x64 ![0, 1] bcast_S1x64_S400000x64_0_1 : (⟨S1x64, .f32⟩ : BufTy).Contents (Elt F) → (⟨S400000x64, .f32⟩ : BufTy).Contents (Elt F)) (after opsL2 V (Proc.devRef .tc main_v265)) := by
  rw [← Rd.tk_eq opsL2_w1 189 (a := main_v265) (by decide) V,
    Rd.at_eq opsL2_w1 189 (by decide) (y := main_v266) (by decide) V]
  generalize after (List.take 189 opsL2) V = W
  exact unary_result main_v265 main_v266 (broadcastInDim S400000x64 ![0, 1] bcast_S1x64_S400000x64_0_1 : (⟨S1x64, .f32⟩ : BufTy).Contents (Elt F) → (⟨S400000x64, .f32⟩ : BufTy).Contents (Elt F)) ⟨by decide, rfl⟩ ⟨by decide, rfl⟩ W

theorem rd_main_v267 (V : Valuation τ sig (Elt F)) :
    after opsL2 V (Proc.devRef .tc main_v267) = (addf : (⟨S400000x64, .f32⟩ : BufTy).Contents (Elt F) → (⟨S400000x64, .f32⟩ : BufTy).Contents (Elt F) → (⟨S400000x64, .f32⟩ : BufTy).Contents (Elt F)) (after opsL2 V (Proc.devRef .tc main_v264)) (after opsL2 V (Proc.devRef .tc main_v266)) := by
  rw [← Rd.tk_eq opsL2_w1 190 (a := main_v264) (by decide) V,
    ← Rd.tk_eq opsL2_w1 190 (a := main_v266) (by decide) V,
    Rd.at_eq opsL2_w1 190 (by decide) (y := main_v267) (by decide) V]
  generalize after (List.take 190 opsL2) V = W
  exact binary_result main_v264 main_v266 main_v267 (addf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_call7_cst (V : Valuation τ sig (Elt F)) :
    after opsL2 V (Proc.devRef .tc main_call7_cst) = ((constant S_ .f32 0x00000000#32) : (⟨S_, .f32⟩ : BufTy).Contents (Elt F)) := by
  rw [Rd.at_eq opsL2_w1 191 (by decide) (y := main_call7_cst) (by decide) V]
  generalize after (List.take 191 opsL2) V = W
  exact nullary_result main_call7_cst ((constant S_ .f32 0x00000000#32) : (⟨S_, .f32⟩ : BufTy).Contents (Elt F)) ⟨by decide, rfl⟩ W

theorem rd_main_call7_v0 (V : Valuation τ sig (Elt F)) :
    after opsL2 V (Proc.devRef .tc main_call7_v0) = ((broadcastInDim S400000x64 ![] bcast_S_S400000x64) : (⟨S_, .f32⟩ : BufTy).Contents (Elt F) → (⟨S400000x64, .f32⟩ : BufTy).Contents (Elt F)) (after opsL2 V (Proc.devRef .tc main_call7_cst)) := by
  rw [← Rd.tk_eq opsL2_w1 192 (a := main_call7_cst) (by decide) V,
    Rd.at_eq opsL2_w1 192 (by decide) (y := main_call7_v0) (by decide) V]
  generalize after (List.take 192 opsL2) V = W
  exact unary_result main_call7_cst main_call7_v0 ((broadcastInDim S400000x64 ![] bcast_S_S400000x64) : (⟨S_, .f32⟩ : BufTy).Contents (Elt F) → (⟨S400000x64, .f32⟩ : BufTy).Contents (Elt F)) ⟨by decide, rfl⟩ ⟨by decide, rfl⟩ W

theorem rd_main_v268 (V : Valuation τ sig (Elt F)) :
    after opsL2 V (Proc.devRef .tc main_v268) = (maximumf : (⟨S400000x64, .f32⟩ : BufTy).Contents (Elt F) → (⟨S400000x64, .f32⟩ : BufTy).Contents (Elt F) → (⟨S400000x64, .f32⟩ : BufTy).Contents (Elt F)) (after opsL2 V (Proc.devRef .tc main_v267)) (after opsL2 V (Proc.devRef .tc main_call7_v0)) := by
  rw [← Rd.tk_eq opsL2_w1 193 (a := main_v267) (by decide) V,
    ← Rd.tk_eq opsL2_w1 193 (a := main_call7_v0) (by decide) V,
    Rd.at_eq opsL2_w1 193 (by decide) (y := main_v268) (by decide) V]
  generalize after (List.take 193 opsL2) V = W
  exact binary_result main_v267 main_call7_v0 main_v268 (maximumf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_v269 (V : Valuation τ sig (Elt F)) :
    after opsL2 V (Proc.devRef .tc main_v269) = (addf : (⟨S400000x64, .f32⟩ : BufTy).Contents (Elt F) → (⟨S400000x64, .f32⟩ : BufTy).Contents (Elt F) → (⟨S400000x64, .f32⟩ : BufTy).Contents (Elt F)) (V (Proc.devRef .tc main_v139)) (after opsL2 V (Proc.devRef .tc main_v268)) := by
  rw [← Rd.tk_keep opsL2_w1 194 (a := main_v139) (by decide) V,
    ← Rd.tk_eq opsL2_w1 194 (a := main_v268) (by decide) V,
    Rd.at_eq opsL2_w1 194 (by decide) (y := main_v269) (by decide) V]
  generalize after (List.take 194 opsL2) V = W
  exact binary_result main_v139 main_v268 main_v269 (addf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

end Cert.ReferenceIdeal.Hand

end
-- ==== Proof.Sim.Dense2.lean ====
import proofs.«431450_j74423193305350_1_alg».proof.Proof.KI.Fold
import proofs.«431450_j74423193305350_1_alg».proof.Proof.KI.Seg8
import proofs.«431450_j74423193305350_1_alg».proof.Proof.KI.Seg9
import proofs.«431450_j74423193305350_1_alg».proof.Proof.KI.Val8
import proofs.«431450_j74423193305350_1_alg».proof.Proof.KI.Val9
import proofs.«431450_j74423193305350_1_alg».proof.Proof.KI.Host8
import proofs.«431450_j74423193305350_1_alg».proof.Proof.KI.Host9
import proofs.«431450_j74423193305350_1_alg».proof.Proof.Ref.Fold
import proofs.«431450_j74423193305350_1_alg».proof.Proof.Ref.RdL2
import proofs.«431450_j74423193305350_1_alg».proof.Proof.Ref.Form1
import proofs.«431450_j74423193305350_1_alg».proof.Proof.Sim.Base
import proofs.«431450_j74423193305350_1_alg».proof.Proof.Spec

/-! The dense layers of layer 2, kernel against reference: each kernel array a dense region (or a column
    block of one) leaves equals the reference buffer its dot-plus-bias leaves, given that the two memories agree on
    the arguments and that the arrays the layers read already agree. Both sides are read as the same dense-layer
    formula; the kernel's wide product against the four weight blocks side by side is, on column block a, the
    product against weight a. Each layer's pairing takes the equations between the weight and bias arguments it
    reads as hypotheses; the last theorem supplies them all from the agreement of the two memories. -/
set_option maxRecDepth 16384

noncomputable section

namespace Cert.Sim

open Idealize.ShloMosaic Idealize.ShloMosaic.TcCoe Idealize.ShloMosaic.ValueIdx Idealize.ShloMosaic.StableHlo
open Idealize.SL.Sem
open Cert.KernelIdeal.Hand Cert.ReferenceIdeal.Hand
open Cert.Spec (Mat)

/-- A dense-layer entry depends only on the row of the left matrix, on one column of the weights and on one bias
    entry: two layers that agree there have the same entry, whatever the widths of the two weight matrices. -/
theorem lin_congr2 {n k p p' : Nat} {x x' : Mat n k} {w : Mat k p} {w' : Mat k p'} {b : Mat 1 p} {b' : Mat 1 p'}
    {r : Fin n} {j : Fin p} {j' : Fin p'} (hx : ∀ t : Fin k, x (ix2 r t) = x' (ix2 r t))
    (hw : ∀ t : Fin k, w (ix2 t j) = w' (ix2 t j')) (hb : b (ix2 0 j) = b' (ix2 0 j')) :
    Spec.lin x w b r j = Spec.lin x' w' b' r j' := by
  unfold Spec.lin
  rw [hb]
  exact congrArg (· + _) (Finset.sum_congr rfl fun t _ => by rw [hx t, hw t])

variable (m : KM) (m' : RM)

/-! ## Layer 2: the four node-side dense layers (one wide product in the kernel) and the edge-side one -/

/-- The reference's dense layer ending in buffer 147: the dense-layer formula of its input rows and of layer slice 1 of the stacked weights and biases. -/
theorem ref_v147 (c : Dev Cert.KernelIdeal.nD) (r : Fin 50000) (j : Fin 64) :
    (RW3 m' c (Proc.devRef .tc Cert.ReferenceIdeal.main_v147) : Mat 50000 64) (ix2 r j)
      = Spec.lin (RW2 m' c (Proc.devRef .tc Cert.ReferenceIdeal.main_v114) : Mat 50000 64)
          (fun (i : (⟨2, ![64, 64]⟩ : Shape).Idx) => (RW2 m' c (Proc.devRef .tc Cert.ReferenceIdeal.main_arg10) : Cert.ReferenceIdeal.S3x64x64.Idx → EReal) (ix3 1 (i 0) (i 1)))
          (fun (i : (⟨2, ![1, 64]⟩ : Shape).Idx) => (RW2 m' c (Proc.devRef .tc Cert.ReferenceIdeal.main_arg11) : Cert.ReferenceIdeal.S3x64.Idx → EReal) (ix2 1 (i 1))) r j := by
  unfold RW3
  rw [rd_main_v147, rd_main_v142, rd_main_v146, rd_main_v145, rd_main_v144, rd_main_v143, rd_main_v141, rd_main_v140]
  refine (lin_node _ _ _ r j).trans ?_
  exact lin_congr2 (fun _ => rfl) (fun t => wslice1_apply _ t j) (bslice1_apply _ j)

/-- The reference's dense layer ending in buffer 155: the dense-layer formula of its input rows and of layer slice 1 of the stacked weights and biases. -/
theorem ref_v155 (c : Dev Cert.KernelIdeal.nD) (r : Fin 50000) (j : Fin 64) :
    (RW3 m' c (Proc.devRef .tc Cert.ReferenceIdeal.main_v155) : Mat 50000 64) (ix2 r j)
      = Spec.lin (RW2 m' c (Proc.devRef .tc Cert.ReferenceIdeal.main_v114) : Mat 50000 64)
          (fun (i : (⟨2, ![64, 64]⟩ : Shape).Idx) => (RW2 m' c (Proc.devRef .tc Cert.ReferenceIdeal.main_arg12) : Cert.ReferenceIdeal.S3x64x64.Idx → EReal) (ix3 1 (i 0) (i 1)))
          (fun (i : (⟨2, ![1, 64]⟩ : Shape).Idx) => (RW2 m' c (Proc.devRef .tc Cert.ReferenceIdeal.main_arg13) : Cert.ReferenceIdeal.S3x64.Idx → EReal) (ix2 1 (i 1))) r j := by
  unfold RW3
  rw [rd_main_v155, rd_main_v150, rd_main_v154, rd_main_v153, rd_main_v152, rd_main_v151, rd_main_v149, rd_main_v148]
  refine (lin_node _ _ _ r j).trans ?_
  exact lin_congr2 (fun _ => rfl) (fun t => wslice1_apply _ t j) (bslice1_apply _ j)

/-- The reference's dense layer ending in buffer 163: the dense-layer formula of its input rows and of layer slice 1 of the stacked weights and biases. -/
theorem ref_v163 (c : Dev Cert.KernelIdeal.nD) (r : Fin 50000) (j : Fin 64) :
    (RW3 m' c (Proc.devRef .tc Cert.ReferenceIdeal.main_v163) : Mat 50000 64) (ix2 r j)
      = Spec.lin (RW2 m' c (Proc.devRef .tc Cert.ReferenceIdeal.main_v114) : Mat 50000 64)
          (fun (i : (⟨2, ![64, 64]⟩ : Shape).Idx) => (RW2 m' c (Proc.devRef .tc Cert.ReferenceIdeal.main_arg16) : Cert.ReferenceIdeal.S3x64x64.Idx → EReal) (ix3 1 (i 0) (i 1)))
          (fun (i : (⟨2, ![1, 64]⟩ : Shape).Idx) => (RW2 m' c (Proc.devRef .tc Cert.ReferenceIdeal.main_arg17) : Cert.ReferenceIdeal.S3x64.Idx → EReal) (ix2 1 (i 1))) r j := by
  unfold RW3
  rw [rd_main_v163, rd_main_v158, rd_main_v162, rd_main_v161, rd_main_v160, rd_main_v159, rd_main_v157, rd_main_v156]
  refine (lin_node _ _ _ r j).trans ?_
  exact lin_congr2 (fun _ => rfl) (fun t => wslice1_apply _ t j) (bslice1_apply _ j)

/-- The reference's dense layer ending in buffer 171: the dense-layer formula of its input rows and of layer slice 1 of the stacked weights and biases. -/
theorem ref_v171 (c : Dev Cert.KernelIdeal.nD) (r : Fin 50000) (j : Fin 64) :
    (RW3 m' c (Proc.devRef .tc Cert.ReferenceIdeal.main_v171) : Mat 50000 64) (ix2 r j)
      = Spec.lin (RW2 m' c (Proc.devRef .tc Cert.ReferenceIdeal.main_v114) : Mat 50000 64)
          (fun (i : (⟨2, ![64, 64]⟩ : Shape).Idx) => (RW2 m' c (Proc.devRef .tc Cert.ReferenceIdeal.main_arg18) : Cert.ReferenceIdeal.S3x64x64.Idx → EReal) (ix3 1 (i 0) (i 1)))
          (fun (i : (⟨2, ![1, 64]⟩ : Shape).Idx) => (RW2 m' c (Proc.devRef .tc Cert.ReferenceIdeal.main_arg19) : Cert.ReferenceIdeal.S3x64.Idx → EReal) (ix2 1 (i 1))) r j := by
  unfold RW3
  rw [rd_main_v171, rd_main_v166, rd_main_v170, rd_main_v169, rd_main_v168, rd_main_v167, rd_main_v165, rd_main_v164]
  refine (lin_node _ _ _ r j).trans ?_
  exact lin_congr2 (fun _ => rfl) (fun t => wslice1_apply _ t j) (bslice1_apply _ j)

/-- The reference's dense layer ending in buffer 179: the dense-layer formula of its input rows and of layer slice 1 of the stacked weights and biases. -/
theorem ref_v179 (c : Dev Cert.KernelIdeal.nD) (r : Fin 400000) (j : Fin 64) :
    (RW3 m' c (Proc.devRef .tc Cert.ReferenceIdeal.main_v179) : Mat 400000 64) (ix2 r j)
      = Spec.lin (RW2 m' c (Proc.devRef .tc Cert.ReferenceIdeal.main_v139) : Mat 400000 64)
          (fun (i : (⟨2, ![64, 64]⟩ : Shape).Idx) => (RW2 m' c (Proc.devRef .tc Cert.ReferenceIdeal.main_arg14) : Cert.ReferenceIdeal.S3x64x64.Idx → EReal) (ix3 1 (i 0) (i 1)))
          (fun (i : (⟨2, ![1, 64]⟩ : Shape).Idx) => (RW2 m' c (Proc.devRef .tc Cert.ReferenceIdeal.main_arg15) : Cert.ReferenceIdeal.S3x64.Idx → EReal) (ix2 1 (i 1))) r j := by
  unfold RW3
  rw [rd_main_v179, rd_main_v174, rd_main_v178, rd_main_v177, rd_main_v176, rd_main_v175, rd_main_v173, rd_main_v172]
  refine (lin_edge64 _ _ _ r j).trans ?_
  exact lin_congr2 (fun _ => rfl) (fun t => wslice1_apply _ t j) (bslice1_apply _ j)

/-- Column block A of the kernel's wide product is the reference's dense layer with weight A. -/
theorem a2_core (c : Dev Cert.KernelIdeal.nD)
    (hh : (T22 m c Cert.KernelIdeal.main_v57 : Mat 50000 64) = (RW2 m' c (Proc.devRef .tc Cert.ReferenceIdeal.main_v114) : Mat 50000 64))
    (kW : (W22 m c (Proc.devRef .tc Cert.KernelIdeal.main_arg10) : Cert.KernelIdeal.S3x64x64.Idx → EReal) = (RW2 m' c (Proc.devRef .tc Cert.ReferenceIdeal.main_arg10) : Cert.KernelIdeal.S3x64x64.Idx → EReal))
    (kB : (W22 m c (Proc.devRef .tc Cert.KernelIdeal.main_arg11) : Cert.KernelIdeal.S3x64.Idx → EReal) = (RW2 m' c (Proc.devRef .tc Cert.ReferenceIdeal.main_arg11) : Cert.KernelIdeal.S3x64.Idx → EReal)) :
    (T25 m c Cert.KernelIdeal.main_v91 : Mat 50000 64) = (RW3 m' c (Proc.devRef .tc Cert.ReferenceIdeal.main_v147) : Mat 50000 64) := by
  funext i
  obtain ⟨r, j, rfl⟩ : ∃ (r : Fin 50000) (j : Fin 64), i = ix2 r j := ⟨i 0, i 1, eq_ix2 i⟩
  have hj : j.val < 64 := j.isLt
  refine (host9_v91 (W24 m c) r j ⟨0 + j.val, by omega⟩ rfl).trans ?_
  refine (congrFun (hF8 m c 3).symm (ix2 r ⟨0 + j.val, by omega⟩)).trans ?_
  refine (final8_3_apply (T23 m) c r ⟨0 + j.val, by omega⟩).trans ?_
  refine Eq.trans ?_ (ref_v147 m' c r j).symm
  refine lin_congr2 (fun t => ?_) (fun t => ?_) ?_
  · exact congrFun (Eq.trans (W23_of m c Cert.KernelIdeal.main_v57 (by decide)) hh) (ix2 r t)
  · exact (host8_v79_A (W22 m c) t j ⟨0 + j.val, by omega⟩ rfl).trans (congrFun kW (ix3 1 t j))
  · exact (host8_v89_A (W22 m c) j ⟨0 + j.val, by omega⟩ rfl).trans (congrFun kB (ix2 1 j))

/-- Column block B of the kernel's wide product is the reference's dense layer with weight B. -/
theorem b2_core (c : Dev Cert.KernelIdeal.nD)
    (hh : (T22 m c Cert.KernelIdeal.main_v57 : Mat 50000 64) = (RW2 m' c (Proc.devRef .tc Cert.ReferenceIdeal.main_v114) : Mat 50000 64))
    (kW : (W22 m c (Proc.devRef .tc Cert.KernelIdeal.main_arg12) : Cert.KernelIdeal.S3x64x64.Idx → EReal) = (RW2 m' c (Proc.devRef .tc Cert.ReferenceIdeal.main_arg12) : Cert.KernelIdeal.S3x64x64.Idx → EReal))
    (kB : (W22 m c (Proc.devRef .tc Cert.KernelIdeal.main_arg13) : Cert.KernelIdeal.S3x64.Idx → EReal) = (RW2 m' c (Proc.devRef .tc Cert.ReferenceIdeal.main_arg13) : Cert.KernelIdeal.S3x64.Idx → EReal)) :
    (T25 m c Cert.KernelIdeal.main_v92 : Mat 50000 64) = (RW3 m' c (Proc.devRef .tc Cert.ReferenceIdeal.main_v155) : Mat 50000 64) := by
  funext i
  obtain ⟨r, j, rfl⟩ : ∃ (r : Fin 50000) (j : Fin 64), i = ix2 r j := ⟨i 0, i 1, eq_ix2 i⟩
  have hj : j.val < 64 := j.isLt
  refine (host9_v92 (W24 m c) r j ⟨64 + j.val, by omega⟩ rfl).trans ?_
  refine (congrFun (hF8 m c 3).symm (ix2 r ⟨64 + j.val, by omega⟩)).trans ?_
  refine (final8_3_apply (T23 m) c r ⟨64 + j.val, by omega⟩).trans ?_
  refine Eq.trans ?_ (ref_v155 m' c r j).symm
  refine lin_congr2 (fun t => ?_) (fun t => ?_) ?_
  · exact congrFun (Eq.trans (W23_of m c Cert.KernelIdeal.main_v57 (by decide)) hh) (ix2 r t)
  · exact (host8_v79_B (W22 m c) t j ⟨64 + j.val, by omega⟩ rfl).trans (congrFun kW (ix3 1 t j))
  · exact (host8_v89_B (W22 m c) j ⟨64 + j.val, by omega⟩ rfl).trans (congrFun kB (ix2 1 j))

/-- Column block D of the kernel's wide product is the reference's dense layer with weight D. -/
theorem d2_core (c : Dev Cert.KernelIdeal.nD)
    (hh : (T22 m c Cert.KernelIdeal.main_v57 : Mat 50000 64) = (RW2 m' c (Proc.devRef .tc Cert.ReferenceIdeal.main_v114) : Mat 50000 64))
    (kW : (W22 m c (Proc.devRef .tc Cert.KernelIdeal.main_arg16) : Cert.KernelIdeal.S3x64x64.Idx → EReal) = (RW2 m' c (Proc.devRef .tc Cert.ReferenceIdeal.main_arg16) : Cert.KernelIdeal.S3x64x64.Idx → EReal))
    (kB : (W22 m c (Proc.devRef .tc Cert.KernelIdeal.main_arg17) : Cert.KernelIdeal.S3x64.Idx → EReal) = (RW2 m' c (Proc.devRef .tc Cert.ReferenceIdeal.main_arg17) : Cert.KernelIdeal.S3x64.Idx → EReal)) :
    (T25 m c Cert.KernelIdeal.main_v93 : Mat 50000 64) = (RW3 m' c (Proc.devRef .tc Cert.ReferenceIdeal.main_v163) : Mat 50000 64) := by
  funext i
  obtain ⟨r, j, rfl⟩ : ∃ (r : Fin 50000) (j : Fin 64), i = ix2 r j := ⟨i 0, i 1, eq_ix2 i⟩
  have hj : j.val < 64 := j.isLt
  refine (host9_v93 (W24 m c) r j ⟨128 + j.val, by omega⟩ rfl).trans ?_
  refine (congrFun (hF8 m c 3).symm (ix2 r ⟨128 + j.val, by omega⟩)).trans ?_
  refine (final8_3_apply (T23 m) c r ⟨128 + j.val, by omega⟩).trans ?_
  refine Eq.trans ?_ (ref_v163 m' c r j).symm
  refine lin_congr2 (fun t => ?_) (fun t => ?_) ?_
  · exact congrFun (Eq.trans (W23_of m c Cert.KernelIdeal.main_v57 (by decide)) hh) (ix2 r t)
  · exact (host8_v79_D (W22 m c) t j ⟨128 + j.val, by omega⟩ rfl).trans (congrFun kW (ix3 1 t j))
  · exact (host8_v89_D (W22 m c) j ⟨128 + j.val, by omega⟩ rfl).trans (congrFun kB (ix2 1 j))

/-- Column block E of the kernel's wide product is the reference's dense layer with weight E. -/
theorem e2_core (c : Dev Cert.KernelIdeal.nD)
    (hh : (T22 m c Cert.KernelIdeal.main_v57 : Mat 50000 64) = (RW2 m' c (Proc.devRef .tc Cert.ReferenceIdeal.main_v114) : Mat 50000 64))
    (kW : (W22 m c (Proc.devRef .tc Cert.KernelIdeal.main_arg18) : Cert.KernelIdeal.S3x64x64.Idx → EReal) = (RW2 m' c (Proc.devRef .tc Cert.ReferenceIdeal.main_arg18) : Cert.KernelIdeal.S3x64x64.Idx → EReal))
    (kB : (W22 m c (Proc.devRef .tc Cert.KernelIdeal.main_arg19) : Cert.KernelIdeal.S3x64.Idx → EReal) = (RW2 m' c (Proc.devRef .tc Cert.ReferenceIdeal.main_arg19) : Cert.KernelIdeal.S3x64.Idx → EReal)) :
    (T25 m c Cert.KernelIdeal.main_v94 : Mat 50000 64) = (RW3 m' c (Proc.devRef .tc Cert.ReferenceIdeal.main_v171) : Mat 50000 64) := by
  funext i
  obtain ⟨r, j, rfl⟩ : ∃ (r : Fin 50000) (j : Fin 64), i = ix2 r j := ⟨i 0, i 1, eq_ix2 i⟩
  have hj : j.val < 64 := j.isLt
  refine (host9_v94 (W24 m c) r j ⟨192 + j.val, by omega⟩ rfl).trans ?_
  refine (congrFun (hF8 m c 3).symm (ix2 r ⟨192 + j.val, by omega⟩)).trans ?_
  refine (final8_3_apply (T23 m) c r ⟨192 + j.val, by omega⟩).trans ?_
  refine Eq.trans ?_ (ref_v171 m' c r j).symm
  refine lin_congr2 (fun t => ?_) (fun t => ?_) ?_
  · exact congrFun (Eq.trans (W23_of m c Cert.KernelIdeal.main_v57 (by decide)) hh) (ix2 r t)
  · exact (host8_v79_E (W22 m c) t j ⟨192 + j.val, by omega⟩ rfl).trans (congrFun kW (ix3 1 t j))
  · exact (host8_v89_E (W22 m c) j ⟨192 + j.val, by omega⟩ rfl).trans (congrFun kB (ix2 1 j))

/-- The edge-side dense layer of layer 2: the kernel's array after region 9 is the reference's buffer. -/
theorem ce2_core (c : Dev Cert.KernelIdeal.nD)
    (he : (T22 m c Cert.KernelIdeal.main_v70 : Mat 400000 64) = (RW2 m' c (Proc.devRef .tc Cert.ReferenceIdeal.main_v139) : Mat 400000 64))
    (kW : (W24 m c (Proc.devRef .tc Cert.KernelIdeal.main_arg14) : Cert.KernelIdeal.S3x64x64.Idx → EReal) = (RW2 m' c (Proc.devRef .tc Cert.ReferenceIdeal.main_arg14) : Cert.KernelIdeal.S3x64x64.Idx → EReal))
    (kB : (W24 m c (Proc.devRef .tc Cert.KernelIdeal.main_arg15) : Cert.KernelIdeal.S3x64.Idx → EReal) = (RW2 m' c (Proc.devRef .tc Cert.ReferenceIdeal.main_arg15) : Cert.KernelIdeal.S3x64.Idx → EReal)) :
    (T26 m c Cert.KernelIdeal.main_v100 : Mat 400000 64) = (RW3 m' c (Proc.devRef .tc Cert.ReferenceIdeal.main_v179) : Mat 400000 64) := by
  funext i
  obtain ⟨r, j, rfl⟩ : ∃ (r : Fin 400000) (j : Fin 64), i = ix2 r j := ⟨i 0, i 1, eq_ix2 i⟩
  refine (congrFun (hF9 m c 3).symm (ix2 r j)).trans ?_
  refine (final9_3_apply (T25 m) c r j).trans ?_
  refine Eq.trans ?_ (ref_v179 m' c r j).symm
  refine lin_congr2 (fun t => ?_) (fun t => ?_) ?_
  · exact congrFun (Eq.trans ((W25_of m c Cert.KernelIdeal.main_v70 (by decide)).trans ((W24_of m c Cert.KernelIdeal.main_v70 (by decide)).trans (W23_of m c Cert.KernelIdeal.main_v70 (by decide)))) he) (ix2 r t)
  · exact (host9_v96 (W24 m c) t j).trans (congrFun kW (ix3 1 t j))
  · exact (host9_v99 (W24 m c) j).trans (congrFun kB (ix2 1 j))

/-! ## All of them from the agreement of the two memories -/

/-- Where the two memories agree on the arguments: if the node (edge) features layer 2 starts from
    agree, so do its four node-side (its edge-side) dense layers. The one place this module reads the agreement:
    each weight and bias argument is still its launch contents at the boundary where it is read. -/
theorem dense2_eqs (hagree : Agree m m') (c : Dev Cert.KernelIdeal.nD) :
    (((T22 m c Cert.KernelIdeal.main_v57 : Mat 50000 64) = (RW2 m' c (Proc.devRef .tc Cert.ReferenceIdeal.main_v114) : Mat 50000 64)) →
        ((T25 m c Cert.KernelIdeal.main_v91 : Mat 50000 64) = (RW3 m' c (Proc.devRef .tc Cert.ReferenceIdeal.main_v147) : Mat 50000 64))
        ∧ ((T25 m c Cert.KernelIdeal.main_v92 : Mat 50000 64) = (RW3 m' c (Proc.devRef .tc Cert.ReferenceIdeal.main_v155) : Mat 50000 64))
        ∧ ((T25 m c Cert.KernelIdeal.main_v93 : Mat 50000 64) = (RW3 m' c (Proc.devRef .tc Cert.ReferenceIdeal.main_v163) : Mat 50000 64))
        ∧ ((T25 m c Cert.KernelIdeal.main_v94 : Mat 50000 64) = (RW3 m' c (Proc.devRef .tc Cert.ReferenceIdeal.main_v171) : Mat 50000 64)))
    ∧ (((T22 m c Cert.KernelIdeal.main_v70 : Mat 400000 64) = (RW2 m' c (Proc.devRef .tc Cert.ReferenceIdeal.main_v139) : Mat 400000 64)) →
        ((T26 m c Cert.KernelIdeal.main_v100 : Mat 400000 64) = (RW3 m' c (Proc.devRef .tc Cert.ReferenceIdeal.main_v179) : Mat 400000 64))) := by
  obtain ⟨a0, a1, a2, a3, a4, a5, a6, a7, a8, a9, a10, a11, a12, a13, a14, a15, a16, a17, a18, a19, a20, a21, a22, a23, a24, a25, a26, a27, a28, a29⟩ := hagree c
  have k10 : (W22 m c (Proc.devRef .tc Cert.KernelIdeal.main_arg10) : Cert.KernelIdeal.S3x64x64.Idx → EReal) = (RW2 m' c (Proc.devRef .tc Cert.ReferenceIdeal.main_arg10) : Cert.KernelIdeal.S3x64x64.Idx → EReal) := (Eq.trans ((W22_of m c Cert.KernelIdeal.main_arg10 (by decide)).trans ((W21_of m c Cert.KernelIdeal.main_arg10 (by decide)).trans ((W20_of m c Cert.KernelIdeal.main_arg10 (by decide)).trans ((W19_of m c Cert.KernelIdeal.main_arg10 (by decide)).trans ((W18_of m c Cert.KernelIdeal.main_arg10 (by decide)).trans ((W17_of m c Cert.KernelIdeal.main_arg10 (by decide)).trans ((W16_of m c Cert.KernelIdeal.main_arg10 (by decide)).trans ((W15_of m c Cert.KernelIdeal.main_arg10 (by decide)).trans ((W14_of m c Cert.KernelIdeal.main_arg10 (by decide)).trans ((W13_of m c Cert.KernelIdeal.main_arg10 (by decide)).trans ((W12_of m c Cert.KernelIdeal.main_arg10 (by decide)).trans ((W11_of m c Cert.KernelIdeal.main_arg10 (by decide)).trans ((W10_of m c Cert.KernelIdeal.main_arg10 (by decide)).trans ((W9_of m c Cert.KernelIdeal.main_arg10 (by decide)).trans ((W8_of m c Cert.KernelIdeal.main_arg10 (by decide)).trans ((W7_of m c Cert.KernelIdeal.main_arg10 (by decide)).trans ((W6_of m c Cert.KernelIdeal.main_arg10 (by decide)).trans ((W5_of m c Cert.KernelIdeal.main_arg10 (by decide)).trans ((W4_of m c Cert.KernelIdeal.main_arg10 (by decide)).trans ((W3_of m c Cert.KernelIdeal.main_arg10 (by decide)).trans ((W2_of m c Cert.KernelIdeal.main_arg10 (by decide)).trans (W1_of m c Cert.KernelIdeal.main_arg10 (by decide))))))))))))))))))))))) (Eq.trans (a10.symm) ((RW2_of m' c Cert.ReferenceIdeal.main_arg10 (by decide)).trans (RW1_of m' c Cert.ReferenceIdeal.main_arg10 (by decide))).symm))
  have k11 : (W22 m c (Proc.devRef .tc Cert.KernelIdeal.main_arg11) : Cert.KernelIdeal.S3x64.Idx → EReal) = (RW2 m' c (Proc.devRef .tc Cert.ReferenceIdeal.main_arg11) : Cert.KernelIdeal.S3x64.Idx → EReal) := (Eq.trans ((W22_of m c Cert.KernelIdeal.main_arg11 (by decide)).trans ((W21_of m c Cert.KernelIdeal.main_arg11 (by decide)).trans ((W20_of m c Cert.KernelIdeal.main_arg11 (by decide)).trans ((W19_of m c Cert.KernelIdeal.main_arg11 (by decide)).trans ((W18_of m c Cert.KernelIdeal.main_arg11 (by decide)).trans ((W17_of m c Cert.KernelIdeal.main_arg11 (by decide)).trans ((W16_of m c Cert.KernelIdeal.main_arg11 (by decide)).trans ((W15_of m c Cert.KernelIdeal.main_arg11 (by decide)).trans ((W14_of m c Cert.KernelIdeal.main_arg11 (by decide)).trans ((W13_of m c Cert.KernelIdeal.main_arg11 (by decide)).trans ((W12_of m c Cert.KernelIdeal.main_arg11 (by decide)).trans ((W11_of m c Cert.KernelIdeal.main_arg11 (by decide)).trans ((W10_of m c Cert.KernelIdeal.main_arg11 (by decide)).trans ((W9_of m c Cert.KernelIdeal.main_arg11 (by decide)).trans ((W8_of m c Cert.KernelIdeal.main_arg11 (by decide)).trans ((W7_of m c Cert.KernelIdeal.main_arg11 (by decide)).trans ((W6_of m c Cert.KernelIdeal.main_arg11 (by decide)).trans ((W5_of m c Cert.KernelIdeal.main_arg11 (by decide)).trans ((W4_of m c Cert.KernelIdeal.main_arg11 (by decide)).trans ((W3_of m c Cert.KernelIdeal.main_arg11 (by decide)).trans ((W2_of m c Cert.KernelIdeal.main_arg11 (by decide)).trans (W1_of m c Cert.KernelIdeal.main_arg11 (by decide))))))))))))))))))))))) (Eq.trans (a11.symm) ((RW2_of m' c Cert.ReferenceIdeal.main_arg11 (by decide)).trans (RW1_of m' c Cert.ReferenceIdeal.main_arg11 (by decide))).symm))
  have k12 : (W22 m c (Proc.devRef .tc Cert.KernelIdeal.main_arg12) : Cert.KernelIdeal.S3x64x64.Idx → EReal) = (RW2 m' c (Proc.devRef .tc Cert.ReferenceIdeal.main_arg12) : Cert.KernelIdeal.S3x64x64.Idx → EReal) := (Eq.trans ((W22_of m c Cert.KernelIdeal.main_arg12 (by decide)).trans ((W21_of m c Cert.KernelIdeal.main_arg12 (by decide)).trans ((W20_of m c Cert.KernelIdeal.main_arg12 (by decide)).trans ((W19_of m c Cert.KernelIdeal.main_arg12 (by decide)).trans ((W18_of m c Cert.KernelIdeal.main_arg12 (by decide)).trans ((W17_of m c Cert.KernelIdeal.main_arg12 (by decide)).trans ((W16_of m c Cert.KernelIdeal.main_arg12 (by decide)).trans ((W15_of m c Cert.KernelIdeal.main_arg12 (by decide)).trans ((W14_of m c Cert.KernelIdeal.main_arg12 (by decide)).trans ((W13_of m c Cert.KernelIdeal.main_arg12 (by decide)).trans ((W12_of m c Cert.KernelIdeal.main_arg12 (by decide)).trans ((W11_of m c Cert.KernelIdeal.main_arg12 (by decide)).trans ((W10_of m c Cert.KernelIdeal.main_arg12 (by decide)).trans ((W9_of m c Cert.KernelIdeal.main_arg12 (by decide)).trans ((W8_of m c Cert.KernelIdeal.main_arg12 (by decide)).trans ((W7_of m c Cert.KernelIdeal.main_arg12 (by decide)).trans ((W6_of m c Cert.KernelIdeal.main_arg12 (by decide)).trans ((W5_of m c Cert.KernelIdeal.main_arg12 (by decide)).trans ((W4_of m c Cert.KernelIdeal.main_arg12 (by decide)).trans ((W3_of m c Cert.KernelIdeal.main_arg12 (by decide)).trans ((W2_of m c Cert.KernelIdeal.main_arg12 (by decide)).trans (W1_of m c Cert.KernelIdeal.main_arg12 (by decide))))))))))))))))))))))) (Eq.trans (a12.symm) ((RW2_of m' c Cert.ReferenceIdeal.main_arg12 (by decide)).trans (RW1_of m' c Cert.ReferenceIdeal.main_arg12 (by decide))).symm))
  have k13 : (W22 m c (Proc.devRef .tc Cert.KernelIdeal.main_arg13) : Cert.KernelIdeal.S3x64.Idx → EReal) = (RW2 m' c (Proc.devRef .tc Cert.ReferenceIdeal.main_arg13) : Cert.KernelIdeal.S3x64.Idx → EReal) := (Eq.trans ((W22_of m c Cert.KernelIdeal.main_arg13 (by decide)).trans ((W21_of m c Cert.KernelIdeal.main_arg13 (by decide)).trans ((W20_of m c Cert.KernelIdeal.main_arg13 (by decide)).trans ((W19_of m c Cert.KernelIdeal.main_arg13 (by decide)).trans ((W18_of m c Cert.KernelIdeal.main_arg13 (by decide)).trans ((W17_of m c Cert.KernelIdeal.main_arg13 (by decide)).trans ((W16_of m c Cert.KernelIdeal.main_arg13 (by decide)).trans ((W15_of m c Cert.KernelIdeal.main_arg13 (by decide)).trans ((W14_of m c Cert.KernelIdeal.main_arg13 (by decide)).trans ((W13_of m c Cert.KernelIdeal.main_arg13 (by decide)).trans ((W12_of m c Cert.KernelIdeal.main_arg13 (by decide)).trans ((W11_of m c Cert.KernelIdeal.main_arg13 (by decide)).trans ((W10_of m c Cert.KernelIdeal.main_arg13 (by decide)).trans ((W9_of m c Cert.KernelIdeal.main_arg13 (by decide)).trans ((W8_of m c Cert.KernelIdeal.main_arg13 (by decide)).trans ((W7_of m c Cert.KernelIdeal.main_arg13 (by decide)).trans ((W6_of m c Cert.KernelIdeal.main_arg13 (by decide)).trans ((W5_of m c Cert.KernelIdeal.main_arg13 (by decide)).trans ((W4_of m c Cert.KernelIdeal.main_arg13 (by decide)).trans ((W3_of m c Cert.KernelIdeal.main_arg13 (by decide)).trans ((W2_of m c Cert.KernelIdeal.main_arg13 (by decide)).trans (W1_of m c Cert.KernelIdeal.main_arg13 (by decide))))))))))))))))))))))) (Eq.trans (a13.symm) ((RW2_of m' c Cert.ReferenceIdeal.main_arg13 (by decide)).trans (RW1_of m' c Cert.ReferenceIdeal.main_arg13 (by decide))).symm))
  have k16 : (W22 m c (Proc.devRef .tc Cert.KernelIdeal.main_arg16) : Cert.KernelIdeal.S3x64x64.Idx → EReal) = (RW2 m' c (Proc.devRef .tc Cert.ReferenceIdeal.main_arg16) : Cert.KernelIdeal.S3x64x64.Idx → EReal) := (Eq.trans ((W22_of m c Cert.KernelIdeal.main_arg16 (by decide)).trans ((W21_of m c Cert.KernelIdeal.main_arg16 (by decide)).trans ((W20_of m c Cert.KernelIdeal.main_arg16 (by decide)).trans ((W19_of m c Cert.KernelIdeal.main_arg16 (by decide)).trans ((W18_of m c Cert.KernelIdeal.main_arg16 (by decide)).trans ((W17_of m c Cert.KernelIdeal.main_arg16 (by decide)).trans ((W16_of m c Cert.KernelIdeal.main_arg16 (by decide)).trans ((W15_of m c Cert.KernelIdeal.main_arg16 (by decide)).trans ((W14_of m c Cert.KernelIdeal.main_arg16 (by decide)).trans ((W13_of m c Cert.KernelIdeal.main_arg16 (by decide)).trans ((W12_of m c Cert.KernelIdeal.main_arg16 (by decide)).trans ((W11_of m c Cert.KernelIdeal.main_arg16 (by decide)).trans ((W10_of m c Cert.KernelIdeal.main_arg16 (by decide)).trans ((W9_of m c Cert.KernelIdeal.main_arg16 (by decide)).trans ((W8_of m c Cert.KernelIdeal.main_arg16 (by decide)).trans ((W7_of m c Cert.KernelIdeal.main_arg16 (by decide)).trans ((W6_of m c Cert.KernelIdeal.main_arg16 (by decide)).trans ((W5_of m c Cert.KernelIdeal.main_arg16 (by decide)).trans ((W4_of m c Cert.KernelIdeal.main_arg16 (by decide)).trans ((W3_of m c Cert.KernelIdeal.main_arg16 (by decide)).trans ((W2_of m c Cert.KernelIdeal.main_arg16 (by decide)).trans (W1_of m c Cert.KernelIdeal.main_arg16 (by decide))))))))))))))))))))))) (Eq.trans (a16.symm) ((RW2_of m' c Cert.ReferenceIdeal.main_arg16 (by decide)).trans (RW1_of m' c Cert.ReferenceIdeal.main_arg16 (by decide))).symm))
  have k17 : (W22 m c (Proc.devRef .tc Cert.KernelIdeal.main_arg17) : Cert.KernelIdeal.S3x64.Idx → EReal) = (RW2 m' c (Proc.devRef .tc Cert.ReferenceIdeal.main_arg17) : Cert.KernelIdeal.S3x64.Idx → EReal) := (Eq.trans ((W22_of m c Cert.KernelIdeal.main_arg17 (by decide)).trans ((W21_of m c Cert.KernelIdeal.main_arg17 (by decide)).trans ((W20_of m c Cert.KernelIdeal.main_arg17 (by decide)).trans ((W19_of m c Cert.KernelIdeal.main_arg17 (by decide)).trans ((W18_of m c Cert.KernelIdeal.main_arg17 (by decide)).trans ((W17_of m c Cert.KernelIdeal.main_arg17 (by decide)).trans ((W16_of m c Cert.KernelIdeal.main_arg17 (by decide)).trans ((W15_of m c Cert.KernelIdeal.main_arg17 (by decide)).trans ((W14_of m c Cert.KernelIdeal.main_arg17 (by decide)).trans ((W13_of m c Cert.KernelIdeal.main_arg17 (by decide)).trans ((W12_of m c Cert.KernelIdeal.main_arg17 (by decide)).trans ((W11_of m c Cert.KernelIdeal.main_arg17 (by decide)).trans ((W10_of m c Cert.KernelIdeal.main_arg17 (by decide)).trans ((W9_of m c Cert.KernelIdeal.main_arg17 (by decide)).trans ((W8_of m c Cert.KernelIdeal.main_arg17 (by decide)).trans ((W7_of m c Cert.KernelIdeal.main_arg17 (by decide)).trans ((W6_of m c Cert.KernelIdeal.main_arg17 (by decide)).trans ((W5_of m c Cert.KernelIdeal.main_arg17 (by decide)).trans ((W4_of m c Cert.KernelIdeal.main_arg17 (by decide)).trans ((W3_of m c Cert.KernelIdeal.main_arg17 (by decide)).trans ((W2_of m c Cert.KernelIdeal.main_arg17 (by decide)).trans (W1_of m c Cert.KernelIdeal.main_arg17 (by decide))))))))))))))))))))))) (Eq.trans (a17.symm) ((RW2_of m' c Cert.ReferenceIdeal.main_arg17 (by decide)).trans (RW1_of m' c Cert.ReferenceIdeal.main_arg17 (by decide))).symm))
  have k18 : (W22 m c (Proc.devRef .tc Cert.KernelIdeal.main_arg18) : Cert.KernelIdeal.S3x64x64.Idx → EReal) = (RW2 m' c (Proc.devRef .tc Cert.ReferenceIdeal.main_arg18) : Cert.KernelIdeal.S3x64x64.Idx → EReal) := (Eq.trans ((W22_of m c Cert.KernelIdeal.main_arg18 (by decide)).trans ((W21_of m c Cert.KernelIdeal.main_arg18 (by decide)).trans ((W20_of m c Cert.KernelIdeal.main_arg18 (by decide)).trans ((W19_of m c Cert.KernelIdeal.main_arg18 (by decide)).trans ((W18_of m c Cert.KernelIdeal.main_arg18 (by decide)).trans ((W17_of m c Cert.KernelIdeal.main_arg18 (by decide)).trans ((W16_of m c Cert.KernelIdeal.main_arg18 (by decide)).trans ((W15_of m c Cert.KernelIdeal.main_arg18 (by decide)).trans ((W14_of m c Cert.KernelIdeal.main_arg18 (by decide)).trans ((W13_of m c Cert.KernelIdeal.main_arg18 (by decide)).trans ((W12_of m c Cert.KernelIdeal.main_arg18 (by decide)).trans ((W11_of m c Cert.KernelIdeal.main_arg18 (by decide)).trans ((W10_of m c Cert.KernelIdeal.main_arg18 (by decide)).trans ((W9_of m c Cert.KernelIdeal.main_arg18 (by decide)).trans ((W8_of m c Cert.KernelIdeal.main_arg18 (by decide)).trans ((W7_of m c Cert.KernelIdeal.main_arg18 (by decide)).trans ((W6_of m c Cert.KernelIdeal.main_arg18 (by decide)).trans ((W5_of m c Cert.KernelIdeal.main_arg18 (by decide)).trans ((W4_of m c Cert.KernelIdeal.main_arg18 (by decide)).trans ((W3_of m c Cert.KernelIdeal.main_arg18 (by decide)).trans ((W2_of m c Cert.KernelIdeal.main_arg18 (by decide)).trans (W1_of m c Cert.KernelIdeal.main_arg18 (by decide))))))))))))))))))))))) (Eq.trans (a18.symm) ((RW2_of m' c Cert.ReferenceIdeal.main_arg18 (by decide)).trans (RW1_of m' c Cert.ReferenceIdeal.main_arg18 (by decide))).symm))
  have k19 : (W22 m c (Proc.devRef .tc Cert.KernelIdeal.main_arg19) : Cert.KernelIdeal.S3x64.Idx → EReal) = (RW2 m' c (Proc.devRef .tc Cert.ReferenceIdeal.main_arg19) : Cert.KernelIdeal.S3x64.Idx → EReal) := (Eq.trans ((W22_of m c Cert.KernelIdeal.main_arg19 (by decide)).trans ((W21_of m c Cert.KernelIdeal.main_arg19 (by decide)).trans ((W20_of m c Cert.KernelIdeal.main_arg19 (by decide)).trans ((W19_of m c Cert.KernelIdeal.main_arg19 (by decide)).trans ((W18_of m c Cert.KernelIdeal.main_arg19 (by decide)).trans ((W17_of m c Cert.KernelIdeal.main_arg19 (by decide)).trans ((W16_of m c Cert.KernelIdeal.main_arg19 (by decide)).trans ((W15_of m c Cert.KernelIdeal.main_arg19 (by decide)).trans ((W14_of m c Cert.KernelIdeal.main_arg19 (by decide)).trans ((W13_of m c Cert.KernelIdeal.main_arg19 (by decide)).trans ((W12_of m c Cert.KernelIdeal.main_arg19 (by decide)).trans ((W11_of m c Cert.KernelIdeal.main_arg19 (by decide)).trans ((W10_of m c Cert.KernelIdeal.main_arg19 (by decide)).trans ((W9_of m c Cert.KernelIdeal.main_arg19 (by decide)).trans ((W8_of m c Cert.KernelIdeal.main_arg19 (by decide)).trans ((W7_of m c Cert.KernelIdeal.main_arg19 (by decide)).trans ((W6_of m c Cert.KernelIdeal.main_arg19 (by decide)).trans ((W5_of m c Cert.KernelIdeal.main_arg19 (by decide)).trans ((W4_of m c Cert.KernelIdeal.main_arg19 (by decide)).trans ((W3_of m c Cert.KernelIdeal.main_arg19 (by decide)).trans ((W2_of m c Cert.KernelIdeal.main_arg19 (by decide)).trans (W1_of m c Cert.KernelIdeal.main_arg19 (by decide))))))))))))))))))))))) (Eq.trans (a19.symm) ((RW2_of m' c Cert.ReferenceIdeal.main_arg19 (by decide)).trans (RW1_of m' c Cert.ReferenceIdeal.main_arg19 (by decide))).symm))
  have k14 : (W24 m c (Proc.devRef .tc Cert.KernelIdeal.main_arg14) : Cert.KernelIdeal.S3x64x64.Idx → EReal) = (RW2 m' c (Proc.devRef .tc Cert.ReferenceIdeal.main_arg14) : Cert.KernelIdeal.S3x64x64.Idx → EReal) := (Eq.trans ((W24_of m c Cert.KernelIdeal.main_arg14 (by decide)).trans ((W23_of m c Cert.KernelIdeal.main_arg14 (by decide)).trans ((W22_of m c Cert.KernelIdeal.main_arg14 (by decide)).trans ((W21_of m c Cert.KernelIdeal.main_arg14 (by decide)).trans ((W20_of m c Cert.KernelIdeal.main_arg14 (by decide)).trans ((W19_of m c Cert.KernelIdeal.main_arg14 (by decide)).trans ((W18_of m c Cert.KernelIdeal.main_arg14 (by decide)).trans ((W17_of m c Cert.KernelIdeal.main_arg14 (by decide)).trans ((W16_of m c Cert.KernelIdeal.main_arg14 (by decide)).trans ((W15_of m c Cert.KernelIdeal.main_arg14 (by decide)).trans ((W14_of m c Cert.KernelIdeal.main_arg14 (by decide)).trans ((W13_of m c Cert.KernelIdeal.main_arg14 (by decide)).trans ((W12_of m c Cert.KernelIdeal.main_arg14 (by decide)).trans ((W11_of m c Cert.KernelIdeal.main_arg14 (by decide)).trans ((W10_of m c Cert.KernelIdeal.main_arg14 (by decide)).trans ((W9_of m c Cert.KernelIdeal.main_arg14 (by decide)).trans ((W8_of m c Cert.KernelIdeal.main_arg14 (by decide)).trans ((W7_of m c Cert.KernelIdeal.main_arg14 (by decide)).trans ((W6_of m c Cert.KernelIdeal.main_arg14 (by decide)).trans ((W5_of m c Cert.KernelIdeal.main_arg14 (by decide)).trans ((W4_of m c Cert.KernelIdeal.main_arg14 (by decide)).trans ((W3_of m c Cert.KernelIdeal.main_arg14 (by decide)).trans ((W2_of m c Cert.KernelIdeal.main_arg14 (by decide)).trans (W1_of m c Cert.KernelIdeal.main_arg14 (by decide))))))))))))))))))))))))) (Eq.trans (a14.symm) ((RW2_of m' c Cert.ReferenceIdeal.main_arg14 (by decide)).trans (RW1_of m' c Cert.ReferenceIdeal.main_arg14 (by decide))).symm))
  have k15 : (W24 m c (Proc.devRef .tc Cert.KernelIdeal.main_arg15) : Cert.KernelIdeal.S3x64.Idx → EReal) = (RW2 m' c (Proc.devRef .tc Cert.ReferenceIdeal.main_arg15) : Cert.KernelIdeal.S3x64.Idx → EReal) := (Eq.trans ((W24_of m c Cert.KernelIdeal.main_arg15 (by decide)).trans ((W23_of m c Cert.KernelIdeal.main_arg15 (by decide)).trans ((W22_of m c Cert.KernelIdeal.main_arg15 (by decide)).trans ((W21_of m c Cert.KernelIdeal.main_arg15 (by decide)).trans ((W20_of m c Cert.KernelIdeal.main_arg15 (by decide)).trans ((W19_of m c Cert.KernelIdeal.main_arg15 (by decide)).trans ((W18_of m c Cert.KernelIdeal.main_arg15 (by decide)).trans ((W17_of m c Cert.KernelIdeal.main_arg15 (by decide)).trans ((W16_of m c Cert.KernelIdeal.main_arg15 (by decide)).trans ((W15_of m c Cert.KernelIdeal.main_arg15 (by decide)).trans ((W14_of m c Cert.KernelIdeal.main_arg15 (by decide)).trans ((W13_of m c Cert.KernelIdeal.main_arg15 (by decide)).trans ((W12_of m c Cert.KernelIdeal.main_arg15 (by decide)).trans ((W11_of m c Cert.KernelIdeal.main_arg15 (by decide)).trans ((W10_of m c Cert.KernelIdeal.main_arg15 (by decide)).trans ((W9_of m c Cert.KernelIdeal.main_arg15 (by decide)).trans ((W8_of m c Cert.KernelIdeal.main_arg15 (by decide)).trans ((W7_of m c Cert.KernelIdeal.main_arg15 (by decide)).trans ((W6_of m c Cert.KernelIdeal.main_arg15 (by decide)).trans ((W5_of m c Cert.KernelIdeal.main_arg15 (by decide)).trans ((W4_of m c Cert.KernelIdeal.main_arg15 (by decide)).trans ((W3_of m c Cert.KernelIdeal.main_arg15 (by decide)).trans ((W2_of m c Cert.KernelIdeal.main_arg15 (by decide)).trans (W1_of m c Cert.KernelIdeal.main_arg15 (by decide))))))))))))))))))))))))) (Eq.trans (a15.symm) ((RW2_of m' c Cert.ReferenceIdeal.main_arg15 (by decide)).trans (RW1_of m' c Cert.ReferenceIdeal.main_arg15 (by decide))).symm))
  exact ⟨fun hh => ⟨a2_core m m' c hh k10 k11, b2_core m m' c hh k12 k13, d2_core m m' c hh k16 k17, e2_core m m' c hh k18 k19⟩,
    fun he => ce2_core m m' c he k14 k15⟩

end Cert.Sim

end
-- ==== Proof.Sim.Take2.lean ====
import proofs.«431450_j74423193305350_1_alg».proof.Proof.KI.Fold
import proofs.«431450_j74423193305350_1_alg».proof.Proof.KI.Take
import proofs.«431450_j74423193305350_1_alg».proof.Proof.Ref.Fold
import proofs.«431450_j74423193305350_1_alg».proof.Proof.Ref.RdL2
import proofs.«431450_j74423193305350_1_alg».proof.Proof.Ref.Gather
import proofs.«431450_j74423193305350_1_alg».proof.Proof.PreFacts
import proofs.«431450_j74423193305350_1_alg».proof.Proof.Gen.Pre_finite_inputs
import proofs.«431450_j74423193305350_1_alg».proof.Proof.Spec

/-! The three row look-ups of layer 2, kernel against reference: each array a kernel look-up leaves equals the buffer the
    reference's look-up leaves, given that the two memories agree on the arguments, that the precondition holds (every
    index word is in [0, 50000)), and that the tables the look-ups read already agree. Both sides are read at an index
    as the table at the row the index word names; the index vectors are the launch contents, where the memories agree. -/
set_option maxRecDepth 16384

noncomputable section

namespace Cert.Sim

open Idealize.ShloMosaic Idealize.ShloMosaic.TcCoe Idealize.ShloMosaic.ValueIdx Idealize.ShloMosaic.StableHlo
open Idealize.SL.Sem
open Cert.KernelIdeal.Hand Cert.ReferenceIdeal.Hand
open Cert.Spec (Mat)

/-- The table at the row an index word names depends only on the table and the index vector. -/
theorem row_congrT2 {x x' : Mat 50000 64} {idx idx' : (⟨1, ![400000]⟩ : Shape).Idx → BitVec 32} (hx : x = x') (hi : idx = idx')
    (e : Fin 400000) (q : Fin 64) (h : (idx (ix1 e)).toInt.toNat < 50000) (h' : (idx' (ix1 e)).toInt.toNat < 50000) :
    x (ix2 (⟨(idx (ix1 e)).toInt.toNat, h⟩ : Fin 50000) q) = x' (ix2 (⟨(idx' (ix1 e)).toInt.toNat, h'⟩ : Fin 50000) q) := by
  subst hx; subst hi; rfl

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two memories agree on the thirty arguments (the hypothesis of the claim, word for word). -/
abbrev ArgsAgreeT2 : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)

/-! ## The index vectors, at the boundaries where they are read -/

/-- The index vector of look-up 0 is still the launch contents at kernel boundary 26. -/
theorem kidx2_0 (c : Dev Cert.KernelIdeal.nD) :
    W26 m c (Proc.devRef .tc Cert.KernelIdeal.main_arg3) = m ((c.tc : Thread Cert.KernelIdeal.nD Cert.KernelIdeal.τ).loc Cert.KernelIdeal.main_arg3) :=
  (W26_of m c Cert.KernelIdeal.main_arg3 (by decide)).trans (
    (W25_of m c Cert.KernelIdeal.main_arg3 (by decide)).trans (
    (W24_of m c Cert.KernelIdeal.main_arg3 (by decide)).trans (
    (W23_of m c Cert.KernelIdeal.main_arg3 (by decide)).trans (
    (W22_of m c Cert.KernelIdeal.main_arg3 (by decide)).trans (
    (W21_of m c Cert.KernelIdeal.main_arg3 (by decide)).trans (
    (W20_of m c Cert.KernelIdeal.main_arg3 (by decide)).trans (
    (W19_of m c Cert.KernelIdeal.main_arg3 (by decide)).trans (
    (W18_of m c Cert.KernelIdeal.main_arg3 (by decide)).trans (
    (W17_of m c Cert.KernelIdeal.main_arg3 (by decide)).trans (
    (W16_of m c Cert.KernelIdeal.main_arg3 (by decide)).trans (
    (W15_of m c Cert.KernelIdeal.main_arg3 (by decide)).trans (
    (W14_of m c Cert.KernelIdeal.main_arg3 (by decide)).trans (
    (W13_of m c Cert.KernelIdeal.main_arg3 (by decide)).trans (
    (W12_of m c Cert.KernelIdeal.main_arg3 (by decide)).trans (
    (W11_of m c Cert.KernelIdeal.main_arg3 (by decide)).trans (
    (W10_of m c Cert.KernelIdeal.main_arg3 (by decide)).trans (
    (W9_of m c Cert.KernelIdeal.main_arg3 (by decide)).trans (
    (W8_of m c Cert.KernelIdeal.main_arg3 (by decide)).trans (
    (W7_of m c Cert.KernelIdeal.main_arg3 (by decide)).trans (
    (W6_of m c Cert.KernelIdeal.main_arg3 (by decide)).trans (
    (W5_of m c Cert.KernelIdeal.main_arg3 (by decide)).trans (
    (W4_of m c Cert.KernelIdeal.main_arg3 (by decide)).trans (
    (W3_of m c Cert.KernelIdeal.main_arg3 (by decide)).trans (
    (W2_of m c Cert.KernelIdeal.main_arg3 (by decide)).trans (
    (W1_of m c Cert.KernelIdeal.main_arg3 (by decide)).trans (
    rfl))))))))))))))))))))))))))

/-- The index vector of look-up 1 is still the launch contents at kernel boundary 27. -/
theorem kidx2_1 (c : Dev Cert.KernelIdeal.nD) :
    W27 m c (Proc.devRef .tc Cert.KernelIdeal.main_arg4) = m ((c.tc : Thread Cert.KernelIdeal.nD Cert.KernelIdeal.τ).loc Cert.KernelIdeal.main_arg4) :=
  (W27_of m c Cert.KernelIdeal.main_arg4 (by decide)).trans (
    (W26_of m c Cert.KernelIdeal.main_arg4 (by decide)).trans (
    (W25_of m c Cert.KernelIdeal.main_arg4 (by decide)).trans (
    (W24_of m c Cert.KernelIdeal.main_arg4 (by decide)).trans (
    (W23_of m c Cert.KernelIdeal.main_arg4 (by decide)).trans (
    (W22_of m c Cert.KernelIdeal.main_arg4 (by decide)).trans (
    (W21_of m c Cert.KernelIdeal.main_arg4 (by decide)).trans (
    (W20_of m c Cert.KernelIdeal.main_arg4 (by decide)).trans (
    (W19_of m c Cert.KernelIdeal.main_arg4 (by decide)).trans (
    (W18_of m c Cert.KernelIdeal.main_arg4 (by decide)).trans (
    (W17_of m c Cert.KernelIdeal.main_arg4 (by decide)).trans (
    (W16_of m c Cert.KernelIdeal.main_arg4 (by decide)).trans (
    (W15_of m c Cert.KernelIdeal.main_arg4 (by decide)).trans (
    (W14_of m c Cert.KernelIdeal.main_arg4 (by decide)).trans (
    (W13_of m c Cert.KernelIdeal.main_arg4 (by decide)).trans (
    (W12_of m c Cert.KernelIdeal.main_arg4 (by decide)).trans (
    (W11_of m c Cert.KernelIdeal.main_arg4 (by decide)).trans (
    (W10_of m c Cert.KernelIdeal.main_arg4 (by decide)).trans (
    (W9_of m c Cert.KernelIdeal.main_arg4 (by decide)).trans (
    (W8_of m c Cert.KernelIdeal.main_arg4 (by decide)).trans (
    (W7_of m c Cert.KernelIdeal.main_arg4 (by decide)).trans (
    (W6_of m c Cert.KernelIdeal.main_arg4 (by decide)).trans (
    (W5_of m c Cert.KernelIdeal.main_arg4 (by decide)).trans (
    (W4_of m c Cert.KernelIdeal.main_arg4 (by decide)).trans (
    (W3_of m c Cert.KernelIdeal.main_arg4 (by decide)).trans (
    (W2_of m c Cert.KernelIdeal.main_arg4 (by decide)).trans (
    (W1_of m c Cert.KernelIdeal.main_arg4 (by decide)).trans (
    rfl)))))))))))))))))))))))))))

/-- The index vector of look-up 2 is still the launch contents at kernel boundary 28. -/
theorem kidx2_2 (c : Dev Cert.KernelIdeal.nD) :
    W28 m c (Proc.devRef .tc Cert.KernelIdeal.main_arg3) = m ((c.tc : Thread Cert.KernelIdeal.nD Cert.KernelIdeal.τ).loc Cert.KernelIdeal.main_arg3) :=
  (W28_of m c Cert.KernelIdeal.main_arg3 (by decide)).trans (
    (W27_of m c Cert.KernelIdeal.main_arg3 (by decide)).trans (
    (W26_of m c Cert.KernelIdeal.main_arg3 (by decide)).trans (
    (W25_of m c Cert.KernelIdeal.main_arg3 (by decide)).trans (
    (W24_of m c Cert.KernelIdeal.main_arg3 (by decide)).trans (
    (W23_of m c Cert.KernelIdeal.main_arg3 (by decide)).trans (
    (W22_of m c Cert.KernelIdeal.main_arg3 (by decide)).trans (
    (W21_of m c Cert.KernelIdeal.main_arg3 (by decide)).trans (
    (W20_of m c Cert.KernelIdeal.main_arg3 (by decide)).trans (
    (W19_of m c Cert.KernelIdeal.main_arg3 (by decide)).trans (
    (W18_of m c Cert.KernelIdeal.main_arg3 (by decide)).trans (
    (W17_of m c Cert.KernelIdeal.main_arg3 (by decide)).trans (
    (W16_of m c Cert.KernelIdeal.main_arg3 (by decide)).trans (
    (W15_of m c Cert.KernelIdeal.main_arg3 (by decide)).trans (
    (W14_of m c Cert.KernelIdeal.main_arg3 (by decide)).trans (
    (W13_of m c Cert.KernelIdeal.main_arg3 (by decide)).trans (
    (W12_of m c Cert.KernelIdeal.main_arg3 (by decide)).trans (
    (W11_of m c Cert.KernelIdeal.main_arg3 (by decide)).trans (
    (W10_of m c Cert.KernelIdeal.main_arg3 (by decide)).trans (
    (W9_of m c Cert.KernelIdeal.main_arg3 (by decide)).trans (
    (W8_of m c Cert.KernelIdeal.main_arg3 (by decide)).trans (
    (W7_of m c Cert.KernelIdeal.main_arg3 (by decide)).trans (
    (W6_of m c Cert.KernelIdeal.main_arg3 (by decide)).trans (
    (W5_of m c Cert.KernelIdeal.main_arg3 (by decide)).trans (
    (W4_of m c Cert.KernelIdeal.main_arg3 (by decide)).trans (
    (W3_of m c Cert.KernelIdeal.main_arg3 (by decide)).trans (
    (W2_of m c Cert.KernelIdeal.main_arg3 (by decide)).trans (
    (W1_of m c Cert.KernelIdeal.main_arg3 (by decide)).trans (
    rfl))))))))))))))))))))))))))))

/-- The reference's index vector main_arg3 is still the launch contents at reference boundary 2. -/
theorem ridx2_main_arg3 (c : Dev Cert.KernelIdeal.nD) :
    RW2 m' c (Proc.devRef .tc Cert.ReferenceIdeal.main_arg3) = m' ((c.tc : Thread Cert.ReferenceIdeal.nD Cert.ReferenceIdeal.τ).loc Cert.ReferenceIdeal.main_arg3) :=
  (RW2_of m' c Cert.ReferenceIdeal.main_arg3 (by decide)).trans (
    (RW1_of m' c Cert.ReferenceIdeal.main_arg3 (by decide)).trans (
    rfl))

/-- The reference's index vector main_arg4 is still the launch contents at reference boundary 2. -/
theorem ridx2_main_arg4 (c : Dev Cert.KernelIdeal.nD) :
    RW2 m' c (Proc.devRef .tc Cert.ReferenceIdeal.main_arg4) = m' ((c.tc : Thread Cert.ReferenceIdeal.nD Cert.ReferenceIdeal.τ).loc Cert.ReferenceIdeal.main_arg4) :=
  (RW2_of m' c Cert.ReferenceIdeal.main_arg4 (by decide)).trans (
    (RW1_of m' c Cert.ReferenceIdeal.main_arg4 (by decide)).trans (
    rfl))

/-! ## Each side at an index -/

/-- Kernel look-up 0 (hostOps10) at (e, q): the table main_v93, as it stood at boundary 26, at the row the index word names. -/
theorem ktake2_0 (hpre : Cert.Pre_KernelIdeal m) (c : Dev Cert.KernelIdeal.nD) (e : Fin 400000) (q : Fin 64) :
    (W27 m c (Proc.devRef .tc Cert.KernelIdeal.main_v101) : Mat 400000 64) (ix2 e q)
      = (W26 m c (Proc.devRef .tc Cert.KernelIdeal.main_v93) : Mat 50000 64)
          (ix2 (⟨(m ((c.tc : Thread Cert.KernelIdeal.nD Cert.KernelIdeal.τ).loc Cert.KernelIdeal.main_arg3) (ix1 e)).toInt.toNat,
            by have := Cert.PreFacts.src_inb m hpre c e; omega⟩ : Fin 50000) q) := by
  have hidx : ∀ i : Fin 400000, 0 ≤ (W26 m c (Proc.devRef .tc Cert.KernelIdeal.main_arg3) (ix1 i)).toInt
      ∧ (W26 m c (Proc.devRef .tc Cert.KernelIdeal.main_arg3) (ix1 i)).toInt < 50000 := fun i => by
    rw [kidx2_0 m c]; exact Cert.PreFacts.src_inb m hpre c i
  have htbl : W26 m c (Proc.devRef .tc Cert.KernelIdeal.main_v93) = W26 m c (Proc.devRef .tc Cert.KernelIdeal.main_v93) :=
    rfl
  refine (take_hostOps10 (W26 m c) hidx e q).trans ?_
  exact row_congrT2 htbl (kidx2_0 m c) e q _ _

/-- Reference look-up 0 (main_v186) at (e, q): the table main_v163 after the layer, at the row the index word names. -/
theorem rtake2_0 (c : Dev Cert.KernelIdeal.nD)
    (hidx : ∀ i : Fin 400000, 0 ≤ (m' ((c.tc : Thread Cert.ReferenceIdeal.nD Cert.ReferenceIdeal.τ).loc Cert.ReferenceIdeal.main_arg3) (ix1 i)).toInt
      ∧ (m' ((c.tc : Thread Cert.ReferenceIdeal.nD Cert.ReferenceIdeal.τ).loc Cert.ReferenceIdeal.main_arg3) (ix1 i)).toInt < 50000)
    (e : Fin 400000) (q : Fin 64) :
    (RW3 m' c (Proc.devRef .tc Cert.ReferenceIdeal.main_v186) : Mat 400000 64) (ix2 e q)
      = (RW3 m' c (Proc.devRef .tc Cert.ReferenceIdeal.main_v163) : Mat 50000 64)
          (ix2 (⟨(m' ((c.tc : Thread Cert.ReferenceIdeal.nD Cert.ReferenceIdeal.τ).loc Cert.ReferenceIdeal.main_arg3) (ix1 e)).toInt.toNat,
            by have := hidx e; omega⟩ : Fin 50000) q) := by
  unfold RW3
  rw [rd_main_v186, rd_main_v185, rd_main_v184, rd_main_v181, rd_main_v183, rd_main_v180, rd_main_v182, rd_main_c_18, rd_main_c_19,
    ridx2_main_arg3 m' c]
  exact gather_apply _ _ hidx e q

/-- Kernel look-up 1 (hostOps10_1) at (e, q): the table main_v94, as it stood at boundary 26, at the row the index word names. -/
theorem ktake2_1 (hpre : Cert.Pre_KernelIdeal m) (c : Dev Cert.KernelIdeal.nD) (e : Fin 400000) (q : Fin 64) :
    (W28 m c (Proc.devRef .tc Cert.KernelIdeal.main_v102) : Mat 400000 64) (ix2 e q)
      = (W26 m c (Proc.devRef .tc Cert.KernelIdeal.main_v94) : Mat 50000 64)
          (ix2 (⟨(m ((c.tc : Thread Cert.KernelIdeal.nD Cert.KernelIdeal.τ).loc Cert.KernelIdeal.main_arg4) (ix1 e)).toInt.toNat,
            by have := Cert.PreFacts.dst_inb m hpre c e; omega⟩ : Fin 50000) q) := by
  have hidx : ∀ i : Fin 400000, 0 ≤ (W27 m c (Proc.devRef .tc Cert.KernelIdeal.main_arg4) (ix1 i)).toInt
      ∧ (W27 m c (Proc.devRef .tc Cert.KernelIdeal.main_arg4) (ix1 i)).toInt < 50000 := fun i => by
    rw [kidx2_1 m c]; exact Cert.PreFacts.dst_inb m hpre c i
  have htbl : W27 m c (Proc.devRef .tc Cert.KernelIdeal.main_v94) = W26 m c (Proc.devRef .tc Cert.KernelIdeal.main_v94) :=
    (W27_of m c Cert.KernelIdeal.main_v94 (by decide)).trans (rfl)
  refine (take_hostOps10_1 (W27 m c) hidx e q).trans ?_
  exact row_congrT2 htbl (kidx2_1 m c) e q _ _

/-- Reference look-up 1 (main_v193) at (e, q): the table main_v171 after the layer, at the row the index word names. -/
theorem rtake2_1 (c : Dev Cert.KernelIdeal.nD)
    (hidx : ∀ i : Fin 400000, 0 ≤ (m' ((c.tc : Thread Cert.ReferenceIdeal.nD Cert.ReferenceIdeal.τ).loc Cert.ReferenceIdeal.main_arg4) (ix1 i)).toInt
      ∧ (m' ((c.tc : Thread Cert.ReferenceIdeal.nD Cert.ReferenceIdeal.τ).loc Cert.ReferenceIdeal.main_arg4) (ix1 i)).toInt < 50000)
    (e : Fin 400000) (q : Fin 64) :
    (RW3 m' c (Proc.devRef .tc Cert.ReferenceIdeal.main_v193) : Mat 400000 64) (ix2 e q)
      = (RW3 m' c (Proc.devRef .tc Cert.ReferenceIdeal.main_v171) : Mat 50000 64)
          (ix2 (⟨(m' ((c.tc : Thread Cert.ReferenceIdeal.nD Cert.ReferenceIdeal.τ).loc Cert.ReferenceIdeal.main_arg4) (ix1 e)).toInt.toNat,
            by have := hidx e; omega⟩ : Fin 50000) q) := by
  unfold RW3
  rw [rd_main_v193, rd_main_v192, rd_main_v191, rd_main_v188, rd_main_v190, rd_main_v187, rd_main_v189, rd_main_c_20, rd_main_c_21,
    ridx2_main_arg4 m' c]
  exact gather_apply _ _ hidx e q

/-- Kernel look-up 2 (hostOps10_2) at (e, q): the table main_v92, as it stood at boundary 26, at the row the index word names. -/
theorem ktake2_2 (hpre : Cert.Pre_KernelIdeal m) (c : Dev Cert.KernelIdeal.nD) (e : Fin 400000) (q : Fin 64) :
    (W29 m c (Proc.devRef .tc Cert.KernelIdeal.main_v103) : Mat 400000 64) (ix2 e q)
      = (W26 m c (Proc.devRef .tc Cert.KernelIdeal.main_v92) : Mat 50000 64)
          (ix2 (⟨(m ((c.tc : Thread Cert.KernelIdeal.nD Cert.KernelIdeal.τ).loc Cert.KernelIdeal.main_arg3) (ix1 e)).toInt.toNat,
            by have := Cert.PreFacts.src_inb m hpre c e; omega⟩ : Fin 50000) q) := by
  have hidx : ∀ i : Fin 400000, 0 ≤ (W28 m c (Proc.devRef .tc Cert.KernelIdeal.main_arg3) (ix1 i)).toInt
      ∧ (W28 m c (Proc.devRef .tc Cert.KernelIdeal.main_arg3) (ix1 i)).toInt < 50000 := fun i => by
    rw [kidx2_2 m c]; exact Cert.PreFacts.src_inb m hpre c i
  have htbl : W28 m c (Proc.devRef .tc Cert.KernelIdeal.main_v92) = W26 m c (Proc.devRef .tc Cert.KernelIdeal.main_v92) :=
    (W28_of m c Cert.KernelIdeal.main_v92 (by decide)).trans ((W27_of m c Cert.KernelIdeal.main_v92 (by decide)).trans (rfl))
  refine (take_hostOps10_2 (W28 m c) hidx e q).trans ?_
  exact row_congrT2 htbl (kidx2_2 m c) e q _ _

/-- Reference look-up 2 (main_v208) at (e, q): the table main_v155 after the layer, at the row the index word names. -/
theorem rtake2_2 (c : Dev Cert.KernelIdeal.nD)
    (hidx : ∀ i : Fin 400000, 0 ≤ (m' ((c.tc : Thread Cert.ReferenceIdeal.nD Cert.ReferenceIdeal.τ).loc Cert.ReferenceIdeal.main_arg3) (ix1 i)).toInt
      ∧ (m' ((c.tc : Thread Cert.ReferenceIdeal.nD Cert.ReferenceIdeal.τ).loc Cert.ReferenceIdeal.main_arg3) (ix1 i)).toInt < 50000)
    (e : Fin 400000) (q : Fin 64) :
    (RW3 m' c (Proc.devRef .tc Cert.ReferenceIdeal.main_v208) : Mat 400000 64) (ix2 e q)
      = (RW3 m' c (Proc.devRef .tc Cert.ReferenceIdeal.main_v155) : Mat 50000 64)
          (ix2 (⟨(m' ((c.tc : Thread Cert.ReferenceIdeal.nD Cert.ReferenceIdeal.τ).loc Cert.ReferenceIdeal.main_arg3) (ix1 e)).toInt.toNat,
            by have := hidx e; omega⟩ : Fin 50000) q) := by
  unfold RW3
  rw [rd_main_v208, rd_main_v207, rd_main_v206, rd_main_v203, rd_main_v205, rd_main_v202, rd_main_v204, rd_main_c_24, rd_main_c_25,
    ridx2_main_arg3 m' c]
  exact gather_apply _ _ hidx e q

/-! ## The pairing -/

/-- The three look-ups of layer 2 agree, given the tables they read agree. -/
theorem take_eq2 (hpre : Cert.Pre_KernelIdeal m) (hagree : ArgsAgreeT2 m m') (c : Dev Cert.KernelIdeal.nD)
    (hT0 : (T26 m c Cert.KernelIdeal.main_v93 : Mat 50000 64) = (RW3 m' c (Proc.devRef .tc Cert.ReferenceIdeal.main_v163) : Mat 50000 64))
    (hT1 : (T26 m c Cert.KernelIdeal.main_v94 : Mat 50000 64) = (RW3 m' c (Proc.devRef .tc Cert.ReferenceIdeal.main_v171) : Mat 50000 64))
    (hT2 : (T26 m c Cert.KernelIdeal.main_v92 : Mat 50000 64) = (RW3 m' c (Proc.devRef .tc Cert.ReferenceIdeal.main_v155) : Mat 50000 64)) :
    (T27 m c Cert.KernelIdeal.main_v101 : Mat 400000 64) = (RW3 m' c (Proc.devRef .tc Cert.ReferenceIdeal.main_v186) : Mat 400000 64)
    ∧ (T28 m c Cert.KernelIdeal.main_v102 : Mat 400000 64) = (RW3 m' c (Proc.devRef .tc Cert.ReferenceIdeal.main_v193) : Mat 400000 64)
    ∧ (T29 m c Cert.KernelIdeal.main_v103 : Mat 400000 64) = (RW3 m' c (Proc.devRef .tc Cert.ReferenceIdeal.main_v208) : Mat 400000 64) := by
  have ha3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) := (hagree c).2.2.2.1
  have ha4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) := (hagree c).2.2.2.2.1
  have hs : ∀ i : Fin 400000, 0 ≤ (m' ((c.tc : Thread Cert.ReferenceIdeal.nD Cert.ReferenceIdeal.τ).loc Cert.ReferenceIdeal.main_arg3) (ix1 i)).toInt
      ∧ (m' ((c.tc : Thread Cert.ReferenceIdeal.nD Cert.ReferenceIdeal.τ).loc Cert.ReferenceIdeal.main_arg3) (ix1 i)).toInt < 50000 := fun i => by
    rw [ha3]; exact Cert.PreFacts.src_inb m hpre c i
  have hd : ∀ i : Fin 400000, 0 ≤ (m' ((c.tc : Thread Cert.ReferenceIdeal.nD Cert.ReferenceIdeal.τ).loc Cert.ReferenceIdeal.main_arg4) (ix1 i)).toInt
      ∧ (m' ((c.tc : Thread Cert.ReferenceIdeal.nD Cert.ReferenceIdeal.τ).loc Cert.ReferenceIdeal.main_arg4) (ix1 i)).toInt < 50000 := fun i => by
    rw [ha4]; exact Cert.PreFacts.dst_inb m hpre c i
  refine ⟨?_, ?_, ?_⟩
  · funext j
    rw [eq_ix2 j]
    refine (ktake2_0 m hpre c (j 0) (j 1)).trans ((rtake2_0 m' c hs (j 0) (j 1)).trans ?_).symm
    exact row_congrT2 hT0.symm ha3 (j 0) (j 1) _ _
  · funext j
    rw [eq_ix2 j]
    refine (ktake2_1 m hpre c (j 0) (j 1)).trans ((rtake2_1 m' c hd (j 0) (j 1)).trans ?_).symm
    exact row_congrT2 hT1.symm ha4 (j 0) (j 1) _ _
  · funext j
    rw [eq_ix2 j]
    refine (ktake2_2 m hpre c (j 0) (j 1)).trans ((rtake2_2 m' c hs (j 0) (j 1)).trans ?_).symm
    exact row_congrT2 hT2.symm ha3 (j 0) (j 1) _ _

end Cert.Sim

end
-- ==== Proof.KI.Val10.lean ====
import proofs.«431450_j74423193305350_1_alg».proof.Proof.KI.Reg10
import proofs.«431450_j74423193305350_1_alg».proof.Proof.Spec
import Idealize.ShloMosaic.Lib.Pipeline.Value
import Idealize.ShloMosaic.Lib.ValueIdx
import Idealize.ShloMosaic.PureOps.Ideal.Laws

/-! Region 10 (the edge combine) at the extended reals: each of its three output arrays after the last grid point,
    read at an entry, is the gate's argument, the gate, and the gated message of the four input arrays at that entry.
    The body's operations are entrywise, every window moves by the same row block of 4000 rows, and the hundred
    blocks tile the 400000 rows. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeroOff10 : (![0, 0] : Fin 2 → Nat) = fun _ => 0 := funext fun a => by fin_cases a <;> rfl

/-- The gate's argument (a + b) + d, each array read at its own index. -/
abbrev gateArgAt10 (a b d : S400000x64.Idx → EReal) (i0 i1 i2 : S400000x64.Idx) : EReal := (a i0 + b i1) + d i2

/-- The gate: the logistic function of the gate's argument. -/
abbrev gateAt10 (a b d : S400000x64.Idx → EReal) (i0 i1 i2 : S400000x64.Idx) : EReal := Ideal.logistic (gateArgAt10 a b d i0 i1 i2)

/-- The gated message: the gate times the fourth array's entry. -/
abbrev gatedAt10 (a b d e : S400000x64.Idx → EReal) (i0 i1 i2 i3 : S400000x64.Idx) : EReal := gateAt10 a b d i0 i1 i2 * e i3

/-- The gate's argument of three edge arrays, entry by entry. -/
abbrev gateArgArr10 (a b d : S400000x64.Idx → EReal) : S400000x64.Idx → EReal := fun i => gateArgAt10 a b d i i i

/-- The gate of three edge arrays, entry by entry. -/
abbrev gateArr10 (a b d : S400000x64.Idx → EReal) : S400000x64.Idx → EReal := fun i => gateAt10 a b d i i i

/-- The gated message of four edge arrays, entry by entry. -/
abbrev gatedArr10 (a b d e : S400000x64.Idx → EReal) : S400000x64.Idx → EReal := fun i => gatedAt10 a b d e i i i i

/-- The first payload is the sum of its three blocks in the order (x0 + x1) + x2, entry by entry. -/
theorem pay10_1_eq (x0 x1 x2 : Vec Ideal S4000x64 .f32) : k10_pay1 x0 x1 x2 = fun i => (x0 i + x1 i) + x2 i := by
  unfold k10_pay1
  simp only [shapeCast_self]
  rfl

/-- The second payload is the logistic function of the first, entry by entry. -/
theorem pay10_2_eq (x0 x1 x2 : Vec Ideal S4000x64 .f32) : k10_pay2 x0 x1 x2 = fun i => Ideal.logistic ((x0 i + x1 i) + x2 i) := by
  unfold k10_pay2
  rw [pay10_1_eq]
  rfl

/-- The third payload is the second times the fourth block, entry by entry. -/
theorem pay10_3_eq (x0 x1 x2 x3 : Vec Ideal S4000x64 .f32) : k10_pay3 x0 x1 x2 x3 = fun i => Ideal.logistic ((x0 i + x1 i) + x2 i) * x3 i := by
  unfold k10_pay3
  rw [pay10_2_eq]
  simp only [shapeCast_self]
  rfl

/-- The printed index maps, decided over the grid: every window's block at point t is row block t, column block 0. -/
theorem idxFacts10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = t.val ∧ win10_3.index t (1 : Fin 2) = 0
    ∧ win10_4.index t (0 : Fin 2) = t.val ∧ win10_4.index t (1 : Fin 2) = 0
    ∧ win10_5.index t (0 : Fin 2) = t.val ∧ win10_5.index t (1 : Fin 2) = 0
    ∧ win10_6.index t (0 : Fin 2) = t.val ∧ win10_6.index t (1 : Fin 2) = 0 :=
  (by decide +kernel : ∀ t : Fin grid10.N, _)

/-! Each window's block at point t sits where output window 4's does. -/

theorem embEq10_0 (t : Fin cfg10.N) (j : S4000x64.Idx) :
    ((cfg10.win 0).blk t).view.emb j = ((cfg10.win 4).blk t).view.emb j := by
  obtain ⟨a0, a1, b0, b1, d0, d1, e0, e1, f0, f1, g0, g1, h0, h1⟩ := idxFacts10 t
  funext a; apply Fin.ext
  match a with
  | ⟨0, _⟩ => show win10_0.index t (0 : Fin 2) * 4000 + 1 * (j 0).val = win10_4.index t (0 : Fin 2) * 4000 + 1 * (j 0).val; omega
  | ⟨1, _⟩ => show win10_0.index t (1 : Fin 2) * 64 + 1 * (j 1).val = win10_4.index t (1 : Fin 2) * 64 + 1 * (j 1).val; omega

theorem embEq10_1 (t : Fin cfg10.N) (j : S4000x64.Idx) :
    ((cfg10.win 1).blk t).view.emb j = ((cfg10.win 4).blk t).view.emb j := by
  obtain ⟨a0, a1, b0, b1, d0, d1, e0, e1, f0, f1, g0, g1, h0, h1⟩ := idxFacts10 t
  funext a; apply Fin.ext
  match a with
  | ⟨0, _⟩ => show win10_1.index t (0 : Fin 2) * 4000 + 1 * (j 0).val = win10_4.index t (0 : Fin 2) * 4000 + 1 * (j 0).val; omega
  | ⟨1, _⟩ => show win10_1.index t (1 : Fin 2) * 64 + 1 * (j 1).val = win10_4.index t (1 : Fin 2) * 64 + 1 * (j 1).val; omega

theorem embEq10_2 (t : Fin cfg10.N) (j : S4000x64.Idx) :
    ((cfg10.win 2).blk t).view.emb j = ((cfg10.win 4).blk t).view.emb j := by
  obtain ⟨a0, a1, b0, b1, d0, d1, e0, e1, f0, f1, g0, g1, h0, h1⟩ := idxFacts10 t
  funext a; apply Fin.ext
  match a with
  | ⟨0, _⟩ => show win10_2.index t (0 : Fin 2) * 4000 + 1 * (j 0).val = win10_4.index t (0 : Fin 2) * 4000 + 1 * (j 0).val; omega
  | ⟨1, _⟩ => show win10_2.index t (1 : Fin 2) * 64 + 1 * (j 1).val = win10_4.index t (1 : Fin 2) * 64 + 1 * (j 1).val; omega

theorem embEq10_3 (t : Fin cfg10.N) (j : S4000x64.Idx) :
    ((cfg10.win 3).blk t).view.emb j = ((cfg10.win 4).blk t).view.emb j := by
  obtain ⟨a0, a1, b0, b1, d0, d1, e0, e1, f0, f1, g0, g1, h0, h1⟩ := idxFacts10 t
  funext a; apply Fin.ext
  match a with
  | ⟨0, _⟩ => show win10_3.index t (0 : Fin 2) * 4000 + 1 * (j 0).val = win10_4.index t (0 : Fin 2) * 4000 + 1 * (j 0).val; omega
  | ⟨1, _⟩ => show win10_3.index t (1 : Fin 2) * 64 + 1 * (j 1).val = win10_4.index t (1 : Fin 2) * 64 + 1 * (j 1).val; omega

theorem embEq10_5 (t : Fin cfg10.N) (j : S4000x64.Idx) :
    ((cfg10.win 5).blk t).view.emb j = ((cfg10.win 4).blk t).view.emb j := by
  obtain ⟨a0, a1, b0, b1, d0, d1, e0, e1, f0, f1, g0, g1, h0, h1⟩ := idxFacts10 t
  funext a; apply Fin.ext
  match a with
  | ⟨0, _⟩ => show win10_5.index t (0 : Fin 2) * 4000 + 1 * (j 0).val = win10_4.index t (0 : Fin 2) * 4000 + 1 * (j 0).val; omega
  | ⟨1, _⟩ => show win10_5.index t (1 : Fin 2) * 64 + 1 * (j 1).val = win10_4.index t (1 : Fin 2) * 64 + 1 * (j 1).val; omega

theorem embEq10_6 (t : Fin cfg10.N) (j : S4000x64.Idx) :
    ((cfg10.win 6).blk t).view.emb j = ((cfg10.win 4).blk t).view.emb j := by
  obtain ⟨a0, a1, b0, b1, d0, d1, e0, e1, f0, f1, g0, g1, h0, h1⟩ := idxFacts10 t
  funext a; apply Fin.ext
  match a with
  | ⟨0, _⟩ => show win10_6.index t (0 : Fin 2) * 4000 + 1 * (j 0).val = win10_4.index t (0 : Fin 2) * 4000 + 1 * (j 0).val; omega
  | ⟨1, _⟩ => show win10_6.index t (1 : Fin 2) * 64 + 1 * (j 1).val = win10_4.index t (1 : Fin 2) * 64 + 1 * (j 1).val; omega

/-- What point t writes back to output 4 is block t of the gate's argument of the input arrays. -/
theorem flushed10_4_eq (c : Dev nD) (t : Fin cfg10.N) :
    (dat10 V c).flushed 4 t = ((cfg10.win 4).blk t).view.read (Elt Ideal) (gateArgArr10 (V c main_v101 : S400000x64.Idx → EReal) (V c main_v102 : S400000x64.Idx → EReal) (V c main_v100 : S400000x64.Idx → EReal)) := by
  show (cfg10.win 4).cut (grid10.coords t) ((dat10 V c).after 4 t) = _
  rw [after10_4]
  unfold out10_4
  rw [View.canon_unit_zero zeroOff10]
  simp only [View.ld_unit_zero (S := S4000x64) zeroOff10]
  rw [pay10_1_eq]
  funext j
  show gateArgAt10 (V c main_v101 : S400000x64.Idx → EReal) (V c main_v102 : S400000x64.Idx → EReal) (V c main_v100 : S400000x64.Idx → EReal) (((cfg10.win 0).blk t).view.emb j) (((cfg10.win 1).blk t).view.emb j) (((cfg10.win 2).blk t).view.emb j)
    = gateArgAt10 (V c main_v101 : S400000x64.Idx → EReal) (V c main_v102 : S400000x64.Idx → EReal) (V c main_v100 : S400000x64.Idx → EReal) (((cfg10.win 4).blk t).view.emb j) (((cfg10.win 4).blk t).view.emb j) (((cfg10.win 4).blk t).view.emb j)
  rw [embEq10_0 t j, embEq10_1 t j, embEq10_2 t j]

/-- What point t writes back to output 5 is block t of the gate of the input arrays. -/
theorem flushed10_5_eq (c : Dev nD) (t : Fin cfg10.N) :
    (dat10 V c).flushed 5 t = ((cfg10.win 5).blk t).view.read (Elt Ideal) (gateArr10 (V c main_v101 : S400000x64.Idx → EReal) (V c main_v102 : S400000x64.Idx → EReal) (V c main_v100 : S400000x64.Idx → EReal)) := by
  show (cfg10.win 5).cut (grid10.coords t) ((dat10 V c).after 5 t) = _
  rw [after10_5]
  unfold out10_5
  rw [View.canon_unit_zero zeroOff10]
  simp only [View.ld_unit_zero (S := S4000x64) zeroOff10]
  rw [pay10_2_eq]
  funext j
  show gateAt10 (V c main_v101 : S400000x64.Idx → EReal) (V c main_v102 : S400000x64.Idx → EReal) (V c main_v100 : S400000x64.Idx → EReal) (((cfg10.win 0).blk t).view.emb j) (((cfg10.win 1).blk t).view.emb j) (((cfg10.win 2).blk t).view.emb j)
    = gateAt10 (V c main_v101 : S400000x64.Idx → EReal) (V c main_v102 : S400000x64.Idx → EReal) (V c main_v100 : S400000x64.Idx → EReal) (((cfg10.win 5).blk t).view.emb j) (((cfg10.win 5).blk t).view.emb j) (((cfg10.win 5).blk t).view.emb j)
  rw [embEq10_0 t j, embEq10_1 t j, embEq10_2 t j, embEq10_5 t j]

/-- What point t writes back to output 6 is block t of the gated message of the input arrays. -/
theorem flushed10_6_eq (c : Dev nD) (t : Fin cfg10.N) :
    (dat10 V c).flushed 6 t = ((cfg10.win 6).blk t).view.read (Elt Ideal) (gatedArr10 (V c main_v101 : S400000x64.Idx → EReal) (V c main_v102 : S400000x64.Idx → EReal) (V c main_v100 : S400000x64.Idx → EReal) (V c main_v103 : S400000x64.Idx → EReal)) := by
  show (cfg10.win 6).cut (grid10.coords t) ((dat10 V c).after 6 t) = _
  rw [after10_6]
  unfold out10_6
  rw [View.canon_unit_zero zeroOff10]
  simp only [View.ld_unit_zero (S := S4000x64) zeroOff10]
  rw [pay10_3_eq]
  funext j
  show gatedAt10 (V c main_v101 : S400000x64.Idx → EReal) (V c main_v102 : S400000x64.Idx → EReal) (V c main_v100 : S400000x64.Idx → EReal) (V c main_v103 : S400000x64.Idx → EReal) (((cfg10.win 0).blk t).view.emb j) (((cfg10.win 1).blk t).view.emb j) (((cfg10.win 2).blk t).view.emb j) (((cfg10.win 3).blk t).view.emb j)
    = gatedAt10 (V c main_v101 : S400000x64.Idx → EReal) (V c main_v102 : S400000x64.Idx → EReal) (V c main_v100 : S400000x64.Idx → EReal) (V c main_v103 : S400000x64.Idx → EReal) (((cfg10.win 6).blk t).view.emb j) (((cfg10.win 6).blk t).view.emb j) (((cfg10.win 6).blk t).view.emb j) (((cfg10.win 6).blk t).view.emb j)
  rw [embEq10_0 t j, embEq10_1 t j, embEq10_2 t j, embEq10_3 t j, embEq10_6 t j]

/-- An index of output array 4 is in point t's block iff each coordinate is in the block's range on its axis. -/
theorem memBlk10_4 (t : Fin cfg10.N) (i : S400000x64.Idx) :
    i ∈ ((cfg10.win 4).blk t).view.set ↔ ∀ a : Fin 2, win10_4.index t a * S4000x64.size a ≤ (i a).val ∧ (i a).val < win10_4.index t a * S4000x64.size a + S4000x64.size a := by
  show i ∈ ((View.whole main_v104_0).slice (win10_4.rect t)).set ↔ _
  rw [View.set_slice_whole, Rect.mem_set_unit]
  exact Iff.rfl

/-- Every index of output array 4 is in the block of the point its row falls in: row r is in block r / 4000. -/
theorem covered10_4 (i : S400000x64.Idx) :
    ∃ t : Fin cfg10.N, (cfg10.win 4).flush t = true ∧ i ∈ ((cfg10.win 4).blk t).view.set := by
  have hi0 : (i 0).val < 400000 := (i 0).isLt
  have hi1 : (i 1).val < 64 := (i 1).isLt
  have hN : cfg10.N = 100 := N_10
  have hlt : (i 0).val / 4000 < cfg10.N := by rw [hN]; omega
  obtain ⟨t, ht⟩ : ∃ t : Fin cfg10.N, t.val = (i 0).val / 4000 := ⟨⟨_, hlt⟩, rfl⟩
  obtain ⟨a0, a1, b0, b1, d0, d1, e0, e1, f0, f1, g0, g1, h0, h1⟩ := idxFacts10 t
  refine ⟨t, flush10_4 t, ?_⟩
  rw [memBlk10_4]
  intro a
  match a with
  | ⟨0, _⟩ =>
    show win10_4.index t (0 : Fin 2) * 4000 ≤ (i 0).val ∧ (i 0).val < win10_4.index t (0 : Fin 2) * 4000 + 4000
    omega
  | ⟨1, _⟩ =>
    show win10_4.index t (1 : Fin 2) * 64 ≤ (i 1).val ∧ (i 1).val < win10_4.index t (1 : Fin 2) * 64 + 64
    omega

/-- An index of output array 5 is in point t's block iff each coordinate is in the block's range on its axis. -/
theorem memBlk10_5 (t : Fin cfg10.N) (i : S400000x64.Idx) :
    i ∈ ((cfg10.win 5).blk t).view.set ↔ ∀ a : Fin 2, win10_5.index t a * S4000x64.size a ≤ (i a).val ∧ (i a).val < win10_5.index t a * S4000x64.size a + S4000x64.size a := by
  show i ∈ ((View.whole main_v104_1).slice (win10_5.rect t)).set ↔ _
  rw [View.set_slice_whole, Rect.mem_set_unit]
  exact Iff.rfl

/-- Every index of output array 5 is in the block of the point its row falls in: row r is in block r / 4000. -/
theorem covered10_5 (i : S400000x64.Idx) :
    ∃ t : Fin cfg10.N, (cfg10.win 5).flush t = true ∧ i ∈ ((cfg10.win 5).blk t).view.set := by
  have hi0 : (i 0).val < 400000 := (i 0).isLt
  have hi1 : (i 1).val < 64 := (i 1).isLt
  have hN : cfg10.N = 100 := N_10
  have hlt : (i 0).val / 4000 < cfg10.N := by rw [hN]; omega
  obtain ⟨t, ht⟩ : ∃ t : Fin cfg10.N, t.val = (i 0).val / 4000 := ⟨⟨_, hlt⟩, rfl⟩
  obtain ⟨a0, a1, b0, b1, d0, d1, e0, e1, f0, f1, g0, g1, h0, h1⟩ := idxFacts10 t
  refine ⟨t, flush10_5 t, ?_⟩
  rw [memBlk10_5]
  intro a
  match a with
  | ⟨0, _⟩ =>
    show win10_5.index t (0 : Fin 2) * 4000 ≤ (i 0).val ∧ (i 0).val < win10_5.index t (0 : Fin 2) * 4000 + 4000
    omega
  | ⟨1, _⟩ =>
    show win10_5.index t (1 : Fin 2) * 64 ≤ (i 1).val ∧ (i 1).val < win10_5.index t (1 : Fin 2) * 64 + 64
    omega

/-- An index of output array 6 is in point t's block iff each coordinate is in the block's range on its axis. -/
theorem memBlk10_6 (t : Fin cfg10.N) (i : S400000x64.Idx) :
    i ∈ ((cfg10.win 6).blk t).view.set ↔ ∀ a : Fin 2, win10_6.index t a * S4000x64.size a ≤ (i a).val ∧ (i a).val < win10_6.index t a * S4000x64.size a + S4000x64.size a := by
  show i ∈ ((View.whole main_v104_2).slice (win10_6.rect t)).set ↔ _
  rw [View.set_slice_whole, Rect.mem_set_unit]
  exact Iff.rfl

/-- Every index of output array 6 is in the block of the point its row falls in: row r is in block r / 4000. -/
theorem covered10_6 (i : S400000x64.Idx) :
    ∃ t : Fin cfg10.N, (cfg10.win 6).flush t = true ∧ i ∈ ((cfg10.win 6).blk t).view.set := by
  have hi0 : (i 0).val < 400000 := (i 0).isLt
  have hi1 : (i 1).val < 64 := (i 1).isLt
  have hN : cfg10.N = 100 := N_10
  have hlt : (i 0).val / 4000 < cfg10.N := by rw [hN]; omega
  obtain ⟨t, ht⟩ : ∃ t : Fin cfg10.N, t.val = (i 0).val / 4000 := ⟨⟨_, hlt⟩, rfl⟩
  obtain ⟨a0, a1, b0, b1, d0, d1, e0, e1, f0, f1, g0, g1, h0, h1⟩ := idxFacts10 t
  refine ⟨t, flush10_6 t, ?_⟩
  rw [memBlk10_6]
  intro a
  match a with
  | ⟨0, _⟩ =>
    show win10_6.index t (0 : Fin 2) * 4000 ≤ (i 0).val ∧ (i 0).val < win10_6.index t (0 : Fin 2) * 4000 + 4000
    omega
  | ⟨1, _⟩ =>
    show win10_6.index t (1 : Fin 2) * 64 ≤ (i 1).val ∧ (i 1).val < win10_6.index t (1 : Fin 2) * 64 + 64
    omega

/-- Output array 4 after the last point is the gate's argument of the input arrays. -/
theorem final10_4 (c : Dev nD) : (dat10 V c).arrAt 4 cfg10.N = gateArgArr10 (V c main_v101 : S400000x64.Idx → EReal) (V c main_v102 : S400000x64.Idx → EReal) (V c main_v100 : S400000x64.Idx → EReal) :=
  (dat10 V c).arrAt_eq_of_cover 4 _ (fun t _ => flushed10_4_eq V c t) covered10_4

/-- Output array 5 after the last point is the gate of the input arrays. -/
theorem final10_5 (c : Dev nD) : (dat10 V c).arrAt 5 cfg10.N = gateArr10 (V c main_v101 : S400000x64.Idx → EReal) (V c main_v102 : S400000x64.Idx → EReal) (V c main_v100 : S400000x64.Idx → EReal) :=
  (dat10 V c).arrAt_eq_of_cover 5 _ (fun t _ => flushed10_5_eq V c t) covered10_5

/-- Output array 6 after the last point is the gated message of the input arrays. -/
theorem final10_6 (c : Dev nD) : (dat10 V c).arrAt 6 cfg10.N = gatedArr10 (V c main_v101 : S400000x64.Idx → EReal) (V c main_v102 : S400000x64.Idx → EReal) (V c main_v100 : S400000x64.Idx → EReal) (V c main_v103 : S400000x64.Idx → EReal) :=
  (dat10 V c).arrAt_eq_of_cover 6 _ (fun t _ => flushed10_6_eq V c t) covered10_6

theorem final10_4_apply (c : Dev nD) (r : Fin 400000) (j : Fin 64) :
    ((dat10 (F := Ideal) V c).arrAt 4 cfg10.N : S400000x64.Idx → EReal) (ix2 r j) = Spec.gateArg (V c main_v101 : S400000x64.Idx → EReal) (V c main_v102 : S400000x64.Idx → EReal) (V c main_v100 : S400000x64.Idx → EReal) r j := by
  rw [final10_4]; rfl

theorem final10_5_apply (c : Dev nD) (r : Fin 400000) (j : Fin 64) :
    ((dat10 (F := Ideal) V c).arrAt 5 cfg10.N : S400000x64.Idx → EReal) (ix2 r j) = Spec.gate (V c main_v101 : S400000x64.Idx → EReal) (V c main_v102 : S400000x64.Idx → EReal) (V c main_v100 : S400000x64.Idx → EReal) r j := by
  rw [final10_5]; rfl

theorem final10_6_apply (c : Dev nD) (r : Fin 400000) (j : Fin 64) :
    ((dat10 (F := Ideal) V c).arrAt 6 cfg10.N : S400000x64.Idx → EReal) (ix2 r j) = Spec.gated (V c main_v101 : S400000x64.Idx → EReal) (V c main_v102 : S400000x64.Idx → EReal) (V c main_v100 : S400000x64.Idx → EReal) (V c main_v103 : S400000x64.Idx → EReal) r j := by
  rw [final10_6]; rfl

end Cert.KernelIdeal.Hand

end
-- ==== Proof.KI.Val11.lean ====
import proofs.«431450_j74423193305350_1_alg».proof.Proof.KI.Reg11
import proofs.«431450_j74423193305350_1_alg».proof.Proof.Spec
import Idealize.ShloMosaic.Lib.Pipeline.Value
import Idealize.ShloMosaic.Lib.ValueIdx
import Idealize.ShloMosaic.PureOps.Ideal.Laws

/-! Region 11 (the node update) at the extended reals: its output array after the last grid point, read at an entry, is
    a + num / (den + eps) of the three input arrays at that entry, eps the body's constant word. The body's operations
    are entrywise, every window moves by the same row block of 5000 rows, and the ten blocks tile the 50000 rows. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeroOff11 : (![0, 0] : Fin 2 → Nat) = fun _ => 0 := funext fun a => by fin_cases a <;> rfl

/-- a + num / (den + eps), each array read at its own index. -/
abbrev nodeUpdAt11 (a num den : S50000x64.Idx → EReal) (i0 i1 i2 : S50000x64.Idx) : EReal := a i0 + Ideal.div (num i1) (den i2 + (Ideal.ofBits .f32 0x358637BD#32))

/-- a + num / (den + eps) of three node arrays, entry by entry. -/
abbrev nodeUpdArr11 (a num den : S50000x64.Idx → EReal) : S50000x64.Idx → EReal := fun i => nodeUpdAt11 a num den i i i

/-- The payload is x0 + x1 / (x2 + eps) of its blocks, entry by entry (the body loads den first, then a, then num). -/
theorem pay11_1_eq (x2 x0 x1 : Vec Ideal S5000x64 .f32) :
    k11_pay1 x2 x0 x1 = fun i => x0 i + Ideal.div (x1 i) (x2 i + (Ideal.ofBits .f32 0x358637BD#32)) := by
  unfold k11_pay1
  simp only [shapeCast_self]
  rfl

/-- The printed index maps, decided over the grid: every window's block at point t is row block t, column block 0. -/
theorem idxFacts11 : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = t.val ∧ win11_3.index t (1 : Fin 2) = 0 :=
  (by decide +kernel : ∀ t : Fin grid11.N, _)

/-! Each input window's block at point t sits where the output window's does. -/

theorem embEq11_0 (t : Fin cfg11.N) (j : S5000x64.Idx) :
    ((cfg11.win 0).blk t).view.emb j = ((cfg11.win 3).blk t).view.emb j := by
  obtain ⟨a0, a1, b0, b1, d0, d1, e0, e1⟩ := idxFacts11 t
  funext a; apply Fin.ext
  match a with
  | ⟨0, _⟩ => show win11_0.index t (0 : Fin 2) * 5000 + 1 * (j 0).val = win11_3.index t (0 : Fin 2) * 5000 + 1 * (j 0).val; omega
  | ⟨1, _⟩ => show win11_0.index t (1 : Fin 2) * 64 + 1 * (j 1).val = win11_3.index t (1 : Fin 2) * 64 + 1 * (j 1).val; omega

theorem embEq11_1 (t : Fin cfg11.N) (j : S5000x64.Idx) :
    ((cfg11.win 1).blk t).view.emb j = ((cfg11.win 3).blk t).view.emb j := by
  obtain ⟨a0, a1, b0, b1, d0, d1, e0, e1⟩ := idxFacts11 t
  funext a; apply Fin.ext
  match a with
  | ⟨0, _⟩ => show win11_1.index t (0 : Fin 2) * 5000 + 1 * (j 0).val = win11_3.index t (0 : Fin 2) * 5000 + 1 * (j 0).val; omega
  | ⟨1, _⟩ => show win11_1.index t (1 : Fin 2) * 64 + 1 * (j 1).val = win11_3.index t (1 : Fin 2) * 64 + 1 * (j 1).val; omega

theorem embEq11_2 (t : Fin cfg11.N) (j : S5000x64.Idx) :
    ((cfg11.win 2).blk t).view.emb j = ((cfg11.win 3).blk t).view.emb j := by
  obtain ⟨a0, a1, b0, b1, d0, d1, e0, e1⟩ := idxFacts11 t
  funext a; apply Fin.ext
  match a with
  | ⟨0, _⟩ => show win11_2.index t (0 : Fin 2) * 5000 + 1 * (j 0).val = win11_3.index t (0 : Fin 2) * 5000 + 1 * (j 0).val; omega
  | ⟨1, _⟩ => show win11_2.index t (1 : Fin 2) * 64 + 1 * (j 1).val = win11_3.index t (1 : Fin 2) * 64 + 1 * (j 1).val; omega

/-- What point t writes back is block t of a + num / (den + eps) of the input arrays. -/
theorem flushed11_3_eq (c : Dev nD) (t : Fin cfg11.N) :
    (dat11 V c).flushed 3 t = ((cfg11.win 3).blk t).view.read (Elt Ideal) (nodeUpdArr11 (V c main_v91 : S50000x64.Idx → EReal) (V c main_v107 : S50000x64.Idx → EReal) (V c main_v110 : S50000x64.Idx → EReal)) := by
  show (cfg11.win 3).cut (grid11.coords t) ((dat11 V c).after 3 t) = _
  rw [after11_3]
  unfold out11_3
  rw [View.canon_unit_zero zeroOff11]
  simp only [View.ld_unit_zero (S := S5000x64) zeroOff11]
  rw [pay11_1_eq]
  funext j
  show nodeUpdAt11 (V c main_v91 : S50000x64.Idx → EReal) (V c main_v107 : S50000x64.Idx → EReal) (V c main_v110 : S50000x64.Idx → EReal) (((cfg11.win 0).blk t).view.emb j) (((cfg11.win 1).blk t).view.emb j) (((cfg11.win 2).blk t).view.emb j)
    = nodeUpdAt11 (V c main_v91 : S50000x64.Idx → EReal) (V c main_v107 : S50000x64.Idx → EReal) (V c main_v110 : S50000x64.Idx → EReal) (((cfg11.win 3).blk t).view.emb j) (((cfg11.win 3).blk t).view.emb j) (((cfg11.win 3).blk t).view.emb j)
  rw [embEq11_0 t j, embEq11_1 t j, embEq11_2 t j]

/-- An index of the output array is in point t's block iff each coordinate is in the block's range on its axis. -/
theorem memBlk11_3 (t : Fin cfg11.N) (i : S50000x64.Idx) :
    i ∈ ((cfg11.win 3).blk t).view.set ↔ ∀ a : Fin 2, win11_3.index t a * S5000x64.size a ≤ (i a).val ∧ (i a).val < win11_3.index t a * S5000x64.size a + S5000x64.size a := by
  show i ∈ ((View.whole main_v111).slice (win11_3.rect t)).set ↔ _
  rw [View.set_slice_whole, Rect.mem_set_unit]
  exact Iff.rfl

/-- Every index of the output array is in the block of the point its row falls in: row r is in block r / 5000. -/
theorem covered11_3 (i : S50000x64.Idx) :
    ∃ t : Fin cfg11.N, (cfg11.win 3).flush t = true ∧ i ∈ ((cfg11.win 3).blk t).view.set := by
  have hi0 : (i 0).val < 50000 := (i 0).isLt
  have hi1 : (i 1).val < 64 := (i 1).isLt
  have hN : cfg11.N = 10 := N_11
  have hlt : (i 0).val / 5000 < cfg11.N := by rw [hN]; omega
  obtain ⟨t, ht⟩ : ∃ t : Fin cfg11.N, t.val = (i 0).val / 5000 := ⟨⟨_, hlt⟩, rfl⟩
  obtain ⟨a0, a1, b0, b1, d0, d1, e0, e1⟩ := idxFacts11 t
  refine ⟨t, flush11_3 t, ?_⟩
  rw [memBlk11_3]
  intro a
  match a with
  | ⟨0, _⟩ =>
    show win11_3.index t (0 : Fin 2) * 5000 ≤ (i 0).val ∧ (i 0).val < win11_3.index t (0 : Fin 2) * 5000 + 5000
    omega
  | ⟨1, _⟩ =>
    show win11_3.index t (1 : Fin 2) * 64 ≤ (i 1).val ∧ (i 1).val < win11_3.index t (1 : Fin 2) * 64 + 64
    omega

/-- The output array after the last point is a + num / (den + eps) of the input arrays. -/
theorem final11_3 (c : Dev nD) : (dat11 V c).arrAt 3 cfg11.N = nodeUpdArr11 (V c main_v91 : S50000x64.Idx → EReal) (V c main_v107 : S50000x64.Idx → EReal) (V c main_v110 : S50000x64.Idx → EReal) :=
  (dat11 V c).arrAt_eq_of_cover 3 _ (fun t _ => flushed11_3_eq V c t) covered11_3

theorem final11_3_apply (c : Dev nD) (r : Fin 50000) (j : Fin 64) :
    ((dat11 (F := Ideal) V c).arrAt 3 cfg11.N : S50000x64.Idx → EReal) (ix2 r j) = Spec.nodeUpd (Ideal.ofBits .f32 0x358637BD#32) (V c main_v91 : S50000x64.Idx → EReal) (V c main_v107 : S50000x64.Idx → EReal) (V c main_v110 : S50000x64.Idx → EReal) r j := by
  rw [final11_3]; rfl

end Cert.KernelIdeal.Hand

end
-- ==== Proof.KI.Val12.lean ====
import proofs.«431450_j74423193305350_1_alg».proof.Proof.KI.Reg12
import proofs.«431450_j74423193305350_1_alg».proof.Proof.Spec
import Idealize.ShloMosaic.Lib.Pipeline.Value
import Idealize.ShloMosaic.Lib.ValueIdx
import Idealize.ShloMosaic.PureOps.Ideal.Laws

/-! Region 12 (batch normalisation, rectifier and residual on [50000,64]) at the extended reals: its output array after
    the last grid point, read at an entry, is res + max (((x − mean) · rsqrt (var + eps)) · g + b) 0 at that entry, the
    statistics and the affine pair read in their one row, eps and 0 the body's constant words. The two big windows move by
    the same row block of 5000 rows, the four one-row windows stay at their one block, and the 10 blocks tile the 50000 rows. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeroOff12 : (![0, 0] : Fin 2 → Nat) = fun _ => 0 := funext fun a => by fin_cases a <;> rfl

/-- res + max (((x − mean) · rsqrt (var + eps)) · g + b) 0, each array and each row read at its own index. -/
abbrev bnAt12 (x res : S50000x64.Idx → EReal) (mean var g b : S1x64.Idx → EReal) (i0 i1 : S50000x64.Idx) (k2 k3 k4 k5 : S1x64.Idx) : EReal :=
  res i1 + max ((((x i0 - mean k2) * Ideal.rsqrt (var k3 + (Ideal.ofBits .f32 0x3727C5AC#32))) * g k4) + b k5) (Ideal.ofBits .f32 0x00000000#32)

/-- The normalised residual step of two arrays and four rows, entry by entry. -/
abbrev bnArr12 (x res : S50000x64.Idx → EReal) (mean var g b : S1x64.Idx → EReal) : S50000x64.Idx → EReal := fun i =>
  bnAt12 x res mean var g b i i (ix2 0 (i 1)) (ix2 0 (i 1)) (ix2 0 (i 1)) (ix2 0 (i 1))

/-- A row broadcast down the block's rows, read at (p, q), is the row at (0, q). -/
theorem bcastRow12 (x : FVec Ideal S1x64 .f32) (p : Fin 5000) (q : Fin 64) :
    broadcastTo S5000x64 x broadcasts_S1x64_S5000x64 (ix2 p q) = x (ix2 0 q) :=
  broadcastTo_apply x broadcasts_S1x64_S5000x64 (ix2 p q) (ix2 0 q) (fun a => by
    match a with
    | ⟨0, _⟩ => rfl
    | ⟨1, _⟩ => rfl)

/-- The payload at (p, q): the body loads var first, then x, mean, g, b, res. -/
theorem pay12_apply (v0 : Vec Ideal S1x64 .f32) (v5 : Vec Ideal S5000x64 .f32) (v7 v13 v17 : Vec Ideal S1x64 .f32) (v21 : Vec Ideal S5000x64 .f32)
    (p : Fin 5000) (q : Fin 64) :
    k12_pay1 v0 v5 v7 v13 v17 v21 (ix2 p q)
      = v21 (ix2 p q) + max ((((v5 (ix2 p q) - v7 (ix2 0 q)) * Ideal.rsqrt (v0 (ix2 0 q) + (Ideal.ofBits .f32 0x3727C5AC#32))) * v13 (ix2 0 q)) + v17 (ix2 0 q)) (Ideal.ofBits .f32 0x00000000#32) := by
  unfold k12_pay1
  simp only [shapeCast_self]
  show v21 (ix2 p q) + max ((((v5 (ix2 p q) - broadcastTo S5000x64 v7 broadcasts_S1x64_S5000x64 (ix2 p q))
      * broadcastTo S5000x64 ((rsqrt (addf v0 (broadcast S1x64 (Scalar.ofBits .f32 0x3727C5AC#32))) : FVec Ideal S1x64 .f32)) broadcasts_S1x64_S5000x64 (ix2 p q))
      * broadcastTo S5000x64 v13 broadcasts_S1x64_S5000x64 (ix2 p q)) + broadcastTo S5000x64 v17 broadcasts_S1x64_S5000x64 (ix2 p q)) (Ideal.ofBits .f32 0x00000000#32) = _
  rw [bcastRow12 v7, bcastRow12 v13, bcastRow12 v17, bcastRow12 ((rsqrt (addf v0 (broadcast S1x64 (Scalar.ofBits .f32 0x3727C5AC#32))) : FVec Ideal S1x64 .f32))]
  rfl

/-- The printed index maps, decided over the grid: the two big inputs and the output are at row block t, column block 0; the
    four one-row windows at block (0, 0). -/
theorem idxFacts12 : ∀ t : Fin cfg12.N, win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0
    ∧ win12_6.index t (0 : Fin 2) = t.val ∧ win12_6.index t (1 : Fin 2) = 0 :=
  (by decide +kernel : ∀ t : Fin grid12.N, _)

/-- Row p of block t is a row of the array. -/
theorem rowLt12 (t : Fin cfg12.N) (p : Fin 5000) : t.val * 5000 + p.val < 50000 := by
  have ht : t.val < 10 := Nat.lt_of_lt_of_eq t.isLt N_12
  have hp := p.isLt
  omega

/-! Entry (p, q) of a big window's block at point t is entry (5000 t + p, q) of its array; entry (0, q) of a one-row
    window's block is entry (0, q) of its array. -/

theorem embBig12_0 (t : Fin cfg12.N) (p : Fin 5000) (q : Fin 64) :
    ((cfg12.win 0).blk t).view.emb (ix2 p q : S5000x64.Idx) = (ix2 ⟨t.val * 5000 + p.val, rowLt12 t p⟩ q : S50000x64.Idx) := by
  obtain ⟨a0, a1, b0, b1, d0, d1, e0, e1, f0, f1, g0, g1, h0, h1⟩ := idxFacts12 t
  funext a; apply Fin.ext
  match a with
  | ⟨0, _⟩ => show win12_0.index t (0 : Fin 2) * 5000 + 1 * p.val = t.val * 5000 + p.val; omega
  | ⟨1, _⟩ => show win12_0.index t (1 : Fin 2) * 64 + 1 * q.val = q.val; omega

theorem embBig12_1 (t : Fin cfg12.N) (p : Fin 5000) (q : Fin 64) :
    ((cfg12.win 1).blk t).view.emb (ix2 p q : S5000x64.Idx) = (ix2 ⟨t.val * 5000 + p.val, rowLt12 t p⟩ q : S50000x64.Idx) := by
  obtain ⟨a0, a1, b0, b1, d0, d1, e0, e1, f0, f1, g0, g1, h0, h1⟩ := idxFacts12 t
  funext a; apply Fin.ext
  match a with
  | ⟨0, _⟩ => show win12_1.index t (0 : Fin 2) * 5000 + 1 * p.val = t.val * 5000 + p.val; omega
  | ⟨1, _⟩ => show win12_1.index t (1 : Fin 2) * 64 + 1 * q.val = q.val; omega

theorem embBig12_6 (t : Fin cfg12.N) (p : Fin 5000) (q : Fin 64) :
    ((cfg12.win 6).blk t).view.emb (ix2 p q : S5000x64.Idx) = (ix2 ⟨t.val * 5000 + p.val, rowLt12 t p⟩ q : S50000x64.Idx) := by
  obtain ⟨a0, a1, b0, b1, d0, d1, e0, e1, f0, f1, g0, g1, h0, h1⟩ := idxFacts12 t
  funext a; apply Fin.ext
  match a with
  | ⟨0, _⟩ => show win12_6.index t (0 : Fin 2) * 5000 + 1 * p.val = t.val * 5000 + p.val; omega
  | ⟨1, _⟩ => show win12_6.index t (1 : Fin 2) * 64 + 1 * q.val = q.val; omega

theorem embRow12_2 (t : Fin cfg12.N) (q : Fin 64) :
    ((cfg12.win 2).blk t).view.emb (ix2 0 q : S1x64.Idx) = (ix2 0 q : S1x64.Idx) := by
  obtain ⟨a0, a1, b0, b1, d0, d1, e0, e1, f0, f1, g0, g1, h0, h1⟩ := idxFacts12 t
  funext a; apply Fin.ext
  match a with
  | ⟨0, _⟩ => show win12_2.index t (0 : Fin 2) * 1 + 1 * 0 = 0; omega
  | ⟨1, _⟩ => show win12_2.index t (1 : Fin 2) * 64 + 1 * q.val = q.val; omega

theorem embRow12_3 (t : Fin cfg12.N) (q : Fin 64) :
    ((cfg12.win 3).blk t).view.emb (ix2 0 q : S1x64.Idx) = (ix2 0 q : S1x64.Idx) := by
  obtain ⟨a0, a1, b0, b1, d0, d1, e0, e1, f0, f1, g0, g1, h0, h1⟩ := idxFacts12 t
  funext a; apply Fin.ext
  match a with
  | ⟨0, _⟩ => show win12_3.index t (0 : Fin 2) * 1 + 1 * 0 = 0; omega
  | ⟨1, _⟩ => show win12_3.index t (1 : Fin 2) * 64 + 1 * q.val = q.val; omega

theorem embRow12_4 (t : Fin cfg12.N) (q : Fin 64) :
    ((cfg12.win 4).blk t).view.emb (ix2 0 q : S1x64.Idx) = (ix2 0 q : S1x64.Idx) := by
  obtain ⟨a0, a1, b0, b1, d0, d1, e0, e1, f0, f1, g0, g1, h0, h1⟩ := idxFacts12 t
  funext a; apply Fin.ext
  match a with
  | ⟨0, _⟩ => show win12_4.index t (0 : Fin 2) * 1 + 1 * 0 = 0; omega
  | ⟨1, _⟩ => show win12_4.index t (1 : Fin 2) * 64 + 1 * q.val = q.val; omega

theorem embRow12_5 (t : Fin cfg12.N) (q : Fin 64) :
    ((cfg12.win 5).blk t).view.emb (ix2 0 q : S1x64.Idx) = (ix2 0 q : S1x64.Idx) := by
  obtain ⟨a0, a1, b0, b1, d0, d1, e0, e1, f0, f1, g0, g1, h0, h1⟩ := idxFacts12 t
  funext a; apply Fin.ext
  match a with
  | ⟨0, _⟩ => show win12_5.index t (0 : Fin 2) * 1 + 1 * 0 = 0; omega
  | ⟨1, _⟩ => show win12_5.index t (1 : Fin 2) * 64 + 1 * q.val = q.val; omega

/-- The payload of the input blocks at point t, at (p, q), is the step's value at the array entry that (p, q) of block t is. -/
theorem blkVal12 (c : Dev nD) (t : Fin cfg12.N) (p : Fin 5000) (q : Fin 64) :
    k12_pay1 (iblk12 V c 3 t) (iblk12 V c 0 t) (iblk12 V c 2 t) (iblk12 V c 4 t) (iblk12 V c 5 t) (iblk12 V c 1 t) (ix2 p q)
      = bnArr12 (V c main_v111 : S50000x64.Idx → EReal) (V c main_v57 : S50000x64.Idx → EReal) (V c main_v120 : S1x64.Idx → EReal) (V c main_v121 : S1x64.Idx → EReal) (V c main_v122 : S1x64.Idx → EReal) (V c main_v123 : S1x64.Idx → EReal) (((cfg12.win 6).blk t).view.emb (ix2 p q : S5000x64.Idx)) := by
  refine (pay12_apply _ _ _ _ _ _ p q).trans ?_
  show bnAt12 (V c main_v111 : S50000x64.Idx → EReal) (V c main_v57 : S50000x64.Idx → EReal) (V c main_v120 : S1x64.Idx → EReal) (V c main_v121 : S1x64.Idx → EReal) (V c main_v122 : S1x64.Idx → EReal) (V c main_v123 : S1x64.Idx → EReal) (((cfg12.win 0).blk t).view.emb (ix2 p q : S5000x64.Idx)) (((cfg12.win 1).blk t).view.emb (ix2 p q : S5000x64.Idx)) (((cfg12.win 2).blk t).view.emb (ix2 0 q : S1x64.Idx)) (((cfg12.win 3).blk t).view.emb (ix2 0 q : S1x64.Idx)) (((cfg12.win 4).blk t).view.emb (ix2 0 q : S1x64.Idx)) (((cfg12.win 5).blk t).view.emb (ix2 0 q : S1x64.Idx)) = _
  rw [embBig12_0 t p q, embBig12_1 t p q, embBig12_6 t p q, embRow12_2 t q, embRow12_3 t q, embRow12_4 t q, embRow12_5 t q]

/-- What point t writes back is block t of the step's array. -/
theorem flushed12_6_eq (c : Dev nD) (t : Fin cfg12.N) :
    (dat12 V c).flushed 6 t = ((cfg12.win 6).blk t).view.read (Elt Ideal) (bnArr12 (V c main_v111 : S50000x64.Idx → EReal) (V c main_v57 : S50000x64.Idx → EReal) (V c main_v120 : S1x64.Idx → EReal) (V c main_v121 : S1x64.Idx → EReal) (V c main_v122 : S1x64.Idx → EReal) (V c main_v123 : S1x64.Idx → EReal)) := by
  show (cfg12.win 6).cut (grid12.coords t) ((dat12 V c).after 6 t) = _
  rw [after12_6]
  unfold out12_6
  rw [View.canon_unit_zero zeroOff12]
  simp only [View.ld_unit_zero (S := S5000x64) zeroOff12, View.ld_unit_zero (S := S1x64) zeroOff12]
  funext y
  obtain ⟨p, q, rfl⟩ : ∃ (p : Fin 5000) (q : Fin 64), y = (ix2 p q : S5000x64.Idx) := ⟨y 0, y 1, eq_ix2 y⟩
  exact blkVal12 V c t p q

/-- An index of the output array is in point t's block iff each coordinate is in the block's range on its axis. -/
theorem memBlk12_6 (t : Fin cfg12.N) (i : S50000x64.Idx) :
    i ∈ ((cfg12.win 6).blk t).view.set ↔ ∀ a : Fin 2, win12_6.index t a * S5000x64.size a ≤ (i a).val ∧ (i a).val < win12_6.index t a * S5000x64.size a + S5000x64.size a := by
  show i ∈ ((View.whole main_v124).slice (win12_6.rect t)).set ↔ _
  rw [View.set_slice_whole, Rect.mem_set_unit]
  exact Iff.rfl

/-- Every index of the output array is in the block of the point its row falls in: row r is in block r / 5000. -/
theorem covered12_6 (i : S50000x64.Idx) :
    ∃ t : Fin cfg12.N, (cfg12.win 6).flush t = true ∧ i ∈ ((cfg12.win 6).blk t).view.set := by
  have hi0 : (i 0).val < 50000 := (i 0).isLt
  have hi1 : (i 1).val < 64 := (i 1).isLt
  have hN : cfg12.N = 10 := N_12
  have hlt : (i 0).val / 5000 < cfg12.N := by rw [hN]; omega
  obtain ⟨t, ht⟩ : ∃ t : Fin cfg12.N, t.val = (i 0).val / 5000 := ⟨⟨_, hlt⟩, rfl⟩
  obtain ⟨a0, a1, b0, b1, d0, d1, e0, e1, f0, f1, g0, g1, h0, h1⟩ := idxFacts12 t
  refine ⟨t, flush12_6 t, ?_⟩
  rw [memBlk12_6]
  intro a
  match a with
  | ⟨0, _⟩ =>
    show win12_6.index t (0 : Fin 2) * 5000 ≤ (i 0).val ∧ (i 0).val < win12_6.index t (0 : Fin 2) * 5000 + 5000
    omega
  | ⟨1, _⟩ =>
    show win12_6.index t (1 : Fin 2) * 64 ≤ (i 1).val ∧ (i 1).val < win12_6.index t (1 : Fin 2) * 64 + 64
    omega

/-- The output array after the last point is the step's array. -/
theorem final12_6 (c : Dev nD) : (dat12 V c).arrAt 6 cfg12.N = bnArr12 (V c main_v111 : S50000x64.Idx → EReal) (V c main_v57 : S50000x64.Idx → EReal) (V c main_v120 : S1x64.Idx → EReal) (V c main_v121 : S1x64.Idx → EReal) (V c main_v122 : S1x64.Idx → EReal) (V c main_v123 : S1x64.Idx → EReal) :=
  (dat12 V c).arrAt_eq_of_cover 6 _ (fun t _ => flushed12_6_eq V c t) covered12_6

theorem final12_6_apply (c : Dev nD) (r : Fin 50000) (j : Fin 64) :
    ((dat12 (F := Ideal) V c).arrAt 6 cfg12.N : S50000x64.Idx → EReal) (ix2 r j)
      = Spec.bnRelu (Ideal.ofBits .f32 0x3727C5AC#32) (Ideal.ofBits .f32 0x00000000#32) (V c main_v111 : S50000x64.Idx → EReal) (V c main_v57 : S50000x64.Idx → EReal) (V c main_v120 : S1x64.Idx → EReal) (V c main_v121 : S1x64.Idx → EReal) (V c main_v122 : S1x64.Idx → EReal) (V c main_v123 : S1x64.Idx → EReal) r j := by
  rw [final12_6]; rfl

end Cert.KernelIdeal.Hand

end
-- ==== Proof.KI.Val13.lean ====
import proofs.«431450_j74423193305350_1_alg».proof.Proof.KI.Reg13
import proofs.«431450_j74423193305350_1_alg».proof.Proof.Spec
import Idealize.ShloMosaic.Lib.Pipeline.Value
import Idealize.ShloMosaic.Lib.ValueIdx
import Idealize.ShloMosaic.PureOps.Ideal.Laws

/-! Region 13 (batch normalisation, rectifier and residual on [400000,64]) at the extended reals: its output array after
    the last grid point, read at an entry, is res + max (((x − mean) · rsqrt (var + eps)) · g + b) 0 at that entry, the
    statistics and the affine pair read in their one row, eps and 0 the body's constant words. The two big windows move by
    the same row block of 4000 rows, the four one-row windows stay at their one block, and the 100 blocks tile the 400000 rows. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeroOff13 : (![0, 0] : Fin 2 → Nat) = fun _ => 0 := funext fun a => by fin_cases a <;> rfl

/-- res + max (((x − mean) · rsqrt (var + eps)) · g + b) 0, each array and each row read at its own index. -/
abbrev bnAt13 (x res : S400000x64.Idx → EReal) (mean var g b : S1x64.Idx → EReal) (i0 i1 : S400000x64.Idx) (k2 k3 k4 k5 : S1x64.Idx) : EReal :=
  res i1 + max ((((x i0 - mean k2) * Ideal.rsqrt (var k3 + (Ideal.ofBits .f32 0x3727C5AC#32))) * g k4) + b k5) (Ideal.ofBits .f32 0x00000000#32)

/-- The normalised residual step of two arrays and four rows, entry by entry. -/
abbrev bnArr13 (x res : S400000x64.Idx → EReal) (mean var g b : S1x64.Idx → EReal) : S400000x64.Idx → EReal := fun i =>
  bnAt13 x res mean var g b i i (ix2 0 (i 1)) (ix2 0 (i 1)) (ix2 0 (i 1)) (ix2 0 (i 1))

/-- A row broadcast down the block's rows, read at (p, q), is the row at (0, q). -/
theorem bcastRow13 (x : FVec Ideal S1x64 .f32) (p : Fin 4000) (q : Fin 64) :
    broadcastTo S4000x64 x broadcasts_S1x64_S4000x64 (ix2 p q) = x (ix2 0 q) :=
  broadcastTo_apply x broadcasts_S1x64_S4000x64 (ix2 p q) (ix2 0 q) (fun a => by
    match a with
    | ⟨0, _⟩ => rfl
    | ⟨1, _⟩ => rfl)

/-- The payload at (p, q): the body loads var first, then x, mean, g, b, res. -/
theorem pay13_apply (v0 : Vec Ideal S1x64 .f32) (v5 : Vec Ideal S4000x64 .f32) (v7 v13 v17 : Vec Ideal S1x64 .f32) (v21 : Vec Ideal S4000x64 .f32)
    (p : Fin 4000) (q : Fin 64) :
    k13_pay1 v0 v5 v7 v13 v17 v21 (ix2 p q)
      = v21 (ix2 p q) + max ((((v5 (ix2 p q) - v7 (ix2 0 q)) * Ideal.rsqrt (v0 (ix2 0 q) + (Ideal.ofBits .f32 0x3727C5AC#32))) * v13 (ix2 0 q)) + v17 (ix2 0 q)) (Ideal.ofBits .f32 0x00000000#32) := by
  unfold k13_pay1
  simp only [shapeCast_self]
  show v21 (ix2 p q) + max ((((v5 (ix2 p q) - broadcastTo S4000x64 v7 broadcasts_S1x64_S4000x64 (ix2 p q))
      * broadcastTo S4000x64 ((rsqrt (addf v0 (broadcast S1x64 (Scalar.ofBits .f32 0x3727C5AC#32))) : FVec Ideal S1x64 .f32)) broadcasts_S1x64_S4000x64 (ix2 p q))
      * broadcastTo S4000x64 v13 broadcasts_S1x64_S4000x64 (ix2 p q)) + broadcastTo S4000x64 v17 broadcasts_S1x64_S4000x64 (ix2 p q)) (Ideal.ofBits .f32 0x00000000#32) = _
  rw [bcastRow13 v7, bcastRow13 v13, bcastRow13 v17, bcastRow13 ((rsqrt (addf v0 (broadcast S1x64 (Scalar.ofBits .f32 0x3727C5AC#32))) : FVec Ideal S1x64 .f32))]
  rfl

/-- The printed index maps, decided over the grid: the two big inputs and the output are at row block t, column block 0; the
    four one-row windows at block (0, 0). -/
theorem idxFacts13 : ∀ t : Fin cfg13.N, win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = t.val ∧ win13_6.index t (1 : Fin 2) = 0 :=
  (by decide +kernel : ∀ t : Fin grid13.N, _)

/-- Row p of block t is a row of the array. -/
theorem rowLt13 (t : Fin cfg13.N) (p : Fin 4000) : t.val * 4000 + p.val < 400000 := by
  have ht : t.val < 100 := Nat.lt_of_lt_of_eq t.isLt N_13
  have hp := p.isLt
  omega

/-! Entry (p, q) of a big window's block at point t is entry (4000 t + p, q) of its array; entry (0, q) of a one-row
    window's block is entry (0, q) of its array. -/

theorem embBig13_0 (t : Fin cfg13.N) (p : Fin 4000) (q : Fin 64) :
    ((cfg13.win 0).blk t).view.emb (ix2 p q : S4000x64.Idx) = (ix2 ⟨t.val * 4000 + p.val, rowLt13 t p⟩ q : S400000x64.Idx) := by
  obtain ⟨a0, a1, b0, b1, d0, d1, e0, e1, f0, f1, g0, g1, h0, h1⟩ := idxFacts13 t
  funext a; apply Fin.ext
  match a with
  | ⟨0, _⟩ => show win13_0.index t (0 : Fin 2) * 4000 + 1 * p.val = t.val * 4000 + p.val; omega
  | ⟨1, _⟩ => show win13_0.index t (1 : Fin 2) * 64 + 1 * q.val = q.val; omega

theorem embBig13_1 (t : Fin cfg13.N) (p : Fin 4000) (q : Fin 64) :
    ((cfg13.win 1).blk t).view.emb (ix2 p q : S4000x64.Idx) = (ix2 ⟨t.val * 4000 + p.val, rowLt13 t p⟩ q : S400000x64.Idx) := by
  obtain ⟨a0, a1, b0, b1, d0, d1, e0, e1, f0, f1, g0, g1, h0, h1⟩ := idxFacts13 t
  funext a; apply Fin.ext
  match a with
  | ⟨0, _⟩ => show win13_1.index t (0 : Fin 2) * 4000 + 1 * p.val = t.val * 4000 + p.val; omega
  | ⟨1, _⟩ => show win13_1.index t (1 : Fin 2) * 64 + 1 * q.val = q.val; omega

theorem embBig13_6 (t : Fin cfg13.N) (p : Fin 4000) (q : Fin 64) :
    ((cfg13.win 6).blk t).view.emb (ix2 p q : S4000x64.Idx) = (ix2 ⟨t.val * 4000 + p.val, rowLt13 t p⟩ q : S400000x64.Idx) := by
  obtain ⟨a0, a1, b0, b1, d0, d1, e0, e1, f0, f1, g0, g1, h0, h1⟩ := idxFacts13 t
  funext a; apply Fin.ext
  match a with
  | ⟨0, _⟩ => show win13_6.index t (0 : Fin 2) * 4000 + 1 * p.val = t.val * 4000 + p.val; omega
  | ⟨1, _⟩ => show win13_6.index t (1 : Fin 2) * 64 + 1 * q.val = q.val; omega

theorem embRow13_2 (t : Fin cfg13.N) (q : Fin 64) :
    ((cfg13.win 2).blk t).view.emb (ix2 0 q : S1x64.Idx) = (ix2 0 q : S1x64.Idx) := by
  obtain ⟨a0, a1, b0, b1, d0, d1, e0, e1, f0, f1, g0, g1, h0, h1⟩ := idxFacts13 t
  funext a; apply Fin.ext
  match a with
  | ⟨0, _⟩ => show win13_2.index t (0 : Fin 2) * 1 + 1 * 0 = 0; omega
  | ⟨1, _⟩ => show win13_2.index t (1 : Fin 2) * 64 + 1 * q.val = q.val; omega

theorem embRow13_3 (t : Fin cfg13.N) (q : Fin 64) :
    ((cfg13.win 3).blk t).view.emb (ix2 0 q : S1x64.Idx) = (ix2 0 q : S1x64.Idx) := by
  obtain ⟨a0, a1, b0, b1, d0, d1, e0, e1, f0, f1, g0, g1, h0, h1⟩ := idxFacts13 t
  funext a; apply Fin.ext
  match a with
  | ⟨0, _⟩ => show win13_3.index t (0 : Fin 2) * 1 + 1 * 0 = 0; omega
  | ⟨1, _⟩ => show win13_3.index t (1 : Fin 2) * 64 + 1 * q.val = q.val; omega

theorem embRow13_4 (t : Fin cfg13.N) (q : Fin 64) :
    ((cfg13.win 4).blk t).view.emb (ix2 0 q : S1x64.Idx) = (ix2 0 q : S1x64.Idx) := by
  obtain ⟨a0, a1, b0, b1, d0, d1, e0, e1, f0, f1, g0, g1, h0, h1⟩ := idxFacts13 t
  funext a; apply Fin.ext
  match a with
  | ⟨0, _⟩ => show win13_4.index t (0 : Fin 2) * 1 + 1 * 0 = 0; omega
  | ⟨1, _⟩ => show win13_4.index t (1 : Fin 2) * 64 + 1 * q.val = q.val; omega

theorem embRow13_5 (t : Fin cfg13.N) (q : Fin 64) :
    ((cfg13.win 5).blk t).view.emb (ix2 0 q : S1x64.Idx) = (ix2 0 q : S1x64.Idx) := by
  obtain ⟨a0, a1, b0, b1, d0, d1, e0, e1, f0, f1, g0, g1, h0, h1⟩ := idxFacts13 t
  funext a; apply Fin.ext
  match a with
  | ⟨0, _⟩ => show win13_5.index t (0 : Fin 2) * 1 + 1 * 0 = 0; omega
  | ⟨1, _⟩ => show win13_5.index t (1 : Fin 2) * 64 + 1 * q.val = q.val; omega

/-- The payload of the input blocks at point t, at (p, q), is the step's value at the array entry that (p, q) of block t is. -/
theorem blkVal13 (c : Dev nD) (t : Fin cfg13.N) (p : Fin 4000) (q : Fin 64) :
    k13_pay1 (iblk13 V c 3 t) (iblk13 V c 0 t) (iblk13 V c 2 t) (iblk13 V c 4 t) (iblk13 V c 5 t) (iblk13 V c 1 t) (ix2 p q)
      = bnArr13 (V c main_v104_0 : S400000x64.Idx → EReal) (V c main_v70 : S400000x64.Idx → EReal) (V c main_v133 : S1x64.Idx → EReal) (V c main_v134 : S1x64.Idx → EReal) (V c main_v135 : S1x64.Idx → EReal) (V c main_v136 : S1x64.Idx → EReal) (((cfg13.win 6).blk t).view.emb (ix2 p q : S4000x64.Idx)) := by
  refine (pay13_apply _ _ _ _ _ _ p q).trans ?_
  show bnAt13 (V c main_v104_0 : S400000x64.Idx → EReal) (V c main_v70 : S400000x64.Idx → EReal) (V c main_v133 : S1x64.Idx → EReal) (V c main_v134 : S1x64.Idx → EReal) (V c main_v135 : S1x64.Idx → EReal) (V c main_v136 : S1x64.Idx → EReal) (((cfg13.win 0).blk t).view.emb (ix2 p q : S4000x64.Idx)) (((cfg13.win 1).blk t).view.emb (ix2 p q : S4000x64.Idx)) (((cfg13.win 2).blk t).view.emb (ix2 0 q : S1x64.Idx)) (((cfg13.win 3).blk t).view.emb (ix2 0 q : S1x64.Idx)) (((cfg13.win 4).blk t).view.emb (ix2 0 q : S1x64.Idx)) (((cfg13.win 5).blk t).view.emb (ix2 0 q : S1x64.Idx)) = _
  rw [embBig13_0 t p q, embBig13_1 t p q, embBig13_6 t p q, embRow13_2 t q, embRow13_3 t q, embRow13_4 t q, embRow13_5 t q]

/-- What point t writes back is block t of the step's array. -/
theorem flushed13_6_eq (c : Dev nD) (t : Fin cfg13.N) :
    (dat13 V c).flushed 6 t = ((cfg13.win 6).blk t).view.read (Elt Ideal) (bnArr13 (V c main_v104_0 : S400000x64.Idx → EReal) (V c main_v70 : S400000x64.Idx → EReal) (V c main_v133 : S1x64.Idx → EReal) (V c main_v134 : S1x64.Idx → EReal) (V c main_v135 : S1x64.Idx → EReal) (V c main_v136 : S1x64.Idx → EReal)) := by
  show (cfg13.win 6).cut (grid13.coords t) ((dat13 V c).after 6 t) = _
  rw [after13_6]
  unfold out13_6
  rw [View.canon_unit_zero zeroOff13]
  simp only [View.ld_unit_zero (S := S4000x64) zeroOff13, View.ld_unit_zero (S := S1x64) zeroOff13]
  funext y
  obtain ⟨p, q, rfl⟩ : ∃ (p : Fin 4000) (q : Fin 64), y = (ix2 p q : S4000x64.Idx) := ⟨y 0, y 1, eq_ix2 y⟩
  exact blkVal13 V c t p q

/-- An index of the output array is in point t's block iff each coordinate is in the block's range on its axis. -/
theorem memBlk13_6 (t : Fin cfg13.N) (i : S400000x64.Idx) :
    i ∈ ((cfg13.win 6).blk t).view.set ↔ ∀ a : Fin 2, win13_6.index t a * S4000x64.size a ≤ (i a).val ∧ (i a).val < win13_6.index t a * S4000x64.size a + S4000x64.size a := by
  show i ∈ ((View.whole main_v137).slice (win13_6.rect t)).set ↔ _
  rw [View.set_slice_whole, Rect.mem_set_unit]
  exact Iff.rfl

/-- Every index of the output array is in the block of the point its row falls in: row r is in block r / 4000. -/
theorem covered13_6 (i : S400000x64.Idx) :
    ∃ t : Fin cfg13.N, (cfg13.win 6).flush t = true ∧ i ∈ ((cfg13.win 6).blk t).view.set := by
  have hi0 : (i 0).val < 400000 := (i 0).isLt
  have hi1 : (i 1).val < 64 := (i 1).isLt
  have hN : cfg13.N = 100 := N_13
  have hlt : (i 0).val / 4000 < cfg13.N := by rw [hN]; omega
  obtain ⟨t, ht⟩ : ∃ t : Fin cfg13.N, t.val = (i 0).val / 4000 := ⟨⟨_, hlt⟩, rfl⟩
  obtain ⟨a0, a1, b0, b1, d0, d1, e0, e1, f0, f1, g0, g1, h0, h1⟩ := idxFacts13 t
  refine ⟨t, flush13_6 t, ?_⟩
  rw [memBlk13_6]
  intro a
  match a with
  | ⟨0, _⟩ =>
    show win13_6.index t (0 : Fin 2) * 4000 ≤ (i 0).val ∧ (i 0).val < win13_6.index t (0 : Fin 2) * 4000 + 4000
    omega
  | ⟨1, _⟩ =>
    show win13_6.index t (1 : Fin 2) * 64 ≤ (i 1).val ∧ (i 1).val < win13_6.index t (1 : Fin 2) * 64 + 64
    omega

/-- The output array after the last point is the step's array. -/
theorem final13_6 (c : Dev nD) : (dat13 V c).arrAt 6 cfg13.N = bnArr13 (V c main_v104_0 : S400000x64.Idx → EReal) (V c main_v70 : S400000x64.Idx → EReal) (V c main_v133 : S1x64.Idx → EReal) (V c main_v134 : S1x64.Idx → EReal) (V c main_v135 : S1x64.Idx → EReal) (V c main_v136 : S1x64.Idx → EReal) :=
  (dat13 V c).arrAt_eq_of_cover 6 _ (fun t _ => flushed13_6_eq V c t) covered13_6

theorem final13_6_apply (c : Dev nD) (r : Fin 400000) (j : Fin 64) :
    ((dat13 (F := Ideal) V c).arrAt 6 cfg13.N : S400000x64.Idx → EReal) (ix2 r j)
      = Spec.bnRelu (Ideal.ofBits .f32 0x3727C5AC#32) (Ideal.ofBits .f32 0x00000000#32) (V c main_v104_0 : S400000x64.Idx → EReal) (V c main_v70 : S400000x64.Idx → EReal) (V c main_v133 : S1x64.Idx → EReal) (V c main_v134 : S1x64.Idx → EReal) (V c main_v135 : S1x64.Idx → EReal) (V c main_v136 : S1x64.Idx → EReal) r j := by
  rw [final13_6]; rfl

end Cert.KernelIdeal.Hand

end
-- ==== Proof.Sim.Elem2.lean ====
import proofs.«431450_j74423193305350_1_alg».proof.Proof.KI.Seg10
import proofs.«431450_j74423193305350_1_alg».proof.Proof.KI.Seg11
import proofs.«431450_j74423193305350_1_alg».proof.Proof.KI.Seg12
import proofs.«431450_j74423193305350_1_alg».proof.Proof.KI.Seg13
import proofs.«431450_j74423193305350_1_alg».proof.Proof.KI.Val10
import proofs.«431450_j74423193305350_1_alg».proof.Proof.KI.Val11
import proofs.«431450_j74423193305350_1_alg».proof.Proof.KI.Val12
import proofs.«431450_j74423193305350_1_alg».proof.Proof.KI.Val13
import proofs.«431450_j74423193305350_1_alg».proof.Proof.Ref.RdL2
import proofs.«431450_j74423193305350_1_alg».proof.Proof.Ref.Form2
import proofs.«431450_j74423193305350_1_alg».proof.Proof.Spec

/-! Layer 2's entrywise steps, kernel against reference: the edge gate (its argument, the gate, the gated message), the
    node update, and the two normalised residual steps. Each side's array is read at an entry as the layer formula of
    the arrays it is computed from; equal inputs then give equal outputs. -/
set_option maxRecDepth 16384

noncomputable section

namespace Cert.Sim

open Cert.KernelIdeal.Hand Cert.ReferenceIdeal.Hand
open Idealize.ShloMosaic Idealize.ShloMosaic.ValueIdx Idealize.ShloMosaic.StableHlo
open Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-! ## The formulas respect equality of their arrays -/

/-- The normalised residual step of equal arrays, the statistics and the affine pair equal row entry by row entry. -/
theorem bnRelu_congr2 {n k : Nat} (eps zero : EReal) {x x' res res' : Spec.Mat n k} {mean mean' var var' g g' b b' : Spec.Mat 1 k}
    (hx : x = x') (hres : res = res') (hmean : ∀ j : Fin k, mean (ix2 0 j) = mean' (ix2 0 j))
    (hvar : ∀ j : Fin k, var (ix2 0 j) = var' (ix2 0 j)) (hg : ∀ j : Fin k, g (ix2 0 j) = g' (ix2 0 j))
    (hb : ∀ j : Fin k, b (ix2 0 j) = b' (ix2 0 j)) (r : Fin n) (j : Fin k) :
    Spec.bnRelu eps zero x res mean var g b r j = Spec.bnRelu eps zero x' res' mean' var' g' b' r j := by
  unfold Spec.bnRelu
  rw [hx, hres, hmean j, hvar j, hg j, hb j]

/-! ## The kernel's arrays at an entry -/

theorem k_gateArg2 (r : Fin 400000) (j : Fin 64) :
    (T30 m c Cert.KernelIdeal.main_v104_0 : Spec.Mat 400000 64) (ix2 r j)
      = Spec.gateArg (T29 m c Cert.KernelIdeal.main_v101 : Spec.Mat 400000 64) (T29 m c Cert.KernelIdeal.main_v102 : Spec.Mat 400000 64) (T29 m c Cert.KernelIdeal.main_v100 : Spec.Mat 400000 64) r j :=
  (congrFun ((hF10 m c 4).symm : (T30 m c Cert.KernelIdeal.main_v104_0 : Spec.Mat 400000 64) = _) (ix2 r j)).trans (final10_4_apply (T29 m) c r j)

theorem k_gate2 (r : Fin 400000) (j : Fin 64) :
    (T30 m c Cert.KernelIdeal.main_v104_1 : Spec.Mat 400000 64) (ix2 r j)
      = Spec.gate (T29 m c Cert.KernelIdeal.main_v101 : Spec.Mat 400000 64) (T29 m c Cert.KernelIdeal.main_v102 : Spec.Mat 400000 64) (T29 m c Cert.KernelIdeal.main_v100 : Spec.Mat 400000 64) r j :=
  (congrFun ((hF10 m c 5).symm : (T30 m c Cert.KernelIdeal.main_v104_1 : Spec.Mat 400000 64) = _) (ix2 r j)).trans (final10_5_apply (T29 m) c r j)

theorem k_gated2 (r : Fin 400000) (j : Fin 64) :
    (T30 m c Cert.KernelIdeal.main_v104_2 : Spec.Mat 400000 64) (ix2 r j)
      = Spec.gated (T29 m c Cert.KernelIdeal.main_v101 : Spec.Mat 400000 64) (T29 m c Cert.KernelIdeal.main_v102 : Spec.Mat 400000 64) (T29 m c Cert.KernelIdeal.main_v100 : Spec.Mat 400000 64) (T29 m c Cert.KernelIdeal.main_v103 : Spec.Mat 400000 64) r j :=
  (congrFun ((hF10 m c 6).symm : (T30 m c Cert.KernelIdeal.main_v104_2 : Spec.Mat 400000 64) = _) (ix2 r j)).trans (final10_6_apply (T29 m) c r j)

theorem k_node2 (r : Fin 50000) (j : Fin 64) :
    (T32 m c Cert.KernelIdeal.main_v111 : Spec.Mat 50000 64) (ix2 r j)
      = Spec.nodeUpd (Ideal.ofBits .f32 0x358637BD#32) (T31 m c Cert.KernelIdeal.main_v91 : Spec.Mat 50000 64) (T31 m c Cert.KernelIdeal.main_v107 : Spec.Mat 50000 64) (T31 m c Cert.KernelIdeal.main_v110 : Spec.Mat 50000 64) r j :=
  (congrFun ((hF11 m c 3).symm : (T32 m c Cert.KernelIdeal.main_v111 : Spec.Mat 50000 64) = _) (ix2 r j)).trans (final11_3_apply (T31 m) c r j)

theorem k_bnh2 (r : Fin 50000) (j : Fin 64) :
    (T36 m c Cert.KernelIdeal.main_v124 : Spec.Mat 50000 64) (ix2 r j)
      = Spec.bnRelu (Ideal.ofBits .f32 0x3727C5AC#32) (Ideal.ofBits .f32 0x00000000#32) (T35 m c Cert.KernelIdeal.main_v111 : Spec.Mat 50000 64) (T35 m c Cert.KernelIdeal.main_v57 : Spec.Mat 50000 64)
          (T35 m c Cert.KernelIdeal.main_v120 : Spec.Mat 1 64) (T35 m c Cert.KernelIdeal.main_v121 : Spec.Mat 1 64) (T35 m c Cert.KernelIdeal.main_v122 : Spec.Mat 1 64) (T35 m c Cert.KernelIdeal.main_v123 : Spec.Mat 1 64) r j :=
  (congrFun ((hF12 m c 6).symm : (T36 m c Cert.KernelIdeal.main_v124 : Spec.Mat 50000 64) = _) (ix2 r j)).trans (final12_6_apply (T35 m) c r j)

theorem k_bne2 (r : Fin 400000) (j : Fin 64) :
    (T40 m c Cert.KernelIdeal.main_v137 : Spec.Mat 400000 64) (ix2 r j)
      = Spec.bnRelu (Ideal.ofBits .f32 0x3727C5AC#32) (Ideal.ofBits .f32 0x00000000#32) (T39 m c Cert.KernelIdeal.main_v104_0 : Spec.Mat 400000 64) (T39 m c Cert.KernelIdeal.main_v70 : Spec.Mat 400000 64)
          (T39 m c Cert.KernelIdeal.main_v133 : Spec.Mat 1 64) (T39 m c Cert.KernelIdeal.main_v134 : Spec.Mat 1 64) (T39 m c Cert.KernelIdeal.main_v135 : Spec.Mat 1 64) (T39 m c Cert.KernelIdeal.main_v136 : Spec.Mat 1 64) r j :=
  (congrFun ((hF13 m c 6).symm : (T40 m c Cert.KernelIdeal.main_v137 : Spec.Mat 400000 64) = _) (ix2 r j)).trans (final13_6_apply (T39 m) c r j)

/-! ## The reference's arrays at an entry -/

theorem r_gateArg2 (r : Fin 400000) (j : Fin 64) :
    (RW3 m' c (Proc.devRef .tc Cert.ReferenceIdeal.main_v195) : Spec.Mat 400000 64) (ix2 r j)
      = Spec.gateArg (RW3 m' c (Proc.devRef .tc Cert.ReferenceIdeal.main_v186) : Spec.Mat 400000 64) (RW3 m' c (Proc.devRef .tc Cert.ReferenceIdeal.main_v193) : Spec.Mat 400000 64) (RW3 m' c (Proc.devRef .tc Cert.ReferenceIdeal.main_v179) : Spec.Mat 400000 64) r j := by
  unfold RW3
  rw [rd_main_v195, rd_main_v194]
  exact gateArg_apply _ _ _ r j

theorem r_gate2 (r : Fin 400000) (j : Fin 64) :
    (RW3 m' c (Proc.devRef .tc Cert.ReferenceIdeal.main_v201) : Spec.Mat 400000 64) (ix2 r j)
      = Spec.gate (RW3 m' c (Proc.devRef .tc Cert.ReferenceIdeal.main_v186) : Spec.Mat 400000 64) (RW3 m' c (Proc.devRef .tc Cert.ReferenceIdeal.main_v193) : Spec.Mat 400000 64) (RW3 m' c (Proc.devRef .tc Cert.ReferenceIdeal.main_v179) : Spec.Mat 400000 64) r j := by
  unfold RW3
  rw [rd_main_v201, rd_main_v199, rd_main_v197, rd_main_v196, rd_main_v195, rd_main_v194, rd_main_v198, rd_main_cst_22, rd_main_v200, rd_main_cst_23]
  exact gate_apply _ _ _ r j

theorem r_gated2 (r : Fin 400000) (j : Fin 64) :
    (RW3 m' c (Proc.devRef .tc Cert.ReferenceIdeal.main_v209) : Spec.Mat 400000 64) (ix2 r j)
      = Spec.gated (RW3 m' c (Proc.devRef .tc Cert.ReferenceIdeal.main_v186) : Spec.Mat 400000 64) (RW3 m' c (Proc.devRef .tc Cert.ReferenceIdeal.main_v193) : Spec.Mat 400000 64) (RW3 m' c (Proc.devRef .tc Cert.ReferenceIdeal.main_v179) : Spec.Mat 400000 64) (RW3 m' c (Proc.devRef .tc Cert.ReferenceIdeal.main_v208) : Spec.Mat 400000 64) r j := by
  unfold RW3
  rw [rd_main_v209, rd_main_v201, rd_main_v199, rd_main_v197, rd_main_v196, rd_main_v195, rd_main_v194, rd_main_v198, rd_main_cst_22, rd_main_v200, rd_main_cst_23]
  exact gated_apply _ _ _ _ r j

theorem r_node2 (r : Fin 50000) (j : Fin 64) :
    (RW3 m' c (Proc.devRef .tc Cert.ReferenceIdeal.main_v219) : Spec.Mat 50000 64) (ix2 r j)
      = Spec.nodeUpd (Ideal.ofBits .f32 0x358637BD#32) (RW3 m' c (Proc.devRef .tc Cert.ReferenceIdeal.main_v147) : Spec.Mat 50000 64) (RW3 m' c (Proc.devRef .tc Cert.ReferenceIdeal.main_v212) : Spec.Mat 50000 64) (RW3 m' c (Proc.devRef .tc Cert.ReferenceIdeal.main_v215) : Spec.Mat 50000 64) r j := by
  unfold RW3
  rw [rd_main_v219, rd_main_v218, rd_main_v217, rd_main_v216, rd_main_cst_28]
  exact nodeUpd_apply _ _ _ _ r j

theorem r_bnh2 (r : Fin 50000) (j : Fin 64) :
    (RW3 m' c (Proc.devRef .tc Cert.ReferenceIdeal.main_v244) : Spec.Mat 50000 64) (ix2 r j)
      = Spec.bnRelu (Ideal.ofBits .f32 0x3727C5AC#32) (Ideal.ofBits .f32 0x00000000#32) (RW3 m' c (Proc.devRef .tc Cert.ReferenceIdeal.main_v219) : Spec.Mat 50000 64) (RW2 m' c (Proc.devRef .tc Cert.ReferenceIdeal.main_v114) : Spec.Mat 50000 64)
          (fun i => (RW3 m' c (Proc.devRef .tc Cert.ReferenceIdeal.main_v226) : (⟨1, ![64]⟩ : Shape).Idx → EReal) (ix1 (i 1))) (fun i => (RW3 m' c (Proc.devRef .tc Cert.ReferenceIdeal.main_v227) : (⟨1, ![64]⟩ : Shape).Idx → EReal) (ix1 (i 1)))
          (fun i => (RW3 m' c (Proc.devRef .tc Cert.ReferenceIdeal.main_v221) : (⟨1, ![64]⟩ : Shape).Idx → EReal) (ix1 (i 1))) (fun i => (RW3 m' c (Proc.devRef .tc Cert.ReferenceIdeal.main_v223) : (⟨1, ![64]⟩ : Shape).Idx → EReal) (ix1 (i 1))) r j := by
  unfold RW3
  rw [rd_main_v244, rd_main_v243, rd_main_call5_v0, rd_main_call5_cst, rd_main_v242, rd_main_v241, rd_main_v240, rd_main_v239, rd_main_v238, rd_main_v237, rd_main_v236, rd_main_v235, rd_main_v234, rd_main_v233, rd_main_v232, rd_main_v231, rd_main_cst_32, rd_main_v230, rd_main_v229, rd_main_v228]
  exact bnRelu_node_apply _ _ _ _ _ _ _ _ r j

theorem r_bne2 (r : Fin 400000) (j : Fin 64) :
    (RW3 m' c (Proc.devRef .tc Cert.ReferenceIdeal.main_v269) : Spec.Mat 400000 64) (ix2 r j)
      = Spec.bnRelu (Ideal.ofBits .f32 0x3727C5AC#32) (Ideal.ofBits .f32 0x00000000#32) (RW3 m' c (Proc.devRef .tc Cert.ReferenceIdeal.main_v195) : Spec.Mat 400000 64) (RW2 m' c (Proc.devRef .tc Cert.ReferenceIdeal.main_v139) : Spec.Mat 400000 64)
          (fun i => (RW3 m' c (Proc.devRef .tc Cert.ReferenceIdeal.main_v251) : (⟨1, ![64]⟩ : Shape).Idx → EReal) (ix1 (i 1))) (fun i => (RW3 m' c (Proc.devRef .tc Cert.ReferenceIdeal.main_v252) : (⟨1, ![64]⟩ : Shape).Idx → EReal) (ix1 (i 1)))
          (fun i => (RW3 m' c (Proc.devRef .tc Cert.ReferenceIdeal.main_v246) : (⟨1, ![64]⟩ : Shape).Idx → EReal) (ix1 (i 1))) (fun i => (RW3 m' c (Proc.devRef .tc Cert.ReferenceIdeal.main_v248) : (⟨1, ![64]⟩ : Shape).Idx → EReal) (ix1 (i 1))) r j := by
  unfold RW3
  rw [rd_main_v269, rd_main_v268, rd_main_call7_v0, rd_main_call7_cst, rd_main_v267, rd_main_v266, rd_main_v265, rd_main_v264, rd_main_v263, rd_main_v262, rd_main_v261, rd_main_v260, rd_main_v259, rd_main_v258, rd_main_v257, rd_main_v256, rd_main_cst_36, rd_main_v255, rd_main_v254, rd_main_v253]
  exact bnRelu_edge_apply _ _ _ _ _ _ _ _ r j

/-! ## The pairings -/

/-- The edge combine: equal summands and sender rows give equal gate arguments, gates and gated messages. -/
theorem gate_eq2
    (h34 : (T29 m c Cert.KernelIdeal.main_v101 : Spec.Mat 400000 64) = (RW3 m' c (Proc.devRef .tc Cert.ReferenceIdeal.main_v186) : Spec.Mat 400000 64))
    (h35 : (T29 m c Cert.KernelIdeal.main_v102 : Spec.Mat 400000 64) = (RW3 m' c (Proc.devRef .tc Cert.ReferenceIdeal.main_v193) : Spec.Mat 400000 64))
    (h33 : (T29 m c Cert.KernelIdeal.main_v100 : Spec.Mat 400000 64) = (RW3 m' c (Proc.devRef .tc Cert.ReferenceIdeal.main_v179) : Spec.Mat 400000 64))
    (h36 : (T29 m c Cert.KernelIdeal.main_v103 : Spec.Mat 400000 64) = (RW3 m' c (Proc.devRef .tc Cert.ReferenceIdeal.main_v208) : Spec.Mat 400000 64)) :
    (T30 m c Cert.KernelIdeal.main_v104_0 : Spec.Mat 400000 64) = (RW3 m' c (Proc.devRef .tc Cert.ReferenceIdeal.main_v195) : Spec.Mat 400000 64)
      ∧ (T30 m c Cert.KernelIdeal.main_v104_1 : Spec.Mat 400000 64) = (RW3 m' c (Proc.devRef .tc Cert.ReferenceIdeal.main_v201) : Spec.Mat 400000 64)
      ∧ (T30 m c Cert.KernelIdeal.main_v104_2 : Spec.Mat 400000 64) = (RW3 m' c (Proc.devRef .tc Cert.ReferenceIdeal.main_v209) : Spec.Mat 400000 64) := by
  refine ⟨funext fun i => ?_, funext fun i => ?_, funext fun i => ?_⟩
  · obtain ⟨p, q, rfl⟩ : ∃ (p : Fin 400000) (q : Fin 64), i = ix2 p q := ⟨i 0, i 1, eq_ix2 i⟩
    refine (k_gateArg2 m c p q).trans (Eq.trans ?_ (r_gateArg2 m' c p q).symm)
    rw [h34, h35, h33]
  · obtain ⟨p, q, rfl⟩ : ∃ (p : Fin 400000) (q : Fin 64), i = ix2 p q := ⟨i 0, i 1, eq_ix2 i⟩
    refine (k_gate2 m c p q).trans (Eq.trans ?_ (r_gate2 m' c p q).symm)
    rw [h34, h35, h33]
  · obtain ⟨p, q, rfl⟩ : ∃ (p : Fin 400000) (q : Fin 64), i = ix2 p q := ⟨i 0, i 1, eq_ix2 i⟩
    refine (k_gated2 m c p q).trans (Eq.trans ?_ (r_gated2 m' c p q).symm)
    rw [h34, h35, h33, h36]

/-- The node update: equal node rows, numerators and denominators give equal updated rows. -/
theorem node_eq2
    (h24 : (T31 m c Cert.KernelIdeal.main_v91 : Spec.Mat 50000 64) = (RW3 m' c (Proc.devRef .tc Cert.ReferenceIdeal.main_v147) : Spec.Mat 50000 64))
    (h40 : (T31 m c Cert.KernelIdeal.main_v107 : Spec.Mat 50000 64) = (RW3 m' c (Proc.devRef .tc Cert.ReferenceIdeal.main_v212) : Spec.Mat 50000 64))
    (h43 : (T31 m c Cert.KernelIdeal.main_v110 : Spec.Mat 50000 64) = (RW3 m' c (Proc.devRef .tc Cert.ReferenceIdeal.main_v215) : Spec.Mat 50000 64)) :
    (T32 m c Cert.KernelIdeal.main_v111 : Spec.Mat 50000 64) = (RW3 m' c (Proc.devRef .tc Cert.ReferenceIdeal.main_v219) : Spec.Mat 50000 64) := by
  funext i
  obtain ⟨p, q, rfl⟩ : ∃ (p : Fin 50000) (q : Fin 64), i = ix2 p q := ⟨i 0, i 1, eq_ix2 i⟩
  refine (k_node2 m c p q).trans (Eq.trans ?_ (r_node2 m' c p q).symm)
  rw [h24, h40, h43]

/-- The node side's normalised residual step. -/
theorem bnh_eq2
    (hx : (T35 m c Cert.KernelIdeal.main_v111 : Spec.Mat 50000 64) = (RW3 m' c (Proc.devRef .tc Cert.ReferenceIdeal.main_v219) : Spec.Mat 50000 64))
    (hres : (T35 m c Cert.KernelIdeal.main_v57 : Spec.Mat 50000 64) = (RW2 m' c (Proc.devRef .tc Cert.ReferenceIdeal.main_v114) : Spec.Mat 50000 64))
    (hmean : ∀ j : Fin 64, (T35 m c Cert.KernelIdeal.main_v120 : Spec.Mat 1 64) (ix2 0 j) = (RW3 m' c (Proc.devRef .tc Cert.ReferenceIdeal.main_v226) : (⟨1, ![64]⟩ : Shape).Idx → EReal) (ix1 j))
    (hvar : ∀ j : Fin 64, (T35 m c Cert.KernelIdeal.main_v121 : Spec.Mat 1 64) (ix2 0 j) = (RW3 m' c (Proc.devRef .tc Cert.ReferenceIdeal.main_v227) : (⟨1, ![64]⟩ : Shape).Idx → EReal) (ix1 j))
    (hg : ∀ j : Fin 64, (T35 m c Cert.KernelIdeal.main_v122 : Spec.Mat 1 64) (ix2 0 j) = (RW3 m' c (Proc.devRef .tc Cert.ReferenceIdeal.main_v221) : (⟨1, ![64]⟩ : Shape).Idx → EReal) (ix1 j))
    (hb : ∀ j : Fin 64, (T35 m c Cert.KernelIdeal.main_v123 : Spec.Mat 1 64) (ix2 0 j) = (RW3 m' c (Proc.devRef .tc Cert.ReferenceIdeal.main_v223) : (⟨1, ![64]⟩ : Shape).Idx → EReal) (ix1 j)) :
    (T36 m c Cert.KernelIdeal.main_v124 : Spec.Mat 50000 64) = (RW3 m' c (Proc.devRef .tc Cert.ReferenceIdeal.main_v244) : Spec.Mat 50000 64) := by
  funext i
  obtain ⟨p, q, rfl⟩ : ∃ (p : Fin 50000) (q : Fin 64), i = ix2 p q := ⟨i 0, i 1, eq_ix2 i⟩
  refine (k_bnh2 m c p q).trans (Eq.trans ?_ (r_bnh2 m' c p q).symm)
  exact bnRelu_congr2 _ _ hx hres hmean hvar hg hb p q

/-- The edge side's normalised residual step. -/
theorem bne_eq2
    (hx : (T39 m c Cert.KernelIdeal.main_v104_0 : Spec.Mat 400000 64) = (RW3 m' c (Proc.devRef .tc Cert.ReferenceIdeal.main_v195) : Spec.Mat 400000 64))
    (hres : (T39 m c Cert.KernelIdeal.main_v70 : Spec.Mat 400000 64) = (RW2 m' c (Proc.devRef .tc Cert.ReferenceIdeal.main_v139) : Spec.Mat 400000 64))
    (hmean : ∀ j : Fin 64, (T39 m c Cert.KernelIdeal.main_v133 : Spec.Mat 1 64) (ix2 0 j) = (RW3 m' c (Proc.devRef .tc Cert.ReferenceIdeal.main_v251) : (⟨1, ![64]⟩ : Shape).Idx → EReal) (ix1 j))
    (hvar : ∀ j : Fin 64, (T39 m c Cert.KernelIdeal.main_v134 : Spec.Mat 1 64) (ix2 0 j) = (RW3 m' c (Proc.devRef .tc Cert.ReferenceIdeal.main_v252) : (⟨1, ![64]⟩ : Shape).Idx → EReal) (ix1 j))
    (hg : ∀ j : Fin 64, (T39 m c Cert.KernelIdeal.main_v135 : Spec.Mat 1 64) (ix2 0 j) = (RW3 m' c (Proc.devRef .tc Cert.ReferenceIdeal.main_v246) : (⟨1, ![64]⟩ : Shape).Idx → EReal) (ix1 j))
    (hb : ∀ j : Fin 64, (T39 m c Cert.KernelIdeal.main_v136 : Spec.Mat 1 64) (ix2 0 j) = (RW3 m' c (Proc.devRef .tc Cert.ReferenceIdeal.main_v248) : (⟨1, ![64]⟩ : Shape).Idx → EReal) (ix1 j)) :
    (T40 m c Cert.KernelIdeal.main_v137 : Spec.Mat 400000 64) = (RW3 m' c (Proc.devRef .tc Cert.ReferenceIdeal.main_v269) : Spec.Mat 400000 64) := by
  funext i
  obtain ⟨p, q, rfl⟩ : ∃ (p : Fin 400000) (q : Fin 64), i = ix2 p q := ⟨i 0, i 1, eq_ix2 i⟩
  refine (k_bne2 m c p q).trans (Eq.trans ?_ (r_bne2 m' c p q).symm)
  exact bnRelu_congr2 _ _ hx hres hmean hvar hg hb p q

end Cert.Sim

end
-- ==== Proof.KI.Host11.lean ====
import proofs.«431450_j74423193305350_1_alg».proof.Proof.Gen.KernelIdeal.Launch
import proofs.«431450_j74423193305350_1_alg».proof.Proof.KI.HostDefs
import Idealize.ShloMosaic.Lib.StableHlo.Run
import Idealize.ShloMosaic.Lib.Pipeline.Value
import Idealize.ShloMosaic.Lib.ValueIdx
import Idealize.ShloMosaic.Lib.ValueLayout

/-! Host stretch 11: the two sums by target node (of the gated messages main_v104_2 and of the gates main_v104_1), as the named segment sum of whatever the buffers held. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : Valuation τ sig (Elt Ideal))

/-- After the stretch: the gated messages added up by target node. -/
theorem host11_v107 :
    (StableHlo.after (hostOps11 (F := Ideal)) V (Proc.devRef .tc main_v107) : S50000x64.Idx → EReal)
      = segSum64 (V (Proc.devRef .tc main_v104_2)) (V (Proc.devRef .tc main_arg4)) := by
  after_results
  all_goals rfl

/-- After the stretch: the gates added up by target node. -/
theorem host11_v110 :
    (StableHlo.after (hostOps11 (F := Ideal)) V (Proc.devRef .tc main_v110) : S50000x64.Idx → EReal)
      = segSum64 (V (Proc.devRef .tc main_v104_1)) (V (Proc.devRef .tc main_arg4)) := by
  after_results
  all_goals rfl

end Cert.KernelIdeal.Hand
-- ==== Proof.KI.Host12.lean ====
import proofs.«431450_j74423193305350_1_alg».proof.Proof.Gen.KernelIdeal.Launch
import proofs.«431450_j74423193305350_1_alg».proof.Proof.KI.HostDefs
import Idealize.ShloMosaic.Lib.StableHlo.Run
import Idealize.ShloMosaic.Lib.Pipeline.Value
import Idealize.ShloMosaic.Lib.ValueIdx
import Idealize.ShloMosaic.Lib.ValueLayout

/-! Host stretches 12, 12_1, 12_2 run in order: the column means and variances of main_v111 as the named functions, laid out as rows, and the batch-norm gain and bias rows of layer row 1, from whatever the buffers held. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : Valuation τ sig (Elt Ideal))

/-- Row 1 of a stack of three vectors, as a vector, at an entry. -/
private theorem row1_vec_apply (X : S3x64.Idx → EReal) (j : Fin 64) :
    shapeCast S64 (extractStridedSlice S1x64 ![1, 0] X slices_S3x64_S1x64_1_0) shapeCasts_S1x64_S64 (ix1 j)
      = X (ix2 1 j) := by
  rw [shapeCast_1a_a_apply]
  exact slice2_axis0_apply 1 X slices_S3x64_S1x64_1_0 0 j 1 rfl

/-- The buffers' contents after the three stretches run in order. -/
abbrev after12 : Valuation τ sig (Elt Ideal) :=
  StableHlo.after (hostOps12_2 (F := Ideal)) (StableHlo.after (hostOps12_1 (F := Ideal)) (StableHlo.after (hostOps12 (F := Ideal)) V))

/-- The mean row: the column means of main_v111, as one row. -/
theorem host12_v120_eq :
    (after12 V (Proc.devRef .tc main_v120) : S1x64.Idx → EReal)
      = shapeCast S1x64 (colMeanN (V (Proc.devRef .tc main_v111))) shapeCasts_S64_S1x64 := by
  unfold after12
  after_results
  all_goals rfl

set_option maxHeartbeats 1600000 in
/-- The variance row: the column variances of main_v111, as one row. -/
theorem host12_v121_eq :
    (after12 V (Proc.devRef .tc main_v121) : S1x64.Idx → EReal)
      = shapeCast S1x64 (colVarN (V (Proc.devRef .tc main_v111))) shapeCasts_S64_S1x64 := by
  unfold after12
  after_results
  all_goals rfl

/-- The mean row at column j. -/
theorem host12_v120 (j : Fin 64) :
    (after12 V (Proc.devRef .tc main_v120) : S1x64.Idx → EReal) (ix2 0 j) = colMeanN (V (Proc.devRef .tc main_v111)) (ix1 j) := by
  rw [host12_v120_eq, shapeCast_a_1a_apply]

/-- The variance row at column j. -/
theorem host12_v121 (j : Fin 64) :
    (after12 V (Proc.devRef .tc main_v121) : S1x64.Idx → EReal) (ix2 0 j) = colVarN (V (Proc.devRef .tc main_v111)) (ix1 j) := by
  rw [host12_v121_eq, shapeCast_a_1a_apply]

/-- The gain row of layer row 1, at column j. -/
theorem host12_v122 (j : Fin 64) :
    (after12 V (Proc.devRef .tc main_v122) : S1x64.Idx → EReal) (ix2 0 j) = (V (Proc.devRef .tc main_arg20) : S3x64.Idx → EReal) (ix2 1 j) := by
  have e : (after12 V (Proc.devRef .tc main_v122) : S1x64.Idx → EReal)
      = shapeCast S1x64 (shapeCast S64 (extractStridedSlice S1x64 ![1, 0] (V (Proc.devRef .tc main_arg20) : S3x64.Idx → EReal) slices_S3x64_S1x64_1_0) shapeCasts_S1x64_S64) shapeCasts_S64_S1x64 := by
    unfold after12
    after_results
    all_goals rfl
  rw [e, shapeCast_a_1a_apply, row1_vec_apply]

/-- The bias row of layer row 1, at column j. -/
theorem host12_v123 (j : Fin 64) :
    (after12 V (Proc.devRef .tc main_v123) : S1x64.Idx → EReal) (ix2 0 j) = (V (Proc.devRef .tc main_arg21) : S3x64.Idx → EReal) (ix2 1 j) := by
  have e : (after12 V (Proc.devRef .tc main_v123) : S1x64.Idx → EReal)
      = shapeCast S1x64 (shapeCast S64 (extractStridedSlice S1x64 ![1, 0] (V (Proc.devRef .tc main_arg21) : S3x64.Idx → EReal) slices_S3x64_S1x64_1_0) shapeCasts_S1x64_S64) shapeCasts_S64_S1x64 := by
    unfold after12
    after_results
    all_goals rfl
  rw [e, shapeCast_a_1a_apply, row1_vec_apply]

end Cert.KernelIdeal.Hand
-- ==== Proof.KI.Host13.lean ====
import proofs.«431450_j74423193305350_1_alg».proof.Proof.Gen.KernelIdeal.Launch
import proofs.«431450_j74423193305350_1_alg».proof.Proof.KI.HostDefs
import Idealize.ShloMosaic.Lib.StableHlo.Run
import Idealize.ShloMosaic.Lib.Pipeline.Value
import Idealize.ShloMosaic.Lib.ValueIdx
import Idealize.ShloMosaic.Lib.ValueLayout

/-! Host stretches 13, 13_1, 13_2 run in order: the column means and variances of main_v104_0 as the named functions, laid out as rows, and the batch-norm gain and bias rows of layer row 1, from whatever the buffers held. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : Valuation τ sig (Elt Ideal))

/-- Row 1 of a stack of three vectors, as a vector, at an entry. -/
private theorem row1_vec_apply (X : S3x64.Idx → EReal) (j : Fin 64) :
    shapeCast S64 (extractStridedSlice S1x64 ![1, 0] X slices_S3x64_S1x64_1_0) shapeCasts_S1x64_S64 (ix1 j)
      = X (ix2 1 j) := by
  rw [shapeCast_1a_a_apply]
  exact slice2_axis0_apply 1 X slices_S3x64_S1x64_1_0 0 j 1 rfl

/-- The buffers' contents after the three stretches run in order. -/
abbrev after13 : Valuation τ sig (Elt Ideal) :=
  StableHlo.after (hostOps13_2 (F := Ideal)) (StableHlo.after (hostOps13_1 (F := Ideal)) (StableHlo.after (hostOps13 (F := Ideal)) V))

/-- The mean row: the column means of main_v104_0, as one row. -/
theorem host13_v133_eq :
    (after13 V (Proc.devRef .tc main_v133) : S1x64.Idx → EReal)
      = shapeCast S1x64 (colMeanE (V (Proc.devRef .tc main_v104_0))) shapeCasts_S64_S1x64 := by
  unfold after13
  after_results
  all_goals rfl

set_option maxHeartbeats 1600000 in
/-- The variance row: the column variances of main_v104_0, as one row. -/
theorem host13_v134_eq :
    (after13 V (Proc.devRef .tc main_v134) : S1x64.Idx → EReal)
      = shapeCast S1x64 (colVarE (V (Proc.devRef .tc main_v104_0))) shapeCasts_S64_S1x64 := by
  unfold after13
  after_results
  all_goals rfl

/-- The mean row at column j. -/
theorem host13_v133 (j : Fin 64) :
    (after13 V (Proc.devRef .tc main_v133) : S1x64.Idx → EReal) (ix2 0 j) = colMeanE (V (Proc.devRef .tc main_v104_0)) (ix1 j) := by
  rw [host13_v133_eq, shapeCast_a_1a_apply]

/-- The variance row at column j. -/
theorem host13_v134 (j : Fin 64) :
    (after13 V (Proc.devRef .tc main_v134) : S1x64.Idx → EReal) (ix2 0 j) = colVarE (V (Proc.devRef .tc main_v104_0)) (ix1 j) := by
  rw [host13_v134_eq, shapeCast_a_1a_apply]

/-- The gain row of layer row 1, at column j. -/
theorem host13_v135 (j : Fin 64) :
    (after13 V (Proc.devRef .tc main_v135) : S1x64.Idx → EReal) (ix2 0 j) = (V (Proc.devRef .tc main_arg22) : S3x64.Idx → EReal) (ix2 1 j) := by
  have e : (after13 V (Proc.devRef .tc main_v135) : S1x64.Idx → EReal)
      = shapeCast S1x64 (shapeCast S64 (extractStridedSlice S1x64 ![1, 0] (V (Proc.devRef .tc main_arg22) : S3x64.Idx → EReal) slices_S3x64_S1x64_1_0) shapeCasts_S1x64_S64) shapeCasts_S64_S1x64 := by
    unfold after13
    after_results
    all_goals rfl
  rw [e, shapeCast_a_1a_apply, row1_vec_apply]

/-- The bias row of layer row 1, at column j. -/
theorem host13_v136 (j : Fin 64) :
    (after13 V (Proc.devRef .tc main_v136) : S1x64.Idx → EReal) (ix2 0 j) = (V (Proc.devRef .tc main_arg23) : S3x64.Idx → EReal) (ix2 1 j) := by
  have e : (after13 V (Proc.devRef .tc main_v136) : S1x64.Idx → EReal)
      = shapeCast S1x64 (shapeCast S64 (extractStridedSlice S1x64 ![1, 0] (V (Proc.devRef .tc main_arg23) : S3x64.Idx → EReal) slices_S3x64_S1x64_1_0) shapeCasts_S1x64_S64) shapeCasts_S64_S1x64 := by
    unfold after13
    after_results
    all_goals rfl
  rw [e, shapeCast_a_1a_apply, row1_vec_apply]

end Cert.KernelIdeal.Hand
-- ==== Proof.Sim.Chain2.lean ====
import proofs.«431450_j74423193305350_1_alg».proof.Proof.KI.Fold
import proofs.«431450_j74423193305350_1_alg».proof.Proof.KI.Host11
import proofs.«431450_j74423193305350_1_alg».proof.Proof.KI.Host12
import proofs.«431450_j74423193305350_1_alg».proof.Proof.KI.Host13
import proofs.«431450_j74423193305350_1_alg».proof.Proof.Ref.Fold
import proofs.«431450_j74423193305350_1_alg».proof.Proof.Ref.RdL2
import proofs.«431450_j74423193305350_1_alg».proof.Proof.Sim.ChainTerms
import proofs.«431450_j74423193305350_1_alg».proof.Proof.Sim.Args
import proofs.«431450_j74423193305350_1_alg».proof.Proof.Spec

/-! Layer 2's host chains that both programs run as the same array operations, kernel against reference: the two sums
    by target node, and the column means and variances and the gain and bias rows of the two normalisations. Each
    side's buffer is read as one named whole-array function (or one argument row) of the array the chain starts from;
    equal starting arrays and equal arguments then give equal results. -/
set_option maxRecDepth 16384

noncomputable section

namespace Cert.Sim

open Cert.KernelIdeal.Hand Cert.ReferenceIdeal.Hand
open Idealize.ShloMosaic Idealize.ShloMosaic.TcCoe Idealize.ShloMosaic.ValueIdx Idealize.ShloMosaic.StableHlo
open Idealize.SL.Sem
open Cert.Spec (Mat)

variable (m : KM) (m' : RM)
variable (c : Dev Cert.KernelIdeal.nD)

/-! ## The arguments the chains read -/

/-- The target-node indices and the four normalisation parameter stacks are still the launch contents where the chains read
    them (no item before writes them), in both programs, and there the two memories agree. -/
theorem chain_args_L2 (hagree : Agree m m') :
    ((W30 m c (Proc.devRef .tc Cert.KernelIdeal.main_arg4) : IVec Cert.KernelIdeal.S400000 32) = (RW2 m' c (Proc.devRef .tc Cert.ReferenceIdeal.main_arg4) : IVec Cert.KernelIdeal.S400000 32))
    ∧ ((W32 m c (Proc.devRef .tc Cert.KernelIdeal.main_arg20) : Cert.KernelIdeal.S3x64.Idx → EReal) = (RW2 m' c (Proc.devRef .tc Cert.ReferenceIdeal.main_arg20) : Cert.KernelIdeal.S3x64.Idx → EReal))
    ∧ ((W32 m c (Proc.devRef .tc Cert.KernelIdeal.main_arg21) : Cert.KernelIdeal.S3x64.Idx → EReal) = (RW2 m' c (Proc.devRef .tc Cert.ReferenceIdeal.main_arg21) : Cert.KernelIdeal.S3x64.Idx → EReal))
    ∧ ((W36 m c (Proc.devRef .tc Cert.KernelIdeal.main_arg22) : Cert.KernelIdeal.S3x64.Idx → EReal) = (RW2 m' c (Proc.devRef .tc Cert.ReferenceIdeal.main_arg22) : Cert.KernelIdeal.S3x64.Idx → EReal))
    ∧ ((W36 m c (Proc.devRef .tc Cert.KernelIdeal.main_arg23) : Cert.KernelIdeal.S3x64.Idx → EReal) = (RW2 m' c (Proc.devRef .tc Cert.ReferenceIdeal.main_arg23) : Cert.KernelIdeal.S3x64.Idx → EReal)) := by
  have h := args_agree m m' hagree c
  refine ⟨?_, ?_, ?_, ?_, ?_⟩
  · refine Eq.trans (((W30_of m c Cert.KernelIdeal.main_arg4 (by decide)).trans ((W29_of m c Cert.KernelIdeal.main_arg4 (by decide)).trans ((W28_of m c Cert.KernelIdeal.main_arg4 (by decide)).trans ((W27_of m c Cert.KernelIdeal.main_arg4 (by decide)).trans ((W26_of m c Cert.KernelIdeal.main_arg4 (by decide)).trans ((W25_of m c Cert.KernelIdeal.main_arg4 (by decide)).trans ((W24_of m c Cert.KernelIdeal.main_arg4 (by decide)).trans ((W23_of m c Cert.KernelIdeal.main_arg4 (by decide)).trans ((W22_of m c Cert.KernelIdeal.main_arg4 (by decide)).trans ((W21_of m c Cert.KernelIdeal.main_arg4 (by decide)).trans ((W20_of m c Cert.KernelIdeal.main_arg4 (by decide)).trans ((W19_of m c Cert.KernelIdeal.main_arg4 (by decide)).trans ((W18_of m c Cert.KernelIdeal.main_arg4 (by decide)).trans ((W17_of m c Cert.KernelIdeal.main_arg4 (by decide)).trans ((W16_of m c Cert.KernelIdeal.main_arg4 (by decide)).trans ((W15_of m c Cert.KernelIdeal.main_arg4 (by decide)).trans ((W14_of m c Cert.KernelIdeal.main_arg4 (by decide)).trans ((W13_of m c Cert.KernelIdeal.main_arg4 (by decide)).trans ((W12_of m c Cert.KernelIdeal.main_arg4 (by decide)).trans ((W11_of m c Cert.KernelIdeal.main_arg4 (by decide)).trans ((W10_of m c Cert.KernelIdeal.main_arg4 (by decide)).trans ((W9_of m c Cert.KernelIdeal.main_arg4 (by decide)).trans ((W8_of m c Cert.KernelIdeal.main_arg4 (by decide)).trans ((W7_of m c Cert.KernelIdeal.main_arg4 (by decide)).trans ((W6_of m c Cert.KernelIdeal.main_arg4 (by decide)).trans ((W5_of m c Cert.KernelIdeal.main_arg4 (by decide)).trans ((W4_of m c Cert.KernelIdeal.main_arg4 (by decide)).trans ((W3_of m c Cert.KernelIdeal.main_arg4 (by decide)).trans ((W2_of m c Cert.KernelIdeal.main_arg4 (by decide)).trans (W1_of m c Cert.KernelIdeal.main_arg4 (by decide))))))))))))))))))))))))))))))) : W30 m c (Proc.devRef .tc Cert.KernelIdeal.main_arg4) = W0 m c (Proc.devRef .tc Cert.KernelIdeal.main_arg4)) ?_
    refine Eq.trans ?_ (((RW2_of m' c Cert.ReferenceIdeal.main_arg4 (by decide)).trans (RW1_of m' c Cert.ReferenceIdeal.main_arg4 (by decide))) : RW2 m' c (Proc.devRef .tc Cert.ReferenceIdeal.main_arg4) = RW0 m' c (Proc.devRef .tc Cert.ReferenceIdeal.main_arg4)).symm
    exact h.2.2.2.2.1
  · refine Eq.trans (((W32_of m c Cert.KernelIdeal.main_arg20 (by decide)).trans ((W31_of m c Cert.KernelIdeal.main_arg20 (by decide)).trans ((W30_of m c Cert.KernelIdeal.main_arg20 (by decide)).trans ((W29_of m c Cert.KernelIdeal.main_arg20 (by decide)).trans ((W28_of m c Cert.KernelIdeal.main_arg20 (by decide)).trans ((W27_of m c Cert.KernelIdeal.main_arg20 (by decide)).trans ((W26_of m c Cert.KernelIdeal.main_arg20 (by decide)).trans ((W25_of m c Cert.KernelIdeal.main_arg20 (by decide)).trans ((W24_of m c Cert.KernelIdeal.main_arg20 (by decide)).trans ((W23_of m c Cert.KernelIdeal.main_arg20 (by decide)).trans ((W22_of m c Cert.KernelIdeal.main_arg20 (by decide)).trans ((W21_of m c Cert.KernelIdeal.main_arg20 (by decide)).trans ((W20_of m c Cert.KernelIdeal.main_arg20 (by decide)).trans ((W19_of m c Cert.KernelIdeal.main_arg20 (by decide)).trans ((W18_of m c Cert.KernelIdeal.main_arg20 (by decide)).trans ((W17_of m c Cert.KernelIdeal.main_arg20 (by decide)).trans ((W16_of m c Cert.KernelIdeal.main_arg20 (by decide)).trans ((W15_of m c Cert.KernelIdeal.main_arg20 (by decide)).trans ((W14_of m c Cert.KernelIdeal.main_arg20 (by decide)).trans ((W13_of m c Cert.KernelIdeal.main_arg20 (by decide)).trans ((W12_of m c Cert.KernelIdeal.main_arg20 (by decide)).trans ((W11_of m c Cert.KernelIdeal.main_arg20 (by decide)).trans ((W10_of m c Cert.KernelIdeal.main_arg20 (by decide)).trans ((W9_of m c Cert.KernelIdeal.main_arg20 (by decide)).trans ((W8_of m c Cert.KernelIdeal.main_arg20 (by decide)).trans ((W7_of m c Cert.KernelIdeal.main_arg20 (by decide)).trans ((W6_of m c Cert.KernelIdeal.main_arg20 (by decide)).trans ((W5_of m c Cert.KernelIdeal.main_arg20 (by decide)).trans ((W4_of m c Cert.KernelIdeal.main_arg20 (by decide)).trans ((W3_of m c Cert.KernelIdeal.main_arg20 (by decide)).trans ((W2_of m c Cert.KernelIdeal.main_arg20 (by decide)).trans (W1_of m c Cert.KernelIdeal.main_arg20 (by decide))))))))))))))))))))))))))))))))) : W32 m c (Proc.devRef .tc Cert.KernelIdeal.main_arg20) = W0 m c (Proc.devRef .tc Cert.KernelIdeal.main_arg20)) ?_
    refine Eq.trans ?_ (((RW2_of m' c Cert.ReferenceIdeal.main_arg20 (by decide)).trans (RW1_of m' c Cert.ReferenceIdeal.main_arg20 (by decide))) : RW2 m' c (Proc.devRef .tc Cert.ReferenceIdeal.main_arg20) = RW0 m' c (Proc.devRef .tc Cert.ReferenceIdeal.main_arg20)).symm
    exact h.2.2.2.2.2.2.2.2.2.2.2.2.2.2.2.2.2.2.2.2.1
  · refine Eq.trans (((W32_of m c Cert.KernelIdeal.main_arg21 (by decide)).trans ((W31_of m c Cert.KernelIdeal.main_arg21 (by decide)).trans ((W30_of m c Cert.KernelIdeal.main_arg21 (by decide)).trans ((W29_of m c Cert.KernelIdeal.main_arg21 (by decide)).trans ((W28_of m c Cert.KernelIdeal.main_arg21 (by decide)).trans ((W27_of m c Cert.KernelIdeal.main_arg21 (by decide)).trans ((W26_of m c Cert.KernelIdeal.main_arg21 (by decide)).trans ((W25_of m c Cert.KernelIdeal.main_arg21 (by decide)).trans ((W24_of m c Cert.KernelIdeal.main_arg21 (by decide)).trans ((W23_of m c Cert.KernelIdeal.main_arg21 (by decide)).trans ((W22_of m c Cert.KernelIdeal.main_arg21 (by decide)).trans ((W21_of m c Cert.KernelIdeal.main_arg21 (by decide)).trans ((W20_of m c Cert.KernelIdeal.main_arg21 (by decide)).trans ((W19_of m c Cert.KernelIdeal.main_arg21 (by decide)).trans ((W18_of m c Cert.KernelIdeal.main_arg21 (by decide)).trans ((W17_of m c Cert.KernelIdeal.main_arg21 (by decide)).trans ((W16_of m c Cert.KernelIdeal.main_arg21 (by decide)).trans ((W15_of m c Cert.KernelIdeal.main_arg21 (by decide)).trans ((W14_of m c Cert.KernelIdeal.main_arg21 (by decide)).trans ((W13_of m c Cert.KernelIdeal.main_arg21 (by decide)).trans ((W12_of m c Cert.KernelIdeal.main_arg21 (by decide)).trans ((W11_of m c Cert.KernelIdeal.main_arg21 (by decide)).trans ((W10_of m c Cert.KernelIdeal.main_arg21 (by decide)).trans ((W9_of m c Cert.KernelIdeal.main_arg21 (by decide)).trans ((W8_of m c Cert.KernelIdeal.main_arg21 (by decide)).trans ((W7_of m c Cert.KernelIdeal.main_arg21 (by decide)).trans ((W6_of m c Cert.KernelIdeal.main_arg21 (by decide)).trans ((W5_of m c Cert.KernelIdeal.main_arg21 (by decide)).trans ((W4_of m c Cert.KernelIdeal.main_arg21 (by decide)).trans ((W3_of m c Cert.KernelIdeal.main_arg21 (by decide)).trans ((W2_of m c Cert.KernelIdeal.main_arg21 (by decide)).trans (W1_of m c Cert.KernelIdeal.main_arg21 (by decide))))))))))))))))))))))))))))))))) : W32 m c (Proc.devRef .tc Cert.KernelIdeal.main_arg21) = W0 m c (Proc.devRef .tc Cert.KernelIdeal.main_arg21)) ?_
    refine Eq.trans ?_ (((RW2_of m' c Cert.ReferenceIdeal.main_arg21 (by decide)).trans (RW1_of m' c Cert.ReferenceIdeal.main_arg21 (by decide))) : RW2 m' c (Proc.devRef .tc Cert.ReferenceIdeal.main_arg21) = RW0 m' c (Proc.devRef .tc Cert.ReferenceIdeal.main_arg21)).symm
    exact h.2.2.2.2.2.2.2.2.2.2.2.2.2.2.2.2.2.2.2.2.2.1
  · refine Eq.trans (((W36_of m c Cert.KernelIdeal.main_arg22 (by decide)).trans ((W35_of m c Cert.KernelIdeal.main_arg22 (by decide)).trans ((W34_of m c Cert.KernelIdeal.main_arg22 (by decide)).trans ((W33_of m c Cert.KernelIdeal.main_arg22 (by decide)).trans ((W32_of m c Cert.KernelIdeal.main_arg22 (by decide)).trans ((W31_of m c Cert.KernelIdeal.main_arg22 (by decide)).trans ((W30_of m c Cert.KernelIdeal.main_arg22 (by decide)).trans ((W29_of m c Cert.KernelIdeal.main_arg22 (by decide)).trans ((W28_of m c Cert.KernelIdeal.main_arg22 (by decide)).trans ((W27_of m c Cert.KernelIdeal.main_arg22 (by decide)).trans ((W26_of m c Cert.KernelIdeal.main_arg22 (by decide)).trans ((W25_of m c Cert.KernelIdeal.main_arg22 (by decide)).trans ((W24_of m c Cert.KernelIdeal.main_arg22 (by decide)).trans ((W23_of m c Cert.KernelIdeal.main_arg22 (by decide)).trans ((W22_of m c Cert.KernelIdeal.main_arg22 (by decide)).trans ((W21_of m c Cert.KernelIdeal.main_arg22 (by decide)).trans ((W20_of m c Cert.KernelIdeal.main_arg22 (by decide)).trans ((W19_of m c Cert.KernelIdeal.main_arg22 (by decide)).trans ((W18_of m c Cert.KernelIdeal.main_arg22 (by decide)).trans ((W17_of m c Cert.KernelIdeal.main_arg22 (by decide)).trans ((W16_of m c Cert.KernelIdeal.main_arg22 (by decide)).trans ((W15_of m c Cert.KernelIdeal.main_arg22 (by decide)).trans ((W14_of m c Cert.KernelIdeal.main_arg22 (by decide)).trans ((W13_of m c Cert.KernelIdeal.main_arg22 (by decide)).trans ((W12_of m c Cert.KernelIdeal.main_arg22 (by decide)).trans ((W11_of m c Cert.KernelIdeal.main_arg22 (by decide)).trans ((W10_of m c Cert.KernelIdeal.main_arg22 (by decide)).trans ((W9_of m c Cert.KernelIdeal.main_arg22 (by decide)).trans ((W8_of m c Cert.KernelIdeal.main_arg22 (by decide)).trans ((W7_of m c Cert.KernelIdeal.main_arg22 (by decide)).trans ((W6_of m c Cert.KernelIdeal.main_arg22 (by decide)).trans ((W5_of m c Cert.KernelIdeal.main_arg22 (by decide)).trans ((W4_of m c Cert.KernelIdeal.main_arg22 (by decide)).trans ((W3_of m c Cert.KernelIdeal.main_arg22 (by decide)).trans ((W2_of m c Cert.KernelIdeal.main_arg22 (by decide)).trans (W1_of m c Cert.KernelIdeal.main_arg22 (by decide))))))))))))))))))))))))))))))))))))) : W36 m c (Proc.devRef .tc Cert.KernelIdeal.main_arg22) = W0 m c (Proc.devRef .tc Cert.KernelIdeal.main_arg22)) ?_
    refine Eq.trans ?_ (((RW2_of m' c Cert.ReferenceIdeal.main_arg22 (by decide)).trans (RW1_of m' c Cert.ReferenceIdeal.main_arg22 (by decide))) : RW2 m' c (Proc.devRef .tc Cert.ReferenceIdeal.main_arg22) = RW0 m' c (Proc.devRef .tc Cert.ReferenceIdeal.main_arg22)).symm
    exact h.2.2.2.2.2.2.2.2.2.2.2.2.2.2.2.2.2.2.2.2.2.2.1
  · refine Eq.trans (((W36_of m c Cert.KernelIdeal.main_arg23 (by decide)).trans ((W35_of m c Cert.KernelIdeal.main_arg23 (by decide)).trans ((W34_of m c Cert.KernelIdeal.main_arg23 (by decide)).trans ((W33_of m c Cert.KernelIdeal.main_arg23 (by decide)).trans ((W32_of m c Cert.KernelIdeal.main_arg23 (by decide)).trans ((W31_of m c Cert.KernelIdeal.main_arg23 (by decide)).trans ((W30_of m c Cert.KernelIdeal.main_arg23 (by decide)).trans ((W29_of m c Cert.KernelIdeal.main_arg23 (by decide)).trans ((W28_of m c Cert.KernelIdeal.main_arg23 (by decide)).trans ((W27_of m c Cert.KernelIdeal.main_arg23 (by decide)).trans ((W26_of m c Cert.KernelIdeal.main_arg23 (by decide)).trans ((W25_of m c Cert.KernelIdeal.main_arg23 (by decide)).trans ((W24_of m c Cert.KernelIdeal.main_arg23 (by decide)).trans ((W23_of m c Cert.KernelIdeal.main_arg23 (by decide)).trans ((W22_of m c Cert.KernelIdeal.main_arg23 (by decide)).trans ((W21_of m c Cert.KernelIdeal.main_arg23 (by decide)).trans ((W20_of m c Cert.KernelIdeal.main_arg23 (by decide)).trans ((W19_of m c Cert.KernelIdeal.main_arg23 (by decide)).trans ((W18_of m c Cert.KernelIdeal.main_arg23 (by decide)).trans ((W17_of m c Cert.KernelIdeal.main_arg23 (by decide)).trans ((W16_of m c Cert.KernelIdeal.main_arg23 (by decide)).trans ((W15_of m c Cert.KernelIdeal.main_arg23 (by decide)).trans ((W14_of m c Cert.KernelIdeal.main_arg23 (by decide)).trans ((W13_of m c Cert.KernelIdeal.main_arg23 (by decide)).trans ((W12_of m c Cert.KernelIdeal.main_arg23 (by decide)).trans ((W11_of m c Cert.KernelIdeal.main_arg23 (by decide)).trans ((W10_of m c Cert.KernelIdeal.main_arg23 (by decide)).trans ((W9_of m c Cert.KernelIdeal.main_arg23 (by decide)).trans ((W8_of m c Cert.KernelIdeal.main_arg23 (by decide)).trans ((W7_of m c Cert.KernelIdeal.main_arg23 (by decide)).trans ((W6_of m c Cert.KernelIdeal.main_arg23 (by decide)).trans ((W5_of m c Cert.KernelIdeal.main_arg23 (by decide)).trans ((W4_of m c Cert.KernelIdeal.main_arg23 (by decide)).trans ((W3_of m c Cert.KernelIdeal.main_arg23 (by decide)).trans ((W2_of m c Cert.KernelIdeal.main_arg23 (by decide)).trans (W1_of m c Cert.KernelIdeal.main_arg23 (by decide))))))))))))))))))))))))))))))))))))) : W36 m c (Proc.devRef .tc Cert.KernelIdeal.main_arg23) = W0 m c (Proc.devRef .tc Cert.KernelIdeal.main_arg23)) ?_
    refine Eq.trans ?_ (((RW2_of m' c Cert.ReferenceIdeal.main_arg23 (by decide)).trans (RW1_of m' c Cert.ReferenceIdeal.main_arg23 (by decide))) : RW2 m' c (Proc.devRef .tc Cert.ReferenceIdeal.main_arg23) = RW0 m' c (Proc.devRef .tc Cert.ReferenceIdeal.main_arg23)).symm
    exact h.2.2.2.2.2.2.2.2.2.2.2.2.2.2.2.2.2.2.2.2.2.2.2.1

/-! ## The two sums by target node -/

/-- The kernel's sum of the gated messages by target node, as the segment sum of the array the region left. -/
theorem k_v107_L2 : (T31 m c Cert.KernelIdeal.main_v107 : Mat 50000 64) = segSum64 (T30 m c Cert.KernelIdeal.main_v104_2) (W30 m c (Proc.devRef .tc Cert.KernelIdeal.main_arg4)) := by
  show W31 m c _ = _
  unfold W31
  exact host11_v107 (W30 m c)

/-- The reference's sum of the gated messages by target node, as the same segment sum. -/
theorem r_v212_L2 : (RW3 m' c (Proc.devRef .tc Cert.ReferenceIdeal.main_v212) : Mat 50000 64) = segSum64 (RW3 m' c (Proc.devRef .tc Cert.ReferenceIdeal.main_v209)) (RW2 m' c (Proc.devRef .tc Cert.ReferenceIdeal.main_arg4)) := by
  unfold RW3
  rw [rd_main_v212, rd_main_v211, rd_main_v210, rd_main_cst_26]
  exact segSum64_ref _ _

/-- The kernel's sum of the gates by target node, as the segment sum of the array the region left. -/
theorem k_v110_L2 : (T31 m c Cert.KernelIdeal.main_v110 : Mat 50000 64) = segSum64 (T30 m c Cert.KernelIdeal.main_v104_1) (W30 m c (Proc.devRef .tc Cert.KernelIdeal.main_arg4)) := by
  show W31 m c _ = _
  unfold W31
  exact host11_v110 (W30 m c)

/-- The reference's sum of the gates by target node, as the same segment sum. -/
theorem r_v215_L2 : (RW3 m' c (Proc.devRef .tc Cert.ReferenceIdeal.main_v215) : Mat 50000 64) = segSum64 (RW3 m' c (Proc.devRef .tc Cert.ReferenceIdeal.main_v201)) (RW2 m' c (Proc.devRef .tc Cert.ReferenceIdeal.main_arg4)) := by
  unfold RW3
  rw [rd_main_v215, rd_main_v214, rd_main_v213, rd_main_cst_27]
  exact segSum64_ref _ _

/-- Equal gated messages and equal gates give equal sums by target node. -/
theorem scatter_eq_L2 (hagree : Agree m m')
    (hw : (T30 m c Cert.KernelIdeal.main_v104_2 : Mat 400000 64) = (RW3 m' c (Proc.devRef .tc Cert.ReferenceIdeal.main_v209) : Mat 400000 64))
    (hs : (T30 m c Cert.KernelIdeal.main_v104_1 : Mat 400000 64) = (RW3 m' c (Proc.devRef .tc Cert.ReferenceIdeal.main_v201) : Mat 400000 64)) :
    (T31 m c Cert.KernelIdeal.main_v107 : Mat 50000 64) = (RW3 m' c (Proc.devRef .tc Cert.ReferenceIdeal.main_v212) : Mat 50000 64)
      ∧ (T31 m c Cert.KernelIdeal.main_v110 : Mat 50000 64) = (RW3 m' c (Proc.devRef .tc Cert.ReferenceIdeal.main_v215) : Mat 50000 64) :=
  ⟨(k_v107_L2 m c).trans ((congrArg₂ segSum64 hw (chain_args_L2 m m' c hagree).1).trans (r_v212_L2 m' c).symm),
   (k_v110_L2 m c).trans ((congrArg₂ segSum64 hs (chain_args_L2 m m' c hagree).1).trans (r_v215_L2 m' c).symm)⟩

/-! ## The node normalisation's statistics (50000 rows) -/

/-- The kernel's mean row at a column: the column mean of the array the stretches start from. -/
theorem k_v120_L2 (j : Fin 64) : (T35 m c Cert.KernelIdeal.main_v120 : Mat 1 64) (ix2 0 j) = colMeanN (T32 m c Cert.KernelIdeal.main_v111) (ix1 j) := by
  show W35 m c _ _ = _
  unfold W35 W34 W33
  exact host12_v120 (W32 m c) j

/-- The kernel's variance row at a column. -/
theorem k_v121_L2 (j : Fin 64) : (T35 m c Cert.KernelIdeal.main_v121 : Mat 1 64) (ix2 0 j) = colVarN (T32 m c Cert.KernelIdeal.main_v111) (ix1 j) := by
  show W35 m c _ _ = _
  unfold W35 W34 W33
  exact host12_v121 (W32 m c) j

/-- The kernel's gain row at a column: the argument's row 1. -/
theorem k_v122_L2 (j : Fin 64) : (T35 m c Cert.KernelIdeal.main_v122 : Mat 1 64) (ix2 0 j) = (W32 m c (Proc.devRef .tc Cert.KernelIdeal.main_arg20) : Cert.KernelIdeal.S3x64.Idx → EReal) (ix2 1 j) := by
  show W35 m c _ _ = _
  unfold W35 W34 W33
  exact host12_v122 (W32 m c) j

/-- The kernel's bias row at a column: the argument's row 1. -/
theorem k_v123_L2 (j : Fin 64) : (T35 m c Cert.KernelIdeal.main_v123 : Mat 1 64) (ix2 0 j) = (W32 m c (Proc.devRef .tc Cert.KernelIdeal.main_arg21) : Cert.KernelIdeal.S3x64.Idx → EReal) (ix2 1 j) := by
  show W35 m c _ _ = _
  unfold W35 W34 W33
  exact host12_v123 (W32 m c) j

/-- The reference's mean vector: the same column mean. -/
theorem r_v226_L2 : (RW3 m' c (Proc.devRef .tc Cert.ReferenceIdeal.main_v226) : Cert.KernelIdeal.S64.Idx → EReal) = colMeanN (RW3 m' c (Proc.devRef .tc Cert.ReferenceIdeal.main_v219)) := by
  unfold RW3
  rw [rd_main_v226, rd_main_v225, rd_main_cst_30, rd_main_v224, rd_main_cst_29]
  exact colMeanN_ref _

set_option maxHeartbeats 1600000 in
/-- The reference's variance vector: the same column variance. -/
theorem r_v227_L2 : (RW3 m' c (Proc.devRef .tc Cert.ReferenceIdeal.main_v227) : Cert.KernelIdeal.S64.Idx → EReal) = colVarN (RW3 m' c (Proc.devRef .tc Cert.ReferenceIdeal.main_v219)) := by
  unfold RW3
  rw [rd_main_v227, rd_main_call4_call0_v1, rd_main_call4_call0_v0, rd_main_call4_cst_4, rd_main_call4_v12, rd_main_call4_cst_3, rd_main_call4_v11, rd_main_call4_v10, rd_main_call4_v9, rd_main_call4_cst_2, rd_main_call4_v8, rd_main_call4_cst_1, rd_main_call4_v7, rd_main_call4_v6, rd_main_call4_v5, rd_main_call4_v4, rd_main_call4_v3, rd_main_call4_v2, rd_main_call4_cst_0, rd_main_call4_v1, rd_main_call4_v0, rd_main_call4_cst, rd_main_c_31]
  exact colVarN_ref _

/-- The reference's gain vector at an entry: the argument's row 1. -/
theorem r_v221_L2 (j : Fin 64) : (RW3 m' c (Proc.devRef .tc Cert.ReferenceIdeal.main_v221) : Cert.KernelIdeal.S64.Idx → EReal) (ix1 j) = (RW2 m' c (Proc.devRef .tc Cert.ReferenceIdeal.main_arg20) : Cert.KernelIdeal.S3x64.Idx → EReal) (ix2 1 j) := by
  unfold RW3
  rw [rd_main_v221, rd_main_v220]
  exact ref_row1_vec_apply _ j

/-- The reference's bias vector at an entry: the argument's row 1. -/
theorem r_v223_L2 (j : Fin 64) : (RW3 m' c (Proc.devRef .tc Cert.ReferenceIdeal.main_v223) : Cert.KernelIdeal.S64.Idx → EReal) (ix1 j) = (RW2 m' c (Proc.devRef .tc Cert.ReferenceIdeal.main_arg21) : Cert.KernelIdeal.S3x64.Idx → EReal) (ix2 1 j) := by
  unfold RW3
  rw [rd_main_v223, rd_main_v222]
  exact ref_row1_vec_apply _ j

/-- Equal node arrays give equal mean, variance, gain and bias rows. -/
theorem stats_h_L2 (hagree : Agree m m')
    (hx : (T32 m c Cert.KernelIdeal.main_v111 : Mat 50000 64) = (RW3 m' c (Proc.devRef .tc Cert.ReferenceIdeal.main_v219) : Mat 50000 64)) :
    (∀ j : Fin 64, (T35 m c Cert.KernelIdeal.main_v120 : Mat 1 64) (ix2 0 j) = (RW3 m' c (Proc.devRef .tc Cert.ReferenceIdeal.main_v226) : Cert.KernelIdeal.S64.Idx → EReal) (ix1 j))
      ∧ (∀ j : Fin 64, (T35 m c Cert.KernelIdeal.main_v121 : Mat 1 64) (ix2 0 j) = (RW3 m' c (Proc.devRef .tc Cert.ReferenceIdeal.main_v227) : Cert.KernelIdeal.S64.Idx → EReal) (ix1 j))
      ∧ (∀ j : Fin 64, (T35 m c Cert.KernelIdeal.main_v122 : Mat 1 64) (ix2 0 j) = (RW3 m' c (Proc.devRef .tc Cert.ReferenceIdeal.main_v221) : Cert.KernelIdeal.S64.Idx → EReal) (ix1 j))
      ∧ (∀ j : Fin 64, (T35 m c Cert.KernelIdeal.main_v123 : Mat 1 64) (ix2 0 j) = (RW3 m' c (Proc.devRef .tc Cert.ReferenceIdeal.main_v223) : Cert.KernelIdeal.S64.Idx → EReal) (ix1 j)) :=
  ⟨fun j => (k_v120_L2 m c j).trans (congrFun ((congrArg colMeanN hx).trans (r_v226_L2 m' c).symm) (ix1 j)),
   fun j => (k_v121_L2 m c j).trans (congrFun ((congrArg colVarN hx).trans (r_v227_L2 m' c).symm) (ix1 j)),
   fun j => (k_v122_L2 m c j).trans ((congrFun (chain_args_L2 m m' c hagree).2.1 (ix2 1 j)).trans (r_v221_L2 m' c j).symm),
   fun j => (k_v123_L2 m c j).trans ((congrFun (chain_args_L2 m m' c hagree).2.2.1 (ix2 1 j)).trans (r_v223_L2 m' c j).symm)⟩

/-! ## The edge normalisation's statistics (400000 rows) -/

/-- The kernel's mean row at a column: the column mean of the array the stretches start from. -/
theorem k_v133_L2 (j : Fin 64) : (T39 m c Cert.KernelIdeal.main_v133 : Mat 1 64) (ix2 0 j) = colMeanE (W36 m c (Proc.devRef .tc Cert.KernelIdeal.main_v104_0)) (ix1 j) := by
  show W39 m c _ _ = _
  unfold W39 W38 W37
  exact host13_v133 (W36 m c) j

/-- The kernel's variance row at a column. -/
theorem k_v134_L2 (j : Fin 64) : (T39 m c Cert.KernelIdeal.main_v134 : Mat 1 64) (ix2 0 j) = colVarE (W36 m c (Proc.devRef .tc Cert.KernelIdeal.main_v104_0)) (ix1 j) := by
  show W39 m c _ _ = _
  unfold W39 W38 W37
  exact host13_v134 (W36 m c) j

/-- The kernel's gain row at a column: the argument's row 1. -/
theorem k_v135_L2 (j : Fin 64) : (T39 m c Cert.KernelIdeal.main_v135 : Mat 1 64) (ix2 0 j) = (W36 m c (Proc.devRef .tc Cert.KernelIdeal.main_arg22) : Cert.KernelIdeal.S3x64.Idx → EReal) (ix2 1 j) := by
  show W39 m c _ _ = _
  unfold W39 W38 W37
  exact host13_v135 (W36 m c) j

/-- The kernel's bias row at a column: the argument's row 1. -/
theorem k_v136_L2 (j : Fin 64) : (T39 m c Cert.KernelIdeal.main_v136 : Mat 1 64) (ix2 0 j) = (W36 m c (Proc.devRef .tc Cert.KernelIdeal.main_arg23) : Cert.KernelIdeal.S3x64.Idx → EReal) (ix2 1 j) := by
  show W39 m c _ _ = _
  unfold W39 W38 W37
  exact host13_v136 (W36 m c) j

/-- The reference's mean vector: the same column mean. -/
theorem r_v251_L2 : (RW3 m' c (Proc.devRef .tc Cert.ReferenceIdeal.main_v251) : Cert.KernelIdeal.S64.Idx → EReal) = colMeanE (RW3 m' c (Proc.devRef .tc Cert.ReferenceIdeal.main_v195)) := by
  unfold RW3
  rw [rd_main_v251, rd_main_v250, rd_main_cst_34, rd_main_v249, rd_main_cst_33]
  exact colMeanE_ref _

set_option maxHeartbeats 1600000 in
/-- The reference's variance vector: the same column variance. -/
theorem r_v252_L2 : (RW3 m' c (Proc.devRef .tc Cert.ReferenceIdeal.main_v252) : Cert.KernelIdeal.S64.Idx → EReal) = colVarE (RW3 m' c (Proc.devRef .tc Cert.ReferenceIdeal.main_v195)) := by
  unfold RW3
  rw [rd_main_v252, rd_main_call6_call0_v1, rd_main_call6_call0_v0, rd_main_call6_cst_4, rd_main_call6_v12, rd_main_call6_cst_3, rd_main_call6_v11, rd_main_call6_v10, rd_main_call6_v9, rd_main_call6_cst_2, rd_main_call6_v8, rd_main_call6_cst_1, rd_main_call6_v7, rd_main_call6_v6, rd_main_call6_v5, rd_main_call6_v4, rd_main_call6_v3, rd_main_call6_v2, rd_main_call6_cst_0, rd_main_call6_v1, rd_main_call6_v0, rd_main_call6_cst, rd_main_c_35]
  exact colVarE_ref _

/-- The reference's gain vector at an entry: the argument's row 1. -/
theorem r_v246_L2 (j : Fin 64) : (RW3 m' c (Proc.devRef .tc Cert.ReferenceIdeal.main_v246) : Cert.KernelIdeal.S64.Idx → EReal) (ix1 j) = (RW2 m' c (Proc.devRef .tc Cert.ReferenceIdeal.main_arg22) : Cert.KernelIdeal.S3x64.Idx → EReal) (ix2 1 j) := by
  unfold RW3
  rw [rd_main_v246, rd_main_v245]
  exact ref_row1_vec_apply _ j

/-- The reference's bias vector at an entry: the argument's row 1. -/
theorem r_v248_L2 (j : Fin 64) : (RW3 m' c (Proc.devRef .tc Cert.ReferenceIdeal.main_v248) : Cert.KernelIdeal.S64.Idx → EReal) (ix1 j) = (RW2 m' c (Proc.devRef .tc Cert.ReferenceIdeal.main_arg23) : Cert.KernelIdeal.S3x64.Idx → EReal) (ix2 1 j) := by
  unfold RW3
  rw [rd_main_v248, rd_main_v247]
  exact ref_row1_vec_apply _ j

/-- The gate arguments the edge statistics start from are still what the edge region left. -/
theorem k_v104_0_at36_L2 : W36 m c (Proc.devRef .tc Cert.KernelIdeal.main_v104_0) = W30 m c (Proc.devRef .tc Cert.KernelIdeal.main_v104_0) :=
  ((W36_of m c Cert.KernelIdeal.main_v104_0 (by decide)).trans ((W35_of m c Cert.KernelIdeal.main_v104_0 (by decide)).trans ((W34_of m c Cert.KernelIdeal.main_v104_0 (by decide)).trans ((W33_of m c Cert.KernelIdeal.main_v104_0 (by decide)).trans ((W32_of m c Cert.KernelIdeal.main_v104_0 (by decide)).trans (W31_of m c Cert.KernelIdeal.main_v104_0 (by decide)))))))

/-- Equal gate-argument arrays give equal mean, variance, gain and bias rows. -/
theorem stats_e_L2 (hagree : Agree m m')
    (hx : (T30 m c Cert.KernelIdeal.main_v104_0 : Mat 400000 64) = (RW3 m' c (Proc.devRef .tc Cert.ReferenceIdeal.main_v195) : Mat 400000 64)) :
    (∀ j : Fin 64, (T39 m c Cert.KernelIdeal.main_v133 : Mat 1 64) (ix2 0 j) = (RW3 m' c (Proc.devRef .tc Cert.ReferenceIdeal.main_v251) : Cert.KernelIdeal.S64.Idx → EReal) (ix1 j))
      ∧ (∀ j : Fin 64, (T39 m c Cert.KernelIdeal.main_v134 : Mat 1 64) (ix2 0 j) = (RW3 m' c (Proc.devRef .tc Cert.ReferenceIdeal.main_v252) : Cert.KernelIdeal.S64.Idx → EReal) (ix1 j))
      ∧ (∀ j : Fin 64, (T39 m c Cert.KernelIdeal.main_v135 : Mat 1 64) (ix2 0 j) = (RW3 m' c (Proc.devRef .tc Cert.ReferenceIdeal.main_v246) : Cert.KernelIdeal.S64.Idx → EReal) (ix1 j))
      ∧ (∀ j : Fin 64, (T39 m c Cert.KernelIdeal.main_v136 : Mat 1 64) (ix2 0 j) = (RW3 m' c (Proc.devRef .tc Cert.ReferenceIdeal.main_v248) : Cert.KernelIdeal.S64.Idx → EReal) (ix1 j)) := by
  have hx' : (W36 m c (Proc.devRef .tc Cert.KernelIdeal.main_v104_0) : Mat 400000 64) = (RW3 m' c (Proc.devRef .tc Cert.ReferenceIdeal.main_v195) : Mat 400000 64) := (k_v104_0_at36_L2 m c).trans hx
  exact
  ⟨fun j => (k_v133_L2 m c j).trans (congrFun ((congrArg colMeanE hx').trans (r_v251_L2 m' c).symm) (ix1 j)),
   fun j => (k_v134_L2 m c j).trans (congrFun ((congrArg colVarE hx').trans (r_v252_L2 m' c).symm) (ix1 j)),
   fun j => (k_v135_L2 m c j).trans ((congrFun (chain_args_L2 m m' c hagree).2.2.2.1 (ix2 1 j)).trans (r_v246_L2 m' c j).symm),
   fun j => (k_v136_L2 m c j).trans ((congrFun (chain_args_L2 m m' c hagree).2.2.2.2 (ix2 1 j)).trans (r_v248_L2 m' c j).symm)⟩

end Cert.Sim
-- ==== Proof.Sim.Layer2.lean ====
import proofs.«431450_j74423193305350_1_alg».proof.Proof.Sim.Dense2
import proofs.«431450_j74423193305350_1_alg».proof.Proof.Sim.Take2
import proofs.«431450_j74423193305350_1_alg».proof.Proof.Sim.Elem2
import proofs.«431450_j74423193305350_1_alg».proof.Proof.Sim.Chain2

/-! Layer 2 of the network, kernel against reference: if the node and edge feature arrays the layer starts from
    agree, so do the ones it ends with. The layer's steps in order — the dense layers, the three row gathers, the
    gate, the two segment sums, the node update, the node normalisation, the edge normalisation — each one's
    pairing applied to the pairings before it, a buffer no item in between writes carried across those items. -/
set_option maxRecDepth 16384

noncomputable section

namespace Cert.Sim

open Idealize.ShloMosaic Idealize.ShloMosaic.TcCoe Idealize.ShloMosaic.ValueIdx Idealize.ShloMosaic.StableHlo
open Idealize.SL.Sem
open Cert.KernelIdeal.Hand Cert.ReferenceIdeal.Hand
open Cert.Spec (Mat)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

theorem layer2 (hpre : Cert.Pre_KernelIdeal m) (hagree : Agree m m') (c : Dev Cert.KernelIdeal.nD)
    (hh : (T22 m c Cert.KernelIdeal.main_v57 : Mat 50000 64) = (RW2 m' c (Proc.devRef .tc Cert.ReferenceIdeal.main_v114) : Mat 50000 64))
    (he : (T22 m c Cert.KernelIdeal.main_v70 : Mat 400000 64) = (RW2 m' c (Proc.devRef .tc Cert.ReferenceIdeal.main_v139) : Mat 400000 64)) :
    (T40 m c Cert.KernelIdeal.main_v124 : Mat 50000 64) = (RW3 m' c (Proc.devRef .tc Cert.ReferenceIdeal.main_v244) : Mat 50000 64)
      ∧ (T40 m c Cert.KernelIdeal.main_v137 : Mat 400000 64) = (RW3 m' c (Proc.devRef .tc Cert.ReferenceIdeal.main_v269) : Mat 400000 64) := by
  obtain ⟨hA, hB, hD, hE⟩ := (dense2_eqs m m' hagree c).1 hh
  have hC := (dense2_eqs m m' hagree c).2 he
  have hD8 : (T26 m c Cert.KernelIdeal.main_v93 : Mat 50000 64) = (RW3 m' c (Proc.devRef .tc Cert.ReferenceIdeal.main_v163) : Mat 50000 64) :=
    Eq.trans (W26_of m c Cert.KernelIdeal.main_v93 (by decide)) hD
  have hE8 : (T26 m c Cert.KernelIdeal.main_v94 : Mat 50000 64) = (RW3 m' c (Proc.devRef .tc Cert.ReferenceIdeal.main_v171) : Mat 50000 64) :=
    Eq.trans (W26_of m c Cert.KernelIdeal.main_v94 (by decide)) hE
  have hB8 : (T26 m c Cert.KernelIdeal.main_v92 : Mat 50000 64) = (RW3 m' c (Proc.devRef .tc Cert.ReferenceIdeal.main_v155) : Mat 50000 64) :=
    Eq.trans (W26_of m c Cert.KernelIdeal.main_v92 (by decide)) hB
  obtain ⟨h34, h35, h36⟩ := take_eq2 m m' hpre hagree c hD8 hE8 hB8
  have h34' : (T29 m c Cert.KernelIdeal.main_v101 : Mat 400000 64) = (RW3 m' c (Proc.devRef .tc Cert.ReferenceIdeal.main_v186) : Mat 400000 64) :=
    Eq.trans ((W29_of m c Cert.KernelIdeal.main_v101 (by decide)).trans (W28_of m c Cert.KernelIdeal.main_v101 (by decide))) h34
  have h35' : (T29 m c Cert.KernelIdeal.main_v102 : Mat 400000 64) = (RW3 m' c (Proc.devRef .tc Cert.ReferenceIdeal.main_v193) : Mat 400000 64) :=
    Eq.trans (W29_of m c Cert.KernelIdeal.main_v102 (by decide)) h35
  have h33' : (T29 m c Cert.KernelIdeal.main_v100 : Mat 400000 64) = (RW3 m' c (Proc.devRef .tc Cert.ReferenceIdeal.main_v179) : Mat 400000 64) :=
    Eq.trans ((W29_of m c Cert.KernelIdeal.main_v100 (by decide)).trans ((W28_of m c Cert.KernelIdeal.main_v100 (by decide)).trans (W27_of m c Cert.KernelIdeal.main_v100 (by decide)))) hC
  obtain ⟨hg0, hg1, hg2⟩ := gate_eq2 m m' c h34' h35' h33' h36
  obtain ⟨h40, h43⟩ := scatter_eq_L2 m m' c hagree hg2 hg1
  have hA13 : (T31 m c Cert.KernelIdeal.main_v91 : Mat 50000 64) = (RW3 m' c (Proc.devRef .tc Cert.ReferenceIdeal.main_v147) : Mat 50000 64) :=
    Eq.trans ((W31_of m c Cert.KernelIdeal.main_v91 (by decide)).trans ((W30_of m c Cert.KernelIdeal.main_v91 (by decide)).trans ((W29_of m c Cert.KernelIdeal.main_v91 (by decide)).trans ((W28_of m c Cert.KernelIdeal.main_v91 (by decide)).trans ((W27_of m c Cert.KernelIdeal.main_v91 (by decide)).trans (W26_of m c Cert.KernelIdeal.main_v91 (by decide))))))) hA
  have h44 := node_eq2 m m' c hA13 h40 h43
  obtain ⟨sm, sv, sg, sb⟩ := stats_h_L2 m m' c hagree h44
  have h44' : (T35 m c Cert.KernelIdeal.main_v111 : Mat 50000 64) = (RW3 m' c (Proc.devRef .tc Cert.ReferenceIdeal.main_v219) : Mat 50000 64) :=
    Eq.trans ((W35_of m c Cert.KernelIdeal.main_v111 (by decide)).trans ((W34_of m c Cert.KernelIdeal.main_v111 (by decide)).trans (W33_of m c Cert.KernelIdeal.main_v111 (by decide)))) h44
  have hres : (T35 m c Cert.KernelIdeal.main_v57 : Mat 50000 64) = (RW2 m' c (Proc.devRef .tc Cert.ReferenceIdeal.main_v114) : Mat 50000 64) :=
    Eq.trans ((W35_of m c Cert.KernelIdeal.main_v57 (by decide)).trans ((W34_of m c Cert.KernelIdeal.main_v57 (by decide)).trans ((W33_of m c Cert.KernelIdeal.main_v57 (by decide)).trans ((W32_of m c Cert.KernelIdeal.main_v57 (by decide)).trans ((W31_of m c Cert.KernelIdeal.main_v57 (by decide)).trans ((W30_of m c Cert.KernelIdeal.main_v57 (by decide)).trans ((W29_of m c Cert.KernelIdeal.main_v57 (by decide)).trans ((W28_of m c Cert.KernelIdeal.main_v57 (by decide)).trans ((W27_of m c Cert.KernelIdeal.main_v57 (by decide)).trans ((W26_of m c Cert.KernelIdeal.main_v57 (by decide)).trans ((W25_of m c Cert.KernelIdeal.main_v57 (by decide)).trans ((W24_of m c Cert.KernelIdeal.main_v57 (by decide)).trans (W23_of m c Cert.KernelIdeal.main_v57 (by decide)))))))))))))) hh
  have h57 := bnh_eq2 m m' c h44' hres sm sv sg sb
  obtain ⟨em, ev, eg, eb⟩ := stats_e_L2 m m' c hagree hg0
  have hg0' : (T39 m c Cert.KernelIdeal.main_v104_0 : Mat 400000 64) = (RW3 m' c (Proc.devRef .tc Cert.ReferenceIdeal.main_v195) : Mat 400000 64) :=
    Eq.trans ((W39_of m c Cert.KernelIdeal.main_v104_0 (by decide)).trans ((W38_of m c Cert.KernelIdeal.main_v104_0 (by decide)).trans ((W37_of m c Cert.KernelIdeal.main_v104_0 (by decide)).trans ((W36_of m c Cert.KernelIdeal.main_v104_0 (by decide)).trans ((W35_of m c Cert.KernelIdeal.main_v104_0 (by decide)).trans ((W34_of m c Cert.KernelIdeal.main_v104_0 (by decide)).trans ((W33_of m c Cert.KernelIdeal.main_v104_0 (by decide)).trans ((W32_of m c Cert.KernelIdeal.main_v104_0 (by decide)).trans (W31_of m c Cert.KernelIdeal.main_v104_0 (by decide)))))))))) hg0
  have hres' : (T39 m c Cert.KernelIdeal.main_v70 : Mat 400000 64) = (RW2 m' c (Proc.devRef .tc Cert.ReferenceIdeal.main_v139) : Mat 400000 64) :=
    Eq.trans ((W39_of m c Cert.KernelIdeal.main_v70 (by decide)).trans ((W38_of m c Cert.KernelIdeal.main_v70 (by decide)).trans ((W37_of m c Cert.KernelIdeal.main_v70 (by decide)).trans ((W36_of m c Cert.KernelIdeal.main_v70 (by decide)).trans ((W35_of m c Cert.KernelIdeal.main_v70 (by decide)).trans ((W34_of m c Cert.KernelIdeal.main_v70 (by decide)).trans ((W33_of m c Cert.KernelIdeal.main_v70 (by decide)).trans ((W32_of m c Cert.KernelIdeal.main_v70 (by decide)).trans ((W31_of m c Cert.KernelIdeal.main_v70 (by decide)).trans ((W30_of m c Cert.KernelIdeal.main_v70 (by decide)).trans ((W29_of m c Cert.KernelIdeal.main_v70 (by decide)).trans ((W28_of m c Cert.KernelIdeal.main_v70 (by decide)).trans ((W27_of m c Cert.KernelIdeal.main_v70 (by decide)).trans ((W26_of m c Cert.KernelIdeal.main_v70 (by decide)).trans ((W25_of m c Cert.KernelIdeal.main_v70 (by decide)).trans ((W24_of m c Cert.KernelIdeal.main_v70 (by decide)).trans (W23_of m c Cert.KernelIdeal.main_v70 (by decide)))))))))))))))))) he
  have h70 := bne_eq2 m m' c hg0' hres' em ev eg eb
  exact ⟨Eq.trans ((W40_of m c Cert.KernelIdeal.main_v124 (by decide)).trans ((W39_of m c Cert.KernelIdeal.main_v124 (by decide)).trans ((W38_of m c Cert.KernelIdeal.main_v124 (by decide)).trans (W37_of m c Cert.KernelIdeal.main_v124 (by decide))))) h57, h70⟩

end Cert.Sim

end
-- ==== Proof.KI.Val14.lean ====
import proofs.«431450_j74423193305350_1_alg».proof.Proof.KI.Reg14
import proofs.«431450_j74423193305350_1_alg».proof.Proof.Spec
import Idealize.ShloMosaic.Lib.Pipeline.Value
import Idealize.ShloMosaic.Lib.ValueIdx
import Idealize.ShloMosaic.Lib.ValueLayout
import Idealize.ShloMosaic.PureOps.Ideal.Laws

/-! Region 14 (a dense layer: [50000,64] times [64,256] plus a [1,256] bias row, in row blocks of 5000) at the extended
    reals: the body's payload entry by entry, what each grid point writes back as the block of one whole-array
    function, the blocks covering the rows, and so the whole output array as the dense-layer formula of the region's
    whole input arrays. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The payload at an entry -/

theorem lhs_lin14_0 (i : S5000x256.Idx) (q : dot_S5000x64_S64x256_S5000x256_1_0_0_1_n_n.contr.Idx) :
    (dot_S5000x64_S64x256_S5000x256_1_0_0_1_n_n.lhsIdx i q 0).val = (i 0).val := by
  unfold DotDims.lhsIdx
  rw [dif_neg (show ¬(0 : Fin S5000x64.rank) ∈ dot_S5000x64_S64x256_S5000x256_1_0_0_1_n_n.lhsBatch by decide), dif_pos (show (0 : Fin S5000x64.rank) ∈ dot_S5000x64_S64x256_S5000x256_1_0_0_1_n_n.lhsNonContracting by decide)]
  rfl

theorem lhs_lin14_1 (i : S5000x256.Idx) (q : dot_S5000x64_S64x256_S5000x256_1_0_0_1_n_n.contr.Idx) :
    (dot_S5000x64_S64x256_S5000x256_1_0_0_1_n_n.lhsIdx i q 1).val = (q ⟨0, by decide⟩).val :=
  dot_S5000x64_S64x256_S5000x256_1_0_0_1_n_n.lhsIdx_val_of_single rfl i q

theorem rhs_lin14_0 (i : S5000x256.Idx) (q : dot_S5000x64_S64x256_S5000x256_1_0_0_1_n_n.contr.Idx) :
    (dot_S5000x64_S64x256_S5000x256_1_0_0_1_n_n.rhsIdx i q 0).val = (q ⟨0, by decide⟩).val :=
  dot_S5000x64_S64x256_S5000x256_1_0_0_1_n_n.rhsIdx_val_of_single rfl i q

theorem rhs_lin14_1 (i : S5000x256.Idx) (q : dot_S5000x64_S64x256_S5000x256_1_0_0_1_n_n.contr.Idx) :
    (dot_S5000x64_S64x256_S5000x256_1_0_0_1_n_n.rhsIdx i q 1).val = (i 1).val := by
  unfold DotDims.rhsIdx
  rw [dif_neg (show ¬(1 : Fin S64x256.rank) ∈ dot_S5000x64_S64x256_S5000x256_1_0_0_1_n_n.rhsBatch by decide), dif_pos (show (1 : Fin S64x256.rank) ∈ dot_S5000x64_S64x256_S5000x256_1_0_0_1_n_n.rhsNonContracting by decide)]
  rfl

/-- The product at an entry: row p of the left block against column q of the right one. -/
theorem mm14_apply (a : FVec Ideal S5000x64 .bf16) (b : FVec Ideal S64x256 .bf16) (p : Fin 5000) (q : Fin 256) :
    FloatOps.matmul dot_S5000x64_S64x256_S5000x256_1_0_0_1_n_n none a b (constant S5000x256 .f32 0x00000000#32) (ix2 p q)
      = ∑ k : Fin 64, a (ix2 p k) * b (ix2 k q) := by
  rw [Ideal.matmul_constant_zero_apply, ← Equiv.sum_comp (ValueIdx.contrEquiv1 dot_S5000x64_S64x256_S5000x256_1_0_0_1_n_n 64 rfl rfl).symm]
  refine Finset.sum_congr rfl fun k _ => ?_
  have hk := ValueIdx.contrEquiv1_symm_val dot_S5000x64_S64x256_S5000x256_1_0_0_1_n_n 64 rfl rfl k
  have el : dot_S5000x64_S64x256_S5000x256_1_0_0_1_n_n.lhsIdx (ix2 p q) ((ValueIdx.contrEquiv1 dot_S5000x64_S64x256_S5000x256_1_0_0_1_n_n 64 rfl rfl).symm k) = ix2 p k := funext fun a => Fin.ext (by
    match a with
    | ⟨0, _⟩ => exact lhs_lin14_0 _ _
    | ⟨1, _⟩ => exact (lhs_lin14_1 _ _).trans hk)
  have er : dot_S5000x64_S64x256_S5000x256_1_0_0_1_n_n.rhsIdx (ix2 p q) ((ValueIdx.contrEquiv1 dot_S5000x64_S64x256_S5000x256_1_0_0_1_n_n 64 rfl rfl).symm k) = ix2 k q := funext fun a => Fin.ext (by
    match a with
    | ⟨0, _⟩ => exact (rhs_lin14_0 _ _).trans hk
    | ⟨1, _⟩ => exact rhs_lin14_1 _ _)
  rw [el, er]

/-- The bias row spread over the rows, at an entry. -/
theorem bias14_apply (x2 : Vec Ideal S1x256 .f32) (p : Fin 5000) (q : Fin 256) :
    broadcastTo S5000x256 x2 broadcasts_S1x256_S5000x256 (ix2 p q) = x2 (ix2 0 q) :=
  broadcastTo_apply x2 broadcasts_S1x256_S5000x256 (ix2 p q) (ix2 0 q) (fun a => by
    match a with
    | ⟨0, _⟩ => rfl
    | ⟨1, _⟩ => rfl)

/-- The body's payload at an entry: the row of the first block against the column of the second, plus the bias. -/
theorem pay14_apply (x0 : Vec Ideal S5000x64 .f32) (x1 : Vec Ideal S64x256 .f32) (x2 : Vec Ideal S1x256 .f32) (p : Fin 5000) (q : Fin 256) :
    k14_pay1 x0 x1 x2 (ix2 p q) = (∑ k : Fin 64, x0 (ix2 p k) * x1 (ix2 k q)) + x2 (ix2 0 q) := by
  unfold k14_pay1
  rw [shapeCast_self, shapeCast_self, shapeCast_self]
  refine (addf_apply _ _ _).trans ?_
  exact congrArg₂ (· + ·) (mm14_apply _ _ p q) (bias14_apply x2 p q)

/-! ## From blocks to the array -/

variable (V : (c : Dev nD) → (b : Ref sig .tc) → Buf (Elt Ideal) ((c : Thread nD τ).loc b))

theorem offs_zero14 : (![0, 0] : Fin 2 → Nat) = fun _ => 0 := funext fun a => by fin_cases a <;> rfl

/-- The whole output array: the dense layer of the region's whole input arrays. -/
def lin14_whole (c : Dev nD) : S50000x256.Idx → EReal := fun i =>
  Spec.lin (V c main_v124 : S50000x64.Idx → EReal) (V c main_v146 : S64x256.Idx → EReal) (V c main_v156 : S1x256.Idx → EReal) (i 0) (i 1)

/-- The printed index maps, decided over the grid: the row windows' block index is the point, every other is 0. -/
theorem idx_lin14 : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0 :=
  (by decide +kernel : ∀ t : Fin grid14.N, _)

theorem pt_lt14 (t : Fin cfg14.N) : t.val < 10 := by have h := t.isLt; have hN : cfg14.N = 10 := N_14; omega

/-- The left window's block at point t is rows 5000 t … of its array. -/
theorem iblk14_0_apply (c : Dev nD) (t : Fin cfg14.N) (p : Fin 5000) (k : Fin 64) :
    (iblk14 V c 0 t : Vec Ideal S5000x64 .f32) (ix2 p k) = (V c main_v124 : S50000x64.Idx → EReal) (ix2 ⟨t.val * 5000 + p.val, by have := pt_lt14 t; have := p.isLt; omega⟩ k) := by
  obtain ⟨e0, e1, -, -, -, -, -, -⟩ := idx_lin14 t
  unfold iblk14
  rw [View.read_apply]
  show V c main_v124 _ = V c main_v124 _
  congr 1
  funext a
  apply Fin.ext
  match a with
  | ⟨0, _⟩ => show win14_0.index t (0 : Fin 2) * 5000 + 1 * p.val = t.val * 5000 + p.val; rw [e0]; omega
  | ⟨1, _⟩ => show win14_0.index t (1 : Fin 2) * 64 + 1 * k.val = k.val; rw [e1]; omega

/-- The weight window's block at every point is its whole array. -/
theorem iblk14_1_apply (c : Dev nD) (t : Fin cfg14.N) (k : Fin 64) (q : Fin 256) :
    (iblk14 V c 1 t : Vec Ideal S64x256 .f32) (ix2 k q) = (V c main_v146 : S64x256.Idx → EReal) (ix2 k q) := by
  obtain ⟨-, -, e2, e3, -, -, -, -⟩ := idx_lin14 t
  unfold iblk14
  rw [View.read_apply]
  show V c main_v146 _ = V c main_v146 _
  congr 1
  funext a
  apply Fin.ext
  match a with
  | ⟨0, _⟩ => show win14_1.index t (0 : Fin 2) * 64 + 1 * k.val = k.val; rw [e2]; omega
  | ⟨1, _⟩ => show win14_1.index t (1 : Fin 2) * 256 + 1 * q.val = q.val; rw [e3]; omega

/-- The bias window's block at every point is its whole row. -/
theorem iblk14_2_apply (c : Dev nD) (t : Fin cfg14.N) (q : Fin 256) :
    (iblk14 V c 2 t : Vec Ideal S1x256 .f32) (ix2 0 q) = (V c main_v156 : S1x256.Idx → EReal) (ix2 0 q) := by
  obtain ⟨-, -, -, -, e4, e5, -, -⟩ := idx_lin14 t
  unfold iblk14
  rw [View.read_apply]
  show V c main_v156 _ = V c main_v156 _
  congr 1
  funext a
  apply Fin.ext
  match a with
  | ⟨0, _⟩ => show win14_2.index t (0 : Fin 2) * 1 + 1 * 0 = 0; rw [e4]
  | ⟨1, _⟩ => show win14_2.index t (1 : Fin 2) * 256 + 1 * q.val = q.val; rw [e5]; omega

/-- What point t writes back is block t of the whole-array dense layer. -/
theorem flushed14_3_eq (c : Dev nD) (t : Fin cfg14.N) :
    (dat14 (F := Ideal) V c).flushed 3 t = ((cfg14.win 3).blk t).view.read (Elt Ideal) (lin14_whole V c) := by
  show (cfg14.win 3).cut (grid14.coords t) ((dat14 V c).after 3 t) = _
  rw [after14_3]
  unfold out14_3
  rw [View.canon_unit_zero offs_zero14]
  simp only [View.ld_unit_zero (S := S5000x64) offs_zero14, View.ld_unit_zero (S := S64x256) offs_zero14, View.ld_unit_zero (S := S1x256) offs_zero14]
  obtain ⟨-, -, -, -, -, -, e6, e7⟩ := idx_lin14 t
  refine funext fun (j : S5000x256.Idx) => ?_
  obtain ⟨p, q, rfl⟩ : ∃ (p : Fin 5000) (q : Fin 256), j = ix2 p q := ⟨j 0, j 1, eq_ix2 j⟩
  show k14_pay1 (iblk14 V c 0 t) (iblk14 V c 1 t) (iblk14 V c 2 t) (ix2 p q) = lin14_whole V c (((cfg14.win 3).blk t).view.emb (ix2 p q))
  rw [pay14_apply, iblk14_2_apply V c t q]
  unfold lin14_whole Spec.lin
  have hr : ((cfg14.win 3).blk t).view.emb (ix2 p q) 0 = (⟨t.val * 5000 + p.val, by have := pt_lt14 t; have := p.isLt; omega⟩ : Fin 50000) :=
    Fin.ext (by show win14_3.index t (0 : Fin 2) * 5000 + 1 * p.val = t.val * 5000 + p.val; rw [e6]; omega)
  have hq : ((cfg14.win 3).blk t).view.emb (ix2 p q) 1 = (q : Fin 256) :=
    Fin.ext (by show win14_3.index t (1 : Fin 2) * 256 + 1 * q.val = q.val; rw [e7]; omega)
  rw [hr, hq]
  exact congrArg (· + _) (Finset.sum_congr rfl fun k _ => congrArg₂ (· * ·) (iblk14_0_apply V c t p k) (iblk14_1_apply V c t k q))

/-- An index of the output array is in point t's block iff each coordinate is in the block's range on its axis. -/
theorem mem_blk14_3 (t : Fin cfg14.N) (i : S50000x256.Idx) :
    i ∈ ((cfg14.win 3).blk t).view.set ↔ ∀ a : Fin 2, win14_3.index t a * S5000x256.size a ≤ (i a).val ∧ (i a).val < win14_3.index t a * S5000x256.size a + S5000x256.size a := by
  show i ∈ ((View.whole main_v157).slice (win14_3.rect t)).set ↔ _
  rw [View.set_slice_whole, Rect.mem_set_unit]
  exact Iff.rfl

/-- Row r of the output is written back by the point r / 5000. -/
theorem cover14_3_rows (i : S50000x256.Idx) : ∃ t : Fin cfg14.N, (cfg14.win 3).flush t = true ∧ i ∈ ((cfg14.win 3).blk t).view.set := by
  have hi0 : (i 0).val < 50000 := (i 0).isLt
  have hi1 : (i 1).val < 256 := (i 1).isLt
  have hN : cfg14.N = 10 := N_14
  refine ⟨⟨(i 0).val / 5000, by rw [hN]; omega⟩, flush14_3 _, ?_⟩
  rw [mem_blk14_3]
  obtain ⟨-, -, -, -, -, -, e6, e7⟩ := idx_lin14 ⟨(i 0).val / 5000, by rw [hN]; omega⟩
  intro a
  match a with
  | ⟨0, _⟩ => show win14_3.index _ (0 : Fin 2) * 5000 ≤ (i 0).val ∧ (i 0).val < win14_3.index _ (0 : Fin 2) * 5000 + 5000; rw [e6]; show (i 0).val / 5000 * 5000 ≤ (i 0).val ∧ (i 0).val < (i 0).val / 5000 * 5000 + 5000; omega
  | ⟨1, _⟩ => show win14_3.index _ (1 : Fin 2) * 256 ≤ (i 1).val ∧ (i 1).val < win14_3.index _ (1 : Fin 2) * 256 + 256; rw [e7]; omega

/-- The output array after the region's last point is the dense layer of the whole input arrays. -/
theorem final14_3 (c : Dev nD) : (dat14 (F := Ideal) V c).arrAt 3 cfg14.N = lin14_whole V c :=
  (dat14 (F := Ideal) V c).arrAt_eq_of_cover 3 (lin14_whole V c) (fun t _ => flushed14_3_eq V c t) (cover14_3_rows)

/-- … read at an entry. -/
theorem final14_3_apply (c : Dev nD) (r : Fin 50000) (j : Fin 256) :
    (dat14 (F := Ideal) V c).arrAt 3 cfg14.N (ValueIdx.ix2 r j)
      = Spec.lin (V c main_v124 : S50000x64.Idx → EReal) (V c main_v146 : S64x256.Idx → EReal) (V c main_v156 : S1x256.Idx → EReal) r j := by
  rw [final14_3]
  rfl

end Cert.KernelIdeal.Hand

end
-- ==== Proof.KI.Val15.lean ====
import proofs.«431450_j74423193305350_1_alg».proof.Proof.KI.Reg15
import proofs.«431450_j74423193305350_1_alg».proof.Proof.Spec
import Idealize.ShloMosaic.Lib.Pipeline.Value
import Idealize.ShloMosaic.Lib.ValueIdx
import Idealize.ShloMosaic.Lib.ValueLayout
import Idealize.ShloMosaic.PureOps.Ideal.Laws

/-! Region 15 (a dense layer: [400000,64] times [64,64] plus a [1,64] bias row, in row blocks of 4000) at the extended
    reals: the body's payload entry by entry, what each grid point writes back as the block of one whole-array
    function, the blocks covering the rows, and so the whole output array as the dense-layer formula of the region's
    whole input arrays. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The payload at an entry -/

theorem lhs_lin15_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl

theorem lhs_lin15_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q

theorem rhs_lin15_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q

theorem rhs_lin15_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The product at an entry: row p of the left block against column q of the right one. -/
theorem mm15_apply (a : FVec Ideal S4000x64 .bf16) (b : FVec Ideal S64x64 .bf16) (p : Fin 4000) (q : Fin 64) :
    FloatOps.matmul dot_S4000x64_S64x64_S4000x64_1_0_0_1_n_n none a b (constant S4000x64 .f32 0x00000000#32) (ix2 p q)
      = ∑ k : Fin 64, a (ix2 p k) * b (ix2 k q) := by
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact lhs_lin15_0 _ _
    | ⟨1, _⟩ => exact (lhs_lin15_1 _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (rhs_lin15_0 _ _).trans hk
    | ⟨1, _⟩ => exact rhs_lin15_1 _ _)
  rw [el, er]

/-- The bias row spread over the rows, at an entry. -/
theorem bias15_apply (x2 : Vec Ideal S1x64 .f32) (p : Fin 4000) (q : Fin 64) :
    broadcastTo S4000x64 x2 broadcasts_S1x64_S4000x64 (ix2 p q) = x2 (ix2 0 q) :=
  broadcastTo_apply x2 broadcasts_S1x64_S4000x64 (ix2 p q) (ix2 0 q) (fun a => by
    match a with
    | ⟨0, _⟩ => rfl
    | ⟨1, _⟩ => rfl)

/-- The body's payload at an entry: the row of the first block against the column of the second, plus the bias. -/
theorem pay15_apply (x0 : Vec Ideal S4000x64 .f32) (x1 : Vec Ideal S64x64 .f32) (x2 : Vec Ideal S1x64 .f32) (p : Fin 4000) (q : Fin 64) :
    k15_pay1 x0 x1 x2 (ix2 p q) = (∑ k : Fin 64, x0 (ix2 p k) * x1 (ix2 k q)) + x2 (ix2 0 q) := by
  unfold k15_pay1
  rw [shapeCast_self, shapeCast_self, shapeCast_self]
  refine (addf_apply _ _ _).trans ?_
  exact congrArg₂ (· + ·) (mm15_apply _ _ p q) (bias15_apply x2 p q)

/-! ## From blocks to the array -/

variable (V : (c : Dev nD) → (b : Ref sig .tc) → Buf (Elt Ideal) ((c : Thread nD τ).loc b))

theorem offs_zero15 : (![0, 0] : Fin 2 → Nat) = fun _ => 0 := funext fun a => by fin_cases a <;> rfl

/-- The whole output array: the dense layer of the region's whole input arrays. -/
def lin15_whole (c : Dev nD) : S400000x64.Idx → EReal := fun i =>
  Spec.lin (V c main_v137 : S400000x64.Idx → EReal) (V c main_v163 : S64x64.Idx → EReal) (V c main_v166 : S1x64.Idx → EReal) (i 0) (i 1)

/-- The printed index maps, decided over the grid: the row windows' block index is the point, every other is 0. -/
theorem idx_lin15 : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = t.val ∧ win15_3.index t (1 : Fin 2) = 0 :=
  (by decide +kernel : ∀ t : Fin grid15.N, _)

theorem pt_lt15 (t : Fin cfg15.N) : t.val < 100 := by have h := t.isLt; have hN : cfg15.N = 100 := N_15; omega

/-- The left window's block at point t is rows 4000 t … of its array. -/
theorem iblk15_0_apply (c : Dev nD) (t : Fin cfg15.N) (p : Fin 4000) (k : Fin 64) :
    (iblk15 V c 0 t : Vec Ideal S4000x64 .f32) (ix2 p k) = (V c main_v137 : S400000x64.Idx → EReal) (ix2 ⟨t.val * 4000 + p.val, by have := pt_lt15 t; have := p.isLt; omega⟩ k) := by
  obtain ⟨e0, e1, -, -, -, -, -, -⟩ := idx_lin15 t
  unfold iblk15
  rw [View.read_apply]
  show V c main_v137 _ = V c main_v137 _
  congr 1
  funext a
  apply Fin.ext
  match a with
  | ⟨0, _⟩ => show win15_0.index t (0 : Fin 2) * 4000 + 1 * p.val = t.val * 4000 + p.val; rw [e0]; omega
  | ⟨1, _⟩ => show win15_0.index t (1 : Fin 2) * 64 + 1 * k.val = k.val; rw [e1]; omega

/-- The weight window's block at every point is its whole array. -/
theorem iblk15_1_apply (c : Dev nD) (t : Fin cfg15.N) (k : Fin 64) (q : Fin 64) :
    (iblk15 V c 1 t : Vec Ideal S64x64 .f32) (ix2 k q) = (V c main_v163 : S64x64.Idx → EReal) (ix2 k q) := by
  obtain ⟨-, -, e2, e3, -, -, -, -⟩ := idx_lin15 t
  unfold iblk15
  rw [View.read_apply]
  show V c main_v163 _ = V c main_v163 _
  congr 1
  funext a
  apply Fin.ext
  match a with
  | ⟨0, _⟩ => show win15_1.index t (0 : Fin 2) * 64 + 1 * k.val = k.val; rw [e2]; omega
  | ⟨1, _⟩ => show win15_1.index t (1 : Fin 2) * 64 + 1 * q.val = q.val; rw [e3]; omega

/-- The bias window's block at every point is its whole row. -/
theorem iblk15_2_apply (c : Dev nD) (t : Fin cfg15.N) (q : Fin 64) :
    (iblk15 V c 2 t : Vec Ideal S1x64 .f32) (ix2 0 q) = (V c main_v166 : S1x64.Idx → EReal) (ix2 0 q) := by
  obtain ⟨-, -, -, -, e4, e5, -, -⟩ := idx_lin15 t
  unfold iblk15
  rw [View.read_apply]
  show V c main_v166 _ = V c main_v166 _
  congr 1
  funext a
  apply Fin.ext
  match a with
  | ⟨0, _⟩ => show win15_2.index t (0 : Fin 2) * 1 + 1 * 0 = 0; rw [e4]
  | ⟨1, _⟩ => show win15_2.index t (1 : Fin 2) * 64 + 1 * q.val = q.val; rw [e5]; omega

/-- What point t writes back is block t of the whole-array dense layer. -/
theorem flushed15_3_eq (c : Dev nD) (t : Fin cfg15.N) :
    (dat15 (F := Ideal) V c).flushed 3 t = ((cfg15.win 3).blk t).view.read (Elt Ideal) (lin15_whole V c) := by
  show (cfg15.win 3).cut (grid15.coords t) ((dat15 V c).after 3 t) = _
  rw [after15_3]
  unfold out15_3
  rw [View.canon_unit_zero offs_zero15]
  simp only [View.ld_unit_zero (S := S4000x64) offs_zero15, View.ld_unit_zero (S := S64x64) offs_zero15, View.ld_unit_zero (S := S1x64) offs_zero15]
  obtain ⟨-, -, -, -, -, -, e6, e7⟩ := idx_lin15 t
  refine funext fun (j : S4000x64.Idx) => ?_
  obtain ⟨p, q, rfl⟩ : ∃ (p : Fin 4000) (q : Fin 64), j = ix2 p q := ⟨j 0, j 1, eq_ix2 j⟩
  show k15_pay1 (iblk15 V c 0 t) (iblk15 V c 1 t) (iblk15 V c 2 t) (ix2 p q) = lin15_whole V c (((cfg15.win 3).blk t).view.emb (ix2 p q))
  rw [pay15_apply, iblk15_2_apply V c t q]
  unfold lin15_whole Spec.lin
  have hr : ((cfg15.win 3).blk t).view.emb (ix2 p q) 0 = (⟨t.val * 4000 + p.val, by have := pt_lt15 t; have := p.isLt; omega⟩ : Fin 400000) :=
    Fin.ext (by show win15_3.index t (0 : Fin 2) * 4000 + 1 * p.val = t.val * 4000 + p.val; rw [e6]; omega)
  have hq : ((cfg15.win 3).blk t).view.emb (ix2 p q) 1 = (q : Fin 64) :=
    Fin.ext (by show win15_3.index t (1 : Fin 2) * 64 + 1 * q.val = q.val; rw [e7]; omega)
  rw [hr, hq]
  exact congrArg (· + _) (Finset.sum_congr rfl fun k _ => congrArg₂ (· * ·) (iblk15_0_apply V c t p k) (iblk15_1_apply V c t k q))

/-- An index of the output array is in point t's block iff each coordinate is in the block's range on its axis. -/
theorem mem_blk15_3 (t : Fin cfg15.N) (i : S400000x64.Idx) :
    i ∈ ((cfg15.win 3).blk t).view.set ↔ ∀ a : Fin 2, win15_3.index t a * S4000x64.size a ≤ (i a).val ∧ (i a).val < win15_3.index t a * S4000x64.size a + S4000x64.size a := by
  show i ∈ ((View.whole main_v167).slice (win15_3.rect t)).set ↔ _
  rw [View.set_slice_whole, Rect.mem_set_unit]
  exact Iff.rfl

/-- Row r of the output is written back by the point r / 4000. -/
theorem cover15_3_rows (i : S400000x64.Idx) : ∃ t : Fin cfg15.N, (cfg15.win 3).flush t = true ∧ i ∈ ((cfg15.win 3).blk t).view.set := by
  have hi0 : (i 0).val < 400000 := (i 0).isLt
  have hi1 : (i 1).val < 64 := (i 1).isLt
  have hN : cfg15.N = 100 := N_15
  refine ⟨⟨(i 0).val / 4000, by rw [hN]; omega⟩, flush15_3 _, ?_⟩
  rw [mem_blk15_3]
  obtain ⟨-, -, -, -, -, -, e6, e7⟩ := idx_lin15 ⟨(i 0).val / 4000, by rw [hN]; omega⟩
  intro a
  match a with
  | ⟨0, _⟩ => show win15_3.index _ (0 : Fin 2) * 4000 ≤ (i 0).val ∧ (i 0).val < win15_3.index _ (0 : Fin 2) * 4000 + 4000; rw [e6]; show (i 0).val / 4000 * 4000 ≤ (i 0).val ∧ (i 0).val < (i 0).val / 4000 * 4000 + 4000; omega
  | ⟨1, _⟩ => show win15_3.index _ (1 : Fin 2) * 64 ≤ (i 1).val ∧ (i 1).val < win15_3.index _ (1 : Fin 2) * 64 + 64; rw [e7]; omega

/-- The output array after the region's last point is the dense layer of the whole input arrays. -/
theorem final15_3 (c : Dev nD) : (dat15 (F := Ideal) V c).arrAt 3 cfg15.N = lin15_whole V c :=
  (dat15 (F := Ideal) V c).arrAt_eq_of_cover 3 (lin15_whole V c) (fun t _ => flushed15_3_eq V c t) (cover15_3_rows)

/-- … read at an entry. -/
theorem final15_3_apply (c : Dev nD) (r : Fin 400000) (j : Fin 64) :
    (dat15 (F := Ideal) V c).arrAt 3 cfg15.N (ValueIdx.ix2 r j)
      = Spec.lin (V c main_v137 : S400000x64.Idx → EReal) (V c main_v163 : S64x64.Idx → EReal) (V c main_v166 : S1x64.Idx → EReal) r j := by
  rw [final15_3]
  rfl

end Cert.KernelIdeal.Hand

end
-- ==== Proof.KI.Host14.lean ====
import proofs.«431450_j74423193305350_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

/-! Host stretch 14: the four square weight matrices of layer row 2 laid side by side as one [64,256] matrix, and their four bias vectors end to end as one [1,256] row, each read at an entry, from any contents of the buffers. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : Valuation τ sig (Elt Ideal))

/-- Row 2 of a stack of three matrices, as a matrix, at an entry. -/
private theorem row2_mat_apply (X : S3x64x64.Idx → EReal) (k j : Fin 64) :
    shapeCast S64x64 (extractStridedSlice S1x64x64 ![2, 0, 0] X slices_S3x64x64_S1x64x64_2_0_0) shapeCasts_S1x64x64_S64x64 (ix2 k j)
      = X (ix3 2 k j) := by
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- Row 2 of a stack of three vectors, as a vector, at an entry. -/
private theorem row2_vec_apply (X : S3x64.Idx → EReal) (j : Fin 64) :
    shapeCast S64 (extractStridedSlice S1x64 ![2, 0] X slices_S3x64_S1x64_2_0) shapeCasts_S1x64_S64 (ix1 j)
      = X (ix2 2 j) := by
  rw [shapeCast_1a_a_apply]
  exact slice2_axis0_apply 2 X slices_S3x64_S1x64_2_0 0 j 2 rfl

/-- Four 64-column blocks side by side, read in block 0. -/
private theorem cat4_0 (x0 x1 x2 x3 : S64x64.Idx → EReal) (k j : Fin 64) (c : Fin 256) (hc : c.val = 0 + j.val) :
    concatenate S64x256 1 [⟨S64x64, x0⟩, ⟨S64x64, x1⟩, ⟨S64x64, x2⟩, ⟨S64x64, x3⟩] concatenates_S64x64_S64x64_S64x64_S64x64_S64x256_d1 (ix2 k c) = x0 (ix2 k j) :=
  concatenate_apply_piece (t := S64x256) (1 : Fin 2) [⟨S64x64, x0⟩, ⟨S64x64, x1⟩, ⟨S64x64, x2⟩, ⟨S64x64, x3⟩] _ (ix2 k c) 0 (by simp) S64x64 x0 rfl rfl 0 rfl (ix2 k j)
    (fun b hb => by
      match b with
      | ⟨0, _⟩ => rfl
      | ⟨1, _⟩ => exact absurd rfl hb)
    (by show 0 + j.val = c.val; omega)

/-- Four 64-column blocks side by side, read in block 1. -/
private theorem cat4_1 (x0 x1 x2 x3 : S64x64.Idx → EReal) (k j : Fin 64) (c : Fin 256) (hc : c.val = 64 + j.val) :
    concatenate S64x256 1 [⟨S64x64, x0⟩, ⟨S64x64, x1⟩, ⟨S64x64, x2⟩, ⟨S64x64, x3⟩] concatenates_S64x64_S64x64_S64x64_S64x64_S64x256_d1 (ix2 k c) = x1 (ix2 k j) :=
  concatenate_apply_piece (t := S64x256) (1 : Fin 2) [⟨S64x64, x0⟩, ⟨S64x64, x1⟩, ⟨S64x64, x2⟩, ⟨S64x64, x3⟩] _ (ix2 k c) 1 (by simp) S64x64 x1 rfl rfl 64 rfl (ix2 k j)
    (fun b hb => by
      match b with
      | ⟨0, _⟩ => rfl
      | ⟨1, _⟩ => exact absurd rfl hb)
    (by show 64 + j.val = c.val; omega)

/-- Four 64-column blocks side by side, read in block 2. -/
private theorem cat4_2 (x0 x1 x2 x3 : S64x64.Idx → EReal) (k j : Fin 64) (c : Fin 256) (hc : c.val = 128 + j.val) :
    concatenate S64x256 1 [⟨S64x64, x0⟩, ⟨S64x64, x1⟩, ⟨S64x64, x2⟩, ⟨S64x64, x3⟩] concatenates_S64x64_S64x64_S64x64_S64x64_S64x256_d1 (ix2 k c) = x2 (ix2 k j) :=
  concatenate_apply_piece (t := S64x256) (1 : Fin 2) [⟨S64x64, x0⟩, ⟨S64x64, x1⟩, ⟨S64x64, x2⟩, ⟨S64x64, x3⟩] _ (ix2 k c) 2 (by simp) S64x64 x2 rfl rfl 128 rfl (ix2 k j)
    (fun b hb => by
      match b with
      | ⟨0, _⟩ => rfl
      | ⟨1, _⟩ => exact absurd rfl hb)
    (by show 128 + j.val = c.val; omega)

/-- Four 64-column blocks side by side, read in block 3. -/
private theorem cat4_3 (x0 x1 x2 x3 : S64x64.Idx → EReal) (k j : Fin 64) (c : Fin 256) (hc : c.val = 192 + j.val) :
    concatenate S64x256 1 [⟨S64x64, x0⟩, ⟨S64x64, x1⟩, ⟨S64x64, x2⟩, ⟨S64x64, x3⟩] concatenates_S64x64_S64x64_S64x64_S64x64_S64x256_d1 (ix2 k c) = x3 (ix2 k j) :=
  concatenate_apply_piece (t := S64x256) (1 : Fin 2) [⟨S64x64, x0⟩, ⟨S64x64, x1⟩, ⟨S64x64, x2⟩, ⟨S64x64, x3⟩] _ (ix2 k c) 3 (by simp) S64x64 x3 rfl rfl 192 rfl (ix2 k j)
    (fun b hb => by
      match b with
      | ⟨0, _⟩ => rfl
      | ⟨1, _⟩ => exact absurd rfl hb)
    (by show 192 + j.val = c.val; omega)

/-- Four 64-entry vectors end to end, read in piece 0. -/
private theorem cat4v_0 (x0 x1 x2 x3 : S64.Idx → EReal) (j : Fin 64) (c : Fin 256) (hc : c.val = 0 + j.val) :
    concatenate S256 0 [⟨S64, x0⟩, ⟨S64, x1⟩, ⟨S64, x2⟩, ⟨S64, x3⟩] concatenates_S64_S64_S64_S64_S256_d0 (ix1 c) = x0 (ix1 j) :=
  concatenate_apply_piece (t := S256) (0 : Fin 1) [⟨S64, x0⟩, ⟨S64, x1⟩, ⟨S64, x2⟩, ⟨S64, x3⟩] _ (ix1 c) 0 (by simp) S64 x0 rfl rfl 0 rfl (ix1 j)
    (fun b hb => by
      match b with
      | ⟨0, _⟩ => exact absurd rfl hb)
    (by show 0 + j.val = c.val; omega)

/-- Four 64-entry vectors end to end, read in piece 1. -/
private theorem cat4v_1 (x0 x1 x2 x3 : S64.Idx → EReal) (j : Fin 64) (c : Fin 256) (hc : c.val = 64 + j.val) :
    concatenate S256 0 [⟨S64, x0⟩, ⟨S64, x1⟩, ⟨S64, x2⟩, ⟨S64, x3⟩] concatenates_S64_S64_S64_S64_S256_d0 (ix1 c) = x1 (ix1 j) :=
  concatenate_apply_piece (t := S256) (0 : Fin 1) [⟨S64, x0⟩, ⟨S64, x1⟩, ⟨S64, x2⟩, ⟨S64, x3⟩] _ (ix1 c) 1 (by simp) S64 x1 rfl rfl 64 rfl (ix1 j)
    (fun b hb => by
      match b with
      | ⟨0, _⟩ => exact absurd rfl hb)
    (by show 64 + j.val = c.val; omega)

/-- Four 64-entry vectors end to end, read in piece 2. -/
private theorem cat4v_2 (x0 x1 x2 x3 : S64.Idx → EReal) (j : Fin 64) (c : Fin 256) (hc : c.val = 128 + j.val) :
    concatenate S256 0 [⟨S64, x0⟩, ⟨S64, x1⟩, ⟨S64, x2⟩, ⟨S64, x3⟩] concatenates_S64_S64_S64_S64_S256_d0 (ix1 c) = x2 (ix1 j) :=
  concatenate_apply_piece (t := S256) (0 : Fin 1) [⟨S64, x0⟩, ⟨S64, x1⟩, ⟨S64, x2⟩, ⟨S64, x3⟩] _ (ix1 c) 2 (by simp) S64 x2 rfl rfl 128 rfl (ix1 j)
    (fun b hb => by
      match b with
      | ⟨0, _⟩ => exact absurd rfl hb)
    (by show 128 + j.val = c.val; omega)

/-- Four 64-entry vectors end to end, read in piece 3. -/
private theorem cat4v_3 (x0 x1 x2 x3 : S64.Idx → EReal) (j : Fin 64) (c : Fin 256) (hc : c.val = 192 + j.val) :
    concatenate S256 0 [⟨S64, x0⟩, ⟨S64, x1⟩, ⟨S64, x2⟩, ⟨S64, x3⟩] concatenates_S64_S64_S64_S64_S256_d0 (ix1 c) = x3 (ix1 j) :=
  concatenate_apply_piece (t := S256) (0 : Fin 1) [⟨S64, x0⟩, ⟨S64, x1⟩, ⟨S64, x2⟩, ⟨S64, x3⟩] _ (ix1 c) 3 (by simp) S64 x3 rfl rfl 192 rfl (ix1 j)
    (fun b hb => by
      match b with
      | ⟨0, _⟩ => exact absurd rfl hb)
    (by show 192 + j.val = c.val; omega)

/-- The weight matrix after the stretch: the four row-2 matrices side by side. -/
theorem host14_v146_eq :
    (StableHlo.after (hostOps14 (F := Ideal)) V (Proc.devRef .tc main_v146) : S64x256.Idx → EReal)
      = concatenate S64x256 1 [⟨S64x64, shapeCast S64x64 (extractStridedSlice S1x64x64 ![2, 0, 0] (V (Proc.devRef .tc main_arg10) : S3x64x64.Idx → EReal) slices_S3x64x64_S1x64x64_2_0_0) shapeCasts_S1x64x64_S64x64⟩, ⟨S64x64, shapeCast S64x64 (extractStridedSlice S1x64x64 ![2, 0, 0] (V (Proc.devRef .tc main_arg12) : S3x64x64.Idx → EReal) slices_S3x64x64_S1x64x64_2_0_0) shapeCasts_S1x64x64_S64x64⟩, ⟨S64x64, shapeCast S64x64 (extractStridedSlice S1x64x64 ![2, 0, 0] (V (Proc.devRef .tc main_arg16) : S3x64x64.Idx → EReal) slices_S3x64x64_S1x64x64_2_0_0) shapeCasts_S1x64x64_S64x64⟩, ⟨S64x64, shapeCast S64x64 (extractStridedSlice S1x64x64 ![2, 0, 0] (V (Proc.devRef .tc main_arg18) : S3x64x64.Idx → EReal) slices_S3x64x64_S1x64x64_2_0_0) shapeCasts_S1x64x64_S64x64⟩] concatenates_S64x64_S64x64_S64x64_S64x64_S64x256_d1 := by
  after_results; rfl

/-- The bias row after the stretch: the four row-2 vectors end to end, as one row. -/
theorem host14_v156_eq :
    (StableHlo.after (hostOps14 (F := Ideal)) V (Proc.devRef .tc main_v156) : S1x256.Idx → EReal)
      = shapeCast S1x256 (concatenate S256 0 [⟨S64, shapeCast S64 (extractStridedSlice S1x64 ![2, 0] (V (Proc.devRef .tc main_arg11) : S3x64.Idx → EReal) slices_S3x64_S1x64_2_0) shapeCasts_S1x64_S64⟩, ⟨S64, shapeCast S64 (extractStridedSlice S1x64 ![2, 0] (V (Proc.devRef .tc main_arg13) : S3x64.Idx → EReal) slices_S3x64_S1x64_2_0) shapeCasts_S1x64_S64⟩, ⟨S64, shapeCast S64 (extractStridedSlice S1x64 ![2, 0] (V (Proc.devRef .tc main_arg17) : S3x64.Idx → EReal) slices_S3x64_S1x64_2_0) shapeCasts_S1x64_S64⟩, ⟨S64, shapeCast S64 (extractStridedSlice S1x64 ![2, 0] (V (Proc.devRef .tc main_arg19) : S3x64.Idx → EReal) slices_S3x64_S1x64_2_0) shapeCasts_S1x64_S64⟩] concatenates_S64_S64_S64_S64_S256_d0) shapeCasts_S256_S1x256 := by
  after_results; rfl

/-- Column block 0 of the weight matrix is the A weights of layer row 2. -/
theorem host14_v146_A (k j : Fin 64) (c : Fin 256) (hc : c.val = 0 + j.val) :
    (StableHlo.after (hostOps14 (F := Ideal)) V (Proc.devRef .tc main_v146) : S64x256.Idx → EReal) (ix2 k c)
      = (V (Proc.devRef .tc main_arg10) : S3x64x64.Idx → EReal) (ix3 2 k j) := by
  rw [host14_v146_eq, cat4_0 _ _ _ _ k j c hc, row2_mat_apply]

/-- Column block 0 of the bias row is the A bias of layer row 2. -/
theorem host14_v156_A (j : Fin 64) (c : Fin 256) (hc : c.val = 0 + j.val) :
    (StableHlo.after (hostOps14 (F := Ideal)) V (Proc.devRef .tc main_v156) : S1x256.Idx → EReal) (ix2 0 c)
      = (V (Proc.devRef .tc main_arg11) : S3x64.Idx → EReal) (ix2 2 j) := by
  rw [host14_v156_eq, shapeCast_a_1a_apply, cat4v_0 _ _ _ _ j c hc, row2_vec_apply]

/-- Column block 1 of the weight matrix is the B weights of layer row 2. -/
theorem host14_v146_B (k j : Fin 64) (c : Fin 256) (hc : c.val = 64 + j.val) :
    (StableHlo.after (hostOps14 (F := Ideal)) V (Proc.devRef .tc main_v146) : S64x256.Idx → EReal) (ix2 k c)
      = (V (Proc.devRef .tc main_arg12) : S3x64x64.Idx → EReal) (ix3 2 k j) := by
  rw [host14_v146_eq, cat4_1 _ _ _ _ k j c hc, row2_mat_apply]

/-- Column block 1 of the bias row is the B bias of layer row 2. -/
theorem host14_v156_B (j : Fin 64) (c : Fin 256) (hc : c.val = 64 + j.val) :
    (StableHlo.after (hostOps14 (F := Ideal)) V (Proc.devRef .tc main_v156) : S1x256.Idx → EReal) (ix2 0 c)
      = (V (Proc.devRef .tc main_arg13) : S3x64.Idx → EReal) (ix2 2 j) := by
  rw [host14_v156_eq, shapeCast_a_1a_apply, cat4v_1 _ _ _ _ j c hc, row2_vec_apply]

/-- Column block 2 of the weight matrix is the D weights of layer row 2. -/
theorem host14_v146_D (k j : Fin 64) (c : Fin 256) (hc : c.val = 128 + j.val) :
    (StableHlo.after (hostOps14 (F := Ideal)) V (Proc.devRef .tc main_v146) : S64x256.Idx → EReal) (ix2 k c)
      = (V (Proc.devRef .tc main_arg16) : S3x64x64.Idx → EReal) (ix3 2 k j) := by
  rw [host14_v146_eq, cat4_2 _ _ _ _ k j c hc, row2_mat_apply]

/-- Column block 2 of the bias row is the D bias of layer row 2. -/
theorem host14_v156_D (j : Fin 64) (c : Fin 256) (hc : c.val = 128 + j.val) :
    (StableHlo.after (hostOps14 (F := Ideal)) V (Proc.devRef .tc main_v156) : S1x256.Idx → EReal) (ix2 0 c)
      = (V (Proc.devRef .tc main_arg17) : S3x64.Idx → EReal) (ix2 2 j) := by
  rw [host14_v156_eq, shapeCast_a_1a_apply, cat4v_2 _ _ _ _ j c hc, row2_vec_apply]

/-- Column block 3 of the weight matrix is the E weights of layer row 2. -/
theorem host14_v146_E (k j : Fin 64) (c : Fin 256) (hc : c.val = 192 + j.val) :
    (StableHlo.after (hostOps14 (F := Ideal)) V (Proc.devRef .tc main_v146) : S64x256.Idx → EReal) (ix2 k c)
      = (V (Proc.devRef .tc main_arg18) : S3x64x64.Idx → EReal) (ix3 2 k j) := by
  rw [host14_v146_eq, cat4_3 _ _ _ _ k j c hc, row2_mat_apply]

/-- Column block 3 of the bias row is the E bias of layer row 2. -/
theorem host14_v156_E (j : Fin 64) (c : Fin 256) (hc : c.val = 192 + j.val) :
    (StableHlo.after (hostOps14 (F := Ideal)) V (Proc.devRef .tc main_v156) : S1x256.Idx → EReal) (ix2 0 c)
      = (V (Proc.devRef .tc main_arg19) : S3x64.Idx → EReal) (ix2 2 j) := by
  rw [host14_v156_eq, shapeCast_a_1a_apply, cat4v_3 _ _ _ _ j c hc, row2_vec_apply]

end Cert.KernelIdeal.Hand
-- ==== Proof.KI.Host15.lean ====
import proofs.«431450_j74423193305350_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

/-! Host stretch 15: the four 64-column blocks of the [50000,256] product main_v157, and the C weights and C bias of layer row 2, each read at an entry, from any contents of the buffers. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : Valuation τ sig (Elt Ideal))

/-- Row 2 of a stack of three matrices, as a matrix, at an entry. -/
private theorem row2_mat_apply (X : S3x64x64.Idx → EReal) (k j : Fin 64) :
    shapeCast S64x64 (extractStridedSlice S1x64x64 ![2, 0, 0] X slices_S3x64x64_S1x64x64_2_0_0) shapeCasts_S1x64x64_S64x64 (ix2 k j)
      = X (ix3 2 k j) := by
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- Row 2 of a stack of three vectors, as a vector, at an entry. -/
private theorem row2_vec_apply (X : S3x64.Idx → EReal) (j : Fin 64) :
    shapeCast S64 (extractStridedSlice S1x64 ![2, 0] X slices_S3x64_S1x64_2_0) shapeCasts_S1x64_S64 (ix1 j)
      = X (ix2 2 j) := by
  rw [shapeCast_1a_a_apply]
  exact slice2_axis0_apply 2 X slices_S3x64_S1x64_2_0 0 j 2 rfl

/-- Columns 0 … 0+63 of the [50000,256] array: entry (r, j) is the source's entry (r, 0 + j). -/
theorem host15_v158 (r : Fin 50000) (j : Fin 64) (c : Fin 256) (hc : c.val = 0 + j.val) :
    (StableHlo.after (hostOps15 (F := Ideal)) V (Proc.devRef .tc main_v158) : S50000x64.Idx → EReal) (ix2 r j)
      = (V (Proc.devRef .tc main_v157) : S50000x256.Idx → EReal) (ix2 r c) := by
  have e : (StableHlo.after (hostOps15 (F := Ideal)) V (Proc.devRef .tc main_v158) : S50000x64.Idx → EReal)
      = extractStridedSlice S50000x64 ![0, 0] (V (Proc.devRef .tc main_v157) : S50000x256.Idx → EReal) slices_S50000x256_S50000x64_0_0 := by
    after_results
  rw [e]
  exact slice2_axis1_apply 0 _ _ r j c hc

/-- Columns 64 … 64+63 of the [50000,256] array: entry (r, j) is the source's entry (r, 64 + j). -/
theorem host15_v159 (r : Fin 50000) (j : Fin 64) (c : Fin 256) (hc : c.val = 64 + j.val) :
    (StableHlo.after (hostOps15 (F := Ideal)) V (Proc.devRef .tc main_v159) : S50000x64.Idx → EReal) (ix2 r j)
      = (V (Proc.devRef .tc main_v157) : S50000x256.Idx → EReal) (ix2 r c) := by
  have e : (StableHlo.after (hostOps15 (F := Ideal)) V (Proc.devRef .tc main_v159) : S50000x64.Idx → EReal)
      = extractStridedSlice S50000x64 ![0, 64] (V (Proc.devRef .tc main_v157) : S50000x256.Idx → EReal) slices_S50000x256_S50000x64_0_64 := by
    after_results
  rw [e]
  exact slice2_axis1_apply 64 _ _ r j c hc

/-- Columns 128 … 128+63 of the [50000,256] array: entry (r, j) is the source's entry (r, 128 + j). -/
theorem host15_v160 (r : Fin 50000) (j : Fin 64) (c : Fin 256) (hc : c.val = 128 + j.val) :
    (StableHlo.after (hostOps15 (F := Ideal)) V (Proc.devRef .tc main_v160) : S50000x64.Idx → EReal) (ix2 r j)
      = (V (Proc.devRef .tc main_v157) : S50000x256.Idx → EReal) (ix2 r c) := by
  have e : (StableHlo.after (hostOps15 (F := Ideal)) V (Proc.devRef .tc main_v160) : S50000x64.Idx → EReal)
      = extractStridedSlice S50000x64 ![0, 128] (V (Proc.devRef .tc main_v157) : S50000x256.Idx → EReal) slices_S50000x256_S50000x64_0_128 := by
    after_results
  rw [e]
  exact slice2_axis1_apply 128 _ _ r j c hc

/-- Columns 192 … 192+63 of the [50000,256] array: entry (r, j) is the source's entry (r, 192 + j). -/
theorem host15_v161 (r : Fin 50000) (j : Fin 64) (c : Fin 256) (hc : c.val = 192 + j.val) :
    (StableHlo.after (hostOps15 (F := Ideal)) V (Proc.devRef .tc main_v161) : S50000x64.Idx → EReal) (ix2 r j)
      = (V (Proc.devRef .tc main_v157) : S50000x256.Idx → EReal) (ix2 r c) := by
  have e : (StableHlo.after (hostOps15 (F := Ideal)) V (Proc.devRef .tc main_v161) : S50000x64.Idx → EReal)
      = extractStridedSlice S50000x64 ![0, 192] (V (Proc.devRef .tc main_v157) : S50000x256.Idx → EReal) slices_S50000x256_S50000x64_0_192 := by
    after_results
  rw [e]
  exact slice2_axis1_apply 192 _ _ r j c hc

/-- The C weights of layer row 2, as a matrix. -/
theorem host15_v163 (k j : Fin 64) :
    (StableHlo.after (hostOps15 (F := Ideal)) V (Proc.devRef .tc main_v163) : S64x64.Idx → EReal) (ix2 k j)
      = (V (Proc.devRef .tc main_arg14) : S3x64x64.Idx → EReal) (ix3 2 k j) := by
  have e : (StableHlo.after (hostOps15 (F := Ideal)) V (Proc.devRef .tc main_v163) : S64x64.Idx → EReal)
      = shapeCast S64x64 (extractStridedSlice S1x64x64 ![2, 0, 0] (V (Proc.devRef .tc main_arg14) : S3x64x64.Idx → EReal) slices_S3x64x64_S1x64x64_2_0_0) shapeCasts_S1x64x64_S64x64 := by
    after_results; rfl
  rw [e, row2_mat_apply]

/-- The C bias of layer row 2, as one row. -/
theorem host15_v166 (j : Fin 64) :
    (StableHlo.after (hostOps15 (F := Ideal)) V (Proc.devRef .tc main_v166) : S1x64.Idx → EReal) (ix2 0 j)
      = (V (Proc.devRef .tc main_arg15) : S3x64.Idx → EReal) (ix2 2 j) := by
  have e : (StableHlo.after (hostOps15 (F := Ideal)) V (Proc.devRef .tc main_v166) : S1x64.Idx → EReal)
      = shapeCast S1x64 (shapeCast S64 (extractStridedSlice S1x64 ![2, 0] (V (Proc.devRef .tc main_arg15) : S3x64.Idx → EReal) slices_S3x64_S1x64_2_0) shapeCasts_S1x64_S64) shapeCasts_S64_S1x64 := by
    after_results; rfl
  rw [e, shapeCast_a_1a_apply, row2_vec_apply]

end Cert.KernelIdeal.Hand
-- ==== Proof.Ref.RdL3.lean ====
import proofs.«431450_j74423193305350_1_alg».proof.Proof.Ref.Fold
import proofs.«431450_j74423193305350_1_alg».proof.Proof.Ref.RdLib

set_option synthInstance.maxSize 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operation k of opsL3a writes the one buffer of reference k of opsL3a_W. -/
theorem opsL3a_w1 : List.Forall₂ Rd.Writes1 (opsL3a : List (HloOp τ sig (Elt F))) opsL3a_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))

/-- Operation k of opsL3b writes the one buffer of reference k of opsL3b_W. -/
theorem opsL3b_w1 : List.Forall₂ Rd.Writes1 (opsL3b : List (HloOp τ sig (Elt F))) opsL3b_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))

/-- Operation k of opsL3c writes the one buffer of reference k of opsL3c_W. -/
theorem opsL3c_w1 : List.Forall₂ Rd.Writes1 (opsL3c : List (HloOp τ sig (Elt F))) opsL3c_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))

/-- Operation k of opsL3 writes the one buffer of reference k of opsL3_W. -/
theorem opsL3_w1 : List.Forall₂ Rd.Writes1 (opsL3 : List (HloOp τ sig (Elt F))) opsL3_W :=
  Rd.w1_app (Rd.w1_app (opsL3a_w1) opsL3b_w1) opsL3c_w1

theorem rd_main_v270 (V : Valuation τ sig (Elt F)) :
    after opsL3 V (Proc.devRef .tc main_v270) = ((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg10)) := by
  rw [← Rd.tk_keep opsL3_w1 0 (a := main_arg10) (by decide) V,
    Rd.at_eq opsL3_w1 0 (by decide) (y := main_v270) (by decide) V]
  generalize after (List.take 0 opsL3) V = W
  exact unary_result main_arg10 main_v270 ((extractStridedSlice S1x64x64 ![2, 0, 0] · slices_S3x64x64_S1x64x64_2_0_0) : (⟨S3x64x64, .f32⟩ : BufTy).Contents (Elt F) → (⟨S1x64x64, .f32⟩ : BufTy).Contents (Elt F)) ⟨by decide, rfl⟩ ⟨by decide, rfl⟩ W

theorem rd_main_v271 (V : Valuation τ sig (Elt F)) :
    after opsL3 V (Proc.devRef .tc main_v271) = shapeCast S64x64 (after opsL3 V (Proc.devRef .tc main_v270)) shapeCasts_S1x64x64_S64x64 := by
  rw [← Rd.tk_eq opsL3_w1 1 (a := main_v270) (by decide) V,
    Rd.at_eq opsL3_w1 1 (by decide) (y := main_v271) (by decide) V]
  generalize after (List.take 1 opsL3) V = W
  exact reshape_result main_v270 main_v271 rfl shapeCasts_S1x64x64_S64x64 ⟨by decide, rfl⟩ ⟨by decide, rfl⟩ W

theorem rd_main_v272 (V : Valuation τ sig (Elt F)) :
    after opsL3 V (Proc.devRef .tc main_v272) = ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_v244)) (after opsL3 V (Proc.devRef .tc main_v271)) := by
  rw [← Rd.tk_keep opsL3_w1 2 (a := main_v244) (by decide) V,
    ← Rd.tk_eq opsL3_w1 2 (a := main_v271) (by decide) V,
    Rd.at_eq opsL3_w1 2 (by decide) (y := main_v272) (by decide) V]
  generalize after (List.take 2 opsL3) V = W
  exact binary_result main_v244 main_v271 main_v272 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ⟨by decide, rfl⟩ ⟨by decide, rfl⟩ ⟨by decide, rfl⟩ W

theorem rd_main_v273 (V : Valuation τ sig (Elt F)) :
    after opsL3 V (Proc.devRef .tc main_v273) = ((extractStridedSlice S1x64 ![2, 0] · slices_S3x64_S1x64_2_0) : (⟨S3x64, .f32⟩ : BufTy).Contents (Elt F) → (⟨S1x64, .f32⟩ : BufTy).Contents (Elt F)) (V (Proc.devRef .tc main_arg11)) := by
  rw [← Rd.tk_keep opsL3_w1 3 (a := main_arg11) (by decide) V,
    Rd.at_eq opsL3_w1 3 (by decide) (y := main_v273) (by decide) V]
  generalize after (List.take 3 opsL3) V = W
  exact unary_result main_arg11 main_v273 ((extractStridedSlice S1x64 ![2, 0] · slices_S3x64_S1x64_2_0) : (⟨S3x64, .f32⟩ : BufTy).Contents (Elt F) → (⟨S1x64, .f32⟩ : BufTy).Contents (Elt F)) ⟨by decide, rfl⟩ ⟨by decide, rfl⟩ W

theorem rd_main_v274 (V : Valuation τ sig (Elt F)) :
    after opsL3 V (Proc.devRef .tc main_v274) = shapeCast S64 (after opsL3 V (Proc.devRef .tc main_v273)) shapeCasts_S1x64_S64 := by
  rw [← Rd.tk_eq opsL3_w1 4 (a := main_v273) (by decide) V,
    Rd.at_eq opsL3_w1 4 (by decide) (y := main_v274) (by decide) V]
  generalize after (List.take 4 opsL3) V = W
  exact reshape_result main_v273 main_v274 rfl shapeCasts_S1x64_S64 ⟨by decide, rfl⟩ ⟨by decide, rfl⟩ W

theorem rd_main_v275 (V : Valuation τ sig (Elt F)) :
    after opsL3 V (Proc.devRef .tc main_v275) = (broadcastInDim S1x64 ![1] bcast_S64_S1x64_1 : (⟨S64, .f32⟩ : BufTy).Contents (Elt F) → (⟨S1x64, .f32⟩ : BufTy).Contents (Elt F)) (after opsL3 V (Proc.devRef .tc main_v274)) := by
  rw [← Rd.tk_eq opsL3_w1 5 (a := main_v274) (by decide) V,
    Rd.at_eq opsL3_w1 5 (by decide) (y := main_v275) (by decide) V]
  generalize after (List.take 5 opsL3) V = W
  exact unary_result main_v274 main_v275 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v276 (V : Valuation τ sig (Elt F)) :
    after opsL3 V (Proc.devRef .tc main_v276) = (broadcastInDim S50000x64 ![0, 1] bcast_S1x64_S50000x64_0_1 : (⟨S1x64, .f32⟩ : BufTy).Contents (Elt F) → (⟨S50000x64, .f32⟩ : BufTy).Contents (Elt F)) (after opsL3 V (Proc.devRef .tc main_v275)) := by
  rw [← Rd.tk_eq opsL3_w1 6 (a := main_v275) (by decide) V,
    Rd.at_eq opsL3_w1 6 (by decide) (y := main_v276) (by decide) V]
  generalize after (List.take 6 opsL3) V = W
  exact unary_result main_v275 main_v276 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v277 (V : Valuation τ sig (Elt F)) :
    after opsL3 V (Proc.devRef .tc main_v277) = (addf : (⟨S50000x64, .f32⟩ : BufTy).Contents (Elt F) → (⟨S50000x64, .f32⟩ : BufTy).Contents (Elt F) → (⟨S50000x64, .f32⟩ : BufTy).Contents (Elt F)) (after opsL3 V (Proc.devRef .tc main_v272)) (after opsL3 V (Proc.devRef .tc main_v276)) := by
  rw [← Rd.tk_eq opsL3_w1 7 (a := main_v272) (by decide) V,
    ← Rd.tk_eq opsL3_w1 7 (a := main_v276) (by decide) V,
    Rd.at_eq opsL3_w1 7 (by decide) (y := main_v277) (by decide) V]
  generalize after (List.take 7 opsL3) V = W
  exact binary_result main_v272 main_v276 main_v277 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v278 (V : Valuation τ sig (Elt F)) :
    after opsL3 V (Proc.devRef .tc main_v278) = ((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg12)) := by
  rw [← Rd.tk_keep opsL3_w1 8 (a := main_arg12) (by decide) V,
    Rd.at_eq opsL3_w1 8 (by decide) (y := main_v278) (by decide) V]
  generalize after (List.take 8 opsL3) V = W
  exact unary_result main_arg12 main_v278 ((extractStridedSlice S1x64x64 ![2, 0, 0] · slices_S3x64x64_S1x64x64_2_0_0) : (⟨S3x64x64, .f32⟩ : BufTy).Contents (Elt F) → (⟨S1x64x64, .f32⟩ : BufTy).Contents (Elt F)) ⟨by decide, rfl⟩ ⟨by decide, rfl⟩ W

theorem rd_main_v279 (V : Valuation τ sig (Elt F)) :
    after opsL3 V (Proc.devRef .tc main_v279) = shapeCast S64x64 (after opsL3 V (Proc.devRef .tc main_v278)) shapeCasts_S1x64x64_S64x64 := by
  rw [← Rd.tk_eq opsL3_w1 9 (a := main_v278) (by decide) V,
    Rd.at_eq opsL3_w1 9 (by decide) (y := main_v279) (by decide) V]
  generalize after (List.take 9 opsL3) V = W
  exact reshape_result main_v278 main_v279 rfl shapeCasts_S1x64x64_S64x64 ⟨by decide, rfl⟩ ⟨by decide, rfl⟩ W

theorem rd_main_v280 (V : Valuation τ sig (Elt F)) :
    after opsL3 V (Proc.devRef .tc main_v280) = ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_v244)) (after opsL3 V (Proc.devRef .tc main_v279)) := by
  rw [← Rd.tk_keep opsL3_w1 10 (a := main_v244) (by decide) V,
    ← Rd.tk_eq opsL3_w1 10 (a := main_v279) (by decide) V,
    Rd.at_eq opsL3_w1 10 (by decide) (y := main_v280) (by decide) V]
  generalize after (List.take 10 opsL3) V = W
  exact binary_result main_v244 main_v279 main_v280 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ⟨by decide, rfl⟩ ⟨by decide, rfl⟩ ⟨by decide, rfl⟩ W

theorem rd_main_v281 (V : Valuation τ sig (Elt F)) :
    after opsL3 V (Proc.devRef .tc main_v281) = ((extractStridedSlice S1x64 ![2, 0] · slices_S3x64_S1x64_2_0) : (⟨S3x64, .f32⟩ : BufTy).Contents (Elt F) → (⟨S1x64, .f32⟩ : BufTy).Contents (Elt F)) (V (Proc.devRef .tc main_arg13)) := by
  rw [← Rd.tk_keep opsL3_w1 11 (a := main_arg13) (by decide) V,
    Rd.at_eq opsL3_w1 11 (by decide) (y := main_v281) (by decide) V]
  generalize after (List.take 11 opsL3) V = W
  exact unary_result main_arg13 main_v281 ((extractStridedSlice S1x64 ![2, 0] · slices_S3x64_S1x64_2_0) : (⟨S3x64, .f32⟩ : BufTy).Contents (Elt F) → (⟨S1x64, .f32⟩ : BufTy).Contents (Elt F)) ⟨by decide, rfl⟩ ⟨by decide, rfl⟩ W

theorem rd_main_v282 (V : Valuation τ sig (Elt F)) :
    after opsL3 V (Proc.devRef .tc main_v282) = shapeCast S64 (after opsL3 V (Proc.devRef .tc main_v281)) shapeCasts_S1x64_S64 := by
  rw [← Rd.tk_eq opsL3_w1 12 (a := main_v281) (by decide) V,
    Rd.at_eq opsL3_w1 12 (by decide) (y := main_v282) (by decide) V]
  generalize after (List.take 12 opsL3) V = W
  exact reshape_result main_v281 main_v282 rfl shapeCasts_S1x64_S64 ⟨by decide, rfl⟩ ⟨by decide, rfl⟩ W

theorem rd_main_v283 (V : Valuation τ sig (Elt F)) :
    after opsL3 V (Proc.devRef .tc main_v283) = (broadcastInDim S1x64 ![1] bcast_S64_S1x64_1 : (⟨S64, .f32⟩ : BufTy).Contents (Elt F) → (⟨S1x64, .f32⟩ : BufTy).Contents (Elt F)) (after opsL3 V (Proc.devRef .tc main_v282)) := by
  rw [← Rd.tk_eq opsL3_w1 13 (a := main_v282) (by decide) V,
    Rd.at_eq opsL3_w1 13 (by decide) (y := main_v283) (by decide) V]
  generalize after (List.take 13 opsL3) V = W
  exact unary_result main_v282 main_v283 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v284 (V : Valuation τ sig (Elt F)) :
    after opsL3 V (Proc.devRef .tc main_v284) = (broadcastInDim S50000x64 ![0, 1] bcast_S1x64_S50000x64_0_1 : (⟨S1x64, .f32⟩ : BufTy).Contents (Elt F) → (⟨S50000x64, .f32⟩ : BufTy).Contents (Elt F)) (after opsL3 V (Proc.devRef .tc main_v283)) := by
  rw [← Rd.tk_eq opsL3_w1 14 (a := main_v283) (by decide) V,
    Rd.at_eq opsL3_w1 14 (by decide) (y := main_v284) (by decide) V]
  generalize after (List.take 14 opsL3) V = W
  exact unary_result main_v283 main_v284 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v285 (V : Valuation τ sig (Elt F)) :
    after opsL3 V (Proc.devRef .tc main_v285) = (addf : (⟨S50000x64, .f32⟩ : BufTy).Contents (Elt F) → (⟨S50000x64, .f32⟩ : BufTy).Contents (Elt F) → (⟨S50000x64, .f32⟩ : BufTy).Contents (Elt F)) (after opsL3 V (Proc.devRef .tc main_v280)) (after opsL3 V (Proc.devRef .tc main_v284)) := by
  rw [← Rd.tk_eq opsL3_w1 15 (a := main_v280) (by decide) V,
    ← Rd.tk_eq opsL3_w1 15 (a := main_v284) (by decide) V,
    Rd.at_eq opsL3_w1 15 (by decide) (y := main_v285) (by decide) V]
  generalize after (List.take 15 opsL3) V = W
  exact binary_result main_v280 main_v284 main_v285 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v286 (V : Valuation τ sig (Elt F)) :
    after opsL3 V (Proc.devRef .tc main_v286) = ((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg16)) := by
  rw [← Rd.tk_keep opsL3_w1 16 (a := main_arg16) (by decide) V,
    Rd.at_eq opsL3_w1 16 (by decide) (y := main_v286) (by decide) V]
  generalize after (List.take 16 opsL3) V = W
  exact unary_result main_arg16 main_v286 ((extractStridedSlice S1x64x64 ![2, 0, 0] · slices_S3x64x64_S1x64x64_2_0_0) : (⟨S3x64x64, .f32⟩ : BufTy).Contents (Elt F) → (⟨S1x64x64, .f32⟩ : BufTy).Contents (Elt F)) ⟨by decide, rfl⟩ ⟨by decide, rfl⟩ W

theorem rd_main_v287 (V : Valuation τ sig (Elt F)) :
    after opsL3 V (Proc.devRef .tc main_v287) = shapeCast S64x64 (after opsL3 V (Proc.devRef .tc main_v286)) shapeCasts_S1x64x64_S64x64 := by
  rw [← Rd.tk_eq opsL3_w1 17 (a := main_v286) (by decide) V,
    Rd.at_eq opsL3_w1 17 (by decide) (y := main_v287) (by decide) V]
  generalize after (List.take 17 opsL3) V = W
  exact reshape_result main_v286 main_v287 rfl shapeCasts_S1x64x64_S64x64 ⟨by decide, rfl⟩ ⟨by decide, rfl⟩ W

theorem rd_main_v288 (V : Valuation τ sig (Elt F)) :
    after opsL3 V (Proc.devRef .tc main_v288) = ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_v244)) (after opsL3 V (Proc.devRef .tc main_v287)) := by
  rw [← Rd.tk_keep opsL3_w1 18 (a := main_v244) (by decide) V,
    ← Rd.tk_eq opsL3_w1 18 (a := main_v287) (by decide) V,
    Rd.at_eq opsL3_w1 18 (by decide) (y := main_v288) (by decide) V]
  generalize after (List.take 18 opsL3) V = W
  exact binary_result main_v244 main_v287 main_v288 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ⟨by decide, rfl⟩ ⟨by decide, rfl⟩ ⟨by decide, rfl⟩ W

theorem rd_main_v289 (V : Valuation τ sig (Elt F)) :
    after opsL3 V (Proc.devRef .tc main_v289) = ((extractStridedSlice S1x64 ![2, 0] · slices_S3x64_S1x64_2_0) : (⟨S3x64, .f32⟩ : BufTy).Contents (Elt F) → (⟨S1x64, .f32⟩ : BufTy).Contents (Elt F)) (V (Proc.devRef .tc main_arg17)) := by
  rw [← Rd.tk_keep opsL3_w1 19 (a := main_arg17) (by decide) V,
    Rd.at_eq opsL3_w1 19 (by decide) (y := main_v289) (by decide) V]
  generalize after (List.take 19 opsL3) V = W
  exact unary_result main_arg17 main_v289 ((extractStridedSlice S1x64 ![2, 0] · slices_S3x64_S1x64_2_0) : (⟨S3x64, .f32⟩ : BufTy).Contents (Elt F) → (⟨S1x64, .f32⟩ : BufTy).Contents (Elt F)) ⟨by decide, rfl⟩ ⟨by decide, rfl⟩ W

theorem rd_main_v290 (V : Valuation τ sig (Elt F)) :
    after opsL3 V (Proc.devRef .tc main_v290) = shapeCast S64 (after opsL3 V (Proc.devRef .tc main_v289)) shapeCasts_S1x64_S64 := by
  rw [← Rd.tk_eq opsL3_w1 20 (a := main_v289) (by decide) V,
    Rd.at_eq opsL3_w1 20 (by decide) (y := main_v290) (by decide) V]
  generalize after (List.take 20 opsL3) V = W
  exact reshape_result main_v289 main_v290 rfl shapeCasts_S1x64_S64 ⟨by decide, rfl⟩ ⟨by decide, rfl⟩ W

theorem rd_main_v291 (V : Valuation τ sig (Elt F)) :
    after opsL3 V (Proc.devRef .tc main_v291) = (broadcastInDim S1x64 ![1] bcast_S64_S1x64_1 : (⟨S64, .f32⟩ : BufTy).Contents (Elt F) → (⟨S1x64, .f32⟩ : BufTy).Contents (Elt F)) (after opsL3 V (Proc.devRef .tc main_v290)) := by
  rw [← Rd.tk_eq opsL3_w1 21 (a := main_v290) (by decide) V,
    Rd.at_eq opsL3_w1 21 (by decide) (y := main_v291) (by decide) V]
  generalize after (List.take 21 opsL3) V = W
  exact unary_result main_v290 main_v291 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v292 (V : Valuation τ sig (Elt F)) :
    after opsL3 V (Proc.devRef .tc main_v292) = (broadcastInDim S50000x64 ![0, 1] bcast_S1x64_S50000x64_0_1 : (⟨S1x64, .f32⟩ : BufTy).Contents (Elt F) → (⟨S50000x64, .f32⟩ : BufTy).Contents (Elt F)) (after opsL3 V (Proc.devRef .tc main_v291)) := by
  rw [← Rd.tk_eq opsL3_w1 22 (a := main_v291) (by decide) V,
    Rd.at_eq opsL3_w1 22 (by decide) (y := main_v292) (by decide) V]
  generalize after (List.take 22 opsL3) V = W
  exact unary_result main_v291 main_v292 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v293 (V : Valuation τ sig (Elt F)) :
    after opsL3 V (Proc.devRef .tc main_v293) = (addf : (⟨S50000x64, .f32⟩ : BufTy).Contents (Elt F) → (⟨S50000x64, .f32⟩ : BufTy).Contents (Elt F) → (⟨S50000x64, .f32⟩ : BufTy).Contents (Elt F)) (after opsL3 V (Proc.devRef .tc main_v288)) (after opsL3 V (Proc.devRef .tc main_v292)) := by
  rw [← Rd.tk_eq opsL3_w1 23 (a := main_v288) (by decide) V,
    ← Rd.tk_eq opsL3_w1 23 (a := main_v292) (by decide) V,
    Rd.at_eq opsL3_w1 23 (by decide) (y := main_v293) (by decide) V]
  generalize after (List.take 23 opsL3) V = W
  exact binary_result main_v288 main_v292 main_v293 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v294 (V : Valuation τ sig (Elt F)) :
    after opsL3 V (Proc.devRef .tc main_v294) = ((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg18)) := by
  rw [← Rd.tk_keep opsL3_w1 24 (a := main_arg18) (by decide) V,
    Rd.at_eq opsL3_w1 24 (by decide) (y := main_v294) (by decide) V]
  generalize after (List.take 24 opsL3) V = W
  exact unary_result main_arg18 main_v294 ((extractStridedSlice S1x64x64 ![2, 0, 0] · slices_S3x64x64_S1x64x64_2_0_0) : (⟨S3x64x64, .f32⟩ : BufTy).Contents (Elt F) → (⟨S1x64x64, .f32⟩ : BufTy).Contents (Elt F)) ⟨by decide, rfl⟩ ⟨by decide, rfl⟩ W

theorem rd_main_v295 (V : Valuation τ sig (Elt F)) :
    after opsL3 V (Proc.devRef .tc main_v295) = shapeCast S64x64 (after opsL3 V (Proc.devRef .tc main_v294)) shapeCasts_S1x64x64_S64x64 := by
  rw [← Rd.tk_eq opsL3_w1 25 (a := main_v294) (by decide) V,
    Rd.at_eq opsL3_w1 25 (by decide) (y := main_v295) (by decide) V]
  generalize after (List.take 25 opsL3) V = W
  exact reshape_result main_v294 main_v295 rfl shapeCasts_S1x64x64_S64x64 ⟨by decide, rfl⟩ ⟨by decide, rfl⟩ W

theorem rd_main_v296 (V : Valuation τ sig (Elt F)) :
    after opsL3 V (Proc.devRef .tc main_v296) = ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) (V (Proc.devRef .tc main_v244)) (after opsL3 V (Proc.devRef .tc main_v295)) := by
  rw [← Rd.tk_keep opsL3_w1 26 (a := main_v244) (by decide) V,
    ← Rd.tk_eq opsL3_w1 26 (a := main_v295) (by decide) V,
    Rd.at_eq opsL3_w1 26 (by decide) (y := main_v296) (by decide) V]
  generalize after (List.take 26 opsL3) V = W
  exact binary_result main_v244 main_v295 main_v296 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ⟨by decide, rfl⟩ ⟨by decide, rfl⟩ ⟨by decide, rfl⟩ W

theorem rd_main_v297 (V : Valuation τ sig (Elt F)) :
    after opsL3 V (Proc.devRef .tc main_v297) = ((extractStridedSlice S1x64 ![2, 0] · slices_S3x64_S1x64_2_0) : (⟨S3x64, .f32⟩ : BufTy).Contents (Elt F) → (⟨S1x64, .f32⟩ : BufTy).Contents (Elt F)) (V (Proc.devRef .tc main_arg19)) := by
  rw [← Rd.tk_keep opsL3_w1 27 (a := main_arg19) (by decide) V,
    Rd.at_eq opsL3_w1 27 (by decide) (y := main_v297) (by decide) V]
  generalize after (List.take 27 opsL3) V = W
  exact unary_result main_arg19 main_v297 ((extractStridedSlice S1x64 ![2, 0] · slices_S3x64_S1x64_2_0) : (⟨S3x64, .f32⟩ : BufTy).Contents (Elt F) → (⟨S1x64, .f32⟩ : BufTy).Contents (Elt F)) ⟨by decide, rfl⟩ ⟨by decide, rfl⟩ W

theorem rd_main_v298 (V : Valuation τ sig (Elt F)) :
    after opsL3 V (Proc.devRef .tc main_v298) = shapeCast S64 (after opsL3 V (Proc.devRef .tc main_v297)) shapeCasts_S1x64_S64 := by
  rw [← Rd.tk_eq opsL3_w1 28 (a := main_v297) (by decide) V,
    Rd.at_eq opsL3_w1 28 (by decide) (y := main_v298) (by decide) V]
  generalize after (List.take 28 opsL3) V = W
  exact reshape_result main_v297 main_v298 rfl shapeCasts_S1x64_S64 ⟨by decide, rfl⟩ ⟨by decide, rfl⟩ W

theorem rd_main_v299 (V : Valuation τ sig (Elt F)) :
    after opsL3 V (Proc.devRef .tc main_v299) = (broadcastInDim S1x64 ![1] bcast_S64_S1x64_1 : (⟨S64, .f32⟩ : BufTy).Contents (Elt F) → (⟨S1x64, .f32⟩ : BufTy).Contents (Elt F)) (after opsL3 V (Proc.devRef .tc main_v298)) := by
  rw [← Rd.tk_eq opsL3_w1 29 (a := main_v298) (by decide) V,
    Rd.at_eq opsL3_w1 29 (by decide) (y := main_v299) (by decide) V]
  generalize after (List.take 29 opsL3) V = W
  exact unary_result main_v298 main_v299 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v300 (V : Valuation τ sig (Elt F)) :
    after opsL3 V (Proc.devRef .tc main_v300) = (broadcastInDim S50000x64 ![0, 1] bcast_S1x64_S50000x64_0_1 : (⟨S1x64, .f32⟩ : BufTy).Contents (Elt F) → (⟨S50000x64, .f32⟩ : BufTy).Contents (Elt F)) (after opsL3 V (Proc.devRef .tc main_v299)) := by
  rw [← Rd.tk_eq opsL3_w1 30 (a := main_v299) (by decide) V,
    Rd.at_eq opsL3_w1 30 (by decide) (y := main_v300) (by decide) V]
  generalize after (List.take 30 opsL3) V = W
  exact unary_result main_v299 main_v300 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v301 (V : Valuation τ sig (Elt F)) :
    after opsL3 V (Proc.devRef .tc main_v301) = (addf : (⟨S50000x64, .f32⟩ : BufTy).Contents (Elt F) → (⟨S50000x64, .f32⟩ : BufTy).Contents (Elt F) → (⟨S50000x64, .f32⟩ : BufTy).Contents (Elt F)) (after opsL3 V (Proc.devRef .tc main_v296)) (after opsL3 V (Proc.devRef .tc main_v300)) := by
  rw [← Rd.tk_eq opsL3_w1 31 (a := main_v296) (by decide) V,
    ← Rd.tk_eq opsL3_w1 31 (a := main_v300) (by decide) V,
    Rd.at_eq opsL3_w1 31 (by decide) (y := main_v301) (by decide) V]
  generalize after (List.take 31 opsL3) V = W
  exact binary_result main_v296 main_v300 main_v301 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v302 (V : Valuation τ sig (Elt F)) :
    after opsL3 V (Proc.devRef .tc main_v302) = ((extractStridedSlice S1x64x64 ![2, 0, 0] · slices_S3x64x64_S1x64x64_2_0_0) : (⟨S3x64x64, .f32⟩ : BufTy).Contents (Elt F) → (⟨S1x64x64, .f32⟩ : BufTy).Contents (Elt F)) (V (Proc.devRef .tc main_arg14)) := by
  rw [← Rd.tk_keep opsL3_w1 32 (a := main_arg14) (by decide) V,
    Rd.at_eq opsL3_w1 32 (by decide) (y := main_v302) (by decide) V]
  generalize after (List.take 32 opsL3) V = W
  exact unary_result main_arg14 main_v302 ((extractStridedSlice S1x64x64 ![2, 0, 0] · slices_S3x64x64_S1x64x64_2_0_0) : (⟨S3x64x64, .f32⟩ : BufTy).Contents (Elt F) → (⟨S1x64x64, .f32⟩ : BufTy).Contents (Elt F)) ⟨by decide, rfl⟩ ⟨by decide, rfl⟩ W

theorem rd_main_v303 (V : Valuation τ sig (Elt F)) :
    after opsL3 V (Proc.devRef .tc main_v303) = shapeCast S64x64 (after opsL3 V (Proc.devRef .tc main_v302)) shapeCasts_S1x64x64_S64x64 := by
  rw [← Rd.tk_eq opsL3_w1 33 (a := main_v302) (by decide) V,
    Rd.at_eq opsL3_w1 33 (by decide) (y := main_v303) (by decide) V]
  generalize after (List.take 33 opsL3) V = W
  exact reshape_result main_v302 main_v303 rfl shapeCasts_S1x64x64_S64x64 ⟨by decide, rfl⟩ ⟨by decide, rfl⟩ W

theorem rd_main_v304 (V : Valuation τ sig (Elt F)) :
    after opsL3 V (Proc.devRef .tc main_v304) = ((fun l r => Host.dotGeneral dot_S400000x64_S64x64_S400000x64_1_0_0_1_n_n none l r) : (⟨S400000x64, .f32⟩ : BufTy).Contents (Elt F) → (⟨S64x64, .f32⟩ : BufTy).Contents (Elt F) → (⟨S400000x64, .f32⟩ : BufTy).Contents (Elt F)) (V (Proc.devRef .tc main_v269)) (after opsL3 V (Proc.devRef .tc main_v303)) := by
  rw [← Rd.tk_keep opsL3_w1 34 (a := main_v269) (by decide) V,
    ← Rd.tk_eq opsL3_w1 34 (a := main_v303) (by decide) V,
    Rd.at_eq opsL3_w1 34 (by decide) (y := main_v304) (by decide) V]
  generalize after (List.take 34 opsL3) V = W
  exact binary_result main_v269 main_v303 main_v304 ((fun l r => Host.dotGeneral dot_S400000x64_S64x64_S400000x64_1_0_0_1_n_n none l r) : (⟨S400000x64, .f32⟩ : BufTy).Contents (Elt F) → (⟨S64x64, .f32⟩ : BufTy).Contents (Elt F) → (⟨S400000x64, .f32⟩ : BufTy).Contents (Elt F)) ⟨by decide, rfl⟩ ⟨by decide, rfl⟩ ⟨by decide, rfl⟩ W

theorem rd_main_v305 (V : Valuation τ sig (Elt F)) :
    after opsL3 V (Proc.devRef .tc main_v305) = ((extractStridedSlice S1x64 ![2, 0] · slices_S3x64_S1x64_2_0) : (⟨S3x64, .f32⟩ : BufTy).Contents (Elt F) → (⟨S1x64, .f32⟩ : BufTy).Contents (Elt F)) (V (Proc.devRef .tc main_arg15)) := by
  rw [← Rd.tk_keep opsL3_w1 35 (a := main_arg15) (by decide) V,
    Rd.at_eq opsL3_w1 35 (by decide) (y := main_v305) (by decide) V]
  generalize after (List.take 35 opsL3) V = W
  exact unary_result main_arg15 main_v305 ((extractStridedSlice S1x64 ![2, 0] · slices_S3x64_S1x64_2_0) : (⟨S3x64, .f32⟩ : BufTy).Contents (Elt F) → (⟨S1x64, .f32⟩ : BufTy).Contents (Elt F)) ⟨by decide, rfl⟩ ⟨by decide, rfl⟩ W

theorem rd_main_v306 (V : Valuation τ sig (Elt F)) :
    after opsL3 V (Proc.devRef .tc main_v306) = shapeCast S64 (after opsL3 V (Proc.devRef .tc main_v305)) shapeCasts_S1x64_S64 := by
  rw [← Rd.tk_eq opsL3_w1 36 (a := main_v305) (by decide) V,
    Rd.at_eq opsL3_w1 36 (by decide) (y := main_v306) (by decide) V]
  generalize after (List.take 36 opsL3) V = W
  exact reshape_result main_v305 main_v306 rfl shapeCasts_S1x64_S64 ⟨by decide, rfl⟩ ⟨by decide, rfl⟩ W

theorem rd_main_v307 (V : Valuation τ sig (Elt F)) :
    after opsL3 V (Proc.devRef .tc main_v307) = (broadcastInDim S1x64 ![1] bcast_S64_S1x64_1 : (⟨S64, .f32⟩ : BufTy).Contents (Elt F) → (⟨S1x64, .f32⟩ : BufTy).Contents (Elt F)) (after opsL3 V (Proc.devRef .tc main_v306)) := by
  rw [← Rd.tk_eq opsL3_w1 37 (a := main_v306) (by decide) V,
    Rd.at_eq opsL3_w1 37 (by decide) (y := main_v307) (by decide) V]
  generalize after (List.take 37 opsL3) V = W
  exact unary_result main_v306 main_v307 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v308 (V : Valuation τ sig (Elt F)) :
    after opsL3 V (Proc.devRef .tc main_v308) = (broadcastInDim S400000x64 ![0, 1] bcast_S1x64_S400000x64_0_1 : (⟨S1x64, .f32⟩ : BufTy).Contents (Elt F) → (⟨S400000x64, .f32⟩ : BufTy).Contents (Elt F)) (after opsL3 V (Proc.devRef .tc main_v307)) := by
  rw [← Rd.tk_eq opsL3_w1 38 (a := main_v307) (by decide) V,
    Rd.at_eq opsL3_w1 38 (by decide) (y := main_v308) (by decide) V]
  generalize after (List.take 38 opsL3) V = W
  exact unary_result main_v307 main_v308 (broadcastInDim S400000x64 ![0, 1] bcast_S1x64_S400000x64_0_1 : (⟨S1x64, .f32⟩ : BufTy).Contents (Elt F) → (⟨S400000x64, .f32⟩ : BufTy).Contents (Elt F)) ⟨by decide, rfl⟩ ⟨by decide, rfl⟩ W

theorem rd_main_v309 (V : Valuation τ sig (Elt F)) :
    after opsL3 V (Proc.devRef .tc main_v309) = (addf : (⟨S400000x64, .f32⟩ : BufTy).Contents (Elt F) → (⟨S400000x64, .f32⟩ : BufTy).Contents (Elt F) → (⟨S400000x64, .f32⟩ : BufTy).Contents (Elt F)) (after opsL3 V (Proc.devRef .tc main_v304)) (after opsL3 V (Proc.devRef .tc main_v308)) := by
  rw [← Rd.tk_eq opsL3_w1 39 (a := main_v304) (by decide) V,
    ← Rd.tk_eq opsL3_w1 39 (a := main_v308) (by decide) V,
    Rd.at_eq opsL3_w1 39 (by decide) (y := main_v309) (by decide) V]
  generalize after (List.take 39 opsL3) V = W
  exact binary_result main_v304 main_v308 main_v309 (addf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_c_37 (V : Valuation τ sig (Elt F)) :
    after opsL3 V (Proc.devRef .tc main_c_37) = (constantI S_ 32 0#32) := by
  rw [Rd.at_eq opsL3_w1 40 (by decide) (y := main_c_37) (by decide) V]
  generalize after (List.take 40 opsL3) V = W
  exact nullary_result main_c_37 (constantI S_ 32 0#32) ⟨by decide, rfl⟩ W

theorem rd_main_v310 (V : Valuation τ sig (Elt F)) :
    after opsL3 V (Proc.devRef .tc main_v310) = (broadcastInDim S400000 ![] bcast_S_S400000 : (⟨S_, .i32⟩ : BufTy).Contents (Elt F) → (⟨S400000, .i32⟩ : BufTy).Contents (Elt F)) (after opsL3 V (Proc.devRef .tc main_c_37)) := by
  rw [← Rd.tk_eq opsL3_w1 41 (a := main_c_37) (by decide) V,
    Rd.at_eq opsL3_w1 41 (by decide) (y := main_v310) (by decide) V]
  generalize after (List.take 41 opsL3) V = W
  exact unary_result main_c_37 main_v310 (broadcastInDim S400000 ![] bcast_S_S400000 : (⟨S_, .i32⟩ : BufTy).Contents (Elt F) → (⟨S400000, .i32⟩ : BufTy).Contents (Elt F)) ⟨by decide, rfl⟩ ⟨by decide, rfl⟩ W

theorem rd_main_v311 (V : Valuation τ sig (Elt F)) :
    after opsL3 V (Proc.devRef .tc main_v311) = (cmpi .slt : (⟨S400000, .i32⟩ : BufTy).Contents (Elt F) → (⟨S400000, .i32⟩ : BufTy).Contents (Elt F) → (⟨S400000, .i1⟩ : BufTy).Contents (Elt F)) (V (Proc.devRef .tc main_arg3)) (after opsL3 V (Proc.devRef .tc main_v310)) := by
  rw [← Rd.tk_keep opsL3_w1 42 (a := main_arg3) (by decide) V,
    ← Rd.tk_eq opsL3_w1 42 (a := main_v310) (by decide) V,
    Rd.at_eq opsL3_w1 42 (by decide) (y := main_v311) (by decide) V]
  generalize after (List.take 42 opsL3) V = W
  exact binary_result main_arg3 main_v310 main_v311 (cmpi .slt : (⟨S400000, .i32⟩ : BufTy).Contents (Elt F) → (⟨S400000, .i32⟩ : BufTy).Contents (Elt F) → (⟨S400000, .i1⟩ : BufTy).Contents (Elt F)) ⟨by decide, rfl⟩ ⟨by decide, rfl⟩ ⟨by decide, rfl⟩ W

theorem rd_main_c_38 (V : Valuation τ sig (Elt F)) :
    after opsL3 V (Proc.devRef .tc main_c_38) = (constantI S_ 32 50000#32) := by
  rw [Rd.at_eq opsL3_w1 43 (by decide) (y := main_c_38) (by decide) V]
  generalize after (List.take 43 opsL3) V = W
  exact nullary_result main_c_38 (constantI S_ 32 50000#32) ⟨by decide, rfl⟩ W

theorem rd_main_v312 (V : Valuation τ sig (Elt F)) :
    after opsL3 V (Proc.devRef .tc main_v312) = (broadcastInDim S400000 ![] bcast_S_S400000 : (⟨S_, .i32⟩ : BufTy).Contents (Elt F) → (⟨S400000, .i32⟩ : BufTy).Contents (Elt F)) (after opsL3 V (Proc.devRef .tc main_c_38)) := by
  rw [← Rd.tk_eq opsL3_w1 44 (a := main_c_38) (by decide) V,
    Rd.at_eq opsL3_w1 44 (by decide) (y := main_v312) (by decide) V]
  generalize after (List.take 44 opsL3) V = W
  exact unary_result main_c_38 main_v312 (broadcastInDim S400000 ![] bcast_S_S400000 : (⟨S_, .i32⟩ : BufTy).Contents (Elt F) → (⟨S400000, .i32⟩ : BufTy).Contents (Elt F)) ⟨by decide, rfl⟩ ⟨by decide, rfl⟩ W

theorem rd_main_v313 (V : Valuation τ sig (Elt F)) :
    after opsL3 V (Proc.devRef .tc main_v313) = (addi : (⟨S400000, .i32⟩ : BufTy).Contents (Elt F) → (⟨S400000, .i32⟩ : BufTy).Contents (Elt F) → (⟨S400000, .i32⟩ : BufTy).Contents (Elt F)) (V (Proc.devRef .tc main_arg3)) (after opsL3 V (Proc.devRef .tc main_v312)) := by
  rw [← Rd.tk_keep opsL3_w1 45 (a := main_arg3) (by decide) V,
    ← Rd.tk_eq opsL3_w1 45 (a := main_v312) (by decide) V,
    Rd.at_eq opsL3_w1 45 (by decide) (y := main_v313) (by decide) V]
  generalize after (List.take 45 opsL3) V = W
  exact binary_result main_arg3 main_v312 main_v313 (addi : (⟨S400000, .i32⟩ : BufTy).Contents (Elt F) → (⟨S400000, .i32⟩ : BufTy).Contents (Elt F) → (⟨S400000, .i32⟩ : BufTy).Contents (Elt F)) ⟨by decide, rfl⟩ ⟨by decide, rfl⟩ ⟨by decide, rfl⟩ W

theorem rd_main_v314 (V : Valuation τ sig (Elt F)) :
    after opsL3 V (Proc.devRef .tc main_v314) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (after opsL3 V (Proc.devRef .tc main_v311)) (after opsL3 V (Proc.devRef .tc main_v313)) (V (Proc.devRef .tc main_arg3)) := by
  rw [← Rd.tk_eq opsL3_w1 46 (a := main_v311) (by decide) V,
    ← Rd.tk_eq opsL3_w1 46 (a := main_v313) (by decide) V,
    ← Rd.tk_keep opsL3_w1 46 (a := main_arg3) (by decide) V,
    Rd.at_eq opsL3_w1 46 (by decide) (y := main_v314) (by decide) V]
  generalize after (List.take 46 opsL3) V = W
  exact ternary_result main_v311 main_v313 main_arg3 main_v314 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) ⟨by decide, rfl⟩ ⟨by decide, rfl⟩ ⟨by decide, rfl⟩ ⟨by decide, rfl⟩ W

theorem rd_main_v315 (V : Valuation τ sig (Elt F)) :
    after opsL3 V (Proc.devRef .tc main_v315) = (broadcastInDim S400000x1 ![0] bcast_S400000_S400000x1_0 : (⟨S400000, .i32⟩ : BufTy).Contents (Elt F) → (⟨S400000x1, .i32⟩ : BufTy).Contents (Elt F)) (after opsL3 V (Proc.devRef .tc main_v314)) := by
  rw [← Rd.tk_eq opsL3_w1 47 (a := main_v314) (by decide) V,
    Rd.at_eq opsL3_w1 47 (by decide) (y := main_v315) (by decide) V]
  generalize after (List.take 47 opsL3) V = W
  exact unary_result main_v314 main_v315 (broadcastInDim S400000x1 ![0] bcast_S400000_S400000x1_0 : (⟨S400000, .i32⟩ : BufTy).Contents (Elt F) → (⟨S400000x1, .i32⟩ : BufTy).Contents (Elt F)) ⟨by decide, rfl⟩ ⟨by decide, rfl⟩ W

theorem rd_main_v316 (V : Valuation τ sig (Elt F)) :
    after opsL3 V (Proc.devRef .tc main_v316) = ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)) (after opsL3 V (Proc.devRef .tc main_v293)) (after opsL3 V (Proc.devRef .tc main_v315)) := by
  rw [← Rd.tk_eq opsL3_w1 48 (a := main_v293) (by decide) V,
    ← Rd.tk_eq opsL3_w1 48 (a := main_v315) (by decide) V,
    Rd.at_eq opsL3_w1 48 (by decide) (y := main_v316) (by decide) V]
  generalize after (List.take 48 opsL3) V = W
  exact binary_result main_v293 main_v315 main_v316 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)) ⟨by decide, rfl⟩ ⟨by decide, rfl⟩ ⟨by decide, rfl⟩ W

theorem rd_main_c_39 (V : Valuation τ sig (Elt F)) :
    after opsL3 V (Proc.devRef .tc main_c_39) = (constantI S_ 32 0#32) := by
  rw [Rd.at_eq opsL3_w1 49 (by decide) (y := main_c_39) (by decide) V]
  generalize after (List.take 49 opsL3) V = W
  exact nullary_result main_c_39 (constantI S_ 32 0#32) ⟨by decide, rfl⟩ W

theorem rd_main_v317 (V : Valuation τ sig (Elt F)) :
    after opsL3 V (Proc.devRef .tc main_v317) = (broadcastInDim S400000 ![] bcast_S_S400000 : (⟨S_, .i32⟩ : BufTy).Contents (Elt F) → (⟨S400000, .i32⟩ : BufTy).Contents (Elt F)) (after opsL3 V (Proc.devRef .tc main_c_39)) := by
  rw [← Rd.tk_eq opsL3_w1 50 (a := main_c_39) (by decide) V,
    Rd.at_eq opsL3_w1 50 (by decide) (y := main_v317) (by decide) V]
  generalize after (List.take 50 opsL3) V = W
  exact unary_result main_c_39 main_v317 (broadcastInDim S400000 ![] bcast_S_S400000 : (⟨S_, .i32⟩ : BufTy).Contents (Elt F) → (⟨S400000, .i32⟩ : BufTy).Contents (Elt F)) ⟨by decide, rfl⟩ ⟨by decide, rfl⟩ W

theorem rd_main_v318 (V : Valuation τ sig (Elt F)) :
    after opsL3 V (Proc.devRef .tc main_v318) = (cmpi .slt : (⟨S400000, .i32⟩ : BufTy).Contents (Elt F) → (⟨S400000, .i32⟩ : BufTy).Contents (Elt F) → (⟨S400000, .i1⟩ : BufTy).Contents (Elt F)) (V (Proc.devRef .tc main_arg4)) (after opsL3 V (Proc.devRef .tc main_v317)) := by
  rw [← Rd.tk_keep opsL3_w1 51 (a := main_arg4) (by decide) V,
    ← Rd.tk_eq opsL3_w1 51 (a := main_v317) (by decide) V,
    Rd.at_eq opsL3_w1 51 (by decide) (y := main_v318) (by decide) V]
  generalize after (List.take 51 opsL3) V = W
  exact binary_result main_arg4 main_v317 main_v318 (cmpi .slt : (⟨S400000, .i32⟩ : BufTy).Contents (Elt F) → (⟨S400000, .i32⟩ : BufTy).Contents (Elt F) → (⟨S400000, .i1⟩ : BufTy).Contents (Elt F)) ⟨by decide, rfl⟩ ⟨by decide, rfl⟩ ⟨by decide, rfl⟩ W

theorem rd_main_c_40 (V : Valuation τ sig (Elt F)) :
    after opsL3 V (Proc.devRef .tc main_c_40) = (constantI S_ 32 50000#32) := by
  rw [Rd.at_eq opsL3_w1 52 (by decide) (y := main_c_40) (by decide) V]
  generalize after (List.take 52 opsL3) V = W
  exact nullary_result main_c_40 (constantI S_ 32 50000#32) ⟨by decide, rfl⟩ W

theorem rd_main_v319 (V : Valuation τ sig (Elt F)) :
    after opsL3 V (Proc.devRef .tc main_v319) = (broadcastInDim S400000 ![] bcast_S_S400000 : (⟨S_, .i32⟩ : BufTy).Contents (Elt F) → (⟨S400000, .i32⟩ : BufTy).Contents (Elt F)) (after opsL3 V (Proc.devRef .tc main_c_40)) := by
  rw [← Rd.tk_eq opsL3_w1 53 (a := main_c_40) (by decide) V,
    Rd.at_eq opsL3_w1 53 (by decide) (y := main_v319) (by decide) V]
  generalize after (List.take 53 opsL3) V = W
  exact unary_result main_c_40 main_v319 (broadcastInDim S400000 ![] bcast_S_S400000 : (⟨S_, .i32⟩ : BufTy).Contents (Elt F) → (⟨S400000, .i32⟩ : BufTy).Contents (Elt F)) ⟨by decide, rfl⟩ ⟨by decide, rfl⟩ W

theorem rd_main_v320 (V : Valuation τ sig (Elt F)) :
    after opsL3 V (Proc.devRef .tc main_v320) = (addi : (⟨S400000, .i32⟩ : BufTy).Contents (Elt F) → (⟨S400000, .i32⟩ : BufTy).Contents (Elt F) → (⟨S400000, .i32⟩ : BufTy).Contents (Elt F)) (V (Proc.devRef .tc main_arg4)) (after opsL3 V (Proc.devRef .tc main_v319)) := by
  rw [← Rd.tk_keep opsL3_w1 54 (a := main_arg4) (by decide) V,
    ← Rd.tk_eq opsL3_w1 54 (a := main_v319) (by decide) V,
    Rd.at_eq opsL3_w1 54 (by decide) (y := main_v320) (by decide) V]
  generalize after (List.take 54 opsL3) V = W
  exact binary_result main_arg4 main_v319 main_v320 (addi : (⟨S400000, .i32⟩ : BufTy).Contents (Elt F) → (⟨S400000, .i32⟩ : BufTy).Contents (Elt F) → (⟨S400000, .i32⟩ : BufTy).Contents (Elt F)) ⟨by decide, rfl⟩ ⟨by decide, rfl⟩ ⟨by decide, rfl⟩ W

theorem rd_main_v321 (V : Valuation τ sig (Elt F)) :
    after opsL3 V (Proc.devRef .tc main_v321) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (after opsL3 V (Proc.devRef .tc main_v318)) (after opsL3 V (Proc.devRef .tc main_v320)) (V (Proc.devRef .tc main_arg4)) := by
  rw [← Rd.tk_eq opsL3_w1 55 (a := main_v318) (by decide) V,
    ← Rd.tk_eq opsL3_w1 55 (a := main_v320) (by decide) V,
    ← Rd.tk_keep opsL3_w1 55 (a := main_arg4) (by decide) V,
    Rd.at_eq opsL3_w1 55 (by decide) (y := main_v321) (by decide) V]
  generalize after (List.take 55 opsL3) V = W
  exact ternary_result main_v318 main_v320 main_arg4 main_v321 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) ⟨by decide, rfl⟩ ⟨by decide, rfl⟩ ⟨by decide, rfl⟩ ⟨by decide, rfl⟩ W

theorem rd_main_v322 (V : Valuation τ sig (Elt F)) :
    after opsL3 V (Proc.devRef .tc main_v322) = (broadcastInDim S400000x1 ![0] bcast_S400000_S400000x1_0 : (⟨S400000, .i32⟩ : BufTy).Contents (Elt F) → (⟨S400000x1, .i32⟩ : BufTy).Contents (Elt F)) (after opsL3 V (Proc.devRef .tc main_v321)) := by
  rw [← Rd.tk_eq opsL3_w1 56 (a := main_v321) (by decide) V,
    Rd.at_eq opsL3_w1 56 (by decide) (y := main_v322) (by decide) V]
  generalize after (List.take 56 opsL3) V = W
  exact unary_result main_v321 main_v322 (broadcastInDim S400000x1 ![0] bcast_S400000_S400000x1_0 : (⟨S400000, .i32⟩ : BufTy).Contents (Elt F) → (⟨S400000x1, .i32⟩ : BufTy).Contents (Elt F)) ⟨by decide, rfl⟩ ⟨by decide, rfl⟩ W

theorem rd_main_v323 (V : Valuation τ sig (Elt F)) :
    after opsL3 V (Proc.devRef .tc main_v323) = ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)) (after opsL3 V (Proc.devRef .tc main_v301)) (after opsL3 V (Proc.devRef .tc main_v322)) := by
  rw [← Rd.tk_eq opsL3_w1 57 (a := main_v301) (by decide) V,
    ← Rd.tk_eq opsL3_w1 57 (a := main_v322) (by decide) V,
    Rd.at_eq opsL3_w1 57 (by decide) (y := main_v323) (by decide) V]
  generalize after (List.take 57 opsL3) V = W
  exact binary_result main_v301 main_v322 main_v323 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)) ⟨by decide, rfl⟩ ⟨by decide, rfl⟩ ⟨by decide, rfl⟩ W

theorem rd_main_v324 (V : Valuation τ sig (Elt F)) :
    after opsL3 V (Proc.devRef .tc main_v324) = (addf : (⟨S400000x64, .f32⟩ : BufTy).Contents (Elt F) → (⟨S400000x64, .f32⟩ : BufTy).Contents (Elt F) → (⟨S400000x64, .f32⟩ : BufTy).Contents (Elt F)) (after opsL3 V (Proc.devRef .tc main_v316)) (after opsL3 V (Proc.devRef .tc main_v323)) := by
  rw [← Rd.tk_eq opsL3_w1 58 (a := main_v316) (by decide) V,
    ← Rd.tk_eq opsL3_w1 58 (a := main_v323) (by decide) V,
    Rd.at_eq opsL3_w1 58 (by decide) (y := main_v324) (by decide) V]
  generalize after (List.take 58 opsL3) V = W
  exact binary_result main_v316 main_v323 main_v324 (addf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_v325 (V : Valuation τ sig (Elt F)) :
    after opsL3 V (Proc.devRef .tc main_v325) = (addf : (⟨S400000x64, .f32⟩ : BufTy).Contents (Elt F) → (⟨S400000x64, .f32⟩ : BufTy).Contents (Elt F) → (⟨S400000x64, .f32⟩ : BufTy).Contents (Elt F)) (after opsL3 V (Proc.devRef .tc main_v324)) (after opsL3 V (Proc.devRef .tc main_v309)) := by
  rw [← Rd.tk_eq opsL3_w1 59 (a := main_v324) (by decide) V,
    ← Rd.tk_eq opsL3_w1 59 (a := main_v309) (by decide) V,
    Rd.at_eq opsL3_w1 59 (by decide) (y := main_v325) (by decide) V]
  generalize after (List.take 59 opsL3) V = W
  exact binary_result main_v324 main_v309 main_v325 (addf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_v326 (V : Valuation τ sig (Elt F)) :
    after opsL3 V (Proc.devRef .tc main_v326) = (Host.negf : (⟨S400000x64, .f32⟩ : BufTy).Contents (Elt F) → (⟨S400000x64, .f32⟩ : BufTy).Contents (Elt F)) (after opsL3 V (Proc.devRef .tc main_v325)) := by
  rw [← Rd.tk_eq opsL3_w1 60 (a := main_v325) (by decide) V,
    Rd.at_eq opsL3_w1 60 (by decide) (y := main_v326) (by decide) V]
  generalize after (List.take 60 opsL3) V = W
  exact unary_result main_v325 main_v326 (Host.negf : (⟨S400000x64, .f32⟩ : BufTy).Contents (Elt F) → (⟨S400000x64, .f32⟩ : BufTy).Contents (Elt F)) ⟨by decide, rfl⟩ ⟨by decide, rfl⟩ W

theorem rd_main_v327 (V : Valuation τ sig (Elt F)) :
    after opsL3 V (Proc.devRef .tc main_v327) = (Host.exp : (⟨S400000x64, .f32⟩ : BufTy).Contents (Elt F) → (⟨S400000x64, .f32⟩ : BufTy).Contents (Elt F)) (after opsL3 V (Proc.devRef .tc main_v326)) := by
  rw [← Rd.tk_eq opsL3_w1 61 (a := main_v326) (by decide) V,
    Rd.at_eq opsL3_w1 61 (by decide) (y := main_v327) (by decide) V]
  generalize after (List.take 61 opsL3) V = W
  exact unary_result main_v326 main_v327 (Host.exp : (⟨S400000x64, .f32⟩ : BufTy).Contents (Elt F) → (⟨S400000x64, .f32⟩ : BufTy).Contents (Elt F)) ⟨by decide, rfl⟩ ⟨by decide, rfl⟩ W

theorem rd_main_cst_41 (V : Valuation τ sig (Elt F)) :
    after opsL3 V (Proc.devRef .tc main_cst_41) = (constant S_ .f32 0x3F800000#32) := by
  rw [Rd.at_eq opsL3_w1 62 (by decide) (y := main_cst_41) (by decide) V]
  generalize after (List.take 62 opsL3) V = W
  exact nullary_result main_cst_41 (constant S_ .f32 0x3F800000#32) ⟨by decide, rfl⟩ W

theorem rd_main_v328 (V : Valuation τ sig (Elt F)) :
    after opsL3 V (Proc.devRef .tc main_v328) = (broadcastInDim S400000x64 ![] bcast_S_S400000x64 : (⟨S_, .f32⟩ : BufTy).Contents (Elt F) → (⟨S400000x64, .f32⟩ : BufTy).Contents (Elt F)) (after opsL3 V (Proc.devRef .tc main_cst_41)) := by
  rw [← Rd.tk_eq opsL3_w1 63 (a := main_cst_41) (by decide) V,
    Rd.at_eq opsL3_w1 63 (by decide) (y := main_v328) (by decide) V]
  generalize after (List.take 63 opsL3) V = W
  exact unary_result main_cst_41 main_v328 (broadcastInDim S400000x64 ![] bcast_S_S400000x64 : (⟨S_, .f32⟩ : BufTy).Contents (Elt F) → (⟨S400000x64, .f32⟩ : BufTy).Contents (Elt F)) ⟨by decide, rfl⟩ ⟨by decide, rfl⟩ W

theorem rd_main_v329 (V : Valuation τ sig (Elt F)) :
    after opsL3 V (Proc.devRef .tc main_v329) = (addf : (⟨S400000x64, .f32⟩ : BufTy).Contents (Elt F) → (⟨S400000x64, .f32⟩ : BufTy).Contents (Elt F) → (⟨S400000x64, .f32⟩ : BufTy).Contents (Elt F)) (after opsL3 V (Proc.devRef .tc main_v328)) (after opsL3 V (Proc.devRef .tc main_v327)) := by
  rw [← Rd.tk_eq opsL3_w1 64 (a := main_v328) (by decide) V,
    ← Rd.tk_eq opsL3_w1 64 (a := main_v327) (by decide) V,
    Rd.at_eq opsL3_w1 64 (by decide) (y := main_v329) (by decide) V]
  generalize after (List.take 64 opsL3) V = W
  exact binary_result main_v328 main_v327 main_v329 (addf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_cst_42 (V : Valuation τ sig (Elt F)) :
    after opsL3 V (Proc.devRef .tc main_cst_42) = (constant S_ .f32 0x3F800000#32) := by
  rw [Rd.at_eq opsL3_w1 65 (by decide) (y := main_cst_42) (by decide) V]
  generalize after (List.take 65 opsL3) V = W
  exact nullary_result main_cst_42 (constant S_ .f32 0x3F800000#32) ⟨by decide, rfl⟩ W

theorem rd_main_v330 (V : Valuation τ sig (Elt F)) :
    after opsL3 V (Proc.devRef .tc main_v330) = (broadcastInDim S400000x64 ![] bcast_S_S400000x64 : (⟨S_, .f32⟩ : BufTy).Contents (Elt F) → (⟨S400000x64, .f32⟩ : BufTy).Contents (Elt F)) (after opsL3 V (Proc.devRef .tc main_cst_42)) := by
  rw [← Rd.tk_eq opsL3_w1 66 (a := main_cst_42) (by decide) V,
    Rd.at_eq opsL3_w1 66 (by decide) (y := main_v330) (by decide) V]
  generalize after (List.take 66 opsL3) V = W
  exact unary_result main_cst_42 main_v330 (broadcastInDim S400000x64 ![] bcast_S_S400000x64 : (⟨S_, .f32⟩ : BufTy).Contents (Elt F) → (⟨S400000x64, .f32⟩ : BufTy).Contents (Elt F)) ⟨by decide, rfl⟩ ⟨by decide, rfl⟩ W

theorem rd_main_v331 (V : Valuation τ sig (Elt F)) :
    after opsL3 V (Proc.devRef .tc main_v331) = (Host.divf : (⟨S400000x64, .f32⟩ : BufTy).Contents (Elt F) → (⟨S400000x64, .f32⟩ : BufTy).Contents (Elt F) → (⟨S400000x64, .f32⟩ : BufTy).Contents (Elt F)) (after opsL3 V (Proc.devRef .tc main_v330)) (after opsL3 V (Proc.devRef .tc main_v329)) := by
  rw [← Rd.tk_eq opsL3_w1 67 (a := main_v330) (by decide) V,
    ← Rd.tk_eq opsL3_w1 67 (a := main_v329) (by decide) V,
    Rd.at_eq opsL3_w1 67 (by decide) (y := main_v331) (by decide) V]
  generalize after (List.take 67 opsL3) V = W
  exact binary_result main_v330 main_v329 main_v331 (Host.divf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_c_43 (V : Valuation τ sig (Elt F)) :
    after opsL3 V (Proc.devRef .tc main_c_43) = (constantI S_ 32 0#32) := by
  rw [Rd.at_eq opsL3_w1 68 (by decide) (y := main_c_43) (by decide) V]
  generalize after (List.take 68 opsL3) V = W
  exact nullary_result main_c_43 (constantI S_ 32 0#32) ⟨by decide, rfl⟩ W

theorem rd_main_v332 (V : Valuation τ sig (Elt F)) :
    after opsL3 V (Proc.devRef .tc main_v332) = (broadcastInDim S400000 ![] bcast_S_S400000 : (⟨S_, .i32⟩ : BufTy).Contents (Elt F) → (⟨S400000, .i32⟩ : BufTy).Contents (Elt F)) (after opsL3 V (Proc.devRef .tc main_c_43)) := by
  rw [← Rd.tk_eq opsL3_w1 69 (a := main_c_43) (by decide) V,
    Rd.at_eq opsL3_w1 69 (by decide) (y := main_v332) (by decide) V]
  generalize after (List.take 69 opsL3) V = W
  exact unary_result main_c_43 main_v332 (broadcastInDim S400000 ![] bcast_S_S400000 : (⟨S_, .i32⟩ : BufTy).Contents (Elt F) → (⟨S400000, .i32⟩ : BufTy).Contents (Elt F)) ⟨by decide, rfl⟩ ⟨by decide, rfl⟩ W

theorem rd_main_v333 (V : Valuation τ sig (Elt F)) :
    after opsL3 V (Proc.devRef .tc main_v333) = (cmpi .slt : (⟨S400000, .i32⟩ : BufTy).Contents (Elt F) → (⟨S400000, .i32⟩ : BufTy).Contents (Elt F) → (⟨S400000, .i1⟩ : BufTy).Contents (Elt F)) (V (Proc.devRef .tc main_arg3)) (after opsL3 V (Proc.devRef .tc main_v332)) := by
  rw [← Rd.tk_keep opsL3_w1 70 (a := main_arg3) (by decide) V,
    ← Rd.tk_eq opsL3_w1 70 (a := main_v332) (by decide) V,
    Rd.at_eq opsL3_w1 70 (by decide) (y := main_v333) (by decide) V]
  generalize after (List.take 70 opsL3) V = W
  exact binary_result main_arg3 main_v332 main_v333 (cmpi .slt : (⟨S400000, .i32⟩ : BufTy).Contents (Elt F) → (⟨S400000, .i32⟩ : BufTy).Contents (Elt F) → (⟨S400000, .i1⟩ : BufTy).Contents (Elt F)) ⟨by decide, rfl⟩ ⟨by decide, rfl⟩ ⟨by decide, rfl⟩ W

theorem rd_main_c_44 (V : Valuation τ sig (Elt F)) :
    after opsL3 V (Proc.devRef .tc main_c_44) = (constantI S_ 32 50000#32) := by
  rw [Rd.at_eq opsL3_w1 71 (by decide) (y := main_c_44) (by decide) V]
  generalize after (List.take 71 opsL3) V = W
  exact nullary_result main_c_44 (constantI S_ 32 50000#32) ⟨by decide, rfl⟩ W

theorem rd_main_v334 (V : Valuation τ sig (Elt F)) :
    after opsL3 V (Proc.devRef .tc main_v334) = (broadcastInDim S400000 ![] bcast_S_S400000 : (⟨S_, .i32⟩ : BufTy).Contents (Elt F) → (⟨S400000, .i32⟩ : BufTy).Contents (Elt F)) (after opsL3 V (Proc.devRef .tc main_c_44)) := by
  rw [← Rd.tk_eq opsL3_w1 72 (a := main_c_44) (by decide) V,
    Rd.at_eq opsL3_w1 72 (by decide) (y := main_v334) (by decide) V]
  generalize after (List.take 72 opsL3) V = W
  exact unary_result main_c_44 main_v334 (broadcastInDim S400000 ![] bcast_S_S400000 : (⟨S_, .i32⟩ : BufTy).Contents (Elt F) → (⟨S400000, .i32⟩ : BufTy).Contents (Elt F)) ⟨by decide, rfl⟩ ⟨by decide, rfl⟩ W

theorem rd_main_v335 (V : Valuation τ sig (Elt F)) :
    after opsL3 V (Proc.devRef .tc main_v335) = (addi : (⟨S400000, .i32⟩ : BufTy).Contents (Elt F) → (⟨S400000, .i32⟩ : BufTy).Contents (Elt F) → (⟨S400000, .i32⟩ : BufTy).Contents (Elt F)) (V (Proc.devRef .tc main_arg3)) (after opsL3 V (Proc.devRef .tc main_v334)) := by
  rw [← Rd.tk_keep opsL3_w1 73 (a := main_arg3) (by decide) V,
    ← Rd.tk_eq opsL3_w1 73 (a := main_v334) (by decide) V,
    Rd.at_eq opsL3_w1 73 (by decide) (y := main_v335) (by decide) V]
  generalize after (List.take 73 opsL3) V = W
  exact binary_result main_arg3 main_v334 main_v335 (addi : (⟨S400000, .i32⟩ : BufTy).Contents (Elt F) → (⟨S400000, .i32⟩ : BufTy).Contents (Elt F) → (⟨S400000, .i32⟩ : BufTy).Contents (Elt F)) ⟨by decide, rfl⟩ ⟨by decide, rfl⟩ ⟨by decide, rfl⟩ W

theorem rd_main_v336 (V : Valuation τ sig (Elt F)) :
    after opsL3 V (Proc.devRef .tc main_v336) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (after opsL3 V (Proc.devRef .tc main_v333)) (after opsL3 V (Proc.devRef .tc main_v335)) (V (Proc.devRef .tc main_arg3)) := by
  rw [← Rd.tk_eq opsL3_w1 74 (a := main_v333) (by decide) V,
    ← Rd.tk_eq opsL3_w1 74 (a := main_v335) (by decide) V,
    ← Rd.tk_keep opsL3_w1 74 (a := main_arg3) (by decide) V,
    Rd.at_eq opsL3_w1 74 (by decide) (y := main_v336) (by decide) V]
  generalize after (List.take 74 opsL3) V = W
  exact ternary_result main_v333 main_v335 main_arg3 main_v336 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) ⟨by decide, rfl⟩ ⟨by decide, rfl⟩ ⟨by decide, rfl⟩ ⟨by decide, rfl⟩ W

theorem rd_main_v337 (V : Valuation τ sig (Elt F)) :
    after opsL3 V (Proc.devRef .tc main_v337) = (broadcastInDim S400000x1 ![0] bcast_S400000_S400000x1_0 : (⟨S400000, .i32⟩ : BufTy).Contents (Elt F) → (⟨S400000x1, .i32⟩ : BufTy).Contents (Elt F)) (after opsL3 V (Proc.devRef .tc main_v336)) := by
  rw [← Rd.tk_eq opsL3_w1 75 (a := main_v336) (by decide) V,
    Rd.at_eq opsL3_w1 75 (by decide) (y := main_v337) (by decide) V]
  generalize after (List.take 75 opsL3) V = W
  exact unary_result main_v336 main_v337 (broadcastInDim S400000x1 ![0] bcast_S400000_S400000x1_0 : (⟨S400000, .i32⟩ : BufTy).Contents (Elt F) → (⟨S400000x1, .i32⟩ : BufTy).Contents (Elt F)) ⟨by decide, rfl⟩ ⟨by decide, rfl⟩ W

theorem rd_main_v338 (V : Valuation τ sig (Elt F)) :
    after opsL3 V (Proc.devRef .tc main_v338) = ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)) (after opsL3 V (Proc.devRef .tc main_v285)) (after opsL3 V (Proc.devRef .tc main_v337)) := by
  rw [← Rd.tk_eq opsL3_w1 76 (a := main_v285) (by decide) V,
    ← Rd.tk_eq opsL3_w1 76 (a := main_v337) (by decide) V,
    Rd.at_eq opsL3_w1 76 (by decide) (y := main_v338) (by decide) V]
  generalize after (List.take 76 opsL3) V = W
  exact binary_result main_v285 main_v337 main_v338 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)) ⟨by decide, rfl⟩ ⟨by decide, rfl⟩ ⟨by decide, rfl⟩ W

theorem rd_main_v339 (V : Valuation τ sig (Elt F)) :
    after opsL3 V (Proc.devRef .tc main_v339) = (mulf : (⟨S400000x64, .f32⟩ : BufTy).Contents (Elt F) → (⟨S400000x64, .f32⟩ : BufTy).Contents (Elt F) → (⟨S400000x64, .f32⟩ : BufTy).Contents (Elt F)) (after opsL3 V (Proc.devRef .tc main_v331)) (after opsL3 V (Proc.devRef .tc main_v338)) := by
  rw [← Rd.tk_eq opsL3_w1 77 (a := main_v331) (by decide) V,
    ← Rd.tk_eq opsL3_w1 77 (a := main_v338) (by decide) V,
    Rd.at_eq opsL3_w1 77 (by decide) (y := main_v339) (by decide) V]
  generalize after (List.take 77 opsL3) V = W
  exact binary_result main_v331 main_v338 main_v339 (mulf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_cst_45 (V : Valuation τ sig (Elt F)) :
    after opsL3 V (Proc.devRef .tc main_cst_45) = (constant S_ .f32 0x00000000#32) := by
  rw [Rd.at_eq opsL3_w1 78 (by decide) (y := main_cst_45) (by decide) V]
  generalize after (List.take 78 opsL3) V = W
  exact nullary_result main_cst_45 (constant S_ .f32 0x00000000#32) ⟨by decide, rfl⟩ W

theorem rd_main_v340 (V : Valuation τ sig (Elt F)) :
    after opsL3 V (Proc.devRef .tc main_v340) = (broadcastInDim S50000x64 ![] bcast_S_S50000x64 : (⟨S_, .f32⟩ : BufTy).Contents (Elt F) → (⟨S50000x64, .f32⟩ : BufTy).Contents (Elt F)) (after opsL3 V (Proc.devRef .tc main_cst_45)) := by
  rw [← Rd.tk_eq opsL3_w1 79 (a := main_cst_45) (by decide) V,
    Rd.at_eq opsL3_w1 79 (by decide) (y := main_v340) (by decide) V]
  generalize after (List.take 79 opsL3) V = W
  exact unary_result main_cst_45 main_v340 (broadcastInDim S50000x64 ![] bcast_S_S50000x64 : (⟨S_, .f32⟩ : BufTy).Contents (Elt F) → (⟨S50000x64, .f32⟩ : BufTy).Contents (Elt F)) ⟨by decide, rfl⟩ ⟨by decide, rfl⟩ W

theorem rd_main_v341 (V : Valuation τ sig (Elt F)) :
    after opsL3 V (Proc.devRef .tc main_v341) = (broadcastInDim S400000x1 ![0] bcast_S400000_S400000x1_0 : (⟨S400000, .i32⟩ : BufTy).Contents (Elt F) → (⟨S400000x1, .i32⟩ : BufTy).Contents (Elt F)) (V (Proc.devRef .tc main_arg4)) := by
  rw [← Rd.tk_keep opsL3_w1 80 (a := main_arg4) (by decide) V,
    Rd.at_eq opsL3_w1 80 (by decide) (y := main_v341) (by decide) V]
  generalize after (List.take 80 opsL3) V = W
  exact unary_result main_arg4 main_v341 (broadcastInDim S400000x1 ![0] bcast_S400000_S400000x1_0 : (⟨S400000, .i32⟩ : BufTy).Contents (Elt F) → (⟨S400000x1, .i32⟩ : BufTy).Contents (Elt F)) ⟨by decide, rfl⟩ ⟨by decide, rfl⟩ W

theorem rd_main_v342 (V : Valuation τ sig (Elt F)) :
    after opsL3 V (Proc.devRef .tc main_v342) = ((fun x i u => Host.scatterAdd scatter_S50000x64_S400000x1_S400000x64_1_0_0_1 x i u) : (⟨S50000x64, .f32⟩ : BufTy).Contents (Elt F) → (⟨S400000x1, .i32⟩ : BufTy).Contents (Elt F) → (⟨S400000x64, .f32⟩ : BufTy).Contents (Elt F) → (⟨S50000x64, .f32⟩ : BufTy).Contents (Elt F)) (after opsL3 V (Proc.devRef .tc main_v340)) (after opsL3 V (Proc.devRef .tc main_v341)) (after opsL3 V (Proc.devRef .tc main_v339)) := by
  rw [← Rd.tk_eq opsL3_w1 81 (a := main_v340) (by decide) V,
    ← Rd.tk_eq opsL3_w1 81 (a := main_v341) (by decide) V,
    ← Rd.tk_eq opsL3_w1 81 (a := main_v339) (by decide) V,
    Rd.at_eq opsL3_w1 81 (by decide) (y := main_v342) (by decide) V]
  generalize after (List.take 81 opsL3) V = W
  exact ternary_result main_v340 main_v341 main_v339 main_v342 ((fun x i u => Host.scatterAdd scatter_S50000x64_S400000x1_S400000x64_1_0_0_1 x i u) : (⟨S50000x64, .f32⟩ : BufTy).Contents (Elt F) → (⟨S400000x1, .i32⟩ : BufTy).Contents (Elt F) → (⟨S400000x64, .f32⟩ : BufTy).Contents (Elt F) → (⟨S50000x64, .f32⟩ : BufTy).Contents (Elt F)) ⟨by decide, rfl⟩ ⟨by decide, rfl⟩ ⟨by decide, rfl⟩ ⟨by decide, rfl⟩ W

theorem rd_main_cst_46 (V : Valuation τ sig (Elt F)) :
    after opsL3 V (Proc.devRef .tc main_cst_46) = (constant S_ .f32 0x00000000#32) := by
  rw [Rd.at_eq opsL3_w1 82 (by decide) (y := main_cst_46) (by decide) V]
  generalize after (List.take 82 opsL3) V = W
  exact nullary_result main_cst_46 (constant S_ .f32 0x00000000#32) ⟨by decide, rfl⟩ W

theorem rd_main_v343 (V : Valuation τ sig (Elt F)) :
    after opsL3 V (Proc.devRef .tc main_v343) = (broadcastInDim S50000x64 ![] bcast_S_S50000x64 : (⟨S_, .f32⟩ : BufTy).Contents (Elt F) → (⟨S50000x64, .f32⟩ : BufTy).Contents (Elt F)) (after opsL3 V (Proc.devRef .tc main_cst_46)) := by
  rw [← Rd.tk_eq opsL3_w1 83 (a := main_cst_46) (by decide) V,
    Rd.at_eq opsL3_w1 83 (by decide) (y := main_v343) (by decide) V]
  generalize after (List.take 83 opsL3) V = W
  exact unary_result main_cst_46 main_v343 (broadcastInDim S50000x64 ![] bcast_S_S50000x64 : (⟨S_, .f32⟩ : BufTy).Contents (Elt F) → (⟨S50000x64, .f32⟩ : BufTy).Contents (Elt F)) ⟨by decide, rfl⟩ ⟨by decide, rfl⟩ W

theorem rd_main_v344 (V : Valuation τ sig (Elt F)) :
    after opsL3 V (Proc.devRef .tc main_v344) = (broadcastInDim S400000x1 ![0] bcast_S400000_S400000x1_0 : (⟨S400000, .i32⟩ : BufTy).Contents (Elt F) → (⟨S400000x1, .i32⟩ : BufTy).Contents (Elt F)) (V (Proc.devRef .tc main_arg4)) := by
  rw [← Rd.tk_keep opsL3_w1 84 (a := main_arg4) (by decide) V,
    Rd.at_eq opsL3_w1 84 (by decide) (y := main_v344) (by decide) V]
  generalize after (List.take 84 opsL3) V = W
  exact unary_result main_arg4 main_v344 (broadcastInDim S400000x1 ![0] bcast_S400000_S400000x1_0 : (⟨S400000, .i32⟩ : BufTy).Contents (Elt F) → (⟨S400000x1, .i32⟩ : BufTy).Contents (Elt F)) ⟨by decide, rfl⟩ ⟨by decide, rfl⟩ W

theorem rd_main_v345 (V : Valuation τ sig (Elt F)) :
    after opsL3 V (Proc.devRef .tc main_v345) = ((fun x i u => Host.scatterAdd scatter_S50000x64_S400000x1_S400000x64_1_0_0_1 x i u) : (⟨S50000x64, .f32⟩ : BufTy).Contents (Elt F) → (⟨S400000x1, .i32⟩ : BufTy).Contents (Elt F) → (⟨S400000x64, .f32⟩ : BufTy).Contents (Elt F) → (⟨S50000x64, .f32⟩ : BufTy).Contents (Elt F)) (after opsL3 V (Proc.devRef .tc main_v343)) (after opsL3 V (Proc.devRef .tc main_v344)) (after opsL3 V (Proc.devRef .tc main_v331)) := by
  rw [← Rd.tk_eq opsL3_w1 85 (a := main_v343) (by decide) V,
    ← Rd.tk_eq opsL3_w1 85 (a := main_v344) (by decide) V,
    ← Rd.tk_eq opsL3_w1 85 (a := main_v331) (by decide) V,
    Rd.at_eq opsL3_w1 85 (by decide) (y := main_v345) (by decide) V]
  generalize after (List.take 85 opsL3) V = W
  exact ternary_result main_v343 main_v344 main_v331 main_v345 ((fun x i u => Host.scatterAdd scatter_S50000x64_S400000x1_S400000x64_1_0_0_1 x i u) : (⟨S50000x64, .f32⟩ : BufTy).Contents (Elt F) → (⟨S400000x1, .i32⟩ : BufTy).Contents (Elt F) → (⟨S400000x64, .f32⟩ : BufTy).Contents (Elt F) → (⟨S50000x64, .f32⟩ : BufTy).Contents (Elt F)) ⟨by decide, rfl⟩ ⟨by decide, rfl⟩ ⟨by decide, rfl⟩ ⟨by decide, rfl⟩ W

theorem rd_main_cst_47 (V : Valuation τ sig (Elt F)) :
    after opsL3 V (Proc.devRef .tc main_cst_47) = (constant S_ .f32 0x358637BD#32) := by
  rw [Rd.at_eq opsL3_w1 86 (by decide) (y := main_cst_47) (by decide) V]
  generalize after (List.take 86 opsL3) V = W
  exact nullary_result main_cst_47 (constant S_ .f32 0x358637BD#32) ⟨by decide, rfl⟩ W

theorem rd_main_v346 (V : Valuation τ sig (Elt F)) :
    after opsL3 V (Proc.devRef .tc main_v346) = (broadcastInDim S50000x64 ![] bcast_S_S50000x64 : (⟨S_, .f32⟩ : BufTy).Contents (Elt F) → (⟨S50000x64, .f32⟩ : BufTy).Contents (Elt F)) (after opsL3 V (Proc.devRef .tc main_cst_47)) := by
  rw [← Rd.tk_eq opsL3_w1 87 (a := main_cst_47) (by decide) V,
    Rd.at_eq opsL3_w1 87 (by decide) (y := main_v346) (by decide) V]
  generalize after (List.take 87 opsL3) V = W
  exact unary_result main_cst_47 main_v346 (broadcastInDim S50000x64 ![] bcast_S_S50000x64 : (⟨S_, .f32⟩ : BufTy).Contents (Elt F) → (⟨S50000x64, .f32⟩ : BufTy).Contents (Elt F)) ⟨by decide, rfl⟩ ⟨by decide, rfl⟩ W

theorem rd_main_v347 (V : Valuation τ sig (Elt F)) :
    after opsL3 V (Proc.devRef .tc main_v347) = (addf : (⟨S50000x64, .f32⟩ : BufTy).Contents (Elt F) → (⟨S50000x64, .f32⟩ : BufTy).Contents (Elt F) → (⟨S50000x64, .f32⟩ : BufTy).Contents (Elt F)) (after opsL3 V (Proc.devRef .tc main_v345)) (after opsL3 V (Proc.devRef .tc main_v346)) := by
  rw [← Rd.tk_eq opsL3_w1 88 (a := main_v345) (by decide) V,
    ← Rd.tk_eq opsL3_w1 88 (a := main_v346) (by decide) V,
    Rd.at_eq opsL3_w1 88 (by decide) (y := main_v347) (by decide) V]
  generalize after (List.take 88 opsL3) V = W
  exact binary_result main_v345 main_v346 main_v347 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v348 (V : Valuation τ sig (Elt F)) :
    after opsL3 V (Proc.devRef .tc main_v348) = (Host.divf : (⟨S50000x64, .f32⟩ : BufTy).Contents (Elt F) → (⟨S50000x64, .f32⟩ : BufTy).Contents (Elt F) → (⟨S50000x64, .f32⟩ : BufTy).Contents (Elt F)) (after opsL3 V (Proc.devRef .tc main_v342)) (after opsL3 V (Proc.devRef .tc main_v347)) := by
  rw [← Rd.tk_eq opsL3_w1 89 (a := main_v342) (by decide) V,
    ← Rd.tk_eq opsL3_w1 89 (a := main_v347) (by decide) V,
    Rd.at_eq opsL3_w1 89 (by decide) (y := main_v348) (by decide) V]
  generalize after (List.take 89 opsL3) V = W
  exact binary_result main_v342 main_v347 main_v348 (Host.divf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v349 (V : Valuation τ sig (Elt F)) :
    after opsL3 V (Proc.devRef .tc main_v349) = (addf : (⟨S50000x64, .f32⟩ : BufTy).Contents (Elt F) → (⟨S50000x64, .f32⟩ : BufTy).Contents (Elt F) → (⟨S50000x64, .f32⟩ : BufTy).Contents (Elt F)) (after opsL3 V (Proc.devRef .tc main_v277)) (after opsL3 V (Proc.devRef .tc main_v348)) := by
  rw [← Rd.tk_eq opsL3_w1 90 (a := main_v277) (by decide) V,
    ← Rd.tk_eq opsL3_w1 90 (a := main_v348) (by decide) V,
    Rd.at_eq opsL3_w1 90 (by decide) (y := main_v349) (by decide) V]
  generalize after (List.take 90 opsL3) V = W
  exact binary_result main_v277 main_v348 main_v349 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v350 (V : Valuation τ sig (Elt F)) :
    after opsL3 V (Proc.devRef .tc main_v350) = ((extractStridedSlice S1x64 ![2, 0] · slices_S3x64_S1x64_2_0) : (⟨S3x64, .f32⟩ : BufTy).Contents (Elt F) → (⟨S1x64, .f32⟩ : BufTy).Contents (Elt F)) (V (Proc.devRef .tc main_arg20)) := by
  rw [← Rd.tk_keep opsL3_w1 91 (a := main_arg20) (by decide) V,
    Rd.at_eq opsL3_w1 91 (by decide) (y := main_v350) (by decide) V]
  generalize after (List.take 91 opsL3) V = W
  exact unary_result main_arg20 main_v350 ((extractStridedSlice S1x64 ![2, 0] · slices_S3x64_S1x64_2_0) : (⟨S3x64, .f32⟩ : BufTy).Contents (Elt F) → (⟨S1x64, .f32⟩ : BufTy).Contents (Elt F)) ⟨by decide, rfl⟩ ⟨by decide, rfl⟩ W

theorem rd_main_v351 (V : Valuation τ sig (Elt F)) :
    after opsL3 V (Proc.devRef .tc main_v351) = shapeCast S64 (after opsL3 V (Proc.devRef .tc main_v350)) shapeCasts_S1x64_S64 := by
  rw [← Rd.tk_eq opsL3_w1 92 (a := main_v350) (by decide) V,
    Rd.at_eq opsL3_w1 92 (by decide) (y := main_v351) (by decide) V]
  generalize after (List.take 92 opsL3) V = W
  exact reshape_result main_v350 main_v351 rfl shapeCasts_S1x64_S64 ⟨by decide, rfl⟩ ⟨by decide, rfl⟩ W

theorem rd_main_v352 (V : Valuation τ sig (Elt F)) :
    after opsL3 V (Proc.devRef .tc main_v352) = ((extractStridedSlice S1x64 ![2, 0] · slices_S3x64_S1x64_2_0) : (⟨S3x64, .f32⟩ : BufTy).Contents (Elt F) → (⟨S1x64, .f32⟩ : BufTy).Contents (Elt F)) (V (Proc.devRef .tc main_arg21)) := by
  rw [← Rd.tk_keep opsL3_w1 93 (a := main_arg21) (by decide) V,
    Rd.at_eq opsL3_w1 93 (by decide) (y := main_v352) (by decide) V]
  generalize after (List.take 93 opsL3) V = W
  exact unary_result main_arg21 main_v352 ((extractStridedSlice S1x64 ![2, 0] · slices_S3x64_S1x64_2_0) : (⟨S3x64, .f32⟩ : BufTy).Contents (Elt F) → (⟨S1x64, .f32⟩ : BufTy).Contents (Elt F)) ⟨by decide, rfl⟩ ⟨by decide, rfl⟩ W

theorem rd_main_v353 (V : Valuation τ sig (Elt F)) :
    after opsL3 V (Proc.devRef .tc main_v353) = shapeCast S64 (after opsL3 V (Proc.devRef .tc main_v352)) shapeCasts_S1x64_S64 := by
  rw [← Rd.tk_eq opsL3_w1 94 (a := main_v352) (by decide) V,
    Rd.at_eq opsL3_w1 94 (by decide) (y := main_v353) (by decide) V]
  generalize after (List.take 94 opsL3) V = W
  exact reshape_result main_v352 main_v353 rfl shapeCasts_S1x64_S64 ⟨by decide, rfl⟩ ⟨by decide, rfl⟩ W

theorem rd_main_cst_48 (V : Valuation τ sig (Elt F)) :
    after opsL3 V (Proc.devRef .tc main_cst_48) = (constant S_ .f32 0x00000000#32) := by
  rw [Rd.at_eq opsL3_w1 95 (by decide) (y := main_cst_48) (by decide) V]
  generalize after (List.take 95 opsL3) V = W
  exact nullary_result main_cst_48 (constant S_ .f32 0x00000000#32) ⟨by decide, rfl⟩ W

theorem rd_main_v354 (V : Valuation τ sig (Elt F)) :
    after opsL3 V (Proc.devRef .tc main_v354) = ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) (after opsL3 V (Proc.devRef .tc main_v349)) (after opsL3 V (Proc.devRef .tc main_cst_48)) := by
  rw [← Rd.tk_eq opsL3_w1 96 (a := main_v349) (by decide) V,
    ← Rd.tk_eq opsL3_w1 96 (a := main_cst_48) (by decide) V,
    Rd.at_eq opsL3_w1 96 (by decide) (y := main_v354) (by decide) V]
  generalize after (List.take 96 opsL3) V = W
  exact binary_result main_v349 main_cst_48 main_v354 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ W

theorem rd_main_cst_49 (V : Valuation τ sig (Elt F)) :
    after opsL3 V (Proc.devRef .tc main_cst_49) = (constant S_ .f32 0x47435000#32) := by
  rw [Rd.at_eq opsL3_w1 97 (by decide) (y := main_cst_49) (by decide) V]
  generalize after (List.take 97 opsL3) V = W
  exact nullary_result main_cst_49 (constant S_ .f32 0x47435000#32) ⟨by decide, rfl⟩ W

theorem rd_main_v355 (V : Valuation τ sig (Elt F)) :
    after opsL3 V (Proc.devRef .tc main_v355) = (broadcastInDim S64 ![] bcast_S_S64 : (⟨S_, .f32⟩ : BufTy).Contents (Elt F) → (⟨S64, .f32⟩ : BufTy).Contents (Elt F)) (after opsL3 V (Proc.devRef .tc main_cst_49)) := by
  rw [← Rd.tk_eq opsL3_w1 98 (a := main_cst_49) (by decide) V,
    Rd.at_eq opsL3_w1 98 (by decide) (y := main_v355) (by decide) V]
  generalize after (List.take 98 opsL3) V = W
  exact unary_result main_cst_49 main_v355 (broadcastInDim S64 ![] bcast_S_S64 : (⟨S_, .f32⟩ : BufTy).Contents (Elt F) → (⟨S64, .f32⟩ : BufTy).Contents (Elt F)) ⟨by decide, rfl⟩ ⟨by decide, rfl⟩ W

theorem rd_main_v356 (V : Valuation τ sig (Elt F)) :
    after opsL3 V (Proc.devRef .tc main_v356) = (Host.divf : (⟨S64, .f32⟩ : BufTy).Contents (Elt F) → (⟨S64, .f32⟩ : BufTy).Contents (Elt F) → (⟨S64, .f32⟩ : BufTy).Contents (Elt F)) (after opsL3 V (Proc.devRef .tc main_v354)) (after opsL3 V (Proc.devRef .tc main_v355)) := by
  rw [← Rd.tk_eq opsL3_w1 99 (a := main_v354) (by decide) V,
    ← Rd.tk_eq opsL3_w1 99 (a := main_v355) (by decide) V,
    Rd.at_eq opsL3_w1 99 (by decide) (y := main_v356) (by decide) V]
  generalize after (List.take 99 opsL3) V = W
  exact binary_result main_v354 main_v355 main_v356 (Host.divf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ W

theorem rd_main_c_50 (V : Valuation τ sig (Elt F)) :
    after opsL3 V (Proc.devRef .tc main_c_50) = (constantI S_ 32 0#32) := by
  rw [Rd.at_eq opsL3_w1 100 (by decide) (y := main_c_50) (by decide) V]
  generalize after (List.take 100 opsL3) V = W
  exact nullary_result main_c_50 (constantI S_ 32 0#32) ⟨by decide, rfl⟩ W

theorem rd_main_call8_cst (V : Valuation τ sig (Elt F)) :
    after opsL3 V (Proc.devRef .tc main_call8_cst) = ((constant S_ .f32 0x00000000#32) : (⟨S_, .f32⟩ : BufTy).Contents (Elt F)) := by
  rw [Rd.at_eq opsL3_w1 101 (by decide) (y := main_call8_cst) (by decide) V]
  generalize after (List.take 101 opsL3) V = W
  exact nullary_result main_call8_cst ((constant S_ .f32 0x00000000#32) : (⟨S_, .f32⟩ : BufTy).Contents (Elt F)) ⟨by decide, rfl⟩ W

theorem rd_main_call8_v0 (V : Valuation τ sig (Elt F)) :
    after opsL3 V (Proc.devRef .tc main_call8_v0) = ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) (after opsL3 V (Proc.devRef .tc main_v349)) (after opsL3 V (Proc.devRef .tc main_call8_cst)) := by
  rw [← Rd.tk_eq opsL3_w1 102 (a := main_v349) (by decide) V,
    ← Rd.tk_eq opsL3_w1 102 (a := main_call8_cst) (by decide) V,
    Rd.at_eq opsL3_w1 102 (by decide) (y := main_call8_v0) (by decide) V]
  generalize after (List.take 102 opsL3) V = W
  exact binary_result main_v349 main_call8_cst main_call8_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ W

theorem rd_main_call8_v1 (V : Valuation τ sig (Elt F)) :
    after opsL3 V (Proc.devRef .tc main_call8_v1) = ((broadcastInDim S1x64 ![1] bcast_S64_S1x64_1) : (⟨S64, .f32⟩ : BufTy).Contents (Elt F) → (⟨S1x64, .f32⟩ : BufTy).Contents (Elt F)) (after opsL3 V (Proc.devRef .tc main_call8_v0)) := by
  rw [← Rd.tk_eq opsL3_w1 103 (a := main_call8_v0) (by decide) V,
    Rd.at_eq opsL3_w1 103 (by decide) (y := main_call8_v1) (by decide) V]
  generalize after (List.take 103 opsL3) V = W
  exact unary_result main_call8_v0 main_call8_v1 ((broadcastInDim S1x64 ![1] bcast_S64_S1x64_1) : (⟨S64, .f32⟩ : BufTy).Contents (Elt F) → (⟨S1x64, .f32⟩ : BufTy).Contents (Elt F)) ⟨by decide, rfl⟩ ⟨by decide, rfl⟩ W

theorem rd_main_call8_cst_0 (V : Valuation τ sig (Elt F)) :
    after opsL3 V (Proc.devRef .tc main_call8_cst_0) = ((constant S_ .f32 0x47435000#32) : (⟨S_, .f32⟩ : BufTy).Contents (Elt F)) := by
  rw [Rd.at_eq opsL3_w1 104 (by decide) (y := main_call8_cst_0) (by decide) V]
  generalize after (List.take 104 opsL3) V = W
  exact nullary_result main_call8_cst_0 ((constant S_ .f32 0x47435000#32) : (⟨S_, .f32⟩ : BufTy).Contents (Elt F)) ⟨by decide, rfl⟩ W

theorem rd_main_call8_v2 (V : Valuation τ sig (Elt F)) :
    after opsL3 V (Proc.devRef .tc main_call8_v2) = ((broadcastInDim S1x64 ![] bcast_S_S1x64) : (⟨S_, .f32⟩ : BufTy).Contents (Elt F) → (⟨S1x64, .f32⟩ : BufTy).Contents (Elt F)) (after opsL3 V (Proc.devRef .tc main_call8_cst_0)) := by
  rw [← Rd.tk_eq opsL3_w1 105 (a := main_call8_cst_0) (by decide) V,
    Rd.at_eq opsL3_w1 105 (by decide) (y := main_call8_v2) (by decide) V]
  generalize after (List.take 105 opsL3) V = W
  exact unary_result main_call8_cst_0 main_call8_v2 ((broadcastInDim S1x64 ![] bcast_S_S1x64) : (⟨S_, .f32⟩ : BufTy).Contents (Elt F) → (⟨S1x64, .f32⟩ : BufTy).Contents (Elt F)) ⟨by decide, rfl⟩ ⟨by decide, rfl⟩ W

theorem rd_main_call8_v3 (V : Valuation τ sig (Elt F)) :
    after opsL3 V (Proc.devRef .tc main_call8_v3) = (Host.divf : (⟨S1x64, .f32⟩ : BufTy).Contents (Elt F) → (⟨S1x64, .f32⟩ : BufTy).Contents (Elt F) → (⟨S1x64, .f32⟩ : BufTy).Contents (Elt F)) (after opsL3 V (Proc.devRef .tc main_call8_v1)) (after opsL3 V (Proc.devRef .tc main_call8_v2)) := by
  rw [← Rd.tk_eq opsL3_w1 106 (a := main_call8_v1) (by decide) V,
    ← Rd.tk_eq opsL3_w1 106 (a := main_call8_v2) (by decide) V,
    Rd.at_eq opsL3_w1 106 (by decide) (y := main_call8_v3) (by decide) V]
  generalize after (List.take 106 opsL3) V = W
  exact binary_result main_call8_v1 main_call8_v2 main_call8_v3 (Host.divf : (⟨S1x64, .f32⟩ : BufTy).Contents (Elt F) → (⟨S1x64, .f32⟩ : BufTy).Contents (Elt F) → (⟨S1x64, .f32⟩ : BufTy).Contents (Elt F)) ⟨by decide, rfl⟩ ⟨by decide, rfl⟩ ⟨by decide, rfl⟩ W

theorem rd_main_call8_v4 (V : Valuation τ sig (Elt F)) :
    after opsL3 V (Proc.devRef .tc main_call8_v4) = ((broadcastInDim S50000x64 ![0, 1] bcast_S1x64_S50000x64_0_1) : (⟨S1x64, .f32⟩ : BufTy).Contents (Elt F) → (⟨S50000x64, .f32⟩ : BufTy).Contents (Elt F)) (after opsL3 V (Proc.devRef .tc main_call8_v3)) := by
  rw [← Rd.tk_eq opsL3_w1 107 (a := main_call8_v3) (by decide) V,
    Rd.at_eq opsL3_w1 107 (by decide) (y := main_call8_v4) (by decide) V]
  generalize after (List.take 107 opsL3) V = W
  exact unary_result main_call8_v3 main_call8_v4 ((broadcastInDim S50000x64 ![0, 1] bcast_S1x64_S50000x64_0_1) : (⟨S1x64, .f32⟩ : BufTy).Contents (Elt F) → (⟨S50000x64, .f32⟩ : BufTy).Contents (Elt F)) ⟨by decide, rfl⟩ ⟨by decide, rfl⟩ W

theorem rd_main_call8_v5 (V : Valuation τ sig (Elt F)) :
    after opsL3 V (Proc.devRef .tc main_call8_v5) = (subf : (⟨S50000x64, .f32⟩ : BufTy).Contents (Elt F) → (⟨S50000x64, .f32⟩ : BufTy).Contents (Elt F) → (⟨S50000x64, .f32⟩ : BufTy).Contents (Elt F)) (after opsL3 V (Proc.devRef .tc main_v349)) (after opsL3 V (Proc.devRef .tc main_call8_v4)) := by
  rw [← Rd.tk_eq opsL3_w1 108 (a := main_v349) (by decide) V,
    ← Rd.tk_eq opsL3_w1 108 (a := main_call8_v4) (by decide) V,
    Rd.at_eq opsL3_w1 108 (by decide) (y := main_call8_v5) (by decide) V]
  generalize after (List.take 108 opsL3) V = W
  exact binary_result main_v349 main_call8_v4 main_call8_v5 (subf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_call8_v6 (V : Valuation τ sig (Elt F)) :
    after opsL3 V (Proc.devRef .tc main_call8_v6) = (mulf : (⟨S50000x64, .f32⟩ : BufTy).Contents (Elt F) → (⟨S50000x64, .f32⟩ : BufTy).Contents (Elt F) → (⟨S50000x64, .f32⟩ : BufTy).Contents (Elt F)) (after opsL3 V (Proc.devRef .tc main_call8_v5)) (after opsL3 V (Proc.devRef .tc main_call8_v5)) := by
  rw [← Rd.tk_eq opsL3_w1 109 (a := main_call8_v5) (by decide) V,
    Rd.at_eq opsL3_w1 109 (by decide) (y := main_call8_v6) (by decide) V]
  generalize after (List.take 109 opsL3) V = W
  exact binary_result main_call8_v5 main_call8_v5 main_call8_v6 (mulf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_call8_v7 (V : Valuation τ sig (Elt F)) :
    after opsL3 V (Proc.devRef .tc main_call8_v7) = ((sitofp .f32) : (⟨S_, .i32⟩ : BufTy).Contents (Elt F) → (⟨S_, .f32⟩ : BufTy).Contents (Elt F)) (after opsL3 V (Proc.devRef .tc main_c_50)) := by
  rw [← Rd.tk_eq opsL3_w1 110 (a := main_c_50) (by decide) V,
    Rd.at_eq opsL3_w1 110 (by decide) (y := main_call8_v7) (by decide) V]
  generalize after (List.take 110 opsL3) V = W
  exact unary_result main_c_50 main_call8_v7 ((sitofp .f32) : (⟨S_, .i32⟩ : BufTy).Contents (Elt F) → (⟨S_, .f32⟩ : BufTy).Contents (Elt F)) ⟨by decide, rfl⟩ ⟨by decide, rfl⟩ W

theorem rd_main_call8_cst_1 (V : Valuation τ sig (Elt F)) :
    after opsL3 V (Proc.devRef .tc main_call8_cst_1) = ((constant S_ .f32 0x47435000#32) : (⟨S_, .f32⟩ : BufTy).Contents (Elt F)) := by
  rw [Rd.at_eq opsL3_w1 111 (by decide) (y := main_call8_cst_1) (by decide) V]
  generalize after (List.take 111 opsL3) V = W
  exact nullary_result main_call8_cst_1 ((constant S_ .f32 0x47435000#32) : (⟨S_, .f32⟩ : BufTy).Contents (Elt F)) ⟨by decide, rfl⟩ W

theorem rd_main_call8_v8 (V : Valuation τ sig (Elt F)) :
    after opsL3 V (Proc.devRef .tc main_call8_v8) = (subf : (⟨S_, .f32⟩ : BufTy).Contents (Elt F) → (⟨S_, .f32⟩ : BufTy).Contents (Elt F) → (⟨S_, .f32⟩ : BufTy).Contents (Elt F)) (after opsL3 V (Proc.devRef .tc main_call8_cst_1)) (after opsL3 V (Proc.devRef .tc main_call8_v7)) := by
  rw [← Rd.tk_eq opsL3_w1 112 (a := main_call8_cst_1) (by decide) V,
    ← Rd.tk_eq opsL3_w1 112 (a := main_call8_v7) (by decide) V,
    Rd.at_eq opsL3_w1 112 (by decide) (y := main_call8_v8) (by decide) V]
  generalize after (List.take 112 opsL3) V = W
  exact binary_result main_call8_cst_1 main_call8_v7 main_call8_v8 (subf : (⟨S_, .f32⟩ : BufTy).Contents (Elt F) → (⟨S_, .f32⟩ : BufTy).Contents (Elt F) → (⟨S_, .f32⟩ : BufTy).Contents (Elt F)) ⟨by decide, rfl⟩ ⟨by decide, rfl⟩ ⟨by decide, rfl⟩ W

theorem rd_main_call8_cst_2 (V : Valuation τ sig (Elt F)) :
    after opsL3 V (Proc.devRef .tc main_call8_cst_2) = ((constant S_ .f32 0x00000000#32) : (⟨S_, .f32⟩ : BufTy).Contents (Elt F)) := by
  rw [Rd.at_eq opsL3_w1 113 (by decide) (y := main_call8_cst_2) (by decide) V]
  generalize after (List.take 113 opsL3) V = W
  exact nullary_result main_call8_cst_2 ((constant S_ .f32 0x00000000#32) : (⟨S_, .f32⟩ : BufTy).Contents (Elt F)) ⟨by decide, rfl⟩ W

theorem rd_main_call8_v9 (V : Valuation τ sig (Elt F)) :
    after opsL3 V (Proc.devRef .tc main_call8_v9) = ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) (after opsL3 V (Proc.devRef .tc main_call8_v6)) (after opsL3 V (Proc.devRef .tc main_call8_cst_2)) := by
  rw [← Rd.tk_eq opsL3_w1 114 (a := main_call8_v6) (by decide) V,
    ← Rd.tk_eq opsL3_w1 114 (a := main_call8_cst_2) (by decide) V,
    Rd.at_eq opsL3_w1 114 (by decide) (y := main_call8_v9) (by decide) V]
  generalize after (List.take 114 opsL3) V = W
  exact binary_result main_call8_v6 main_call8_cst_2 main_call8_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ W

theorem rd_main_call8_v10 (V : Valuation τ sig (Elt F)) :
    after opsL3 V (Proc.devRef .tc main_call8_v10) = ((broadcastInDim S64 ![] bcast_S_S64) : (⟨S_, .f32⟩ : BufTy).Contents (Elt F) → (⟨S64, .f32⟩ : BufTy).Contents (Elt F)) (after opsL3 V (Proc.devRef .tc main_call8_v8)) := by
  rw [← Rd.tk_eq opsL3_w1 115 (a := main_call8_v8) (by decide) V,
    Rd.at_eq opsL3_w1 115 (by decide) (y := main_call8_v10) (by decide) V]
  generalize after (List.take 115 opsL3) V = W
  exact unary_result main_call8_v8 main_call8_v10 ((broadcastInDim S64 ![] bcast_S_S64) : (⟨S_, .f32⟩ : BufTy).Contents (Elt F) → (⟨S64, .f32⟩ : BufTy).Contents (Elt F)) ⟨by decide, rfl⟩ ⟨by decide, rfl⟩ W

theorem rd_main_call8_v11 (V : Valuation τ sig (Elt F)) :
    after opsL3 V (Proc.devRef .tc main_call8_v11) = (Host.divf : (⟨S64, .f32⟩ : BufTy).Contents (Elt F) → (⟨S64, .f32⟩ : BufTy).Contents (Elt F) → (⟨S64, .f32⟩ : BufTy).Contents (Elt F)) (after opsL3 V (Proc.devRef .tc main_call8_v9)) (after opsL3 V (Proc.devRef .tc main_call8_v10)) := by
  rw [← Rd.tk_eq opsL3_w1 116 (a := main_call8_v9) (by decide) V,
    ← Rd.tk_eq opsL3_w1 116 (a := main_call8_v10) (by decide) V,
    Rd.at_eq opsL3_w1 116 (by decide) (y := main_call8_v11) (by decide) V]
  generalize after (List.take 116 opsL3) V = W
  exact binary_result main_call8_v9 main_call8_v10 main_call8_v11 (Host.divf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ W

theorem rd_main_call8_cst_3 (V : Valuation τ sig (Elt F)) :
    after opsL3 V (Proc.devRef .tc main_call8_cst_3) = ((constant S_ .f32 0x00000000#32) : (⟨S_, .f32⟩ : BufTy).Contents (Elt F)) := by
  rw [Rd.at_eq opsL3_w1 117 (by decide) (y := main_call8_cst_3) (by decide) V]
  generalize after (List.take 117 opsL3) V = W
  exact nullary_result main_call8_cst_3 ((constant S_ .f32 0x00000000#32) : (⟨S_, .f32⟩ : BufTy).Contents (Elt F)) ⟨by decide, rfl⟩ W

theorem rd_main_call8_v12 (V : Valuation τ sig (Elt F)) :
    after opsL3 V (Proc.devRef .tc main_call8_v12) = ((cmpf .ogt) : (⟨S_, .f32⟩ : BufTy).Contents (Elt F) → (⟨S_, .f32⟩ : BufTy).Contents (Elt F) → (⟨S_, .i1⟩ : BufTy).Contents (Elt F)) (after opsL3 V (Proc.devRef .tc main_call8_v8)) (after opsL3 V (Proc.devRef .tc main_call8_cst_3)) := by
  rw [← Rd.tk_eq opsL3_w1 118 (a := main_call8_v8) (by decide) V,
    ← Rd.tk_eq opsL3_w1 118 (a := main_call8_cst_3) (by decide) V,
    Rd.at_eq opsL3_w1 118 (by decide) (y := main_call8_v12) (by decide) V]
  generalize after (List.take 118 opsL3) V = W
  exact binary_result main_call8_v8 main_call8_cst_3 main_call8_v12 ((cmpf .ogt) : (⟨S_, .f32⟩ : BufTy).Contents (Elt F) → (⟨S_, .f32⟩ : BufTy).Contents (Elt F) → (⟨S_, .i1⟩ : BufTy).Contents (Elt F)) ⟨by decide, rfl⟩ ⟨by decide, rfl⟩ ⟨by decide, rfl⟩ W

theorem rd_main_call8_cst_4 (V : Valuation τ sig (Elt F)) :
    after opsL3 V (Proc.devRef .tc main_call8_cst_4) = ((constant S_ .f32 0x7FC00000#32) : (⟨S_, .f32⟩ : BufTy).Contents (Elt F)) := by
  rw [Rd.at_eq opsL3_w1 119 (by decide) (y := main_call8_cst_4) (by decide) V]
  generalize after (List.take 119 opsL3) V = W
  exact nullary_result main_call8_cst_4 ((constant S_ .f32 0x7FC00000#32) : (⟨S_, .f32⟩ : BufTy).Contents (Elt F)) ⟨by decide, rfl⟩ W

theorem rd_main_call8_call0_v0 (V : Valuation τ sig (Elt F)) :
    after opsL3 V (Proc.devRef .tc main_call8_call0_v0) = (id : (⟨S_, .f32⟩ : BufTy).Contents (Elt F) → (⟨S_, .f32⟩ : BufTy).Contents (Elt F)) (after opsL3 V (Proc.devRef .tc main_call8_cst_4)) := by
  rw [← Rd.tk_eq opsL3_w1 120 (a := main_call8_cst_4) (by decide) V,
    Rd.at_eq opsL3_w1 120 (by decide) (y := main_call8_call0_v0) (by decide) V]
  generalize after (List.take 120 opsL3) V = W
  exact unary_result main_call8_cst_4 main_call8_call0_v0 (id : (⟨S_, .f32⟩ : BufTy).Contents (Elt F) → (⟨S_, .f32⟩ : BufTy).Contents (Elt F)) ⟨by decide, rfl⟩ ⟨by decide, rfl⟩ W

theorem rd_main_call8_call0_v1 (V : Valuation τ sig (Elt F)) :
    after opsL3 V (Proc.devRef .tc main_call8_call0_v1) = ((broadcastInDim S64 ![] bcast_S_S64) : (⟨S_, .f32⟩ : BufTy).Contents (Elt F) → (⟨S64, .f32⟩ : BufTy).Contents (Elt F)) (after opsL3 V (Proc.devRef .tc main_call8_call0_v0)) := by
  rw [← Rd.tk_eq opsL3_w1 121 (a := main_call8_call0_v0) (by decide) V,
    Rd.at_eq opsL3_w1 121 (by decide) (y := main_call8_call0_v1) (by decide) V]
  generalize after (List.take 121 opsL3) V = W
  exact unary_result main_call8_call0_v0 main_call8_call0_v1 ((broadcastInDim S64 ![] bcast_S_S64) : (⟨S_, .f32⟩ : BufTy).Contents (Elt F) → (⟨S64, .f32⟩ : BufTy).Contents (Elt F)) ⟨by decide, rfl⟩ ⟨by decide, rfl⟩ W

theorem rd_main_v357 (V : Valuation τ sig (Elt F)) :
    after opsL3 V (Proc.devRef .tc main_v357) = ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) (after opsL3 V (Proc.devRef .tc main_call8_v12)) (after opsL3 V (Proc.devRef .tc main_call8_v11)) (after opsL3 V (Proc.devRef .tc main_call8_call0_v1)) := by
  rw [← Rd.tk_eq opsL3_w1 122 (a := main_call8_v12) (by decide) V,
    ← Rd.tk_eq opsL3_w1 122 (a := main_call8_v11) (by decide) V,
    ← Rd.tk_eq opsL3_w1 122 (a := main_call8_call0_v1) (by decide) V,
    Rd.at_eq opsL3_w1 122 (by decide) (y := main_v357) (by decide) V]
  generalize after (List.take 122 opsL3) V = W
  exact ternary_result main_call8_v12 main_call8_v11 main_call8_call0_v1 main_v357 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ ⟨by decide, rfl⟩ W

theorem rd_main_v358 (V : Valuation τ sig (Elt F)) :
    after opsL3 V (Proc.devRef .tc main_v358) = (broadcastInDim S1x64 ![1] bcast_S64_S1x64_1 : (⟨S64, .f32⟩ : BufTy).Contents (Elt F) → (⟨S1x64, .f32⟩ : BufTy).Contents (Elt F)) (after opsL3 V (Proc.devRef .tc main_v356)) := by
  rw [← Rd.tk_eq opsL3_w1 123 (a := main_v356) (by decide) V,
    Rd.at_eq opsL3_w1 123 (by decide) (y := main_v358) (by decide) V]
  generalize after (List.take 123 opsL3) V = W
  exact unary_result main_v356 main_v358 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v359 (V : Valuation τ sig (Elt F)) :
    after opsL3 V (Proc.devRef .tc main_v359) = (broadcastInDim S50000x64 ![0, 1] bcast_S1x64_S50000x64_0_1 : (⟨S1x64, .f32⟩ : BufTy).Contents (Elt F) → (⟨S50000x64, .f32⟩ : BufTy).Contents (Elt F)) (after opsL3 V (Proc.devRef .tc main_v358)) := by
  rw [← Rd.tk_eq opsL3_w1 124 (a := main_v358) (by decide) V,
    Rd.at_eq opsL3_w1 124 (by decide) (y := main_v359) (by decide) V]
  generalize after (List.take 124 opsL3) V = W
  exact unary_result main_v358 main_v359 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v360 (V : Valuation τ sig (Elt F)) :
    after opsL3 V (Proc.devRef .tc main_v360) = (subf : (⟨S50000x64, .f32⟩ : BufTy).Contents (Elt F) → (⟨S50000x64, .f32⟩ : BufTy).Contents (Elt F) → (⟨S50000x64, .f32⟩ : BufTy).Contents (Elt F)) (after opsL3 V (Proc.devRef .tc main_v349)) (after opsL3 V (Proc.devRef .tc main_v359)) := by
  rw [← Rd.tk_eq opsL3_w1 125 (a := main_v349) (by decide) V,
    ← Rd.tk_eq opsL3_w1 125 (a := main_v359) (by decide) V,
    Rd.at_eq opsL3_w1 125 (by decide) (y := main_v360) (by decide) V]
  generalize after (List.take 125 opsL3) V = W
  exact binary_result main_v349 main_v359 main_v360 (subf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_cst_51 (V : Valuation τ sig (Elt F)) :
    after opsL3 V (Proc.devRef .tc main_cst_51) = (constant S_ .f32 0x3727C5AC#32) := by
  rw [Rd.at_eq opsL3_w1 126 (by decide) (y := main_cst_51) (by decide) V]
  generalize after (List.take 126 opsL3) V = W
  exact nullary_result main_cst_51 (constant S_ .f32 0x3727C5AC#32) ⟨by decide, rfl⟩ W

theorem rd_main_v361 (V : Valuation τ sig (Elt F)) :
    after opsL3 V (Proc.devRef .tc main_v361) = (broadcastInDim S64 ![] bcast_S_S64 : (⟨S_, .f32⟩ : BufTy).Contents (Elt F) → (⟨S64, .f32⟩ : BufTy).Contents (Elt F)) (after opsL3 V (Proc.devRef .tc main_cst_51)) := by
  rw [← Rd.tk_eq opsL3_w1 127 (a := main_cst_51) (by decide) V,
    Rd.at_eq opsL3_w1 127 (by decide) (y := main_v361) (by decide) V]
  generalize after (List.take 127 opsL3) V = W
  exact unary_result main_cst_51 main_v361 (broadcastInDim S64 ![] bcast_S_S64 : (⟨S_, .f32⟩ : BufTy).Contents (Elt F) → (⟨S64, .f32⟩ : BufTy).Contents (Elt F)) ⟨by decide, rfl⟩ ⟨by decide, rfl⟩ W

theorem rd_main_v362 (V : Valuation τ sig (Elt F)) :
    after opsL3 V (Proc.devRef .tc main_v362) = (addf : (⟨S64, .f32⟩ : BufTy).Contents (Elt F) → (⟨S64, .f32⟩ : BufTy).Contents (Elt F) → (⟨S64, .f32⟩ : BufTy).Contents (Elt F)) (after opsL3 V (Proc.devRef .tc main_v357)) (after opsL3 V (Proc.devRef .tc main_v361)) := by
  rw [← Rd.tk_eq opsL3_w1 128 (a := main_v357) (by decide) V,
    ← Rd.tk_eq opsL3_w1 128 (a := main_v361) (by decide) V,
    Rd.at_eq opsL3_w1 128 (by decide) (y := main_v362) (by decide) V]
  generalize after (List.take 128 opsL3) V = W
  exact binary_result main_v357 main_v361 main_v362 (addf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ W

theorem rd_main_v363 (V : Valuation τ sig (Elt F)) :
    after opsL3 V (Proc.devRef .tc main_v363) = (Host.rsqrt : (⟨S64, .f32⟩ : BufTy).Contents (Elt F) → (⟨S64, .f32⟩ : BufTy).Contents (Elt F)) (after opsL3 V (Proc.devRef .tc main_v362)) := by
  rw [← Rd.tk_eq opsL3_w1 129 (a := main_v362) (by decide) V,
    Rd.at_eq opsL3_w1 129 (by decide) (y := main_v363) (by decide) V]
  generalize after (List.take 129 opsL3) V = W
  exact unary_result main_v362 main_v363 (Host.rsqrt : (⟨S64, .f32⟩ : BufTy).Contents (Elt F) → (⟨S64, .f32⟩ : BufTy).Contents (Elt F)) ⟨by decide, rfl⟩ ⟨by decide, rfl⟩ W

theorem rd_main_v364 (V : Valuation τ sig (Elt F)) :
    after opsL3 V (Proc.devRef .tc main_v364) = (broadcastInDim S1x64 ![1] bcast_S64_S1x64_1 : (⟨S64, .f32⟩ : BufTy).Contents (Elt F) → (⟨S1x64, .f32⟩ : BufTy).Contents (Elt F)) (after opsL3 V (Proc.devRef .tc main_v363)) := by
  rw [← Rd.tk_eq opsL3_w1 130 (a := main_v363) (by decide) V,
    Rd.at_eq opsL3_w1 130 (by decide) (y := main_v364) (by decide) V]
  generalize after (List.take 130 opsL3) V = W
  exact unary_result main_v363 main_v364 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v365 (V : Valuation τ sig (Elt F)) :
    after opsL3 V (Proc.devRef .tc main_v365) = (broadcastInDim S50000x64 ![0, 1] bcast_S1x64_S50000x64_0_1 : (⟨S1x64, .f32⟩ : BufTy).Contents (Elt F) → (⟨S50000x64, .f32⟩ : BufTy).Contents (Elt F)) (after opsL3 V (Proc.devRef .tc main_v364)) := by
  rw [← Rd.tk_eq opsL3_w1 131 (a := main_v364) (by decide) V,
    Rd.at_eq opsL3_w1 131 (by decide) (y := main_v365) (by decide) V]
  generalize after (List.take 131 opsL3) V = W
  exact unary_result main_v364 main_v365 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v366 (V : Valuation τ sig (Elt F)) :
    after opsL3 V (Proc.devRef .tc main_v366) = (mulf : (⟨S50000x64, .f32⟩ : BufTy).Contents (Elt F) → (⟨S50000x64, .f32⟩ : BufTy).Contents (Elt F) → (⟨S50000x64, .f32⟩ : BufTy).Contents (Elt F)) (after opsL3 V (Proc.devRef .tc main_v360)) (after opsL3 V (Proc.devRef .tc main_v365)) := by
  rw [← Rd.tk_eq opsL3_w1 132 (a := main_v360) (by decide) V,
    ← Rd.tk_eq opsL3_w1 132 (a := main_v365) (by decide) V,
    Rd.at_eq opsL3_w1 132 (by decide) (y := main_v366) (by decide) V]
  generalize after (List.take 132 opsL3) V = W
  exact binary_result main_v360 main_v365 main_v366 (mulf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v367 (V : Valuation τ sig (Elt F)) :
    after opsL3 V (Proc.devRef .tc main_v367) = (broadcastInDim S1x64 ![1] bcast_S64_S1x64_1 : (⟨S64, .f32⟩ : BufTy).Contents (Elt F) → (⟨S1x64, .f32⟩ : BufTy).Contents (Elt F)) (after opsL3 V (Proc.devRef .tc main_v351)) := by
  rw [← Rd.tk_eq opsL3_w1 133 (a := main_v351) (by decide) V,
    Rd.at_eq opsL3_w1 133 (by decide) (y := main_v367) (by decide) V]
  generalize after (List.take 133 opsL3) V = W
  exact unary_result main_v351 main_v367 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v368 (V : Valuation τ sig (Elt F)) :
    after opsL3 V (Proc.devRef .tc main_v368) = (broadcastInDim S50000x64 ![0, 1] bcast_S1x64_S50000x64_0_1 : (⟨S1x64, .f32⟩ : BufTy).Contents (Elt F) → (⟨S50000x64, .f32⟩ : BufTy).Contents (Elt F)) (after opsL3 V (Proc.devRef .tc main_v367)) := by
  rw [← Rd.tk_eq opsL3_w1 134 (a := main_v367) (by decide) V,
    Rd.at_eq opsL3_w1 134 (by decide) (y := main_v368) (by decide) V]
  generalize after (List.take 134 opsL3) V = W
  exact unary_result main_v367 main_v368 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v369 (V : Valuation τ sig (Elt F)) :
    after opsL3 V (Proc.devRef .tc main_v369) = (mulf : (⟨S50000x64, .f32⟩ : BufTy).Contents (Elt F) → (⟨S50000x64, .f32⟩ : BufTy).Contents (Elt F) → (⟨S50000x64, .f32⟩ : BufTy).Contents (Elt F)) (after opsL3 V (Proc.devRef .tc main_v366)) (after opsL3 V (Proc.devRef .tc main_v368)) := by
  rw [← Rd.tk_eq opsL3_w1 135 (a := main_v366) (by decide) V,
    ← Rd.tk_eq opsL3_w1 135 (a := main_v368) (by decide) V,
    Rd.at_eq opsL3_w1 135 (by decide) (y := main_v369) (by decide) V]
  generalize after (List.take 135 opsL3) V = W
  exact binary_result main_v366 main_v368 main_v369 (mulf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v370 (V : Valuation τ sig (Elt F)) :
    after opsL3 V (Proc.devRef .tc main_v370) = (broadcastInDim S1x64 ![1] bcast_S64_S1x64_1 : (⟨S64, .f32⟩ : BufTy).Contents (Elt F) → (⟨S1x64, .f32⟩ : BufTy).Contents (Elt F)) (after opsL3 V (Proc.devRef .tc main_v353)) := by
  rw [← Rd.tk_eq opsL3_w1 136 (a := main_v353) (by decide) V,
    Rd.at_eq opsL3_w1 136 (by decide) (y := main_v370) (by decide) V]
  generalize after (List.take 136 opsL3) V = W
  exact unary_result main_v353 main_v370 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v371 (V : Valuation τ sig (Elt F)) :
    after opsL3 V (Proc.devRef .tc main_v371) = (broadcastInDim S50000x64 ![0, 1] bcast_S1x64_S50000x64_0_1 : (⟨S1x64, .f32⟩ : BufTy).Contents (Elt F) → (⟨S50000x64, .f32⟩ : BufTy).Contents (Elt F)) (after opsL3 V (Proc.devRef .tc main_v370)) := by
  rw [← Rd.tk_eq opsL3_w1 137 (a := main_v370) (by decide) V,
    Rd.at_eq opsL3_w1 137 (by decide) (y := main_v371) (by decide) V]
  generalize after (List.take 137 opsL3) V = W
  exact unary_result main_v370 main_v371 (broadcastInDim S50000x64 ![0, 1] bcast_S1x64_S50000x64_0_1 : (⟨S1x64, .f32⟩ : BufTy).Contents (Elt F) → (⟨S50000x64, .f32⟩ : BufTy).Contents (Elt F)) ⟨by decide, rfl⟩ ⟨by decide, rfl⟩ W

theorem rd_main_v372 (V : Valuation τ sig (Elt F)) :
    after opsL3 V (Proc.devRef .tc main_v372) = (addf : (⟨S50000x64, .f32⟩ : BufTy).Contents (Elt F) → (⟨S50000x64, .f32⟩ : BufTy).Contents (Elt F) → (⟨S50000x64, .f32⟩ : BufTy).Contents (Elt F)) (after opsL3 V (Proc.devRef .tc main_v369)) (after opsL3 V (Proc.devRef .tc main_v371)) := by
  rw [← Rd.tk_eq opsL3_w1 138 (a := main_v369) (by decide) V,
    ← Rd.tk_eq opsL3_w1 138 (a := main_v371) (by decide) V,
    Rd.at_eq opsL3_w1 138 (by decide) (y := main_v372) (by decide) V]
  generalize after (List.take 138 opsL3) V = W
  exact binary_result main_v369 main_v371 main_v372 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_call9_cst (V : Valuation τ sig (Elt F)) :
    after opsL3 V (Proc.devRef .tc main_call9_cst) = ((constant S_ .f32 0x00000000#32) : (⟨S_, .f32⟩ : BufTy).Contents (Elt F)) := by
  rw [Rd.at_eq opsL3_w1 139 (by decide) (y := main_call9_cst) (by decide) V]
  generalize after (List.take 139 opsL3) V = W
  exact nullary_result main_call9_cst ((constant S_ .f32 0x00000000#32) : (⟨S_, .f32⟩ : BufTy).Contents (Elt F)) ⟨by decide, rfl⟩ W

theorem rd_main_call9_v0 (V : Valuation τ sig (Elt F)) :
    after opsL3 V (Proc.devRef .tc main_call9_v0) = ((broadcastInDim S50000x64 ![] bcast_S_S50000x64) : (⟨S_, .f32⟩ : BufTy).Contents (Elt F) → (⟨S50000x64, .f32⟩ : BufTy).Contents (Elt F)) (after opsL3 V (Proc.devRef .tc main_call9_cst)) := by
  rw [← Rd.tk_eq opsL3_w1 140 (a := main_call9_cst) (by decide) V,
    Rd.at_eq opsL3_w1 140 (by decide) (y := main_call9_v0) (by decide) V]
  generalize after (List.take 140 opsL3) V = W
  exact unary_result main_call9_cst main_call9_v0 ((broadcastInDim S50000x64 ![] bcast_S_S50000x64) : (⟨S_, .f32⟩ : BufTy).Contents (Elt F) → (⟨S50000x64, .f32⟩ : BufTy).Contents (Elt F)) ⟨by decide, rfl⟩ ⟨by decide, rfl⟩ W

theorem rd_main_v373 (V : Valuation τ sig (Elt F)) :
    after opsL3 V (Proc.devRef .tc main_v373) = (maximumf : (⟨S50000x64, .f32⟩ : BufTy).Contents (Elt F) → (⟨S50000x64, .f32⟩ : BufTy).Contents (Elt F) → (⟨S50000x64, .f32⟩ : BufTy).Contents (Elt F)) (after opsL3 V (Proc.devRef .tc main_v372)) (after opsL3 V (Proc.devRef .tc main_call9_v0)) := by
  rw [← Rd.tk_eq opsL3_w1 141 (a := main_v372) (by decide) V,
    ← Rd.tk_eq opsL3_w1 141 (a := main_call9_v0) (by decide) V,
    Rd.at_eq opsL3_w1 141 (by decide) (y := main_v373) (by decide) V]
  generalize after (List.take 141 opsL3) V = W
  exact binary_result main_v372 main_call9_v0 main_v373 (maximumf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v374 (V : Valuation τ sig (Elt F)) :
    after opsL3 V (Proc.devRef .tc main_v374) = (addf : (⟨S50000x64, .f32⟩ : BufTy).Contents (Elt F) → (⟨S50000x64, .f32⟩ : BufTy).Contents (Elt F) → (⟨S50000x64, .f32⟩ : BufTy).Contents (Elt F)) (V (Proc.devRef .tc main_v244)) (after opsL3 V (Proc.devRef .tc main_v373)) := by
  rw [← Rd.tk_keep opsL3_w1 142 (a := main_v244) (by decide) V,
    ← Rd.tk_eq opsL3_w1 142 (a := main_v373) (by decide) V,
    Rd.at_eq opsL3_w1 142 (by decide) (y := main_v374) (by decide) V]
  generalize after (List.take 142 opsL3) V = W
  exact binary_result main_v244 main_v373 main_v374 (addf : (⟨S50000x64, .f32⟩ : BufTy).Contents (Elt F) → (⟨S50000x64, .f32⟩ : BufTy).Contents (Elt F) → (⟨S50000x64, .f32⟩ : BufTy).Contents (Elt F)) ⟨by decide, rfl⟩ ⟨by decide, rfl⟩ ⟨by decide, rfl⟩ W

theorem rd_main_v375 (V : Valuation τ sig (Elt F)) :
    after opsL3 V (Proc.devRef .tc main_v375) = ((extractStridedSlice S1x64 ![2, 0] · slices_S3x64_S1x64_2_0) : (⟨S3x64, .f32⟩ : BufTy).Contents (Elt F) → (⟨S1x64, .f32⟩ : BufTy).Contents (Elt F)) (V (Proc.devRef .tc main_arg22)) := by
  rw [← Rd.tk_keep opsL3_w1 143 (a := main_arg22) (by decide) V,
    Rd.at_eq opsL3_w1 143 (by decide) (y := main_v375) (by decide) V]
  generalize after (List.take 143 opsL3) V = W
  exact unary_result main_arg22 main_v375 ((extractStridedSlice S1x64 ![2, 0] · slices_S3x64_S1x64_2_0) : (⟨S3x64, .f32⟩ : BufTy).Contents (Elt F) → (⟨S1x64, .f32⟩ : BufTy).Contents (Elt F)) ⟨by decide, rfl⟩ ⟨by decide, rfl⟩ W

theorem rd_main_v376 (V : Valuation τ sig (Elt F)) :
    after opsL3 V (Proc.devRef .tc main_v376) = shapeCast S64 (after opsL3 V (Proc.devRef .tc main_v375)) shapeCasts_S1x64_S64 := by
  rw [← Rd.tk_eq opsL3_w1 144 (a := main_v375) (by decide) V,
    Rd.at_eq opsL3_w1 144 (by decide) (y := main_v376) (by decide) V]
  generalize after (List.take 144 opsL3) V = W
  exact reshape_result main_v375 main_v376 rfl shapeCasts_S1x64_S64 ⟨by decide, rfl⟩ ⟨by decide, rfl⟩ W

theorem rd_main_v377 (V : Valuation τ sig (Elt F)) :
    after opsL3 V (Proc.devRef .tc main_v377) = ((extractStridedSlice S1x64 ![2, 0] · slices_S3x64_S1x64_2_0) : (⟨S3x64, .f32⟩ : BufTy).Contents (Elt F) → (⟨S1x64, .f32⟩ : BufTy).Contents (Elt F)) (V (Proc.devRef .tc main_arg23)) := by
  rw [← Rd.tk_keep opsL3_w1 145 (a := main_arg23) (by decide) V,
    Rd.at_eq opsL3_w1 145 (by decide) (y := main_v377) (by decide) V]
  generalize after (List.take 145 opsL3) V = W
  exact unary_result main_arg23 main_v377 ((extractStridedSlice S1x64 ![2, 0] · slices_S3x64_S1x64_2_0) : (⟨S3x64, .f32⟩ : BufTy).Contents (Elt F) → (⟨S1x64, .f32⟩ : BufTy).Contents (Elt F)) ⟨by decide, rfl⟩ ⟨by decide, rfl⟩ W

theorem rd_main_v378 (V : Valuation τ sig (Elt F)) :
    after opsL3 V (Proc.devRef .tc main_v378) = shapeCast S64 (after opsL3 V (Proc.devRef .tc main_v377)) shapeCasts_S1x64_S64 := by
  rw [← Rd.tk_eq opsL3_w1 146 (a := main_v377) (by decide) V,
    Rd.at_eq opsL3_w1 146 (by decide) (y := main_v378) (by decide) V]
  generalize after (List.take 146 opsL3) V = W
  exact reshape_result main_v377 main_v378 rfl shapeCasts_S1x64_S64 ⟨by decide, rfl⟩ ⟨by decide, rfl⟩ W

theorem rd_main_cst_52 (V : Valuation τ sig (Elt F)) :
    after opsL3 V (Proc.devRef .tc main_cst_52) = (constant S_ .f32 0x00000000#32) := by
  rw [Rd.at_eq opsL3_w1 147 (by decide) (y := main_cst_52) (by decide) V]
  generalize after (List.take 147 opsL3) V = W
  exact nullary_result main_cst_52 (constant S_ .f32 0x00000000#32) ⟨by decide, rfl⟩ W

theorem rd_main_v379 (V : Valuation τ sig (Elt F)) :
    after opsL3 V (Proc.devRef .tc main_v379) = ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)) (after opsL3 V (Proc.devRef .tc main_v325)) (after opsL3 V (Proc.devRef .tc main_cst_52)) := by
  rw [← Rd.tk_eq opsL3_w1 148 (a := main_v325) (by decide) V,
    ← Rd.tk_eq opsL3_w1 148 (a := main_cst_52) (by decide) V,
    Rd.at_eq opsL3_w1 148 (by decide) (y := main_v379) (by decide) V]
  generalize after (List.take 148 opsL3) V = W
  exact binary_result main_v325 main_cst_52 main_v379 ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ W

theorem rd_main_cst_53 (V : Valuation τ sig (Elt F)) :
    after opsL3 V (Proc.devRef .tc main_cst_53) = (constant S_ .f32 0x48C35000#32) := by
  rw [Rd.at_eq opsL3_w1 149 (by decide) (y := main_cst_53) (by decide) V]
  generalize after (List.take 149 opsL3) V = W
  exact nullary_result main_cst_53 (constant S_ .f32 0x48C35000#32) ⟨by decide, rfl⟩ W

theorem rd_main_v380 (V : Valuation τ sig (Elt F)) :
    after opsL3 V (Proc.devRef .tc main_v380) = (broadcastInDim S64 ![] bcast_S_S64 : (⟨S_, .f32⟩ : BufTy).Contents (Elt F) → (⟨S64, .f32⟩ : BufTy).Contents (Elt F)) (after opsL3 V (Proc.devRef .tc main_cst_53)) := by
  rw [← Rd.tk_eq opsL3_w1 150 (a := main_cst_53) (by decide) V,
    Rd.at_eq opsL3_w1 150 (by decide) (y := main_v380) (by decide) V]
  generalize after (List.take 150 opsL3) V = W
  exact unary_result main_cst_53 main_v380 (broadcastInDim S64 ![] bcast_S_S64 : (⟨S_, .f32⟩ : BufTy).Contents (Elt F) → (⟨S64, .f32⟩ : BufTy).Contents (Elt F)) ⟨by decide, rfl⟩ ⟨by decide, rfl⟩ W

theorem rd_main_v381 (V : Valuation τ sig (Elt F)) :
    after opsL3 V (Proc.devRef .tc main_v381) = (Host.divf : (⟨S64, .f32⟩ : BufTy).Contents (Elt F) → (⟨S64, .f32⟩ : BufTy).Contents (Elt F) → (⟨S64, .f32⟩ : BufTy).Contents (Elt F)) (after opsL3 V (Proc.devRef .tc main_v379)) (after opsL3 V (Proc.devRef .tc main_v380)) := by
  rw [← Rd.tk_eq opsL3_w1 151 (a := main_v379) (by decide) V,
    ← Rd.tk_eq opsL3_w1 151 (a := main_v380) (by decide) V,
    Rd.at_eq opsL3_w1 151 (by decide) (y := main_v381) (by decide) V]
  generalize after (List.take 151 opsL3) V = W
  exact binary_result main_v379 main_v380 main_v381 (Host.divf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ W

theorem rd_main_c_54 (V : Valuation τ sig (Elt F)) :
    after opsL3 V (Proc.devRef .tc main_c_54) = (constantI S_ 32 0#32) := by
  rw [Rd.at_eq opsL3_w1 152 (by decide) (y := main_c_54) (by decide) V]
  generalize after (List.take 152 opsL3) V = W
  exact nullary_result main_c_54 (constantI S_ 32 0#32) ⟨by decide, rfl⟩ W

theorem rd_main_call10_cst (V : Valuation τ sig (Elt F)) :
    after opsL3 V (Proc.devRef .tc main_call10_cst) = ((constant S_ .f32 0x00000000#32) : (⟨S_, .f32⟩ : BufTy).Contents (Elt F)) := by
  rw [Rd.at_eq opsL3_w1 153 (by decide) (y := main_call10_cst) (by decide) V]
  generalize after (List.take 153 opsL3) V = W
  exact nullary_result main_call10_cst ((constant S_ .f32 0x00000000#32) : (⟨S_, .f32⟩ : BufTy).Contents (Elt F)) ⟨by decide, rfl⟩ W

theorem rd_main_call10_v0 (V : Valuation τ sig (Elt F)) :
    after opsL3 V (Proc.devRef .tc main_call10_v0) = ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)) (after opsL3 V (Proc.devRef .tc main_v325)) (after opsL3 V (Proc.devRef .tc main_call10_cst)) := by
  rw [← Rd.tk_eq opsL3_w1 154 (a := main_v325) (by decide) V,
    ← Rd.tk_eq opsL3_w1 154 (a := main_call10_cst) (by decide) V,
    Rd.at_eq opsL3_w1 154 (by decide) (y := main_call10_v0) (by decide) V]
  generalize after (List.take 154 opsL3) V = W
  exact binary_result main_v325 main_call10_cst main_call10_v0 ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ W

theorem rd_main_call10_v1 (V : Valuation τ sig (Elt F)) :
    after opsL3 V (Proc.devRef .tc main_call10_v1) = ((broadcastInDim S1x64 ![1] bcast_S64_S1x64_1) : (⟨S64, .f32⟩ : BufTy).Contents (Elt F) → (⟨S1x64, .f32⟩ : BufTy).Contents (Elt F)) (after opsL3 V (Proc.devRef .tc main_call10_v0)) := by
  rw [← Rd.tk_eq opsL3_w1 155 (a := main_call10_v0) (by decide) V,
    Rd.at_eq opsL3_w1 155 (by decide) (y := main_call10_v1) (by decide) V]
  generalize after (List.take 155 opsL3) V = W
  exact unary_result main_call10_v0 main_call10_v1 ((broadcastInDim S1x64 ![1] bcast_S64_S1x64_1) : (⟨S64, .f32⟩ : BufTy).Contents (Elt F) → (⟨S1x64, .f32⟩ : BufTy).Contents (Elt F)) ⟨by decide, rfl⟩ ⟨by decide, rfl⟩ W

theorem rd_main_call10_cst_0 (V : Valuation τ sig (Elt F)) :
    after opsL3 V (Proc.devRef .tc main_call10_cst_0) = ((constant S_ .f32 0x48C35000#32) : (⟨S_, .f32⟩ : BufTy).Contents (Elt F)) := by
  rw [Rd.at_eq opsL3_w1 156 (by decide) (y := main_call10_cst_0) (by decide) V]
  generalize after (List.take 156 opsL3) V = W
  exact nullary_result main_call10_cst_0 ((constant S_ .f32 0x48C35000#32) : (⟨S_, .f32⟩ : BufTy).Contents (Elt F)) ⟨by decide, rfl⟩ W

theorem rd_main_call10_v2 (V : Valuation τ sig (Elt F)) :
    after opsL3 V (Proc.devRef .tc main_call10_v2) = ((broadcastInDim S1x64 ![] bcast_S_S1x64) : (⟨S_, .f32⟩ : BufTy).Contents (Elt F) → (⟨S1x64, .f32⟩ : BufTy).Contents (Elt F)) (after opsL3 V (Proc.devRef .tc main_call10_cst_0)) := by
  rw [← Rd.tk_eq opsL3_w1 157 (a := main_call10_cst_0) (by decide) V,
    Rd.at_eq opsL3_w1 157 (by decide) (y := main_call10_v2) (by decide) V]
  generalize after (List.take 157 opsL3) V = W
  exact unary_result main_call10_cst_0 main_call10_v2 ((broadcastInDim S1x64 ![] bcast_S_S1x64) : (⟨S_, .f32⟩ : BufTy).Contents (Elt F) → (⟨S1x64, .f32⟩ : BufTy).Contents (Elt F)) ⟨by decide, rfl⟩ ⟨by decide, rfl⟩ W

theorem rd_main_call10_v3 (V : Valuation τ sig (Elt F)) :
    after opsL3 V (Proc.devRef .tc main_call10_v3) = (Host.divf : (⟨S1x64, .f32⟩ : BufTy).Contents (Elt F) → (⟨S1x64, .f32⟩ : BufTy).Contents (Elt F) → (⟨S1x64, .f32⟩ : BufTy).Contents (Elt F)) (after opsL3 V (Proc.devRef .tc main_call10_v1)) (after opsL3 V (Proc.devRef .tc main_call10_v2)) := by
  rw [← Rd.tk_eq opsL3_w1 158 (a := main_call10_v1) (by decide) V,
    ← Rd.tk_eq opsL3_w1 158 (a := main_call10_v2) (by decide) V,
    Rd.at_eq opsL3_w1 158 (by decide) (y := main_call10_v3) (by decide) V]
  generalize after (List.take 158 opsL3) V = W
  exact binary_result main_call10_v1 main_call10_v2 main_call10_v3 (Host.divf : (⟨S1x64, .f32⟩ : BufTy).Contents (Elt F) → (⟨S1x64, .f32⟩ : BufTy).Contents (Elt F) → (⟨S1x64, .f32⟩ : BufTy).Contents (Elt F)) ⟨by decide, rfl⟩ ⟨by decide, rfl⟩ ⟨by decide, rfl⟩ W

theorem rd_main_call10_v4 (V : Valuation τ sig (Elt F)) :
    after opsL3 V (Proc.devRef .tc main_call10_v4) = ((broadcastInDim S400000x64 ![0, 1] bcast_S1x64_S400000x64_0_1) : (⟨S1x64, .f32⟩ : BufTy).Contents (Elt F) → (⟨S400000x64, .f32⟩ : BufTy).Contents (Elt F)) (after opsL3 V (Proc.devRef .tc main_call10_v3)) := by
  rw [← Rd.tk_eq opsL3_w1 159 (a := main_call10_v3) (by decide) V,
    Rd.at_eq opsL3_w1 159 (by decide) (y := main_call10_v4) (by decide) V]
  generalize after (List.take 159 opsL3) V = W
  exact unary_result main_call10_v3 main_call10_v4 ((broadcastInDim S400000x64 ![0, 1] bcast_S1x64_S400000x64_0_1) : (⟨S1x64, .f32⟩ : BufTy).Contents (Elt F) → (⟨S400000x64, .f32⟩ : BufTy).Contents (Elt F)) ⟨by decide, rfl⟩ ⟨by decide, rfl⟩ W

theorem rd_main_call10_v5 (V : Valuation τ sig (Elt F)) :
    after opsL3 V (Proc.devRef .tc main_call10_v5) = (subf : (⟨S400000x64, .f32⟩ : BufTy).Contents (Elt F) → (⟨S400000x64, .f32⟩ : BufTy).Contents (Elt F) → (⟨S400000x64, .f32⟩ : BufTy).Contents (Elt F)) (after opsL3 V (Proc.devRef .tc main_v325)) (after opsL3 V (Proc.devRef .tc main_call10_v4)) := by
  rw [← Rd.tk_eq opsL3_w1 160 (a := main_v325) (by decide) V,
    ← Rd.tk_eq opsL3_w1 160 (a := main_call10_v4) (by decide) V,
    Rd.at_eq opsL3_w1 160 (by decide) (y := main_call10_v5) (by decide) V]
  generalize after (List.take 160 opsL3) V = W
  exact binary_result main_v325 main_call10_v4 main_call10_v5 (subf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_call10_v6 (V : Valuation τ sig (Elt F)) :
    after opsL3 V (Proc.devRef .tc main_call10_v6) = (mulf : (⟨S400000x64, .f32⟩ : BufTy).Contents (Elt F) → (⟨S400000x64, .f32⟩ : BufTy).Contents (Elt F) → (⟨S400000x64, .f32⟩ : BufTy).Contents (Elt F)) (after opsL3 V (Proc.devRef .tc main_call10_v5)) (after opsL3 V (Proc.devRef .tc main_call10_v5)) := by
  rw [← Rd.tk_eq opsL3_w1 161 (a := main_call10_v5) (by decide) V,
    Rd.at_eq opsL3_w1 161 (by decide) (y := main_call10_v6) (by decide) V]
  generalize after (List.take 161 opsL3) V = W
  exact binary_result main_call10_v5 main_call10_v5 main_call10_v6 (mulf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_call10_v7 (V : Valuation τ sig (Elt F)) :
    after opsL3 V (Proc.devRef .tc main_call10_v7) = ((sitofp .f32) : (⟨S_, .i32⟩ : BufTy).Contents (Elt F) → (⟨S_, .f32⟩ : BufTy).Contents (Elt F)) (after opsL3 V (Proc.devRef .tc main_c_54)) := by
  rw [← Rd.tk_eq opsL3_w1 162 (a := main_c_54) (by decide) V,
    Rd.at_eq opsL3_w1 162 (by decide) (y := main_call10_v7) (by decide) V]
  generalize after (List.take 162 opsL3) V = W
  exact unary_result main_c_54 main_call10_v7 ((sitofp .f32) : (⟨S_, .i32⟩ : BufTy).Contents (Elt F) → (⟨S_, .f32⟩ : BufTy).Contents (Elt F)) ⟨by decide, rfl⟩ ⟨by decide, rfl⟩ W

theorem rd_main_call10_cst_1 (V : Valuation τ sig (Elt F)) :
    after opsL3 V (Proc.devRef .tc main_call10_cst_1) = ((constant S_ .f32 0x48C35000#32) : (⟨S_, .f32⟩ : BufTy).Contents (Elt F)) := by
  rw [Rd.at_eq opsL3_w1 163 (by decide) (y := main_call10_cst_1) (by decide) V]
  generalize after (List.take 163 opsL3) V = W
  exact nullary_result main_call10_cst_1 ((constant S_ .f32 0x48C35000#32) : (⟨S_, .f32⟩ : BufTy).Contents (Elt F)) ⟨by decide, rfl⟩ W

theorem rd_main_call10_v8 (V : Valuation τ sig (Elt F)) :
    after opsL3 V (Proc.devRef .tc main_call10_v8) = (subf : (⟨S_, .f32⟩ : BufTy).Contents (Elt F) → (⟨S_, .f32⟩ : BufTy).Contents (Elt F) → (⟨S_, .f32⟩ : BufTy).Contents (Elt F)) (after opsL3 V (Proc.devRef .tc main_call10_cst_1)) (after opsL3 V (Proc.devRef .tc main_call10_v7)) := by
  rw [← Rd.tk_eq opsL3_w1 164 (a := main_call10_cst_1) (by decide) V,
    ← Rd.tk_eq opsL3_w1 164 (a := main_call10_v7) (by decide) V,
    Rd.at_eq opsL3_w1 164 (by decide) (y := main_call10_v8) (by decide) V]
  generalize after (List.take 164 opsL3) V = W
  exact binary_result main_call10_cst_1 main_call10_v7 main_call10_v8 (subf : (⟨S_, .f32⟩ : BufTy).Contents (Elt F) → (⟨S_, .f32⟩ : BufTy).Contents (Elt F) → (⟨S_, .f32⟩ : BufTy).Contents (Elt F)) ⟨by decide, rfl⟩ ⟨by decide, rfl⟩ ⟨by decide, rfl⟩ W

theorem rd_main_call10_cst_2 (V : Valuation τ sig (Elt F)) :
    after opsL3 V (Proc.devRef .tc main_call10_cst_2) = ((constant S_ .f32 0x00000000#32) : (⟨S_, .f32⟩ : BufTy).Contents (Elt F)) := by
  rw [Rd.at_eq opsL3_w1 165 (by decide) (y := main_call10_cst_2) (by decide) V]
  generalize after (List.take 165 opsL3) V = W
  exact nullary_result main_call10_cst_2 ((constant S_ .f32 0x00000000#32) : (⟨S_, .f32⟩ : BufTy).Contents (Elt F)) ⟨by decide, rfl⟩ W

theorem rd_main_call10_v9 (V : Valuation τ sig (Elt F)) :
    after opsL3 V (Proc.devRef .tc main_call10_v9) = ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)) (after opsL3 V (Proc.devRef .tc main_call10_v6)) (after opsL3 V (Proc.devRef .tc main_call10_cst_2)) := by
  rw [← Rd.tk_eq opsL3_w1 166 (a := main_call10_v6) (by decide) V,
    ← Rd.tk_eq opsL3_w1 166 (a := main_call10_cst_2) (by decide) V,
    Rd.at_eq opsL3_w1 166 (by decide) (y := main_call10_v9) (by decide) V]
  generalize after (List.take 166 opsL3) V = W
  exact binary_result main_call10_v6 main_call10_cst_2 main_call10_v9 ((fun x v => Host.reduceAdd x v reducesTo_S400000x64_S64_d0 h_S_) : (⟨S400000x64, .f32⟩ : BufTy).Contents (Elt F) → (⟨S_, .f32⟩ : BufTy).Contents (Elt F) → (⟨S64, .f32⟩ : BufTy).Contents (Elt F)) ⟨by decide, rfl⟩ ⟨by decide, rfl⟩ ⟨by decide, rfl⟩ W

theorem rd_main_call10_v10 (V : Valuation τ sig (Elt F)) :
    after opsL3 V (Proc.devRef .tc main_call10_v10) = ((broadcastInDim S64 ![] bcast_S_S64) : (⟨S_, .f32⟩ : BufTy).Contents (Elt F) → (⟨S64, .f32⟩ : BufTy).Contents (Elt F)) (after opsL3 V (Proc.devRef .tc main_call10_v8)) := by
  rw [← Rd.tk_eq opsL3_w1 167 (a := main_call10_v8) (by decide) V,
    Rd.at_eq opsL3_w1 167 (by decide) (y := main_call10_v10) (by decide) V]
  generalize after (List.take 167 opsL3) V = W
  exact unary_result main_call10_v8 main_call10_v10 ((broadcastInDim S64 ![] bcast_S_S64) : (⟨S_, .f32⟩ : BufTy).Contents (Elt F) → (⟨S64, .f32⟩ : BufTy).Contents (Elt F)) ⟨by decide, rfl⟩ ⟨by decide, rfl⟩ W

theorem rd_main_call10_v11 (V : Valuation τ sig (Elt F)) :
    after opsL3 V (Proc.devRef .tc main_call10_v11) = (Host.divf : (⟨S64, .f32⟩ : BufTy).Contents (Elt F) → (⟨S64, .f32⟩ : BufTy).Contents (Elt F) → (⟨S64, .f32⟩ : BufTy).Contents (Elt F)) (after opsL3 V (Proc.devRef .tc main_call10_v9)) (after opsL3 V (Proc.devRef .tc main_call10_v10)) := by
  rw [← Rd.tk_eq opsL3_w1 168 (a := main_call10_v9) (by decide) V,
    ← Rd.tk_eq opsL3_w1 168 (a := main_call10_v10) (by decide) V,
    Rd.at_eq opsL3_w1 168 (by decide) (y := main_call10_v11) (by decide) V]
  generalize after (List.take 168 opsL3) V = W
  exact binary_result main_call10_v9 main_call10_v10 main_call10_v11 (Host.divf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ W

theorem rd_main_call10_cst_3 (V : Valuation τ sig (Elt F)) :
    after opsL3 V (Proc.devRef .tc main_call10_cst_3) = ((constant S_ .f32 0x00000000#32) : (⟨S_, .f32⟩ : BufTy).Contents (Elt F)) := by
  rw [Rd.at_eq opsL3_w1 169 (by decide) (y := main_call10_cst_3) (by decide) V]
  generalize after (List.take 169 opsL3) V = W
  exact nullary_result main_call10_cst_3 ((constant S_ .f32 0x00000000#32) : (⟨S_, .f32⟩ : BufTy).Contents (Elt F)) ⟨by decide, rfl⟩ W

theorem rd_main_call10_v12 (V : Valuation τ sig (Elt F)) :
    after opsL3 V (Proc.devRef .tc main_call10_v12) = ((cmpf .ogt) : (⟨S_, .f32⟩ : BufTy).Contents (Elt F) → (⟨S_, .f32⟩ : BufTy).Contents (Elt F) → (⟨S_, .i1⟩ : BufTy).Contents (Elt F)) (after opsL3 V (Proc.devRef .tc main_call10_v8)) (after opsL3 V (Proc.devRef .tc main_call10_cst_3)) := by
  rw [← Rd.tk_eq opsL3_w1 170 (a := main_call10_v8) (by decide) V,
    ← Rd.tk_eq opsL3_w1 170 (a := main_call10_cst_3) (by decide) V,
    Rd.at_eq opsL3_w1 170 (by decide) (y := main_call10_v12) (by decide) V]
  generalize after (List.take 170 opsL3) V = W
  exact binary_result main_call10_v8 main_call10_cst_3 main_call10_v12 ((cmpf .ogt) : (⟨S_, .f32⟩ : BufTy).Contents (Elt F) → (⟨S_, .f32⟩ : BufTy).Contents (Elt F) → (⟨S_, .i1⟩ : BufTy).Contents (Elt F)) ⟨by decide, rfl⟩ ⟨by decide, rfl⟩ ⟨by decide, rfl⟩ W

theorem rd_main_call10_cst_4 (V : Valuation τ sig (Elt F)) :
    after opsL3 V (Proc.devRef .tc main_call10_cst_4) = ((constant S_ .f32 0x7FC00000#32) : (⟨S_, .f32⟩ : BufTy).Contents (Elt F)) := by
  rw [Rd.at_eq opsL3_w1 171 (by decide) (y := main_call10_cst_4) (by decide) V]
  generalize after (List.take 171 opsL3) V = W
  exact nullary_result main_call10_cst_4 ((constant S_ .f32 0x7FC00000#32) : (⟨S_, .f32⟩ : BufTy).Contents (Elt F)) ⟨by decide, rfl⟩ W

theorem rd_main_call10_call0_v0 (V : Valuation τ sig (Elt F)) :
    after opsL3 V (Proc.devRef .tc main_call10_call0_v0) = (id : (⟨S_, .f32⟩ : BufTy).Contents (Elt F) → (⟨S_, .f32⟩ : BufTy).Contents (Elt F)) (after opsL3 V (Proc.devRef .tc main_call10_cst_4)) := by
  rw [← Rd.tk_eq opsL3_w1 172 (a := main_call10_cst_4) (by decide) V,
    Rd.at_eq opsL3_w1 172 (by decide) (y := main_call10_call0_v0) (by decide) V]
  generalize after (List.take 172 opsL3) V = W
  exact unary_result main_call10_cst_4 main_call10_call0_v0 (id : (⟨S_, .f32⟩ : BufTy).Contents (Elt F) → (⟨S_, .f32⟩ : BufTy).Contents (Elt F)) ⟨by decide, rfl⟩ ⟨by decide, rfl⟩ W

theorem rd_main_call10_call0_v1 (V : Valuation τ sig (Elt F)) :
    after opsL3 V (Proc.devRef .tc main_call10_call0_v1) = ((broadcastInDim S64 ![] bcast_S_S64) : (⟨S_, .f32⟩ : BufTy).Contents (Elt F) → (⟨S64, .f32⟩ : BufTy).Contents (Elt F)) (after opsL3 V (Proc.devRef .tc main_call10_call0_v0)) := by
  rw [← Rd.tk_eq opsL3_w1 173 (a := main_call10_call0_v0) (by decide) V,
    Rd.at_eq opsL3_w1 173 (by decide) (y := main_call10_call0_v1) (by decide) V]
  generalize after (List.take 173 opsL3) V = W
  exact unary_result main_call10_call0_v0 main_call10_call0_v1 ((broadcastInDim S64 ![] bcast_S_S64) : (⟨S_, .f32⟩ : BufTy).Contents (Elt F) → (⟨S64, .f32⟩ : BufTy).Contents (Elt F)) ⟨by decide, rfl⟩ ⟨by decide, rfl⟩ W

theorem rd_main_v382 (V : Valuation τ sig (Elt F)) :
    after opsL3 V (Proc.devRef .tc main_v382) = ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) (after opsL3 V (Proc.devRef .tc main_call10_v12)) (after opsL3 V (Proc.devRef .tc main_call10_v11)) (after opsL3 V (Proc.devRef .tc main_call10_call0_v1)) := by
  rw [← Rd.tk_eq opsL3_w1 174 (a := main_call10_v12) (by decide) V,
    ← Rd.tk_eq opsL3_w1 174 (a := main_call10_v11) (by decide) V,
    ← Rd.tk_eq opsL3_w1 174 (a := main_call10_call0_v1) (by decide) V,
    Rd.at_eq opsL3_w1 174 (by decide) (y := main_v382) (by decide) V]
  generalize after (List.take 174 opsL3) V = W
  exact ternary_result main_call10_v12 main_call10_v11 main_call10_call0_v1 main_v382 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ ⟨by decide, rfl⟩ W

theorem rd_main_v383 (V : Valuation τ sig (Elt F)) :
    after opsL3 V (Proc.devRef .tc main_v383) = (broadcastInDim S1x64 ![1] bcast_S64_S1x64_1 : (⟨S64, .f32⟩ : BufTy).Contents (Elt F) → (⟨S1x64, .f32⟩ : BufTy).Contents (Elt F)) (after opsL3 V (Proc.devRef .tc main_v381)) := by
  rw [← Rd.tk_eq opsL3_w1 175 (a := main_v381) (by decide) V,
    Rd.at_eq opsL3_w1 175 (by decide) (y := main_v383) (by decide) V]
  generalize after (List.take 175 opsL3) V = W
  exact unary_result main_v381 main_v383 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v384 (V : Valuation τ sig (Elt F)) :
    after opsL3 V (Proc.devRef .tc main_v384) = (broadcastInDim S400000x64 ![0, 1] bcast_S1x64_S400000x64_0_1 : (⟨S1x64, .f32⟩ : BufTy).Contents (Elt F) → (⟨S400000x64, .f32⟩ : BufTy).Contents (Elt F)) (after opsL3 V (Proc.devRef .tc main_v383)) := by
  rw [← Rd.tk_eq opsL3_w1 176 (a := main_v383) (by decide) V,
    Rd.at_eq opsL3_w1 176 (by decide) (y := main_v384) (by decide) V]
  generalize after (List.take 176 opsL3) V = W
  exact unary_result main_v383 main_v384 (broadcastInDim S400000x64 ![0, 1] bcast_S1x64_S400000x64_0_1 : (⟨S1x64, .f32⟩ : BufTy).Contents (Elt F) → (⟨S400000x64, .f32⟩ : BufTy).Contents (Elt F)) ⟨by decide, rfl⟩ ⟨by decide, rfl⟩ W

theorem rd_main_v385 (V : Valuation τ sig (Elt F)) :
    after opsL3 V (Proc.devRef .tc main_v385) = (subf : (⟨S400000x64, .f32⟩ : BufTy).Contents (Elt F) → (⟨S400000x64, .f32⟩ : BufTy).Contents (Elt F) → (⟨S400000x64, .f32⟩ : BufTy).Contents (Elt F)) (after opsL3 V (Proc.devRef .tc main_v325)) (after opsL3 V (Proc.devRef .tc main_v384)) := by
  rw [← Rd.tk_eq opsL3_w1 177 (a := main_v325) (by decide) V,
    ← Rd.tk_eq opsL3_w1 177 (a := main_v384) (by decide) V,
    Rd.at_eq opsL3_w1 177 (by decide) (y := main_v385) (by decide) V]
  generalize after (List.take 177 opsL3) V = W
  exact binary_result main_v325 main_v384 main_v385 (subf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_cst_55 (V : Valuation τ sig (Elt F)) :
    after opsL3 V (Proc.devRef .tc main_cst_55) = (constant S_ .f32 0x3727C5AC#32) := by
  rw [Rd.at_eq opsL3_w1 178 (by decide) (y := main_cst_55) (by decide) V]
  generalize after (List.take 178 opsL3) V = W
  exact nullary_result main_cst_55 (constant S_ .f32 0x3727C5AC#32) ⟨by decide, rfl⟩ W

theorem rd_main_v386 (V : Valuation τ sig (Elt F)) :
    after opsL3 V (Proc.devRef .tc main_v386) = (broadcastInDim S64 ![] bcast_S_S64 : (⟨S_, .f32⟩ : BufTy).Contents (Elt F) → (⟨S64, .f32⟩ : BufTy).Contents (Elt F)) (after opsL3 V (Proc.devRef .tc main_cst_55)) := by
  rw [← Rd.tk_eq opsL3_w1 179 (a := main_cst_55) (by decide) V,
    Rd.at_eq opsL3_w1 179 (by decide) (y := main_v386) (by decide) V]
  generalize after (List.take 179 opsL3) V = W
  exact unary_result main_cst_55 main_v386 (broadcastInDim S64 ![] bcast_S_S64 : (⟨S_, .f32⟩ : BufTy).Contents (Elt F) → (⟨S64, .f32⟩ : BufTy).Contents (Elt F)) ⟨by decide, rfl⟩ ⟨by decide, rfl⟩ W

theorem rd_main_v387 (V : Valuation τ sig (Elt F)) :
    after opsL3 V (Proc.devRef .tc main_v387) = (addf : (⟨S64, .f32⟩ : BufTy).Contents (Elt F) → (⟨S64, .f32⟩ : BufTy).Contents (Elt F) → (⟨S64, .f32⟩ : BufTy).Contents (Elt F)) (after opsL3 V (Proc.devRef .tc main_v382)) (after opsL3 V (Proc.devRef .tc main_v386)) := by
  rw [← Rd.tk_eq opsL3_w1 180 (a := main_v382) (by decide) V,
    ← Rd.tk_eq opsL3_w1 180 (a := main_v386) (by decide) V,
    Rd.at_eq opsL3_w1 180 (by decide) (y := main_v387) (by decide) V]
  generalize after (List.take 180 opsL3) V = W
  exact binary_result main_v382 main_v386 main_v387 (addf : (⟨S64, .f32⟩ : BufTy).Contents (Elt F) → (⟨S64, .f32⟩ : BufTy).Contents (Elt F) → (⟨S64, .f32⟩ : BufTy).Contents (Elt F)) ⟨by decide, rfl⟩ ⟨by decide, rfl⟩ ⟨by decide, rfl⟩ W

theorem rd_main_v388 (V : Valuation τ sig (Elt F)) :
    after opsL3 V (Proc.devRef .tc main_v388) = (Host.rsqrt : (⟨S64, .f32⟩ : BufTy).Contents (Elt F) → (⟨S64, .f32⟩ : BufTy).Contents (Elt F)) (after opsL3 V (Proc.devRef .tc main_v387)) := by
  rw [← Rd.tk_eq opsL3_w1 181 (a := main_v387) (by decide) V,
    Rd.at_eq opsL3_w1 181 (by decide) (y := main_v388) (by decide) V]
  generalize after (List.take 181 opsL3) V = W
  exact unary_result main_v387 main_v388 (Host.rsqrt : (⟨S64, .f32⟩ : BufTy).Contents (Elt F) → (⟨S64, .f32⟩ : BufTy).Contents (Elt F)) ⟨by decide, rfl⟩ ⟨by decide, rfl⟩ W

theorem rd_main_v389 (V : Valuation τ sig (Elt F)) :
    after opsL3 V (Proc.devRef .tc main_v389) = (broadcastInDim S1x64 ![1] bcast_S64_S1x64_1 : (⟨S64, .f32⟩ : BufTy).Contents (Elt F) → (⟨S1x64, .f32⟩ : BufTy).Contents (Elt F)) (after opsL3 V (Proc.devRef .tc main_v388)) := by
  rw [← Rd.tk_eq opsL3_w1 182 (a := main_v388) (by decide) V,
    Rd.at_eq opsL3_w1 182 (by decide) (y := main_v389) (by decide) V]
  generalize after (List.take 182 opsL3) V = W
  exact unary_result main_v388 main_v389 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v390 (V : Valuation τ sig (Elt F)) :
    after opsL3 V (Proc.devRef .tc main_v390) = (broadcastInDim S400000x64 ![0, 1] bcast_S1x64_S400000x64_0_1 : (⟨S1x64, .f32⟩ : BufTy).Contents (Elt F) → (⟨S400000x64, .f32⟩ : BufTy).Contents (Elt F)) (after opsL3 V (Proc.devRef .tc main_v389)) := by
  rw [← Rd.tk_eq opsL3_w1 183 (a := main_v389) (by decide) V,
    Rd.at_eq opsL3_w1 183 (by decide) (y := main_v390) (by decide) V]
  generalize after (List.take 183 opsL3) V = W
  exact unary_result main_v389 main_v390 (broadcastInDim S400000x64 ![0, 1] bcast_S1x64_S400000x64_0_1 : (⟨S1x64, .f32⟩ : BufTy).Contents (Elt F) → (⟨S400000x64, .f32⟩ : BufTy).Contents (Elt F)) ⟨by decide, rfl⟩ ⟨by decide, rfl⟩ W

theorem rd_main_v391 (V : Valuation τ sig (Elt F)) :
    after opsL3 V (Proc.devRef .tc main_v391) = (mulf : (⟨S400000x64, .f32⟩ : BufTy).Contents (Elt F) → (⟨S400000x64, .f32⟩ : BufTy).Contents (Elt F) → (⟨S400000x64, .f32⟩ : BufTy).Contents (Elt F)) (after opsL3 V (Proc.devRef .tc main_v385)) (after opsL3 V (Proc.devRef .tc main_v390)) := by
  rw [← Rd.tk_eq opsL3_w1 184 (a := main_v385) (by decide) V,
    ← Rd.tk_eq opsL3_w1 184 (a := main_v390) (by decide) V,
    Rd.at_eq opsL3_w1 184 (by decide) (y := main_v391) (by decide) V]
  generalize after (List.take 184 opsL3) V = W
  exact binary_result main_v385 main_v390 main_v391 (mulf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_v392 (V : Valuation τ sig (Elt F)) :
    after opsL3 V (Proc.devRef .tc main_v392) = (broadcastInDim S1x64 ![1] bcast_S64_S1x64_1 : (⟨S64, .f32⟩ : BufTy).Contents (Elt F) → (⟨S1x64, .f32⟩ : BufTy).Contents (Elt F)) (after opsL3 V (Proc.devRef .tc main_v376)) := by
  rw [← Rd.tk_eq opsL3_w1 185 (a := main_v376) (by decide) V,
    Rd.at_eq opsL3_w1 185 (by decide) (y := main_v392) (by decide) V]
  generalize after (List.take 185 opsL3) V = W
  exact unary_result main_v376 main_v392 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v393 (V : Valuation τ sig (Elt F)) :
    after opsL3 V (Proc.devRef .tc main_v393) = (broadcastInDim S400000x64 ![0, 1] bcast_S1x64_S400000x64_0_1 : (⟨S1x64, .f32⟩ : BufTy).Contents (Elt F) → (⟨S400000x64, .f32⟩ : BufTy).Contents (Elt F)) (after opsL3 V (Proc.devRef .tc main_v392)) := by
  rw [← Rd.tk_eq opsL3_w1 186 (a := main_v392) (by decide) V,
    Rd.at_eq opsL3_w1 186 (by decide) (y := main_v393) (by decide) V]
  generalize after (List.take 186 opsL3) V = W
  exact unary_result main_v392 main_v393 (broadcastInDim S400000x64 ![0, 1] bcast_S1x64_S400000x64_0_1 : (⟨S1x64, .f32⟩ : BufTy).Contents (Elt F) → (⟨S400000x64, .f32⟩ : BufTy).Contents (Elt F)) ⟨by decide, rfl⟩ ⟨by decide, rfl⟩ W

theorem rd_main_v394 (V : Valuation τ sig (Elt F)) :
    after opsL3 V (Proc.devRef .tc main_v394) = (mulf : (⟨S400000x64, .f32⟩ : BufTy).Contents (Elt F) → (⟨S400000x64, .f32⟩ : BufTy).Contents (Elt F) → (⟨S400000x64, .f32⟩ : BufTy).Contents (Elt F)) (after opsL3 V (Proc.devRef .tc main_v391)) (after opsL3 V (Proc.devRef .tc main_v393)) := by
  rw [← Rd.tk_eq opsL3_w1 187 (a := main_v391) (by decide) V,
    ← Rd.tk_eq opsL3_w1 187 (a := main_v393) (by decide) V,
    Rd.at_eq opsL3_w1 187 (by decide) (y := main_v394) (by decide) V]
  generalize after (List.take 187 opsL3) V = W
  exact binary_result main_v391 main_v393 main_v394 (mulf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_v395 (V : Valuation τ sig (Elt F)) :
    after opsL3 V (Proc.devRef .tc main_v395) = (broadcastInDim S1x64 ![1] bcast_S64_S1x64_1 : (⟨S64, .f32⟩ : BufTy).Contents (Elt F) → (⟨S1x64, .f32⟩ : BufTy).Contents (Elt F)) (after opsL3 V (Proc.devRef .tc main_v378)) := by
  rw [← Rd.tk_eq opsL3_w1 188 (a := main_v378) (by decide) V,
    Rd.at_eq opsL3_w1 188 (by decide) (y := main_v395) (by decide) V]
  generalize after (List.take 188 opsL3) V = W
  exact unary_result main_v378 main_v395 (broadcastInDim S1x64 ![1] bcast_S64_S1x64_1 : (⟨S64, .f32⟩ : BufTy).Contents (Elt F) → (⟨S1x64, .f32⟩ : BufTy).Contents (Elt F)) ⟨by decide, rfl⟩ ⟨by decide, rfl⟩ W

theorem rd_main_v396 (V : Valuation τ sig (Elt F)) :
    after opsL3 V (Proc.devRef .tc main_v396) = (broadcastInDim S400000x64 ![0, 1] bcast_S1x64_S400000x64_0_1 : (⟨S1x64, .f32⟩ : BufTy).Contents (Elt F) → (⟨S400000x64, .f32⟩ : BufTy).Contents (Elt F)) (after opsL3 V (Proc.devRef .tc main_v395)) := by
  rw [← Rd.tk_eq opsL3_w1 189 (a := main_v395) (by decide) V,
    Rd.at_eq opsL3_w1 189 (by decide) (y := main_v396) (by decide) V]
  generalize after (List.take 189 opsL3) V = W
  exact unary_result main_v395 main_v396 (broadcastInDim S400000x64 ![0, 1] bcast_S1x64_S400000x64_0_1 : (⟨S1x64, .f32⟩ : BufTy).Contents (Elt F) → (⟨S400000x64, .f32⟩ : BufTy).Contents (Elt F)) ⟨by decide, rfl⟩ ⟨by decide, rfl⟩ W

theorem rd_main_v397 (V : Valuation τ sig (Elt F)) :
    after opsL3 V (Proc.devRef .tc main_v397) = (addf : (⟨S400000x64, .f32⟩ : BufTy).Contents (Elt F) → (⟨S400000x64, .f32⟩ : BufTy).Contents (Elt F) → (⟨S400000x64, .f32⟩ : BufTy).Contents (Elt F)) (after opsL3 V (Proc.devRef .tc main_v394)) (after opsL3 V (Proc.devRef .tc main_v396)) := by
  rw [← Rd.tk_eq opsL3_w1 190 (a := main_v394) (by decide) V,
    ← Rd.tk_eq opsL3_w1 190 (a := main_v396) (by decide) V,
    Rd.at_eq opsL3_w1 190 (by decide) (y := main_v397) (by decide) V]
  generalize after (List.take 190 opsL3) V = W
  exact binary_result main_v394 main_v396 main_v397 (addf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_call11_cst (V : Valuation τ sig (Elt F)) :
    after opsL3 V (Proc.devRef .tc main_call11_cst) = ((constant S_ .f32 0x00000000#32) : (⟨S_, .f32⟩ : BufTy).Contents (Elt F)) := by
  rw [Rd.at_eq opsL3_w1 191 (by decide) (y := main_call11_cst) (by decide) V]
  generalize after (List.take 191 opsL3) V = W
  exact nullary_result main_call11_cst ((constant S_ .f32 0x00000000#32) : (⟨S_, .f32⟩ : BufTy).Contents (Elt F)) ⟨by decide, rfl⟩ W

theorem rd_main_call11_v0 (V : Valuation τ sig (Elt F)) :
    after opsL3 V (Proc.devRef .tc main_call11_v0) = ((broadcastInDim S400000x64 ![] bcast_S_S400000x64) : (⟨S_, .f32⟩ : BufTy).Contents (Elt F) → (⟨S400000x64, .f32⟩ : BufTy).Contents (Elt F)) (after opsL3 V (Proc.devRef .tc main_call11_cst)) := by
  rw [← Rd.tk_eq opsL3_w1 192 (a := main_call11_cst) (by decide) V,
    Rd.at_eq opsL3_w1 192 (by decide) (y := main_call11_v0) (by decide) V]
  generalize after (List.take 192 opsL3) V = W
  exact unary_result main_call11_cst main_call11_v0 ((broadcastInDim S400000x64 ![] bcast_S_S400000x64) : (⟨S_, .f32⟩ : BufTy).Contents (Elt F) → (⟨S400000x64, .f32⟩ : BufTy).Contents (Elt F)) ⟨by decide, rfl⟩ ⟨by decide, rfl⟩ W

theorem rd_main_v398 (V : Valuation τ sig (Elt F)) :
    after opsL3 V (Proc.devRef .tc main_v398) = (maximumf : (⟨S400000x64, .f32⟩ : BufTy).Contents (Elt F) → (⟨S400000x64, .f32⟩ : BufTy).Contents (Elt F) → (⟨S400000x64, .f32⟩ : BufTy).Contents (Elt F)) (after opsL3 V (Proc.devRef .tc main_v397)) (after opsL3 V (Proc.devRef .tc main_call11_v0)) := by
  rw [← Rd.tk_eq opsL3_w1 193 (a := main_v397) (by decide) V,
    ← Rd.tk_eq opsL3_w1 193 (a := main_call11_v0) (by decide) V,
    Rd.at_eq opsL3_w1 193 (by decide) (y := main_v398) (by decide) V]
  generalize after (List.take 193 opsL3) V = W
  exact binary_result main_v397 main_call11_v0 main_v398 (maximumf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

theorem rd_main_v399 (V : Valuation τ sig (Elt F)) :
    after opsL3 V (Proc.devRef .tc main_v399) = (addf : (⟨S400000x64, .f32⟩ : BufTy).Contents (Elt F) → (⟨S400000x64, .f32⟩ : BufTy).Contents (Elt F) → (⟨S400000x64, .f32⟩ : BufTy).Contents (Elt F)) (V (Proc.devRef .tc main_v269)) (after opsL3 V (Proc.devRef .tc main_v398)) := by
  rw [← Rd.tk_keep opsL3_w1 194 (a := main_v269) (by decide) V,
    ← Rd.tk_eq opsL3_w1 194 (a := main_v398) (by decide) V,
    Rd.at_eq opsL3_w1 194 (by decide) (y := main_v399) (by decide) V]
  generalize after (List.take 194 opsL3) V = W
  exact binary_result main_v269 main_v398 main_v399 (addf : (⟨S400000x64, .f32⟩ : BufTy).Contents (Elt F) → (⟨S400000x64, .f32⟩ : BufTy).Contents (Elt F) → (⟨S400000x64, .f32⟩ : BufTy).Contents (Elt F)) ⟨by decide, rfl⟩ ⟨by decide, rfl⟩ ⟨by decide, rfl⟩ W

end Cert.ReferenceIdeal.Hand

end
-- ==== Proof.Sim.Dense3.lean ====
import proofs.«431450_j74423193305350_1_alg».proof.Proof.KI.Fold
import proofs.«431450_j74423193305350_1_alg».proof.Proof.KI.Seg14
import proofs.«431450_j74423193305350_1_alg».proof.Proof.KI.Seg15
import proofs.«431450_j74423193305350_1_alg».proof.Proof.KI.Val14
import proofs.«431450_j74423193305350_1_alg».proof.Proof.KI.Val15
import proofs.«431450_j74423193305350_1_alg».proof.Proof.KI.Host14
import proofs.«431450_j74423193305350_1_alg».proof.Proof.KI.Host15
import proofs.«431450_j74423193305350_1_alg».proof.Proof.Ref.Fold
import proofs.«431450_j74423193305350_1_alg».proof.Proof.Ref.RdL3
import proofs.«431450_j74423193305350_1_alg».proof.Proof.Ref.Form1
import proofs.«431450_j74423193305350_1_alg».proof.Proof.Sim.Base
import proofs.«431450_j74423193305350_1_alg».proof.Proof.Spec

/-! The dense layers of layer 3, kernel against reference: each kernel array a dense region (or a column
    block of one) leaves equals the reference buffer its dot-plus-bias leaves, given that the two memories agree on
    the arguments and that the arrays the layers read already agree. Both sides are read as the same dense-layer
    formula; the kernel's wide product against the four weight blocks side by side is, on column block a, the
    product against weight a. Each layer's pairing takes the equations between the weight and bias arguments it
    reads as hypotheses; the last theorem supplies them all from the agreement of the two memories. -/
set_option maxRecDepth 16384

noncomputable section

namespace Cert.Sim

open Idealize.ShloMosaic Idealize.ShloMosaic.TcCoe Idealize.ShloMosaic.ValueIdx Idealize.ShloMosaic.StableHlo
open Idealize.SL.Sem
open Cert.KernelIdeal.Hand Cert.ReferenceIdeal.Hand
open Cert.Spec (Mat)

/-- A dense-layer entry depends only on the row of the left matrix, on one column of the weights and on one bias
    entry: two layers that agree there have the same entry, whatever the widths of the two weight matrices. -/
theorem lin_congr3 {n k p p' : Nat} {x x' : Mat n k} {w : Mat k p} {w' : Mat k p'} {b : Mat 1 p} {b' : Mat 1 p'}
    {r : Fin n} {j : Fin p} {j' : Fin p'} (hx : ∀ t : Fin k, x (ix2 r t) = x' (ix2 r t))
    (hw : ∀ t : Fin k, w (ix2 t j) = w' (ix2 t j')) (hb : b (ix2 0 j) = b' (ix2 0 j')) :
    Spec.lin x w b r j = Spec.lin x' w' b' r j' := by
  unfold Spec.lin
  rw [hb]
  exact congrArg (· + _) (Finset.sum_congr rfl fun t _ => by rw [hx t, hw t])

variable (m : KM) (m' : RM)

/-! ## Layer 3: the four node-side dense layers (one wide product in the kernel) and the edge-side one -/

/-- The reference's dense layer ending in buffer 277: the dense-layer formula of its input rows and of layer slice 2 of the stacked weights and biases. -/
theorem ref_v277 (c : Dev Cert.KernelIdeal.nD) (r : Fin 50000) (j : Fin 64) :
    (RW4 m' c (Proc.devRef .tc Cert.ReferenceIdeal.main_v277) : Mat 50000 64) (ix2 r j)
      = Spec.lin (RW3 m' c (Proc.devRef .tc Cert.ReferenceIdeal.main_v244) : Mat 50000 64)
          (fun (i : (⟨2, ![64, 64]⟩ : Shape).Idx) => (RW3 m' c (Proc.devRef .tc Cert.ReferenceIdeal.main_arg10) : Cert.ReferenceIdeal.S3x64x64.Idx → EReal) (ix3 2 (i 0) (i 1)))
          (fun (i : (⟨2, ![1, 64]⟩ : Shape).Idx) => (RW3 m' c (Proc.devRef .tc Cert.ReferenceIdeal.main_arg11) : Cert.ReferenceIdeal.S3x64.Idx → EReal) (ix2 2 (i 1))) r j := by
  unfold RW4
  rw [rd_main_v277, rd_main_v272, rd_main_v276, rd_main_v275, rd_main_v274, rd_main_v273, rd_main_v271, rd_main_v270]
  refine (lin_node _ _ _ r j).trans ?_
  exact lin_congr3 (fun _ => rfl) (fun t => wslice2_apply _ t j) (bslice2_apply _ j)

/-- The reference's dense layer ending in buffer 285: the dense-layer formula of its input rows and of layer slice 2 of the stacked weights and biases. -/
theorem ref_v285 (c : Dev Cert.KernelIdeal.nD) (r : Fin 50000) (j : Fin 64) :
    (RW4 m' c (Proc.devRef .tc Cert.ReferenceIdeal.main_v285) : Mat 50000 64) (ix2 r j)
      = Spec.lin (RW3 m' c (Proc.devRef .tc Cert.ReferenceIdeal.main_v244) : Mat 50000 64)
          (fun (i : (⟨2, ![64, 64]⟩ : Shape).Idx) => (RW3 m' c (Proc.devRef .tc Cert.ReferenceIdeal.main_arg12) : Cert.ReferenceIdeal.S3x64x64.Idx → EReal) (ix3 2 (i 0) (i 1)))
          (fun (i : (⟨2, ![1, 64]⟩ : Shape).Idx) => (RW3 m' c (Proc.devRef .tc Cert.ReferenceIdeal.main_arg13) : Cert.ReferenceIdeal.S3x64.Idx → EReal) (ix2 2 (i 1))) r j := by
  unfold RW4
  rw [rd_main_v285, rd_main_v280, rd_main_v284, rd_main_v283, rd_main_v282, rd_main_v281, rd_main_v279, rd_main_v278]
  refine (lin_node _ _ _ r j).trans ?_
  exact lin_congr3 (fun _ => rfl) (fun t => wslice2_apply _ t j) (bslice2_apply _ j)

/-- The reference's dense layer ending in buffer 293: the dense-layer formula of its input rows and of layer slice 2 of the stacked weights and biases. -/
theorem ref_v293 (c : Dev Cert.KernelIdeal.nD) (r : Fin 50000) (j : Fin 64) :
    (RW4 m' c (Proc.devRef .tc Cert.ReferenceIdeal.main_v293) : Mat 50000 64) (ix2 r j)
      = Spec.lin (RW3 m' c (Proc.devRef .tc Cert.ReferenceIdeal.main_v244) : Mat 50000 64)
          (fun (i : (⟨2, ![64, 64]⟩ : Shape).Idx) => (RW3 m' c (Proc.devRef .tc Cert.ReferenceIdeal.main_arg16) : Cert.ReferenceIdeal.S3x64x64.Idx → EReal) (ix3 2 (i 0) (i 1)))
          (fun (i : (⟨2, ![1, 64]⟩ : Shape).Idx) => (RW3 m' c (Proc.devRef .tc Cert.ReferenceIdeal.main_arg17) : Cert.ReferenceIdeal.S3x64.Idx → EReal) (ix2 2 (i 1))) r j := by
  unfold RW4
  rw [rd_main_v293, rd_main_v288, rd_main_v292, rd_main_v291, rd_main_v290, rd_main_v289, rd_main_v287, rd_main_v286]
  refine (lin_node _ _ _ r j).trans ?_
  exact lin_congr3 (fun _ => rfl) (fun t => wslice2_apply _ t j) (bslice2_apply _ j)

/-- The reference's dense layer ending in buffer 301: the dense-layer formula of its input rows and of layer slice 2 of the stacked weights and biases. -/
theorem ref_v301 (c : Dev Cert.KernelIdeal.nD) (r : Fin 50000) (j : Fin 64) :
    (RW4 m' c (Proc.devRef .tc Cert.ReferenceIdeal.main_v301) : Mat 50000 64) (ix2 r j)
      = Spec.lin (RW3 m' c (Proc.devRef .tc Cert.ReferenceIdeal.main_v244) : Mat 50000 64)
          (fun (i : (⟨2, ![64, 64]⟩ : Shape).Idx) => (RW3 m' c (Proc.devRef .tc Cert.ReferenceIdeal.main_arg18) : Cert.ReferenceIdeal.S3x64x64.Idx → EReal) (ix3 2 (i 0) (i 1)))
          (fun (i : (⟨2, ![1, 64]⟩ : Shape).Idx) => (RW3 m' c (Proc.devRef .tc Cert.ReferenceIdeal.main_arg19) : Cert.ReferenceIdeal.S3x64.Idx → EReal) (ix2 2 (i 1))) r j := by
  unfold RW4
  rw [rd_main_v301, rd_main_v296, rd_main_v300, rd_main_v299, rd_main_v298, rd_main_v297, rd_main_v295, rd_main_v294]
  refine (lin_node _ _ _ r j).trans ?_
  exact lin_congr3 (fun _ => rfl) (fun t => wslice2_apply _ t j) (bslice2_apply _ j)

/-- The reference's dense layer ending in buffer 309: the dense-layer formula of its input rows and of layer slice 2 of the stacked weights and biases. -/
theorem ref_v309 (c : Dev Cert.KernelIdeal.nD) (r : Fin 400000) (j : Fin 64) :
    (RW4 m' c (Proc.devRef .tc Cert.ReferenceIdeal.main_v309) : Mat 400000 64) (ix2 r j)
      = Spec.lin (RW3 m' c (Proc.devRef .tc Cert.ReferenceIdeal.main_v269) : Mat 400000 64)
          (fun (i : (⟨2, ![64, 64]⟩ : Shape).Idx) => (RW3 m' c (Proc.devRef .tc Cert.ReferenceIdeal.main_arg14) : Cert.ReferenceIdeal.S3x64x64.Idx → EReal) (ix3 2 (i 0) (i 1)))
          (fun (i : (⟨2, ![1, 64]⟩ : Shape).Idx) => (RW3 m' c (Proc.devRef .tc Cert.ReferenceIdeal.main_arg15) : Cert.ReferenceIdeal.S3x64.Idx → EReal) (ix2 2 (i 1))) r j := by
  unfold RW4
  rw [rd_main_v309, rd_main_v304, rd_main_v308, rd_main_v307, rd_main_v306, rd_main_v305, rd_main_v303, rd_main_v302]
  refine (lin_edge64 _ _ _ r j).trans ?_
  exact lin_congr3 (fun _ => rfl) (fun t => wslice2_apply _ t j) (bslice2_apply _ j)

/-- Column block A of the kernel's wide product is the reference's dense layer with weight A. -/
theorem a3_core (c : Dev Cert.KernelIdeal.nD)
    (hh : (T40 m c Cert.KernelIdeal.main_v124 : Mat 50000 64) = (RW3 m' c (Proc.devRef .tc Cert.ReferenceIdeal.main_v244) : Mat 50000 64))
    (kW : (W40 m c (Proc.devRef .tc Cert.KernelIdeal.main_arg10) : Cert.KernelIdeal.S3x64x64.Idx → EReal) = (RW3 m' c (Proc.devRef .tc Cert.ReferenceIdeal.main_arg10) : Cert.KernelIdeal.S3x64x64.Idx → EReal))
    (kB : (W40 m c (Proc.devRef .tc Cert.KernelIdeal.main_arg11) : Cert.KernelIdeal.S3x64.Idx → EReal) = (RW3 m' c (Proc.devRef .tc Cert.ReferenceIdeal.main_arg11) : Cert.KernelIdeal.S3x64.Idx → EReal)) :
    (T43 m c Cert.KernelIdeal.main_v158 : Mat 50000 64) = (RW4 m' c (Proc.devRef .tc Cert.ReferenceIdeal.main_v277) : Mat 50000 64) := by
  funext i
  obtain ⟨r, j, rfl⟩ : ∃ (r : Fin 50000) (j : Fin 64), i = ix2 r j := ⟨i 0, i 1, eq_ix2 i⟩
  have hj : j.val < 64 := j.isLt
  refine (host15_v158 (W42 m c) r j ⟨0 + j.val, by omega⟩ rfl).trans ?_
  refine (congrFun (hF14 m c 3).symm (ix2 r ⟨0 + j.val, by omega⟩)).trans ?_
  refine (final14_3_apply (T41 m) c r ⟨0 + j.val, by omega⟩).trans ?_
  refine Eq.trans ?_ (ref_v277 m' c r j).symm
  refine lin_congr3 (fun t => ?_) (fun t => ?_) ?_
  · exact congrFun (Eq.trans (W41_of m c Cert.KernelIdeal.main_v124 (by decide)) hh) (ix2 r t)
  · exact (host14_v146_A (W40 m c) t j ⟨0 + j.val, by omega⟩ rfl).trans (congrFun kW (ix3 2 t j))
  · exact (host14_v156_A (W40 m c) j ⟨0 + j.val, by omega⟩ rfl).trans (congrFun kB (ix2 2 j))

/-- Column block B of the kernel's wide product is the reference's dense layer with weight B. -/
theorem b3_core (c : Dev Cert.KernelIdeal.nD)
    (hh : (T40 m c Cert.KernelIdeal.main_v124 : Mat 50000 64) = (RW3 m' c (Proc.devRef .tc Cert.ReferenceIdeal.main_v244) : Mat 50000 64))
    (kW : (W40 m c (Proc.devRef .tc Cert.KernelIdeal.main_arg12) : Cert.KernelIdeal.S3x64x64.Idx → EReal) = (RW3 m' c (Proc.devRef .tc Cert.ReferenceIdeal.main_arg12) : Cert.KernelIdeal.S3x64x64.Idx → EReal))
    (kB : (W40 m c (Proc.devRef .tc Cert.KernelIdeal.main_arg13) : Cert.KernelIdeal.S3x64.Idx → EReal) = (RW3 m' c (Proc.devRef .tc Cert.ReferenceIdeal.main_arg13) : Cert.KernelIdeal.S3x64.Idx → EReal)) :
    (T43 m c Cert.KernelIdeal.main_v159 : Mat 50000 64) = (RW4 m' c (Proc.devRef .tc Cert.ReferenceIdeal.main_v285) : Mat 50000 64) := by
  funext i
  obtain ⟨r, j, rfl⟩ : ∃ (r : Fin 50000) (j : Fin 64), i = ix2 r j := ⟨i 0, i 1, eq_ix2 i⟩
  have hj : j.val < 64 := j.isLt
  refine (host15_v159 (W42 m c) r j ⟨64 + j.val, by omega⟩ rfl).trans ?_
  refine (congrFun (hF14 m c 3).symm (ix2 r ⟨64 + j.val, by omega⟩)).trans ?_
  refine (final14_3_apply (T41 m) c r ⟨64 + j.val, by omega⟩).trans ?_
  refine Eq.trans ?_ (ref_v285 m' c r j).symm
  refine lin_congr3 (fun t => ?_) (fun t => ?_) ?_
  · exact congrFun (Eq.trans (W41_of m c Cert.KernelIdeal.main_v124 (by decide)) hh) (ix2 r t)
  · exact (host14_v146_B (W40 m c) t j ⟨64 + j.val, by omega⟩ rfl).trans (congrFun kW (ix3 2 t j))
  · exact (host14_v156_B (W40 m c) j ⟨64 + j.val, by omega⟩ rfl).trans (congrFun kB (ix2 2 j))

/-- Column block D of the kernel's wide product is the reference's dense layer with weight D. -/
theorem d3_core (c : Dev Cert.KernelIdeal.nD)
    (hh : (T40 m c Cert.KernelIdeal.main_v124 : Mat 50000 64) = (RW3 m' c (Proc.devRef .tc Cert.ReferenceIdeal.main_v244) : Mat 50000 64))
    (kW : (W40 m c (Proc.devRef .tc Cert.KernelIdeal.main_arg16) : Cert.KernelIdeal.S3x64x64.Idx → EReal) = (RW3 m' c (Proc.devRef .tc Cert.ReferenceIdeal.main_arg16) : Cert.KernelIdeal.S3x64x64.Idx → EReal))
    (kB : (W40 m c (Proc.devRef .tc Cert.KernelIdeal.main_arg17) : Cert.KernelIdeal.S3x64.Idx → EReal) = (RW3 m' c (Proc.devRef .tc Cert.ReferenceIdeal.main_arg17) : Cert.KernelIdeal.S3x64.Idx → EReal)) :
    (T43 m c Cert.KernelIdeal.main_v160 : Mat 50000 64) = (RW4 m' c (Proc.devRef .tc Cert.ReferenceIdeal.main_v293) : Mat 50000 64) := by
  funext i
  obtain ⟨r, j, rfl⟩ : ∃ (r : Fin 50000) (j : Fin 64), i = ix2 r j := ⟨i 0, i 1, eq_ix2 i⟩
  have hj : j.val < 64 := j.isLt
  refine (host15_v160 (W42 m c) r j ⟨128 + j.val, by omega⟩ rfl).trans ?_
  refine (congrFun (hF14 m c 3).symm (ix2 r ⟨128 + j.val, by omega⟩)).trans ?_
  refine (final14_3_apply (T41 m) c r ⟨128 + j.val, by omega⟩).trans ?_
  refine Eq.trans ?_ (ref_v293 m' c r j).symm
  refine lin_congr3 (fun t => ?_) (fun t => ?_) ?_
  · exact congrFun (Eq.trans (W41_of m c Cert.KernelIdeal.main_v124 (by decide)) hh) (ix2 r t)
  · exact (host14_v146_D (W40 m c) t j ⟨128 + j.val, by omega⟩ rfl).trans (congrFun kW (ix3 2 t j))
  · exact (host14_v156_D (W40 m c) j ⟨128 + j.val, by omega⟩ rfl).trans (congrFun kB (ix2 2 j))

/-- Column block E of the kernel's wide product is the reference's dense layer with weight E. -/
theorem e3_core (c : Dev Cert.KernelIdeal.nD)
    (hh : (T40 m c Cert.KernelIdeal.main_v124 : Mat 50000 64) = (RW3 m' c (Proc.devRef .tc Cert.ReferenceIdeal.main_v244) : Mat 50000 64))
    (kW : (W40 m c (Proc.devRef .tc Cert.KernelIdeal.main_arg18) : Cert.KernelIdeal.S3x64x64.Idx → EReal) = (RW3 m' c (Proc.devRef .tc Cert.ReferenceIdeal.main_arg18) : Cert.KernelIdeal.S3x64x64.Idx → EReal))
    (kB : (W40 m c (Proc.devRef .tc Cert.KernelIdeal.main_arg19) : Cert.KernelIdeal.S3x64.Idx → EReal) = (RW3 m' c (Proc.devRef .tc Cert.ReferenceIdeal.main_arg19) : Cert.KernelIdeal.S3x64.Idx → EReal)) :
    (T43 m c Cert.KernelIdeal.main_v161 : Mat 50000 64) = (RW4 m' c (Proc.devRef .tc Cert.ReferenceIdeal.main_v301) : Mat 50000 64) := by
  funext i
  obtain ⟨r, j, rfl⟩ : ∃ (r : Fin 50000) (j : Fin 64), i = ix2 r j := ⟨i 0, i 1, eq_ix2 i⟩
  have hj : j.val < 64 := j.isLt
  refine (host15_v161 (W42 m c) r j ⟨192 + j.val, by omega⟩ rfl).trans ?_
  refine (congrFun (hF14 m c 3).symm (ix2 r ⟨192 + j.val, by omega⟩)).trans ?_
  refine (final14_3_apply (T41 m) c r ⟨192 + j.val, by omega⟩).trans ?_
  refine Eq.trans ?_ (ref_v301 m' c r j).symm
  refine lin_congr3 (fun t => ?_) (fun t => ?_) ?_
  · exact congrFun (Eq.trans (W41_of m c Cert.KernelIdeal.main_v124 (by decide)) hh) (ix2 r t)
  · exact (host14_v146_E (W40 m c) t j ⟨192 + j.val, by omega⟩ rfl).trans (congrFun kW (ix3 2 t j))
  · exact (host14_v156_E (W40 m c) j ⟨192 + j.val, by omega⟩ rfl).trans (congrFun kB (ix2 2 j))

/-- The edge-side dense layer of layer 3: the kernel's array after region 15 is the reference's buffer. -/
theorem ce3_core (c : Dev Cert.KernelIdeal.nD)
    (he : (T40 m c Cert.KernelIdeal.main_v137 : Mat 400000 64) = (RW3 m' c (Proc.devRef .tc Cert.ReferenceIdeal.main_v269) : Mat 400000 64))
    (kW : (W42 m c (Proc.devRef .tc Cert.KernelIdeal.main_arg14) : Cert.KernelIdeal.S3x64x64.Idx → EReal) = (RW3 m' c (Proc.devRef .tc Cert.ReferenceIdeal.main_arg14) : Cert.KernelIdeal.S3x64x64.Idx → EReal))
    (kB : (W42 m c (Proc.devRef .tc Cert.KernelIdeal.main_arg15) : Cert.KernelIdeal.S3x64.Idx → EReal) = (RW3 m' c (Proc.devRef .tc Cert.ReferenceIdeal.main_arg15) : Cert.KernelIdeal.S3x64.Idx → EReal)) :
    (T44 m c Cert.KernelIdeal.main_v167 : Mat 400000 64) = (RW4 m' c (Proc.devRef .tc Cert.ReferenceIdeal.main_v309) : Mat 400000 64) := by
  funext i
  obtain ⟨r, j, rfl⟩ : ∃ (r : Fin 400000) (j : Fin 64), i = ix2 r j := ⟨i 0, i 1, eq_ix2 i⟩
  refine (congrFun (hF15 m c 3).symm (ix2 r j)).trans ?_
  refine (final15_3_apply (T43 m) c r j).trans ?_
  refine Eq.trans ?_ (ref_v309 m' c r j).symm
  refine lin_congr3 (fun t => ?_) (fun t => ?_) ?_
  · exact congrFun (Eq.trans ((W43_of m c Cert.KernelIdeal.main_v137 (by decide)).trans ((W42_of m c Cert.KernelIdeal.main_v137 (by decide)).trans (W41_of m c Cert.KernelIdeal.main_v137 (by decide)))) he) (ix2 r t)
  · exact (host15_v163 (W42 m c) t j).trans (congrFun kW (ix3 2 t j))
  · exact (host15_v166 (W42 m c) j).trans (congrFun kB (ix2 2 j))

/-! ## All of them from the agreement of the two memories -/

/-- Where the two memories agree on the arguments: if the node (edge) features layer 3 starts from
    agree, so do its four node-side (its edge-side) dense layers. The one place this module reads the agreement:
    each weight and bias argument is still its launch contents at the boundary where it is read. -/
theorem dense3_eqs (hagree : Agree m m') (c : Dev Cert.KernelIdeal.nD) :
    (((T40 m c Cert.KernelIdeal.main_v124 : Mat 50000 64) = (RW3 m' c (Proc.devRef .tc Cert.ReferenceIdeal.main_v244) : Mat 50000 64)) →
        ((T43 m c Cert.KernelIdeal.main_v158 : Mat 50000 64) = (RW4 m' c (Proc.devRef .tc Cert.ReferenceIdeal.main_v277) : Mat 50000 64))
        ∧ ((T43 m c Cert.KernelIdeal.main_v159 : Mat 50000 64) = (RW4 m' c (Proc.devRef .tc Cert.ReferenceIdeal.main_v285) : Mat 50000 64))
        ∧ ((T43 m c Cert.KernelIdeal.main_v160 : Mat 50000 64) = (RW4 m' c (Proc.devRef .tc Cert.ReferenceIdeal.main_v293) : Mat 50000 64))
        ∧ ((T43 m c Cert.KernelIdeal.main_v161 : Mat 50000 64) = (RW4 m' c (Proc.devRef .tc Cert.ReferenceIdeal.main_v301) : Mat 50000 64)))
    ∧ (((T40 m c Cert.KernelIdeal.main_v137 : Mat 400000 64) = (RW3 m' c (Proc.devRef .tc Cert.ReferenceIdeal.main_v269) : Mat 400000 64)) →
        ((T44 m c Cert.KernelIdeal.main_v167 : Mat 400000 64) = (RW4 m' c (Proc.devRef .tc Cert.ReferenceIdeal.main_v309) : Mat 400000 64))) := by
  obtain ⟨a0, a1, a2, a3, a4, a5, a6, a7, a8, a9, a10, a11, a12, a13, a14, a15, a16, a17, a18, a19, a20, a21, a22, a23, a24, a25, a26, a27, a28, a29⟩ := hagree c
  have k10 : (W40 m c (Proc.devRef .tc Cert.KernelIdeal.main_arg10) : Cert.KernelIdeal.S3x64x64.Idx → EReal) = (RW3 m' c (Proc.devRef .tc Cert.ReferenceIdeal.main_arg10) : Cert.KernelIdeal.S3x64x64.Idx → EReal) := (Eq.trans ((W40_of m c Cert.KernelIdeal.main_arg10 (by decide)).trans ((W39_of m c Cert.KernelIdeal.main_arg10 (by decide)).trans ((W38_of m c Cert.KernelIdeal.main_arg10 (by decide)).trans ((W37_of m c Cert.KernelIdeal.main_arg10 (by decide)).trans ((W36_of m c Cert.KernelIdeal.main_arg10 (by decide)).trans ((W35_of m c Cert.KernelIdeal.main_arg10 (by decide)).trans ((W34_of m c Cert.KernelIdeal.main_arg10 (by decide)).trans ((W33_of m c Cert.KernelIdeal.main_arg10 (by decide)).trans ((W32_of m c Cert.KernelIdeal.main_arg10 (by decide)).trans ((W31_of m c Cert.KernelIdeal.main_arg10 (by decide)).trans ((W30_of m c Cert.KernelIdeal.main_arg10 (by decide)).trans ((W29_of m c Cert.KernelIdeal.main_arg10 (by decide)).trans ((W28_of m c Cert.KernelIdeal.main_arg10 (by decide)).trans ((W27_of m c Cert.KernelIdeal.main_arg10 (by decide)).trans ((W26_of m c Cert.KernelIdeal.main_arg10 (by decide)).trans ((W25_of m c Cert.KernelIdeal.main_arg10 (by decide)).trans ((W24_of m c Cert.KernelIdeal.main_arg10 (by decide)).trans ((W23_of m c Cert.KernelIdeal.main_arg10 (by decide)).trans ((W22_of m c Cert.KernelIdeal.main_arg10 (by decide)).trans ((W21_of m c Cert.KernelIdeal.main_arg10 (by decide)).trans ((W20_of m c Cert.KernelIdeal.main_arg10 (by decide)).trans ((W19_of m c Cert.KernelIdeal.main_arg10 (by decide)).trans ((W18_of m c Cert.KernelIdeal.main_arg10 (by decide)).trans ((W17_of m c Cert.KernelIdeal.main_arg10 (by decide)).trans ((W16_of m c Cert.KernelIdeal.main_arg10 (by decide)).trans ((W15_of m c Cert.KernelIdeal.main_arg10 (by decide)).trans ((W14_of m c Cert.KernelIdeal.main_arg10 (by decide)).trans ((W13_of m c Cert.KernelIdeal.main_arg10 (by decide)).trans ((W12_of m c Cert.KernelIdeal.main_arg10 (by decide)).trans ((W11_of m c Cert.KernelIdeal.main_arg10 (by decide)).trans ((W10_of m c Cert.KernelIdeal.main_arg10 (by decide)).trans ((W9_of m c Cert.KernelIdeal.main_arg10 (by decide)).trans ((W8_of m c Cert.KernelIdeal.main_arg10 (by decide)).trans ((W7_of m c Cert.KernelIdeal.main_arg10 (by decide)).trans ((W6_of m c Cert.KernelIdeal.main_arg10 (by decide)).trans ((W5_of m c Cert.KernelIdeal.main_arg10 (by decide)).trans ((W4_of m c Cert.KernelIdeal.main_arg10 (by decide)).trans ((W3_of m c Cert.KernelIdeal.main_arg10 (by decide)).trans ((W2_of m c Cert.KernelIdeal.main_arg10 (by decide)).trans (W1_of m c Cert.KernelIdeal.main_arg10 (by decide))))))))))))))))))))))))))))))))))))))))) (Eq.trans (a10.symm) ((RW3_of m' c Cert.ReferenceIdeal.main_arg10 (by decide)).trans ((RW2_of m' c Cert.ReferenceIdeal.main_arg10 (by decide)).trans (RW1_of m' c Cert.ReferenceIdeal.main_arg10 (by decide)))).symm))
  have k11 : (W40 m c (Proc.devRef .tc Cert.KernelIdeal.main_arg11) : Cert.KernelIdeal.S3x64.Idx → EReal) = (RW3 m' c (Proc.devRef .tc Cert.ReferenceIdeal.main_arg11) : Cert.KernelIdeal.S3x64.Idx → EReal) := (Eq.trans ((W40_of m c Cert.KernelIdeal.main_arg11 (by decide)).trans ((W39_of m c Cert.KernelIdeal.main_arg11 (by decide)).trans ((W38_of m c Cert.KernelIdeal.main_arg11 (by decide)).trans ((W37_of m c Cert.KernelIdeal.main_arg11 (by decide)).trans ((W36_of m c Cert.KernelIdeal.main_arg11 (by decide)).trans ((W35_of m c Cert.KernelIdeal.main_arg11 (by decide)).trans ((W34_of m c Cert.KernelIdeal.main_arg11 (by decide)).trans ((W33_of m c Cert.KernelIdeal.main_arg11 (by decide)).trans ((W32_of m c Cert.KernelIdeal.main_arg11 (by decide)).trans ((W31_of m c Cert.KernelIdeal.main_arg11 (by decide)).trans ((W30_of m c Cert.KernelIdeal.main_arg11 (by decide)).trans ((W29_of m c Cert.KernelIdeal.main_arg11 (by decide)).trans ((W28_of m c Cert.KernelIdeal.main_arg11 (by decide)).trans ((W27_of m c Cert.KernelIdeal.main_arg11 (by decide)).trans ((W26_of m c Cert.KernelIdeal.main_arg11 (by decide)).trans ((W25_of m c Cert.KernelIdeal.main_arg11 (by decide)).trans ((W24_of m c Cert.KernelIdeal.main_arg11 (by decide)).trans ((W23_of m c Cert.KernelIdeal.main_arg11 (by decide)).trans ((W22_of m c Cert.KernelIdeal.main_arg11 (by decide)).trans ((W21_of m c Cert.KernelIdeal.main_arg11 (by decide)).trans ((W20_of m c Cert.KernelIdeal.main_arg11 (by decide)).trans ((W19_of m c Cert.KernelIdeal.main_arg11 (by decide)).trans ((W18_of m c Cert.KernelIdeal.main_arg11 (by decide)).trans ((W17_of m c Cert.KernelIdeal.main_arg11 (by decide)).trans ((W16_of m c Cert.KernelIdeal.main_arg11 (by decide)).trans ((W15_of m c Cert.KernelIdeal.main_arg11 (by decide)).trans ((W14_of m c Cert.KernelIdeal.main_arg11 (by decide)).trans ((W13_of m c Cert.KernelIdeal.main_arg11 (by decide)).trans ((W12_of m c Cert.KernelIdeal.main_arg11 (by decide)).trans ((W11_of m c Cert.KernelIdeal.main_arg11 (by decide)).trans ((W10_of m c Cert.KernelIdeal.main_arg11 (by decide)).trans ((W9_of m c Cert.KernelIdeal.main_arg11 (by decide)).trans ((W8_of m c Cert.KernelIdeal.main_arg11 (by decide)).trans ((W7_of m c Cert.KernelIdeal.main_arg11 (by decide)).trans ((W6_of m c Cert.KernelIdeal.main_arg11 (by decide)).trans ((W5_of m c Cert.KernelIdeal.main_arg11 (by decide)).trans ((W4_of m c Cert.KernelIdeal.main_arg11 (by decide)).trans ((W3_of m c Cert.KernelIdeal.main_arg11 (by decide)).trans ((W2_of m c Cert.KernelIdeal.main_arg11 (by decide)).trans (W1_of m c Cert.KernelIdeal.main_arg11 (by decide))))))))))))))))))))))))))))))))))))))))) (Eq.trans (a11.symm) ((RW3_of m' c Cert.ReferenceIdeal.main_arg11 (by decide)).trans ((RW2_of m' c Cert.ReferenceIdeal.main_arg11 (by decide)).trans (RW1_of m' c Cert.ReferenceIdeal.main_arg11 (by decide)))).symm))
  have k12 : (W40 m c (Proc.devRef .tc Cert.KernelIdeal.main_arg12) : Cert.KernelIdeal.S3x64x64.Idx → EReal) = (RW3 m' c (Proc.devRef .tc Cert.ReferenceIdeal.main_arg12) : Cert.KernelIdeal.S3x64x64.Idx → EReal) := (Eq.trans ((W40_of m c Cert.KernelIdeal.main_arg12 (by decide)).trans ((W39_of m c Cert.KernelIdeal.main_arg12 (by decide)).trans ((W38_of m c Cert.KernelIdeal.main_arg12 (by decide)).trans ((W37_of m c Cert.KernelIdeal.main_arg12 (by decide)).trans ((W36_of m c Cert.KernelIdeal.main_arg12 (by decide)).trans ((W35_of m c Cert.KernelIdeal.main_arg12 (by decide)).trans ((W34_of m c Cert.KernelIdeal.main_arg12 (by decide)).trans ((W33_of m c Cert.KernelIdeal.main_arg12 (by decide)).trans ((W32_of m c Cert.KernelIdeal.main_arg12 (by decide)).trans ((W31_of m c Cert.KernelIdeal.main_arg12 (by decide)).trans ((W30_of m c Cert.KernelIdeal.main_arg12 (by decide)).trans ((W29_of m c Cert.KernelIdeal.main_arg12 (by decide)).trans ((W28_of m c Cert.KernelIdeal.main_arg12 (by decide)).trans ((W27_of m c Cert.KernelIdeal.main_arg12 (by decide)).trans ((W26_of m c Cert.KernelIdeal.main_arg12 (by decide)).trans ((W25_of m c Cert.KernelIdeal.main_arg12 (by decide)).trans ((W24_of m c Cert.KernelIdeal.main_arg12 (by decide)).trans ((W23_of m c Cert.KernelIdeal.main_arg12 (by decide)).trans ((W22_of m c Cert.KernelIdeal.main_arg12 (by decide)).trans ((W21_of m c Cert.KernelIdeal.main_arg12 (by decide)).trans ((W20_of m c Cert.KernelIdeal.main_arg12 (by decide)).trans ((W19_of m c Cert.KernelIdeal.main_arg12 (by decide)).trans ((W18_of m c Cert.KernelIdeal.main_arg12 (by decide)).trans ((W17_of m c Cert.KernelIdeal.main_arg12 (by decide)).trans ((W16_of m c Cert.KernelIdeal.main_arg12 (by decide)).trans ((W15_of m c Cert.KernelIdeal.main_arg12 (by decide)).trans ((W14_of m c Cert.KernelIdeal.main_arg12 (by decide)).trans ((W13_of m c Cert.KernelIdeal.main_arg12 (by decide)).trans ((W12_of m c Cert.KernelIdeal.main_arg12 (by decide)).trans ((W11_of m c Cert.KernelIdeal.main_arg12 (by decide)).trans ((W10_of m c Cert.KernelIdeal.main_arg12 (by decide)).trans ((W9_of m c Cert.KernelIdeal.main_arg12 (by decide)).trans ((W8_of m c Cert.KernelIdeal.main_arg12 (by decide)).trans ((W7_of m c Cert.KernelIdeal.main_arg12 (by decide)).trans ((W6_of m c Cert.KernelIdeal.main_arg12 (by decide)).trans ((W5_of m c Cert.KernelIdeal.main_arg12 (by decide)).trans ((W4_of m c Cert.KernelIdeal.main_arg12 (by decide)).trans ((W3_of m c Cert.KernelIdeal.main_arg12 (by decide)).trans ((W2_of m c Cert.KernelIdeal.main_arg12 (by decide)).trans (W1_of m c Cert.KernelIdeal.main_arg12 (by decide))))))))))))))))))))))))))))))))))))))))) (Eq.trans (a12.symm) ((RW3_of m' c Cert.ReferenceIdeal.main_arg12 (by decide)).trans ((RW2_of m' c Cert.ReferenceIdeal.main_arg12 (by decide)).trans (RW1_of m' c Cert.ReferenceIdeal.main_arg12 (by decide)))).symm))
  have k13 : (W40 m c (Proc.devRef .tc Cert.KernelIdeal.main_arg13) : Cert.KernelIdeal.S3x64.Idx → EReal) = (RW3 m' c (Proc.devRef .tc Cert.ReferenceIdeal.main_arg13) : Cert.KernelIdeal.S3x64.Idx → EReal) := (Eq.trans ((W40_of m c Cert.KernelIdeal.main_arg13 (by decide)).trans ((W39_of m c Cert.KernelIdeal.main_arg13 (by decide)).trans ((W38_of m c Cert.KernelIdeal.main_arg13 (by decide)).trans ((W37_of m c Cert.KernelIdeal.main_arg13 (by decide)).trans ((W36_of m c Cert.KernelIdeal.main_arg13 (by decide)).trans ((W35_of m c Cert.KernelIdeal.main_arg13 (by decide)).trans ((W34_of m c Cert.KernelIdeal.main_arg13 (by decide)).trans ((W33_of m c Cert.KernelIdeal.main_arg13 (by decide)).trans ((W32_of m c Cert.KernelIdeal.main_arg13 (by decide)).trans ((W31_of m c Cert.KernelIdeal.main_arg13 (by decide)).trans ((W30_of m c Cert.KernelIdeal.main_arg13 (by decide)).trans ((W29_of m c Cert.KernelIdeal.main_arg13 (by decide)).trans ((W28_of m c Cert.KernelIdeal.main_arg13 (by decide)).trans ((W27_of m c Cert.KernelIdeal.main_arg13 (by decide)).trans ((W26_of m c Cert.KernelIdeal.main_arg13 (by decide)).trans ((W25_of m c Cert.KernelIdeal.main_arg13 (by decide)).trans ((W24_of m c Cert.KernelIdeal.main_arg13 (by decide)).trans ((W23_of m c Cert.KernelIdeal.main_arg13 (by decide)).trans ((W22_of m c Cert.KernelIdeal.main_arg13 (by decide)).trans ((W21_of m c Cert.KernelIdeal.main_arg13 (by decide)).trans ((W20_of m c Cert.KernelIdeal.main_arg13 (by decide)).trans ((W19_of m c Cert.KernelIdeal.main_arg13 (by decide)).trans ((W18_of m c Cert.KernelIdeal.main_arg13 (by decide)).trans ((W17_of m c Cert.KernelIdeal.main_arg13 (by decide)).trans ((W16_of m c Cert.KernelIdeal.main_arg13 (by decide)).trans ((W15_of m c Cert.KernelIdeal.main_arg13 (by decide)).trans ((W14_of m c Cert.KernelIdeal.main_arg13 (by decide)).trans ((W13_of m c Cert.KernelIdeal.main_arg13 (by decide)).trans ((W12_of m c Cert.KernelIdeal.main_arg13 (by decide)).trans ((W11_of m c Cert.KernelIdeal.main_arg13 (by decide)).trans ((W10_of m c Cert.KernelIdeal.main_arg13 (by decide)).trans ((W9_of m c Cert.KernelIdeal.main_arg13 (by decide)).trans ((W8_of m c Cert.KernelIdeal.main_arg13 (by decide)).trans ((W7_of m c Cert.KernelIdeal.main_arg13 (by decide)).trans ((W6_of m c Cert.KernelIdeal.main_arg13 (by decide)).trans ((W5_of m c Cert.KernelIdeal.main_arg13 (by decide)).trans ((W4_of m c Cert.KernelIdeal.main_arg13 (by decide)).trans ((W3_of m c Cert.KernelIdeal.main_arg13 (by decide)).trans ((W2_of m c Cert.KernelIdeal.main_arg13 (by decide)).trans (W1_of m c Cert.KernelIdeal.main_arg13 (by decide))))))))))))))))))))))))))))))))))))))))) (Eq.trans (a13.symm) ((RW3_of m' c Cert.ReferenceIdeal.main_arg13 (by decide)).trans ((RW2_of m' c Cert.ReferenceIdeal.main_arg13 (by decide)).trans (RW1_of m' c Cert.ReferenceIdeal.main_arg13 (by decide)))).symm))
  have k16 : (W40 m c (Proc.devRef .tc Cert.KernelIdeal.main_arg16) : Cert.KernelIdeal.S3x64x64.Idx → EReal) = (RW3 m' c (Proc.devRef .tc Cert.ReferenceIdeal.main_arg16) : Cert.KernelIdeal.S3x64x64.Idx → EReal) := (Eq.trans ((W40_of m c Cert.KernelIdeal.main_arg16 (by decide)).trans ((W39_of m c Cert.KernelIdeal.main_arg16 (by decide)).trans ((W38_of m c Cert.KernelIdeal.main_arg16 (by decide)).trans ((W37_of m c Cert.KernelIdeal.main_arg16 (by decide)).trans ((W36_of m c Cert.KernelIdeal.main_arg16 (by decide)).trans ((W35_of m c Cert.KernelIdeal.main_arg16 (by decide)).trans ((W34_of m c Cert.KernelIdeal.main_arg16 (by decide)).trans ((W33_of m c Cert.KernelIdeal.main_arg16 (by decide)).trans ((W32_of m c Cert.KernelIdeal.main_arg16 (by decide)).trans ((W31_of m c Cert.KernelIdeal.main_arg16 (by decide)).trans ((W30_of m c Cert.KernelIdeal.main_arg16 (by decide)).trans ((W29_of m c Cert.KernelIdeal.main_arg16 (by decide)).trans ((W28_of m c Cert.KernelIdeal.main_arg16 (by decide)).trans ((W27_of m c Cert.KernelIdeal.main_arg16 (by decide)).trans ((W26_of m c Cert.KernelIdeal.main_arg16 (by decide)).trans ((W25_of m c Cert.KernelIdeal.main_arg16 (by decide)).trans ((W24_of m c Cert.KernelIdeal.main_arg16 (by decide)).trans ((W23_of m c Cert.KernelIdeal.main_arg16 (by decide)).trans ((W22_of m c Cert.KernelIdeal.main_arg16 (by decide)).trans ((W21_of m c Cert.KernelIdeal.main_arg16 (by decide)).trans ((W20_of m c Cert.KernelIdeal.main_arg16 (by decide)).trans ((W19_of m c Cert.KernelIdeal.main_arg16 (by decide)).trans ((W18_of m c Cert.KernelIdeal.main_arg16 (by decide)).trans ((W17_of m c Cert.KernelIdeal.main_arg16 (by decide)).trans ((W16_of m c Cert.KernelIdeal.main_arg16 (by decide)).trans ((W15_of m c Cert.KernelIdeal.main_arg16 (by decide)).trans ((W14_of m c Cert.KernelIdeal.main_arg16 (by decide)).trans ((W13_of m c Cert.KernelIdeal.main_arg16 (by decide)).trans ((W12_of m c Cert.KernelIdeal.main_arg16 (by decide)).trans ((W11_of m c Cert.KernelIdeal.main_arg16 (by decide)).trans ((W10_of m c Cert.KernelIdeal.main_arg16 (by decide)).trans ((W9_of m c Cert.KernelIdeal.main_arg16 (by decide)).trans ((W8_of m c Cert.KernelIdeal.main_arg16 (by decide)).trans ((W7_of m c Cert.KernelIdeal.main_arg16 (by decide)).trans ((W6_of m c Cert.KernelIdeal.main_arg16 (by decide)).trans ((W5_of m c Cert.KernelIdeal.main_arg16 (by decide)).trans ((W4_of m c Cert.KernelIdeal.main_arg16 (by decide)).trans ((W3_of m c Cert.KernelIdeal.main_arg16 (by decide)).trans ((W2_of m c Cert.KernelIdeal.main_arg16 (by decide)).trans (W1_of m c Cert.KernelIdeal.main_arg16 (by decide))))))))))))))))))))))))))))))))))))))))) (Eq.trans (a16.symm) ((RW3_of m' c Cert.ReferenceIdeal.main_arg16 (by decide)).trans ((RW2_of m' c Cert.ReferenceIdeal.main_arg16 (by decide)).trans (RW1_of m' c Cert.ReferenceIdeal.main_arg16 (by decide)))).symm))
  have k17 : (W40 m c (Proc.devRef .tc Cert.KernelIdeal.main_arg17) : Cert.KernelIdeal.S3x64.Idx → EReal) = (RW3 m' c (Proc.devRef .tc Cert.ReferenceIdeal.main_arg17) : Cert.KernelIdeal.S3x64.Idx → EReal) := (Eq.trans ((W40_of m c Cert.KernelIdeal.main_arg17 (by decide)).trans ((W39_of m c Cert.KernelIdeal.main_arg17 (by decide)).trans ((W38_of m c Cert.KernelIdeal.main_arg17 (by decide)).trans ((W37_of m c Cert.KernelIdeal.main_arg17 (by decide)).trans ((W36_of m c Cert.KernelIdeal.main_arg17 (by decide)).trans ((W35_of m c Cert.KernelIdeal.main_arg17 (by decide)).trans ((W34_of m c Cert.KernelIdeal.main_arg17 (by decide)).trans ((W33_of m c Cert.KernelIdeal.main_arg17 (by decide)).trans ((W32_of m c Cert.KernelIdeal.main_arg17 (by decide)).trans ((W31_of m c Cert.KernelIdeal.main_arg17 (by decide)).trans ((W30_of m c Cert.KernelIdeal.main_arg17 (by decide)).trans ((W29_of m c Cert.KernelIdeal.main_arg17 (by decide)).trans ((W28_of m c Cert.KernelIdeal.main_arg17 (by decide)).trans ((W27_of m c Cert.KernelIdeal.main_arg17 (by decide)).trans ((W26_of m c Cert.KernelIdeal.main_arg17 (by decide)).trans ((W25_of m c Cert.KernelIdeal.main_arg17 (by decide)).trans ((W24_of m c Cert.KernelIdeal.main_arg17 (by decide)).trans ((W23_of m c Cert.KernelIdeal.main_arg17 (by decide)).trans ((W22_of m c Cert.KernelIdeal.main_arg17 (by decide)).trans ((W21_of m c Cert.KernelIdeal.main_arg17 (by decide)).trans ((W20_of m c Cert.KernelIdeal.main_arg17 (by decide)).trans ((W19_of m c Cert.KernelIdeal.main_arg17 (by decide)).trans ((W18_of m c Cert.KernelIdeal.main_arg17 (by decide)).trans ((W17_of m c Cert.KernelIdeal.main_arg17 (by decide)).trans ((W16_of m c Cert.KernelIdeal.main_arg17 (by decide)).trans ((W15_of m c Cert.KernelIdeal.main_arg17 (by decide)).trans ((W14_of m c Cert.KernelIdeal.main_arg17 (by decide)).trans ((W13_of m c Cert.KernelIdeal.main_arg17 (by decide)).trans ((W12_of m c Cert.KernelIdeal.main_arg17 (by decide)).trans ((W11_of m c Cert.KernelIdeal.main_arg17 (by decide)).trans ((W10_of m c Cert.KernelIdeal.main_arg17 (by decide)).trans ((W9_of m c Cert.KernelIdeal.main_arg17 (by decide)).trans ((W8_of m c Cert.KernelIdeal.main_arg17 (by decide)).trans ((W7_of m c Cert.KernelIdeal.main_arg17 (by decide)).trans ((W6_of m c Cert.KernelIdeal.main_arg17 (by decide)).trans ((W5_of m c Cert.KernelIdeal.main_arg17 (by decide)).trans ((W4_of m c Cert.KernelIdeal.main_arg17 (by decide)).trans ((W3_of m c Cert.KernelIdeal.main_arg17 (by decide)).trans ((W2_of m c Cert.KernelIdeal.main_arg17 (by decide)).trans (W1_of m c Cert.KernelIdeal.main_arg17 (by decide))))))))))))))))))))))))))))))))))))))))) (Eq.trans (a17.symm) ((RW3_of m' c Cert.ReferenceIdeal.main_arg17 (by decide)).trans ((RW2_of m' c Cert.ReferenceIdeal.main_arg17 (by decide)).trans (RW1_of m' c Cert.ReferenceIdeal.main_arg17 (by decide)))).symm))
  have k18 : (W40 m c (Proc.devRef .tc Cert.KernelIdeal.main_arg18) : Cert.KernelIdeal.S3x64x64.Idx → EReal) = (RW3 m' c (Proc.devRef .tc Cert.ReferenceIdeal.main_arg18) : Cert.KernelIdeal.S3x64x64.Idx → EReal) := (Eq.trans ((W40_of m c Cert.KernelIdeal.main_arg18 (by decide)).trans ((W39_of m c Cert.KernelIdeal.main_arg18 (by decide)).trans ((W38_of m c Cert.KernelIdeal.main_arg18 (by decide)).trans ((W37_of m c Cert.KernelIdeal.main_arg18 (by decide)).trans ((W36_of m c Cert.KernelIdeal.main_arg18 (by decide)).trans ((W35_of m c Cert.KernelIdeal.main_arg18 (by decide)).trans ((W34_of m c Cert.KernelIdeal.main_arg18 (by decide)).trans ((W33_of m c Cert.KernelIdeal.main_arg18 (by decide)).trans ((W32_of m c Cert.KernelIdeal.main_arg18 (by decide)).trans ((W31_of m c Cert.KernelIdeal.main_arg18 (by decide)).trans ((W30_of m c Cert.KernelIdeal.main_arg18 (by decide)).trans ((W29_of m c Cert.KernelIdeal.main_arg18 (by decide)).trans ((W28_of m c Cert.KernelIdeal.main_arg18 (by decide)).trans ((W27_of m c Cert.KernelIdeal.main_arg18 (by decide)).trans ((W26_of m c Cert.KernelIdeal.main_arg18 (by decide)).trans ((W25_of m c Cert.KernelIdeal.main_arg18 (by decide)).trans ((W24_of m c Cert.KernelIdeal.main_arg18 (by decide)).trans ((W23_of m c Cert.KernelIdeal.main_arg18 (by decide)).trans ((W22_of m c Cert.KernelIdeal.main_arg18 (by decide)).trans ((W21_of m c Cert.KernelIdeal.main_arg18 (by decide)).trans ((W20_of m c Cert.KernelIdeal.main_arg18 (by decide)).trans ((W19_of m c Cert.KernelIdeal.main_arg18 (by decide)).trans ((W18_of m c Cert.KernelIdeal.main_arg18 (by decide)).trans ((W17_of m c Cert.KernelIdeal.main_arg18 (by decide)).trans ((W16_of m c Cert.KernelIdeal.main_arg18 (by decide)).trans ((W15_of m c Cert.KernelIdeal.main_arg18 (by decide)).trans ((W14_of m c Cert.KernelIdeal.main_arg18 (by decide)).trans ((W13_of m c Cert.KernelIdeal.main_arg18 (by decide)).trans ((W12_of m c Cert.KernelIdeal.main_arg18 (by decide)).trans ((W11_of m c Cert.KernelIdeal.main_arg18 (by decide)).trans ((W10_of m c Cert.KernelIdeal.main_arg18 (by decide)).trans ((W9_of m c Cert.KernelIdeal.main_arg18 (by decide)).trans ((W8_of m c Cert.KernelIdeal.main_arg18 (by decide)).trans ((W7_of m c Cert.KernelIdeal.main_arg18 (by decide)).trans ((W6_of m c Cert.KernelIdeal.main_arg18 (by decide)).trans ((W5_of m c Cert.KernelIdeal.main_arg18 (by decide)).trans ((W4_of m c Cert.KernelIdeal.main_arg18 (by decide)).trans ((W3_of m c Cert.KernelIdeal.main_arg18 (by decide)).trans ((W2_of m c Cert.KernelIdeal.main_arg18 (by decide)).trans (W1_of m c Cert.KernelIdeal.main_arg18 (by decide))))))))))))))))))))))))))))))))))))))))) (Eq.trans (a18.symm) ((RW3_of m' c Cert.ReferenceIdeal.main_arg18 (by decide)).trans ((RW2_of m' c Cert.ReferenceIdeal.main_arg18 (by decide)).trans (RW1_of m' c Cert.ReferenceIdeal.main_arg18 (by decide)))).symm))
  have k19 : (W40 m c (Proc.devRef .tc Cert.KernelIdeal.main_arg19) : Cert.KernelIdeal.S3x64.Idx → EReal) = (RW3 m' c (Proc.devRef .tc Cert.ReferenceIdeal.main_arg19) : Cert.KernelIdeal.S3x64.Idx → EReal) := (Eq.trans ((W40_of m c Cert.KernelIdeal.main_arg19 (by decide)).trans ((W39_of m c Cert.KernelIdeal.main_arg19 (by decide)).trans ((W38_of m c Cert.KernelIdeal.main_arg19 (by decide)).trans ((W37_of m c Cert.KernelIdeal.main_arg19 (by decide)).trans ((W36_of m c Cert.KernelIdeal.main_arg19 (by decide)).trans ((W35_of m c Cert.KernelIdeal.main_arg19 (by decide)).trans ((W34_of m c Cert.KernelIdeal.main_arg19 (by decide)).trans ((W33_of m c Cert.KernelIdeal.main_arg19 (by decide)).trans ((W32_of m c Cert.KernelIdeal.main_arg19 (by decide)).trans ((W31_of m c Cert.KernelIdeal.main_arg19 (by decide)).trans ((W30_of m c Cert.KernelIdeal.main_arg19 (by decide)).trans ((W29_of m c Cert.KernelIdeal.main_arg19 (by decide)).trans ((W28_of m c Cert.KernelIdeal.main_arg19 (by decide)).trans ((W27_of m c Cert.KernelIdeal.main_arg19 (by decide)).trans ((W26_of m c Cert.KernelIdeal.main_arg19 (by decide)).trans ((W25_of m c Cert.KernelIdeal.main_arg19 (by decide)).trans ((W24_of m c Cert.KernelIdeal.main_arg19 (by decide)).trans ((W23_of m c Cert.KernelIdeal.main_arg19 (by decide)).trans ((W22_of m c Cert.KernelIdeal.main_arg19 (by decide)).trans ((W21_of m c Cert.KernelIdeal.main_arg19 (by decide)).trans ((W20_of m c Cert.KernelIdeal.main_arg19 (by decide)).trans ((W19_of m c Cert.KernelIdeal.main_arg19 (by decide)).trans ((W18_of m c Cert.KernelIdeal.main_arg19 (by decide)).trans ((W17_of m c Cert.KernelIdeal.main_arg19 (by decide)).trans ((W16_of m c Cert.KernelIdeal.main_arg19 (by decide)).trans ((W15_of m c Cert.KernelIdeal.main_arg19 (by decide)).trans ((W14_of m c Cert.KernelIdeal.main_arg19 (by decide)).trans ((W13_of m c Cert.KernelIdeal.main_arg19 (by decide)).trans ((W12_of m c Cert.KernelIdeal.main_arg19 (by decide)).trans ((W11_of m c Cert.KernelIdeal.main_arg19 (by decide)).trans ((W10_of m c Cert.KernelIdeal.main_arg19 (by decide)).trans ((W9_of m c Cert.KernelIdeal.main_arg19 (by decide)).trans ((W8_of m c Cert.KernelIdeal.main_arg19 (by decide)).trans ((W7_of m c Cert.KernelIdeal.main_arg19 (by decide)).trans ((W6_of m c Cert.KernelIdeal.main_arg19 (by decide)).trans ((W5_of m c Cert.KernelIdeal.main_arg19 (by decide)).trans ((W4_of m c Cert.KernelIdeal.main_arg19 (by decide)).trans ((W3_of m c Cert.KernelIdeal.main_arg19 (by decide)).trans ((W2_of m c Cert.KernelIdeal.main_arg19 (by decide)).trans (W1_of m c Cert.KernelIdeal.main_arg19 (by decide))))))))))))))))))))))))))))))))))))))))) (Eq.trans (a19.symm) ((RW3_of m' c Cert.ReferenceIdeal.main_arg19 (by decide)).trans ((RW2_of m' c Cert.ReferenceIdeal.main_arg19 (by decide)).trans (RW1_of m' c Cert.ReferenceIdeal.main_arg19 (by decide)))).symm))
  have k14 : (W42 m c (Proc.devRef .tc Cert.KernelIdeal.main_arg14) : Cert.KernelIdeal.S3x64x64.Idx → EReal) = (RW3 m' c (Proc.devRef .tc Cert.ReferenceIdeal.main_arg14) : Cert.KernelIdeal.S3x64x64.Idx → EReal) := (Eq.trans ((W42_of m c Cert.KernelIdeal.main_arg14 (by decide)).trans ((W41_of m c Cert.KernelIdeal.main_arg14 (by decide)).trans ((W40_of m c Cert.KernelIdeal.main_arg14 (by decide)).trans ((W39_of m c Cert.KernelIdeal.main_arg14 (by decide)).trans ((W38_of m c Cert.KernelIdeal.main_arg14 (by decide)).trans ((W37_of m c Cert.KernelIdeal.main_arg14 (by decide)).trans ((W36_of m c Cert.KernelIdeal.main_arg14 (by decide)).trans ((W35_of m c Cert.KernelIdeal.main_arg14 (by decide)).trans ((W34_of m c Cert.KernelIdeal.main_arg14 (by decide)).trans ((W33_of m c Cert.KernelIdeal.main_arg14 (by decide)).trans ((W32_of m c Cert.KernelIdeal.main_arg14 (by decide)).trans ((W31_of m c Cert.KernelIdeal.main_arg14 (by decide)).trans ((W30_of m c Cert.KernelIdeal.main_arg14 (by decide)).trans ((W29_of m c Cert.KernelIdeal.main_arg14 (by decide)).trans ((W28_of m c Cert.KernelIdeal.main_arg14 (by decide)).trans ((W27_of m c Cert.KernelIdeal.main_arg14 (by decide)).trans ((W26_of m c Cert.KernelIdeal.main_arg14 (by decide)).trans ((W25_of m c Cert.KernelIdeal.main_arg14 (by decide)).trans ((W24_of m c Cert.KernelIdeal.main_arg14 (by decide)).trans ((W23_of m c Cert.KernelIdeal.main_arg14 (by decide)).trans ((W22_of m c Cert.KernelIdeal.main_arg14 (by decide)).trans ((W21_of m c Cert.KernelIdeal.main_arg14 (by decide)).trans ((W20_of m c Cert.KernelIdeal.main_arg14 (by decide)).trans ((W19_of m c Cert.KernelIdeal.main_arg14 (by decide)).trans ((W18_of m c Cert.KernelIdeal.main_arg14 (by decide)).trans ((W17_of m c Cert.KernelIdeal.main_arg14 (by decide)).trans ((W16_of m c Cert.KernelIdeal.main_arg14 (by decide)).trans ((W15_of m c Cert.KernelIdeal.main_arg14 (by decide)).trans ((W14_of m c Cert.KernelIdeal.main_arg14 (by decide)).trans ((W13_of m c Cert.KernelIdeal.main_arg14 (by decide)).trans ((W12_of m c Cert.KernelIdeal.main_arg14 (by decide)).trans ((W11_of m c Cert.KernelIdeal.main_arg14 (by decide)).trans ((W10_of m c Cert.KernelIdeal.main_arg14 (by decide)).trans ((W9_of m c Cert.KernelIdeal.main_arg14 (by decide)).trans ((W8_of m c Cert.KernelIdeal.main_arg14 (by decide)).trans ((W7_of m c Cert.KernelIdeal.main_arg14 (by decide)).trans ((W6_of m c Cert.KernelIdeal.main_arg14 (by decide)).trans ((W5_of m c Cert.KernelIdeal.main_arg14 (by decide)).trans ((W4_of m c Cert.KernelIdeal.main_arg14 (by decide)).trans ((W3_of m c Cert.KernelIdeal.main_arg14 (by decide)).trans ((W2_of m c Cert.KernelIdeal.main_arg14 (by decide)).trans (W1_of m c Cert.KernelIdeal.main_arg14 (by decide))))))))))))))))))))))))))))))))))))))))))) (Eq.trans (a14.symm) ((RW3_of m' c Cert.ReferenceIdeal.main_arg14 (by decide)).trans ((RW2_of m' c Cert.ReferenceIdeal.main_arg14 (by decide)).trans (RW1_of m' c Cert.ReferenceIdeal.main_arg14 (by decide)))).symm))
  have k15 : (W42 m c (Proc.devRef .tc Cert.KernelIdeal.main_arg15) : Cert.KernelIdeal.S3x64.Idx → EReal) = (RW3 m' c (Proc.devRef .tc Cert.ReferenceIdeal.main_arg15) : Cert.KernelIdeal.S3x64.Idx → EReal) := (Eq.trans ((W42_of m c Cert.KernelIdeal.main_arg15 (by decide)).trans ((W41_of m c Cert.KernelIdeal.main_arg15 (by decide)).trans ((W40_of m c Cert.KernelIdeal.main_arg15 (by decide)).trans ((W39_of m c Cert.KernelIdeal.main_arg15 (by decide)).trans ((W38_of m c Cert.KernelIdeal.main_arg15 (by decide)).trans ((W37_of m c Cert.KernelIdeal.main_arg15 (by decide)).trans ((W36_of m c Cert.KernelIdeal.main_arg15 (by decide)).trans ((W35_of m c Cert.KernelIdeal.main_arg15 (by decide)).trans ((W34_of m c Cert.KernelIdeal.main_arg15 (by decide)).trans ((W33_of m c Cert.KernelIdeal.main_arg15 (by decide)).trans ((W32_of m c Cert.KernelIdeal.main_arg15 (by decide)).trans ((W31_of m c Cert.KernelIdeal.main_arg15 (by decide)).trans ((W30_of m c Cert.KernelIdeal.main_arg15 (by decide)).trans ((W29_of m c Cert.KernelIdeal.main_arg15 (by decide)).trans ((W28_of m c Cert.KernelIdeal.main_arg15 (by decide)).trans ((W27_of m c Cert.KernelIdeal.main_arg15 (by decide)).trans ((W26_of m c Cert.KernelIdeal.main_arg15 (by decide)).trans ((W25_of m c Cert.KernelIdeal.main_arg15 (by decide)).trans ((W24_of m c Cert.KernelIdeal.main_arg15 (by decide)).trans ((W23_of m c Cert.KernelIdeal.main_arg15 (by decide)).trans ((W22_of m c Cert.KernelIdeal.main_arg15 (by decide)).trans ((W21_of m c Cert.KernelIdeal.main_arg15 (by decide)).trans ((W20_of m c Cert.KernelIdeal.main_arg15 (by decide)).trans ((W19_of m c Cert.KernelIdeal.main_arg15 (by decide)).trans ((W18_of m c Cert.KernelIdeal.main_arg15 (by decide)).trans ((W17_of m c Cert.KernelIdeal.main_arg15 (by decide)).trans ((W16_of m c Cert.KernelIdeal.main_arg15 (by decide)).trans ((W15_of m c Cert.KernelIdeal.main_arg15 (by decide)).trans ((W14_of m c Cert.KernelIdeal.main_arg15 (by decide)).trans ((W13_of m c Cert.KernelIdeal.main_arg15 (by decide)).trans ((W12_of m c Cert.KernelIdeal.main_arg15 (by decide)).trans ((W11_of m c Cert.KernelIdeal.main_arg15 (by decide)).trans ((W10_of m c Cert.KernelIdeal.main_arg15 (by decide)).trans ((W9_of m c Cert.KernelIdeal.main_arg15 (by decide)).trans ((W8_of m c Cert.KernelIdeal.main_arg15 (by decide)).trans ((W7_of m c Cert.KernelIdeal.main_arg15 (by decide)).trans ((W6_of m c Cert.KernelIdeal.main_arg15 (by decide)).trans ((W5_of m c Cert.KernelIdeal.main_arg15 (by decide)).trans ((W4_of m c Cert.KernelIdeal.main_arg15 (by decide)).trans ((W3_of m c Cert.KernelIdeal.main_arg15 (by decide)).trans ((W2_of m c Cert.KernelIdeal.main_arg15 (by decide)).trans (W1_of m c Cert.KernelIdeal.main_arg15 (by decide))))))))))))))))))))))))))))))))))))))))))) (Eq.trans (a15.symm) ((RW3_of m' c Cert.ReferenceIdeal.main_arg15 (by decide)).trans ((RW2_of m' c Cert.ReferenceIdeal.main_arg15 (by decide)).trans (RW1_of m' c Cert.ReferenceIdeal.main_arg15 (by decide)))).symm))
  exact ⟨fun hh => ⟨a3_core m m' c hh k10 k11, b3_core m m' c hh k12 k13, d3_core m m' c hh k16 k17, e3_core m m' c hh k18 k19⟩,
    fun he => ce3_core m m' c he k14 k15⟩

end Cert.Sim

end
-- ==== Proof.Sim.Take3.lean ====
import proofs.«431450_j74423193305350_1_alg».proof.Proof.KI.Fold
import proofs.«431450_j74423193305350_1_alg».proof.Proof.KI.Take
import proofs.«431450_j74423193305350_1_alg».proof.Proof.Ref.Fold
import proofs.«431450_j74423193305350_1_alg».proof.Proof.Ref.RdL3
import proofs.«431450_j74423193305350_1_alg».proof.Proof.Ref.Gather
import proofs.«431450_j74423193305350_1_alg».proof.Proof.PreFacts
import proofs.«431450_j74423193305350_1_alg».proof.Proof.Gen.Pre_finite_inputs
import proofs.«431450_j74423193305350_1_alg».proof.Proof.Spec

/-! The three row look-ups of layer 3, kernel against reference: each array a kernel look-up leaves equals the buffer the
    reference's look-up leaves, given that the two memories agree on the arguments, that the precondition holds (every
    index word is in [0, 50000)), and that the tables the look-ups read already agree. Both sides are read at an index
    as the table at the row the index word names; the index vectors are the launch contents, where the memories agree. -/
set_option maxRecDepth 16384

noncomputable section

namespace Cert.Sim

open Idealize.ShloMosaic Idealize.ShloMosaic.TcCoe Idealize.ShloMosaic.ValueIdx Idealize.ShloMosaic.StableHlo
open Idealize.SL.Sem
open Cert.KernelIdeal.Hand Cert.ReferenceIdeal.Hand
open Cert.Spec (Mat)

/-- The table at the row an index word names depends only on the table and the index vector. -/
theorem row_congrT3 {x x' : Mat 50000 64} {idx idx' : (⟨1, ![400000]⟩ : Shape).Idx → BitVec 32} (hx : x = x') (hi : idx = idx')
    (e : Fin 400000) (q : Fin 64) (h : (idx (ix1 e)).toInt.toNat < 50000) (h' : (idx' (ix1 e)).toInt.toNat < 50000) :
    x (ix2 (⟨(idx (ix1 e)).toInt.toNat, h⟩ : Fin 50000) q) = x' (ix2 (⟨(idx' (ix1 e)).toInt.toNat, h'⟩ : Fin 50000) q) := by
  subst hx; subst hi; rfl

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two memories agree on the thirty arguments (the hypothesis of the claim, word for word). -/
abbrev ArgsAgreeT3 : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)

/-! ## The index vectors, at the boundaries where they are read -/

/-- The index vector of look-up 0 is still the launch contents at kernel boundary 44. -/
theorem kidx3_0 (c : Dev Cert.KernelIdeal.nD) :
    W44 m c (Proc.devRef .tc Cert.KernelIdeal.main_arg3) = m ((c.tc : Thread Cert.KernelIdeal.nD Cert.KernelIdeal.τ).loc Cert.KernelIdeal.main_arg3) :=
  (W44_of m c Cert.KernelIdeal.main_arg3 (by decide)).trans (
    (W43_of m c Cert.KernelIdeal.main_arg3 (by decide)).trans (
    (W42_of m c Cert.KernelIdeal.main_arg3 (by decide)).trans (
    (W41_of m c Cert.KernelIdeal.main_arg3 (by decide)).trans (
    (W40_of m c Cert.KernelIdeal.main_arg3 (by decide)).trans (
    (W39_of m c Cert.KernelIdeal.main_arg3 (by decide)).trans (
    (W38_of m c Cert.KernelIdeal.main_arg3 (by decide)).trans (
    (W37_of m c Cert.KernelIdeal.main_arg3 (by decide)).trans (
    (W36_of m c Cert.KernelIdeal.main_arg3 (by decide)).trans (
    (W35_of m c Cert.KernelIdeal.main_arg3 (by decide)).trans (
    (W34_of m c Cert.KernelIdeal.main_arg3 (by decide)).trans (
    (W33_of m c Cert.KernelIdeal.main_arg3 (by decide)).trans (
    (W32_of m c Cert.KernelIdeal.main_arg3 (by decide)).trans (
    (W31_of m c Cert.KernelIdeal.main_arg3 (by decide)).trans (
    (W30_of m c Cert.KernelIdeal.main_arg3 (by decide)).trans (
    (W29_of m c Cert.KernelIdeal.main_arg3 (by decide)).trans (
    (W28_of m c Cert.KernelIdeal.main_arg3 (by decide)).trans (
    (W27_of m c Cert.KernelIdeal.main_arg3 (by decide)).trans (
    (W26_of m c Cert.KernelIdeal.main_arg3 (by decide)).trans (
    (W25_of m c Cert.KernelIdeal.main_arg3 (by decide)).trans (
    (W24_of m c Cert.KernelIdeal.main_arg3 (by decide)).trans (
    (W23_of m c Cert.KernelIdeal.main_arg3 (by decide)).trans (
    (W22_of m c Cert.KernelIdeal.main_arg3 (by decide)).trans (
    (W21_of m c Cert.KernelIdeal.main_arg3 (by decide)).trans (
    (W20_of m c Cert.KernelIdeal.main_arg3 (by decide)).trans (
    (W19_of m c Cert.KernelIdeal.main_arg3 (by decide)).trans (
    (W18_of m c Cert.KernelIdeal.main_arg3 (by decide)).trans (
    (W17_of m c Cert.KernelIdeal.main_arg3 (by decide)).trans (
    (W16_of m c Cert.KernelIdeal.main_arg3 (by decide)).trans (
    (W15_of m c Cert.KernelIdeal.main_arg3 (by decide)).trans (
    (W14_of m c Cert.KernelIdeal.main_arg3 (by decide)).trans (
    (W13_of m c Cert.KernelIdeal.main_arg3 (by decide)).trans (
    (W12_of m c Cert.KernelIdeal.main_arg3 (by decide)).trans (
    (W11_of m c Cert.KernelIdeal.main_arg3 (by decide)).trans (
    (W10_of m c Cert.KernelIdeal.main_arg3 (by decide)).trans (
    (W9_of m c Cert.KernelIdeal.main_arg3 (by decide)).trans (
    (W8_of m c Cert.KernelIdeal.main_arg3 (by decide)).trans (
    (W7_of m c Cert.KernelIdeal.main_arg3 (by decide)).trans (
    (W6_of m c Cert.KernelIdeal.main_arg3 (by decide)).trans (
    (W5_of m c Cert.KernelIdeal.main_arg3 (by decide)).trans (
    (W4_of m c Cert.KernelIdeal.main_arg3 (by decide)).trans (
    (W3_of m c Cert.KernelIdeal.main_arg3 (by decide)).trans (
    (W2_of m c Cert.KernelIdeal.main_arg3 (by decide)).trans (
    (W1_of m c Cert.KernelIdeal.main_arg3 (by decide)).trans (
    rfl))))))))))))))))))))))))))))))))))))))))))))

/-- The index vector of look-up 1 is still the launch contents at kernel boundary 45. -/
theorem kidx3_1 (c : Dev Cert.KernelIdeal.nD) :
    W45 m c (Proc.devRef .tc Cert.KernelIdeal.main_arg4) = m ((c.tc : Thread Cert.KernelIdeal.nD Cert.KernelIdeal.τ).loc Cert.KernelIdeal.main_arg4) :=
  (W45_of m c Cert.KernelIdeal.main_arg4 (by decide)).trans (
    (W44_of m c Cert.KernelIdeal.main_arg4 (by decide)).trans (
    (W43_of m c Cert.KernelIdeal.main_arg4 (by decide)).trans (
    (W42_of m c Cert.KernelIdeal.main_arg4 (by decide)).trans (
    (W41_of m c Cert.KernelIdeal.main_arg4 (by decide)).trans (
    (W40_of m c Cert.KernelIdeal.main_arg4 (by decide)).trans (
    (W39_of m c Cert.KernelIdeal.main_arg4 (by decide)).trans (
    (W38_of m c Cert.KernelIdeal.main_arg4 (by decide)).trans (
    (W37_of m c Cert.KernelIdeal.main_arg4 (by decide)).trans (
    (W36_of m c Cert.KernelIdeal.main_arg4 (by decide)).trans (
    (W35_of m c Cert.KernelIdeal.main_arg4 (by decide)).trans (
    (W34_of m c Cert.KernelIdeal.main_arg4 (by decide)).trans (
    (W33_of m c Cert.KernelIdeal.main_arg4 (by decide)).trans (
    (W32_of m c Cert.KernelIdeal.main_arg4 (by decide)).trans (
    (W31_of m c Cert.KernelIdeal.main_arg4 (by decide)).trans (
    (W30_of m c Cert.KernelIdeal.main_arg4 (by decide)).trans (
    (W29_of m c Cert.KernelIdeal.main_arg4 (by decide)).trans (
    (W28_of m c Cert.KernelIdeal.main_arg4 (by decide)).trans (
    (W27_of m c Cert.KernelIdeal.main_arg4 (by decide)).trans (
    (W26_of m c Cert.KernelIdeal.main_arg4 (by decide)).trans (
    (W25_of m c Cert.KernelIdeal.main_arg4 (by decide)).trans (
    (W24_of m c Cert.KernelIdeal.main_arg4 (by decide)).trans (
    (W23_of m c Cert.KernelIdeal.main_arg4 (by decide)).trans (
    (W22_of m c Cert.KernelIdeal.main_arg4 (by decide)).trans (
    (W21_of m c Cert.KernelIdeal.main_arg4 (by decide)).trans (
    (W20_of m c Cert.KernelIdeal.main_arg4 (by decide)).trans (
    (W19_of m c Cert.KernelIdeal.main_arg4 (by decide)).trans (
    (W18_of m c Cert.KernelIdeal.main_arg4 (by decide)).trans (
    (W17_of m c Cert.KernelIdeal.main_arg4 (by decide)).trans (
    (W16_of m c Cert.KernelIdeal.main_arg4 (by decide)).trans (
    (W15_of m c Cert.KernelIdeal.main_arg4 (by decide)).trans (
    (W14_of m c Cert.KernelIdeal.main_arg4 (by decide)).trans (
    (W13_of m c Cert.KernelIdeal.main_arg4 (by decide)).trans (
    (W12_of m c Cert.KernelIdeal.main_arg4 (by decide)).trans (
    (W11_of m c Cert.KernelIdeal.main_arg4 (by decide)).trans (
    (W10_of m c Cert.KernelIdeal.main_arg4 (by decide)).trans (
    (W9_of m c Cert.KernelIdeal.main_arg4 (by decide)).trans (
    (W8_of m c Cert.KernelIdeal.main_arg4 (by decide)).trans (
    (W7_of m c Cert.KernelIdeal.main_arg4 (by decide)).trans (
    (W6_of m c Cert.KernelIdeal.main_arg4 (by decide)).trans (
    (W5_of m c Cert.KernelIdeal.main_arg4 (by decide)).trans (
    (W4_of m c Cert.KernelIdeal.main_arg4 (by decide)).trans (
    (W3_of m c Cert.KernelIdeal.main_arg4 (by decide)).trans (
    (W2_of m c Cert.KernelIdeal.main_arg4 (by decide)).trans (
    (W1_of m c Cert.KernelIdeal.main_arg4 (by decide)).trans (
    rfl)))))))))))))))))))))))))))))))))))))))))))))

/-- The index vector of look-up 2 is still the launch contents at kernel boundary 46. -/
theorem kidx3_2 (c : Dev Cert.KernelIdeal.nD) :
    W46 m c (Proc.devRef .tc Cert.KernelIdeal.main_arg3) = m ((c.tc : Thread Cert.KernelIdeal.nD Cert.KernelIdeal.τ).loc Cert.KernelIdeal.main_arg3) :=
  (W46_of m c Cert.KernelIdeal.main_arg3 (by decide)).trans (
    (W45_of m c Cert.KernelIdeal.main_arg3 (by decide)).trans (
    (W44_of m c Cert.KernelIdeal.main_arg3 (by decide)).trans (
    (W43_of m c Cert.KernelIdeal.main_arg3 (by decide)).trans (
    (W42_of m c Cert.KernelIdeal.main_arg3 (by decide)).trans (
    (W41_of m c Cert.KernelIdeal.main_arg3 (by decide)).trans (
    (W40_of m c Cert.KernelIdeal.main_arg3 (by decide)).trans (
    (W39_of m c Cert.KernelIdeal.main_arg3 (by decide)).trans (
    (W38_of m c Cert.KernelIdeal.main_arg3 (by decide)).trans (
    (W37_of m c Cert.KernelIdeal.main_arg3 (by decide)).trans (
    (W36_of m c Cert.KernelIdeal.main_arg3 (by decide)).trans (
    (W35_of m c Cert.KernelIdeal.main_arg3 (by decide)).trans (
    (W34_of m c Cert.KernelIdeal.main_arg3 (by decide)).trans (
    (W33_of m c Cert.KernelIdeal.main_arg3 (by decide)).trans (
    (W32_of m c Cert.KernelIdeal.main_arg3 (by decide)).trans (
    (W31_of m c Cert.KernelIdeal.main_arg3 (by decide)).trans (
    (W30_of m c Cert.KernelIdeal.main_arg3 (by decide)).trans (
    (W29_of m c Cert.KernelIdeal.main_arg3 (by decide)).trans (
    (W28_of m c Cert.KernelIdeal.main_arg3 (by decide)).trans (
    (W27_of m c Cert.KernelIdeal.main_arg3 (by decide)).trans (
    (W26_of m c Cert.KernelIdeal.main_arg3 (by decide)).trans (
    (W25_of m c Cert.KernelIdeal.main_arg3 (by decide)).trans (
    (W24_of m c Cert.KernelIdeal.main_arg3 (by decide)).trans (
    (W23_of m c Cert.KernelIdeal.main_arg3 (by decide)).trans (
    (W22_of m c Cert.KernelIdeal.main_arg3 (by decide)).trans (
    (W21_of m c Cert.KernelIdeal.main_arg3 (by decide)).trans (
    (W20_of m c Cert.KernelIdeal.main_arg3 (by decide)).trans (
    (W19_of m c Cert.KernelIdeal.main_arg3 (by decide)).trans (
    (W18_of m c Cert.KernelIdeal.main_arg3 (by decide)).trans (
    (W17_of m c Cert.KernelIdeal.main_arg3 (by decide)).trans (
    (W16_of m c Cert.KernelIdeal.main_arg3 (by decide)).trans (
    (W15_of m c Cert.KernelIdeal.main_arg3 (by decide)).trans (
    (W14_of m c Cert.KernelIdeal.main_arg3 (by decide)).trans (
    (W13_of m c Cert.KernelIdeal.main_arg3 (by decide)).trans (
    (W12_of m c Cert.KernelIdeal.main_arg3 (by decide)).trans (
    (W11_of m c Cert.KernelIdeal.main_arg3 (by decide)).trans (
    (W10_of m c Cert.KernelIdeal.main_arg3 (by decide)).trans (
    (W9_of m c Cert.KernelIdeal.main_arg3 (by decide)).trans (
    (W8_of m c Cert.KernelIdeal.main_arg3 (by decide)).trans (
    (W7_of m c Cert.KernelIdeal.main_arg3 (by decide)).trans (
    (W6_of m c Cert.KernelIdeal.main_arg3 (by decide)).trans (
    (W5_of m c Cert.KernelIdeal.main_arg3 (by decide)).trans (
    (W4_of m c Cert.KernelIdeal.main_arg3 (by decide)).trans (
    (W3_of m c Cert.KernelIdeal.main_arg3 (by decide)).trans (
    (W2_of m c Cert.KernelIdeal.main_arg3 (by decide)).trans (
    (W1_of m c Cert.KernelIdeal.main_arg3 (by decide)).trans (
    rfl))))))))))))))))))))))))))))))))))))))))))))))

/-- The reference's index vector main_arg3 is still the launch contents at reference boundary 3. -/
theorem ridx3_main_arg3 (c : Dev Cert.KernelIdeal.nD) :
    RW3 m' c (Proc.devRef .tc Cert.ReferenceIdeal.main_arg3) = m' ((c.tc : Thread Cert.ReferenceIdeal.nD Cert.ReferenceIdeal.τ).loc Cert.ReferenceIdeal.main_arg3) :=
  (RW3_of m' c Cert.ReferenceIdeal.main_arg3 (by decide)).trans (
    (RW2_of m' c Cert.ReferenceIdeal.main_arg3 (by decide)).trans (
    (RW1_of m' c Cert.ReferenceIdeal.main_arg3 (by decide)).trans (
    rfl)))

/-- The reference's index vector main_arg4 is still the launch contents at reference boundary 3. -/
theorem ridx3_main_arg4 (c : Dev Cert.KernelIdeal.nD) :
    RW3 m' c (Proc.devRef .tc Cert.ReferenceIdeal.main_arg4) = m' ((c.tc : Thread Cert.ReferenceIdeal.nD Cert.ReferenceIdeal.τ).loc Cert.ReferenceIdeal.main_arg4) :=
  (RW3_of m' c Cert.ReferenceIdeal.main_arg4 (by decide)).trans (
    (RW2_of m' c Cert.ReferenceIdeal.main_arg4 (by decide)).trans (
    (RW1_of m' c Cert.ReferenceIdeal.main_arg4 (by decide)).trans (
    rfl)))

/-! ## Each side at an index -/

/-- Kernel look-up 0 (hostOps16) at (e, q): the table main_v160, as it stood at boundary 44, at the row the index word names. -/
theorem ktake3_0 (hpre : Cert.Pre_KernelIdeal m) (c : Dev Cert.KernelIdeal.nD) (e : Fin 400000) (q : Fin 64) :
    (W45 m c (Proc.devRef .tc Cert.KernelIdeal.main_v168) : Mat 400000 64) (ix2 e q)
      = (W44 m c (Proc.devRef .tc Cert.KernelIdeal.main_v160) : Mat 50000 64)
          (ix2 (⟨(m ((c.tc : Thread Cert.KernelIdeal.nD Cert.KernelIdeal.τ).loc Cert.KernelIdeal.main_arg3) (ix1 e)).toInt.toNat,
            by have := Cert.PreFacts.src_inb m hpre c e; omega⟩ : Fin 50000) q) := by
  have hidx : ∀ i : Fin 400000, 0 ≤ (W44 m c (Proc.devRef .tc Cert.KernelIdeal.main_arg3) (ix1 i)).toInt
      ∧ (W44 m c (Proc.devRef .tc Cert.KernelIdeal.main_arg3) (ix1 i)).toInt < 50000 := fun i => by
    rw [kidx3_0 m c]; exact Cert.PreFacts.src_inb m hpre c i
  have htbl : W44 m c (Proc.devRef .tc Cert.KernelIdeal.main_v160) = W44 m c (Proc.devRef .tc Cert.KernelIdeal.main_v160) :=
    rfl
  refine (take_hostOps16 (W44 m c) hidx e q).trans ?_
  exact row_congrT3 htbl (kidx3_0 m c) e q _ _

/-- Reference look-up 0 (main_v316) at (e, q): the table main_v293 after the layer, at the row the index word names. -/
theorem rtake3_0 (c : Dev Cert.KernelIdeal.nD)
    (hidx : ∀ i : Fin 400000, 0 ≤ (m' ((c.tc : Thread Cert.ReferenceIdeal.nD Cert.ReferenceIdeal.τ).loc Cert.ReferenceIdeal.main_arg3) (ix1 i)).toInt
      ∧ (m' ((c.tc : Thread Cert.ReferenceIdeal.nD Cert.ReferenceIdeal.τ).loc Cert.ReferenceIdeal.main_arg3) (ix1 i)).toInt < 50000)
    (e : Fin 400000) (q : Fin 64) :
    (RW4 m' c (Proc.devRef .tc Cert.ReferenceIdeal.main_v316) : Mat 400000 64) (ix2 e q)
      = (RW4 m' c (Proc.devRef .tc Cert.ReferenceIdeal.main_v293) : Mat 50000 64)
          (ix2 (⟨(m' ((c.tc : Thread Cert.ReferenceIdeal.nD Cert.ReferenceIdeal.τ).loc Cert.ReferenceIdeal.main_arg3) (ix1 e)).toInt.toNat,
            by have := hidx e; omega⟩ : Fin 50000) q) := by
  unfold RW4
  rw [rd_main_v316, rd_main_v315, rd_main_v314, rd_main_v311, rd_main_v313, rd_main_v310, rd_main_v312, rd_main_c_37, rd_main_c_38,
    ridx3_main_arg3 m' c]
  exact gather_apply _ _ hidx e q

/-- Kernel look-up 1 (hostOps16_1) at (e, q): the table main_v161, as it stood at boundary 44, at the row the index word names. -/
theorem ktake3_1 (hpre : Cert.Pre_KernelIdeal m) (c : Dev Cert.KernelIdeal.nD) (e : Fin 400000) (q : Fin 64) :
    (W46 m c (Proc.devRef .tc Cert.KernelIdeal.main_v169) : Mat 400000 64) (ix2 e q)
      = (W44 m c (Proc.devRef .tc Cert.KernelIdeal.main_v161) : Mat 50000 64)
          (ix2 (⟨(m ((c.tc : Thread Cert.KernelIdeal.nD Cert.KernelIdeal.τ).loc Cert.KernelIdeal.main_arg4) (ix1 e)).toInt.toNat,
            by have := Cert.PreFacts.dst_inb m hpre c e; omega⟩ : Fin 50000) q) := by
  have hidx : ∀ i : Fin 400000, 0 ≤ (W45 m c (Proc.devRef .tc Cert.KernelIdeal.main_arg4) (ix1 i)).toInt
      ∧ (W45 m c (Proc.devRef .tc Cert.KernelIdeal.main_arg4) (ix1 i)).toInt < 50000 := fun i => by
    rw [kidx3_1 m c]; exact Cert.PreFacts.dst_inb m hpre c i
  have htbl : W45 m c (Proc.devRef .tc Cert.KernelIdeal.main_v161) = W44 m c (Proc.devRef .tc Cert.KernelIdeal.main_v161) :=
    (W45_of m c Cert.KernelIdeal.main_v161 (by decide)).trans (rfl)
  refine (take_hostOps16_1 (W45 m c) hidx e q).trans ?_
  exact row_congrT3 htbl (kidx3_1 m c) e q _ _

/-- Reference look-up 1 (main_v323) at (e, q): the table main_v301 after the layer, at the row the index word names. -/
theorem rtake3_1 (c : Dev Cert.KernelIdeal.nD)
    (hidx : ∀ i : Fin 400000, 0 ≤ (m' ((c.tc : Thread Cert.ReferenceIdeal.nD Cert.ReferenceIdeal.τ).loc Cert.ReferenceIdeal.main_arg4) (ix1 i)).toInt
      ∧ (m' ((c.tc : Thread Cert.ReferenceIdeal.nD Cert.ReferenceIdeal.τ).loc Cert.ReferenceIdeal.main_arg4) (ix1 i)).toInt < 50000)
    (e : Fin 400000) (q : Fin 64) :
    (RW4 m' c (Proc.devRef .tc Cert.ReferenceIdeal.main_v323) : Mat 400000 64) (ix2 e q)
      = (RW4 m' c (Proc.devRef .tc Cert.ReferenceIdeal.main_v301) : Mat 50000 64)
          (ix2 (⟨(m' ((c.tc : Thread Cert.ReferenceIdeal.nD Cert.ReferenceIdeal.τ).loc Cert.ReferenceIdeal.main_arg4) (ix1 e)).toInt.toNat,
            by have := hidx e; omega⟩ : Fin 50000) q) := by
  unfold RW4
  rw [rd_main_v323, rd_main_v322, rd_main_v321, rd_main_v318, rd_main_v320, rd_main_v317, rd_main_v319, rd_main_c_39, rd_main_c_40,
    ridx3_main_arg4 m' c]
  exact gather_apply _ _ hidx e q

/-- Kernel look-up 2 (hostOps16_2) at (e, q): the table main_v159, as it stood at boundary 44, at the row the index word names. -/
theorem ktake3_2 (hpre : Cert.Pre_KernelIdeal m) (c : Dev Cert.KernelIdeal.nD) (e : Fin 400000) (q : Fin 64) :
    (W47 m c (Proc.devRef .tc Cert.KernelIdeal.main_v170) : Mat 400000 64) (ix2 e q)
      = (W44 m c (Proc.devRef .tc Cert.KernelIdeal.main_v159) : Mat 50000 64)
          (ix2 (⟨(m ((c.tc : Thread Cert.KernelIdeal.nD Cert.KernelIdeal.τ).loc Cert.KernelIdeal.main_arg3) (ix1 e)).toInt.toNat,
            by have := Cert.PreFacts.src_inb m hpre c e; omega⟩ : Fin 50000) q) := by
  have hidx : ∀ i : Fin 400000, 0 ≤ (W46 m c (Proc.devRef .tc Cert.KernelIdeal.main_arg3) (ix1 i)).toInt
      ∧ (W46 m c (Proc.devRef .tc Cert.KernelIdeal.main_arg3) (ix1 i)).toInt < 50000 := fun i => by
    rw [kidx3_2 m c]; exact Cert.PreFacts.src_inb m hpre c i
  have htbl : W46 m c (Proc.devRef .tc Cert.KernelIdeal.main_v159) = W44 m c (Proc.devRef .tc Cert.KernelIdeal.main_v159) :=
    (W46_of m c Cert.KernelIdeal.main_v159 (by decide)).trans ((W45_of m c Cert.KernelIdeal.main_v159 (by decide)).trans (rfl))
  refine (take_hostOps16_2 (W46 m c) hidx e q).trans ?_
  exact row_congrT3 htbl (kidx3_2 m c) e q _ _

/-- Reference look-up 2 (main_v338) at (e, q): the table main_v285 after the layer, at the row the index word names. -/
theorem rtake3_2 (c : Dev Cert.KernelIdeal.nD)
    (hidx : ∀ i : Fin 400000, 0 ≤ (m' ((c.tc : Thread Cert.ReferenceIdeal.nD Cert.ReferenceIdeal.τ).loc Cert.ReferenceIdeal.main_arg3) (ix1 i)).toInt
      ∧ (m' ((c.tc : Thread Cert.ReferenceIdeal.nD Cert.ReferenceIdeal.τ).loc Cert.ReferenceIdeal.main_arg3) (ix1 i)).toInt < 50000)
    (e : Fin 400000) (q : Fin 64) :
    (RW4 m' c (Proc.devRef .tc Cert.ReferenceIdeal.main_v338) : Mat 400000 64) (ix2 e q)
      = (RW4 m' c (Proc.devRef .tc Cert.ReferenceIdeal.main_v285) : Mat 50000 64)
          (ix2 (⟨(m' ((c.tc : Thread Cert.ReferenceIdeal.nD Cert.ReferenceIdeal.τ).loc Cert.ReferenceIdeal.main_arg3) (ix1 e)).toInt.toNat,
            by have := hidx e; omega⟩ : Fin 50000) q) := by
  unfold RW4
  rw [rd_main_v338, rd_main_v337, rd_main_v336, rd_main_v333, rd_main_v335, rd_main_v332, rd_main_v334, rd_main_c_43, rd_main_c_44,
    ridx3_main_arg3 m' c]
  exact gather_apply _ _ hidx e q

/-! ## The pairing -/

/-- The three look-ups of layer 3 agree, given the tables they read agree. -/
theorem take_eq3 (hpre : Cert.Pre_KernelIdeal m) (hagree : ArgsAgreeT3 m m') (c : Dev Cert.KernelIdeal.nD)
    (hT0 : (T44 m c Cert.KernelIdeal.main_v160 : Mat 50000 64) = (RW4 m' c (Proc.devRef .tc Cert.ReferenceIdeal.main_v293) : Mat 50000 64))
    (hT1 : (T44 m c Cert.KernelIdeal.main_v161 : Mat 50000 64) = (RW4 m' c (Proc.devRef .tc Cert.ReferenceIdeal.main_v301) : Mat 50000 64))
    (hT2 : (T44 m c Cert.KernelIdeal.main_v159 : Mat 50000 64) = (RW4 m' c (Proc.devRef .tc Cert.ReferenceIdeal.main_v285) : Mat 50000 64)) :
    (T45 m c Cert.KernelIdeal.main_v168 : Mat 400000 64) = (RW4 m' c (Proc.devRef .tc Cert.ReferenceIdeal.main_v316) : Mat 400000 64)
    ∧ (T46 m c Cert.KernelIdeal.main_v169 : Mat 400000 64) = (RW4 m' c (Proc.devRef .tc Cert.ReferenceIdeal.main_v323) : Mat 400000 64)
    ∧ (T47 m c Cert.KernelIdeal.main_v170 : Mat 400000 64) = (RW4 m' c (Proc.devRef .tc Cert.ReferenceIdeal.main_v338) : Mat 400000 64) := by
  have ha3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) := (hagree c).2.2.2.1
  have ha4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) := (hagree c).2.2.2.2.1
  have hs : ∀ i : Fin 400000, 0 ≤ (m' ((c.tc : Thread Cert.ReferenceIdeal.nD Cert.ReferenceIdeal.τ).loc Cert.ReferenceIdeal.main_arg3) (ix1 i)).toInt
      ∧ (m' ((c.tc : Thread Cert.ReferenceIdeal.nD Cert.ReferenceIdeal.τ).loc Cert.ReferenceIdeal.main_arg3) (ix1 i)).toInt < 50000 := fun i => by
    rw [ha3]; exact Cert.PreFacts.src_inb m hpre c i
  have hd : ∀ i : Fin 400000, 0 ≤ (m' ((c.tc : Thread Cert.ReferenceIdeal.nD Cert.ReferenceIdeal.τ).loc Cert.ReferenceIdeal.main_arg4) (ix1 i)).toInt
      ∧ (m' ((c.tc : Thread Cert.ReferenceIdeal.nD Cert.ReferenceIdeal.τ).loc Cert.ReferenceIdeal.main_arg4) (ix1 i)).toInt < 50000 := fun i => by
    rw [ha4]; exact Cert.PreFacts.dst_inb m hpre c i
  refine ⟨?_, ?_, ?_⟩
  · funext j
    rw [eq_ix2 j]
    refine (ktake3_0 m hpre c (j 0) (j 1)).trans ((rtake3_0 m' c hs (j 0) (j 1)).trans ?_).symm
    exact row_congrT3 hT0.symm ha3 (j 0) (j 1) _ _
  · funext j
    rw [eq_ix2 j]
    refine (ktake3_1 m hpre c (j 0) (j 1)).trans ((rtake3_1 m' c hd (j 0) (j 1)).trans ?_).symm
    exact row_congrT3 hT1.symm ha4 (j 0) (j 1) _ _
  · funext j
    rw [eq_ix2 j]
    refine (ktake3_2 m hpre c (j 0) (j 1)).trans ((rtake3_2 m' c hs (j 0) (j 1)).trans ?_).symm
    exact row_congrT3 hT2.symm ha3 (j 0) (j 1) _ _

end Cert.Sim

end
-- ==== Proof.KI.Val16.lean ====
import proofs.«431450_j74423193305350_1_alg».proof.Proof.KI.Reg16
import proofs.«431450_j74423193305350_1_alg».proof.Proof.Spec
import Idealize.ShloMosaic.Lib.Pipeline.Value
import Idealize.ShloMosaic.Lib.ValueIdx
import Idealize.ShloMosaic.PureOps.Ideal.Laws

/-! Region 16 (the edge combine) at the extended reals: each of its three output arrays after the last grid point,
    read at an entry, is the gate's argument, the gate, and the gated message of the four input arrays at that entry.
    The body's operations are entrywise, every window moves by the same row block of 4000 rows, and the hundred
    blocks tile the 400000 rows. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeroOff16 : (![0, 0] : Fin 2 → Nat) = fun _ => 0 := funext fun a => by fin_cases a <;> rfl

/-- The gate's argument (a + b) + d, each array read at its own index. -/
abbrev gateArgAt16 (a b d : S400000x64.Idx → EReal) (i0 i1 i2 : S400000x64.Idx) : EReal := (a i0 + b i1) + d i2

/-- The gate: the logistic function of the gate's argument. -/
abbrev gateAt16 (a b d : S400000x64.Idx → EReal) (i0 i1 i2 : S400000x64.Idx) : EReal := Ideal.logistic (gateArgAt16 a b d i0 i1 i2)

/-- The gated message: the gate times the fourth array's entry. -/
abbrev gatedAt16 (a b d e : S400000x64.Idx → EReal) (i0 i1 i2 i3 : S400000x64.Idx) : EReal := gateAt16 a b d i0 i1 i2 * e i3

/-- The gate's argument of three edge arrays, entry by entry. -/
abbrev gateArgArr16 (a b d : S400000x64.Idx → EReal) : S400000x64.Idx → EReal := fun i => gateArgAt16 a b d i i i

/-- The gate of three edge arrays, entry by entry. -/
abbrev gateArr16 (a b d : S400000x64.Idx → EReal) : S400000x64.Idx → EReal := fun i => gateAt16 a b d i i i

/-- The gated message of four edge arrays, entry by entry. -/
abbrev gatedArr16 (a b d e : S400000x64.Idx → EReal) : S400000x64.Idx → EReal := fun i => gatedAt16 a b d e i i i i

/-- The first payload is the sum of its three blocks in the order (x0 + x1) + x2, entry by entry. -/
theorem pay16_1_eq (x0 x1 x2 : Vec Ideal S4000x64 .f32) : k16_pay1 x0 x1 x2 = fun i => (x0 i + x1 i) + x2 i := by
  unfold k16_pay1
  simp only [shapeCast_self]
  rfl

/-- The second payload is the logistic function of the first, entry by entry. -/
theorem pay16_2_eq (x0 x1 x2 : Vec Ideal S4000x64 .f32) : k16_pay2 x0 x1 x2 = fun i => Ideal.logistic ((x0 i + x1 i) + x2 i) := by
  unfold k16_pay2
  rw [pay16_1_eq]
  rfl

/-- The third payload is the second times the fourth block, entry by entry. -/
theorem pay16_3_eq (x0 x1 x2 x3 : Vec Ideal S4000x64 .f32) : k16_pay3 x0 x1 x2 x3 = fun i => Ideal.logistic ((x0 i + x1 i) + x2 i) * x3 i := by
  unfold k16_pay3
  rw [pay16_2_eq]
  simp only [shapeCast_self]
  rfl

/-- The printed index maps, decided over the grid: every window's block at point t is row block t, column block 0. -/
theorem idxFacts16 : ∀ t : Fin cfg16.N, win16_0.index t (0 : Fin 2) = t.val ∧ win16_0.index t (1 : Fin 2) = 0
    ∧ win16_1.index t (0 : Fin 2) = t.val ∧ win16_1.index t (1 : Fin 2) = 0
    ∧ win16_2.index t (0 : Fin 2) = t.val ∧ win16_2.index t (1 : Fin 2) = 0
    ∧ win16_3.index t (0 : Fin 2) = t.val ∧ win16_3.index t (1 : Fin 2) = 0
    ∧ win16_4.index t (0 : Fin 2) = t.val ∧ win16_4.index t (1 : Fin 2) = 0
    ∧ win16_5.index t (0 : Fin 2) = t.val ∧ win16_5.index t (1 : Fin 2) = 0
    ∧ win16_6.index t (0 : Fin 2) = t.val ∧ win16_6.index t (1 : Fin 2) = 0 :=
  (by decide +kernel : ∀ t : Fin grid16.N, _)

/-! Each window's block at point t sits where output window 4's does. -/

theorem embEq16_0 (t : Fin cfg16.N) (j : S4000x64.Idx) :
    ((cfg16.win 0).blk t).view.emb j = ((cfg16.win 4).blk t).view.emb j := by
  obtain ⟨a0, a1, b0, b1, d0, d1, e0, e1, f0, f1, g0, g1, h0, h1⟩ := idxFacts16 t
  funext a; apply Fin.ext
  match a with
  | ⟨0, _⟩ => show win16_0.index t (0 : Fin 2) * 4000 + 1 * (j 0).val = win16_4.index t (0 : Fin 2) * 4000 + 1 * (j 0).val; omega
  | ⟨1, _⟩ => show win16_0.index t (1 : Fin 2) * 64 + 1 * (j 1).val = win16_4.index t (1 : Fin 2) * 64 + 1 * (j 1).val; omega

theorem embEq16_1 (t : Fin cfg16.N) (j : S4000x64.Idx) :
    ((cfg16.win 1).blk t).view.emb j = ((cfg16.win 4).blk t).view.emb j := by
  obtain ⟨a0, a1, b0, b1, d0, d1, e0, e1, f0, f1, g0, g1, h0, h1⟩ := idxFacts16 t
  funext a; apply Fin.ext
  match a with
  | ⟨0, _⟩ => show win16_1.index t (0 : Fin 2) * 4000 + 1 * (j 0).val = win16_4.index t (0 : Fin 2) * 4000 + 1 * (j 0).val; omega
  | ⟨1, _⟩ => show win16_1.index t (1 : Fin 2) * 64 + 1 * (j 1).val = win16_4.index t (1 : Fin 2) * 64 + 1 * (j 1).val; omega

theorem embEq16_2 (t : Fin cfg16.N) (j : S4000x64.Idx) :
    ((cfg16.win 2).blk t).view.emb j = ((cfg16.win 4).blk t).view.emb j := by
  obtain ⟨a0, a1, b0, b1, d0, d1, e0, e1, f0, f1, g0, g1, h0, h1⟩ := idxFacts16 t
  funext a; apply Fin.ext
  match a with
  | ⟨0, _⟩ => show win16_2.index t (0 : Fin 2) * 4000 + 1 * (j 0).val = win16_4.index t (0 : Fin 2) * 4000 + 1 * (j 0).val; omega
  | ⟨1, _⟩ => show win16_2.index t (1 : Fin 2) * 64 + 1 * (j 1).val = win16_4.index t (1 : Fin 2) * 64 + 1 * (j 1).val; omega

theorem embEq16_3 (t : Fin cfg16.N) (j : S4000x64.Idx) :
    ((cfg16.win 3).blk t).view.emb j = ((cfg16.win 4).blk t).view.emb j := by
  obtain ⟨a0, a1, b0, b1, d0, d1, e0, e1, f0, f1, g0, g1, h0, h1⟩ := idxFacts16 t
  funext a; apply Fin.ext
  match a with
  | ⟨0, _⟩ => show win16_3.index t (0 : Fin 2) * 4000 + 1 * (j 0).val = win16_4.index t (0 : Fin 2) * 4000 + 1 * (j 0).val; omega
  | ⟨1, _⟩ => show win16_3.index t (1 : Fin 2) * 64 + 1 * (j 1).val = win16_4.index t (1 : Fin 2) * 64 + 1 * (j 1).val; omega

theorem embEq16_5 (t : Fin cfg16.N) (j : S4000x64.Idx) :
    ((cfg16.win 5).blk t).view.emb j = ((cfg16.win 4).blk t).view.emb j := by
  obtain ⟨a0, a1, b0, b1, d0, d1, e0, e1, f0, f1, g0, g1, h0, h1⟩ := idxFacts16 t
  funext a; apply Fin.ext
  match a with
  | ⟨0, _⟩ => show win16_5.index t (0 : Fin 2) * 4000 + 1 * (j 0).val = win16_4.index t (0 : Fin 2) * 4000 + 1 * (j 0).val; omega
  | ⟨1, _⟩ => show win16_5.index t (1 : Fin 2) * 64 + 1 * (j 1).val = win16_4.index t (1 : Fin 2) * 64 + 1 * (j 1).val; omega

theorem embEq16_6 (t : Fin cfg16.N) (j : S4000x64.Idx) :
    ((cfg16.win 6).blk t).view.emb j = ((cfg16.win 4).blk t).view.emb j := by
  obtain ⟨a0, a1, b0, b1, d0, d1, e0, e1, f0, f1, g0, g1, h0, h1⟩ := idxFacts16 t
  funext a; apply Fin.ext
  match a with
  | ⟨0, _⟩ => show win16_6.index t (0 : Fin 2) * 4000 + 1 * (j 0).val = win16_4.index t (0 : Fin 2) * 4000 + 1 * (j 0).val; omega
  | ⟨1, _⟩ => show win16_6.index t (1 : Fin 2) * 64 + 1 * (j 1).val = win16_4.index t (1 : Fin 2) * 64 + 1 * (j 1).val; omega

/-- What point t writes back to output 4 is block t of the gate's argument of the input arrays. -/
theorem flushed16_4_eq (c : Dev nD) (t : Fin cfg16.N) :
    (dat16 V c).flushed 4 t = ((cfg16.win 4).blk t).view.read (Elt Ideal) (gateArgArr16 (V c main_v168 : S400000x64.Idx → EReal) (V c main_v169 : S400000x64.Idx → EReal) (V c main_v167 : S400000x64.Idx → EReal)) := by
  show (cfg16.win 4).cut (grid16.coords t) ((dat16 V c).after 4 t) = _
  rw [after16_4]
  unfold out16_4
  rw [View.canon_unit_zero zeroOff16]
  simp only [View.ld_unit_zero (S := S4000x64) zeroOff16]
  rw [pay16_1_eq]
  funext j
  show gateArgAt16 (V c main_v168 : S400000x64.Idx → EReal) (V c main_v169 : S400000x64.Idx → EReal) (V c main_v167 : S400000x64.Idx → EReal) (((cfg16.win 0).blk t).view.emb j) (((cfg16.win 1).blk t).view.emb j) (((cfg16.win 2).blk t).view.emb j)
    = gateArgAt16 (V c main_v168 : S400000x64.Idx → EReal) (V c main_v169 : S400000x64.Idx → EReal) (V c main_v167 : S400000x64.Idx → EReal) (((cfg16.win 4).blk t).view.emb j) (((cfg16.win 4).blk t).view.emb j) (((cfg16.win 4).blk t).view.emb j)
  rw [embEq16_0 t j, embEq16_1 t j, embEq16_2 t j]

/-- What point t writes back to output 5 is block t of the gate of the input arrays. -/
theorem flushed16_5_eq (c : Dev nD) (t : Fin cfg16.N) :
    (dat16 V c).flushed 5 t = ((cfg16.win 5).blk t).view.read (Elt Ideal) (gateArr16 (V c main_v168 : S400000x64.Idx → EReal) (V c main_v169 : S400000x64.Idx → EReal) (V c main_v167 : S400000x64.Idx → EReal)) := by
  show (cfg16.win 5).cut (grid16.coords t) ((dat16 V c).after 5 t) = _
  rw [after16_5]
  unfold out16_5
  rw [View.canon_unit_zero zeroOff16]
  simp only [View.ld_unit_zero (S := S4000x64) zeroOff16]
  rw [pay16_2_eq]
  funext j
  show gateAt16 (V c main_v168 : S400000x64.Idx → EReal) (V c main_v169 : S400000x64.Idx → EReal) (V c main_v167 : S400000x64.Idx → EReal) (((cfg16.win 0).blk t).view.emb j) (((cfg16.win 1).blk t).view.emb j) (((cfg16.win 2).blk t).view.emb j)
    = gateAt16 (V c main_v168 : S400000x64.Idx → EReal) (V c main_v169 : S400000x64.Idx → EReal) (V c main_v167 : S400000x64.Idx → EReal) (((cfg16.win 5).blk t).view.emb j) (((cfg16.win 5).blk t).view.emb j) (((cfg16.win 5).blk t).view.emb j)
  rw [embEq16_0 t j, embEq16_1 t j, embEq16_2 t j, embEq16_5 t j]

/-- What point t writes back to output 6 is block t of the gated message of the input arrays. -/
theorem flushed16_6_eq (c : Dev nD) (t : Fin cfg16.N) :
    (dat16 V c).flushed 6 t = ((cfg16.win 6).blk t).view.read (Elt Ideal) (gatedArr16 (V c main_v168 : S400000x64.Idx → EReal) (V c main_v169 : S400000x64.Idx → EReal) (V c main_v167 : S400000x64.Idx → EReal) (V c main_v170 : S400000x64.Idx → EReal)) := by
  show (cfg16.win 6).cut (grid16.coords t) ((dat16 V c).after 6 t) = _
  rw [after16_6]
  unfold out16_6
  rw [View.canon_unit_zero zeroOff16]
  simp only [View.ld_unit_zero (S := S4000x64) zeroOff16]
  rw [pay16_3_eq]
  funext j
  show gatedAt16 (V c main_v168 : S400000x64.Idx → EReal) (V c main_v169 : S400000x64.Idx → EReal) (V c main_v167 : S400000x64.Idx → EReal) (V c main_v170 : S400000x64.Idx → EReal) (((cfg16.win 0).blk t).view.emb j) (((cfg16.win 1).blk t).view.emb j) (((cfg16.win 2).blk t).view.emb j) (((cfg16.win 3).blk t).view.emb j)
    = gatedAt16 (V c main_v168 : S400000x64.Idx → EReal) (V c main_v169 : S400000x64.Idx → EReal) (V c main_v167 : S400000x64.Idx → EReal) (V c main_v170 : S400000x64.Idx → EReal) (((cfg16.win 6).blk t).view.emb j) (((cfg16.win 6).blk t).view.emb j) (((cfg16.win 6).blk t).view.emb j) (((cfg16.win 6).blk t).view.emb j)
  rw [embEq16_0 t j, embEq16_1 t j, embEq16_2 t j, embEq16_3 t j, embEq16_6 t j]

/-- An index of output array 4 is in point t's block iff each coordinate is in the block's range on its axis. -/
theorem memBlk16_4 (t : Fin cfg16.N) (i : S400000x64.Idx) :
    i ∈ ((cfg16.win 4).blk t).view.set ↔ ∀ a : Fin 2, win16_4.index t a * S4000x64.size a ≤ (i a).val ∧ (i a).val < win16_4.index t a * S4000x64.size a + S4000x64.size a := by
  show i ∈ ((View.whole main_v171_0).slice (win16_4.rect t)).set ↔ _
  rw [View.set_slice_whole, Rect.mem_set_unit]
  exact Iff.rfl

/-- Every index of output array 4 is in the block of the point its row falls in: row r is in block r / 4000. -/
theorem covered16_4 (i : S400000x64.Idx) :
    ∃ t : Fin cfg16.N, (cfg16.win 4).flush t = true ∧ i ∈ ((cfg16.win 4).blk t).view.set := by
  have hi0 : (i 0).val < 400000 := (i 0).isLt
  have hi1 : (i 1).val < 64 := (i 1).isLt
  have hN : cfg16.N = 100 := N_16
  have hlt : (i 0).val / 4000 < cfg16.N := by rw [hN]; omega
  obtain ⟨t, ht⟩ : ∃ t : Fin cfg16.N, t.val = (i 0).val / 4000 := ⟨⟨_, hlt⟩, rfl⟩
  obtain ⟨a0, a1, b0, b1, d0, d1, e0, e1, f0, f1, g0, g1, h0, h1⟩ := idxFacts16 t
  refine ⟨t, flush16_4 t, ?_⟩
  rw [memBlk16_4]
  intro a
  match a with
  | ⟨0, _⟩ =>
    show win16_4.index t (0 : Fin 2) * 4000 ≤ (i 0).val ∧ (i 0).val < win16_4.index t (0 : Fin 2) * 4000 + 4000
    omega
  | ⟨1, _⟩ =>
    show win16_4.index t (1 : Fin 2) * 64 ≤ (i 1).val ∧ (i 1).val < win16_4.index t (1 : Fin 2) * 64 + 64
    omega

/-- An index of output array 5 is in point t's block iff each coordinate is in the block's range on its axis. -/
theorem memBlk16_5 (t : Fin cfg16.N) (i : S400000x64.Idx) :
    i ∈ ((cfg16.win 5).blk t).view.set ↔ ∀ a : Fin 2, win16_5.index t a * S4000x64.size a ≤ (i a).val ∧ (i a).val < win16_5.index t a * S4000x64.size a + S4000x64.size a := by
  show i ∈ ((View.whole main_v171_1).slice (win16_5.rect t)).set ↔ _
  rw [View.set_slice_whole, Rect.mem_set_unit]
  exact Iff.rfl

/-- Every index of output array 5 is in the block of the point its row falls in: row r is in block r / 4000. -/
theorem covered16_5 (i : S400000x64.Idx) :
    ∃ t : Fin cfg16.N, (cfg16.win 5).flush t = true ∧ i ∈ ((cfg16.win 5).blk t).view.set := by
  have hi0 : (i 0).val < 400000 := (i 0).isLt
  have hi1 : (i 1).val < 64 := (i 1).isLt
  have hN : cfg16.N = 100 := N_16
  have hlt : (i 0).val / 4000 < cfg16.N := by rw [hN]; omega
  obtain ⟨t, ht⟩ : ∃ t : Fin cfg16.N, t.val = (i 0).val / 4000 := ⟨⟨_, hlt⟩, rfl⟩
  obtain ⟨a0, a1, b0, b1, d0, d1, e0, e1, f0, f1, g0, g1, h0, h1⟩ := idxFacts16 t
  refine ⟨t, flush16_5 t, ?_⟩
  rw [memBlk16_5]
  intro a
  match a with
  | ⟨0, _⟩ =>
    show win16_5.index t (0 : Fin 2) * 4000 ≤ (i 0).val ∧ (i 0).val < win16_5.index t (0 : Fin 2) * 4000 + 4000
    omega
  | ⟨1, _⟩ =>
    show win16_5.index t (1 : Fin 2) * 64 ≤ (i 1).val ∧ (i 1).val < win16_5.index t (1 : Fin 2) * 64 + 64
    omega

/-- An index of output array 6 is in point t's block iff each coordinate is in the block's range on its axis. -/
theorem memBlk16_6 (t : Fin cfg16.N) (i : S400000x64.Idx) :
    i ∈ ((cfg16.win 6).blk t).view.set ↔ ∀ a : Fin 2, win16_6.index t a * S4000x64.size a ≤ (i a).val ∧ (i a).val < win16_6.index t a * S4000x64.size a + S4000x64.size a := by
  show i ∈ ((View.whole main_v171_2).slice (win16_6.rect t)).set ↔ _
  rw [View.set_slice_whole, Rect.mem_set_unit]
  exact Iff.rfl

/-- Every index of output array 6 is in the block of the point its row falls in: row r is in block r / 4000. -/
theorem covered16_6 (i : S400000x64.Idx) :
    ∃ t : Fin cfg16.N, (cfg16.win 6).flush t = true ∧ i ∈ ((cfg16.win 6).blk t).view.set := by
  have hi0 : (i 0).val < 400000 := (i 0).isLt
  have hi1 : (i 1).val < 64 := (i 1).isLt
  have hN : cfg16.N = 100 := N_16
  have hlt : (i 0).val / 4000 < cfg16.N := by rw [hN]; omega
  obtain ⟨t, ht⟩ : ∃ t : Fin cfg16.N, t.val = (i 0).val / 4000 := ⟨⟨_, hlt⟩, rfl⟩
  obtain ⟨a0, a1, b0, b1, d0, d1, e0, e1, f0, f1, g0, g1, h0, h1⟩ := idxFacts16 t
  refine ⟨t, flush16_6 t, ?_⟩
  rw [memBlk16_6]
  intro a
  match a with
  | ⟨0, _⟩ =>
    show win16_6.index t (0 : Fin 2) * 4000 ≤ (i 0).val ∧ (i 0).val < win16_6.index t (0 : Fin 2) * 4000 + 4000
    omega
  | ⟨1, _⟩ =>
    show win16_6.index t (1 : Fin 2) * 64 ≤ (i 1).val ∧ (i 1).val < win16_6.index t (1 : Fin 2) * 64 + 64
    omega

/-- Output array 4 after the last point is the gate's argument of the input arrays. -/
theorem final16_4 (c : Dev nD) : (dat16 V c).arrAt 4 cfg16.N = gateArgArr16 (V c main_v168 : S400000x64.Idx → EReal) (V c main_v169 : S400000x64.Idx → EReal) (V c main_v167 : S400000x64.Idx → EReal) :=
  (dat16 V c).arrAt_eq_of_cover 4 _ (fun t _ => flushed16_4_eq V c t) covered16_4

/-- Output array 5 after the last point is the gate of the input arrays. -/
theorem final16_5 (c : Dev nD) : (dat16 V c).arrAt 5 cfg16.N = gateArr16 (V c main_v168 : S400000x64.Idx → EReal) (V c main_v169 : S400000x64.Idx → EReal) (V c main_v167 : S400000x64.Idx → EReal) :=
  (dat16 V c).arrAt_eq_of_cover 5 _ (fun t _ => flushed16_5_eq V c t) covered16_5

/-- Output array 6 after the last point is the gated message of the input arrays. -/
theorem final16_6 (c : Dev nD) : (dat16 V c).arrAt 6 cfg16.N = gatedArr16 (V c main_v168 : S400000x64.Idx → EReal) (V c main_v169 : S400000x64.Idx → EReal) (V c main_v167 : S400000x64.Idx → EReal) (V c main_v170 : S400000x64.Idx → EReal) :=
  (dat16 V c).arrAt_eq_of_cover 6 _ (fun t _ => flushed16_6_eq V c t) covered16_6

theorem final16_4_apply (c : Dev nD) (r : Fin 400000) (j : Fin 64) :
    ((dat16 (F := Ideal) V c).arrAt 4 cfg16.N : S400000x64.Idx → EReal) (ix2 r j) = Spec.gateArg (V c main_v168 : S400000x64.Idx → EReal) (V c main_v169 : S400000x64.Idx → EReal) (V c main_v167 : S400000x64.Idx → EReal) r j := by
  rw [final16_4]; rfl

theorem final16_5_apply (c : Dev nD) (r : Fin 400000) (j : Fin 64) :
    ((dat16 (F := Ideal) V c).arrAt 5 cfg16.N : S400000x64.Idx → EReal) (ix2 r j) = Spec.gate (V c main_v168 : S400000x64.Idx → EReal) (V c main_v169 : S400000x64.Idx → EReal) (V c main_v167 : S400000x64.Idx → EReal) r j := by
  rw [final16_5]; rfl

theorem final16_6_apply (c : Dev nD) (r : Fin 400000) (j : Fin 64) :
    ((dat16 (F := Ideal) V c).arrAt 6 cfg16.N : S400000x64.Idx → EReal) (ix2 r j) = Spec.gated (V c main_v168 : S400000x64.Idx → EReal) (V c main_v169 : S400000x64.Idx → EReal) (V c main_v167 : S400000x64.Idx → EReal) (V c main_v170 : S400000x64.Idx → EReal) r j := by
  rw [final16_6]; rfl

end Cert.KernelIdeal.Hand

end
-- ==== Proof.KI.Val17.lean ====
import proofs.«431450_j74423193305350_1_alg».proof.Proof.KI.Reg17
import proofs.«431450_j74423193305350_1_alg».proof.Proof.Spec
import Idealize.ShloMosaic.Lib.Pipeline.Value
import Idealize.ShloMosaic.Lib.ValueIdx
import Idealize.ShloMosaic.PureOps.Ideal.Laws

/-! Region 17 (the node update) at the extended reals: its output array after the last grid point, read at an entry, is
    a + num / (den + eps) of the three input arrays at that entry, eps the body's constant word. The body's operations
    are entrywise, every window moves by the same row block of 5000 rows, and the ten blocks tile the 50000 rows. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeroOff17 : (![0, 0] : Fin 2 → Nat) = fun _ => 0 := funext fun a => by fin_cases a <;> rfl

/-- a + num / (den + eps), each array read at its own index. -/
abbrev nodeUpdAt17 (a num den : S50000x64.Idx → EReal) (i0 i1 i2 : S50000x64.Idx) : EReal := a i0 + Ideal.div (num i1) (den i2 + (Ideal.ofBits .f32 0x358637BD#32))

/-- a + num / (den + eps) of three node arrays, entry by entry. -/
abbrev nodeUpdArr17 (a num den : S50000x64.Idx → EReal) : S50000x64.Idx → EReal := fun i => nodeUpdAt17 a num den i i i

/-- The payload is x0 + x1 / (x2 + eps) of its blocks, entry by entry (the body loads den first, then a, then num). -/
theorem pay17_1_eq (x2 x0 x1 : Vec Ideal S5000x64 .f32) :
    k17_pay1 x2 x0 x1 = fun i => x0 i + Ideal.div (x1 i) (x2 i + (Ideal.ofBits .f32 0x358637BD#32)) := by
  unfold k17_pay1
  simp only [shapeCast_self]
  rfl

/-- The printed index maps, decided over the grid: every window's block at point t is row block t, column block 0. -/
theorem idxFacts17 : ∀ t : Fin cfg17.N, win17_0.index t (0 : Fin 2) = t.val ∧ win17_0.index t (1 : Fin 2) = 0
    ∧ win17_1.index t (0 : Fin 2) = t.val ∧ win17_1.index t (1 : Fin 2) = 0
    ∧ win17_2.index t (0 : Fin 2) = t.val ∧ win17_2.index t (1 : Fin 2) = 0
    ∧ win17_3.index t (0 : Fin 2) = t.val ∧ win17_3.index t (1 : Fin 2) = 0 :=
  (by decide +kernel : ∀ t : Fin grid17.N, _)

/-! Each input window's block at point t sits where the output window's does. -/

theorem embEq17_0 (t : Fin cfg17.N) (j : S5000x64.Idx) :
    ((cfg17.win 0).blk t).view.emb j = ((cfg17.win 3).blk t).view.emb j := by
  obtain ⟨a0, a1, b0, b1, d0, d1, e0, e1⟩ := idxFacts17 t
  funext a; apply Fin.ext
  match a with
  | ⟨0, _⟩ => show win17_0.index t (0 : Fin 2) * 5000 + 1 * (j 0).val = win17_3.index t (0 : Fin 2) * 5000 + 1 * (j 0).val; omega
  | ⟨1, _⟩ => show win17_0.index t (1 : Fin 2) * 64 + 1 * (j 1).val = win17_3.index t (1 : Fin 2) * 64 + 1 * (j 1).val; omega

theorem embEq17_1 (t : Fin cfg17.N) (j : S5000x64.Idx) :
    ((cfg17.win 1).blk t).view.emb j = ((cfg17.win 3).blk t).view.emb j := by
  obtain ⟨a0, a1, b0, b1, d0, d1, e0, e1⟩ := idxFacts17 t
  funext a; apply Fin.ext
  match a with
  | ⟨0, _⟩ => show win17_1.index t (0 : Fin 2) * 5000 + 1 * (j 0).val = win17_3.index t (0 : Fin 2) * 5000 + 1 * (j 0).val; omega
  | ⟨1, _⟩ => show win17_1.index t (1 : Fin 2) * 64 + 1 * (j 1).val = win17_3.index t (1 : Fin 2) * 64 + 1 * (j 1).val; omega

theorem embEq17_2 (t : Fin cfg17.N) (j : S5000x64.Idx) :
    ((cfg17.win 2).blk t).view.emb j = ((cfg17.win 3).blk t).view.emb j := by
  obtain ⟨a0, a1, b0, b1, d0, d1, e0, e1⟩ := idxFacts17 t
  funext a; apply Fin.ext
  match a with
  | ⟨0, _⟩ => show win17_2.index t (0 : Fin 2) * 5000 + 1 * (j 0).val = win17_3.index t (0 : Fin 2) * 5000 + 1 * (j 0).val; omega
  | ⟨1, _⟩ => show win17_2.index t (1 : Fin 2) * 64 + 1 * (j 1).val = win17_3.index t (1 : Fin 2) * 64 + 1 * (j 1).val; omega

/-- What point t writes back is block t of a + num / (den + eps) of the input arrays. -/
theorem flushed17_3_eq (c : Dev nD) (t : Fin cfg17.N) :
    (dat17 V c).flushed 3 t = ((cfg17.win 3).blk t).view.read (Elt Ideal) (nodeUpdArr17 (V c main_v158 : S50000x64.Idx → EReal) (V c main_v174 : S50000x64.Idx → EReal) (V c main_v177 : S50000x64.Idx → EReal)) := by
  show (cfg17.win 3).cut (grid17.coords t) ((dat17 V c).after 3 t) = _
  rw [after17_3]
  unfold out17_3
  rw [View.canon_unit_zero zeroOff17]
  simp only [View.ld_unit_zero (S := S5000x64) zeroOff17]
  rw [pay17_1_eq]
  funext j
  show nodeUpdAt17 (V c main_v158 : S50000x64.Idx → EReal) (V c main_v174 : S50000x64.Idx → EReal) (V c main_v177 : S50000x64.Idx → EReal) (((cfg17.win 0).blk t).view.emb j) (((cfg17.win 1).blk t).view.emb j) (((cfg17.win 2).blk t).view.emb j)
    = nodeUpdAt17 (V c main_v158 : S50000x64.Idx → EReal) (V c main_v174 : S50000x64.Idx → EReal) (V c main_v177 : S50000x64.Idx → EReal) (((cfg17.win 3).blk t).view.emb j) (((cfg17.win 3).blk t).view.emb j) (((cfg17.win 3).blk t).view.emb j)
  rw [embEq17_0 t j, embEq17_1 t j, embEq17_2 t j]

/-- An index of the output array is in point t's block iff each coordinate is in the block's range on its axis. -/
theorem memBlk17_3 (t : Fin cfg17.N) (i : S50000x64.Idx) :
    i ∈ ((cfg17.win 3).blk t).view.set ↔ ∀ a : Fin 2, win17_3.index t a * S5000x64.size a ≤ (i a).val ∧ (i a).val < win17_3.index t a * S5000x64.size a + S5000x64.size a := by
  show i ∈ ((View.whole main_v178).slice (win17_3.rect t)).set ↔ _
  rw [View.set_slice_whole, Rect.mem_set_unit]
  exact Iff.rfl

/-- Every index of the output array is in the block of the point its row falls in: row r is in block r / 5000. -/
theorem covered17_3 (i : S50000x64.Idx) :
    ∃ t : Fin cfg17.N, (cfg17.win 3).flush t = true ∧ i ∈ ((cfg17.win 3).blk t).view.set := by
  have hi0 : (i 0).val < 50000 := (i 0).isLt
  have hi1 : (i 1).val < 64 := (i 1).isLt
  have hN : cfg17.N = 10 := N_17
  have hlt : (i 0).val / 5000 < cfg17.N := by rw [hN]; omega
  obtain ⟨t, ht⟩ : ∃ t : Fin cfg17.N, t.val = (i 0).val / 5000 := ⟨⟨_, hlt⟩, rfl⟩
  obtain ⟨a0, a1, b0, b1, d0, d1, e0, e1⟩ := idxFacts17 t
  refine ⟨t, flush17_3 t, ?_⟩
  rw [memBlk17_3]
  intro a
  match a with
  | ⟨0, _⟩ =>
    show win17_3.index t (0 : Fin 2) * 5000 ≤ (i 0).val ∧ (i 0).val < win17_3.index t (0 : Fin 2) * 5000 + 5000
    omega
  | ⟨1, _⟩ =>
    show win17_3.index t (1 : Fin 2) * 64 ≤ (i 1).val ∧ (i 1).val < win17_3.index t (1 : Fin 2) * 64 + 64
    omega

/-- The output array after the last point is a + num / (den + eps) of the input arrays. -/
theorem final17_3 (c : Dev nD) : (dat17 V c).arrAt 3 cfg17.N = nodeUpdArr17 (V c main_v158 : S50000x64.Idx → EReal) (V c main_v174 : S50000x64.Idx → EReal) (V c main_v177 : S50000x64.Idx → EReal) :=
  (dat17 V c).arrAt_eq_of_cover 3 _ (fun t _ => flushed17_3_eq V c t) covered17_3

theorem final17_3_apply (c : Dev nD) (r : Fin 50000) (j : Fin 64) :
    ((dat17 (F := Ideal) V c).arrAt 3 cfg17.N : S50000x64.Idx → EReal) (ix2 r j) = Spec.nodeUpd (Ideal.ofBits .f32 0x358637BD#32) (V c main_v158 : S50000x64.Idx → EReal) (V c main_v174 : S50000x64.Idx → EReal) (V c main_v177 : S50000x64.Idx → EReal) r j := by
  rw [final17_3]; rfl

end Cert.KernelIdeal.Hand

end
-- ==== Proof.KI.Val18.lean ====
import proofs.«431450_j74423193305350_1_alg».proof.Proof.KI.Reg18
import proofs.«431450_j74423193305350_1_alg».proof.Proof.Spec
import Idealize.ShloMosaic.Lib.Pipeline.Value
import Idealize.ShloMosaic.Lib.ValueIdx
import Idealize.ShloMosaic.PureOps.Ideal.Laws

/-! Region 18 (batch normalisation, rectifier and residual on [50000,64]) at the extended reals: its output array after
    the last grid point, read at an entry, is res + max (((x − mean) · rsqrt (var + eps)) · g + b) 0 at that entry, the
    statistics and the affine pair read in their one row, eps and 0 the body's constant words. The two big windows move by
    the same row block of 5000 rows, the four one-row windows stay at their one block, and the 10 blocks tile the 50000 rows. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeroOff18 : (![0, 0] : Fin 2 → Nat) = fun _ => 0 := funext fun a => by fin_cases a <;> rfl

/-- res + max (((x − mean) · rsqrt (var + eps)) · g + b) 0, each array and each row read at its own index. -/
abbrev bnAt18 (x res : S50000x64.Idx → EReal) (mean var g b : S1x64.Idx → EReal) (i0 i1 : S50000x64.Idx) (k2 k3 k4 k5 : S1x64.Idx) : EReal :=
  res i1 + max ((((x i0 - mean k2) * Ideal.rsqrt (var k3 + (Ideal.ofBits .f32 0x3727C5AC#32))) * g k4) + b k5) (Ideal.ofBits .f32 0x00000000#32)

/-- The normalised residual step of two arrays and four rows, entry by entry. -/
abbrev bnArr18 (x res : S50000x64.Idx → EReal) (mean var g b : S1x64.Idx → EReal) : S50000x64.Idx → EReal := fun i =>
  bnAt18 x res mean var g b i i (ix2 0 (i 1)) (ix2 0 (i 1)) (ix2 0 (i 1)) (ix2 0 (i 1))

/-- A row broadcast down the block's rows, read at (p, q), is the row at (0, q). -/
theorem bcastRow18 (x : FVec Ideal S1x64 .f32) (p : Fin 5000) (q : Fin 64) :
    broadcastTo S5000x64 x broadcasts_S1x64_S5000x64 (ix2 p q) = x (ix2 0 q) :=
  broadcastTo_apply x broadcasts_S1x64_S5000x64 (ix2 p q) (ix2 0 q) (fun a => by
    match a with
    | ⟨0, _⟩ => rfl
    | ⟨1, _⟩ => rfl)

/-- The payload at (p, q): the body loads var first, then x, mean, g, b, res. -/
theorem pay18_apply (v0 : Vec Ideal S1x64 .f32) (v5 : Vec Ideal S5000x64 .f32) (v7 v13 v17 : Vec Ideal S1x64 .f32) (v21 : Vec Ideal S5000x64 .f32)
    (p : Fin 5000) (q : Fin 64) :
    k18_pay1 v0 v5 v7 v13 v17 v21 (ix2 p q)
      = v21 (ix2 p q) + max ((((v5 (ix2 p q) - v7 (ix2 0 q)) * Ideal.rsqrt (v0 (ix2 0 q) + (Ideal.ofBits .f32 0x3727C5AC#32))) * v13 (ix2 0 q)) + v17 (ix2 0 q)) (Ideal.ofBits .f32 0x00000000#32) := by
  unfold k18_pay1
  simp only [shapeCast_self]
  show v21 (ix2 p q) + max ((((v5 (ix2 p q) - broadcastTo S5000x64 v7 broadcasts_S1x64_S5000x64 (ix2 p q))
      * broadcastTo S5000x64 ((rsqrt (addf v0 (broadcast S1x64 (Scalar.ofBits .f32 0x3727C5AC#32))) : FVec Ideal S1x64 .f32)) broadcasts_S1x64_S5000x64 (ix2 p q))
      * broadcastTo S5000x64 v13 broadcasts_S1x64_S5000x64 (ix2 p q)) + broadcastTo S5000x64 v17 broadcasts_S1x64_S5000x64 (ix2 p q)) (Ideal.ofBits .f32 0x00000000#32) = _
  rw [bcastRow18 v7, bcastRow18 v13, bcastRow18 v17, bcastRow18 ((rsqrt (addf v0 (broadcast S1x64 (Scalar.ofBits .f32 0x3727C5AC#32))) : FVec Ideal S1x64 .f32))]
  rfl

/-- The printed index maps, decided over the grid: the two big inputs and the output are at row block t, column block 0; the
    four one-row windows at block (0, 0). -/
theorem idxFacts18 : ∀ t : Fin cfg18.N, win18_0.index t (0 : Fin 2) = t.val ∧ win18_0.index t (1 : Fin 2) = 0
    ∧ win18_1.index t (0 : Fin 2) = t.val ∧ win18_1.index t (1 : Fin 2) = 0
    ∧ win18_2.index t (0 : Fin 2) = 0 ∧ win18_2.index t (1 : Fin 2) = 0
    ∧ win18_3.index t (0 : Fin 2) = 0 ∧ win18_3.index t (1 : Fin 2) = 0
    ∧ win18_4.index t (0 : Fin 2) = 0 ∧ win18_4.index t (1 : Fin 2) = 0
    ∧ win18_5.index t (0 : Fin 2) = 0 ∧ win18_5.index t (1 : Fin 2) = 0
    ∧ win18_6.index t (0 : Fin 2) = t.val ∧ win18_6.index t (1 : Fin 2) = 0 :=
  (by decide +kernel : ∀ t : Fin grid18.N, _)

/-- Row p of block t is a row of the array. -/
theorem rowLt18 (t : Fin cfg18.N) (p : Fin 5000) : t.val * 5000 + p.val < 50000 := by
  have ht : t.val < 10 := Nat.lt_of_lt_of_eq t.isLt N_18
  have hp := p.isLt
  omega

/-! Entry (p, q) of a big window's block at point t is entry (5000 t + p, q) of its array; entry (0, q) of a one-row
    window's block is entry (0, q) of its array. -/

theorem embBig18_0 (t : Fin cfg18.N) (p : Fin 5000) (q : Fin 64) :
    ((cfg18.win 0).blk t).view.emb (ix2 p q : S5000x64.Idx) = (ix2 ⟨t.val * 5000 + p.val, rowLt18 t p⟩ q : S50000x64.Idx) := by
  obtain ⟨a0, a1, b0, b1, d0, d1, e0, e1, f0, f1, g0, g1, h0, h1⟩ := idxFacts18 t
  funext a; apply Fin.ext
  match a with
  | ⟨0, _⟩ => show win18_0.index t (0 : Fin 2) * 5000 + 1 * p.val = t.val * 5000 + p.val; omega
  | ⟨1, _⟩ => show win18_0.index t (1 : Fin 2) * 64 + 1 * q.val = q.val; omega

theorem embBig18_1 (t : Fin cfg18.N) (p : Fin 5000) (q : Fin 64) :
    ((cfg18.win 1).blk t).view.emb (ix2 p q : S5000x64.Idx) = (ix2 ⟨t.val * 5000 + p.val, rowLt18 t p⟩ q : S50000x64.Idx) := by
  obtain ⟨a0, a1, b0, b1, d0, d1, e0, e1, f0, f1, g0, g1, h0, h1⟩ := idxFacts18 t
  funext a; apply Fin.ext
  match a with
  | ⟨0, _⟩ => show win18_1.index t (0 : Fin 2) * 5000 + 1 * p.val = t.val * 5000 + p.val; omega
  | ⟨1, _⟩ => show win18_1.index t (1 : Fin 2) * 64 + 1 * q.val = q.val; omega

theorem embBig18_6 (t : Fin cfg18.N) (p : Fin 5000) (q : Fin 64) :
    ((cfg18.win 6).blk t).view.emb (ix2 p q : S5000x64.Idx) = (ix2 ⟨t.val * 5000 + p.val, rowLt18 t p⟩ q : S50000x64.Idx) := by
  obtain ⟨a0, a1, b0, b1, d0, d1, e0, e1, f0, f1, g0, g1, h0, h1⟩ := idxFacts18 t
  funext a; apply Fin.ext
  match a with
  | ⟨0, _⟩ => show win18_6.index t (0 : Fin 2) * 5000 + 1 * p.val = t.val * 5000 + p.val; omega
  | ⟨1, _⟩ => show win18_6.index t (1 : Fin 2) * 64 + 1 * q.val = q.val; omega

theorem embRow18_2 (t : Fin cfg18.N) (q : Fin 64) :
    ((cfg18.win 2).blk t).view.emb (ix2 0 q : S1x64.Idx) = (ix2 0 q : S1x64.Idx) := by
  obtain ⟨a0, a1, b0, b1, d0, d1, e0, e1, f0, f1, g0, g1, h0, h1⟩ := idxFacts18 t
  funext a; apply Fin.ext
  match a with
  | ⟨0, _⟩ => show win18_2.index t (0 : Fin 2) * 1 + 1 * 0 = 0; omega
  | ⟨1, _⟩ => show win18_2.index t (1 : Fin 2) * 64 + 1 * q.val = q.val; omega

theorem embRow18_3 (t : Fin cfg18.N) (q : Fin 64) :
    ((cfg18.win 3).blk t).view.emb (ix2 0 q : S1x64.Idx) = (ix2 0 q : S1x64.Idx) := by
  obtain ⟨a0, a1, b0, b1, d0, d1, e0, e1, f0, f1, g0, g1, h0, h1⟩ := idxFacts18 t
  funext a; apply Fin.ext
  match a with
  | ⟨0, _⟩ => show win18_3.index t (0 : Fin 2) * 1 + 1 * 0 = 0; omega
  | ⟨1, _⟩ => show win18_3.index t (1 : Fin 2) * 64 + 1 * q.val = q.val; omega

theorem embRow18_4 (t : Fin cfg18.N) (q : Fin 64) :
    ((cfg18.win 4).blk t).view.emb (ix2 0 q : S1x64.Idx) = (ix2 0 q : S1x64.Idx) := by
  obtain ⟨a0, a1, b0, b1, d0, d1, e0, e1, f0, f1, g0, g1, h0, h1⟩ := idxFacts18 t
  funext a; apply Fin.ext
  match a with
  | ⟨0, _⟩ => show win18_4.index t (0 : Fin 2) * 1 + 1 * 0 = 0; omega
  | ⟨1, _⟩ => show win18_4.index t (1 : Fin 2) * 64 + 1 * q.val = q.val; omega

theorem embRow18_5 (t : Fin cfg18.N) (q : Fin 64) :
    ((cfg18.win 5).blk t).view.emb (ix2 0 q : S1x64.Idx) = (ix2 0 q : S1x64.Idx) := by
  obtain ⟨a0, a1, b0, b1, d0, d1, e0, e1, f0, f1, g0, g1, h0, h1⟩ := idxFacts18 t
  funext a; apply Fin.ext
  match a with
  | ⟨0, _⟩ => show win18_5.index t (0 : Fin 2) * 1 + 1 * 0 = 0; omega
  | ⟨1, _⟩ => show win18_5.index t (1 : Fin 2) * 64 + 1 * q.val = q.val; omega

/-- The payload of the input blocks at point t, at (p, q), is the step's value at the array entry that (p, q) of block t is. -/
theorem blkVal18 (c : Dev nD) (t : Fin cfg18.N) (p : Fin 5000) (q : Fin 64) :
    k18_pay1 (iblk18 V c 3 t) (iblk18 V c 0 t) (iblk18 V c 2 t) (iblk18 V c 4 t) (iblk18 V c 5 t) (iblk18 V c 1 t) (ix2 p q)
      = bnArr18 (V c main_v178 : S50000x64.Idx → EReal) (V c main_v124 : S50000x64.Idx → EReal) (V c main_v187 : S1x64.Idx → EReal) (V c main_v188 : S1x64.Idx → EReal) (V c main_v189 : S1x64.Idx → EReal) (V c main_v190 : S1x64.Idx → EReal) (((cfg18.win 6).blk t).view.emb (ix2 p q : S5000x64.Idx)) := by
  refine (pay18_apply _ _ _ _ _ _ p q).trans ?_
  show bnAt18 (V c main_v178 : S50000x64.Idx → EReal) (V c main_v124 : S50000x64.Idx → EReal) (V c main_v187 : S1x64.Idx → EReal) (V c main_v188 : S1x64.Idx → EReal) (V c main_v189 : S1x64.Idx → EReal) (V c main_v190 : S1x64.Idx → EReal) (((cfg18.win 0).blk t).view.emb (ix2 p q : S5000x64.Idx)) (((cfg18.win 1).blk t).view.emb (ix2 p q : S5000x64.Idx)) (((cfg18.win 2).blk t).view.emb (ix2 0 q : S1x64.Idx)) (((cfg18.win 3).blk t).view.emb (ix2 0 q : S1x64.Idx)) (((cfg18.win 4).blk t).view.emb (ix2 0 q : S1x64.Idx)) (((cfg18.win 5).blk t).view.emb (ix2 0 q : S1x64.Idx)) = _
  rw [embBig18_0 t p q, embBig18_1 t p q, embBig18_6 t p q, embRow18_2 t q, embRow18_3 t q, embRow18_4 t q, embRow18_5 t q]

/-- What point t writes back is block t of the step's array. -/
theorem flushed18_6_eq (c : Dev nD) (t : Fin cfg18.N) :
    (dat18 V c).flushed 6 t = ((cfg18.win 6).blk t).view.read (Elt Ideal) (bnArr18 (V c main_v178 : S50000x64.Idx → EReal) (V c main_v124 : S50000x64.Idx → EReal) (V c main_v187 : S1x64.Idx → EReal) (V c main_v188 : S1x64.Idx → EReal) (V c main_v189 : S1x64.Idx → EReal) (V c main_v190 : S1x64.Idx → EReal)) := by
  show (cfg18.win 6).cut (grid18.coords t) ((dat18 V c).after 6 t) = _
  rw [after18_6]
  unfold out18_6
  rw [View.canon_unit_zero zeroOff18]
  simp only [View.ld_unit_zero (S := S5000x64) zeroOff18, View.ld_unit_zero (S := S1x64) zeroOff18]
  funext y
  obtain ⟨p, q, rfl⟩ : ∃ (p : Fin 5000) (q : Fin 64), y = (ix2 p q : S5000x64.Idx) := ⟨y 0, y 1, eq_ix2 y⟩
  exact blkVal18 V c t p q

/-- An index of the output array is in point t's block iff each coordinate is in the block's range on its axis. -/
theorem memBlk18_6 (t : Fin cfg18.N) (i : S50000x64.Idx) :
    i ∈ ((cfg18.win 6).blk t).view.set ↔ ∀ a : Fin 2, win18_6.index t a * S5000x64.size a ≤ (i a).val ∧ (i a).val < win18_6.index t a * S5000x64.size a + S5000x64.size a := by
  show i ∈ ((View.whole main_v191).slice (win18_6.rect t)).set ↔ _
  rw [View.set_slice_whole, Rect.mem_set_unit]
  exact Iff.rfl

/-- Every index of the output array is in the block of the point its row falls in: row r is in block r / 5000. -/
theorem covered18_6 (i : S50000x64.Idx) :
    ∃ t : Fin cfg18.N, (cfg18.win 6).flush t = true ∧ i ∈ ((cfg18.win 6).blk t).view.set := by
  have hi0 : (i 0).val < 50000 := (i 0).isLt
  have hi1 : (i 1).val < 64 := (i 1).isLt
  have hN : cfg18.N = 10 := N_18
  have hlt : (i 0).val / 5000 < cfg18.N := by rw [hN]; omega
  obtain ⟨t, ht⟩ : ∃ t : Fin cfg18.N, t.val = (i 0).val / 5000 := ⟨⟨_, hlt⟩, rfl⟩
  obtain ⟨a0, a1, b0, b1, d0, d1, e0, e1, f0, f1, g0, g1, h0, h1⟩ := idxFacts18 t
  refine ⟨t, flush18_6 t, ?_⟩
  rw [memBlk18_6]
  intro a
  match a with
  | ⟨0, _⟩ =>
    show win18_6.index t (0 : Fin 2) * 5000 ≤ (i 0).val ∧ (i 0).val < win18_6.index t (0 : Fin 2) * 5000 + 5000
    omega
  | ⟨1, _⟩ =>
    show win18_6.index t (1 : Fin 2) * 64 ≤ (i 1).val ∧ (i 1).val < win18_6.index t (1 : Fin 2) * 64 + 64
    omega

/-- The output array after the last point is the step's array. -/
theorem final18_6 (c : Dev nD) : (dat18 V c).arrAt 6 cfg18.N = bnArr18 (V c main_v178 : S50000x64.Idx → EReal) (V c main_v124 : S50000x64.Idx → EReal) (V c main_v187 : S1x64.Idx → EReal) (V c main_v188 : S1x64.Idx → EReal) (V c main_v189 : S1x64.Idx → EReal) (V c main_v190 : S1x64.Idx → EReal) :=
  (dat18 V c).arrAt_eq_of_cover 6 _ (fun t _ => flushed18_6_eq V c t) covered18_6

theorem final18_6_apply (c : Dev nD) (r : Fin 50000) (j : Fin 64) :
    ((dat18 (F := Ideal) V c).arrAt 6 cfg18.N : S50000x64.Idx → EReal) (ix2 r j)
      = Spec.bnRelu (Ideal.ofBits .f32 0x3727C5AC#32) (Ideal.ofBits .f32 0x00000000#32) (V c main_v178 : S50000x64.Idx → EReal) (V c main_v124 : S50000x64.Idx → EReal) (V c main_v187 : S1x64.Idx → EReal) (V c main_v188 : S1x64.Idx → EReal) (V c main_v189 : S1x64.Idx → EReal) (V c main_v190 : S1x64.Idx → EReal) r j := by
  rw [final18_6]; rfl

end Cert.KernelIdeal.Hand

end
-- ==== Proof.KI.Val19.lean ====
import proofs.«431450_j74423193305350_1_alg».proof.Proof.KI.Reg19
import proofs.«431450_j74423193305350_1_alg».proof.Proof.Spec
import Idealize.ShloMosaic.Lib.Pipeline.Value
import Idealize.ShloMosaic.Lib.ValueIdx
import Idealize.ShloMosaic.PureOps.Ideal.Laws

/-! Region 19 (batch normalisation, rectifier and residual on [400000,64]) at the extended reals: its output array after
    the last grid point, read at an entry, is res + max (((x − mean) · rsqrt (var + eps)) · g + b) 0 at that entry, the
    statistics and the affine pair read in their one row, eps and 0 the body's constant words. The two big windows move by
    the same row block of 4000 rows, the four one-row windows stay at their one block, and the 100 blocks tile the 400000 rows. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeroOff19 : (![0, 0] : Fin 2 → Nat) = fun _ => 0 := funext fun a => by fin_cases a <;> rfl

/-- res + max (((x − mean) · rsqrt (var + eps)) · g + b) 0, each array and each row read at its own index. -/
abbrev bnAt19 (x res : S400000x64.Idx → EReal) (mean var g b : S1x64.Idx → EReal) (i0 i1 : S400000x64.Idx) (k2 k3 k4 k5 : S1x64.Idx) : EReal :=
  res i1 + max ((((x i0 - mean k2) * Ideal.rsqrt (var k3 + (Ideal.ofBits .f32 0x3727C5AC#32))) * g k4) + b k5) (Ideal.ofBits .f32 0x00000000#32)

/-- The normalised residual step of two arrays and four rows, entry by entry. -/
abbrev bnArr19 (x res : S400000x64.Idx → EReal) (mean var g b : S1x64.Idx → EReal) : S400000x64.Idx → EReal := fun i =>
  bnAt19 x res mean var g b i i (ix2 0 (i 1)) (ix2 0 (i 1)) (ix2 0 (i 1)) (ix2 0 (i 1))

/-- A row broadcast down the block's rows, read at (p, q), is the row at (0, q). -/
theorem bcastRow19 (x : FVec Ideal S1x64 .f32) (p : Fin 4000) (q : Fin 64) :
    broadcastTo S4000x64 x broadcasts_S1x64_S4000x64 (ix2 p q) = x (ix2 0 q) :=
  broadcastTo_apply x broadcasts_S1x64_S4000x64 (ix2 p q) (ix2 0 q) (fun a => by
    match a with
    | ⟨0, _⟩ => rfl
    | ⟨1, _⟩ => rfl)

/-- The payload at (p, q): the body loads var first, then x, mean, g, b, res. -/
theorem pay19_apply (v0 : Vec Ideal S1x64 .f32) (v5 : Vec Ideal S4000x64 .f32) (v7 v13 v17 : Vec Ideal S1x64 .f32) (v21 : Vec Ideal S4000x64 .f32)
    (p : Fin 4000) (q : Fin 64) :
    k19_pay1 v0 v5 v7 v13 v17 v21 (ix2 p q)
      = v21 (ix2 p q) + max ((((v5 (ix2 p q) - v7 (ix2 0 q)) * Ideal.rsqrt (v0 (ix2 0 q) + (Ideal.ofBits .f32 0x3727C5AC#32))) * v13 (ix2 0 q)) + v17 (ix2 0 q)) (Ideal.ofBits .f32 0x00000000#32) := by
  unfold k19_pay1
  simp only [shapeCast_self]
  show v21 (ix2 p q) + max ((((v5 (ix2 p q) - broadcastTo S4000x64 v7 broadcasts_S1x64_S4000x64 (ix2 p q))
      * broadcastTo S4000x64 ((rsqrt (addf v0 (broadcast S1x64 (Scalar.ofBits .f32 0x3727C5AC#32))) : FVec Ideal S1x64 .f32)) broadcasts_S1x64_S4000x64 (ix2 p q))
      * broadcastTo S4000x64 v13 broadcasts_S1x64_S4000x64 (ix2 p q)) + broadcastTo S4000x64 v17 broadcasts_S1x64_S4000x64 (ix2 p q)) (Ideal.ofBits .f32 0x00000000#32) = _
  rw [bcastRow19 v7, bcastRow19 v13, bcastRow19 v17, bcastRow19 ((rsqrt (addf v0 (broadcast S1x64 (Scalar.ofBits .f32 0x3727C5AC#32))) : FVec Ideal S1x64 .f32))]
  rfl

/-- The printed index maps, decided over the grid: the two big inputs and the output are at row block t, column block 0; the
    four one-row windows at block (0, 0). -/
theorem idxFacts19 : ∀ t : Fin cfg19.N, win19_0.index t (0 : Fin 2) = t.val ∧ win19_0.index t (1 : Fin 2) = 0
    ∧ win19_1.index t (0 : Fin 2) = t.val ∧ win19_1.index t (1 : Fin 2) = 0
    ∧ win19_2.index t (0 : Fin 2) = 0 ∧ win19_2.index t (1 : Fin 2) = 0
    ∧ win19_3.index t (0 : Fin 2) = 0 ∧ win19_3.index t (1 : Fin 2) = 0
    ∧ win19_4.index t (0 : Fin 2) = 0 ∧ win19_4.index t (1 : Fin 2) = 0
    ∧ win19_5.index t (0 : Fin 2) = 0 ∧ win19_5.index t (1 : Fin 2) = 0
    ∧ win19_6.index t (0 : Fin 2) = t.val ∧ win19_6.index t (1 : Fin 2) = 0 :=
  (by decide +kernel : ∀ t : Fin grid19.N, _)

/-- Row p of block t is a row of the array. -/
theorem rowLt19 (t : Fin cfg19.N) (p : Fin 4000) : t.val * 4000 + p.val < 400000 := by
  have ht : t.val < 100 := Nat.lt_of_lt_of_eq t.isLt N_19
  have hp := p.isLt
  omega

/-! Entry (p, q) of a big window's block at point t is entry (4000 t + p, q) of its array; entry (0, q) of a one-row
    window's block is entry (0, q) of its array. -/

theorem embBig19_0 (t : Fin cfg19.N) (p : Fin 4000) (q : Fin 64) :
    ((cfg19.win 0).blk t).view.emb (ix2 p q : S4000x64.Idx) = (ix2 ⟨t.val * 4000 + p.val, rowLt19 t p⟩ q : S400000x64.Idx) := by
  obtain ⟨a0, a1, b0, b1, d0, d1, e0, e1, f0, f1, g0, g1, h0, h1⟩ := idxFacts19 t
  funext a; apply Fin.ext
  match a with
  | ⟨0, _⟩ => show win19_0.index t (0 : Fin 2) * 4000 + 1 * p.val = t.val * 4000 + p.val; omega
  | ⟨1, _⟩ => show win19_0.index t (1 : Fin 2) * 64 + 1 * q.val = q.val; omega

theorem embBig19_1 (t : Fin cfg19.N) (p : Fin 4000) (q : Fin 64) :
    ((cfg19.win 1).blk t).view.emb (ix2 p q : S4000x64.Idx) = (ix2 ⟨t.val * 4000 + p.val, rowLt19 t p⟩ q : S400000x64.Idx) := by
  obtain ⟨a0, a1, b0, b1, d0, d1, e0, e1, f0, f1, g0, g1, h0, h1⟩ := idxFacts19 t
  funext a; apply Fin.ext
  match a with
  | ⟨0, _⟩ => show win19_1.index t (0 : Fin 2) * 4000 + 1 * p.val = t.val * 4000 + p.val; omega
  | ⟨1, _⟩ => show win19_1.index t (1 : Fin 2) * 64 + 1 * q.val = q.val; omega

theorem embBig19_6 (t : Fin cfg19.N) (p : Fin 4000) (q : Fin 64) :
    ((cfg19.win 6).blk t).view.emb (ix2 p q : S4000x64.Idx) = (ix2 ⟨t.val * 4000 + p.val, rowLt19 t p⟩ q : S400000x64.Idx) := by
  obtain ⟨a0, a1, b0, b1, d0, d1, e0, e1, f0, f1, g0, g1, h0, h1⟩ := idxFacts19 t
  funext a; apply Fin.ext
  match a with
  | ⟨0, _⟩ => show win19_6.index t (0 : Fin 2) * 4000 + 1 * p.val = t.val * 4000 + p.val; omega
  | ⟨1, _⟩ => show win19_6.index t (1 : Fin 2) * 64 + 1 * q.val = q.val; omega

theorem embRow19_2 (t : Fin cfg19.N) (q : Fin 64) :
    ((cfg19.win 2).blk t).view.emb (ix2 0 q : S1x64.Idx) = (ix2 0 q : S1x64.Idx) := by
  obtain ⟨a0, a1, b0, b1, d0, d1, e0, e1, f0, f1, g0, g1, h0, h1⟩ := idxFacts19 t
  funext a; apply Fin.ext
  match a with
  | ⟨0, _⟩ => show win19_2.index t (0 : Fin 2) * 1 + 1 * 0 = 0; omega
  | ⟨1, _⟩ => show win19_2.index t (1 : Fin 2) * 64 + 1 * q.val = q.val; omega

theorem embRow19_3 (t : Fin cfg19.N) (q : Fin 64) :
    ((cfg19.win 3).blk t).view.emb (ix2 0 q : S1x64.Idx) = (ix2 0 q : S1x64.Idx) := by
  obtain ⟨a0, a1, b0, b1, d0, d1, e0, e1, f0, f1, g0, g1, h0, h1⟩ := idxFacts19 t
  funext a; apply Fin.ext
  match a with
  | ⟨0, _⟩ => show win19_3.index t (0 : Fin 2) * 1 + 1 * 0 = 0; omega
  | ⟨1, _⟩ => show win19_3.index t (1 : Fin 2) * 64 + 1 * q.val = q.val; omega

theorem embRow19_4 (t : Fin cfg19.N) (q : Fin 64) :
    ((cfg19.win 4).blk t).view.emb (ix2 0 q : S1x64.Idx) = (ix2 0 q : S1x64.Idx) := by
  obtain ⟨a0, a1, b0, b1, d0, d1, e0, e1, f0, f1, g0, g1, h0, h1⟩ := idxFacts19 t
  funext a; apply Fin.ext
  match a with
  | ⟨0, _⟩ => show win19_4.index t (0 : Fin 2) * 1 + 1 * 0 = 0; omega
  | ⟨1, _⟩ => show win19_4.index t (1 : Fin 2) * 64 + 1 * q.val = q.val; omega

theorem embRow19_5 (t : Fin cfg19.N) (q : Fin 64) :
    ((cfg19.win 5).blk t).view.emb (ix2 0 q : S1x64.Idx) = (ix2 0 q : S1x64.Idx) := by
  obtain ⟨a0, a1, b0, b1, d0, d1, e0, e1, f0, f1, g0, g1, h0, h1⟩ := idxFacts19 t
  funext a; apply Fin.ext
  match a with
  | ⟨0, _⟩ => show win19_5.index t (0 : Fin 2) * 1 + 1 * 0 = 0; omega
  | ⟨1, _⟩ => show win19_5.index t (1 : Fin 2) * 64 + 1 * q.val = q.val; omega

/-- The payload of the input blocks at point t, at (p, q), is the step's value at the array entry that (p, q) of block t is. -/
theorem blkVal19 (c : Dev nD) (t : Fin cfg19.N) (p : Fin 4000) (q : Fin 64) :
    k19_pay1 (iblk19 V c 3 t) (iblk19 V c 0 t) (iblk19 V c 2 t) (iblk19 V c 4 t) (iblk19 V c 5 t) (iblk19 V c 1 t) (ix2 p q)
      = bnArr19 (V c main_v171_0 : S400000x64.Idx → EReal) (V c main_v137 : S400000x64.Idx → EReal) (V c main_v200 : S1x64.Idx → EReal) (V c main_v201 : S1x64.Idx → EReal) (V c main_v202 : S1x64.Idx → EReal) (V c main_v203 : S1x64.Idx → EReal) (((cfg19.win 6).blk t).view.emb (ix2 p q : S4000x64.Idx)) := by
  refine (pay19_apply _ _ _ _ _ _ p q).trans ?_
  show bnAt19 (V c main_v171_0 : S400000x64.Idx → EReal) (V c main_v137 : S400000x64.Idx → EReal) (V c main_v200 : S1x64.Idx → EReal) (V c main_v201 : S1x64.Idx → EReal) (V c main_v202 : S1x64.Idx → EReal) (V c main_v203 : S1x64.Idx → EReal) (((cfg19.win 0).blk t).view.emb (ix2 p q : S4000x64.Idx)) (((cfg19.win 1).blk t).view.emb (ix2 p q : S4000x64.Idx)) (((cfg19.win 2).blk t).view.emb (ix2 0 q : S1x64.Idx)) (((cfg19.win 3).blk t).view.emb (ix2 0 q : S1x64.Idx)) (((cfg19.win 4).blk t).view.emb (ix2 0 q : S1x64.Idx)) (((cfg19.win 5).blk t).view.emb (ix2 0 q : S1x64.Idx)) = _
  rw [embBig19_0 t p q, embBig19_1 t p q, embBig19_6 t p q, embRow19_2 t q, embRow19_3 t q, embRow19_4 t q, embRow19_5 t q]

/-- What point t writes back is block t of the step's array. -/
theorem flushed19_6_eq (c : Dev nD) (t : Fin cfg19.N) :
    (dat19 V c).flushed 6 t = ((cfg19.win 6).blk t).view.read (Elt Ideal) (bnArr19 (V c main_v171_0 : S400000x64.Idx → EReal) (V c main_v137 : S400000x64.Idx → EReal) (V c main_v200 : S1x64.Idx → EReal) (V c main_v201 : S1x64.Idx → EReal) (V c main_v202 : S1x64.Idx → EReal) (V c main_v203 : S1x64.Idx → EReal)) := by
  show (cfg19.win 6).cut (grid19.coords t) ((dat19 V c).after 6 t) = _
  rw [after19_6]
  unfold out19_6
  rw [View.canon_unit_zero zeroOff19]
  simp only [View.ld_unit_zero (S := S4000x64) zeroOff19, View.ld_unit_zero (S := S1x64) zeroOff19]
  funext y
  obtain ⟨p, q, rfl⟩ : ∃ (p : Fin 4000) (q : Fin 64), y = (ix2 p q : S4000x64.Idx) := ⟨y 0, y 1, eq_ix2 y⟩
  exact blkVal19 V c t p q

/-- An index of the output array is in point t's block iff each coordinate is in the block's range on its axis. -/
theorem memBlk19_6 (t : Fin cfg19.N) (i : S400000x64.Idx) :
    i ∈ ((cfg19.win 6).blk t).view.set ↔ ∀ a : Fin 2, win19_6.index t a * S4000x64.size a ≤ (i a).val ∧ (i a).val < win19_6.index t a * S4000x64.size a + S4000x64.size a := by
  show i ∈ ((View.whole main_v204).slice (win19_6.rect t)).set ↔ _
  rw [View.set_slice_whole, Rect.mem_set_unit]
  exact Iff.rfl

/-- Every index of the output array is in the block of the point its row falls in: row r is in block r / 4000. -/
theorem covered19_6 (i : S400000x64.Idx) :
    ∃ t : Fin cfg19.N, (cfg19.win 6).flush t = true ∧ i ∈ ((cfg19.win 6).blk t).view.set := by
  have hi0 : (i 0).val < 400000 := (i 0).isLt
  have hi1 : (i 1).val < 64 := (i 1).isLt
  have hN : cfg19.N = 100 := N_19
  have hlt : (i 0).val / 4000 < cfg19.N := by rw [hN]; omega
  obtain ⟨t, ht⟩ : ∃ t : Fin cfg19.N, t.val = (i 0).val / 4000 := ⟨⟨_, hlt⟩, rfl⟩
  obtain ⟨a0, a1, b0, b1, d0, d1, e0, e1, f0, f1, g0, g1, h0, h1⟩ := idxFacts19 t
  refine ⟨t, flush19_6 t, ?_⟩
  rw [memBlk19_6]
  intro a
  match a with
  | ⟨0, _⟩ =>
    show win19_6.index t (0 : Fin 2) * 4000 ≤ (i 0).val ∧ (i 0).val < win19_6.index t (0 : Fin 2) * 4000 + 4000
    omega
  | ⟨1, _⟩ =>
    show win19_6.index t (1 : Fin 2) * 64 ≤ (i 1).val ∧ (i 1).val < win19_6.index t (1 : Fin 2) * 64 + 64
    omega

/-- The output array after the last point is the step's array. -/
theorem final19_6 (c : Dev nD) : (dat19 V c).arrAt 6 cfg19.N = bnArr19 (V c main_v171_0 : S400000x64.Idx → EReal) (V c main_v137 : S400000x64.Idx → EReal) (V c main_v200 : S1x64.Idx → EReal) (V c main_v201 : S1x64.Idx → EReal) (V c main_v202 : S1x64.Idx → EReal) (V c main_v203 : S1x64.Idx → EReal) :=
  (dat19 V c).arrAt_eq_of_cover 6 _ (fun t _ => flushed19_6_eq V c t) covered19_6

theorem final19_6_apply (c : Dev nD) (r : Fin 400000) (j : Fin 64) :
    ((dat19 (F := Ideal) V c).arrAt 6 cfg19.N : S400000x64.Idx → EReal) (ix2 r j)
      = Spec.bnRelu (Ideal.ofBits .f32 0x3727C5AC#32) (Ideal.ofBits .f32 0x00000000#32) (V c main_v171_0 : S400000x64.Idx → EReal) (V c main_v137 : S400000x64.Idx → EReal) (V c main_v200 : S1x64.Idx → EReal) (V c main_v201 : S1x64.Idx → EReal) (V c main_v202 : S1x64.Idx → EReal) (V c main_v203 : S1x64.Idx → EReal) r j := by
  rw [final19_6]; rfl

end Cert.KernelIdeal.Hand

end
-- ==== Proof.Sim.Elem3.lean ====
import proofs.«431450_j74423193305350_1_alg».proof.Proof.KI.Seg16
import proofs.«431450_j74423193305350_1_alg».proof.Proof.KI.Seg17
import proofs.«431450_j74423193305350_1_alg».proof.Proof.KI.Seg18
import proofs.«431450_j74423193305350_1_alg».proof.Proof.KI.Seg19
import proofs.«431450_j74423193305350_1_alg».proof.Proof.KI.Val16
import proofs.«431450_j74423193305350_1_alg».proof.Proof.KI.Val17
import proofs.«431450_j74423193305350_1_alg».proof.Proof.KI.Val18
import proofs.«431450_j74423193305350_1_alg».proof.Proof.KI.Val19
import proofs.«431450_j74423193305350_1_alg».proof.Proof.Ref.RdL3
import proofs.«431450_j74423193305350_1_alg».proof.Proof.Ref.Form2
import proofs.«431450_j74423193305350_1_alg».proof.Proof.Spec

/-! Layer 3's entrywise steps, kernel against reference: the edge gate (its argument, the gate, the gated message), the
    node update, and the two normalised residual steps. Each side's array is read at an entry as the layer formula of
    the arrays it is computed from; equal inputs then give equal outputs. -/
set_option maxRecDepth 16384

noncomputable section

namespace Cert.Sim

open Cert.KernelIdeal.Hand Cert.ReferenceIdeal.Hand
open Idealize.ShloMosaic Idealize.ShloMosaic.ValueIdx Idealize.ShloMosaic.StableHlo
open Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-! ## The formulas respect equality of their arrays -/

/-- The normalised residual step of equal arrays, the statistics and the affine pair equal row entry by row entry. -/
theorem bnRelu_congr3 {n k : Nat} (eps zero : EReal) {x x' res res' : Spec.Mat n k} {mean mean' var var' g g' b b' : Spec.Mat 1 k}
    (hx : x = x') (hres : res = res') (hmean : ∀ j : Fin k, mean (ix2 0 j) = mean' (ix2 0 j))
    (hvar : ∀ j : Fin k, var (ix2 0 j) = var' (ix2 0 j)) (hg : ∀ j : Fin k, g (ix2 0 j) = g' (ix2 0 j))
    (hb : ∀ j : Fin k, b (ix2 0 j) = b' (ix2 0 j)) (r : Fin n) (j : Fin k) :
    Spec.bnRelu eps zero x res mean var g b r j = Spec.bnRelu eps zero x' res' mean' var' g' b' r j := by
  unfold Spec.bnRelu
  rw [hx, hres, hmean j, hvar j, hg j, hb j]

/-! ## The kernel's arrays at an entry -/

theorem k_gateArg3 (r : Fin 400000) (j : Fin 64) :
    (T48 m c Cert.KernelIdeal.main_v171_0 : Spec.Mat 400000 64) (ix2 r j)
      = Spec.gateArg (T47 m c Cert.KernelIdeal.main_v168 : Spec.Mat 400000 64) (T47 m c Cert.KernelIdeal.main_v169 : Spec.Mat 400000 64) (T47 m c Cert.KernelIdeal.main_v167 : Spec.Mat 400000 64) r j :=
  (congrFun ((hF16 m c 4).symm : (T48 m c Cert.KernelIdeal.main_v171_0 : Spec.Mat 400000 64) = _) (ix2 r j)).trans (final16_4_apply (T47 m) c r j)

theorem k_gate3 (r : Fin 400000) (j : Fin 64) :
    (T48 m c Cert.KernelIdeal.main_v171_1 : Spec.Mat 400000 64) (ix2 r j)
      = Spec.gate (T47 m c Cert.KernelIdeal.main_v168 : Spec.Mat 400000 64) (T47 m c Cert.KernelIdeal.main_v169 : Spec.Mat 400000 64) (T47 m c Cert.KernelIdeal.main_v167 : Spec.Mat 400000 64) r j :=
  (congrFun ((hF16 m c 5).symm : (T48 m c Cert.KernelIdeal.main_v171_1 : Spec.Mat 400000 64) = _) (ix2 r j)).trans (final16_5_apply (T47 m) c r j)

theorem k_gated3 (r : Fin 400000) (j : Fin 64) :
    (T48 m c Cert.KernelIdeal.main_v171_2 : Spec.Mat 400000 64) (ix2 r j)
      = Spec.gated (T47 m c Cert.KernelIdeal.main_v168 : Spec.Mat 400000 64) (T47 m c Cert.KernelIdeal.main_v169 : Spec.Mat 400000 64) (T47 m c Cert.KernelIdeal.main_v167 : Spec.Mat 400000 64) (T47 m c Cert.KernelIdeal.main_v170 : Spec.Mat 400000 64) r j :=
  (congrFun ((hF16 m c 6).symm : (T48 m c Cert.KernelIdeal.main_v171_2 : Spec.Mat 400000 64) = _) (ix2 r j)).trans (final16_6_apply (T47 m) c r j)

theorem k_node3 (r : Fin 50000) (j : Fin 64) :
    (T50 m c Cert.KernelIdeal.main_v178 : Spec.Mat 50000 64) (ix2 r j)
      = Spec.nodeUpd (Ideal.ofBits .f32 0x358637BD#32) (T49 m c Cert.KernelIdeal.main_v158 : Spec.Mat 50000 64) (T49 m c Cert.KernelIdeal.main_v174 : Spec.Mat 50000 64) (T49 m c Cert.KernelIdeal.main_v177 : Spec.Mat 50000 64) r j :=
  (congrFun ((hF17 m c 3).symm : (T50 m c Cert.KernelIdeal.main_v178 : Spec.Mat 50000 64) = _) (ix2 r j)).trans (final17_3_apply (T49 m) c r j)

theorem k_bnh3 (r : Fin 50000) (j : Fin 64) :
    (T54 m c Cert.KernelIdeal.main_v191 : Spec.Mat 50000 64) (ix2 r j)
      = Spec.bnRelu (Ideal.ofBits .f32 0x3727C5AC#32) (Ideal.ofBits .f32 0x00000000#32) (T53 m c Cert.KernelIdeal.main_v178 : Spec.Mat 50000 64) (T53 m c Cert.KernelIdeal.main_v124 : Spec.Mat 50000 64)
          (T53 m c Cert.KernelIdeal.main_v187 : Spec.Mat 1 64) (T53 m c Cert.KernelIdeal.main_v188 : Spec.Mat 1 64) (T53 m c Cert.KernelIdeal.main_v189 : Spec.Mat 1 64) (T53 m c Cert.KernelIdeal.main_v190 : Spec.Mat 1 64) r j :=
  (congrFun ((hF18 m c 6).symm : (T54 m c Cert.KernelIdeal.main_v191 : Spec.Mat 50000 64) = _) (ix2 r j)).trans (final18_6_apply (T53 m) c r j)

theorem k_bne3 (r : Fin 400000) (j : Fin 64) :
    (T58 m c Cert.KernelIdeal.main_v204 : Spec.Mat 400000 64) (ix2 r j)
      = Spec.bnRelu (Ideal.ofBits .f32 0x3727C5AC#32) (Ideal.ofBits .f32 0x00000000#32) (T57 m c Cert.KernelIdeal.main_v171_0 : Spec.Mat 400000 64) (T57 m c Cert.KernelIdeal.main_v137 : Spec.Mat 400000 64)
          (T57 m c Cert.KernelIdeal.main_v200 : Spec.Mat 1 64) (T57 m c Cert.KernelIdeal.main_v201 : Spec.Mat 1 64) (T57 m c Cert.KernelIdeal.main_v202 : Spec.Mat 1 64) (T57 m c Cert.KernelIdeal.main_v203 : Spec.Mat 1 64) r j :=
  (congrFun ((hF19 m c 6).symm : (T58 m c Cert.KernelIdeal.main_v204 : Spec.Mat 400000 64) = _) (ix2 r j)).trans (final19_6_apply (T57 m) c r j)

/-! ## The reference's arrays at an entry -/

theorem r_gateArg3 (r : Fin 400000) (j : Fin 64) :
    (RW4 m' c (Proc.devRef .tc Cert.ReferenceIdeal.main_v325) : Spec.Mat 400000 64) (ix2 r j)
      = Spec.gateArg (RW4 m' c (Proc.devRef .tc Cert.ReferenceIdeal.main_v316) : Spec.Mat 400000 64) (RW4 m' c (Proc.devRef .tc Cert.ReferenceIdeal.main_v323) : Spec.Mat 400000 64) (RW4 m' c (Proc.devRef .tc Cert.ReferenceIdeal.main_v309) : Spec.Mat 400000 64) r j := by
  unfold RW4
  rw [rd_main_v325, rd_main_v324]
  exact gateArg_apply _ _ _ r j

theorem r_gate3 (r : Fin 400000) (j : Fin 64) :
    (RW4 m' c (Proc.devRef .tc Cert.ReferenceIdeal.main_v331) : Spec.Mat 400000 64) (ix2 r j)
      = Spec.gate (RW4 m' c (Proc.devRef .tc Cert.ReferenceIdeal.main_v316) : Spec.Mat 400000 64) (RW4 m' c (Proc.devRef .tc Cert.ReferenceIdeal.main_v323) : Spec.Mat 400000 64) (RW4 m' c (Proc.devRef .tc Cert.ReferenceIdeal.main_v309) : Spec.Mat 400000 64) r j := by
  unfold RW4
  rw [rd_main_v331, rd_main_v329, rd_main_v327, rd_main_v326, rd_main_v325, rd_main_v324, rd_main_v328, rd_main_cst_41, rd_main_v330, rd_main_cst_42]
  exact gate_apply _ _ _ r j

theorem r_gated3 (r : Fin 400000) (j : Fin 64) :
    (RW4 m' c (Proc.devRef .tc Cert.ReferenceIdeal.main_v339) : Spec.Mat 400000 64) (ix2 r j)
      = Spec.gated (RW4 m' c (Proc.devRef .tc Cert.ReferenceIdeal.main_v316) : Spec.Mat 400000 64) (RW4 m' c (Proc.devRef .tc Cert.ReferenceIdeal.main_v323) : Spec.Mat 400000 64) (RW4 m' c (Proc.devRef .tc Cert.ReferenceIdeal.main_v309) : Spec.Mat 400000 64) (RW4 m' c (Proc.devRef .tc Cert.ReferenceIdeal.main_v338) : Spec.Mat 400000 64) r j := by
  unfold RW4
  rw [rd_main_v339, rd_main_v331, rd_main_v329, rd_main_v327, rd_main_v326, rd_main_v325, rd_main_v324, rd_main_v328, rd_main_cst_41, rd_main_v330, rd_main_cst_42]
  exact gated_apply _ _ _ _ r j

theorem r_node3 (r : Fin 50000) (j : Fin 64) :
    (RW4 m' c (Proc.devRef .tc Cert.ReferenceIdeal.main_v349) : Spec.Mat 50000 64) (ix2 r j)
      = Spec.nodeUpd (Ideal.ofBits .f32 0x358637BD#32) (RW4 m' c (Proc.devRef .tc Cert.ReferenceIdeal.main_v277) : Spec.Mat 50000 64) (RW4 m' c (Proc.devRef .tc Cert.ReferenceIdeal.main_v342) : Spec.Mat 50000 64) (RW4 m' c (Proc.devRef .tc Cert.ReferenceIdeal.main_v345) : Spec.Mat 50000 64) r j := by
  unfold RW4
  rw [rd_main_v349, rd_main_v348, rd_main_v347, rd_main_v346, rd_main_cst_47]
  exact nodeUpd_apply _ _ _ _ r j

theorem r_bnh3 (r : Fin 50000) (j : Fin 64) :
    (RW4 m' c (Proc.devRef .tc Cert.ReferenceIdeal.main_v374) : Spec.Mat 50000 64) (ix2 r j)
      = Spec.bnRelu (Ideal.ofBits .f32 0x3727C5AC#32) (Ideal.ofBits .f32 0x00000000#32) (RW4 m' c (Proc.devRef .tc Cert.ReferenceIdeal.main_v349) : Spec.Mat 50000 64) (RW3 m' c (Proc.devRef .tc Cert.ReferenceIdeal.main_v244) : Spec.Mat 50000 64)
          (fun i => (RW4 m' c (Proc.devRef .tc Cert.ReferenceIdeal.main_v356) : (⟨1, ![64]⟩ : Shape).Idx → EReal) (ix1 (i 1))) (fun i => (RW4 m' c (Proc.devRef .tc Cert.ReferenceIdeal.main_v357) : (⟨1, ![64]⟩ : Shape).Idx → EReal) (ix1 (i 1)))
          (fun i => (RW4 m' c (Proc.devRef .tc Cert.ReferenceIdeal.main_v351) : (⟨1, ![64]⟩ : Shape).Idx → EReal) (ix1 (i 1))) (fun i => (RW4 m' c (Proc.devRef .tc Cert.ReferenceIdeal.main_v353) : (⟨1, ![64]⟩ : Shape).Idx → EReal) (ix1 (i 1))) r j := by
  unfold RW4
  rw [rd_main_v374, rd_main_v373, rd_main_call9_v0, rd_main_call9_cst, rd_main_v372, rd_main_v371, rd_main_v370, rd_main_v369, rd_main_v368, rd_main_v367, rd_main_v366, rd_main_v365, rd_main_v364, rd_main_v363, rd_main_v362, rd_main_v361, rd_main_cst_51, rd_main_v360, rd_main_v359, rd_main_v358]
  exact bnRelu_node_apply _ _ _ _ _ _ _ _ r j

theorem r_bne3 (r : Fin 400000) (j : Fin 64) :
    (RW4 m' c (Proc.devRef .tc Cert.ReferenceIdeal.main_v399) : Spec.Mat 400000 64) (ix2 r j)
      = Spec.bnRelu (Ideal.ofBits .f32 0x3727C5AC#32) (Ideal.ofBits .f32 0x00000000#32) (RW4 m' c (Proc.devRef .tc Cert.ReferenceIdeal.main_v325) : Spec.Mat 400000 64) (RW3 m' c (Proc.devRef .tc Cert.ReferenceIdeal.main_v269) : Spec.Mat 400000 64)
          (fun i => (RW4 m' c (Proc.devRef .tc Cert.ReferenceIdeal.main_v381) : (⟨1, ![64]⟩ : Shape).Idx → EReal) (ix1 (i 1))) (fun i => (RW4 m' c (Proc.devRef .tc Cert.ReferenceIdeal.main_v382) : (⟨1, ![64]⟩ : Shape).Idx → EReal) (ix1 (i 1)))
          (fun i => (RW4 m' c (Proc.devRef .tc Cert.ReferenceIdeal.main_v376) : (⟨1, ![64]⟩ : Shape).Idx → EReal) (ix1 (i 1))) (fun i => (RW4 m' c (Proc.devRef .tc Cert.ReferenceIdeal.main_v378) : (⟨1, ![64]⟩ : Shape).Idx → EReal) (ix1 (i 1))) r j := by
  unfold RW4
  rw [rd_main_v399, rd_main_v398, rd_main_call11_v0, rd_main_call11_cst, rd_main_v397, rd_main_v396, rd_main_v395, rd_main_v394, rd_main_v393, rd_main_v392, rd_main_v391, rd_main_v390, rd_main_v389, rd_main_v388, rd_main_v387, rd_main_v386, rd_main_cst_55, rd_main_v385, rd_main_v384, rd_main_v383]
  exact bnRelu_edge_apply _ _ _ _ _ _ _ _ r j

/-! ## The pairings -/

/-- The edge combine: equal summands and sender rows give equal gate arguments, gates and gated messages. -/
theorem gate_eq3
    (h34 : (T47 m c Cert.KernelIdeal.main_v168 : Spec.Mat 400000 64) = (RW4 m' c (Proc.devRef .tc Cert.ReferenceIdeal.main_v316) : Spec.Mat 400000 64))
    (h35 : (T47 m c Cert.KernelIdeal.main_v169 : Spec.Mat 400000 64) = (RW4 m' c (Proc.devRef .tc Cert.ReferenceIdeal.main_v323) : Spec.Mat 400000 64))
    (h33 : (T47 m c Cert.KernelIdeal.main_v167 : Spec.Mat 400000 64) = (RW4 m' c (Proc.devRef .tc Cert.ReferenceIdeal.main_v309) : Spec.Mat 400000 64))
    (h36 : (T47 m c Cert.KernelIdeal.main_v170 : Spec.Mat 400000 64) = (RW4 m' c (Proc.devRef .tc Cert.ReferenceIdeal.main_v338) : Spec.Mat 400000 64)) :
    (T48 m c Cert.KernelIdeal.main_v171_0 : Spec.Mat 400000 64) = (RW4 m' c (Proc.devRef .tc Cert.ReferenceIdeal.main_v325) : Spec.Mat 400000 64)
      ∧ (T48 m c Cert.KernelIdeal.main_v171_1 : Spec.Mat 400000 64) = (RW4 m' c (Proc.devRef .tc Cert.ReferenceIdeal.main_v331) : Spec.Mat 400000 64)
      ∧ (T48 m c Cert.KernelIdeal.main_v171_2 : Spec.Mat 400000 64) = (RW4 m' c (Proc.devRef .tc Cert.ReferenceIdeal.main_v339) : Spec.Mat 400000 64) := by
  refine ⟨funext fun i => ?_, funext fun i => ?_, funext fun i => ?_⟩
  · obtain ⟨p, q, rfl⟩ : ∃ (p : Fin 400000) (q : Fin 64), i = ix2 p q := ⟨i 0, i 1, eq_ix2 i⟩
    refine (k_gateArg3 m c p q).trans (Eq.trans ?_ (r_gateArg3 m' c p q).symm)
    rw [h34, h35, h33]
  · obtain ⟨p, q, rfl⟩ : ∃ (p : Fin 400000) (q : Fin 64), i = ix2 p q := ⟨i 0, i 1, eq_ix2 i⟩
    refine (k_gate3 m c p q).trans (Eq.trans ?_ (r_gate3 m' c p q).symm)
    rw [h34, h35, h33]
  · obtain ⟨p, q, rfl⟩ : ∃ (p : Fin 400000) (q : Fin 64), i = ix2 p q := ⟨i 0, i 1, eq_ix2 i⟩
    refine (k_gated3 m c p q).trans (Eq.trans ?_ (r_gated3 m' c p q).symm)
    rw [h34, h35, h33, h36]

/-- The node update: equal node rows, numerators and denominators give equal updated rows. -/
theorem node_eq3
    (h24 : (T49 m c Cert.KernelIdeal.main_v158 : Spec.Mat 50000 64) = (RW4 m' c (Proc.devRef .tc Cert.ReferenceIdeal.main_v277) : Spec.Mat 50000 64))
    (h40 : (T49 m c Cert.KernelIdeal.main_v174 : Spec.Mat 50000 64) = (RW4 m' c (Proc.devRef .tc Cert.ReferenceIdeal.main_v342) : Spec.Mat 50000 64))
    (h43 : (T49 m c Cert.KernelIdeal.main_v177 : Spec.Mat 50000 64) = (RW4 m' c (Proc.devRef .tc Cert.ReferenceIdeal.main_v345) : Spec.Mat 50000 64)) :
    (T50 m c Cert.KernelIdeal.main_v178 : Spec.Mat 50000 64) = (RW4 m' c (Proc.devRef .tc Cert.ReferenceIdeal.main_v349) : Spec.Mat 50000 64) := by
  funext i
  obtain ⟨p, q, rfl⟩ : ∃ (p : Fin 50000) (q : Fin 64), i = ix2 p q := ⟨i 0, i 1, eq_ix2 i⟩
  refine (k_node3 m c p q).trans (Eq.trans ?_ (r_node3 m' c p q).symm)
  rw [h24, h40, h43]

/-- The node side's normalised residual step. -/
theorem bnh_eq3
    (hx : (T53 m c Cert.KernelIdeal.main_v178 : Spec.Mat 50000 64) = (RW4 m' c (Proc.devRef .tc Cert.ReferenceIdeal.main_v349) : Spec.Mat 50000 64))
    (hres : (T53 m c Cert.KernelIdeal.main_v124 : Spec.Mat 50000 64) = (RW3 m' c (Proc.devRef .tc Cert.ReferenceIdeal.main_v244) : Spec.Mat 50000 64))
    (hmean : ∀ j : Fin 64, (T53 m c Cert.KernelIdeal.main_v187 : Spec.Mat 1 64) (ix2 0 j) = (RW4 m' c (Proc.devRef .tc Cert.ReferenceIdeal.main_v356) : (⟨1, ![64]⟩ : Shape).Idx → EReal) (ix1 j))
    (hvar : ∀ j : Fin 64, (T53 m c Cert.KernelIdeal.main_v188 : Spec.Mat 1 64) (ix2 0 j) = (RW4 m' c (Proc.devRef .tc Cert.ReferenceIdeal.main_v357) : (⟨1, ![64]⟩ : Shape).Idx → EReal) (ix1 j))
    (hg : ∀ j : Fin 64, (T53 m c Cert.KernelIdeal.main_v189 : Spec.Mat 1 64) (ix2 0 j) = (RW4 m' c (Proc.devRef .tc Cert.ReferenceIdeal.main_v351) : (⟨1, ![64]⟩ : Shape).Idx → EReal) (ix1 j))
    (hb : ∀ j : Fin 64, (T53 m c Cert.KernelIdeal.main_v190 : Spec.Mat 1 64) (ix2 0 j) = (RW4 m' c (Proc.devRef .tc Cert.ReferenceIdeal.main_v353) : (⟨1, ![64]⟩ : Shape).Idx → EReal) (ix1 j)) :
    (T54 m c Cert.KernelIdeal.main_v191 : Spec.Mat 50000 64) = (RW4 m' c (Proc.devRef .tc Cert.ReferenceIdeal.main_v374) : Spec.Mat 50000 64) := by
  funext i
  obtain ⟨p, q, rfl⟩ : ∃ (p : Fin 50000) (q : Fin 64), i = ix2 p q := ⟨i 0, i 1, eq_ix2 i⟩
  refine (k_bnh3 m c p q).trans (Eq.trans ?_ (r_bnh3 m' c p q).symm)
  exact bnRelu_congr3 _ _ hx hres hmean hvar hg hb p q

/-- The edge side's normalised residual step. -/
theorem bne_eq3
    (hx : (T57 m c Cert.KernelIdeal.main_v171_0 : Spec.Mat 400000 64) = (RW4 m' c (Proc.devRef .tc Cert.ReferenceIdeal.main_v325) : Spec.Mat 400000 64))
    (hres : (T57 m c Cert.KernelIdeal.main_v137 : Spec.Mat 400000 64) = (RW3 m' c (Proc.devRef .tc Cert.ReferenceIdeal.main_v269) : Spec.Mat 400000 64))
    (hmean : ∀ j : Fin 64, (T57 m c Cert.KernelIdeal.main_v200 : Spec.Mat 1 64) (ix2 0 j) = (RW4 m' c (Proc.devRef .tc Cert.ReferenceIdeal.main_v381) : (⟨1, ![64]⟩ : Shape).Idx → EReal) (ix1 j))
    (hvar : ∀ j : Fin 64, (T57 m c Cert.KernelIdeal.main_v201 : Spec.Mat 1 64) (ix2 0 j) = (RW4 m' c (Proc.devRef .tc Cert.ReferenceIdeal.main_v382) : (⟨1, ![64]⟩ : Shape).Idx → EReal) (ix1 j))
    (hg : ∀ j : Fin 64, (T57 m c Cert.KernelIdeal.main_v202 : Spec.Mat 1 64) (ix2 0 j) = (RW4 m' c (Proc.devRef .tc Cert.ReferenceIdeal.main_v376) : (⟨1, ![64]⟩ : Shape).Idx → EReal) (ix1 j))
    (hb : ∀ j : Fin 64, (T57 m c Cert.KernelIdeal.main_v203 : Spec.Mat 1 64) (ix2 0 j) = (RW4 m' c (Proc.devRef .tc Cert.ReferenceIdeal.main_v378) : (⟨1, ![64]⟩ : Shape).Idx → EReal) (ix1 j)) :
    (T58 m c Cert.KernelIdeal.main_v204 : Spec.Mat 400000 64) = (RW4 m' c (Proc.devRef .tc Cert.ReferenceIdeal.main_v399) : Spec.Mat 400000 64) := by
  funext i
  obtain ⟨p, q, rfl⟩ : ∃ (p : Fin 400000) (q : Fin 64), i = ix2 p q := ⟨i 0, i 1, eq_ix2 i⟩
  refine (k_bne3 m c p q).trans (Eq.trans ?_ (r_bne3 m' c p q).symm)
  exact bnRelu_congr3 _ _ hx hres hmean hvar hg hb p q

end Cert.Sim

end
-- ==== Proof.KI.Host17.lean ====
import proofs.«431450_j74423193305350_1_alg».proof.Proof.Gen.KernelIdeal.Launch
import proofs.«431450_j74423193305350_1_alg».proof.Proof.KI.HostDefs
import Idealize.ShloMosaic.Lib.StableHlo.Run
import Idealize.ShloMosaic.Lib.Pipeline.Value
import Idealize.ShloMosaic.Lib.ValueIdx
import Idealize.ShloMosaic.Lib.ValueLayout

/-! Host stretch 17: the two sums by target node (of the gated messages main_v171_2 and of the gates main_v171_1), as the named segment sum of whatever the buffers held. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : Valuation τ sig (Elt Ideal))

/-- After the stretch: the gated messages added up by target node. -/
theorem host17_v174 :
    (StableHlo.after (hostOps17 (F := Ideal)) V (Proc.devRef .tc main_v174) : S50000x64.Idx → EReal)
      = segSum64 (V (Proc.devRef .tc main_v171_2)) (V (Proc.devRef .tc main_arg4)) := by
  after_results
  all_goals rfl

/-- After the stretch: the gates added up by target node. -/
theorem host17_v177 :
    (StableHlo.after (hostOps17 (F := Ideal)) V (Proc.devRef .tc main_v177) : S50000x64.Idx → EReal)
      = segSum64 (V (Proc.devRef .tc main_v171_1)) (V (Proc.devRef .tc main_arg4)) := by
  after_results
  all_goals rfl

end Cert.KernelIdeal.Hand
-- ==== Proof.KI.Host18.lean ====
import proofs.«431450_j74423193305350_1_alg».proof.Proof.Gen.KernelIdeal.Launch
import proofs.«431450_j74423193305350_1_alg».proof.Proof.KI.HostDefs
import Idealize.ShloMosaic.Lib.StableHlo.Run
import Idealize.ShloMosaic.Lib.Pipeline.Value
import Idealize.ShloMosaic.Lib.ValueIdx
import Idealize.ShloMosaic.Lib.ValueLayout

/-! Host stretches 18, 18_1, 18_2 run in order: the column means and variances of main_v178 as the named functions, laid out as rows, and the batch-norm gain and bias rows of layer row 2, from whatever the buffers held. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : Valuation τ sig (Elt Ideal))

/-- Row 2 of a stack of three vectors, as a vector, at an entry. -/
private theorem row2_vec_apply (X : S3x64.Idx → EReal) (j : Fin 64) :
    shapeCast S64 (extractStridedSlice S1x64 ![2, 0] X slices_S3x64_S1x64_2_0) shapeCasts_S1x64_S64 (ix1 j)
      = X (ix2 2 j) := by
  rw [shapeCast_1a_a_apply]
  exact slice2_axis0_apply 2 X slices_S3x64_S1x64_2_0 0 j 2 rfl

/-- The buffers' contents after the three stretches run in order. -/
abbrev after18 : Valuation τ sig (Elt Ideal) :=
  StableHlo.after (hostOps18_2 (F := Ideal)) (StableHlo.after (hostOps18_1 (F := Ideal)) (StableHlo.after (hostOps18 (F := Ideal)) V))

/-- The mean row: the column means of main_v178, as one row. -/
theorem host18_v187_eq :
    (after18 V (Proc.devRef .tc main_v187) : S1x64.Idx → EReal)
      = shapeCast S1x64 (colMeanN (V (Proc.devRef .tc main_v178))) shapeCasts_S64_S1x64 := by
  unfold after18
  after_results
  all_goals rfl

set_option maxHeartbeats 1600000 in
/-- The variance row: the column variances of main_v178, as one row. -/
theorem host18_v188_eq :
    (after18 V (Proc.devRef .tc main_v188) : S1x64.Idx → EReal)
      = shapeCast S1x64 (colVarN (V (Proc.devRef .tc main_v178))) shapeCasts_S64_S1x64 := by
  unfold after18
  after_results
  all_goals rfl

/-- The mean row at column j. -/
theorem host18_v187 (j : Fin 64) :
    (after18 V (Proc.devRef .tc main_v187) : S1x64.Idx → EReal) (ix2 0 j) = colMeanN (V (Proc.devRef .tc main_v178)) (ix1 j) := by
  rw [host18_v187_eq, shapeCast_a_1a_apply]

/-- The variance row at column j. -/
theorem host18_v188 (j : Fin 64) :
    (after18 V (Proc.devRef .tc main_v188) : S1x64.Idx → EReal) (ix2 0 j) = colVarN (V (Proc.devRef .tc main_v178)) (ix1 j) := by
  rw [host18_v188_eq, shapeCast_a_1a_apply]

/-- The gain row of layer row 2, at column j. -/
theorem host18_v189 (j : Fin 64) :
    (after18 V (Proc.devRef .tc main_v189) : S1x64.Idx → EReal) (ix2 0 j) = (V (Proc.devRef .tc main_arg20) : S3x64.Idx → EReal) (ix2 2 j) := by
  have e : (after18 V (Proc.devRef .tc main_v189) : S1x64.Idx → EReal)
      = shapeCast S1x64 (shapeCast S64 (extractStridedSlice S1x64 ![2, 0] (V (Proc.devRef .tc main_arg20) : S3x64.Idx → EReal) slices_S3x64_S1x64_2_0) shapeCasts_S1x64_S64) shapeCasts_S64_S1x64 := by
    unfold after18
    after_results
    all_goals rfl
  rw [e, shapeCast_a_1a_apply, row2_vec_apply]

/-- The bias row of layer row 2, at column j. -/
theorem host18_v190 (j : Fin 64) :
    (after18 V (Proc.devRef .tc main_v190) : S1x64.Idx → EReal) (ix2 0 j) = (V (Proc.devRef .tc main_arg21) : S3x64.Idx → EReal) (ix2 2 j) := by
  have e : (after18 V (Proc.devRef .tc main_v190) : S1x64.Idx → EReal)
      = shapeCast S1x64 (shapeCast S64 (extractStridedSlice S1x64 ![2, 0] (V (Proc.devRef .tc main_arg21) : S3x64.Idx → EReal) slices_S3x64_S1x64_2_0) shapeCasts_S1x64_S64) shapeCasts_S64_S1x64 := by
    unfold after18
    after_results
    all_goals rfl
  rw [e, shapeCast_a_1a_apply, row2_vec_apply]

end Cert.KernelIdeal.Hand
-- ==== Proof.KI.Host19.lean ====
import proofs.«431450_j74423193305350_1_alg».proof.Proof.Gen.KernelIdeal.Launch
import proofs.«431450_j74423193305350_1_alg».proof.Proof.KI.HostDefs
import Idealize.ShloMosaic.Lib.StableHlo.Run
import Idealize.ShloMosaic.Lib.Pipeline.Value
import Idealize.ShloMosaic.Lib.ValueIdx
import Idealize.ShloMosaic.Lib.ValueLayout

/-! Host stretches 19, 19_1, 19_2 run in order: the column means and variances of main_v171_0 as the named functions, laid out as rows, and the batch-norm gain and bias rows of layer row 2, from whatever the buffers held. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (V : Valuation τ sig (Elt Ideal))

/-- Row 2 of a stack of three vectors, as a vector, at an entry. -/
private theorem row2_vec_apply (X : S3x64.Idx → EReal) (j : Fin 64) :
    shapeCast S64 (extractStridedSlice S1x64 ![2, 0] X slices_S3x64_S1x64_2_0) shapeCasts_S1x64_S64 (ix1 j)
      = X (ix2 2 j) := by
  rw [shapeCast_1a_a_apply]
  exact slice2_axis0_apply 2 X slices_S3x64_S1x64_2_0 0 j 2 rfl

/-- The buffers' contents after the three stretches run in order. -/
abbrev after19 : Valuation τ sig (Elt Ideal) :=
  StableHlo.after (hostOps19_2 (F := Ideal)) (StableHlo.after (hostOps19_1 (F := Ideal)) (StableHlo.after (hostOps19 (F := Ideal)) V))

/-- The mean row: the column means of main_v171_0, as one row. -/
theorem host19_v200_eq :
    (after19 V (Proc.devRef .tc main_v200) : S1x64.Idx → EReal)
      = shapeCast S1x64 (colMeanE (V (Proc.devRef .tc main_v171_0))) shapeCasts_S64_S1x64 := by
  unfold after19
  after_results
  all_goals rfl

set_option maxHeartbeats 1600000 in
/-- The variance row: the column variances of main_v171_0, as one row. -/
theorem host19_v201_eq :
    (after19 V (Proc.devRef .tc main_v201) : S1x64.Idx → EReal)
      = shapeCast S1x64 (colVarE (V (Proc.devRef .tc main_v171_0))) shapeCasts_S64_S1x64 := by
  unfold after19
  after_results
  all_goals rfl

/-- The mean row at column j. -/
theorem host19_v200 (j : Fin 64) :
    (after19 V (Proc.devRef .tc main_v200) : S1x64.Idx → EReal) (ix2 0 j) = colMeanE (V (Proc.devRef .tc main_v171_0)) (ix1 j) := by
  rw [host19_v200_eq, shapeCast_a_1a_apply]

/-- The variance row at column j. -/
theorem host19_v201 (j : Fin 64) :
    (after19 V (Proc.devRef .tc main_v201) : S1x64.Idx → EReal) (ix2 0 j) = colVarE (V (Proc.devRef .tc main_v171_0)) (ix1 j) := by
  rw [host19_v201_eq, shapeCast_a_1a_apply]

/-- The gain row of layer row 2, at column j. -/
theorem host19_v202 (j : Fin 64) :
    (after19 V (Proc.devRef .tc main_v202) : S1x64.Idx → EReal) (ix2 0 j) = (V (Proc.devRef .tc main_arg22) : S3x64.Idx → EReal) (ix2 2 j) := by
  have e : (after19 V (Proc.devRef .tc main_v202) : S1x64.Idx → EReal)
      = shapeCast S1x64 (shapeCast S64 (extractStridedSlice S1x64 ![2, 0] (V (Proc.devRef .tc main_arg22) : S3x64.Idx → EReal) slices_S3x64_S1x64_2_0) shapeCasts_S1x64_S64) shapeCasts_S64_S1x64 := by
    unfold after19
    after_results
    all_goals rfl
  rw [e, shapeCast_a_1a_apply, row2_vec_apply]

/-- The bias row of layer row 2, at column j. -/
theorem host19_v203 (j : Fin 64) :
    (after19 V (Proc.devRef .tc main_v203) : S1x64.Idx → EReal) (ix2 0 j) = (V (Proc.devRef .tc main_arg23) : S3x64.Idx → EReal) (ix2 2 j) := by
  have e : (after19 V (Proc.devRef .tc main_v203) : S1x64.Idx → EReal)
      = shapeCast S1x64 (shapeCast S64 (extractStridedSlice S1x64 ![2, 0] (V (Proc.devRef .tc main_arg23) : S3x64.Idx → EReal) slices_S3x64_S1x64_2_0) shapeCasts_S1x64_S64) shapeCasts_S64_S1x64 := by
    unfold after19
    after_results
    all_goals rfl
  rw [e, shapeCast_a_1a_apply, row2_vec_apply]

end Cert.KernelIdeal.Hand
-- ==== Proof.Sim.Chain3.lean ====
import proofs.«431450_j74423193305350_1_alg».proof.Proof.KI.Fold
import proofs.«431450_j74423193305350_1_alg».proof.Proof.KI.Host17
import proofs.«431450_j74423193305350_1_alg».proof.Proof.KI.Host18
import proofs.«431450_j74423193305350_1_alg».proof.Proof.KI.Host19
import proofs.«431450_j74423193305350_1_alg».proof.Proof.Ref.Fold
import proofs.«431450_j74423193305350_1_alg».proof.Proof.Ref.RdL3
import proofs.«431450_j74423193305350_1_alg».proof.Proof.Sim.ChainTerms
import proofs.«431450_j74423193305350_1_alg».proof.Proof.Sim.Args
import proofs.«431450_j74423193305350_1_alg».proof.Proof.Spec

/-! Layer 3's host chains that both programs run as the same array operations, kernel against reference: the two sums
    by target node, and the column means and variances and the gain and bias rows of the two normalisations. Each
    side's buffer is read as one named whole-array function (or one argument row) of the array the chain starts from;
    equal starting arrays and equal arguments then give equal results. -/
set_option maxRecDepth 16384

noncomputable section

namespace Cert.Sim

open Cert.KernelIdeal.Hand Cert.ReferenceIdeal.Hand
open Idealize.ShloMosaic Idealize.ShloMosaic.TcCoe Idealize.ShloMosaic.ValueIdx Idealize.ShloMosaic.StableHlo
open Idealize.SL.Sem
open Cert.Spec (Mat)

variable (m : KM) (m' : RM)
variable (c : Dev Cert.KernelIdeal.nD)

/-! ## The arguments the chains read -/

/-- The target-node indices and the four normalisation parameter stacks are still the launch contents where the chains read
    them (no item before writes them), in both programs, and there the two memories agree. -/
theorem chain_args_L3 (hagree : Agree m m') :
    ((W48 m c (Proc.devRef .tc Cert.KernelIdeal.main_arg4) : IVec Cert.KernelIdeal.S400000 32) = (RW3 m' c (Proc.devRef .tc Cert.ReferenceIdeal.main_arg4) : IVec Cert.KernelIdeal.S400000 32))
    ∧ ((W50 m c (Proc.devRef .tc Cert.KernelIdeal.main_arg20) : Cert.KernelIdeal.S3x64.Idx → EReal) = (RW3 m' c (Proc.devRef .tc Cert.ReferenceIdeal.main_arg20) : Cert.KernelIdeal.S3x64.Idx → EReal))
    ∧ ((W50 m c (Proc.devRef .tc Cert.KernelIdeal.main_arg21) : Cert.KernelIdeal.S3x64.Idx → EReal) = (RW3 m' c (Proc.devRef .tc Cert.ReferenceIdeal.main_arg21) : Cert.KernelIdeal.S3x64.Idx → EReal))
    ∧ ((W54 m c (Proc.devRef .tc Cert.KernelIdeal.main_arg22) : Cert.KernelIdeal.S3x64.Idx → EReal) = (RW3 m' c (Proc.devRef .tc Cert.ReferenceIdeal.main_arg22) : Cert.KernelIdeal.S3x64.Idx → EReal))
    ∧ ((W54 m c (Proc.devRef .tc Cert.KernelIdeal.main_arg23) : Cert.KernelIdeal.S3x64.Idx → EReal) = (RW3 m' c (Proc.devRef .tc Cert.ReferenceIdeal.main_arg23) : Cert.KernelIdeal.S3x64.Idx → EReal)) := by
  have h := args_agree m m' hagree c
  refine ⟨?_, ?_, ?_, ?_, ?_⟩
  · refine Eq.trans (((W48_of m c Cert.KernelIdeal.main_arg4 (by decide)).trans ((W47_of m c Cert.KernelIdeal.main_arg4 (by decide)).trans ((W46_of m c Cert.KernelIdeal.main_arg4 (by decide)).trans ((W45_of m c Cert.KernelIdeal.main_arg4 (by decide)).trans ((W44_of m c Cert.KernelIdeal.main_arg4 (by decide)).trans ((W43_of m c Cert.KernelIdeal.main_arg4 (by decide)).trans ((W42_of m c Cert.KernelIdeal.main_arg4 (by decide)).trans ((W41_of m c Cert.KernelIdeal.main_arg4 (by decide)).trans ((W40_of m c Cert.KernelIdeal.main_arg4 (by decide)).trans ((W39_of m c Cert.KernelIdeal.main_arg4 (by decide)).trans ((W38_of m c Cert.KernelIdeal.main_arg4 (by decide)).trans ((W37_of m c Cert.KernelIdeal.main_arg4 (by decide)).trans ((W36_of m c Cert.KernelIdeal.main_arg4 (by decide)).trans ((W35_of m c Cert.KernelIdeal.main_arg4 (by decide)).trans ((W34_of m c Cert.KernelIdeal.main_arg4 (by decide)).trans ((W33_of m c Cert.KernelIdeal.main_arg4 (by decide)).trans ((W32_of m c Cert.KernelIdeal.main_arg4 (by decide)).trans ((W31_of m c Cert.KernelIdeal.main_arg4 (by decide)).trans ((W30_of m c Cert.KernelIdeal.main_arg4 (by decide)).trans ((W29_of m c Cert.KernelIdeal.main_arg4 (by decide)).trans ((W28_of m c Cert.KernelIdeal.main_arg4 (by decide)).trans ((W27_of m c Cert.KernelIdeal.main_arg4 (by decide)).trans ((W26_of m c Cert.KernelIdeal.main_arg4 (by decide)).trans ((W25_of m c Cert.KernelIdeal.main_arg4 (by decide)).trans ((W24_of m c Cert.KernelIdeal.main_arg4 (by decide)).trans ((W23_of m c Cert.KernelIdeal.main_arg4 (by decide)).trans ((W22_of m c Cert.KernelIdeal.main_arg4 (by decide)).trans ((W21_of m c Cert.KernelIdeal.main_arg4 (by decide)).trans ((W20_of m c Cert.KernelIdeal.main_arg4 (by decide)).trans ((W19_of m c Cert.KernelIdeal.main_arg4 (by decide)).trans ((W18_of m c Cert.KernelIdeal.main_arg4 (by decide)).trans ((W17_of m c Cert.KernelIdeal.main_arg4 (by decide)).trans ((W16_of m c Cert.KernelIdeal.main_arg4 (by decide)).trans ((W15_of m c Cert.KernelIdeal.main_arg4 (by decide)).trans ((W14_of m c Cert.KernelIdeal.main_arg4 (by decide)).trans ((W13_of m c Cert.KernelIdeal.main_arg4 (by decide)).trans ((W12_of m c Cert.KernelIdeal.main_arg4 (by decide)).trans ((W11_of m c Cert.KernelIdeal.main_arg4 (by decide)).trans ((W10_of m c Cert.KernelIdeal.main_arg4 (by decide)).trans ((W9_of m c Cert.KernelIdeal.main_arg4 (by decide)).trans ((W8_of m c Cert.KernelIdeal.main_arg4 (by decide)).trans ((W7_of m c Cert.KernelIdeal.main_arg4 (by decide)).trans ((W6_of m c Cert.KernelIdeal.main_arg4 (by decide)).trans ((W5_of m c Cert.KernelIdeal.main_arg4 (by decide)).trans ((W4_of m c Cert.KernelIdeal.main_arg4 (by decide)).trans ((W3_of m c Cert.KernelIdeal.main_arg4 (by decide)).trans ((W2_of m c Cert.KernelIdeal.main_arg4 (by decide)).trans (W1_of m c Cert.KernelIdeal.main_arg4 (by decide))))))))))))))))))))))))))))))))))))))))))))))))) : W48 m c (Proc.devRef .tc Cert.KernelIdeal.main_arg4) = W0 m c (Proc.devRef .tc Cert.KernelIdeal.main_arg4)) ?_
    refine Eq.trans ?_ (((RW3_of m' c Cert.ReferenceIdeal.main_arg4 (by decide)).trans ((RW2_of m' c Cert.ReferenceIdeal.main_arg4 (by decide)).trans (RW1_of m' c Cert.ReferenceIdeal.main_arg4 (by decide)))) : RW3 m' c (Proc.devRef .tc Cert.ReferenceIdeal.main_arg4) = RW0 m' c (Proc.devRef .tc Cert.ReferenceIdeal.main_arg4)).symm
    exact h.2.2.2.2.1
  · refine Eq.trans (((W50_of m c Cert.KernelIdeal.main_arg20 (by decide)).trans ((W49_of m c Cert.KernelIdeal.main_arg20 (by decide)).trans ((W48_of m c Cert.KernelIdeal.main_arg20 (by decide)).trans ((W47_of m c Cert.KernelIdeal.main_arg20 (by decide)).trans ((W46_of m c Cert.KernelIdeal.main_arg20 (by decide)).trans ((W45_of m c Cert.KernelIdeal.main_arg20 (by decide)).trans ((W44_of m c Cert.KernelIdeal.main_arg20 (by decide)).trans ((W43_of m c Cert.KernelIdeal.main_arg20 (by decide)).trans ((W42_of m c Cert.KernelIdeal.main_arg20 (by decide)).trans ((W41_of m c Cert.KernelIdeal.main_arg20 (by decide)).trans ((W40_of m c Cert.KernelIdeal.main_arg20 (by decide)).trans ((W39_of m c Cert.KernelIdeal.main_arg20 (by decide)).trans ((W38_of m c Cert.KernelIdeal.main_arg20 (by decide)).trans ((W37_of m c Cert.KernelIdeal.main_arg20 (by decide)).trans ((W36_of m c Cert.KernelIdeal.main_arg20 (by decide)).trans ((W35_of m c Cert.KernelIdeal.main_arg20 (by decide)).trans ((W34_of m c Cert.KernelIdeal.main_arg20 (by decide)).trans ((W33_of m c Cert.KernelIdeal.main_arg20 (by decide)).trans ((W32_of m c Cert.KernelIdeal.main_arg20 (by decide)).trans ((W31_of m c Cert.KernelIdeal.main_arg20 (by decide)).trans ((W30_of m c Cert.KernelIdeal.main_arg20 (by decide)).trans ((W29_of m c Cert.KernelIdeal.main_arg20 (by decide)).trans ((W28_of m c Cert.KernelIdeal.main_arg20 (by decide)).trans ((W27_of m c Cert.KernelIdeal.main_arg20 (by decide)).trans ((W26_of m c Cert.KernelIdeal.main_arg20 (by decide)).trans ((W25_of m c Cert.KernelIdeal.main_arg20 (by decide)).trans ((W24_of m c Cert.KernelIdeal.main_arg20 (by decide)).trans ((W23_of m c Cert.KernelIdeal.main_arg20 (by decide)).trans ((W22_of m c Cert.KernelIdeal.main_arg20 (by decide)).trans ((W21_of m c Cert.KernelIdeal.main_arg20 (by decide)).trans ((W20_of m c Cert.KernelIdeal.main_arg20 (by decide)).trans ((W19_of m c Cert.KernelIdeal.main_arg20 (by decide)).trans ((W18_of m c Cert.KernelIdeal.main_arg20 (by decide)).trans ((W17_of m c Cert.KernelIdeal.main_arg20 (by decide)).trans ((W16_of m c Cert.KernelIdeal.main_arg20 (by decide)).trans ((W15_of m c Cert.KernelIdeal.main_arg20 (by decide)).trans ((W14_of m c Cert.KernelIdeal.main_arg20 (by decide)).trans ((W13_of m c Cert.KernelIdeal.main_arg20 (by decide)).trans ((W12_of m c Cert.KernelIdeal.main_arg20 (by decide)).trans ((W11_of m c Cert.KernelIdeal.main_arg20 (by decide)).trans ((W10_of m c Cert.KernelIdeal.main_arg20 (by decide)).trans ((W9_of m c Cert.KernelIdeal.main_arg20 (by decide)).trans ((W8_of m c Cert.KernelIdeal.main_arg20 (by decide)).trans ((W7_of m c Cert.KernelIdeal.main_arg20 (by decide)).trans ((W6_of m c Cert.KernelIdeal.main_arg20 (by decide)).trans ((W5_of m c Cert.KernelIdeal.main_arg20 (by decide)).trans ((W4_of m c Cert.KernelIdeal.main_arg20 (by decide)).trans ((W3_of m c Cert.KernelIdeal.main_arg20 (by decide)).trans ((W2_of m c Cert.KernelIdeal.main_arg20 (by decide)).trans (W1_of m c Cert.KernelIdeal.main_arg20 (by decide))))))))))))))))))))))))))))))))))))))))))))))))))) : W50 m c (Proc.devRef .tc Cert.KernelIdeal.main_arg20) = W0 m c (Proc.devRef .tc Cert.KernelIdeal.main_arg20)) ?_
    refine Eq.trans ?_ (((RW3_of m' c Cert.ReferenceIdeal.main_arg20 (by decide)).trans ((RW2_of m' c Cert.ReferenceIdeal.main_arg20 (by decide)).trans (RW1_of m' c Cert.ReferenceIdeal.main_arg20 (by decide)))) : RW3 m' c (Proc.devRef .tc Cert.ReferenceIdeal.main_arg20) = RW0 m' c (Proc.devRef .tc Cert.ReferenceIdeal.main_arg20)).symm
    exact h.2.2.2.2.2.2.2.2.2.2.2.2.2.2.2.2.2.2.2.2.1
  · refine Eq.trans (((W50_of m c Cert.KernelIdeal.main_arg21 (by decide)).trans ((W49_of m c Cert.KernelIdeal.main_arg21 (by decide)).trans ((W48_of m c Cert.KernelIdeal.main_arg21 (by decide)).trans ((W47_of m c Cert.KernelIdeal.main_arg21 (by decide)).trans ((W46_of m c Cert.KernelIdeal.main_arg21 (by decide)).trans ((W45_of m c Cert.KernelIdeal.main_arg21 (by decide)).trans ((W44_of m c Cert.KernelIdeal.main_arg21 (by decide)).trans ((W43_of m c Cert.KernelIdeal.main_arg21 (by decide)).trans ((W42_of m c Cert.KernelIdeal.main_arg21 (by decide)).trans ((W41_of m c Cert.KernelIdeal.main_arg21 (by decide)).trans ((W40_of m c Cert.KernelIdeal.main_arg21 (by decide)).trans ((W39_of m c Cert.KernelIdeal.main_arg21 (by decide)).trans ((W38_of m c Cert.KernelIdeal.main_arg21 (by decide)).trans ((W37_of m c Cert.KernelIdeal.main_arg21 (by decide)).trans ((W36_of m c Cert.KernelIdeal.main_arg21 (by decide)).trans ((W35_of m c Cert.KernelIdeal.main_arg21 (by decide)).trans ((W34_of m c Cert.KernelIdeal.main_arg21 (by decide)).trans ((W33_of m c Cert.KernelIdeal.main_arg21 (by decide)).trans ((W32_of m c Cert.KernelIdeal.main_arg21 (by decide)).trans ((W31_of m c Cert.KernelIdeal.main_arg21 (by decide)).trans ((W30_of m c Cert.KernelIdeal.main_arg21 (by decide)).trans ((W29_of m c Cert.KernelIdeal.main_arg21 (by decide)).trans ((W28_of m c Cert.KernelIdeal.main_arg21 (by decide)).trans ((W27_of m c Cert.KernelIdeal.main_arg21 (by decide)).trans ((W26_of m c Cert.KernelIdeal.main_arg21 (by decide)).trans ((W25_of m c Cert.KernelIdeal.main_arg21 (by decide)).trans ((W24_of m c Cert.KernelIdeal.main_arg21 (by decide)).trans ((W23_of m c Cert.KernelIdeal.main_arg21 (by decide)).trans ((W22_of m c Cert.KernelIdeal.main_arg21 (by decide)).trans ((W21_of m c Cert.KernelIdeal.main_arg21 (by decide)).trans ((W20_of m c Cert.KernelIdeal.main_arg21 (by decide)).trans ((W19_of m c Cert.KernelIdeal.main_arg21 (by decide)).trans ((W18_of m c Cert.KernelIdeal.main_arg21 (by decide)).trans ((W17_of m c Cert.KernelIdeal.main_arg21 (by decide)).trans ((W16_of m c Cert.KernelIdeal.main_arg21 (by decide)).trans ((W15_of m c Cert.KernelIdeal.main_arg21 (by decide)).trans ((W14_of m c Cert.KernelIdeal.main_arg21 (by decide)).trans ((W13_of m c Cert.KernelIdeal.main_arg21 (by decide)).trans ((W12_of m c Cert.KernelIdeal.main_arg21 (by decide)).trans ((W11_of m c Cert.KernelIdeal.main_arg21 (by decide)).trans ((W10_of m c Cert.KernelIdeal.main_arg21 (by decide)).trans ((W9_of m c Cert.KernelIdeal.main_arg21 (by decide)).trans ((W8_of m c Cert.KernelIdeal.main_arg21 (by decide)).trans ((W7_of m c Cert.KernelIdeal.main_arg21 (by decide)).trans ((W6_of m c Cert.KernelIdeal.main_arg21 (by decide)).trans ((W5_of m c Cert.KernelIdeal.main_arg21 (by decide)).trans ((W4_of m c Cert.KernelIdeal.main_arg21 (by decide)).trans ((W3_of m c Cert.KernelIdeal.main_arg21 (by decide)).trans ((W2_of m c Cert.KernelIdeal.main_arg21 (by decide)).trans (W1_of m c Cert.KernelIdeal.main_arg21 (by decide))))))))))))))))))))))))))))))))))))))))))))))))))) : W50 m c (Proc.devRef .tc Cert.KernelIdeal.main_arg21) = W0 m c (Proc.devRef .tc Cert.KernelIdeal.main_arg21)) ?_
    refine Eq.trans ?_ (((RW3_of m' c Cert.ReferenceIdeal.main_arg21 (by decide)).trans ((RW2_of m' c Cert.ReferenceIdeal.main_arg21 (by decide)).trans (RW1_of m' c Cert.ReferenceIdeal.main_arg21 (by decide)))) : RW3 m' c (Proc.devRef .tc Cert.ReferenceIdeal.main_arg21) = RW0 m' c (Proc.devRef .tc Cert.ReferenceIdeal.main_arg21)).symm
    exact h.2.2.2.2.2.2.2.2.2.2.2.2.2.2.2.2.2.2.2.2.2.1
  · refine Eq.trans (((W54_of m c Cert.KernelIdeal.main_arg22 (by decide)).trans ((W53_of m c Cert.KernelIdeal.main_arg22 (by decide)).trans ((W52_of m c Cert.KernelIdeal.main_arg22 (by decide)).trans ((W51_of m c Cert.KernelIdeal.main_arg22 (by decide)).trans ((W50_of m c Cert.KernelIdeal.main_arg22 (by decide)).trans ((W49_of m c Cert.KernelIdeal.main_arg22 (by decide)).trans ((W48_of m c Cert.KernelIdeal.main_arg22 (by decide)).trans ((W47_of m c Cert.KernelIdeal.main_arg22 (by decide)).trans ((W46_of m c Cert.KernelIdeal.main_arg22 (by decide)).trans ((W45_of m c Cert.KernelIdeal.main_arg22 (by decide)).trans ((W44_of m c Cert.KernelIdeal.main_arg22 (by decide)).trans ((W43_of m c Cert.KernelIdeal.main_arg22 (by decide)).trans ((W42_of m c Cert.KernelIdeal.main_arg22 (by decide)).trans ((W41_of m c Cert.KernelIdeal.main_arg22 (by decide)).trans ((W40_of m c Cert.KernelIdeal.main_arg22 (by decide)).trans ((W39_of m c Cert.KernelIdeal.main_arg22 (by decide)).trans ((W38_of m c Cert.KernelIdeal.main_arg22 (by decide)).trans ((W37_of m c Cert.KernelIdeal.main_arg22 (by decide)).trans ((W36_of m c Cert.KernelIdeal.main_arg22 (by decide)).trans ((W35_of m c Cert.KernelIdeal.main_arg22 (by decide)).trans ((W34_of m c Cert.KernelIdeal.main_arg22 (by decide)).trans ((W33_of m c Cert.KernelIdeal.main_arg22 (by decide)).trans ((W32_of m c Cert.KernelIdeal.main_arg22 (by decide)).trans ((W31_of m c Cert.KernelIdeal.main_arg22 (by decide)).trans ((W30_of m c Cert.KernelIdeal.main_arg22 (by decide)).trans ((W29_of m c Cert.KernelIdeal.main_arg22 (by decide)).trans ((W28_of m c Cert.KernelIdeal.main_arg22 (by decide)).trans ((W27_of m c Cert.KernelIdeal.main_arg22 (by decide)).trans ((W26_of m c Cert.KernelIdeal.main_arg22 (by decide)).trans ((W25_of m c Cert.KernelIdeal.main_arg22 (by decide)).trans ((W24_of m c Cert.KernelIdeal.main_arg22 (by decide)).trans ((W23_of m c Cert.KernelIdeal.main_arg22 (by decide)).trans ((W22_of m c Cert.KernelIdeal.main_arg22 (by decide)).trans ((W21_of m c Cert.KernelIdeal.main_arg22 (by decide)).trans ((W20_of m c Cert.KernelIdeal.main_arg22 (by decide)).trans ((W19_of m c Cert.KernelIdeal.main_arg22 (by decide)).trans ((W18_of m c Cert.KernelIdeal.main_arg22 (by decide)).trans ((W17_of m c Cert.KernelIdeal.main_arg22 (by decide)).trans ((W16_of m c Cert.KernelIdeal.main_arg22 (by decide)).trans ((W15_of m c Cert.KernelIdeal.main_arg22 (by decide)).trans ((W14_of m c Cert.KernelIdeal.main_arg22 (by decide)).trans ((W13_of m c Cert.KernelIdeal.main_arg22 (by decide)).trans ((W12_of m c Cert.KernelIdeal.main_arg22 (by decide)).trans ((W11_of m c Cert.KernelIdeal.main_arg22 (by decide)).trans ((W10_of m c Cert.KernelIdeal.main_arg22 (by decide)).trans ((W9_of m c Cert.KernelIdeal.main_arg22 (by decide)).trans ((W8_of m c Cert.KernelIdeal.main_arg22 (by decide)).trans ((W7_of m c Cert.KernelIdeal.main_arg22 (by decide)).trans ((W6_of m c Cert.KernelIdeal.main_arg22 (by decide)).trans ((W5_of m c Cert.KernelIdeal.main_arg22 (by decide)).trans ((W4_of m c Cert.KernelIdeal.main_arg22 (by decide)).trans ((W3_of m c Cert.KernelIdeal.main_arg22 (by decide)).trans ((W2_of m c Cert.KernelIdeal.main_arg22 (by decide)).trans (W1_of m c Cert.KernelIdeal.main_arg22 (by decide))))))))))))))))))))))))))))))))))))))))))))))))))))))) : W54 m c (Proc.devRef .tc Cert.KernelIdeal.main_arg22) = W0 m c (Proc.devRef .tc Cert.KernelIdeal.main_arg22)) ?_
    refine Eq.trans ?_ (((RW3_of m' c Cert.ReferenceIdeal.main_arg22 (by decide)).trans ((RW2_of m' c Cert.ReferenceIdeal.main_arg22 (by decide)).trans (RW1_of m' c Cert.ReferenceIdeal.main_arg22 (by decide)))) : RW3 m' c (Proc.devRef .tc Cert.ReferenceIdeal.main_arg22) = RW0 m' c (Proc.devRef .tc Cert.ReferenceIdeal.main_arg22)).symm
    exact h.2.2.2.2.2.2.2.2.2.2.2.2.2.2.2.2.2.2.2.2.2.2.1
  · refine Eq.trans (((W54_of m c Cert.KernelIdeal.main_arg23 (by decide)).trans ((W53_of m c Cert.KernelIdeal.main_arg23 (by decide)).trans ((W52_of m c Cert.KernelIdeal.main_arg23 (by decide)).trans ((W51_of m c Cert.KernelIdeal.main_arg23 (by decide)).trans ((W50_of m c Cert.KernelIdeal.main_arg23 (by decide)).trans ((W49_of m c Cert.KernelIdeal.main_arg23 (by decide)).trans ((W48_of m c Cert.KernelIdeal.main_arg23 (by decide)).trans ((W47_of m c Cert.KernelIdeal.main_arg23 (by decide)).trans ((W46_of m c Cert.KernelIdeal.main_arg23 (by decide)).trans ((W45_of m c Cert.KernelIdeal.main_arg23 (by decide)).trans ((W44_of m c Cert.KernelIdeal.main_arg23 (by decide)).trans ((W43_of m c Cert.KernelIdeal.main_arg23 (by decide)).trans ((W42_of m c Cert.KernelIdeal.main_arg23 (by decide)).trans ((W41_of m c Cert.KernelIdeal.main_arg23 (by decide)).trans ((W40_of m c Cert.KernelIdeal.main_arg23 (by decide)).trans ((W39_of m c Cert.KernelIdeal.main_arg23 (by decide)).trans ((W38_of m c Cert.KernelIdeal.main_arg23 (by decide)).trans ((W37_of m c Cert.KernelIdeal.main_arg23 (by decide)).trans ((W36_of m c Cert.KernelIdeal.main_arg23 (by decide)).trans ((W35_of m c Cert.KernelIdeal.main_arg23 (by decide)).trans ((W34_of m c Cert.KernelIdeal.main_arg23 (by decide)).trans ((W33_of m c Cert.KernelIdeal.main_arg23 (by decide)).trans ((W32_of m c Cert.KernelIdeal.main_arg23 (by decide)).trans ((W31_of m c Cert.KernelIdeal.main_arg23 (by decide)).trans ((W30_of m c Cert.KernelIdeal.main_arg23 (by decide)).trans ((W29_of m c Cert.KernelIdeal.main_arg23 (by decide)).trans ((W28_of m c Cert.KernelIdeal.main_arg23 (by decide)).trans ((W27_of m c Cert.KernelIdeal.main_arg23 (by decide)).trans ((W26_of m c Cert.KernelIdeal.main_arg23 (by decide)).trans ((W25_of m c Cert.KernelIdeal.main_arg23 (by decide)).trans ((W24_of m c Cert.KernelIdeal.main_arg23 (by decide)).trans ((W23_of m c Cert.KernelIdeal.main_arg23 (by decide)).trans ((W22_of m c Cert.KernelIdeal.main_arg23 (by decide)).trans ((W21_of m c Cert.KernelIdeal.main_arg23 (by decide)).trans ((W20_of m c Cert.KernelIdeal.main_arg23 (by decide)).trans ((W19_of m c Cert.KernelIdeal.main_arg23 (by decide)).trans ((W18_of m c Cert.KernelIdeal.main_arg23 (by decide)).trans ((W17_of m c Cert.KernelIdeal.main_arg23 (by decide)).trans ((W16_of m c Cert.KernelIdeal.main_arg23 (by decide)).trans ((W15_of m c Cert.KernelIdeal.main_arg23 (by decide)).trans ((W14_of m c Cert.KernelIdeal.main_arg23 (by decide)).trans ((W13_of m c Cert.KernelIdeal.main_arg23 (by decide)).trans ((W12_of m c Cert.KernelIdeal.main_arg23 (by decide)).trans ((W11_of m c Cert.KernelIdeal.main_arg23 (by decide)).trans ((W10_of m c Cert.KernelIdeal.main_arg23 (by decide)).trans ((W9_of m c Cert.KernelIdeal.main_arg23 (by decide)).trans ((W8_of m c Cert.KernelIdeal.main_arg23 (by decide)).trans ((W7_of m c Cert.KernelIdeal.main_arg23 (by decide)).trans ((W6_of m c Cert.KernelIdeal.main_arg23 (by decide)).trans ((W5_of m c Cert.KernelIdeal.main_arg23 (by decide)).trans ((W4_of m c Cert.KernelIdeal.main_arg23 (by decide)).trans ((W3_of m c Cert.KernelIdeal.main_arg23 (by decide)).trans ((W2_of m c Cert.KernelIdeal.main_arg23 (by decide)).trans (W1_of m c Cert.KernelIdeal.main_arg23 (by decide))))))))))))))))))))))))))))))))))))))))))))))))))))))) : W54 m c (Proc.devRef .tc Cert.KernelIdeal.main_arg23) = W0 m c (Proc.devRef .tc Cert.KernelIdeal.main_arg23)) ?_
    refine Eq.trans ?_ (((RW3_of m' c Cert.ReferenceIdeal.main_arg23 (by decide)).trans ((RW2_of m' c Cert.ReferenceIdeal.main_arg23 (by decide)).trans (RW1_of m' c Cert.ReferenceIdeal.main_arg23 (by decide)))) : RW3 m' c (Proc.devRef .tc Cert.ReferenceIdeal.main_arg23) = RW0 m' c (Proc.devRef .tc Cert.ReferenceIdeal.main_arg23)).symm
    exact h.2.2.2.2.2.2.2.2.2.2.2.2.2.2.2.2.2.2.2.2.2.2.2.1

/-! ## The two sums by target node -/

/-- The kernel's sum of the gated messages by target node, as the segment sum of the array the region left. -/
theorem k_v174_L3 : (T49 m c Cert.KernelIdeal.main_v174 : Mat 50000 64) = segSum64 (T48 m c Cert.KernelIdeal.main_v171_2) (W48 m c (Proc.devRef .tc Cert.KernelIdeal.main_arg4)) := by
  show W49 m c _ = _
  unfold W49
  exact host17_v174 (W48 m c)

/-- The reference's sum of the gated messages by target node, as the same segment sum. -/
theorem r_v342_L3 : (RW4 m' c (Proc.devRef .tc Cert.ReferenceIdeal.main_v342) : Mat 50000 64) = segSum64 (RW4 m' c (Proc.devRef .tc Cert.ReferenceIdeal.main_v339)) (RW3 m' c (Proc.devRef .tc Cert.ReferenceIdeal.main_arg4)) := by
  unfold RW4
  rw [rd_main_v342, rd_main_v341, rd_main_v340, rd_main_cst_45]
  exact segSum64_ref _ _

/-- The kernel's sum of the gates by target node, as the segment sum of the array the region left. -/
theorem k_v177_L3 : (T49 m c Cert.KernelIdeal.main_v177 : Mat 50000 64) = segSum64 (T48 m c Cert.KernelIdeal.main_v171_1) (W48 m c (Proc.devRef .tc Cert.KernelIdeal.main_arg4)) := by
  show W49 m c _ = _
  unfold W49
  exact host17_v177 (W48 m c)

/-- The reference's sum of the gates by target node, as the same segment sum. -/
theorem r_v345_L3 : (RW4 m' c (Proc.devRef .tc Cert.ReferenceIdeal.main_v345) : Mat 50000 64) = segSum64 (RW4 m' c (Proc.devRef .tc Cert.ReferenceIdeal.main_v331)) (RW3 m' c (Proc.devRef .tc Cert.ReferenceIdeal.main_arg4)) := by
  unfold RW4
  rw [rd_main_v345, rd_main_v344, rd_main_v343, rd_main_cst_46]
  exact segSum64_ref _ _

/-- Equal gated messages and equal gates give equal sums by target node. -/
theorem scatter_eq_L3 (hagree : Agree m m')
    (hw : (T48 m c Cert.KernelIdeal.main_v171_2 : Mat 400000 64) = (RW4 m' c (Proc.devRef .tc Cert.ReferenceIdeal.main_v339) : Mat 400000 64))
    (hs : (T48 m c Cert.KernelIdeal.main_v171_1 : Mat 400000 64) = (RW4 m' c (Proc.devRef .tc Cert.ReferenceIdeal.main_v331) : Mat 400000 64)) :
    (T49 m c Cert.KernelIdeal.main_v174 : Mat 50000 64) = (RW4 m' c (Proc.devRef .tc Cert.ReferenceIdeal.main_v342) : Mat 50000 64)
      ∧ (T49 m c Cert.KernelIdeal.main_v177 : Mat 50000 64) = (RW4 m' c (Proc.devRef .tc Cert.ReferenceIdeal.main_v345) : Mat 50000 64) :=
  ⟨(k_v174_L3 m c).trans ((congrArg₂ segSum64 hw (chain_args_L3 m m' c hagree).1).trans (r_v342_L3 m' c).symm),
   (k_v177_L3 m c).trans ((congrArg₂ segSum64 hs (chain_args_L3 m m' c hagree).1).trans (r_v345_L3 m' c).symm)⟩

/-! ## The node normalisation's statistics (50000 rows) -/

/-- The kernel's mean row at a column: the column mean of the array the stretches start from. -/
theorem k_v187_L3 (j : Fin 64) : (T53 m c Cert.KernelIdeal.main_v187 : Mat 1 64) (ix2 0 j) = colMeanN (T50 m c Cert.KernelIdeal.main_v178) (ix1 j) := by
  show W53 m c _ _ = _
  unfold W53 W52 W51
  exact host18_v187 (W50 m c) j

/-- The kernel's variance row at a column. -/
theorem k_v188_L3 (j : Fin 64) : (T53 m c Cert.KernelIdeal.main_v188 : Mat 1 64) (ix2 0 j) = colVarN (T50 m c Cert.KernelIdeal.main_v178) (ix1 j) := by
  show W53 m c _ _ = _
  unfold W53 W52 W51
  exact host18_v188 (W50 m c) j

/-- The kernel's gain row at a column: the argument's row 2. -/
theorem k_v189_L3 (j : Fin 64) : (T53 m c Cert.KernelIdeal.main_v189 : Mat 1 64) (ix2 0 j) = (W50 m c (Proc.devRef .tc Cert.KernelIdeal.main_arg20) : Cert.KernelIdeal.S3x64.Idx → EReal) (ix2 2 j) := by
  show W53 m c _ _ = _
  unfold W53 W52 W51
  exact host18_v189 (W50 m c) j

/-- The kernel's bias row at a column: the argument's row 2. -/
theorem k_v190_L3 (j : Fin 64) : (T53 m c Cert.KernelIdeal.main_v190 : Mat 1 64) (ix2 0 j) = (W50 m c (Proc.devRef .tc Cert.KernelIdeal.main_arg21) : Cert.KernelIdeal.S3x64.Idx → EReal) (ix2 2 j) := by
  show W53 m c _ _ = _
  unfold W53 W52 W51
  exact host18_v190 (W50 m c) j

/-- The reference's mean vector: the same column mean. -/
theorem r_v356_L3 : (RW4 m' c (Proc.devRef .tc Cert.ReferenceIdeal.main_v356) : Cert.KernelIdeal.S64.Idx → EReal) = colMeanN (RW4 m' c (Proc.devRef .tc Cert.ReferenceIdeal.main_v349)) := by
  unfold RW4
  rw [rd_main_v356, rd_main_v355, rd_main_cst_49, rd_main_v354, rd_main_cst_48]
  exact colMeanN_ref _

set_option maxHeartbeats 1600000 in
/-- The reference's variance vector: the same column variance. -/
theorem r_v357_L3 : (RW4 m' c (Proc.devRef .tc Cert.ReferenceIdeal.main_v357) : Cert.KernelIdeal.S64.Idx → EReal) = colVarN (RW4 m' c (Proc.devRef .tc Cert.ReferenceIdeal.main_v349)) := by
  unfold RW4
  rw [rd_main_v357, rd_main_call8_call0_v1, rd_main_call8_call0_v0, rd_main_call8_cst_4, rd_main_call8_v12, rd_main_call8_cst_3, rd_main_call8_v11, rd_main_call8_v10, rd_main_call8_v9, rd_main_call8_cst_2, rd_main_call8_v8, rd_main_call8_cst_1, rd_main_call8_v7, rd_main_call8_v6, rd_main_call8_v5, rd_main_call8_v4, rd_main_call8_v3, rd_main_call8_v2, rd_main_call8_cst_0, rd_main_call8_v1, rd_main_call8_v0, rd_main_call8_cst, rd_main_c_50]
  exact colVarN_ref _

/-- The reference's gain vector at an entry: the argument's row 2. -/
theorem r_v351_L3 (j : Fin 64) : (RW4 m' c (Proc.devRef .tc Cert.ReferenceIdeal.main_v351) : Cert.KernelIdeal.S64.Idx → EReal) (ix1 j) = (RW3 m' c (Proc.devRef .tc Cert.ReferenceIdeal.main_arg20) : Cert.KernelIdeal.S3x64.Idx → EReal) (ix2 2 j) := by
  unfold RW4
  rw [rd_main_v351, rd_main_v350]
  exact ref_row2_vec_apply _ j

/-- The reference's bias vector at an entry: the argument's row 2. -/
theorem r_v353_L3 (j : Fin 64) : (RW4 m' c (Proc.devRef .tc Cert.ReferenceIdeal.main_v353) : Cert.KernelIdeal.S64.Idx → EReal) (ix1 j) = (RW3 m' c (Proc.devRef .tc Cert.ReferenceIdeal.main_arg21) : Cert.KernelIdeal.S3x64.Idx → EReal) (ix2 2 j) := by
  unfold RW4
  rw [rd_main_v353, rd_main_v352]
  exact ref_row2_vec_apply _ j

/-- Equal node arrays give equal mean, variance, gain and bias rows. -/
theorem stats_h_L3 (hagree : Agree m m')
    (hx : (T50 m c Cert.KernelIdeal.main_v178 : Mat 50000 64) = (RW4 m' c (Proc.devRef .tc Cert.ReferenceIdeal.main_v349) : Mat 50000 64)) :
    (∀ j : Fin 64, (T53 m c Cert.KernelIdeal.main_v187 : Mat 1 64) (ix2 0 j) = (RW4 m' c (Proc.devRef .tc Cert.ReferenceIdeal.main_v356) : Cert.KernelIdeal.S64.Idx → EReal) (ix1 j))
      ∧ (∀ j : Fin 64, (T53 m c Cert.KernelIdeal.main_v188 : Mat 1 64) (ix2 0 j) = (RW4 m' c (Proc.devRef .tc Cert.ReferenceIdeal.main_v357) : Cert.KernelIdeal.S64.Idx → EReal) (ix1 j))
      ∧ (∀ j : Fin 64, (T53 m c Cert.KernelIdeal.main_v189 : Mat 1 64) (ix2 0 j) = (RW4 m' c (Proc.devRef .tc Cert.ReferenceIdeal.main_v351) : Cert.KernelIdeal.S64.Idx → EReal) (ix1 j))
      ∧ (∀ j : Fin 64, (T53 m c Cert.KernelIdeal.main_v190 : Mat 1 64) (ix2 0 j) = (RW4 m' c (Proc.devRef .tc Cert.ReferenceIdeal.main_v353) : Cert.KernelIdeal.S64.Idx → EReal) (ix1 j)) :=
  ⟨fun j => (k_v187_L3 m c j).trans (congrFun ((congrArg colMeanN hx).trans (r_v356_L3 m' c).symm) (ix1 j)),
   fun j => (k_v188_L3 m c j).trans (congrFun ((congrArg colVarN hx).trans (r_v357_L3 m' c).symm) (ix1 j)),
   fun j => (k_v189_L3 m c j).trans ((congrFun (chain_args_L3 m m' c hagree).2.1 (ix2 2 j)).trans (r_v351_L3 m' c j).symm),
   fun j => (k_v190_L3 m c j).trans ((congrFun (chain_args_L3 m m' c hagree).2.2.1 (ix2 2 j)).trans (r_v353_L3 m' c j).symm)⟩

/-! ## The edge normalisation's statistics (400000 rows) -/

/-- The kernel's mean row at a column: the column mean of the array the stretches start from. -/
theorem k_v200_L3 (j : Fin 64) : (T57 m c Cert.KernelIdeal.main_v200 : Mat 1 64) (ix2 0 j) = colMeanE (W54 m c (Proc.devRef .tc Cert.KernelIdeal.main_v171_0)) (ix1 j) := by
  show W57 m c _ _ = _
  unfold W57 W56 W55
  exact host19_v200 (W54 m c) j

/-- The kernel's variance row at a column. -/
theorem k_v201_L3 (j : Fin 64) : (T57 m c Cert.KernelIdeal.main_v201 : Mat 1 64) (ix2 0 j) = colVarE (W54 m c (Proc.devRef .tc Cert.KernelIdeal.main_v171_0)) (ix1 j) := by
  show W57 m c _ _ = _
  unfold W57 W56 W55
  exact host19_v201 (W54 m c) j

/-- The kernel's gain row at a column: the argument's row 2. -/
theorem k_v202_L3 (j : Fin 64) : (T57 m c Cert.KernelIdeal.main_v202 : Mat 1 64) (ix2 0 j) = (W54 m c (Proc.devRef .tc Cert.KernelIdeal.main_arg22) : Cert.KernelIdeal.S3x64.Idx → EReal) (ix2 2 j) := by
  show W57 m c _ _ = _
  unfold W57 W56 W55
  exact host19_v202 (W54 m c) j

/-- The kernel's bias row at a column: the argument's row 2. -/
theorem k_v203_L3 (j : Fin 64) : (T57 m c Cert.KernelIdeal.main_v203 : Mat 1 64) (ix2 0 j) = (W54 m c (Proc.devRef .tc Cert.KernelIdeal.main_arg23) : Cert.KernelIdeal.S3x64.Idx → EReal) (ix2 2 j) := by
  show W57 m c _ _ = _
  unfold W57 W56 W55
  exact host19_v203 (W54 m c) j

/-- The reference's mean vector: the same column mean. -/
theorem r_v381_L3 : (RW4 m' c (Proc.devRef .tc Cert.ReferenceIdeal.main_v381) : Cert.KernelIdeal.S64.Idx → EReal) = colMeanE (RW4 m' c (Proc.devRef .tc Cert.ReferenceIdeal.main_v325)) := by
  unfold RW4
  rw [rd_main_v381, rd_main_v380, rd_main_cst_53, rd_main_v379, rd_main_cst_52]
  exact colMeanE_ref _

set_option maxHeartbeats 1600000 in
/-- The reference's variance vector: the same column variance. -/
theorem r_v382_L3 : (RW4 m' c (Proc.devRef .tc Cert.ReferenceIdeal.main_v382) : Cert.KernelIdeal.S64.Idx → EReal) = colVarE (RW4 m' c (Proc.devRef .tc Cert.ReferenceIdeal.main_v325)) := by
  unfold RW4
  rw [rd_main_v382, rd_main_call10_call0_v1, rd_main_call10_call0_v0, rd_main_call10_cst_4, rd_main_call10_v12, rd_main_call10_cst_3, rd_main_call10_v11, rd_main_call10_v10, rd_main_call10_v9, rd_main_call10_cst_2, rd_main_call10_v8, rd_main_call10_cst_1, rd_main_call10_v7, rd_main_call10_v6, rd_main_call10_v5, rd_main_call10_v4, rd_main_call10_v3, rd_main_call10_v2, rd_main_call10_cst_0, rd_main_call10_v1, rd_main_call10_v0, rd_main_call10_cst, rd_main_c_54]
  exact colVarE_ref _

/-- The reference's gain vector at an entry: the argument's row 2. -/
theorem r_v376_L3 (j : Fin 64) : (RW4 m' c (Proc.devRef .tc Cert.ReferenceIdeal.main_v376) : Cert.KernelIdeal.S64.Idx → EReal) (ix1 j) = (RW3 m' c (Proc.devRef .tc Cert.ReferenceIdeal.main_arg22) : Cert.KernelIdeal.S3x64.Idx → EReal) (ix2 2 j) := by
  unfold RW4
  rw [rd_main_v376, rd_main_v375]
  exact ref_row2_vec_apply _ j

/-- The reference's bias vector at an entry: the argument's row 2. -/
theorem r_v378_L3 (j : Fin 64) : (RW4 m' c (Proc.devRef .tc Cert.ReferenceIdeal.main_v378) : Cert.KernelIdeal.S64.Idx → EReal) (ix1 j) = (RW3 m' c (Proc.devRef .tc Cert.ReferenceIdeal.main_arg23) : Cert.KernelIdeal.S3x64.Idx → EReal) (ix2 2 j) := by
  unfold RW4
  rw [rd_main_v378, rd_main_v377]
  exact ref_row2_vec_apply _ j

/-- The gate arguments the edge statistics start from are still what the edge region left. -/
theorem k_v171_0_at54_L3 : W54 m c (Proc.devRef .tc Cert.KernelIdeal.main_v171_0) = W48 m c (Proc.devRef .tc Cert.KernelIdeal.main_v171_0) :=
  ((W54_of m c Cert.KernelIdeal.main_v171_0 (by decide)).trans ((W53_of m c Cert.KernelIdeal.main_v171_0 (by decide)).trans ((W52_of m c Cert.KernelIdeal.main_v171_0 (by decide)).trans ((W51_of m c Cert.KernelIdeal.main_v171_0 (by decide)).trans ((W50_of m c Cert.KernelIdeal.main_v171_0 (by decide)).trans (W49_of m c Cert.KernelIdeal.main_v171_0 (by decide)))))))

/-- Equal gate-argument arrays give equal mean, variance, gain and bias rows. -/
theorem stats_e_L3 (hagree : Agree m m')
    (hx : (T48 m c Cert.KernelIdeal.main_v171_0 : Mat 400000 64) = (RW4 m' c (Proc.devRef .tc Cert.ReferenceIdeal.main_v325) : Mat 400000 64)) :
    (∀ j : Fin 64, (T57 m c Cert.KernelIdeal.main_v200 : Mat 1 64) (ix2 0 j) = (RW4 m' c (Proc.devRef .tc Cert.ReferenceIdeal.main_v381) : Cert.KernelIdeal.S64.Idx → EReal) (ix1 j))
      ∧ (∀ j : Fin 64, (T57 m c Cert.KernelIdeal.main_v201 : Mat 1 64) (ix2 0 j) = (RW4 m' c (Proc.devRef .tc Cert.ReferenceIdeal.main_v382) : Cert.KernelIdeal.S64.Idx → EReal) (ix1 j))
      ∧ (∀ j : Fin 64, (T57 m c Cert.KernelIdeal.main_v202 : Mat 1 64) (ix2 0 j) = (RW4 m' c (Proc.devRef .tc Cert.ReferenceIdeal.main_v376) : Cert.KernelIdeal.S64.Idx → EReal) (ix1 j))
      ∧ (∀ j : Fin 64, (T57 m c Cert.KernelIdeal.main_v203 : Mat 1 64) (ix2 0 j) = (RW4 m' c (Proc.devRef .tc Cert.ReferenceIdeal.main_v378) : Cert.KernelIdeal.S64.Idx → EReal) (ix1 j)) := by
  have hx' : (W54 m c (Proc.devRef .tc Cert.KernelIdeal.main_v171_0) : Mat 400000 64) = (RW4 m' c (Proc.devRef .tc Cert.ReferenceIdeal.main_v325) : Mat 400000 64) := (k_v171_0_at54_L3 m c).trans hx
  exact
  ⟨fun j => (k_v200_L3 m c j).trans (congrFun ((congrArg colMeanE hx').trans (r_v381_L3 m' c).symm) (ix1 j)),
   fun j => (k_v201_L3 m c j).trans (congrFun ((congrArg colVarE hx').trans (r_v382_L3 m' c).symm) (ix1 j)),
   fun j => (k_v202_L3 m c j).trans ((congrFun (chain_args_L3 m m' c hagree).2.2.2.1 (ix2 2 j)).trans (r_v376_L3 m' c j).symm),
   fun j => (k_v203_L3 m c j).trans ((congrFun (chain_args_L3 m m' c hagree).2.2.2.2 (ix2 2 j)).trans (r_v378_L3 m' c j).symm)⟩

end Cert.Sim
-- ==== Proof.Sim.Layer3.lean ====
import proofs.«431450_j74423193305350_1_alg».proof.Proof.Sim.Dense3
import proofs.«431450_j74423193305350_1_alg».proof.Proof.Sim.Take3
import proofs.«431450_j74423193305350_1_alg».proof.Proof.Sim.Elem3
import proofs.«431450_j74423193305350_1_alg».proof.Proof.Sim.Chain3

/-! Layer 3 of the network, kernel against reference: if the node and edge feature arrays the layer starts from
    agree, so do the ones it ends with. The layer's steps in order — the dense layers, the three row gathers, the
    gate, the two segment sums, the node update, the node normalisation, the edge normalisation — each one's
    pairing applied to the pairings before it, a buffer no item in between writes carried across those items. -/
set_option maxRecDepth 16384

noncomputable section

namespace Cert.Sim

open Idealize.ShloMosaic Idealize.ShloMosaic.TcCoe Idealize.ShloMosaic.ValueIdx Idealize.ShloMosaic.StableHlo
open Idealize.SL.Sem
open Cert.KernelIdeal.Hand Cert.ReferenceIdeal.Hand
open Cert.Spec (Mat)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

theorem layer3 (hpre : Cert.Pre_KernelIdeal m) (hagree : Agree m m') (c : Dev Cert.KernelIdeal.nD)
    (hh : (T40 m c Cert.KernelIdeal.main_v124 : Mat 50000 64) = (RW3 m' c (Proc.devRef .tc Cert.ReferenceIdeal.main_v244) : Mat 50000 64))
    (he : (T40 m c Cert.KernelIdeal.main_v137 : Mat 400000 64) = (RW3 m' c (Proc.devRef .tc Cert.ReferenceIdeal.main_v269) : Mat 400000 64)) :
    (T58 m c Cert.KernelIdeal.main_v191 : Mat 50000 64) = (RW4 m' c (Proc.devRef .tc Cert.ReferenceIdeal.main_v374) : Mat 50000 64) := by
  obtain ⟨hA, hB, hD, hE⟩ := (dense3_eqs m m' hagree c).1 hh
  have hC := (dense3_eqs m m' hagree c).2 he
  have hD8 : (T44 m c Cert.KernelIdeal.main_v160 : Mat 50000 64) = (RW4 m' c (Proc.devRef .tc Cert.ReferenceIdeal.main_v293) : Mat 50000 64) :=
    Eq.trans (W44_of m c Cert.KernelIdeal.main_v160 (by decide)) hD
  have hE8 : (T44 m c Cert.KernelIdeal.main_v161 : Mat 50000 64) = (RW4 m' c (Proc.devRef .tc Cert.ReferenceIdeal.main_v301) : Mat 50000 64) :=
    Eq.trans (W44_of m c Cert.KernelIdeal.main_v161 (by decide)) hE
  have hB8 : (T44 m c Cert.KernelIdeal.main_v159 : Mat 50000 64) = (RW4 m' c (Proc.devRef .tc Cert.ReferenceIdeal.main_v285) : Mat 50000 64) :=
    Eq.trans (W44_of m c Cert.KernelIdeal.main_v159 (by decide)) hB
  obtain ⟨h34, h35, h36⟩ := take_eq3 m m' hpre hagree c hD8 hE8 hB8
  have h34' : (T47 m c Cert.KernelIdeal.main_v168 : Mat 400000 64) = (RW4 m' c (Proc.devRef .tc Cert.ReferenceIdeal.main_v316) : Mat 400000 64) :=
    Eq.trans ((W47_of m c Cert.KernelIdeal.main_v168 (by decide)).trans (W46_of m c Cert.KernelIdeal.main_v168 (by decide))) h34
  have h35' : (T47 m c Cert.KernelIdeal.main_v169 : Mat 400000 64) = (RW4 m' c (Proc.devRef .tc Cert.ReferenceIdeal.main_v323) : Mat 400000 64) :=
    Eq.trans (W47_of m c Cert.KernelIdeal.main_v169 (by decide)) h35
  have h33' : (T47 m c Cert.KernelIdeal.main_v167 : Mat 400000 64) = (RW4 m' c (Proc.devRef .tc Cert.ReferenceIdeal.main_v309) : Mat 400000 64) :=
    Eq.trans ((W47_of m c Cert.KernelIdeal.main_v167 (by decide)).trans ((W46_of m c Cert.KernelIdeal.main_v167 (by decide)).trans (W45_of m c Cert.KernelIdeal.main_v167 (by decide)))) hC
  obtain ⟨hg0, hg1, hg2⟩ := gate_eq3 m m' c h34' h35' h33' h36
  obtain ⟨h40, h43⟩ := scatter_eq_L3 m m' c hagree hg2 hg1
  have hA13 : (T49 m c Cert.KernelIdeal.main_v158 : Mat 50000 64) = (RW4 m' c (Proc.devRef .tc Cert.ReferenceIdeal.main_v277) : Mat 50000 64) :=
    Eq.trans ((W49_of m c Cert.KernelIdeal.main_v158 (by decide)).trans ((W48_of m c Cert.KernelIdeal.main_v158 (by decide)).trans ((W47_of m c Cert.KernelIdeal.main_v158 (by decide)).trans ((W46_of m c Cert.KernelIdeal.main_v158 (by decide)).trans ((W45_of m c Cert.KernelIdeal.main_v158 (by decide)).trans (W44_of m c Cert.KernelIdeal.main_v158 (by decide))))))) hA
  have h44 := node_eq3 m m' c hA13 h40 h43
  obtain ⟨sm, sv, sg, sb⟩ := stats_h_L3 m m' c hagree h44
  have h44' : (T53 m c Cert.KernelIdeal.main_v178 : Mat 50000 64) = (RW4 m' c (Proc.devRef .tc Cert.ReferenceIdeal.main_v349) : Mat 50000 64) :=
    Eq.trans ((W53_of m c Cert.KernelIdeal.main_v178 (by decide)).trans ((W52_of m c Cert.KernelIdeal.main_v178 (by decide)).trans (W51_of m c Cert.KernelIdeal.main_v178 (by decide)))) h44
  have hres : (T53 m c Cert.KernelIdeal.main_v124 : Mat 50000 64) = (RW3 m' c (Proc.devRef .tc Cert.ReferenceIdeal.main_v244) : Mat 50000 64) :=
    Eq.trans ((W53_of m c Cert.KernelIdeal.main_v124 (by decide)).trans ((W52_of m c Cert.KernelIdeal.main_v124 (by decide)).trans ((W51_of m c Cert.KernelIdeal.main_v124 (by decide)).trans ((W50_of m c Cert.KernelIdeal.main_v124 (by decide)).trans ((W49_of m c Cert.KernelIdeal.main_v124 (by decide)).trans ((W48_of m c Cert.KernelIdeal.main_v124 (by decide)).trans ((W47_of m c Cert.KernelIdeal.main_v124 (by decide)).trans ((W46_of m c Cert.KernelIdeal.main_v124 (by decide)).trans ((W45_of m c Cert.KernelIdeal.main_v124 (by decide)).trans ((W44_of m c Cert.KernelIdeal.main_v124 (by decide)).trans ((W43_of m c Cert.KernelIdeal.main_v124 (by decide)).trans ((W42_of m c Cert.KernelIdeal.main_v124 (by decide)).trans (W41_of m c Cert.KernelIdeal.main_v124 (by decide)))))))))))))) hh
  have h57 := bnh_eq3 m m' c h44' hres sm sv sg sb
  exact Eq.trans ((W58_of m c Cert.KernelIdeal.main_v191 (by decide)).trans ((W57_of m c Cert.KernelIdeal.main_v191 (by decide)).trans ((W56_of m c Cert.KernelIdeal.main_v191 (by decide)).trans (W55_of m c Cert.KernelIdeal.main_v191 (by decide))))) h57

end Cert.Sim

end
-- ==== Proof.KI.Val20.lean ====
import proofs.«431450_j74423193305350_1_alg».proof.Proof.KI.Reg20
import Idealize.ShloMosaic.Lib.Pipeline.Value
import Idealize.ShloMosaic.Lib.ValueIdx
import Idealize.ShloMosaic.PureOps.Ideal.Laws

/-! Region 20 (the three-layer perceptron head) at the extended reals: its grid has one point and every window's
    block is its whole array, so the output array after that point is the body's function of the seven input
    arrays as the region finds them. -/
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeroOff20 : (![0, 0] : Fin 2 → Nat) = fun _ => 0 := funext fun a => by fin_cases a <;> rfl

/-- The printed index maps, decided over the grid: every window's block at the one point is block 0 on both axes. -/
theorem idxFacts20 : ∀ t : Fin cfg20.N, win20_0.index t (0 : Fin 2) = 0 ∧ win20_0.index t (1 : Fin 2) = 0
    ∧ win20_1.index t (0 : Fin 2) = 0 ∧ win20_1.index t (1 : Fin 2) = 0
    ∧ win20_2.index t (0 : Fin 2) = 0 ∧ win20_2.index t (1 : Fin 2) = 0
    ∧ win20_3.index t (0 : Fin 2) = 0 ∧ win20_3.index t (1 : Fin 2) = 0
    ∧ win20_4.index t (0 : Fin 2) = 0 ∧ win20_4.index t (1 : Fin 2) = 0
    ∧ win20_5.index t (0 : Fin 2) = 0 ∧ win20_5.index t (1 : Fin 2) = 0
    ∧ win20_6.index t (0 : Fin 2) = 0 ∧ win20_6.index t (1 : Fin 2) = 0
    ∧ win20_7.index t (0 : Fin 2) = 0 ∧ win20_7.index t (1 : Fin 2) = 0 :=
  (by decide +kernel : ∀ t : Fin grid20.N, _)

/-! Each window's block at the one point sits at the array's own indices. -/

theorem embId20_0 (t : Fin cfg20.N) (j : S16x68.Idx) : ((cfg20.win 0).blk t).view.emb j = j := by
  obtain ⟨a0, a1, b0, b1, d0, d1, e0, e1, f0, f1, g0, g1, h0, h1, k0, k1⟩ := idxFacts20 t
  funext a; apply Fin.ext
  match a with
  | ⟨0, _⟩ => show win20_0.index t (0 : Fin 2) * 16 + 1 * (j 0).val = (j 0).val; omega
  | ⟨1, _⟩ => show win20_0.index t (1 : Fin 2) * 68 + 1 * (j 1).val = (j 1).val; omega

theorem embId20_1 (t : Fin cfg20.N) (j : S68x256.Idx) : ((cfg20.win 1).blk t).view.emb j = j := by
  obtain ⟨a0, a1, b0, b1, d0, d1, e0, e1, f0, f1, g0, g1, h0, h1, k0, k1⟩ := idxFacts20 t
  funext a; apply Fin.ext
  match a with
  | ⟨0, _⟩ => show win20_1.index t (0 : Fin 2) * 68 + 1 * (j 0).val = (j 0).val; omega
  | ⟨1, _⟩ => show win20_1.index t (1 : Fin 2) * 256 + 1 * (j 1).val = (j 1).val; omega

theorem embId20_2 (t : Fin cfg20.N) (j : S1x256.Idx) : ((cfg20.win 2).blk t).view.emb j = j := by
  obtain ⟨a0, a1, b0, b1, d0, d1, e0, e1, f0, f1, g0, g1, h0, h1, k0, k1⟩ := idxFacts20 t
  funext a; apply Fin.ext
  match a with
  | ⟨0, _⟩ => show win20_2.index t (0 : Fin 2) * 1 + 1 * (j 0).val = (j 0).val; omega
  | ⟨1, _⟩ => show win20_2.index t (1 : Fin 2) * 256 + 1 * (j 1).val = (j 1).val; omega

theorem embId20_3 (t : Fin cfg20.N) (j : S256x256.Idx) : ((cfg20.win 3).blk t).view.emb j = j := by
  obtain ⟨a0, a1, b0, b1, d0, d1, e0, e1, f0, f1, g0, g1, h0, h1, k0, k1⟩ := idxFacts20 t
  funext a; apply Fin.ext
  match a with
  | ⟨0, _⟩ => show win20_3.index t (0 : Fin 2) * 256 + 1 * (j 0).val = (j 0).val; omega
  | ⟨1, _⟩ => show win20_3.index t (1 : Fin 2) * 256 + 1 * (j 1).val = (j 1).val; omega

theorem embId20_4 (t : Fin cfg20.N) (j : S1x256.Idx) : ((cfg20.win 4).blk t).view.emb j = j := by
  obtain ⟨a0, a1, b0, b1, d0, d1, e0, e1, f0, f1, g0, g1, h0, h1, k0, k1⟩ := idxFacts20 t
  funext a; apply Fin.ext
  match a with
  | ⟨0, _⟩ => show win20_4.index t (0 : Fin 2) * 1 + 1 * (j 0).val = (j 0).val; omega
  | ⟨1, _⟩ => show win20_4.index t (1 : Fin 2) * 256 + 1 * (j 1).val = (j 1).val; omega

theorem embId20_5 (t : Fin cfg20.N) (j : S256x2.Idx) : ((cfg20.win 5).blk t).view.emb j = j := by
  obtain ⟨a0, a1, b0, b1, d0, d1, e0, e1, f0, f1, g0, g1, h0, h1, k0, k1⟩ := idxFacts20 t
  funext a; apply Fin.ext
  match a with
  | ⟨0, _⟩ => show win20_5.index t (0 : Fin 2) * 256 + 1 * (j 0).val = (j 0).val; omega
  | ⟨1, _⟩ => show win20_5.index t (1 : Fin 2) * 2 + 1 * (j 1).val = (j 1).val; omega

theorem embId20_6 (t : Fin cfg20.N) (j : S1x2.Idx) : ((cfg20.win 6).blk t).view.emb j = j := by
  obtain ⟨a0, a1, b0, b1, d0, d1, e0, e1, f0, f1, g0, g1, h0, h1, k0, k1⟩ := idxFacts20 t
  funext a; apply Fin.ext
  match a with
  | ⟨0, _⟩ => show win20_6.index t (0 : Fin 2) * 1 + 1 * (j 0).val = (j 0).val; omega
  | ⟨1, _⟩ => show win20_6.index t (1 : Fin 2) * 2 + 1 * (j 1).val = (j 1).val; omega

theorem embId20_7 (t : Fin cfg20.N) (j : S16x2.Idx) : ((cfg20.win 7).blk t).view.emb j = j := by
  obtain ⟨a0, a1, b0, b1, d0, d1, e0, e1, f0, f1, g0, g1, h0, h1, k0, k1⟩ := idxFacts20 t
  funext a; apply Fin.ext
  match a with
  | ⟨0, _⟩ => show win20_7.index t (0 : Fin 2) * 16 + 1 * (j 0).val = (j 0).val; omega
  | ⟨1, _⟩ => show win20_7.index t (1 : Fin 2) * 2 + 1 * (j 1).val = (j 1).val; omega

/-! So each input window's block at the one point is its whole array. -/

theorem iblk20_0_eq (c : Dev nD) (t : Fin cfg20.N) : iblk20 V c 0 t = (V c main_v215 : S16x68.Idx → EReal) := by
  funext j
  show V c main_v215 (((cfg20.win 0).blk t).view.emb j) = V c main_v215 j
  rw [embId20_0 t j]

theorem iblk20_1_eq (c : Dev nD) (t : Fin cfg20.N) : iblk20 V c 1 t = (V c main_arg24 : S68x256.Idx → EReal) := by
  funext j
  show V c main_arg24 (((cfg20.win 1).blk t).view.emb j) = V c main_arg24 j
  rw [embId20_1 t j]

theorem iblk20_2_eq (c : Dev nD) (t : Fin cfg20.N) : iblk20 V c 2 t = (V c main_v216 : S1x256.Idx → EReal) := by
  funext j
  show V c main_v216 (((cfg20.win 2).blk t).view.emb j) = V c main_v216 j
  rw [embId20_2 t j]

theorem iblk20_3_eq (c : Dev nD) (t : Fin cfg20.N) : iblk20 V c 3 t = (V c main_arg26 : S256x256.Idx → EReal) := by
  funext j
  show V c main_arg26 (((cfg20.win 3).blk t).view.emb j) = V c main_arg26 j
  rw [embId20_3 t j]

theorem iblk20_4_eq (c : Dev nD) (t : Fin cfg20.N) : iblk20 V c 4 t = (V c main_v217 : S1x256.Idx → EReal) := by
  funext j
  show V c main_v217 (((cfg20.win 4).blk t).view.emb j) = V c main_v217 j
  rw [embId20_4 t j]

theorem iblk20_5_eq (c : Dev nD) (t : Fin cfg20.N) : iblk20 V c 5 t = (V c main_arg28 : S256x2.Idx → EReal) := by
  funext j
  show V c main_arg28 (((cfg20.win 5).blk t).view.emb j) = V c main_arg28 j
  rw [embId20_5 t j]

theorem iblk20_6_eq (c : Dev nD) (t : Fin cfg20.N) : iblk20 V c 6 t = (V c main_v218 : S1x2.Idx → EReal) := by
  funext j
  show V c main_v218 (((cfg20.win 6).blk t).view.emb j) = V c main_v218 j
  rw [embId20_6 t j]

/-- What the one point writes back is the (whole) block of the body's function of the input arrays. -/
theorem flushed20_7_eq (c : Dev nD) (t : Fin cfg20.N) :
    (dat20 V c).flushed 7 t = ((cfg20.win 7).blk t).view.read (Elt Ideal) (k20_pay1 (V c main_v215 : S16x68.Idx → EReal) (V c main_arg24 : S68x256.Idx → EReal) (V c main_v216 : S1x256.Idx → EReal) (V c main_arg26 : S256x256.Idx → EReal) (V c main_v217 : S1x256.Idx → EReal) (V c main_arg28 : S256x2.Idx → EReal) (V c main_v218 : S1x2.Idx → EReal)) := by
  show (cfg20.win 7).cut (grid20.coords t) ((dat20 V c).after 7 t) = _
  rw [after20_7]
  unfold out20_7
  rw [View.canon_unit_zero zeroOff20]
  simp only [View.ld_unit_zero (S := S16x68) zeroOff20, View.ld_unit_zero (S := S68x256) zeroOff20, View.ld_unit_zero (S := S1x256) zeroOff20, View.ld_unit_zero (S := S256x256) zeroOff20, View.ld_unit_zero (S := S256x2) zeroOff20, View.ld_unit_zero (S := S1x2) zeroOff20]
  rw [iblk20_0_eq, iblk20_1_eq, iblk20_2_eq, iblk20_3_eq, iblk20_4_eq, iblk20_5_eq, iblk20_6_eq]
  funext j
  show k20_pay1 (V c main_v215 : S16x68.Idx → EReal) (V c main_arg24 : S68x256.Idx → EReal) (V c main_v216 : S1x256.Idx → EReal) (V c main_arg26 : S256x256.Idx → EReal) (V c main_v217 : S1x256.Idx → EReal) (V c main_arg28 : S256x2.Idx → EReal) (V c main_v218 : S1x2.Idx → EReal) j = k20_pay1 (V c main_v215 : S16x68.Idx → EReal) (V c main_arg24 : S68x256.Idx → EReal) (V c main_v216 : S1x256.Idx → EReal) (V c main_arg26 : S256x256.Idx → EReal) (V c main_v217 : S1x256.Idx → EReal) (V c main_arg28 : S256x2.Idx → EReal) (V c main_v218 : S1x2.Idx → EReal) (((cfg20.win 7).blk t).view.emb j)
  rw [embId20_7 t j]

/-- An index of the output array is in the point's block iff each coordinate is in the block's range on its axis. -/
theorem memBlk20_7 (t : Fin cfg20.N) (i : S16x2.Idx) :
    i ∈ ((cfg20.win 7).blk t).view.set ↔ ∀ a : Fin 2, win20_7.index t a * S16x2.size a ≤ (i a).val ∧ (i a).val < win20_7.index t a * S16x2.size a + S16x2.size a := by
  show i ∈ ((View.whole main_v219).slice (win20_7.rect t)).set ↔ _
  rw [View.set_slice_whole, Rect.mem_set_unit]
  exact Iff.rfl

/-- Every index of the output array is in the one point's block. -/
theorem covered20_7 (i : S16x2.Idx) :
    ∃ t : Fin cfg20.N, (cfg20.win 7).flush t = true ∧ i ∈ ((cfg20.win 7).blk t).view.set := by
  have hi0 : (i 0).val < 16 := (i 0).isLt
  have hi1 : (i 1).val < 2 := (i 1).isLt
  let t : Fin cfg20.N := t20_0
  obtain ⟨a0, a1, b0, b1, d0, d1, e0, e1, f0, f1, g0, g1, h0, h1, k0, k1⟩ := idxFacts20 t
  refine ⟨t, flush20_7 t, ?_⟩
  rw [memBlk20_7]
  intro a
  match a with
  | ⟨0, _⟩ =>
    show win20_7.index t (0 : Fin 2) * 16 ≤ (i 0).val ∧ (i 0).val < win20_7.index t (0 : Fin 2) * 16 + 16
    omega
  | ⟨1, _⟩ =>
    show win20_7.index t (1 : Fin 2) * 2 ≤ (i 1).val ∧ (i 1).val < win20_7.index t (1 : Fin 2) * 2 + 2
    omega

/-- The output array after the one point is the body's function of the seven input arrays as the region finds them. -/
theorem final20 (c : Dev nD) : (dat20 (F := Ideal) V c).arrAt 7 cfg20.N = k20_pay1 (V c main_v215 : S16x68.Idx → EReal) (V c main_arg24 : S68x256.Idx → EReal) (V c main_v216 : S1x256.Idx → EReal) (V c main_arg26 : S256x256.Idx → EReal) (V c main_v217 : S1x256.Idx → EReal) (V c main_arg28 : S256x2.Idx → EReal) (V c main_v218 : S1x2.Idx → EReal) :=
  (dat20 V c).arrAt_eq_of_cover 7 _ (fun t _ => flushed20_7_eq V c t) covered20_7

end Cert.KernelIdeal.Hand

end
-- ==== Proof.MlpEq.lean ====
import proofs.«431450_j74423193305350_1_alg».proof.Proof.Gen.KernelIdeal.Skeleton
import proofs.«431450_j74423193305350_1_alg».proof.Proof.Gen.ReferenceIdeal
import Idealize.ShloMosaic.Lib.KernelVsHost
import Idealize.ShloMosaic.Lib.Pipeline.Value
import Idealize.ShloMosaic.Lib.ValueIdx
import Idealize.ShloMosaic.PureOps.Ideal.Laws

/-! The three-layer perceptron head at the extended reals: the kernel body's function of its seven blocks, the three
    bias blocks being the one-row casts of the bias vectors, is the reference's composition of three products, each
    plus its bias vector laid along every row, the first two cut below at zero, the last through the hyperbolic
    tangent and times one. Casts to the narrower format are the identity on extended reals; a product accumulated
    into zeros is the product; the two programs' contraction records are the same record; a bias vector cast to one
    row and repeated down the rows is the vector laid along axis 1, in one step or in two; multiplication commutes. -/
set_option maxRecDepth 16384

noncomputable section

namespace Cert.MlpEq

open Idealize.ShloMosaic Idealize.ShloMosaic.ValueIdx

/-- Operands cast to the narrower format and multiplied into a zero accumulator: the host's product of the operands. -/
theorem matmul_truncf_zero_eq_dotGeneral {sl sr so : Shape} (d : DotDims sl sr so) (prec : Option ContractPrecision)
    (l : FVec Ideal sl .f32) (r : FVec Ideal sr .f32) (hl : FTy.bf16.bits < FTy.f32.bits) (hr : FTy.bf16.bits < FTy.f32.bits) :
    matmul d prec (truncf .bf16 l hl) (truncf .bf16 r hr) (constant so .f32 0x00000000#32) = Host.dotGeneral d prec l r := by
  funext j
  show FloatOps.matmul d prec (truncf .bf16 l hl) (truncf .bf16 r hr) (constant so .f32 0x00000000#32) j = FloatOps.dotGeneral d prec _ l r j
  rw [Ideal.matmul_constant_zero_apply, Ideal.dotGeneral_apply]
  rfl

/-- A vector laid along axis 1 of one row, then that row repeated down m rows, is the vector laid along axis 1 of m rows. -/
theorem broadcastInDim_row_rows {α : Type} {m n : Nat} (x : (⟨1, ![n]⟩ : Shape).Idx → α)
    (hd : (⟨1, ![n]⟩ : Shape).BroadcastsInDim ⟨2, ![m, n]⟩ ![1])
    (hd1 : (⟨1, ![n]⟩ : Shape).BroadcastsInDim ⟨2, ![1, n]⟩ ![1])
    (hbc : (⟨2, ![1, n]⟩ : Shape).BroadcastsInDim ⟨2, ![m, n]⟩ ![0, 1]) :
    broadcastInDim ⟨2, ![m, n]⟩ ![0, 1] hbc (broadcastInDim ⟨2, ![1, n]⟩ ![1] hd1 x) = broadcastInDim ⟨2, ![m, n]⟩ ![1] hd x := by
  funext i
  have e0 := broadcastInDim_apply ![0, 1] hbc (broadcastInDim ⟨2, ![1, n]⟩ ![1] hd1 x) i (ix2 (0 : Fin 1) (i 1 : Fin n)) (by
    intro a
    match a with
    | ⟨0, _⟩ => show (0 : ℕ) = if (1 : ℕ) = 1 then 0 else _; simp
    | ⟨1, _⟩ =>
      show (i 1).val = if n = 1 then 0 else (i 1).val
      split
      · have e : (i 1).val < n := (i 1).isLt; omega
      · rfl)
  have e1 := broadcastInDim_apply ![1] hd1 x (ix2 (0 : Fin 1) (i 1 : Fin n)) (ix1 (i 1 : Fin n)) (by
    intro a
    match a with
    | ⟨0, _⟩ =>
      show (i 1).val = if n = 1 then 0 else (i 1).val
      split
      · have e : (i 1).val < n := (i 1).isLt; omega
      · rfl)
  have e2 := broadcastInDim_apply ![1] hd x i (ix1 (i 1 : Fin n)) (by
    intro a
    match a with
    | ⟨0, _⟩ =>
      show (i 1).val = if n = 1 then 0 else (i 1).val
      split
      · have e : (i 1).val < n := (i 1).isLt; omega
      · rfl)
  exact e0.trans (e1.trans e2.symm)

section Reference
open Cert.ReferenceIdeal Cert.ReferenceIdeal.Facts₀

/-- The reference's perceptron head as one function of its seven arrays: the composition of its last operations. -/
def refMlp (x : FVec Ideal S16x68 .f32) (w1 : FVec Ideal S68x256 .f32) (b1 : FVec Ideal S256 .f32) (w2 : FVec Ideal S256x256 .f32)
    (b2 : FVec Ideal S256 .f32) (w3 : FVec Ideal S256x2 .f32) (b3 : FVec Ideal S2 .f32) : FVec Ideal S16x2 .f32 :=
  mulf (broadcastInDim S16x2 ![] bcast_S_S16x2 (constant S_ .f32 0x3F800000#32))
    (Host.tanh (addf (Host.dotGeneral dot_S16x256_S256x2_S16x2_1_0_0_1_n_n none
        (maximumf (addf (Host.dotGeneral dot_S16x256_S256x256_S16x256_1_0_0_1_n_n none
            (maximumf (addf (Host.dotGeneral dot_S16x68_S68x256_S16x256_1_0_0_1_n_n none x w1) (broadcastInDim S16x256 ![0, 1] bcast_S1x256_S16x256_0_1 (broadcastInDim S1x256 ![1] bcast_S256_S1x256_1 b1)))
              (broadcastInDim S16x256 ![] bcast_S_S16x256 (constant S_ .f32 0x00000000#32))) w2) (broadcastInDim S16x256 ![0, 1] bcast_S1x256_S16x256_0_1 (broadcastInDim S1x256 ![1] bcast_S256_S1x256_1 b2)))
          (broadcastInDim S16x256 ![] bcast_S_S16x256 (constant S_ .f32 0x00000000#32))) w3) (broadcastInDim S16x2 ![0, 1] bcast_S1x2_S16x2_0_1 (broadcastInDim S1x2 ![1] bcast_S2_S1x2_1 b3))))

end Reference

theorem dot1_eq : Cert.KernelIdeal.dot_S16x68_S68x256_S16x256_1_0_0_1_n_n = Cert.ReferenceIdeal.dot_S16x68_S68x256_S16x256_1_0_0_1_n_n := rfl
theorem dot2_eq : Cert.KernelIdeal.dot_S16x256_S256x256_S16x256_1_0_0_1_n_n = Cert.ReferenceIdeal.dot_S16x256_S256x256_S16x256_1_0_0_1_n_n := rfl
theorem dot3_eq : Cert.KernelIdeal.dot_S16x256_S256x2_S16x2_1_0_0_1_n_n = Cert.ReferenceIdeal.dot_S16x256_S256x2_S16x2_1_0_0_1_n_n := rfl

set_option maxHeartbeats 2000000 in
/-- The kernel body's function of the seven arrays, its bias blocks the one-row casts of the bias vectors, is the
    reference's head of the same arrays. -/
theorem mlp_eq (x : FVec Ideal Cert.ReferenceIdeal.S16x68 .f32) (w1 : FVec Ideal Cert.ReferenceIdeal.S68x256 .f32) (b1 : FVec Ideal Cert.ReferenceIdeal.S256 .f32)
    (w2 : FVec Ideal Cert.ReferenceIdeal.S256x256 .f32) (b2 : FVec Ideal Cert.ReferenceIdeal.S256 .f32) (w3 : FVec Ideal Cert.ReferenceIdeal.S256x2 .f32) (b3 : FVec Ideal Cert.ReferenceIdeal.S2 .f32) :
    Cert.KernelIdeal.Gen.k20_pay1 (F := Ideal) x w1 (shapeCast Cert.KernelIdeal.S1x256 b1 Cert.KernelIdeal.Facts₀.shapeCasts_S256_S1x256) w2
        (shapeCast Cert.KernelIdeal.S1x256 b2 Cert.KernelIdeal.Facts₀.shapeCasts_S256_S1x256) w3 (shapeCast Cert.KernelIdeal.S1x2 b3 Cert.KernelIdeal.Facts₀.shapeCasts_S2_S1x2)
      = refMlp x w1 b1 w2 b2 w3 b3 := by
  unfold Cert.KernelIdeal.Gen.k20_pay1 refMlp
  have hd256 : (⟨1, ![256]⟩ : Shape).BroadcastsInDim ⟨2, ![16, 256]⟩ ![1] := by decide
  have hd2 : (⟨1, ![2]⟩ : Shape).BroadcastsInDim ⟨2, ![16, 2]⟩ ![1] := by decide
  simp only [shapeCast_self, matmul_truncf_zero_eq_dotGeneral, dot1_eq, dot2_eq, dot3_eq, broadcastInDim_constant,
    broadcastTo_row_eq_broadcastInDim _ _ _ hd256, broadcastTo_row_eq_broadcastInDim _ _ _ hd2,
    broadcastInDim_row_rows _ hd256, broadcastInDim_row_rows _ hd2]
  funext i
  rw [ValueIdx.mulf_apply, ValueIdx.mulf_apply, mul_comm]
  rfl

end Cert.MlpEq

end
-- ==== Proof.Sim.OutKer.lean ====
import proofs.«431450_j74423193305350_1_alg».proof.Proof.Gen.KernelIdeal.Launch
import proofs.«431450_j74423193305350_1_alg».proof.Proof.Gen.KernelIdeal.Skeleton
import proofs.«431450_j74423193305350_1_alg».proof.Proof.KI.HostDefs
import proofs.«431450_j74423193305350_1_alg».proof.Proof.MlpEq
import Idealize.ShloMosaic.Lib.StableHlo.Run
import Idealize.ShloMosaic.Lib.Pipeline.Value
import Idealize.ShloMosaic.Lib.ValueIdx
import Idealize.ShloMosaic.Lib.ValueLayout

/-! The kernel's last stage at the extended reals, from any contents W of the buffers: the last host stretch leaves
    the readout's input (per-graph mean node rows beside the graphs' own features), the three bias vectors as rows and
    the three weight matrices untouched, and the last region's body of those seven arrays is the reference's
    perceptron head of the readout's input and the six weight and bias arrays. -/
set_option synthInstance.maxSize 4096
set_option maxRecDepth 16384

noncomputable section

namespace Cert.Sim

open Cert.KernelIdeal Cert.KernelIdeal.Gen Cert.KernelIdeal.Hand
open Idealize.ShloMosaic Idealize.ShloMosaic.TcCoe Idealize.ShloMosaic.ValueIdx
open Idealize.SL.Sem

variable (W : Valuation τ sig (Elt Ideal))

set_option maxHeartbeats 2000000 in
/-- The readout's input after the last host stretch. -/
theorem host20_readout :
    (StableHlo.after (hostOps20 (F := Ideal)) W (Proc.devRef .tc main_v215) : S16x68.Idx → EReal)
      = readoutX (W (Proc.devRef .tc main_v191)) (W (Proc.devRef .tc main_arg5)) (W (Proc.devRef .tc main_arg0)) := by
  after_results
  all_goals rfl

set_option maxHeartbeats 2000000 in
/-- The last host stretch leaves the first weight matrix as it was. -/
theorem host20_arg24 : StableHlo.after (hostOps20 (F := Ideal)) W (Proc.devRef .tc main_arg24) = W (Proc.devRef .tc main_arg24) := by
  after_results
set_option maxHeartbeats 2000000 in
/-- The last host stretch leaves the second weight matrix as it was. -/
theorem host20_arg26 : StableHlo.after (hostOps20 (F := Ideal)) W (Proc.devRef .tc main_arg26) = W (Proc.devRef .tc main_arg26) := by
  after_results
set_option maxHeartbeats 2000000 in
/-- The last host stretch leaves the third weight matrix as it was. -/
theorem host20_arg28 : StableHlo.after (hostOps20 (F := Ideal)) W (Proc.devRef .tc main_arg28) = W (Proc.devRef .tc main_arg28) := by
  after_results

set_option maxHeartbeats 2000000 in
/-- The first bias vector as one row after the last host stretch. -/
theorem host20_v216_whole : (StableHlo.after (hostOps20 (F := Ideal)) W (Proc.devRef .tc main_v216) : S1x256.Idx → EReal)
    = shapeCast S1x256 (W (Proc.devRef .tc main_arg25) : S256.Idx → EReal) shapeCasts_S256_S1x256 := by
  after_results
  all_goals rfl
set_option maxHeartbeats 2000000 in
/-- The second bias vector as one row after the last host stretch. -/
theorem host20_v217_whole : (StableHlo.after (hostOps20 (F := Ideal)) W (Proc.devRef .tc main_v217) : S1x256.Idx → EReal)
    = shapeCast S1x256 (W (Proc.devRef .tc main_arg27) : S256.Idx → EReal) shapeCasts_S256_S1x256 := by
  after_results
  all_goals rfl
set_option maxHeartbeats 2000000 in
/-- The third bias vector as one row after the last host stretch. -/
theorem host20_v218_whole : (StableHlo.after (hostOps20 (F := Ideal)) W (Proc.devRef .tc main_v218) : S1x2.Idx → EReal)
    = shapeCast S1x2 (W (Proc.devRef .tc main_arg29) : S2.Idx → EReal) shapeCasts_S2_S1x2 := by
  after_results
  all_goals rfl

/-- The last region's body of the seven arrays the last host stretch leaves is the reference's head of the readout's
    input of W's node rows, graph indices and graph features, and of W's six weight and bias arrays. -/
theorem ker_core :
    k20_pay1 (StableHlo.after (hostOps20 (F := Ideal)) W (Proc.devRef .tc main_v215) : S16x68.Idx → EReal)
        (StableHlo.after (hostOps20 (F := Ideal)) W (Proc.devRef .tc main_arg24) : S68x256.Idx → EReal)
        (StableHlo.after (hostOps20 (F := Ideal)) W (Proc.devRef .tc main_v216) : S1x256.Idx → EReal)
        (StableHlo.after (hostOps20 (F := Ideal)) W (Proc.devRef .tc main_arg26) : S256x256.Idx → EReal)
        (StableHlo.after (hostOps20 (F := Ideal)) W (Proc.devRef .tc main_v217) : S1x256.Idx → EReal)
        (StableHlo.after (hostOps20 (F := Ideal)) W (Proc.devRef .tc main_arg28) : S256x2.Idx → EReal)
        (StableHlo.after (hostOps20 (F := Ideal)) W (Proc.devRef .tc main_v218) : S1x2.Idx → EReal)
      = Cert.MlpEq.refMlp (readoutX (W (Proc.devRef .tc main_v191)) (W (Proc.devRef .tc main_arg5)) (W (Proc.devRef .tc main_arg0)))
          (W (Proc.devRef .tc main_arg24)) (W (Proc.devRef .tc main_arg25)) (W (Proc.devRef .tc main_arg26))
          (W (Proc.devRef .tc main_arg27)) (W (Proc.devRef .tc main_arg28)) (W (Proc.devRef .tc main_arg29)) := by
  rw [host20_readout W, host20_arg24 W, host20_v216_whole W, host20_arg26 W, host20_v217_whole W,
    host20_arg28 W, host20_v218_whole W]
  exact Cert.MlpEq.mlp_eq _ _ _ _ _ _ _

end Cert.Sim

end
-- ==== Proof.Sim.OutRef.lean ====
import proofs.«431450_j74423193305350_1_alg».proof.Proof.Ref.Ops
import proofs.«431450_j74423193305350_1_alg».proof.Proof.MlpEq
import Idealize.ShloMosaic.Lib.StableHlo.Run
import Idealize.ShloMosaic.PureOps.Ideal.Laws
import Idealize.ShloMosaic.Lib.ValueIdx

/-! The reference's last stage at the extended reals, from any contents V of the buffers: after the readout's and
    the head's operations the result buffer holds the perceptron head of the readout's input (per-graph mean node
    rows beside the graphs' own features) of V's last node rows, graph indices and graph features, and of V's six
    weight and bias arrays. -/
set_option synthInstance.maxSize 4096
set_option maxRecDepth 16384

noncomputable section

namespace Cert.Sim

open Cert.ReferenceIdeal Cert.ReferenceIdeal.Gen Cert.ReferenceIdeal.Hand
open Idealize.ShloMosaic Idealize.ShloMosaic.TcCoe Idealize.SL.Sem Idealize.ShloMosaic.StableHlo

/-- The reference's readout input: per graph the node rows added up over the count of its nodes, then the graph's
    four own features. -/
def readoutR (X : FVec Ideal S50000x64 .f32) (g : IVec S50000 32) (u : FVec Ideal S16x4 .f32) : FVec Ideal S16x68 .f32 :=
  concatenate S16x68 1 [⟨S16x64, Host.divf
      (Host.scatterAdd scatter_S16x64_S50000x1_S50000x64_1_0_0_1 (broadcastInDim S16x64 ![] bcast_S_S16x64 (constant (F := Ideal) S_ .f32 0x00000000#32)) (broadcastInDim S50000x1 ![0] bcast_S50000_S50000x1_0 g) X)
      (broadcastInDim S16x64 ![0, 1] bcast_S16x1_S16x64_0_1 (broadcastInDim S16x1 ![0] bcast_S16_S16x1_0
        (Host.scatterAdd scatter_S16_S50000x1_S50000_n_0_0_1 (broadcastInDim S16 ![] bcast_S_S16 (constant (F := Ideal) S_ .f32 0x00000000#32)) (broadcastInDim S50000x1 ![0] bcast_S50000_S50000x1_0 g) (broadcastInDim S50000 ![] bcast_S_S50000 (constant (F := Ideal) S_ .f32 0x3F800000#32)))))⟩,
    ⟨S16x4, u⟩] concatenates_S16x64_S16x4_S16x68_d1

set_option maxHeartbeats 4000000 in
/-- What the result buffer holds after the readout's and the head's operations. -/
theorem ref_out (V : Valuation τ sig (Elt Ideal)) :
    (after (opsOutb (F := Ideal)) (after (opsOuta (F := Ideal)) V) (Proc.devRef .tc main_v427) : S16x2.Idx → EReal)
      = Cert.MlpEq.refMlp (readoutR (V (Proc.devRef .tc main_v374)) (V (Proc.devRef .tc main_arg5)) (V (Proc.devRef .tc main_arg0)))
          (V (Proc.devRef .tc main_arg24)) (V (Proc.devRef .tc main_arg25)) (V (Proc.devRef .tc main_arg26)) (V (Proc.devRef .tc main_arg27))
          (V (Proc.devRef .tc main_arg28)) (V (Proc.devRef .tc main_arg29)) := by
  after_results_simp
  all_goals rfl

end Cert.Sim

end
-- ==== Proof.Sim.Out.lean ====
import proofs.«431450_j74423193305350_1_alg».proof.Proof.KI.Fold
import proofs.«431450_j74423193305350_1_alg».proof.Proof.KI.Seg20
import proofs.«431450_j74423193305350_1_alg».proof.Proof.KI.Val20
import proofs.«431450_j74423193305350_1_alg».proof.Proof.Ref.Fold
import proofs.«431450_j74423193305350_1_alg».proof.Proof.Sim.OutKer
import proofs.«431450_j74423193305350_1_alg».proof.Proof.Sim.OutRef
import proofs.«431450_j74423193305350_1_alg».proof.Proof.Sim.Args

/-! The last stage's pairing at the extended reals: when the two programs' memories agree on the arguments and the
    kernel's last layer leaves the node rows the reference's last layer leaves, the kernel's result array at the
    end of its run is the reference's. Both are the same perceptron head of the same readout input: the kernel's
    last region writes its body's function of the arrays the last host stretch leaves; the reference's last
    operations compose to the same function; the two readouts are the same operations over records that are equal. -/
set_option synthInstance.maxSize 4096
set_option maxRecDepth 16384

noncomputable section

namespace Cert.Sim

open Idealize.ShloMosaic Idealize.ShloMosaic.TcCoe Idealize.SL.Sem
open Cert.Spec (Mat)

/-! ## The two readouts are one function -/

theorem scatterRows_eq : Cert.KernelIdeal.scatter_S16x64_S50000x1_S50000x64_1_0_0_1 = Cert.ReferenceIdeal.scatter_S16x64_S50000x1_S50000x64_1_0_0_1 := rfl
theorem scatterCount_eq : Cert.KernelIdeal.scatter_S16_S50000x1_S50000_n_0_0_1 = Cert.ReferenceIdeal.scatter_S16_S50000x1_S50000_n_0_0_1 := rfl

/-- The kernel's readout input of node rows, graph indices and graph features is the reference's. -/
theorem readout_eq (X : FVec Ideal Cert.ReferenceIdeal.S50000x64 .f32) (g : IVec Cert.ReferenceIdeal.S50000 32) (u : FVec Ideal Cert.ReferenceIdeal.S16x4 .f32) :
    Cert.KernelIdeal.Hand.readoutX X g u = readoutR X g u := by
  unfold Cert.KernelIdeal.Hand.readoutX Cert.KernelIdeal.Hand.graphSum Cert.KernelIdeal.Hand.graphCount readoutR
  rw [scatterRows_eq, scatterCount_eq]

/-! ## The kernel's result array at the end of its run -/

section Kernel
open Cert.KernelIdeal Cert.KernelIdeal.Gen Cert.KernelIdeal.GenP Cert.KernelIdeal.Hand

variable (m : (ℓ : Loc nD τ sig) → Buf (Elt Ideal) ℓ) (c : Dev nD)

/-- An array neither the last host stretch nor the last region writes holds before them what it holds at the end. -/
theorem W58_eq_W60 (r : Ref sig .tc) (h59 : r ∉ hostOps20_W) (h60 : r ∉ ([main_v219] : List (Ref sig .tc))) :
    W58 m c r = W60 m c r :=
  ((W60_of m c r h60).trans (W59_of m c r h59)).symm

/-- The result array at the end of the run: the head of the readout's input of the last layer's node rows and of the
    launch's graph indices, graph features and six weight and bias arrays. -/
theorem ker_out :
    (W60 m c (Proc.devRef .tc main_v219) : S16x2.Idx → EReal)
      = Cert.MlpEq.refMlp (readoutX (W58 m c (Proc.devRef .tc main_v191)) (W0 m c (Proc.devRef .tc main_arg5)) (W0 m c (Proc.devRef .tc main_arg0)))
          (W0 m c (Proc.devRef .tc main_arg24)) (W0 m c (Proc.devRef .tc main_arg25)) (W0 m c (Proc.devRef .tc main_arg26)) (W0 m c (Proc.devRef .tc main_arg27)) (W0 m c (Proc.devRef .tc main_arg28)) (W0 m c (Proc.devRef .tc main_arg29)) := by
  have e0 : W58 m c (Proc.devRef .tc main_arg0) = W0 m c (Proc.devRef .tc main_arg0) :=
    (W58_eq_W60 m c main_arg0 (by decide) (by decide)).trans ((congrFun (V60_eq m c).symm _).trans (V60_main_arg0 m (outs m) c))
  have e5 : W58 m c (Proc.devRef .tc main_arg5) = W0 m c (Proc.devRef .tc main_arg5) :=
    (W58_eq_W60 m c main_arg5 (by decide) (by decide)).trans ((congrFun (V60_eq m c).symm _).trans (V60_main_arg5 m (outs m) c))
  have e24 : W58 m c (Proc.devRef .tc main_arg24) = W0 m c (Proc.devRef .tc main_arg24) :=
    (W58_eq_W60 m c main_arg24 (by decide) (by decide)).trans ((congrFun (V60_eq m c).symm _).trans (V60_main_arg24 m (outs m) c))
  have e25 : W58 m c (Proc.devRef .tc main_arg25) = W0 m c (Proc.devRef .tc main_arg25) :=
    (W58_eq_W60 m c main_arg25 (by decide) (by decide)).trans ((congrFun (V60_eq m c).symm _).trans (V60_main_arg25 m (outs m) c))
  have e26 : W58 m c (Proc.devRef .tc main_arg26) = W0 m c (Proc.devRef .tc main_arg26) :=
    (W58_eq_W60 m c main_arg26 (by decide) (by decide)).trans ((congrFun (V60_eq m c).symm _).trans (V60_main_arg26 m (outs m) c))
  have e27 : W58 m c (Proc.devRef .tc main_arg27) = W0 m c (Proc.devRef .tc main_arg27) :=
    (W58_eq_W60 m c main_arg27 (by decide) (by decide)).trans ((congrFun (V60_eq m c).symm _).trans (V60_main_arg27 m (outs m) c))
  have e28 : W58 m c (Proc.devRef .tc main_arg28) = W0 m c (Proc.devRef .tc main_arg28) :=
    (W58_eq_W60 m c main_arg28 (by decide) (by decide)).trans ((congrFun (V60_eq m c).symm _).trans (V60_main_arg28 m (outs m) c))
  have e29 : W58 m c (Proc.devRef .tc main_arg29) = W0 m c (Proc.devRef .tc main_arg29) :=
    (W58_eq_W60 m c main_arg29 (by decide) (by decide)).trans ((congrFun (V60_eq m c).symm _).trans (V60_main_arg29 m (outs m) c))
  have h := (hF20 m c 7).symm.trans ((final20 (T59 m) c).trans (ker_core (W58 m c)))
  rw [e0, e5, e24, e25, e26, e27, e28, e29] at h
  exact h

end Kernel

/-! ## The reference's result array at the end of its run -/

section Reference
open Cert.ReferenceIdeal Cert.ReferenceIdeal.Gen Cert.ReferenceIdeal.Hand Idealize.ShloMosaic.StableHlo

variable (m' : (ℓ : Loc nD τ sig) → Buf (Elt Ideal) ℓ) (c : Dev nD)

/-- An array no operation of the embeddings and the three layers writes holds after them what the launch gave it. -/
theorem RW4_launch (r : Ref sig .tc) (h3 : r ∉ opsL3_W) (h2 : r ∉ opsL2_W) (h1 : r ∉ opsL1_W) (h0 : r ∉ opsEmb_W) :
    RW4 m' c (Proc.devRef .tc r) = RW0 m' c (Proc.devRef .tc r) :=
  (RW4_of m' c r h3).trans ((RW3_of m' c r h2).trans ((RW2_of m' c r h1).trans (RW1_of m' c r h0)))

/-- The result array at the end of the run: the head of the readout's input of the last layer's node rows and of the
    launch's graph indices, graph features and six weight and bias arrays. -/
theorem ref_out_RW :
    (RW5 m' c (Proc.devRef .tc main_v427) : S16x2.Idx → EReal)
      = Cert.MlpEq.refMlp (readoutR (RW4 m' c (Proc.devRef .tc main_v374)) (RW0 m' c (Proc.devRef .tc main_arg5)) (RW0 m' c (Proc.devRef .tc main_arg0)))
          (RW0 m' c (Proc.devRef .tc main_arg24)) (RW0 m' c (Proc.devRef .tc main_arg25)) (RW0 m' c (Proc.devRef .tc main_arg26)) (RW0 m' c (Proc.devRef .tc main_arg27)) (RW0 m' c (Proc.devRef .tc main_arg28)) (RW0 m' c (Proc.devRef .tc main_arg29)) := by
  have e0 : RW4 m' c (Proc.devRef .tc main_arg0) = RW0 m' c (Proc.devRef .tc main_arg0) :=
    RW4_launch m' c main_arg0 (by decide) (by decide) (by decide) (by decide)
  have e5 : RW4 m' c (Proc.devRef .tc main_arg5) = RW0 m' c (Proc.devRef .tc main_arg5) :=
    RW4_launch m' c main_arg5 (by decide) (by decide) (by decide) (by decide)
  have e24 : RW4 m' c (Proc.devRef .tc main_arg24) = RW0 m' c (Proc.devRef .tc main_arg24) :=
    RW4_launch m' c main_arg24 (by decide) (by decide) (by decide) (by decide)
  have e25 : RW4 m' c (Proc.devRef .tc main_arg25) = RW0 m' c (Proc.devRef .tc main_arg25) :=
    RW4_launch m' c main_arg25 (by decide) (by decide) (by decide) (by decide)
  have e26 : RW4 m' c (Proc.devRef .tc main_arg26) = RW0 m' c (Proc.devRef .tc main_arg26) :=
    RW4_launch m' c main_arg26 (by decide) (by decide) (by decide) (by decide)
  have e27 : RW4 m' c (Proc.devRef .tc main_arg27) = RW0 m' c (Proc.devRef .tc main_arg27) :=
    RW4_launch m' c main_arg27 (by decide) (by decide) (by decide) (by decide)
  have e28 : RW4 m' c (Proc.devRef .tc main_arg28) = RW0 m' c (Proc.devRef .tc main_arg28) :=
    RW4_launch m' c main_arg28 (by decide) (by decide) (by decide) (by decide)
  have e29 : RW4 m' c (Proc.devRef .tc main_arg29) = RW0 m' c (Proc.devRef .tc main_arg29) :=
    RW4_launch m' c main_arg29 (by decide) (by decide) (by decide) (by decide)
  have h : (RW5 m' c (Proc.devRef .tc main_v427) : S16x2.Idx → EReal) = _ :=
    (congrFun (after_opsOut (RW4 m' c)) _).trans (ref_out (RW4 m' c))
  rw [e0, e5, e24, e25, e26, e27, e28, e29] at h
  exact h

end Reference

/-! ## The pairing -/

open Cert.KernelIdeal.Hand Cert.ReferenceIdeal.Hand in
/-- The kernel's result array at the end of its run is the reference's. -/
theorem out_eq (m : KM) (m' : RM) (c : Dev Cert.KernelIdeal.nD) (hagree : Agree m m')
    (hh : (Cert.KernelIdeal.Hand.T58 m c Cert.KernelIdeal.main_v191 : Cert.KernelIdeal.S50000x64.Idx → EReal)
      = Cert.ReferenceIdeal.Hand.RW4 m' c Cert.ReferenceIdeal.main_v374) :
    (Cert.KernelIdeal.Hand.W60 m c Cert.KernelIdeal.main_v219 : Cert.KernelIdeal.S16x2.Idx → EReal)
      = Cert.ReferenceIdeal.Hand.RW5 m' c Cert.ReferenceIdeal.main_v427 := by
  have ag := args_agree m m' hagree c
  refine (ker_out m c).trans (Eq.trans ?_ (ref_out_RW m' c).symm)
  rw [readout_eq, ag.1, ag.2.2.2.2.2.1, ag.2.2.2.2.2.2.2.2.2.2.2.2.2.2.2.2.2.2.2.2.2.2.2.2.1, ag.2.2.2.2.2.2.2.2.2.2.2.2.2.2.2.2.2.2.2.2.2.2.2.2.2.1, ag.2.2.2.2.2.2.2.2.2.2.2.2.2.2.2.2.2.2.2.2.2.2.2.2.2.2.1, ag.2.2.2.2.2.2.2.2.2.2.2.2.2.2.2.2.2.2.2.2.2.2.2.2.2.2.2.1, ag.2.2.2.2.2.2.2.2.2.2.2.2.2.2.2.2.2.2.2.2.2.2.2.2.2.2.2.2.1, ag.2.2.2.2.2.2.2.2.2.2.2.2.2.2.2.2.2.2.2.2.2.2.2.2.2.2.2.2.2, ← hh]

end Cert.Sim

end
-- ==== Proof.Sim.Main.lean ====
import proofs.«431450_j74423193305350_1_alg».proof.Proof.Sim.Layer1
import proofs.«431450_j74423193305350_1_alg».proof.Proof.Sim.Layer2
import proofs.«431450_j74423193305350_1_alg».proof.Proof.Sim.Layer3
import proofs.«431450_j74423193305350_1_alg».proof.Proof.Sim.Out

/-! The whole network, kernel against reference: from memories that agree on the arguments, the two embeddings
    agree, so each layer's node and edge features agree in turn, so the readout and the MLP give the same result. -/
set_option maxRecDepth 16384

noncomputable section

namespace Cert.Sim

open Idealize.ShloMosaic Idealize.ShloMosaic.TcCoe Idealize.ShloMosaic.ValueIdx Idealize.ShloMosaic.StableHlo
open Idealize.SL.Sem
open Cert.KernelIdeal.Hand Cert.ReferenceIdeal.Hand
open Cert.Spec (Mat)

/-- The reference's result buffer after all of its operations is the kernel's result array after its last region. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29))
    (c : Dev Cert.KernelIdeal.nD) :
    StableHlo.after (Cert.ReferenceIdeal.Hand.ops (F := Ideal)) (fun b => m' (c, b)) (Proc.devRef .tc Cert.ReferenceIdeal.main_v427)
      = Cert.KernelIdeal.Hand.W60 m c (Proc.devRef .tc Cert.KernelIdeal.main_v219) := by
  have hag : Agree m m' := hagree
  have h0 := (dense1_eqs m m' hag c).1
  have e0 := (dense1_eqs m m' hag c).2.1
  have h0' : (T4 m c Cert.KernelIdeal.main_v1 : Mat 50000 64) = (RW1 m' c (Proc.devRef .tc Cert.ReferenceIdeal.main_v5) : Mat 50000 64) :=
    Eq.trans ((W4_of m c Cert.KernelIdeal.main_v1 (by decide)).trans (W3_of m c Cert.KernelIdeal.main_v1 (by decide))) h0
  obtain ⟨h1, e1⟩ := layer1 m m' hpre hag c h0' e0
  obtain ⟨h2, e2⟩ := layer2 m m' hpre hag c h1 e1
  have h3 := layer3 m m' hpre hag c h2 e2
  have ho := out_eq m m' c hag h3
  rw [after_ops_eq m' c]
  exact ho.symm

end Cert.Sim

end
-- ==== Proof.lean ====
/- Equivalence of a three-layer gated graph network written as twenty-one tiled kernels with its plain reference.
   The kernels' program is run region by region: every region's output array is, entry by entry, the layer's formula
   of its input arrays (a dense layer, the reciprocal dense layer, the gate and the gated message, the node update,
   the normalised residual step, the three-layer head); the host code between the regions is read at an index (slices,
   concatenations, reshapes, row look-ups under the index range of the precondition) or carried as one function where
   the reference applies the same operations (segment sums, column means and variances, the per-graph readout). The
   reference's operations are read against the same formulas, stage by stage, so the two results are one array.
   The three frames are the runs with their results dropped. -/
import proofs.«431450_j74423193305350_1_alg».proof.Defs
import proofs.«431450_j74423193305350_1_alg».proof.Proof.Gen.Kernel
import proofs.«431450_j74423193305350_1_alg».proof.Proof.Gen.KernelIdeal
import proofs.«431450_j74423193305350_1_alg».proof.Proof.Gen.ReferenceIdeal
import proofs.«431450_j74423193305350_1_alg».proof.Proof.Gen.Pre_finite_inputs
import proofs.«431450_j74423193305350_1_alg».proof.Proof.K.Run
import proofs.«431450_j74423193305350_1_alg».proof.Proof.KI.Run
import proofs.«431450_j74423193305350_1_alg».proof.Proof.Ref.Run
import proofs.«431450_j74423193305350_1_alg».proof.Proof.Ref.Res
import proofs.«431450_j74423193305350_1_alg».proof.Proof.Sim.Main
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => Cert.ReferenceIdeal.Hand.frame m ρ,
  trivial,
  fun m ρ m' ρ' hpre hagree =>
    ⟨fun c => Cert.KernelIdeal.Hand.W60 m c (Proc.devRef .tc Cert.KernelIdeal.main_v219),
      Cert.KernelIdeal.Hand.run_res m ρ,
      Cert.ReferenceIdeal.Hand.run_res m' ρ' _ (fun c => Cert.Sim.result_eq m m' hpre hagree c)⟩⟩

end Cert.Proof

end
